-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)) →
    ∃ (v0 : (c : Dev Cert.KernelIdeal.nD) → Buf (Elt Ideal) ((c.tc : Thread Cert.KernelIdeal.nD Cert.KernelIdeal.τ).loc Cert.KernelIdeal.main_v369)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v369) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v738) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x128 : Shape := ⟨2, ![1, 128]⟩
abbrev S5 : Shape := ⟨1, ![5]⟩
abbrev S5x128x256 : Shape := ⟨3, ![5, 128, 256]⟩
abbrev S5x256 : Shape := ⟨2, ![5, 256]⟩
abbrev S5x256x128 : Shape := ⟨3, ![5, 256, 128]⟩
abbrev S5x128 : Shape := ⟨2, ![5, 128]⟩
abbrev S128x10 : Shape := ⟨2, ![128, 10]⟩
abbrev S10 : Shape := ⟨1, ![10]⟩
abbrev S50000 : Shape := ⟨1, ![50000]⟩
abbrev S2x600000 : Shape := ⟨2, ![2, 600000]⟩
abbrev S_ : Shape := ⟨0, ![]⟩

class Facts : Prop where
  bcast_S_S1x128 : S_.BroadcastsInDim S1x128 (![] : Fin 0 → Fin S1x128.rank)
  reducesTo_S1x128_S_d0_1 : S1x128.ReducesTo [0, 1] S_
  h_S_ : 0 < S_.numel
  bcast_S_S5 : S_.BroadcastsInDim S5 (![] : Fin 0 → Fin S5.rank)
  reducesTo_S5_S_d0 : S5.ReducesTo [0] S_
  bcast_S_S5x128x256 : S_.BroadcastsInDim S5x128x256 (![] : Fin 0 → Fin S5x128x256.rank)
  reducesTo_S5x128x256_S_d0_1_2 : S5x128x256.ReducesTo [0, 1, 2] S_
  bcast_S_S5x256 : S_.BroadcastsInDim S5x256 (![] : Fin 0 → Fin S5x256.rank)
  reducesTo_S5x256_S_d0_1 : S5x256.ReducesTo [0, 1] S_
  bcast_S_S5x256x128 : S_.BroadcastsInDim S5x256x128 (![] : Fin 0 → Fin S5x256x128.rank)
  reducesTo_S5x256x128_S_d0_1_2 : S5x256x128.ReducesTo [0, 1, 2] S_
  bcast_S_S5x128 : S_.BroadcastsInDim S5x128 (![] : Fin 0 → Fin S5x128.rank)
  reducesTo_S5x128_S_d0_1 : S5x128.ReducesTo [0, 1] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part9 {F : FTy → Type} [FloatOps F] (main_arg20 : FVec F S5x256 .f32) (main_arg26 : FVec F S5x128 .f32) (main_v151 : IVec S_ 1) (main_v152 : FVec F S5x256 .f32) : IVec S_ 1 :=
  let main_v153 : IVec S5x256 1 := cmpf .oge main_arg20 main_v152
  let main_c_61 : IVec S_ 1 := constantI S_ 1 1#1
  let main_v154 : IVec S_ 1 := (fun x v => Host.reduce IntOp.andi x v reducesTo_S5x256_S_d0_1 h_S_) main_v153 main_c_61
  let main_v155 : IVec S_ 1 := andi main_v151 main_v154
  let main_cst_62 : FVec F S_ .f32 := constant S_ .f32 0x00000000#32
  let main_v156 : FVec F S5x128 .f32 := broadcastInDim S5x128 ![] bcast_S_S5x128 main_cst_62
  let main_v157 : IVec S5x128 1 := cmpf .oge main_arg26 main_v156
  let main_c_63 : IVec S_ 1 := constantI S_ 1 1#1
  let main_v158 : IVec S_ 1 := (fun x v => Host.reduce IntOp.andi x v reducesTo_S5x128_S_d0_1 h_S_) main_v157 main_c_63
  let main_v159 : IVec S_ 1 := andi main_v155 main_v158
  main_v159

def fn_part8 {F : FTy → Type} [FloatOps F] (main_arg8 : FVec F S5x256 .f32) (main_arg14 : FVec F S5x128 .f32) (main_arg20 : FVec F S5x256 .f32) (main_arg26 : FVec F S5x128 .f32) (main_arg28 : FVec F S10 .f32) (main_v133 : IVec S_ 1) (main_v136 : IVec S128x10 1) : IVec S_ 1 :=
  let main_c_53 : IVec S_ 1 := constantI S_ 1 1#1
  let main_v137 : IVec S_ 1 := (fun x v => Host.reduce IntOp.andi x v reducesTo_S128x10_S_d0_1 h_S_) main_v136 main_c_53
  let main_v138 : IVec S_ 1 := andi main_v133 main_v137
  let main_v139 : FVec F S10 .f32 := Host.absf main_arg28
  let main_cst_54 : FVec F S_ .f32 := constant S_ .f32 0x7F800000#32
  let main_v140 : FVec F S10 .f32 := broadcastInDim S10 ![] bcast_S_S10 main_cst_54
  let main_v141 : IVec S10 1 := cmpf .olt main_v139 main_v140
  let main_c_55 : IVec S_ 1 := constantI S_ 1 1#1
  let main_v142 : IVec S_ 1 := (fun x v => Host.reduce IntOp.andi x v reducesTo_S10_S_d0 h_S_) main_v141 main_c_55
  let main_v143 : IVec S_ 1 := andi main_v138 main_v142
  let main_cst_56 : FVec F S_ .f32 := constant S_ .f32 0x00000000#32
  let main_v144 : FVec F S5x256 .f32 := broadcastInDim S5x256 ![] bcast_S_S5x256 main_cst_56
  let main_v145 : IVec S5x256 1 := cmpf .oge main_arg8 main_v144
  let main_c_57 : IVec S_ 1 := constantI S_ 1 1#1
  let main_v146 : IVec S_ 1 := (fun x v => Host.reduce IntOp.andi x v reducesTo_S5x256_S_d0_1 h_S_) main_v145 main_c_57
  let main_v147 : IVec S_ 1 := andi main_v143 main_v146
  let main_cst_58 : FVec F S_ .f32 := constant S_ .f32 0x00000000#32
  let main_v148 : FVec F S5x128 .f32 := broadcastInDim S5x128 ![] bcast_S_S5x128 main_cst_58
  let main_v149 : IVec S5x128 1 := cmpf .oge main_arg14 main_v148
  let main_c_59 : IVec S_ 1 := constantI S_ 1 1#1
  let main_v150 : IVec S_ 1 := (fun x v => Host.reduce IntOp.andi x v reducesTo_S5x128_S_d0_1 h_S_) main_v149 main_c_59
  let main_v151 : IVec S_ 1 := andi main_v147 main_v150
  let main_cst_60 : FVec F S_ .f32 := constant S_ .f32 0x00000000#32
  let main_v152 : FVec F S5x256 .f32 := broadcastInDim S5x256 ![] bcast_S_S5x256 main_cst_60
  fn_part9 (F := F) main_arg20 main_arg26 main_v151 main_v152

def fn_part7 {F : FTy → Type} [FloatOps F] (main_arg8 : FVec F S5x256 .f32) (main_arg14 : FVec F S5x128 .f32) (main_arg20 : FVec F S5x256 .f32) (main_arg25 : FVec F S5x128 .f32) (main_arg26 : FVec F S5x128 .f32) (main_arg27 : FVec F S128x10 .f32) (main_arg28 : FVec F S10 .f32) (main_v118 : IVec S_ 1) (main_v119 : FVec F S5x128 .f32) : IVec S_ 1 :=
  let main_cst_46 : FVec F S_ .f32 := constant S_ .f32 0x7F800000#32
  let main_v120 : FVec F S5x128 .f32 := broadcastInDim S5x128 ![] bcast_S_S5x128 main_cst_46
  let main_v121 : IVec S5x128 1 := cmpf .olt main_v119 main_v120
  let main_c_47 : IVec S_ 1 := constantI S_ 1 1#1
  let main_v122 : IVec S_ 1 := (fun x v => Host.reduce IntOp.andi x v reducesTo_S5x128_S_d0_1 h_S_) main_v121 main_c_47
  let main_v123 : IVec S_ 1 := andi main_v118 main_v122
  let main_v124 : FVec F S5x128 .f32 := Host.absf main_arg25
  let main_cst_48 : FVec F S_ .f32 := constant S_ .f32 0x7F800000#32
  let main_v125 : FVec F S5x128 .f32 := broadcastInDim S5x128 ![] bcast_S_S5x128 main_cst_48
  let main_v126 : IVec S5x128 1 := cmpf .olt main_v124 main_v125
  let main_c_49 : IVec S_ 1 := constantI S_ 1 1#1
  let main_v127 : IVec S_ 1 := (fun x v => Host.reduce IntOp.andi x v reducesTo_S5x128_S_d0_1 h_S_) main_v126 main_c_49
  let main_v128 : IVec S_ 1 := andi main_v123 main_v127
  let main_v129 : FVec F S5x128 .f32 := Host.absf main_arg26
  let main_cst_50 : FVec F S_ .f32 := constant S_ .f32 0x7F800000#32
  let main_v130 : FVec F S5x128 .f32 := broadcastInDim S5x128 ![] bcast_S_S5x128 main_cst_50
  let main_v131 : IVec S5x128 1 := cmpf .olt main_v129 main_v130
  let main_c_51 : IVec S_ 1 := constantI S_ 1 1#1
  let main_v132 : IVec S_ 1 := (fun x v => Host.reduce IntOp.andi x v reducesTo_S5x128_S_d0_1 h_S_) main_v131 main_c_51
  let main_v133 : IVec S_ 1 := andi main_v128 main_v132
  let main_v134 : FVec F S128x10 .f32 := Host.absf main_arg27
  let main_cst_52 : FVec F S_ .f32 := constant S_ .f32 0x7F800000#32
  let main_v135 : FVec F S128x10 .f32 := broadcastInDim S128x10 ![] bcast_S_S128x10 main_cst_52
  let main_v136 : IVec S128x10 1 := cmpf .olt main_v134 main_v135
  fn_part8 (F := F) main_arg8 main_arg14 main_arg20 main_arg26 main_arg28 main_v133 main_v136

def fn_part6 {F : FTy → Type} [FloatOps F] (main_arg8 : FVec F S5x256 .f32) (main_arg14 : FVec F S5x128 .f32) (main_arg20 : FVec F S5x256 .f32) (main_arg21 : FVec F S5x256x128 .f32) (main_arg22 : FVec F S5x128 .f32) (main_arg23 : FVec F S5x128 .f32) (main_arg24 : FVec F S5x128 .f32) (main_arg25 : FVec F S5x128 .f32) (main_arg26 : FVec F S5x128 .f32) (main_arg27 : FVec F S128x10 .f32) (main_arg28 : FVec F S10 .f32) (main_v98 : IVec S_ 1) (main_v101 : IVec S5x256 1) (main_c_39 : IVec S_ 1) : IVec S_ 1 :=
  let main_v102 : IVec S_ 1 := (fun x v => Host.reduce IntOp.andi x v reducesTo_S5x256_S_d0_1 h_S_) main_v101 main_c_39
  let main_v103 : IVec S_ 1 := andi main_v98 main_v102
  let main_v104 : FVec F S5x256x128 .f32 := Host.absf main_arg21
  let main_cst_40 : FVec F S_ .f32 := constant S_ .f32 0x7F800000#32
  let main_v105 : FVec F S5x256x128 .f32 := broadcastInDim S5x256x128 ![] bcast_S_S5x256x128 main_cst_40
  let main_v106 : IVec S5x256x128 1 := cmpf .olt main_v104 main_v105
  let main_c_41 : IVec S_ 1 := constantI S_ 1 1#1
  let main_v107 : IVec S_ 1 := (fun x v => Host.reduce IntOp.andi x v reducesTo_S5x256x128_S_d0_1_2 h_S_) main_v106 main_c_41
  let main_v108 : IVec S_ 1 := andi main_v103 main_v107
  let main_v109 : FVec F S5x128 .f32 := Host.absf main_arg22
  let main_cst_42 : FVec F S_ .f32 := constant S_ .f32 0x7F800000#32
  let main_v110 : FVec F S5x128 .f32 := broadcastInDim S5x128 ![] bcast_S_S5x128 main_cst_42
  let main_v111 : IVec S5x128 1 := cmpf .olt main_v109 main_v110
  let main_c_43 : IVec S_ 1 := constantI S_ 1 1#1
  let main_v112 : IVec S_ 1 := (fun x v => Host.reduce IntOp.andi x v reducesTo_S5x128_S_d0_1 h_S_) main_v111 main_c_43
  let main_v113 : IVec S_ 1 := andi main_v108 main_v112
  let main_v114 : FVec F S5x128 .f32 := Host.absf main_arg23
  let main_cst_44 : FVec F S_ .f32 := constant S_ .f32 0x7F800000#32
  let main_v115 : FVec F S5x128 .f32 := broadcastInDim S5x128 ![] bcast_S_S5x128 main_cst_44
  let main_v116 : IVec S5x128 1 := cmpf .olt main_v114 main_v115
  let main_c_45 : IVec S_ 1 := constantI S_ 1 1#1
  let main_v117 : IVec S_ 1 := (fun x v => Host.reduce IntOp.andi x v reducesTo_S5x128_S_d0_1 h_S_) main_v116 main_c_45
  let main_v118 : IVec S_ 1 := andi main_v113 main_v117
  let main_v119 : FVec F S5x128 .f32 := Host.absf main_arg24
  fn_part7 (F := F) main_arg8 main_arg14 main_arg20 main_arg25 main_arg26 main_arg27 main_arg28 main_v118 main_v119

def fn_part5 {F : FTy → Type} [FloatOps F] (main_arg8 : FVec F S5x256 .f32) (main_arg14 : FVec F S5x128 .f32) (main_arg18 : FVec F S5x256 .f32) (main_arg19 : FVec F S5x256 .f32) (main_arg20 : FVec F S5x256 .f32) (main_arg21 : FVec F S5x256x128 .f32) (main_arg22 : FVec F S5x128 .f32) (main_arg23 : FVec F S5x128 .f32) (main_arg24 : FVec F S5x128 .f32) (main_arg25 : FVec F S5x128 .f32) (main_arg26 : FVec F S5x128 .f32) (main_arg27 : FVec F S128x10 .f32) (main_arg28 : FVec F S10 .f32) (main_v83 : IVec S_ 1) (main_v84 : FVec F S5x256 .f32) (main_cst_32 : FVec F S_ .f32) : IVec S_ 1 :=
  let main_v85 : FVec F S5x256 .f32 := broadcastInDim S5x256 ![] bcast_S_S5x256 main_cst_32
  let main_v86 : IVec S5x256 1 := cmpf .olt main_v84 main_v85
  let main_c_33 : IVec S_ 1 := constantI S_ 1 1#1
  let main_v87 : IVec S_ 1 := (fun x v => Host.reduce IntOp.andi x v reducesTo_S5x256_S_d0_1 h_S_) main_v86 main_c_33
  let main_v88 : IVec S_ 1 := andi main_v83 main_v87
  let main_v89 : FVec F S5x256 .f32 := Host.absf main_arg18
  let main_cst_34 : FVec F S_ .f32 := constant S_ .f32 0x7F800000#32
  let main_v90 : FVec F S5x256 .f32 := broadcastInDim S5x256 ![] bcast_S_S5x256 main_cst_34
  let main_v91 : IVec S5x256 1 := cmpf .olt main_v89 main_v90
  let main_c_35 : IVec S_ 1 := constantI S_ 1 1#1
  let main_v92 : IVec S_ 1 := (fun x v => Host.reduce IntOp.andi x v reducesTo_S5x256_S_d0_1 h_S_) main_v91 main_c_35
  let main_v93 : IVec S_ 1 := andi main_v88 main_v92
  let main_v94 : FVec F S5x256 .f32 := Host.absf main_arg19
  let main_cst_36 : FVec F S_ .f32 := constant S_ .f32 0x7F800000#32
  let main_v95 : FVec F S5x256 .f32 := broadcastInDim S5x256 ![] bcast_S_S5x256 main_cst_36
  let main_v96 : IVec S5x256 1 := cmpf .olt main_v94 main_v95
  let main_c_37 : IVec S_ 1 := constantI S_ 1 1#1
  let main_v97 : IVec S_ 1 := (fun x v => Host.reduce IntOp.andi x v reducesTo_S5x256_S_d0_1 h_S_) main_v96 main_c_37
  let main_v98 : IVec S_ 1 := andi main_v93 main_v97
  let main_v99 : FVec F S5x256 .f32 := Host.absf main_arg20
  let main_cst_38 : FVec F S_ .f32 := constant S_ .f32 0x7F800000#32
  let main_v100 : FVec F S5x256 .f32 := broadcastInDim S5x256 ![] bcast_S_S5x256 main_cst_38
  let main_v101 : IVec S5x256 1 := cmpf .olt main_v99 main_v100
  let main_c_39 : IVec S_ 1 := constantI S_ 1 1#1
  fn_part6 (F := F) main_arg8 main_arg14 main_arg20 main_arg21 main_arg22 main_arg23 main_arg24 main_arg25 main_arg26 main_arg27 main_arg28 main_v98 main_v101 main_c_39

def fn_part4 {F : FTy → Type} [FloatOps F] (main_arg8 : FVec F S5x256 .f32) (main_arg14 : FVec F S5x128 .f32) (main_arg15 : FVec F S5x128x256 .f32) (main_arg16 : FVec F S5x256 .f32) (main_arg17 : FVec F S5x256 .f32) (main_arg18 : FVec F S5x256 .f32) (main_arg19 : FVec F S5x256 .f32) (main_arg20 : FVec F S5x256 .f32) (main_arg21 : FVec F S5x256x128 .f32) (main_arg22 : FVec F S5x128 .f32) (main_arg23 : FVec F S5x128 .f32) (main_arg24 : FVec F S5x128 .f32) (main_arg25 : FVec F S5x128 .f32) (main_arg26 : FVec F S5x128 .f32) (main_arg27 : FVec F S128x10 .f32) (main_arg28 : FVec F S10 .f32) (main_v63 : IVec S_ 1) (main_v67 : IVec S_ 1) : IVec S_ 1 :=
  let main_v68 : IVec S_ 1 := andi main_v63 main_v67
  let main_v69 : FVec F S5x128 .f32 := Host.absf main_arg14
  let main_cst_26 : FVec F S_ .f32 := constant S_ .f32 0x7F800000#32
  let main_v70 : FVec F S5x128 .f32 := broadcastInDim S5x128 ![] bcast_S_S5x128 main_cst_26
  let main_v71 : IVec S5x128 1 := cmpf .olt main_v69 main_v70
  let main_c_27 : IVec S_ 1 := constantI S_ 1 1#1
  let main_v72 : IVec S_ 1 := (fun x v => Host.reduce IntOp.andi x v reducesTo_S5x128_S_d0_1 h_S_) main_v71 main_c_27
  let main_v73 : IVec S_ 1 := andi main_v68 main_v72
  let main_v74 : FVec F S5x128x256 .f32 := Host.absf main_arg15
  let main_cst_28 : FVec F S_ .f32 := constant S_ .f32 0x7F800000#32
  let main_v75 : FVec F S5x128x256 .f32 := broadcastInDim S5x128x256 ![] bcast_S_S5x128x256 main_cst_28
  let main_v76 : IVec S5x128x256 1 := cmpf .olt main_v74 main_v75
  let main_c_29 : IVec S_ 1 := constantI S_ 1 1#1
  let main_v77 : IVec S_ 1 := (fun x v => Host.reduce IntOp.andi x v reducesTo_S5x128x256_S_d0_1_2 h_S_) main_v76 main_c_29
  let main_v78 : IVec S_ 1 := andi main_v73 main_v77
  let main_v79 : FVec F S5x256 .f32 := Host.absf main_arg16
  let main_cst_30 : FVec F S_ .f32 := constant S_ .f32 0x7F800000#32
  let main_v80 : FVec F S5x256 .f32 := broadcastInDim S5x256 ![] bcast_S_S5x256 main_cst_30
  let main_v81 : IVec S5x256 1 := cmpf .olt main_v79 main_v80
  let main_c_31 : IVec S_ 1 := constantI S_ 1 1#1
  let main_v82 : IVec S_ 1 := (fun x v => Host.reduce IntOp.andi x v reducesTo_S5x256_S_d0_1 h_S_) main_v81 main_c_31
  let main_v83 : IVec S_ 1 := andi main_v78 main_v82
  let main_v84 : FVec F S5x256 .f32 := Host.absf main_arg17
  let main_cst_32 : FVec F S_ .f32 := constant S_ .f32 0x7F800000#32
  fn_part5 (F := F) main_arg8 main_arg14 main_arg18 main_arg19 main_arg20 main_arg21 main_arg22 main_arg23 main_arg24 main_arg25 main_arg26 main_arg27 main_arg28 main_v83 main_v84 main_cst_32

def fn_part3 {F : FTy → Type} [FloatOps F] (main_arg8 : FVec F S5x256 .f32) (main_arg11 : FVec F S5x128 .f32) (main_arg12 : FVec F S5x128 .f32) (main_arg13 : FVec F S5x128 .f32) (main_arg14 : FVec F S5x128 .f32) (main_arg15 : FVec F S5x128x256 .f32) (main_arg16 : FVec F S5x256 .f32) (main_arg17 : FVec F S5x256 .f32) (main_arg18 : FVec F S5x256 .f32) (main_arg19 : FVec F S5x256 .f32) (main_arg20 : FVec F S5x256 .f32) (main_arg21 : FVec F S5x256x128 .f32) (main_arg22 : FVec F S5x128 .f32) (main_arg23 : FVec F S5x128 .f32) (main_arg24 : FVec F S5x128 .f32) (main_arg25 : FVec F S5x128 .f32) (main_arg26 : FVec F S5x128 .f32) (main_arg27 : FVec F S128x10 .f32) (main_arg28 : FVec F S10 .f32) (main_v48 : IVec S_ 1) (main_v49 : FVec F S5x128 .f32) (main_v50 : FVec F S5x128 .f32) : IVec S_ 1 :=
  let main_v51 : IVec S5x128 1 := cmpf .olt main_v49 main_v50
  let main_c_19 : IVec S_ 1 := constantI S_ 1 1#1
  let main_v52 : IVec S_ 1 := (fun x v => Host.reduce IntOp.andi x v reducesTo_S5x128_S_d0_1 h_S_) main_v51 main_c_19
  let main_v53 : IVec S_ 1 := andi main_v48 main_v52
  let main_v54 : FVec F S5x128 .f32 := Host.absf main_arg11
  let main_cst_20 : FVec F S_ .f32 := constant S_ .f32 0x7F800000#32
  let main_v55 : FVec F S5x128 .f32 := broadcastInDim S5x128 ![] bcast_S_S5x128 main_cst_20
  let main_v56 : IVec S5x128 1 := cmpf .olt main_v54 main_v55
  let main_c_21 : IVec S_ 1 := constantI S_ 1 1#1
  let main_v57 : IVec S_ 1 := (fun x v => Host.reduce IntOp.andi x v reducesTo_S5x128_S_d0_1 h_S_) main_v56 main_c_21
  let main_v58 : IVec S_ 1 := andi main_v53 main_v57
  let main_v59 : FVec F S5x128 .f32 := Host.absf main_arg12
  let main_cst_22 : FVec F S_ .f32 := constant S_ .f32 0x7F800000#32
  let main_v60 : FVec F S5x128 .f32 := broadcastInDim S5x128 ![] bcast_S_S5x128 main_cst_22
  let main_v61 : IVec S5x128 1 := cmpf .olt main_v59 main_v60
  let main_c_23 : IVec S_ 1 := constantI S_ 1 1#1
  let main_v62 : IVec S_ 1 := (fun x v => Host.reduce IntOp.andi x v reducesTo_S5x128_S_d0_1 h_S_) main_v61 main_c_23
  let main_v63 : IVec S_ 1 := andi main_v58 main_v62
  let main_v64 : FVec F S5x128 .f32 := Host.absf main_arg13
  let main_cst_24 : FVec F S_ .f32 := constant S_ .f32 0x7F800000#32
  let main_v65 : FVec F S5x128 .f32 := broadcastInDim S5x128 ![] bcast_S_S5x128 main_cst_24
  let main_v66 : IVec S5x128 1 := cmpf .olt main_v64 main_v65
  let main_c_25 : IVec S_ 1 := constantI S_ 1 1#1
  let main_v67 : IVec S_ 1 := (fun x v => Host.reduce IntOp.andi x v reducesTo_S5x128_S_d0_1 h_S_) main_v66 main_c_25
  fn_part4 (F := F) main_arg8 main_arg14 main_arg15 main_arg16 main_arg17 main_arg18 main_arg19 main_arg20 main_arg21 main_arg22 main_arg23 main_arg24 main_arg25 main_arg26 main_arg27 main_arg28 main_v63 main_v67

def fn_part2 {F : FTy → Type} [FloatOps F] (main_arg7 : FVec F S5x256 .f32) (main_arg8 : FVec F S5x256 .f32) (main_arg9 : FVec F S5x256x128 .f32) (main_arg10 : FVec F S5x128 .f32) (main_arg11 : FVec F S5x128 .f32) (main_arg12 : FVec F S5x128 .f32) (main_arg13 : FVec F S5x128 .f32) (main_arg14 : FVec F S5x128 .f32) (main_arg15 : FVec F S5x128x256 .f32) (main_arg16 : FVec F S5x256 .f32) (main_arg17 : FVec F S5x256 .f32) (main_arg18 : FVec F S5x256 .f32) (main_arg19 : FVec F S5x256 .f32) (main_arg20 : FVec F S5x256 .f32) (main_arg21 : FVec F S5x256x128 .f32) (main_arg22 : FVec F S5x128 .f32) (main_arg23 : FVec F S5x128 .f32) (main_arg24 : FVec F S5x128 .f32) (main_arg25 : FVec F S5x128 .f32) (main_arg26 : FVec F S5x128 .f32) (main_arg27 : FVec F S128x10 .f32) (main_arg28 : FVec F S10 .f32) (main_v33 : IVec S_ 1) : IVec S_ 1 :=
  let main_v34 : FVec F S5x256 .f32 := Host.absf main_arg7
  let main_cst_12 : FVec F S_ .f32 := constant S_ .f32 0x7F800000#32
  let main_v35 : FVec F S5x256 .f32 := broadcastInDim S5x256 ![] bcast_S_S5x256 main_cst_12
  let main_v36 : IVec S5x256 1 := cmpf .olt main_v34 main_v35
  let main_c_13 : IVec S_ 1 := constantI S_ 1 1#1
  let main_v37 : IVec S_ 1 := (fun x v => Host.reduce IntOp.andi x v reducesTo_S5x256_S_d0_1 h_S_) main_v36 main_c_13
  let main_v38 : IVec S_ 1 := andi main_v33 main_v37
  let main_v39 : FVec F S5x256 .f32 := Host.absf main_arg8
  let main_cst_14 : FVec F S_ .f32 := constant S_ .f32 0x7F800000#32
  let main_v40 : FVec F S5x256 .f32 := broadcastInDim S5x256 ![] bcast_S_S5x256 main_cst_14
  let main_v41 : IVec S5x256 1 := cmpf .olt main_v39 main_v40
  let main_c_15 : IVec S_ 1 := constantI S_ 1 1#1
  let main_v42 : IVec S_ 1 := (fun x v => Host.reduce IntOp.andi x v reducesTo_S5x256_S_d0_1 h_S_) main_v41 main_c_15
  let main_v43 : IVec S_ 1 := andi main_v38 main_v42
  let main_v44 : FVec F S5x256x128 .f32 := Host.absf main_arg9
  let main_cst_16 : FVec F S_ .f32 := constant S_ .f32 0x7F800000#32
  let main_v45 : FVec F S5x256x128 .f32 := broadcastInDim S5x256x128 ![] bcast_S_S5x256x128 main_cst_16
  let main_v46 : IVec S5x256x128 1 := cmpf .olt main_v44 main_v45
  let main_c_17 : IVec S_ 1 := constantI S_ 1 1#1
  let main_v47 : IVec S_ 1 := (fun x v => Host.reduce IntOp.andi x v reducesTo_S5x256x128_S_d0_1_2 h_S_) main_v46 main_c_17
  let main_v48 : IVec S_ 1 := andi main_v43 main_v47
  let main_v49 : FVec F S5x128 .f32 := Host.absf main_arg10
  let main_cst_18 : FVec F S_ .f32 := constant S_ .f32 0x7F800000#32
  let main_v50 : FVec F S5x128 .f32 := broadcastInDim S5x128 ![] bcast_S_S5x128 main_cst_18
  fn_part3 (F := F) main_arg8 main_arg11 main_arg12 main_arg13 main_arg14 main_arg15 main_arg16 main_arg17 main_arg18 main_arg19 main_arg20 main_arg21 main_arg22 main_arg23 main_arg24 main_arg25 main_arg26 main_arg27 main_arg28 main_v48 main_v49 main_v50

def fn_part1 {F : FTy → Type} [FloatOps F] (main_arg4 : FVec F S5x256 .f32) (main_arg5 : FVec F S5x256 .f32) (main_arg6 : FVec F S5x256 .f32) (main_arg7 : FVec F S5x256 .f32) (main_arg8 : FVec F S5x256 .f32) (main_arg9 : FVec F S5x256x128 .f32) (main_arg10 : FVec F S5x128 .f32) (main_arg11 : FVec F S5x128 .f32) (main_arg12 : FVec F S5x128 .f32) (main_arg13 : FVec F S5x128 .f32) (main_arg14 : FVec F S5x128 .f32) (main_arg15 : FVec F S5x128x256 .f32) (main_arg16 : FVec F S5x256 .f32) (main_arg17 : FVec F S5x256 .f32) (main_arg18 : FVec F S5x256 .f32) (main_arg19 : FVec F S5x256 .f32) (main_arg20 : FVec F S5x256 .f32) (main_arg21 : FVec F S5x256x128 .f32) (main_arg22 : FVec F S5x128 .f32) (main_arg23 : FVec F S5x128 .f32) (main_arg24 : FVec F S5x128 .f32) (main_arg25 : FVec F S5x128 .f32) (main_arg26 : FVec F S5x128 .f32) (main_arg27 : FVec F S128x10 .f32) (main_arg28 : FVec F S10 .f32) (main_v13 : IVec S_ 1) (main_v16 : IVec S5x128x256 1) : IVec S_ 1 :=
  let main_c_5 : IVec S_ 1 := constantI S_ 1 1#1
  let main_v17 : IVec S_ 1 := (fun x v => Host.reduce IntOp.andi x v reducesTo_S5x128x256_S_d0_1_2 h_S_) main_v16 main_c_5
  let main_v18 : IVec S_ 1 := andi main_v13 main_v17
  let main_v19 : FVec F S5x256 .f32 := Host.absf main_arg4
  let main_cst_6 : FVec F S_ .f32 := constant S_ .f32 0x7F800000#32
  let main_v20 : FVec F S5x256 .f32 := broadcastInDim S5x256 ![] bcast_S_S5x256 main_cst_6
  let main_v21 : IVec S5x256 1 := cmpf .olt main_v19 main_v20
  let main_c_7 : IVec S_ 1 := constantI S_ 1 1#1
  let main_v22 : IVec S_ 1 := (fun x v => Host.reduce IntOp.andi x v reducesTo_S5x256_S_d0_1 h_S_) main_v21 main_c_7
  let main_v23 : IVec S_ 1 := andi main_v18 main_v22
  let main_v24 : FVec F S5x256 .f32 := Host.absf main_arg5
  let main_cst_8 : FVec F S_ .f32 := constant S_ .f32 0x7F800000#32
  let main_v25 : FVec F S5x256 .f32 := broadcastInDim S5x256 ![] bcast_S_S5x256 main_cst_8
  let main_v26 : IVec S5x256 1 := cmpf .olt main_v24 main_v25
  let main_c_9 : IVec S_ 1 := constantI S_ 1 1#1
  let main_v27 : IVec S_ 1 := (fun x v => Host.reduce IntOp.andi x v reducesTo_S5x256_S_d0_1 h_S_) main_v26 main_c_9
  let main_v28 : IVec S_ 1 := andi main_v23 main_v27
  let main_v29 : FVec F S5x256 .f32 := Host.absf main_arg6
  let main_cst_10 : FVec F S_ .f32 := constant S_ .f32 0x7F800000#32
  let main_v30 : FVec F S5x256 .f32 := broadcastInDim S5x256 ![] bcast_S_S5x256 main_cst_10
  let main_v31 : IVec S5x256 1 := cmpf .olt main_v29 main_v30
  let main_c_11 : IVec S_ 1 := constantI S_ 1 1#1
  let main_v32 : IVec S_ 1 := (fun x v => Host.reduce IntOp.andi x v reducesTo_S5x256_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_v33

def fn {F : FTy → Type} [FloatOps F] (main_arg0 : FVec F S1x128 .f32) (main_arg1 : FVec F S1x128 .f32) (main_arg2 : FVec F S5 .f32) (main_arg3 : FVec F S5x128x256 .f32) (main_arg4 : FVec F S5x256 .f32) (main_arg5 : FVec F S5x256 .f32) (main_arg6 : FVec F S5x256 .f32) (main_arg7 : FVec F S5x256 .f32) (main_arg8 : FVec F S5x256 .f32) (main_arg9 : FVec F S5x256x128 .f32) (main_arg10 : FVec F S5x128 .f32) (main_arg11 : FVec F S5x128 .f32) (main_arg12 : FVec F S5x128 .f32) (main_arg13 : FVec F S5x128 .f32) (main_arg14 : FVec F S5x128 .f32) (main_arg15 : FVec F S5x128x256 .f32) (main_arg16 : FVec F S5x256 .f32) (main_arg17 : FVec F S5x256 .f32) (main_arg18 : FVec F S5x256 .f32) (main_arg19 : FVec F S5x256 .f32) (main_arg20 : FVec F S5x256 .f32) (main_arg21 : FVec F S5x256x128 .f32) (main_arg22 : FVec F S5x128 .f32) (main_arg23 : FVec F S5x128 .f32) (main_arg24 : FVec F S5x128 .f32) (main_arg25 : FVec F S5x128 .f32) (main_arg26 : FVec F S5x128 .f32) (main_arg27 : FVec F S128x10 .f32) (main_arg28 : FVec F S10 .f32) (main_arg29 : IVec S50000 32) (main_arg30 : IVec S2x600000 32) (main_arg31 : IVec S50000 32) : IVec S_ 1 :=
  let main_v0 : FVec F S1x128 .f32 := Host.absf main_arg0
  let main_cst : FVec F S_ .f32 := constant S_ .f32 0x7F800000#32
  let main_v1 : FVec F S1x128 .f32 := broadcastInDim S1x128 ![] bcast_S_S1x128 main_cst
  let main_v2 : IVec S1x128 1 := cmpf .olt main_v0 main_v1
  let main_c : IVec S_ 1 := constantI S_ 1 1#1
  let main_v3 : IVec S_ 1 := (fun x v => Host.reduce IntOp.andi x v reducesTo_S1x128_S_d0_1 h_S_) main_v2 main_c
  let main_v4 : FVec F S1x128 .f32 := Host.absf main_arg1
  let main_cst_0 : FVec F S_ .f32 := constant S_ .f32 0x7F800000#32
  let main_v5 : FVec F S1x128 .f32 := broadcastInDim S1x128 ![] bcast_S_S1x128 main_cst_0
  let main_v6 : IVec S1x128 1 := cmpf .olt main_v4 main_v5
  let main_c_1 : IVec S_ 1 := constantI S_ 1 1#1
  let main_v7 : IVec S_ 1 := (fun x v => Host.reduce IntOp.andi x v reducesTo_S1x128_S_d0_1 h_S_) main_v6 main_c_1
  let main_v8 : IVec S_ 1 := andi main_v3 main_v7
  let main_v9 : FVec F S5 .f32 := Host.absf main_arg2
  let main_cst_2 : FVec F S_ .f32 := constant S_ .f32 0x7F800000#32
  let main_v10 : FVec F S5 .f32 := broadcastInDim S5 ![] bcast_S_S5 main_cst_2
  let main_v11 : IVec S5 1 := cmpf .olt main_v9 main_v10
  let main_c_3 : IVec S_ 1 := constantI S_ 1 1#1
  let main_v12 : IVec S_ 1 := (fun x v => Host.reduce IntOp.andi x v reducesTo_S5_S_d0 h_S_) main_v11 main_c_3
  let main_v13 : IVec S_ 1 := andi main_v8 main_v12
  let main_v14 : FVec F S5x128x256 .f32 := Host.absf main_arg3
  let main_cst_4 : FVec F S_ .f32 := constant S_ .f32 0x7F800000#32
  let main_v15 : FVec F S5x128x256 .f32 := broadcastInDim S5x128x256 ![] bcast_S_S5x128x256 main_cst_4
  let main_v16 : IVec S5x128x256 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_v13 main_v16
-- ==== Kernel.lean ====
abbrev S1x128 : Shape := ⟨2, ![1, 128]⟩
abbrev S5 : Shape := ⟨1, ![5]⟩
abbrev S5x128x256 : Shape := ⟨3, ![5, 128, 256]⟩
abbrev S5x256 : Shape := ⟨2, ![5, 256]⟩
abbrev S5x256x128 : Shape := ⟨3, ![5, 256, 128]⟩
abbrev S5x128 : Shape := ⟨2, ![5, 128]⟩
abbrev S128x10 : Shape := ⟨2, ![128, 10]⟩
abbrev S10 : Shape := ⟨1, ![10]⟩
abbrev S50000 : Shape := ⟨1, ![50000]⟩
abbrev S2x600000 : Shape := ⟨2, ![2, 600000]⟩
abbrev S_ : Shape := ⟨0, ![]⟩
abbrev S50000x1 : Shape := ⟨2, ![50000, 1]⟩
abbrev S50000x128 : Shape := ⟨2, ![50000, 128]⟩
abbrev S128 : Shape := ⟨1, ![128]⟩
abbrev S256x128 : Shape := ⟨2, ![256, 128]⟩
abbrev S1x600000 : Shape := ⟨2, ![1, 600000]⟩
abbrev S600000 : Shape := ⟨1, ![600000]⟩
abbrev S600000x1 : Shape := ⟨2, ![600000, 1]⟩
abbrev S600000x128 : Shape := ⟨2, ![600000, 128]⟩
abbrev S1 : Shape := ⟨1, ![1]⟩
abbrev S1x1 : Shape := ⟨2, ![1, 1]⟩
abbrev S1x128x256 : Shape := ⟨3, ![1, 128, 256]⟩
abbrev S128x256 : Shape := ⟨2, ![128, 256]⟩
abbrev S1x256 : Shape := ⟨2, ![1, 256]⟩
abbrev S256 : Shape := ⟨1, ![256]⟩
abbrev S1x256x128 : Shape := ⟨3, ![1, 256, 128]⟩
abbrev S5000x128 : Shape := ⟨2, ![5000, 128]⟩
abbrev S5000x256 : Shape := ⟨2, ![5000, 256]⟩
abbrev S5000x1 : Shape := ⟨2, ![5000, 1]⟩
abbrev S256x256 : Shape := ⟨2, ![256, 256]⟩
abbrev S256x1 : Shape := ⟨2, ![256, 1]⟩
abbrev S1x10 : Shape := ⟨2, ![1, 10]⟩
abbrev S256x10 : Shape := ⟨2, ![256, 10]⟩

abbrev nBuf : Space → Nat
  | .hbm => 435
  | .vmem => 150
  | .smem => 0
  | _ => 0

abbrev hbmTy0_0 (i : Nat) : BufTy := match i % 128 with
  | 0 => ⟨S1x128, .f32⟩
  | 1 => ⟨S1x128, .f32⟩
  | 2 => ⟨S5, .f32⟩
  | 3 => ⟨S5x128x256, .f32⟩
  | 4 => ⟨S5x256, .f32⟩
  | 5 => ⟨S5x256, .f32⟩
  | 6 => ⟨S5x256, .f32⟩
  | 7 => ⟨S5x256, .f32⟩
  | 8 => ⟨S5x256, .f32⟩
  | 9 => ⟨S5x256x128, .f32⟩
  | 10 => ⟨S5x128, .f32⟩
  | 11 => ⟨S5x128, .f32⟩
  | 12 => ⟨S5x128, .f32⟩
  | 13 => ⟨S5x128, .f32⟩
  | 14 => ⟨S5x128, .f32⟩
  | 15 => ⟨S5x128x256, .f32⟩
  | 16 => ⟨S5x256, .f32⟩
  | 17 => ⟨S5x256, .f32⟩
  | 18 => ⟨S5x256, .f32⟩
  | 19 => ⟨S5x256, .f32⟩
  | 20 => ⟨S5x256, .f32⟩
  | 21 => ⟨S5x256x128, .f32⟩
  | 22 => ⟨S5x128, .f32⟩
  | 23 => ⟨S5x128, .f32⟩
  | 24 => ⟨S5x128, .f32⟩
  | 25 => ⟨S5x128, .f32⟩
  | 26 => ⟨S5x128, .f32⟩
  | 27 => ⟨S128x10, .f32⟩
  | 28 => ⟨S10, .f32⟩
  | 29 => ⟨S50000, .i32⟩
  | 30 => ⟨S2x600000, .i32⟩
  | 31 => ⟨S50000, .i32⟩
  | 32 => ⟨S_, .i32⟩
  | 33 => ⟨S50000, .i32⟩
  | 34 => ⟨S50000, .i1⟩
  | 35 => ⟨S_, .i32⟩
  | 36 => ⟨S50000, .i32⟩
  | 37 => ⟨S50000, .i32⟩
  | 38 => ⟨S50000, .i32⟩
  | 39 => ⟨S50000x1, .i32⟩
  | 40 => ⟨S50000x128, .f32⟩
  | 41 => ⟨S128, .f32⟩
  | 42 => ⟨S256x128, .f32⟩
  | 43 => ⟨S1x600000, .i32⟩
  | 44 => ⟨S600000, .i32⟩
  | 45 => ⟨S1x600000, .i32⟩
  | 46 => ⟨S600000, .i32⟩
  | 47 => ⟨S50000x1, .i32⟩
  | 48 => ⟨S_, .f32⟩
  | 49 => ⟨S5x256, .f32⟩
  | 50 => ⟨S5x256, .f32⟩
  | 51 => ⟨S5x256, .f32⟩
  | 52 => ⟨S5x256, .f32⟩
  | 53 => ⟨S5x256, .f32⟩
  | 54 => ⟨S5x256, .f32⟩
  | 55 => ⟨S_, .f32⟩
  | 56 => ⟨S5x128, .f32⟩
  | 57 => ⟨S5x128, .f32⟩
  | 58 => ⟨S5x128, .f32⟩
  | 59 => ⟨S5x128, .f32⟩
  | 60 => ⟨S5x128, .f32⟩
  | 61 => ⟨S5x128, .f32⟩
  | 62 => ⟨S_, .f32⟩
  | 63 => ⟨S5x256, .f32⟩
  | 64 => ⟨S5x256, .f32⟩
  | 65 => ⟨S5x256, .f32⟩
  | 66 => ⟨S5x256, .f32⟩
  | 67 => ⟨S5x256, .f32⟩
  | 68 => ⟨S5x256, .f32⟩
  | 69 => ⟨S_, .f32⟩
  | 70 => ⟨S5x128, .f32⟩
  | 71 => ⟨S5x128, .f32⟩
  | 72 => ⟨S5x128, .f32⟩
  | 73 => ⟨S5x128, .f32⟩
  | 74 => ⟨S5x128, .f32⟩
  | 75 => ⟨S5x128, .f32⟩
  | 76 => ⟨S5x128x256, .bf16⟩
  | 77 => ⟨S5x256x128, .bf16⟩
  | 78 => ⟨S5x128x256, .bf16⟩
  | 79 => ⟨S5x256x128, .bf16⟩
  | 80 => ⟨S128x10, .bf16⟩
  | 81 => ⟨S_, .i32⟩
  | 82 => ⟨S50000, .i32⟩
  | 83 => ⟨S50000, .i1⟩
  | 84 => ⟨S_, .i32⟩
  | 85 => ⟨S50000, .i32⟩
  | 86 => ⟨S50000, .i32⟩
  | 87 => ⟨S50000, .i32⟩
  | 88 => ⟨S50000x1, .i32⟩
  | 89 => ⟨S50000x128, .f32⟩
  | 90 => ⟨S50000x128, .f32⟩
  | 91 => ⟨S_, .i32⟩
  | 92 => ⟨S600000, .i32⟩
  | 93 => ⟨S600000, .i1⟩
  | 94 => ⟨S_, .i32⟩
  | 95 => ⟨S600000, .i32⟩
  | 96 => ⟨S600000, .i32⟩
  | 97 => ⟨S600000, .i32⟩
  | 98 => ⟨S600000x1, .i32⟩
  | 99 => ⟨S600000x128, .f32⟩
  | 100 => ⟨S_, .f32⟩
  | 101 => ⟨S50000x128, .f32⟩
  | 102 => ⟨S600000x1, .i32⟩
  | 103 => ⟨S50000x128, .f32⟩
  | 104 => ⟨S1, .f32⟩
  | 105 => ⟨S_, .f32⟩
  | 106 => ⟨S1x1, .f32⟩
  | 107 => ⟨S1x128x256, .bf16⟩
  | 108 => ⟨S128x256, .bf16⟩
  | 109 => ⟨S1x256, .f32⟩
  | 110 => ⟨S256, .f32⟩
  | 111 => ⟨S1x256, .f32⟩
  | 112 => ⟨S1x256, .f32⟩
  | 113 => ⟨S256, .f32⟩
  | 114 => ⟨S1x256, .f32⟩
  | 115 => ⟨S1x256, .f32⟩
  | 116 => ⟨S256, .f32⟩
  | 117 => ⟨S1x256, .f32⟩
  | 118 => ⟨S1x256x128, .bf16⟩
  | 119 => ⟨S256x128, .bf16⟩
  | 120 => ⟨S1x128, .f32⟩
  | 121 => ⟨S128, .f32⟩
  | 122 => ⟨S1x128, .f32⟩
  | 123 => ⟨S1x128, .f32⟩
  | 124 => ⟨S128, .f32⟩
  | 125 => ⟨S1x128, .f32⟩
  | 126 => ⟨S1x128, .f32⟩
  | 127 => ⟨S128, .f32⟩
  | _ => ⟨S1x128, .f32⟩

abbrev hbmTy0_1 (i : Nat) : BufTy := match i % 128 with
  | 0 => ⟨S1x128, .f32⟩
  | 1 => ⟨S50000x128, .f32⟩
  | 2 => ⟨S256x128, .f32⟩
  | 3 => ⟨S256x128, .f32⟩
  | 4 => ⟨S1x128x256, .bf16⟩
  | 5 => ⟨S128x256, .bf16⟩
  | 6 => ⟨S1x256, .f32⟩
  | 7 => ⟨S256, .f32⟩
  | 8 => ⟨S1x256, .f32⟩
  | 9 => ⟨S1x256, .f32⟩
  | 10 => ⟨S256, .f32⟩
  | 11 => ⟨S1x256, .f32⟩
  | 12 => ⟨S1x256, .f32⟩
  | 13 => ⟨S256, .f32⟩
  | 14 => ⟨S1x256, .f32⟩
  | 15 => ⟨S1x256x128, .bf16⟩
  | 16 => ⟨S256x128, .bf16⟩
  | 17 => ⟨S1x128, .f32⟩
  | 18 => ⟨S128, .f32⟩
  | 19 => ⟨S1x128, .f32⟩
  | 20 => ⟨S1x128, .f32⟩
  | 21 => ⟨S128, .f32⟩
  | 22 => ⟨S1x128, .f32⟩
  | 23 => ⟨S1x128, .f32⟩
  | 24 => ⟨S128, .f32⟩
  | 25 => ⟨S1x128, .f32⟩
  | 26 => ⟨S256x128, .f32⟩
  | 27 => ⟨S_, .i32⟩
  | 28 => ⟨S50000, .i32⟩
  | 29 => ⟨S50000, .i1⟩
  | 30 => ⟨S_, .i32⟩
  | 31 => ⟨S50000, .i32⟩
  | 32 => ⟨S50000, .i32⟩
  | 33 => ⟨S50000, .i32⟩
  | 34 => ⟨S50000x1, .i32⟩
  | 35 => ⟨S50000x128, .f32⟩
  | 36 => ⟨S50000x128, .f32⟩
  | 37 => ⟨S_, .i32⟩
  | 38 => ⟨S600000, .i32⟩
  | 39 => ⟨S600000, .i1⟩
  | 40 => ⟨S_, .i32⟩
  | 41 => ⟨S600000, .i32⟩
  | 42 => ⟨S600000, .i32⟩
  | 43 => ⟨S600000, .i32⟩
  | 44 => ⟨S600000x1, .i32⟩
  | 45 => ⟨S600000x128, .f32⟩
  | 46 => ⟨S_, .f32⟩
  | 47 => ⟨S50000x128, .f32⟩
  | 48 => ⟨S600000x1, .i32⟩
  | 49 => ⟨S50000x128, .f32⟩
  | 50 => ⟨S1, .f32⟩
  | 51 => ⟨S_, .f32⟩
  | 52 => ⟨S1x1, .f32⟩
  | 53 => ⟨S1x128x256, .bf16⟩
  | 54 => ⟨S128x256, .bf16⟩
  | 55 => ⟨S1x256, .f32⟩
  | 56 => ⟨S256, .f32⟩
  | 57 => ⟨S1x256, .f32⟩
  | 58 => ⟨S1x256, .f32⟩
  | 59 => ⟨S256, .f32⟩
  | 60 => ⟨S1x256, .f32⟩
  | 61 => ⟨S1x256, .f32⟩
  | 62 => ⟨S256, .f32⟩
  | 63 => ⟨S1x256, .f32⟩
  | 64 => ⟨S1x256x128, .bf16⟩
  | 65 => ⟨S256x128, .bf16⟩
  | 66 => ⟨S1x128, .f32⟩
  | 67 => ⟨S128, .f32⟩
  | 68 => ⟨S1x128, .f32⟩
  | 69 => ⟨S1x128, .f32⟩
  | 70 => ⟨S128, .f32⟩
  | 71 => ⟨S1x128, .f32⟩
  | 72 => ⟨S1x128, .f32⟩
  | 73 => ⟨S128, .f32⟩
  | 74 => ⟨S1x128, .f32⟩
  | 75 => ⟨S50000x128, .f32⟩
  | 76 => ⟨S256x128, .f32⟩
  | 77 => ⟨S256x128, .f32⟩
  | 78 => ⟨S1x128x256, .bf16⟩
  | 79 => ⟨S128x256, .bf16⟩
  | 80 => ⟨S1x256, .f32⟩
  | 81 => ⟨S256, .f32⟩
  | 82 => ⟨S1x256, .f32⟩
  | 83 => ⟨S1x256, .f32⟩
  | 84 => ⟨S256, .f32⟩
  | 85 => ⟨S1x256, .f32⟩
  | 86 => ⟨S1x256, .f32⟩
  | 87 => ⟨S256, .f32⟩
  | 88 => ⟨S1x256, .f32⟩
  | 89 => ⟨S1x256x128, .bf16⟩
  | 90 => ⟨S256x128, .bf16⟩
  | 91 => ⟨S1x128, .f32⟩
  | 92 => ⟨S128, .f32⟩
  | 93 => ⟨S1x128, .f32⟩
  | 94 => ⟨S1x128, .f32⟩
  | 95 => ⟨S128, .f32⟩
  | 96 => ⟨S1x128, .f32⟩
  | 97 => ⟨S1x128, .f32⟩
  | 98 => ⟨S128, .f32⟩
  | 99 => ⟨S1x128, .f32⟩
  | 100 => ⟨S256x128, .f32⟩
  | 101 => ⟨S_, .i32⟩
  | 102 => ⟨S50000, .i32⟩
  | 103 => ⟨S50000, .i1⟩
  | 104 => ⟨S_, .i32⟩
  | 105 => ⟨S50000, .i32⟩
  | 106 => ⟨S50000, .i32⟩
  | 107 => ⟨S50000, .i32⟩
  | 108 => ⟨S50000x1, .i32⟩
  | 109 => ⟨S50000x128, .f32⟩
  | 110 => ⟨S50000x128, .f32⟩
  | 111 => ⟨S_, .i32⟩
  | 112 => ⟨S600000, .i32⟩
  | 113 => ⟨S600000, .i1⟩
  | 114 => ⟨S_, .i32⟩
  | 115 => ⟨S600000, .i32⟩
  | 116 => ⟨S600000, .i32⟩
  | 117 => ⟨S600000, .i32⟩
  | 118 => ⟨S600000x1, .i32⟩
  | 119 => ⟨S600000x128, .f32⟩
  | 120 => ⟨S_, .f32⟩
  | 121 => ⟨S50000x128, .f32⟩
  | 122 => ⟨S600000x1, .i32⟩
  | 123 => ⟨S50000x128, .f32⟩
  | 124 => ⟨S1, .f32⟩
  | 125 => ⟨S_, .f32⟩
  | 126 => ⟨S1x1, .f32⟩
  | 127 => ⟨S1x128x256, .bf16⟩
  | _ => ⟨S1x128, .f32⟩

abbrev hbmTy0_2 (i : Nat) : BufTy := match i % 128 with
  | 0 => ⟨S128x256, .bf16⟩
  | 1 => ⟨S1x256, .f32⟩
  | 2 => ⟨S256, .f32⟩
  | 3 => ⟨S1x256, .f32⟩
  | 4 => ⟨S1x256, .f32⟩
  | 5 => ⟨S256, .f32⟩
  | 6 => ⟨S1x256, .f32⟩
  | 7 => ⟨S1x256, .f32⟩
  | 8 => ⟨S256, .f32⟩
  | 9 => ⟨S1x256, .f32⟩
  | 10 => ⟨S1x256x128, .bf16⟩
  | 11 => ⟨S256x128, .bf16⟩
  | 12 => ⟨S1x128, .f32⟩
  | 13 => ⟨S128, .f32⟩
  | 14 => ⟨S1x128, .f32⟩
  | 15 => ⟨S1x128, .f32⟩
  | 16 => ⟨S128, .f32⟩
  | 17 => ⟨S1x128, .f32⟩
  | 18 => ⟨S1x128, .f32⟩
  | 19 => ⟨S128, .f32⟩
  | 20 => ⟨S1x128, .f32⟩
  | 21 => ⟨S50000x128, .f32⟩
  | 22 => ⟨S256x128, .f32⟩
  | 23 => ⟨S256x128, .f32⟩
  | 24 => ⟨S1x128x256, .bf16⟩
  | 25 => ⟨S128x256, .bf16⟩
  | 26 => ⟨S1x256, .f32⟩
  | 27 => ⟨S256, .f32⟩
  | 28 => ⟨S1x256, .f32⟩
  | 29 => ⟨S1x256, .f32⟩
  | 30 => ⟨S256, .f32⟩
  | 31 => ⟨S1x256, .f32⟩
  | 32 => ⟨S1x256, .f32⟩
  | 33 => ⟨S256, .f32⟩
  | 34 => ⟨S1x256, .f32⟩
  | 35 => ⟨S1x256x128, .bf16⟩
  | 36 => ⟨S256x128, .bf16⟩
  | 37 => ⟨S1x128, .f32⟩
  | 38 => ⟨S128, .f32⟩
  | 39 => ⟨S1x128, .f32⟩
  | 40 => ⟨S1x128, .f32⟩
  | 41 => ⟨S128, .f32⟩
  | 42 => ⟨S1x128, .f32⟩
  | 43 => ⟨S1x128, .f32⟩
  | 44 => ⟨S128, .f32⟩
  | 45 => ⟨S1x128, .f32⟩
  | 46 => ⟨S256x128, .f32⟩
  | 47 => ⟨S_, .i32⟩
  | 48 => ⟨S50000, .i32⟩
  | 49 => ⟨S50000, .i1⟩
  | 50 => ⟨S_, .i32⟩
  | 51 => ⟨S50000, .i32⟩
  | 52 => ⟨S50000, .i32⟩
  | 53 => ⟨S50000, .i32⟩
  | 54 => ⟨S50000x1, .i32⟩
  | 55 => ⟨S50000x128, .f32⟩
  | 56 => ⟨S50000x128, .f32⟩
  | 57 => ⟨S_, .i32⟩
  | 58 => ⟨S600000, .i32⟩
  | 59 => ⟨S600000, .i1⟩
  | 60 => ⟨S_, .i32⟩
  | 61 => ⟨S600000, .i32⟩
  | 62 => ⟨S600000, .i32⟩
  | 63 => ⟨S600000, .i32⟩
  | 64 => ⟨S600000x1, .i32⟩
  | 65 => ⟨S600000x128, .f32⟩
  | 66 => ⟨S_, .f32⟩
  | 67 => ⟨S50000x128, .f32⟩
  | 68 => ⟨S600000x1, .i32⟩
  | 69 => ⟨S50000x128, .f32⟩
  | 70 => ⟨S1, .f32⟩
  | 71 => ⟨S_, .f32⟩
  | 72 => ⟨S1x1, .f32⟩
  | 73 => ⟨S1x128x256, .bf16⟩
  | 74 => ⟨S128x256, .bf16⟩
  | 75 => ⟨S1x256, .f32⟩
  | 76 => ⟨S256, .f32⟩
  | 77 => ⟨S1x256, .f32⟩
  | 78 => ⟨S1x256, .f32⟩
  | 79 => ⟨S256, .f32⟩
  | 80 => ⟨S1x256, .f32⟩
  | 81 => ⟨S1x256, .f32⟩
  | 82 => ⟨S256, .f32⟩
  | 83 => ⟨S1x256, .f32⟩
  | 84 => ⟨S1x256x128, .bf16⟩
  | 85 => ⟨S256x128, .bf16⟩
  | 86 => ⟨S1x128, .f32⟩
  | 87 => ⟨S128, .f32⟩
  | 88 => ⟨S1x128, .f32⟩
  | 89 => ⟨S1x128, .f32⟩
  | 90 => ⟨S128, .f32⟩
  | 91 => ⟨S1x128, .f32⟩
  | 92 => ⟨S1x128, .f32⟩
  | 93 => ⟨S128, .f32⟩
  | 94 => ⟨S1x128, .f32⟩
  | 95 => ⟨S50000x128, .f32⟩
  | 96 => ⟨S256x128, .f32⟩
  | 97 => ⟨S256x128, .f32⟩
  | 98 => ⟨S1x128x256, .bf16⟩
  | 99 => ⟨S128x256, .bf16⟩
  | 100 => ⟨S1x256, .f32⟩
  | 101 => ⟨S256, .f32⟩
  | 102 => ⟨S1x256, .f32⟩
  | 103 => ⟨S1x256, .f32⟩
  | 104 => ⟨S256, .f32⟩
  | 105 => ⟨S1x256, .f32⟩
  | 106 => ⟨S1x256, .f32⟩
  | 107 => ⟨S256, .f32⟩
  | 108 => ⟨S1x256, .f32⟩
  | 109 => ⟨S1x256x128, .bf16⟩
  | 110 => ⟨S256x128, .bf16⟩
  | 111 => ⟨S1x128, .f32⟩
  | 112 => ⟨S128, .f32⟩
  | 113 => ⟨S1x128, .f32⟩
  | 114 => ⟨S1x128, .f32⟩
  | 115 => ⟨S128, .f32⟩
  | 116 => ⟨S1x128, .f32⟩
  | 117 => ⟨S1x128, .f32⟩
  | 118 => ⟨S128, .f32⟩
  | 119 => ⟨S1x128, .f32⟩
  | 120 => ⟨S256x128, .f32⟩
  | 121 => ⟨S_, .i32⟩
  | 122 => ⟨S50000, .i32⟩
  | 123 => ⟨S50000, .i1⟩
  | 124 => ⟨S_, .i32⟩
  | 125 => ⟨S50000, .i32⟩
  | 126 => ⟨S50000, .i32⟩
  | 127 => ⟨S50000, .i32⟩
  | _ => ⟨S1x128, .f32⟩

abbrev hbmTy0_3 (i : Nat) : BufTy := match i % 128 with
  | 0 => ⟨S50000x1, .i32⟩
  | 1 => ⟨S50000x128, .f32⟩
  | 2 => ⟨S50000x128, .f32⟩
  | 3 => ⟨S_, .i32⟩
  | 4 => ⟨S600000, .i32⟩
  | 5 => ⟨S600000, .i1⟩
  | 6 => ⟨S_, .i32⟩
  | 7 => ⟨S600000, .i32⟩
  | 8 => ⟨S600000, .i32⟩
  | 9 => ⟨S600000, .i32⟩
  | 10 => ⟨S600000x1, .i32⟩
  | 11 => ⟨S600000x128, .f32⟩
  | 12 => ⟨S_, .f32⟩
  | 13 => ⟨S50000x128, .f32⟩
  | 14 => ⟨S600000x1, .i32⟩
  | 15 => ⟨S50000x128, .f32⟩
  | 16 => ⟨S1, .f32⟩
  | 17 => ⟨S_, .f32⟩
  | 18 => ⟨S1x1, .f32⟩
  | 19 => ⟨S1x128x256, .bf16⟩
  | 20 => ⟨S128x256, .bf16⟩
  | 21 => ⟨S1x256, .f32⟩
  | 22 => ⟨S256, .f32⟩
  | 23 => ⟨S1x256, .f32⟩
  | 24 => ⟨S1x256, .f32⟩
  | 25 => ⟨S256, .f32⟩
  | 26 => ⟨S1x256, .f32⟩
  | 27 => ⟨S1x256, .f32⟩
  | 28 => ⟨S256, .f32⟩
  | 29 => ⟨S1x256, .f32⟩
  | 30 => ⟨S1x256x128, .bf16⟩
  | 31 => ⟨S256x128, .bf16⟩
  | 32 => ⟨S1x128, .f32⟩
  | 33 => ⟨S128, .f32⟩
  | 34 => ⟨S1x128, .f32⟩
  | 35 => ⟨S1x128, .f32⟩
  | 36 => ⟨S128, .f32⟩
  | 37 => ⟨S1x128, .f32⟩
  | 38 => ⟨S1x128, .f32⟩
  | 39 => ⟨S128, .f32⟩
  | 40 => ⟨S1x128, .f32⟩
  | 41 => ⟨S50000x128, .f32⟩
  | 42 => ⟨S_, .f32⟩
  | 43 => ⟨S50000x1, .f32⟩
  | 44 => ⟨S_, .f32⟩
  | 45 => ⟨S256x1, .f32⟩
  | 46 => ⟨S50000x1, .i32⟩
  | 47 => ⟨S256x1, .f32⟩
  | 48 => ⟨S256x128, .f32⟩
  | 49 => ⟨S1x10, .f32⟩
  | 50 => ⟨S256x10, .f32⟩
  | _ => ⟨S1x128, .f32⟩

abbrev hbmTy (i : Nat) : BufTy := match i / 128 with
  | 0 => hbmTy0_0 i
  | 1 => hbmTy0_1 i
  | 2 => hbmTy0_2 i
  | 3 => hbmTy0_3 i
  | _ => ⟨S1x128, .f32⟩

abbrev vmemTy0_0 (i : Nat) : BufTy := match i % 128 with
  | 0 => ⟨S5000x128, .f32⟩
  | 1 => ⟨S5000x128, .f32⟩
  | 2 => ⟨S5000x128, .f32⟩
  | 3 => ⟨S5000x128, .f32⟩
  | 4 => ⟨S1x1, .f32⟩
  | 5 => ⟨S128x256, .bf16⟩
  | 6 => ⟨S1x256, .f32⟩
  | 7 => ⟨S1x256, .f32⟩
  | 8 => ⟨S1x256, .f32⟩
  | 9 => ⟨S256x128, .bf16⟩
  | 10 => ⟨S1x128, .f32⟩
  | 11 => ⟨S1x128, .f32⟩
  | 12 => ⟨S1x128, .f32⟩
  | 13 => ⟨S5000x128, .f32⟩
  | 14 => ⟨S5000x128, .f32⟩
  | 15 => ⟨S5000x128, .f32⟩
  | 16 => ⟨S5000x128, .f32⟩
  | 17 => ⟨S5000x1, .i32⟩
  | 18 => ⟨S5000x1, .i32⟩
  | 19 => ⟨S256x128, .f32⟩
  | 20 => ⟨S256x128, .f32⟩
  | 21 => ⟨S256x128, .f32⟩
  | 22 => ⟨S128x256, .bf16⟩
  | 23 => ⟨S1x256, .f32⟩
  | 24 => ⟨S1x256, .f32⟩
  | 25 => ⟨S1x256, .f32⟩
  | 26 => ⟨S256x128, .bf16⟩
  | 27 => ⟨S1x128, .f32⟩
  | 28 => ⟨S1x128, .f32⟩
  | 29 => ⟨S1x128, .f32⟩
  | 30 => ⟨S256x128, .f32⟩
  | 31 => ⟨S5000x128, .f32⟩
  | 32 => ⟨S5000x128, .f32⟩
  | 33 => ⟨S5000x128, .f32⟩
  | 34 => ⟨S5000x128, .f32⟩
  | 35 => ⟨S1x1, .f32⟩
  | 36 => ⟨S128x256, .bf16⟩
  | 37 => ⟨S1x256, .f32⟩
  | 38 => ⟨S1x256, .f32⟩
  | 39 => ⟨S1x256, .f32⟩
  | 40 => ⟨S256x128, .bf16⟩
  | 41 => ⟨S1x128, .f32⟩
  | 42 => ⟨S1x128, .f32⟩
  | 43 => ⟨S1x128, .f32⟩
  | 44 => ⟨S5000x128, .f32⟩
  | 45 => ⟨S5000x128, .f32⟩
  | 46 => ⟨S5000x128, .f32⟩
  | 47 => ⟨S5000x128, .f32⟩
  | 48 => ⟨S5000x1, .i32⟩
  | 49 => ⟨S5000x1, .i32⟩
  | 50 => ⟨S256x128, .f32⟩
  | 51 => ⟨S256x128, .f32⟩
  | 52 => ⟨S256x128, .f32⟩
  | 53 => ⟨S128x256, .bf16⟩
  | 54 => ⟨S1x256, .f32⟩
  | 55 => ⟨S1x256, .f32⟩
  | 56 => ⟨S1x256, .f32⟩
  | 57 => ⟨S256x128, .bf16⟩
  | 58 => ⟨S1x128, .f32⟩
  | 59 => ⟨S1x128, .f32⟩
  | 60 => ⟨S1x128, .f32⟩
  | 61 => ⟨S256x128, .f32⟩
  | 62 => ⟨S5000x128, .f32⟩
  | 63 => ⟨S5000x128, .f32⟩
  | 64 => ⟨S5000x128, .f32⟩
  | 65 => ⟨S5000x128, .f32⟩
  | 66 => ⟨S1x1, .f32⟩
  | 67 => ⟨S128x256, .bf16⟩
  | 68 => ⟨S1x256, .f32⟩
  | 69 => ⟨S1x256, .f32⟩
  | 70 => ⟨S1x256, .f32⟩
  | 71 => ⟨S256x128, .bf16⟩
  | 72 => ⟨S1x128, .f32⟩
  | 73 => ⟨S1x128, .f32⟩
  | 74 => ⟨S1x128, .f32⟩
  | 75 => ⟨S5000x128, .f32⟩
  | 76 => ⟨S5000x128, .f32⟩
  | 77 => ⟨S5000x128, .f32⟩
  | 78 => ⟨S5000x128, .f32⟩
  | 79 => ⟨S5000x1, .i32⟩
  | 80 => ⟨S5000x1, .i32⟩
  | 81 => ⟨S256x128, .f32⟩
  | 82 => ⟨S256x128, .f32⟩
  | 83 => ⟨S256x128, .f32⟩
  | 84 => ⟨S128x256, .bf16⟩
  | 85 => ⟨S1x256, .f32⟩
  | 86 => ⟨S1x256, .f32⟩
  | 87 => ⟨S1x256, .f32⟩
  | 88 => ⟨S256x128, .bf16⟩
  | 89 => ⟨S1x128, .f32⟩
  | 90 => ⟨S1x128, .f32⟩
  | 91 => ⟨S1x128, .f32⟩
  | 92 => ⟨S256x128, .f32⟩
  | 93 => ⟨S5000x128, .f32⟩
  | 94 => ⟨S5000x128, .f32⟩
  | 95 => ⟨S5000x128, .f32⟩
  | 96 => ⟨S5000x128, .f32⟩
  | 97 => ⟨S1x1, .f32⟩
  | 98 => ⟨S128x256, .bf16⟩
  | 99 => ⟨S1x256, .f32⟩
  | 100 => ⟨S1x256, .f32⟩
  | 101 => ⟨S1x256, .f32⟩
  | 102 => ⟨S256x128, .bf16⟩
  | 103 => ⟨S1x128, .f32⟩
  | 104 => ⟨S1x128, .f32⟩
  | 105 => ⟨S1x128, .f32⟩
  | 106 => ⟨S5000x128, .f32⟩
  | 107 => ⟨S5000x128, .f32⟩
  | 108 => ⟨S5000x128, .f32⟩
  | 109 => ⟨S5000x128, .f32⟩
  | 110 => ⟨S5000x1, .i32⟩
  | 111 => ⟨S5000x1, .i32⟩
  | 112 => ⟨S256x128, .f32⟩
  | 113 => ⟨S256x128, .f32⟩
  | 114 => ⟨S256x128, .f32⟩
  | 115 => ⟨S128x256, .bf16⟩
  | 116 => ⟨S1x256, .f32⟩
  | 117 => ⟨S1x256, .f32⟩
  | 118 => ⟨S1x256, .f32⟩
  | 119 => ⟨S256x128, .bf16⟩
  | 120 => ⟨S1x128, .f32⟩
  | 121 => ⟨S1x128, .f32⟩
  | 122 => ⟨S1x128, .f32⟩
  | 123 => ⟨S256x128, .f32⟩
  | 124 => ⟨S5000x128, .f32⟩
  | 125 => ⟨S5000x128, .f32⟩
  | 126 => ⟨S5000x128, .f32⟩
  | 127 => ⟨S5000x128, .f32⟩
  | _ => ⟨S1x128, .f32⟩

abbrev vmemTy0_1 (i : Nat) : BufTy := match i % 128 with
  | 0 => ⟨S1x1, .f32⟩
  | 1 => ⟨S128x256, .bf16⟩
  | 2 => ⟨S1x256, .f32⟩
  | 3 => ⟨S1x256, .f32⟩
  | 4 => ⟨S1x256, .f32⟩
  | 5 => ⟨S256x128, .bf16⟩
  | 6 => ⟨S1x128, .f32⟩
  | 7 => ⟨S1x128, .f32⟩
  | 8 => ⟨S1x128, .f32⟩
  | 9 => ⟨S5000x128, .f32⟩
  | 10 => ⟨S5000x128, .f32⟩
  | 11 => ⟨S5000x128, .f32⟩
  | 12 => ⟨S5000x128, .f32⟩
  | 13 => ⟨S5000x1, .i32⟩
  | 14 => ⟨S5000x1, .i32⟩
  | 15 => ⟨S256x128, .f32⟩
  | 16 => ⟨S256x128, .f32⟩
  | 17 => ⟨S256x128, .f32⟩
  | 18 => ⟨S256x1, .f32⟩
  | 19 => ⟨S128x10, .bf16⟩
  | 20 => ⟨S1x10, .f32⟩
  | 21 => ⟨S256x10, .f32⟩
  | _ => ⟨S1x128, .f32⟩

abbrev vmemTy (i : Nat) : BufTy := match i / 128 with
  | 0 => vmemTy0_0 i
  | 1 => vmemTy0_1 i
  | _ => ⟨S1x128, .f32⟩

abbrev bufTy : (tb : Table) → Fin (tcTables nBuf tb) → BufTy
  | .hbm, ⟨i, _⟩ => hbmTy i
  | .local _ .vmem, ⟨i, _⟩ => vmemTy i
  | _, _ => ⟨S1x128, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 145 → Bool
  | ⟨i, _⟩ => dmaSemScopedAt i

abbrev sig : RefSig :=
  ofTc nBuf bufTy 0 145 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_c : Ref sig .tc := ⟨.hbm, 32, rfl⟩
abbrev main_v0 : Ref sig .tc := ⟨.hbm, 33, rfl⟩
abbrev main_v1 : Ref sig .tc := ⟨.hbm, 34, rfl⟩
abbrev main_c_0 : Ref sig .tc := ⟨.hbm, 35, rfl⟩
abbrev main_v2 : Ref sig .tc := ⟨.hbm, 36, rfl⟩
abbrev main_v3 : Ref sig .tc := ⟨.hbm, 37, rfl⟩
abbrev main_v4 : Ref sig .tc := ⟨.hbm, 38, rfl⟩
abbrev main_v5 : Ref sig .tc := ⟨.hbm, 39, rfl⟩
abbrev main_v6 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_cst : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_cst_1 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_cst_2 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_cst_3 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_c_4 : Ref sig .tc := ⟨.hbm, 81, rfl⟩
abbrev main_v43 : Ref sig .tc := ⟨.hbm, 82, rfl⟩
abbrev main_v44 : Ref sig .tc := ⟨.hbm, 83, rfl⟩
abbrev main_c_5 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_c_6 : Ref sig .tc := ⟨.hbm, 91, rfl⟩
abbrev main_v51 : Ref sig .tc := ⟨.hbm, 92, rfl⟩
abbrev main_v52 : Ref sig .tc := ⟨.hbm, 93, rfl⟩
abbrev main_c_7 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_cst_8 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_c_9 : Ref sig .tc := ⟨.hbm, 155, rfl⟩
abbrev main_v112 : Ref sig .tc := ⟨.hbm, 156, rfl⟩
abbrev main_v113 : Ref sig .tc := ⟨.hbm, 157, rfl⟩
abbrev main_c_10 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_c_11 : Ref sig .tc := ⟨.hbm, 165, rfl⟩
abbrev main_v120 : Ref sig .tc := ⟨.hbm, 166, rfl⟩
abbrev main_v121 : Ref sig .tc := ⟨.hbm, 167, rfl⟩
abbrev main_c_12 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_cst_13 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩
abbrev main_v153 : Ref sig .tc := ⟨.hbm, 201, rfl⟩
abbrev main_v154 : Ref sig .tc := ⟨.hbm, 202, rfl⟩
abbrev main_v155 : Ref sig .tc := ⟨.hbm, 203, rfl⟩
abbrev main_v156 : Ref sig .tc := ⟨.hbm, 204, rfl⟩
abbrev main_v157 : Ref sig .tc := ⟨.hbm, 205, rfl⟩
abbrev main_v158 : Ref sig .tc := ⟨.hbm, 206, rfl⟩
abbrev main_v159 : Ref sig .tc := ⟨.hbm, 207, rfl⟩
abbrev main_v160 : Ref sig .tc := ⟨.hbm, 208, rfl⟩
abbrev main_v161 : Ref sig .tc := ⟨.hbm, 209, rfl⟩
abbrev main_v162 : Ref sig .tc := ⟨.hbm, 210, rfl⟩
abbrev main_v163 : Ref sig .tc := ⟨.hbm, 211, rfl⟩
abbrev main_v164 : Ref sig .tc := ⟨.hbm, 212, rfl⟩
abbrev main_v165 : Ref sig .tc := ⟨.hbm, 213, rfl⟩
abbrev main_v166 : Ref sig .tc := ⟨.hbm, 214, rfl⟩
abbrev main_v167 : Ref sig .tc := ⟨.hbm, 215, rfl⟩
abbrev main_v168 : Ref sig .tc := ⟨.hbm, 216, rfl⟩
abbrev main_v169 : Ref sig .tc := ⟨.hbm, 217, rfl⟩
abbrev main_v170 : Ref sig .tc := ⟨.hbm, 218, rfl⟩
abbrev main_v171 : Ref sig .tc := ⟨.hbm, 219, rfl⟩
abbrev main_v172 : Ref sig .tc := ⟨.hbm, 220, rfl⟩
abbrev main_v173 : Ref sig .tc := ⟨.hbm, 221, rfl⟩
abbrev main_v174 : Ref sig .tc := ⟨.hbm, 222, rfl⟩
abbrev main_v175 : Ref sig .tc := ⟨.hbm, 223, rfl⟩
abbrev main_v176 : Ref sig .tc := ⟨.hbm, 224, rfl⟩
abbrev main_v177 : Ref sig .tc := ⟨.hbm, 225, rfl⟩
abbrev main_v178 : Ref sig .tc := ⟨.hbm, 226, rfl⟩
abbrev main_v179 : Ref sig .tc := ⟨.hbm, 227, rfl⟩
abbrev main_v180 : Ref sig .tc := ⟨.hbm, 228, rfl⟩
abbrev main_c_14 : Ref sig .tc := ⟨.hbm, 229, rfl⟩
abbrev main_v181 : Ref sig .tc := ⟨.hbm, 230, rfl⟩
abbrev main_v182 : Ref sig .tc := ⟨.hbm, 231, rfl⟩
abbrev main_c_15 : Ref sig .tc := ⟨.hbm, 232, rfl⟩
abbrev main_v183 : Ref sig .tc := ⟨.hbm, 233, rfl⟩
abbrev main_v184 : Ref sig .tc := ⟨.hbm, 234, rfl⟩
abbrev main_v185 : Ref sig .tc := ⟨.hbm, 235, rfl⟩
abbrev main_v186 : Ref sig .tc := ⟨.hbm, 236, rfl⟩
abbrev main_v187 : Ref sig .tc := ⟨.hbm, 237, rfl⟩
abbrev main_v188 : Ref sig .tc := ⟨.hbm, 238, rfl⟩
abbrev main_c_16 : Ref sig .tc := ⟨.hbm, 239, rfl⟩
abbrev main_v189 : Ref sig .tc := ⟨.hbm, 240, rfl⟩
abbrev main_v190 : Ref sig .tc := ⟨.hbm, 241, rfl⟩
abbrev main_c_17 : Ref sig .tc := ⟨.hbm, 242, rfl⟩
abbrev main_v191 : Ref sig .tc := ⟨.hbm, 243, rfl⟩
abbrev main_v192 : Ref sig .tc := ⟨.hbm, 244, rfl⟩
abbrev main_v193 : Ref sig .tc := ⟨.hbm, 245, rfl⟩
abbrev main_v194 : Ref sig .tc := ⟨.hbm, 246, rfl⟩
abbrev main_v195 : Ref sig .tc := ⟨.hbm, 247, rfl⟩
abbrev main_cst_18 : Ref sig .tc := ⟨.hbm, 248, rfl⟩
abbrev main_v196 : Ref sig .tc := ⟨.hbm, 249, rfl⟩
abbrev main_v197 : Ref sig .tc := ⟨.hbm, 250, rfl⟩
abbrev main_v198 : Ref sig .tc := ⟨.hbm, 251, rfl⟩
abbrev main_v199 : Ref sig .tc := ⟨.hbm, 252, rfl⟩
abbrev main_v200 : Ref sig .tc := ⟨.hbm, 253, rfl⟩
abbrev main_v201 : Ref sig .tc := ⟨.hbm, 254, rfl⟩
abbrev main_v202 : Ref sig .tc := ⟨.hbm, 255, rfl⟩
abbrev main_v203 : Ref sig .tc := ⟨.hbm, 256, rfl⟩
abbrev main_v204 : Ref sig .tc := ⟨.hbm, 257, rfl⟩
abbrev main_v205 : Ref sig .tc := ⟨.hbm, 258, rfl⟩
abbrev main_v206 : Ref sig .tc := ⟨.hbm, 259, rfl⟩
abbrev main_v207 : Ref sig .tc := ⟨.hbm, 260, rfl⟩
abbrev main_v208 : Ref sig .tc := ⟨.hbm, 261, rfl⟩
abbrev main_v209 : Ref sig .tc := ⟨.hbm, 262, rfl⟩
abbrev main_v210 : Ref sig .tc := ⟨.hbm, 263, rfl⟩
abbrev main_v211 : Ref sig .tc := ⟨.hbm, 264, rfl⟩
abbrev main_v212 : Ref sig .tc := ⟨.hbm, 265, rfl⟩
abbrev main_v213 : Ref sig .tc := ⟨.hbm, 266, rfl⟩
abbrev main_v214 : Ref sig .tc := ⟨.hbm, 267, rfl⟩
abbrev main_v215 : Ref sig .tc := ⟨.hbm, 268, rfl⟩
abbrev main_v216 : Ref sig .tc := ⟨.hbm, 269, rfl⟩
abbrev main_v217 : Ref sig .tc := ⟨.hbm, 270, rfl⟩
abbrev main_v218 : Ref sig .tc := ⟨.hbm, 271, rfl⟩
abbrev main_v219 : Ref sig .tc := ⟨.hbm, 272, rfl⟩
abbrev main_v220 : Ref sig .tc := ⟨.hbm, 273, rfl⟩
abbrev main_v221 : Ref sig .tc := ⟨.hbm, 274, rfl⟩
abbrev main_v222 : Ref sig .tc := ⟨.hbm, 275, rfl⟩
abbrev main_v223 : Ref sig .tc := ⟨.hbm, 276, rfl⟩
abbrev main_v224 : Ref sig .tc := ⟨.hbm, 277, rfl⟩
abbrev main_v225 : Ref sig .tc := ⟨.hbm, 278, rfl⟩
abbrev main_v226 : Ref sig .tc := ⟨.hbm, 279, rfl⟩
abbrev main_v227 : Ref sig .tc := ⟨.hbm, 280, rfl⟩
abbrev main_v228 : Ref sig .tc := ⟨.hbm, 281, rfl⟩
abbrev main_v229 : Ref sig .tc := ⟨.hbm, 282, rfl⟩
abbrev main_v230 : Ref sig .tc := ⟨.hbm, 283, rfl⟩
abbrev main_v231 : Ref sig .tc := ⟨.hbm, 284, rfl⟩
abbrev main_v232 : Ref sig .tc := ⟨.hbm, 285, rfl⟩
abbrev main_v233 : Ref sig .tc := ⟨.hbm, 286, rfl⟩
abbrev main_v234 : Ref sig .tc := ⟨.hbm, 287, rfl⟩
abbrev main_v235 : Ref sig .tc := ⟨.hbm, 288, rfl⟩
abbrev main_v236 : Ref sig .tc := ⟨.hbm, 289, rfl⟩
abbrev main_v237 : Ref sig .tc := ⟨.hbm, 290, rfl⟩
abbrev main_v238 : Ref sig .tc := ⟨.hbm, 291, rfl⟩
abbrev main_v239 : Ref sig .tc := ⟨.hbm, 292, rfl⟩
abbrev main_v240 : Ref sig .tc := ⟨.hbm, 293, rfl⟩
abbrev main_v241 : Ref sig .tc := ⟨.hbm, 294, rfl⟩
abbrev main_v242 : Ref sig .tc := ⟨.hbm, 295, rfl⟩
abbrev main_v243 : Ref sig .tc := ⟨.hbm, 296, rfl⟩
abbrev main_v244 : Ref sig .tc := ⟨.hbm, 297, rfl⟩
abbrev main_v245 : Ref sig .tc := ⟨.hbm, 298, rfl⟩
abbrev main_v246 : Ref sig .tc := ⟨.hbm, 299, rfl⟩
abbrev main_v247 : Ref sig .tc := ⟨.hbm, 300, rfl⟩
abbrev main_v248 : Ref sig .tc := ⟨.hbm, 301, rfl⟩
abbrev main_v249 : Ref sig .tc := ⟨.hbm, 302, rfl⟩
abbrev main_c_19 : Ref sig .tc := ⟨.hbm, 303, rfl⟩
abbrev main_v250 : Ref sig .tc := ⟨.hbm, 304, rfl⟩
abbrev main_v251 : Ref sig .tc := ⟨.hbm, 305, rfl⟩
abbrev main_c_20 : Ref sig .tc := ⟨.hbm, 306, rfl⟩
abbrev main_v252 : Ref sig .tc := ⟨.hbm, 307, rfl⟩
abbrev main_v253 : Ref sig .tc := ⟨.hbm, 308, rfl⟩
abbrev main_v254 : Ref sig .tc := ⟨.hbm, 309, rfl⟩
abbrev main_v255 : Ref sig .tc := ⟨.hbm, 310, rfl⟩
abbrev main_v256 : Ref sig .tc := ⟨.hbm, 311, rfl⟩
abbrev main_v257 : Ref sig .tc := ⟨.hbm, 312, rfl⟩
abbrev main_c_21 : Ref sig .tc := ⟨.hbm, 313, rfl⟩
abbrev main_v258 : Ref sig .tc := ⟨.hbm, 314, rfl⟩
abbrev main_v259 : Ref sig .tc := ⟨.hbm, 315, rfl⟩
abbrev main_c_22 : Ref sig .tc := ⟨.hbm, 316, rfl⟩
abbrev main_v260 : Ref sig .tc := ⟨.hbm, 317, rfl⟩
abbrev main_v261 : Ref sig .tc := ⟨.hbm, 318, rfl⟩
abbrev main_v262 : Ref sig .tc := ⟨.hbm, 319, rfl⟩
abbrev main_v263 : Ref sig .tc := ⟨.hbm, 320, rfl⟩
abbrev main_v264 : Ref sig .tc := ⟨.hbm, 321, rfl⟩
abbrev main_cst_23 : Ref sig .tc := ⟨.hbm, 322, rfl⟩
abbrev main_v265 : Ref sig .tc := ⟨.hbm, 323, rfl⟩
abbrev main_v266 : Ref sig .tc := ⟨.hbm, 324, rfl⟩
abbrev main_v267 : Ref sig .tc := ⟨.hbm, 325, rfl⟩
abbrev main_v268 : Ref sig .tc := ⟨.hbm, 326, rfl⟩
abbrev main_v269 : Ref sig .tc := ⟨.hbm, 327, rfl⟩
abbrev main_v270 : Ref sig .tc := ⟨.hbm, 328, rfl⟩
abbrev main_v271 : Ref sig .tc := ⟨.hbm, 329, rfl⟩
abbrev main_v272 : Ref sig .tc := ⟨.hbm, 330, rfl⟩
abbrev main_v273 : Ref sig .tc := ⟨.hbm, 331, rfl⟩
abbrev main_v274 : Ref sig .tc := ⟨.hbm, 332, rfl⟩
abbrev main_v275 : Ref sig .tc := ⟨.hbm, 333, rfl⟩
abbrev main_v276 : Ref sig .tc := ⟨.hbm, 334, rfl⟩
abbrev main_v277 : Ref sig .tc := ⟨.hbm, 335, rfl⟩
abbrev main_v278 : Ref sig .tc := ⟨.hbm, 336, rfl⟩
abbrev main_v279 : Ref sig .tc := ⟨.hbm, 337, rfl⟩
abbrev main_v280 : Ref sig .tc := ⟨.hbm, 338, rfl⟩
abbrev main_v281 : Ref sig .tc := ⟨.hbm, 339, rfl⟩
abbrev main_v282 : Ref sig .tc := ⟨.hbm, 340, rfl⟩
abbrev main_v283 : Ref sig .tc := ⟨.hbm, 341, rfl⟩
abbrev main_v284 : Ref sig .tc := ⟨.hbm, 342, rfl⟩
abbrev main_v285 : Ref sig .tc := ⟨.hbm, 343, rfl⟩
abbrev main_v286 : Ref sig .tc := ⟨.hbm, 344, rfl⟩
abbrev main_v287 : Ref sig .tc := ⟨.hbm, 345, rfl⟩
abbrev main_v288 : Ref sig .tc := ⟨.hbm, 346, rfl⟩
abbrev main_v289 : Ref sig .tc := ⟨.hbm, 347, rfl⟩
abbrev main_v290 : Ref sig .tc := ⟨.hbm, 348, rfl⟩
abbrev main_v291 : Ref sig .tc := ⟨.hbm, 349, rfl⟩
abbrev main_v292 : Ref sig .tc := ⟨.hbm, 350, rfl⟩
abbrev main_v293 : Ref sig .tc := ⟨.hbm, 351, rfl⟩
abbrev main_v294 : Ref sig .tc := ⟨.hbm, 352, rfl⟩
abbrev main_v295 : Ref sig .tc := ⟨.hbm, 353, rfl⟩
abbrev main_v296 : Ref sig .tc := ⟨.hbm, 354, rfl⟩
abbrev main_v297 : Ref sig .tc := ⟨.hbm, 355, rfl⟩
abbrev main_v298 : Ref sig .tc := ⟨.hbm, 356, rfl⟩
abbrev main_v299 : Ref sig .tc := ⟨.hbm, 357, rfl⟩
abbrev main_v300 : Ref sig .tc := ⟨.hbm, 358, rfl⟩
abbrev main_v301 : Ref sig .tc := ⟨.hbm, 359, rfl⟩
abbrev main_v302 : Ref sig .tc := ⟨.hbm, 360, rfl⟩
abbrev main_v303 : Ref sig .tc := ⟨.hbm, 361, rfl⟩
abbrev main_v304 : Ref sig .tc := ⟨.hbm, 362, rfl⟩
abbrev main_v305 : Ref sig .tc := ⟨.hbm, 363, rfl⟩
abbrev main_v306 : Ref sig .tc := ⟨.hbm, 364, rfl⟩
abbrev main_v307 : Ref sig .tc := ⟨.hbm, 365, rfl⟩
abbrev main_v308 : Ref sig .tc := ⟨.hbm, 366, rfl⟩
abbrev main_v309 : Ref sig .tc := ⟨.hbm, 367, rfl⟩
abbrev main_v310 : Ref sig .tc := ⟨.hbm, 368, rfl⟩
abbrev main_v311 : Ref sig .tc := ⟨.hbm, 369, rfl⟩
abbrev main_v312 : Ref sig .tc := ⟨.hbm, 370, rfl⟩
abbrev main_v313 : Ref sig .tc := ⟨.hbm, 371, rfl⟩
abbrev main_v314 : Ref sig .tc := ⟨.hbm, 372, rfl⟩
abbrev main_v315 : Ref sig .tc := ⟨.hbm, 373, rfl⟩
abbrev main_v316 : Ref sig .tc := ⟨.hbm, 374, rfl⟩
abbrev main_v317 : Ref sig .tc := ⟨.hbm, 375, rfl⟩
abbrev main_v318 : Ref sig .tc := ⟨.hbm, 376, rfl⟩
abbrev main_c_24 : Ref sig .tc := ⟨.hbm, 377, rfl⟩
abbrev main_v319 : Ref sig .tc := ⟨.hbm, 378, rfl⟩
abbrev main_v320 : Ref sig .tc := ⟨.hbm, 379, rfl⟩
abbrev main_c_25 : Ref sig .tc := ⟨.hbm, 380, rfl⟩
abbrev main_v321 : Ref sig .tc := ⟨.hbm, 381, rfl⟩
abbrev main_v322 : Ref sig .tc := ⟨.hbm, 382, rfl⟩
abbrev main_v323 : Ref sig .tc := ⟨.hbm, 383, rfl⟩
abbrev main_v324 : Ref sig .tc := ⟨.hbm, 384, rfl⟩
abbrev main_v325 : Ref sig .tc := ⟨.hbm, 385, rfl⟩
abbrev main_v326 : Ref sig .tc := ⟨.hbm, 386, rfl⟩
abbrev main_c_26 : Ref sig .tc := ⟨.hbm, 387, rfl⟩
abbrev main_v327 : Ref sig .tc := ⟨.hbm, 388, rfl⟩
abbrev main_v328 : Ref sig .tc := ⟨.hbm, 389, rfl⟩
abbrev main_c_27 : Ref sig .tc := ⟨.hbm, 390, rfl⟩
abbrev main_v329 : Ref sig .tc := ⟨.hbm, 391, rfl⟩
abbrev main_v330 : Ref sig .tc := ⟨.hbm, 392, rfl⟩
abbrev main_v331 : Ref sig .tc := ⟨.hbm, 393, rfl⟩
abbrev main_v332 : Ref sig .tc := ⟨.hbm, 394, rfl⟩
abbrev main_v333 : Ref sig .tc := ⟨.hbm, 395, rfl⟩
abbrev main_cst_28 : Ref sig .tc := ⟨.hbm, 396, rfl⟩
abbrev main_v334 : Ref sig .tc := ⟨.hbm, 397, rfl⟩
abbrev main_v335 : Ref sig .tc := ⟨.hbm, 398, rfl⟩
abbrev main_v336 : Ref sig .tc := ⟨.hbm, 399, rfl⟩
abbrev main_v337 : Ref sig .tc := ⟨.hbm, 400, rfl⟩
abbrev main_v338 : Ref sig .tc := ⟨.hbm, 401, rfl⟩
abbrev main_v339 : Ref sig .tc := ⟨.hbm, 402, rfl⟩
abbrev main_v340 : Ref sig .tc := ⟨.hbm, 403, rfl⟩
abbrev main_v341 : Ref sig .tc := ⟨.hbm, 404, rfl⟩
abbrev main_v342 : Ref sig .tc := ⟨.hbm, 405, rfl⟩
abbrev main_v343 : Ref sig .tc := ⟨.hbm, 406, rfl⟩
abbrev main_v344 : Ref sig .tc := ⟨.hbm, 407, rfl⟩
abbrev main_v345 : Ref sig .tc := ⟨.hbm, 408, rfl⟩
abbrev main_v346 : Ref sig .tc := ⟨.hbm, 409, rfl⟩
abbrev main_v347 : Ref sig .tc := ⟨.hbm, 410, rfl⟩
abbrev main_v348 : Ref sig .tc := ⟨.hbm, 411, rfl⟩
abbrev main_v349 : Ref sig .tc := ⟨.hbm, 412, rfl⟩
abbrev main_v350 : Ref sig .tc := ⟨.hbm, 413, rfl⟩
abbrev main_v351 : Ref sig .tc := ⟨.hbm, 414, rfl⟩
abbrev main_v352 : Ref sig .tc := ⟨.hbm, 415, rfl⟩
abbrev main_v353 : Ref sig .tc := ⟨.hbm, 416, rfl⟩
abbrev main_v354 : Ref sig .tc := ⟨.hbm, 417, rfl⟩
abbrev main_v355 : Ref sig .tc := ⟨.hbm, 418, rfl⟩
abbrev main_v356 : Ref sig .tc := ⟨.hbm, 419, rfl⟩
abbrev main_v357 : Ref sig .tc := ⟨.hbm, 420, rfl⟩
abbrev main_v358 : Ref sig .tc := ⟨.hbm, 421, rfl⟩
abbrev main_v359 : Ref sig .tc := ⟨.hbm, 422, rfl⟩
abbrev main_v360 : Ref sig .tc := ⟨.hbm, 423, rfl⟩
abbrev main_v361 : Ref sig .tc := ⟨.hbm, 424, rfl⟩
abbrev main_v362 : Ref sig .tc := ⟨.hbm, 425, rfl⟩
abbrev main_cst_29 : Ref sig .tc := ⟨.hbm, 426, rfl⟩
abbrev main_v363 : Ref sig .tc := ⟨.hbm, 427, rfl⟩
abbrev main_cst_30 : Ref sig .tc := ⟨.hbm, 428, rfl⟩
abbrev main_v364 : Ref sig .tc := ⟨.hbm, 429, rfl⟩
abbrev main_v365 : Ref sig .tc := ⟨.hbm, 430, rfl⟩
abbrev main_v366 : Ref sig .tc := ⟨.hbm, 431, rfl⟩
abbrev main_v367 : Ref sig .tc := ⟨.hbm, 432, rfl⟩
abbrev main_v368 : Ref sig .tc := ⟨.hbm, 433, rfl⟩
abbrev main_v369 : Ref sig .tc := ⟨.hbm, 434, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_scratch0 : Ref sig .tc := ⟨.vmem, 20, rfl⟩
abbrev cc2_stg0_0 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg7_0 : Ref sig .tc := ⟨.vmem, 28, rfl⟩
abbrev cc2_stg8_0 : Ref sig .tc := ⟨.vmem, 29, rfl⟩
abbrev cc2_stg9_0 : Ref sig .tc := ⟨.vmem, 30, rfl⟩
abbrev cc3_stg0_0 : Ref sig .tc := ⟨.vmem, 31, rfl⟩
abbrev cc3_stg0_1 : Ref sig .tc := ⟨.vmem, 32, rfl⟩
abbrev cc3_stg1_0 : Ref sig .tc := ⟨.vmem, 33, rfl⟩
abbrev cc3_stg1_1 : Ref sig .tc := ⟨.vmem, 34, rfl⟩
abbrev cc3_stg2_0 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg6_0 : Ref sig .tc := ⟨.vmem, 39, rfl⟩
abbrev cc3_stg7_0 : Ref sig .tc := ⟨.vmem, 40, rfl⟩
abbrev cc3_stg8_0 : Ref sig .tc := ⟨.vmem, 41, rfl⟩
abbrev cc3_stg9_0 : Ref sig .tc := ⟨.vmem, 42, rfl⟩
abbrev cc3_stg10_0 : Ref sig .tc := ⟨.vmem, 43, rfl⟩
abbrev cc3_stg11_0 : Ref sig .tc := ⟨.vmem, 44, rfl⟩
abbrev cc3_stg11_1 : Ref sig .tc := ⟨.vmem, 45, rfl⟩
abbrev cc4_stg0_0 : Ref sig .tc := ⟨.vmem, 46, rfl⟩
abbrev cc4_stg0_1 : Ref sig .tc := ⟨.vmem, 47, rfl⟩
abbrev cc4_stg1_0 : Ref sig .tc := ⟨.vmem, 48, rfl⟩
abbrev cc4_stg1_1 : Ref sig .tc := ⟨.vmem, 49, rfl⟩
abbrev cc4_stg2_0 : Ref sig .tc := ⟨.vmem, 50, rfl⟩
abbrev cc4_scratch0 : Ref sig .tc := ⟨.vmem, 51, rfl⟩
abbrev cc5_stg0_0 : Ref sig .tc := ⟨.vmem, 52, rfl⟩
abbrev cc5_stg1_0 : Ref sig .tc := ⟨.vmem, 53, rfl⟩
abbrev cc5_stg2_0 : Ref sig .tc := ⟨.vmem, 54, rfl⟩
abbrev cc5_stg3_0 : Ref sig .tc := ⟨.vmem, 55, rfl⟩
abbrev cc5_stg4_0 : Ref sig .tc := ⟨.vmem, 56, rfl⟩
abbrev cc5_stg5_0 : Ref sig .tc := ⟨.vmem, 57, rfl⟩
abbrev cc5_stg6_0 : Ref sig .tc := ⟨.vmem, 58, rfl⟩
abbrev cc5_stg7_0 : Ref sig .tc := ⟨.vmem, 59, rfl⟩
abbrev cc5_stg8_0 : Ref sig .tc := ⟨.vmem, 60, rfl⟩
abbrev cc5_stg9_0 : Ref sig .tc := ⟨.vmem, 61, rfl⟩
abbrev cc6_stg0_0 : Ref sig .tc := ⟨.vmem, 62, rfl⟩
abbrev cc6_stg0_1 : Ref sig .tc := ⟨.vmem, 63, rfl⟩
abbrev cc6_stg1_0 : Ref sig .tc := ⟨.vmem, 64, rfl⟩
abbrev cc6_stg1_1 : Ref sig .tc := ⟨.vmem, 65, rfl⟩
abbrev cc6_stg2_0 : Ref sig .tc := ⟨.vmem, 66, rfl⟩
abbrev cc6_stg3_0 : Ref sig .tc := ⟨.vmem, 67, rfl⟩
abbrev cc6_stg4_0 : Ref sig .tc := ⟨.vmem, 68, rfl⟩
abbrev cc6_stg5_0 : Ref sig .tc := ⟨.vmem, 69, rfl⟩
abbrev cc6_stg6_0 : Ref sig .tc := ⟨.vmem, 70, rfl⟩
abbrev cc6_stg7_0 : Ref sig .tc := ⟨.vmem, 71, rfl⟩
abbrev cc6_stg8_0 : Ref sig .tc := ⟨.vmem, 72, rfl⟩
abbrev cc6_stg9_0 : Ref sig .tc := ⟨.vmem, 73, rfl⟩
abbrev cc6_stg10_0 : Ref sig .tc := ⟨.vmem, 74, rfl⟩
abbrev cc6_stg11_0 : Ref sig .tc := ⟨.vmem, 75, rfl⟩
abbrev cc6_stg11_1 : Ref sig .tc := ⟨.vmem, 76, rfl⟩
abbrev cc7_stg0_0 : Ref sig .tc := ⟨.vmem, 77, rfl⟩
abbrev cc7_stg0_1 : Ref sig .tc := ⟨.vmem, 78, rfl⟩
abbrev cc7_stg1_0 : Ref sig .tc := ⟨.vmem, 79, rfl⟩
abbrev cc7_stg1_1 : Ref sig .tc := ⟨.vmem, 80, rfl⟩
abbrev cc7_stg2_0 : Ref sig .tc := ⟨.vmem, 81, rfl⟩
abbrev cc7_scratch0 : Ref sig .tc := ⟨.vmem, 82, rfl⟩
abbrev cc8_stg0_0 : Ref sig .tc := ⟨.vmem, 83, rfl⟩
abbrev cc8_stg1_0 : Ref sig .tc := ⟨.vmem, 84, rfl⟩
abbrev cc8_stg2_0 : Ref sig .tc := ⟨.vmem, 85, rfl⟩
abbrev cc8_stg3_0 : Ref sig .tc := ⟨.vmem, 86, rfl⟩
abbrev cc8_stg4_0 : Ref sig .tc := ⟨.vmem, 87, rfl⟩
abbrev cc8_stg5_0 : Ref sig .tc := ⟨.vmem, 88, rfl⟩
abbrev cc8_stg6_0 : Ref sig .tc := ⟨.vmem, 89, rfl⟩
abbrev cc8_stg7_0 : Ref sig .tc := ⟨.vmem, 90, rfl⟩
abbrev cc8_stg8_0 : Ref sig .tc := ⟨.vmem, 91, rfl⟩
abbrev cc8_stg9_0 : Ref sig .tc := ⟨.vmem, 92, rfl⟩
abbrev cc9_stg0_0 : Ref sig .tc := ⟨.vmem, 93, rfl⟩
abbrev cc9_stg0_1 : Ref sig .tc := ⟨.vmem, 94, rfl⟩
abbrev cc9_stg1_0 : Ref sig .tc := ⟨.vmem, 95, rfl⟩
abbrev cc9_stg1_1 : Ref sig .tc := ⟨.vmem, 96, rfl⟩
abbrev cc9_stg2_0 : Ref sig .tc := ⟨.vmem, 97, rfl⟩
abbrev cc9_stg3_0 : Ref sig .tc := ⟨.vmem, 98, rfl⟩
abbrev cc9_stg4_0 : Ref sig .tc := ⟨.vmem, 99, rfl⟩
abbrev cc9_stg5_0 : Ref sig .tc := ⟨.vmem, 100, rfl⟩
abbrev cc9_stg6_0 : Ref sig .tc := ⟨.vmem, 101, rfl⟩
abbrev cc9_stg7_0 : Ref sig .tc := ⟨.vmem, 102, rfl⟩
abbrev cc9_stg8_0 : Ref sig .tc := ⟨.vmem, 103, rfl⟩
abbrev cc9_stg9_0 : Ref sig .tc := ⟨.vmem, 104, rfl⟩
abbrev cc9_stg10_0 : Ref sig .tc := ⟨.vmem, 105, rfl⟩
abbrev cc9_stg11_0 : Ref sig .tc := ⟨.vmem, 106, rfl⟩
abbrev cc9_stg11_1 : Ref sig .tc := ⟨.vmem, 107, rfl⟩
abbrev cc10_stg0_0 : Ref sig .tc := ⟨.vmem, 108, rfl⟩
abbrev cc10_stg0_1 : Ref sig .tc := ⟨.vmem, 109, rfl⟩
abbrev cc10_stg1_0 : Ref sig .tc := ⟨.vmem, 110, rfl⟩
abbrev cc10_stg1_1 : Ref sig .tc := ⟨.vmem, 111, rfl⟩
abbrev cc10_stg2_0 : Ref sig .tc := ⟨.vmem, 112, rfl⟩
abbrev cc10_scratch0 : Ref sig .tc := ⟨.vmem, 113, rfl⟩
abbrev cc11_stg0_0 : Ref sig .tc := ⟨.vmem, 114, rfl⟩
abbrev cc11_stg1_0 : Ref sig .tc := ⟨.vmem, 115, rfl⟩
abbrev cc11_stg2_0 : Ref sig .tc := ⟨.vmem, 116, rfl⟩
abbrev cc11_stg3_0 : Ref sig .tc := ⟨.vmem, 117, rfl⟩
abbrev cc11_stg4_0 : Ref sig .tc := ⟨.vmem, 118, rfl⟩
abbrev cc11_stg5_0 : Ref sig .tc := ⟨.vmem, 119, rfl⟩
abbrev cc11_stg6_0 : Ref sig .tc := ⟨.vmem, 120, rfl⟩
abbrev cc11_stg7_0 : Ref sig .tc := ⟨.vmem, 121, rfl⟩
abbrev cc11_stg8_0 : Ref sig .tc := ⟨.vmem, 122, rfl⟩
abbrev cc11_stg9_0 : Ref sig .tc := ⟨.vmem, 123, rfl⟩
abbrev cc12_stg0_0 : Ref sig .tc := ⟨.vmem, 124, rfl⟩
abbrev cc12_stg0_1 : Ref sig .tc := ⟨.vmem, 125, rfl⟩
abbrev cc12_stg1_0 : Ref sig .tc := ⟨.vmem, 126, rfl⟩
abbrev cc12_stg1_1 : Ref sig .tc := ⟨.vmem, 127, rfl⟩
abbrev cc12_stg2_0 : Ref sig .tc := ⟨.vmem, 128, rfl⟩
abbrev cc12_stg3_0 : Ref sig .tc := ⟨.vmem, 129, rfl⟩
abbrev cc12_stg4_0 : Ref sig .tc := ⟨.vmem, 130, rfl⟩
abbrev cc12_stg5_0 : Ref sig .tc := ⟨.vmem, 131, rfl⟩
abbrev cc12_stg6_0 : Ref sig .tc := ⟨.vmem, 132, rfl⟩
abbrev cc12_stg7_0 : Ref sig .tc := ⟨.vmem, 133, rfl⟩
abbrev cc12_stg8_0 : Ref sig .tc := ⟨.vmem, 134, rfl⟩
abbrev cc12_stg9_0 : Ref sig .tc := ⟨.vmem, 135, rfl⟩
abbrev cc12_stg10_0 : Ref sig .tc := ⟨.vmem, 136, rfl⟩
abbrev cc12_stg11_0 : Ref sig .tc := ⟨.vmem, 137, rfl⟩
abbrev cc12_stg11_1 : Ref sig .tc := ⟨.vmem, 138, rfl⟩
abbrev cc13_stg0_0 : Ref sig .tc := ⟨.vmem, 139, rfl⟩
abbrev cc13_stg0_1 : Ref sig .tc := ⟨.vmem, 140, rfl⟩
abbrev cc13_stg1_0 : Ref sig .tc := ⟨.vmem, 141, rfl⟩
abbrev cc13_stg1_1 : Ref sig .tc := ⟨.vmem, 142, rfl⟩
abbrev cc13_stg2_0 : Ref sig .tc := ⟨.vmem, 143, rfl⟩
abbrev cc13_scratch0 : Ref sig .tc := ⟨.vmem, 144, rfl⟩
abbrev cc14_stg0_0 : Ref sig .tc := ⟨.vmem, 145, rfl⟩
abbrev cc14_stg1_0 : Ref sig .tc := ⟨.vmem, 146, rfl⟩
abbrev cc14_stg2_0 : Ref sig .tc := ⟨.vmem, 147, rfl⟩
abbrev cc14_stg3_0 : Ref sig .tc := ⟨.vmem, 148, rfl⟩
abbrev cc14_stg4_0 : Ref sig .tc := ⟨.vmem, 149, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc2_sem0_0 : DmaSem sig := 20
abbrev cc2_sem1_0 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem7_0 : DmaSem sig := 27
abbrev cc2_sem8_0 : DmaSem sig := 28
abbrev cc2_sem9_0 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem3_0 : DmaSem sig := 35
abbrev cc3_sem4_0 : DmaSem sig := 36
abbrev cc3_sem5_0 : DmaSem sig := 37
abbrev cc3_sem6_0 : DmaSem sig := 38
abbrev cc3_sem7_0 : DmaSem sig := 39
abbrev cc3_sem8_0 : DmaSem sig := 40
abbrev cc3_sem9_0 : DmaSem sig := 41
abbrev cc3_sem10_0 : DmaSem sig := 42
abbrev cc3_sem11_0 : DmaSem sig := 43
abbrev cc3_sem11_1 : DmaSem sig := 44
abbrev cc4_sem0_0 : DmaSem sig := 45
abbrev cc4_sem0_1 : DmaSem sig := 46
abbrev cc4_sem1_0 : DmaSem sig := 47
abbrev cc4_sem1_1 : DmaSem sig := 48
abbrev cc4_sem2_0 : DmaSem sig := 49
abbrev cc5_sem0_0 : DmaSem sig := 50
abbrev cc5_sem1_0 : DmaSem sig := 51
abbrev cc5_sem2_0 : DmaSem sig := 52
abbrev cc5_sem3_0 : DmaSem sig := 53
abbrev cc5_sem4_0 : DmaSem sig := 54
abbrev cc5_sem5_0 : DmaSem sig := 55
abbrev cc5_sem6_0 : DmaSem sig := 56
abbrev cc5_sem7_0 : DmaSem sig := 57
abbrev cc5_sem8_0 : DmaSem sig := 58
abbrev cc5_sem9_0 : DmaSem sig := 59
abbrev cc6_sem0_0 : DmaSem sig := 60
abbrev cc6_sem0_1 : DmaSem sig := 61
abbrev cc6_sem1_0 : DmaSem sig := 62
abbrev cc6_sem1_1 : DmaSem sig := 63
abbrev cc6_sem2_0 : DmaSem sig := 64
abbrev cc6_sem3_0 : DmaSem sig := 65
abbrev cc6_sem4_0 : DmaSem sig := 66
abbrev cc6_sem5_0 : DmaSem sig := 67
abbrev cc6_sem6_0 : DmaSem sig := 68
abbrev cc6_sem7_0 : DmaSem sig := 69
abbrev cc6_sem8_0 : DmaSem sig := 70
abbrev cc6_sem9_0 : DmaSem sig := 71
abbrev cc6_sem10_0 : DmaSem sig := 72
abbrev cc6_sem11_0 : DmaSem sig := 73
abbrev cc6_sem11_1 : DmaSem sig := 74
abbrev cc7_sem0_0 : DmaSem sig := 75
abbrev cc7_sem0_1 : DmaSem sig := 76
abbrev cc7_sem1_0 : DmaSem sig := 77
abbrev cc7_sem1_1 : DmaSem sig := 78
abbrev cc7_sem2_0 : DmaSem sig := 79
abbrev cc8_sem0_0 : DmaSem sig := 80
abbrev cc8_sem1_0 : DmaSem sig := 81
abbrev cc8_sem2_0 : DmaSem sig := 82
abbrev cc8_sem3_0 : DmaSem sig := 83
abbrev cc8_sem4_0 : DmaSem sig := 84
abbrev cc8_sem5_0 : DmaSem sig := 85
abbrev cc8_sem6_0 : DmaSem sig := 86
abbrev cc8_sem7_0 : DmaSem sig := 87
abbrev cc8_sem8_0 : DmaSem sig := 88
abbrev cc8_sem9_0 : DmaSem sig := 89
abbrev cc9_sem0_0 : DmaSem sig := 90
abbrev cc9_sem0_1 : DmaSem sig := 91
abbrev cc9_sem1_0 : DmaSem sig := 92
abbrev cc9_sem1_1 : DmaSem sig := 93
abbrev cc9_sem2_0 : DmaSem sig := 94
abbrev cc9_sem3_0 : DmaSem sig := 95
abbrev cc9_sem4_0 : DmaSem sig := 96
abbrev cc9_sem5_0 : DmaSem sig := 97
abbrev cc9_sem6_0 : DmaSem sig := 98
abbrev cc9_sem7_0 : DmaSem sig := 99
abbrev cc9_sem8_0 : DmaSem sig := 100
abbrev cc9_sem9_0 : DmaSem sig := 101
abbrev cc9_sem10_0 : DmaSem sig := 102
abbrev cc9_sem11_0 : DmaSem sig := 103
abbrev cc9_sem11_1 : DmaSem sig := 104
abbrev cc10_sem0_0 : DmaSem sig := 105
abbrev cc10_sem0_1 : DmaSem sig := 106
abbrev cc10_sem1_0 : DmaSem sig := 107
abbrev cc10_sem1_1 : DmaSem sig := 108
abbrev cc10_sem2_0 : DmaSem sig := 109
abbrev cc11_sem0_0 : DmaSem sig := 110
abbrev cc11_sem1_0 : DmaSem sig := 111
abbrev cc11_sem2_0 : DmaSem sig := 112
abbrev cc11_sem3_0 : DmaSem sig := 113
abbrev cc11_sem4_0 : DmaSem sig := 114
abbrev cc11_sem5_0 : DmaSem sig := 115
abbrev cc11_sem6_0 : DmaSem sig := 116
abbrev cc11_sem7_0 : DmaSem sig := 117
abbrev cc11_sem8_0 : DmaSem sig := 118
abbrev cc11_sem9_0 : DmaSem sig := 119
abbrev cc12_sem0_0 : DmaSem sig := 120
abbrev cc12_sem0_1 : DmaSem sig := 121
abbrev cc12_sem1_0 : DmaSem sig := 122
abbrev cc12_sem1_1 : DmaSem sig := 123
abbrev cc12_sem2_0 : DmaSem sig := 124
abbrev cc12_sem3_0 : DmaSem sig := 125
abbrev cc12_sem4_0 : DmaSem sig := 126
abbrev cc12_sem5_0 : DmaSem sig := 127
abbrev cc12_sem6_0 : DmaSem sig := 128
abbrev cc12_sem7_0 : DmaSem sig := 129
abbrev cc12_sem8_0 : DmaSem sig := 130
abbrev cc12_sem9_0 : DmaSem sig := 131
abbrev cc12_sem10_0 : DmaSem sig := 132
abbrev cc12_sem11_0 : DmaSem sig := 133
abbrev cc12_sem11_1 : DmaSem sig := 134
abbrev cc13_sem0_0 : DmaSem sig := 135
abbrev cc13_sem0_1 : DmaSem sig := 136
abbrev cc13_sem1_0 : DmaSem sig := 137
abbrev cc13_sem1_1 : DmaSem sig := 138
abbrev cc13_sem2_0 : DmaSem sig := 139
abbrev cc14_sem0_0 : DmaSem sig := 140
abbrev cc14_sem1_0 : DmaSem sig := 141
abbrev cc14_sem2_0 : DmaSem sig := 142
abbrev cc14_sem3_0 : DmaSem sig := 143
abbrev cc14_sem4_0 : DmaSem sig := 144

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S5000x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![10], ![false]⟩

def k1_cond2 (i : grid1.Coords) : BitVec 1 :=
  let arg0 : BitVec 32 := BitVec.ofNat 32 (i 0).val
  let c9_i32 : BitVec 32 := 9#32
  let v20 : BitVec 1 := Scalar.cmpi .eq arg0 c9_i32
  let v21 : BitVec 32 := Scalar.extui v20
  let c0_i32_8 : BitVec 32 := 0#32
  let v22 : BitVec 1 := Scalar.cmpi .ne v21 c0_i32_8
  v22

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S256x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S128x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256x128 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S256x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x256 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x256 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S256x128 .bf16 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x128 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S1x128 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 2 → Memref sig .tc .vmem S5000x128 .f32 := fun | 0 => Memref.whole cc3_stg11_0 | 1 => Memref.whole cc3_stg11_1 | ⟨_ + 2, h⟩ => absurd h (Nat.not_lt.2 (Nat.le_add_left _ _))
abbrev sem3_11 : Fin 2 → DmaSem sig := fun | 0 => cc3_sem11_0 | 1 => cc3_sem11_1 | ⟨_ + 2, h⟩ => absurd h (Nat.not_lt.2 (Nat.le_add_left _ _))
abbrev reads3_11 : Fin grid3.rank → Bool := ![true]

abbrev grid4 : Pipeline.Grid := ⟨1, ![10], ![false]⟩

def k4_cond2 (i : grid4.Coords) : BitVec 1 :=
  let arg0 : BitVec 32 := BitVec.ofNat 32 (i 0).val
  let c9_i32 : BitVec 32 := 9#32
  let v20 : BitVec 1 := Scalar.cmpi .eq arg0 c9_i32
  let v21 : BitVec 32 := Scalar.extui v20
  let c0_i32_8 : BitVec 32 := 0#32
  let v22 : BitVec 1 := Scalar.cmpi .ne v21 c0_i32_8
  v22

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .i32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S256x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 1 → Memref sig .tc .vmem S256x128 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 1 → Memref sig .tc .vmem S128x256 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x256 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S256x128 .bf16 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S1x128 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S1x128 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 1 → Memref sig .tc .vmem S256x128 .f32 := fun | 0 => Memref.whole cc5_stg9_0 | ⟨_ + 1, h⟩ => absurd h (Nat.not_lt.2 (Nat.le_add_left _ _))
abbrev sem5_9 : Fin 1 → DmaSem sig := fun | 0 => cc5_sem9_0 | ⟨_ + 1, h⟩ => absurd h (Nat.not_lt.2 (Nat.le_add_left _ _))
abbrev reads5_9 : Fin grid5.rank → Bool := ![false]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_9 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_10 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_11 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S1x1 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S128x256 .bf16 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x256 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x256 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x256 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S256x128 .bf16 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 1 → Memref sig .tc .vmem S1x128 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false]

abbrev stage6_9 : Fin 1 → Memref sig .tc .vmem S1x128 .f32 := fun | 0 => Memref.whole cc6_stg9_0 | ⟨_ + 1, h⟩ => absurd h (Nat.not_lt.2 (Nat.le_add_left _ _))
abbrev sem6_9 : Fin 1 → DmaSem sig := fun | 0 => cc6_sem9_0 | ⟨_ + 1, h⟩ => absurd h (Nat.not_lt.2 (Nat.le_add_left _ _))
abbrev reads6_9 : Fin grid6.rank → Bool := ![false]

abbrev stage6_10 : Fin 1 → Memref sig .tc .vmem S1x128 .f32 := fun | 0 => Memref.whole cc6_stg10_0 | ⟨_ + 1, h⟩ => absurd h (Nat.not_lt.2 (Nat.le_add_left _ _))
abbrev sem6_10 : Fin 1 → DmaSem sig := fun | 0 => cc6_sem10_0 | ⟨_ + 1, h⟩ => absurd h (Nat.not_lt.2 (Nat.le_add_left _ _))
abbrev reads6_10 : Fin grid6.rank → Bool := ![false]

abbrev stage6_11 : Fin 2 → Memref sig .tc .vmem S5000x128 .f32 := fun | 0 => Memref.whole cc6_stg11_0 | 1 => Memref.whole cc6_stg11_1 | ⟨_ + 2, h⟩ => absurd h (Nat.not_lt.2 (Nat.le_add_left _ _))
abbrev sem6_11 : Fin 2 → DmaSem sig := fun | 0 => cc6_sem11_0 | 1 => cc6_sem11_1 | ⟨_ + 2, h⟩ => absurd h (Nat.not_lt.2 (Nat.le_add_left _ _))
abbrev reads6_11 : Fin grid6.rank → Bool := ![true]

abbrev grid7 : Pipeline.Grid := ⟨1, ![10], ![false]⟩

def k7_cond2 (i : grid7.Coords) : BitVec 1 :=
  let arg0 : BitVec 32 := BitVec.ofNat 32 (i 0).val
  let c9_i32 : BitVec 32 := 9#32
  let v20 : BitVec 1 := Scalar.cmpi .eq arg0 c9_i32
  let v21 : BitVec 32 := Scalar.extui v20
  let c0_i32_8 : BitVec 32 := 0#32
  let v22 : BitVec 1 := Scalar.cmpi .ne v21 c0_i32_8
  v22

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x1 .i32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S256x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev grid8 : Pipeline.Grid := ⟨1, ![1], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_7 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_8 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_9 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 1 → Memref sig .tc .vmem S256x128 .f32 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![false]

abbrev stage8_1 : Fin 1 → Memref sig .tc .vmem S128x256 .bf16 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x256 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x256 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x256 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S256x128 .bf16 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 1 → Memref sig .tc .vmem S1x128 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev stage8_7 : Fin 1 → Memref sig .tc .vmem S1x128 .f32 := fun | 0 => Memref.whole cc8_stg7_0 | ⟨_ + 1, h⟩ => absurd h (Nat.not_lt.2 (Nat.le_add_left _ _))
abbrev sem8_7 : Fin 1 → DmaSem sig := fun | 0 => cc8_sem7_0 | ⟨_ + 1, h⟩ => absurd h (Nat.not_lt.2 (Nat.le_add_left _ _))
abbrev reads8_7 : Fin grid8.rank → Bool := ![false]

abbrev stage8_8 : Fin 1 → Memref sig .tc .vmem S1x128 .f32 := fun | 0 => Memref.whole cc8_stg8_0 | ⟨_ + 1, h⟩ => absurd h (Nat.not_lt.2 (Nat.le_add_left _ _))
abbrev sem8_8 : Fin 1 → DmaSem sig := fun | 0 => cc8_sem8_0 | ⟨_ + 1, h⟩ => absurd h (Nat.not_lt.2 (Nat.le_add_left _ _))
abbrev reads8_8 : Fin grid8.rank → Bool := ![false]

abbrev stage8_9 : Fin 1 → Memref sig .tc .vmem S256x128 .f32 := fun | 0 => Memref.whole cc8_stg9_0 | ⟨_ + 1, h⟩ => absurd h (Nat.not_lt.2 (Nat.le_add_left _ _))
abbrev sem8_9 : Fin 1 → DmaSem sig := fun | 0 => cc8_sem9_0 | ⟨_ + 1, h⟩ => absurd h (Nat.not_lt.2 (Nat.le_add_left _ _))
abbrev reads8_9 : Fin grid8.rank → Bool := ![false]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_7 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_8 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_9 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_10 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_11 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S5000x128 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S1x1 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S128x256 .bf16 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x256 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S1x256 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 1 → Memref sig .tc .vmem S1x256 .f32 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))
abbrev reads9_6 : Fin grid9.rank → Bool := ![false]

abbrev stage9_7 : Fin 1 → Memref sig .tc .vmem S256x128 .bf16 := fun | 0 => Memref.whole cc9_stg7_0 | ⟨_ + 1, h⟩ => absurd h (Nat.not_lt.2 (Nat.le_add_left _ _))
abbrev sem9_7 : Fin 1 → DmaSem sig := fun | 0 => cc9_sem7_0 | ⟨_ + 1, h⟩ => absurd h (Nat.not_lt.2 (Nat.le_add_left _ _))
abbrev reads9_7 : Fin grid9.rank → Bool := ![false]

abbrev stage9_8 : Fin 1 → Memref sig .tc .vmem S1x128 .f32 := fun | 0 => Memref.whole cc9_stg8_0 | ⟨_ + 1, h⟩ => absurd h (Nat.not_lt.2 (Nat.le_add_left _ _))
abbrev sem9_8 : Fin 1 → DmaSem sig := fun | 0 => cc9_sem8_0 | ⟨_ + 1, h⟩ => absurd h (Nat.not_lt.2 (Nat.le_add_left _ _))
abbrev reads9_8 : Fin grid9.rank → Bool := ![false]

abbrev stage9_9 : Fin 1 → Memref sig .tc .vmem S1x128 .f32 := fun | 0 => Memref.whole cc9_stg9_0 | ⟨_ + 1, h⟩ => absurd h (Nat.not_lt.2 (Nat.le_add_left _ _))
abbrev sem9_9 : Fin 1 → DmaSem sig := fun | 0 => cc9_sem9_0 | ⟨_ + 1, h⟩ => absurd h (Nat.not_lt.2 (Nat.le_add_left _ _))
abbrev reads9_9 : Fin grid9.rank → Bool := ![false]

abbrev stage9_10 : Fin 1 → Memref sig .tc .vmem S1x128 .f32 := fun | 0 => Memref.whole cc9_stg10_0 | ⟨_ + 1, h⟩ => absurd h (Nat.not_lt.2 (Nat.le_add_left _ _))
abbrev sem9_10 : Fin 1 → DmaSem sig := fun | 0 => cc9_sem10_0 | ⟨_ + 1, h⟩ => absurd h (Nat.not_lt.2 (Nat.le_add_left _ _))
abbrev reads9_10 : Fin grid9.rank → Bool := ![false]

abbrev stage9_11 : Fin 2 → Memref sig .tc .vmem S5000x128 .f32 := fun | 0 => Memref.whole cc9_stg11_0 | 1 => Memref.whole cc9_stg11_1 | ⟨_ + 2, h⟩ => absurd h (Nat.not_lt.2 (Nat.le_add_left _ _))
abbrev sem9_11 : Fin 2 → DmaSem sig := fun | 0 => cc9_sem11_0 | 1 => cc9_sem11_1 | ⟨_ + 2, h⟩ => absurd h (Nat.not_lt.2 (Nat.le_add_left _ _))
abbrev reads9_11 : Fin grid9.rank → Bool := ![true]

abbrev grid10 : Pipeline.Grid := ⟨1, ![10], ![false]⟩

def k10_cond2 (i : grid10.Coords) : BitVec 1 :=
  let arg0 : BitVec 32 := BitVec.ofNat 32 (i 0).val
  let c9_i32 : BitVec 32 := 9#32
  let v20 : BitVec 1 := Scalar.cmpi .eq arg0 c9_i32
  let v21 : BitVec 32 := Scalar.extui v20
  let c0_i32_8 : BitVec 32 := 0#32
  let v22 : BitVec 1 := Scalar.cmpi .ne v21 c0_i32_8
  v22

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 2 → Memref sig .tc .vmem S5000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S5000x1 .i32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 1 → Memref sig .tc .vmem S256x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev grid11 : Pipeline.Grid := ⟨1, ![1], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_6 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_7 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_8 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_9 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage11_0 : Fin 1 → Memref sig .tc .vmem S256x128 .f32 := fun | 0 => Memref.whole cc11_stg0_0 | ⟨_ + 1, h⟩ => absurd h (Nat.not_lt.2 (Nat.le_add_left _ _))
abbrev sem11_0 : Fin 1 → DmaSem sig := fun | 0 => cc11_sem0_0 | ⟨_ + 1, h⟩ => absurd h (Nat.not_lt.2 (Nat.le_add_left _ _))
abbrev reads11_0 : Fin grid11.rank → Bool := ![false]

abbrev stage11_1 : Fin 1 → Memref sig .tc .vmem S128x256 .bf16 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x256 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1x256 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x256 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 1 → Memref sig .tc .vmem S256x128 .bf16 := fun | 0 => Memref.whole cc11_stg5_0 | ⟨_ + 1, h⟩ => absurd h (Nat.not_lt.2 (Nat.le_add_left _ _))
abbrev sem11_5 : Fin 1 → DmaSem sig := fun | 0 => cc11_sem5_0 | ⟨_ + 1, h⟩ => absurd h (Nat.not_lt.2 (Nat.le_add_left _ _))
abbrev reads11_5 : Fin grid11.rank → Bool := ![false]

abbrev stage11_6 : Fin 1 → Memref sig .tc .vmem S1x128 .f32 := fun | 0 => Memref.whole cc11_stg6_0 | ⟨_ + 1, h⟩ => absurd h (Nat.not_lt.2 (Nat.le_add_left _ _))
abbrev sem11_6 : Fin 1 → DmaSem sig := fun | 0 => cc11_sem6_0 | ⟨_ + 1, h⟩ => absurd h (Nat.not_lt.2 (Nat.le_add_left _ _))
abbrev reads11_6 : Fin grid11.rank → Bool := ![false]

abbrev stage11_7 : Fin 1 → Memref sig .tc .vmem S1x128 .f32 := fun | 0 => Memref.whole cc11_stg7_0 | ⟨_ + 1, h⟩ => absurd h (Nat.not_lt.2 (Nat.le_add_left _ _))
abbrev sem11_7 : Fin 1 → DmaSem sig := fun | 0 => cc11_sem7_0 | ⟨_ + 1, h⟩ => absurd h (Nat.not_lt.2 (Nat.le_add_left _ _))
abbrev reads11_7 : Fin grid11.rank → Bool := ![false]

abbrev stage11_8 : Fin 1 → Memref sig .tc .vmem S1x128 .f32 := fun | 0 => Memref.whole cc11_stg8_0 | ⟨_ + 1, h⟩ => absurd h (Nat.not_lt.2 (Nat.le_add_left _ _))
abbrev sem11_8 : Fin 1 → DmaSem sig := fun | 0 => cc11_sem8_0 | ⟨_ + 1, h⟩ => absurd h (Nat.not_lt.2 (Nat.le_add_left _ _))
abbrev reads11_8 : Fin grid11.rank → Bool := ![false]

abbrev stage11_9 : Fin 1 → Memref sig .tc .vmem S256x128 .f32 := fun | 0 => Memref.whole cc11_stg9_0 | ⟨_ + 1, h⟩ => absurd h (Nat.not_lt.2 (Nat.le_add_left _ _))
abbrev sem11_9 : Fin 1 → DmaSem sig := fun | 0 => cc11_sem9_0 | ⟨_ + 1, h⟩ => absurd h (Nat.not_lt.2 (Nat.le_add_left _ _))
abbrev reads11_9 : Fin grid11.rank → Bool := ![false]

abbrev grid12 : Pipeline.Grid := ⟨1, ![10], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_5 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_6 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_7 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_8 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_9 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_10 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_11 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S5000x128 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S5000x128 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 1 → Memref sig .tc .vmem S1x1 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 1 → Memref sig .tc .vmem S128x256 .bf16 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 1 → Memref sig .tc .vmem S1x256 .f32 := fun | 0 => Memref.whole cc12_stg4_0 | ⟨_ + 1, h⟩ => absurd h (Nat.not_lt.2 (Nat.le_add_left _ _))
abbrev sem12_4 : Fin 1 → DmaSem sig := fun | 0 => cc12_sem4_0 | ⟨_ + 1, h⟩ => absurd h (Nat.not_lt.2 (Nat.le_add_left _ _))
abbrev reads12_4 : Fin grid12.rank → Bool := ![false]

abbrev stage12_5 : Fin 1 → Memref sig .tc .vmem S1x256 .f32 := fun | 0 => Memref.whole cc12_stg5_0 | ⟨_ + 1, h⟩ => absurd h (Nat.not_lt.2 (Nat.le_add_left _ _))
abbrev sem12_5 : Fin 1 → DmaSem sig := fun | 0 => cc12_sem5_0 | ⟨_ + 1, h⟩ => absurd h (Nat.not_lt.2 (Nat.le_add_left _ _))
abbrev reads12_5 : Fin grid12.rank → Bool := ![false]

abbrev stage12_6 : Fin 1 → Memref sig .tc .vmem S1x256 .f32 := fun | 0 => Memref.whole cc12_stg6_0 | ⟨_ + 1, h⟩ => absurd h (Nat.not_lt.2 (Nat.le_add_left _ _))
abbrev sem12_6 : Fin 1 → DmaSem sig := fun | 0 => cc12_sem6_0 | ⟨_ + 1, h⟩ => absurd h (Nat.not_lt.2 (Nat.le_add_left _ _))
abbrev reads12_6 : Fin grid12.rank → Bool := ![false]

abbrev stage12_7 : Fin 1 → Memref sig .tc .vmem S256x128 .bf16 := fun | 0 => Memref.whole cc12_stg7_0 | ⟨_ + 1, h⟩ => absurd h (Nat.not_lt.2 (Nat.le_add_left _ _))
abbrev sem12_7 : Fin 1 → DmaSem sig := fun | 0 => cc12_sem7_0 | ⟨_ + 1, h⟩ => absurd h (Nat.not_lt.2 (Nat.le_add_left _ _))
abbrev reads12_7 : Fin grid12.rank → Bool := ![false]

abbrev stage12_8 : Fin 1 → Memref sig .tc .vmem S1x128 .f32 := fun | 0 => Memref.whole cc12_stg8_0 | ⟨_ + 1, h⟩ => absurd h (Nat.not_lt.2 (Nat.le_add_left _ _))
abbrev sem12_8 : Fin 1 → DmaSem sig := fun | 0 => cc12_sem8_0 | ⟨_ + 1, h⟩ => absurd h (Nat.not_lt.2 (Nat.le_add_left _ _))
abbrev reads12_8 : Fin grid12.rank → Bool := ![false]

abbrev stage12_9 : Fin 1 → Memref sig .tc .vmem S1x128 .f32 := fun | 0 => Memref.whole cc12_stg9_0 | ⟨_ + 1, h⟩ => absurd h (Nat.not_lt.2 (Nat.le_add_left _ _))
abbrev sem12_9 : Fin 1 → DmaSem sig := fun | 0 => cc12_sem9_0 | ⟨_ + 1, h⟩ => absurd h (Nat.not_lt.2 (Nat.le_add_left _ _))
abbrev reads12_9 : Fin grid12.rank → Bool := ![false]

abbrev stage12_10 : Fin 1 → Memref sig .tc .vmem S1x128 .f32 := fun | 0 => Memref.whole cc12_stg10_0 | ⟨_ + 1, h⟩ => absurd h (Nat.not_lt.2 (Nat.le_add_left _ _))
abbrev sem12_10 : Fin 1 → DmaSem sig := fun | 0 => cc12_sem10_0 | ⟨_ + 1, h⟩ => absurd h (Nat.not_lt.2 (Nat.le_add_left _ _))
abbrev reads12_10 : Fin grid12.rank → Bool := ![false]

abbrev stage12_11 : Fin 2 → Memref sig .tc .vmem S5000x128 .f32 := fun | 0 => Memref.whole cc12_stg11_0 | 1 => Memref.whole cc12_stg11_1 | ⟨_ + 2, h⟩ => absurd h (Nat.not_lt.2 (Nat.le_add_left _ _))
abbrev sem12_11 : Fin 2 → DmaSem sig := fun | 0 => cc12_sem11_0 | 1 => cc12_sem11_1 | ⟨_ + 2, h⟩ => absurd h (Nat.not_lt.2 (Nat.le_add_left _ _))
abbrev reads12_11 : Fin grid12.rank → Bool := ![true]

abbrev grid13 : Pipeline.Grid := ⟨1, ![10], ![false]⟩

def k13_cond2 (i : grid13.Coords) : BitVec 1 :=
  let arg0 : BitVec 32 := BitVec.ofNat 32 (i 0).val
  let c9_i32 : BitVec 32 := 9#32
  let v20 : BitVec 1 := Scalar.cmpi .eq arg0 c9_i32
  let v21 : BitVec 32 := Scalar.extui v20
  let c0_i32_8 : BitVec 32 := 0#32
  let v22 : BitVec 1 := Scalar.cmpi .ne v21 c0_i32_8
  v22

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage13_0 : Fin 2 → Memref sig .tc .vmem S5000x128 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 2 → Memref sig .tc .vmem S5000x1 .i32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true]

abbrev stage13_2 : Fin 1 → Memref sig .tc .vmem S256x128 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev grid14 : Pipeline.Grid := ⟨1, ![1], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_1 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_2 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_3 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_4 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage14_0 : Fin 1 → Memref sig .tc .vmem S256x128 .f32 := fun | 0 => Memref.whole cc14_stg0_0 | ⟨_ + 1, h⟩ => absurd h (Nat.not_lt.2 (Nat.le_add_left _ _))
abbrev sem14_0 : Fin 1 → DmaSem sig := fun | 0 => cc14_sem0_0 | ⟨_ + 1, h⟩ => absurd h (Nat.not_lt.2 (Nat.le_add_left _ _))
abbrev reads14_0 : Fin grid14.rank → Bool := ![false]

abbrev stage14_1 : Fin 1 → Memref sig .tc .vmem S256x1 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false]

abbrev stage14_2 : Fin 1 → Memref sig .tc .vmem S128x10 .bf16 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev stage14_3 : Fin 1 → Memref sig .tc .vmem S1x10 .f32 := fun | 0 => Memref.whole cc14_stg3_0 | ⟨_ + 1, h⟩ => absurd h (Nat.not_lt.2 (Nat.le_add_left _ _))
abbrev sem14_3 : Fin 1 → DmaSem sig := fun | 0 => cc14_sem3_0 | ⟨_ + 1, h⟩ => absurd h (Nat.not_lt.2 (Nat.le_add_left _ _))
abbrev reads14_3 : Fin grid14.rank → Bool := ![false]

abbrev stage14_4 : Fin 1 → Memref sig .tc .vmem S256x10 .f32 := fun | 0 => Memref.whole cc14_stg4_0 | ⟨_ + 1, h⟩ => absurd h (Nat.not_lt.2 (Nat.le_add_left _ _))
abbrev sem14_4 : Fin 1 → DmaSem sig := fun | 0 => cc14_sem4_0 | ⟨_ + 1, h⟩ => absurd h (Nat.not_lt.2 (Nat.le_add_left _ _))
abbrev reads14_4 : Fin grid14.rank → Bool := ![false]

class Facts₀ : Prop where
  bcast_S_S50000 : S_.BroadcastsInDim S50000 (![] : Fin 0 → Fin S50000.rank)
  bcast_S50000_S50000x1_0 : S50000.BroadcastsInDim S50000x1 (![0] : Fin 1 → Fin S50000x1.rank)
  shapeCasts_S1x128_S128 : S1x128.ShapeCasts S128
  bcast_S128_S256x128_1 : S128.BroadcastsInDim S256x128 (![1] : Fin 1 → Fin S256x128.rank)
  slices_S2x600000_S1x600000_0_0 : S2x600000.Slices ![0, 0] S1x600000
  shapeCasts_S1x600000_S600000 : S1x600000.ShapeCasts S600000
  slices_S2x600000_S1x600000_1_0 : S2x600000.Slices ![1, 0] S1x600000
  shapeCasts_S50000_S50000x1 : S50000.ShapeCasts S50000x1
  bcast_S_S5x256 : S_.BroadcastsInDim S5x256 (![] : Fin 0 → Fin S5x256.rank)
  bcast_S_S5x128 : S_.BroadcastsInDim S5x128 (![] : Fin 0 → Fin S5x128.rank)
  bitsLt_bf16_f32 : FTy.bits .bf16 < FTy.bits .f32
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  slices_S5_S1_0 : S5.Slices ![0] S1
  shapeCasts_S1_S_ : S1.ShapeCasts S_
  shapeCasts_S_S1x1 : S_.ShapeCasts S1x1
  slices_S5x128x256_S1x128x256_0_0_0 : S5x128x256.Slices ![0, 0, 0] S1x128x256
  shapeCasts_S1x128x256_S128x256 : S1x128x256.ShapeCasts S128x256
  slices_S5x256_S1x256_0_0 : S5x256.Slices ![0, 0] S1x256
  shapeCasts_S1x256_S256 : S1x256.ShapeCasts S256
  shapeCasts_S256_S1x256 : S256.ShapeCasts S1x256
  slices_S5x256x128_S1x256x128_0_0_0 : S5x256x128.Slices ![0, 0, 0] S1x256x128
  shapeCasts_S1x256x128_S256x128 : S1x256x128.ShapeCasts S256x128
  slices_S5x128_S1x128_0_0 : S5x128.Slices ![0, 0] S1x128
  shapeCasts_S128_S1x128 : S128.ShapeCasts S1x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x1_S5000x128 : S1x1.Broadcasts S5000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x256_d1_w32 : S5000x256.Iotas .tc 32 [1]
  broadcasts_S5000x1_S5000x256 : S5000x1.Broadcasts S5000x256
  natLt_1_32 : 1 < 32
  broadcasts_S1x256_S256x256 : S1x256.Broadcasts S256x256
  broadcasts_S1x128_S256x128 : S1x128.Broadcasts S256x128
  slices_S5_S1_1 : S5.Slices ![1] S1
  slices_S5x128x256_S1x128x256_1_0_0 : S5x128x256.Slices ![1, 0, 0] S1x128x256
  slices_S5x256_S1x256_1_0 : S5x256.Slices ![1, 0] S1x256
  slices_S5x256x128_S1x256x128_1_0_0 : S5x256x128.Slices ![1, 0, 0] S1x256x128
  slices_S5x128_S1x128_1_0 : S5x128.Slices ![1, 0] S1x128
  slices_S5_S1_2 : S5.Slices ![2] S1
  slices_S5x128x256_S1x128x256_2_0_0 : S5x128x256.Slices ![2, 0, 0] S1x128x256
  slices_S5x256_S1x256_2_0 : S5x256.Slices ![2, 0] S1x256
  slices_S5x256x128_S1x256x128_2_0_0 : S5x256x128.Slices ![2, 0, 0] S1x256x128
  slices_S5x128_S1x128_2_0 : S5x128.Slices ![2, 0] S1x128
  slices_S5_S1_3 : S5.Slices ![3] S1
  slices_S5x128x256_S1x128x256_3_0_0 : S5x128x256.Slices ![3, 0, 0] S1x128x256
  slices_S5x256_S1x256_3_0 : S5x256.Slices ![3, 0] S1x256
  slices_S5x256x128_S1x256x128_3_0_0 : S5x256x128.Slices ![3, 0, 0] S1x256x128
  slices_S5x128_S1x128_3_0 : S5x128.Slices ![3, 0] S1x128
  slices_S5_S1_4 : S5.Slices ![4] S1
  slices_S5x128x256_S1x128x256_4_0_0 : S5x128x256.Slices ![4, 0, 0] S1x128x256
  slices_S5x256_S1x256_4_0 : S5x256.Slices ![4, 0] S1x256
  slices_S5x256x128_S1x256x128_4_0_0 : S5x256x128.Slices ![4, 0, 0] S1x256x128
  slices_S5x128_S1x128_4_0 : S5x128.Slices ![4, 0] S1x128
  bcast_S_S50000x1 : S_.BroadcastsInDim S50000x1 (![] : Fin 0 → Fin S50000x1.rank)
  bcast_S_S256x1 : S_.BroadcastsInDim S256x1 (![] : Fin 0 → Fin S256x1.rank)
  shapeCasts_S10_S1x10 : S10.ShapeCasts S1x10
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x128 : S256x1.Broadcasts S256x128
  inb_S128x10_S128x10_0_0 : ∀ a, (![0, 0] : Fin 2 → Nat) a + S128x10.size a ≤ S128x10.size a
  h_S128x10 : 0 < S128x10.numel
  shapeCasts_S128x10_S128x10 : S128x10.ShapeCasts S128x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S256x10 : S1x10.Broadcasts S256x10
  inb_S256x10_S256x10_0_0 : ∀ a, (![0, 0] : Fin 2 → Nat) a + S256x10.size a ≤ S256x10.size a
  h_S256x10 : 0 < S256x10.numel
  gather_S1x128_S50000x1_S50000x128_1_0_n_n_0_1_1128_wf : GatherDims.WF S1x128 S50000x1 S50000x128 [1] [0] [] [0] [] 1 ![1, 128]
  gather_S256x128_S50000x1_S50000x128_1_0_n_n_0_1_1128_wf : GatherDims.WF S256x128 S50000x1 S50000x128 [1] [0] [] [0] [] 1 ![1, 128]
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x256_S5000x256_1_0_0_1_n_n_wf : DotDims.WF S5000x128 S128x256 S5000x256 [1] [0] [0] [1] [] []
  dot_S5000x256_S256x128_S5000x128_1_0_0_1_n_n_wf : DotDims.WF S5000x256 S256x128 S5000x128 [1] [0] [0] [1] [] []
  dot_S5000x256_S5000x128_S256x128_0_0_1_1_n_n_wf : DotDims.WF S5000x256 S5000x128 S256x128 [0] [0] [1] [1] [] []
  dot_S256x128_S128x256_S256x256_1_0_0_1_n_n_wf : DotDims.WF S256x128 S128x256 S256x256 [1] [0] [0] [1] [] []
  dot_S256x256_S256x128_S256x128_1_0_0_1_n_n_wf : DotDims.WF S256x256 S256x128 S256x128 [1] [0] [0] [1] [] []
  scatter_S256x1_S50000x1_S50000x1_1_0_0_1_wf : ScatterDims.WF S256x1 S50000x1 S50000x1 [1] [0] [0] 1
  dot_S256x128_S128x10_S256x10_1_0_0_1_n_n_wf : DotDims.WF S256x128 S128x10 S256x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .bf16 = 32 ∨ (Rect.block (s := S128x256) S128x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x128.size a ≤ S256x128.size a
  hwx0_7 : ∀ i : grid0.Coords, EltTy.bits .bf16 = 32 ∨ (Rect.block (s := S256x128) S256x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S5000x128.size a ≤ S50000x128.size a
  hwx0_11 : ∀ i : grid0.Coords, EltTy.bits .f32 = 32 ∨ (Rect.block (s := S50000x128) S5000x128.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .i32 = 32 ∨ (Rect.block (s := S50000x1) S5000x1.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .f32 = 32 ∨ (Rect.block (s := S256x128) S256x128.size (cc1_transform_2 i) (hinb1_2 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S256x128.size a ≤ S256x128.size a
  hwx2_0 : ∀ i : grid2.Coords, EltTy.bits .f32 = 32 ∨ (Rect.block (s := S256x128) S256x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x256.size a ≤ S128x256.size a
  hwx2_1 : ∀ i : grid2.Coords, EltTy.bits .bf16 = 32 ∨ (Rect.block (s := S128x256) S128x256.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256x128.size a ≤ S256x128.size a
  hwx2_5 : ∀ i : grid2.Coords, EltTy.bits .bf16 = 32 ∨ (Rect.block (s := S256x128) S256x128.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S256x128.size a ≤ S256x128.size a
  hwx2_9 : ∀ i : grid2.Coords, EltTy.bits .f32 = 32 ∨ (Rect.block (s := S256x128) S256x128.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x1.size a ≤ S1x1.size a
  hwx3_2 : ∀ i : grid3.Coords, EltTy.bits .f32 = 32 ∨ (Rect.block (s := S1x1) S1x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x256.size a ≤ S128x256.size a
  hwx3_3 : ∀ i : grid3.Coords, EltTy.bits .bf16 = 32 ∨ (Rect.block (s := S128x256) S128x256.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x256.size a ≤ S1x256.size a
  hwx3_5 : ∀ i : grid3.Coords, EltTy.bits .f32 = 32 ∨ (Rect.block (s := S1x256) S1x256.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x256.size a ≤ S1x256.size a
  hwx3_6 : ∀ i : grid3.Coords, EltTy.bits .f32 = 32 ∨ (Rect.block (s := S1x256) S1x256.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S256x128.size a ≤ S256x128.size a
  hwx3_7 : ∀ i : grid3.Coords, EltTy.bits .bf16 = 32 ∨ (Rect.block (s := S256x128) S256x128.size (cc3_transform_7 i) (hinb3_7 i)).WholeWords (EltTy.packing .bf16)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x128.size a ≤ S1x128.size a
  hwx3_8 : ∀ i : grid3.Coords, EltTy.bits .f32 = 32 ∨ (Rect.block (s := S1x128) S1x128.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S1x128.size a ≤ S1x128.size a
  hwx3_9 : ∀ i : grid3.Coords, EltTy.bits .f32 = 32 ∨ (Rect.block (s := S1x128) S1x128.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S1x128.size a ≤ S1x128.size a
  hwx3_10 : ∀ i : grid3.Coords, EltTy.bits .f32 = 32 ∨ (Rect.block (s := S1x128) S1x128.size (cc3_transform_10 i) (hinb3_10 i)).WholeWords (EltTy.packing .f32)
  hstage3_11 : ∀ j, (stage3_11 j).IsWhole
  nbuf3_11 : grid3.bufCount reads3_11 false = 2
  hreads3_11 : ∀ i i' : grid3.Coords, (∀ a, reads3_11 a = true → i a = i' a) → cc3_transform_11 i = cc3_transform_11 i'
  hinb3_11 : ∀ (i : grid3.Coords) a, (cc3_transform_11 i a + 1) * S5000x128.size a ≤ S50000x128.size a
  hwx3_11 : ∀ i : grid3.Coords, EltTy.bits .f32 = 32 ∨ (Rect.block (s := S50000x128) S5000x128.size (cc3_transform_11 i) (hinb3_11 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S50000x1.size a
  hwx4_1 : ∀ i : grid4.Coords, EltTy.bits .i32 = 32 ∨ (Rect.block (s := S50000x1) S5000x1.size (cc4_transform_1 i) (hinb4_1 i)).WholeWords (EltTy.packing .i32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S256x128.size a ≤ S256x128.size a
  hwx4_2 : ∀ i : grid4.Coords, EltTy.bits .f32 = 32 ∨ (Rect.block (s := S256x128) S256x128.size (cc4_transform_2 i) (hinb4_2 i)).WholeWords (EltTy.packing .f32)
  hrank5 : 0 < grid5.rank
  hstage5_0 : ∀ j, (stage5_0 j).IsWhole
  nbuf5_0 : grid5.bufCount reads5_0 true = 1
  hreads5_0 : ∀ i i' : grid5.Coords, (∀ a, reads5_0 a = true → i a = i' a) → cc5_transform_0 i = cc5_transform_0 i'
  hinb5_0 : ∀ (i : grid5.Coords) a, (cc5_transform_0 i a + 1) * S256x128.size a ≤ S256x128.size a
  hwx5_0 : ∀ i : grid5.Coords, EltTy.bits .f32 = 32 ∨ (Rect.block (s := S256x128) S256x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x256.size a ≤ S128x256.size a
  hwx5_1 : ∀ i : grid5.Coords, EltTy.bits .bf16 = 32 ∨ (Rect.block (s := S128x256) S128x256.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x256.size a ≤ S1x256.size a
  hwx5_2 : ∀ i : grid5.Coords, EltTy.bits .f32 = 32 ∨ (Rect.block (s := S1x256) S1x256.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x256.size a ≤ S1x256.size a
  hwx5_3 : ∀ i : grid5.Coords, EltTy.bits .f32 = 32 ∨ (Rect.block (s := S1x256) S1x256.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x256.size a ≤ S1x256.size a
  hwx5_4 : ∀ i : grid5.Coords, EltTy.bits .f32 = 32 ∨ (Rect.block (s := S1x256) S1x256.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S256x128.size a ≤ S256x128.size a
  hwx5_5 : ∀ i : grid5.Coords, EltTy.bits .bf16 = 32 ∨ (Rect.block (s := S256x128) S256x128.size (cc5_transform_5 i) (hinb5_5 i)).WholeWords (EltTy.packing .bf16)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x128.size a ≤ S1x128.size a
  hwx5_6 : ∀ i : grid5.Coords, EltTy.bits .f32 = 32 ∨ (Rect.block (s := S1x128) S1x128.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S1x128.size a ≤ S1x128.size a
  hwx5_7 : ∀ i : grid5.Coords, EltTy.bits .f32 = 32 ∨ (Rect.block (s := S1x128) S1x128.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S1x128.size a ≤ S1x128.size a
  hwx5_8 : ∀ i : grid5.Coords, EltTy.bits .f32 = 32 ∨ (Rect.block (s := S1x128) S1x128.size (cc5_transform_8 i) (hinb5_8 i)).WholeWords (EltTy.packing .f32)
  hstage5_9 : ∀ j, (stage5_9 j).IsWhole
  nbuf5_9 : grid5.bufCount reads5_9 true = 1
  hreads5_9 : ∀ i i' : grid5.Coords, (∀ a, reads5_9 a = true → i a = i' a) → cc5_transform_9 i = cc5_transform_9 i'
  hinb5_9 : ∀ (i : grid5.Coords) a, (cc5_transform_9 i a + 1) * S256x128.size a ≤ S256x128.size a
  hwx5_9 : ∀ i : grid5.Coords, EltTy.bits .f32 = 32 ∨ (Rect.block (s := S256x128) S256x128.size (cc5_transform_9 i) (hinb5_9 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x128.size a ≤ S50000x128.size a
  hwx6_1 : ∀ i : grid6.Coords, EltTy.bits .f32 = 32 ∨ (Rect.block (s := S50000x128) S5000x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x1.size a ≤ S1x1.size a
  hwx6_2 : ∀ i : grid6.Coords, EltTy.bits .f32 = 32 ∨ (Rect.block (s := S1x1) S1x1.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x256.size a ≤ S128x256.size a
  hwx6_3 : ∀ i : grid6.Coords, EltTy.bits .bf16 = 32 ∨ (Rect.block (s := S128x256) S128x256.size (cc6_transform_3 i) (hinb6_3 i)).WholeWords (EltTy.packing .bf16)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x256.size a ≤ S1x256.size a
  hwx6_4 : ∀ i : grid6.Coords, EltTy.bits .f32 = 32 ∨ (Rect.block (s := S1x256) S1x256.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x256.size a ≤ S1x256.size a
  hwx6_5 : ∀ i : grid6.Coords, EltTy.bits .f32 = 32 ∨ (Rect.block (s := S1x256) S1x256.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x256.size a ≤ S1x256.size a
  hwx6_6 : ∀ i : grid6.Coords, EltTy.bits .f32 = 32 ∨ (Rect.block (s := S1x256) S1x256.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S256x128.size a ≤ S256x128.size a
  hwx6_7 : ∀ i : grid6.Coords, EltTy.bits .bf16 = 32 ∨ (Rect.block (s := S256x128) S256x128.size (cc6_transform_7 i) (hinb6_7 i)).WholeWords (EltTy.packing .bf16)
  hstage6_8 : ∀ j, (stage6_8 j).IsWhole
  nbuf6_8 : grid6.bufCount reads6_8 true = 1
  hreads6_8 : ∀ i i' : grid6.Coords, (∀ a, reads6_8 a = true → i a = i' a) → cc6_transform_8 i = cc6_transform_8 i'
  hinb6_8 : ∀ (i : grid6.Coords) a, (cc6_transform_8 i a + 1) * S1x128.size a ≤ S1x128.size a
  hwx6_8 : ∀ i : grid6.Coords, EltTy.bits .f32 = 32 ∨ (Rect.block (s := S1x128) S1x128.size (cc6_transform_8 i) (hinb6_8 i)).WholeWords (EltTy.packing .f32)
  hstage6_9 : ∀ j, (stage6_9 j).IsWhole
  nbuf6_9 : grid6.bufCount reads6_9 true = 1
  hreads6_9 : ∀ i i' : grid6.Coords, (∀ a, reads6_9 a = true → i a = i' a) → cc6_transform_9 i = cc6_transform_9 i'
  hinb6_9 : ∀ (i : grid6.Coords) a, (cc6_transform_9 i a + 1) * S1x128.size a ≤ S1x128.size a
  hwx6_9 : ∀ i : grid6.Coords, EltTy.bits .f32 = 32 ∨ (Rect.block (s := S1x128) S1x128.size (cc6_transform_9 i) (hinb6_9 i)).WholeWords (EltTy.packing .f32)
  hstage6_10 : ∀ j, (stage6_10 j).IsWhole
  nbuf6_10 : grid6.bufCount reads6_10 true = 1
  hreads6_10 : ∀ i i' : grid6.Coords, (∀ a, reads6_10 a = true → i a = i' a) → cc6_transform_10 i = cc6_transform_10 i'
  hinb6_10 : ∀ (i : grid6.Coords) a, (cc6_transform_10 i a + 1) * S1x128.size a ≤ S1x128.size a
  hwx6_10 : ∀ i : grid6.Coords, EltTy.bits .f32 = 32 ∨ (Rect.block (s := S1x128) S1x128.size (cc6_transform_10 i) (hinb6_10 i)).WholeWords (EltTy.packing .f32)
  hstage6_11 : ∀ j, (stage6_11 j).IsWhole
  nbuf6_11 : grid6.bufCount reads6_11 false = 2
  hreads6_11 : ∀ i i' : grid6.Coords, (∀ a, reads6_11 a = true → i a = i' a) → cc6_transform_11 i = cc6_transform_11 i'
  hinb6_11 : ∀ (i : grid6.Coords) a, (cc6_transform_11 i a + 1) * S5000x128.size a ≤ S50000x128.size a
  hwx6_11 : ∀ i : grid6.Coords, EltTy.bits .f32 = 32 ∨ (Rect.block (s := S50000x128) S5000x128.size (cc6_transform_11 i) (hinb6_11 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x1.size a ≤ S50000x1.size a
  hwx7_1 : ∀ i : grid7.Coords, EltTy.bits .i32 = 32 ∨ (Rect.block (s := S50000x1) S5000x1.size (cc7_transform_1 i) (hinb7_1 i)).WholeWords (EltTy.packing .i32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S256x128.size a ≤ S256x128.size a
  hwx7_2 : ∀ i : grid7.Coords, EltTy.bits .f32 = 32 ∨ (Rect.block (s := S256x128) S256x128.size (cc7_transform_2 i) (hinb7_2 i)).WholeWords (EltTy.packing .f32)
  hrank8 : 0 < grid8.rank
  hstage8_0 : ∀ j, (stage8_0 j).IsWhole
  nbuf8_0 : grid8.bufCount reads8_0 true = 1
  hreads8_0 : ∀ i i' : grid8.Coords, (∀ a, reads8_0 a = true → i a = i' a) → cc8_transform_0 i = cc8_transform_0 i'
  hinb8_0 : ∀ (i : grid8.Coords) a, (cc8_transform_0 i a + 1) * S256x128.size a ≤ S256x128.size a
  hwx8_0 : ∀ i : grid8.Coords, EltTy.bits .f32 = 32 ∨ (Rect.block (s := S256x128) S256x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S128x256.size a ≤ S128x256.size a
  hwx8_1 : ∀ i : grid8.Coords, EltTy.bits .bf16 = 32 ∨ (Rect.block (s := S128x256) S128x256.size (cc8_transform_1 i) (hinb8_1 i)).WholeWords (EltTy.packing .bf16)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x256.size a ≤ S1x256.size a
  hwx8_2 : ∀ i : grid8.Coords, EltTy.bits .f32 = 32 ∨ (Rect.block (s := S1x256) S1x256.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x256.size a ≤ S1x256.size a
  hwx8_3 : ∀ i : grid8.Coords, EltTy.bits .f32 = 32 ∨ (Rect.block (s := S1x256) S1x256.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x256.size a ≤ S1x256.size a
  hwx8_4 : ∀ i : grid8.Coords, EltTy.bits .f32 = 32 ∨ (Rect.block (s := S1x256) S1x256.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S256x128.size a ≤ S256x128.size a
  hwx8_5 : ∀ i : grid8.Coords, EltTy.bits .bf16 = 32 ∨ (Rect.block (s := S256x128) S256x128.size (cc8_transform_5 i) (hinb8_5 i)).WholeWords (EltTy.packing .bf16)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S1x128.size a ≤ S1x128.size a
  hwx8_6 : ∀ i : grid8.Coords, EltTy.bits .f32 = 32 ∨ (Rect.block (s := S1x128) S1x128.size (cc8_transform_6 i) (hinb8_6 i)).WholeWords (EltTy.packing .f32)
  hstage8_7 : ∀ j, (stage8_7 j).IsWhole
  nbuf8_7 : grid8.bufCount reads8_7 true = 1
  hreads8_7 : ∀ i i' : grid8.Coords, (∀ a, reads8_7 a = true → i a = i' a) → cc8_transform_7 i = cc8_transform_7 i'
  hinb8_7 : ∀ (i : grid8.Coords) a, (cc8_transform_7 i a + 1) * S1x128.size a ≤ S1x128.size a
  hwx8_7 : ∀ i : grid8.Coords, EltTy.bits .f32 = 32 ∨ (Rect.block (s := S1x128) S1x128.size (cc8_transform_7 i) (hinb8_7 i)).WholeWords (EltTy.packing .f32)
  hstage8_8 : ∀ j, (stage8_8 j).IsWhole
  nbuf8_8 : grid8.bufCount reads8_8 true = 1
  hreads8_8 : ∀ i i' : grid8.Coords, (∀ a, reads8_8 a = true → i a = i' a) → cc8_transform_8 i = cc8_transform_8 i'
  hinb8_8 : ∀ (i : grid8.Coords) a, (cc8_transform_8 i a + 1) * S1x128.size a ≤ S1x128.size a
  hwx8_8 : ∀ i : grid8.Coords, EltTy.bits .f32 = 32 ∨ (Rect.block (s := S1x128) S1x128.size (cc8_transform_8 i) (hinb8_8 i)).WholeWords (EltTy.packing .f32)
  hstage8_9 : ∀ j, (stage8_9 j).IsWhole
  nbuf8_9 : grid8.bufCount reads8_9 true = 1
  hreads8_9 : ∀ i i' : grid8.Coords, (∀ a, reads8_9 a = true → i a = i' a) → cc8_transform_9 i = cc8_transform_9 i'
  hinb8_9 : ∀ (i : grid8.Coords) a, (cc8_transform_9 i a + 1) * S256x128.size a ≤ S256x128.size a
  hwx8_9 : ∀ i : grid8.Coords, EltTy.bits .f32 = 32 ∨ (Rect.block (s := S256x128) S256x128.size (cc8_transform_9 i) (hinb8_9 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S50000x128.size a
  hwx9_0 : ∀ i : grid9.Coords, EltTy.bits .f32 = 32 ∨ (Rect.block (s := S50000x128) S5000x128.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S5000x128.size a ≤ S50000x128.size a
  hwx9_1 : ∀ i : grid9.Coords, EltTy.bits .f32 = 32 ∨ (Rect.block (s := S50000x128) S5000x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x1.size a ≤ S1x1.size a
  hwx9_2 : ∀ i : grid9.Coords, EltTy.bits .f32 = 32 ∨ (Rect.block (s := S1x1) S1x1.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S128x256.size a ≤ S128x256.size a
  hwx9_3 : ∀ i : grid9.Coords, EltTy.bits .bf16 = 32 ∨ (Rect.block (s := S128x256) S128x256.size (cc9_transform_3 i) (hinb9_3 i)).WholeWords (EltTy.packing .bf16)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x256.size a ≤ S1x256.size a
  hwx9_4 : ∀ i : grid9.Coords, EltTy.bits .f32 = 32 ∨ (Rect.block (s := S1x256) S1x256.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S1x256.size a ≤ S1x256.size a
  hwx9_5 : ∀ i : grid9.Coords, EltTy.bits .f32 = 32 ∨ (Rect.block (s := S1x256) S1x256.size (cc9_transform_5 i) (hinb9_5 i)).WholeWords (EltTy.packing .f32)
  hstage9_6 : ∀ j, (stage9_6 j).IsWhole
  nbuf9_6 : grid9.bufCount reads9_6 true = 1
  hreads9_6 : ∀ i i' : grid9.Coords, (∀ a, reads9_6 a = true → i a = i' a) → cc9_transform_6 i = cc9_transform_6 i'
  hinb9_6 : ∀ (i : grid9.Coords) a, (cc9_transform_6 i a + 1) * S1x256.size a ≤ S1x256.size a
  hwx9_6 : ∀ i : grid9.Coords, EltTy.bits .f32 = 32 ∨ (Rect.block (s := S1x256) S1x256.size (cc9_transform_6 i) (hinb9_6 i)).WholeWords (EltTy.packing .f32)
  hstage9_7 : ∀ j, (stage9_7 j).IsWhole
  nbuf9_7 : grid9.bufCount reads9_7 true = 1
  hreads9_7 : ∀ i i' : grid9.Coords, (∀ a, reads9_7 a = true → i a = i' a) → cc9_transform_7 i = cc9_transform_7 i'
  hinb9_7 : ∀ (i : grid9.Coords) a, (cc9_transform_7 i a + 1) * S256x128.size a ≤ S256x128.size a
  hwx9_7 : ∀ i : grid9.Coords, EltTy.bits .bf16 = 32 ∨ (Rect.block (s := S256x128) S256x128.size (cc9_transform_7 i) (hinb9_7 i)).WholeWords (EltTy.packing .bf16)
  hstage9_8 : ∀ j, (stage9_8 j).IsWhole
  nbuf9_8 : grid9.bufCount reads9_8 true = 1
  hreads9_8 : ∀ i i' : grid9.Coords, (∀ a, reads9_8 a = true → i a = i' a) → cc9_transform_8 i = cc9_transform_8 i'
  hinb9_8 : ∀ (i : grid9.Coords) a, (cc9_transform_8 i a + 1) * S1x128.size a ≤ S1x128.size a
  hwx9_8 : ∀ i : grid9.Coords, EltTy.bits .f32 = 32 ∨ (Rect.block (s := S1x128) S1x128.size (cc9_transform_8 i) (hinb9_8 i)).WholeWords (EltTy.packing .f32)
  hstage9_9 : ∀ j, (stage9_9 j).IsWhole
  nbuf9_9 : grid9.bufCount reads9_9 true = 1
  hreads9_9 : ∀ i i' : grid9.Coords, (∀ a, reads9_9 a = true → i a = i' a) → cc9_transform_9 i = cc9_transform_9 i'
  hinb9_9 : ∀ (i : grid9.Coords) a, (cc9_transform_9 i a + 1) * S1x128.size a ≤ S1x128.size a
  hwx9_9 : ∀ i : grid9.Coords, EltTy.bits .f32 = 32 ∨ (Rect.block (s := S1x128) S1x128.size (cc9_transform_9 i) (hinb9_9 i)).WholeWords (EltTy.packing .f32)
  hstage9_10 : ∀ j, (stage9_10 j).IsWhole
  nbuf9_10 : grid9.bufCount reads9_10 true = 1
  hreads9_10 : ∀ i i' : grid9.Coords, (∀ a, reads9_10 a = true → i a = i' a) → cc9_transform_10 i = cc9_transform_10 i'
  hinb9_10 : ∀ (i : grid9.Coords) a, (cc9_transform_10 i a + 1) * S1x128.size a ≤ S1x128.size a
  hwx9_10 : ∀ i : grid9.Coords, EltTy.bits .f32 = 32 ∨ (Rect.block (s := S1x128) S1x128.size (cc9_transform_10 i) (hinb9_10 i)).WholeWords (EltTy.packing .f32)
  hstage9_11 : ∀ j, (stage9_11 j).IsWhole
  nbuf9_11 : grid9.bufCount reads9_11 false = 2
  hreads9_11 : ∀ i i' : grid9.Coords, (∀ a, reads9_11 a = true → i a = i' a) → cc9_transform_11 i = cc9_transform_11 i'
  hinb9_11 : ∀ (i : grid9.Coords) a, (cc9_transform_11 i a + 1) * S5000x128.size a ≤ S50000x128.size a
  hwx9_11 : ∀ i : grid9.Coords, EltTy.bits .f32 = 32 ∨ (Rect.block (s := S50000x128) S5000x128.size (cc9_transform_11 i) (hinb9_11 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x128.size a ≤ S50000x128.size a
  hwx10_0 : ∀ i : grid10.Coords, EltTy.bits .f32 = 32 ∨ (Rect.block (s := S50000x128) S5000x128.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S5000x1.size a ≤ S50000x1.size a
  hwx10_1 : ∀ i : grid10.Coords, EltTy.bits .i32 = 32 ∨ (Rect.block (s := S50000x1) S5000x1.size (cc10_transform_1 i) (hinb10_1 i)).WholeWords (EltTy.packing .i32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S256x128.size a ≤ S256x128.size a
  hwx10_2 : ∀ i : grid10.Coords, EltTy.bits .f32 = 32 ∨ (Rect.block (s := S256x128) S256x128.size (cc10_transform_2 i) (hinb10_2 i)).WholeWords (EltTy.packing .f32)
  hrank11 : 0 < grid11.rank
  hstage11_0 : ∀ j, (stage11_0 j).IsWhole
  nbuf11_0 : grid11.bufCount reads11_0 true = 1
  hreads11_0 : ∀ i i' : grid11.Coords, (∀ a, reads11_0 a = true → i a = i' a) → cc11_transform_0 i = cc11_transform_0 i'
  hinb11_0 : ∀ (i : grid11.Coords) a, (cc11_transform_0 i a + 1) * S256x128.size a ≤ S256x128.size a
  hwx11_0 : ∀ i : grid11.Coords, EltTy.bits .f32 = 32 ∨ (Rect.block (s := S256x128) S256x128.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S128x256.size a ≤ S128x256.size a
  hwx11_1 : ∀ i : grid11.Coords, EltTy.bits .bf16 = 32 ∨ (Rect.block (s := S128x256) S128x256.size (cc11_transform_1 i) (hinb11_1 i)).WholeWords (EltTy.packing .bf16)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x256.size a ≤ S1x256.size a
  hwx11_2 : ∀ i : grid11.Coords, EltTy.bits .f32 = 32 ∨ (Rect.block (s := S1x256) S1x256.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x256.size a ≤ S1x256.size a
  hwx11_3 : ∀ i : grid11.Coords, EltTy.bits .f32 = 32 ∨ (Rect.block (s := S1x256) S1x256.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x256.size a ≤ S1x256.size a
  hwx11_4 : ∀ i : grid11.Coords, EltTy.bits .f32 = 32 ∨ (Rect.block (s := S1x256) S1x256.size (cc11_transform_4 i) (hinb11_4 i)).WholeWords (EltTy.packing .f32)
  hstage11_5 : ∀ j, (stage11_5 j).IsWhole
  nbuf11_5 : grid11.bufCount reads11_5 true = 1
  hreads11_5 : ∀ i i' : grid11.Coords, (∀ a, reads11_5 a = true → i a = i' a) → cc11_transform_5 i = cc11_transform_5 i'
  hinb11_5 : ∀ (i : grid11.Coords) a, (cc11_transform_5 i a + 1) * S256x128.size a ≤ S256x128.size a
  hwx11_5 : ∀ i : grid11.Coords, EltTy.bits .bf16 = 32 ∨ (Rect.block (s := S256x128) S256x128.size (cc11_transform_5 i) (hinb11_5 i)).WholeWords (EltTy.packing .bf16)
  hstage11_6 : ∀ j, (stage11_6 j).IsWhole
  nbuf11_6 : grid11.bufCount reads11_6 true = 1
  hreads11_6 : ∀ i i' : grid11.Coords, (∀ a, reads11_6 a = true → i a = i' a) → cc11_transform_6 i = cc11_transform_6 i'
  hinb11_6 : ∀ (i : grid11.Coords) a, (cc11_transform_6 i a + 1) * S1x128.size a ≤ S1x128.size a
  hwx11_6 : ∀ i : grid11.Coords, EltTy.bits .f32 = 32 ∨ (Rect.block (s := S1x128) S1x128.size (cc11_transform_6 i) (hinb11_6 i)).WholeWords (EltTy.packing .f32)
  hstage11_7 : ∀ j, (stage11_7 j).IsWhole
  nbuf11_7 : grid11.bufCount reads11_7 true = 1
  hreads11_7 : ∀ i i' : grid11.Coords, (∀ a, reads11_7 a = true → i a = i' a) → cc11_transform_7 i = cc11_transform_7 i'
  hinb11_7 : ∀ (i : grid11.Coords) a, (cc11_transform_7 i a + 1) * S1x128.size a ≤ S1x128.size a
  hwx11_7 : ∀ i : grid11.Coords, EltTy.bits .f32 = 32 ∨ (Rect.block (s := S1x128) S1x128.size (cc11_transform_7 i) (hinb11_7 i)).WholeWords (EltTy.packing .f32)
  hstage11_8 : ∀ j, (stage11_8 j).IsWhole
  nbuf11_8 : grid11.bufCount reads11_8 true = 1
  hreads11_8 : ∀ i i' : grid11.Coords, (∀ a, reads11_8 a = true → i a = i' a) → cc11_transform_8 i = cc11_transform_8 i'
  hinb11_8 : ∀ (i : grid11.Coords) a, (cc11_transform_8 i a + 1) * S1x128.size a ≤ S1x128.size a
  hwx11_8 : ∀ i : grid11.Coords, EltTy.bits .f32 = 32 ∨ (Rect.block (s := S1x128) S1x128.size (cc11_transform_8 i) (hinb11_8 i)).WholeWords (EltTy.packing .f32)
  hstage11_9 : ∀ j, (stage11_9 j).IsWhole
  nbuf11_9 : grid11.bufCount reads11_9 true = 1
  hreads11_9 : ∀ i i' : grid11.Coords, (∀ a, reads11_9 a = true → i a = i' a) → cc11_transform_9 i = cc11_transform_9 i'
  hinb11_9 : ∀ (i : grid11.Coords) a, (cc11_transform_9 i a + 1) * S256x128.size a ≤ S256x128.size a
  hwx11_9 : ∀ i : grid11.Coords, EltTy.bits .f32 = 32 ∨ (Rect.block (s := S256x128) S256x128.size (cc11_transform_9 i) (hinb11_9 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S5000x128.size a ≤ S50000x128.size a
  hwx12_0 : ∀ i : grid12.Coords, EltTy.bits .f32 = 32 ∨ (Rect.block (s := S50000x128) S5000x128.size (cc12_transform_0 i) (hinb12_0 i)).WholeWords (EltTy.packing .f32)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S5000x128.size a ≤ S50000x128.size a
  hwx12_1 : ∀ i : grid12.Coords, EltTy.bits .f32 = 32 ∨ (Rect.block (s := S50000x128) S5000x128.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S1x1.size a ≤ S1x1.size a
  hwx12_2 : ∀ i : grid12.Coords, EltTy.bits .f32 = 32 ∨ (Rect.block (s := S1x1) S1x1.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S128x256.size a ≤ S128x256.size a
  hwx12_3 : ∀ i : grid12.Coords, EltTy.bits .bf16 = 32 ∨ (Rect.block (s := S128x256) S128x256.size (cc12_transform_3 i) (hinb12_3 i)).WholeWords (EltTy.packing .bf16)
  hstage12_4 : ∀ j, (stage12_4 j).IsWhole
  nbuf12_4 : grid12.bufCount reads12_4 true = 1
  hreads12_4 : ∀ i i' : grid12.Coords, (∀ a, reads12_4 a = true → i a = i' a) → cc12_transform_4 i = cc12_transform_4 i'
  hinb12_4 : ∀ (i : grid12.Coords) a, (cc12_transform_4 i a + 1) * S1x256.size a ≤ S1x256.size a
  hwx12_4 : ∀ i : grid12.Coords, EltTy.bits .f32 = 32 ∨ (Rect.block (s := S1x256) S1x256.size (cc12_transform_4 i) (hinb12_4 i)).WholeWords (EltTy.packing .f32)
  hstage12_5 : ∀ j, (stage12_5 j).IsWhole
  nbuf12_5 : grid12.bufCount reads12_5 true = 1
  hreads12_5 : ∀ i i' : grid12.Coords, (∀ a, reads12_5 a = true → i a = i' a) → cc12_transform_5 i = cc12_transform_5 i'
  hinb12_5 : ∀ (i : grid12.Coords) a, (cc12_transform_5 i a + 1) * S1x256.size a ≤ S1x256.size a
  hwx12_5 : ∀ i : grid12.Coords, EltTy.bits .f32 = 32 ∨ (Rect.block (s := S1x256) S1x256.size (cc12_transform_5 i) (hinb12_5 i)).WholeWords (EltTy.packing .f32)
  hstage12_6 : ∀ j, (stage12_6 j).IsWhole
  nbuf12_6 : grid12.bufCount reads12_6 true = 1
  hreads12_6 : ∀ i i' : grid12.Coords, (∀ a, reads12_6 a = true → i a = i' a) → cc12_transform_6 i = cc12_transform_6 i'
  hinb12_6 : ∀ (i : grid12.Coords) a, (cc12_transform_6 i a + 1) * S1x256.size a ≤ S1x256.size a
  hwx12_6 : ∀ i : grid12.Coords, EltTy.bits .f32 = 32 ∨ (Rect.block (s := S1x256) S1x256.size (cc12_transform_6 i) (hinb12_6 i)).WholeWords (EltTy.packing .f32)
  hstage12_7 : ∀ j, (stage12_7 j).IsWhole
  nbuf12_7 : grid12.bufCount reads12_7 true = 1
  hreads12_7 : ∀ i i' : grid12.Coords, (∀ a, reads12_7 a = true → i a = i' a) → cc12_transform_7 i = cc12_transform_7 i'
  hinb12_7 : ∀ (i : grid12.Coords) a, (cc12_transform_7 i a + 1) * S256x128.size a ≤ S256x128.size a
  hwx12_7 : ∀ i : grid12.Coords, EltTy.bits .bf16 = 32 ∨ (Rect.block (s := S256x128) S256x128.size (cc12_transform_7 i) (hinb12_7 i)).WholeWords (EltTy.packing .bf16)
  hstage12_8 : ∀ j, (stage12_8 j).IsWhole
  nbuf12_8 : grid12.bufCount reads12_8 true = 1
  hreads12_8 : ∀ i i' : grid12.Coords, (∀ a, reads12_8 a = true → i a = i' a) → cc12_transform_8 i = cc12_transform_8 i'
  hinb12_8 : ∀ (i : grid12.Coords) a, (cc12_transform_8 i a + 1) * S1x128.size a ≤ S1x128.size a
  hwx12_8 : ∀ i : grid12.Coords, EltTy.bits .f32 = 32 ∨ (Rect.block (s := S1x128) S1x128.size (cc12_transform_8 i) (hinb12_8 i)).WholeWords (EltTy.packing .f32)
  hstage12_9 : ∀ j, (stage12_9 j).IsWhole
  nbuf12_9 : grid12.bufCount reads12_9 true = 1
  hreads12_9 : ∀ i i' : grid12.Coords, (∀ a, reads12_9 a = true → i a = i' a) → cc12_transform_9 i = cc12_transform_9 i'
  hinb12_9 : ∀ (i : grid12.Coords) a, (cc12_transform_9 i a + 1) * S1x128.size a ≤ S1x128.size a
  hwx12_9 : ∀ i : grid12.Coords, EltTy.bits .f32 = 32 ∨ (Rect.block (s := S1x128) S1x128.size (cc12_transform_9 i) (hinb12_9 i)).WholeWords (EltTy.packing .f32)
  hstage12_10 : ∀ j, (stage12_10 j).IsWhole
  nbuf12_10 : grid12.bufCount reads12_10 true = 1
  hreads12_10 : ∀ i i' : grid12.Coords, (∀ a, reads12_10 a = true → i a = i' a) → cc12_transform_10 i = cc12_transform_10 i'
  hinb12_10 : ∀ (i : grid12.Coords) a, (cc12_transform_10 i a + 1) * S1x128.size a ≤ S1x128.size a
  hwx12_10 : ∀ i : grid12.Coords, EltTy.bits .f32 = 32 ∨ (Rect.block (s := S1x128) S1x128.size (cc12_transform_10 i) (hinb12_10 i)).WholeWords (EltTy.packing .f32)
  hstage12_11 : ∀ j, (stage12_11 j).IsWhole
  nbuf12_11 : grid12.bufCount reads12_11 false = 2
  hreads12_11 : ∀ i i' : grid12.Coords, (∀ a, reads12_11 a = true → i a = i' a) → cc12_transform_11 i = cc12_transform_11 i'
  hinb12_11 : ∀ (i : grid12.Coords) a, (cc12_transform_11 i a + 1) * S5000x128.size a ≤ S50000x128.size a
  hwx12_11 : ∀ i : grid12.Coords, EltTy.bits .f32 = 32 ∨ (Rect.block (s := S50000x128) S5000x128.size (cc12_transform_11 i) (hinb12_11 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S5000x128.size a ≤ S50000x128.size a
  hwx13_0 : ∀ i : grid13.Coords, EltTy.bits .f32 = 32 ∨ (Rect.block (s := S50000x128) S5000x128.size (cc13_transform_0 i) (hinb13_0 i)).WholeWords (EltTy.packing .f32)
  hstage13_1 : ∀ j, (stage13_1 j).IsWhole
  nbuf13_1 : grid13.bufCount reads13_1 false = 2
  hreads13_1 : ∀ i i' : grid13.Coords, (∀ a, reads13_1 a = true → i a = i' a) → cc13_transform_1 i = cc13_transform_1 i'
  hinb13_1 : ∀ (i : grid13.Coords) a, (cc13_transform_1 i a + 1) * S5000x1.size a ≤ S50000x1.size a
  hwx13_1 : ∀ i : grid13.Coords, EltTy.bits .i32 = 32 ∨ (Rect.block (s := S50000x1) S5000x1.size (cc13_transform_1 i) (hinb13_1 i)).WholeWords (EltTy.packing .i32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S256x128.size a ≤ S256x128.size a
  hwx13_2 : ∀ i : grid13.Coords, EltTy.bits .f32 = 32 ∨ (Rect.block (s := S256x128) S256x128.size (cc13_transform_2 i) (hinb13_2 i)).WholeWords (EltTy.packing .f32)
  hrank14 : 0 < grid14.rank
  hstage14_0 : ∀ j, (stage14_0 j).IsWhole
  nbuf14_0 : grid14.bufCount reads14_0 true = 1
  hreads14_0 : ∀ i i' : grid14.Coords, (∀ a, reads14_0 a = true → i a = i' a) → cc14_transform_0 i = cc14_transform_0 i'
  hinb14_0 : ∀ (i : grid14.Coords) a, (cc14_transform_0 i a + 1) * S256x128.size a ≤ S256x128.size a
  hwx14_0 : ∀ i : grid14.Coords, EltTy.bits .f32 = 32 ∨ (Rect.block (s := S256x128) S256x128.size (cc14_transform_0 i) (hinb14_0 i)).WholeWords (EltTy.packing .f32)
  hstage14_1 : ∀ j, (stage14_1 j).IsWhole
  nbuf14_1 : grid14.bufCount reads14_1 true = 1
  hreads14_1 : ∀ i i' : grid14.Coords, (∀ a, reads14_1 a = true → i a = i' a) → cc14_transform_1 i = cc14_transform_1 i'
  hinb14_1 : ∀ (i : grid14.Coords) a, (cc14_transform_1 i a + 1) * S256x1.size a ≤ S256x1.size a
  hwx14_1 : ∀ i : grid14.Coords, EltTy.bits .f32 = 32 ∨ (Rect.block (s := S256x1) S256x1.size (cc14_transform_1 i) (hinb14_1 i)).WholeWords (EltTy.packing .f32)
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S128x10.size a ≤ S128x10.size a
  hwx14_2 : ∀ i : grid14.Coords, EltTy.bits .bf16 = 32 ∨ (Rect.block (s := S128x10) S128x10.size (cc14_transform_2 i) (hinb14_2 i)).WholeWords (EltTy.packing .bf16)
  hstage14_3 : ∀ j, (stage14_3 j).IsWhole
  nbuf14_3 : grid14.bufCount reads14_3 true = 1
  hreads14_3 : ∀ i i' : grid14.Coords, (∀ a, reads14_3 a = true → i a = i' a) → cc14_transform_3 i = cc14_transform_3 i'
  hinb14_3 : ∀ (i : grid14.Coords) a, (cc14_transform_3 i a + 1) * S1x10.size a ≤ S1x10.size a
  hwx14_3 : ∀ i : grid14.Coords, EltTy.bits .f32 = 32 ∨ (Rect.block (s := S1x10) S1x10.size (cc14_transform_3 i) (hinb14_3 i)).WholeWords (EltTy.packing .f32)
  hstage14_4 : ∀ j, (stage14_4 j).IsWhole
  nbuf14_4 : grid14.bufCount reads14_4 true = 1
  hreads14_4 : ∀ i i' : grid14.Coords, (∀ a, reads14_4 a = true → i a = i' a) → cc14_transform_4 i = cc14_transform_4 i'
  hinb14_4 : ∀ (i : grid14.Coords) a, (cc14_transform_4 i a + 1) * S256x10.size a ≤ S256x10.size a
  hwx14_4 : ∀ i : grid14.Coords, EltTy.bits .f32 = 32 ∨ (Rect.block (s := S256x10) S256x10.size (cc14_transform_4 i) (hinb14_4 i)).WholeWords (EltTy.packing .f32)

variable [Facts₀]

def gather_S1x128_S50000x1_S50000x128_1_0_n_n_0_1_1128 : GatherDims S1x128 S50000x1 S50000x128 where
  offsetDims := [1]
  collapsedSliceDims := [0]
  operandBatchingDims := []
  startIndicesBatchingDims := []
  startIndexMap := [0]
  indexVectorDim := 1
  sliceSizes := ![1, 128]
  wf := gather_S1x128_S50000x1_S50000x128_1_0_n_n_0_1_1128_wf
def gather_S256x128_S50000x1_S50000x128_1_0_n_n_0_1_1128 : GatherDims S256x128 S50000x1 S50000x128 where
  offsetDims := [1]
  collapsedSliceDims := [0]
  operandBatchingDims := []
  startIndicesBatchingDims := []
  startIndexMap := [0]
  indexVectorDim := 1
  sliceSizes := ![1, 128]
  wf := gather_S256x128_S50000x1_S50000x128_1_0_n_n_0_1_1128_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def dot_S5000x256_S5000x128_S256x128_0_0_1_1_n_n : DotDims S5000x256 S5000x128 S256x128 where
  lhsContracting := [0]
  rhsContracting := [0]
  lhsNonContracting := [1]
  rhsNonContracting := [1]
  lhsBatch := []
  rhsBatch := []
  wf := dot_S5000x256_S5000x128_S256x128_0_0_1_1_n_n_wf
def dot_S256x128_S128x256_S256x256_1_0_0_1_n_n : DotDims S256x128 S128x256 S256x256 where
  lhsContracting := [1]
  rhsContracting := [0]
  lhsNonContracting := [0]
  rhsNonContracting := [1]
  lhsBatch := []
  rhsBatch := []
  wf := dot_S256x128_S128x256_S256x256_1_0_0_1_n_n_wf
def dot_S256x256_S256x128_S256x128_1_0_0_1_n_n : DotDims S256x256 S256x128 S256x128 where
  lhsContracting := [1]
  rhsContracting := [0]
  lhsNonContracting := [0]
  rhsNonContracting := [1]
  lhsBatch := []
  rhsBatch := []
  wf := dot_S256x256_S256x128_S256x128_1_0_0_1_n_n_wf
def scatter_S256x1_S50000x1_S50000x1_1_0_0_1 : ScatterDims S256x1 S50000x1 S50000x1 where
  updateWindowDims := [1]
  insertedWindowDims := [0]
  scatterDimsToOperandDims := [0]
  indexVectorDim := 1
  wf := scatter_S256x1_S50000x1_S50000x1_1_0_0_1_wf
def dot_S256x128_S128x10_S256x10_1_0_0_1_n_n : DotDims S256x128 S128x10 S256x10 where
  lhsContracting := [1]
  rhsContracting := [0]
  lhsNonContracting := [0]
  rhsNonContracting := [1]
  lhsBatch := []
  rhsBatch := []
  wf := dot_S256x128_S128x10_S256x10_1_0_0_1_n_n_wf

abbrev win0_0 : Pipeline.Window sig grid0 :=
  Pipeline.Window.ofSpec (Memref.whole main_v50) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v60) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v63) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v65) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v68) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v71) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v74) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v76) S256x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v79) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v82) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v85) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v86) S5000x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v50) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v87) S256x128.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v88) S256x128.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v90) S128x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v93) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v96) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v99) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v101) S256x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v104) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v107) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v110) S1x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v111) S256x128.size cc2_transform_9 reads2_9 true true 1 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v119) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v129) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v132) S1x1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v134) S128x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v137) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v140) S1x256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v143) S1x256.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v145) S256x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v148) S1x128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v151) S1x128.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v154) S1x128.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_v155) S5000x128.size cc3_transform_11 reads3_11 true false 2 stage3_11 sem3_11
    hrank3 hreads3_11 hinb3_11 nbuf3_11 (Memref.isWhole_whole _) hwx3_11 hstage3_11

abbrev win3 : Fin 12 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | ⟨_ + 12, h⟩ => absurd h (Nat.not_lt.2 (Nat.le_add_left _ _))
abbrev spec3 : Fin 12 → Pipeline.WinSpec sig grid3.rank := fun w => (win3 w).toWinSpec

abbrev win4_0 : Pipeline.Window sig grid4 :=
  Pipeline.Window.ofSpec (Memref.whole main_v119) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v13) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v156) S256x128.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun _ => false | 2 => fun i => !(k4_cond2 i == 1#1) | ⟨_ + 3, h⟩ => absurd h (Nat.not_lt.2 (Nat.le_add_left _ _))

abbrev win5_0 : Pipeline.Window sig grid5 :=
  Pipeline.Window.ofSpec (Memref.whole main_v157) S256x128.size cc5_transform_0 reads5_0 false true 1 stage5_0 sem5_0
    hrank5 hreads5_0 hinb5_0 nbuf5_0 (Memref.isWhole_whole _) hwx5_0 hstage5_0

abbrev win5_1 : Pipeline.Window sig grid5 :=
  Pipeline.Window.ofSpec (Memref.whole main_v159) S128x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v162) S1x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v165) S1x256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v168) S1x256.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v170) S256x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v173) S1x128.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v176) S1x128.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v179) S1x128.size cc5_transform_8 reads5_8 false true 1 stage5_8 sem5_8
    hrank5 hreads5_8 hinb5_8 nbuf5_8 (Memref.isWhole_whole _) hwx5_8 hstage5_8

abbrev win5_9 : Pipeline.Window sig grid5 :=
  Pipeline.Window.ofSpec (Memref.whole main_v180) S256x128.size cc5_transform_9 reads5_9 true true 1 stage5_9 sem5_9
    hrank5 hreads5_9 hinb5_9 nbuf5_9 (Memref.isWhole_whole _) hwx5_9 hstage5_9

abbrev win5 : Fin 10 → Pipeline.Window sig grid5 := fun | 0 => win5_0 | 1 => win5_1 | 2 => win5_2 | 3 => win5_3 | 4 => win5_4 | 5 => win5_5 | 6 => win5_6 | 7 => win5_7 | 8 => win5_8 | 9 => win5_9 | ⟨_ + 10, h⟩ => absurd h (Nat.not_lt.2 (Nat.le_add_left _ _))
abbrev spec5 : Fin 10 → Pipeline.WinSpec sig grid5.rank := fun w => (win5 w).toWinSpec

abbrev win6_0 : Pipeline.Window sig grid6 :=
  Pipeline.Window.ofSpec (Memref.whole main_v188) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v198) S5000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v201) S1x1.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v203) S128x256.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v206) S1x256.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v209) S1x256.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v212) S1x256.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v214) S256x128.size cc6_transform_7 reads6_7 false true 1 stage6_7 sem6_7
    hrank6 hreads6_7 hinb6_7 nbuf6_7 (Memref.isWhole_whole _) hwx6_7 hstage6_7

abbrev win6_8 : Pipeline.Window sig grid6 :=
  Pipeline.Window.ofSpec (Memref.whole main_v217) S1x128.size cc6_transform_8 reads6_8 false true 1 stage6_8 sem6_8
    hrank6 hreads6_8 hinb6_8 nbuf6_8 (Memref.isWhole_whole _) hwx6_8 hstage6_8

abbrev win6_9 : Pipeline.Window sig grid6 :=
  Pipeline.Window.ofSpec (Memref.whole main_v220) S1x128.size cc6_transform_9 reads6_9 false true 1 stage6_9 sem6_9
    hrank6 hreads6_9 hinb6_9 nbuf6_9 (Memref.isWhole_whole _) hwx6_9 hstage6_9

abbrev win6_10 : Pipeline.Window sig grid6 :=
  Pipeline.Window.ofSpec (Memref.whole main_v223) S1x128.size cc6_transform_10 reads6_10 false true 1 stage6_10 sem6_10
    hrank6 hreads6_10 hinb6_10 nbuf6_10 (Memref.isWhole_whole _) hwx6_10 hstage6_10

abbrev win6_11 : Pipeline.Window sig grid6 :=
  Pipeline.Window.ofSpec (Memref.whole main_v224) S5000x128.size cc6_transform_11 reads6_11 true false 2 stage6_11 sem6_11
    hrank6 hreads6_11 hinb6_11 nbuf6_11 (Memref.isWhole_whole _) hwx6_11 hstage6_11

abbrev win6 : Fin 12 → Pipeline.Window sig grid6 := fun | 0 => win6_0 | 1 => win6_1 | 2 => win6_2 | 3 => win6_3 | 4 => win6_4 | 5 => win6_5 | 6 => win6_6 | 7 => win6_7 | 8 => win6_8 | 9 => win6_9 | 10 => win6_10 | 11 => win6_11 | ⟨_ + 12, h⟩ => absurd h (Nat.not_lt.2 (Nat.le_add_left _ _))
abbrev spec6 : Fin 12 → Pipeline.WinSpec sig grid6.rank := fun w => (win6 w).toWinSpec

abbrev win7_0 : Pipeline.Window sig grid7 :=
  Pipeline.Window.ofSpec (Memref.whole main_v188) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v13) S5000x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v225) S256x128.size cc7_transform_2 reads7_2 true true 1 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev idle7 : Fin 3 → grid7.Coords → Bool := fun | 0 => fun _ => false | 1 => fun _ => false | 2 => fun i => !(k7_cond2 i == 1#1) | ⟨_ + 3, h⟩ => absurd h (Nat.not_lt.2 (Nat.le_add_left _ _))

abbrev win8_0 : Pipeline.Window sig grid8 :=
  Pipeline.Window.ofSpec (Memref.whole main_v226) S256x128.size cc8_transform_0 reads8_0 false true 1 stage8_0 sem8_0
    hrank8 hreads8_0 hinb8_0 nbuf8_0 (Memref.isWhole_whole _) hwx8_0 hstage8_0

abbrev win8_1 : Pipeline.Window sig grid8 :=
  Pipeline.Window.ofSpec (Memref.whole main_v228) S128x256.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v231) S1x256.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v234) S1x256.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v237) S1x256.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v239) S256x128.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v242) S1x128.size cc8_transform_6 reads8_6 false true 1 stage8_6 sem8_6
    hrank8 hreads8_6 hinb8_6 nbuf8_6 (Memref.isWhole_whole _) hwx8_6 hstage8_6

abbrev win8_7 : Pipeline.Window sig grid8 :=
  Pipeline.Window.ofSpec (Memref.whole main_v245) S1x128.size cc8_transform_7 reads8_7 false true 1 stage8_7 sem8_7
    hrank8 hreads8_7 hinb8_7 nbuf8_7 (Memref.isWhole_whole _) hwx8_7 hstage8_7

abbrev win8_8 : Pipeline.Window sig grid8 :=
  Pipeline.Window.ofSpec (Memref.whole main_v248) S1x128.size cc8_transform_8 reads8_8 false true 1 stage8_8 sem8_8
    hrank8 hreads8_8 hinb8_8 nbuf8_8 (Memref.isWhole_whole _) hwx8_8 hstage8_8

abbrev win8_9 : Pipeline.Window sig grid8 :=
  Pipeline.Window.ofSpec (Memref.whole main_v249) S256x128.size cc8_transform_9 reads8_9 true true 1 stage8_9 sem8_9
    hrank8 hreads8_9 hinb8_9 nbuf8_9 (Memref.isWhole_whole _) hwx8_9 hstage8_9

abbrev win8 : Fin 10 → Pipeline.Window sig grid8 := fun | 0 => win8_0 | 1 => win8_1 | 2 => win8_2 | 3 => win8_3 | 4 => win8_4 | 5 => win8_5 | 6 => win8_6 | 7 => win8_7 | 8 => win8_8 | 9 => win8_9 | ⟨_ + 10, h⟩ => absurd h (Nat.not_lt.2 (Nat.le_add_left _ _))
abbrev spec8 : Fin 10 → Pipeline.WinSpec sig grid8.rank := fun w => (win8 w).toWinSpec

abbrev win9_0 : Pipeline.Window sig grid9 :=
  Pipeline.Window.ofSpec (Memref.whole main_v257) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v267) S5000x128.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v270) S1x1.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v272) S128x256.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v275) S1x256.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v278) S1x256.size cc9_transform_5 reads9_5 false true 1 stage9_5 sem9_5
    hrank9 hreads9_5 hinb9_5 nbuf9_5 (Memref.isWhole_whole _) hwx9_5 hstage9_5

abbrev win9_6 : Pipeline.Window sig grid9 :=
  Pipeline.Window.ofSpec (Memref.whole main_v281) S1x256.size cc9_transform_6 reads9_6 false true 1 stage9_6 sem9_6
    hrank9 hreads9_6 hinb9_6 nbuf9_6 (Memref.isWhole_whole _) hwx9_6 hstage9_6

abbrev win9_7 : Pipeline.Window sig grid9 :=
  Pipeline.Window.ofSpec (Memref.whole main_v283) S256x128.size cc9_transform_7 reads9_7 false true 1 stage9_7 sem9_7
    hrank9 hreads9_7 hinb9_7 nbuf9_7 (Memref.isWhole_whole _) hwx9_7 hstage9_7

abbrev win9_8 : Pipeline.Window sig grid9 :=
  Pipeline.Window.ofSpec (Memref.whole main_v286) S1x128.size cc9_transform_8 reads9_8 false true 1 stage9_8 sem9_8
    hrank9 hreads9_8 hinb9_8 nbuf9_8 (Memref.isWhole_whole _) hwx9_8 hstage9_8

abbrev win9_9 : Pipeline.Window sig grid9 :=
  Pipeline.Window.ofSpec (Memref.whole main_v289) S1x128.size cc9_transform_9 reads9_9 false true 1 stage9_9 sem9_9
    hrank9 hreads9_9 hinb9_9 nbuf9_9 (Memref.isWhole_whole _) hwx9_9 hstage9_9

abbrev win9_10 : Pipeline.Window sig grid9 :=
  Pipeline.Window.ofSpec (Memref.whole main_v292) S1x128.size cc9_transform_10 reads9_10 false true 1 stage9_10 sem9_10
    hrank9 hreads9_10 hinb9_10 nbuf9_10 (Memref.isWhole_whole _) hwx9_10 hstage9_10

abbrev win9_11 : Pipeline.Window sig grid9 :=
  Pipeline.Window.ofSpec (Memref.whole main_v293) S5000x128.size cc9_transform_11 reads9_11 true false 2 stage9_11 sem9_11
    hrank9 hreads9_11 hinb9_11 nbuf9_11 (Memref.isWhole_whole _) hwx9_11 hstage9_11

abbrev win9 : Fin 12 → Pipeline.Window sig grid9 := fun | 0 => win9_0 | 1 => win9_1 | 2 => win9_2 | 3 => win9_3 | 4 => win9_4 | 5 => win9_5 | 6 => win9_6 | 7 => win9_7 | 8 => win9_8 | 9 => win9_9 | 10 => win9_10 | 11 => win9_11 | ⟨_ + 12, h⟩ => absurd h (Nat.not_lt.2 (Nat.le_add_left _ _))
abbrev spec9 : Fin 12 → Pipeline.WinSpec sig grid9.rank := fun w => (win9 w).toWinSpec

abbrev win10_0 : Pipeline.Window sig grid10 :=
  Pipeline.Window.ofSpec (Memref.whole main_v257) S5000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v13) S5000x1.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v294) S256x128.size cc10_transform_2 reads10_2 true true 1 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev idle10 : Fin 3 → grid10.Coords → Bool := fun | 0 => fun _ => false | 1 => fun _ => false | 2 => fun i => !(k10_cond2 i == 1#1) | ⟨_ + 3, h⟩ => absurd h (Nat.not_lt.2 (Nat.le_add_left _ _))

abbrev win11_0 : Pipeline.Window sig grid11 :=
  Pipeline.Window.ofSpec (Memref.whole main_v295) S256x128.size cc11_transform_0 reads11_0 false true 1 stage11_0 sem11_0
    hrank11 hreads11_0 hinb11_0 nbuf11_0 (Memref.isWhole_whole _) hwx11_0 hstage11_0

abbrev win11_1 : Pipeline.Window sig grid11 :=
  Pipeline.Window.ofSpec (Memref.whole main_v297) S128x256.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v300) S1x256.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v303) S1x256.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v306) S1x256.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v308) S256x128.size cc11_transform_5 reads11_5 false true 1 stage11_5 sem11_5
    hrank11 hreads11_5 hinb11_5 nbuf11_5 (Memref.isWhole_whole _) hwx11_5 hstage11_5

abbrev win11_6 : Pipeline.Window sig grid11 :=
  Pipeline.Window.ofSpec (Memref.whole main_v311) S1x128.size cc11_transform_6 reads11_6 false true 1 stage11_6 sem11_6
    hrank11 hreads11_6 hinb11_6 nbuf11_6 (Memref.isWhole_whole _) hwx11_6 hstage11_6

abbrev win11_7 : Pipeline.Window sig grid11 :=
  Pipeline.Window.ofSpec (Memref.whole main_v314) S1x128.size cc11_transform_7 reads11_7 false true 1 stage11_7 sem11_7
    hrank11 hreads11_7 hinb11_7 nbuf11_7 (Memref.isWhole_whole _) hwx11_7 hstage11_7

abbrev win11_8 : Pipeline.Window sig grid11 :=
  Pipeline.Window.ofSpec (Memref.whole main_v317) S1x128.size cc11_transform_8 reads11_8 false true 1 stage11_8 sem11_8
    hrank11 hreads11_8 hinb11_8 nbuf11_8 (Memref.isWhole_whole _) hwx11_8 hstage11_8

abbrev win11_9 : Pipeline.Window sig grid11 :=
  Pipeline.Window.ofSpec (Memref.whole main_v318) S256x128.size cc11_transform_9 reads11_9 true true 1 stage11_9 sem11_9
    hrank11 hreads11_9 hinb11_9 nbuf11_9 (Memref.isWhole_whole _) hwx11_9 hstage11_9

abbrev win11 : Fin 10 → Pipeline.Window sig grid11 := fun | 0 => win11_0 | 1 => win11_1 | 2 => win11_2 | 3 => win11_3 | 4 => win11_4 | 5 => win11_5 | 6 => win11_6 | 7 => win11_7 | 8 => win11_8 | 9 => win11_9 | ⟨_ + 10, h⟩ => absurd h (Nat.not_lt.2 (Nat.le_add_left _ _))
abbrev spec11 : Fin 10 → Pipeline.WinSpec sig grid11.rank := fun w => (win11 w).toWinSpec

abbrev win12_0 : Pipeline.Window sig grid12 :=
  Pipeline.Window.ofSpec (Memref.whole main_v326) S5000x128.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v336) S5000x128.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_v339) S1x1.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v341) S128x256.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_v344) S1x256.size cc12_transform_4 reads12_4 false true 1 stage12_4 sem12_4
    hrank12 hreads12_4 hinb12_4 nbuf12_4 (Memref.isWhole_whole _) hwx12_4 hstage12_4

abbrev win12_5 : Pipeline.Window sig grid12 :=
  Pipeline.Window.ofSpec (Memref.whole main_v347) S1x256.size cc12_transform_5 reads12_5 false true 1 stage12_5 sem12_5
    hrank12 hreads12_5 hinb12_5 nbuf12_5 (Memref.isWhole_whole _) hwx12_5 hstage12_5

abbrev win12_6 : Pipeline.Window sig grid12 :=
  Pipeline.Window.ofSpec (Memref.whole main_v350) S1x256.size cc12_transform_6 reads12_6 false true 1 stage12_6 sem12_6
    hrank12 hreads12_6 hinb12_6 nbuf12_6 (Memref.isWhole_whole _) hwx12_6 hstage12_6

abbrev win12_7 : Pipeline.Window sig grid12 :=
  Pipeline.Window.ofSpec (Memref.whole main_v352) S256x128.size cc12_transform_7 reads12_7 false true 1 stage12_7 sem12_7
    hrank12 hreads12_7 hinb12_7 nbuf12_7 (Memref.isWhole_whole _) hwx12_7 hstage12_7

abbrev win12_8 : Pipeline.Window sig grid12 :=
  Pipeline.Window.ofSpec (Memref.whole main_v355) S1x128.size cc12_transform_8 reads12_8 false true 1 stage12_8 sem12_8
    hrank12 hreads12_8 hinb12_8 nbuf12_8 (Memref.isWhole_whole _) hwx12_8 hstage12_8

abbrev win12_9 : Pipeline.Window sig grid12 :=
  Pipeline.Window.ofSpec (Memref.whole main_v358) S1x128.size cc12_transform_9 reads12_9 false true 1 stage12_9 sem12_9
    hrank12 hreads12_9 hinb12_9 nbuf12_9 (Memref.isWhole_whole _) hwx12_9 hstage12_9

abbrev win12_10 : Pipeline.Window sig grid12 :=
  Pipeline.Window.ofSpec (Memref.whole main_v361) S1x128.size cc12_transform_10 reads12_10 false true 1 stage12_10 sem12_10
    hrank12 hreads12_10 hinb12_10 nbuf12_10 (Memref.isWhole_whole _) hwx12_10 hstage12_10

abbrev win12_11 : Pipeline.Window sig grid12 :=
  Pipeline.Window.ofSpec (Memref.whole main_v362) S5000x128.size cc12_transform_11 reads12_11 true false 2 stage12_11 sem12_11
    hrank12 hreads12_11 hinb12_11 nbuf12_11 (Memref.isWhole_whole _) hwx12_11 hstage12_11

abbrev win12 : Fin 12 → Pipeline.Window sig grid12 := fun | 0 => win12_0 | 1 => win12_1 | 2 => win12_2 | 3 => win12_3 | 4 => win12_4 | 5 => win12_5 | 6 => win12_6 | 7 => win12_7 | 8 => win12_8 | 9 => win12_9 | 10 => win12_10 | 11 => win12_11 | ⟨_ + 12, h⟩ => absurd h (Nat.not_lt.2 (Nat.le_add_left _ _))
abbrev spec12 : Fin 12 → Pipeline.WinSpec sig grid12.rank := fun w => (win12 w).toWinSpec

abbrev win13_0 : Pipeline.Window sig grid13 :=
  Pipeline.Window.ofSpec (Memref.whole main_v362) S5000x128.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v13) S5000x1.size cc13_transform_1 reads13_1 false false 2 stage13_1 sem13_1
    hrank13 hreads13_1 hinb13_1 nbuf13_1 (Memref.isWhole_whole _) hwx13_1 hstage13_1

abbrev win13_2 : Pipeline.Window sig grid13 :=
  Pipeline.Window.ofSpec (Memref.whole main_v367) S256x128.size cc13_transform_2 reads13_2 true true 1 stage13_2 sem13_2
    hrank13 hreads13_2 hinb13_2 nbuf13_2 (Memref.isWhole_whole _) hwx13_2 hstage13_2

abbrev win13 : Fin 3 → Pipeline.Window sig grid13 := fun | 0 => win13_0 | 1 => win13_1 | 2 => win13_2 | ⟨_ + 3, h⟩ => absurd h (Nat.not_lt.2 (Nat.le_add_left _ _))
abbrev spec13 : Fin 3 → Pipeline.WinSpec sig grid13.rank := fun w => (win13 w).toWinSpec

abbrev idle13 : Fin 3 → grid13.Coords → Bool := fun | 0 => fun _ => false | 1 => fun _ => false | 2 => fun i => !(k13_cond2 i == 1#1) | ⟨_ + 3, h⟩ => absurd h (Nat.not_lt.2 (Nat.le_add_left _ _))

abbrev win14_0 : Pipeline.Window sig grid14 :=
  Pipeline.Window.ofSpec (Memref.whole main_v367) S256x128.size cc14_transform_0 reads14_0 false true 1 stage14_0 sem14_0
    hrank14 hreads14_0 hinb14_0 nbuf14_0 (Memref.isWhole_whole _) hwx14_0 hstage14_0

abbrev win14_1 : Pipeline.Window sig grid14 :=
  Pipeline.Window.ofSpec (Memref.whole main_v366) S256x1.size cc14_transform_1 reads14_1 false true 1 stage14_1 sem14_1
    hrank14 hreads14_1 hinb14_1 nbuf14_1 (Memref.isWhole_whole _) hwx14_1 hstage14_1

abbrev win14_2 : Pipeline.Window sig grid14 :=
  Pipeline.Window.ofSpec (Memref.whole main_v42) S128x10.size cc14_transform_2 reads14_2 false true 1 stage14_2 sem14_2
    hrank14 hreads14_2 hinb14_2 nbuf14_2 (Memref.isWhole_whole _) hwx14_2 hstage14_2

abbrev win14_3 : Pipeline.Window sig grid14 :=
  Pipeline.Window.ofSpec (Memref.whole main_v368) S1x10.size cc14_transform_3 reads14_3 false true 1 stage14_3 sem14_3
    hrank14 hreads14_3 hinb14_3 nbuf14_3 (Memref.isWhole_whole _) hwx14_3 hstage14_3

abbrev win14_4 : Pipeline.Window sig grid14 :=
  Pipeline.Window.ofSpec (Memref.whole main_v369) S256x10.size cc14_transform_4 reads14_4 true true 1 stage14_4 sem14_4
    hrank14 hreads14_4 hinb14_4 nbuf14_4 (Memref.isWhole_whole _) hwx14_4 hstage14_4

abbrev win14 : Fin 5 → Pipeline.Window sig grid14 := fun | 0 => win14_0 | 1 => win14_1 | 2 => win14_2 | 3 => win14_3 | 4 => win14_4 | ⟨_ + 5, h⟩ => absurd h (Nat.not_lt.2 (Nat.le_add_left _ _))
abbrev spec14 : Fin 5 → Pipeline.WinSpec sig grid14.rank := fun w => (win14 w).toWinSpec

class Facts : Prop extends Facts₀ where

variable [Facts]
-- ==== ReferenceIdeal.lean ====
abbrev S1x128 : Shape := ⟨2, ![1, 128]⟩
abbrev S5 : Shape := ⟨1, ![5]⟩
abbrev S5x128x256 : Shape := ⟨3, ![5, 128, 256]⟩
abbrev S5x256 : Shape := ⟨2, ![5, 256]⟩
abbrev S5x256x128 : Shape := ⟨3, ![5, 256, 128]⟩
abbrev S5x128 : Shape := ⟨2, ![5, 128]⟩
abbrev S128x10 : Shape := ⟨2, ![128, 10]⟩
abbrev S10 : Shape := ⟨1, ![10]⟩
abbrev S50000 : Shape := ⟨1, ![50000]⟩
abbrev S2x600000 : Shape := ⟨2, ![2, 600000]⟩
abbrev S1x600000 : Shape := ⟨2, ![1, 600000]⟩
abbrev S600000 : Shape := ⟨1, ![600000]⟩
abbrev S_ : Shape := ⟨0, ![]⟩
abbrev S50000x1 : Shape := ⟨2, ![50000, 1]⟩
abbrev S50000x128 : Shape := ⟨2, ![50000, 128]⟩
abbrev S128 : Shape := ⟨1, ![128]⟩
abbrev S256x128 : Shape := ⟨2, ![256, 128]⟩
abbrev S600000x1 : Shape := ⟨2, ![600000, 1]⟩
abbrev S600000x128 : Shape := ⟨2, ![600000, 128]⟩
abbrev S1 : Shape := ⟨1, ![1]⟩
abbrev S1x128x256 : Shape := ⟨3, ![1, 128, 256]⟩
abbrev S128x256 : Shape := ⟨2, ![128, 256]⟩
abbrev S50000x256 : Shape := ⟨2, ![50000, 256]⟩
abbrev S1x256 : Shape := ⟨2, ![1, 256]⟩
abbrev S256 : Shape := ⟨1, ![256]⟩
abbrev S1x256x128 : Shape := ⟨3, ![1, 256, 128]⟩
abbrev S256x256 : Shape := ⟨2, ![256, 256]⟩
abbrev S256x1 : Shape := ⟨2, ![256, 1]⟩
abbrev S256x10 : Shape := ⟨2, ![256, 10]⟩
abbrev S1x10 : Shape := ⟨2, ![1, 10]⟩

abbrev nBuf : Space → Nat
  | .hbm => 863
  | .vmem => 0
  | .smem => 0
  | _ => 0

abbrev hbmTy0_0 (i : Nat) : BufTy := match i % 128 with
  | 0 => ⟨S1x128, .f32⟩
  | 1 => ⟨S1x128, .f32⟩
  | 2 => ⟨S5, .f32⟩
  | 3 => ⟨S5x128x256, .f32⟩
  | 4 => ⟨S5x256, .f32⟩
  | 5 => ⟨S5x256, .f32⟩
  | 6 => ⟨S5x256, .f32⟩
  | 7 => ⟨S5x256, .f32⟩
  | 8 => ⟨S5x256, .f32⟩
  | 9 => ⟨S5x256x128, .f32⟩
  | 10 => ⟨S5x128, .f32⟩
  | 11 => ⟨S5x128, .f32⟩
  | 12 => ⟨S5x128, .f32⟩
  | 13 => ⟨S5x128, .f32⟩
  | 14 => ⟨S5x128, .f32⟩
  | 15 => ⟨S5x128x256, .f32⟩
  | 16 => ⟨S5x256, .f32⟩
  | 17 => ⟨S5x256, .f32⟩
  | 18 => ⟨S5x256, .f32⟩
  | 19 => ⟨S5x256, .f32⟩
  | 20 => ⟨S5x256, .f32⟩
  | 21 => ⟨S5x256x128, .f32⟩
  | 22 => ⟨S5x128, .f32⟩
  | 23 => ⟨S5x128, .f32⟩
  | 24 => ⟨S5x128, .f32⟩
  | 25 => ⟨S5x128, .f32⟩
  | 26 => ⟨S5x128, .f32⟩
  | 27 => ⟨S128x10, .f32⟩
  | 28 => ⟨S10, .f32⟩
  | 29 => ⟨S50000, .i32⟩
  | 30 => ⟨S2x600000, .i32⟩
  | 31 => ⟨S50000, .i32⟩
  | 32 => ⟨S1x600000, .i32⟩
  | 33 => ⟨S600000, .i32⟩
  | 34 => ⟨S1x600000, .i32⟩
  | 35 => ⟨S600000, .i32⟩
  | 36 => ⟨S_, .i32⟩
  | 37 => ⟨S50000, .i32⟩
  | 38 => ⟨S50000, .i1⟩
  | 39 => ⟨S_, .i32⟩
  | 40 => ⟨S50000, .i32⟩
  | 41 => ⟨S50000, .i32⟩
  | 42 => ⟨S50000, .i32⟩
  | 43 => ⟨S50000x1, .i32⟩
  | 44 => ⟨S50000x128, .f32⟩
  | 45 => ⟨S128, .f32⟩
  | 46 => ⟨S256x128, .f32⟩
  | 47 => ⟨S_, .i32⟩
  | 48 => ⟨S50000, .i32⟩
  | 49 => ⟨S50000, .i1⟩
  | 50 => ⟨S_, .i32⟩
  | 51 => ⟨S50000, .i32⟩
  | 52 => ⟨S50000, .i32⟩
  | 53 => ⟨S50000, .i32⟩
  | 54 => ⟨S50000x1, .i32⟩
  | 55 => ⟨S50000x128, .f32⟩
  | 56 => ⟨S50000x128, .f32⟩
  | 57 => ⟨S_, .i32⟩
  | 58 => ⟨S600000, .i32⟩
  | 59 => ⟨S600000, .i1⟩
  | 60 => ⟨S_, .i32⟩
  | 61 => ⟨S600000, .i32⟩
  | 62 => ⟨S600000, .i32⟩
  | 63 => ⟨S600000, .i32⟩
  | 64 => ⟨S600000x1, .i32⟩
  | 65 => ⟨S600000x128, .f32⟩
  | 66 => ⟨S_, .f32⟩
  | 67 => ⟨S50000x128, .f32⟩
  | 68 => ⟨S600000x1, .i32⟩
  | 69 => ⟨S50000x128, .f32⟩
  | 70 => ⟨S1, .f32⟩
  | 71 => ⟨S_, .f32⟩
  | 72 => ⟨S_, .f32⟩
  | 73 => ⟨S_, .f32⟩
  | 74 => ⟨S50000x128, .f32⟩
  | 75 => ⟨S50000x128, .f32⟩
  | 76 => ⟨S50000x128, .f32⟩
  | 77 => ⟨S1x128x256, .f32⟩
  | 78 => ⟨S128x256, .f32⟩
  | 79 => ⟨S50000x256, .f32⟩
  | 80 => ⟨S1x256, .f32⟩
  | 81 => ⟨S256, .f32⟩
  | 82 => ⟨S1x256, .f32⟩
  | 83 => ⟨S50000x256, .f32⟩
  | 84 => ⟨S50000x256, .f32⟩
  | 85 => ⟨S1x256, .f32⟩
  | 86 => ⟨S256, .f32⟩
  | 87 => ⟨S1x256, .f32⟩
  | 88 => ⟨S256, .f32⟩
  | 89 => ⟨S1x256, .f32⟩
  | 90 => ⟨S256, .f32⟩
  | 91 => ⟨S1x256, .f32⟩
  | 92 => ⟨S256, .f32⟩
  | 93 => ⟨S1x256, .f32⟩
  | 94 => ⟨S50000x256, .f32⟩
  | 95 => ⟨S50000x256, .f32⟩
  | 96 => ⟨S1x256, .f32⟩
  | 97 => ⟨S50000x256, .f32⟩
  | 98 => ⟨S50000x256, .f32⟩
  | 99 => ⟨S_, .f32⟩
  | 100 => ⟨S256, .f32⟩
  | 101 => ⟨S256, .f32⟩
  | 102 => ⟨S256, .f32⟩
  | 103 => ⟨S1x256, .f32⟩
  | 104 => ⟨S50000x256, .f32⟩
  | 105 => ⟨S50000x256, .f32⟩
  | 106 => ⟨S1x256, .f32⟩
  | 107 => ⟨S50000x256, .f32⟩
  | 108 => ⟨S50000x256, .f32⟩
  | 109 => ⟨S_, .f32⟩
  | 110 => ⟨S50000x256, .f32⟩
  | 111 => ⟨S50000x256, .f32⟩
  | 112 => ⟨S1x256x128, .f32⟩
  | 113 => ⟨S256x128, .f32⟩
  | 114 => ⟨S50000x128, .f32⟩
  | 115 => ⟨S1x128, .f32⟩
  | 116 => ⟨S128, .f32⟩
  | 117 => ⟨S1x128, .f32⟩
  | 118 => ⟨S50000x128, .f32⟩
  | 119 => ⟨S50000x128, .f32⟩
  | 120 => ⟨S1x128, .f32⟩
  | 121 => ⟨S128, .f32⟩
  | 122 => ⟨S1x128, .f32⟩
  | 123 => ⟨S128, .f32⟩
  | 124 => ⟨S1x128, .f32⟩
  | 125 => ⟨S128, .f32⟩
  | 126 => ⟨S1x128, .f32⟩
  | 127 => ⟨S128, .f32⟩
  | _ => ⟨S1x128, .f32⟩

abbrev hbmTy0_1 (i : Nat) : BufTy := match i % 128 with
  | 0 => ⟨S1x128, .f32⟩
  | 1 => ⟨S50000x128, .f32⟩
  | 2 => ⟨S50000x128, .f32⟩
  | 3 => ⟨S1x128, .f32⟩
  | 4 => ⟨S50000x128, .f32⟩
  | 5 => ⟨S50000x128, .f32⟩
  | 6 => ⟨S_, .f32⟩
  | 7 => ⟨S128, .f32⟩
  | 8 => ⟨S128, .f32⟩
  | 9 => ⟨S128, .f32⟩
  | 10 => ⟨S1x128, .f32⟩
  | 11 => ⟨S50000x128, .f32⟩
  | 12 => ⟨S50000x128, .f32⟩
  | 13 => ⟨S1x128, .f32⟩
  | 14 => ⟨S50000x128, .f32⟩
  | 15 => ⟨S50000x128, .f32⟩
  | 16 => ⟨S_, .f32⟩
  | 17 => ⟨S50000x128, .f32⟩
  | 18 => ⟨S50000x128, .f32⟩
  | 19 => ⟨S_, .f32⟩
  | 20 => ⟨S256x128, .f32⟩
  | 21 => ⟨S50000x1, .i32⟩
  | 22 => ⟨S256x128, .f32⟩
  | 23 => ⟨S256x128, .f32⟩
  | 24 => ⟨S1x128x256, .f32⟩
  | 25 => ⟨S128x256, .f32⟩
  | 26 => ⟨S256x256, .f32⟩
  | 27 => ⟨S1x256, .f32⟩
  | 28 => ⟨S256, .f32⟩
  | 29 => ⟨S1x256, .f32⟩
  | 30 => ⟨S256x256, .f32⟩
  | 31 => ⟨S256x256, .f32⟩
  | 32 => ⟨S1x256, .f32⟩
  | 33 => ⟨S256, .f32⟩
  | 34 => ⟨S1x256, .f32⟩
  | 35 => ⟨S256, .f32⟩
  | 36 => ⟨S1x256, .f32⟩
  | 37 => ⟨S256, .f32⟩
  | 38 => ⟨S1x256, .f32⟩
  | 39 => ⟨S256, .f32⟩
  | 40 => ⟨S1x256, .f32⟩
  | 41 => ⟨S256x256, .f32⟩
  | 42 => ⟨S256x256, .f32⟩
  | 43 => ⟨S1x256, .f32⟩
  | 44 => ⟨S256x256, .f32⟩
  | 45 => ⟨S256x256, .f32⟩
  | 46 => ⟨S_, .f32⟩
  | 47 => ⟨S256, .f32⟩
  | 48 => ⟨S256, .f32⟩
  | 49 => ⟨S256, .f32⟩
  | 50 => ⟨S1x256, .f32⟩
  | 51 => ⟨S256x256, .f32⟩
  | 52 => ⟨S256x256, .f32⟩
  | 53 => ⟨S1x256, .f32⟩
  | 54 => ⟨S256x256, .f32⟩
  | 55 => ⟨S256x256, .f32⟩
  | 56 => ⟨S_, .f32⟩
  | 57 => ⟨S256x256, .f32⟩
  | 58 => ⟨S256x256, .f32⟩
  | 59 => ⟨S1x256x128, .f32⟩
  | 60 => ⟨S256x128, .f32⟩
  | 61 => ⟨S256x128, .f32⟩
  | 62 => ⟨S1x128, .f32⟩
  | 63 => ⟨S128, .f32⟩
  | 64 => ⟨S1x128, .f32⟩
  | 65 => ⟨S256x128, .f32⟩
  | 66 => ⟨S256x128, .f32⟩
  | 67 => ⟨S1x128, .f32⟩
  | 68 => ⟨S128, .f32⟩
  | 69 => ⟨S1x128, .f32⟩
  | 70 => ⟨S128, .f32⟩
  | 71 => ⟨S1x128, .f32⟩
  | 72 => ⟨S128, .f32⟩
  | 73 => ⟨S1x128, .f32⟩
  | 74 => ⟨S128, .f32⟩
  | 75 => ⟨S1x128, .f32⟩
  | 76 => ⟨S256x128, .f32⟩
  | 77 => ⟨S256x128, .f32⟩
  | 78 => ⟨S1x128, .f32⟩
  | 79 => ⟨S256x128, .f32⟩
  | 80 => ⟨S256x128, .f32⟩
  | 81 => ⟨S_, .f32⟩
  | 82 => ⟨S128, .f32⟩
  | 83 => ⟨S128, .f32⟩
  | 84 => ⟨S128, .f32⟩
  | 85 => ⟨S1x128, .f32⟩
  | 86 => ⟨S256x128, .f32⟩
  | 87 => ⟨S256x128, .f32⟩
  | 88 => ⟨S1x128, .f32⟩
  | 89 => ⟨S256x128, .f32⟩
  | 90 => ⟨S256x128, .f32⟩
  | 91 => ⟨S_, .f32⟩
  | 92 => ⟨S256x128, .f32⟩
  | 93 => ⟨S256x128, .f32⟩
  | 94 => ⟨S_, .i32⟩
  | 95 => ⟨S50000, .i32⟩
  | 96 => ⟨S50000, .i1⟩
  | 97 => ⟨S_, .i32⟩
  | 98 => ⟨S50000, .i32⟩
  | 99 => ⟨S50000, .i32⟩
  | 100 => ⟨S50000, .i32⟩
  | 101 => ⟨S50000x1, .i32⟩
  | 102 => ⟨S50000x128, .f32⟩
  | 103 => ⟨S50000x128, .f32⟩
  | 104 => ⟨S_, .i32⟩
  | 105 => ⟨S600000, .i32⟩
  | 106 => ⟨S600000, .i1⟩
  | 107 => ⟨S_, .i32⟩
  | 108 => ⟨S600000, .i32⟩
  | 109 => ⟨S600000, .i32⟩
  | 110 => ⟨S600000, .i32⟩
  | 111 => ⟨S600000x1, .i32⟩
  | 112 => ⟨S600000x128, .f32⟩
  | 113 => ⟨S_, .f32⟩
  | 114 => ⟨S50000x128, .f32⟩
  | 115 => ⟨S600000x1, .i32⟩
  | 116 => ⟨S50000x128, .f32⟩
  | 117 => ⟨S1, .f32⟩
  | 118 => ⟨S_, .f32⟩
  | 119 => ⟨S_, .f32⟩
  | 120 => ⟨S_, .f32⟩
  | 121 => ⟨S50000x128, .f32⟩
  | 122 => ⟨S50000x128, .f32⟩
  | 123 => ⟨S50000x128, .f32⟩
  | 124 => ⟨S1x128x256, .f32⟩
  | 125 => ⟨S128x256, .f32⟩
  | 126 => ⟨S50000x256, .f32⟩
  | 127 => ⟨S1x256, .f32⟩
  | _ => ⟨S1x128, .f32⟩

abbrev hbmTy0_2 (i : Nat) : BufTy := match i % 128 with
  | 0 => ⟨S256, .f32⟩
  | 1 => ⟨S1x256, .f32⟩
  | 2 => ⟨S50000x256, .f32⟩
  | 3 => ⟨S50000x256, .f32⟩
  | 4 => ⟨S1x256, .f32⟩
  | 5 => ⟨S256, .f32⟩
  | 6 => ⟨S1x256, .f32⟩
  | 7 => ⟨S256, .f32⟩
  | 8 => ⟨S1x256, .f32⟩
  | 9 => ⟨S256, .f32⟩
  | 10 => ⟨S1x256, .f32⟩
  | 11 => ⟨S256, .f32⟩
  | 12 => ⟨S1x256, .f32⟩
  | 13 => ⟨S50000x256, .f32⟩
  | 14 => ⟨S50000x256, .f32⟩
  | 15 => ⟨S1x256, .f32⟩
  | 16 => ⟨S50000x256, .f32⟩
  | 17 => ⟨S50000x256, .f32⟩
  | 18 => ⟨S_, .f32⟩
  | 19 => ⟨S256, .f32⟩
  | 20 => ⟨S256, .f32⟩
  | 21 => ⟨S256, .f32⟩
  | 22 => ⟨S1x256, .f32⟩
  | 23 => ⟨S50000x256, .f32⟩
  | 24 => ⟨S50000x256, .f32⟩
  | 25 => ⟨S1x256, .f32⟩
  | 26 => ⟨S50000x256, .f32⟩
  | 27 => ⟨S50000x256, .f32⟩
  | 28 => ⟨S_, .f32⟩
  | 29 => ⟨S50000x256, .f32⟩
  | 30 => ⟨S50000x256, .f32⟩
  | 31 => ⟨S1x256x128, .f32⟩
  | 32 => ⟨S256x128, .f32⟩
  | 33 => ⟨S50000x128, .f32⟩
  | 34 => ⟨S1x128, .f32⟩
  | 35 => ⟨S128, .f32⟩
  | 36 => ⟨S1x128, .f32⟩
  | 37 => ⟨S50000x128, .f32⟩
  | 38 => ⟨S50000x128, .f32⟩
  | 39 => ⟨S1x128, .f32⟩
  | 40 => ⟨S128, .f32⟩
  | 41 => ⟨S1x128, .f32⟩
  | 42 => ⟨S128, .f32⟩
  | 43 => ⟨S1x128, .f32⟩
  | 44 => ⟨S128, .f32⟩
  | 45 => ⟨S1x128, .f32⟩
  | 46 => ⟨S128, .f32⟩
  | 47 => ⟨S1x128, .f32⟩
  | 48 => ⟨S50000x128, .f32⟩
  | 49 => ⟨S50000x128, .f32⟩
  | 50 => ⟨S1x128, .f32⟩
  | 51 => ⟨S50000x128, .f32⟩
  | 52 => ⟨S50000x128, .f32⟩
  | 53 => ⟨S_, .f32⟩
  | 54 => ⟨S128, .f32⟩
  | 55 => ⟨S128, .f32⟩
  | 56 => ⟨S128, .f32⟩
  | 57 => ⟨S1x128, .f32⟩
  | 58 => ⟨S50000x128, .f32⟩
  | 59 => ⟨S50000x128, .f32⟩
  | 60 => ⟨S1x128, .f32⟩
  | 61 => ⟨S50000x128, .f32⟩
  | 62 => ⟨S50000x128, .f32⟩
  | 63 => ⟨S_, .f32⟩
  | 64 => ⟨S50000x128, .f32⟩
  | 65 => ⟨S50000x128, .f32⟩
  | 66 => ⟨S_, .f32⟩
  | 67 => ⟨S256x128, .f32⟩
  | 68 => ⟨S50000x1, .i32⟩
  | 69 => ⟨S256x128, .f32⟩
  | 70 => ⟨S256x128, .f32⟩
  | 71 => ⟨S1x128x256, .f32⟩
  | 72 => ⟨S128x256, .f32⟩
  | 73 => ⟨S256x256, .f32⟩
  | 74 => ⟨S1x256, .f32⟩
  | 75 => ⟨S256, .f32⟩
  | 76 => ⟨S1x256, .f32⟩
  | 77 => ⟨S256x256, .f32⟩
  | 78 => ⟨S256x256, .f32⟩
  | 79 => ⟨S1x256, .f32⟩
  | 80 => ⟨S256, .f32⟩
  | 81 => ⟨S1x256, .f32⟩
  | 82 => ⟨S256, .f32⟩
  | 83 => ⟨S1x256, .f32⟩
  | 84 => ⟨S256, .f32⟩
  | 85 => ⟨S1x256, .f32⟩
  | 86 => ⟨S256, .f32⟩
  | 87 => ⟨S1x256, .f32⟩
  | 88 => ⟨S256x256, .f32⟩
  | 89 => ⟨S256x256, .f32⟩
  | 90 => ⟨S1x256, .f32⟩
  | 91 => ⟨S256x256, .f32⟩
  | 92 => ⟨S256x256, .f32⟩
  | 93 => ⟨S_, .f32⟩
  | 94 => ⟨S256, .f32⟩
  | 95 => ⟨S256, .f32⟩
  | 96 => ⟨S256, .f32⟩
  | 97 => ⟨S1x256, .f32⟩
  | 98 => ⟨S256x256, .f32⟩
  | 99 => ⟨S256x256, .f32⟩
  | 100 => ⟨S1x256, .f32⟩
  | 101 => ⟨S256x256, .f32⟩
  | 102 => ⟨S256x256, .f32⟩
  | 103 => ⟨S_, .f32⟩
  | 104 => ⟨S256x256, .f32⟩
  | 105 => ⟨S256x256, .f32⟩
  | 106 => ⟨S1x256x128, .f32⟩
  | 107 => ⟨S256x128, .f32⟩
  | 108 => ⟨S256x128, .f32⟩
  | 109 => ⟨S1x128, .f32⟩
  | 110 => ⟨S128, .f32⟩
  | 111 => ⟨S1x128, .f32⟩
  | 112 => ⟨S256x128, .f32⟩
  | 113 => ⟨S256x128, .f32⟩
  | 114 => ⟨S1x128, .f32⟩
  | 115 => ⟨S128, .f32⟩
  | 116 => ⟨S1x128, .f32⟩
  | 117 => ⟨S128, .f32⟩
  | 118 => ⟨S1x128, .f32⟩
  | 119 => ⟨S128, .f32⟩
  | 120 => ⟨S1x128, .f32⟩
  | 121 => ⟨S128, .f32⟩
  | 122 => ⟨S1x128, .f32⟩
  | 123 => ⟨S256x128, .f32⟩
  | 124 => ⟨S256x128, .f32⟩
  | 125 => ⟨S1x128, .f32⟩
  | 126 => ⟨S256x128, .f32⟩
  | 127 => ⟨S256x128, .f32⟩
  | _ => ⟨S1x128, .f32⟩

abbrev hbmTy0_3 (i : Nat) : BufTy := match i % 128 with
  | 0 => ⟨S_, .f32⟩
  | 1 => ⟨S128, .f32⟩
  | 2 => ⟨S128, .f32⟩
  | 3 => ⟨S128, .f32⟩
  | 4 => ⟨S1x128, .f32⟩
  | 5 => ⟨S256x128, .f32⟩
  | 6 => ⟨S256x128, .f32⟩
  | 7 => ⟨S1x128, .f32⟩
  | 8 => ⟨S256x128, .f32⟩
  | 9 => ⟨S256x128, .f32⟩
  | 10 => ⟨S_, .f32⟩
  | 11 => ⟨S256x128, .f32⟩
  | 12 => ⟨S256x128, .f32⟩
  | 13 => ⟨S_, .i32⟩
  | 14 => ⟨S50000, .i32⟩
  | 15 => ⟨S50000, .i1⟩
  | 16 => ⟨S_, .i32⟩
  | 17 => ⟨S50000, .i32⟩
  | 18 => ⟨S50000, .i32⟩
  | 19 => ⟨S50000, .i32⟩
  | 20 => ⟨S50000x1, .i32⟩
  | 21 => ⟨S50000x128, .f32⟩
  | 22 => ⟨S50000x128, .f32⟩
  | 23 => ⟨S_, .i32⟩
  | 24 => ⟨S600000, .i32⟩
  | 25 => ⟨S600000, .i1⟩
  | 26 => ⟨S_, .i32⟩
  | 27 => ⟨S600000, .i32⟩
  | 28 => ⟨S600000, .i32⟩
  | 29 => ⟨S600000, .i32⟩
  | 30 => ⟨S600000x1, .i32⟩
  | 31 => ⟨S600000x128, .f32⟩
  | 32 => ⟨S_, .f32⟩
  | 33 => ⟨S50000x128, .f32⟩
  | 34 => ⟨S600000x1, .i32⟩
  | 35 => ⟨S50000x128, .f32⟩
  | 36 => ⟨S1, .f32⟩
  | 37 => ⟨S_, .f32⟩
  | 38 => ⟨S_, .f32⟩
  | 39 => ⟨S_, .f32⟩
  | 40 => ⟨S50000x128, .f32⟩
  | 41 => ⟨S50000x128, .f32⟩
  | 42 => ⟨S50000x128, .f32⟩
  | 43 => ⟨S1x128x256, .f32⟩
  | 44 => ⟨S128x256, .f32⟩
  | 45 => ⟨S50000x256, .f32⟩
  | 46 => ⟨S1x256, .f32⟩
  | 47 => ⟨S256, .f32⟩
  | 48 => ⟨S1x256, .f32⟩
  | 49 => ⟨S50000x256, .f32⟩
  | 50 => ⟨S50000x256, .f32⟩
  | 51 => ⟨S1x256, .f32⟩
  | 52 => ⟨S256, .f32⟩
  | 53 => ⟨S1x256, .f32⟩
  | 54 => ⟨S256, .f32⟩
  | 55 => ⟨S1x256, .f32⟩
  | 56 => ⟨S256, .f32⟩
  | 57 => ⟨S1x256, .f32⟩
  | 58 => ⟨S256, .f32⟩
  | 59 => ⟨S1x256, .f32⟩
  | 60 => ⟨S50000x256, .f32⟩
  | 61 => ⟨S50000x256, .f32⟩
  | 62 => ⟨S1x256, .f32⟩
  | 63 => ⟨S50000x256, .f32⟩
  | 64 => ⟨S50000x256, .f32⟩
  | 65 => ⟨S_, .f32⟩
  | 66 => ⟨S256, .f32⟩
  | 67 => ⟨S256, .f32⟩
  | 68 => ⟨S256, .f32⟩
  | 69 => ⟨S1x256, .f32⟩
  | 70 => ⟨S50000x256, .f32⟩
  | 71 => ⟨S50000x256, .f32⟩
  | 72 => ⟨S1x256, .f32⟩
  | 73 => ⟨S50000x256, .f32⟩
  | 74 => ⟨S50000x256, .f32⟩
  | 75 => ⟨S_, .f32⟩
  | 76 => ⟨S50000x256, .f32⟩
  | 77 => ⟨S50000x256, .f32⟩
  | 78 => ⟨S1x256x128, .f32⟩
  | 79 => ⟨S256x128, .f32⟩
  | 80 => ⟨S50000x128, .f32⟩
  | 81 => ⟨S1x128, .f32⟩
  | 82 => ⟨S128, .f32⟩
  | 83 => ⟨S1x128, .f32⟩
  | 84 => ⟨S50000x128, .f32⟩
  | 85 => ⟨S50000x128, .f32⟩
  | 86 => ⟨S1x128, .f32⟩
  | 87 => ⟨S128, .f32⟩
  | 88 => ⟨S1x128, .f32⟩
  | 89 => ⟨S128, .f32⟩
  | 90 => ⟨S1x128, .f32⟩
  | 91 => ⟨S128, .f32⟩
  | 92 => ⟨S1x128, .f32⟩
  | 93 => ⟨S128, .f32⟩
  | 94 => ⟨S1x128, .f32⟩
  | 95 => ⟨S50000x128, .f32⟩
  | 96 => ⟨S50000x128, .f32⟩
  | 97 => ⟨S1x128, .f32⟩
  | 98 => ⟨S50000x128, .f32⟩
  | 99 => ⟨S50000x128, .f32⟩
  | 100 => ⟨S_, .f32⟩
  | 101 => ⟨S128, .f32⟩
  | 102 => ⟨S128, .f32⟩
  | 103 => ⟨S128, .f32⟩
  | 104 => ⟨S1x128, .f32⟩
  | 105 => ⟨S50000x128, .f32⟩
  | 106 => ⟨S50000x128, .f32⟩
  | 107 => ⟨S1x128, .f32⟩
  | 108 => ⟨S50000x128, .f32⟩
  | 109 => ⟨S50000x128, .f32⟩
  | 110 => ⟨S_, .f32⟩
  | 111 => ⟨S50000x128, .f32⟩
  | 112 => ⟨S50000x128, .f32⟩
  | 113 => ⟨S_, .f32⟩
  | 114 => ⟨S256x128, .f32⟩
  | 115 => ⟨S50000x1, .i32⟩
  | 116 => ⟨S256x128, .f32⟩
  | 117 => ⟨S256x128, .f32⟩
  | 118 => ⟨S1x128x256, .f32⟩
  | 119 => ⟨S128x256, .f32⟩
  | 120 => ⟨S256x256, .f32⟩
  | 121 => ⟨S1x256, .f32⟩
  | 122 => ⟨S256, .f32⟩
  | 123 => ⟨S1x256, .f32⟩
  | 124 => ⟨S256x256, .f32⟩
  | 125 => ⟨S256x256, .f32⟩
  | 126 => ⟨S1x256, .f32⟩
  | 127 => ⟨S256, .f32⟩
  | _ => ⟨S1x128, .f32⟩

abbrev hbmTy0_4 (i : Nat) : BufTy := match i % 128 with
  | 0 => ⟨S1x256, .f32⟩
  | 1 => ⟨S256, .f32⟩
  | 2 => ⟨S1x256, .f32⟩
  | 3 => ⟨S256, .f32⟩
  | 4 => ⟨S1x256, .f32⟩
  | 5 => ⟨S256, .f32⟩
  | 6 => ⟨S1x256, .f32⟩
  | 7 => ⟨S256x256, .f32⟩
  | 8 => ⟨S256x256, .f32⟩
  | 9 => ⟨S1x256, .f32⟩
  | 10 => ⟨S256x256, .f32⟩
  | 11 => ⟨S256x256, .f32⟩
  | 12 => ⟨S_, .f32⟩
  | 13 => ⟨S256, .f32⟩
  | 14 => ⟨S256, .f32⟩
  | 15 => ⟨S256, .f32⟩
  | 16 => ⟨S1x256, .f32⟩
  | 17 => ⟨S256x256, .f32⟩
  | 18 => ⟨S256x256, .f32⟩
  | 19 => ⟨S1x256, .f32⟩
  | 20 => ⟨S256x256, .f32⟩
  | 21 => ⟨S256x256, .f32⟩
  | 22 => ⟨S_, .f32⟩
  | 23 => ⟨S256x256, .f32⟩
  | 24 => ⟨S256x256, .f32⟩
  | 25 => ⟨S1x256x128, .f32⟩
  | 26 => ⟨S256x128, .f32⟩
  | 27 => ⟨S256x128, .f32⟩
  | 28 => ⟨S1x128, .f32⟩
  | 29 => ⟨S128, .f32⟩
  | 30 => ⟨S1x128, .f32⟩
  | 31 => ⟨S256x128, .f32⟩
  | 32 => ⟨S256x128, .f32⟩
  | 33 => ⟨S1x128, .f32⟩
  | 34 => ⟨S128, .f32⟩
  | 35 => ⟨S1x128, .f32⟩
  | 36 => ⟨S128, .f32⟩
  | 37 => ⟨S1x128, .f32⟩
  | 38 => ⟨S128, .f32⟩
  | 39 => ⟨S1x128, .f32⟩
  | 40 => ⟨S128, .f32⟩
  | 41 => ⟨S1x128, .f32⟩
  | 42 => ⟨S256x128, .f32⟩
  | 43 => ⟨S256x128, .f32⟩
  | 44 => ⟨S1x128, .f32⟩
  | 45 => ⟨S256x128, .f32⟩
  | 46 => ⟨S256x128, .f32⟩
  | 47 => ⟨S_, .f32⟩
  | 48 => ⟨S128, .f32⟩
  | 49 => ⟨S128, .f32⟩
  | 50 => ⟨S128, .f32⟩
  | 51 => ⟨S1x128, .f32⟩
  | 52 => ⟨S256x128, .f32⟩
  | 53 => ⟨S256x128, .f32⟩
  | 54 => ⟨S1x128, .f32⟩
  | 55 => ⟨S256x128, .f32⟩
  | 56 => ⟨S256x128, .f32⟩
  | 57 => ⟨S_, .f32⟩
  | 58 => ⟨S256x128, .f32⟩
  | 59 => ⟨S256x128, .f32⟩
  | 60 => ⟨S_, .i32⟩
  | 61 => ⟨S50000, .i32⟩
  | 62 => ⟨S50000, .i1⟩
  | 63 => ⟨S_, .i32⟩
  | 64 => ⟨S50000, .i32⟩
  | 65 => ⟨S50000, .i32⟩
  | 66 => ⟨S50000, .i32⟩
  | 67 => ⟨S50000x1, .i32⟩
  | 68 => ⟨S50000x128, .f32⟩
  | 69 => ⟨S50000x128, .f32⟩
  | 70 => ⟨S_, .i32⟩
  | 71 => ⟨S600000, .i32⟩
  | 72 => ⟨S600000, .i1⟩
  | 73 => ⟨S_, .i32⟩
  | 74 => ⟨S600000, .i32⟩
  | 75 => ⟨S600000, .i32⟩
  | 76 => ⟨S600000, .i32⟩
  | 77 => ⟨S600000x1, .i32⟩
  | 78 => ⟨S600000x128, .f32⟩
  | 79 => ⟨S_, .f32⟩
  | 80 => ⟨S50000x128, .f32⟩
  | 81 => ⟨S600000x1, .i32⟩
  | 82 => ⟨S50000x128, .f32⟩
  | 83 => ⟨S1, .f32⟩
  | 84 => ⟨S_, .f32⟩
  | 85 => ⟨S_, .f32⟩
  | 86 => ⟨S_, .f32⟩
  | 87 => ⟨S50000x128, .f32⟩
  | 88 => ⟨S50000x128, .f32⟩
  | 89 => ⟨S50000x128, .f32⟩
  | 90 => ⟨S1x128x256, .f32⟩
  | 91 => ⟨S128x256, .f32⟩
  | 92 => ⟨S50000x256, .f32⟩
  | 93 => ⟨S1x256, .f32⟩
  | 94 => ⟨S256, .f32⟩
  | 95 => ⟨S1x256, .f32⟩
  | 96 => ⟨S50000x256, .f32⟩
  | 97 => ⟨S50000x256, .f32⟩
  | 98 => ⟨S1x256, .f32⟩
  | 99 => ⟨S256, .f32⟩
  | 100 => ⟨S1x256, .f32⟩
  | 101 => ⟨S256, .f32⟩
  | 102 => ⟨S1x256, .f32⟩
  | 103 => ⟨S256, .f32⟩
  | 104 => ⟨S1x256, .f32⟩
  | 105 => ⟨S256, .f32⟩
  | 106 => ⟨S1x256, .f32⟩
  | 107 => ⟨S50000x256, .f32⟩
  | 108 => ⟨S50000x256, .f32⟩
  | 109 => ⟨S1x256, .f32⟩
  | 110 => ⟨S50000x256, .f32⟩
  | 111 => ⟨S50000x256, .f32⟩
  | 112 => ⟨S_, .f32⟩
  | 113 => ⟨S256, .f32⟩
  | 114 => ⟨S256, .f32⟩
  | 115 => ⟨S256, .f32⟩
  | 116 => ⟨S1x256, .f32⟩
  | 117 => ⟨S50000x256, .f32⟩
  | 118 => ⟨S50000x256, .f32⟩
  | 119 => ⟨S1x256, .f32⟩
  | 120 => ⟨S50000x256, .f32⟩
  | 121 => ⟨S50000x256, .f32⟩
  | 122 => ⟨S_, .f32⟩
  | 123 => ⟨S50000x256, .f32⟩
  | 124 => ⟨S50000x256, .f32⟩
  | 125 => ⟨S1x256x128, .f32⟩
  | 126 => ⟨S256x128, .f32⟩
  | 127 => ⟨S50000x128, .f32⟩
  | _ => ⟨S1x128, .f32⟩

abbrev hbmTy0_5 (i : Nat) : BufTy := match i % 128 with
  | 0 => ⟨S1x128, .f32⟩
  | 1 => ⟨S128, .f32⟩
  | 2 => ⟨S1x128, .f32⟩
  | 3 => ⟨S50000x128, .f32⟩
  | 4 => ⟨S50000x128, .f32⟩
  | 5 => ⟨S1x128, .f32⟩
  | 6 => ⟨S128, .f32⟩
  | 7 => ⟨S1x128, .f32⟩
  | 8 => ⟨S128, .f32⟩
  | 9 => ⟨S1x128, .f32⟩
  | 10 => ⟨S128, .f32⟩
  | 11 => ⟨S1x128, .f32⟩
  | 12 => ⟨S128, .f32⟩
  | 13 => ⟨S1x128, .f32⟩
  | 14 => ⟨S50000x128, .f32⟩
  | 15 => ⟨S50000x128, .f32⟩
  | 16 => ⟨S1x128, .f32⟩
  | 17 => ⟨S50000x128, .f32⟩
  | 18 => ⟨S50000x128, .f32⟩
  | 19 => ⟨S_, .f32⟩
  | 20 => ⟨S128, .f32⟩
  | 21 => ⟨S128, .f32⟩
  | 22 => ⟨S128, .f32⟩
  | 23 => ⟨S1x128, .f32⟩
  | 24 => ⟨S50000x128, .f32⟩
  | 25 => ⟨S50000x128, .f32⟩
  | 26 => ⟨S1x128, .f32⟩
  | 27 => ⟨S50000x128, .f32⟩
  | 28 => ⟨S50000x128, .f32⟩
  | 29 => ⟨S_, .f32⟩
  | 30 => ⟨S50000x128, .f32⟩
  | 31 => ⟨S50000x128, .f32⟩
  | 32 => ⟨S_, .f32⟩
  | 33 => ⟨S256x128, .f32⟩
  | 34 => ⟨S50000x1, .i32⟩
  | 35 => ⟨S256x128, .f32⟩
  | 36 => ⟨S256x128, .f32⟩
  | 37 => ⟨S1x128x256, .f32⟩
  | 38 => ⟨S128x256, .f32⟩
  | 39 => ⟨S256x256, .f32⟩
  | 40 => ⟨S1x256, .f32⟩
  | 41 => ⟨S256, .f32⟩
  | 42 => ⟨S1x256, .f32⟩
  | 43 => ⟨S256x256, .f32⟩
  | 44 => ⟨S256x256, .f32⟩
  | 45 => ⟨S1x256, .f32⟩
  | 46 => ⟨S256, .f32⟩
  | 47 => ⟨S1x256, .f32⟩
  | 48 => ⟨S256, .f32⟩
  | 49 => ⟨S1x256, .f32⟩
  | 50 => ⟨S256, .f32⟩
  | 51 => ⟨S1x256, .f32⟩
  | 52 => ⟨S256, .f32⟩
  | 53 => ⟨S1x256, .f32⟩
  | 54 => ⟨S256x256, .f32⟩
  | 55 => ⟨S256x256, .f32⟩
  | 56 => ⟨S1x256, .f32⟩
  | 57 => ⟨S256x256, .f32⟩
  | 58 => ⟨S256x256, .f32⟩
  | 59 => ⟨S_, .f32⟩
  | 60 => ⟨S256, .f32⟩
  | 61 => ⟨S256, .f32⟩
  | 62 => ⟨S256, .f32⟩
  | 63 => ⟨S1x256, .f32⟩
  | 64 => ⟨S256x256, .f32⟩
  | 65 => ⟨S256x256, .f32⟩
  | 66 => ⟨S1x256, .f32⟩
  | 67 => ⟨S256x256, .f32⟩
  | 68 => ⟨S256x256, .f32⟩
  | 69 => ⟨S_, .f32⟩
  | 70 => ⟨S256x256, .f32⟩
  | 71 => ⟨S256x256, .f32⟩
  | 72 => ⟨S1x256x128, .f32⟩
  | 73 => ⟨S256x128, .f32⟩
  | 74 => ⟨S256x128, .f32⟩
  | 75 => ⟨S1x128, .f32⟩
  | 76 => ⟨S128, .f32⟩
  | 77 => ⟨S1x128, .f32⟩
  | 78 => ⟨S256x128, .f32⟩
  | 79 => ⟨S256x128, .f32⟩
  | 80 => ⟨S1x128, .f32⟩
  | 81 => ⟨S128, .f32⟩
  | 82 => ⟨S1x128, .f32⟩
  | 83 => ⟨S128, .f32⟩
  | 84 => ⟨S1x128, .f32⟩
  | 85 => ⟨S128, .f32⟩
  | 86 => ⟨S1x128, .f32⟩
  | 87 => ⟨S128, .f32⟩
  | 88 => ⟨S1x128, .f32⟩
  | 89 => ⟨S256x128, .f32⟩
  | 90 => ⟨S256x128, .f32⟩
  | 91 => ⟨S1x128, .f32⟩
  | 92 => ⟨S256x128, .f32⟩
  | 93 => ⟨S256x128, .f32⟩
  | 94 => ⟨S_, .f32⟩
  | 95 => ⟨S128, .f32⟩
  | 96 => ⟨S128, .f32⟩
  | 97 => ⟨S128, .f32⟩
  | 98 => ⟨S1x128, .f32⟩
  | 99 => ⟨S256x128, .f32⟩
  | 100 => ⟨S256x128, .f32⟩
  | 101 => ⟨S1x128, .f32⟩
  | 102 => ⟨S256x128, .f32⟩
  | 103 => ⟨S256x128, .f32⟩
  | 104 => ⟨S_, .f32⟩
  | 105 => ⟨S256x128, .f32⟩
  | 106 => ⟨S256x128, .f32⟩
  | 107 => ⟨S_, .i32⟩
  | 108 => ⟨S50000, .i32⟩
  | 109 => ⟨S50000, .i1⟩
  | 110 => ⟨S_, .i32⟩
  | 111 => ⟨S50000, .i32⟩
  | 112 => ⟨S50000, .i32⟩
  | 113 => ⟨S50000, .i32⟩
  | 114 => ⟨S50000x1, .i32⟩
  | 115 => ⟨S50000x128, .f32⟩
  | 116 => ⟨S50000x128, .f32⟩
  | 117 => ⟨S_, .i32⟩
  | 118 => ⟨S600000, .i32⟩
  | 119 => ⟨S600000, .i1⟩
  | 120 => ⟨S_, .i32⟩
  | 121 => ⟨S600000, .i32⟩
  | 122 => ⟨S600000, .i32⟩
  | 123 => ⟨S600000, .i32⟩
  | 124 => ⟨S600000x1, .i32⟩
  | 125 => ⟨S600000x128, .f32⟩
  | 126 => ⟨S_, .f32⟩
  | 127 => ⟨S50000x128, .f32⟩
  | _ => ⟨S1x128, .f32⟩

abbrev hbmTy0_6 (i : Nat) : BufTy := match i % 128 with
  | 0 => ⟨S600000x1, .i32⟩
  | 1 => ⟨S50000x128, .f32⟩
  | 2 => ⟨S1, .f32⟩
  | 3 => ⟨S_, .f32⟩
  | 4 => ⟨S_, .f32⟩
  | 5 => ⟨S_, .f32⟩
  | 6 => ⟨S50000x128, .f32⟩
  | 7 => ⟨S50000x128, .f32⟩
  | 8 => ⟨S50000x128, .f32⟩
  | 9 => ⟨S1x128x256, .f32⟩
  | 10 => ⟨S128x256, .f32⟩
  | 11 => ⟨S50000x256, .f32⟩
  | 12 => ⟨S1x256, .f32⟩
  | 13 => ⟨S256, .f32⟩
  | 14 => ⟨S1x256, .f32⟩
  | 15 => ⟨S50000x256, .f32⟩
  | 16 => ⟨S50000x256, .f32⟩
  | 17 => ⟨S1x256, .f32⟩
  | 18 => ⟨S256, .f32⟩
  | 19 => ⟨S1x256, .f32⟩
  | 20 => ⟨S256, .f32⟩
  | 21 => ⟨S1x256, .f32⟩
  | 22 => ⟨S256, .f32⟩
  | 23 => ⟨S1x256, .f32⟩
  | 24 => ⟨S256, .f32⟩
  | 25 => ⟨S1x256, .f32⟩
  | 26 => ⟨S50000x256, .f32⟩
  | 27 => ⟨S50000x256, .f32⟩
  | 28 => ⟨S1x256, .f32⟩
  | 29 => ⟨S50000x256, .f32⟩
  | 30 => ⟨S50000x256, .f32⟩
  | 31 => ⟨S_, .f32⟩
  | 32 => ⟨S256, .f32⟩
  | 33 => ⟨S256, .f32⟩
  | 34 => ⟨S256, .f32⟩
  | 35 => ⟨S1x256, .f32⟩
  | 36 => ⟨S50000x256, .f32⟩
  | 37 => ⟨S50000x256, .f32⟩
  | 38 => ⟨S1x256, .f32⟩
  | 39 => ⟨S50000x256, .f32⟩
  | 40 => ⟨S50000x256, .f32⟩
  | 41 => ⟨S_, .f32⟩
  | 42 => ⟨S50000x256, .f32⟩
  | 43 => ⟨S50000x256, .f32⟩
  | 44 => ⟨S1x256x128, .f32⟩
  | 45 => ⟨S256x128, .f32⟩
  | 46 => ⟨S50000x128, .f32⟩
  | 47 => ⟨S1x128, .f32⟩
  | 48 => ⟨S128, .f32⟩
  | 49 => ⟨S1x128, .f32⟩
  | 50 => ⟨S50000x128, .f32⟩
  | 51 => ⟨S50000x128, .f32⟩
  | 52 => ⟨S1x128, .f32⟩
  | 53 => ⟨S128, .f32⟩
  | 54 => ⟨S1x128, .f32⟩
  | 55 => ⟨S128, .f32⟩
  | 56 => ⟨S1x128, .f32⟩
  | 57 => ⟨S128, .f32⟩
  | 58 => ⟨S1x128, .f32⟩
  | 59 => ⟨S128, .f32⟩
  | 60 => ⟨S1x128, .f32⟩
  | 61 => ⟨S50000x128, .f32⟩
  | 62 => ⟨S50000x128, .f32⟩
  | 63 => ⟨S1x128, .f32⟩
  | 64 => ⟨S50000x128, .f32⟩
  | 65 => ⟨S50000x128, .f32⟩
  | 66 => ⟨S_, .f32⟩
  | 67 => ⟨S128, .f32⟩
  | 68 => ⟨S128, .f32⟩
  | 69 => ⟨S128, .f32⟩
  | 70 => ⟨S1x128, .f32⟩
  | 71 => ⟨S50000x128, .f32⟩
  | 72 => ⟨S50000x128, .f32⟩
  | 73 => ⟨S1x128, .f32⟩
  | 74 => ⟨S50000x128, .f32⟩
  | 75 => ⟨S50000x128, .f32⟩
  | 76 => ⟨S_, .f32⟩
  | 77 => ⟨S50000x1, .f32⟩
  | 78 => ⟨S_, .f32⟩
  | 79 => ⟨S256x1, .f32⟩
  | 80 => ⟨S50000x1, .i32⟩
  | 81 => ⟨S256x1, .f32⟩
  | 82 => ⟨S_, .f32⟩
  | 83 => ⟨S256x128, .f32⟩
  | 84 => ⟨S50000x1, .i32⟩
  | 85 => ⟨S256x128, .f32⟩
  | 86 => ⟨S_, .f32⟩
  | 87 => ⟨S256x1, .f32⟩
  | 88 => ⟨S256x1, .f32⟩
  | 89 => ⟨S256x128, .f32⟩
  | 90 => ⟨S256x128, .f32⟩
  | 91 => ⟨S256x10, .f32⟩
  | 92 => ⟨S1x10, .f32⟩
  | 93 => ⟨S256x10, .f32⟩
  | 94 => ⟨S256x10, .f32⟩
  | _ => ⟨S1x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S1x128, .f32⟩

abbrev bufTy : (tb : Table) → Fin (tcTables nBuf tb) → BufTy
  | .hbm, ⟨i, _⟩ => hbmTy i
  | _, _ => ⟨S1x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_v0 : Ref sig .tc := ⟨.hbm, 32, rfl⟩
abbrev main_v1 : Ref sig .tc := ⟨.hbm, 33, rfl⟩
abbrev main_v2 : Ref sig .tc := ⟨.hbm, 34, rfl⟩
abbrev main_v3 : Ref sig .tc := ⟨.hbm, 35, rfl⟩
abbrev main_c : Ref sig .tc := ⟨.hbm, 36, rfl⟩
abbrev main_v4 : Ref sig .tc := ⟨.hbm, 37, rfl⟩
abbrev main_v5 : Ref sig .tc := ⟨.hbm, 38, rfl⟩
abbrev main_c_0 : Ref sig .tc := ⟨.hbm, 39, rfl⟩
abbrev main_v6 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_c_1 : Ref sig .tc := ⟨.hbm, 47, rfl⟩
abbrev main_v13 : Ref sig .tc := ⟨.hbm, 48, rfl⟩
abbrev main_v14 : Ref sig .tc := ⟨.hbm, 49, rfl⟩
abbrev main_c_2 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_c_3 : Ref sig .tc := ⟨.hbm, 57, rfl⟩
abbrev main_v21 : Ref sig .tc := ⟨.hbm, 58, rfl⟩
abbrev main_v22 : Ref sig .tc := ⟨.hbm, 59, rfl⟩
abbrev main_c_4 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_cst : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_cst_5 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_cst_6 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_call0_cst : Ref sig .tc := ⟨.hbm, 109, rfl⟩
abbrev main_call0_v0 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_cst_7 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_call1_cst : Ref sig .tc := ⟨.hbm, 144, rfl⟩
abbrev main_call1_v0 : Ref sig .tc := ⟨.hbm, 145, rfl⟩
abbrev main_v100 : Ref sig .tc := ⟨.hbm, 146, rfl⟩
abbrev main_cst_8 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_cst_9 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_call2_cst : Ref sig .tc := ⟨.hbm, 184, rfl⟩
abbrev main_call2_v0 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_cst_10 : Ref sig .tc := ⟨.hbm, 209, rfl⟩
abbrev main_v159 : Ref sig .tc := ⟨.hbm, 210, rfl⟩
abbrev main_v160 : Ref sig .tc := ⟨.hbm, 211, rfl⟩
abbrev main_v161 : Ref sig .tc := ⟨.hbm, 212, rfl⟩
abbrev main_v162 : Ref sig .tc := ⟨.hbm, 213, rfl⟩
abbrev main_v163 : Ref sig .tc := ⟨.hbm, 214, rfl⟩
abbrev main_v164 : Ref sig .tc := ⟨.hbm, 215, rfl⟩
abbrev main_v165 : Ref sig .tc := ⟨.hbm, 216, rfl⟩
abbrev main_v166 : Ref sig .tc := ⟨.hbm, 217, rfl⟩
abbrev main_v167 : Ref sig .tc := ⟨.hbm, 218, rfl⟩
abbrev main_call3_cst : Ref sig .tc := ⟨.hbm, 219, rfl⟩
abbrev main_call3_v0 : Ref sig .tc := ⟨.hbm, 220, rfl⟩
abbrev main_v168 : Ref sig .tc := ⟨.hbm, 221, rfl⟩
abbrev main_c_11 : Ref sig .tc := ⟨.hbm, 222, rfl⟩
abbrev main_v169 : Ref sig .tc := ⟨.hbm, 223, rfl⟩
abbrev main_v170 : Ref sig .tc := ⟨.hbm, 224, rfl⟩
abbrev main_c_12 : Ref sig .tc := ⟨.hbm, 225, rfl⟩
abbrev main_v171 : Ref sig .tc := ⟨.hbm, 226, rfl⟩
abbrev main_v172 : Ref sig .tc := ⟨.hbm, 227, rfl⟩
abbrev main_v173 : Ref sig .tc := ⟨.hbm, 228, rfl⟩
abbrev main_v174 : Ref sig .tc := ⟨.hbm, 229, rfl⟩
abbrev main_v175 : Ref sig .tc := ⟨.hbm, 230, rfl⟩
abbrev main_v176 : Ref sig .tc := ⟨.hbm, 231, rfl⟩
abbrev main_c_13 : Ref sig .tc := ⟨.hbm, 232, rfl⟩
abbrev main_v177 : Ref sig .tc := ⟨.hbm, 233, rfl⟩
abbrev main_v178 : Ref sig .tc := ⟨.hbm, 234, rfl⟩
abbrev main_c_14 : Ref sig .tc := ⟨.hbm, 235, rfl⟩
abbrev main_v179 : Ref sig .tc := ⟨.hbm, 236, rfl⟩
abbrev main_v180 : Ref sig .tc := ⟨.hbm, 237, rfl⟩
abbrev main_v181 : Ref sig .tc := ⟨.hbm, 238, rfl⟩
abbrev main_v182 : Ref sig .tc := ⟨.hbm, 239, rfl⟩
abbrev main_v183 : Ref sig .tc := ⟨.hbm, 240, rfl⟩
abbrev main_cst_15 : Ref sig .tc := ⟨.hbm, 241, rfl⟩
abbrev main_v184 : Ref sig .tc := ⟨.hbm, 242, rfl⟩
abbrev main_v185 : Ref sig .tc := ⟨.hbm, 243, rfl⟩
abbrev main_v186 : Ref sig .tc := ⟨.hbm, 244, rfl⟩
abbrev main_v187 : Ref sig .tc := ⟨.hbm, 245, rfl⟩
abbrev main_v188 : Ref sig .tc := ⟨.hbm, 246, rfl⟩
abbrev main_cst_16 : Ref sig .tc := ⟨.hbm, 247, rfl⟩
abbrev main_v189 : Ref sig .tc := ⟨.hbm, 248, rfl⟩
abbrev main_v190 : Ref sig .tc := ⟨.hbm, 249, rfl⟩
abbrev main_v191 : Ref sig .tc := ⟨.hbm, 250, rfl⟩
abbrev main_v192 : Ref sig .tc := ⟨.hbm, 251, rfl⟩
abbrev main_v193 : Ref sig .tc := ⟨.hbm, 252, rfl⟩
abbrev main_v194 : Ref sig .tc := ⟨.hbm, 253, rfl⟩
abbrev main_v195 : Ref sig .tc := ⟨.hbm, 254, rfl⟩
abbrev main_v196 : Ref sig .tc := ⟨.hbm, 255, rfl⟩
abbrev main_v197 : Ref sig .tc := ⟨.hbm, 256, rfl⟩
abbrev main_v198 : Ref sig .tc := ⟨.hbm, 257, rfl⟩
abbrev main_v199 : Ref sig .tc := ⟨.hbm, 258, rfl⟩
abbrev main_v200 : Ref sig .tc := ⟨.hbm, 259, rfl⟩
abbrev main_v201 : Ref sig .tc := ⟨.hbm, 260, rfl⟩
abbrev main_v202 : Ref sig .tc := ⟨.hbm, 261, rfl⟩
abbrev main_v203 : Ref sig .tc := ⟨.hbm, 262, rfl⟩
abbrev main_v204 : Ref sig .tc := ⟨.hbm, 263, rfl⟩
abbrev main_v205 : Ref sig .tc := ⟨.hbm, 264, rfl⟩
abbrev main_v206 : Ref sig .tc := ⟨.hbm, 265, rfl⟩
abbrev main_v207 : Ref sig .tc := ⟨.hbm, 266, rfl⟩
abbrev main_v208 : Ref sig .tc := ⟨.hbm, 267, rfl⟩
abbrev main_v209 : Ref sig .tc := ⟨.hbm, 268, rfl⟩
abbrev main_v210 : Ref sig .tc := ⟨.hbm, 269, rfl⟩
abbrev main_v211 : Ref sig .tc := ⟨.hbm, 270, rfl⟩
abbrev main_v212 : Ref sig .tc := ⟨.hbm, 271, rfl⟩
abbrev main_v213 : Ref sig .tc := ⟨.hbm, 272, rfl⟩
abbrev main_v214 : Ref sig .tc := ⟨.hbm, 273, rfl⟩
abbrev main_cst_17 : Ref sig .tc := ⟨.hbm, 274, rfl⟩
abbrev main_v215 : Ref sig .tc := ⟨.hbm, 275, rfl⟩
abbrev main_v216 : Ref sig .tc := ⟨.hbm, 276, rfl⟩
abbrev main_v217 : Ref sig .tc := ⟨.hbm, 277, rfl⟩
abbrev main_v218 : Ref sig .tc := ⟨.hbm, 278, rfl⟩
abbrev main_v219 : Ref sig .tc := ⟨.hbm, 279, rfl⟩
abbrev main_v220 : Ref sig .tc := ⟨.hbm, 280, rfl⟩
abbrev main_v221 : Ref sig .tc := ⟨.hbm, 281, rfl⟩
abbrev main_v222 : Ref sig .tc := ⟨.hbm, 282, rfl⟩
abbrev main_v223 : Ref sig .tc := ⟨.hbm, 283, rfl⟩
abbrev main_call4_cst : Ref sig .tc := ⟨.hbm, 284, rfl⟩
abbrev main_call4_v0 : Ref sig .tc := ⟨.hbm, 285, rfl⟩
abbrev main_v224 : Ref sig .tc := ⟨.hbm, 286, rfl⟩
abbrev main_v225 : Ref sig .tc := ⟨.hbm, 287, rfl⟩
abbrev main_v226 : Ref sig .tc := ⟨.hbm, 288, rfl⟩
abbrev main_v227 : Ref sig .tc := ⟨.hbm, 289, rfl⟩
abbrev main_v228 : Ref sig .tc := ⟨.hbm, 290, rfl⟩
abbrev main_v229 : Ref sig .tc := ⟨.hbm, 291, rfl⟩
abbrev main_v230 : Ref sig .tc := ⟨.hbm, 292, rfl⟩
abbrev main_v231 : Ref sig .tc := ⟨.hbm, 293, rfl⟩
abbrev main_v232 : Ref sig .tc := ⟨.hbm, 294, rfl⟩
abbrev main_v233 : Ref sig .tc := ⟨.hbm, 295, rfl⟩
abbrev main_v234 : Ref sig .tc := ⟨.hbm, 296, rfl⟩
abbrev main_v235 : Ref sig .tc := ⟨.hbm, 297, rfl⟩
abbrev main_v236 : Ref sig .tc := ⟨.hbm, 298, rfl⟩
abbrev main_v237 : Ref sig .tc := ⟨.hbm, 299, rfl⟩
abbrev main_v238 : Ref sig .tc := ⟨.hbm, 300, rfl⟩
abbrev main_v239 : Ref sig .tc := ⟨.hbm, 301, rfl⟩
abbrev main_v240 : Ref sig .tc := ⟨.hbm, 302, rfl⟩
abbrev main_v241 : Ref sig .tc := ⟨.hbm, 303, rfl⟩
abbrev main_v242 : Ref sig .tc := ⟨.hbm, 304, rfl⟩
abbrev main_v243 : Ref sig .tc := ⟨.hbm, 305, rfl⟩
abbrev main_v244 : Ref sig .tc := ⟨.hbm, 306, rfl⟩
abbrev main_v245 : Ref sig .tc := ⟨.hbm, 307, rfl⟩
abbrev main_v246 : Ref sig .tc := ⟨.hbm, 308, rfl⟩
abbrev main_cst_18 : Ref sig .tc := ⟨.hbm, 309, rfl⟩
abbrev main_v247 : Ref sig .tc := ⟨.hbm, 310, rfl⟩
abbrev main_v248 : Ref sig .tc := ⟨.hbm, 311, rfl⟩
abbrev main_v249 : Ref sig .tc := ⟨.hbm, 312, rfl⟩
abbrev main_v250 : Ref sig .tc := ⟨.hbm, 313, rfl⟩
abbrev main_v251 : Ref sig .tc := ⟨.hbm, 314, rfl⟩
abbrev main_v252 : Ref sig .tc := ⟨.hbm, 315, rfl⟩
abbrev main_v253 : Ref sig .tc := ⟨.hbm, 316, rfl⟩
abbrev main_v254 : Ref sig .tc := ⟨.hbm, 317, rfl⟩
abbrev main_v255 : Ref sig .tc := ⟨.hbm, 318, rfl⟩
abbrev main_call5_cst : Ref sig .tc := ⟨.hbm, 319, rfl⟩
abbrev main_call5_v0 : Ref sig .tc := ⟨.hbm, 320, rfl⟩
abbrev main_v256 : Ref sig .tc := ⟨.hbm, 321, rfl⟩
abbrev main_cst_19 : Ref sig .tc := ⟨.hbm, 322, rfl⟩
abbrev main_v257 : Ref sig .tc := ⟨.hbm, 323, rfl⟩
abbrev main_v258 : Ref sig .tc := ⟨.hbm, 324, rfl⟩
abbrev main_v259 : Ref sig .tc := ⟨.hbm, 325, rfl⟩
abbrev main_v260 : Ref sig .tc := ⟨.hbm, 326, rfl⟩
abbrev main_v261 : Ref sig .tc := ⟨.hbm, 327, rfl⟩
abbrev main_v262 : Ref sig .tc := ⟨.hbm, 328, rfl⟩
abbrev main_v263 : Ref sig .tc := ⟨.hbm, 329, rfl⟩
abbrev main_v264 : Ref sig .tc := ⟨.hbm, 330, rfl⟩
abbrev main_v265 : Ref sig .tc := ⟨.hbm, 331, rfl⟩
abbrev main_v266 : Ref sig .tc := ⟨.hbm, 332, rfl⟩
abbrev main_v267 : Ref sig .tc := ⟨.hbm, 333, rfl⟩
abbrev main_v268 : Ref sig .tc := ⟨.hbm, 334, rfl⟩
abbrev main_v269 : Ref sig .tc := ⟨.hbm, 335, rfl⟩
abbrev main_v270 : Ref sig .tc := ⟨.hbm, 336, rfl⟩
abbrev main_v271 : Ref sig .tc := ⟨.hbm, 337, rfl⟩
abbrev main_v272 : Ref sig .tc := ⟨.hbm, 338, rfl⟩
abbrev main_v273 : Ref sig .tc := ⟨.hbm, 339, rfl⟩
abbrev main_v274 : Ref sig .tc := ⟨.hbm, 340, rfl⟩
abbrev main_v275 : Ref sig .tc := ⟨.hbm, 341, rfl⟩
abbrev main_v276 : Ref sig .tc := ⟨.hbm, 342, rfl⟩
abbrev main_v277 : Ref sig .tc := ⟨.hbm, 343, rfl⟩
abbrev main_v278 : Ref sig .tc := ⟨.hbm, 344, rfl⟩
abbrev main_v279 : Ref sig .tc := ⟨.hbm, 345, rfl⟩
abbrev main_v280 : Ref sig .tc := ⟨.hbm, 346, rfl⟩
abbrev main_v281 : Ref sig .tc := ⟨.hbm, 347, rfl⟩
abbrev main_v282 : Ref sig .tc := ⟨.hbm, 348, rfl⟩
abbrev main_cst_20 : Ref sig .tc := ⟨.hbm, 349, rfl⟩
abbrev main_v283 : Ref sig .tc := ⟨.hbm, 350, rfl⟩
abbrev main_v284 : Ref sig .tc := ⟨.hbm, 351, rfl⟩
abbrev main_v285 : Ref sig .tc := ⟨.hbm, 352, rfl⟩
abbrev main_v286 : Ref sig .tc := ⟨.hbm, 353, rfl⟩
abbrev main_v287 : Ref sig .tc := ⟨.hbm, 354, rfl⟩
abbrev main_v288 : Ref sig .tc := ⟨.hbm, 355, rfl⟩
abbrev main_v289 : Ref sig .tc := ⟨.hbm, 356, rfl⟩
abbrev main_v290 : Ref sig .tc := ⟨.hbm, 357, rfl⟩
abbrev main_v291 : Ref sig .tc := ⟨.hbm, 358, rfl⟩
abbrev main_call6_cst : Ref sig .tc := ⟨.hbm, 359, rfl⟩
abbrev main_call6_v0 : Ref sig .tc := ⟨.hbm, 360, rfl⟩
abbrev main_v292 : Ref sig .tc := ⟨.hbm, 361, rfl⟩
abbrev main_v293 : Ref sig .tc := ⟨.hbm, 362, rfl⟩
abbrev main_v294 : Ref sig .tc := ⟨.hbm, 363, rfl⟩
abbrev main_v295 : Ref sig .tc := ⟨.hbm, 364, rfl⟩
abbrev main_v296 : Ref sig .tc := ⟨.hbm, 365, rfl⟩
abbrev main_v297 : Ref sig .tc := ⟨.hbm, 366, rfl⟩
abbrev main_v298 : Ref sig .tc := ⟨.hbm, 367, rfl⟩
abbrev main_v299 : Ref sig .tc := ⟨.hbm, 368, rfl⟩
abbrev main_v300 : Ref sig .tc := ⟨.hbm, 369, rfl⟩
abbrev main_v301 : Ref sig .tc := ⟨.hbm, 370, rfl⟩
abbrev main_v302 : Ref sig .tc := ⟨.hbm, 371, rfl⟩
abbrev main_v303 : Ref sig .tc := ⟨.hbm, 372, rfl⟩
abbrev main_v304 : Ref sig .tc := ⟨.hbm, 373, rfl⟩
abbrev main_v305 : Ref sig .tc := ⟨.hbm, 374, rfl⟩
abbrev main_v306 : Ref sig .tc := ⟨.hbm, 375, rfl⟩
abbrev main_v307 : Ref sig .tc := ⟨.hbm, 376, rfl⟩
abbrev main_v308 : Ref sig .tc := ⟨.hbm, 377, rfl⟩
abbrev main_v309 : Ref sig .tc := ⟨.hbm, 378, rfl⟩
abbrev main_v310 : Ref sig .tc := ⟨.hbm, 379, rfl⟩
abbrev main_v311 : Ref sig .tc := ⟨.hbm, 380, rfl⟩
abbrev main_v312 : Ref sig .tc := ⟨.hbm, 381, rfl⟩
abbrev main_v313 : Ref sig .tc := ⟨.hbm, 382, rfl⟩
abbrev main_v314 : Ref sig .tc := ⟨.hbm, 383, rfl⟩
abbrev main_cst_21 : Ref sig .tc := ⟨.hbm, 384, rfl⟩
abbrev main_v315 : Ref sig .tc := ⟨.hbm, 385, rfl⟩
abbrev main_v316 : Ref sig .tc := ⟨.hbm, 386, rfl⟩
abbrev main_v317 : Ref sig .tc := ⟨.hbm, 387, rfl⟩
abbrev main_v318 : Ref sig .tc := ⟨.hbm, 388, rfl⟩
abbrev main_v319 : Ref sig .tc := ⟨.hbm, 389, rfl⟩
abbrev main_v320 : Ref sig .tc := ⟨.hbm, 390, rfl⟩
abbrev main_v321 : Ref sig .tc := ⟨.hbm, 391, rfl⟩
abbrev main_v322 : Ref sig .tc := ⟨.hbm, 392, rfl⟩
abbrev main_v323 : Ref sig .tc := ⟨.hbm, 393, rfl⟩
abbrev main_call7_cst : Ref sig .tc := ⟨.hbm, 394, rfl⟩
abbrev main_call7_v0 : Ref sig .tc := ⟨.hbm, 395, rfl⟩
abbrev main_v324 : Ref sig .tc := ⟨.hbm, 396, rfl⟩
abbrev main_c_22 : Ref sig .tc := ⟨.hbm, 397, rfl⟩
abbrev main_v325 : Ref sig .tc := ⟨.hbm, 398, rfl⟩
abbrev main_v326 : Ref sig .tc := ⟨.hbm, 399, rfl⟩
abbrev main_c_23 : Ref sig .tc := ⟨.hbm, 400, rfl⟩
abbrev main_v327 : Ref sig .tc := ⟨.hbm, 401, rfl⟩
abbrev main_v328 : Ref sig .tc := ⟨.hbm, 402, rfl⟩
abbrev main_v329 : Ref sig .tc := ⟨.hbm, 403, rfl⟩
abbrev main_v330 : Ref sig .tc := ⟨.hbm, 404, rfl⟩
abbrev main_v331 : Ref sig .tc := ⟨.hbm, 405, rfl⟩
abbrev main_v332 : Ref sig .tc := ⟨.hbm, 406, rfl⟩
abbrev main_c_24 : Ref sig .tc := ⟨.hbm, 407, rfl⟩
abbrev main_v333 : Ref sig .tc := ⟨.hbm, 408, rfl⟩
abbrev main_v334 : Ref sig .tc := ⟨.hbm, 409, rfl⟩
abbrev main_c_25 : Ref sig .tc := ⟨.hbm, 410, rfl⟩
abbrev main_v335 : Ref sig .tc := ⟨.hbm, 411, rfl⟩
abbrev main_v336 : Ref sig .tc := ⟨.hbm, 412, rfl⟩
abbrev main_v337 : Ref sig .tc := ⟨.hbm, 413, rfl⟩
abbrev main_v338 : Ref sig .tc := ⟨.hbm, 414, rfl⟩
abbrev main_v339 : Ref sig .tc := ⟨.hbm, 415, rfl⟩
abbrev main_cst_26 : Ref sig .tc := ⟨.hbm, 416, rfl⟩
abbrev main_v340 : Ref sig .tc := ⟨.hbm, 417, rfl⟩
abbrev main_v341 : Ref sig .tc := ⟨.hbm, 418, rfl⟩
abbrev main_v342 : Ref sig .tc := ⟨.hbm, 419, rfl⟩
abbrev main_v343 : Ref sig .tc := ⟨.hbm, 420, rfl⟩
abbrev main_v344 : Ref sig .tc := ⟨.hbm, 421, rfl⟩
abbrev main_cst_27 : Ref sig .tc := ⟨.hbm, 422, rfl⟩
abbrev main_v345 : Ref sig .tc := ⟨.hbm, 423, rfl⟩
abbrev main_v346 : Ref sig .tc := ⟨.hbm, 424, rfl⟩
abbrev main_v347 : Ref sig .tc := ⟨.hbm, 425, rfl⟩
abbrev main_v348 : Ref sig .tc := ⟨.hbm, 426, rfl⟩
abbrev main_v349 : Ref sig .tc := ⟨.hbm, 427, rfl⟩
abbrev main_v350 : Ref sig .tc := ⟨.hbm, 428, rfl⟩
abbrev main_v351 : Ref sig .tc := ⟨.hbm, 429, rfl⟩
abbrev main_v352 : Ref sig .tc := ⟨.hbm, 430, rfl⟩
abbrev main_v353 : Ref sig .tc := ⟨.hbm, 431, rfl⟩
abbrev main_v354 : Ref sig .tc := ⟨.hbm, 432, rfl⟩
abbrev main_v355 : Ref sig .tc := ⟨.hbm, 433, rfl⟩
abbrev main_v356 : Ref sig .tc := ⟨.hbm, 434, rfl⟩
abbrev main_v357 : Ref sig .tc := ⟨.hbm, 435, rfl⟩
abbrev main_v358 : Ref sig .tc := ⟨.hbm, 436, rfl⟩
abbrev main_v359 : Ref sig .tc := ⟨.hbm, 437, rfl⟩
abbrev main_v360 : Ref sig .tc := ⟨.hbm, 438, rfl⟩
abbrev main_v361 : Ref sig .tc := ⟨.hbm, 439, rfl⟩
abbrev main_v362 : Ref sig .tc := ⟨.hbm, 440, rfl⟩
abbrev main_v363 : Ref sig .tc := ⟨.hbm, 441, rfl⟩
abbrev main_v364 : Ref sig .tc := ⟨.hbm, 442, rfl⟩
abbrev main_v365 : Ref sig .tc := ⟨.hbm, 443, rfl⟩
abbrev main_v366 : Ref sig .tc := ⟨.hbm, 444, rfl⟩
abbrev main_v367 : Ref sig .tc := ⟨.hbm, 445, rfl⟩
abbrev main_v368 : Ref sig .tc := ⟨.hbm, 446, rfl⟩
abbrev main_v369 : Ref sig .tc := ⟨.hbm, 447, rfl⟩
abbrev main_v370 : Ref sig .tc := ⟨.hbm, 448, rfl⟩
abbrev main_cst_28 : Ref sig .tc := ⟨.hbm, 449, rfl⟩
abbrev main_v371 : Ref sig .tc := ⟨.hbm, 450, rfl⟩
abbrev main_v372 : Ref sig .tc := ⟨.hbm, 451, rfl⟩
abbrev main_v373 : Ref sig .tc := ⟨.hbm, 452, rfl⟩
abbrev main_v374 : Ref sig .tc := ⟨.hbm, 453, rfl⟩
abbrev main_v375 : Ref sig .tc := ⟨.hbm, 454, rfl⟩
abbrev main_v376 : Ref sig .tc := ⟨.hbm, 455, rfl⟩
abbrev main_v377 : Ref sig .tc := ⟨.hbm, 456, rfl⟩
abbrev main_v378 : Ref sig .tc := ⟨.hbm, 457, rfl⟩
abbrev main_v379 : Ref sig .tc := ⟨.hbm, 458, rfl⟩
abbrev main_call8_cst : Ref sig .tc := ⟨.hbm, 459, rfl⟩
abbrev main_call8_v0 : Ref sig .tc := ⟨.hbm, 460, rfl⟩
abbrev main_v380 : Ref sig .tc := ⟨.hbm, 461, rfl⟩
abbrev main_v381 : Ref sig .tc := ⟨.hbm, 462, rfl⟩
abbrev main_v382 : Ref sig .tc := ⟨.hbm, 463, rfl⟩
abbrev main_v383 : Ref sig .tc := ⟨.hbm, 464, rfl⟩
abbrev main_v384 : Ref sig .tc := ⟨.hbm, 465, rfl⟩
abbrev main_v385 : Ref sig .tc := ⟨.hbm, 466, rfl⟩
abbrev main_v386 : Ref sig .tc := ⟨.hbm, 467, rfl⟩
abbrev main_v387 : Ref sig .tc := ⟨.hbm, 468, rfl⟩
abbrev main_v388 : Ref sig .tc := ⟨.hbm, 469, rfl⟩
abbrev main_v389 : Ref sig .tc := ⟨.hbm, 470, rfl⟩
abbrev main_v390 : Ref sig .tc := ⟨.hbm, 471, rfl⟩
abbrev main_v391 : Ref sig .tc := ⟨.hbm, 472, rfl⟩
abbrev main_v392 : Ref sig .tc := ⟨.hbm, 473, rfl⟩
abbrev main_v393 : Ref sig .tc := ⟨.hbm, 474, rfl⟩
abbrev main_v394 : Ref sig .tc := ⟨.hbm, 475, rfl⟩
abbrev main_v395 : Ref sig .tc := ⟨.hbm, 476, rfl⟩
abbrev main_v396 : Ref sig .tc := ⟨.hbm, 477, rfl⟩
abbrev main_v397 : Ref sig .tc := ⟨.hbm, 478, rfl⟩
abbrev main_v398 : Ref sig .tc := ⟨.hbm, 479, rfl⟩
abbrev main_v399 : Ref sig .tc := ⟨.hbm, 480, rfl⟩
abbrev main_v400 : Ref sig .tc := ⟨.hbm, 481, rfl⟩
abbrev main_v401 : Ref sig .tc := ⟨.hbm, 482, rfl⟩
abbrev main_v402 : Ref sig .tc := ⟨.hbm, 483, rfl⟩
abbrev main_cst_29 : Ref sig .tc := ⟨.hbm, 484, rfl⟩
abbrev main_v403 : Ref sig .tc := ⟨.hbm, 485, rfl⟩
abbrev main_v404 : Ref sig .tc := ⟨.hbm, 486, rfl⟩
abbrev main_v405 : Ref sig .tc := ⟨.hbm, 487, rfl⟩
abbrev main_v406 : Ref sig .tc := ⟨.hbm, 488, rfl⟩
abbrev main_v407 : Ref sig .tc := ⟨.hbm, 489, rfl⟩
abbrev main_v408 : Ref sig .tc := ⟨.hbm, 490, rfl⟩
abbrev main_v409 : Ref sig .tc := ⟨.hbm, 491, rfl⟩
abbrev main_v410 : Ref sig .tc := ⟨.hbm, 492, rfl⟩
abbrev main_v411 : Ref sig .tc := ⟨.hbm, 493, rfl⟩
abbrev main_call9_cst : Ref sig .tc := ⟨.hbm, 494, rfl⟩
abbrev main_call9_v0 : Ref sig .tc := ⟨.hbm, 495, rfl⟩
abbrev main_v412 : Ref sig .tc := ⟨.hbm, 496, rfl⟩
abbrev main_cst_30 : Ref sig .tc := ⟨.hbm, 497, rfl⟩
abbrev main_v413 : Ref sig .tc := ⟨.hbm, 498, rfl⟩
abbrev main_v414 : Ref sig .tc := ⟨.hbm, 499, rfl⟩
abbrev main_v415 : Ref sig .tc := ⟨.hbm, 500, rfl⟩
abbrev main_v416 : Ref sig .tc := ⟨.hbm, 501, rfl⟩
abbrev main_v417 : Ref sig .tc := ⟨.hbm, 502, rfl⟩
abbrev main_v418 : Ref sig .tc := ⟨.hbm, 503, rfl⟩
abbrev main_v419 : Ref sig .tc := ⟨.hbm, 504, rfl⟩
abbrev main_v420 : Ref sig .tc := ⟨.hbm, 505, rfl⟩
abbrev main_v421 : Ref sig .tc := ⟨.hbm, 506, rfl⟩
abbrev main_v422 : Ref sig .tc := ⟨.hbm, 507, rfl⟩
abbrev main_v423 : Ref sig .tc := ⟨.hbm, 508, rfl⟩
abbrev main_v424 : Ref sig .tc := ⟨.hbm, 509, rfl⟩
abbrev main_v425 : Ref sig .tc := ⟨.hbm, 510, rfl⟩
abbrev main_v426 : Ref sig .tc := ⟨.hbm, 511, rfl⟩
abbrev main_v427 : Ref sig .tc := ⟨.hbm, 512, rfl⟩
abbrev main_v428 : Ref sig .tc := ⟨.hbm, 513, rfl⟩
abbrev main_v429 : Ref sig .tc := ⟨.hbm, 514, rfl⟩
abbrev main_v430 : Ref sig .tc := ⟨.hbm, 515, rfl⟩
abbrev main_v431 : Ref sig .tc := ⟨.hbm, 516, rfl⟩
abbrev main_v432 : Ref sig .tc := ⟨.hbm, 517, rfl⟩
abbrev main_v433 : Ref sig .tc := ⟨.hbm, 518, rfl⟩
abbrev main_v434 : Ref sig .tc := ⟨.hbm, 519, rfl⟩
abbrev main_v435 : Ref sig .tc := ⟨.hbm, 520, rfl⟩
abbrev main_v436 : Ref sig .tc := ⟨.hbm, 521, rfl⟩
abbrev main_v437 : Ref sig .tc := ⟨.hbm, 522, rfl⟩
abbrev main_v438 : Ref sig .tc := ⟨.hbm, 523, rfl⟩
abbrev main_cst_31 : Ref sig .tc := ⟨.hbm, 524, rfl⟩
abbrev main_v439 : Ref sig .tc := ⟨.hbm, 525, rfl⟩
abbrev main_v440 : Ref sig .tc := ⟨.hbm, 526, rfl⟩
abbrev main_v441 : Ref sig .tc := ⟨.hbm, 527, rfl⟩
abbrev main_v442 : Ref sig .tc := ⟨.hbm, 528, rfl⟩
abbrev main_v443 : Ref sig .tc := ⟨.hbm, 529, rfl⟩
abbrev main_v444 : Ref sig .tc := ⟨.hbm, 530, rfl⟩
abbrev main_v445 : Ref sig .tc := ⟨.hbm, 531, rfl⟩
abbrev main_v446 : Ref sig .tc := ⟨.hbm, 532, rfl⟩
abbrev main_v447 : Ref sig .tc := ⟨.hbm, 533, rfl⟩
abbrev main_call10_cst : Ref sig .tc := ⟨.hbm, 534, rfl⟩
abbrev main_call10_v0 : Ref sig .tc := ⟨.hbm, 535, rfl⟩
abbrev main_v448 : Ref sig .tc := ⟨.hbm, 536, rfl⟩
abbrev main_v449 : Ref sig .tc := ⟨.hbm, 537, rfl⟩
abbrev main_v450 : Ref sig .tc := ⟨.hbm, 538, rfl⟩
abbrev main_v451 : Ref sig .tc := ⟨.hbm, 539, rfl⟩
abbrev main_v452 : Ref sig .tc := ⟨.hbm, 540, rfl⟩
abbrev main_v453 : Ref sig .tc := ⟨.hbm, 541, rfl⟩
abbrev main_v454 : Ref sig .tc := ⟨.hbm, 542, rfl⟩
abbrev main_v455 : Ref sig .tc := ⟨.hbm, 543, rfl⟩
abbrev main_v456 : Ref sig .tc := ⟨.hbm, 544, rfl⟩
abbrev main_v457 : Ref sig .tc := ⟨.hbm, 545, rfl⟩
abbrev main_v458 : Ref sig .tc := ⟨.hbm, 546, rfl⟩
abbrev main_v459 : Ref sig .tc := ⟨.hbm, 547, rfl⟩
abbrev main_v460 : Ref sig .tc := ⟨.hbm, 548, rfl⟩
abbrev main_v461 : Ref sig .tc := ⟨.hbm, 549, rfl⟩
abbrev main_v462 : Ref sig .tc := ⟨.hbm, 550, rfl⟩
abbrev main_v463 : Ref sig .tc := ⟨.hbm, 551, rfl⟩
abbrev main_v464 : Ref sig .tc := ⟨.hbm, 552, rfl⟩
abbrev main_v465 : Ref sig .tc := ⟨.hbm, 553, rfl⟩
abbrev main_v466 : Ref sig .tc := ⟨.hbm, 554, rfl⟩
abbrev main_v467 : Ref sig .tc := ⟨.hbm, 555, rfl⟩
abbrev main_v468 : Ref sig .tc := ⟨.hbm, 556, rfl⟩
abbrev main_v469 : Ref sig .tc := ⟨.hbm, 557, rfl⟩
abbrev main_v470 : Ref sig .tc := ⟨.hbm, 558, rfl⟩
abbrev main_cst_32 : Ref sig .tc := ⟨.hbm, 559, rfl⟩
abbrev main_v471 : Ref sig .tc := ⟨.hbm, 560, rfl⟩
abbrev main_v472 : Ref sig .tc := ⟨.hbm, 561, rfl⟩
abbrev main_v473 : Ref sig .tc := ⟨.hbm, 562, rfl⟩
abbrev main_v474 : Ref sig .tc := ⟨.hbm, 563, rfl⟩
abbrev main_v475 : Ref sig .tc := ⟨.hbm, 564, rfl⟩
abbrev main_v476 : Ref sig .tc := ⟨.hbm, 565, rfl⟩
abbrev main_v477 : Ref sig .tc := ⟨.hbm, 566, rfl⟩
abbrev main_v478 : Ref sig .tc := ⟨.hbm, 567, rfl⟩
abbrev main_v479 : Ref sig .tc := ⟨.hbm, 568, rfl⟩
abbrev main_call11_cst : Ref sig .tc := ⟨.hbm, 569, rfl⟩
abbrev main_call11_v0 : Ref sig .tc := ⟨.hbm, 570, rfl⟩
abbrev main_v480 : Ref sig .tc := ⟨.hbm, 571, rfl⟩
abbrev main_c_33 : Ref sig .tc := ⟨.hbm, 572, rfl⟩
abbrev main_v481 : Ref sig .tc := ⟨.hbm, 573, rfl⟩
abbrev main_v482 : Ref sig .tc := ⟨.hbm, 574, rfl⟩
abbrev main_c_34 : Ref sig .tc := ⟨.hbm, 575, rfl⟩
abbrev main_v483 : Ref sig .tc := ⟨.hbm, 576, rfl⟩
abbrev main_v484 : Ref sig .tc := ⟨.hbm, 577, rfl⟩
abbrev main_v485 : Ref sig .tc := ⟨.hbm, 578, rfl⟩
abbrev main_v486 : Ref sig .tc := ⟨.hbm, 579, rfl⟩
abbrev main_v487 : Ref sig .tc := ⟨.hbm, 580, rfl⟩
abbrev main_v488 : Ref sig .tc := ⟨.hbm, 581, rfl⟩
abbrev main_c_35 : Ref sig .tc := ⟨.hbm, 582, rfl⟩
abbrev main_v489 : Ref sig .tc := ⟨.hbm, 583, rfl⟩
abbrev main_v490 : Ref sig .tc := ⟨.hbm, 584, rfl⟩
abbrev main_c_36 : Ref sig .tc := ⟨.hbm, 585, rfl⟩
abbrev main_v491 : Ref sig .tc := ⟨.hbm, 586, rfl⟩
abbrev main_v492 : Ref sig .tc := ⟨.hbm, 587, rfl⟩
abbrev main_v493 : Ref sig .tc := ⟨.hbm, 588, rfl⟩
abbrev main_v494 : Ref sig .tc := ⟨.hbm, 589, rfl⟩
abbrev main_v495 : Ref sig .tc := ⟨.hbm, 590, rfl⟩
abbrev main_cst_37 : Ref sig .tc := ⟨.hbm, 591, rfl⟩
abbrev main_v496 : Ref sig .tc := ⟨.hbm, 592, rfl⟩
abbrev main_v497 : Ref sig .tc := ⟨.hbm, 593, rfl⟩
abbrev main_v498 : Ref sig .tc := ⟨.hbm, 594, rfl⟩
abbrev main_v499 : Ref sig .tc := ⟨.hbm, 595, rfl⟩
abbrev main_v500 : Ref sig .tc := ⟨.hbm, 596, rfl⟩
abbrev main_cst_38 : Ref sig .tc := ⟨.hbm, 597, rfl⟩
abbrev main_v501 : Ref sig .tc := ⟨.hbm, 598, rfl⟩
abbrev main_v502 : Ref sig .tc := ⟨.hbm, 599, rfl⟩
abbrev main_v503 : Ref sig .tc := ⟨.hbm, 600, rfl⟩
abbrev main_v504 : Ref sig .tc := ⟨.hbm, 601, rfl⟩
abbrev main_v505 : Ref sig .tc := ⟨.hbm, 602, rfl⟩
abbrev main_v506 : Ref sig .tc := ⟨.hbm, 603, rfl⟩
abbrev main_v507 : Ref sig .tc := ⟨.hbm, 604, rfl⟩
abbrev main_v508 : Ref sig .tc := ⟨.hbm, 605, rfl⟩
abbrev main_v509 : Ref sig .tc := ⟨.hbm, 606, rfl⟩
abbrev main_v510 : Ref sig .tc := ⟨.hbm, 607, rfl⟩
abbrev main_v511 : Ref sig .tc := ⟨.hbm, 608, rfl⟩
abbrev main_v512 : Ref sig .tc := ⟨.hbm, 609, rfl⟩
abbrev main_v513 : Ref sig .tc := ⟨.hbm, 610, rfl⟩
abbrev main_v514 : Ref sig .tc := ⟨.hbm, 611, rfl⟩
abbrev main_v515 : Ref sig .tc := ⟨.hbm, 612, rfl⟩
abbrev main_v516 : Ref sig .tc := ⟨.hbm, 613, rfl⟩
abbrev main_v517 : Ref sig .tc := ⟨.hbm, 614, rfl⟩
abbrev main_v518 : Ref sig .tc := ⟨.hbm, 615, rfl⟩
abbrev main_v519 : Ref sig .tc := ⟨.hbm, 616, rfl⟩
abbrev main_v520 : Ref sig .tc := ⟨.hbm, 617, rfl⟩
abbrev main_v521 : Ref sig .tc := ⟨.hbm, 618, rfl⟩
abbrev main_v522 : Ref sig .tc := ⟨.hbm, 619, rfl⟩
abbrev main_v523 : Ref sig .tc := ⟨.hbm, 620, rfl⟩
abbrev main_v524 : Ref sig .tc := ⟨.hbm, 621, rfl⟩
abbrev main_v525 : Ref sig .tc := ⟨.hbm, 622, rfl⟩
abbrev main_v526 : Ref sig .tc := ⟨.hbm, 623, rfl⟩
abbrev main_cst_39 : Ref sig .tc := ⟨.hbm, 624, rfl⟩
abbrev main_v527 : Ref sig .tc := ⟨.hbm, 625, rfl⟩
abbrev main_v528 : Ref sig .tc := ⟨.hbm, 626, rfl⟩
abbrev main_v529 : Ref sig .tc := ⟨.hbm, 627, rfl⟩
abbrev main_v530 : Ref sig .tc := ⟨.hbm, 628, rfl⟩
abbrev main_v531 : Ref sig .tc := ⟨.hbm, 629, rfl⟩
abbrev main_v532 : Ref sig .tc := ⟨.hbm, 630, rfl⟩
abbrev main_v533 : Ref sig .tc := ⟨.hbm, 631, rfl⟩
abbrev main_v534 : Ref sig .tc := ⟨.hbm, 632, rfl⟩
abbrev main_v535 : Ref sig .tc := ⟨.hbm, 633, rfl⟩
abbrev main_call12_cst : Ref sig .tc := ⟨.hbm, 634, rfl⟩
abbrev main_call12_v0 : Ref sig .tc := ⟨.hbm, 635, rfl⟩
abbrev main_v536 : Ref sig .tc := ⟨.hbm, 636, rfl⟩
abbrev main_v537 : Ref sig .tc := ⟨.hbm, 637, rfl⟩
abbrev main_v538 : Ref sig .tc := ⟨.hbm, 638, rfl⟩
abbrev main_v539 : Ref sig .tc := ⟨.hbm, 639, rfl⟩
abbrev main_v540 : Ref sig .tc := ⟨.hbm, 640, rfl⟩
abbrev main_v541 : Ref sig .tc := ⟨.hbm, 641, rfl⟩
abbrev main_v542 : Ref sig .tc := ⟨.hbm, 642, rfl⟩
abbrev main_v543 : Ref sig .tc := ⟨.hbm, 643, rfl⟩
abbrev main_v544 : Ref sig .tc := ⟨.hbm, 644, rfl⟩
abbrev main_v545 : Ref sig .tc := ⟨.hbm, 645, rfl⟩
abbrev main_v546 : Ref sig .tc := ⟨.hbm, 646, rfl⟩
abbrev main_v547 : Ref sig .tc := ⟨.hbm, 647, rfl⟩
abbrev main_v548 : Ref sig .tc := ⟨.hbm, 648, rfl⟩
abbrev main_v549 : Ref sig .tc := ⟨.hbm, 649, rfl⟩
abbrev main_v550 : Ref sig .tc := ⟨.hbm, 650, rfl⟩
abbrev main_v551 : Ref sig .tc := ⟨.hbm, 651, rfl⟩
abbrev main_v552 : Ref sig .tc := ⟨.hbm, 652, rfl⟩
abbrev main_v553 : Ref sig .tc := ⟨.hbm, 653, rfl⟩
abbrev main_v554 : Ref sig .tc := ⟨.hbm, 654, rfl⟩
abbrev main_v555 : Ref sig .tc := ⟨.hbm, 655, rfl⟩
abbrev main_v556 : Ref sig .tc := ⟨.hbm, 656, rfl⟩
abbrev main_v557 : Ref sig .tc := ⟨.hbm, 657, rfl⟩
abbrev main_v558 : Ref sig .tc := ⟨.hbm, 658, rfl⟩
abbrev main_cst_40 : Ref sig .tc := ⟨.hbm, 659, rfl⟩
abbrev main_v559 : Ref sig .tc := ⟨.hbm, 660, rfl⟩
abbrev main_v560 : Ref sig .tc := ⟨.hbm, 661, rfl⟩
abbrev main_v561 : Ref sig .tc := ⟨.hbm, 662, rfl⟩
abbrev main_v562 : Ref sig .tc := ⟨.hbm, 663, rfl⟩
abbrev main_v563 : Ref sig .tc := ⟨.hbm, 664, rfl⟩
abbrev main_v564 : Ref sig .tc := ⟨.hbm, 665, rfl⟩
abbrev main_v565 : Ref sig .tc := ⟨.hbm, 666, rfl⟩
abbrev main_v566 : Ref sig .tc := ⟨.hbm, 667, rfl⟩
abbrev main_v567 : Ref sig .tc := ⟨.hbm, 668, rfl⟩
abbrev main_call13_cst : Ref sig .tc := ⟨.hbm, 669, rfl⟩
abbrev main_call13_v0 : Ref sig .tc := ⟨.hbm, 670, rfl⟩
abbrev main_v568 : Ref sig .tc := ⟨.hbm, 671, rfl⟩
abbrev main_cst_41 : Ref sig .tc := ⟨.hbm, 672, rfl⟩
abbrev main_v569 : Ref sig .tc := ⟨.hbm, 673, rfl⟩
abbrev main_v570 : Ref sig .tc := ⟨.hbm, 674, rfl⟩
abbrev main_v571 : Ref sig .tc := ⟨.hbm, 675, rfl⟩
abbrev main_v572 : Ref sig .tc := ⟨.hbm, 676, rfl⟩
abbrev main_v573 : Ref sig .tc := ⟨.hbm, 677, rfl⟩
abbrev main_v574 : Ref sig .tc := ⟨.hbm, 678, rfl⟩
abbrev main_v575 : Ref sig .tc := ⟨.hbm, 679, rfl⟩
abbrev main_v576 : Ref sig .tc := ⟨.hbm, 680, rfl⟩
abbrev main_v577 : Ref sig .tc := ⟨.hbm, 681, rfl⟩
abbrev main_v578 : Ref sig .tc := ⟨.hbm, 682, rfl⟩
abbrev main_v579 : Ref sig .tc := ⟨.hbm, 683, rfl⟩
abbrev main_v580 : Ref sig .tc := ⟨.hbm, 684, rfl⟩
abbrev main_v581 : Ref sig .tc := ⟨.hbm, 685, rfl⟩
abbrev main_v582 : Ref sig .tc := ⟨.hbm, 686, rfl⟩
abbrev main_v583 : Ref sig .tc := ⟨.hbm, 687, rfl⟩
abbrev main_v584 : Ref sig .tc := ⟨.hbm, 688, rfl⟩
abbrev main_v585 : Ref sig .tc := ⟨.hbm, 689, rfl⟩
abbrev main_v586 : Ref sig .tc := ⟨.hbm, 690, rfl⟩
abbrev main_v587 : Ref sig .tc := ⟨.hbm, 691, rfl⟩
abbrev main_v588 : Ref sig .tc := ⟨.hbm, 692, rfl⟩
abbrev main_v589 : Ref sig .tc := ⟨.hbm, 693, rfl⟩
abbrev main_v590 : Ref sig .tc := ⟨.hbm, 694, rfl⟩
abbrev main_v591 : Ref sig .tc := ⟨.hbm, 695, rfl⟩
abbrev main_v592 : Ref sig .tc := ⟨.hbm, 696, rfl⟩
abbrev main_v593 : Ref sig .tc := ⟨.hbm, 697, rfl⟩
abbrev main_v594 : Ref sig .tc := ⟨.hbm, 698, rfl⟩
abbrev main_cst_42 : Ref sig .tc := ⟨.hbm, 699, rfl⟩
abbrev main_v595 : Ref sig .tc := ⟨.hbm, 700, rfl⟩
abbrev main_v596 : Ref sig .tc := ⟨.hbm, 701, rfl⟩
abbrev main_v597 : Ref sig .tc := ⟨.hbm, 702, rfl⟩
abbrev main_v598 : Ref sig .tc := ⟨.hbm, 703, rfl⟩
abbrev main_v599 : Ref sig .tc := ⟨.hbm, 704, rfl⟩
abbrev main_v600 : Ref sig .tc := ⟨.hbm, 705, rfl⟩
abbrev main_v601 : Ref sig .tc := ⟨.hbm, 706, rfl⟩
abbrev main_v602 : Ref sig .tc := ⟨.hbm, 707, rfl⟩
abbrev main_v603 : Ref sig .tc := ⟨.hbm, 708, rfl⟩
abbrev main_call14_cst : Ref sig .tc := ⟨.hbm, 709, rfl⟩
abbrev main_call14_v0 : Ref sig .tc := ⟨.hbm, 710, rfl⟩
abbrev main_v604 : Ref sig .tc := ⟨.hbm, 711, rfl⟩
abbrev main_v605 : Ref sig .tc := ⟨.hbm, 712, rfl⟩
abbrev main_v606 : Ref sig .tc := ⟨.hbm, 713, rfl⟩
abbrev main_v607 : Ref sig .tc := ⟨.hbm, 714, rfl⟩
abbrev main_v608 : Ref sig .tc := ⟨.hbm, 715, rfl⟩
abbrev main_v609 : Ref sig .tc := ⟨.hbm, 716, rfl⟩
abbrev main_v610 : Ref sig .tc := ⟨.hbm, 717, rfl⟩
abbrev main_v611 : Ref sig .tc := ⟨.hbm, 718, rfl⟩
abbrev main_v612 : Ref sig .tc := ⟨.hbm, 719, rfl⟩
abbrev main_v613 : Ref sig .tc := ⟨.hbm, 720, rfl⟩
abbrev main_v614 : Ref sig .tc := ⟨.hbm, 721, rfl⟩
abbrev main_v615 : Ref sig .tc := ⟨.hbm, 722, rfl⟩
abbrev main_v616 : Ref sig .tc := ⟨.hbm, 723, rfl⟩
abbrev main_v617 : Ref sig .tc := ⟨.hbm, 724, rfl⟩
abbrev main_v618 : Ref sig .tc := ⟨.hbm, 725, rfl⟩
abbrev main_v619 : Ref sig .tc := ⟨.hbm, 726, rfl⟩
abbrev main_v620 : Ref sig .tc := ⟨.hbm, 727, rfl⟩
abbrev main_v621 : Ref sig .tc := ⟨.hbm, 728, rfl⟩
abbrev main_v622 : Ref sig .tc := ⟨.hbm, 729, rfl⟩
abbrev main_v623 : Ref sig .tc := ⟨.hbm, 730, rfl⟩
abbrev main_v624 : Ref sig .tc := ⟨.hbm, 731, rfl⟩
abbrev main_v625 : Ref sig .tc := ⟨.hbm, 732, rfl⟩
abbrev main_v626 : Ref sig .tc := ⟨.hbm, 733, rfl⟩
abbrev main_cst_43 : Ref sig .tc := ⟨.hbm, 734, rfl⟩
abbrev main_v627 : Ref sig .tc := ⟨.hbm, 735, rfl⟩
abbrev main_v628 : Ref sig .tc := ⟨.hbm, 736, rfl⟩
abbrev main_v629 : Ref sig .tc := ⟨.hbm, 737, rfl⟩
abbrev main_v630 : Ref sig .tc := ⟨.hbm, 738, rfl⟩
abbrev main_v631 : Ref sig .tc := ⟨.hbm, 739, rfl⟩
abbrev main_v632 : Ref sig .tc := ⟨.hbm, 740, rfl⟩
abbrev main_v633 : Ref sig .tc := ⟨.hbm, 741, rfl⟩
abbrev main_v634 : Ref sig .tc := ⟨.hbm, 742, rfl⟩
abbrev main_v635 : Ref sig .tc := ⟨.hbm, 743, rfl⟩
abbrev main_call15_cst : Ref sig .tc := ⟨.hbm, 744, rfl⟩
abbrev main_call15_v0 : Ref sig .tc := ⟨.hbm, 745, rfl⟩
abbrev main_v636 : Ref sig .tc := ⟨.hbm, 746, rfl⟩
abbrev main_c_44 : Ref sig .tc := ⟨.hbm, 747, rfl⟩
abbrev main_v637 : Ref sig .tc := ⟨.hbm, 748, rfl⟩
abbrev main_v638 : Ref sig .tc := ⟨.hbm, 749, rfl⟩
abbrev main_c_45 : Ref sig .tc := ⟨.hbm, 750, rfl⟩
abbrev main_v639 : Ref sig .tc := ⟨.hbm, 751, rfl⟩
abbrev main_v640 : Ref sig .tc := ⟨.hbm, 752, rfl⟩
abbrev main_v641 : Ref sig .tc := ⟨.hbm, 753, rfl⟩
abbrev main_v642 : Ref sig .tc := ⟨.hbm, 754, rfl⟩
abbrev main_v643 : Ref sig .tc := ⟨.hbm, 755, rfl⟩
abbrev main_v644 : Ref sig .tc := ⟨.hbm, 756, rfl⟩
abbrev main_c_46 : Ref sig .tc := ⟨.hbm, 757, rfl⟩
abbrev main_v645 : Ref sig .tc := ⟨.hbm, 758, rfl⟩
abbrev main_v646 : Ref sig .tc := ⟨.hbm, 759, rfl⟩
abbrev main_c_47 : Ref sig .tc := ⟨.hbm, 760, rfl⟩
abbrev main_v647 : Ref sig .tc := ⟨.hbm, 761, rfl⟩
abbrev main_v648 : Ref sig .tc := ⟨.hbm, 762, rfl⟩
abbrev main_v649 : Ref sig .tc := ⟨.hbm, 763, rfl⟩
abbrev main_v650 : Ref sig .tc := ⟨.hbm, 764, rfl⟩
abbrev main_v651 : Ref sig .tc := ⟨.hbm, 765, rfl⟩
abbrev main_cst_48 : Ref sig .tc := ⟨.hbm, 766, rfl⟩
abbrev main_v652 : Ref sig .tc := ⟨.hbm, 767, rfl⟩
abbrev main_v653 : Ref sig .tc := ⟨.hbm, 768, rfl⟩
abbrev main_v654 : Ref sig .tc := ⟨.hbm, 769, rfl⟩
abbrev main_v655 : Ref sig .tc := ⟨.hbm, 770, rfl⟩
abbrev main_v656 : Ref sig .tc := ⟨.hbm, 771, rfl⟩
abbrev main_cst_49 : Ref sig .tc := ⟨.hbm, 772, rfl⟩
abbrev main_v657 : Ref sig .tc := ⟨.hbm, 773, rfl⟩
abbrev main_v658 : Ref sig .tc := ⟨.hbm, 774, rfl⟩
abbrev main_v659 : Ref sig .tc := ⟨.hbm, 775, rfl⟩
abbrev main_v660 : Ref sig .tc := ⟨.hbm, 776, rfl⟩
abbrev main_v661 : Ref sig .tc := ⟨.hbm, 777, rfl⟩
abbrev main_v662 : Ref sig .tc := ⟨.hbm, 778, rfl⟩
abbrev main_v663 : Ref sig .tc := ⟨.hbm, 779, rfl⟩
abbrev main_v664 : Ref sig .tc := ⟨.hbm, 780, rfl⟩
abbrev main_v665 : Ref sig .tc := ⟨.hbm, 781, rfl⟩
abbrev main_v666 : Ref sig .tc := ⟨.hbm, 782, rfl⟩
abbrev main_v667 : Ref sig .tc := ⟨.hbm, 783, rfl⟩
abbrev main_v668 : Ref sig .tc := ⟨.hbm, 784, rfl⟩
abbrev main_v669 : Ref sig .tc := ⟨.hbm, 785, rfl⟩
abbrev main_v670 : Ref sig .tc := ⟨.hbm, 786, rfl⟩
abbrev main_v671 : Ref sig .tc := ⟨.hbm, 787, rfl⟩
abbrev main_v672 : Ref sig .tc := ⟨.hbm, 788, rfl⟩
abbrev main_v673 : Ref sig .tc := ⟨.hbm, 789, rfl⟩
abbrev main_v674 : Ref sig .tc := ⟨.hbm, 790, rfl⟩
abbrev main_v675 : Ref sig .tc := ⟨.hbm, 791, rfl⟩
abbrev main_v676 : Ref sig .tc := ⟨.hbm, 792, rfl⟩
abbrev main_v677 : Ref sig .tc := ⟨.hbm, 793, rfl⟩
abbrev main_v678 : Ref sig .tc := ⟨.hbm, 794, rfl⟩
abbrev main_v679 : Ref sig .tc := ⟨.hbm, 795, rfl⟩
abbrev main_v680 : Ref sig .tc := ⟨.hbm, 796, rfl⟩
abbrev main_v681 : Ref sig .tc := ⟨.hbm, 797, rfl⟩
abbrev main_v682 : Ref sig .tc := ⟨.hbm, 798, rfl⟩
abbrev main_cst_50 : Ref sig .tc := ⟨.hbm, 799, rfl⟩
abbrev main_v683 : Ref sig .tc := ⟨.hbm, 800, rfl⟩
abbrev main_v684 : Ref sig .tc := ⟨.hbm, 801, rfl⟩
abbrev main_v685 : Ref sig .tc := ⟨.hbm, 802, rfl⟩
abbrev main_v686 : Ref sig .tc := ⟨.hbm, 803, rfl⟩
abbrev main_v687 : Ref sig .tc := ⟨.hbm, 804, rfl⟩
abbrev main_v688 : Ref sig .tc := ⟨.hbm, 805, rfl⟩
abbrev main_v689 : Ref sig .tc := ⟨.hbm, 806, rfl⟩
abbrev main_v690 : Ref sig .tc := ⟨.hbm, 807, rfl⟩
abbrev main_v691 : Ref sig .tc := ⟨.hbm, 808, rfl⟩
abbrev main_call16_cst : Ref sig .tc := ⟨.hbm, 809, rfl⟩
abbrev main_call16_v0 : Ref sig .tc := ⟨.hbm, 810, rfl⟩
abbrev main_v692 : Ref sig .tc := ⟨.hbm, 811, rfl⟩
abbrev main_v693 : Ref sig .tc := ⟨.hbm, 812, rfl⟩
abbrev main_v694 : Ref sig .tc := ⟨.hbm, 813, rfl⟩
abbrev main_v695 : Ref sig .tc := ⟨.hbm, 814, rfl⟩
abbrev main_v696 : Ref sig .tc := ⟨.hbm, 815, rfl⟩
abbrev main_v697 : Ref sig .tc := ⟨.hbm, 816, rfl⟩
abbrev main_v698 : Ref sig .tc := ⟨.hbm, 817, rfl⟩
abbrev main_v699 : Ref sig .tc := ⟨.hbm, 818, rfl⟩
abbrev main_v700 : Ref sig .tc := ⟨.hbm, 819, rfl⟩
abbrev main_v701 : Ref sig .tc := ⟨.hbm, 820, rfl⟩
abbrev main_v702 : Ref sig .tc := ⟨.hbm, 821, rfl⟩
abbrev main_v703 : Ref sig .tc := ⟨.hbm, 822, rfl⟩
abbrev main_v704 : Ref sig .tc := ⟨.hbm, 823, rfl⟩
abbrev main_v705 : Ref sig .tc := ⟨.hbm, 824, rfl⟩
abbrev main_v706 : Ref sig .tc := ⟨.hbm, 825, rfl⟩
abbrev main_v707 : Ref sig .tc := ⟨.hbm, 826, rfl⟩
abbrev main_v708 : Ref sig .tc := ⟨.hbm, 827, rfl⟩
abbrev main_v709 : Ref sig .tc := ⟨.hbm, 828, rfl⟩
abbrev main_v710 : Ref sig .tc := ⟨.hbm, 829, rfl⟩
abbrev main_v711 : Ref sig .tc := ⟨.hbm, 830, rfl⟩
abbrev main_v712 : Ref sig .tc := ⟨.hbm, 831, rfl⟩
abbrev main_v713 : Ref sig .tc := ⟨.hbm, 832, rfl⟩
abbrev main_v714 : Ref sig .tc := ⟨.hbm, 833, rfl⟩
abbrev main_cst_51 : Ref sig .tc := ⟨.hbm, 834, rfl⟩
abbrev main_v715 : Ref sig .tc := ⟨.hbm, 835, rfl⟩
abbrev main_v716 : Ref sig .tc := ⟨.hbm, 836, rfl⟩
abbrev main_v717 : Ref sig .tc := ⟨.hbm, 837, rfl⟩
abbrev main_v718 : Ref sig .tc := ⟨.hbm, 838, rfl⟩
abbrev main_v719 : Ref sig .tc := ⟨.hbm, 839, rfl⟩
abbrev main_v720 : Ref sig .tc := ⟨.hbm, 840, rfl⟩
abbrev main_v721 : Ref sig .tc := ⟨.hbm, 841, rfl⟩
abbrev main_v722 : Ref sig .tc := ⟨.hbm, 842, rfl⟩
abbrev main_v723 : Ref sig .tc := ⟨.hbm, 843, rfl⟩
abbrev main_cst_52 : Ref sig .tc := ⟨.hbm, 844, rfl⟩
abbrev main_v724 : Ref sig .tc := ⟨.hbm, 845, rfl⟩
abbrev main_cst_53 : Ref sig .tc := ⟨.hbm, 846, rfl⟩
abbrev main_v725 : Ref sig .tc := ⟨.hbm, 847, rfl⟩
abbrev main_v726 : Ref sig .tc := ⟨.hbm, 848, rfl⟩
abbrev main_v727 : Ref sig .tc := ⟨.hbm, 849, rfl⟩
abbrev main_cst_54 : Ref sig .tc := ⟨.hbm, 850, rfl⟩
abbrev main_v728 : Ref sig .tc := ⟨.hbm, 851, rfl⟩
abbrev main_v729 : Ref sig .tc := ⟨.hbm, 852, rfl⟩
abbrev main_v730 : Ref sig .tc := ⟨.hbm, 853, rfl⟩
abbrev main_cst_55 : Ref sig .tc := ⟨.hbm, 854, rfl⟩
abbrev main_v731 : Ref sig .tc := ⟨.hbm, 855, rfl⟩
abbrev main_v732 : Ref sig .tc := ⟨.hbm, 856, rfl⟩
abbrev main_v733 : Ref sig .tc := ⟨.hbm, 857, rfl⟩
abbrev main_v734 : Ref sig .tc := ⟨.hbm, 858, rfl⟩
abbrev main_v735 : Ref sig .tc := ⟨.hbm, 859, rfl⟩
abbrev main_v736 : Ref sig .tc := ⟨.hbm, 860, rfl⟩
abbrev main_v737 : Ref sig .tc := ⟨.hbm, 861, rfl⟩
abbrev main_v738 : Ref sig .tc := ⟨.hbm, 862, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S50000 : S_.BroadcastsInDim S50000 (![] : Fin 0 → Fin S50000.rank)
  bcast_S50000_S50000x1_0 : S50000.BroadcastsInDim S50000x1 (![0] : Fin 1 → Fin S50000x1.rank)
  shapeCasts_S1x128_S128 : S1x128.ShapeCasts S128
  bcast_S128_S256x128_1 : S128.BroadcastsInDim S256x128 (![1] : Fin 1 → Fin S256x128.rank)
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  slices_S5_S1_0 : S5.Slices ![0] S1
  shapeCasts_S1_S_ : S1.ShapeCasts S_
  slices_S5x128x256_S1x128x256_0_0_0 : S5x128x256.Slices ![0, 0, 0] S1x128x256
  shapeCasts_S1x128x256_S128x256 : S1x128x256.ShapeCasts S128x256
  slices_S5x256_S1x256_0_0 : S5x256.Slices ![0, 0] S1x256
  shapeCasts_S1x256_S256 : S1x256.ShapeCasts S256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S256 : S_.BroadcastsInDim S256 (![] : Fin 0 → Fin S256.rank)
  bcast_S_S50000x256 : S_.BroadcastsInDim S50000x256 (![] : Fin 0 → Fin S50000x256.rank)
  slices_S5x256x128_S1x256x128_0_0_0 : S5x256x128.Slices ![0, 0, 0] S1x256x128
  shapeCasts_S1x256x128_S256x128 : S1x256x128.ShapeCasts S256x128
  slices_S5x128_S1x128_0_0 : S5x128.Slices ![0, 0] S1x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128 : S_.BroadcastsInDim S128 (![] : Fin 0 → Fin S128.rank)
  bcast_S_S256x128 : S_.BroadcastsInDim S256x128 (![] : Fin 0 → Fin S256x128.rank)
  bcast_S1x256_S256x256_0_1 : S1x256.BroadcastsInDim S256x256 (![0, 1] : Fin 2 → Fin S256x256.rank)
  bcast_S_S256x256 : S_.BroadcastsInDim S256x256 (![] : Fin 0 → Fin S256x256.rank)
  bcast_S1x128_S256x128_0_1 : S1x128.BroadcastsInDim S256x128 (![0, 1] : Fin 2 → Fin S256x128.rank)
  slices_S5_S1_1 : S5.Slices ![1] S1
  slices_S5x128x256_S1x128x256_1_0_0 : S5x128x256.Slices ![1, 0, 0] S1x128x256
  slices_S5x256_S1x256_1_0 : S5x256.Slices ![1, 0] S1x256
  slices_S5x256x128_S1x256x128_1_0_0 : S5x256x128.Slices ![1, 0, 0] S1x256x128
  slices_S5x128_S1x128_1_0 : S5x128.Slices ![1, 0] S1x128
  slices_S5_S1_2 : S5.Slices ![2] S1
  slices_S5x128x256_S1x128x256_2_0_0 : S5x128x256.Slices ![2, 0, 0] S1x128x256
  slices_S5x256_S1x256_2_0 : S5x256.Slices ![2, 0] S1x256
  slices_S5x256x128_S1x256x128_2_0_0 : S5x256x128.Slices ![2, 0, 0] S1x256x128
  slices_S5x128_S1x128_2_0 : S5x128.Slices ![2, 0] S1x128
  slices_S5_S1_3 : S5.Slices ![3] S1
  slices_S5x128x256_S1x128x256_3_0_0 : S5x128x256.Slices ![3, 0, 0] S1x128x256
  slices_S5x256_S1x256_3_0 : S5x256.Slices ![3, 0] S1x256
  slices_S5x256x128_S1x256x128_3_0_0 : S5x256x128.Slices ![3, 0, 0] S1x256x128
  slices_S5x128_S1x128_3_0 : S5x128.Slices ![3, 0] S1x128
  slices_S5_S1_4 : S5.Slices ![4] S1
  slices_S5x128x256_S1x128x256_4_0_0 : S5x128x256.Slices ![4, 0, 0] S1x128x256
  slices_S5x256_S1x256_4_0 : S5x256.Slices ![4, 0] S1x256
  slices_S5x256x128_S1x256x128_4_0_0 : S5x256x128.Slices ![4, 0, 0] S1x256x128
  slices_S5x128_S1x128_4_0 : S5x128.Slices ![4, 0] S1x128
  bcast_S_S50000x1 : S_.BroadcastsInDim S50000x1 (![] : Fin 0 → Fin S50000x1.rank)
  bcast_S_S256x1 : S_.BroadcastsInDim S256x1 (![] : Fin 0 → Fin S256x1.rank)
  bcast_S256x1_S256x128_0_1 : S256x1.BroadcastsInDim S256x128 (![0, 1] : Fin 2 → Fin S256x128.rank)
  bcast_S10_S1x10_1 : S10.BroadcastsInDim S1x10 (![1] : Fin 1 → Fin S1x10.rank)
  bcast_S1x10_S256x10_0_1 : S1x10.BroadcastsInDim S256x10 (![0, 1] : Fin 2 → Fin S256x10.rank)
  gather_S1x128_S50000x1_S50000x128_1_0_n_n_0_1_1128_wf : GatherDims.WF S1x128 S50000x1 S50000x128 [1] [0] [] [0] [] 1 ![1, 128]
  gather_S256x128_S50000x1_S50000x128_1_0_n_n_0_1_1128_wf : GatherDims.WF S256x128 S50000x1 S50000x128 [1] [0] [] [0] [] 1 ![1, 128]
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x256_S50000x256_1_0_0_1_n_n_wf : DotDims.WF S50000x128 S128x256 S50000x256 [1] [0] [0] [1] [] []
  dot_S50000x256_S256x128_S50000x128_1_0_0_1_n_n_wf : DotDims.WF S50000x256 S256x128 S50000x128 [1] [0] [0] [1] [] []
  scatter_S256x128_S50000x1_S50000x128_1_0_0_1_wf : ScatterDims.WF S256x128 S50000x1 S50000x128 [1] [0] [0] 1
  dot_S256x128_S128x256_S256x256_1_0_0_1_n_n_wf : DotDims.WF S256x128 S128x256 S256x256 [1] [0] [0] [1] [] []
  dot_S256x256_S256x128_S256x128_1_0_0_1_n_n_wf : DotDims.WF S256x256 S256x128 S256x128 [1] [0] [0] [1] [] []
  scatter_S256x1_S50000x1_S50000x1_1_0_0_1_wf : ScatterDims.WF S256x1 S50000x1 S50000x1 [1] [0] [0] 1
  dot_S256x128_S128x10_S256x10_1_0_0_1_n_n_wf : DotDims.WF S256x128 S128x10 S256x10 [1] [0] [0] [1] [] []

variable [Facts₀]

def gather_S1x128_S50000x1_S50000x128_1_0_n_n_0_1_1128 : GatherDims S1x128 S50000x1 S50000x128 where
  offsetDims := [1]
  collapsedSliceDims := [0]
  operandBatchingDims := []
  startIndicesBatchingDims := []
  startIndexMap := [0]
  indexVectorDim := 1
  sliceSizes := ![1, 128]
  wf := gather_S1x128_S50000x1_S50000x128_1_0_n_n_0_1_1128_wf
def gather_S256x128_S50000x1_S50000x128_1_0_n_n_0_1_1128 : GatherDims S256x128 S50000x1 S50000x128 where
  offsetDims := [1]
  collapsedSliceDims := [0]
  operandBatchingDims := []
  startIndicesBatchingDims := []
  startIndexMap := [0]
  indexVectorDim := 1
  sliceSizes := ![1, 128]
  wf := gather_S256x128_S50000x1_S50000x128_1_0_n_n_0_1_1128_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def scatter_S256x128_S50000x1_S50000x128_1_0_0_1 : ScatterDims S256x128 S50000x1 S50000x128 where
  updateWindowDims := [1]
  insertedWindowDims := [0]
  scatterDimsToOperandDims := [0]
  indexVectorDim := 1
  wf := scatter_S256x128_S50000x1_S50000x128_1_0_0_1_wf
def dot_S256x128_S128x256_S256x256_1_0_0_1_n_n : DotDims S256x128 S128x256 S256x256 where
  lhsContracting := [1]
  rhsContracting := [0]
  lhsNonContracting := [0]
  rhsNonContracting := [1]
  lhsBatch := []
  rhsBatch := []
  wf := dot_S256x128_S128x256_S256x256_1_0_0_1_n_n_wf
def dot_S256x256_S256x128_S256x128_1_0_0_1_n_n : DotDims S256x256 S256x128 S256x128 where
  lhsContracting := [1]
  rhsContracting := [0]
  lhsNonContracting := [0]
  rhsNonContracting := [1]
  lhsBatch := []
  rhsBatch := []
  wf := dot_S256x256_S256x128_S256x128_1_0_0_1_n_n_wf
def scatter_S256x1_S50000x1_S50000x1_1_0_0_1 : ScatterDims S256x1 S50000x1 S50000x1 where
  updateWindowDims := [1]
  insertedWindowDims := [0]
  scatterDimsToOperandDims := [0]
  indexVectorDim := 1
  wf := scatter_S256x1_S50000x1_S50000x1_1_0_0_1_wf
def dot_S256x128_S128x10_S256x10_1_0_0_1_n_n : DotDims S256x128 S128x10 S256x10 where
  lhsContracting := [1]
  rhsContracting := [0]
  lhsNonContracting := [0]
  rhsNonContracting := [1]
  lhsBatch := []
  rhsBatch := []
  wf := dot_S256x128_S128x10_S256x10_1_0_0_1_n_n_wf

class Facts : Prop extends Facts₀ where

variable [Facts]
-- ==== Proof.GinRegion0.lean ====
import proofs.«403491_j395136991532_1_alg».proof.Proof.Gen.KernelIdeal.Launch
import proofs.«403491_j395136991532_1_alg».proof.Proof.Gen.KernelIdeal.Skeleton
import proofs.«403491_j395136991532_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 0 (pipeline 0, the per-node two-layer perceptron on 5000-row tiles): the frame half

Stated at a parameter `V`, the TensorCore's buffer contents when the region is entered. Eleven input windows
(the two tiled operands and nine resident ones) and one tiled output window. The body reads every input buffer
whole, computes, and overwrites the output buffer whole; so after the body each input buffer still holds its
block, and the output buffer holds one closed function of the eleven input blocks. -/

-- membership in a rectangle of 5000 rows: the structural look recurses once per coordinate of the long axis
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (not fetched:
    the block index has not moved), for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not (not fetched:
    the block index has not moved), for any proof data whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not (not fetched:
    the block index has not moved), for any proof data whose array is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not (not fetched:
    the block index has not moved), for any proof data whose array is `V`'s and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not (not fetched:
    the block index has not moved), for any proof data whose array is `V`'s and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not (not fetched:
    the block index has not moved), for any proof data whose array is `V`'s and whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not (not fetched:
    the block index has not moved), for any proof data whose array is `V`'s and whose body leaves the block in place. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's current staging buffer holds its block at every point, fetched there or not (not fetched:
    the block index has not moved), for any proof data whose array is `V`'s and whose body leaves the block in place. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- Input window 8's current staging buffer holds its block at every point, fetched there or not (not fetched:
    the block index has not moved), for any proof data whose array is `V`'s and whose body leaves the block in place. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-- Input window 9's current staging buffer holds its block at every point, fetched there or not (not fetched:
    the block index has not moved), for any proof data whose array is `V`'s and whose body leaves the block in place. -/
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

/-- Input window 10's current staging buffer holds its block at every point, fetched there or not (not fetched:
    the block index has not moved), for any proof data whose array is `V`'s and whose body leaves the block in place. -/
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every buffer whole -/

abbrev r0_a : Rect S5000x128 := Rect.unit (s := S5000x128) ![0, 0] S5000x128.size inb_S5000x128_S5000x128_0_0
abbrev r0_b : Rect S1x1 := Rect.unit (s := S1x1) ![0, 0] S1x1.size inb_S1x1_S1x1_0_0
abbrev r0_c : Rect S128x256 := Rect.unit (s := S128x256) ![0, 0] S128x256.size inb_S128x256_S128x256_0_0
abbrev r0_d : Rect S1x256 := Rect.unit (s := S1x256) ![0, 0] S1x256.size inb_S1x256_S1x256_0_0
abbrev r0_e : Rect S256x128 := Rect.unit (s := S256x128) ![0, 0] S256x128.size inb_S256x128_S256x128_0_0
abbrev r0_f : Rect S1x128 := Rect.unit (s := S1x128) ![0, 0] S1x128.size inb_S1x128_S1x128_0_0

/-! ## What the body leaves in the output window's buffer -/

/-- Window 11's staging buffer after the body, from the eleven input blocks: its one store, of the last payload
    (scale and shift, then the layer's final clamp at zero where it has one) over the first (the two matrix products
    with their affine maps and the clamp between). -/
def out0_11 (x0 : Vec F S5000x128 .f32) (x1 : Vec F S5000x128 .f32) (x2 : Vec F S1x1 .f32) (x3 : Vec F S128x256 .bf16) (x4 : Vec F S1x256 .f32) (x5 : Vec F S1x256 .f32) (x6 : Vec F S1x256 .f32) (x7 : Vec F S256x128 .bf16) (x8 : Vec F S1x128 .f32) (x9 : Vec F S1x128 .f32) (x10 : Vec F S1x128 .f32) : Vec F S5000x128 .f32 :=
  View.canon [⟨r0_a, k0_pay1 (k0_pay2 (View.ld x2 r0_b) (View.ld x0 r0_a) (View.ld x1 r0_a) (View.ld x3 r0_c) (View.ld x4 r0_d) (View.ld x5 r0_d) (View.ld x6 r0_d) (View.ld x7 r0_e) (View.ld x8 r0_f)) (View.ld x9 r0_f) (View.ld x10 r0_f)⟩]

/-- The one store is of the whole buffer, so it covers it. -/
theorem cover0_11 (p0 : Vec F S5000x128 .f32) (y : S5000x128.Idx) :
    ∃ pc ∈ ([⟨r0_a, p0⟩] : List (View.Piece (Elt F) S5000x128 .f32)), y ∈ pc.1.set :=
  View.cover_of_tiled [⟨r0_a, p0⟩] S5000x128.size (by rfl) y

/-! ## The body's triple -/

set_option maxHeartbeats 4000000 in
/-- The kernel body on whole staging memrefs, the inputs' at read contents `xW` and the output's at anything, runs to
    the continuation holding the inputs' as they were and the output's at `out0_11` of the inputs'. -/
theorem sound_kernel0 (c : Dev nD) (E : Set ℕ) (i : grid0.Coords) (arg1 : Memref sig .tc .vmem S5000x128 .f32) (harg1 : arg1.IsWhole) (arg2 : Memref sig .tc .vmem S5000x128 .f32) (harg2 : arg2.IsWhole) (arg3 : Memref sig .tc .vmem S1x1 .f32) (harg3 : arg3.IsWhole) (arg4 : Memref sig .tc .vmem S128x256 .bf16) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S256x128 .bf16) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S5000x128 .f32) (harg12 : arg12.IsWhole)
    (x0 : Vec F S5000x128 .f32) (x1 : Vec F S5000x128 .f32) (x2 : Vec F S1x1 .f32) (x3 : Vec F S128x256 .bf16) (x4 : Vec F S1x256 .f32) (x5 : Vec F S1x256 .f32) (x6 : Vec F S1x256 .f32) (x7 : Vec F S256x128 .bf16) (x8 : Vec F S1x128 .f32) (x9 : Vec F S1x128 .f32) (x10 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out0_11 x0 x1 x2 x3 x4 x5 x6 x7 x8 x9 x10)) -∗ K ⟨⟩))
      ⊢ wp frame (wpE (defs₀ (F := F)) Variants.none c none) E (cc0__gin_mlp_kernel i arg1 harg1 arg2 harg2 arg3 harg3 arg4 harg4 arg5 harg5 arg6 harg6 arg7 harg7 arg8 harg8 arg9 harg9 arg10 harg10 arg11 harg11 arg12 harg12) K := by
  simp only [cc0__gin_mlp_kernel_eq_skeleton]; unfold cc0__gin_mlp_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  exact View.read_writes_eq_canon _ _ _ (cover0_11 _)

/-! ## The pipeline's proof data -/

/-- The proof data of pipeline 0 on core `c`: the arrays as the region finds them; after the body at point `t` each
    input's buffer at its block and the output's at `out0_11` of the input blocks; the invariant the untouched rest;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => out0_11 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = out0_11 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d

/-- The invariant at the region's entry and exit is the untouched rest itself. -/
theorem PhiIn0 (c : Dev nD) : Pipeline.ΦA spec0 c ⊢ (dat0 V c).Φ 0 := .rfl
theorem PhiOut0 (c : Dev nD) : (dat0 V c).Φ (Fin.last _) ⊢ Pipeline.ΦA spec0 c := .rfl

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t))

/-- The body at any point: the inputs' memrefs hold their blocks, so the body's triple applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel0 c Set.univ _ _ _ _ _ _ _ _ _ _ _ _ _ _ _ _ _ _ _ _ _ _ _ _ _
    (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand
-- ==== Proof.SegRegion1.lean ====
/- Region 1 of @main, custom_call 1, the batch-grouped segment sum `cc1__segsum_kernel`: the frame half of its pipeline,
   at any float model `F` and at a PARAMETER `V`, the TensorCore's buffer contents when the region is entered.
   The grid has ten points. A scratch accumulator (256x128, f32) is carried from point to point: the first point stores
   the zero block into it, every point then adds its 5000-row block's contribution (the transposed one-hot of the
   block's segment ids times the block), and the last point copies it into the output window's staging buffer, which
   the pipeline writes back once. So the invariant between points names what the scratch holds, by recursion on the
   point (`accAt1`); the output window is idle at every point but the last and is handed back there as it was found. -/
import proofs.«403491_j395136991532_1_alg».proof.Proof.Gen.KernelIdeal.Launch
import proofs.«403491_j395136991532_1_alg».proof.Proof.Gen.KernelIdeal.Skeleton
import proofs.«403491_j395136991532_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof data
    whose array is `V`'s and whose body leaves the block in place: the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, likewise. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The first conditional's condition (the accumulator's reset), from the grid coordinate. -/
abbrev cond1_0 (i : grid1.Coords) : Prop := (Scalar.cmpi .ne (Scalar.extui (Scalar.cmpi .eq (BitVec.ofNat 32 (i 0).val) 0#32)) 0#32) = 1#1
/-- It holds at the first point only. -/
theorem hcond1_0 : ∀ t : Fin cfg1.N, cond1_0 (grid1.coords t) ↔ t.val % 10 = 0 :=
  (by decide +kernel : ∀ t : Fin grid1.N, cond1_0 (grid1.coords t) ↔ t.val % 10 = 0)

/-- The second conditional's condition (the copy into the output window). -/
abbrev cond1_1 (i : grid1.Coords) : Prop := k1_cond2 i = 1#1
/-- It holds at the last point only. -/
theorem hcond1_1 : ∀ t : Fin cfg1.N, cond1_1 (grid1.coords t) ↔ t.val % 10 = 9 :=
  (by decide +kernel : ∀ t : Fin grid1.N, cond1_1 (grid1.coords t) ↔ t.val % 10 = 9)

/-! ## Where the output window is idle -/

theorem liveAt1_0 : ∀ t : Fin cfg1.N, cfg1.idle 0 (grid1.coords t) = false := by decide +kernel
theorem liveAt1_1 : ∀ t : Fin cfg1.N, cfg1.idle 1 (grid1.coords t) = false := by decide +kernel
/-- Where the copy is not taken the output window is idle, -/
theorem idleAt1_2 : ∀ t : Fin cfg1.N, ¬cond1_1 (grid1.coords t) → cfg1.idle 2 (grid1.coords t) = true := by decide +kernel
/-- and not written back; -/
theorem noFlush1_2 : ∀ t : Fin cfg1.N, ¬cond1_1 (grid1.coords t) → (cfg1.win 2).flush t = false := by decide +kernel
/-- where it is taken the window is live. -/
theorem liveAt1_2 : ∀ t : Fin cfg1.N, cond1_1 (grid1.coords t) → cfg1.idle 2 (grid1.coords t) = false := by decide +kernel

/-! ## Whole-buffer accesses -/

/-- The zero offsets of a two-axis access. -/
theorem hz1 : (![0, 0] : Fin 2 → Nat) = fun _ => 0 := funext fun a => by fin_cases a <;> rfl

/-- A rectangle of the shape's own sizes at zero offsets holds every index. -/
theorem memUnit1 {S : Shape} {off : Fin S.rank → Nat} (h : off = fun _ => 0) (inb : ∀ a, off a + S.size a ≤ S.size a) (y : S.Idx) :
    y ∈ (Rect.unit off S.size inb).set := by
  subst h; show y ∈ (Rect.whole S).set; rw [Rect.set_whole]; exact Finset.mem_univ y

/-- A store through such a rectangle, made last, leaves its payload, whatever was stored before and whatever the
    buffer held. -/
theorem readLast1 {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f (⟨Rect.unit off S.size inb, w⟩ :: L)) = w := by
  rw [View.read_writes_eq_canon _ _ _ (fun y => ⟨_, List.mem_cons_self .., memUnit1 h inb y⟩), View.canon_cons_unit_zero h]

/-! ## The scratch accumulator -/

/-- The scratch operand: a whole scoped buffer of the kernel's own, passed beside the windows. -/
abbrev scM1 : Memref sig .tc .vmem S256x128 .f32 := Memref.whole cc1_scratch0

/-- THE ACCUMULATION. What the scratch holds after `n` points: the zero block the first point stores, then, point by
    point, the sum of what it held and the point's contribution (the payload of the body's second store, over the
    point's two input blocks and what the scratch held). -/
def accAt1 (c : Dev nD) : (n : ℕ) → n ≤ cfg1.N → Vec F S256x128 .f32
  | 0, _ => k1_pay1
  | n + 1, hn => k1_pay2 (iblk1 V c 0 ⟨n, hn⟩) (iblk1 V c 1 ⟨n, hn⟩) (accAt1 c n (Nat.le_of_lt hn))

theorem accAt1_zero (c : Dev nD) (h : 0 ≤ cfg1.N) : accAt1 V c 0 h = k1_pay1 := rfl
theorem accAt1_succ (c : Dev nD) (t : Fin cfg1.N) :
    accAt1 V c (t.val + 1) t.isLt = k1_pay2 (iblk1 V c 0 t) (iblk1 V c 1 t) (accAt1 V c t.val (Nat.le_of_lt t.isLt)) := rfl

/-! ## The body's triple, per control case -/

set_option maxHeartbeats 1000000 in
/-- THE FIRST POINT (the reset taken, the copy not): on whole memrefs, the inputs' at `x` and `b` and the scratch at
    anything, the body runs to the inputs' as they were and the scratch at the zero block plus the point's contribution.
    The output window's memref is not touched. -/
theorem sound_first1 (c : Dev nD) (E : Set ℕ) (i : grid1.Coords)
    (aX : Memref sig .tc .vmem S5000x128 .f32) (hX : aX.IsWhole) (aB : Memref sig .tc .vmem S5000x1 .i32) (hB : aB.IsWhole)
    (aO : Memref sig .tc .vmem S256x128 .f32) (hO : aO.IsWhole) (aS : Memref sig .tc .vmem S256x128 .f32) (hS : aS.IsWhole)
    (hcR : cond1_0 i) (hcC : ¬cond1_1 i)
    (x : Vec F S5000x128 .f32) (b : Vec F S5000x1 .i32) (K : PUnit → sProp 𝕄) :
    iprop(owns (c : Thread nD τ) aX fullShare x ∗ owns (c : Thread nD τ) aB fullShare b ∗ (∃ d, owns (c : Thread nD τ) aS fullShare d)
        ∗ (iprop(owns (c : Thread nD τ) aX fullShare x ∗ owns (c : Thread nD τ) aB fullShare b
            ∗ owns (c : Thread nD τ) aS fullShare (k1_pay2 x b k1_pay1)) -∗ K ⟨⟩))
      ⊢ wp frame (wpE (defs₀ (F := F)) Variants.none c none) E (cc1__segsum_kernel i aX hX aB hB aO hO aS hS) K := by
  simp only [cc1__segsum_kernel_eq_skeleton]; unfold cc1__segsum_kernel_skel
  unfold owns
  iintro ⟨⟨%fX, %hfX, HX⟩, ⟨%fB, %hfB, HB⟩, ⟨%dS, %fS, -, HS⟩, Hk⟩
  obtain rfl := hX.eq_unread hfX; obtain rfl := hB.eq_unread hfB
  sl_exec (disch := first | exact hcR | exact hcC)
  sl_step
  iapply Hk
  isplitl [HX]
  · iexists _; isplitr; · ipureintro; exact hX.read_unread _
    iexact HX
  isplitl [HB]
  · iexists _; isplitr; · ipureintro; exact hB.read_unread _
    iexact HB
  iexists _; isplitr
  swap; · iexact HS
  ipureintro
  sl_unfold_run_names
  rw [readLast1 _ _ hz1, View.readCov_unit_zero _ hz1]
  simp only [View.readAt_eq_ld, hX.read_unread, hB.read_unread,
    View.ld_unit_zero (S := S5000x128) hz1, View.ld_unit_zero (S := S5000x1) hz1]

set_option maxHeartbeats 1000000 in
/-- A MIDDLE POINT (neither conditional taken): the scratch at `a` ends at `a` plus the point's contribution. -/
theorem sound_mid1 (c : Dev nD) (E : Set ℕ) (i : grid1.Coords)
    (aX : Memref sig .tc .vmem S5000x128 .f32) (hX : aX.IsWhole) (aB : Memref sig .tc .vmem S5000x1 .i32) (hB : aB.IsWhole)
    (aO : Memref sig .tc .vmem S256x128 .f32) (hO : aO.IsWhole) (aS : Memref sig .tc .vmem S256x128 .f32) (hS : aS.IsWhole)
    (hcR : ¬cond1_0 i) (hcC : ¬cond1_1 i)
    (x : Vec F S5000x128 .f32) (b : Vec F S5000x1 .i32) (a : Vec F S256x128 .f32) (K : PUnit → sProp 𝕄) :
    iprop(owns (c : Thread nD τ) aX fullShare x ∗ owns (c : Thread nD τ) aB fullShare b ∗ owns (c : Thread nD τ) aS fullShare a
        ∗ (iprop(owns (c : Thread nD τ) aX fullShare x ∗ owns (c : Thread nD τ) aB fullShare b
            ∗ owns (c : Thread nD τ) aS fullShare (k1_pay2 x b a)) -∗ K ⟨⟩))
      ⊢ wp frame (wpE (defs₀ (F := F)) Variants.none c none) E (cc1__segsum_kernel i aX hX aB hB aO hO aS hS) K := by
  simp only [cc1__segsum_kernel_eq_skeleton]; unfold cc1__segsum_kernel_skel
  unfold owns
  iintro ⟨⟨%fX, %hfX, HX⟩, ⟨%fB, %hfB, HB⟩, ⟨%fS, %hfS, HS⟩, Hk⟩
  obtain rfl := hX.eq_unread hfX; obtain rfl := hB.eq_unread hfB; obtain rfl := hS.eq_unread hfS
  sl_exec (disch := first | exact hcR | exact hcC)
  sl_step
  iapply Hk
  isplitl [HX]
  · iexists _; isplitr; · ipureintro; exact hX.read_unread _
    iexact HX
  isplitl [HB]
  · iexists _; isplitr; · ipureintro; exact hB.read_unread _
    iexact HB
  iexists _; isplitr
  swap; · iexact HS
  ipureintro
  rw [readLast1 _ _ hz1]
  simp only [View.readAt_eq_ld, hX.read_unread, hB.read_unread, hS.read_unread,
    View.ld_unit_zero (S := S5000x128) hz1, View.ld_unit_zero (S := S5000x1) hz1, View.ld_unit_zero (S := S256x128) hz1]

set_option maxHeartbeats 1000000 in
/-- THE LAST POINT (the copy taken, the reset not): the scratch at `a` ends at `a` plus the point's contribution, and
    the output window's memref, at anything, ends holding the same. -/
theorem sound_last1 (c : Dev nD) (E : Set ℕ) (i : grid1.Coords)
    (aX : Memref sig .tc .vmem S5000x128 .f32) (hX : aX.IsWhole) (aB : Memref sig .tc .vmem S5000x1 .i32) (hB : aB.IsWhole)
    (aO : Memref sig .tc .vmem S256x128 .f32) (hO : aO.IsWhole) (aS : Memref sig .tc .vmem S256x128 .f32) (hS : aS.IsWhole)
    (hcR : ¬cond1_0 i) (hcC : cond1_1 i)
    (x : Vec F S5000x128 .f32) (b : Vec F S5000x1 .i32) (a : Vec F S256x128 .f32) (K : PUnit → sProp 𝕄) :
    iprop(owns (c : Thread nD τ) aX fullShare x ∗ owns (c : Thread nD τ) aB fullShare b ∗ (∃ d, owns (c : Thread nD τ) aO fullShare d)
        ∗ owns (c : Thread nD τ) aS fullShare a
        ∗ (iprop(owns (c : Thread nD τ) aX fullShare x ∗ owns (c : Thread nD τ) aB fullShare b
            ∗ owns (c : Thread nD τ) aO fullShare (k1_pay2 x b a) ∗ owns (c : Thread nD τ) aS fullShare (k1_pay2 x b a)) -∗ K ⟨⟩))
      ⊢ wp frame (wpE (defs₀ (F := F)) Variants.none c none) E (cc1__segsum_kernel i aX hX aB hB aO hO aS hS) K := by
  simp only [cc1__segsum_kernel_eq_skeleton]; unfold cc1__segsum_kernel_skel
  unfold owns
  iintro ⟨⟨%fX, %hfX, HX⟩, ⟨%fB, %hfB, HB⟩, ⟨%dO, %fO, -, HO⟩, ⟨%fS, %hfS, HS⟩, Hk⟩
  obtain rfl := hX.eq_unread hfX; obtain rfl := hB.eq_unread hfB; obtain rfl := hS.eq_unread hfS
  sl_exec (disch := first | exact hcR | exact hcC)
  sl_step
  iapply Hk
  isplitl [HX]
  · iexists _; isplitr; · ipureintro; exact hX.read_unread _
    iexact HX
  isplitl [HB]
  · iexists _; isplitr; · ipureintro; exact hB.read_unread _
    iexact HB
  isplitl [HO]
  · iexists _; isplitr
    swap; · iexact HO
    ipureintro
    sl_unfold_run_names
    rw [readLast1 _ _ hz1, View.readCov_unit_zero _ hz1]
    simp only [View.readAt_eq_ld, hX.read_unread, hB.read_unread, hS.read_unread,
      View.ld_unit_zero (S := S5000x128) hz1, View.ld_unit_zero (S := S5000x1) hz1, View.ld_unit_zero (S := S256x128) hz1]
  iexists _; isplitr
  swap; · iexact HS
  ipureintro
  sl_unfold_run_names
  rw [readLast1 _ _ hz1]
  simp only [View.readAt_eq_ld, hX.read_unread, hB.read_unread, hS.read_unread,
    View.ld_unit_zero (S := S5000x128) hz1, View.ld_unit_zero (S := S5000x1) hz1, View.ld_unit_zero (S := S256x128) hz1]

/-- The region invariant before position `n`: before the first point the class's (every scratch at anything); afterwards
    the carried scratch at what the points so far accumulated, the other scoped buffers unopened, and the generator
    register at some state. -/
def Phi1 (c : Dev nD) (n : ℕ) (hn : n ≤ cfg1.N) : sProp 𝕄 :=
  if n = 0 then Pipeline.ΦA spec1 c
  else iprop(owns (c : Thread nD τ) scM1 fullShare (accAt1 V c n hn)
      ∗ Pipeline.scopedRestBut (Ix := Unit) (Name := ℕ) (U := UR sig nD τ) (Lvl := ℕ) (Val := Elt F) spec1 c [cc1_scratch0]
      ∗ (∃ r, prngReg c r))

theorem Phi1_zero (c : Dev nD) (n : ℕ) (h : n ≤ cfg1.N) (hz : n = 0) : Phi1 V c n h = Pipeline.ΦA spec1 c := by
  unfold Phi1; exact if_pos hz

theorem Phi1_pos (c : Dev nD) (n : ℕ) (h : n ≤ cfg1.N) (hz : n ≠ 0) :
    Phi1 V c n h = iprop(owns (c : Thread nD τ) scM1 fullShare (accAt1 V c n h)
      ∗ Pipeline.scopedRestBut (Ix := Unit) (Name := ℕ) (U := UR sig nD τ) (Lvl := ℕ) (Val := Elt F) spec1 c [cc1_scratch0]
      ∗ (∃ r, prngReg c r)) := by
  unfold Phi1; exact if_neg hz

/-- The class's invariant with the scratch operand split out of the scoped rest as a memref owned at some contents. -/
theorem PhiA1_eq (c : Dev nD) :
    (Pipeline.ΦA spec1 c : sProp 𝕄)
      = iprop(iprop(iprop((∃ d, owns (c : Thread nD τ) scM1 fullShare d))
          ∗ Pipeline.scopedRestBut (Ix := Unit) (Name := ℕ) (U := UR sig nD τ) (Lvl := ℕ) (Val := Elt F) spec1 c [cc1_scratch0])
        ∗ (∃ r, prngReg c r)) := by
  unfold Pipeline.ΦA; rw [scopedRest1_split]; simp only [scM1, owns_whole]; try rfl

/-! ## The pipeline's proof data -/

/-- The proof data of pipeline 1 on core `c`: the arrays as the region finds them (`V`); after the body at point `t` each
    input's buffer at its block and the output's at what the scratch then holds (consulted at the last point only: the
    window is idle elsewhere); the invariant `Phi1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => accAt1 V c (t.val + 1) t.isLt
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = accAt1 V c (t.val + 1) t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- The invariant at a point's start, restated at `t.val`. -/
theorem Phi1_castSucc (c : Dev nD) (t : Fin cfg1.N) :
    (dat1 V c).Φ t.castSucc = Phi1 V c t.val (Nat.le_of_lt t.isLt) := by
  dsimp only [dat1]; simp only [Fin.coe_castSucc]

/-- The invariant at a point's end: the carried scratch at what the points up to this one accumulated. -/
theorem Phi1_succ (c : Dev nD) (t : Fin cfg1.N) :
    (dat1 V c).Φ t.succ = iprop(owns (c : Thread nD τ) scM1 fullShare (accAt1 V c (t.val + 1) t.isLt)
      ∗ Pipeline.scopedRestBut (Ix := Unit) (Name := ℕ) (U := UR sig nD τ) (Lvl := ℕ) (Val := Elt F) spec1 c [cc1_scratch0]
      ∗ (∃ r, prngReg c r)) := by
  dsimp only [dat1]; simp only [Fin.val_succ]; exact Phi1_pos V c _ _ (Nat.succ_ne_zero _)

/-- Before any point has run the accumulation is the zero block. -/
theorem accAt1_of_zero (c : Dev nD) (n : ℕ) (h : n ≤ cfg1.N) (hz : n = 0) : accAt1 V c n h = k1_pay1 := by
  subst hz; rfl

/-! ## The body obligation, at a generic point -/

/-- What the body is called with at point `t` (the library's body obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4000000 in
/-- The body at any point. The inputs' memrefs hold their blocks; the closed forms of the two conditions say which of the
    three control cases the point is in, and that case's triple applies. The invariant hands the body the scratch — at
    anything at the first point, at what the points before accumulated afterwards — and takes it back at what the points
    up to this one accumulated; the other scoped buffers, the generator register and the core's `owes` pass through
    unread; the output window's memref is handed back as it was found except at the last point, where it holds the
    accumulation. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl, Phi1_succ V c t, Phi1_castSucc V c t]
  have hN : t.val < 10 := lt_of_lt_of_eq t.isLt (show cfg1.N = 10 from N_1)
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [accAt1_succ V c t]
  by_cases hL : t.val % 10 = 9
  · have hcC : cond1_1 (grid1.coords t) := (hcond1_1 t).mpr hL
    have hcR : ¬cond1_0 (grid1.coords t) := fun h => by have := (hcond1_0 t).mp h; omega
    have hz : t.val ≠ 0 := by omega
    rw [show (dat1 V c).leavesExact 2 t = owns (c : Thread nD τ) (st1_2 t) fullShare ((dat1 V c).after 2 t) from by
      unfold Dat.leavesExact; rw [liveAt1_2 t hcC], after1_2, accAt1_succ V c t]
    rw [Phi1_pos V c _ _ hz]
    iintro ⟨⟨HS, Hrest, Hg⟩, Ho, ⟨%dX, HX⟩, ⟨%dB, HB⟩, ⟨%dO, HO⟩⟩
    iapply (sound_last1 c Set.univ (grid1.coords t) _ _ _ _ _ _ _ _ hcR hcC (iblk1 V c 0 t) (iblk1 V c 1 t)
      (accAt1 V c t.val (Nat.le_of_lt t.isLt)) _)
    isplitl [HX]; · iexact HX
    isplitl [HB]; · iexact HB
    isplitl [HO]; · iexists _; iexact HO
    isplitl [HS]; · iexact HS
    iintro ⟨HX, HB, HO, HS⟩
    isplitl [HS Hrest Hg]
    · isplitl [HS]; · iexact HS
      isplitl [Hrest]; · iexact Hrest
      iexact Hg
    isplitl [Ho]; · iexact Ho
    isplitl [HX]; · iexact HX
    isplitl [HB]; · iexact HB
    iexact HO
  · have hcC : ¬cond1_1 (grid1.coords t) := fun h => hL ((hcond1_1 t).mp h)
    rw [Dat.leavesExact_idle (dat1 V c) 2 t (idleAt1_2 t hcC) (noFlush1_2 t hcC)]
    by_cases hF : t.val % 10 = 0
    · have hcR : cond1_0 (grid1.coords t) := (hcond1_0 t).mpr hF
      have hz : t.val = 0 := by omega
      rw [Phi1_zero V c _ _ hz, PhiA1_eq, accAt1_of_zero V c _ _ hz]
      iintro ⟨⟨⟨HS, Hrest⟩, Hg⟩, Ho, ⟨%dX, HX⟩, ⟨%dB, HB⟩, ⟨%dO, HO⟩⟩
      iapply (sound_first1 c Set.univ (grid1.coords t) _ _ _ _ _ _ _ _ hcR hcC (iblk1 V c 0 t) (iblk1 V c 1 t) _)
      isplitl [HX]; · iexact HX
      isplitl [HB]; · iexact HB
      isplitl [HS]; · iexact HS
      iintro ⟨HX, HB, HS⟩
      isplitl [HS Hrest Hg]
      · isplitl [HS]; · iexact HS
        isplitl [Hrest]; · iexact Hrest
        iexact Hg
      isplitl [Ho]; · iexact Ho
      isplitl [HX]; · iexact HX
      isplitl [HB]; · iexact HB
      iexists _; iexact HO
    · have hcR : ¬cond1_0 (grid1.coords t) := fun h => hF ((hcond1_0 t).mp h)
      have hz : t.val ≠ 0 := by omega
      rw [Phi1_pos V c _ _ hz]
      iintro ⟨⟨HS, Hrest, Hg⟩, Ho, ⟨%dX, HX⟩, ⟨%dB, HB⟩, ⟨%dO, HO⟩⟩
      iapply (sound_mid1 c Set.univ (grid1.coords t) _ _ _ _ _ _ _ _ hcR hcC (iblk1 V c 0 t) (iblk1 V c 1 t)
        (accAt1 V c t.val (Nat.le_of_lt t.isLt)) _)
      isplitl [HX]; · iexact HX
      isplitl [HB]; · iexact HB
      isplitl [HS]; · iexact HS
      iintro ⟨HX, HB, HS⟩
      isplitl [HS Hrest Hg]
      · isplitl [HS]; · iexact HS
        isplitl [Hrest]; · iexact Hrest
        iexact Hg
      isplitl [Ho]; · iexact Ho
      isplitl [HX]; · iexact HX
      isplitl [HB]; · iexact HB
      iexists _; iexact HO

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem PhiIn1 (c : Dev nD) : Pipeline.ΦA spec1 c ⊢ (dat1 V c).Φ 0 := by
  rw [show (dat1 V c).Φ 0 = Phi1 V c 0 (Nat.zero_le _) from rfl, Phi1_zero V c 0 _ rfl]

/-- After the last point the invariant gives the class's back: the scratch's named contents are forgotten. -/
theorem PhiOut1 (c : Dev nD) : (dat1 V c).Φ (Fin.last _) ⊢ Pipeline.ΦA spec1 c := by
  rw [show (dat1 V c).Φ (Fin.last _) = Phi1 V c cfg1.N (Nat.le_refl _) from rfl,
    Phi1_pos V c _ _ (by rw [show cfg1.N = 10 from N_1]; decide), PhiA1_eq]
  iintro ⟨HS, Hrest, Hg⟩
  isplitl [HS Hrest]
  · isplitl [HS]
    · iexists _; iexact HS
    iexact Hrest
  iexact Hg

end Cert.KernelIdeal.Hand

end
-- ==== Proof.VnRegion2.lean ====
/- Region 2 of @main, custom_call 2, the virtual node's two-layer perceptron `cc2__vn_mlp_kernel`: the frame half of its pipeline, at any float model `F` and at a PARAMETER `V`, the
   TensorCore's buffer contents when the region is entered. The grid is one point and every window's block is its whole
   array. Each input window's staging buffer holds its block; the output's, after the body, holds what the body's one store
   leaves, a function `out2_9` of the input blocks; the body's triple is run on whole staging memrefs; the pipeline's proof
   data carries the arrays at `V`, the untouched invariant, full shares and nothing owed; and the library's body obligation
   follows at the one point. -/
import proofs.«403491_j395136991532_1_alg».proof.Proof.Gen.KernelIdeal.Launch
import proofs.«403491_j395136991532_1_alg».proof.Proof.Gen.KernelIdeal.Skeleton
import proofs.«403491_j395136991532_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof data
    whose array is `V`'s and whose body leaves the block in place: the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof data
    whose array is `V`'s and whose body leaves the block in place: the window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof data
    whose array is `V`'s and whose body leaves the block in place: the window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof data
    whose array is `V`'s and whose body leaves the block in place: the window is uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof data
    whose array is `V`'s and whose body leaves the block in place: the window is uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not, for any proof data
    whose array is `V`'s and whose body leaves the block in place: the window is uncut and never idle. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block at every point, fetched there or not, for any proof data
    whose array is `V`'s and whose body leaves the block in place: the window is uncut and never idle. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7's current staging buffer holds its block at every point, fetched there or not, for any proof data
    whose array is `V`'s and whose body leaves the block in place: the window is uncut and never idle. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-- Input window 8's current staging buffer holds its block at every point, fetched there or not, for any proof data
    whose array is `V`'s and whose body leaves the block in place: the window is uncut and never idle. -/
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each is a whole buffer -/

abbrev r2_0 : Rect S256x128 := Rect.unit (s := S256x128) ![0, 0] S256x128.size inb_S256x128_S256x128_0_0
abbrev r2_1 : Rect S128x256 := Rect.unit (s := S128x256) ![0, 0] S128x256.size inb_S128x256_S128x256_0_0
abbrev r2_2 : Rect S1x256 := Rect.unit (s := S1x256) ![0, 0] S1x256.size inb_S1x256_S1x256_0_0
abbrev r2_3 : Rect S1x128 := Rect.unit (s := S1x128) ![0, 0] S1x128.size inb_S1x128_S1x128_0_0

/-! ## What the body leaves in the output window's buffer -/

/-- Window 9's staging buffer after the body, from the input windows' blocks: its one store as a piece (the payload is
    the skeleton's). -/
def out2_9 (x0 : Vec F S256x128 .f32) (x1 : Vec F S128x256 .bf16) (x2 : Vec F S1x256 .f32) (x3 : Vec F S1x256 .f32) (x4 : Vec F S1x256 .f32) (x5 : Vec F S256x128 .bf16) (x6 : Vec F S1x128 .f32) (x7 : Vec F S1x128 .f32) (x8 : Vec F S1x128 .f32) : Vec F S256x128 .f32 :=
  View.canon [⟨r2_0, k2_pay1 (k2_pay2 (View.ld x0 r2_0) (View.ld x1 r2_1) (View.ld x2 r2_2) (View.ld x3 r2_2) (View.ld x4 r2_2) (View.ld x5 r2_0) (View.ld x6 r2_3) (View.ld x7 r2_3) (View.ld x8 r2_3)) k2_pay3⟩]

/-- The one store is of the whole buffer, so it covers it. -/
theorem cover2_9 (p0 : Vec F S256x128 .f32) (y : S256x128.Idx) :
    ∃ pc ∈ ([⟨r2_0, p0⟩] : List (View.Piece (Elt F) S256x128 .f32)), y ∈ pc.1.set :=
  View.cover_of_tiled [⟨r2_0, p0⟩] S256x128.size (by rfl) y

/-! ## The body's triple -/

set_option maxHeartbeats 1000000 in
/-- The kernel body on whole staging memrefs, the inputs' at read contents `xW` and the output's at anything, runs to the
    continuation holding the inputs' as they were and the output's at `out2_9` of the inputs': the printed functions are
    their skeletons of memory operations over payloads, which are run operation by operation, through the part call. -/
theorem sound_kernel2 (c : Dev nD) (E : Set ℕ) (i : grid2.Coords) (arg1 : Memref sig .tc .vmem S256x128 .f32) (harg1 : arg1.IsWhole) (arg2 : Memref sig .tc .vmem S128x256 .bf16) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x128 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole)
    (x0 : Vec F S256x128 .f32) (x1 : Vec F S128x256 .bf16) (x2 : Vec F S1x256 .f32) (x3 : Vec F S1x256 .f32) (x4 : Vec F S1x256 .f32) (x5 : Vec F S256x128 .bf16) (x6 : Vec F S1x128 .f32) (x7 : Vec F S1x128 .f32) (x8 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out2_9 x0 x1 x2 x3 x4 x5 x6 x7 x8)) -∗ K ⟨⟩))
      ⊢ wp frame (wpE (defs₀ (F := F)) Variants.none c none) E (cc2__vn_mlp_kernel i arg1 harg1 arg2 harg2 arg3 harg3 arg4 harg4 arg5 harg5 arg6 harg6 arg7 harg7 arg8 harg8 arg9 harg9 arg10 harg10) K := by
  simp only [cc2__vn_mlp_kernel_eq_skeleton]; unfold cc2__vn_mlp_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover2_9 _)

/-! ## The pipeline's proof data -/

/-- The proof data of pipeline 2 on core `c`: the arrays as the region finds them (`V`); after the body at point `t` each
    input's buffer at its block and the output's at `out2_9` of the input blocks; the invariant the scoped rest and the
    generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => out2_9 (iblk2 V c 0 t) (iblk2 V c 1 t) (iblk2 V c 2 t) (iblk2 V c 3 t) (iblk2 V c 4 t) (iblk2 V c 5 t) (iblk2 V c 6 t) (iblk2 V c 7 t) (iblk2 V c 8 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = out2_9 (iblk2 V c 0 t) (iblk2 V c 1 t) (iblk2 V c 2 t) (iblk2 V c 3 t) (iblk2 V c 4 t) (iblk2 V c 5 t) (iblk2 V c 6 t) (iblk2 V c 7 t) (iblk2 V c 8 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d

/-- The invariant at the region's entry is the class's, -/
theorem PhiIn2 (c : Dev nD) : Pipeline.ΦA spec2 c ⊢ (dat2 V c).Φ 0 := .rfl

/-- and at its exit. -/
theorem PhiOut2 (c : Dev nD) : (dat2 V c).Φ (Fin.last _) ⊢ Pipeline.ΦA spec2 c := .rfl

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t))

/-- The body at any point: the inputs' memrefs hold their blocks, so the body's triple applies; the invariant and the core's
    debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel2 c Set.univ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.GinRegion3.lean ====
import proofs.«403491_j395136991532_1_alg».proof.Proof.Gen.KernelIdeal.Launch
import proofs.«403491_j395136991532_1_alg».proof.Proof.Gen.KernelIdeal.Skeleton
import proofs.«403491_j395136991532_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 3 (pipeline 3, the per-node two-layer perceptron on 5000-row tiles): the frame half

Stated at a parameter `V`, the TensorCore's buffer contents when the region is entered. Eleven input windows
(the two tiled operands and nine resident ones) and one tiled output window. The body reads every input buffer
whole, computes, and overwrites the output buffer whole; so after the body each input buffer still holds its
block, and the output buffer holds one closed function of the eleven input blocks. -/

-- membership in a rectangle of 5000 rows: the structural look recurses once per coordinate of the long axis
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not (not fetched:
    the block index has not moved), for any proof data whose array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not (not fetched:
    the block index has not moved), for any proof data whose array is `V`'s and whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not (not fetched:
    the block index has not moved), for any proof data whose array is `V`'s and whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not (not fetched:
    the block index has not moved), for any proof data whose array is `V`'s and whose body leaves the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not (not fetched:
    the block index has not moved), for any proof data whose array is `V`'s and whose body leaves the block in place. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's current staging buffer holds its block at every point, fetched there or not (not fetched:
    the block index has not moved), for any proof data whose array is `V`'s and whose body leaves the block in place. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- Input window 6's current staging buffer holds its block at every point, fetched there or not (not fetched:
    the block index has not moved), for any proof data whose array is `V`'s and whose body leaves the block in place. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-- Input window 7's current staging buffer holds its block at every point, fetched there or not (not fetched:
    the block index has not moved), for any proof data whose array is `V`'s and whose body leaves the block in place. -/
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)

/-- Input window 8's current staging buffer holds its block at every point, fetched there or not (not fetched:
    the block index has not moved), for any proof data whose array is `V`'s and whose body leaves the block in place. -/
theorem before3_8_of {c : Dev nD} (dat : Dat τ (Elt F) Unit ℕ (UR sig nD τ) ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)

/-- Input window 9's current staging buffer holds its block at every point, fetched there or not (not fetched:
    the block index has not moved), for any proof data whose array is `V`'s and whose body leaves the block in place. -/
theorem before3_9_of {c : Dev nD} (dat : Dat τ (Elt F) Unit ℕ (UR sig nD τ) ℕ cfg3 c) (hA : dat.A 9 = V c (Pipeline.arrRef spec3 9))
    (hafter : ∀ t, dat.after 9 t = iblk3 V c 9 t) (t : Fin cfg3.N) (d) : dat.before 9 t d = iblk3 V c 9 t :=
  (dat.before_in_eq_fetched 9 rfl (fun _ => rfl) (fun _ _ _ => rfl) (fun t => by rw [hafter]; unfold Dat.blockOf iblk3; rw [hA]; try rfl) t d).trans
    (by unfold Dat.fetched Dat.blockOf iblk3; rw [hA]; try rfl)

/-- Input window 10's current staging buffer holds its block at every point, fetched there or not (not fetched:
    the block index has not moved), for any proof data whose array is `V`'s and whose body leaves the block in place. -/
theorem before3_10_of {c : Dev nD} (dat : Dat τ (Elt F) Unit ℕ (UR sig nD τ) ℕ cfg3 c) (hA : dat.A 10 = V c (Pipeline.arrRef spec3 10))
    (hafter : ∀ t, dat.after 10 t = iblk3 V c 10 t) (t : Fin cfg3.N) (d) : dat.before 10 t d = iblk3 V c 10 t :=
  (dat.before_in_eq_fetched 10 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: every buffer whole -/

abbrev r3_a : Rect S5000x128 := Rect.unit (s := S5000x128) ![0, 0] S5000x128.size inb_S5000x128_S5000x128_0_0
abbrev r3_b : Rect S1x1 := Rect.unit (s := S1x1) ![0, 0] S1x1.size inb_S1x1_S1x1_0_0
abbrev r3_c : Rect S128x256 := Rect.unit (s := S128x256) ![0, 0] S128x256.size inb_S128x256_S128x256_0_0
abbrev r3_d : Rect S1x256 := Rect.unit (s := S1x256) ![0, 0] S1x256.size inb_S1x256_S1x256_0_0
abbrev r3_e : Rect S256x128 := Rect.unit (s := S256x128) ![0, 0] S256x128.size inb_S256x128_S256x128_0_0
abbrev r3_f : Rect S1x128 := Rect.unit (s := S1x128) ![0, 0] S1x128.size inb_S1x128_S1x128_0_0

/-! ## What the body leaves in the output window's buffer -/

/-- Window 11's staging buffer after the body, from the eleven input blocks: its one store, of the last payload
    (scale and shift, then the layer's final clamp at zero where it has one) over the first (the two matrix products
    with their affine maps and the clamp between). -/
def out3_11 (x0 : Vec F S5000x128 .f32) (x1 : Vec F S5000x128 .f32) (x2 : Vec F S1x1 .f32) (x3 : Vec F S128x256 .bf16) (x4 : Vec F S1x256 .f32) (x5 : Vec F S1x256 .f32) (x6 : Vec F S1x256 .f32) (x7 : Vec F S256x128 .bf16) (x8 : Vec F S1x128 .f32) (x9 : Vec F S1x128 .f32) (x10 : Vec F S1x128 .f32) : Vec F S5000x128 .f32 :=
  View.canon [⟨r3_a, k3_pay1 (k3_pay2 (View.ld x2 r3_b) (View.ld x0 r3_a) (View.ld x1 r3_a) (View.ld x3 r3_c) (View.ld x4 r3_d) (View.ld x5 r3_d) (View.ld x6 r3_d) (View.ld x7 r3_e) (View.ld x8 r3_f)) (View.ld x9 r3_f) (View.ld x10 r3_f)⟩]

/-- The one store is of the whole buffer, so it covers it. -/
theorem cover3_11 (p0 : Vec F S5000x128 .f32) (y : S5000x128.Idx) :
    ∃ pc ∈ ([⟨r3_a, p0⟩] : List (View.Piece (Elt F) S5000x128 .f32)), y ∈ pc.1.set :=
  View.cover_of_tiled [⟨r3_a, p0⟩] S5000x128.size (by rfl) y

/-! ## The body's triple -/

set_option maxHeartbeats 4000000 in
/-- The kernel body on whole staging memrefs, the inputs' at read contents `xW` and the output's at anything, runs to
    the continuation holding the inputs' as they were and the output's at `out3_11` of the inputs'. -/
theorem sound_kernel3 (c : Dev nD) (E : Set ℕ) (i : grid3.Coords) (arg1 : Memref sig .tc .vmem S5000x128 .f32) (harg1 : arg1.IsWhole) (arg2 : Memref sig .tc .vmem S5000x128 .f32) (harg2 : arg2.IsWhole) (arg3 : Memref sig .tc .vmem S1x1 .f32) (harg3 : arg3.IsWhole) (arg4 : Memref sig .tc .vmem S128x256 .bf16) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S256x128 .bf16) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S5000x128 .f32) (harg12 : arg12.IsWhole)
    (x0 : Vec F S5000x128 .f32) (x1 : Vec F S5000x128 .f32) (x2 : Vec F S1x1 .f32) (x3 : Vec F S128x256 .bf16) (x4 : Vec F S1x256 .f32) (x5 : Vec F S1x256 .f32) (x6 : Vec F S1x256 .f32) (x7 : Vec F S256x128 .bf16) (x8 : Vec F S1x128 .f32) (x9 : Vec F S1x128 .f32) (x10 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out3_11 x0 x1 x2 x3 x4 x5 x6 x7 x8 x9 x10)) -∗ K ⟨⟩))
      ⊢ wp frame (wpE (defs₀ (F := F)) Variants.none c none) E (cc3__gin_mlp_kernel i arg1 harg1 arg2 harg2 arg3 harg3 arg4 harg4 arg5 harg5 arg6 harg6 arg7 harg7 arg8 harg8 arg9 harg9 arg10 harg10 arg11 harg11 arg12 harg12) K := by
  simp only [cc3__gin_mlp_kernel_eq_skeleton]; unfold cc3__gin_mlp_kernel_skel
  simp only [k3_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  exact View.read_writes_eq_canon _ _ _ (cover3_11 _)

/-! ## The pipeline's proof data -/

/-- The proof data of pipeline 0 on core `c`: the arrays as the region finds them; after the body at point `t` each
    input's buffer at its block and the output's at `out3_11` of the input blocks; the invariant the untouched rest;
    nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => iblk3 V c 10 t
    | ⟨11, _⟩ => out3_11 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = iblk3 V c 9 t := by dsimp only [dat3]
theorem after3_10 (c : Dev nD) (t : Fin cfg3.N) : (dat3 V c).after 10 t = iblk3 V c 10 t := by dsimp only [dat3]
theorem after3_11 (c : Dev nD) (t : Fin cfg3.N) : (dat3 V c).after 11 t = out3_11 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
theorem before3_8 (c : Dev nD) (t : Fin cfg3.N) (d) : (dat3 V c).before 8 t d = iblk3 V c 8 t :=
  before3_8_of V (dat3 V c) (A_eq3 V c 8) (after3_8 V c) t d
theorem before3_9 (c : Dev nD) (t : Fin cfg3.N) (d) : (dat3 V c).before 9 t d = iblk3 V c 9 t :=
  before3_9_of V (dat3 V c) (A_eq3 V c 9) (after3_9 V c) t d
theorem before3_10 (c : Dev nD) (t : Fin cfg3.N) (d) : (dat3 V c).before 10 t d = iblk3 V c 10 t :=
  before3_10_of V (dat3 V c) (A_eq3 V c 10) (after3_10 V c) t d

/-- The invariant at the region's entry and exit is the untouched rest itself. -/
theorem PhiIn3 (c : Dev nD) : Pipeline.ΦA spec3 c ⊢ (dat3 V c).Φ 0 := .rfl
theorem PhiOut3 (c : Dev nD) : (dat3 V c).Φ (Fin.last _) ⊢ Pipeline.ΦA spec3 c := .rfl

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d))
    ∗ (∃ d, owns (c : Thread nD τ) (st3_10 t) fullShare ((dat3 V c).before 10 t d))
    ∗ (∃ d, owns (c : Thread nD τ) (st3_11 t) fullShare ((dat3 V c).before 11 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t)
    ∗ owns (c : Thread nD τ) (st3_10 t) fullShare ((dat3 V c).after 10 t)
    ∗ owns (c : Thread nD τ) (st3_11 t) fullShare ((dat3 V c).after 11 t))

/-- The body at any point: the inputs' memrefs hold their blocks, so the body's triple applies; the invariant and
    the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8, before3_9, before3_10]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9, after3_10, after3_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel3 c Set.univ _ _ _ _ _ _ _ _ _ _ _ _ _ _ _ _ _ _ _ _ _ _ _ _ _
    (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand
-- ==== Proof.SegRegion4.lean ====
/- Region 4 of @main, custom_call 4, the batch-grouped segment sum `cc4__segsum_kernel`: the frame half of its pipeline,
   at any float model `F` and at a PARAMETER `V`, the TensorCore's buffer contents when the region is entered.
   The grid has ten points. A scratch accumulator (256x128, f32) is carried from point to point: the first point stores
   the zero block into it, every point then adds its 5000-row block's contribution (the transposed one-hot of the
   block's segment ids times the block), and the last point copies it into the output window's staging buffer, which
   the pipeline writes back once. So the invariant between points names what the scratch holds, by recursion on the
   point (`accAt4`); the output window is idle at every point but the last and is handed back there as it was found. -/
import proofs.«403491_j395136991532_1_alg».proof.Proof.Gen.KernelIdeal.Launch
import proofs.«403491_j395136991532_1_alg».proof.Proof.Gen.KernelIdeal.Skeleton
import proofs.«403491_j395136991532_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for any proof data
    whose array is `V`'s and whose body leaves the block in place: the window is uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, likewise. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The body's branch conditions -/

/-- The first conditional's condition (the accumulator's reset), from the grid coordinate. -/
abbrev cond4_0 (i : grid4.Coords) : Prop := (Scalar.cmpi .ne (Scalar.extui (Scalar.cmpi .eq (BitVec.ofNat 32 (i 0).val) 0#32)) 0#32) = 1#1
/-- It holds at the first point only. -/
theorem hcond4_0 : ∀ t : Fin cfg4.N, cond4_0 (grid4.coords t) ↔ t.val % 10 = 0 :=
  (by decide +kernel : ∀ t : Fin grid4.N, cond4_0 (grid4.coords t) ↔ t.val % 10 = 0)

/-- The second conditional's condition (the copy into the output window). -/
abbrev cond4_1 (i : grid4.Coords) : Prop := k4_cond2 i = 1#1
/-- It holds at the last point only. -/
theorem hcond4_1 : ∀ t : Fin cfg4.N, cond4_1 (grid4.coords t) ↔ t.val % 10 = 9 :=
  (by decide +kernel : ∀ t : Fin grid4.N, cond4_1 (grid4.coords t) ↔ t.val % 10 = 9)

/-! ## Where the output window is idle -/

theorem liveAt4_0 : ∀ t : Fin cfg4.N, cfg4.idle 0 (grid4.coords t) = false := by decide +kernel
theorem liveAt4_1 : ∀ t : Fin cfg4.N, cfg4.idle 1 (grid4.coords t) = false := by decide +kernel
/-- Where the copy is not taken the output window is idle, -/
theorem idleAt4_2 : ∀ t : Fin cfg4.N, ¬cond4_1 (grid4.coords t) → cfg4.idle 2 (grid4.coords t) = true := by decide +kernel
/-- and not written back; -/
theorem noFlush4_2 : ∀ t : Fin cfg4.N, ¬cond4_1 (grid4.coords t) → (cfg4.win 2).flush t = false := by decide +kernel
/-- where it is taken the window is live. -/
theorem liveAt4_2 : ∀ t : Fin cfg4.N, cond4_1 (grid4.coords t) → cfg4.idle 2 (grid4.coords t) = false := by decide +kernel

/-! ## Whole-buffer accesses -/

/-- The zero offsets of a two-axis access. -/
theorem hz4 : (![0, 0] : Fin 2 → Nat) = fun _ => 0 := funext fun a => by fin_cases a <;> rfl

/-- A rectangle of the shape's own sizes at zero offsets holds every index. -/
theorem memUnit4 {S : Shape} {off : Fin S.rank → Nat} (h : off = fun _ => 0) (inb : ∀ a, off a + S.size a ≤ S.size a) (y : S.Idx) :
    y ∈ (Rect.unit off S.size inb).set := by
  subst h; show y ∈ (Rect.whole S).set; rw [Rect.set_whole]; exact Finset.mem_univ y

/-- A store through such a rectangle, made last, leaves its payload, whatever was stored before and whatever the
    buffer held. -/
theorem readLast4 {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f (⟨Rect.unit off S.size inb, w⟩ :: L)) = w := by
  rw [View.read_writes_eq_canon _ _ _ (fun y => ⟨_, List.mem_cons_self .., memUnit4 h inb y⟩), View.canon_cons_unit_zero h]

/-! ## The scratch accumulator -/

/-- The scratch operand: a whole scoped buffer of the kernel's own, passed beside the windows. -/
abbrev scM4 : Memref sig .tc .vmem S256x128 .f32 := Memref.whole cc4_scratch0

/-- THE ACCUMULATION. What the scratch holds after `n` points: the zero block the first point stores, then, point by
    point, the sum of what it held and the point's contribution (the payload of the body's second store, over the
    point's two input blocks and what the scratch held). -/
def accAt4 (c : Dev nD) : (n : ℕ) → n ≤ cfg4.N → Vec F S256x128 .f32
  | 0, _ => k4_pay1
  | n + 1, hn => k4_pay2 (iblk4 V c 0 ⟨n, hn⟩) (iblk4 V c 1 ⟨n, hn⟩) (accAt4 c n (Nat.le_of_lt hn))

theorem accAt4_zero (c : Dev nD) (h : 0 ≤ cfg4.N) : accAt4 V c 0 h = k4_pay1 := rfl
theorem accAt4_succ (c : Dev nD) (t : Fin cfg4.N) :
    accAt4 V c (t.val + 1) t.isLt = k4_pay2 (iblk4 V c 0 t) (iblk4 V c 1 t) (accAt4 V c t.val (Nat.le_of_lt t.isLt)) := rfl

/-! ## The body's triple, per control case -/

set_option maxHeartbeats 1000000 in
/-- THE FIRST POINT (the reset taken, the copy not): on whole memrefs, the inputs' at `x` and `b` and the scratch at
    anything, the body runs to the inputs' as they were and the scratch at the zero block plus the point's contribution.
    The output window's memref is not touched. -/
theorem sound_first4 (c : Dev nD) (E : Set ℕ) (i : grid4.Coords)
    (aX : Memref sig .tc .vmem S5000x128 .f32) (hX : aX.IsWhole) (aB : Memref sig .tc .vmem S5000x1 .i32) (hB : aB.IsWhole)
    (aO : Memref sig .tc .vmem S256x128 .f32) (hO : aO.IsWhole) (aS : Memref sig .tc .vmem S256x128 .f32) (hS : aS.IsWhole)
    (hcR : cond4_0 i) (hcC : ¬cond4_1 i)
    (x : Vec F S5000x128 .f32) (b : Vec F S5000x1 .i32) (K : PUnit → sProp 𝕄) :
    iprop(owns (c : Thread nD τ) aX fullShare x ∗ owns (c : Thread nD τ) aB fullShare b ∗ (∃ d, owns (c : Thread nD τ) aS fullShare d)
        ∗ (iprop(owns (c : Thread nD τ) aX fullShare x ∗ owns (c : Thread nD τ) aB fullShare b
            ∗ owns (c : Thread nD τ) aS fullShare (k4_pay2 x b k4_pay1)) -∗ K ⟨⟩))
      ⊢ wp frame (wpE (defs₀ (F := F)) Variants.none c none) E (cc4__segsum_kernel i aX hX aB hB aO hO aS hS) K := by
  simp only [cc4__segsum_kernel_eq_skeleton]; unfold cc4__segsum_kernel_skel
  unfold owns
  iintro ⟨⟨%fX, %hfX, HX⟩, ⟨%fB, %hfB, HB⟩, ⟨%dS, %fS, -, HS⟩, Hk⟩
  obtain rfl := hX.eq_unread hfX; obtain rfl := hB.eq_unread hfB
  sl_exec (disch := first | exact hcR | exact hcC)
  sl_step
  iapply Hk
  isplitl [HX]
  · iexists _; isplitr; · ipureintro; exact hX.read_unread _
    iexact HX
  isplitl [HB]
  · iexists _; isplitr; · ipureintro; exact hB.read_unread _
    iexact HB
  iexists _; isplitr
  swap; · iexact HS
  ipureintro
  sl_unfold_run_names
  rw [readLast4 _ _ hz4, View.readCov_unit_zero _ hz4]
  simp only [View.readAt_eq_ld, hX.read_unread, hB.read_unread,
    View.ld_unit_zero (S := S5000x128) hz4, View.ld_unit_zero (S := S5000x1) hz4]

set_option maxHeartbeats 1000000 in
/-- A MIDDLE POINT (neither conditional taken): the scratch at `a` ends at `a` plus the point's contribution. -/
theorem sound_mid4 (c : Dev nD) (E : Set ℕ) (i : grid4.Coords)
    (aX : Memref sig .tc .vmem S5000x128 .f32) (hX : aX.IsWhole) (aB : Memref sig .tc .vmem S5000x1 .i32) (hB : aB.IsWhole)
    (aO : Memref sig .tc .vmem S256x128 .f32) (hO : aO.IsWhole) (aS : Memref sig .tc .vmem S256x128 .f32) (hS : aS.IsWhole)
    (hcR : ¬cond4_0 i) (hcC : ¬cond4_1 i)
    (x : Vec F S5000x128 .f32) (b : Vec F S5000x1 .i32) (a : Vec F S256x128 .f32) (K : PUnit → sProp 𝕄) :
    iprop(owns (c : Thread nD τ) aX fullShare x ∗ owns (c : Thread nD τ) aB fullShare b ∗ owns (c : Thread nD τ) aS fullShare a
        ∗ (iprop(owns (c : Thread nD τ) aX fullShare x ∗ owns (c : Thread nD τ) aB fullShare b
            ∗ owns (c : Thread nD τ) aS fullShare (k4_pay2 x b a)) -∗ K ⟨⟩))
      ⊢ wp frame (wpE (defs₀ (F := F)) Variants.none c none) E (cc4__segsum_kernel i aX hX aB hB aO hO aS hS) K := by
  simp only [cc4__segsum_kernel_eq_skeleton]; unfold cc4__segsum_kernel_skel
  unfold owns
  iintro ⟨⟨%fX, %hfX, HX⟩, ⟨%fB, %hfB, HB⟩, ⟨%fS, %hfS, HS⟩, Hk⟩
  obtain rfl := hX.eq_unread hfX; obtain rfl := hB.eq_unread hfB; obtain rfl := hS.eq_unread hfS
  sl_exec (disch := first | exact hcR | exact hcC)
  sl_step
  iapply Hk
  isplitl [HX]
  · iexists _; isplitr; · ipureintro; exact hX.read_unread _
    iexact HX
  isplitl [HB]
  · iexists _; isplitr; · ipureintro; exact hB.read_unread _
    iexact HB
  iexists _; isplitr
  swap; · iexact HS
  ipureintro
  rw [readLast4 _ _ hz4]
  simp only [View.readAt_eq_ld, hX.read_unread, hB.read_unread, hS.read_unread,
    View.ld_unit_zero (S := S5000x128) hz4, View.ld_unit_zero (S := S5000x1) hz4, View.ld_unit_zero (S := S256x128) hz4]

set_option maxHeartbeats 1000000 in
/-- THE LAST POINT (the copy taken, the reset not): the scratch at `a` ends at `a` plus the point's contribution, and
    the output window's memref, at anything, ends holding the same. -/
theorem sound_last4 (c : Dev nD) (E : Set ℕ) (i : grid4.Coords)
    (aX : Memref sig .tc .vmem S5000x128 .f32) (hX : aX.IsWhole) (aB : Memref sig .tc .vmem S5000x1 .i32) (hB : aB.IsWhole)
    (aO : Memref sig .tc .vmem S256x128 .f32) (hO : aO.IsWhole) (aS : Memref sig .tc .vmem S256x128 .f32) (hS : aS.IsWhole)
    (hcR : ¬cond4_0 i) (hcC : cond4_1 i)
    (x : Vec F S5000x128 .f32) (b : Vec F S5000x1 .i32) (a : Vec F S256x128 .f32) (K : PUnit → sProp 𝕄) :
    iprop(owns (c : Thread nD τ) aX fullShare x ∗ owns (c : Thread nD τ) aB fullShare b ∗ (∃ d, owns (c : Thread nD τ) aO fullShare d)
        ∗ owns (c : Thread nD τ) aS fullShare a
        ∗ (iprop(owns (c : Thread nD τ) aX fullShare x ∗ owns (c : Thread nD τ) aB fullShare b
            ∗ owns (c : Thread nD τ) aO fullShare (k4_pay2 x b a) ∗ owns (c : Thread nD τ) aS fullShare (k4_pay2 x b a)) -∗ K ⟨⟩))
      ⊢ wp frame (wpE (defs₀ (F := F)) Variants.none c none) E (cc4__segsum_kernel i aX hX aB hB aO hO aS hS) K := by
  simp only [cc4__segsum_kernel_eq_skeleton]; unfold cc4__segsum_kernel_skel
  unfold owns
  iintro ⟨⟨%fX, %hfX, HX⟩, ⟨%fB, %hfB, HB⟩, ⟨%dO, %fO, -, HO⟩, ⟨%fS, %hfS, HS⟩, Hk⟩
  obtain rfl := hX.eq_unread hfX; obtain rfl := hB.eq_unread hfB; obtain rfl := hS.eq_unread hfS
  sl_exec (disch := first | exact hcR | exact hcC)
  sl_step
  iapply Hk
  isplitl [HX]
  · iexists _; isplitr; · ipureintro; exact hX.read_unread _
    iexact HX
  isplitl [HB]
  · iexists _; isplitr; · ipureintro; exact hB.read_unread _
    iexact HB
  isplitl [HO]
  · iexists _; isplitr
    swap; · iexact HO
    ipureintro
    sl_unfold_run_names
    rw [readLast4 _ _ hz4, View.readCov_unit_zero _ hz4]
    simp only [View.readAt_eq_ld, hX.read_unread, hB.read_unread, hS.read_unread,
      View.ld_unit_zero (S := S5000x128) hz4, View.ld_unit_zero (S := S5000x1) hz4, View.ld_unit_zero (S := S256x128) hz4]
  iexists _; isplitr
  swap; · iexact HS
  ipureintro
  sl_unfold_run_names
  rw [readLast4 _ _ hz4]
  simp only [View.readAt_eq_ld, hX.read_unread, hB.read_unread, hS.read_unread,
    View.ld_unit_zero (S := S5000x128) hz4, View.ld_unit_zero (S := S5000x1) hz4, View.ld_unit_zero (S := S256x128) hz4]

/-- The region invariant before position `n`: before the first point the class's (every scratch at anything); afterwards
    the carried scratch at what the points so far accumulated, the other scoped buffers unopened, and the generator
    register at some state. -/
def Phi4 (c : Dev nD) (n : ℕ) (hn : n ≤ cfg4.N) : sProp 𝕄 :=
  if n = 0 then Pipeline.ΦA spec4 c
  else iprop(owns (c : Thread nD τ) scM4 fullShare (accAt4 V c n hn)
      ∗ Pipeline.scopedRestBut (Ix := Unit) (Name := ℕ) (U := UR sig nD τ) (Lvl := ℕ) (Val := Elt F) spec4 c [cc4_scratch0]
      ∗ (∃ r, prngReg c r))

theorem Phi4_zero (c : Dev nD) (n : ℕ) (h : n ≤ cfg4.N) (hz : n = 0) : Phi4 V c n h = Pipeline.ΦA spec4 c := by
  unfold Phi4; exact if_pos hz

theorem Phi4_pos (c : Dev nD) (n : ℕ) (h : n ≤ cfg4.N) (hz : n ≠ 0) :
    Phi4 V c n h = iprop(owns (c : Thread nD τ) scM4 fullShare (accAt4 V c n h)
      ∗ Pipeline.scopedRestBut (Ix := Unit) (Name := ℕ) (U := UR sig nD τ) (Lvl := ℕ) (Val := Elt F) spec4 c [cc4_scratch0]
      ∗ (∃ r, prngReg c r)) := by
  unfold Phi4; exact if_neg hz

/-- The class's invariant with the scratch operand split out of the scoped rest as a memref owned at some contents. -/
theorem PhiA4_eq (c : Dev nD) :
    (Pipeline.ΦA spec4 c : sProp 𝕄)
      = iprop(iprop(iprop((∃ d, owns (c : Thread nD τ) scM4 fullShare d))
          ∗ Pipeline.scopedRestBut (Ix := Unit) (Name := ℕ) (U := UR sig nD τ) (Lvl := ℕ) (Val := Elt F) spec4 c [cc4_scratch0])
        ∗ (∃ r, prngReg c r)) := by
  unfold Pipeline.ΦA; rw [scopedRest4_split]; simp only [scM4, owns_whole]; try rfl

/-! ## The pipeline's proof data -/

/-- The proof data of pipeline 4 on core `c`: the arrays as the region finds them (`V`); after the body at point `t` each
    input's buffer at its block and the output's at what the scratch then holds (consulted at the last point only: the
    window is idle elsewhere); the invariant `Phi4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => accAt4 V c (t.val + 1) t.isLt
  Φ t := Phi4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = accAt4 V c (t.val + 1) t.isLt := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-- The invariant at a point's start, restated at `t.val`. -/
theorem Phi4_castSucc (c : Dev nD) (t : Fin cfg4.N) :
    (dat4 V c).Φ t.castSucc = Phi4 V c t.val (Nat.le_of_lt t.isLt) := by
  dsimp only [dat4]; simp only [Fin.coe_castSucc]

/-- The invariant at a point's end: the carried scratch at what the points up to this one accumulated. -/
theorem Phi4_succ (c : Dev nD) (t : Fin cfg4.N) :
    (dat4 V c).Φ t.succ = iprop(owns (c : Thread nD τ) scM4 fullShare (accAt4 V c (t.val + 1) t.isLt)
      ∗ Pipeline.scopedRestBut (Ix := Unit) (Name := ℕ) (U := UR sig nD τ) (Lvl := ℕ) (Val := Elt F) spec4 c [cc4_scratch0]
      ∗ (∃ r, prngReg c r)) := by
  dsimp only [dat4]; simp only [Fin.val_succ]; exact Phi4_pos V c _ _ (Nat.succ_ne_zero _)

/-- Before any point has run the accumulation is the zero block. -/
theorem accAt4_of_zero (c : Dev nD) (n : ℕ) (h : n ≤ cfg4.N) (hz : n = 0) : accAt4 V c n h = k4_pay1 := by
  subst hz; rfl

/-! ## The body obligation, at a generic point -/

/-- What the body is called with at point `t` (the library's body obligation's precondition, the windows one by one), -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 4000000 in
/-- The body at any point. The inputs' memrefs hold their blocks; the closed forms of the two conditions say which of the
    three control cases the point is in, and that case's triple applies. The invariant hands the body the scratch — at
    anything at the first point, at what the points before accumulated afterwards — and takes it back at what the points
    up to this one accumulated; the other scoped buffers, the generator register and the core's `owes` pass through
    unread; the output window's memref is handed back as it was found except at the last point, where it holds the
    accumulation. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl, Phi4_succ V c t, Phi4_castSucc V c t]
  have hN : t.val < 10 := lt_of_lt_of_eq t.isLt (show cfg4.N = 10 from N_4)
  rw [show (dat4 V c).leavesExact 0 t = owns (c : Thread nD τ) (st4_0 t) fullShare ((dat4 V c).after 0 t) from by
    unfold Dat.leavesExact; rw [liveAt4_0 t], after4_0]
  rw [show (dat4 V c).leavesExact 1 t = owns (c : Thread nD τ) (st4_1 t) fullShare ((dat4 V c).after 1 t) from by
    unfold Dat.leavesExact; rw [liveAt4_1 t], after4_1]
  rw [accAt4_succ V c t]
  by_cases hL : t.val % 10 = 9
  · have hcC : cond4_1 (grid4.coords t) := (hcond4_1 t).mpr hL
    have hcR : ¬cond4_0 (grid4.coords t) := fun h => by have := (hcond4_0 t).mp h; omega
    have hz : t.val ≠ 0 := by omega
    rw [show (dat4 V c).leavesExact 2 t = owns (c : Thread nD τ) (st4_2 t) fullShare ((dat4 V c).after 2 t) from by
      unfold Dat.leavesExact; rw [liveAt4_2 t hcC], after4_2, accAt4_succ V c t]
    rw [Phi4_pos V c _ _ hz]
    iintro ⟨⟨HS, Hrest, Hg⟩, Ho, ⟨%dX, HX⟩, ⟨%dB, HB⟩, ⟨%dO, HO⟩⟩
    iapply (sound_last4 c Set.univ (grid4.coords t) _ _ _ _ _ _ _ _ hcR hcC (iblk4 V c 0 t) (iblk4 V c 1 t)
      (accAt4 V c t.val (Nat.le_of_lt t.isLt)) _)
    isplitl [HX]; · iexact HX
    isplitl [HB]; · iexact HB
    isplitl [HO]; · iexists _; iexact HO
    isplitl [HS]; · iexact HS
    iintro ⟨HX, HB, HO, HS⟩
    isplitl [HS Hrest Hg]
    · isplitl [HS]; · iexact HS
      isplitl [Hrest]; · iexact Hrest
      iexact Hg
    isplitl [Ho]; · iexact Ho
    isplitl [HX]; · iexact HX
    isplitl [HB]; · iexact HB
    iexact HO
  · have hcC : ¬cond4_1 (grid4.coords t) := fun h => hL ((hcond4_1 t).mp h)
    rw [Dat.leavesExact_idle (dat4 V c) 2 t (idleAt4_2 t hcC) (noFlush4_2 t hcC)]
    by_cases hF : t.val % 10 = 0
    · have hcR : cond4_0 (grid4.coords t) := (hcond4_0 t).mpr hF
      have hz : t.val = 0 := by omega
      rw [Phi4_zero V c _ _ hz, PhiA4_eq, accAt4_of_zero V c _ _ hz]
      iintro ⟨⟨⟨HS, Hrest⟩, Hg⟩, Ho, ⟨%dX, HX⟩, ⟨%dB, HB⟩, ⟨%dO, HO⟩⟩
      iapply (sound_first4 c Set.univ (grid4.coords t) _ _ _ _ _ _ _ _ hcR hcC (iblk4 V c 0 t) (iblk4 V c 1 t) _)
      isplitl [HX]; · iexact HX
      isplitl [HB]; · iexact HB
      isplitl [HS]; · iexact HS
      iintro ⟨HX, HB, HS⟩
      isplitl [HS Hrest Hg]
      · isplitl [HS]; · iexact HS
        isplitl [Hrest]; · iexact Hrest
        iexact Hg
      isplitl [Ho]; · iexact Ho
      isplitl [HX]; · iexact HX
      isplitl [HB]; · iexact HB
      iexists _; iexact HO
    · have hcR : ¬cond4_0 (grid4.coords t) := fun h => hF ((hcond4_0 t).mp h)
      have hz : t.val ≠ 0 := by omega
      rw [Phi4_pos V c _ _ hz]
      iintro ⟨⟨HS, Hrest, Hg⟩, Ho, ⟨%dX, HX⟩, ⟨%dB, HB⟩, ⟨%dO, HO⟩⟩
      iapply (sound_mid4 c Set.univ (grid4.coords t) _ _ _ _ _ _ _ _ hcR hcC (iblk4 V c 0 t) (iblk4 V c 1 t)
        (accAt4 V c t.val (Nat.le_of_lt t.isLt)) _)
      isplitl [HX]; · iexact HX
      isplitl [HB]; · iexact HB
      isplitl [HS]; · iexact HS
      iintro ⟨HX, HB, HS⟩
      isplitl [HS Hrest Hg]
      · isplitl [HS]; · iexact HS
        isplitl [Hrest]; · iexact Hrest
        iexact Hg
      isplitl [Ho]; · iexact Ho
      isplitl [HX]; · iexact HX
      isplitl [HB]; · iexact HB
      iexists _; iexact HO

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem PhiIn4 (c : Dev nD) : Pipeline.ΦA spec4 c ⊢ (dat4 V c).Φ 0 := by
  rw [show (dat4 V c).Φ 0 = Phi4 V c 0 (Nat.zero_le _) from rfl, Phi4_zero V c 0 _ rfl]

/-- After the last point the invariant gives the class's back: the scratch's named contents are forgotten. -/
theorem PhiOut4 (c : Dev nD) : (dat4 V c).Φ (Fin.last _) ⊢ Pipeline.ΦA spec4 c := by
  rw [show (dat4 V c).Φ (Fin.last _) = Phi4 V c cfg4.N (Nat.le_refl _) from rfl,
    Phi4_pos V c _ _ (by rw [show cfg4.N = 10 from N_4]; decide), PhiA4_eq]
  iintro ⟨HS, Hrest, Hg⟩
  isplitl [HS Hrest]
  · isplitl [HS]
    · iexists _; iexact HS
    iexact Hrest
  iexact Hg

end Cert.KernelIdeal.Hand

end
-- ==== Proof.VnRegion5.lean ====
/- Region 5 of @main, custom_call 5, the virtual node's two-layer perceptron `cc5__vn_mlp_kernel`: the frame half of its pipeline, at any float model `F` and at a PARAMETER `V`, the
   TensorCore's buffer contents when the region is entered. The grid is one point and every window's block is its whole
   array. Each input window's staging buffer holds its block; the output's, after the body, holds what the body's one store
   leaves, a function `out5_9` of the input blocks; the body's triple is run on whole staging memrefs; the pipeline's proof
   data carries the arrays at `V`, the untouched invariant, full shares and nothing owed; and the library's body obligation
   follows at the one point. -/
import proofs.«403491_j395136991532_1_alg».proof.Proof.Gen.KernelIdeal.Launch
import proofs.«403491_j395136991532_1_alg».proof.Proof.Gen.KernelIdeal.Skeleton
import proofs.«403491_j395136991532_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for any proof data
    whose array is `V`'s and whose body leaves the block in place: the window is uncut and never idle. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not, for any proof data
    whose array is `V`'s and whose body leaves the block in place: the window is uncut and never idle. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not, for any proof data
    whose array is `V`'s and whose body leaves the block in place: the window is uncut and never idle. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, fetched there or not, for any proof data
    whose array is `V`'s and whose body leaves the block in place: the window is uncut and never idle. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds its block at every point, fetched there or not, for any proof data
    whose array is `V`'s and whose body leaves the block in place: the window is uncut and never idle. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- Input window 5's current staging buffer holds its block at every point, fetched there or not, for any proof data
    whose array is `V`'s and whose body leaves the block in place: the window is uncut and never idle. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-- Input window 6's current staging buffer holds its block at every point, fetched there or not, for any proof data
    whose array is `V`'s and whose body leaves the block in place: the window is uncut and never idle. -/
theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)

/-- Input window 7's current staging buffer holds its block at every point, fetched there or not, for any proof data
    whose array is `V`'s and whose body leaves the block in place: the window is uncut and never idle. -/
theorem before5_7_of {c : Dev nD} (dat : Dat τ (Elt F) Unit ℕ (UR sig nD τ) ℕ cfg5 c) (hA : dat.A 7 = V c (Pipeline.arrRef spec5 7))
    (hafter : ∀ t, dat.after 7 t = iblk5 V c 7 t) (t : Fin cfg5.N) (d) : dat.before 7 t d = iblk5 V c 7 t :=
  (dat.before_in_eq_fetched 7 rfl (fun _ => rfl) (fun _ _ _ => rfl) (fun t => by rw [hafter]; unfold Dat.blockOf iblk5; rw [hA]; try rfl) t d).trans
    (by unfold Dat.fetched Dat.blockOf iblk5; rw [hA]; try rfl)

/-- Input window 8's current staging buffer holds its block at every point, fetched there or not, for any proof data
    whose array is `V`'s and whose body leaves the block in place: the window is uncut and never idle. -/
theorem before5_8_of {c : Dev nD} (dat : Dat τ (Elt F) Unit ℕ (UR sig nD τ) ℕ cfg5 c) (hA : dat.A 8 = V c (Pipeline.arrRef spec5 8))
    (hafter : ∀ t, dat.after 8 t = iblk5 V c 8 t) (t : Fin cfg5.N) (d) : dat.before 8 t d = iblk5 V c 8 t :=
  (dat.before_in_eq_fetched 8 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each is a whole buffer -/

abbrev r5_0 : Rect S256x128 := Rect.unit (s := S256x128) ![0, 0] S256x128.size inb_S256x128_S256x128_0_0
abbrev r5_1 : Rect S128x256 := Rect.unit (s := S128x256) ![0, 0] S128x256.size inb_S128x256_S128x256_0_0
abbrev r5_2 : Rect S1x256 := Rect.unit (s := S1x256) ![0, 0] S1x256.size inb_S1x256_S1x256_0_0
abbrev r5_3 : Rect S1x128 := Rect.unit (s := S1x128) ![0, 0] S1x128.size inb_S1x128_S1x128_0_0

/-! ## What the body leaves in the output window's buffer -/

/-- Window 9's staging buffer after the body, from the input windows' blocks: its one store as a piece (the payload is
    the skeleton's). -/
def out5_9 (x0 : Vec F S256x128 .f32) (x1 : Vec F S128x256 .bf16) (x2 : Vec F S1x256 .f32) (x3 : Vec F S1x256 .f32) (x4 : Vec F S1x256 .f32) (x5 : Vec F S256x128 .bf16) (x6 : Vec F S1x128 .f32) (x7 : Vec F S1x128 .f32) (x8 : Vec F S1x128 .f32) : Vec F S256x128 .f32 :=
  View.canon [⟨r5_0, k5_pay1 (k5_pay2 (View.ld x0 r5_0) (View.ld x1 r5_1) (View.ld x2 r5_2) (View.ld x3 r5_2) (View.ld x4 r5_2) (View.ld x5 r5_0) (View.ld x6 r5_3) (View.ld x7 r5_3) (View.ld x8 r5_3)) k5_pay3⟩]

/-- The one store is of the whole buffer, so it covers it. -/
theorem cover5_9 (p0 : Vec F S256x128 .f32) (y : S256x128.Idx) :
    ∃ pc ∈ ([⟨r5_0, p0⟩] : List (View.Piece (Elt F) S256x128 .f32)), y ∈ pc.1.set :=
  View.cover_of_tiled [⟨r5_0, p0⟩] S256x128.size (by rfl) y

/-! ## The body's triple -/

set_option maxHeartbeats 1000000 in
/-- The kernel body on whole staging memrefs, the inputs' at read contents `xW` and the output's at anything, runs to the
    continuation holding the inputs' as they were and the output's at `out5_9` of the inputs': the printed functions are
    their skeletons of memory operations over payloads, which are run operation by operation, through the part call. -/
theorem sound_kernel5 (c : Dev nD) (E : Set ℕ) (i : grid5.Coords) (arg1 : Memref sig .tc .vmem S256x128 .f32) (harg1 : arg1.IsWhole) (arg2 : Memref sig .tc .vmem S128x256 .bf16) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x128 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole)
    (x0 : Vec F S256x128 .f32) (x1 : Vec F S128x256 .bf16) (x2 : Vec F S1x256 .f32) (x3 : Vec F S1x256 .f32) (x4 : Vec F S1x256 .f32) (x5 : Vec F S256x128 .bf16) (x6 : Vec F S1x128 .f32) (x7 : Vec F S1x128 .f32) (x8 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out5_9 x0 x1 x2 x3 x4 x5 x6 x7 x8)) -∗ K ⟨⟩))
      ⊢ wp frame (wpE (defs₀ (F := F)) Variants.none c none) E (cc5__vn_mlp_kernel i arg1 harg1 arg2 harg2 arg3 harg3 arg4 harg4 arg5 harg5 arg6 harg6 arg7 harg7 arg8 harg8 arg9 harg9 arg10 harg10) K := by
  simp only [cc5__vn_mlp_kernel_eq_skeleton]; unfold cc5__vn_mlp_kernel_skel
  simp only [k5_part1_eq_skeleton]; unfold k5_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover5_9 _)

/-! ## The pipeline's proof data -/

/-- The proof data of pipeline 5 on core `c`: the arrays as the region finds them (`V`); after the body at point `t` each
    input's buffer at its block and the output's at `out5_9` of the input blocks; the invariant the scoped rest and the
    generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => iblk5 V c 7 t
    | ⟨8, _⟩ => iblk5 V c 8 t
    | ⟨9, _⟩ => out5_9 (iblk5 V c 0 t) (iblk5 V c 1 t) (iblk5 V c 2 t) (iblk5 V c 3 t) (iblk5 V c 4 t) (iblk5 V c 5 t) (iblk5 V c 6 t) (iblk5 V c 7 t) (iblk5 V c 8 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = iblk5 V c 7 t := by dsimp only [dat5]
theorem after5_8 (c : Dev nD) (t : Fin cfg5.N) : (dat5 V c).after 8 t = iblk5 V c 8 t := by dsimp only [dat5]
theorem after5_9 (c : Dev nD) (t : Fin cfg5.N) : (dat5 V c).after 9 t = out5_9 (iblk5 V c 0 t) (iblk5 V c 1 t) (iblk5 V c 2 t) (iblk5 V c 3 t) (iblk5 V c 4 t) (iblk5 V c 5 t) (iblk5 V c 6 t) (iblk5 V c 7 t) (iblk5 V c 8 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d
theorem before5_7 (c : Dev nD) (t : Fin cfg5.N) (d) : (dat5 V c).before 7 t d = iblk5 V c 7 t :=
  before5_7_of V (dat5 V c) (A_eq5 V c 7) (after5_7 V c) t d
theorem before5_8 (c : Dev nD) (t : Fin cfg5.N) (d) : (dat5 V c).before 8 t d = iblk5 V c 8 t :=
  before5_8_of V (dat5 V c) (A_eq5 V c 8) (after5_8 V c) t d

/-- The invariant at the region's entry is the class's, -/
theorem PhiIn5 (c : Dev nD) : Pipeline.ΦA spec5 c ⊢ (dat5 V c).Φ 0 := .rfl

/-- and at its exit. -/
theorem PhiOut5 (c : Dev nD) : (dat5 V c).Φ (Fin.last _) ⊢ Pipeline.ΦA spec5 c := .rfl

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d))
    ∗ (∃ d, owns (c : Thread nD τ) (st5_8 t) fullShare ((dat5 V c).before 8 t d))
    ∗ (∃ d, owns (c : Thread nD τ) (st5_9 t) fullShare ((dat5 V c).before 9 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t)
    ∗ owns (c : Thread nD τ) (st5_8 t) fullShare ((dat5 V c).after 8 t)
    ∗ owns (c : Thread nD τ) (st5_9 t) fullShare ((dat5 V c).after 9 t))

/-- The body at any point: the inputs' memrefs hold their blocks, so the body's triple applies; the invariant and the core's
    debts pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6, before5_7, before5_8]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7, after5_8, after5_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel5 c Set.univ _ _ _ _ _ _ _ _ _ _ _ _ _ _ _ _ _ _ _ _ _ (iblk5 V c 0 t) (iblk5 V c 1 t) (iblk5 V c 2 t) (iblk5 V c 3 t) (iblk5 V c 4 t) (iblk5 V c 5 t) (iblk5 V c 6 t) (iblk5 V c 7 t) (iblk5 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.GinRegion6.lean ====
import proofs.«403491_j395136991532_1_alg».proof.Proof.Gen.KernelIdeal.Launch
import proofs.«403491_j395136991532_1_alg».proof.Proof.Gen.KernelIdeal.Skeleton
import proofs.«403491_j395136991532_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 6 (pipeline 6, the per-node two-layer perceptron on 5000-row tiles): the frame half

Stated at a parameter `V`, the TensorCore's buffer contents when the region is entered. Eleven input windows
(the two tiled operands and nine resident ones) and one tiled output window. The body reads every input buffer
whole, computes, and overwrites the output buffer whole; so after the body each input buffer still holds its
block, and the output buffer holds one closed function of the eleven input blocks. -/

-- membership in a rectangle of 5000 rows: the structural look recurses once per coordinate of the long axis
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not (not fetched:
    the block index has not moved), for any proof data whose array is `V`'s and whose body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current staging buffer holds its block at every point, fetched there or not (not fetched:
    the block index has not moved), for any proof data whose array is `V`'s and whose body leaves the block in place. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's current staging buffer holds its block at every point, fetched there or not (not fetched:
    the block index has not moved), for any proof data whose array is `V`'s and whose body leaves the block in place. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3's current staging buffer holds its block at every point, fetched there or not (not fetched:
    the block index has not moved), for any proof data whose array is `V`'s and whose body leaves the block in place. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- Input window 4's current staging buffer holds its block at every point, fetched there or not (not fetched:
    the block index has not moved), for any proof data whose array is `V`'s and whose body leaves the block in place. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-- Input window 5's current staging buffer holds its block at every point, fetched there or not (not fetched:
    the block index has not moved), for any proof data whose array is `V`'s and whose body leaves the block in place. -/
theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)

/-- Input window 6's current staging buffer holds its block at every point, fetched there or not (not fetched:
    the block index has not moved), for any proof data whose array is `V`'s and whose body leaves the block in place. -/
theorem before6_6_of {c : Dev nD} (dat : Dat τ (Elt F) Unit ℕ (UR sig nD τ) ℕ cfg6 c) (hA : dat.A 6 = V c (Pipeline.arrRef spec6 6))
    (hafter : ∀ t, dat.after 6 t = iblk6 V c 6 t) (t : Fin cfg6.N) (d) : dat.before 6 t d = iblk6 V c 6 t :=
  (dat.before_in_eq_fetched 6 rfl (fun _ => rfl) (fun _ _ _ => rfl) (fun t => by rw [hafter]; unfold Dat.blockOf iblk6; rw [hA]; try rfl) t d).trans
    (by unfold Dat.fetched Dat.blockOf iblk6; rw [hA]; try rfl)

/-- Input window 7's current staging buffer holds its block at every point, fetched there or not (not fetched:
    the block index has not moved), for any proof data whose array is `V`'s and whose body leaves the block in place. -/
theorem before6_7_of {c : Dev nD} (dat : Dat τ (Elt F) Unit ℕ (UR sig nD τ) ℕ cfg6 c) (hA : dat.A 7 = V c (Pipeline.arrRef spec6 7))
    (hafter : ∀ t, dat.after 7 t = iblk6 V c 7 t) (t : Fin cfg6.N) (d) : dat.before 7 t d = iblk6 V c 7 t :=
  (dat.before_in_eq_fetched 7 rfl (fun _ => rfl) (fun _ _ _ => rfl) (fun t => by rw [hafter]; unfold Dat.blockOf iblk6; rw [hA]; try rfl) t d).trans
    (by unfold Dat.fetched Dat.blockOf iblk6; rw [hA]; try rfl)

/-- Input window 8's current staging buffer holds its block at every point, fetched there or not (not fetched:
    the block index has not moved), for any proof data whose array is `V`'s and whose body leaves the block in place. -/
theorem before6_8_of {c : Dev nD} (dat : Dat τ (Elt F) Unit ℕ (UR sig nD τ) ℕ cfg6 c) (hA : dat.A 8 = V c (Pipeline.arrRef spec6 8))
    (hafter : ∀ t, dat.after 8 t = iblk6 V c 8 t) (t : Fin cfg6.N) (d) : dat.before 8 t d = iblk6 V c 8 t :=
  (dat.before_in_eq_fetched 8 rfl (fun _ => rfl) (fun _ _ _ => rfl) (fun t => by rw [hafter]; unfold Dat.blockOf iblk6; rw [hA]; try rfl) t d).trans
    (by unfold Dat.fetched Dat.blockOf iblk6; rw [hA]; try rfl)

/-- Input window 9's current staging buffer holds its block at every point, fetched there or not (not fetched:
    the block index has not moved), for any proof data whose array is `V`'s and whose body leaves the block in place. -/
theorem before6_9_of {c : Dev nD} (dat : Dat τ (Elt F) Unit ℕ (UR sig nD τ) ℕ cfg6 c) (hA : dat.A 9 = V c (Pipeline.arrRef spec6 9))
    (hafter : ∀ t, dat.after 9 t = iblk6 V c 9 t) (t : Fin cfg6.N) (d) : dat.before 9 t d = iblk6 V c 9 t :=
  (dat.before_in_eq_fetched 9 rfl (fun _ => rfl) (fun _ _ _ => rfl) (fun t => by rw [hafter]; unfold Dat.blockOf iblk6; rw [hA]; try rfl) t d).trans
    (by unfold Dat.fetched Dat.blockOf iblk6; rw [hA]; try rfl)

/-- Input window 10's current staging buffer holds its block at every point, fetched there or not (not fetched:
    the block index has not moved), for any proof data whose array is `V`'s and whose body leaves the block in place. -/
theorem before6_10_of {c : Dev nD} (dat : Dat τ (Elt F) Unit ℕ (UR sig nD τ) ℕ cfg6 c) (hA : dat.A 10 = V c (Pipeline.arrRef spec6 10))
    (hafter : ∀ t, dat.after 10 t = iblk6 V c 10 t) (t : Fin cfg6.N) (d) : dat.before 10 t d = iblk6 V c 10 t :=
  (dat.before_in_eq_fetched 10 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: every buffer whole -/

abbrev r6_a : Rect S5000x128 := Rect.unit (s := S5000x128) ![0, 0] S5000x128.size inb_S5000x128_S5000x128_0_0
abbrev r6_b : Rect S1x1 := Rect.unit (s := S1x1) ![0, 0] S1x1.size inb_S1x1_S1x1_0_0
abbrev r6_c : Rect S128x256 := Rect.unit (s := S128x256) ![0, 0] S128x256.size inb_S128x256_S128x256_0_0
abbrev r6_d : Rect S1x256 := Rect.unit (s := S1x256) ![0, 0] S1x256.size inb_S1x256_S1x256_0_0
abbrev r6_e : Rect S256x128 := Rect.unit (s := S256x128) ![0, 0] S256x128.size inb_S256x128_S256x128_0_0
abbrev r6_f : Rect S1x128 := Rect.unit (s := S1x128) ![0, 0] S1x128.size inb_S1x128_S1x128_0_0

/-! ## What the body leaves in the output window's buffer -/

/-- Window 11's staging buffer after the body, from the eleven input blocks: its one store, of the last payload
    (scale and shift, then the layer's final clamp at zero where it has one) over the first (the two matrix products
    with their affine maps and the clamp between). -/
def out6_11 (x0 : Vec F S5000x128 .f32) (x1 : Vec F S5000x128 .f32) (x2 : Vec F S1x1 .f32) (x3 : Vec F S128x256 .bf16) (x4 : Vec F S1x256 .f32) (x5 : Vec F S1x256 .f32) (x6 : Vec F S1x256 .f32) (x7 : Vec F S256x128 .bf16) (x8 : Vec F S1x128 .f32) (x9 : Vec F S1x128 .f32) (x10 : Vec F S1x128 .f32) : Vec F S5000x128 .f32 :=
  View.canon [⟨r6_a, k6_pay1 (k6_pay2 (View.ld x2 r6_b) (View.ld x0 r6_a) (View.ld x1 r6_a) (View.ld x3 r6_c) (View.ld x4 r6_d) (View.ld x5 r6_d) (View.ld x6 r6_d) (View.ld x7 r6_e) (View.ld x8 r6_f)) (View.ld x9 r6_f) (View.ld x10 r6_f)⟩]

/-- The one store is of the whole buffer, so it covers it. -/
theorem cover6_11 (p0 : Vec F S5000x128 .f32) (y : S5000x128.Idx) :
    ∃ pc ∈ ([⟨r6_a, p0⟩] : List (View.Piece (Elt F) S5000x128 .f32)), y ∈ pc.1.set :=
  View.cover_of_tiled [⟨r6_a, p0⟩] S5000x128.size (by rfl) y

/-! ## The body's triple -/

set_option maxHeartbeats 4000000 in
/-- The kernel body on whole staging memrefs, the inputs' at read contents `xW` and the output's at anything, runs to
    the continuation holding the inputs' as they were and the output's at `out6_11` of the inputs'. -/
theorem sound_kernel6 (c : Dev nD) (E : Set ℕ) (i : grid6.Coords) (arg1 : Memref sig .tc .vmem S5000x128 .f32) (harg1 : arg1.IsWhole) (arg2 : Memref sig .tc .vmem S5000x128 .f32) (harg2 : arg2.IsWhole) (arg3 : Memref sig .tc .vmem S1x1 .f32) (harg3 : arg3.IsWhole) (arg4 : Memref sig .tc .vmem S128x256 .bf16) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S256x128 .bf16) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S5000x128 .f32) (harg12 : arg12.IsWhole)
    (x0 : Vec F S5000x128 .f32) (x1 : Vec F S5000x128 .f32) (x2 : Vec F S1x1 .f32) (x3 : Vec F S128x256 .bf16) (x4 : Vec F S1x256 .f32) (x5 : Vec F S1x256 .f32) (x6 : Vec F S1x256 .f32) (x7 : Vec F S256x128 .bf16) (x8 : Vec F S1x128 .f32) (x9 : Vec F S1x128 .f32) (x10 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out6_11 x0 x1 x2 x3 x4 x5 x6 x7 x8 x9 x10)) -∗ K ⟨⟩))
      ⊢ wp frame (wpE (defs₀ (F := F)) Variants.none c none) E (cc6__gin_mlp_kernel i arg1 harg1 arg2 harg2 arg3 harg3 arg4 harg4 arg5 harg5 arg6 harg6 arg7 harg7 arg8 harg8 arg9 harg9 arg10 harg10 arg11 harg11 arg12 harg12) K := by
  simp only [cc6__gin_mlp_kernel_eq_skeleton]; unfold cc6__gin_mlp_kernel_skel
  simp only [k6_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  exact View.read_writes_eq_canon _ _ _ (cover6_11 _)

/-! ## The pipeline's proof data -/

/-- The proof data of pipeline 0 on core `c`: the arrays as the region finds them; after the body at point `t` each
    input's buffer at its block and the output's at `out6_11` of the input blocks; the invariant the untouched rest;
    nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => iblk6 V c 7 t
    | ⟨8, _⟩ => iblk6 V c 8 t
    | ⟨9, _⟩ => iblk6 V c 9 t
    | ⟨10, _⟩ => iblk6 V c 10 t
    | ⟨11, _⟩ => out6_11 (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) (iblk6 V c 10 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = iblk6 V c 6 t := by dsimp only [dat6]
theorem after6_7 (c : Dev nD) (t : Fin cfg6.N) : (dat6 V c).after 7 t = iblk6 V c 7 t := by dsimp only [dat6]
theorem after6_8 (c : Dev nD) (t : Fin cfg6.N) : (dat6 V c).after 8 t = iblk6 V c 8 t := by dsimp only [dat6]
theorem after6_9 (c : Dev nD) (t : Fin cfg6.N) : (dat6 V c).after 9 t = iblk6 V c 9 t := by dsimp only [dat6]
theorem after6_10 (c : Dev nD) (t : Fin cfg6.N) : (dat6 V c).after 10 t = iblk6 V c 10 t := by dsimp only [dat6]
theorem after6_11 (c : Dev nD) (t : Fin cfg6.N) : (dat6 V c).after 11 t = out6_11 (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) (iblk6 V c 10 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d
theorem before6_6 (c : Dev nD) (t : Fin cfg6.N) (d) : (dat6 V c).before 6 t d = iblk6 V c 6 t :=
  before6_6_of V (dat6 V c) (A_eq6 V c 6) (after6_6 V c) t d
theorem before6_7 (c : Dev nD) (t : Fin cfg6.N) (d) : (dat6 V c).before 7 t d = iblk6 V c 7 t :=
  before6_7_of V (dat6 V c) (A_eq6 V c 7) (after6_7 V c) t d
theorem before6_8 (c : Dev nD) (t : Fin cfg6.N) (d) : (dat6 V c).before 8 t d = iblk6 V c 8 t :=
  before6_8_of V (dat6 V c) (A_eq6 V c 8) (after6_8 V c) t d
theorem before6_9 (c : Dev nD) (t : Fin cfg6.N) (d) : (dat6 V c).before 9 t d = iblk6 V c 9 t :=
  before6_9_of V (dat6 V c) (A_eq6 V c 9) (after6_9 V c) t d
theorem before6_10 (c : Dev nD) (t : Fin cfg6.N) (d) : (dat6 V c).before 10 t d = iblk6 V c 10 t :=
  before6_10_of V (dat6 V c) (A_eq6 V c 10) (after6_10 V c) t d

/-- The invariant at the region's entry and exit is the untouched rest itself. -/
theorem PhiIn6 (c : Dev nD) : Pipeline.ΦA spec6 c ⊢ (dat6 V c).Φ 0 := .rfl
theorem PhiOut6 (c : Dev nD) : (dat6 V c).Φ (Fin.last _) ⊢ Pipeline.ΦA spec6 c := .rfl

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d))
    ∗ (∃ d, owns (c : Thread nD τ) (st6_7 t) fullShare ((dat6 V c).before 7 t d))
    ∗ (∃ d, owns (c : Thread nD τ) (st6_8 t) fullShare ((dat6 V c).before 8 t d))
    ∗ (∃ d, owns (c : Thread nD τ) (st6_9 t) fullShare ((dat6 V c).before 9 t d))
    ∗ (∃ d, owns (c : Thread nD τ) (st6_10 t) fullShare ((dat6 V c).before 10 t d))
    ∗ (∃ d, owns (c : Thread nD τ) (st6_11 t) fullShare ((dat6 V c).before 11 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t)
    ∗ owns (c : Thread nD τ) (st6_7 t) fullShare ((dat6 V c).after 7 t)
    ∗ owns (c : Thread nD τ) (st6_8 t) fullShare ((dat6 V c).after 8 t)
    ∗ owns (c : Thread nD τ) (st6_9 t) fullShare ((dat6 V c).after 9 t)
    ∗ owns (c : Thread nD τ) (st6_10 t) fullShare ((dat6 V c).after 10 t)
    ∗ owns (c : Thread nD τ) (st6_11 t) fullShare ((dat6 V c).after 11 t))

/-- The body at any point: the inputs' memrefs hold their blocks, so the body's triple applies; the invariant and
    the core's `owes` pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5, before6_6, before6_7, before6_8, before6_9, before6_10]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6, after6_7, after6_8, after6_9, after6_10, after6_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel6 c Set.univ _ _ _ _ _ _ _ _ _ _ _ _ _ _ _ _ _ _ _ _ _ _ _ _ _
    (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) (iblk6 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Hand
-- ==== Proof.SegRegion7.lean ====
/- Region 7 of @main, custom_call 7, the batch-grouped segment sum `cc7__segsum_kernel`: the frame half of its pipeline,
   at any float model `F` and at a PARAMETER `V`, the TensorCore's buffer contents when the region is entered.
   The grid has ten points. A scratch accumulator (256x128, f32) is carried from point to point: the first point stores
   the zero block into it, every point then adds its 5000-row block's contribution (the transposed one-hot of the
   block's segment ids times the block), and the last point copies it into the output window's staging buffer, which
   the pipeline writes back once. So the invariant between points names what the scratch holds, by recursion on the
   point (`accAt7`); the output window is idle at every point but the last and is handed back there as it was found. -/
import proofs.«403491_j395136991532_1_alg».proof.Proof.Gen.KernelIdeal.Launch
import proofs.«403491_j395136991532_1_alg».proof.Proof.Gen.KernelIdeal.Skeleton
import proofs.«403491_j395136991532_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, fetched there or not, for any proof data
    whose array is `V`'s and whose body leaves the block in place: the window is uncut and never idle. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer holds its block at every point, likewise. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-! ## The body's branch conditions -/

/-- The first conditional's condition (the accumulator's reset), from the grid coordinate. -/
abbrev cond7_0 (i : grid7.Coords) : Prop := (Scalar.cmpi .ne (Scalar.extui (Scalar.cmpi .eq (BitVec.ofNat 32 (i 0).val) 0#32)) 0#32) = 1#1
/-- It holds at the first point only. -/
theorem hcond7_0 : ∀ t : Fin cfg7.N, cond7_0 (grid7.coords t) ↔ t.val % 10 = 0 :=
  (by decide +kernel : ∀ t : Fin grid7.N, cond7_0 (grid7.coords t) ↔ t.val % 10 = 0)

/-- The second conditional's condition (the copy into the output window). -/
abbrev cond7_1 (i : grid7.Coords) : Prop := k7_cond2 i = 1#1
/-- It holds at the last point only. -/
theorem hcond7_1 : ∀ t : Fin cfg7.N, cond7_1 (grid7.coords t) ↔ t.val % 10 = 9 :=
  (by decide +kernel : ∀ t : Fin grid7.N, cond7_1 (grid7.coords t) ↔ t.val % 10 = 9)

/-! ## Where the output window is idle -/

theorem liveAt7_0 : ∀ t : Fin cfg7.N, cfg7.idle 0 (grid7.coords t) = false := by decide +kernel
theorem liveAt7_1 : ∀ t : Fin cfg7.N, cfg7.idle 1 (grid7.coords t) = false := by decide +kernel
/-- Where the copy is not taken the output window is idle, -/
theorem idleAt7_2 : ∀ t : Fin cfg7.N, ¬cond7_1 (grid7.coords t) → cfg7.idle 2 (grid7.coords t) = true := by decide +kernel
/-- and not written back; -/
theorem noFlush7_2 : ∀ t : Fin cfg7.N, ¬cond7_1 (grid7.coords t) → (cfg7.win 2).flush t = false := by decide +kernel
/-- where it is taken the window is live. -/
theorem liveAt7_2 : ∀ t : Fin cfg7.N, cond7_1 (grid7.coords t) → cfg7.idle 2 (grid7.coords t) = false := by decide +kernel

/-! ## Whole-buffer accesses -/

/-- The zero offsets of a two-axis access. -/
theorem hz7 : (![0, 0] : Fin 2 → Nat) = fun _ => 0 := funext fun a => by fin_cases a <;> rfl

/-- A rectangle of the shape's own sizes at zero offsets holds every index. -/
theorem memUnit7 {S : Shape} {off : Fin S.rank → Nat} (h : off = fun _ => 0) (inb : ∀ a, off a + S.size a ≤ S.size a) (y : S.Idx) :
    y ∈ (Rect.unit off S.size inb).set := by
  subst h; show y ∈ (Rect.whole S).set; rw [Rect.set_whole]; exact Finset.mem_univ y

/-- A store through such a rectangle, made last, leaves its payload, whatever was stored before and whatever the
    buffer held. -/
theorem readLast7 {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f (⟨Rect.unit off S.size inb, w⟩ :: L)) = w := by
  rw [View.read_writes_eq_canon _ _ _ (fun y => ⟨_, List.mem_cons_self .., memUnit7 h inb y⟩), View.canon_cons_unit_zero h]

/-! ## The scratch accumulator -/

/-- The scratch operand: a whole scoped buffer of the kernel's own, passed beside the windows. -/
abbrev scM7 : Memref sig .tc .vmem S256x128 .f32 := Memref.whole cc7_scratch0

/-- THE ACCUMULATION. What the scratch holds after `n` points: the zero block the first point stores, then, point by
    point, the sum of what it held and the point's contribution (the payload of the body's second store, over the
    point's two input blocks and what the scratch held). -/
def accAt7 (c : Dev nD) : (n : ℕ) → n ≤ cfg7.N → Vec F S256x128 .f32
  | 0, _ => k7_pay1
  | n + 1, hn => k7_pay2 (iblk7 V c 0 ⟨n, hn⟩) (iblk7 V c 1 ⟨n, hn⟩) (accAt7 c n (Nat.le_of_lt hn))

theorem accAt7_zero (c : Dev nD) (h : 0 ≤ cfg7.N) : accAt7 V c 0 h = k7_pay1 := rfl
theorem accAt7_succ (c : Dev nD) (t : Fin cfg7.N) :
    accAt7 V c (t.val + 1) t.isLt = k7_pay2 (iblk7 V c 0 t) (iblk7 V c 1 t) (accAt7 V c t.val (Nat.le_of_lt t.isLt)) := rfl

/-! ## The body's triple, per control case -/

set_option maxHeartbeats 1000000 in
/-- THE FIRST POINT (the reset taken, the copy not): on whole memrefs, the inputs' at `x` and `b` and the scratch at
    anything, the body runs to the inputs' as they were and the scratch at the zero block plus the point's contribution.
    The output window's memref is not touched. -/
theorem sound_first7 (c : Dev nD) (E : Set ℕ) (i : grid7.Coords)
    (aX : Memref sig .tc .vmem S5000x128 .f32) (hX : aX.IsWhole) (aB : Memref sig .tc .vmem S5000x1 .i32) (hB : aB.IsWhole)
    (aO : Memref sig .tc .vmem S256x128 .f32) (hO : aO.IsWhole) (aS : Memref sig .tc .vmem S256x128 .f32) (hS : aS.IsWhole)
    (hcR : cond7_0 i) (hcC : ¬cond7_1 i)
    (x : Vec F S5000x128 .f32) (b : Vec F S5000x1 .i32) (K : PUnit → sProp 𝕄) :
    iprop(owns (c : Thread nD τ) aX fullShare x ∗ owns (c : Thread nD τ) aB fullShare b ∗ (∃ d, owns (c : Thread nD τ) aS fullShare d)
        ∗ (iprop(owns (c : Thread nD τ) aX fullShare x ∗ owns (c : Thread nD τ) aB fullShare b
            ∗ owns (c : Thread nD τ) aS fullShare (k7_pay2 x b k7_pay1)) -∗ K ⟨⟩))
      ⊢ wp frame (wpE (defs₀ (F := F)) Variants.none c none) E (cc7__segsum_kernel i aX hX aB hB aO hO aS hS) K := by
  simp only [cc7__segsum_kernel_eq_skeleton]; unfold cc7__segsum_kernel_skel
  unfold owns
  iintro ⟨⟨%fX, %hfX, HX⟩, ⟨%fB, %hfB, HB⟩, ⟨%dS, %fS, -, HS⟩, Hk⟩
  obtain rfl := hX.eq_unread hfX; obtain rfl := hB.eq_unread hfB
  sl_exec (disch := first | exact hcR | exact hcC)
  sl_step
  iapply Hk
  isplitl [HX]
  · iexists _; isplitr; · ipureintro; exact hX.read_unread _
    iexact HX
  isplitl [HB]
  · iexists _; isplitr; · ipureintro; exact hB.read_unread _
    iexact HB
  iexists _; isplitr
  swap; · iexact HS
  ipureintro
  sl_unfold_run_names
  rw [readLast7 _ _ hz7, View.readCov_unit_zero _ hz7]
  simp only [View.readAt_eq_ld, hX.read_unread, hB.read_unread,
    View.ld_unit_zero (S := S5000x128) hz7, View.ld_unit_zero (S := S5000x1) hz7]

set_option maxHeartbeats 1000000 in
/-- A MIDDLE POINT (neither conditional taken): the scratch at `a` ends at `a` plus the point's contribution. -/
theorem sound_mid7 (c : Dev nD) (E : Set ℕ) (i : grid7.Coords)
    (aX : Memref sig .tc .vmem S5000x128 .f32) (hX : aX.IsWhole) (aB : Memref sig .tc .vmem S5000x1 .i32) (hB : aB.IsWhole)
    (aO : Memref sig .tc .vmem S256x128 .f32) (hO : aO.IsWhole) (aS : Memref sig .tc .vmem S256x128 .f32) (hS : aS.IsWhole)
    (hcR : ¬cond7_0 i) (hcC : ¬cond7_1 i)
    (x : Vec F S5000x128 .f32) (b : Vec F S5000x1 .i32) (a : Vec F S256x128 .f32) (K : PUnit → sProp 𝕄) :
    iprop(owns (c : Thread nD τ) aX fullShare x ∗ owns (c : Thread nD τ) aB fullShare b ∗ owns (c : Thread nD τ) aS fullShare a
        ∗ (iprop(owns (c : Thread nD τ) aX fullShare x ∗ owns (c : Thread nD τ) aB fullShare b
            ∗ owns (c : Thread nD τ) aS fullShare (k7_pay2 x b a)) -∗ K ⟨⟩))
      ⊢ wp frame (wpE (defs₀ (F := F)) Variants.none c none) E (cc7__segsum_kernel i aX hX aB hB aO hO aS hS) K := by
  simp only [cc7__segsum_kernel_eq_skeleton]; unfold cc7__segsum_kernel_skel
  unfold owns
  iintro ⟨⟨%fX, %hfX, HX⟩, ⟨%fB, %hfB, HB⟩, ⟨%fS, %hfS, HS⟩, Hk⟩
  obtain rfl := hX.eq_unread hfX; obtain rfl := hB.eq_unread hfB; obtain rfl := hS.eq_unread hfS
  sl_exec (disch := first | exact hcR | exact hcC)
  sl_step
  iapply Hk
  isplitl [HX]
  · iexists _; isplitr; · ipureintro; exact hX.read_unread _
    iexact HX
  isplitl [HB]
  · iexists _; isplitr; · ipureintro; exact hB.read_unread _
    iexact HB
  iexists _; isplitr
  swap; · iexact HS
  ipureintro
  rw [readLast7 _ _ hz7]
  simp only [View.readAt_eq_ld, hX.read_unread, hB.read_unread, hS.read_unread,
    View.ld_unit_zero (S := S5000x128) hz7, View.ld_unit_zero (S := S5000x1) hz7, View.ld_unit_zero (S := S256x128) hz7]

set_option maxHeartbeats 1000000 in
/-- THE LAST POINT (the copy taken, the reset not): the scratch at `a` ends at `a` plus the point's contribution, and
    the output window's memref, at anything, ends holding the same. -/
theorem sound_last7 (c : Dev nD) (E : Set ℕ) (i : grid7.Coords)
    (aX : Memref sig .tc .vmem S5000x128 .f32) (hX : aX.IsWhole) (aB : Memref sig .tc .vmem S5000x1 .i32) (hB : aB.IsWhole)
    (aO : Memref sig .tc .vmem S256x128 .f32) (hO : aO.IsWhole) (aS : Memref sig .tc .vmem S256x128 .f32) (hS : aS.IsWhole)
    (hcR : ¬cond7_0 i) (hcC : cond7_1 i)
    (x : Vec F S5000x128 .f32) (b : Vec F S5000x1 .i32) (a : Vec F S256x128 .f32) (K : PUnit → sProp 𝕄) :
    iprop(owns (c : Thread nD τ) aX fullShare x ∗ owns (c : Thread nD τ) aB fullShare b ∗ (∃ d, owns (c : Thread nD τ) aO fullShare d)
        ∗ owns (c : Thread nD τ) aS fullShare a
        ∗ (iprop(owns (c : Thread nD τ) aX fullShare x ∗ owns (c : Thread nD τ) aB fullShare b
            ∗ owns (c : Thread nD τ) aO fullShare (k7_pay2 x b a) ∗ owns (c : Thread nD τ) aS fullShare (k7_pay2 x b a)) -∗ K ⟨⟩))
      ⊢ wp frame (wpE (defs₀ (F := F)) Variants.none c none) E (cc7__segsum_kernel i aX hX aB hB aO hO aS hS) K := by
  simp only [cc7__segsum_kernel_eq_skeleton]; unfold cc7__segsum_kernel_skel
  unfold owns
  iintro ⟨⟨%fX, %hfX, HX⟩, ⟨%fB, %hfB, HB⟩, ⟨%dO, %fO, -, HO⟩, ⟨%fS, %hfS, HS⟩, Hk⟩
  obtain rfl := hX.eq_unread hfX; obtain rfl := hB.eq_unread hfB; obtain rfl := hS.eq_unread hfS
  sl_exec (disch := first | exact hcR | exact hcC)
  sl_step
  iapply Hk
  isplitl [HX]
  · iexists _; isplitr; · ipureintro; exact hX.read_unread _
    iexact HX
  isplitl [HB]
  · iexists _; isplitr; · ipureintro; exact hB.read_unread _
    iexact HB
  isplitl [HO]
  · iexists _; isplitr
    swap; · iexact HO
    ipureintro
    sl_unfold_run_names
    rw [readLast7 _ _ hz7, View.readCov_unit_zero _ hz7]
    simp only [View.readAt_eq_ld, hX.read_unread, hB.read_unread, hS.read_unread,
      View.ld_unit_zero (S := S5000x128) hz7, View.ld_unit_zero (S := S5000x1) hz7, View.ld_unit_zero (S := S256x128) hz7]
  iexists _; isplitr
  swap; · iexact HS
  ipureintro
  sl_unfold_run_names
  rw [readLast7 _ _ hz7]
  simp only [View.readAt_eq_ld, hX.read_unread, hB.read_unread, hS.read_unread,
    View.ld_unit_zero (S := S5000x128) hz7, View.ld_unit_zero (S := S5000x1) hz7, View.ld_unit_zero (S := S256x128) hz7]

/-- The region invariant before position `n`: before the first point the class's (every scratch at anything); afterwards
    the carried scratch at what the points so far accumulated, the other scoped buffers unopened, and the generator
    register at some state. -/
def Phi7 (c : Dev nD) (n : ℕ) (hn : n ≤ cfg7.N) : sProp 𝕄 :=
  if n = 0 then Pipeline.ΦA spec7 c
  else iprop(owns (c : Thread nD τ) scM7 fullShare (accAt7 V c n hn)
      ∗ Pipeline.scopedRestBut (Ix := Unit) (Name := ℕ) (U := UR sig nD τ) (Lvl := ℕ) (Val := Elt F) spec7 c [cc7_scratch0]
      ∗ (∃ r, prngReg c r))

theorem Phi7_zero (c : Dev nD) (n : ℕ) (h : n ≤ cfg7.N) (hz : n = 0) : Phi7 V c n h = Pipeline.ΦA spec7 c := by
  unfold Phi7; exact if_pos hz

theorem Phi7_pos (c : Dev nD) (n : ℕ) (h : n ≤ cfg7.N) (hz : n ≠ 0) :
    Phi7 V c n h = iprop(owns (c : Thread nD τ) scM7 fullShare (accAt7 V c n h)
      ∗ Pipeline.scopedRestBut (Ix := Unit) (Name := ℕ) (U := UR sig nD τ) (Lvl := ℕ) (Val := Elt F) spec7 c [cc7_scratch0]
      ∗ (∃ r, prngReg c r)) := by
  unfold Phi7; exact if_neg hz

/-- The class's invariant with the scratch operand split out of the scoped rest as a memref owned at some contents. -/
theorem PhiA7_eq (c : Dev nD) :
    (Pipeline.ΦA spec7 c : sProp 𝕄)
      = iprop(iprop(iprop((∃ d, owns (c : Thread nD τ) scM7 fullShare d))
          ∗ Pipeline.scopedRestBut (Ix := Unit) (Name := ℕ) (U := UR sig nD τ) (Lvl := ℕ) (Val := Elt F) spec7 c [cc7_scratch0])
        ∗ (∃ r, prngReg c r)) := by
  unfold Pipeline.ΦA; rw [scopedRest7_split]; simp only [scM7, owns_whole]; try rfl

/-! ## The pipeline's proof data -/

/-- The proof data of pipeline 7 on core `c`: the arrays as the region finds them (`V`); after the body at point `t` each
    input's buffer at its block and the output's at what the scratch then holds (consulted at the last point only: the
    window is idle elsewhere); the invariant `Phi7`; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => accAt7 V c (t.val + 1) t.isLt
  Φ t := Phi7 V c t.val (Nat.le_of_lt_succ t.isLt)
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = accAt7 V c (t.val + 1) t.isLt := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d

/-- The invariant at a point's start, restated at `t.val`. -/
theorem Phi7_castSucc (c : Dev nD) (t : Fin cfg7.N) :
    (dat7 V c).Φ t.castSucc = Phi7 V c t.val (Nat.le_of_lt t.isLt) := by
  dsimp only [dat7]; simp only [Fin.coe_castSucc]

/-- The invariant at a point's end: the carried scratch at what the points up to this one accumulated. -/
theorem Phi7_succ (c : Dev nD) (t : Fin cfg7.N) :
    (dat7 V c).Φ t.succ = iprop(owns (c : Thread nD τ) scM7 fullShare (accAt7 V c (t.val + 1) t.isLt)
      ∗ Pipeline.scopedRestBut (Ix := Unit) (Name := ℕ) (U := UR sig nD τ) (Lvl := ℕ) (Val := Elt F) spec7 c [cc7_scratch0]
      ∗ (∃ r, prngReg c r)) := by
  dsimp only [dat7]; simp only [Fin.val_succ]; exact Phi7_pos V c _ _ (Nat.succ_ne_zero _)

/-- Before any point has run the accumulation is the zero block. -/
theorem accAt7_of_zero (c : Dev nD) (n : ℕ) (h : n ≤ cfg7.N) (hz : n = 0) : accAt7 V c n h = k7_pay1 := by
  subst hz; rfl

/-! ## The body obligation, at a generic point -/

/-- What the body is called with at point `t` (the library's body obligation's precondition, the windows one by one), -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d)))

/-- and what it returns. -/
def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t)

set_option maxHeartbeats 4000000 in
/-- The body at any point. The inputs' memrefs hold their blocks; the closed forms of the two conditions say which of the
    three control cases the point is in, and that case's triple applies. The invariant hands the body the scratch — at
    anything at the first point, at what the points before accumulated afterwards — and takes it back at what the points
    up to this one accumulated; the other scoped buffers, the generator register and the core's `owes` pass through
    unread; the output window's memref is handed back as it was found except at the last point, where it holds the
    accumulation. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).owesAt () t.succ = (dat7 V c).owesAt () t.castSucc from rfl, Phi7_succ V c t, Phi7_castSucc V c t]
  have hN : t.val < 10 := lt_of_lt_of_eq t.isLt (show cfg7.N = 10 from N_7)
  rw [show (dat7 V c).leavesExact 0 t = owns (c : Thread nD τ) (st7_0 t) fullShare ((dat7 V c).after 0 t) from by
    unfold Dat.leavesExact; rw [liveAt7_0 t], after7_0]
  rw [show (dat7 V c).leavesExact 1 t = owns (c : Thread nD τ) (st7_1 t) fullShare ((dat7 V c).after 1 t) from by
    unfold Dat.leavesExact; rw [liveAt7_1 t], after7_1]
  rw [accAt7_succ V c t]
  by_cases hL : t.val % 10 = 9
  · have hcC : cond7_1 (grid7.coords t) := (hcond7_1 t).mpr hL
    have hcR : ¬cond7_0 (grid7.coords t) := fun h => by have := (hcond7_0 t).mp h; omega
    have hz : t.val ≠ 0 := by omega
    rw [show (dat7 V c).leavesExact 2 t = owns (c : Thread nD τ) (st7_2 t) fullShare ((dat7 V c).after 2 t) from by
      unfold Dat.leavesExact; rw [liveAt7_2 t hcC], after7_2, accAt7_succ V c t]
    rw [Phi7_pos V c _ _ hz]
    iintro ⟨⟨HS, Hrest, Hg⟩, Ho, ⟨%dX, HX⟩, ⟨%dB, HB⟩, ⟨%dO, HO⟩⟩
    iapply (sound_last7 c Set.univ (grid7.coords t) _ _ _ _ _ _ _ _ hcR hcC (iblk7 V c 0 t) (iblk7 V c 1 t)
      (accAt7 V c t.val (Nat.le_of_lt t.isLt)) _)
    isplitl [HX]; · iexact HX
    isplitl [HB]; · iexact HB
    isplitl [HO]; · iexists _; iexact HO
    isplitl [HS]; · iexact HS
    iintro ⟨HX, HB, HO, HS⟩
    isplitl [HS Hrest Hg]
    · isplitl [HS]; · iexact HS
      isplitl [Hrest]; · iexact Hrest
      iexact Hg
    isplitl [Ho]; · iexact Ho
    isplitl [HX]; · iexact HX
    isplitl [HB]; · iexact HB
    iexact HO
  · have hcC : ¬cond7_1 (grid7.coords t) := fun h => hL ((hcond7_1 t).mp h)
    rw [Dat.leavesExact_idle (dat7 V c) 2 t (idleAt7_2 t hcC) (noFlush7_2 t hcC)]
    by_cases hF : t.val % 10 = 0
    · have hcR : cond7_0 (grid7.coords t) := (hcond7_0 t).mpr hF
      have hz : t.val = 0 := by omega
      rw [Phi7_zero V c _ _ hz, PhiA7_eq, accAt7_of_zero V c _ _ hz]
      iintro ⟨⟨⟨HS, Hrest⟩, Hg⟩, Ho, ⟨%dX, HX⟩, ⟨%dB, HB⟩, ⟨%dO, HO⟩⟩
      iapply (sound_first7 c Set.univ (grid7.coords t) _ _ _ _ _ _ _ _ hcR hcC (iblk7 V c 0 t) (iblk7 V c 1 t) _)
      isplitl [HX]; · iexact HX
      isplitl [HB]; · iexact HB
      isplitl [HS]; · iexact HS
      iintro ⟨HX, HB, HS⟩
      isplitl [HS Hrest Hg]
      · isplitl [HS]; · iexact HS
        isplitl [Hrest]; · iexact Hrest
        iexact Hg
      isplitl [Ho]; · iexact Ho
      isplitl [HX]; · iexact HX
      isplitl [HB]; · iexact HB
      iexists _; iexact HO
    · have hcR : ¬cond7_0 (grid7.coords t) := fun h => hF ((hcond7_0 t).mp h)
      have hz : t.val ≠ 0 := by omega
      rw [Phi7_pos V c _ _ hz]
      iintro ⟨⟨HS, Hrest, Hg⟩, Ho, ⟨%dX, HX⟩, ⟨%dB, HB⟩, ⟨%dO, HO⟩⟩
      iapply (sound_mid7 c Set.univ (grid7.coords t) _ _ _ _ _ _ _ _ hcR hcC (iblk7 V c 0 t) (iblk7 V c 1 t)
        (accAt7 V c t.val (Nat.le_of_lt t.isLt)) _)
      isplitl [HX]; · iexact HX
      isplitl [HB]; · iexact HB
      isplitl [HS]; · iexact HS
      iintro ⟨HX, HB, HS⟩
      isplitl [HS Hrest Hg]
      · isplitl [HS]; · iexact HS
        isplitl [Hrest]; · iexact Hrest
        iexact Hg
      isplitl [Ho]; · iexact Ho
      isplitl [HX]; · iexact HX
      isplitl [HB]; · iexact HB
      iexists _; iexact HO

/-- The library's body obligation, at every point. -/
theorem body_obligation7 (c : Dev nD) : BodyObligation (dat7 (F := F) V c) (defs₀ (F := F)) Variants.none () Set.univ := fun t => by
  rw [bigSep_W7, bigSep_W7]
  exact sound_body7 V c t

/-- What the launch hands the region is the invariant before the first point. -/
theorem PhiIn7 (c : Dev nD) : Pipeline.ΦA spec7 c ⊢ (dat7 V c).Φ 0 := by
  rw [show (dat7 V c).Φ 0 = Phi7 V c 0 (Nat.zero_le _) from rfl, Phi7_zero V c 0 _ rfl]

/-- After the last point the invariant gives the class's back: the scratch's named contents are forgotten. -/
theorem PhiOut7 (c : Dev nD) : (dat7 V c).Φ (Fin.last _) ⊢ Pipeline.ΦA spec7 c := by
  rw [show (dat7 V c).Φ (Fin.last _) = Phi7 V c cfg7.N (Nat.le_refl _) from rfl,
    Phi7_pos V c _ _ (by rw [show cfg7.N = 10 from N_7]; decide), PhiA7_eq]
  iintro ⟨HS, Hrest, Hg⟩
  isplitl [HS Hrest]
  · isplitl [HS]
    · iexists _; iexact HS
    iexact Hrest
  iexact Hg

end Cert.KernelIdeal.Hand

end
-- ==== Proof.VnRegion8.lean ====
/- Region 8 of @main, custom_call 8, the virtual node's two-layer perceptron `cc8__vn_mlp_kernel`: the frame half of its pipeline, at any float model `F` and at a PARAMETER `V`, the
   TensorCore's buffer contents when the region is entered. The grid is one point and every window's block is its whole
   array. Each input window's staging buffer holds its block; the output's, after the body, holds what the body's one store
   leaves, a function `out8_9` of the input blocks; the body's triple is run on whole staging memrefs; the pipeline's proof
   data carries the arrays at `V`, the untouched invariant, full shares and nothing owed; and the library's body obligation
   follows at the one point. -/
import proofs.«403491_j395136991532_1_alg».proof.Proof.Gen.KernelIdeal.Launch
import proofs.«403491_j395136991532_1_alg».proof.Proof.Gen.KernelIdeal.Skeleton
import proofs.«403491_j395136991532_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current staging buffer holds its block at every point, fetched there or not, for any proof data
    whose array is `V`'s and whose body leaves the block in place: the window is uncut and never idle. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1's current staging buffer holds its block at every point, fetched there or not, for any proof data
    whose array is `V`'s and whose body leaves the block in place: the window is uncut and never idle. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Input window 2's current staging buffer holds its block at every point, fetched there or not, for any proof data
    whose array is `V`'s and whose body leaves the block in place: the window is uncut and never idle. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- Input window 3's current staging buffer holds its block at every point, fetched there or not, for any proof data
    whose array is `V`'s and whose body leaves the block in place: the window is uncut and never idle. -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

/-- Input window 4's current staging buffer holds its block at every point, fetched there or not, for any proof data
    whose array is `V`'s and whose body leaves the block in place: the window is uncut and never idle. -/
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

/-- Input window 5's current staging buffer holds its block at every point, fetched there or not, for any proof data
    whose array is `V`'s and whose body leaves the block in place: the window is uncut and never idle. -/
theorem before8_5_of {c : Dev nD} (dat : Dat τ (Elt F) Unit ℕ (UR sig nD τ) ℕ cfg8 c) (hA : dat.A 5 = V c (Pipeline.arrRef spec8 5))
    (hafter : ∀ t, dat.after 5 t = iblk8 V c 5 t) (t : Fin cfg8.N) (d) : dat.before 5 t d = iblk8 V c 5 t :=
  (dat.before_in_eq_fetched 5 rfl (fun _ => rfl) (fun _ _ _ => rfl) (fun t => by rw [hafter]; unfold Dat.blockOf iblk8; rw [hA]; try rfl) t d).trans
    (by unfold Dat.fetched Dat.blockOf iblk8; rw [hA]; try rfl)

/-- Input window 6's current staging buffer holds its block at every point, fetched there or not, for any proof data
    whose array is `V`'s and whose body leaves the block in place: the window is uncut and never idle. -/
theorem before8_6_of {c : Dev nD} (dat : Dat τ (Elt F) Unit ℕ (UR sig nD τ) ℕ cfg8 c) (hA : dat.A 6 = V c (Pipeline.arrRef spec8 6))
    (hafter : ∀ t, dat.after 6 t = iblk8 V c 6 t) (t : Fin cfg8.N) (d) : dat.before 6 t d = iblk8 V c 6 t :=
  (dat.before_in_eq_fetched 6 rfl (fun _ => rfl) (fun _ _ _ => rfl) (fun t => by rw [hafter]; unfold Dat.blockOf iblk8; rw [hA]; try rfl) t d).trans
    (by unfold Dat.fetched Dat.blockOf iblk8; rw [hA]; try rfl)

/-- Input window 7's current staging buffer holds its block at every point, fetched there or not, for any proof data
    whose array is `V`'s and whose body leaves the block in place: the window is uncut and never idle. -/
theorem before8_7_of {c : Dev nD} (dat : Dat τ (Elt F) Unit ℕ (UR sig nD τ) ℕ cfg8 c) (hA : dat.A 7 = V c (Pipeline.arrRef spec8 7))
    (hafter : ∀ t, dat.after 7 t = iblk8 V c 7 t) (t : Fin cfg8.N) (d) : dat.before 7 t d = iblk8 V c 7 t :=
  (dat.before_in_eq_fetched 7 rfl (fun _ => rfl) (fun _ _ _ => rfl) (fun t => by rw [hafter]; unfold Dat.blockOf iblk8; rw [hA]; try rfl) t d).trans
    (by unfold Dat.fetched Dat.blockOf iblk8; rw [hA]; try rfl)

/-- Input window 8's current staging buffer holds its block at every point, fetched there or not, for any proof data
    whose array is `V`'s and whose body leaves the block in place: the window is uncut and never idle. -/
theorem before8_8_of {c : Dev nD} (dat : Dat τ (Elt F) Unit ℕ (UR sig nD τ) ℕ cfg8 c) (hA : dat.A 8 = V c (Pipeline.arrRef spec8 8))
    (hafter : ∀ t, dat.after 8 t = iblk8 V c 8 t) (t : Fin cfg8.N) (d) : dat.before 8 t d = iblk8 V c 8 t :=
  (dat.before_in_eq_fetched 8 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses: each is a whole buffer -/

abbrev r8_0 : Rect S256x128 := Rect.unit (s := S256x128) ![0, 0] S256x128.size inb_S256x128_S256x128_0_0
abbrev r8_1 : Rect S128x256 := Rect.unit (s := S128x256) ![0, 0] S128x256.size inb_S128x256_S128x256_0_0
abbrev r8_2 : Rect S1x256 := Rect.unit (s := S1x256) ![0, 0] S1x256.size inb_S1x256_S1x256_0_0
abbrev r8_3 : Rect S1x128 := Rect.unit (s := S1x128) ![0, 0] S1x128.size inb_S1x128_S1x128_0_0

/-! ## What the body leaves in the output window's buffer -/

/-- Window 9's staging buffer after the body, from the input windows' blocks: its one store as a piece (the payload is
    the skeleton's). -/
def out8_9 (x0 : Vec F S256x128 .f32) (x1 : Vec F S128x256 .bf16) (x2 : Vec F S1x256 .f32) (x3 : Vec F S1x256 .f32) (x4 : Vec F S1x256 .f32) (x5 : Vec F S256x128 .bf16) (x6 : Vec F S1x128 .f32) (x7 : Vec F S1x128 .f32) (x8 : Vec F S1x128 .f32) : Vec F S256x128 .f32 :=
  View.canon [⟨r8_0, k8_pay1 (k8_pay2 (View.ld x0 r8_0) (View.ld x1 r8_1) (View.ld x2 r8_2) (View.ld x3 r8_2) (View.ld x4 r8_2) (View.ld x5 r8_0) (View.ld x6 r8_3) (View.ld x7 r8_3) (View.ld x8 r8_3)) k8_pay3⟩]

/-- The one store is of the whole buffer, so it covers it. -/
theorem cover8_9 (p0 : Vec F S256x128 .f32) (y : S256x128.Idx) :
    ∃ pc ∈ ([⟨r8_0, p0⟩] : List (View.Piece (Elt F) S256x128 .f32)), y ∈ pc.1.set :=
  View.cover_of_tiled [⟨r8_0, p0⟩] S256x128.size (by rfl) y

/-! ## The body's triple -/

set_option maxHeartbeats 1000000 in
/-- The kernel body on whole staging memrefs, the inputs' at read contents `xW` and the output's at anything, runs to the
    continuation holding the inputs' as they were and the output's at `out8_9` of the inputs': the printed functions are
    their skeletons of memory operations over payloads, which are run operation by operation, through the part call. -/
theorem sound_kernel8 (c : Dev nD) (E : Set ℕ) (i : grid8.Coords) (arg1 : Memref sig .tc .vmem S256x128 .f32) (harg1 : arg1.IsWhole) (arg2 : Memref sig .tc .vmem S128x256 .bf16) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x128 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole)
    (x0 : Vec F S256x128 .f32) (x1 : Vec F S128x256 .bf16) (x2 : Vec F S1x256 .f32) (x3 : Vec F S1x256 .f32) (x4 : Vec F S1x256 .f32) (x5 : Vec F S256x128 .bf16) (x6 : Vec F S1x128 .f32) (x7 : Vec F S1x128 .f32) (x8 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out8_9 x0 x1 x2 x3 x4 x5 x6 x7 x8)) -∗ K ⟨⟩))
      ⊢ wp frame (wpE (defs₀ (F := F)) Variants.none c none) E (cc8__vn_mlp_kernel i arg1 harg1 arg2 harg2 arg3 harg3 arg4 harg4 arg5 harg5 arg6 harg6 arg7 harg7 arg8 harg8 arg9 harg9 arg10 harg10) K := by
  simp only [cc8__vn_mlp_kernel_eq_skeleton]; unfold cc8__vn_mlp_kernel_skel
  simp only [k8_part1_eq_skeleton]; unfold k8_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover8_9 _)

/-! ## The pipeline's proof data -/

/-- The proof data of pipeline 8 on core `c`: the arrays as the region finds them (`V`); after the body at point `t` each
    input's buffer at its block and the output's at `out8_9` of the input blocks; the invariant the scoped rest and the
    generator register, untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => iblk8 V c 6 t
    | ⟨7, _⟩ => iblk8 V c 7 t
    | ⟨8, _⟩ => iblk8 V c 8 t
    | ⟨9, _⟩ => out8_9 (iblk8 V c 0 t) (iblk8 V c 1 t) (iblk8 V c 2 t) (iblk8 V c 3 t) (iblk8 V c 4 t) (iblk8 V c 5 t) (iblk8 V c 6 t) (iblk8 V c 7 t) (iblk8 V c 8 t)
  Φ _ := Pipeline.ΦA spec8 c
  q _ := fullShare
  owed _ := 0

/-- The proof data's arrays are the region-entry contents. -/
theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = iblk8 V c 5 t := by dsimp only [dat8]
theorem after8_6 (c : Dev nD) (t : Fin cfg8.N) : (dat8 V c).after 6 t = iblk8 V c 6 t := by dsimp only [dat8]
theorem after8_7 (c : Dev nD) (t : Fin cfg8.N) : (dat8 V c).after 7 t = iblk8 V c 7 t := by dsimp only [dat8]
theorem after8_8 (c : Dev nD) (t : Fin cfg8.N) : (dat8 V c).after 8 t = iblk8 V c 8 t := by dsimp only [dat8]
theorem after8_9 (c : Dev nD) (t : Fin cfg8.N) : (dat8 V c).after 9 t = out8_9 (iblk8 V c 0 t) (iblk8 V c 1 t) (iblk8 V c 2 t) (iblk8 V c 3 t) (iblk8 V c 4 t) (iblk8 V c 5 t) (iblk8 V c 6 t) (iblk8 V c 7 t) (iblk8 V c 8 t) := by dsimp only [dat8]

/-- Each input's current staging buffer holds its block at every point, fetched there or not. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d
theorem before8_5 (c : Dev nD) (t : Fin cfg8.N) (d) : (dat8 V c).before 5 t d = iblk8 V c 5 t :=
  before8_5_of V (dat8 V c) (A_eq8 V c 5) (after8_5 V c) t d
theorem before8_6 (c : Dev nD) (t : Fin cfg8.N) (d) : (dat8 V c).before 6 t d = iblk8 V c 6 t :=
  before8_6_of V (dat8 V c) (A_eq8 V c 6) (after8_6 V c) t d
theorem before8_7 (c : Dev nD) (t : Fin cfg8.N) (d) : (dat8 V c).before 7 t d = iblk8 V c 7 t :=
  before8_7_of V (dat8 V c) (A_eq8 V c 7) (after8_7 V c) t d
theorem before8_8 (c : Dev nD) (t : Fin cfg8.N) (d) : (dat8 V c).before 8 t d = iblk8 V c 8 t :=
  before8_8_of V (dat8 V c) (A_eq8 V c 8) (after8_8 V c) t d

/-- The invariant at the region's entry is the class's, -/
theorem PhiIn8 (c : Dev nD) : Pipeline.ΦA spec8 c ⊢ (dat8 V c).Φ 0 := .rfl

/-- and at its exit. -/
theorem PhiOut8 (c : Dev nD) : (dat8 V c).Φ (Fin.last _) ⊢ Pipeline.ΦA spec8 c := .rfl

/-! ## The body obligation, at a generic point -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d))
    ∗ (∃ d, owns (c : Thread nD τ) (st8_6 t) fullShare ((dat8 V c).before 6 t d))
    ∗ (∃ d, owns (c : Thread nD τ) (st8_7 t) fullShare ((dat8 V c).before 7 t d))
    ∗ (∃ d, owns (c : Thread nD τ) (st8_8 t) fullShare ((dat8 V c).before 8 t d))
    ∗ (∃ d, owns (c : Thread nD τ) (st8_9 t) fullShare ((dat8 V c).before 9 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t)
    ∗ owns (c : Thread nD τ) (st8_6 t) fullShare ((dat8 V c).after 6 t)
    ∗ owns (c : Thread nD τ) (st8_7 t) fullShare ((dat8 V c).after 7 t)
    ∗ owns (c : Thread nD τ) (st8_8 t) fullShare ((dat8 V c).after 8 t)
    ∗ owns (c : Thread nD τ) (st8_9 t) fullShare ((dat8 V c).after 9 t))

/-- The body at any point: the inputs' memrefs hold their blocks, so the body's triple applies; the invariant and the core's
    debts pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4, before8_5, before8_6, before8_7, before8_8]
  rw [show (dat8 V c).Φ t.succ = (dat8 V c).Φ t.castSucc from rfl,
    show (dat8 V c).owesAt () t.succ = (dat8 V c).owesAt () t.castSucc from rfl,
    after8_0, after8_1, after8_2, after8_3, after8_4, after8_5, after8_6, after8_7, after8_8, after8_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel8 c Set.univ _ _ _ _ _ _ _ _ _ _ _ _ _ _ _ _ _ _ _ _ _ (iblk8 V c 0 t) (iblk8 V c 1 t) (iblk8 V c 2 t) (iblk8 V c 3 t) (iblk8 V c 4 t) (iblk8 V c 5 t) (iblk8 V c 6 t) (iblk8 V c 7 t) (iblk8 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation8 (c : Dev nD) : BodyObligation (dat8 (F := F) V c) (defs₀ (F := F)) Variants.none () Set.univ := fun t => by
  rw [bigSep_W8, bigSep_W8]
  exact sound_body8 V c t

end Cert.KernelIdeal.Hand

end
-- ==== Proof.GinRegion9.lean ====
import proofs.«403491_j395136991532_1_alg».proof.Proof.Gen.KernelIdeal.Launch
import proofs.«403491_j395136991532_1_alg».proof.Proof.Gen.KernelIdeal.Skeleton
import proofs.«403491_j395136991532_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 9 (pipeline 9, the per-node two-layer perceptron on 5000-row tiles): the frame half

Stated at a parameter `V`, the TensorCore's buffer contents when the region is entered. Eleven input windows
(the two tiled operands and nine resident ones) and one tiled output window. The body reads every input buffer
whole, computes, and overwrites the output buffer whole; so after the body each input buffer still holds its
block, and the output buffer holds one closed function of the eleven input blocks. -/

-- membership in a rectangle of 5000 rows: the structural look recurses once per coordinate of the long axis
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0's current staging buffer holds its block at every point, fetched there or not (not fetched:
    the block index has not moved), for any proof data whose array is `V`'s and whose body leaves the block in place. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- Input window 1's current staging buffer holds its block at every point, fetched there or not (not fetched:
    the block index has not moved), for any proof data whose array is `V`'s and whose body leaves the block in place. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- Input window 2's current staging buffer holds its block at every point, fetched there or not (not fetched:
    the block index has not moved), for any proof data whose array is `V`'s and whose body leaves the block in place. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-- Input window 3's current staging buffer holds its block at every point, fetched there or not (not fetched:
    the block index has not moved), for any proof data whose array is `V`'s and whose body leaves the block in place. -/
theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)

/-- Input window 4's current staging buffer holds its block at every point, fetched there or not (not fetched:
    the block index has not moved), for any proof data whose array is `V`'s and whose body leaves the block in place. -/
theorem before9_4_of {c : Dev nD} (dat : Dat τ (Elt F) Unit ℕ (UR sig nD τ) ℕ cfg9 c) (hA : dat.A 4 = V c (Pipeline.arrRef spec9 4))
    (hafter : ∀ t, dat.after 4 t = iblk9 V c 4 t) (t : Fin cfg9.N) (d) : dat.before 4 t d = iblk9 V c 4 t :=
  (dat.before_in_eq_fetched 4 rfl (fun _ => rfl) (fun _ _ _ => rfl) (fun t => by rw [hafter]; unfold Dat.blockOf iblk9; rw [hA]; try rfl) t d).trans
    (by unfold Dat.fetched Dat.blockOf iblk9; rw [hA]; try rfl)

/-- Input window 5's current staging buffer holds its block at every point, fetched there or not (not fetched:
    the block index has not moved), for any proof data whose array is `V`'s and whose body leaves the block in place. -/
theorem before9_5_of {c : Dev nD} (dat : Dat τ (Elt F) Unit ℕ (UR sig nD τ) ℕ cfg9 c) (hA : dat.A 5 = V c (Pipeline.arrRef spec9 5))
    (hafter : ∀ t, dat.after 5 t = iblk9 V c 5 t) (t : Fin cfg9.N) (d) : dat.before 5 t d = iblk9 V c 5 t :=
  (dat.before_in_eq_fetched 5 rfl (fun _ => rfl) (fun _ _ _ => rfl) (fun t => by rw [hafter]; unfold Dat.blockOf iblk9; rw [hA]; try rfl) t d).trans
    (by unfold Dat.fetched Dat.blockOf iblk9; rw [hA]; try rfl)

/-- Input window 6's current staging buffer holds its block at every point, fetched there or not (not fetched:
    the block index has not moved), for any proof data whose array is `V`'s and whose body leaves the block in place. -/
theorem before9_6_of {c : Dev nD} (dat : Dat τ (Elt F) Unit ℕ (UR sig nD τ) ℕ cfg9 c) (hA : dat.A 6 = V c (Pipeline.arrRef spec9 6))
    (hafter : ∀ t, dat.after 6 t = iblk9 V c 6 t) (t : Fin cfg9.N) (d) : dat.before 6 t d = iblk9 V c 6 t :=
  (dat.before_in_eq_fetched 6 rfl (fun _ => rfl) (fun _ _ _ => rfl) (fun t => by rw [hafter]; unfold Dat.blockOf iblk9; rw [hA]; try rfl) t d).trans
    (by unfold Dat.fetched Dat.blockOf iblk9; rw [hA]; try rfl)

/-- Input window 7's current staging buffer holds its block at every point, fetched there or not (not fetched:
    the block index has not moved), for any proof data whose array is `V`'s and whose body leaves the block in place. -/
theorem before9_7_of {c : Dev nD} (dat : Dat τ (Elt F) Unit ℕ (UR sig nD τ) ℕ cfg9 c) (hA : dat.A 7 = V c (Pipeline.arrRef spec9 7))
    (hafter : ∀ t, dat.after 7 t = iblk9 V c 7 t) (t : Fin cfg9.N) (d) : dat.before 7 t d = iblk9 V c 7 t :=
  (dat.before_in_eq_fetched 7 rfl (fun _ => rfl) (fun _ _ _ => rfl) (fun t => by rw [hafter]; unfold Dat.blockOf iblk9; rw [hA]; try rfl) t d).trans
    (by unfold Dat.fetched Dat.blockOf iblk9; rw [hA]; try rfl)

/-- Input window 8's current staging buffer holds its block at every point, fetched there or not (not fetched:
    the block index has not moved), for any proof data whose array is `V`'s and whose body leaves the block in place. -/
theorem before9_8_of {c : Dev nD} (dat : Dat τ (Elt F) Unit ℕ (UR sig nD τ) ℕ cfg9 c) (hA : dat.A 8 = V c (Pipeline.arrRef spec9 8))
    (hafter : ∀ t, dat.after 8 t = iblk9 V c 8 t) (t : Fin cfg9.N) (d) : dat.before 8 t d = iblk9 V c 8 t :=
  (dat.before_in_eq_fetched 8 rfl (fun _ => rfl) (fun _ _ _ => rfl) (fun t => by rw [hafter]; unfold Dat.blockOf iblk9; rw [hA]; try rfl) t d).trans
    (by unfold Dat.fetched Dat.blockOf iblk9; rw [hA]; try rfl)

/-- Input window 9's current staging buffer holds its block at every point, fetched there or not (not fetched:
    the block index has not moved), for any proof data whose array is `V`'s and whose body leaves the block in place. -/
theorem before9_9_of {c : Dev nD} (dat : Dat τ (Elt F) Unit ℕ (UR sig nD τ) ℕ cfg9 c) (hA : dat.A 9 = V c (Pipeline.arrRef spec9 9))
    (hafter : ∀ t, dat.after 9 t = iblk9 V c 9 t) (t : Fin cfg9.N) (d) : dat.before 9 t d = iblk9 V c 9 t :=
  (dat.before_in_eq_fetched 9 rfl (fun _ => rfl) (fun _ _ _ => rfl) (fun t => by rw [hafter]; unfold Dat.blockOf iblk9; rw [hA]; try rfl) t d).trans
    (by unfold Dat.fetched Dat.blockOf iblk9; rw [hA]; try rfl)

/-- Input window 10's current staging buffer holds its block at every point, fetched there or not (not fetched:
    the block index has not moved), for any proof data whose array is `V`'s and whose body leaves the block in place. -/
theorem before9_10_of {c : Dev nD} (dat : Dat τ (Elt F) Unit ℕ (UR sig nD τ) ℕ cfg9 c) (hA : dat.A 10 = V c (Pipeline.arrRef spec9 10))
    (hafter : ∀ t, dat.after 10 t = iblk9 V c 10 t) (t : Fin cfg9.N) (d) : dat.before 10 t d = iblk9 V c 10 t :=
  (dat.before_in_eq_fetched 10 rfl (fun _ => rfl) (fun _ _ _ => rfl) (fun t => by rw [hafter]; unfold Dat.blockOf iblk9; rw [hA]; try rfl) t d).trans
    (by unfold Dat.fetched Dat.blockOf iblk9; rw [hA]; try rfl)

/-! ## The body's accesses: every buffer whole -/

abbrev r9_a : Rect S5000x128 := Rect.unit (s := S5000x128) ![0, 0] S5000x128.size inb_S5000x128_S5000x128_0_0
abbrev r9_b : Rect S1x1 := Rect.unit (s := S1x1) ![0, 0] S1x1.size inb_S1x1_S1x1_0_0
abbrev r9_c : Rect S128x256 := Rect.unit (s := S128x256) ![0, 0] S128x256.size inb_S128x256_S128x256_0_0
abbrev r9_d : Rect S1x256 := Rect.unit (s := S1x256) ![0, 0] S1x256.size inb_S1x256_S1x256_0_0
abbrev r9_e : Rect S256x128 := Rect.unit (s := S256x128) ![0, 0] S256x128.size inb_S256x128_S256x128_0_0
abbrev r9_f : Rect S1x128 := Rect.unit (s := S1x128) ![0, 0] S1x128.size inb_S1x128_S1x128_0_0

/-! ## What the body leaves in the output window's buffer -/

/-- Window 11's staging buffer after the body, from the eleven input blocks: its one store, of the last payload
    (scale and shift, then the layer's final clamp at zero where it has one) over the first (the two matrix products
    with their affine maps and the clamp between). -/
def out9_11 (x0 : Vec F S5000x128 .f32) (x1 : Vec F S5000x128 .f32) (x2 : Vec F S1x1 .f32) (x3 : Vec F S128x256 .bf16) (x4 : Vec F S1x256 .f32) (x5 : Vec F S1x256 .f32) (x6 : Vec F S1x256 .f32) (x7 : Vec F S256x128 .bf16) (x8 : Vec F S1x128 .f32) (x9 : Vec F S1x128 .f32) (x10 : Vec F S1x128 .f32) : Vec F S5000x128 .f32 :=
  View.canon [⟨r9_a, k9_pay1 (k9_pay2 (View.ld x2 r9_b) (View.ld x0 r9_a) (View.ld x1 r9_a) (View.ld x3 r9_c) (View.ld x4 r9_d) (View.ld x5 r9_d) (View.ld x6 r9_d) (View.ld x7 r9_e) (View.ld x8 r9_f)) (View.ld x9 r9_f) (View.ld x10 r9_f)⟩]

/-- The one store is of the whole buffer, so it covers it. -/
theorem cover9_11 (p0 : Vec F S5000x128 .f32) (y : S5000x128.Idx) :
    ∃ pc ∈ ([⟨r9_a, p0⟩] : List (View.Piece (Elt F) S5000x128 .f32)), y ∈ pc.1.set :=
  View.cover_of_tiled [⟨r9_a, p0⟩] S5000x128.size (by rfl) y

/-! ## The body's triple -/

set_option maxHeartbeats 4000000 in
/-- The kernel body on whole staging memrefs, the inputs' at read contents `xW` and the output's at anything, runs to
    the continuation holding the inputs' as they were and the output's at `out9_11` of the inputs'. -/
theorem sound_kernel9 (c : Dev nD) (E : Set ℕ) (i : grid9.Coords) (arg1 : Memref sig .tc .vmem S5000x128 .f32) (harg1 : arg1.IsWhole) (arg2 : Memref sig .tc .vmem S5000x128 .f32) (harg2 : arg2.IsWhole) (arg3 : Memref sig .tc .vmem S1x1 .f32) (harg3 : arg3.IsWhole) (arg4 : Memref sig .tc .vmem S128x256 .bf16) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S256x128 .bf16) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S5000x128 .f32) (harg12 : arg12.IsWhole)
    (x0 : Vec F S5000x128 .f32) (x1 : Vec F S5000x128 .f32) (x2 : Vec F S1x1 .f32) (x3 : Vec F S128x256 .bf16) (x4 : Vec F S1x256 .f32) (x5 : Vec F S1x256 .f32) (x6 : Vec F S1x256 .f32) (x7 : Vec F S256x128 .bf16) (x8 : Vec F S1x128 .f32) (x9 : Vec F S1x128 .f32) (x10 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out9_11 x0 x1 x2 x3 x4 x5 x6 x7 x8 x9 x10)) -∗ K ⟨⟩))
      ⊢ wp frame (wpE (defs₀ (F := F)) Variants.none c none) E (cc9__gin_mlp_kernel i arg1 harg1 arg2 harg2 arg3 harg3 arg4 harg4 arg5 harg5 arg6 harg6 arg7 harg7 arg8 harg8 arg9 harg9 arg10 harg10 arg11 harg11 arg12 harg12) K := by
  simp only [cc9__gin_mlp_kernel_eq_skeleton]; unfold cc9__gin_mlp_kernel_skel
  simp only [k9_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  exact View.read_writes_eq_canon _ _ _ (cover9_11 _)

/-! ## The pipeline's proof data -/

/-- The proof data of pipeline 0 on core `c`: the arrays as the region finds them; after the body at point `t` each
    input's buffer at its block and the output's at `out9_11` of the input blocks; the invariant the untouched rest;
    nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => iblk9 V c 5 t
    | ⟨6, _⟩ => iblk9 V c 6 t
    | ⟨7, _⟩ => iblk9 V c 7 t
    | ⟨8, _⟩ => iblk9 V c 8 t
    | ⟨9, _⟩ => iblk9 V c 9 t
    | ⟨10, _⟩ => iblk9 V c 10 t
    | ⟨11, _⟩ => out9_11 (iblk9 V c 0 t) (iblk9 V c 1 t) (iblk9 V c 2 t) (iblk9 V c 3 t) (iblk9 V c 4 t) (iblk9 V c 5 t) (iblk9 V c 6 t) (iblk9 V c 7 t) (iblk9 V c 8 t) (iblk9 V c 9 t) (iblk9 V c 10 t)
  Φ _ := Pipeline.ΦA spec9 c
  q _ := fullShare
  owed _ := 0

/-- The proof data's arrays are the region-entry contents. -/
theorem A_eq9 (c : Dev nD) (w : Fin cfg9.W) : (dat9 V c).A w = V c (Pipeline.arrRef spec9 w) := by
  dsimp only [dat9]

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) : (dat9 V c).after 5 t = iblk9 V c 5 t := by dsimp only [dat9]
theorem after9_6 (c : Dev nD) (t : Fin cfg9.N) : (dat9 V c).after 6 t = iblk9 V c 6 t := by dsimp only [dat9]
theorem after9_7 (c : Dev nD) (t : Fin cfg9.N) : (dat9 V c).after 7 t = iblk9 V c 7 t := by dsimp only [dat9]
theorem after9_8 (c : Dev nD) (t : Fin cfg9.N) : (dat9 V c).after 8 t = iblk9 V c 8 t := by dsimp only [dat9]
theorem after9_9 (c : Dev nD) (t : Fin cfg9.N) : (dat9 V c).after 9 t = iblk9 V c 9 t := by dsimp only [dat9]
theorem after9_10 (c : Dev nD) (t : Fin cfg9.N) : (dat9 V c).after 10 t = iblk9 V c 10 t := by dsimp only [dat9]
theorem after9_11 (c : Dev nD) (t : Fin cfg9.N) : (dat9 V c).after 11 t = out9_11 (iblk9 V c 0 t) (iblk9 V c 1 t) (iblk9 V c 2 t) (iblk9 V c 3 t) (iblk9 V c 4 t) (iblk9 V c 5 t) (iblk9 V c 6 t) (iblk9 V c 7 t) (iblk9 V c 8 t) (iblk9 V c 9 t) (iblk9 V c 10 t) := by dsimp only [dat9]

/-- Each input's current staging buffer holds its block at every point, fetched there or not. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d
theorem before9_4 (c : Dev nD) (t : Fin cfg9.N) (d) : (dat9 V c).before 4 t d = iblk9 V c 4 t :=
  before9_4_of V (dat9 V c) (A_eq9 V c 4) (after9_4 V c) t d
theorem before9_5 (c : Dev nD) (t : Fin cfg9.N) (d) : (dat9 V c).before 5 t d = iblk9 V c 5 t :=
  before9_5_of V (dat9 V c) (A_eq9 V c 5) (after9_5 V c) t d
theorem before9_6 (c : Dev nD) (t : Fin cfg9.N) (d) : (dat9 V c).before 6 t d = iblk9 V c 6 t :=
  before9_6_of V (dat9 V c) (A_eq9 V c 6) (after9_6 V c) t d
theorem before9_7 (c : Dev nD) (t : Fin cfg9.N) (d) : (dat9 V c).before 7 t d = iblk9 V c 7 t :=
  before9_7_of V (dat9 V c) (A_eq9 V c 7) (after9_7 V c) t d
theorem before9_8 (c : Dev nD) (t : Fin cfg9.N) (d) : (dat9 V c).before 8 t d = iblk9 V c 8 t :=
  before9_8_of V (dat9 V c) (A_eq9 V c 8) (after9_8 V c) t d
theorem before9_9 (c : Dev nD) (t : Fin cfg9.N) (d) : (dat9 V c).before 9 t d = iblk9 V c 9 t :=
  before9_9_of V (dat9 V c) (A_eq9 V c 9) (after9_9 V c) t d
theorem before9_10 (c : Dev nD) (t : Fin cfg9.N) (d) : (dat9 V c).before 10 t d = iblk9 V c 10 t :=
  before9_10_of V (dat9 V c) (A_eq9 V c 10) (after9_10 V c) t d

/-- The invariant at the region's entry and exit is the untouched rest itself. -/
theorem PhiIn9 (c : Dev nD) : Pipeline.ΦA spec9 c ⊢ (dat9 V c).Φ 0 := .rfl
theorem PhiOut9 (c : Dev nD) : (dat9 V c).Φ (Fin.last _) ⊢ Pipeline.ΦA spec9 c := .rfl

/-! ## The body obligation, at a generic point -/

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d))
    ∗ (∃ d, owns (c : Thread nD τ) (st9_6 t) fullShare ((dat9 V c).before 6 t d))
    ∗ (∃ d, owns (c : Thread nD τ) (st9_7 t) fullShare ((dat9 V c).before 7 t d))
    ∗ (∃ d, owns (c : Thread nD τ) (st9_8 t) fullShare ((dat9 V c).before 8 t d))
    ∗ (∃ d, owns (c : Thread nD τ) (st9_9 t) fullShare ((dat9 V c).before 9 t d))
    ∗ (∃ d, owns (c : Thread nD τ) (st9_10 t) fullShare ((dat9 V c).before 10 t d))
    ∗ (∃ d, owns (c : Thread nD τ) (st9_11 t) fullShare ((dat9 V c).before 11 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ owns (c : Thread nD τ) (st9_5 t) fullShare ((dat9 V c).after 5 t)
    ∗ owns (c : Thread nD τ) (st9_6 t) fullShare ((dat9 V c).after 6 t)
    ∗ owns (c : Thread nD τ) (st9_7 t) fullShare ((dat9 V c).after 7 t)
    ∗ owns (c : Thread nD τ) (st9_8 t) fullShare ((dat9 V c).after 8 t)
    ∗ owns (c : Thread nD τ) (st9_9 t) fullShare ((dat9 V c).after 9 t)
    ∗ owns (c : Thread nD τ) (st9_10 t) fullShare ((dat9 V c).after 10 t)
    ∗ owns (c : Thread nD τ) (st9_11 t) fullShare ((dat9 V c).after 11 t))

/-- The body at any point: the inputs' memrefs hold their blocks, so the body's triple applies; the invariant and
    the core's `owes` pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4, before9_5, before9_6, before9_7, before9_8, before9_9, before9_10]
  rw [show (dat9 V c).Φ t.succ = (dat9 V c).Φ t.castSucc from rfl,
    show (dat9 V c).owesAt () t.succ = (dat9 V c).owesAt () t.castSucc from rfl,
    after9_0, after9_1, after9_2, after9_3, after9_4, after9_5, after9_6, after9_7, after9_8, after9_9, after9_10, after9_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel9 c Set.univ _ _ _ _ _ _ _ _ _ _ _ _ _ _ _ _ _ _ _ _ _ _ _ _ _
    (iblk9 V c 0 t) (iblk9 V c 1 t) (iblk9 V c 2 t) (iblk9 V c 3 t) (iblk9 V c 4 t) (iblk9 V c 5 t) (iblk9 V c 6 t) (iblk9 V c 7 t) (iblk9 V c 8 t) (iblk9 V c 9 t) (iblk9 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation9 (c : Dev nD) : BodyObligation (dat9 (F := F) V c) (defs₀ (F := F)) Variants.none () Set.univ := fun t => by
  rw [bigSep_W9, bigSep_W9]
  exact sound_body9 V c t

end Cert.KernelIdeal.Hand
-- ==== Proof.SegRegion10.lean ====
/- Region 10 of @main, custom_call 10, the batch-grouped segment sum `cc10__segsum_kernel`: the frame half of its pipeline,
   at any float model `F` and at a PARAMETER `V`, the TensorCore's buffer contents when the region is entered.
   The grid has ten points. A scratch accumulator (256x128, f32) is carried from point to point: the first point stores
   the zero block into it, every point then adds its 5000-row block's contribution (the transposed one-hot of the
   block's segment ids times the block), and the last point copies it into the output window's staging buffer, which
   the pipeline writes back once. So the invariant between points names what the scratch holds, by recursion on the
   point (`accAt10`); the output window is idle at every point but the last and is handed back there as it was found. -/
import proofs.«403491_j395136991532_1_alg».proof.Proof.Gen.KernelIdeal.Launch
import proofs.«403491_j395136991532_1_alg».proof.Proof.Gen.KernelIdeal.Skeleton
import proofs.«403491_j395136991532_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- Input window 0's current staging buffer holds its block at every point, fetched there or not, for any proof data
    whose array is `V`'s and whose body leaves the block in place: the window is uncut and never idle. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- Input window 1's current staging buffer holds its block at every point, likewise. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-! ## The body's branch conditions -/

/-- The first conditional's condition (the accumulator's reset), from the grid coordinate. -/
abbrev cond10_0 (i : grid10.Coords) : Prop := (Scalar.cmpi .ne (Scalar.extui (Scalar.cmpi .eq (BitVec.ofNat 32 (i 0).val) 0#32)) 0#32) = 1#1
/-- It holds at the first point only. -/
theorem hcond10_0 : ∀ t : Fin cfg10.N, cond10_0 (grid10.coords t) ↔ t.val % 10 = 0 :=
  (by decide +kernel : ∀ t : Fin grid10.N, cond10_0 (grid10.coords t) ↔ t.val % 10 = 0)

/-- The second conditional's condition (the copy into the output window). -/
abbrev cond10_1 (i : grid10.Coords) : Prop := k10_cond2 i = 1#1
/-- It holds at the last point only. -/
theorem hcond10_1 : ∀ t : Fin cfg10.N, cond10_1 (grid10.coords t) ↔ t.val % 10 = 9 :=
  (by decide +kernel : ∀ t : Fin grid10.N, cond10_1 (grid10.coords t) ↔ t.val % 10 = 9)

/-! ## Where the output window is idle -/

theorem liveAt10_0 : ∀ t : Fin cfg10.N, cfg10.idle 0 (grid10.coords t) = false := by decide +kernel
theorem liveAt10_1 : ∀ t : Fin cfg10.N, cfg10.idle 1 (grid10.coords t) = false := by decide +kernel
/-- Where the copy is not taken the output window is idle, -/
theorem idleAt10_2 : ∀ t : Fin cfg10.N, ¬cond10_1 (grid10.coords t) → cfg10.idle 2 (grid10.coords t) = true := by decide +kernel
/-- and not written back; -/
theorem noFlush10_2 : ∀ t : Fin cfg10.N, ¬cond10_1 (grid10.coords t) → (cfg10.win 2).flush t = false := by decide +kernel
/-- where it is taken the window is live. -/
theorem liveAt10_2 : ∀ t : Fin cfg10.N, cond10_1 (grid10.coords t) → cfg10.idle 2 (grid10.coords t) = false := by decide +kernel

/-! ## Whole-buffer accesses -/

/-- The zero offsets of a two-axis access. -/
theorem hz10 : (![0, 0] : Fin 2 → Nat) = fun _ => 0 := funext fun a => by fin_cases a <;> rfl

/-- A rectangle of the shape's own sizes at zero offsets holds every index. -/
theorem memUnit10 {S : Shape} {off : Fin S.rank → Nat} (h : off = fun _ => 0) (inb : ∀ a, off a + S.size a ≤ S.size a) (y : S.Idx) :
    y ∈ (Rect.unit off S.size inb).set := by
  subst h; show y ∈ (Rect.whole S).set; rw [Rect.set_whole]; exact Finset.mem_univ y

/-- A store through such a rectangle, made last, leaves its payload, whatever was stored before and whatever the
    buffer held. -/
theorem readLast10 {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f (⟨Rect.unit off S.size inb, w⟩ :: L)) = w := by
  rw [View.read_writes_eq_canon _ _ _ (fun y => ⟨_, List.mem_cons_self .., memUnit10 h inb y⟩), View.canon_cons_unit_zero h]

/-! ## The scratch accumulator -/

/-- The scratch operand: a whole scoped buffer of the kernel's own, passed beside the windows. -/
abbrev scM10 : Memref sig .tc .vmem S256x128 .f32 := Memref.whole cc10_scratch0

/-- THE ACCUMULATION. What the scratch holds after `n` points: the zero block the first point stores, then, point by
    point, the sum of what it held and the point's contribution (the payload of the body's second store, over the
    point's two input blocks and what the scratch held). -/
def accAt10 (c : Dev nD) : (n : ℕ) → n ≤ cfg10.N → Vec F S256x128 .f32
  | 0, _ => k10_pay1
  | n + 1, hn => k10_pay2 (iblk10 V c 0 ⟨n, hn⟩) (iblk10 V c 1 ⟨n, hn⟩) (accAt10 c n (Nat.le_of_lt hn))

theorem accAt10_zero (c : Dev nD) (h : 0 ≤ cfg10.N) : accAt10 V c 0 h = k10_pay1 := rfl
theorem accAt10_succ (c : Dev nD) (t : Fin cfg10.N) :
    accAt10 V c (t.val + 1) t.isLt = k10_pay2 (iblk10 V c 0 t) (iblk10 V c 1 t) (accAt10 V c t.val (Nat.le_of_lt t.isLt)) := rfl

/-! ## The body's triple, per control case -/

set_option maxHeartbeats 1000000 in
/-- THE FIRST POINT (the reset taken, the copy not): on whole memrefs, the inputs' at `x` and `b` and the scratch at
    anything, the body runs to the inputs' as they were and the scratch at the zero block plus the point's contribution.
    The output window's memref is not touched. -/
theorem sound_first10 (c : Dev nD) (E : Set ℕ) (i : grid10.Coords)
    (aX : Memref sig .tc .vmem S5000x128 .f32) (hX : aX.IsWhole) (aB : Memref sig .tc .vmem S5000x1 .i32) (hB : aB.IsWhole)
    (aO : Memref sig .tc .vmem S256x128 .f32) (hO : aO.IsWhole) (aS : Memref sig .tc .vmem S256x128 .f32) (hS : aS.IsWhole)
    (hcR : cond10_0 i) (hcC : ¬cond10_1 i)
    (x : Vec F S5000x128 .f32) (b : Vec F S5000x1 .i32) (K : PUnit → sProp 𝕄) :
    iprop(owns (c : Thread nD τ) aX fullShare x ∗ owns (c : Thread nD τ) aB fullShare b ∗ (∃ d, owns (c : Thread nD τ) aS fullShare d)
        ∗ (iprop(owns (c : Thread nD τ) aX fullShare x ∗ owns (c : Thread nD τ) aB fullShare b
            ∗ owns (c : Thread nD τ) aS fullShare (k10_pay2 x b k10_pay1)) -∗ K ⟨⟩))
      ⊢ wp frame (wpE (defs₀ (F := F)) Variants.none c none) E (cc10__segsum_kernel i aX hX aB hB aO hO aS hS) K := by
  simp only [cc10__segsum_kernel_eq_skeleton]; unfold cc10__segsum_kernel_skel
  unfold owns
  iintro ⟨⟨%fX, %hfX, HX⟩, ⟨%fB, %hfB, HB⟩, ⟨%dS, %fS, -, HS⟩, Hk⟩
  obtain rfl := hX.eq_unread hfX; obtain rfl := hB.eq_unread hfB
  sl_exec (disch := first | exact hcR | exact hcC)
  sl_step
  iapply Hk
  isplitl [HX]
  · iexists _; isplitr; · ipureintro; exact hX.read_unread _
    iexact HX
  isplitl [HB]
  · iexists _; isplitr; · ipureintro; exact hB.read_unread _
    iexact HB
  iexists _; isplitr
  swap; · iexact HS
  ipureintro
  sl_unfold_run_names
  rw [readLast10 _ _ hz10, View.readCov_unit_zero _ hz10]
  simp only [View.readAt_eq_ld, hX.read_unread, hB.read_unread,
    View.ld_unit_zero (S := S5000x128) hz10, View.ld_unit_zero (S := S5000x1) hz10]

set_option maxHeartbeats 1000000 in
/-- A MIDDLE POINT (neither conditional taken): the scratch at `a` ends at `a` plus the point's contribution. -/
theorem sound_mid10 (c : Dev nD) (E : Set ℕ) (i : grid10.Coords)
    (aX : Memref sig .tc .vmem S5000x128 .f32) (hX : aX.IsWhole) (aB : Memref sig .tc .vmem S5000x1 .i32) (hB : aB.IsWhole)
    (aO : Memref sig .tc .vmem S256x128 .f32) (hO : aO.IsWhole) (aS : Memref sig .tc .vmem S256x128 .f32) (hS : aS.IsWhole)
    (hcR : ¬cond10_0 i) (hcC : ¬cond10_1 i)
    (x : Vec F S5000x128 .f32) (b : Vec F S5000x1 .i32) (a : Vec F S256x128 .f32) (K : PUnit → sProp 𝕄) :
    iprop(owns (c : Thread nD τ) aX fullShare x ∗ owns (c : Thread nD τ) aB fullShare b ∗ owns (c : Thread nD τ) aS fullShare a
        ∗ (iprop(owns (c : Thread nD τ) aX fullShare x ∗ owns (c : Thread nD τ) aB fullShare b
            ∗ owns (c : Thread nD τ) aS fullShare (k10_pay2 x b a)) -∗ K ⟨⟩))
      ⊢ wp frame (wpE (defs₀ (F := F)) Variants.none c none) E (cc10__segsum_kernel i aX hX aB hB aO hO aS hS) K := by
  simp only [cc10__segsum_kernel_eq_skeleton]; unfold cc10__segsum_kernel_skel
  unfold owns
  iintro ⟨⟨%fX, %hfX, HX⟩, ⟨%fB, %hfB, HB⟩, ⟨%fS, %hfS, HS⟩, Hk⟩
  obtain rfl := hX.eq_unread hfX; obtain rfl := hB.eq_unread hfB; obtain rfl := hS.eq_unread hfS
  sl_exec (disch := first | exact hcR | exact hcC)
  sl_step
  iapply Hk
  isplitl [HX]
  · iexists _; isplitr; · ipureintro; exact hX.read_unread _
    iexact HX
  isplitl [HB]
  · iexists _; isplitr; · ipureintro; exact hB.read_unread _
    iexact HB
  iexists _; isplitr
  swap; · iexact HS
  ipureintro
  rw [readLast10 _ _ hz10]
  simp only [View.readAt_eq_ld, hX.read_unread, hB.read_unread, hS.read_unread,
    View.ld_unit_zero (S := S5000x128) hz10, View.ld_unit_zero (S := S5000x1) hz10, View.ld_unit_zero (S := S256x128) hz10]

set_option maxHeartbeats 1000000 in
/-- THE LAST POINT (the copy taken, the reset not): the scratch at `a` ends at `a` plus the point's contribution, and
    the output window's memref, at anything, ends holding the same. -/
theorem sound_last10 (c : Dev nD) (E : Set ℕ) (i : grid10.Coords)
    (aX : Memref sig .tc .vmem S5000x128 .f32) (hX : aX.IsWhole) (aB : Memref sig .tc .vmem S5000x1 .i32) (hB : aB.IsWhole)
    (aO : Memref sig .tc .vmem S256x128 .f32) (hO : aO.IsWhole) (aS : Memref sig .tc .vmem S256x128 .f32) (hS : aS.IsWhole)
    (hcR : ¬cond10_0 i) (hcC : cond10_1 i)
    (x : Vec F S5000x128 .f32) (b : Vec F S5000x1 .i32) (a : Vec F S256x128 .f32) (K : PUnit → sProp 𝕄) :
    iprop(owns (c : Thread nD τ) aX fullShare x ∗ owns (c : Thread nD τ) aB fullShare b ∗ (∃ d, owns (c : Thread nD τ) aO fullShare d)
        ∗ owns (c : Thread nD τ) aS fullShare a
        ∗ (iprop(owns (c : Thread nD τ) aX fullShare x ∗ owns (c : Thread nD τ) aB fullShare b
            ∗ owns (c : Thread nD τ) aO fullShare (k10_pay2 x b a) ∗ owns (c : Thread nD τ) aS fullShare (k10_pay2 x b a)) -∗ K ⟨⟩))
      ⊢ wp frame (wpE (defs₀ (F := F)) Variants.none c none) E (cc10__segsum_kernel i aX hX aB hB aO hO aS hS) K := by
  simp only [cc10__segsum_kernel_eq_skeleton]; unfold cc10__segsum_kernel_skel
  unfold owns
  iintro ⟨⟨%fX, %hfX, HX⟩, ⟨%fB, %hfB, HB⟩, ⟨%dO, %fO, -, HO⟩, ⟨%fS, %hfS, HS⟩, Hk⟩
  obtain rfl := hX.eq_unread hfX; obtain rfl := hB.eq_unread hfB; obtain rfl := hS.eq_unread hfS
  sl_exec (disch := first | exact hcR | exact hcC)
  sl_step
  iapply Hk
  isplitl [HX]
  · iexists _; isplitr; · ipureintro; exact hX.read_unread _
    iexact HX
  isplitl [HB]
  · iexists _; isplitr; · ipureintro; exact hB.read_unread _
    iexact HB
  isplitl [HO]
  · iexists _; isplitr
    swap; · iexact HO
    ipureintro
    sl_unfold_run_names
    rw [readLast10 _ _ hz10, View.readCov_unit_zero _ hz10]
    simp only [View.readAt_eq_ld, hX.read_unread, hB.read_unread, hS.read_unread,
      View.ld_unit_zero (S := S5000x128) hz10, View.ld_unit_zero (S := S5000x1) hz10, View.ld_unit_zero (S := S256x128) hz10]
  iexists _; isplitr
  swap; · iexact HS
  ipureintro
  sl_unfold_run_names
  rw [readLast10 _ _ hz10]
  simp only [View.readAt_eq_ld, hX.read_unread, hB.read_unread, hS.read_unread,
    View.ld_unit_zero (S := S5000x128) hz10, View.ld_unit_zero (S := S5000x1) hz10, View.ld_unit_zero (S := S256x128) hz10]

/-- The region invariant before position `n`: before the first point the class's (every scratch at anything); afterwards
    the carried scratch at what the points so far accumulated, the other scoped buffers unopened, and the generator
    register at some state. -/
def Phi10 (c : Dev nD) (n : ℕ) (hn : n ≤ cfg10.N) : sProp 𝕄 :=
  if n = 0 then Pipeline.ΦA spec10 c
  else iprop(owns (c : Thread nD τ) scM10 fullShare (accAt10 V c n hn)
      ∗ Pipeline.scopedRestBut (Ix := Unit) (Name := ℕ) (U := UR sig nD τ) (Lvl := ℕ) (Val := Elt F) spec10 c [cc10_scratch0]
      ∗ (∃ r, prngReg c r))

theorem Phi10_zero (c : Dev nD) (n : ℕ) (h : n ≤ cfg10.N) (hz : n = 0) : Phi10 V c n h = Pipeline.ΦA spec10 c := by
  unfold Phi10; exact if_pos hz

theorem Phi10_pos (c : Dev nD) (n : ℕ) (h : n ≤ cfg10.N) (hz : n ≠ 0) :
    Phi10 V c n h = iprop(owns (c : Thread nD τ) scM10 fullShare (accAt10 V c n h)
      ∗ Pipeline.scopedRestBut (Ix := Unit) (Name := ℕ) (U := UR sig nD τ) (Lvl := ℕ) (Val := Elt F) spec10 c [cc10_scratch0]
      ∗ (∃ r, prngReg c r)) := by
  unfold Phi10; exact if_neg hz

/-- The class's invariant with the scratch operand split out of the scoped rest as a memref owned at some contents. -/
theorem PhiA10_eq (c : Dev nD) :
    (Pipeline.ΦA spec10 c : sProp 𝕄)
      = iprop(iprop(iprop((∃ d, owns (c : Thread nD τ) scM10 fullShare d))
          ∗ Pipeline.scopedRestBut (Ix := Unit) (Name := ℕ) (U := UR sig nD τ) (Lvl := ℕ) (Val := Elt F) spec10 c [cc10_scratch0])
        ∗ (∃ r, prngReg c r)) := by
  unfold Pipeline.ΦA; rw [scopedRest10_split]; simp only [scM10, owns_whole]; try rfl

/-! ## The pipeline's proof data -/

/-- The proof data of pipeline 10 on core `c`: the arrays as the region finds them (`V`); after the body at point `t` each
    input's buffer at its block and the output's at what the scratch then holds (consulted at the last point only: the
    window is idle elsewhere); the invariant `Phi10`; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => accAt10 V c (t.val + 1) t.isLt
  Φ t := Phi10 V c t.val (Nat.le_of_lt_succ t.isLt)
  q _ := fullShare
  owed _ := 0

theorem A_eq10 (c : Dev nD) (w : Fin cfg10.W) : (dat10 V c).A w = V c (Pipeline.arrRef spec10 w) := by
  dsimp only [dat10]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = accAt10 V c (t.val + 1) t.isLt := by dsimp only [dat10]

theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d

/-- The invariant at a point's start, restated at `t.val`. -/
theorem Phi10_castSucc (c : Dev nD) (t : Fin cfg10.N) :
    (dat10 V c).Φ t.castSucc = Phi10 V c t.val (Nat.le_of_lt t.isLt) := by
  dsimp only [dat10]; simp only [Fin.coe_castSucc]

/-- The invariant at a point's end: the carried scratch at what the points up to this one accumulated. -/
theorem Phi10_succ (c : Dev nD) (t : Fin cfg10.N) :
    (dat10 V c).Φ t.succ = iprop(owns (c : Thread nD τ) scM10 fullShare (accAt10 V c (t.val + 1) t.isLt)
      ∗ Pipeline.scopedRestBut (Ix := Unit) (Name := ℕ) (U := UR sig nD τ) (Lvl := ℕ) (Val := Elt F) spec10 c [cc10_scratch0]
      ∗ (∃ r, prngReg c r)) := by
  dsimp only [dat10]; simp only [Fin.val_succ]; exact Phi10_pos V c _ _ (Nat.succ_ne_zero _)

/-- Before any point has run the accumulation is the zero block. -/
theorem accAt10_of_zero (c : Dev nD) (n : ℕ) (h : n ≤ cfg10.N) (hz : n = 0) : accAt10 V c n h = k10_pay1 := by
  subst hz; rfl

/-! ## The body obligation, at a generic point -/

/-- What the body is called with at point `t` (the library's body obligation's precondition, the windows one by one), -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d)))

/-- and what it returns. -/
def bodyPost10 (c : Dev nD) (t : Fin cfg10.N) : sProp 𝕄 :=
  iprop((dat10 V c).Φ t.succ ∗ (dat10 V c).owesAt () t.succ
    ∗ (dat10 V c).leavesExact 0 t
    ∗ (dat10 V c).leavesExact 1 t
    ∗ (dat10 V c).leavesExact 2 t)

set_option maxHeartbeats 4000000 in
/-- The body at any point. The inputs' memrefs hold their blocks; the closed forms of the two conditions say which of the
    three control cases the point is in, and that case's triple applies. The invariant hands the body the scratch — at
    anything at the first point, at what the points before accumulated afterwards — and takes it back at what the points
    up to this one accumulated; the other scoped buffers, the generator register and the core's `owes` pass through
    unread; the output window's memref is handed back as it was found except at the last point, where it holds the
    accumulation. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1]
  rw [show (dat10 V c).owesAt () t.succ = (dat10 V c).owesAt () t.castSucc from rfl, Phi10_succ V c t, Phi10_castSucc V c t]
  have hN : t.val < 10 := lt_of_lt_of_eq t.isLt (show cfg10.N = 10 from N_10)
  rw [show (dat10 V c).leavesExact 0 t = owns (c : Thread nD τ) (st10_0 t) fullShare ((dat10 V c).after 0 t) from by
    unfold Dat.leavesExact; rw [liveAt10_0 t], after10_0]
  rw [show (dat10 V c).leavesExact 1 t = owns (c : Thread nD τ) (st10_1 t) fullShare ((dat10 V c).after 1 t) from by
    unfold Dat.leavesExact; rw [liveAt10_1 t], after10_1]
  rw [accAt10_succ V c t]
  by_cases hL : t.val % 10 = 9
  · have hcC : cond10_1 (grid10.coords t) := (hcond10_1 t).mpr hL
    have hcR : ¬cond10_0 (grid10.coords t) := fun h => by have := (hcond10_0 t).mp h; omega
    have hz : t.val ≠ 0 := by omega
    rw [show (dat10 V c).leavesExact 2 t = owns (c : Thread nD τ) (st10_2 t) fullShare ((dat10 V c).after 2 t) from by
      unfold Dat.leavesExact; rw [liveAt10_2 t hcC], after10_2, accAt10_succ V c t]
    rw [Phi10_pos V c _ _ hz]
    iintro ⟨⟨HS, Hrest, Hg⟩, Ho, ⟨%dX, HX⟩, ⟨%dB, HB⟩, ⟨%dO, HO⟩⟩
    iapply (sound_last10 c Set.univ (grid10.coords t) _ _ _ _ _ _ _ _ hcR hcC (iblk10 V c 0 t) (iblk10 V c 1 t)
      (accAt10 V c t.val (Nat.le_of_lt t.isLt)) _)
    isplitl [HX]; · iexact HX
    isplitl [HB]; · iexact HB
    isplitl [HO]; · iexists _; iexact HO
    isplitl [HS]; · iexact HS
    iintro ⟨HX, HB, HO, HS⟩
    isplitl [HS Hrest Hg]
    · isplitl [HS]; · iexact HS
      isplitl [Hrest]; · iexact Hrest
      iexact Hg
    isplitl [Ho]; · iexact Ho
    isplitl [HX]; · iexact HX
    isplitl [HB]; · iexact HB
    iexact HO
  · have hcC : ¬cond10_1 (grid10.coords t) := fun h => hL ((hcond10_1 t).mp h)
    rw [Dat.leavesExact_idle (dat10 V c) 2 t (idleAt10_2 t hcC) (noFlush10_2 t hcC)]
    by_cases hF : t.val % 10 = 0
    · have hcR : cond10_0 (grid10.coords t) := (hcond10_0 t).mpr hF
      have hz : t.val = 0 := by omega
      rw [Phi10_zero V c _ _ hz, PhiA10_eq, accAt10_of_zero V c _ _ hz]
      iintro ⟨⟨⟨HS, Hrest⟩, Hg⟩, Ho, ⟨%dX, HX⟩, ⟨%dB, HB⟩, ⟨%dO, HO⟩⟩
      iapply (sound_first10 c Set.univ (grid10.coords t) _ _ _ _ _ _ _ _ hcR hcC (iblk10 V c 0 t) (iblk10 V c 1 t) _)
      isplitl [HX]; · iexact HX
      isplitl [HB]; · iexact HB
      isplitl [HS]; · iexact HS
      iintro ⟨HX, HB, HS⟩
      isplitl [HS Hrest Hg]
      · isplitl [HS]; · iexact HS
        isplitl [Hrest]; · iexact Hrest
        iexact Hg
      isplitl [Ho]; · iexact Ho
      isplitl [HX]; · iexact HX
      isplitl [HB]; · iexact HB
      iexists _; iexact HO
    · have hcR : ¬cond10_0 (grid10.coords t) := fun h => hF ((hcond10_0 t).mp h)
      have hz : t.val ≠ 0 := by omega
      rw [Phi10_pos V c _ _ hz]
      iintro ⟨⟨HS, Hrest, Hg⟩, Ho, ⟨%dX, HX⟩, ⟨%dB, HB⟩, ⟨%dO, HO⟩⟩
      iapply (sound_mid10 c Set.univ (grid10.coords t) _ _ _ _ _ _ _ _ hcR hcC (iblk10 V c 0 t) (iblk10 V c 1 t)
        (accAt10 V c t.val (Nat.le_of_lt t.isLt)) _)
      isplitl [HX]; · iexact HX
      isplitl [HB]; · iexact HB
      isplitl [HS]; · iexact HS
      iintro ⟨HX, HB, HS⟩
      isplitl [HS Hrest Hg]
      · isplitl [HS]; · iexact HS
        isplitl [Hrest]; · iexact Hrest
        iexact Hg
      isplitl [Ho]; · iexact Ho
      isplitl [HX]; · iexact HX
      isplitl [HB]; · iexact HB
      iexists _; iexact HO

/-- The library's body obligation, at every point. -/
theorem body_obligation10 (c : Dev nD) : BodyObligation (dat10 (F := F) V c) (defs₀ (F := F)) Variants.none () Set.univ := fun t => by
  rw [bigSep_W10, bigSep_W10]
  exact sound_body10 V c t

/-- What the launch hands the region is the invariant before the first point. -/
theorem PhiIn10 (c : Dev nD) : Pipeline.ΦA spec10 c ⊢ (dat10 V c).Φ 0 := by
  rw [show (dat10 V c).Φ 0 = Phi10 V c 0 (Nat.zero_le _) from rfl, Phi10_zero V c 0 _ rfl]

/-- After the last point the invariant gives the class's back: the scratch's named contents are forgotten. -/
theorem PhiOut10 (c : Dev nD) : (dat10 V c).Φ (Fin.last _) ⊢ Pipeline.ΦA spec10 c := by
  rw [show (dat10 V c).Φ (Fin.last _) = Phi10 V c cfg10.N (Nat.le_refl _) from rfl,
    Phi10_pos V c _ _ (by rw [show cfg10.N = 10 from N_10]; decide), PhiA10_eq]
  iintro ⟨HS, Hrest, Hg⟩
  isplitl [HS Hrest]
  · isplitl [HS]
    · iexists _; iexact HS
    iexact Hrest
  iexact Hg

end Cert.KernelIdeal.Hand

end
-- ==== Proof.VnRegion11.lean ====
/- Region 11 of @main, custom_call 11, the virtual node's two-layer perceptron `cc11__vn_mlp_kernel`: the frame half of its pipeline, at any float model `F` and at a PARAMETER `V`, the
   TensorCore's buffer contents when the region is entered. The grid is one point and every window's block is its whole
   array. Each input window's staging buffer holds its block; the output's, after the body, holds what the body's one store
   leaves, a function `out11_9` of the input blocks; the body's triple is run on whole staging memrefs; the pipeline's proof
   data carries the arrays at `V`, the untouched invariant, full shares and nothing owed; and the library's body obligation
   follows at the one point. -/
import proofs.«403491_j395136991532_1_alg».proof.Proof.Gen.KernelIdeal.Launch
import proofs.«403491_j395136991532_1_alg».proof.Proof.Gen.KernelIdeal.Skeleton
import proofs.«403491_j395136991532_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- Input window 0's current staging buffer holds its block at every point, fetched there or not, for any proof data
    whose array is `V`'s and whose body leaves the block in place: the window is uncut and never idle. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

/-- Input window 1's current staging buffer holds its block at every point, fetched there or not, for any proof data
    whose array is `V`'s and whose body leaves the block in place: the window is uncut and never idle. -/
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

/-- Input window 2's current staging buffer holds its block at every point, fetched there or not, for any proof data
    whose array is `V`'s and whose body leaves the block in place: the window is uncut and never idle. -/
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)

/-- Input window 3's current staging buffer holds its block at every point, fetched there or not, for any proof data
    whose array is `V`'s and whose body leaves the block in place: the window is uncut and never idle. -/
theorem before11_3_of {c : Dev nD} (dat : Dat τ (Elt F) Unit ℕ (UR sig nD τ) ℕ cfg11 c) (hA : dat.A 3 = V c (Pipeline.arrRef spec11 3))
    (hafter : ∀ t, dat.after 3 t = iblk11 V c 3 t) (t : Fin cfg11.N) (d) : dat.before 3 t d = iblk11 V c 3 t :=
  (dat.before_in_eq_fetched 3 rfl (fun _ => rfl) (fun _ _ _ => rfl) (fun t => by rw [hafter]; unfold Dat.blockOf iblk11; rw [hA]; try rfl) t d).trans
    (by unfold Dat.fetched Dat.blockOf iblk11; rw [hA]; try rfl)

/-- Input window 4's current staging buffer holds its block at every point, fetched there or not, for any proof data
    whose array is `V`'s and whose body leaves the block in place: the window is uncut and never idle. -/
theorem before11_4_of {c : Dev nD} (dat : Dat τ (Elt F) Unit ℕ (UR sig nD τ) ℕ cfg11 c) (hA : dat.A 4 = V c (Pipeline.arrRef spec11 4))
    (hafter : ∀ t, dat.after 4 t = iblk11 V c 4 t) (t : Fin cfg11.N) (d) : dat.before 4 t d = iblk11 V c 4 t :=
  (dat.before_in_eq_fetched 4 rfl (fun _ => rfl) (fun _ _ _ => rfl) (fun t => by rw [hafter]; unfold Dat.blockOf iblk11; rw [hA]; try rfl) t d).trans
    (by unfold Dat.fetched Dat.blockOf iblk11; rw [hA]; try rfl)

/-- Input window 5's current staging buffer holds its block at every point, fetched there or not, for any proof data
    whose array is `V`'s and whose body leaves the block in place: the window is uncut and never idle. -/
theorem before11_5_of {c : Dev nD} (dat : Dat τ (Elt F) Unit ℕ (UR sig nD τ) ℕ cfg11 c) (hA : dat.A 5 = V c (Pipeline.arrRef spec11 5))
    (hafter : ∀ t, dat.after 5 t = iblk11 V c 5 t) (t : Fin cfg11.N) (d) : dat.before 5 t d = iblk11 V c 5 t :=
  (dat.before_in_eq_fetched 5 rfl (fun _ => rfl) (fun _ _ _ => rfl) (fun t => by rw [hafter]; unfold Dat.blockOf iblk11; rw [hA]; try rfl) t d).trans
    (by unfold Dat.fetched Dat.blockOf iblk11; rw [hA]; try rfl)

/-- Input window 6's current staging buffer holds its block at every point, fetched there or not, for any proof data
    whose array is `V`'s and whose body leaves the block in place: the window is uncut and never idle. -/
theorem before11_6_of {c : Dev nD} (dat : Dat τ (Elt F) Unit ℕ (UR sig nD τ) ℕ cfg11 c) (hA : dat.A 6 = V c (Pipeline.arrRef spec11 6))
    (hafter : ∀ t, dat.after 6 t = iblk11 V c 6 t) (t : Fin cfg11.N) (d) : dat.before 6 t d = iblk11 V c 6 t :=
  (dat.before_in_eq_fetched 6 rfl (fun _ => rfl) (fun _ _ _ => rfl) (fun t => by rw [hafter]; unfold Dat.blockOf iblk11; rw [hA]; try rfl) t d).trans
    (by unfold Dat.fetched Dat.blockOf iblk11; rw [hA]; try rfl)

/-- Input window 7's current staging buffer holds its block at every point, fetched there or not, for any proof data
    whose array is `V`'s and whose body leaves the block in place: the window is uncut and never idle. -/
theorem before11_7_of {c : Dev nD} (dat : Dat τ (Elt F) Unit ℕ (UR sig nD τ) ℕ cfg11 c) (hA : dat.A 7 = V c (Pipeline.arrRef spec11 7))
    (hafter : ∀ t, dat.after 7 t = iblk11 V c 7 t) (t : Fin cfg11.N) (d) : dat.before 7 t d = iblk11 V c 7 t :=
  (dat.before_in_eq_fetched 7 rfl (fun _ => rfl) (fun _ _ _ => rfl) (fun t => by rw [hafter]; unfold Dat.blockOf iblk11; rw [hA]; try rfl) t d).trans
    (by unfold Dat.fetched Dat.blockOf iblk11; rw [hA]; try rfl)

/-- Input window 8's current staging buffer holds its block at every point, fetched there or not, for any proof data
    whose array is `V`'s and whose body leaves the block in place: the window is uncut and never idle. -/
theorem before11_8_of {c : Dev nD} (dat : Dat τ (Elt F) Unit ℕ (UR sig nD τ) ℕ cfg11 c) (hA : dat.A 8 = V c (Pipeline.arrRef spec11 8))
    (hafter : ∀ t, dat.after 8 t = iblk11 V c 8 t) (t : Fin cfg11.N) (d) : dat.before 8 t d = iblk11 V c 8 t :=
  (dat.before_in_eq_fetched 8 rfl (fun _ => rfl) (fun _ _ _ => rfl) (fun t => by rw [hafter]; unfold Dat.blockOf iblk11; rw [hA]; try rfl) t d).trans
    (by unfold Dat.fetched Dat.blockOf iblk11; rw [hA]; try rfl)

/-! ## The body's accesses: each is a whole buffer -/

abbrev r11_0 : Rect S256x128 := Rect.unit (s := S256x128) ![0, 0] S256x128.size inb_S256x128_S256x128_0_0
abbrev r11_1 : Rect S128x256 := Rect.unit (s := S128x256) ![0, 0] S128x256.size inb_S128x256_S128x256_0_0
abbrev r11_2 : Rect S1x256 := Rect.unit (s := S1x256) ![0, 0] S1x256.size inb_S1x256_S1x256_0_0
abbrev r11_3 : Rect S1x128 := Rect.unit (s := S1x128) ![0, 0] S1x128.size inb_S1x128_S1x128_0_0

/-! ## What the body leaves in the output window's buffer -/

/-- Window 9's staging buffer after the body, from the input windows' blocks: its one store as a piece (the payload is
    the skeleton's). -/
def out11_9 (x0 : Vec F S256x128 .f32) (x1 : Vec F S128x256 .bf16) (x2 : Vec F S1x256 .f32) (x3 : Vec F S1x256 .f32) (x4 : Vec F S1x256 .f32) (x5 : Vec F S256x128 .bf16) (x6 : Vec F S1x128 .f32) (x7 : Vec F S1x128 .f32) (x8 : Vec F S1x128 .f32) : Vec F S256x128 .f32 :=
  View.canon [⟨r11_0, k11_pay1 (k11_pay2 (View.ld x0 r11_0) (View.ld x1 r11_1) (View.ld x2 r11_2) (View.ld x3 r11_2) (View.ld x4 r11_2) (View.ld x5 r11_0) (View.ld x6 r11_3) (View.ld x7 r11_3) (View.ld x8 r11_3)) k11_pay3⟩]

/-- The one store is of the whole buffer, so it covers it. -/
theorem cover11_9 (p0 : Vec F S256x128 .f32) (y : S256x128.Idx) :
    ∃ pc ∈ ([⟨r11_0, p0⟩] : List (View.Piece (Elt F) S256x128 .f32)), y ∈ pc.1.set :=
  View.cover_of_tiled [⟨r11_0, p0⟩] S256x128.size (by rfl) y

/-! ## The body's triple -/

set_option maxHeartbeats 1000000 in
/-- The kernel body on whole staging memrefs, the inputs' at read contents `xW` and the output's at anything, runs to the
    continuation holding the inputs' as they were and the output's at `out11_9` of the inputs': the printed functions are
    their skeletons of memory operations over payloads, which are run operation by operation, through the part call. -/
theorem sound_kernel11 (c : Dev nD) (E : Set ℕ) (i : grid11.Coords) (arg1 : Memref sig .tc .vmem S256x128 .f32) (harg1 : arg1.IsWhole) (arg2 : Memref sig .tc .vmem S128x256 .bf16) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x128 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole)
    (x0 : Vec F S256x128 .f32) (x1 : Vec F S128x256 .bf16) (x2 : Vec F S1x256 .f32) (x3 : Vec F S1x256 .f32) (x4 : Vec F S1x256 .f32) (x5 : Vec F S256x128 .bf16) (x6 : Vec F S1x128 .f32) (x7 : Vec F S1x128 .f32) (x8 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out11_9 x0 x1 x2 x3 x4 x5 x6 x7 x8)) -∗ K ⟨⟩))
      ⊢ wp frame (wpE (defs₀ (F := F)) Variants.none c none) E (cc11__vn_mlp_kernel i arg1 harg1 arg2 harg2 arg3 harg3 arg4 harg4 arg5 harg5 arg6 harg6 arg7 harg7 arg8 harg8 arg9 harg9 arg10 harg10) K := by
  simp only [cc11__vn_mlp_kernel_eq_skeleton]; unfold cc11__vn_mlp_kernel_skel
  simp only [k11_part1_eq_skeleton]; unfold k11_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover11_9 _)

/-! ## The pipeline's proof data -/

/-- The proof data of pipeline 11 on core `c`: the arrays as the region finds them (`V`); after the body at point `t` each
    input's buffer at its block and the output's at `out11_9` of the input blocks; the invariant the scoped rest and the
    generator register, untouched; nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => iblk11 V c 4 t
    | ⟨5, _⟩ => iblk11 V c 5 t
    | ⟨6, _⟩ => iblk11 V c 6 t
    | ⟨7, _⟩ => iblk11 V c 7 t
    | ⟨8, _⟩ => iblk11 V c 8 t
    | ⟨9, _⟩ => out11_9 (iblk11 V c 0 t) (iblk11 V c 1 t) (iblk11 V c 2 t) (iblk11 V c 3 t) (iblk11 V c 4 t) (iblk11 V c 5 t) (iblk11 V c 6 t) (iblk11 V c 7 t) (iblk11 V c 8 t)
  Φ _ := Pipeline.ΦA spec11 c
  q _ := fullShare
  owed _ := 0

/-- The proof data's arrays are the region-entry contents. -/
theorem A_eq11 (c : Dev nD) (w : Fin cfg11.W) : (dat11 V c).A w = V c (Pipeline.arrRef spec11 w) := by
  dsimp only [dat11]

/-- What the body leaves, window by window. -/
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = iblk11 V c 3 t := by dsimp only [dat11]
theorem after11_4 (c : Dev nD) (t : Fin cfg11.N) : (dat11 V c).after 4 t = iblk11 V c 4 t := by dsimp only [dat11]
theorem after11_5 (c : Dev nD) (t : Fin cfg11.N) : (dat11 V c).after 5 t = iblk11 V c 5 t := by dsimp only [dat11]
theorem after11_6 (c : Dev nD) (t : Fin cfg11.N) : (dat11 V c).after 6 t = iblk11 V c 6 t := by dsimp only [dat11]
theorem after11_7 (c : Dev nD) (t : Fin cfg11.N) : (dat11 V c).after 7 t = iblk11 V c 7 t := by dsimp only [dat11]
theorem after11_8 (c : Dev nD) (t : Fin cfg11.N) : (dat11 V c).after 8 t = iblk11 V c 8 t := by dsimp only [dat11]
theorem after11_9 (c : Dev nD) (t : Fin cfg11.N) : (dat11 V c).after 9 t = out11_9 (iblk11 V c 0 t) (iblk11 V c 1 t) (iblk11 V c 2 t) (iblk11 V c 3 t) (iblk11 V c 4 t) (iblk11 V c 5 t) (iblk11 V c 6 t) (iblk11 V c 7 t) (iblk11 V c 8 t) := by dsimp only [dat11]

/-- Each input's current staging buffer holds its block at every point, fetched there or not. -/
theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d
theorem before11_3 (c : Dev nD) (t : Fin cfg11.N) (d) : (dat11 V c).before 3 t d = iblk11 V c 3 t :=
  before11_3_of V (dat11 V c) (A_eq11 V c 3) (after11_3 V c) t d
theorem before11_4 (c : Dev nD) (t : Fin cfg11.N) (d) : (dat11 V c).before 4 t d = iblk11 V c 4 t :=
  before11_4_of V (dat11 V c) (A_eq11 V c 4) (after11_4 V c) t d
theorem before11_5 (c : Dev nD) (t : Fin cfg11.N) (d) : (dat11 V c).before 5 t d = iblk11 V c 5 t :=
  before11_5_of V (dat11 V c) (A_eq11 V c 5) (after11_5 V c) t d
theorem before11_6 (c : Dev nD) (t : Fin cfg11.N) (d) : (dat11 V c).before 6 t d = iblk11 V c 6 t :=
  before11_6_of V (dat11 V c) (A_eq11 V c 6) (after11_6 V c) t d
theorem before11_7 (c : Dev nD) (t : Fin cfg11.N) (d) : (dat11 V c).before 7 t d = iblk11 V c 7 t :=
  before11_7_of V (dat11 V c) (A_eq11 V c 7) (after11_7 V c) t d
theorem before11_8 (c : Dev nD) (t : Fin cfg11.N) (d) : (dat11 V c).before 8 t d = iblk11 V c 8 t :=
  before11_8_of V (dat11 V c) (A_eq11 V c 8) (after11_8 V c) t d

/-- The invariant at the region's entry is the class's, -/
theorem PhiIn11 (c : Dev nD) : Pipeline.ΦA spec11 c ⊢ (dat11 V c).Φ 0 := .rfl

/-- and at its exit. -/
theorem PhiOut11 (c : Dev nD) : (dat11 V c).Φ (Fin.last _) ⊢ Pipeline.ΦA spec11 c := .rfl

/-! ## The body obligation, at a generic point -/

/-- What the body is called with at point `t`, the windows one by one, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d))
    ∗ (∃ d, owns (c : Thread nD τ) (st11_4 t) fullShare ((dat11 V c).before 4 t d))
    ∗ (∃ d, owns (c : Thread nD τ) (st11_5 t) fullShare ((dat11 V c).before 5 t d))
    ∗ (∃ d, owns (c : Thread nD τ) (st11_6 t) fullShare ((dat11 V c).before 6 t d))
    ∗ (∃ d, owns (c : Thread nD τ) (st11_7 t) fullShare ((dat11 V c).before 7 t d))
    ∗ (∃ d, owns (c : Thread nD τ) (st11_8 t) fullShare ((dat11 V c).before 8 t d))
    ∗ (∃ d, owns (c : Thread nD τ) (st11_9 t) fullShare ((dat11 V c).before 9 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t)
    ∗ owns (c : Thread nD τ) (st11_4 t) fullShare ((dat11 V c).after 4 t)
    ∗ owns (c : Thread nD τ) (st11_5 t) fullShare ((dat11 V c).after 5 t)
    ∗ owns (c : Thread nD τ) (st11_6 t) fullShare ((dat11 V c).after 6 t)
    ∗ owns (c : Thread nD τ) (st11_7 t) fullShare ((dat11 V c).after 7 t)
    ∗ owns (c : Thread nD τ) (st11_8 t) fullShare ((dat11 V c).after 8 t)
    ∗ owns (c : Thread nD τ) (st11_9 t) fullShare ((dat11 V c).after 9 t))

/-- The body at any point: the inputs' memrefs hold their blocks, so the body's triple applies; the invariant and the core's
    debts pass through unread. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2, before11_3, before11_4, before11_5, before11_6, before11_7, before11_8]
  rw [show (dat11 V c).Φ t.succ = (dat11 V c).Φ t.castSucc from rfl,
    show (dat11 V c).owesAt () t.succ = (dat11 V c).owesAt () t.castSucc from rfl,
    after11_0, after11_1, after11_2, after11_3, after11_4, after11_5, after11_6, after11_7, after11_8, after11_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel11 c Set.univ _ _ _ _ _ _ _ _ _ _ _ _ _ _ _ _ _ _ _ _ _ (iblk11 V c 0 t) (iblk11 V c 1 t) (iblk11 V c 2 t) (iblk11 V c 3 t) (iblk11 V c 4 t) (iblk11 V c 5 t) (iblk11 V c 6 t) (iblk11 V c 7 t) (iblk11 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation11 (c : Dev nD) : BodyObligation (dat11 (F := F) V c) (defs₀ (F := F)) Variants.none () Set.univ := fun t => by
  rw [bigSep_W11, bigSep_W11]
  exact sound_body11 V c t

end Cert.KernelIdeal.Hand

end
-- ==== Proof.GinRegion12.lean ====
import proofs.«403491_j395136991532_1_alg».proof.Proof.Gen.KernelIdeal.Launch
import proofs.«403491_j395136991532_1_alg».proof.Proof.Gen.KernelIdeal.Skeleton
import proofs.«403491_j395136991532_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 12 (pipeline 12, the per-node two-layer perceptron on 5000-row tiles): the frame half

Stated at a parameter `V`, the TensorCore's buffer contents when the region is entered. Eleven input windows
(the two tiled operands and nine resident ones) and one tiled output window. The body reads every input buffer
whole, computes, and overwrites the output buffer whole; so after the body each input buffer still holds its
block, and the output buffer holds one closed function of the eleven input blocks. -/

-- membership in a rectangle of 5000 rows: the structural look recurses once per coordinate of the long axis
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- Input window 0's current staging buffer holds its block at every point, fetched there or not (not fetched:
    the block index has not moved), for any proof data whose array is `V`'s and whose body leaves the block in place. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)

/-- Input window 1's current staging buffer holds its block at every point, fetched there or not (not fetched:
    the block index has not moved), for any proof data whose array is `V`'s and whose body leaves the block in place. -/
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

/-- Input window 2's current staging buffer holds its block at every point, fetched there or not (not fetched:
    the block index has not moved), for any proof data whose array is `V`'s and whose body leaves the block in place. -/
theorem before12_2_of {c : Dev nD} (dat : Dat τ (Elt F) Unit ℕ (UR sig nD τ) ℕ cfg12 c) (hA : dat.A 2 = V c (Pipeline.arrRef spec12 2))
    (hafter : ∀ t, dat.after 2 t = iblk12 V c 2 t) (t : Fin cfg12.N) (d) : dat.before 2 t d = iblk12 V c 2 t :=
  (dat.before_in_eq_fetched 2 rfl (fun _ => rfl) (fun _ _ _ => rfl) (fun t => by rw [hafter]; unfold Dat.blockOf iblk12; rw [hA]; try rfl) t d).trans
    (by unfold Dat.fetched Dat.blockOf iblk12; rw [hA]; try rfl)

/-- Input window 3's current staging buffer holds its block at every point, fetched there or not (not fetched:
    the block index has not moved), for any proof data whose array is `V`'s and whose body leaves the block in place. -/
theorem before12_3_of {c : Dev nD} (dat : Dat τ (Elt F) Unit ℕ (UR sig nD τ) ℕ cfg12 c) (hA : dat.A 3 = V c (Pipeline.arrRef spec12 3))
    (hafter : ∀ t, dat.after 3 t = iblk12 V c 3 t) (t : Fin cfg12.N) (d) : dat.before 3 t d = iblk12 V c 3 t :=
  (dat.before_in_eq_fetched 3 rfl (fun _ => rfl) (fun _ _ _ => rfl) (fun t => by rw [hafter]; unfold Dat.blockOf iblk12; rw [hA]; try rfl) t d).trans
    (by unfold Dat.fetched Dat.blockOf iblk12; rw [hA]; try rfl)

/-- Input window 4's current staging buffer holds its block at every point, fetched there or not (not fetched:
    the block index has not moved), for any proof data whose array is `V`'s and whose body leaves the block in place. -/
theorem before12_4_of {c : Dev nD} (dat : Dat τ (Elt F) Unit ℕ (UR sig nD τ) ℕ cfg12 c) (hA : dat.A 4 = V c (Pipeline.arrRef spec12 4))
    (hafter : ∀ t, dat.after 4 t = iblk12 V c 4 t) (t : Fin cfg12.N) (d) : dat.before 4 t d = iblk12 V c 4 t :=
  (dat.before_in_eq_fetched 4 rfl (fun _ => rfl) (fun _ _ _ => rfl) (fun t => by rw [hafter]; unfold Dat.blockOf iblk12; rw [hA]; try rfl) t d).trans
    (by unfold Dat.fetched Dat.blockOf iblk12; rw [hA]; try rfl)

/-- Input window 5's current staging buffer holds its block at every point, fetched there or not (not fetched:
    the block index has not moved), for any proof data whose array is `V`'s and whose body leaves the block in place. -/
theorem before12_5_of {c : Dev nD} (dat : Dat τ (Elt F) Unit ℕ (UR sig nD τ) ℕ cfg12 c) (hA : dat.A 5 = V c (Pipeline.arrRef spec12 5))
    (hafter : ∀ t, dat.after 5 t = iblk12 V c 5 t) (t : Fin cfg12.N) (d) : dat.before 5 t d = iblk12 V c 5 t :=
  (dat.before_in_eq_fetched 5 rfl (fun _ => rfl) (fun _ _ _ => rfl) (fun t => by rw [hafter]; unfold Dat.blockOf iblk12; rw [hA]; try rfl) t d).trans
    (by unfold Dat.fetched Dat.blockOf iblk12; rw [hA]; try rfl)

/-- Input window 6's current staging buffer holds its block at every point, fetched there or not (not fetched:
    the block index has not moved), for any proof data whose array is `V`'s and whose body leaves the block in place. -/
theorem before12_6_of {c : Dev nD} (dat : Dat τ (Elt F) Unit ℕ (UR sig nD τ) ℕ cfg12 c) (hA : dat.A 6 = V c (Pipeline.arrRef spec12 6))
    (hafter : ∀ t, dat.after 6 t = iblk12 V c 6 t) (t : Fin cfg12.N) (d) : dat.before 6 t d = iblk12 V c 6 t :=
  (dat.before_in_eq_fetched 6 rfl (fun _ => rfl) (fun _ _ _ => rfl) (fun t => by rw [hafter]; unfold Dat.blockOf iblk12; rw [hA]; try rfl) t d).trans
    (by unfold Dat.fetched Dat.blockOf iblk12; rw [hA]; try rfl)

/-- Input window 7's current staging buffer holds its block at every point, fetched there or not (not fetched:
    the block index has not moved), for any proof data whose array is `V`'s and whose body leaves the block in place. -/
theorem before12_7_of {c : Dev nD} (dat : Dat τ (Elt F) Unit ℕ (UR sig nD τ) ℕ cfg12 c) (hA : dat.A 7 = V c (Pipeline.arrRef spec12 7))
    (hafter : ∀ t, dat.after 7 t = iblk12 V c 7 t) (t : Fin cfg12.N) (d) : dat.before 7 t d = iblk12 V c 7 t :=
  (dat.before_in_eq_fetched 7 rfl (fun _ => rfl) (fun _ _ _ => rfl) (fun t => by rw [hafter]; unfold Dat.blockOf iblk12; rw [hA]; try rfl) t d).trans
    (by unfold Dat.fetched Dat.blockOf iblk12; rw [hA]; try rfl)

/-- Input window 8's current staging buffer holds its block at every point, fetched there or not (not fetched:
    the block index has not moved), for any proof data whose array is `V`'s and whose body leaves the block in place. -/
theorem before12_8_of {c : Dev nD} (dat : Dat τ (Elt F) Unit ℕ (UR sig nD τ) ℕ cfg12 c) (hA : dat.A 8 = V c (Pipeline.arrRef spec12 8))
    (hafter : ∀ t, dat.after 8 t = iblk12 V c 8 t) (t : Fin cfg12.N) (d) : dat.before 8 t d = iblk12 V c 8 t :=
  (dat.before_in_eq_fetched 8 rfl (fun _ => rfl) (fun _ _ _ => rfl) (fun t => by rw [hafter]; unfold Dat.blockOf iblk12; rw [hA]; try rfl) t d).trans
    (by unfold Dat.fetched Dat.blockOf iblk12; rw [hA]; try rfl)

/-- Input window 9's current staging buffer holds its block at every point, fetched there or not (not fetched:
    the block index has not moved), for any proof data whose array is `V`'s and whose body leaves the block in place. -/
theorem before12_9_of {c : Dev nD} (dat : Dat τ (Elt F) Unit ℕ (UR sig nD τ) ℕ cfg12 c) (hA : dat.A 9 = V c (Pipeline.arrRef spec12 9))
    (hafter : ∀ t, dat.after 9 t = iblk12 V c 9 t) (t : Fin cfg12.N) (d) : dat.before 9 t d = iblk12 V c 9 t :=
  (dat.before_in_eq_fetched 9 rfl (fun _ => rfl) (fun _ _ _ => rfl) (fun t => by rw [hafter]; unfold Dat.blockOf iblk12; rw [hA]; try rfl) t d).trans
    (by unfold Dat.fetched Dat.blockOf iblk12; rw [hA]; try rfl)

/-- Input window 10's current staging buffer holds its block at every point, fetched there or not (not fetched:
    the block index has not moved), for any proof data whose array is `V`'s and whose body leaves the block in place. -/
theorem before12_10_of {c : Dev nD} (dat : Dat τ (Elt F) Unit ℕ (UR sig nD τ) ℕ cfg12 c) (hA : dat.A 10 = V c (Pipeline.arrRef spec12 10))
    (hafter : ∀ t, dat.after 10 t = iblk12 V c 10 t) (t : Fin cfg12.N) (d) : dat.before 10 t d = iblk12 V c 10 t :=
  (dat.before_in_eq_fetched 10 rfl (fun _ => rfl) (fun _ _ _ => rfl) (fun t => by rw [hafter]; unfold Dat.blockOf iblk12; rw [hA]; try rfl) t d).trans
    (by unfold Dat.fetched Dat.blockOf iblk12; rw [hA]; try rfl)

/-! ## The body's accesses: every buffer whole -/

abbrev r12_a : Rect S5000x128 := Rect.unit (s := S5000x128) ![0, 0] S5000x128.size inb_S5000x128_S5000x128_0_0
abbrev r12_b : Rect S1x1 := Rect.unit (s := S1x1) ![0, 0] S1x1.size inb_S1x1_S1x1_0_0
abbrev r12_c : Rect S128x256 := Rect.unit (s := S128x256) ![0, 0] S128x256.size inb_S128x256_S128x256_0_0
abbrev r12_d : Rect S1x256 := Rect.unit (s := S1x256) ![0, 0] S1x256.size inb_S1x256_S1x256_0_0
abbrev r12_e : Rect S256x128 := Rect.unit (s := S256x128) ![0, 0] S256x128.size inb_S256x128_S256x128_0_0
abbrev r12_f : Rect S1x128 := Rect.unit (s := S1x128) ![0, 0] S1x128.size inb_S1x128_S1x128_0_0

/-! ## What the body leaves in the output window's buffer -/

/-- Window 11's staging buffer after the body, from the eleven input blocks: its one store, of the last payload
    (scale and shift, then the layer's final clamp at zero where it has one) over the first (the two matrix products
    with their affine maps and the clamp between). -/
def out12_11 (x0 : Vec F S5000x128 .f32) (x1 : Vec F S5000x128 .f32) (x2 : Vec F S1x1 .f32) (x3 : Vec F S128x256 .bf16) (x4 : Vec F S1x256 .f32) (x5 : Vec F S1x256 .f32) (x6 : Vec F S1x256 .f32) (x7 : Vec F S256x128 .bf16) (x8 : Vec F S1x128 .f32) (x9 : Vec F S1x128 .f32) (x10 : Vec F S1x128 .f32) : Vec F S5000x128 .f32 :=
  View.canon [⟨r12_a, k12_pay1 (k12_pay2 (View.ld x2 r12_b) (View.ld x0 r12_a) (View.ld x1 r12_a) (View.ld x3 r12_c) (View.ld x4 r12_d) (View.ld x5 r12_d) (View.ld x6 r12_d) (View.ld x7 r12_e) (View.ld x8 r12_f)) (View.ld x9 r12_f) (View.ld x10 r12_f)⟩]

/-- The one store is of the whole buffer, so it covers it. -/
theorem cover12_11 (p0 : Vec F S5000x128 .f32) (y : S5000x128.Idx) :
    ∃ pc ∈ ([⟨r12_a, p0⟩] : List (View.Piece (Elt F) S5000x128 .f32)), y ∈ pc.1.set :=
  View.cover_of_tiled [⟨r12_a, p0⟩] S5000x128.size (by rfl) y

/-! ## The body's triple -/

set_option maxHeartbeats 4000000 in
/-- The kernel body on whole staging memrefs, the inputs' at read contents `xW` and the output's at anything, runs to
    the continuation holding the inputs' as they were and the output's at `out12_11` of the inputs'. -/
theorem sound_kernel12 (c : Dev nD) (E : Set ℕ) (i : grid12.Coords) (arg1 : Memref sig .tc .vmem S5000x128 .f32) (harg1 : arg1.IsWhole) (arg2 : Memref sig .tc .vmem S5000x128 .f32) (harg2 : arg2.IsWhole) (arg3 : Memref sig .tc .vmem S1x1 .f32) (harg3 : arg3.IsWhole) (arg4 : Memref sig .tc .vmem S128x256 .bf16) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S256x128 .bf16) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S5000x128 .f32) (harg12 : arg12.IsWhole)
    (x0 : Vec F S5000x128 .f32) (x1 : Vec F S5000x128 .f32) (x2 : Vec F S1x1 .f32) (x3 : Vec F S128x256 .bf16) (x4 : Vec F S1x256 .f32) (x5 : Vec F S1x256 .f32) (x6 : Vec F S1x256 .f32) (x7 : Vec F S256x128 .bf16) (x8 : Vec F S1x128 .f32) (x9 : Vec F S1x128 .f32) (x10 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out12_11 x0 x1 x2 x3 x4 x5 x6 x7 x8 x9 x10)) -∗ K ⟨⟩))
      ⊢ wp frame (wpE (defs₀ (F := F)) Variants.none c none) E (cc12__gin_mlp_kernel i arg1 harg1 arg2 harg2 arg3 harg3 arg4 harg4 arg5 harg5 arg6 harg6 arg7 harg7 arg8 harg8 arg9 harg9 arg10 harg10 arg11 harg11 arg12 harg12) K := by
  simp only [cc12__gin_mlp_kernel_eq_skeleton]; unfold cc12__gin_mlp_kernel_skel
  simp only [k12_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  exact View.read_writes_eq_canon _ _ _ (cover12_11 _)

/-! ## The pipeline's proof data -/

/-- The proof data of pipeline 0 on core `c`: the arrays as the region finds them; after the body at point `t` each
    input's buffer at its block and the output's at `out12_11` of the input blocks; the invariant the untouched rest;
    nothing owed; full shares. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => iblk12 V c 3 t
    | ⟨4, _⟩ => iblk12 V c 4 t
    | ⟨5, _⟩ => iblk12 V c 5 t
    | ⟨6, _⟩ => iblk12 V c 6 t
    | ⟨7, _⟩ => iblk12 V c 7 t
    | ⟨8, _⟩ => iblk12 V c 8 t
    | ⟨9, _⟩ => iblk12 V c 9 t
    | ⟨10, _⟩ => iblk12 V c 10 t
    | ⟨11, _⟩ => out12_11 (iblk12 V c 0 t) (iblk12 V c 1 t) (iblk12 V c 2 t) (iblk12 V c 3 t) (iblk12 V c 4 t) (iblk12 V c 5 t) (iblk12 V c 6 t) (iblk12 V c 7 t) (iblk12 V c 8 t) (iblk12 V c 9 t) (iblk12 V c 10 t)
  Φ _ := Pipeline.ΦA spec12 c
  q _ := fullShare
  owed _ := 0

/-- The proof data's arrays are the region-entry contents. -/
theorem A_eq12 (c : Dev nD) (w : Fin cfg12.W) : (dat12 V c).A w = V c (Pipeline.arrRef spec12 w) := by
  dsimp only [dat12]

/-- What the body leaves, window by window. -/
theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) : (dat12 V c).after 3 t = iblk12 V c 3 t := by dsimp only [dat12]
theorem after12_4 (c : Dev nD) (t : Fin cfg12.N) : (dat12 V c).after 4 t = iblk12 V c 4 t := by dsimp only [dat12]
theorem after12_5 (c : Dev nD) (t : Fin cfg12.N) : (dat12 V c).after 5 t = iblk12 V c 5 t := by dsimp only [dat12]
theorem after12_6 (c : Dev nD) (t : Fin cfg12.N) : (dat12 V c).after 6 t = iblk12 V c 6 t := by dsimp only [dat12]
theorem after12_7 (c : Dev nD) (t : Fin cfg12.N) : (dat12 V c).after 7 t = iblk12 V c 7 t := by dsimp only [dat12]
theorem after12_8 (c : Dev nD) (t : Fin cfg12.N) : (dat12 V c).after 8 t = iblk12 V c 8 t := by dsimp only [dat12]
theorem after12_9 (c : Dev nD) (t : Fin cfg12.N) : (dat12 V c).after 9 t = iblk12 V c 9 t := by dsimp only [dat12]
theorem after12_10 (c : Dev nD) (t : Fin cfg12.N) : (dat12 V c).after 10 t = iblk12 V c 10 t := by dsimp only [dat12]
theorem after12_11 (c : Dev nD) (t : Fin cfg12.N) : (dat12 V c).after 11 t = out12_11 (iblk12 V c 0 t) (iblk12 V c 1 t) (iblk12 V c 2 t) (iblk12 V c 3 t) (iblk12 V c 4 t) (iblk12 V c 5 t) (iblk12 V c 6 t) (iblk12 V c 7 t) (iblk12 V c 8 t) (iblk12 V c 9 t) (iblk12 V c 10 t) := by dsimp only [dat12]

/-- Each input's current staging buffer holds its block at every point, fetched there or not. -/
theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d
theorem before12_2 (c : Dev nD) (t : Fin cfg12.N) (d) : (dat12 V c).before 2 t d = iblk12 V c 2 t :=
  before12_2_of V (dat12 V c) (A_eq12 V c 2) (after12_2 V c) t d
theorem before12_3 (c : Dev nD) (t : Fin cfg12.N) (d) : (dat12 V c).before 3 t d = iblk12 V c 3 t :=
  before12_3_of V (dat12 V c) (A_eq12 V c 3) (after12_3 V c) t d
theorem before12_4 (c : Dev nD) (t : Fin cfg12.N) (d) : (dat12 V c).before 4 t d = iblk12 V c 4 t :=
  before12_4_of V (dat12 V c) (A_eq12 V c 4) (after12_4 V c) t d
theorem before12_5 (c : Dev nD) (t : Fin cfg12.N) (d) : (dat12 V c).before 5 t d = iblk12 V c 5 t :=
  before12_5_of V (dat12 V c) (A_eq12 V c 5) (after12_5 V c) t d
theorem before12_6 (c : Dev nD) (t : Fin cfg12.N) (d) : (dat12 V c).before 6 t d = iblk12 V c 6 t :=
  before12_6_of V (dat12 V c) (A_eq12 V c 6) (after12_6 V c) t d
theorem before12_7 (c : Dev nD) (t : Fin cfg12.N) (d) : (dat12 V c).before 7 t d = iblk12 V c 7 t :=
  before12_7_of V (dat12 V c) (A_eq12 V c 7) (after12_7 V c) t d
theorem before12_8 (c : Dev nD) (t : Fin cfg12.N) (d) : (dat12 V c).before 8 t d = iblk12 V c 8 t :=
  before12_8_of V (dat12 V c) (A_eq12 V c 8) (after12_8 V c) t d
theorem before12_9 (c : Dev nD) (t : Fin cfg12.N) (d) : (dat12 V c).before 9 t d = iblk12 V c 9 t :=
  before12_9_of V (dat12 V c) (A_eq12 V c 9) (after12_9 V c) t d
theorem before12_10 (c : Dev nD) (t : Fin cfg12.N) (d) : (dat12 V c).before 10 t d = iblk12 V c 10 t :=
  before12_10_of V (dat12 V c) (A_eq12 V c 10) (after12_10 V c) t d

/-- The invariant at the region's entry and exit is the untouched rest itself. -/
theorem PhiIn12 (c : Dev nD) : Pipeline.ΦA spec12 c ⊢ (dat12 V c).Φ 0 := .rfl
theorem PhiOut12 (c : Dev nD) : (dat12 V c).Φ (Fin.last _) ⊢ Pipeline.ΦA spec12 c := .rfl

/-! ## The body obligation, at a generic point -/

/-- What the body is called with at point `t`, the windows one by one, -/
def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d))
    ∗ (∃ d, owns (c : Thread nD τ) (st12_3 t) fullShare ((dat12 V c).before 3 t d))
    ∗ (∃ d, owns (c : Thread nD τ) (st12_4 t) fullShare ((dat12 V c).before 4 t d))
    ∗ (∃ d, owns (c : Thread nD τ) (st12_5 t) fullShare ((dat12 V c).before 5 t d))
    ∗ (∃ d, owns (c : Thread nD τ) (st12_6 t) fullShare ((dat12 V c).before 6 t d))
    ∗ (∃ d, owns (c : Thread nD τ) (st12_7 t) fullShare ((dat12 V c).before 7 t d))
    ∗ (∃ d, owns (c : Thread nD τ) (st12_8 t) fullShare ((dat12 V c).before 8 t d))
    ∗ (∃ d, owns (c : Thread nD τ) (st12_9 t) fullShare ((dat12 V c).before 9 t d))
    ∗ (∃ d, owns (c : Thread nD τ) (st12_10 t) fullShare ((dat12 V c).before 10 t d))
    ∗ (∃ d, owns (c : Thread nD τ) (st12_11 t) fullShare ((dat12 V c).before 11 t d)))

/-- and what it returns. -/
def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t)
    ∗ owns (c : Thread nD τ) (st12_3 t) fullShare ((dat12 V c).after 3 t)
    ∗ owns (c : Thread nD τ) (st12_4 t) fullShare ((dat12 V c).after 4 t)
    ∗ owns (c : Thread nD τ) (st12_5 t) fullShare ((dat12 V c).after 5 t)
    ∗ owns (c : Thread nD τ) (st12_6 t) fullShare ((dat12 V c).after 6 t)
    ∗ owns (c : Thread nD τ) (st12_7 t) fullShare ((dat12 V c).after 7 t)
    ∗ owns (c : Thread nD τ) (st12_8 t) fullShare ((dat12 V c).after 8 t)
    ∗ owns (c : Thread nD τ) (st12_9 t) fullShare ((dat12 V c).after 9 t)
    ∗ owns (c : Thread nD τ) (st12_10 t) fullShare ((dat12 V c).after 10 t)
    ∗ owns (c : Thread nD τ) (st12_11 t) fullShare ((dat12 V c).after 11 t))

/-- The body at any point: the inputs' memrefs hold their blocks, so the body's triple applies; the invariant and
    the core's `owes` pass through unread. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1, before12_2, before12_3, before12_4, before12_5, before12_6, before12_7, before12_8, before12_9, before12_10]
  rw [show (dat12 V c).Φ t.succ = (dat12 V c).Φ t.castSucc from rfl,
    show (dat12 V c).owesAt () t.succ = (dat12 V c).owesAt () t.castSucc from rfl,
    after12_0, after12_1, after12_2, after12_3, after12_4, after12_5, after12_6, after12_7, after12_8, after12_9, after12_10, after12_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel12 c Set.univ _ _ _ _ _ _ _ _ _ _ _ _ _ _ _ _ _ _ _ _ _ _ _ _ _
    (iblk12 V c 0 t) (iblk12 V c 1 t) (iblk12 V c 2 t) (iblk12 V c 3 t) (iblk12 V c 4 t) (iblk12 V c 5 t) (iblk12 V c 6 t) (iblk12 V c 7 t) (iblk12 V c 8 t) (iblk12 V c 9 t) (iblk12 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation12 (c : Dev nD) : BodyObligation (dat12 (F := F) V c) (defs₀ (F := F)) Variants.none () Set.univ := fun t => by
  rw [bigSep_W12, bigSep_W12]
  exact sound_body12 V c t

end Cert.KernelIdeal.Hand
-- ==== Proof.SegRegion13.lean ====
/- Region 13 of @main, custom_call 13, the batch-grouped segment sum `cc13__segsum_kernel`: the frame half of its pipeline,
   at any float model `F` and at a PARAMETER `V`, the TensorCore's buffer contents when the region is entered.
   The grid has ten points. A scratch accumulator (256x128, f32) is carried from point to point: the first point stores
   the zero block into it, every point then adds its 5000-row block's contribution (the transposed one-hot of the
   block's segment ids times the block), and the last point copies it into the output window's staging buffer, which
   the pipeline writes back once. So the invariant between points names what the scratch holds, by recursion on the
   point (`accAt13`); the output window is idle at every point but the last and is handed back there as it was found. -/
import proofs.«403491_j395136991532_1_alg».proof.Proof.Gen.KernelIdeal.Launch
import proofs.«403491_j395136991532_1_alg».proof.Proof.Gen.KernelIdeal.Skeleton
import proofs.«403491_j395136991532_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-- Input window 0's current staging buffer holds its block at every point, fetched there or not, for any proof data
    whose array is `V`'s and whose body leaves the block in place: the window is uncut and never idle. -/
theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)

/-- Input window 1's current staging buffer holds its block at every point, likewise. -/
theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)

/-! ## The body's branch conditions -/

/-- The first conditional's condition (the accumulator's reset), from the grid coordinate. -/
abbrev cond13_0 (i : grid13.Coords) : Prop := (Scalar.cmpi .ne (Scalar.extui (Scalar.cmpi .eq (BitVec.ofNat 32 (i 0).val) 0#32)) 0#32) = 1#1
/-- It holds at the first point only. -/
theorem hcond13_0 : ∀ t : Fin cfg13.N, cond13_0 (grid13.coords t) ↔ t.val % 10 = 0 :=
  (by decide +kernel : ∀ t : Fin grid13.N, cond13_0 (grid13.coords t) ↔ t.val % 10 = 0)

/-- The second conditional's condition (the copy into the output window). -/
abbrev cond13_1 (i : grid13.Coords) : Prop := k13_cond2 i = 1#1
/-- It holds at the last point only. -/
theorem hcond13_1 : ∀ t : Fin cfg13.N, cond13_1 (grid13.coords t) ↔ t.val % 10 = 9 :=
  (by decide +kernel : ∀ t : Fin grid13.N, cond13_1 (grid13.coords t) ↔ t.val % 10 = 9)

/-! ## Where the output window is idle -/

theorem liveAt13_0 : ∀ t : Fin cfg13.N, cfg13.idle 0 (grid13.coords t) = false := by decide +kernel
theorem liveAt13_1 : ∀ t : Fin cfg13.N, cfg13.idle 1 (grid13.coords t) = false := by decide +kernel
/-- Where the copy is not taken the output window is idle, -/
theorem idleAt13_2 : ∀ t : Fin cfg13.N, ¬cond13_1 (grid13.coords t) → cfg13.idle 2 (grid13.coords t) = true := by decide +kernel
/-- and not written back; -/
theorem noFlush13_2 : ∀ t : Fin cfg13.N, ¬cond13_1 (grid13.coords t) → (cfg13.win 2).flush t = false := by decide +kernel
/-- where it is taken the window is live. -/
theorem liveAt13_2 : ∀ t : Fin cfg13.N, cond13_1 (grid13.coords t) → cfg13.idle 2 (grid13.coords t) = false := by decide +kernel

/-! ## Whole-buffer accesses -/

/-- The zero offsets of a two-axis access. -/
theorem hz13 : (![0, 0] : Fin 2 → Nat) = fun _ => 0 := funext fun a => by fin_cases a <;> rfl

/-- A rectangle of the shape's own sizes at zero offsets holds every index. -/
theorem memUnit13 {S : Shape} {off : Fin S.rank → Nat} (h : off = fun _ => 0) (inb : ∀ a, off a + S.size a ≤ S.size a) (y : S.Idx) :
    y ∈ (Rect.unit off S.size inb).set := by
  subst h; show y ∈ (Rect.whole S).set; rw [Rect.set_whole]; exact Finset.mem_univ y

/-- A store through such a rectangle, made last, leaves its payload, whatever was stored before and whatever the
    buffer held. -/
theorem readLast13 {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f (⟨Rect.unit off S.size inb, w⟩ :: L)) = w := by
  rw [View.read_writes_eq_canon _ _ _ (fun y => ⟨_, List.mem_cons_self .., memUnit13 h inb y⟩), View.canon_cons_unit_zero h]

/-! ## The scratch accumulator -/

/-- The scratch operand: a whole scoped buffer of the kernel's own, passed beside the windows. -/
abbrev scM13 : Memref sig .tc .vmem S256x128 .f32 := Memref.whole cc13_scratch0

/-- THE ACCUMULATION. What the scratch holds after `n` points: the zero block the first point stores, then, point by
    point, the sum of what it held and the point's contribution (the payload of the body's second store, over the
    point's two input blocks and what the scratch held). -/
def accAt13 (c : Dev nD) : (n : ℕ) → n ≤ cfg13.N → Vec F S256x128 .f32
  | 0, _ => k13_pay1
  | n + 1, hn => k13_pay2 (iblk13 V c 0 ⟨n, hn⟩) (iblk13 V c 1 ⟨n, hn⟩) (accAt13 c n (Nat.le_of_lt hn))

theorem accAt13_zero (c : Dev nD) (h : 0 ≤ cfg13.N) : accAt13 V c 0 h = k13_pay1 := rfl
theorem accAt13_succ (c : Dev nD) (t : Fin cfg13.N) :
    accAt13 V c (t.val + 1) t.isLt = k13_pay2 (iblk13 V c 0 t) (iblk13 V c 1 t) (accAt13 V c t.val (Nat.le_of_lt t.isLt)) := rfl

/-! ## The body's triple, per control case -/

set_option maxHeartbeats 1000000 in
/-- THE FIRST POINT (the reset taken, the copy not): on whole memrefs, the inputs' at `x` and `b` and the scratch at
    anything, the body runs to the inputs' as they were and the scratch at the zero block plus the point's contribution.
    The output window's memref is not touched. -/
theorem sound_first13 (c : Dev nD) (E : Set ℕ) (i : grid13.Coords)
    (aX : Memref sig .tc .vmem S5000x128 .f32) (hX : aX.IsWhole) (aB : Memref sig .tc .vmem S5000x1 .i32) (hB : aB.IsWhole)
    (aO : Memref sig .tc .vmem S256x128 .f32) (hO : aO.IsWhole) (aS : Memref sig .tc .vmem S256x128 .f32) (hS : aS.IsWhole)
    (hcR : cond13_0 i) (hcC : ¬cond13_1 i)
    (x : Vec F S5000x128 .f32) (b : Vec F S5000x1 .i32) (K : PUnit → sProp 𝕄) :
    iprop(owns (c : Thread nD τ) aX fullShare x ∗ owns (c : Thread nD τ) aB fullShare b ∗ (∃ d, owns (c : Thread nD τ) aS fullShare d)
        ∗ (iprop(owns (c : Thread nD τ) aX fullShare x ∗ owns (c : Thread nD τ) aB fullShare b
            ∗ owns (c : Thread nD τ) aS fullShare (k13_pay2 x b k13_pay1)) -∗ K ⟨⟩))
      ⊢ wp frame (wpE (defs₀ (F := F)) Variants.none c none) E (cc13__segsum_kernel i aX hX aB hB aO hO aS hS) K := by
  simp only [cc13__segsum_kernel_eq_skeleton]; unfold cc13__segsum_kernel_skel
  unfold owns
  iintro ⟨⟨%fX, %hfX, HX⟩, ⟨%fB, %hfB, HB⟩, ⟨%dS, %fS, -, HS⟩, Hk⟩
  obtain rfl := hX.eq_unread hfX; obtain rfl := hB.eq_unread hfB
  sl_exec (disch := first | exact hcR | exact hcC)
  sl_step
  iapply Hk
  isplitl [HX]
  · iexists _; isplitr; · ipureintro; exact hX.read_unread _
    iexact HX
  isplitl [HB]
  · iexists _; isplitr; · ipureintro; exact hB.read_unread _
    iexact HB
  iexists _; isplitr
  swap; · iexact HS
  ipureintro
  sl_unfold_run_names
  rw [readLast13 _ _ hz13, View.readCov_unit_zero _ hz13]
  simp only [View.readAt_eq_ld, hX.read_unread, hB.read_unread,
    View.ld_unit_zero (S := S5000x128) hz13, View.ld_unit_zero (S := S5000x1) hz13]

set_option maxHeartbeats 1000000 in
/-- A MIDDLE POINT (neither conditional taken): the scratch at `a` ends at `a` plus the point's contribution. -/
theorem sound_mid13 (c : Dev nD) (E : Set ℕ) (i : grid13.Coords)
    (aX : Memref sig .tc .vmem S5000x128 .f32) (hX : aX.IsWhole) (aB : Memref sig .tc .vmem S5000x1 .i32) (hB : aB.IsWhole)
    (aO : Memref sig .tc .vmem S256x128 .f32) (hO : aO.IsWhole) (aS : Memref sig .tc .vmem S256x128 .f32) (hS : aS.IsWhole)
    (hcR : ¬cond13_0 i) (hcC : ¬cond13_1 i)
    (x : Vec F S5000x128 .f32) (b : Vec F S5000x1 .i32) (a : Vec F S256x128 .f32) (K : PUnit → sProp 𝕄) :
    iprop(owns (c : Thread nD τ) aX fullShare x ∗ owns (c : Thread nD τ) aB fullShare b ∗ owns (c : Thread nD τ) aS fullShare a
        ∗ (iprop(owns (c : Thread nD τ) aX fullShare x ∗ owns (c : Thread nD τ) aB fullShare b
            ∗ owns (c : Thread nD τ) aS fullShare (k13_pay2 x b a)) -∗ K ⟨⟩))
      ⊢ wp frame (wpE (defs₀ (F := F)) Variants.none c none) E (cc13__segsum_kernel i aX hX aB hB aO hO aS hS) K := by
  simp only [cc13__segsum_kernel_eq_skeleton]; unfold cc13__segsum_kernel_skel
  unfold owns
  iintro ⟨⟨%fX, %hfX, HX⟩, ⟨%fB, %hfB, HB⟩, ⟨%fS, %hfS, HS⟩, Hk⟩
  obtain rfl := hX.eq_unread hfX; obtain rfl := hB.eq_unread hfB; obtain rfl := hS.eq_unread hfS
  sl_exec (disch := first | exact hcR | exact hcC)
  sl_step
  iapply Hk
  isplitl [HX]
  · iexists _; isplitr; · ipureintro; exact hX.read_unread _
    iexact HX
  isplitl [HB]
  · iexists _; isplitr; · ipureintro; exact hB.read_unread _
    iexact HB
  iexists _; isplitr
  swap; · iexact HS
  ipureintro
  rw [readLast13 _ _ hz13]
  simp only [View.readAt_eq_ld, hX.read_unread, hB.read_unread, hS.read_unread,
    View.ld_unit_zero (S := S5000x128) hz13, View.ld_unit_zero (S := S5000x1) hz13, View.ld_unit_zero (S := S256x128) hz13]

set_option maxHeartbeats 1000000 in
/-- THE LAST POINT (the copy taken, the reset not): the scratch at `a` ends at `a` plus the point's contribution, and
    the output window's memref, at anything, ends holding the same. -/
theorem sound_last13 (c : Dev nD) (E : Set ℕ) (i : grid13.Coords)
    (aX : Memref sig .tc .vmem S5000x128 .f32) (hX : aX.IsWhole) (aB : Memref sig .tc .vmem S5000x1 .i32) (hB : aB.IsWhole)
    (aO : Memref sig .tc .vmem S256x128 .f32) (hO : aO.IsWhole) (aS : Memref sig .tc .vmem S256x128 .f32) (hS : aS.IsWhole)
    (hcR : ¬cond13_0 i) (hcC : cond13_1 i)
    (x : Vec F S5000x128 .f32) (b : Vec F S5000x1 .i32) (a : Vec F S256x128 .f32) (K : PUnit → sProp 𝕄) :
    iprop(owns (c : Thread nD τ) aX fullShare x ∗ owns (c : Thread nD τ) aB fullShare b ∗ (∃ d, owns (c : Thread nD τ) aO fullShare d)
        ∗ owns (c : Thread nD τ) aS fullShare a
        ∗ (iprop(owns (c : Thread nD τ) aX fullShare x ∗ owns (c : Thread nD τ) aB fullShare b
            ∗ owns (c : Thread nD τ) aO fullShare (k13_pay2 x b a) ∗ owns (c : Thread nD τ) aS fullShare (k13_pay2 x b a)) -∗ K ⟨⟩))
      ⊢ wp frame (wpE (defs₀ (F := F)) Variants.none c none) E (cc13__segsum_kernel i aX hX aB hB aO hO aS hS) K := by
  simp only [cc13__segsum_kernel_eq_skeleton]; unfold cc13__segsum_kernel_skel
  unfold owns
  iintro ⟨⟨%fX, %hfX, HX⟩, ⟨%fB, %hfB, HB⟩, ⟨%dO, %fO, -, HO⟩, ⟨%fS, %hfS, HS⟩, Hk⟩
  obtain rfl := hX.eq_unread hfX; obtain rfl := hB.eq_unread hfB; obtain rfl := hS.eq_unread hfS
  sl_exec (disch := first | exact hcR | exact hcC)
  sl_step
  iapply Hk
  isplitl [HX]
  · iexists _; isplitr; · ipureintro; exact hX.read_unread _
    iexact HX
  isplitl [HB]
  · iexists _; isplitr; · ipureintro; exact hB.read_unread _
    iexact HB
  isplitl [HO]
  · iexists _; isplitr
    swap; · iexact HO
    ipureintro
    sl_unfold_run_names
    rw [readLast13 _ _ hz13, View.readCov_unit_zero _ hz13]
    simp only [View.readAt_eq_ld, hX.read_unread, hB.read_unread, hS.read_unread,
      View.ld_unit_zero (S := S5000x128) hz13, View.ld_unit_zero (S := S5000x1) hz13, View.ld_unit_zero (S := S256x128) hz13]
  iexists _; isplitr
  swap; · iexact HS
  ipureintro
  sl_unfold_run_names
  rw [readLast13 _ _ hz13]
  simp only [View.readAt_eq_ld, hX.read_unread, hB.read_unread, hS.read_unread,
    View.ld_unit_zero (S := S5000x128) hz13, View.ld_unit_zero (S := S5000x1) hz13, View.ld_unit_zero (S := S256x128) hz13]

/-- The region invariant before position `n`: before the first point the class's (every scratch at anything); afterwards
    the carried scratch at what the points so far accumulated, the other scoped buffers unopened, and the generator
    register at some state. -/
def Phi13 (c : Dev nD) (n : ℕ) (hn : n ≤ cfg13.N) : sProp 𝕄 :=
  if n = 0 then Pipeline.ΦA spec13 c
  else iprop(owns (c : Thread nD τ) scM13 fullShare (accAt13 V c n hn)
      ∗ Pipeline.scopedRestBut (Ix := Unit) (Name := ℕ) (U := UR sig nD τ) (Lvl := ℕ) (Val := Elt F) spec13 c [cc13_scratch0]
      ∗ (∃ r, prngReg c r))

theorem Phi13_zero (c : Dev nD) (n : ℕ) (h : n ≤ cfg13.N) (hz : n = 0) : Phi13 V c n h = Pipeline.ΦA spec13 c := by
  unfold Phi13; exact if_pos hz

theorem Phi13_pos (c : Dev nD) (n : ℕ) (h : n ≤ cfg13.N) (hz : n ≠ 0) :
    Phi13 V c n h = iprop(owns (c : Thread nD τ) scM13 fullShare (accAt13 V c n h)
      ∗ Pipeline.scopedRestBut (Ix := Unit) (Name := ℕ) (U := UR sig nD τ) (Lvl := ℕ) (Val := Elt F) spec13 c [cc13_scratch0]
      ∗ (∃ r, prngReg c r)) := by
  unfold Phi13; exact if_neg hz

/-- The class's invariant with the scratch operand split out of the scoped rest as a memref owned at some contents. -/
theorem PhiA13_eq (c : Dev nD) :
    (Pipeline.ΦA spec13 c : sProp 𝕄)
      = iprop(iprop(iprop((∃ d, owns (c : Thread nD τ) scM13 fullShare d))
          ∗ Pipeline.scopedRestBut (Ix := Unit) (Name := ℕ) (U := UR sig nD τ) (Lvl := ℕ) (Val := Elt F) spec13 c [cc13_scratch0])
        ∗ (∃ r, prngReg c r)) := by
  unfold Pipeline.ΦA; rw [scopedRest13_split]; simp only [scM13, owns_whole]; try rfl

/-! ## The pipeline's proof data -/

/-- The proof data of pipeline 13 on core `c`: the arrays as the region finds them (`V`); after the body at point `t` each
    input's buffer at its block and the output's at what the scratch then holds (consulted at the last point only: the
    window is idle elsewhere); the invariant `Phi13`; nothing owed; full shares. -/
def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => accAt13 V c (t.val + 1) t.isLt
  Φ t := Phi13 V c t.val (Nat.le_of_lt_succ t.isLt)
  q _ := fullShare
  owed _ := 0

theorem A_eq13 (c : Dev nD) (w : Fin cfg13.W) : (dat13 V c).A w = V c (Pipeline.arrRef spec13 w) := by
  dsimp only [dat13]

theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = accAt13 V c (t.val + 1) t.isLt := by dsimp only [dat13]

theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d

/-- The invariant at a point's start, restated at `t.val`. -/
theorem Phi13_castSucc (c : Dev nD) (t : Fin cfg13.N) :
    (dat13 V c).Φ t.castSucc = Phi13 V c t.val (Nat.le_of_lt t.isLt) := by
  dsimp only [dat13]; simp only [Fin.coe_castSucc]

/-- The invariant at a point's end: the carried scratch at what the points up to this one accumulated. -/
theorem Phi13_succ (c : Dev nD) (t : Fin cfg13.N) :
    (dat13 V c).Φ t.succ = iprop(owns (c : Thread nD τ) scM13 fullShare (accAt13 V c (t.val + 1) t.isLt)
      ∗ Pipeline.scopedRestBut (Ix := Unit) (Name := ℕ) (U := UR sig nD τ) (Lvl := ℕ) (Val := Elt F) spec13 c [cc13_scratch0]
      ∗ (∃ r, prngReg c r)) := by
  dsimp only [dat13]; simp only [Fin.val_succ]; exact Phi13_pos V c _ _ (Nat.succ_ne_zero _)

/-- Before any point has run the accumulation is the zero block. -/
theorem accAt13_of_zero (c : Dev nD) (n : ℕ) (h : n ≤ cfg13.N) (hz : n = 0) : accAt13 V c n h = k13_pay1 := by
  subst hz; rfl

/-! ## The body obligation, at a generic point -/

/-- What the body is called with at point `t` (the library's body obligation's precondition, the windows one by one), -/
def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d))
    ∗ (∃ d, owns (c : Thread nD τ) (st13_2 t) fullShare ((dat13 V c).before 2 t d)))

/-- and what it returns. -/
def bodyPost13 (c : Dev nD) (t : Fin cfg13.N) : sProp 𝕄 :=
  iprop((dat13 V c).Φ t.succ ∗ (dat13 V c).owesAt () t.succ
    ∗ (dat13 V c).leavesExact 0 t
    ∗ (dat13 V c).leavesExact 1 t
    ∗ (dat13 V c).leavesExact 2 t)

set_option maxHeartbeats 4000000 in
/-- The body at any point. The inputs' memrefs hold their blocks; the closed forms of the two conditions say which of the
    three control cases the point is in, and that case's triple applies. The invariant hands the body the scratch — at
    anything at the first point, at what the points before accumulated afterwards — and takes it back at what the points
    up to this one accumulated; the other scoped buffers, the generator register and the core's `owes` pass through
    unread; the output window's memref is handed back as it was found except at the last point, where it holds the
    accumulation. -/
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1]
  rw [show (dat13 V c).owesAt () t.succ = (dat13 V c).owesAt () t.castSucc from rfl, Phi13_succ V c t, Phi13_castSucc V c t]
  have hN : t.val < 10 := lt_of_lt_of_eq t.isLt (show cfg13.N = 10 from N_13)
  rw [show (dat13 V c).leavesExact 0 t = owns (c : Thread nD τ) (st13_0 t) fullShare ((dat13 V c).after 0 t) from by
    unfold Dat.leavesExact; rw [liveAt13_0 t], after13_0]
  rw [show (dat13 V c).leavesExact 1 t = owns (c : Thread nD τ) (st13_1 t) fullShare ((dat13 V c).after 1 t) from by
    unfold Dat.leavesExact; rw [liveAt13_1 t], after13_1]
  rw [accAt13_succ V c t]
  by_cases hL : t.val % 10 = 9
  · have hcC : cond13_1 (grid13.coords t) := (hcond13_1 t).mpr hL
    have hcR : ¬cond13_0 (grid13.coords t) := fun h => by have := (hcond13_0 t).mp h; omega
    have hz : t.val ≠ 0 := by omega
    rw [show (dat13 V c).leavesExact 2 t = owns (c : Thread nD τ) (st13_2 t) fullShare ((dat13 V c).after 2 t) from by
      unfold Dat.leavesExact; rw [liveAt13_2 t hcC], after13_2, accAt13_succ V c t]
    rw [Phi13_pos V c _ _ hz]
    iintro ⟨⟨HS, Hrest, Hg⟩, Ho, ⟨%dX, HX⟩, ⟨%dB, HB⟩, ⟨%dO, HO⟩⟩
    iapply (sound_last13 c Set.univ (grid13.coords t) _ _ _ _ _ _ _ _ hcR hcC (iblk13 V c 0 t) (iblk13 V c 1 t)
      (accAt13 V c t.val (Nat.le_of_lt t.isLt)) _)
    isplitl [HX]; · iexact HX
    isplitl [HB]; · iexact HB
    isplitl [HO]; · iexists _; iexact HO
    isplitl [HS]; · iexact HS
    iintro ⟨HX, HB, HO, HS⟩
    isplitl [HS Hrest Hg]
    · isplitl [HS]; · iexact HS
      isplitl [Hrest]; · iexact Hrest
      iexact Hg
    isplitl [Ho]; · iexact Ho
    isplitl [HX]; · iexact HX
    isplitl [HB]; · iexact HB
    iexact HO
  · have hcC : ¬cond13_1 (grid13.coords t) := fun h => hL ((hcond13_1 t).mp h)
    rw [Dat.leavesExact_idle (dat13 V c) 2 t (idleAt13_2 t hcC) (noFlush13_2 t hcC)]
    by_cases hF : t.val % 10 = 0
    · have hcR : cond13_0 (grid13.coords t) := (hcond13_0 t).mpr hF
      have hz : t.val = 0 := by omega
      rw [Phi13_zero V c _ _ hz, PhiA13_eq, accAt13_of_zero V c _ _ hz]
      iintro ⟨⟨⟨HS, Hrest⟩, Hg⟩, Ho, ⟨%dX, HX⟩, ⟨%dB, HB⟩, ⟨%dO, HO⟩⟩
      iapply (sound_first13 c Set.univ (grid13.coords t) _ _ _ _ _ _ _ _ hcR hcC (iblk13 V c 0 t) (iblk13 V c 1 t) _)
      isplitl [HX]; · iexact HX
      isplitl [HB]; · iexact HB
      isplitl [HS]; · iexact HS
      iintro ⟨HX, HB, HS⟩
      isplitl [HS Hrest Hg]
      · isplitl [HS]; · iexact HS
        isplitl [Hrest]; · iexact Hrest
        iexact Hg
      isplitl [Ho]; · iexact Ho
      isplitl [HX]; · iexact HX
      isplitl [HB]; · iexact HB
      iexists _; iexact HO
    · have hcR : ¬cond13_0 (grid13.coords t) := fun h => hF ((hcond13_0 t).mp h)
      have hz : t.val ≠ 0 := by omega
      rw [Phi13_pos V c _ _ hz]
      iintro ⟨⟨HS, Hrest, Hg⟩, Ho, ⟨%dX, HX⟩, ⟨%dB, HB⟩, ⟨%dO, HO⟩⟩
      iapply (sound_mid13 c Set.univ (grid13.coords t) _ _ _ _ _ _ _ _ hcR hcC (iblk13 V c 0 t) (iblk13 V c 1 t)
        (accAt13 V c t.val (Nat.le_of_lt t.isLt)) _)
      isplitl [HX]; · iexact HX
      isplitl [HB]; · iexact HB
      isplitl [HS]; · iexact HS
      iintro ⟨HX, HB, HS⟩
      isplitl [HS Hrest Hg]
      · isplitl [HS]; · iexact HS
        isplitl [Hrest]; · iexact Hrest
        iexact Hg
      isplitl [Ho]; · iexact Ho
      isplitl [HX]; · iexact HX
      isplitl [HB]; · iexact HB
      iexists _; iexact HO

/-- The library's body obligation, at every point. -/
theorem body_obligation13 (c : Dev nD) : BodyObligation (dat13 (F := F) V c) (defs₀ (F := F)) Variants.none () Set.univ := fun t => by
  rw [bigSep_W13, bigSep_W13]
  exact sound_body13 V c t

/-- What the launch hands the region is the invariant before the first point. -/
theorem PhiIn13 (c : Dev nD) : Pipeline.ΦA spec13 c ⊢ (dat13 V c).Φ 0 := by
  rw [show (dat13 V c).Φ 0 = Phi13 V c 0 (Nat.zero_le _) from rfl, Phi13_zero V c 0 _ rfl]

/-- After the last point the invariant gives the class's back: the scratch's named contents are forgotten. -/
theorem PhiOut13 (c : Dev nD) : (dat13 V c).Φ (Fin.last _) ⊢ Pipeline.ΦA spec13 c := by
  rw [show (dat13 V c).Φ (Fin.last _) = Phi13 V c cfg13.N (Nat.le_refl _) from rfl,
    Phi13_pos V c _ _ (by rw [show cfg13.N = 10 from N_13]; decide), PhiA13_eq]
  iintro ⟨HS, Hrest, Hg⟩
  isplitl [HS Hrest]
  · isplitl [HS]
    · iexists _; iexact HS
    iexact Hrest
  iexact Hg

end Cert.KernelIdeal.Hand

end
-- ==== Proof.FinRegion14.lean ====
/- Region 14 of @main, custom_call 14, the mean pool and predictor `cc14__finalize_kernel`: the frame half of its pipeline, at any float model `F` and at a PARAMETER `V`, the
   TensorCore's buffer contents when the region is entered. The grid is one point and every window's block is its whole
   array. Each input window's staging buffer holds its block; the output's, after the body, holds what the body's one store
   leaves, a function `out14_4` of the input blocks; the body's triple is run on whole staging memrefs; the pipeline's proof
   data carries the arrays at `V`, the untouched invariant, full shares and nothing owed; and the library's body obligation
   follows at the one point. -/
import proofs.«403491_j395136991532_1_alg».proof.Proof.Gen.KernelIdeal.Launch
import proofs.«403491_j395136991532_1_alg».proof.Proof.Gen.KernelIdeal.Skeleton
import proofs.«403491_j395136991532_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

/-- Input window 0's current staging buffer holds its block at every point, fetched there or not, for any proof data
    whose array is `V`'s and whose body leaves the block in place: the window is uncut and never idle. -/
theorem before14_0_of {c : Dev nD} (dat : Dat τ (Elt F) Unit ℕ (UR sig nD τ) ℕ cfg14 c) (hA : dat.A 0 = V c (Pipeline.arrRef spec14 0))
    (hafter : ∀ t, dat.after 0 t = iblk14 V c 0 t) (t : Fin cfg14.N) (d) : dat.before 0 t d = iblk14 V c 0 t :=
  (dat.before_in_eq_fetched 0 rfl (fun _ => rfl) (fun _ _ _ => rfl) (fun t => by rw [hafter]; unfold Dat.blockOf iblk14; rw [hA]; try rfl) t d).trans
    (by unfold Dat.fetched Dat.blockOf iblk14; rw [hA]; try rfl)

/-- Input window 1's current staging buffer holds its block at every point, fetched there or not, for any proof data
    whose array is `V`'s and whose body leaves the block in place: the window is uncut and never idle. -/
theorem before14_1_of {c : Dev nD} (dat : Dat τ (Elt F) Unit ℕ (UR sig nD τ) ℕ cfg14 c) (hA : dat.A 1 = V c (Pipeline.arrRef spec14 1))
    (hafter : ∀ t, dat.after 1 t = iblk14 V c 1 t) (t : Fin cfg14.N) (d) : dat.before 1 t d = iblk14 V c 1 t :=
  (dat.before_in_eq_fetched 1 rfl (fun _ => rfl) (fun _ _ _ => rfl) (fun t => by rw [hafter]; unfold Dat.blockOf iblk14; rw [hA]; try rfl) t d).trans
    (by unfold Dat.fetched Dat.blockOf iblk14; rw [hA]; try rfl)

/-- Input window 2's current staging buffer holds its block at every point, fetched there or not, for any proof data
    whose array is `V`'s and whose body leaves the block in place: the window is uncut and never idle. -/
theorem before14_2_of {c : Dev nD} (dat : Dat τ (Elt F) Unit ℕ (UR sig nD τ) ℕ cfg14 c) (hA : dat.A 2 = V c (Pipeline.arrRef spec14 2))
    (hafter : ∀ t, dat.after 2 t = iblk14 V c 2 t) (t : Fin cfg14.N) (d) : dat.before 2 t d = iblk14 V c 2 t :=
  (dat.before_in_eq_fetched 2 rfl (fun _ => rfl) (fun _ _ _ => rfl) (fun t => by rw [hafter]; unfold Dat.blockOf iblk14; rw [hA]; try rfl) t d).trans
    (by unfold Dat.fetched Dat.blockOf iblk14; rw [hA]; try rfl)

/-- Input window 3's current staging buffer holds its block at every point, fetched there or not, for any proof data
    whose array is `V`'s and whose body leaves the block in place: the window is uncut and never idle. -/
theorem before14_3_of {c : Dev nD} (dat : Dat τ (Elt F) Unit ℕ (UR sig nD τ) ℕ cfg14 c) (hA : dat.A 3 = V c (Pipeline.arrRef spec14 3))
    (hafter : ∀ t, dat.after 3 t = iblk14 V c 3 t) (t : Fin cfg14.N) (d) : dat.before 3 t d = iblk14 V c 3 t :=
  (dat.before_in_eq_fetched 3 rfl (fun _ => rfl) (fun _ _ _ => rfl) (fun t => by rw [hafter]; unfold Dat.blockOf iblk14; rw [hA]; try rfl) t d).trans
    (by unfold Dat.fetched Dat.blockOf iblk14; rw [hA]; try rfl)

/-! ## The body's accesses: each is a whole buffer -/

abbrev r14_0 : Rect S256x128 := Rect.unit (s := S256x128) ![0, 0] S256x128.size inb_S256x128_S256x128_0_0
abbrev r14_1 : Rect S256x1 := Rect.unit (s := S256x1) ![0, 0] S256x1.size inb_S256x1_S256x1_0_0
abbrev r14_2 : Rect S128x10 := Rect.unit (s := S128x10) ![0, 0] S128x10.size inb_S128x10_S128x10_0_0
abbrev r14_3 : Rect S1x10 := Rect.unit (s := S1x10) ![0, 0] S1x10.size inb_S1x10_S1x10_0_0
abbrev r14_4 : Rect S256x10 := Rect.unit (s := S256x10) ![0, 0] S256x10.size inb_S256x10_S256x10_0_0

/-! ## What the body leaves in the output window's buffer -/

/-- Window 4's staging buffer after the body, from the input windows' blocks: its one store as a piece (the payload is
    the skeleton's). -/
def out14_4 (x0 : Vec F S256x128 .f32) (x1 : Vec F S256x1 .f32) (x2 : Vec F S128x10 .bf16) (x3 : Vec F S1x10 .f32) : Vec F S256x10 .f32 :=
  View.canon [⟨r14_4, k14_pay1 (View.ld x0 r14_0) (View.ld x1 r14_1) (View.ld x2 r14_2) (View.ld x3 r14_3)⟩]

/-- The one store is of the whole buffer, so it covers it. -/
theorem cover14_4 (p0 : Vec F S256x10 .f32) (y : S256x10.Idx) :
    ∃ pc ∈ ([⟨r14_4, p0⟩] : List (View.Piece (Elt F) S256x10 .f32)), y ∈ pc.1.set :=
  View.cover_of_tiled [⟨r14_4, p0⟩] S256x10.size (by rfl) y

/-! ## The body's triple -/

set_option maxHeartbeats 1000000 in
/-- The kernel body on whole staging memrefs, the inputs' at read contents `xW` and the output's at anything, runs to the
    continuation holding the inputs' as they were and the output's at `out14_4` of the inputs': the printed functions are
    their skeletons of memory operations over payloads, which are run operation by operation. -/
theorem sound_kernel14 (c : Dev nD) (E : Set ℕ) (i : grid14.Coords) (arg1 : Memref sig .tc .vmem S256x128 .f32) (harg1 : arg1.IsWhole) (arg2 : Memref sig .tc .vmem S256x1 .f32) (harg2 : arg2.IsWhole) (arg3 : Memref sig .tc .vmem S128x10 .bf16) (harg3 : arg3.IsWhole) (arg4 : Memref sig .tc .vmem S1x10 .f32) (harg4 : arg4.IsWhole) (arg5 : Memref sig .tc .vmem S256x10 .f32) (harg5 : arg5.IsWhole)
    (x0 : Vec F S256x128 .f32) (x1 : Vec F S256x1 .f32) (x2 : Vec F S128x10 .bf16) (x3 : Vec F S1x10 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out14_4 x0 x1 x2 x3)) -∗ K ⟨⟩))
      ⊢ wp frame (wpE (defs₀ (F := F)) Variants.none c none) E (cc14__finalize_kernel i arg1 harg1 arg2 harg2 arg3 harg3 arg4 harg4 arg5 harg5) K := by
  simp only [cc14__finalize_kernel_eq_skeleton]; unfold cc14__finalize_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover14_4 _)

/-! ## The pipeline's proof data -/

/-- The proof data of pipeline 14 on core `c`: the arrays as the region finds them (`V`); after the body at point `t` each
    input's buffer at its block and the output's at `out14_4` of the input blocks; the invariant the scoped rest and the
    generator register, untouched; nothing owed; full shares. -/
def dat14 (c : Dev nD) : Dat τ (Elt F) Unit ℕ (UR sig nD τ) ℕ cfg14 c where
  A w := V c (Pipeline.arrRef spec14 w)
  after w t := match w with
    | ⟨0, _⟩ => iblk14 V c 0 t
    | ⟨1, _⟩ => iblk14 V c 1 t
    | ⟨2, _⟩ => iblk14 V c 2 t
    | ⟨3, _⟩ => iblk14 V c 3 t
    | ⟨4, _⟩ => out14_4 (iblk14 V c 0 t) (iblk14 V c 1 t) (iblk14 V c 2 t) (iblk14 V c 3 t)
  Φ _ := Pipeline.ΦA spec14 c
  q _ := fullShare
  owed _ := 0

/-- The proof data's arrays are the region-entry contents. -/
theorem A_eq14 (c : Dev nD) (w : Fin cfg14.W) : (dat14 V c).A w = V c (Pipeline.arrRef spec14 w) := by
  dsimp only [dat14]

/-- What the body leaves, window by window. -/
theorem after14_0 (c : Dev nD) (t : Fin cfg14.N) : (dat14 V c).after 0 t = iblk14 V c 0 t := by dsimp only [dat14]
theorem after14_1 (c : Dev nD) (t : Fin cfg14.N) : (dat14 V c).after 1 t = iblk14 V c 1 t := by dsimp only [dat14]
theorem after14_2 (c : Dev nD) (t : Fin cfg14.N) : (dat14 V c).after 2 t = iblk14 V c 2 t := by dsimp only [dat14]
theorem after14_3 (c : Dev nD) (t : Fin cfg14.N) : (dat14 V c).after 3 t = iblk14 V c 3 t := by dsimp only [dat14]
theorem after14_4 (c : Dev nD) (t : Fin cfg14.N) : (dat14 V c).after 4 t = out14_4 (iblk14 V c 0 t) (iblk14 V c 1 t) (iblk14 V c 2 t) (iblk14 V c 3 t) := by dsimp only [dat14]

/-- Each input's current staging buffer holds its block at every point, fetched there or not. -/
theorem before14_0 (c : Dev nD) (t : Fin cfg14.N) (d) : (dat14 V c).before 0 t d = iblk14 V c 0 t :=
  before14_0_of V (dat14 V c) (A_eq14 V c 0) (after14_0 V c) t d
theorem before14_1 (c : Dev nD) (t : Fin cfg14.N) (d) : (dat14 V c).before 1 t d = iblk14 V c 1 t :=
  before14_1_of V (dat14 V c) (A_eq14 V c 1) (after14_1 V c) t d
theorem before14_2 (c : Dev nD) (t : Fin cfg14.N) (d) : (dat14 V c).before 2 t d = iblk14 V c 2 t :=
  before14_2_of V (dat14 V c) (A_eq14 V c 2) (after14_2 V c) t d
theorem before14_3 (c : Dev nD) (t : Fin cfg14.N) (d) : (dat14 V c).before 3 t d = iblk14 V c 3 t :=
  before14_3_of V (dat14 V c) (A_eq14 V c 3) (after14_3 V c) t d

/-- The invariant at the region's entry is the class's, -/
theorem PhiIn14 (c : Dev nD) : Pipeline.ΦA spec14 c ⊢ (dat14 V c).Φ 0 := .rfl

/-- and at its exit. -/
theorem PhiOut14 (c : Dev nD) : (dat14 V c).Φ (Fin.last _) ⊢ Pipeline.ΦA spec14 c := .rfl

/-! ## The body obligation, at a generic point -/

/-- What the body is called with at point `t`, the windows one by one, -/
def bodyPre14 (c : Dev nD) (t : Fin cfg14.N) : sProp 𝕄 :=
  iprop((dat14 V c).Φ t.castSucc ∗ (dat14 V c).owesAt () t.castSucc
    ∗ (∃ d, owns (c : Thread nD τ) (st14_0 t) fullShare ((dat14 V c).before 0 t d))
    ∗ (∃ d, owns (c : Thread nD τ) (st14_1 t) fullShare ((dat14 V c).before 1 t d))
    ∗ (∃ d, owns (c : Thread nD τ) (st14_2 t) fullShare ((dat14 V c).before 2 t d))
    ∗ (∃ d, owns (c : Thread nD τ) (st14_3 t) fullShare ((dat14 V c).before 3 t d))
    ∗ (∃ d, owns (c : Thread nD τ) (st14_4 t) fullShare ((dat14 V c).before 4 t d)))

/-- and what it returns. -/
def bodyPost14 (c : Dev nD) (t : Fin cfg14.N) : sProp 𝕄 :=
  iprop((dat14 V c).Φ t.succ ∗ (dat14 V c).owesAt () t.succ
    ∗ owns (c : Thread nD τ) (st14_0 t) fullShare ((dat14 V c).after 0 t)
    ∗ owns (c : Thread nD τ) (st14_1 t) fullShare ((dat14 V c).after 1 t)
    ∗ owns (c : Thread nD τ) (st14_2 t) fullShare ((dat14 V c).after 2 t)
    ∗ owns (c : Thread nD τ) (st14_3 t) fullShare ((dat14 V c).after 3 t)
    ∗ owns (c : Thread nD τ) (st14_4 t) fullShare ((dat14 V c).after 4 t))

/-- The body at any point: the inputs' memrefs hold their blocks, so the body's triple applies; the invariant and the core's
    debts pass through unread. -/
theorem sound_body14 (c : Dev nD) (t : Fin cfg14.N) :
    bodyPre14 V c t ⊢ wp frame (wpE (defs₀ (F := F)) Variants.none c none) Set.univ (bodyAt14 t) (fun _ => bodyPost14 V c t) := by
  unfold bodyPre14 bodyPost14 bodyAt14
  simp only [before14_0, before14_1, before14_2, before14_3]
  rw [show (dat14 V c).Φ t.succ = (dat14 V c).Φ t.castSucc from rfl,
    show (dat14 V c).owesAt () t.succ = (dat14 V c).owesAt () t.castSucc from rfl,
    after14_0, after14_1, after14_2, after14_3, after14_4]
  iintro ⟨HΦ, Ho, ⟨%d0, H0⟩, ⟨%d1, H1⟩, ⟨%d2, H2⟩, ⟨%d3, H3⟩, ⟨%d4, H4⟩⟩
  iapply (sound_kernel14 c Set.univ _ _ _ _ _ _ _ _ _ _ _ (iblk14 V c 0 t) (iblk14 V c 1 t) (iblk14 V c 2 t) (iblk14 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation14 (c : Dev nD) : BodyObligation (dat14 (F := F) V c) (defs₀ (F := F)) Variants.none () Set.univ := fun t => by
  rw [bigSep_W14, bigSep_W14]
  exact sound_body14 V c t

end Cert.KernelIdeal.Hand

end
-- ==== Proof.KiFold.lean ====
/- The run of @main, first part: the TensorCore's buffer contents at each of the 27 boundaries of @main's 26 segments, as a
   fold from the launch memory (a stretch of host operations takes them to what the operations leave; a region takes its
   windows' arrays to what its pipeline leaves and leaves the rest), every pipeline's proof data at its region's entry
   contents, the thread state that rides through the segments, and the host stretches as segments. -/
import proofs.«403491_j395136991532_1_alg».proof.Proof.Gen.KernelIdeal.Launch
import proofs.«403491_j395136991532_1_alg».proof.Proof.Gen.KernelIdeal.Skeleton
import proofs.«403491_j395136991532_1_alg».proof.Proof.Gen.KernelIdeal.Points
import proofs.«403491_j395136991532_1_alg».proof.Proof.GinRegion0
import proofs.«403491_j395136991532_1_alg».proof.Proof.SegRegion1
import proofs.«403491_j395136991532_1_alg».proof.Proof.VnRegion2
import proofs.«403491_j395136991532_1_alg».proof.Proof.GinRegion3
import proofs.«403491_j395136991532_1_alg».proof.Proof.SegRegion4
import proofs.«403491_j395136991532_1_alg».proof.Proof.VnRegion5
import proofs.«403491_j395136991532_1_alg».proof.Proof.GinRegion6
import proofs.«403491_j395136991532_1_alg».proof.Proof.SegRegion7
import proofs.«403491_j395136991532_1_alg».proof.Proof.VnRegion8
import proofs.«403491_j395136991532_1_alg».proof.Proof.GinRegion9
import proofs.«403491_j395136991532_1_alg».proof.Proof.SegRegion10
import proofs.«403491_j395136991532_1_alg».proof.Proof.VnRegion11
import proofs.«403491_j395136991532_1_alg».proof.Proof.GinRegion12
import proofs.«403491_j395136991532_1_alg».proof.Proof.SegRegion13
import proofs.«403491_j395136991532_1_alg».proof.Proof.FinRegion14
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- the 97-operation host stretch's list and the membership facts over the production extents recurse past the default depth
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffer contents at each boundary of @main's 26 segments: a fold from the launch memory

A stretch of host operations takes the contents to `StableHlo.after` of them; a region takes its windows' arrays to what
its pipeline leaves (the inputs as entered, each output's write-backs folded: `Dat.arrAt … N`) and leaves every other
buffer as entered (`Pipeline.withArrays`). `W0` is the launch; segment `i` (counted from 0) takes `W i` to `W (i+1)`. -/

/-- Core `c`'s buffers at launch. -/
abbrev W0 : Dev nD → Valuation τ sig (Elt F) := fun c b => (s₀ m ρ).mem ((c : Dev nD), b)

/-- After `hostOps0`: region 0's entry. -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- At region 0's exit. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- Region 0's exit contents at the TensorCore's references: region 1 is entered from them (no host stretch between). -/
abbrev V2 : (c : Dev nD) → (b : Ref sig .tc) → Buf (Elt F) ((c : Thread nD τ).loc b) := fun c b => W2 m ρ c b
/-- At region 0's exit each of its arrays holds what the pipeline leaves and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After `hostOps2`: region 2's entry. -/
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b
/-- At region 2's exit. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-- After `hostOps3`: region 3's entry. -/
abbrev W6 : Dev nD → Valuation τ sig (Elt F) := fun c => StableHlo.after hostOps3 (W5 m ρ c)
abbrev V6 : (c : Dev nD) → (b : Ref sig .tc) → Buf (Elt F) ((c : Thread nD τ).loc b) := fun c b => W6 m ρ c b
/-- At region 3's exit. -/
def W7 (c : Dev nD) : Valuation τ sig (Elt F) :=
  Pipeline.withArrays spec3 c (W6 m ρ c) fun w => (dat3 (V6 m ρ) c).arrAt w cfg3.N
theorem W7_arr (c : Dev nD) (w : Fin cfg3.W) :
    W7 m ρ c (Proc.devRef .tc (Pipeline.arrRef spec3 w)) = (dat3 (V6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
/-- Region 3's exit contents: region 4 is entered from them (no host stretch between). -/
abbrev V7 : (c : Dev nD) → (b : Ref sig .tc) → Buf (Elt F) ((c : Thread nD τ).loc b) := fun c b => W7 m ρ c b
theorem hF3 (c : Dev nD) (w : Fin cfg3.W) : (dat3 (V6 m ρ) c).arrAt w cfg3.N = V7 m ρ c (Pipeline.arrRef spec3 w) :=
  (W7_arr m ρ c w).symm
theorem hrest3 (c : Dev nD) : ∀ b, b ∉ Finset.univ.image (Pipeline.arrRef spec3) → V7 m ρ c b = V6 m ρ c b :=
  fun b hb => W7_of_ne m ρ c b fun w e => hb (Finset.mem_image.mpr ⟨w, Finset.mem_univ _, e⟩)

/-- At region 4's exit. -/
def W8 (c : Dev nD) : Valuation τ sig (Elt F) :=
  Pipeline.withArrays spec4 c (W7 m ρ c) fun w => (dat4 (V7 m ρ) c).arrAt w cfg4.N
theorem W8_arr (c : Dev nD) (w : Fin cfg4.W) :
    W8 m ρ c (Proc.devRef .tc (Pipeline.arrRef spec4 w)) = (dat4 (V7 m ρ) c).arrAt w cfg4.N := by
  unfold W8; exact Pipeline.withArrays_arr spec4 launch4.win.arr_inj c _ _ w
theorem W8_of_ne (c : Dev nD) (b : Ref sig .tc) (hb : ∀ w, Pipeline.arrRef spec4 w ≠ b) :
    W8 m ρ c (Proc.devRef .tc b) = W7 m ρ c (Proc.devRef .tc b) := by
  unfold W8; exact Pipeline.withArrays_of_ne spec4 c _ _ b hb
abbrev V8 : (c : Dev nD) → (b : Ref sig .tc) → Buf (Elt F) ((c : Thread nD τ).loc b) := fun c b => W8 m ρ c b
theorem hF4 (c : Dev nD) (w : Fin cfg4.W) : (dat4 (V7 m ρ) c).arrAt w cfg4.N = V8 m ρ c (Pipeline.arrRef spec4 w) :=
  (W8_arr m ρ c w).symm
theorem hrest4 (c : Dev nD) : ∀ b, b ∉ Finset.univ.image (Pipeline.arrRef spec4) → V8 m ρ c b = V7 m ρ c b :=
  fun b hb => W8_of_ne m ρ c b fun w e => hb (Finset.mem_image.mpr ⟨w, Finset.mem_univ _, e⟩)

/-- After `hostOps5`: region 5's entry. -/
abbrev W9 : Dev nD → Valuation τ sig (Elt F) := fun c => StableHlo.after hostOps5 (W8 m ρ c)
abbrev V9 : (c : Dev nD) → (b : Ref sig .tc) → Buf (Elt F) ((c : Thread nD τ).loc b) := fun c b => W9 m ρ c b
/-- At region 5's exit. -/
def W10 (c : Dev nD) : Valuation τ sig (Elt F) :=
  Pipeline.withArrays spec5 c (W9 m ρ c) fun w => (dat5 (V9 m ρ) c).arrAt w cfg5.N
theorem W10_arr (c : Dev nD) (w : Fin cfg5.W) :
    W10 m ρ c (Proc.devRef .tc (Pipeline.arrRef spec5 w)) = (dat5 (V9 m ρ) c).arrAt w cfg5.N := by
  unfold W10; exact Pipeline.withArrays_arr spec5 launch5.win.arr_inj c _ _ w
theorem W10_of_ne (c : Dev nD) (b : Ref sig .tc) (hb : ∀ w, Pipeline.arrRef spec5 w ≠ b) :
    W10 m ρ c (Proc.devRef .tc b) = W9 m ρ c (Proc.devRef .tc b) := by
  unfold W10; exact Pipeline.withArrays_of_ne spec5 c _ _ b hb
abbrev V10 : (c : Dev nD) → (b : Ref sig .tc) → Buf (Elt F) ((c : Thread nD τ).loc b) := fun c b => W10 m ρ c b
theorem hF5 (c : Dev nD) (w : Fin cfg5.W) : (dat5 (V9 m ρ) c).arrAt w cfg5.N = V10 m ρ c (Pipeline.arrRef spec5 w) :=
  (W10_arr m ρ c w).symm
theorem hrest5 (c : Dev nD) : ∀ b, b ∉ Finset.univ.image (Pipeline.arrRef spec5) → V10 m ρ c b = V9 m ρ c b :=
  fun b hb => W10_of_ne m ρ c b fun w e => hb (Finset.mem_image.mpr ⟨w, Finset.mem_univ _, e⟩)

/-- After `hostOps6`: region 6's entry. -/
abbrev W11 : Dev nD → Valuation τ sig (Elt F) := fun c => StableHlo.after hostOps6 (W10 m ρ c)
abbrev V11 : (c : Dev nD) → (b : Ref sig .tc) → Buf (Elt F) ((c : Thread nD τ).loc b) := fun c b => W11 m ρ c b
/-- At region 6's exit. -/
def W12 (c : Dev nD) : Valuation τ sig (Elt F) :=
  Pipeline.withArrays spec6 c (W11 m ρ c) fun w => (dat6 (V11 m ρ) c).arrAt w cfg6.N
theorem W12_arr (c : Dev nD) (w : Fin cfg6.W) :
    W12 m ρ c (Proc.devRef .tc (Pipeline.arrRef spec6 w)) = (dat6 (V11 m ρ) c).arrAt w cfg6.N := by
  unfold W12; exact Pipeline.withArrays_arr spec6 launch6.win.arr_inj c _ _ w
theorem W12_of_ne (c : Dev nD) (b : Ref sig .tc) (hb : ∀ w, Pipeline.arrRef spec6 w ≠ b) :
    W12 m ρ c (Proc.devRef .tc b) = W11 m ρ c (Proc.devRef .tc b) := by
  unfold W12; exact Pipeline.withArrays_of_ne spec6 c _ _ b hb
/-- Region 6's exit contents: region 7 is entered from them (no host stretch between). -/
abbrev V12 : (c : Dev nD) → (b : Ref sig .tc) → Buf (Elt F) ((c : Thread nD τ).loc b) := fun c b => W12 m ρ c b
theorem hF6 (c : Dev nD) (w : Fin cfg6.W) : (dat6 (V11 m ρ) c).arrAt w cfg6.N = V12 m ρ c (Pipeline.arrRef spec6 w) :=
  (W12_arr m ρ c w).symm
theorem hrest6 (c : Dev nD) : ∀ b, b ∉ Finset.univ.image (Pipeline.arrRef spec6) → V12 m ρ c b = V11 m ρ c b :=
  fun b hb => W12_of_ne m ρ c b fun w e => hb (Finset.mem_image.mpr ⟨w, Finset.mem_univ _, e⟩)

/-- At region 7's exit. -/
def W13 (c : Dev nD) : Valuation τ sig (Elt F) :=
  Pipeline.withArrays spec7 c (W12 m ρ c) fun w => (dat7 (V12 m ρ) c).arrAt w cfg7.N
theorem W13_arr (c : Dev nD) (w : Fin cfg7.W) :
    W13 m ρ c (Proc.devRef .tc (Pipeline.arrRef spec7 w)) = (dat7 (V12 m ρ) c).arrAt w cfg7.N := by
  unfold W13; exact Pipeline.withArrays_arr spec7 launch7.win.arr_inj c _ _ w
theorem W13_of_ne (c : Dev nD) (b : Ref sig .tc) (hb : ∀ w, Pipeline.arrRef spec7 w ≠ b) :
    W13 m ρ c (Proc.devRef .tc b) = W12 m ρ c (Proc.devRef .tc b) := by
  unfold W13; exact Pipeline.withArrays_of_ne spec7 c _ _ b hb
abbrev V13 : (c : Dev nD) → (b : Ref sig .tc) → Buf (Elt F) ((c : Thread nD τ).loc b) := fun c b => W13 m ρ c b
theorem hF7 (c : Dev nD) (w : Fin cfg7.W) : (dat7 (V12 m ρ) c).arrAt w cfg7.N = V13 m ρ c (Pipeline.arrRef spec7 w) :=
  (W13_arr m ρ c w).symm
theorem hrest7 (c : Dev nD) : ∀ b, b ∉ Finset.univ.image (Pipeline.arrRef spec7) → V13 m ρ c b = V12 m ρ c b :=
  fun b hb => W13_of_ne m ρ c b fun w e => hb (Finset.mem_image.mpr ⟨w, Finset.mem_univ _, e⟩)

/-- After `hostOps8`: region 8's entry. -/
abbrev W14 : Dev nD → Valuation τ sig (Elt F) := fun c => StableHlo.after hostOps8 (W13 m ρ c)
abbrev V14 : (c : Dev nD) → (b : Ref sig .tc) → Buf (Elt F) ((c : Thread nD τ).loc b) := fun c b => W14 m ρ c b
/-- At region 8's exit. -/
def W15 (c : Dev nD) : Valuation τ sig (Elt F) :=
  Pipeline.withArrays spec8 c (W14 m ρ c) fun w => (dat8 (V14 m ρ) c).arrAt w cfg8.N
theorem W15_arr (c : Dev nD) (w : Fin cfg8.W) :
    W15 m ρ c (Proc.devRef .tc (Pipeline.arrRef spec8 w)) = (dat8 (V14 m ρ) c).arrAt w cfg8.N := by
  unfold W15; exact Pipeline.withArrays_arr spec8 launch8.win.arr_inj c _ _ w
theorem W15_of_ne (c : Dev nD) (b : Ref sig .tc) (hb : ∀ w, Pipeline.arrRef spec8 w ≠ b) :
    W15 m ρ c (Proc.devRef .tc b) = W14 m ρ c (Proc.devRef .tc b) := by
  unfold W15; exact Pipeline.withArrays_of_ne spec8 c _ _ b hb
abbrev V15 : (c : Dev nD) → (b : Ref sig .tc) → Buf (Elt F) ((c : Thread nD τ).loc b) := fun c b => W15 m ρ c b
theorem hF8 (c : Dev nD) (w : Fin cfg8.W) : (dat8 (V14 m ρ) c).arrAt w cfg8.N = V15 m ρ c (Pipeline.arrRef spec8 w) :=
  (W15_arr m ρ c w).symm
theorem hrest8 (c : Dev nD) : ∀ b, b ∉ Finset.univ.image (Pipeline.arrRef spec8) → V15 m ρ c b = V14 m ρ c b :=
  fun b hb => W15_of_ne m ρ c b fun w e => hb (Finset.mem_image.mpr ⟨w, Finset.mem_univ _, e⟩)

/-- After `hostOps9`: region 9's entry. -/
abbrev W16 : Dev nD → Valuation τ sig (Elt F) := fun c => StableHlo.after hostOps9 (W15 m ρ c)
abbrev V16 : (c : Dev nD) → (b : Ref sig .tc) → Buf (Elt F) ((c : Thread nD τ).loc b) := fun c b => W16 m ρ c b
/-- At region 9's exit. -/
def W17 (c : Dev nD) : Valuation τ sig (Elt F) :=
  Pipeline.withArrays spec9 c (W16 m ρ c) fun w => (dat9 (V16 m ρ) c).arrAt w cfg9.N
theorem W17_arr (c : Dev nD) (w : Fin cfg9.W) :
    W17 m ρ c (Proc.devRef .tc (Pipeline.arrRef spec9 w)) = (dat9 (V16 m ρ) c).arrAt w cfg9.N := by
  unfold W17; exact Pipeline.withArrays_arr spec9 launch9.win.arr_inj c _ _ w
theorem W17_of_ne (c : Dev nD) (b : Ref sig .tc) (hb : ∀ w, Pipeline.arrRef spec9 w ≠ b) :
    W17 m ρ c (Proc.devRef .tc b) = W16 m ρ c (Proc.devRef .tc b) := by
  unfold W17; exact Pipeline.withArrays_of_ne spec9 c _ _ b hb
/-- Region 9's exit contents: region 10 is entered from them (no host stretch between). -/
abbrev V17 : (c : Dev nD) → (b : Ref sig .tc) → Buf (Elt F) ((c : Thread nD τ).loc b) := fun c b => W17 m ρ c b
theorem hF9 (c : Dev nD) (w : Fin cfg9.W) : (dat9 (V16 m ρ) c).arrAt w cfg9.N = V17 m ρ c (Pipeline.arrRef spec9 w) :=
  (W17_arr m ρ c w).symm
theorem hrest9 (c : Dev nD) : ∀ b, b ∉ Finset.univ.image (Pipeline.arrRef spec9) → V17 m ρ c b = V16 m ρ c b :=
  fun b hb => W17_of_ne m ρ c b fun w e => hb (Finset.mem_image.mpr ⟨w, Finset.mem_univ _, e⟩)

/-- At region 10's exit. -/
def W18 (c : Dev nD) : Valuation τ sig (Elt F) :=
  Pipeline.withArrays spec10 c (W17 m ρ c) fun w => (dat10 (V17 m ρ) c).arrAt w cfg10.N
theorem W18_arr (c : Dev nD) (w : Fin cfg10.W) :
    W18 m ρ c (Proc.devRef .tc (Pipeline.arrRef spec10 w)) = (dat10 (V17 m ρ) c).arrAt w cfg10.N := by
  unfold W18; exact Pipeline.withArrays_arr spec10 launch10.win.arr_inj c _ _ w
theorem W18_of_ne (c : Dev nD) (b : Ref sig .tc) (hb : ∀ w, Pipeline.arrRef spec10 w ≠ b) :
    W18 m ρ c (Proc.devRef .tc b) = W17 m ρ c (Proc.devRef .tc b) := by
  unfold W18; exact Pipeline.withArrays_of_ne spec10 c _ _ b hb
abbrev V18 : (c : Dev nD) → (b : Ref sig .tc) → Buf (Elt F) ((c : Thread nD τ).loc b) := fun c b => W18 m ρ c b
theorem hF10 (c : Dev nD) (w : Fin cfg10.W) : (dat10 (V17 m ρ) c).arrAt w cfg10.N = V18 m ρ c (Pipeline.arrRef spec10 w) :=
  (W18_arr m ρ c w).symm
theorem hrest10 (c : Dev nD) : ∀ b, b ∉ Finset.univ.image (Pipeline.arrRef spec10) → V18 m ρ c b = V17 m ρ c b :=
  fun b hb => W18_of_ne m ρ c b fun w e => hb (Finset.mem_image.mpr ⟨w, Finset.mem_univ _, e⟩)

/-- After `hostOps11`: region 11's entry. -/
abbrev W19 : Dev nD → Valuation τ sig (Elt F) := fun c => StableHlo.after hostOps11 (W18 m ρ c)
abbrev V19 : (c : Dev nD) → (b : Ref sig .tc) → Buf (Elt F) ((c : Thread nD τ).loc b) := fun c b => W19 m ρ c b
/-- At region 11's exit. -/
def W20 (c : Dev nD) : Valuation τ sig (Elt F) :=
  Pipeline.withArrays spec11 c (W19 m ρ c) fun w => (dat11 (V19 m ρ) c).arrAt w cfg11.N
theorem W20_arr (c : Dev nD) (w : Fin cfg11.W) :
    W20 m ρ c (Proc.devRef .tc (Pipeline.arrRef spec11 w)) = (dat11 (V19 m ρ) c).arrAt w cfg11.N := by
  unfold W20; exact Pipeline.withArrays_arr spec11 launch11.win.arr_inj c _ _ w
theorem W20_of_ne (c : Dev nD) (b : Ref sig .tc) (hb : ∀ w, Pipeline.arrRef spec11 w ≠ b) :
    W20 m ρ c (Proc.devRef .tc b) = W19 m ρ c (Proc.devRef .tc b) := by
  unfold W20; exact Pipeline.withArrays_of_ne spec11 c _ _ b hb
abbrev V20 : (c : Dev nD) → (b : Ref sig .tc) → Buf (Elt F) ((c : Thread nD τ).loc b) := fun c b => W20 m ρ c b
theorem hF11 (c : Dev nD) (w : Fin cfg11.W) : (dat11 (V19 m ρ) c).arrAt w cfg11.N = V20 m ρ c (Pipeline.arrRef spec11 w) :=
  (W20_arr m ρ c w).symm
theorem hrest11 (c : Dev nD) : ∀ b, b ∉ Finset.univ.image (Pipeline.arrRef spec11) → V20 m ρ c b = V19 m ρ c b :=
  fun b hb => W20_of_ne m ρ c b fun w e => hb (Finset.mem_image.mpr ⟨w, Finset.mem_univ _, e⟩)

/-- After `hostOps12`: region 12's entry. -/
abbrev W21 : Dev nD → Valuation τ sig (Elt F) := fun c => StableHlo.after hostOps12 (W20 m ρ c)
abbrev V21 : (c : Dev nD) → (b : Ref sig .tc) → Buf (Elt F) ((c : Thread nD τ).loc b) := fun c b => W21 m ρ c b
/-- At region 12's exit. -/
def W22 (c : Dev nD) : Valuation τ sig (Elt F) :=
  Pipeline.withArrays spec12 c (W21 m ρ c) fun w => (dat12 (V21 m ρ) c).arrAt w cfg12.N
theorem W22_arr (c : Dev nD) (w : Fin cfg12.W) :
    W22 m ρ c (Proc.devRef .tc (Pipeline.arrRef spec12 w)) = (dat12 (V21 m ρ) c).arrAt w cfg12.N := by
  unfold W22; exact Pipeline.withArrays_arr spec12 launch12.win.arr_inj c _ _ w
theorem W22_of_ne (c : Dev nD) (b : Ref sig .tc) (hb : ∀ w, Pipeline.arrRef spec12 w ≠ b) :
    W22 m ρ c (Proc.devRef .tc b) = W21 m ρ c (Proc.devRef .tc b) := by
  unfold W22; exact Pipeline.withArrays_of_ne spec12 c _ _ b hb
abbrev V22 : (c : Dev nD) → (b : Ref sig .tc) → Buf (Elt F) ((c : Thread nD τ).loc b) := fun c b => W22 m ρ c b
theorem hF12 (c : Dev nD) (w : Fin cfg12.W) : (dat12 (V21 m ρ) c).arrAt w cfg12.N = V22 m ρ c (Pipeline.arrRef spec12 w) :=
  (W22_arr m ρ c w).symm
theorem hrest12 (c : Dev nD) : ∀ b, b ∉ Finset.univ.image (Pipeline.arrRef spec12) → V22 m ρ c b = V21 m ρ c b :=
  fun b hb => W22_of_ne m ρ c b fun w e => hb (Finset.mem_image.mpr ⟨w, Finset.mem_univ _, e⟩)

/-- After `hostOps13`: region 13's entry. -/
abbrev W23 : Dev nD → Valuation τ sig (Elt F) := fun c => StableHlo.after hostOps13 (W22 m ρ c)
abbrev V23 : (c : Dev nD) → (b : Ref sig .tc) → Buf (Elt F) ((c : Thread nD τ).loc b) := fun c b => W23 m ρ c b
/-- At region 13's exit. -/
def W24 (c : Dev nD) : Valuation τ sig (Elt F) :=
  Pipeline.withArrays spec13 c (W23 m ρ c) fun w => (dat13 (V23 m ρ) c).arrAt w cfg13.N
theorem W24_arr (c : Dev nD) (w : Fin cfg13.W) :
    W24 m ρ c (Proc.devRef .tc (Pipeline.arrRef spec13 w)) = (dat13 (V23 m ρ) c).arrAt w cfg13.N := by
  unfold W24; exact Pipeline.withArrays_arr spec13 launch13.win.arr_inj c _ _ w
theorem W24_of_ne (c : Dev nD) (b : Ref sig .tc) (hb : ∀ w, Pipeline.arrRef spec13 w ≠ b) :
    W24 m ρ c (Proc.devRef .tc b) = W23 m ρ c (Proc.devRef .tc b) := by
  unfold W24; exact Pipeline.withArrays_of_ne spec13 c _ _ b hb
abbrev V24 : (c : Dev nD) → (b : Ref sig .tc) → Buf (Elt F) ((c : Thread nD τ).loc b) := fun c b => W24 m ρ c b
theorem hF13 (c : Dev nD) (w : Fin cfg13.W) : (dat13 (V23 m ρ) c).arrAt w cfg13.N = V24 m ρ c (Pipeline.arrRef spec13 w) :=
  (W24_arr m ρ c w).symm
theorem hrest13 (c : Dev nD) : ∀ b, b ∉ Finset.univ.image (Pipeline.arrRef spec13) → V24 m ρ c b = V23 m ρ c b :=
  fun b hb => W24_of_ne m ρ c b fun w e => hb (Finset.mem_image.mpr ⟨w, Finset.mem_univ _, e⟩)

/-- After `hostOps14`: region 14's entry. -/
abbrev W25 : Dev nD → Valuation τ sig (Elt F) := fun c => StableHlo.after hostOps14 (W24 m ρ c)
abbrev V25 : (c : Dev nD) → (b : Ref sig .tc) → Buf (Elt F) ((c : Thread nD τ).loc b) := fun c b => W25 m ρ c b
/-- At region 14's exit: what the launch reads at the end. -/
def W26 (c : Dev nD) : Valuation τ sig (Elt F) :=
  Pipeline.withArrays spec14 c (W25 m ρ c) fun w => (dat14 (V25 m ρ) c).arrAt w cfg14.N
theorem W26_arr (c : Dev nD) (w : Fin cfg14.W) :
    W26 m ρ c (Proc.devRef .tc (Pipeline.arrRef spec14 w)) = (dat14 (V25 m ρ) c).arrAt w cfg14.N := by
  unfold W26; exact Pipeline.withArrays_arr spec14 launch14.win.arr_inj c _ _ w
theorem W26_of_ne (c : Dev nD) (b : Ref sig .tc) (hb : ∀ w, Pipeline.arrRef spec14 w ≠ b) :
    W26 m ρ c (Proc.devRef .tc b) = W25 m ρ c (Proc.devRef .tc b) := by
  unfold W26; exact Pipeline.withArrays_of_ne spec14 c _ _ b hb
abbrev V26 : (c : Dev nD) → (b : Ref sig .tc) → Buf (Elt F) ((c : Thread nD τ).loc b) := fun c b => W26 m ρ c b
theorem hF14 (c : Dev nD) (w : Fin cfg14.W) : (dat14 (V25 m ρ) c).arrAt w cfg14.N = V26 m ρ c (Pipeline.arrRef spec14 w) :=
  (W26_arr m ρ c w).symm
theorem hrest14 (c : Dev nD) : ∀ b, b ∉ Finset.univ.image (Pipeline.arrRef spec14) → V26 m ρ c b = V25 m ρ c b :=
  fun b hb => W26_of_ne m ρ c b fun w e => hb (Finset.mem_image.mpr ⟨w, Finset.mem_univ _, e⟩)

/-! ## No host operation allocates a buffer -/

set_option maxHeartbeats 4000000 in
/-- No operation of `hostOps0` allocates a buffer. -/
theorem hostOps0_fresh : (hostOps0 : List (HloOp τ sig (Elt F))).Forall fun op => op.fresh = ∅ := by
  simp only [List.Forall]; repeat' constructor

/-- No operation of `hostOps2` allocates a buffer. -/
theorem hostOps2_fresh : (hostOps2 : List (HloOp τ sig (Elt F))).Forall fun op => op.fresh = ∅ := by
  simp only [List.Forall]; repeat' constructor

/-- No operation of `hostOps3` allocates a buffer. -/
theorem hostOps3_fresh : (hostOps3 : List (HloOp τ sig (Elt F))).Forall fun op => op.fresh = ∅ := by
  simp only [List.Forall]; repeat' constructor

/-- No operation of `hostOps5` allocates a buffer. -/
theorem hostOps5_fresh : (hostOps5 : List (HloOp τ sig (Elt F))).Forall fun op => op.fresh = ∅ := by
  simp only [List.Forall]; repeat' constructor

/-- No operation of `hostOps6` allocates a buffer. -/
theorem hostOps6_fresh : (hostOps6 : List (HloOp τ sig (Elt F))).Forall fun op => op.fresh = ∅ := by
  simp only [List.Forall]; repeat' constructor

/-- No operation of `hostOps8` allocates a buffer. -/
theorem hostOps8_fresh : (hostOps8 : List (HloOp τ sig (Elt F))).Forall fun op => op.fresh = ∅ := by
  simp only [List.Forall]; repeat' constructor

/-- No operation of `hostOps9` allocates a buffer. -/
theorem hostOps9_fresh : (hostOps9 : List (HloOp τ sig (Elt F))).Forall fun op => op.fresh = ∅ := by
  simp only [List.Forall]; repeat' constructor

/-- No operation of `hostOps11` allocates a buffer. -/
theorem hostOps11_fresh : (hostOps11 : List (HloOp τ sig (Elt F))).Forall fun op => op.fresh = ∅ := by
  simp only [List.Forall]; repeat' constructor

/-- No operation of `hostOps12` allocates a buffer. -/
theorem hostOps12_fresh : (hostOps12 : List (HloOp τ sig (Elt F))).Forall fun op => op.fresh = ∅ := by
  simp only [List.Forall]; repeat' constructor

/-- No operation of `hostOps13` allocates a buffer. -/
theorem hostOps13_fresh : (hostOps13 : List (HloOp τ sig (Elt F))).Forall fun op => op.fresh = ∅ := by
  simp only [List.Forall]; repeat' constructor

/-- No operation of `hostOps14` allocates a buffer. -/
theorem hostOps14_fresh : (hostOps14 : List (HloOp τ sig (Elt F))).Forall fun op => op.fresh = ∅ := by
  simp only [List.Forall]; repeat' constructor

/-! ## The proof data family and the thread state -/

/-- The prefetched tables' admissible contents: no pipeline has a table. -/
abbrev adm : (p : Fin 15) → (pcfgs (F := F) p).Adm := fun p => (cfgs p).toPCfg_adm
/-- Every pipeline's proof data, each at its region's entry contents: a literal `match`, so that the pinned
    configuration at a numeral reduces to the printed one. -/
def pdats : (p : Fin 15) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V4 m ρ) c
  | ⟨3, _⟩ => fun c => dat3 (V6 m ρ) c
  | ⟨4, _⟩ => fun c => dat4 (V7 m ρ) c
  | ⟨5, _⟩ => fun c => dat5 (V9 m ρ) c
  | ⟨6, _⟩ => fun c => dat6 (V11 m ρ) c
  | ⟨7, _⟩ => fun c => dat7 (V12 m ρ) c
  | ⟨8, _⟩ => fun c => dat8 (V14 m ρ) c
  | ⟨9, _⟩ => fun c => dat9 (V16 m ρ) c
  | ⟨10, _⟩ => fun c => dat10 (V17 m ρ) c
  | ⟨11, _⟩ => fun c => dat11 (V19 m ρ) c
  | ⟨12, _⟩ => fun c => dat12 (V21 m ρ) c
  | ⟨13, _⟩ => fun c => dat13 (V23 m ρ) c
  | ⟨14, _⟩ => fun c => dat14 (V25 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`,
    at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: its `post` is
    those references at `StableHlo.after ops (W c)`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W26`, the generator
    register at some state. -/
abbrev Tₙ (c : Dev nD) : sProp 𝕄 := iprop(StableHlo.held (c : Thread nD τ) (Pipeline.ucRefs τ sig) (W26 m ρ c) ∗ ∃ r, prngReg c r)

end Cert.KernelIdeal.Hand

end
-- ==== Proof.KiReg0.lean ====
/- The run of @main: region 0 as a segment of the run, between the boundaries it is entered from and left at. -/
import proofs.«403491_j395136991532_1_alg».proof.Proof.Gen.KernelIdeal.Launch
import proofs.«403491_j395136991532_1_alg».proof.Proof.Gen.KernelIdeal.Skeleton
import proofs.«403491_j395136991532_1_alg».proof.Proof.Gen.KernelIdeal.Points
import proofs.«403491_j395136991532_1_alg».proof.Proof.KiFold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- the 97-operation host stretch's list and the membership facts over the production extents recurse past the default depth
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Region 0 of @main as a segment -/

-- a library lemma stated over the pinned configuration unifies with the printed one only when unification may unfold
-- plain definitions in a metavariable's type
set_option backward.isDefEq.respectTransparency.types false in
/-- REGION 0 over the thread state: entered from every unscoped buffer at `W1`, left at `W2`. Its arrays are split out
    of the unscoped buffers at entry and put back at the exit contents; the generator register goes into the region's
    invariant and comes back out of it; nothing is owed; the kernel has no semaphore of its own. -/
def reg0 : Pipeline.RegionSeg (pcfgs (F := F)) adm (pdats m ρ) () defs₀ 𝒱₀ L lv (0 : Fin 15) where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv (0 : Fin 15) fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := (0 : Fin 15)) (pcfgs (F := F)) adm (pdats m ρ) launch0.win launch0.arr_whole c
      ((pdats m ρ (0 : Fin 15) c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (PhiIn0 (V1 m ρ) c)
    unfold Pipeline.ΦA
    iintro ⟨Hp, -, Hr⟩
    isplitl [Hr]; · iexact Hr
    iexact Hp
  hout c := by
    rw [Pipeline.ownSems0_none]
    refine BIBase.Entails.trans (PhiOut0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := (0 : Fin 15)) (pcfgs (F := F)) adm (Ix := Unit) (Name := ℕ) (U := UR sig nD τ) (Lvl := ℕ)
      launch0.win launch0.arr_whole c (pdats m ρ) ((pdats m ρ (0 : Fin 15) c).share_full fun _ => rfl)
      (V1 m ρ c) (V2 m ρ c) ((pdats m ρ (0 : Fin 15) c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KiReg1.lean ====
/- The run of @main: region 1 as a segment of the run, between the boundaries it is entered from and left at. -/
import proofs.«403491_j395136991532_1_alg».proof.Proof.Gen.KernelIdeal.Launch
import proofs.«403491_j395136991532_1_alg».proof.Proof.Gen.KernelIdeal.Skeleton
import proofs.«403491_j395136991532_1_alg».proof.Proof.Gen.KernelIdeal.Points
import proofs.«403491_j395136991532_1_alg».proof.Proof.KiFold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- the 97-operation host stretch's list and the membership facts over the production extents recurse past the default depth
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Region 1 of @main as a segment -/

-- a library lemma stated over the pinned configuration unifies with the printed one only when unification may unfold
-- plain definitions in a metavariable's type
set_option backward.isDefEq.respectTransparency.types false in
/-- REGION 1 over the thread state: entered from every unscoped buffer at `W2`, left at `W3`. Its arrays are split out
    of the unscoped buffers at entry and put back at the exit contents; the generator register goes into the region's
    invariant and comes back out of it; nothing is owed; the kernel has no semaphore of its own. -/
def reg1 : Pipeline.RegionSeg (pcfgs (F := F)) adm (pdats m ρ) () defs₀ 𝒱₀ L lv (1 : Fin 15) where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv (1 : Fin 15) fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := (1 : Fin 15)) (pcfgs (F := F)) adm (pdats m ρ) launch1.win launch1.arr_whole c
      ((pdats m ρ (1 : Fin 15) c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (PhiIn1 (V2 m ρ) c)
    unfold Pipeline.ΦA
    iintro ⟨Hp, -, Hr⟩
    isplitl [Hr]; · iexact Hr
    iexact Hp
  hout c := by
    rw [Pipeline.ownSems0_none]
    refine BIBase.Entails.trans (PhiOut1 (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := (1 : Fin 15)) (pcfgs (F := F)) adm (Ix := Unit) (Name := ℕ) (U := UR sig nD τ) (Lvl := ℕ)
      launch1.win launch1.arr_whole c (pdats m ρ) ((pdats m ρ (1 : Fin 15) c).share_full fun _ => rfl)
      (V2 m ρ c) (V3 m ρ c) ((pdats m ρ (1 : Fin 15) c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KiReg2.lean ====
/- The run of @main: region 2 as a segment of the run, between the boundaries it is entered from and left at. -/
import proofs.«403491_j395136991532_1_alg».proof.Proof.Gen.KernelIdeal.Launch
import proofs.«403491_j395136991532_1_alg».proof.Proof.Gen.KernelIdeal.Skeleton
import proofs.«403491_j395136991532_1_alg».proof.Proof.Gen.KernelIdeal.Points
import proofs.«403491_j395136991532_1_alg».proof.Proof.KiFold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- the 97-operation host stretch's list and the membership facts over the production extents recurse past the default depth
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Region 2 of @main as a segment -/

-- a library lemma stated over the pinned configuration unifies with the printed one only when unification may unfold
-- plain definitions in a metavariable's type
set_option backward.isDefEq.respectTransparency.types false in
/-- REGION 2 over the thread state: entered from every unscoped buffer at `W4`, left at `W5`. Its arrays are split out
    of the unscoped buffers at entry and put back at the exit contents; the generator register goes into the region's
    invariant and comes back out of it; nothing is owed; the kernel has no semaphore of its own. -/
def reg2 : Pipeline.RegionSeg (pcfgs (F := F)) adm (pdats m ρ) () defs₀ 𝒱₀ L lv (2 : Fin 15) where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv (2 : Fin 15) fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := (2 : Fin 15)) (pcfgs (F := F)) adm (pdats m ρ) launch2.win launch2.arr_whole c
      ((pdats m ρ (2 : Fin 15) c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (PhiIn2 (V4 m ρ) c)
    unfold Pipeline.ΦA
    iintro ⟨Hp, -, Hr⟩
    isplitl [Hr]; · iexact Hr
    iexact Hp
  hout c := by
    rw [Pipeline.ownSems0_none]
    refine BIBase.Entails.trans (PhiOut2 (V4 m ρ) c) ?_
    unfold Pipeline.ΦA
    iintro ⟨Hr, Hp⟩
    isplitl [Hp]; · iexact Hp
    isplitr; · iempintro
    iexact Hr
  hexit c := by
    have hjoin := Pipeline.unscopedBufs_of_arrays (p := (2 : Fin 15)) (pcfgs (F := F)) adm (Ix := Unit) (Name := ℕ) (U := UR sig nD τ) (Lvl := ℕ)
      launch2.win launch2.arr_whole c (pdats m ρ) ((pdats m ρ (2 : Fin 15) c).share_full fun _ => rfl)
      (V4 m ρ c) (V5 m ρ c) ((pdats m ρ (2 : Fin 15) c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KiReg3.lean ====
/- The run of @main: region 3 as a segment of the run, between the boundaries it is entered from and left at. -/
import proofs.«403491_j395136991532_1_alg».proof.Proof.Gen.KernelIdeal.Launch
import proofs.«403491_j395136991532_1_alg».proof.Proof.Gen.KernelIdeal.Skeleton
import proofs.«403491_j395136991532_1_alg».proof.Proof.Gen.KernelIdeal.Points
import proofs.«403491_j395136991532_1_alg».proof.Proof.KiFold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- the 97-operation host stretch's list and the membership facts over the production extents recurse past the default depth
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Region 3 of @main as a segment -/

-- a library lemma stated over the pinned configuration unifies with the printed one only when unification may unfold
-- plain definitions in a metavariable's type
set_option backward.isDefEq.respectTransparency.types false in
/-- REGION 3 over the thread state: entered from every unscoped buffer at `W6`, left at `W7`. Its arrays are split out
    of the unscoped buffers at entry and put back at the exit contents; the generator register goes into the region's
    invariant and comes back out of it; nothing is owed; the kernel has no semaphore of its own. -/
def reg3 : Pipeline.RegionSeg (pcfgs (F := F)) adm (pdats m ρ) () defs₀ 𝒱₀ L lv (3 : Fin 15) where
  win := launch3.win.to₀
  block_pos := launch3.block_pos
  stage_whole := launch3.stage_whole
  K := PEmpty
  osem k := k.elim
  ho := Pipeline.OwnSemFacts.none _
  hbody c := (body_obligation3 (V6 m ρ) c).loose
  hwaits := Pipeline.hwaits_of_owed_zero _ _ _ _ L lv (3 : Fin 15) fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec3 c (V6 m ρ c)
  hentry c := by
    rw [Pipeline.ownSems0_none]
    have hsplit := Pipeline.arrays_of_unscopedBufs (p := (3 : Fin 15)) (pcfgs (F := F)) adm (pdats m ρ) launch3.win launch3.arr_whole c
      ((pdats m ρ (3 : Fin 15) c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (PhiIn3 (V6 m ρ) c)
    unfold Pipeline.ΦA
    iintro ⟨Hp, -, Hr⟩
    isplitl [Hr]; · iexact Hr
    iexact Hp
  hout c := by
    rw [Pipeline.ownSems0_none]
    refine BIBase.Entails.trans (PhiOut3 (V6 m ρ) c) ?_
    unfold Pipeline.ΦA
    iintro ⟨Hr, Hp⟩
    isplitl [Hp]; · iexact Hp
    isplitr; · iempintro
    iexact Hr
  hexit c := by
    have hjoin := Pipeline.unscopedBufs_of_arrays (p := (3 : Fin 15)) (pcfgs (F := F)) adm (Ix := Unit) (Name := ℕ) (U := UR sig nD τ) (Lvl := ℕ)
      launch3.win launch3.arr_whole c (pdats m ρ) ((pdats m ρ (3 : Fin 15) c).share_full fun _ => rfl)
      (V6 m ρ c) (V7 m ρ c) ((pdats m ρ (3 : Fin 15) c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KiReg4.lean ====
/- The run of @main: region 4 as a segment of the run, between the boundaries it is entered from and left at. -/
import proofs.«403491_j395136991532_1_alg».proof.Proof.Gen.KernelIdeal.Launch
import proofs.«403491_j395136991532_1_alg».proof.Proof.Gen.KernelIdeal.Skeleton
import proofs.«403491_j395136991532_1_alg».proof.Proof.Gen.KernelIdeal.Points
import proofs.«403491_j395136991532_1_alg».proof.Proof.KiFold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- the 97-operation host stretch's list and the membership facts over the production extents recurse past the default depth
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Region 4 of @main as a segment -/

-- a library lemma stated over the pinned configuration unifies with the printed one only when unification may unfold
-- plain definitions in a metavariable's type
set_option backward.isDefEq.respectTransparency.types false in
/-- REGION 4 over the thread state: entered from every unscoped buffer at `W7`, left at `W8`. Its arrays are split out
    of the unscoped buffers at entry and put back at the exit contents; the generator register goes into the region's
    invariant and comes back out of it; nothing is owed; the kernel has no semaphore of its own. -/
def reg4 : Pipeline.RegionSeg (pcfgs (F := F)) adm (pdats m ρ) () defs₀ 𝒱₀ L lv (4 : Fin 15) where
  win := launch4.win.to₀
  block_pos := launch4.block_pos
  stage_whole := launch4.stage_whole
  K := PEmpty
  osem k := k.elim
  ho := Pipeline.OwnSemFacts.none _
  hbody c := (body_obligation4 (V7 m ρ) c).loose
  hwaits := Pipeline.hwaits_of_owed_zero _ _ _ _ L lv (4 : Fin 15) fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec4 c (V7 m ρ c)
  hentry c := by
    rw [Pipeline.ownSems0_none]
    have hsplit := Pipeline.arrays_of_unscopedBufs (p := (4 : Fin 15)) (pcfgs (F := F)) adm (pdats m ρ) launch4.win launch4.arr_whole c
      ((pdats m ρ (4 : Fin 15) c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (PhiIn4 (V7 m ρ) c)
    unfold Pipeline.ΦA
    iintro ⟨Hp, -, Hr⟩
    isplitl [Hr]; · iexact Hr
    iexact Hp
  hout c := by
    rw [Pipeline.ownSems0_none]
    refine BIBase.Entails.trans (PhiOut4 (V7 m ρ) c) ?_
    unfold Pipeline.ΦA
    iintro ⟨Hr, Hp⟩
    isplitl [Hp]; · iexact Hp
    isplitr; · iempintro
    iexact Hr
  hexit c := by
    have hjoin := Pipeline.unscopedBufs_of_arrays (p := (4 : Fin 15)) (pcfgs (F := F)) adm (Ix := Unit) (Name := ℕ) (U := UR sig nD τ) (Lvl := ℕ)
      launch4.win launch4.arr_whole c (pdats m ρ) ((pdats m ρ (4 : Fin 15) c).share_full fun _ => rfl)
      (V7 m ρ c) (V8 m ρ c) ((pdats m ρ (4 : Fin 15) c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KiReg5.lean ====
/- The run of @main: region 5 as a segment of the run, between the boundaries it is entered from and left at. -/
import proofs.«403491_j395136991532_1_alg».proof.Proof.Gen.KernelIdeal.Launch
import proofs.«403491_j395136991532_1_alg».proof.Proof.Gen.KernelIdeal.Skeleton
import proofs.«403491_j395136991532_1_alg».proof.Proof.Gen.KernelIdeal.Points
import proofs.«403491_j395136991532_1_alg».proof.Proof.KiFold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- the 97-operation host stretch's list and the membership facts over the production extents recurse past the default depth
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Region 5 of @main as a segment -/

-- a library lemma stated over the pinned configuration unifies with the printed one only when unification may unfold
-- plain definitions in a metavariable's type
set_option backward.isDefEq.respectTransparency.types false in
/-- REGION 5 over the thread state: entered from every unscoped buffer at `W9`, left at `W10`. Its arrays are split out
    of the unscoped buffers at entry and put back at the exit contents; the generator register goes into the region's
    invariant and comes back out of it; nothing is owed; the kernel has no semaphore of its own. -/
def reg5 : Pipeline.RegionSeg (pcfgs (F := F)) adm (pdats m ρ) () defs₀ 𝒱₀ L lv (5 : Fin 15) where
  win := launch5.win.to₀
  block_pos := launch5.block_pos
  stage_whole := launch5.stage_whole
  K := PEmpty
  osem k := k.elim
  ho := Pipeline.OwnSemFacts.none _
  hbody c := (body_obligation5 (V9 m ρ) c).loose
  hwaits := Pipeline.hwaits_of_owed_zero _ _ _ _ L lv (5 : Fin 15) fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec5 c (V9 m ρ c)
  hentry c := by
    rw [Pipeline.ownSems0_none]
    have hsplit := Pipeline.arrays_of_unscopedBufs (p := (5 : Fin 15)) (pcfgs (F := F)) adm (pdats m ρ) launch5.win launch5.arr_whole c
      ((pdats m ρ (5 : Fin 15) c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (PhiIn5 (V9 m ρ) c)
    unfold Pipeline.ΦA
    iintro ⟨Hp, -, Hr⟩
    isplitl [Hr]; · iexact Hr
    iexact Hp
  hout c := by
    rw [Pipeline.ownSems0_none]
    refine BIBase.Entails.trans (PhiOut5 (V9 m ρ) c) ?_
    unfold Pipeline.ΦA
    iintro ⟨Hr, Hp⟩
    isplitl [Hp]; · iexact Hp
    isplitr; · iempintro
    iexact Hr
  hexit c := by
    have hjoin := Pipeline.unscopedBufs_of_arrays (p := (5 : Fin 15)) (pcfgs (F := F)) adm (Ix := Unit) (Name := ℕ) (U := UR sig nD τ) (Lvl := ℕ)
      launch5.win launch5.arr_whole c (pdats m ρ) ((pdats m ρ (5 : Fin 15) c).share_full fun _ => rfl)
      (V9 m ρ c) (V10 m ρ c) ((pdats m ρ (5 : Fin 15) c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KiReg6.lean ====
/- The run of @main: region 6 as a segment of the run, between the boundaries it is entered from and left at. -/
import proofs.«403491_j395136991532_1_alg».proof.Proof.Gen.KernelIdeal.Launch
import proofs.«403491_j395136991532_1_alg».proof.Proof.Gen.KernelIdeal.Skeleton
import proofs.«403491_j395136991532_1_alg».proof.Proof.Gen.KernelIdeal.Points
import proofs.«403491_j395136991532_1_alg».proof.Proof.KiFold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- the 97-operation host stretch's list and the membership facts over the production extents recurse past the default depth
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Region 6 of @main as a segment -/

-- a library lemma stated over the pinned configuration unifies with the printed one only when unification may unfold
-- plain definitions in a metavariable's type
set_option backward.isDefEq.respectTransparency.types false in
/-- REGION 6 over the thread state: entered from every unscoped buffer at `W11`, left at `W12`. Its arrays are split out
    of the unscoped buffers at entry and put back at the exit contents; the generator register goes into the region's
    invariant and comes back out of it; nothing is owed; the kernel has no semaphore of its own. -/
def reg6 : Pipeline.RegionSeg (pcfgs (F := F)) adm (pdats m ρ) () defs₀ 𝒱₀ L lv (6 : Fin 15) where
  win := launch6.win.to₀
  block_pos := launch6.block_pos
  stage_whole := launch6.stage_whole
  K := PEmpty
  osem k := k.elim
  ho := Pipeline.OwnSemFacts.none _
  hbody c := (body_obligation6 (V11 m ρ) c).loose
  hwaits := Pipeline.hwaits_of_owed_zero _ _ _ _ L lv (6 : Fin 15) fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec6 c (V11 m ρ c)
  hentry c := by
    rw [Pipeline.ownSems0_none]
    have hsplit := Pipeline.arrays_of_unscopedBufs (p := (6 : Fin 15)) (pcfgs (F := F)) adm (pdats m ρ) launch6.win launch6.arr_whole c
      ((pdats m ρ (6 : Fin 15) c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (PhiIn6 (V11 m ρ) c)
    unfold Pipeline.ΦA
    iintro ⟨Hp, -, Hr⟩
    isplitl [Hr]; · iexact Hr
    iexact Hp
  hout c := by
    rw [Pipeline.ownSems0_none]
    refine BIBase.Entails.trans (PhiOut6 (V11 m ρ) c) ?_
    unfold Pipeline.ΦA
    iintro ⟨Hr, Hp⟩
    isplitl [Hp]; · iexact Hp
    isplitr; · iempintro
    iexact Hr
  hexit c := by
    have hjoin := Pipeline.unscopedBufs_of_arrays (p := (6 : Fin 15)) (pcfgs (F := F)) adm (Ix := Unit) (Name := ℕ) (U := UR sig nD τ) (Lvl := ℕ)
      launch6.win launch6.arr_whole c (pdats m ρ) ((pdats m ρ (6 : Fin 15) c).share_full fun _ => rfl)
      (V11 m ρ c) (V12 m ρ c) ((pdats m ρ (6 : Fin 15) c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KiReg7.lean ====
/- The run of @main: region 7 as a segment of the run, between the boundaries it is entered from and left at. -/
import proofs.«403491_j395136991532_1_alg».proof.Proof.Gen.KernelIdeal.Launch
import proofs.«403491_j395136991532_1_alg».proof.Proof.Gen.KernelIdeal.Skeleton
import proofs.«403491_j395136991532_1_alg».proof.Proof.Gen.KernelIdeal.Points
import proofs.«403491_j395136991532_1_alg».proof.Proof.KiFold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- the 97-operation host stretch's list and the membership facts over the production extents recurse past the default depth
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Region 7 of @main as a segment -/

-- a library lemma stated over the pinned configuration unifies with the printed one only when unification may unfold
-- plain definitions in a metavariable's type
set_option backward.isDefEq.respectTransparency.types false in
/-- REGION 7 over the thread state: entered from every unscoped buffer at `W12`, left at `W13`. Its arrays are split out
    of the unscoped buffers at entry and put back at the exit contents; the generator register goes into the region's
    invariant and comes back out of it; nothing is owed; the kernel has no semaphore of its own. -/
def reg7 : Pipeline.RegionSeg (pcfgs (F := F)) adm (pdats m ρ) () defs₀ 𝒱₀ L lv (7 : Fin 15) where
  win := launch7.win.to₀
  block_pos := launch7.block_pos
  stage_whole := launch7.stage_whole
  K := PEmpty
  osem k := k.elim
  ho := Pipeline.OwnSemFacts.none _
  hbody c := (body_obligation7 (V12 m ρ) c).loose
  hwaits := Pipeline.hwaits_of_owed_zero _ _ _ _ L lv (7 : Fin 15) fun _ _ => rfl
  pre c := iprop(StableHlo.held (c : Thread nD τ) (Pipeline.ucRefs τ sig) (W12 m ρ c) ∗ R c)
  post c := iprop(StableHlo.held (c : Thread nD τ) (Pipeline.ucRefs τ sig) (W13 m ρ c) ∗ R c)
  X c := iprop(∃ r, prngReg c r)
  Y c := iprop(∃ r, prngReg c r)
  Z c := Pipeline.unscopedRest (Ix := Unit) (Name := ℕ) (U := UR sig nD τ) (Lvl := ℕ) spec7 c (V12 m ρ c)
  hentry c := by
    rw [Pipeline.ownSems0_none]
    have hsplit := Pipeline.arrays_of_unscopedBufs (p := (7 : Fin 15)) (pcfgs (F := F)) adm (pdats m ρ) launch7.win launch7.arr_whole c
      ((pdats m ρ (7 : Fin 15) c).share_full fun _ => rfl) (V12 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (PhiIn7 (V12 m ρ) c)
    unfold Pipeline.ΦA
    iintro ⟨Hp, -, Hr⟩
    isplitl [Hr]; · iexact Hr
    iexact Hp
  hout c := by
    rw [Pipeline.ownSems0_none]
    refine BIBase.Entails.trans (PhiOut7 (V12 m ρ) c) ?_
    unfold Pipeline.ΦA
    iintro ⟨Hr, Hp⟩
    isplitl [Hp]; · iexact Hp
    isplitr; · iempintro
    iexact Hr
  hexit c := by
    have hjoin := Pipeline.unscopedBufs_of_arrays (p := (7 : Fin 15)) (pcfgs (F := F)) adm (Ix := Unit) (Name := ℕ) (U := UR sig nD τ) (Lvl := ℕ)
      launch7.win launch7.arr_whole c (pdats m ρ) ((pdats m ρ (7 : Fin 15) c).share_full fun _ => rfl)
      (V12 m ρ c) (V13 m ρ c) ((pdats m ρ (7 : Fin 15) c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KiReg8.lean ====
/- The run of @main: region 8 as a segment of the run, between the boundaries it is entered from and left at. -/
import proofs.«403491_j395136991532_1_alg».proof.Proof.Gen.KernelIdeal.Launch
import proofs.«403491_j395136991532_1_alg».proof.Proof.Gen.KernelIdeal.Skeleton
import proofs.«403491_j395136991532_1_alg».proof.Proof.Gen.KernelIdeal.Points
import proofs.«403491_j395136991532_1_alg».proof.Proof.KiFold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- the 97-operation host stretch's list and the membership facts over the production extents recurse past the default depth
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Region 8 of @main as a segment -/

-- a library lemma stated over the pinned configuration unifies with the printed one only when unification may unfold
-- plain definitions in a metavariable's type
set_option backward.isDefEq.respectTransparency.types false in
/-- REGION 8 over the thread state: entered from every unscoped buffer at `W14`, left at `W15`. Its arrays are split out
    of the unscoped buffers at entry and put back at the exit contents; the generator register goes into the region's
    invariant and comes back out of it; nothing is owed; the kernel has no semaphore of its own. -/
def reg8 : Pipeline.RegionSeg (pcfgs (F := F)) adm (pdats m ρ) () defs₀ 𝒱₀ L lv (8 : Fin 15) where
  win := launch8.win.to₀
  block_pos := launch8.block_pos
  stage_whole := launch8.stage_whole
  K := PEmpty
  osem k := k.elim
  ho := Pipeline.OwnSemFacts.none _
  hbody c := (body_obligation8 (V14 m ρ) c).loose
  hwaits := Pipeline.hwaits_of_owed_zero _ _ _ _ L lv (8 : Fin 15) fun _ _ => rfl
  pre c := iprop(StableHlo.held (c : Thread nD τ) (Pipeline.ucRefs τ sig) (W14 m ρ c) ∗ R c)
  post c := iprop(StableHlo.held (c : Thread nD τ) (Pipeline.ucRefs τ sig) (W15 m ρ c) ∗ R c)
  X c := iprop(∃ r, prngReg c r)
  Y c := iprop(∃ r, prngReg c r)
  Z c := Pipeline.unscopedRest (Ix := Unit) (Name := ℕ) (U := UR sig nD τ) (Lvl := ℕ) spec8 c (V14 m ρ c)
  hentry c := by
    rw [Pipeline.ownSems0_none]
    have hsplit := Pipeline.arrays_of_unscopedBufs (p := (8 : Fin 15)) (pcfgs (F := F)) adm (pdats m ρ) launch8.win launch8.arr_whole c
      ((pdats m ρ (8 : Fin 15) c).share_full fun _ => rfl) (V14 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (PhiIn8 (V14 m ρ) c)
    unfold Pipeline.ΦA
    iintro ⟨Hp, -, Hr⟩
    isplitl [Hr]; · iexact Hr
    iexact Hp
  hout c := by
    rw [Pipeline.ownSems0_none]
    refine BIBase.Entails.trans (PhiOut8 (V14 m ρ) c) ?_
    unfold Pipeline.ΦA
    iintro ⟨Hr, Hp⟩
    isplitl [Hp]; · iexact Hp
    isplitr; · iempintro
    iexact Hr
  hexit c := by
    have hjoin := Pipeline.unscopedBufs_of_arrays (p := (8 : Fin 15)) (pcfgs (F := F)) adm (Ix := Unit) (Name := ℕ) (U := UR sig nD τ) (Lvl := ℕ)
      launch8.win launch8.arr_whole c (pdats m ρ) ((pdats m ρ (8 : Fin 15) c).share_full fun _ => rfl)
      (V14 m ρ c) (V15 m ρ c) ((pdats m ρ (8 : Fin 15) c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KiReg9.lean ====
/- The run of @main: region 9 as a segment of the run, between the boundaries it is entered from and left at. -/
import proofs.«403491_j395136991532_1_alg».proof.Proof.Gen.KernelIdeal.Launch
import proofs.«403491_j395136991532_1_alg».proof.Proof.Gen.KernelIdeal.Skeleton
import proofs.«403491_j395136991532_1_alg».proof.Proof.Gen.KernelIdeal.Points
import proofs.«403491_j395136991532_1_alg».proof.Proof.KiFold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- the 97-operation host stretch's list and the membership facts over the production extents recurse past the default depth
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Region 9 of @main as a segment -/

-- a library lemma stated over the pinned configuration unifies with the printed one only when unification may unfold
-- plain definitions in a metavariable's type
set_option backward.isDefEq.respectTransparency.types false in
/-- REGION 9 over the thread state: entered from every unscoped buffer at `W16`, left at `W17`. Its arrays are split out
    of the unscoped buffers at entry and put back at the exit contents; the generator register goes into the region's
    invariant and comes back out of it; nothing is owed; the kernel has no semaphore of its own. -/
def reg9 : Pipeline.RegionSeg (pcfgs (F := F)) adm (pdats m ρ) () defs₀ 𝒱₀ L lv (9 : Fin 15) where
  win := launch9.win.to₀
  block_pos := launch9.block_pos
  stage_whole := launch9.stage_whole
  K := PEmpty
  osem k := k.elim
  ho := Pipeline.OwnSemFacts.none _
  hbody c := (body_obligation9 (V16 m ρ) c).loose
  hwaits := Pipeline.hwaits_of_owed_zero _ _ _ _ L lv (9 : Fin 15) fun _ _ => rfl
  pre c := iprop(StableHlo.held (c : Thread nD τ) (Pipeline.ucRefs τ sig) (W16 m ρ c) ∗ R c)
  post c := iprop(StableHlo.held (c : Thread nD τ) (Pipeline.ucRefs τ sig) (W17 m ρ c) ∗ R c)
  X c := iprop(∃ r, prngReg c r)
  Y c := iprop(∃ r, prngReg c r)
  Z c := Pipeline.unscopedRest (Ix := Unit) (Name := ℕ) (U := UR sig nD τ) (Lvl := ℕ) spec9 c (V16 m ρ c)
  hentry c := by
    rw [Pipeline.ownSems0_none]
    have hsplit := Pipeline.arrays_of_unscopedBufs (p := (9 : Fin 15)) (pcfgs (F := F)) adm (pdats m ρ) launch9.win launch9.arr_whole c
      ((pdats m ρ (9 : Fin 15) c).share_full fun _ => rfl) (V16 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (PhiIn9 (V16 m ρ) c)
    unfold Pipeline.ΦA
    iintro ⟨Hp, -, Hr⟩
    isplitl [Hr]; · iexact Hr
    iexact Hp
  hout c := by
    rw [Pipeline.ownSems0_none]
    refine BIBase.Entails.trans (PhiOut9 (V16 m ρ) c) ?_
    unfold Pipeline.ΦA
    iintro ⟨Hr, Hp⟩
    isplitl [Hp]; · iexact Hp
    isplitr; · iempintro
    iexact Hr
  hexit c := by
    have hjoin := Pipeline.unscopedBufs_of_arrays (p := (9 : Fin 15)) (pcfgs (F := F)) adm (Ix := Unit) (Name := ℕ) (U := UR sig nD τ) (Lvl := ℕ)
      launch9.win launch9.arr_whole c (pdats m ρ) ((pdats m ρ (9 : Fin 15) c).share_full fun _ => rfl)
      (V16 m ρ c) (V17 m ρ c) ((pdats m ρ (9 : Fin 15) c).arrAt · cfg9.N) (hF9 m ρ c) (hrest9 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KiReg10.lean ====
/- The run of @main: region 10 as a segment of the run, between the boundaries it is entered from and left at. -/
import proofs.«403491_j395136991532_1_alg».proof.Proof.Gen.KernelIdeal.Launch
import proofs.«403491_j395136991532_1_alg».proof.Proof.Gen.KernelIdeal.Skeleton
import proofs.«403491_j395136991532_1_alg».proof.Proof.Gen.KernelIdeal.Points
import proofs.«403491_j395136991532_1_alg».proof.Proof.KiFold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- the 97-operation host stretch's list and the membership facts over the production extents recurse past the default depth
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Region 10 of @main as a segment -/

-- a library lemma stated over the pinned configuration unifies with the printed one only when unification may unfold
-- plain definitions in a metavariable's type
set_option backward.isDefEq.respectTransparency.types false in
/-- REGION 10 over the thread state: entered from every unscoped buffer at `W17`, left at `W18`. Its arrays are split out
    of the unscoped buffers at entry and put back at the exit contents; the generator register goes into the region's
    invariant and comes back out of it; nothing is owed; the kernel has no semaphore of its own. -/
def reg10 : Pipeline.RegionSeg (pcfgs (F := F)) adm (pdats m ρ) () defs₀ 𝒱₀ L lv (10 : Fin 15) where
  win := launch10.win.to₀
  block_pos := launch10.block_pos
  stage_whole := launch10.stage_whole
  K := PEmpty
  osem k := k.elim
  ho := Pipeline.OwnSemFacts.none _
  hbody c := (body_obligation10 (V17 m ρ) c).loose
  hwaits := Pipeline.hwaits_of_owed_zero _ _ _ _ L lv (10 : Fin 15) fun _ _ => rfl
  pre c := iprop(StableHlo.held (c : Thread nD τ) (Pipeline.ucRefs τ sig) (W17 m ρ c) ∗ R c)
  post c := iprop(StableHlo.held (c : Thread nD τ) (Pipeline.ucRefs τ sig) (W18 m ρ c) ∗ R c)
  X c := iprop(∃ r, prngReg c r)
  Y c := iprop(∃ r, prngReg c r)
  Z c := Pipeline.unscopedRest (Ix := Unit) (Name := ℕ) (U := UR sig nD τ) (Lvl := ℕ) spec10 c (V17 m ρ c)
  hentry c := by
    rw [Pipeline.ownSems0_none]
    have hsplit := Pipeline.arrays_of_unscopedBufs (p := (10 : Fin 15)) (pcfgs (F := F)) adm (pdats m ρ) launch10.win launch10.arr_whole c
      ((pdats m ρ (10 : Fin 15) c).share_full fun _ => rfl) (V17 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (PhiIn10 (V17 m ρ) c)
    unfold Pipeline.ΦA
    iintro ⟨Hp, -, Hr⟩
    isplitl [Hr]; · iexact Hr
    iexact Hp
  hout c := by
    rw [Pipeline.ownSems0_none]
    refine BIBase.Entails.trans (PhiOut10 (V17 m ρ) c) ?_
    unfold Pipeline.ΦA
    iintro ⟨Hr, Hp⟩
    isplitl [Hp]; · iexact Hp
    isplitr; · iempintro
    iexact Hr
  hexit c := by
    have hjoin := Pipeline.unscopedBufs_of_arrays (p := (10 : Fin 15)) (pcfgs (F := F)) adm (Ix := Unit) (Name := ℕ) (U := UR sig nD τ) (Lvl := ℕ)
      launch10.win launch10.arr_whole c (pdats m ρ) ((pdats m ρ (10 : Fin 15) c).share_full fun _ => rfl)
      (V17 m ρ c) (V18 m ρ c) ((pdats m ρ (10 : Fin 15) c).arrAt · cfg10.N) (hF10 m ρ c) (hrest10 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KiReg11.lean ====
/- The run of @main: region 11 as a segment of the run, between the boundaries it is entered from and left at. -/
import proofs.«403491_j395136991532_1_alg».proof.Proof.Gen.KernelIdeal.Launch
import proofs.«403491_j395136991532_1_alg».proof.Proof.Gen.KernelIdeal.Skeleton
import proofs.«403491_j395136991532_1_alg».proof.Proof.Gen.KernelIdeal.Points
import proofs.«403491_j395136991532_1_alg».proof.Proof.KiFold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- the 97-operation host stretch's list and the membership facts over the production extents recurse past the default depth
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Region 11 of @main as a segment -/

-- a library lemma stated over the pinned configuration unifies with the printed one only when unification may unfold
-- plain definitions in a metavariable's type
set_option backward.isDefEq.respectTransparency.types false in
/-- REGION 11 over the thread state: entered from every unscoped buffer at `W19`, left at `W20`. Its arrays are split out
    of the unscoped buffers at entry and put back at the exit contents; the generator register goes into the region's
    invariant and comes back out of it; nothing is owed; the kernel has no semaphore of its own. -/
def reg11 : Pipeline.RegionSeg (pcfgs (F := F)) adm (pdats m ρ) () defs₀ 𝒱₀ L lv (11 : Fin 15) where
  win := launch11.win.to₀
  block_pos := launch11.block_pos
  stage_whole := launch11.stage_whole
  K := PEmpty
  osem k := k.elim
  ho := Pipeline.OwnSemFacts.none _
  hbody c := (body_obligation11 (V19 m ρ) c).loose
  hwaits := Pipeline.hwaits_of_owed_zero _ _ _ _ L lv (11 : Fin 15) fun _ _ => rfl
  pre c := iprop(StableHlo.held (c : Thread nD τ) (Pipeline.ucRefs τ sig) (W19 m ρ c) ∗ R c)
  post c := iprop(StableHlo.held (c : Thread nD τ) (Pipeline.ucRefs τ sig) (W20 m ρ c) ∗ R c)
  X c := iprop(∃ r, prngReg c r)
  Y c := iprop(∃ r, prngReg c r)
  Z c := Pipeline.unscopedRest (Ix := Unit) (Name := ℕ) (U := UR sig nD τ) (Lvl := ℕ) spec11 c (V19 m ρ c)
  hentry c := by
    rw [Pipeline.ownSems0_none]
    have hsplit := Pipeline.arrays_of_unscopedBufs (p := (11 : Fin 15)) (pcfgs (F := F)) adm (pdats m ρ) launch11.win launch11.arr_whole c
      ((pdats m ρ (11 : Fin 15) c).share_full fun _ => rfl) (V19 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (PhiIn11 (V19 m ρ) c)
    unfold Pipeline.ΦA
    iintro ⟨Hp, -, Hr⟩
    isplitl [Hr]; · iexact Hr
    iexact Hp
  hout c := by
    rw [Pipeline.ownSems0_none]
    refine BIBase.Entails.trans (PhiOut11 (V19 m ρ) c) ?_
    unfold Pipeline.ΦA
    iintro ⟨Hr, Hp⟩
    isplitl [Hp]; · iexact Hp
    isplitr; · iempintro
    iexact Hr
  hexit c := by
    have hjoin := Pipeline.unscopedBufs_of_arrays (p := (11 : Fin 15)) (pcfgs (F := F)) adm (Ix := Unit) (Name := ℕ) (U := UR sig nD τ) (Lvl := ℕ)
      launch11.win launch11.arr_whole c (pdats m ρ) ((pdats m ρ (11 : Fin 15) c).share_full fun _ => rfl)
      (V19 m ρ c) (V20 m ρ c) ((pdats m ρ (11 : Fin 15) c).arrAt · cfg11.N) (hF11 m ρ c) (hrest11 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KiReg12.lean ====
/- The run of @main: region 12 as a segment of the run, between the boundaries it is entered from and left at. -/
import proofs.«403491_j395136991532_1_alg».proof.Proof.Gen.KernelIdeal.Launch
import proofs.«403491_j395136991532_1_alg».proof.Proof.Gen.KernelIdeal.Skeleton
import proofs.«403491_j395136991532_1_alg».proof.Proof.Gen.KernelIdeal.Points
import proofs.«403491_j395136991532_1_alg».proof.Proof.KiFold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- the 97-operation host stretch's list and the membership facts over the production extents recurse past the default depth
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Region 12 of @main as a segment -/

-- a library lemma stated over the pinned configuration unifies with the printed one only when unification may unfold
-- plain definitions in a metavariable's type
set_option backward.isDefEq.respectTransparency.types false in
/-- REGION 12 over the thread state: entered from every unscoped buffer at `W21`, left at `W22`. Its arrays are split out
    of the unscoped buffers at entry and put back at the exit contents; the generator register goes into the region's
    invariant and comes back out of it; nothing is owed; the kernel has no semaphore of its own. -/
def reg12 : Pipeline.RegionSeg (pcfgs (F := F)) adm (pdats m ρ) () defs₀ 𝒱₀ L lv (12 : Fin 15) where
  win := launch12.win.to₀
  block_pos := launch12.block_pos
  stage_whole := launch12.stage_whole
  K := PEmpty
  osem k := k.elim
  ho := Pipeline.OwnSemFacts.none _
  hbody c := (body_obligation12 (V21 m ρ) c).loose
  hwaits := Pipeline.hwaits_of_owed_zero _ _ _ _ L lv (12 : Fin 15) fun _ _ => rfl
  pre c := iprop(StableHlo.held (c : Thread nD τ) (Pipeline.ucRefs τ sig) (W21 m ρ c) ∗ R c)
  post c := iprop(StableHlo.held (c : Thread nD τ) (Pipeline.ucRefs τ sig) (W22 m ρ c) ∗ R c)
  X c := iprop(∃ r, prngReg c r)
  Y c := iprop(∃ r, prngReg c r)
  Z c := Pipeline.unscopedRest (Ix := Unit) (Name := ℕ) (U := UR sig nD τ) (Lvl := ℕ) spec12 c (V21 m ρ c)
  hentry c := by
    rw [Pipeline.ownSems0_none]
    have hsplit := Pipeline.arrays_of_unscopedBufs (p := (12 : Fin 15)) (pcfgs (F := F)) adm (pdats m ρ) launch12.win launch12.arr_whole c
      ((pdats m ρ (12 : Fin 15) c).share_full fun _ => rfl) (V21 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (PhiIn12 (V21 m ρ) c)
    unfold Pipeline.ΦA
    iintro ⟨Hp, -, Hr⟩
    isplitl [Hr]; · iexact Hr
    iexact Hp
  hout c := by
    rw [Pipeline.ownSems0_none]
    refine BIBase.Entails.trans (PhiOut12 (V21 m ρ) c) ?_
    unfold Pipeline.ΦA
    iintro ⟨Hr, Hp⟩
    isplitl [Hp]; · iexact Hp
    isplitr; · iempintro
    iexact Hr
  hexit c := by
    have hjoin := Pipeline.unscopedBufs_of_arrays (p := (12 : Fin 15)) (pcfgs (F := F)) adm (Ix := Unit) (Name := ℕ) (U := UR sig nD τ) (Lvl := ℕ)
      launch12.win launch12.arr_whole c (pdats m ρ) ((pdats m ρ (12 : Fin 15) c).share_full fun _ => rfl)
      (V21 m ρ c) (V22 m ρ c) ((pdats m ρ (12 : Fin 15) c).arrAt · cfg12.N) (hF12 m ρ c) (hrest12 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KiReg13.lean ====
/- The run of @main: region 13 as a segment of the run, between the boundaries it is entered from and left at. -/
import proofs.«403491_j395136991532_1_alg».proof.Proof.Gen.KernelIdeal.Launch
import proofs.«403491_j395136991532_1_alg».proof.Proof.Gen.KernelIdeal.Skeleton
import proofs.«403491_j395136991532_1_alg».proof.Proof.Gen.KernelIdeal.Points
import proofs.«403491_j395136991532_1_alg».proof.Proof.KiFold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- the 97-operation host stretch's list and the membership facts over the production extents recurse past the default depth
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Region 13 of @main as a segment -/

-- a library lemma stated over the pinned configuration unifies with the printed one only when unification may unfold
-- plain definitions in a metavariable's type
set_option backward.isDefEq.respectTransparency.types false in
/-- REGION 13 over the thread state: entered from every unscoped buffer at `W23`, left at `W24`. Its arrays are split out
    of the unscoped buffers at entry and put back at the exit contents; the generator register goes into the region's
    invariant and comes back out of it; nothing is owed; the kernel has no semaphore of its own. -/
def reg13 : Pipeline.RegionSeg (pcfgs (F := F)) adm (pdats m ρ) () defs₀ 𝒱₀ L lv (13 : Fin 15) where
  win := launch13.win.to₀
  block_pos := launch13.block_pos
  stage_whole := launch13.stage_whole
  K := PEmpty
  osem k := k.elim
  ho := Pipeline.OwnSemFacts.none _
  hbody c := (body_obligation13 (V23 m ρ) c).loose
  hwaits := Pipeline.hwaits_of_owed_zero _ _ _ _ L lv (13 : Fin 15) fun _ _ => rfl
  pre c := iprop(StableHlo.held (c : Thread nD τ) (Pipeline.ucRefs τ sig) (W23 m ρ c) ∗ R c)
  post c := iprop(StableHlo.held (c : Thread nD τ) (Pipeline.ucRefs τ sig) (W24 m ρ c) ∗ R c)
  X c := iprop(∃ r, prngReg c r)
  Y c := iprop(∃ r, prngReg c r)
  Z c := Pipeline.unscopedRest (Ix := Unit) (Name := ℕ) (U := UR sig nD τ) (Lvl := ℕ) spec13 c (V23 m ρ c)
  hentry c := by
    rw [Pipeline.ownSems0_none]
    have hsplit := Pipeline.arrays_of_unscopedBufs (p := (13 : Fin 15)) (pcfgs (F := F)) adm (pdats m ρ) launch13.win launch13.arr_whole c
      ((pdats m ρ (13 : Fin 15) c).share_full fun _ => rfl) (V23 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (PhiIn13 (V23 m ρ) c)
    unfold Pipeline.ΦA
    iintro ⟨Hp, -, Hr⟩
    isplitl [Hr]; · iexact Hr
    iexact Hp
  hout c := by
    rw [Pipeline.ownSems0_none]
    refine BIBase.Entails.trans (PhiOut13 (V23 m ρ) c) ?_
    unfold Pipeline.ΦA
    iintro ⟨Hr, Hp⟩
    isplitl [Hp]; · iexact Hp
    isplitr; · iempintro
    iexact Hr
  hexit c := by
    have hjoin := Pipeline.unscopedBufs_of_arrays (p := (13 : Fin 15)) (pcfgs (F := F)) adm (Ix := Unit) (Name := ℕ) (U := UR sig nD τ) (Lvl := ℕ)
      launch13.win launch13.arr_whole c (pdats m ρ) ((pdats m ρ (13 : Fin 15) c).share_full fun _ => rfl)
      (V23 m ρ c) (V24 m ρ c) ((pdats m ρ (13 : Fin 15) c).arrAt · cfg13.N) (hF13 m ρ c) (hrest13 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KiReg14.lean ====
/- The run of @main: region 14 as a segment of the run, between the boundaries it is entered from and left at. -/
import proofs.«403491_j395136991532_1_alg».proof.Proof.Gen.KernelIdeal.Launch
import proofs.«403491_j395136991532_1_alg».proof.Proof.Gen.KernelIdeal.Skeleton
import proofs.«403491_j395136991532_1_alg».proof.Proof.Gen.KernelIdeal.Points
import proofs.«403491_j395136991532_1_alg».proof.Proof.KiFold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- the 97-operation host stretch's list and the membership facts over the production extents recurse past the default depth
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Region 14 of @main as a segment -/

-- a library lemma stated over the pinned configuration unifies with the printed one only when unification may unfold
-- plain definitions in a metavariable's type
set_option backward.isDefEq.respectTransparency.types false in
/-- REGION 14 over the thread state: entered from every unscoped buffer at `W25`, left at `W26`. Its arrays are split out
    of the unscoped buffers at entry and put back at the exit contents; the generator register goes into the region's
    invariant and comes back out of it; nothing is owed; the kernel has no semaphore of its own. -/
def reg14 : Pipeline.RegionSeg (pcfgs (F := F)) adm (pdats m ρ) () defs₀ 𝒱₀ L lv (14 : Fin 15) where
  win := launch14.win.to₀
  block_pos := launch14.block_pos
  stage_whole := launch14.stage_whole
  K := PEmpty
  osem k := k.elim
  ho := Pipeline.OwnSemFacts.none _
  hbody c := (body_obligation14 (V25 m ρ) c).loose
  hwaits := Pipeline.hwaits_of_owed_zero _ _ _ _ L lv (14 : Fin 15) fun _ _ => rfl
  pre c := iprop(StableHlo.held (c : Thread nD τ) (Pipeline.ucRefs τ sig) (W25 m ρ c) ∗ R c)
  post c := iprop(StableHlo.held (c : Thread nD τ) (Pipeline.ucRefs τ sig) (W26 m ρ c) ∗ R c)
  X c := iprop(∃ r, prngReg c r)
  Y c := iprop(∃ r, prngReg c r)
  Z c := Pipeline.unscopedRest (Ix := Unit) (Name := ℕ) (U := UR sig nD τ) (Lvl := ℕ) spec14 c (V25 m ρ c)
  hentry c := by
    rw [Pipeline.ownSems0_none]
    have hsplit := Pipeline.arrays_of_unscopedBufs (p := (14 : Fin 15)) (pcfgs (F := F)) adm (pdats m ρ) launch14.win launch14.arr_whole c
      ((pdats m ρ (14 : Fin 15) c).share_full fun _ => rfl) (V25 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (PhiIn14 (V25 m ρ) c)
    unfold Pipeline.ΦA
    iintro ⟨Hp, -, Hr⟩
    isplitl [Hr]; · iexact Hr
    iexact Hp
  hout c := by
    rw [Pipeline.ownSems0_none]
    refine BIBase.Entails.trans (PhiOut14 (V25 m ρ) c) ?_
    unfold Pipeline.ΦA
    iintro ⟨Hr, Hp⟩
    isplitl [Hp]; · iexact Hp
    isplitr; · iempintro
    iexact Hr
  hexit c := by
    have hjoin := Pipeline.unscopedBufs_of_arrays (p := (14 : Fin 15)) (pcfgs (F := F)) adm (Ix := Unit) (Name := ℕ) (U := UR sig nD τ) (Lvl := ℕ)
      launch14.win launch14.arr_whole c (pdats m ρ) ((pdats m ρ (14 : Fin 15) c).share_full fun _ => rfl)
      (V25 m ρ c) (V26 m ρ c) ((pdats m ρ (14 : Fin 15) c).arrAt · cfg14.N) (hF14 m ρ c) (hrest14 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KiArgs.lean ====
/- The run of @main: the 32 argument arrays hold at the last boundary what they held at launch. -/
import proofs.«403491_j395136991532_1_alg».proof.Proof.Gen.KernelIdeal.Launch
import proofs.«403491_j395136991532_1_alg».proof.Proof.Gen.KernelIdeal.Skeleton
import proofs.«403491_j395136991532_1_alg».proof.Proof.Gen.KernelIdeal.Points
import proofs.«403491_j395136991532_1_alg».proof.Proof.KiFold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- the 97-operation host stretch's list and the membership facts over the production extents recurse past the default depth
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The arguments end as launched

No host operation writes an argument array and no region stages one through a window, so the fold read at an
argument's buffer walks back, boundary by boundary, to the launch memory. The 32 arguments are taken together, as
the members of one list of references. -/

/-- @main's 32 argument arrays. -/
abbrev argRefs : List (Ref sig .tc) :=
  [main_arg0, main_arg1, main_arg2, main_arg3, main_arg4, main_arg5, main_arg6, main_arg7, main_arg8, main_arg9, main_arg10,
   main_arg11, main_arg12, main_arg13, main_arg14, main_arg15, main_arg16, main_arg17, main_arg18, main_arg19, main_arg20,
   main_arg21, main_arg22, main_arg23, main_arg24, main_arg25, main_arg26, main_arg27, main_arg28, main_arg29, main_arg30,
   main_arg31]

/-! ## No window of any region has an argument for its array -/

theorem arr0_ne (b : Ref sig .tc) (hb : b ∈ argRefs) : ∀ w, Pipeline.arrRef spec0 w ≠ b :=
  fun w e => (by decide : ∀ w, Pipeline.arrRef spec0 w ∉ argRefs) w (e ▸ hb)
theorem arr1_ne (b : Ref sig .tc) (hb : b ∈ argRefs) : ∀ w, Pipeline.arrRef spec1 w ≠ b :=
  fun w e => (by decide : ∀ w, Pipeline.arrRef spec1 w ∉ argRefs) w (e ▸ hb)
theorem arr2_ne (b : Ref sig .tc) (hb : b ∈ argRefs) : ∀ w, Pipeline.arrRef spec2 w ≠ b :=
  fun w e => (by decide : ∀ w, Pipeline.arrRef spec2 w ∉ argRefs) w (e ▸ hb)
theorem arr3_ne (b : Ref sig .tc) (hb : b ∈ argRefs) : ∀ w, Pipeline.arrRef spec3 w ≠ b :=
  fun w e => (by decide : ∀ w, Pipeline.arrRef spec3 w ∉ argRefs) w (e ▸ hb)
theorem arr4_ne (b : Ref sig .tc) (hb : b ∈ argRefs) : ∀ w, Pipeline.arrRef spec4 w ≠ b :=
  fun w e => (by decide : ∀ w, Pipeline.arrRef spec4 w ∉ argRefs) w (e ▸ hb)
theorem arr5_ne (b : Ref sig .tc) (hb : b ∈ argRefs) : ∀ w, Pipeline.arrRef spec5 w ≠ b :=
  fun w e => (by decide : ∀ w, Pipeline.arrRef spec5 w ∉ argRefs) w (e ▸ hb)
theorem arr6_ne (b : Ref sig .tc) (hb : b ∈ argRefs) : ∀ w, Pipeline.arrRef spec6 w ≠ b :=
  fun w e => (by decide : ∀ w, Pipeline.arrRef spec6 w ∉ argRefs) w (e ▸ hb)
theorem arr7_ne (b : Ref sig .tc) (hb : b ∈ argRefs) : ∀ w, Pipeline.arrRef spec7 w ≠ b :=
  fun w e => (by decide : ∀ w, Pipeline.arrRef spec7 w ∉ argRefs) w (e ▸ hb)
theorem arr8_ne (b : Ref sig .tc) (hb : b ∈ argRefs) : ∀ w, Pipeline.arrRef spec8 w ≠ b :=
  fun w e => (by decide : ∀ w, Pipeline.arrRef spec8 w ∉ argRefs) w (e ▸ hb)
theorem arr9_ne (b : Ref sig .tc) (hb : b ∈ argRefs) : ∀ w, Pipeline.arrRef spec9 w ≠ b :=
  fun w e => (by decide : ∀ w, Pipeline.arrRef spec9 w ∉ argRefs) w (e ▸ hb)
theorem arr10_ne (b : Ref sig .tc) (hb : b ∈ argRefs) : ∀ w, Pipeline.arrRef spec10 w ≠ b :=
  fun w e => (by decide : ∀ w, Pipeline.arrRef spec10 w ∉ argRefs) w (e ▸ hb)
theorem arr11_ne (b : Ref sig .tc) (hb : b ∈ argRefs) : ∀ w, Pipeline.arrRef spec11 w ≠ b :=
  fun w e => (by decide : ∀ w, Pipeline.arrRef spec11 w ∉ argRefs) w (e ▸ hb)
theorem arr12_ne (b : Ref sig .tc) (hb : b ∈ argRefs) : ∀ w, Pipeline.arrRef spec12 w ≠ b :=
  fun w e => (by decide : ∀ w, Pipeline.arrRef spec12 w ∉ argRefs) w (e ▸ hb)
theorem arr13_ne (b : Ref sig .tc) (hb : b ∈ argRefs) : ∀ w, Pipeline.arrRef spec13 w ≠ b :=
  fun w e => (by decide : ∀ w, Pipeline.arrRef spec13 w ∉ argRefs) w (e ▸ hb)
theorem arr14_ne (b : Ref sig .tc) (hb : b ∈ argRefs) : ∀ w, Pipeline.arrRef spec14 w ≠ b :=
  fun w e => (by decide : ∀ w, Pipeline.arrRef spec14 w ∉ argRefs) w (e ▸ hb)

/-! ## No host operation writes an argument: each stretch's operations write one buffer each, none of them an argument -/

set_option maxHeartbeats 4000000 in
theorem hostOps0_keeps (b : Ref sig .tc) (hb : b ∈ argRefs) :
    ∀ op ∈ (hostOps0 : List (HloOp τ sig (Elt F))), (Proc.devRef .tc b : DevRef τ sig) ∉ op.writes :=
  List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (ne_of_mem_of_not_mem hb (by decide)))

set_option maxHeartbeats 1000000 in
theorem hostOps2_keeps (b : Ref sig .tc) (hb : b ∈ argRefs) :
    ∀ op ∈ (hostOps2 : List (HloOp τ sig (Elt F))), (Proc.devRef .tc b : DevRef τ sig) ∉ op.writes :=
  List.forall_iff_forall_mem.mp (by
    simp only [hostOps2, List.flatten_cons, List.flatten_nil, List.append_nil, List.cons_append, List.nil_append, List.Forall,
      StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (ne_of_mem_of_not_mem hb (by decide)))

set_option maxHeartbeats 1000000 in
theorem hostOps3_keeps (b : Ref sig .tc) (hb : b ∈ argRefs) :
    ∀ op ∈ (hostOps3 : List (HloOp τ sig (Elt F))), (Proc.devRef .tc b : DevRef τ sig) ∉ op.writes :=
  List.forall_iff_forall_mem.mp (by
    simp only [hostOps3, List.flatten_cons, List.flatten_nil, List.append_nil, List.cons_append, List.nil_append, List.Forall,
      StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (ne_of_mem_of_not_mem hb (by decide)))

set_option maxHeartbeats 1000000 in
theorem hostOps5_keeps (b : Ref sig .tc) (hb : b ∈ argRefs) :
    ∀ op ∈ (hostOps5 : List (HloOp τ sig (Elt F))), (Proc.devRef .tc b : DevRef τ sig) ∉ op.writes :=
  List.forall_iff_forall_mem.mp (by
    simp only [hostOps5, List.flatten_cons, List.flatten_nil, List.append_nil, List.cons_append, List.nil_append, List.Forall,
      StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (ne_of_mem_of_not_mem hb (by decide)))

set_option maxHeartbeats 1000000 in
theorem hostOps6_keeps (b : Ref sig .tc) (hb : b ∈ argRefs) :
    ∀ op ∈ (hostOps6 : List (HloOp τ sig (Elt F))), (Proc.devRef .tc b : DevRef τ sig) ∉ op.writes :=
  List.forall_iff_forall_mem.mp (by
    simp only [hostOps6, List.flatten_cons, List.flatten_nil, List.append_nil, List.cons_append, List.nil_append, List.Forall,
      StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (ne_of_mem_of_not_mem hb (by decide)))

set_option maxHeartbeats 1000000 in
theorem hostOps8_keeps (b : Ref sig .tc) (hb : b ∈ argRefs) :
    ∀ op ∈ (hostOps8 : List (HloOp τ sig (Elt F))), (Proc.devRef .tc b : DevRef τ sig) ∉ op.writes :=
  List.forall_iff_forall_mem.mp (by
    simp only [hostOps8, List.flatten_cons, List.flatten_nil, List.append_nil, List.cons_append, List.nil_append, List.Forall,
      StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (ne_of_mem_of_not_mem hb (by decide)))

set_option maxHeartbeats 1000000 in
theorem hostOps9_keeps (b : Ref sig .tc) (hb : b ∈ argRefs) :
    ∀ op ∈ (hostOps9 : List (HloOp τ sig (Elt F))), (Proc.devRef .tc b : DevRef τ sig) ∉ op.writes :=
  List.forall_iff_forall_mem.mp (by
    simp only [hostOps9, List.flatten_cons, List.flatten_nil, List.append_nil, List.cons_append, List.nil_append, List.Forall,
      StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (ne_of_mem_of_not_mem hb (by decide)))

set_option maxHeartbeats 1000000 in
theorem hostOps11_keeps (b : Ref sig .tc) (hb : b ∈ argRefs) :
    ∀ op ∈ (hostOps11 : List (HloOp τ sig (Elt F))), (Proc.devRef .tc b : DevRef τ sig) ∉ op.writes :=
  List.forall_iff_forall_mem.mp (by
    simp only [hostOps11, List.flatten_cons, List.flatten_nil, List.append_nil, List.cons_append, List.nil_append, List.Forall,
      StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (ne_of_mem_of_not_mem hb (by decide)))

set_option maxHeartbeats 1000000 in
theorem hostOps12_keeps (b : Ref sig .tc) (hb : b ∈ argRefs) :
    ∀ op ∈ (hostOps12 : List (HloOp τ sig (Elt F))), (Proc.devRef .tc b : DevRef τ sig) ∉ op.writes :=
  List.forall_iff_forall_mem.mp (by
    simp only [hostOps12, List.flatten_cons, List.flatten_nil, List.append_nil, List.cons_append, List.nil_append, List.Forall,
      StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (ne_of_mem_of_not_mem hb (by decide)))

set_option maxHeartbeats 1000000 in
theorem hostOps13_keeps (b : Ref sig .tc) (hb : b ∈ argRefs) :
    ∀ op ∈ (hostOps13 : List (HloOp τ sig (Elt F))), (Proc.devRef .tc b : DevRef τ sig) ∉ op.writes :=
  List.forall_iff_forall_mem.mp (by
    simp only [hostOps13, List.flatten_cons, List.flatten_nil, List.append_nil, List.cons_append, List.nil_append, List.Forall,
      StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (ne_of_mem_of_not_mem hb (by decide)))

set_option maxHeartbeats 1000000 in
theorem hostOps14_keeps (b : Ref sig .tc) (hb : b ∈ argRefs) :
    ∀ op ∈ (hostOps14 : List (HloOp τ sig (Elt F))), (Proc.devRef .tc b : DevRef τ sig) ∉ op.writes :=
  List.forall_iff_forall_mem.mp (by
    simp only [hostOps14, List.flatten_cons, List.flatten_nil, List.append_nil, List.cons_append, List.nil_append, List.Forall,
      StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (ne_of_mem_of_not_mem hb (by decide)))

/-- At the last boundary an argument's buffer holds what it held at launch. -/
theorem W26_arg (c : Dev nD) (b : Ref sig .tc) (hb : b ∈ argRefs) :
    W26 m ρ c (Proc.devRef .tc b) = m ((c : Thread nD τ).loc b) :=
  calc W26 m ρ c (Proc.devRef .tc b)
    _ = W25 m ρ c (Proc.devRef .tc b) := W26_of_ne m ρ c b (arr14_ne b hb)
    _ = W24 m ρ c (Proc.devRef .tc b) := StableHlo.after_of_forall_not_mem _ _ (hostOps14_keeps b hb)
    _ = W23 m ρ c (Proc.devRef .tc b) := W24_of_ne m ρ c b (arr13_ne b hb)
    _ = W22 m ρ c (Proc.devRef .tc b) := StableHlo.after_of_forall_not_mem _ _ (hostOps13_keeps b hb)
    _ = W21 m ρ c (Proc.devRef .tc b) := W22_of_ne m ρ c b (arr12_ne b hb)
    _ = W20 m ρ c (Proc.devRef .tc b) := StableHlo.after_of_forall_not_mem _ _ (hostOps12_keeps b hb)
    _ = W19 m ρ c (Proc.devRef .tc b) := W20_of_ne m ρ c b (arr11_ne b hb)
    _ = W18 m ρ c (Proc.devRef .tc b) := StableHlo.after_of_forall_not_mem _ _ (hostOps11_keeps b hb)
    _ = W17 m ρ c (Proc.devRef .tc b) := W18_of_ne m ρ c b (arr10_ne b hb)
    _ = W16 m ρ c (Proc.devRef .tc b) := W17_of_ne m ρ c b (arr9_ne b hb)
    _ = W15 m ρ c (Proc.devRef .tc b) := StableHlo.after_of_forall_not_mem _ _ (hostOps9_keeps b hb)
    _ = W14 m ρ c (Proc.devRef .tc b) := W15_of_ne m ρ c b (arr8_ne b hb)
    _ = W13 m ρ c (Proc.devRef .tc b) := StableHlo.after_of_forall_not_mem _ _ (hostOps8_keeps b hb)
    _ = W12 m ρ c (Proc.devRef .tc b) := W13_of_ne m ρ c b (arr7_ne b hb)
    _ = W11 m ρ c (Proc.devRef .tc b) := W12_of_ne m ρ c b (arr6_ne b hb)
    _ = W10 m ρ c (Proc.devRef .tc b) := StableHlo.after_of_forall_not_mem _ _ (hostOps6_keeps b hb)
    _ = W9 m ρ c (Proc.devRef .tc b) := W10_of_ne m ρ c b (arr5_ne b hb)
    _ = W8 m ρ c (Proc.devRef .tc b) := StableHlo.after_of_forall_not_mem _ _ (hostOps5_keeps b hb)
    _ = W7 m ρ c (Proc.devRef .tc b) := W8_of_ne m ρ c b (arr4_ne b hb)
    _ = W6 m ρ c (Proc.devRef .tc b) := W7_of_ne m ρ c b (arr3_ne b hb)
    _ = W5 m ρ c (Proc.devRef .tc b) := StableHlo.after_of_forall_not_mem _ _ (hostOps3_keeps b hb)
    _ = W4 m ρ c (Proc.devRef .tc b) := W5_of_ne m ρ c b (arr2_ne b hb)
    _ = W3 m ρ c (Proc.devRef .tc b) := StableHlo.after_of_forall_not_mem _ _ (hostOps2_keeps b hb)
    _ = W2 m ρ c (Proc.devRef .tc b) := W3_of_ne m ρ c b (arr1_ne b hb)
    _ = W1 m ρ c (Proc.devRef .tc b) := W2_of_ne m ρ c b (arr0_ne b hb)
    _ = W0 m ρ c (Proc.devRef .tc b) := StableHlo.after_of_forall_not_mem _ _ (hostOps0_keeps b hb)
    _ = m ((c : Thread nD τ).loc b) := rfl

end Cert.KernelIdeal.Hand

end
-- ==== Proof.KiRun.lean ====
/- The run of @main: its 26 segments in order, @main as their run, the launch over them, and the frame read off the run. -/
import proofs.«403491_j395136991532_1_alg».proof.Proof.Gen.KernelIdeal.Launch
import proofs.«403491_j395136991532_1_alg».proof.Proof.Gen.KernelIdeal.Skeleton
import proofs.«403491_j395136991532_1_alg».proof.Proof.Gen.KernelIdeal.Points
import proofs.«403491_j395136991532_1_alg».proof.Proof.KiReg0
import proofs.«403491_j395136991532_1_alg».proof.Proof.KiReg1
import proofs.«403491_j395136991532_1_alg».proof.Proof.KiReg2
import proofs.«403491_j395136991532_1_alg».proof.Proof.KiReg3
import proofs.«403491_j395136991532_1_alg».proof.Proof.KiReg4
import proofs.«403491_j395136991532_1_alg».proof.Proof.KiReg5
import proofs.«403491_j395136991532_1_alg».proof.Proof.KiReg6
import proofs.«403491_j395136991532_1_alg».proof.Proof.KiReg7
import proofs.«403491_j395136991532_1_alg».proof.Proof.KiReg8
import proofs.«403491_j395136991532_1_alg».proof.Proof.KiReg9
import proofs.«403491_j395136991532_1_alg».proof.Proof.KiReg10
import proofs.«403491_j395136991532_1_alg».proof.Proof.KiReg11
import proofs.«403491_j395136991532_1_alg».proof.Proof.KiReg12
import proofs.«403491_j395136991532_1_alg».proof.Proof.KiReg13
import proofs.«403491_j395136991532_1_alg».proof.Proof.KiReg14
import proofs.«403491_j395136991532_1_alg».proof.Proof.KiArgs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- the 97-operation host stretch's list and the membership facts over the production extents recurse past the default depth
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # @main as segments, and the launch -/

/-- @main's 26 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)),
    .region (reg2 m ρ),
    .host (hseg hostOps3 hostOps3_sub hostOps3_fresh (W5 m ρ)),
    .region (reg3 m ρ),
    .region (reg4 m ρ),
    .host (hseg hostOps5 hostOps5_sub hostOps5_fresh (W8 m ρ)),
    .region (reg5 m ρ),
    .host (hseg hostOps6 hostOps6_sub hostOps6_fresh (W10 m ρ)),
    .region (reg6 m ρ),
    .region (reg7 m ρ),
    .host (hseg hostOps8 hostOps8_sub hostOps8_fresh (W13 m ρ)),
    .region (reg8 m ρ),
    .host (hseg hostOps9 hostOps9_sub hostOps9_fresh (W15 m ρ)),
    .region (reg9 m ρ),
    .region (reg10 m ρ),
    .host (hseg hostOps11 hostOps11_sub hostOps11_fresh (W18 m ρ)),
    .region (reg11 m ρ),
    .host (hseg hostOps12 hostOps12_sub hostOps12_fresh (W20 m ρ)),
    .region (reg12 m ρ),
    .host (hseg hostOps13 hostOps13_sub hostOps13_fresh (W22 m ρ)),
    .region (reg13 m ρ),
    .host (hseg hostOps14 hostOps14_sub hostOps14_fresh (W24 m ρ)),
    .region (reg14 m ρ) ]

/-- @main IS the run of the segments: its chain of items, then the segments' run against that chain by the kernel's
    definitional check. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- THE RUN: at the compiled mesh, from any memory with zero counters, every weakly fair execution of @main on the
    TensorCores terminates, nothing faulting, and in every final state each unscoped buffer of each core holds the last
    boundary's contents `W26`: the launch over the 26 segments, the last thread state read against the final state. Both
    the frame and the value of the result are read off it. -/
theorem run_main : θ_run defs (onTc (τ := τ) (main (F := F))) ⟨m, fun _ => 0, ρ⟩
    (fun r => ∀ c : Dev nD, ∀ b ∈ Pipeline.ucRefs τ sig, r.2.mem ((c : Thread nD τ).1, b) = W26 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl,
      fun _ => .rfl, fun _ => .rfl, fun _ => .rfl, fun _ => .rfl, fun _ => .rfl,
      fun c => by
        -- the last region leaves the buffers beside the register and the `owes`; the chain ends at the buffers and the
        -- register BESIDE the `owes`: the same three, bracketed the other way
        show iprop(StableHlo.held (c : Thread nD τ) (Pipeline.ucRefs τ sig) (W26 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W26 m ρ c b)
    (hfin := fun c s' => by
      iintro ⟨⟨Hh, -⟩, HSI⟩
      unfold StableHlo.held
      imodintro
      iapply (pointsTo_read_all (Pipeline.ucRefs τ sig) (fun b => (((c : Thread nD τ)).1, b)) (W26 m ρ c) s')
      isplitl [Hh] <;> iassumption)
    (hQ := fun s h => h)

/-- An argument array in a final state of the run: the last boundary's contents there, which are the launch's. -/
theorem arg_kept {r : PUnit × MemSt nD τ sig (Elt F)}
    (h : ∀ c : Dev nD, ∀ b ∈ Pipeline.ucRefs τ sig, r.2.mem ((c : Thread nD τ).1, b) = W26 m ρ c b)
    (c : Dev nD) (b : Ref sig .tc) (hb : b ∈ argRefs) (hs : ¬ (Proc.devRef .tc b : DevRef τ sig).isScoped) :
    r.2.mem ((c.tc : Thread nD τ).loc b) = m ((c.tc : Thread nD τ).loc b) :=
  (h c _ (mem_uc b hs)).trans (W26_arg m ρ c b hb)

/-- THE FRAME, at any `F`: every weakly fair execution of @main terminates, nothing faulting, and every final state has
    each of the 32 argument arrays as launched: the run, each argument read off its post. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)) :=
  (θ_run defs _ _).mono (fun r h c =>
    ⟨arg_kept m ρ h c main_arg0 (by decide) (by decide),
     arg_kept m ρ h c main_arg1 (by decide) (by decide),
     arg_kept m ρ h c main_arg2 (by decide) (by decide),
     arg_kept m ρ h c main_arg3 (by decide) (by decide),
     arg_kept m ρ h c main_arg4 (by decide) (by decide),
     arg_kept m ρ h c main_arg5 (by decide) (by decide),
     arg_kept m ρ h c main_arg6 (by decide) (by decide),
     arg_kept m ρ h c main_arg7 (by decide) (by decide),
     arg_kept m ρ h c main_arg8 (by decide) (by decide),
     arg_kept m ρ h c main_arg9 (by decide) (by decide),
     arg_kept m ρ h c main_arg10 (by decide) (by decide),
     arg_kept m ρ h c main_arg11 (by decide) (by decide),
     arg_kept m ρ h c main_arg12 (by decide) (by decide),
     arg_kept m ρ h c main_arg13 (by decide) (by decide),
     arg_kept m ρ h c main_arg14 (by decide) (by decide),
     arg_kept m ρ h c main_arg15 (by decide) (by decide),
     arg_kept m ρ h c main_arg16 (by decide) (by decide),
     arg_kept m ρ h c main_arg17 (by decide) (by decide),
     arg_kept m ρ h c main_arg18 (by decide) (by decide),
     arg_kept m ρ h c main_arg19 (by decide) (by decide),
     arg_kept m ρ h c main_arg20 (by decide) (by decide),
     arg_kept m ρ h c main_arg21 (by decide) (by decide),
     arg_kept m ρ h c main_arg22 (by decide) (by decide),
     arg_kept m ρ h c main_arg23 (by decide) (by decide),
     arg_kept m ρ h c main_arg24 (by decide) (by decide),
     arg_kept m ρ h c main_arg25 (by decide) (by decide),
     arg_kept m ρ h c main_arg26 (by decide) (by decide),
     arg_kept m ρ h c main_arg27 (by decide) (by decide),
     arg_kept m ρ h c main_arg28 (by decide) (by decide),
     arg_kept m ρ h c main_arg29 (by decide) (by decide),
     arg_kept m ρ h c main_arg30 (by decide) (by decide),
     arg_kept m ρ h c main_arg31 (by decide) (by decide)⟩)
    (run_main m ρ)

end Cert.KernelIdeal.Hand

end
-- ==== Proof.KiResult.lean ====
/- The run of @main: the result buffer and the 32 argument arrays in a final state, read off the run. -/
import proofs.«403491_j395136991532_1_alg».proof.Proof.Gen.KernelIdeal.Launch
import proofs.«403491_j395136991532_1_alg».proof.Proof.Gen.KernelIdeal.Skeleton
import proofs.«403491_j395136991532_1_alg».proof.Proof.Gen.KernelIdeal.Points
import proofs.«403491_j395136991532_1_alg».proof.Proof.KiRun
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- the 97-operation host stretch's list and the membership facts over the production extents recurse past the default depth
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The result of the run -/

/-- THE RESULT, at any `F`: every weakly fair execution of @main terminates, nothing faulting, and in every final state the
    result buffer holds the last boundary's contents there and each of the 32 argument arrays is as launched: the run's
    post read at the result buffer and at the arguments. -/
theorem run_result : θ_run defs (onTc (τ := τ) (main (F := F))) ⟨m, fun _ => 0, ρ⟩ (fun r => ∀ c : Dev nD,
      r.2.mem ((c.tc : Thread nD τ).loc main_v369) = W26 m ρ c (Proc.devRef .tc main_v369)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)) :=
  (θ_run defs _ _).mono (fun r h c =>
    ⟨h c _ (mem_uc main_v369 (by decide)),
     arg_kept m ρ h c main_arg0 (by decide) (by decide),
     arg_kept m ρ h c main_arg1 (by decide) (by decide),
     arg_kept m ρ h c main_arg2 (by decide) (by decide),
     arg_kept m ρ h c main_arg3 (by decide) (by decide),
     arg_kept m ρ h c main_arg4 (by decide) (by decide),
     arg_kept m ρ h c main_arg5 (by decide) (by decide),
     arg_kept m ρ h c main_arg6 (by decide) (by decide),
     arg_kept m ρ h c main_arg7 (by decide) (by decide),
     arg_kept m ρ h c main_arg8 (by decide) (by decide),
     arg_kept m ρ h c main_arg9 (by decide) (by decide),
     arg_kept m ρ h c main_arg10 (by decide) (by decide),
     arg_kept m ρ h c main_arg11 (by decide) (by decide),
     arg_kept m ρ h c main_arg12 (by decide) (by decide),
     arg_kept m ρ h c main_arg13 (by decide) (by decide),
     arg_kept m ρ h c main_arg14 (by decide) (by decide),
     arg_kept m ρ h c main_arg15 (by decide) (by decide),
     arg_kept m ρ h c main_arg16 (by decide) (by decide),
     arg_kept m ρ h c main_arg17 (by decide) (by decide),
     arg_kept m ρ h c main_arg18 (by decide) (by decide),
     arg_kept m ρ h c main_arg19 (by decide) (by decide),
     arg_kept m ρ h c main_arg20 (by decide) (by decide),
     arg_kept m ρ h c main_arg21 (by decide) (by decide),
     arg_kept m ρ h c main_arg22 (by decide) (by decide),
     arg_kept m ρ h c main_arg23 (by decide) (by decide),
     arg_kept m ρ h c main_arg24 (by decide) (by decide),
     arg_kept m ρ h c main_arg25 (by decide) (by decide),
     arg_kept m ρ h c main_arg26 (by decide) (by decide),
     arg_kept m ρ h c main_arg27 (by decide) (by decide),
     arg_kept m ρ h c main_arg28 (by decide) (by decide),
     arg_kept m ρ h c main_arg29 (by decide) (by decide),
     arg_kept m ρ h c main_arg30 (by decide) (by decide),
     arg_kept m ρ h c main_arg31 (by decide) (by decide)⟩)
    (run_main m ρ)

end Cert.KernelIdeal.Hand

end
-- ==== Proof.KGinRegion0.lean ====
import proofs.«403491_j395136991532_1_alg».proof.Proof.Gen.Kernel.Launch
import proofs.«403491_j395136991532_1_alg».proof.Proof.Gen.Kernel.Skeleton
import proofs.«403491_j395136991532_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 0 (pipeline 0, the per-node two-layer perceptron on 5000-row tiles): the frame half

Stated at a parameter `V`, the TensorCore's buffer contents when the region is entered. Eleven input windows
(the two tiled operands and nine resident ones) and one tiled output window. The body reads every input buffer
whole, computes, and overwrites the output buffer whole; so after the body each input buffer still holds its
block, and the output buffer holds one closed function of the eleven input blocks. -/

-- membership in a rectangle of 5000 rows: the structural look recurses once per coordinate of the long axis
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (not fetched:
    the block index has not moved), for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not (not fetched:
    the block index has not moved), for any proof data whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not (not fetched:
    the block index has not moved), for any proof data whose array is `V`'s and whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not (not fetched:
    the block index has not moved), for any proof data whose array is `V`'s and whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not (not fetched:
    the block index has not moved), for any proof data whose array is `V`'s and whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not (not fetched:
    the block index has not moved), for any proof data whose array is `V`'s and whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not (not fetched:
    the block index has not moved), for any proof data whose array is `V`'s and whose body leaves the block in place. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- Input window 7's current staging buffer holds its block at every point, fetched there or not (not fetched:
    the block index has not moved), for any proof data whose array is `V`'s and whose body leaves the block in place. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

/-- Input window 8's current staging buffer holds its block at every point, fetched there or not (not fetched:
    the block index has not moved), for any proof data whose array is `V`'s and whose body leaves the block in place. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-- Input window 9's current staging buffer holds its block at every point, fetched there or not (not fetched:
    the block index has not moved), for any proof data whose array is `V`'s and whose body leaves the block in place. -/
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)

/-- Input window 10's current staging buffer holds its block at every point, fetched there or not (not fetched:
    the block index has not moved), for any proof data whose array is `V`'s and whose body leaves the block in place. -/
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every buffer whole -/

abbrev r0_a : Rect S5000x128 := Rect.unit (s := S5000x128) ![0, 0] S5000x128.size inb_S5000x128_S5000x128_0_0
abbrev r0_b : Rect S1x1 := Rect.unit (s := S1x1) ![0, 0] S1x1.size inb_S1x1_S1x1_0_0
abbrev r0_c : Rect S128x256 := Rect.unit (s := S128x256) ![0, 0] S128x256.size inb_S128x256_S128x256_0_0
abbrev r0_d : Rect S1x256 := Rect.unit (s := S1x256) ![0, 0] S1x256.size inb_S1x256_S1x256_0_0
abbrev r0_e : Rect S256x128 := Rect.unit (s := S256x128) ![0, 0] S256x128.size inb_S256x128_S256x128_0_0
abbrev r0_f : Rect S1x128 := Rect.unit (s := S1x128) ![0, 0] S1x128.size inb_S1x128_S1x128_0_0

/-! ## What the body leaves in the output window's buffer -/

/-- Window 11's staging buffer after the body, from the eleven input blocks: its one store, of the last payload
    (scale and shift, then the layer's final clamp at zero where it has one) over the first (the two matrix products
    with their affine maps and the clamp between). -/
def out0_11 (x0 : Vec F S5000x128 .f32) (x1 : Vec F S5000x128 .f32) (x2 : Vec F S1x1 .f32) (x3 : Vec F S128x256 .bf16) (x4 : Vec F S1x256 .f32) (x5 : Vec F S1x256 .f32) (x6 : Vec F S1x256 .f32) (x7 : Vec F S256x128 .bf16) (x8 : Vec F S1x128 .f32) (x9 : Vec F S1x128 .f32) (x10 : Vec F S1x128 .f32) : Vec F S5000x128 .f32 :=
  View.canon [⟨r0_a, k0_pay1 (k0_pay2 (View.ld x2 r0_b) (View.ld x0 r0_a) (View.ld x1 r0_a) (View.ld x3 r0_c) (View.ld x4 r0_d) (View.ld x5 r0_d) (View.ld x6 r0_d) (View.ld x7 r0_e) (View.ld x8 r0_f)) (View.ld x9 r0_f) (View.ld x10 r0_f)⟩]

/-- The one store is of the whole buffer, so it covers it. -/
theorem cover0_11 (p0 : Vec F S5000x128 .f32) (y : S5000x128.Idx) :
    ∃ pc ∈ ([⟨r0_a, p0⟩] : List (View.Piece (Elt F) S5000x128 .f32)), y ∈ pc.1.set :=
  View.cover_of_tiled [⟨r0_a, p0⟩] S5000x128.size (by rfl) y

/-! ## The body's triple -/

set_option maxHeartbeats 4000000 in
/-- The kernel body on whole staging memrefs, the inputs' at read contents `xW` and the output's at anything, runs to
    the continuation holding the inputs' as they were and the output's at `out0_11` of the inputs'. -/
theorem sound_kernel0 (c : Dev nD) (E : Set ℕ) (i : grid0.Coords) (arg1 : Memref sig .tc .vmem S5000x128 .f32) (harg1 : arg1.IsWhole) (arg2 : Memref sig .tc .vmem S5000x128 .f32) (harg2 : arg2.IsWhole) (arg3 : Memref sig .tc .vmem S1x1 .f32) (harg3 : arg3.IsWhole) (arg4 : Memref sig .tc .vmem S128x256 .bf16) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S256x128 .bf16) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S5000x128 .f32) (harg12 : arg12.IsWhole)
    (x0 : Vec F S5000x128 .f32) (x1 : Vec F S5000x128 .f32) (x2 : Vec F S1x1 .f32) (x3 : Vec F S128x256 .bf16) (x4 : Vec F S1x256 .f32) (x5 : Vec F S1x256 .f32) (x6 : Vec F S1x256 .f32) (x7 : Vec F S256x128 .bf16) (x8 : Vec F S1x128 .f32) (x9 : Vec F S1x128 .f32) (x10 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out0_11 x0 x1 x2 x3 x4 x5 x6 x7 x8 x9 x10)) -∗ K ⟨⟩))
      ⊢ wp frame (wpE (defs₀ (F := F)) Variants.none c none) E (cc0__gin_mlp_kernel i arg1 harg1 arg2 harg2 arg3 harg3 arg4 harg4 arg5 harg5 arg6 harg6 arg7 harg7 arg8 harg8 arg9 harg9 arg10 harg10 arg11 harg11 arg12 harg12) K := by
  simp only [cc0__gin_mlp_kernel_eq_skeleton]; unfold cc0__gin_mlp_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  exact View.read_writes_eq_canon _ _ _ (cover0_11 _)

/-! ## The pipeline's proof data -/

/-- The proof data of pipeline 0 on core `c`: the arrays as the region finds them; after the body at point `t` each
    input's buffer at its block and the output's at `out0_11` of the input blocks; the invariant the untouched rest;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => out0_11 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = out0_11 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d

/-- The invariant at the region's entry and exit is the untouched rest itself. -/
theorem PhiIn0 (c : Dev nD) : Pipeline.ΦA spec0 c ⊢ (dat0 V c).Φ 0 := .rfl
theorem PhiOut0 (c : Dev nD) : (dat0 V c).Φ (Fin.last _) ⊢ Pipeline.ΦA spec0 c := .rfl

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t))

/-- The body at any point: the inputs' memrefs hold their blocks, so the body's triple applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel0 c Set.univ _ _ _ _ _ _ _ _ _ _ _ _ _ _ _ _ _ _ _ _ _ _ _ _ _
    (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand
-- ==== Proof.KSegRegion1.lean ====
/- Region 1 of @main, custom_call 1, the batch-grouped segment sum `cc1__segsum_kernel`: the frame half of its pipeline,
   at any float model `F` and at a PARAMETER `V`, the TensorCore's buffer contents when the region is entered.
   The grid has ten points. A scratch accumulator (256x128, f32) is carried from point to point: the first point stores
   the zero block into it, every point then adds its 5000-row block's contribution (the transposed one-hot of the
   block's segment ids times the block), and the last point copies it into the output window's staging buffer, which
   the pipeline writes back once. So the invariant between points names what the scratch holds, by recursion on the
   point (`accAt1`); the output window is idle at every point but the last and is handed back there as it was found. -/
import proofs.«403491_j395136991532_1_alg».proof.Proof.Gen.Kernel.Launch
import proofs.«403491_j395136991532_1_alg».proof.Proof.Gen.Kernel.Skeleton
import proofs.«403491_j395136991532_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof data
    whose array is `V`'s and whose body leaves the block in place: the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, likewise. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The first conditional's condition (the accumulator's reset), from the grid coordinate. -/
abbrev cond1_0 (i : grid1.Coords) : Prop := (Scalar.cmpi .ne (Scalar.extui (Scalar.cmpi .eq (BitVec.ofNat 32 (i 0).val) 0#32)) 0#32) = 1#1
/-- It holds at the first point only. -/
theorem hcond1_0 : ∀ t : Fin cfg1.N, cond1_0 (grid1.coords t) ↔ t.val % 10 = 0 :=
  (by decide +kernel : ∀ t : Fin grid1.N, cond1_0 (grid1.coords t) ↔ t.val % 10 = 0)

/-- The second conditional's condition (the copy into the output window). -/
abbrev cond1_1 (i : grid1.Coords) : Prop := k1_cond2 i = 1#1
/-- It holds at the last point only. -/
theorem hcond1_1 : ∀ t : Fin cfg1.N, cond1_1 (grid1.coords t) ↔ t.val % 10 = 9 :=
  (by decide +kernel : ∀ t : Fin grid1.N, cond1_1 (grid1.coords t) ↔ t.val % 10 = 9)

/-! ## Where the output window is idle -/

theorem liveAt1_0 : ∀ t : Fin cfg1.N, cfg1.idle 0 (grid1.coords t) = false := by decide +kernel
theorem liveAt1_1 : ∀ t : Fin cfg1.N, cfg1.idle 1 (grid1.coords t) = false := by decide +kernel
/-- Where the copy is not taken the output window is idle, -/
theorem idleAt1_2 : ∀ t : Fin cfg1.N, ¬cond1_1 (grid1.coords t) → cfg1.idle 2 (grid1.coords t) = true := by decide +kernel
/-- and not written back; -/
theorem noFlush1_2 : ∀ t : Fin cfg1.N, ¬cond1_1 (grid1.coords t) → (cfg1.win 2).flush t = false := by decide +kernel
/-- where it is taken the window is live. -/
theorem liveAt1_2 : ∀ t : Fin cfg1.N, cond1_1 (grid1.coords t) → cfg1.idle 2 (grid1.coords t) = false := by decide +kernel

/-! ## Whole-buffer accesses -/

/-- The zero offsets of a two-axis access. -/
theorem hz1 : (![0, 0] : Fin 2 → Nat) = fun _ => 0 := funext fun a => by fin_cases a <;> rfl

/-- A rectangle of the shape's own sizes at zero offsets holds every index. -/
theorem memUnit1 {S : Shape} {off : Fin S.rank → Nat} (h : off = fun _ => 0) (inb : ∀ a, off a + S.size a ≤ S.size a) (y : S.Idx) :
    y ∈ (Rect.unit off S.size inb).set := by
  subst h; show y ∈ (Rect.whole S).set; rw [Rect.set_whole]; exact Finset.mem_univ y

/-- A store through such a rectangle, made last, leaves its payload, whatever was stored before and whatever the
    buffer held. -/
theorem readLast1 {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f (⟨Rect.unit off S.size inb, w⟩ :: L)) = w := by
  rw [View.read_writes_eq_canon _ _ _ (fun y => ⟨_, List.mem_cons_self .., memUnit1 h inb y⟩), View.canon_cons_unit_zero h]

/-! ## The scratch accumulator -/

/-- The scratch operand: a whole scoped buffer of the kernel's own, passed beside the windows. -/
abbrev scM1 : Memref sig .tc .vmem S256x128 .f32 := Memref.whole cc1_scratch0

/-- THE ACCUMULATION. What the scratch holds after `n` points: the zero block the first point stores, then, point by
    point, the sum of what it held and the point's contribution (the payload of the body's second store, over the
    point's two input blocks and what the scratch held). -/
def accAt1 (c : Dev nD) : (n : ℕ) → n ≤ cfg1.N → Vec F S256x128 .f32
  | 0, _ => k1_pay1
  | n + 1, hn => k1_pay2 (iblk1 V c 0 ⟨n, hn⟩) (iblk1 V c 1 ⟨n, hn⟩) (accAt1 c n (Nat.le_of_lt hn))

theorem accAt1_zero (c : Dev nD) (h : 0 ≤ cfg1.N) : accAt1 V c 0 h = k1_pay1 := rfl
theorem accAt1_succ (c : Dev nD) (t : Fin cfg1.N) :
    accAt1 V c (t.val + 1) t.isLt = k1_pay2 (iblk1 V c 0 t) (iblk1 V c 1 t) (accAt1 V c t.val (Nat.le_of_lt t.isLt)) := rfl

/-! ## The body's triple, per control case -/

set_option maxHeartbeats 1000000 in
/-- THE FIRST POINT (the reset taken, the copy not): on whole memrefs, the inputs' at `x` and `b` and the scratch at
    anything, the body runs to the inputs' as they were and the scratch at the zero block plus the point's contribution.
    The output window's memref is not touched. -/
theorem sound_first1 (c : Dev nD) (E : Set ℕ) (i : grid1.Coords)
    (aX : Memref sig .tc .vmem S5000x128 .f32) (hX : aX.IsWhole) (aB : Memref sig .tc .vmem S5000x1 .i32) (hB : aB.IsWhole)
    (aO : Memref sig .tc .vmem S256x128 .f32) (hO : aO.IsWhole) (aS : Memref sig .tc .vmem S256x128 .f32) (hS : aS.IsWhole)
    (hcR : cond1_0 i) (hcC : ¬cond1_1 i)
    (x : Vec F S5000x128 .f32) (b : Vec F S5000x1 .i32) (K : PUnit → sProp 𝕄) :
    iprop(owns (c : Thread nD τ) aX fullShare x ∗ owns (c : Thread nD τ) aB fullShare b ∗ (∃ d, owns (c : Thread nD τ) aS fullShare d)
        ∗ (iprop(owns (c : Thread nD τ) aX fullShare x ∗ owns (c : Thread nD τ) aB fullShare b
            ∗ owns (c : Thread nD τ) aS fullShare (k1_pay2 x b k1_pay1)) -∗ K ⟨⟩))
      ⊢ wp frame (wpE (defs₀ (F := F)) Variants.none c none) E (cc1__segsum_kernel i aX hX aB hB aO hO aS hS) K := by
  simp only [cc1__segsum_kernel_eq_skeleton]; unfold cc1__segsum_kernel_skel
  unfold owns
  iintro ⟨⟨%fX, %hfX, HX⟩, ⟨%fB, %hfB, HB⟩, ⟨%dS, %fS, -, HS⟩, Hk⟩
  obtain rfl := hX.eq_unread hfX; obtain rfl := hB.eq_unread hfB
  sl_exec (disch := first | exact hcR | exact hcC)
  sl_step
  iapply Hk
  isplitl [HX]
  · iexists _; isplitr; · ipureintro; exact hX.read_unread _
    iexact HX
  isplitl [HB]
  · iexists _; isplitr; · ipureintro; exact hB.read_unread _
    iexact HB
  iexists _; isplitr
  swap; · iexact HS
  ipureintro
  sl_unfold_run_names
  rw [readLast1 _ _ hz1, View.readCov_unit_zero _ hz1]
  simp only [View.readAt_eq_ld, hX.read_unread, hB.read_unread,
    View.ld_unit_zero (S := S5000x128) hz1, View.ld_unit_zero (S := S5000x1) hz1]

set_option maxHeartbeats 1000000 in
/-- A MIDDLE POINT (neither conditional taken): the scratch at `a` ends at `a` plus the point's contribution. -/
theorem sound_mid1 (c : Dev nD) (E : Set ℕ) (i : grid1.Coords)
    (aX : Memref sig .tc .vmem S5000x128 .f32) (hX : aX.IsWhole) (aB : Memref sig .tc .vmem S5000x1 .i32) (hB : aB.IsWhole)
    (aO : Memref sig .tc .vmem S256x128 .f32) (hO : aO.IsWhole) (aS : Memref sig .tc .vmem S256x128 .f32) (hS : aS.IsWhole)
    (hcR : ¬cond1_0 i) (hcC : ¬cond1_1 i)
    (x : Vec F S5000x128 .f32) (b : Vec F S5000x1 .i32) (a : Vec F S256x128 .f32) (K : PUnit → sProp 𝕄) :
    iprop(owns (c : Thread nD τ) aX fullShare x ∗ owns (c : Thread nD τ) aB fullShare b ∗ owns (c : Thread nD τ) aS fullShare a
        ∗ (iprop(owns (c : Thread nD τ) aX fullShare x ∗ owns (c : Thread nD τ) aB fullShare b
            ∗ owns (c : Thread nD τ) aS fullShare (k1_pay2 x b a)) -∗ K ⟨⟩))
      ⊢ wp frame (wpE (defs₀ (F := F)) Variants.none c none) E (cc1__segsum_kernel i aX hX aB hB aO hO aS hS) K := by
  simp only [cc1__segsum_kernel_eq_skeleton]; unfold cc1__segsum_kernel_skel
  unfold owns
  iintro ⟨⟨%fX, %hfX, HX⟩, ⟨%fB, %hfB, HB⟩, ⟨%fS, %hfS, HS⟩, Hk⟩
  obtain rfl := hX.eq_unread hfX; obtain rfl := hB.eq_unread hfB; obtain rfl := hS.eq_unread hfS
  sl_exec (disch := first | exact hcR | exact hcC)
  sl_step
  iapply Hk
  isplitl [HX]
  · iexists _; isplitr; · ipureintro; exact hX.read_unread _
    iexact HX
  isplitl [HB]
  · iexists _; isplitr; · ipureintro; exact hB.read_unread _
    iexact HB
  iexists _; isplitr
  swap; · iexact HS
  ipureintro
  rw [readLast1 _ _ hz1]
  simp only [View.readAt_eq_ld, hX.read_unread, hB.read_unread, hS.read_unread,
    View.ld_unit_zero (S := S5000x128) hz1, View.ld_unit_zero (S := S5000x1) hz1, View.ld_unit_zero (S := S256x128) hz1]

set_option maxHeartbeats 1000000 in
/-- THE LAST POINT (the copy taken, the reset not): the scratch at `a` ends at `a` plus the point's contribution, and
    the output window's memref, at anything, ends holding the same. -/
theorem sound_last1 (c : Dev nD) (E : Set ℕ) (i : grid1.Coords)
    (aX : Memref sig .tc .vmem S5000x128 .f32) (hX : aX.IsWhole) (aB : Memref sig .tc .vmem S5000x1 .i32) (hB : aB.IsWhole)
    (aO : Memref sig .tc .vmem S256x128 .f32) (hO : aO.IsWhole) (aS : Memref sig .tc .vmem S256x128 .f32) (hS : aS.IsWhole)
    (hcR : ¬cond1_0 i) (hcC : cond1_1 i)
    (x : Vec F S5000x128 .f32) (b : Vec F S5000x1 .i32) (a : Vec F S256x128 .f32) (K : PUnit → sProp 𝕄) :
    iprop(owns (c : Thread nD τ) aX fullShare x ∗ owns (c : Thread nD τ) aB fullShare b ∗ (∃ d, owns (c : Thread nD τ) aO fullShare d)
        ∗ owns (c : Thread nD τ) aS fullShare a
        ∗ (iprop(owns (c : Thread nD τ) aX fullShare x ∗ owns (c : Thread nD τ) aB fullShare b
            ∗ owns (c : Thread nD τ) aO fullShare (k1_pay2 x b a) ∗ owns (c : Thread nD τ) aS fullShare (k1_pay2 x b a)) -∗ K ⟨⟩))
      ⊢ wp frame (wpE (defs₀ (F := F)) Variants.none c none) E (cc1__segsum_kernel i aX hX aB hB aO hO aS hS) K := by
  simp only [cc1__segsum_kernel_eq_skeleton]; unfold cc1__segsum_kernel_skel
  unfold owns
  iintro ⟨⟨%fX, %hfX, HX⟩, ⟨%fB, %hfB, HB⟩, ⟨%dO, %fO, -, HO⟩, ⟨%fS, %hfS, HS⟩, Hk⟩
  obtain rfl := hX.eq_unread hfX; obtain rfl := hB.eq_unread hfB; obtain rfl := hS.eq_unread hfS
  sl_exec (disch := first | exact hcR | exact hcC)
  sl_step
  iapply Hk
  isplitl [HX]
  · iexists _; isplitr; · ipureintro; exact hX.read_unread _
    iexact HX
  isplitl [HB]
  · iexists _; isplitr; · ipureintro; exact hB.read_unread _
    iexact HB
  isplitl [HO]
  · iexists _; isplitr
    swap; · iexact HO
    ipureintro
    sl_unfold_run_names
    rw [readLast1 _ _ hz1, View.readCov_unit_zero _ hz1]
    simp only [View.readAt_eq_ld, hX.read_unread, hB.read_unread, hS.read_unread,
      View.ld_unit_zero (S := S5000x128) hz1, View.ld_unit_zero (S := S5000x1) hz1, View.ld_unit_zero (S := S256x128) hz1]
  iexists _; isplitr
  swap; · iexact HS
  ipureintro
  sl_unfold_run_names
  rw [readLast1 _ _ hz1]
  simp only [View.readAt_eq_ld, hX.read_unread, hB.read_unread, hS.read_unread,
    View.ld_unit_zero (S := S5000x128) hz1, View.ld_unit_zero (S := S5000x1) hz1, View.ld_unit_zero (S := S256x128) hz1]

/-- The region invariant before position `n`: before the first point the class's (every scratch at anything); afterwards
    the carried scratch at what the points so far accumulated, the other scoped buffers unopened, and the generator
    register at some state. -/
def Phi1 (c : Dev nD) (n : ℕ) (hn : n ≤ cfg1.N) : sProp 𝕄 :=
  if n = 0 then Pipeline.ΦA spec1 c
  else iprop(owns (c : Thread nD τ) scM1 fullShare (accAt1 V c n hn)
      ∗ Pipeline.scopedRestBut (Ix := Unit) (Name := ℕ) (U := UR sig nD τ) (Lvl := ℕ) (Val := Elt F) spec1 c [cc1_scratch0]
      ∗ (∃ r, prngReg c r))

theorem Phi1_zero (c : Dev nD) (n : ℕ) (h : n ≤ cfg1.N) (hz : n = 0) : Phi1 V c n h = Pipeline.ΦA spec1 c := by
  unfold Phi1; exact if_pos hz

theorem Phi1_pos (c : Dev nD) (n : ℕ) (h : n ≤ cfg1.N) (hz : n ≠ 0) :
    Phi1 V c n h = iprop(owns (c : Thread nD τ) scM1 fullShare (accAt1 V c n h)
      ∗ Pipeline.scopedRestBut (Ix := Unit) (Name := ℕ) (U := UR sig nD τ) (Lvl := ℕ) (Val := Elt F) spec1 c [cc1_scratch0]
      ∗ (∃ r, prngReg c r)) := by
  unfold Phi1; exact if_neg hz

/-- The class's invariant with the scratch operand split out of the scoped rest as a memref owned at some contents. -/
theorem PhiA1_eq (c : Dev nD) :
    (Pipeline.ΦA spec1 c : sProp 𝕄)
      = iprop(iprop(iprop((∃ d, owns (c : Thread nD τ) scM1 fullShare d))
          ∗ Pipeline.scopedRestBut (Ix := Unit) (Name := ℕ) (U := UR sig nD τ) (Lvl := ℕ) (Val := Elt F) spec1 c [cc1_scratch0])
        ∗ (∃ r, prngReg c r)) := by
  unfold Pipeline.ΦA; rw [scopedRest1_split]; simp only [scM1, owns_whole]; try rfl

/-! ## The pipeline's proof data -/

/-- The proof data of pipeline 1 on core `c`: the arrays as the region finds them (`V`); after the body at point `t` each
    input's buffer at its block and the output's at what the scratch then holds (consulted at the last point only: the
    window is idle elsewhere); the invariant `Phi1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => accAt1 V c (t.val + 1) t.isLt
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = accAt1 V c (t.val + 1) t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- The invariant at a point's start, restated at `t.val`. -/
theorem Phi1_castSucc (c : Dev nD) (t : Fin cfg1.N) :
    (dat1 V c).Φ t.castSucc = Phi1 V c t.val (Nat.le_of_lt t.isLt) := by
  dsimp only [dat1]; simp only [Fin.coe_castSucc]

/-- The invariant at a point's end: the carried scratch at what the points up to this one accumulated. -/
theorem Phi1_succ (c : Dev nD) (t : Fin cfg1.N) :
    (dat1 V c).Φ t.succ = iprop(owns (c : Thread nD τ) scM1 fullShare (accAt1 V c (t.val + 1) t.isLt)
      ∗ Pipeline.scopedRestBut (Ix := Unit) (Name := ℕ) (U := UR sig nD τ) (Lvl := ℕ) (Val := Elt F) spec1 c [cc1_scratch0]
      ∗ (∃ r, prngReg c r)) := by
  dsimp only [dat1]; simp only [Fin.val_succ]; exact Phi1_pos V c _ _ (Nat.succ_ne_zero _)

/-- Before any point has run the accumulation is the zero block. -/
theorem accAt1_of_zero (c : Dev nD) (n : ℕ) (h : n ≤ cfg1.N) (hz : n = 0) : accAt1 V c n h = k1_pay1 := by
  subst hz; rfl

/-! ## The body obligation, at a generic point -/

/-- What the body is called with at point `t` (the library's body obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4000000 in
/-- The body at any point. The inputs' memrefs hold their blocks; the closed forms of the two conditions say which of the
    three control cases the point is in, and that case's triple applies. The invariant hands the body the scratch — at
    anything at the first point, at what the points before accumulated afterwards — and takes it back at what the points
    up to this one accumulated; the other scoped buffers, the generator register and the core's `owes` pass through
    unread; the output window's memref is handed back as it was found except at the last point, where it holds the
    accumulation. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl, Phi1_succ V c t, Phi1_castSucc V c t]
  have hN : t.val < 10 := lt_of_lt_of_eq t.isLt (show cfg1.N = 10 from N_1)
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [accAt1_succ V c t]
  by_cases hL : t.val % 10 = 9
  · have hcC : cond1_1 (grid1.coords t) := (hcond1_1 t).mpr hL
    have hcR : ¬cond1_0 (grid1.coords t) := fun h => by have := (hcond1_0 t).mp h; omega
    have hz : t.val ≠ 0 := by omega
    rw [show (dat1 V c).leavesExact 2 t = owns (c : Thread nD τ) (st1_2 t) fullShare ((dat1 V c).after 2 t) from by
      unfold Dat.leavesExact; rw [liveAt1_2 t hcC], after1_2, accAt1_succ V c t]
    rw [Phi1_pos V c _ _ hz]
    iintro ⟨⟨HS, Hrest, Hg⟩, Ho, ⟨%dX, HX⟩, ⟨%dB, HB⟩, ⟨%dO, HO⟩⟩
    iapply (sound_last1 c Set.univ (grid1.coords t) _ _ _ _ _ _ _ _ hcR hcC (iblk1 V c 0 t) (iblk1 V c 1 t)
      (accAt1 V c t.val (Nat.le_of_lt t.isLt)) _)
    isplitl [HX]; · iexact HX
    isplitl [HB]; · iexact HB
    isplitl [HO]; · iexists _; iexact HO
    isplitl [HS]; · iexact HS
    iintro ⟨HX, HB, HO, HS⟩
    isplitl [HS Hrest Hg]
    · isplitl [HS]; · iexact HS
      isplitl [Hrest]; · iexact Hrest
      iexact Hg
    isplitl [Ho]; · iexact Ho
    isplitl [HX]; · iexact HX
    isplitl [HB]; · iexact HB
    iexact HO
  · have hcC : ¬cond1_1 (grid1.coords t) := fun h => hL ((hcond1_1 t).mp h)
    rw [Dat.leavesExact_idle (dat1 V c) 2 t (idleAt1_2 t hcC) (noFlush1_2 t hcC)]
    by_cases hF : t.val % 10 = 0
    · have hcR : cond1_0 (grid1.coords t) := (hcond1_0 t).mpr hF
      have hz : t.val = 0 := by omega
      rw [Phi1_zero V c _ _ hz, PhiA1_eq, accAt1_of_zero V c _ _ hz]
      iintro ⟨⟨⟨HS, Hrest⟩, Hg⟩, Ho, ⟨%dX, HX⟩, ⟨%dB, HB⟩, ⟨%dO, HO⟩⟩
      iapply (sound_first1 c Set.univ (grid1.coords t) _ _ _ _ _ _ _ _ hcR hcC (iblk1 V c 0 t) (iblk1 V c 1 t) _)
      isplitl [HX]; · iexact HX
      isplitl [HB]; · iexact HB
      isplitl [HS]; · iexact HS
      iintro ⟨HX, HB, HS⟩
      isplitl [HS Hrest Hg]
      · isplitl [HS]; · iexact HS
        isplitl [Hrest]; · iexact Hrest
        iexact Hg
      isplitl [Ho]; · iexact Ho
      isplitl [HX]; · iexact HX
      isplitl [HB]; · iexact HB
      iexists _; iexact HO
    · have hcR : ¬cond1_0 (grid1.coords t) := fun h => hF ((hcond1_0 t).mp h)
      have hz : t.val ≠ 0 := by omega
      rw [Phi1_pos V c _ _ hz]
      iintro ⟨⟨HS, Hrest, Hg⟩, Ho, ⟨%dX, HX⟩, ⟨%dB, HB⟩, ⟨%dO, HO⟩⟩
      iapply (sound_mid1 c Set.univ (grid1.coords t) _ _ _ _ _ _ _ _ hcR hcC (iblk1 V c 0 t) (iblk1 V c 1 t)
        (accAt1 V c t.val (Nat.le_of_lt t.isLt)) _)
      isplitl [HX]; · iexact HX
      isplitl [HB]; · iexact HB
      isplitl [HS]; · iexact HS
      iintro ⟨HX, HB, HS⟩
      isplitl [HS Hrest Hg]
      · isplitl [HS]; · iexact HS
        isplitl [Hrest]; · iexact Hrest
        iexact Hg
      isplitl [Ho]; · iexact Ho
      isplitl [HX]; · iexact HX
      isplitl [HB]; · iexact HB
      iexists _; iexact HO

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem PhiIn1 (c : Dev nD) : Pipeline.ΦA spec1 c ⊢ (dat1 V c).Φ 0 := by
  rw [show (dat1 V c).Φ 0 = Phi1 V c 0 (Nat.zero_le _) from rfl, Phi1_zero V c 0 _ rfl]

/-- After the last point the invariant gives the class's back: the scratch's named contents are forgotten. -/
theorem PhiOut1 (c : Dev nD) : (dat1 V c).Φ (Fin.last _) ⊢ Pipeline.ΦA spec1 c := by
  rw [show (dat1 V c).Φ (Fin.last _) = Phi1 V c cfg1.N (Nat.le_refl _) from rfl,
    Phi1_pos V c _ _ (by rw [show cfg1.N = 10 from N_1]; decide), PhiA1_eq]
  iintro ⟨HS, Hrest, Hg⟩
  isplitl [HS Hrest]
  · isplitl [HS]
    · iexists _; iexact HS
    iexact Hrest
  iexact Hg

end Cert.Kernel.Hand

end
-- ==== Proof.KVnRegion2.lean ====
/- Region 2 of @main, custom_call 2, the virtual node's two-layer perceptron `cc2__vn_mlp_kernel`: the frame half of its pipeline, at any float model `F` and at a PARAMETER `V`, the
   TensorCore's buffer contents when the region is entered. The grid is one point and every window's block is its whole
   array. Each input window's staging buffer holds its block; the output's, after the body, holds what the body's one store
   leaves, a function `out2_9` of the input blocks; the body's triple is run on whole staging memrefs; the pipeline's proof
   data carries the arrays at `V`, the untouched invariant, full shares and nothing owed; and the library's body obligation
   follows at the one point. -/
import proofs.«403491_j395136991532_1_alg».proof.Proof.Gen.Kernel.Launch
import proofs.«403491_j395136991532_1_alg».proof.Proof.Gen.Kernel.Skeleton
import proofs.«403491_j395136991532_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof data
    whose array is `V`'s and whose body leaves the block in place: the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof data
    whose array is `V`'s and whose body leaves the block in place: the window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof data
    whose array is `V`'s and whose body leaves the block in place: the window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof data
    whose array is `V`'s and whose body leaves the block in place: the window is uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof data
    whose array is `V`'s and whose body leaves the block in place: the window is uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not, for any proof data
    whose array is `V`'s and whose body leaves the block in place: the window is uncut and never idle. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block at every point, fetched there or not, for any proof data
    whose array is `V`'s and whose body leaves the block in place: the window is uncut and never idle. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7's current staging buffer holds its block at every point, fetched there or not, for any proof data
    whose array is `V`'s and whose body leaves the block in place: the window is uncut and never idle. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-- Input window 8's current staging buffer holds its block at every point, fetched there or not, for any proof data
    whose array is `V`'s and whose body leaves the block in place: the window is uncut and never idle. -/
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each is a whole buffer -/

abbrev r2_0 : Rect S256x128 := Rect.unit (s := S256x128) ![0, 0] S256x128.size inb_S256x128_S256x128_0_0
abbrev r2_1 : Rect S128x256 := Rect.unit (s := S128x256) ![0, 0] S128x256.size inb_S128x256_S128x256_0_0
abbrev r2_2 : Rect S1x256 := Rect.unit (s := S1x256) ![0, 0] S1x256.size inb_S1x256_S1x256_0_0
abbrev r2_3 : Rect S1x128 := Rect.unit (s := S1x128) ![0, 0] S1x128.size inb_S1x128_S1x128_0_0

/-! ## What the body leaves in the output window's buffer -/

/-- Window 9's staging buffer after the body, from the input windows' blocks: its one store as a piece (the payload is
    the skeleton's). -/
def out2_9 (x0 : Vec F S256x128 .f32) (x1 : Vec F S128x256 .bf16) (x2 : Vec F S1x256 .f32) (x3 : Vec F S1x256 .f32) (x4 : Vec F S1x256 .f32) (x5 : Vec F S256x128 .bf16) (x6 : Vec F S1x128 .f32) (x7 : Vec F S1x128 .f32) (x8 : Vec F S1x128 .f32) : Vec F S256x128 .f32 :=
  View.canon [⟨r2_0, k2_pay1 (k2_pay2 (View.ld x0 r2_0) (View.ld x1 r2_1) (View.ld x2 r2_2) (View.ld x3 r2_2) (View.ld x4 r2_2) (View.ld x5 r2_0) (View.ld x6 r2_3) (View.ld x7 r2_3) (View.ld x8 r2_3)) k2_pay3⟩]

/-- The one store is of the whole buffer, so it covers it. -/
theorem cover2_9 (p0 : Vec F S256x128 .f32) (y : S256x128.Idx) :
    ∃ pc ∈ ([⟨r2_0, p0⟩] : List (View.Piece (Elt F) S256x128 .f32)), y ∈ pc.1.set :=
  View.cover_of_tiled [⟨r2_0, p0⟩] S256x128.size (by rfl) y

/-! ## The body's triple -/

set_option maxHeartbeats 1000000 in
/-- The kernel body on whole staging memrefs, the inputs' at read contents `xW` and the output's at anything, runs to the
    continuation holding the inputs' as they were and the output's at `out2_9` of the inputs': the printed functions are
    their skeletons of memory operations over payloads, which are run operation by operation, through the part call. -/
theorem sound_kernel2 (c : Dev nD) (E : Set ℕ) (i : grid2.Coords) (arg1 : Memref sig .tc .vmem S256x128 .f32) (harg1 : arg1.IsWhole) (arg2 : Memref sig .tc .vmem S128x256 .bf16) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x128 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole)
    (x0 : Vec F S256x128 .f32) (x1 : Vec F S128x256 .bf16) (x2 : Vec F S1x256 .f32) (x3 : Vec F S1x256 .f32) (x4 : Vec F S1x256 .f32) (x5 : Vec F S256x128 .bf16) (x6 : Vec F S1x128 .f32) (x7 : Vec F S1x128 .f32) (x8 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out2_9 x0 x1 x2 x3 x4 x5 x6 x7 x8)) -∗ K ⟨⟩))
      ⊢ wp frame (wpE (defs₀ (F := F)) Variants.none c none) E (cc2__vn_mlp_kernel i arg1 harg1 arg2 harg2 arg3 harg3 arg4 harg4 arg5 harg5 arg6 harg6 arg7 harg7 arg8 harg8 arg9 harg9 arg10 harg10) K := by
  simp only [cc2__vn_mlp_kernel_eq_skeleton]; unfold cc2__vn_mlp_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover2_9 _)

/-! ## The pipeline's proof data -/

/-- The proof data of pipeline 2 on core `c`: the arrays as the region finds them (`V`); after the body at point `t` each
    input's buffer at its block and the output's at `out2_9` of the input blocks; the invariant the scoped rest and the
    generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => out2_9 (iblk2 V c 0 t) (iblk2 V c 1 t) (iblk2 V c 2 t) (iblk2 V c 3 t) (iblk2 V c 4 t) (iblk2 V c 5 t) (iblk2 V c 6 t) (iblk2 V c 7 t) (iblk2 V c 8 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = out2_9 (iblk2 V c 0 t) (iblk2 V c 1 t) (iblk2 V c 2 t) (iblk2 V c 3 t) (iblk2 V c 4 t) (iblk2 V c 5 t) (iblk2 V c 6 t) (iblk2 V c 7 t) (iblk2 V c 8 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d

/-- The invariant at the region's entry is the class's, -/
theorem PhiIn2 (c : Dev nD) : Pipeline.ΦA spec2 c ⊢ (dat2 V c).Φ 0 := .rfl

/-- and at its exit. -/
theorem PhiOut2 (c : Dev nD) : (dat2 V c).Φ (Fin.last _) ⊢ Pipeline.ΦA spec2 c := .rfl

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t))

/-- The body at any point: the inputs' memrefs hold their blocks, so the body's triple applies; the invariant and the core's
    debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel2 c Set.univ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KGinRegion3.lean ====
import proofs.«403491_j395136991532_1_alg».proof.Proof.Gen.Kernel.Launch
import proofs.«403491_j395136991532_1_alg».proof.Proof.Gen.Kernel.Skeleton
import proofs.«403491_j395136991532_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 3 (pipeline 3, the per-node two-layer perceptron on 5000-row tiles): the frame half

Stated at a parameter `V`, the TensorCore's buffer contents when the region is entered. Eleven input windows
(the two tiled operands and nine resident ones) and one tiled output window. The body reads every input buffer
whole, computes, and overwrites the output buffer whole; so after the body each input buffer still holds its
block, and the output buffer holds one closed function of the eleven input blocks. -/

-- membership in a rectangle of 5000 rows: the structural look recurses once per coordinate of the long axis
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not (not fetched:
    the block index has not moved), for any proof data whose array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not (not fetched:
    the block index has not moved), for any proof data whose array is `V`'s and whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not (not fetched:
    the block index has not moved), for any proof data whose array is `V`'s and whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not (not fetched:
    the block index has not moved), for any proof data whose array is `V`'s and whose body leaves the block in place. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not (not fetched:
    the block index has not moved), for any proof data whose array is `V`'s and whose body leaves the block in place. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's current staging buffer holds its block at every point, fetched there or not (not fetched:
    the block index has not moved), for any proof data whose array is `V`'s and whose body leaves the block in place. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- Input window 6's current staging buffer holds its block at every point, fetched there or not (not fetched:
    the block index has not moved), for any proof data whose array is `V`'s and whose body leaves the block in place. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-- Input window 7's current staging buffer holds its block at every point, fetched there or not (not fetched:
    the block index has not moved), for any proof data whose array is `V`'s and whose body leaves the block in place. -/
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)

/-- Input window 8's current staging buffer holds its block at every point, fetched there or not (not fetched:
    the block index has not moved), for any proof data whose array is `V`'s and whose body leaves the block in place. -/
theorem before3_8_of {c : Dev nD} (dat : Dat τ (Elt F) Unit ℕ (UR sig nD τ) ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)

/-- Input window 9's current staging buffer holds its block at every point, fetched there or not (not fetched:
    the block index has not moved), for any proof data whose array is `V`'s and whose body leaves the block in place. -/
theorem before3_9_of {c : Dev nD} (dat : Dat τ (Elt F) Unit ℕ (UR sig nD τ) ℕ cfg3 c) (hA : dat.A 9 = V c (Pipeline.arrRef spec3 9))
    (hafter : ∀ t, dat.after 9 t = iblk3 V c 9 t) (t : Fin cfg3.N) (d) : dat.before 9 t d = iblk3 V c 9 t :=
  (dat.before_in_eq_fetched 9 rfl (fun _ => rfl) (fun _ _ _ => rfl) (fun t => by rw [hafter]; unfold Dat.blockOf iblk3; rw [hA]; try rfl) t d).trans
    (by unfold Dat.fetched Dat.blockOf iblk3; rw [hA]; try rfl)

/-- Input window 10's current staging buffer holds its block at every point, fetched there or not (not fetched:
    the block index has not moved), for any proof data whose array is `V`'s and whose body leaves the block in place. -/
theorem before3_10_of {c : Dev nD} (dat : Dat τ (Elt F) Unit ℕ (UR sig nD τ) ℕ cfg3 c) (hA : dat.A 10 = V c (Pipeline.arrRef spec3 10))
    (hafter : ∀ t, dat.after 10 t = iblk3 V c 10 t) (t : Fin cfg3.N) (d) : dat.before 10 t d = iblk3 V c 10 t :=
  (dat.before_in_eq_fetched 10 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: every buffer whole -/

abbrev r3_a : Rect S5000x128 := Rect.unit (s := S5000x128) ![0, 0] S5000x128.size inb_S5000x128_S5000x128_0_0
abbrev r3_b : Rect S1x1 := Rect.unit (s := S1x1) ![0, 0] S1x1.size inb_S1x1_S1x1_0_0
abbrev r3_c : Rect S128x256 := Rect.unit (s := S128x256) ![0, 0] S128x256.size inb_S128x256_S128x256_0_0
abbrev r3_d : Rect S1x256 := Rect.unit (s := S1x256) ![0, 0] S1x256.size inb_S1x256_S1x256_0_0
abbrev r3_e : Rect S256x128 := Rect.unit (s := S256x128) ![0, 0] S256x128.size inb_S256x128_S256x128_0_0
abbrev r3_f : Rect S1x128 := Rect.unit (s := S1x128) ![0, 0] S1x128.size inb_S1x128_S1x128_0_0

/-! ## What the body leaves in the output window's buffer -/

/-- Window 11's staging buffer after the body, from the eleven input blocks: its one store, of the last payload
    (scale and shift, then the layer's final clamp at zero where it has one) over the first (the two matrix products
    with their affine maps and the clamp between). -/
def out3_11 (x0 : Vec F S5000x128 .f32) (x1 : Vec F S5000x128 .f32) (x2 : Vec F S1x1 .f32) (x3 : Vec F S128x256 .bf16) (x4 : Vec F S1x256 .f32) (x5 : Vec F S1x256 .f32) (x6 : Vec F S1x256 .f32) (x7 : Vec F S256x128 .bf16) (x8 : Vec F S1x128 .f32) (x9 : Vec F S1x128 .f32) (x10 : Vec F S1x128 .f32) : Vec F S5000x128 .f32 :=
  View.canon [⟨r3_a, k3_pay1 (k3_pay2 (View.ld x2 r3_b) (View.ld x0 r3_a) (View.ld x1 r3_a) (View.ld x3 r3_c) (View.ld x4 r3_d) (View.ld x5 r3_d) (View.ld x6 r3_d) (View.ld x7 r3_e) (View.ld x8 r3_f)) (View.ld x9 r3_f) (View.ld x10 r3_f)⟩]

/-- The one store is of the whole buffer, so it covers it. -/
theorem cover3_11 (p0 : Vec F S5000x128 .f32) (y : S5000x128.Idx) :
    ∃ pc ∈ ([⟨r3_a, p0⟩] : List (View.Piece (Elt F) S5000x128 .f32)), y ∈ pc.1.set :=
  View.cover_of_tiled [⟨r3_a, p0⟩] S5000x128.size (by rfl) y

/-! ## The body's triple -/

set_option maxHeartbeats 4000000 in
/-- The kernel body on whole staging memrefs, the inputs' at read contents `xW` and the output's at anything, runs to
    the continuation holding the inputs' as they were and the output's at `out3_11` of the inputs'. -/
theorem sound_kernel3 (c : Dev nD) (E : Set ℕ) (i : grid3.Coords) (arg1 : Memref sig .tc .vmem S5000x128 .f32) (harg1 : arg1.IsWhole) (arg2 : Memref sig .tc .vmem S5000x128 .f32) (harg2 : arg2.IsWhole) (arg3 : Memref sig .tc .vmem S1x1 .f32) (harg3 : arg3.IsWhole) (arg4 : Memref sig .tc .vmem S128x256 .bf16) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S256x128 .bf16) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S5000x128 .f32) (harg12 : arg12.IsWhole)
    (x0 : Vec F S5000x128 .f32) (x1 : Vec F S5000x128 .f32) (x2 : Vec F S1x1 .f32) (x3 : Vec F S128x256 .bf16) (x4 : Vec F S1x256 .f32) (x5 : Vec F S1x256 .f32) (x6 : Vec F S1x256 .f32) (x7 : Vec F S256x128 .bf16) (x8 : Vec F S1x128 .f32) (x9 : Vec F S1x128 .f32) (x10 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out3_11 x0 x1 x2 x3 x4 x5 x6 x7 x8 x9 x10)) -∗ K ⟨⟩))
      ⊢ wp frame (wpE (defs₀ (F := F)) Variants.none c none) E (cc3__gin_mlp_kernel i arg1 harg1 arg2 harg2 arg3 harg3 arg4 harg4 arg5 harg5 arg6 harg6 arg7 harg7 arg8 harg8 arg9 harg9 arg10 harg10 arg11 harg11 arg12 harg12) K := by
  simp only [cc3__gin_mlp_kernel_eq_skeleton]; unfold cc3__gin_mlp_kernel_skel
  simp only [k3_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  exact View.read_writes_eq_canon _ _ _ (cover3_11 _)

/-! ## The pipeline's proof data -/

/-- The proof data of pipeline 0 on core `c`: the arrays as the region finds them; after the body at point `t` each
    input's buffer at its block and the output's at `out3_11` of the input blocks; the invariant the untouched rest;
    nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => iblk3 V c 10 t
    | ⟨11, _⟩ => out3_11 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = iblk3 V c 9 t := by dsimp only [dat3]
theorem after3_10 (c : Dev nD) (t : Fin cfg3.N) : (dat3 V c).after 10 t = iblk3 V c 10 t := by dsimp only [dat3]
theorem after3_11 (c : Dev nD) (t : Fin cfg3.N) : (dat3 V c).after 11 t = out3_11 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
theorem before3_8 (c : Dev nD) (t : Fin cfg3.N) (d) : (dat3 V c).before 8 t d = iblk3 V c 8 t :=
  before3_8_of V (dat3 V c) (A_eq3 V c 8) (after3_8 V c) t d
theorem before3_9 (c : Dev nD) (t : Fin cfg3.N) (d) : (dat3 V c).before 9 t d = iblk3 V c 9 t :=
  before3_9_of V (dat3 V c) (A_eq3 V c 9) (after3_9 V c) t d
theorem before3_10 (c : Dev nD) (t : Fin cfg3.N) (d) : (dat3 V c).before 10 t d = iblk3 V c 10 t :=
  before3_10_of V (dat3 V c) (A_eq3 V c 10) (after3_10 V c) t d

/-- The invariant at the region's entry and exit is the untouched rest itself. -/
theorem PhiIn3 (c : Dev nD) : Pipeline.ΦA spec3 c ⊢ (dat3 V c).Φ 0 := .rfl
theorem PhiOut3 (c : Dev nD) : (dat3 V c).Φ (Fin.last _) ⊢ Pipeline.ΦA spec3 c := .rfl

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d))
    ∗ (∃ d, owns (c : Thread nD τ) (st3_10 t) fullShare ((dat3 V c).before 10 t d))
    ∗ (∃ d, owns (c : Thread nD τ) (st3_11 t) fullShare ((dat3 V c).before 11 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t)
    ∗ owns (c : Thread nD τ) (st3_10 t) fullShare ((dat3 V c).after 10 t)
    ∗ owns (c : Thread nD τ) (st3_11 t) fullShare ((dat3 V c).after 11 t))

/-- The body at any point: the inputs' memrefs hold their blocks, so the body's triple applies; the invariant and
    the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8, before3_9, before3_10]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9, after3_10, after3_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel3 c Set.univ _ _ _ _ _ _ _ _ _ _ _ _ _ _ _ _ _ _ _ _ _ _ _ _ _
    (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand
-- ==== Proof.KSegRegion4.lean ====
/- Region 4 of @main, custom_call 4, the batch-grouped segment sum `cc4__segsum_kernel`: the frame half of its pipeline,
   at any float model `F` and at a PARAMETER `V`, the TensorCore's buffer contents when the region is entered.
   The grid has ten points. A scratch accumulator (256x128, f32) is carried from point to point: the first point stores
   the zero block into it, every point then adds its 5000-row block's contribution (the transposed one-hot of the
   block's segment ids times the block), and the last point copies it into the output window's staging buffer, which
   the pipeline writes back once. So the invariant between points names what the scratch holds, by recursion on the
   point (`accAt4`); the output window is idle at every point but the last and is handed back there as it was found. -/
import proofs.«403491_j395136991532_1_alg».proof.Proof.Gen.Kernel.Launch
import proofs.«403491_j395136991532_1_alg».proof.Proof.Gen.Kernel.Skeleton
import proofs.«403491_j395136991532_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for any proof data
    whose array is `V`'s and whose body leaves the block in place: the window is uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, likewise. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The body's branch conditions -/

/-- The first conditional's condition (the accumulator's reset), from the grid coordinate. -/
abbrev cond4_0 (i : grid4.Coords) : Prop := (Scalar.cmpi .ne (Scalar.extui (Scalar.cmpi .eq (BitVec.ofNat 32 (i 0).val) 0#32)) 0#32) = 1#1
/-- It holds at the first point only. -/
theorem hcond4_0 : ∀ t : Fin cfg4.N, cond4_0 (grid4.coords t) ↔ t.val % 10 = 0 :=
  (by decide +kernel : ∀ t : Fin grid4.N, cond4_0 (grid4.coords t) ↔ t.val % 10 = 0)

/-- The second conditional's condition (the copy into the output window). -/
abbrev cond4_1 (i : grid4.Coords) : Prop := k4_cond2 i = 1#1
/-- It holds at the last point only. -/
theorem hcond4_1 : ∀ t : Fin cfg4.N, cond4_1 (grid4.coords t) ↔ t.val % 10 = 9 :=
  (by decide +kernel : ∀ t : Fin grid4.N, cond4_1 (grid4.coords t) ↔ t.val % 10 = 9)

/-! ## Where the output window is idle -/

theorem liveAt4_0 : ∀ t : Fin cfg4.N, cfg4.idle 0 (grid4.coords t) = false := by decide +kernel
theorem liveAt4_1 : ∀ t : Fin cfg4.N, cfg4.idle 1 (grid4.coords t) = false := by decide +kernel
/-- Where the copy is not taken the output window is idle, -/
theorem idleAt4_2 : ∀ t : Fin cfg4.N, ¬cond4_1 (grid4.coords t) → cfg4.idle 2 (grid4.coords t) = true := by decide +kernel
/-- and not written back; -/
theorem noFlush4_2 : ∀ t : Fin cfg4.N, ¬cond4_1 (grid4.coords t) → (cfg4.win 2).flush t = false := by decide +kernel
/-- where it is taken the window is live. -/
theorem liveAt4_2 : ∀ t : Fin cfg4.N, cond4_1 (grid4.coords t) → cfg4.idle 2 (grid4.coords t) = false := by decide +kernel

/-! ## Whole-buffer accesses -/

/-- The zero offsets of a two-axis access. -/
theorem hz4 : (![0, 0] : Fin 2 → Nat) = fun _ => 0 := funext fun a => by fin_cases a <;> rfl

/-- A rectangle of the shape's own sizes at zero offsets holds every index. -/
theorem memUnit4 {S : Shape} {off : Fin S.rank → Nat} (h : off = fun _ => 0) (inb : ∀ a, off a + S.size a ≤ S.size a) (y : S.Idx) :
    y ∈ (Rect.unit off S.size inb).set := by
  subst h; show y ∈ (Rect.whole S).set; rw [Rect.set_whole]; exact Finset.mem_univ y

/-- A store through such a rectangle, made last, leaves its payload, whatever was stored before and whatever the
    buffer held. -/
theorem readLast4 {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f (⟨Rect.unit off S.size inb, w⟩ :: L)) = w := by
  rw [View.read_writes_eq_canon _ _ _ (fun y => ⟨_, List.mem_cons_self .., memUnit4 h inb y⟩), View.canon_cons_unit_zero h]

/-! ## The scratch accumulator -/

/-- The scratch operand: a whole scoped buffer of the kernel's own, passed beside the windows. -/
abbrev scM4 : Memref sig .tc .vmem S256x128 .f32 := Memref.whole cc4_scratch0

/-- THE ACCUMULATION. What the scratch holds after `n` points: the zero block the first point stores, then, point by
    point, the sum of what it held and the point's contribution (the payload of the body's second store, over the
    point's two input blocks and what the scratch held). -/
def accAt4 (c : Dev nD) : (n : ℕ) → n ≤ cfg4.N → Vec F S256x128 .f32
  | 0, _ => k4_pay1
  | n + 1, hn => k4_pay2 (iblk4 V c 0 ⟨n, hn⟩) (iblk4 V c 1 ⟨n, hn⟩) (accAt4 c n (Nat.le_of_lt hn))

theorem accAt4_zero (c : Dev nD) (h : 0 ≤ cfg4.N) : accAt4 V c 0 h = k4_pay1 := rfl
theorem accAt4_succ (c : Dev nD) (t : Fin cfg4.N) :
    accAt4 V c (t.val + 1) t.isLt = k4_pay2 (iblk4 V c 0 t) (iblk4 V c 1 t) (accAt4 V c t.val (Nat.le_of_lt t.isLt)) := rfl

/-! ## The body's triple, per control case -/

set_option maxHeartbeats 1000000 in
/-- THE FIRST POINT (the reset taken, the copy not): on whole memrefs, the inputs' at `x` and `b` and the scratch at
    anything, the body runs to the inputs' as they were and the scratch at the zero block plus the point's contribution.
    The output window's memref is not touched. -/
theorem sound_first4 (c : Dev nD) (E : Set ℕ) (i : grid4.Coords)
    (aX : Memref sig .tc .vmem S5000x128 .f32) (hX : aX.IsWhole) (aB : Memref sig .tc .vmem S5000x1 .i32) (hB : aB.IsWhole)
    (aO : Memref sig .tc .vmem S256x128 .f32) (hO : aO.IsWhole) (aS : Memref sig .tc .vmem S256x128 .f32) (hS : aS.IsWhole)
    (hcR : cond4_0 i) (hcC : ¬cond4_1 i)
    (x : Vec F S5000x128 .f32) (b : Vec F S5000x1 .i32) (K : PUnit → sProp 𝕄) :
    iprop(owns (c : Thread nD τ) aX fullShare x ∗ owns (c : Thread nD τ) aB fullShare b ∗ (∃ d, owns (c : Thread nD τ) aS fullShare d)
        ∗ (iprop(owns (c : Thread nD τ) aX fullShare x ∗ owns (c : Thread nD τ) aB fullShare b
            ∗ owns (c : Thread nD τ) aS fullShare (k4_pay2 x b k4_pay1)) -∗ K ⟨⟩))
      ⊢ wp frame (wpE (defs₀ (F := F)) Variants.none c none) E (cc4__segsum_kernel i aX hX aB hB aO hO aS hS) K := by
  simp only [cc4__segsum_kernel_eq_skeleton]; unfold cc4__segsum_kernel_skel
  unfold owns
  iintro ⟨⟨%fX, %hfX, HX⟩, ⟨%fB, %hfB, HB⟩, ⟨%dS, %fS, -, HS⟩, Hk⟩
  obtain rfl := hX.eq_unread hfX; obtain rfl := hB.eq_unread hfB
  sl_exec (disch := first | exact hcR | exact hcC)
  sl_step
  iapply Hk
  isplitl [HX]
  · iexists _; isplitr; · ipureintro; exact hX.read_unread _
    iexact HX
  isplitl [HB]
  · iexists _; isplitr; · ipureintro; exact hB.read_unread _
    iexact HB
  iexists _; isplitr
  swap; · iexact HS
  ipureintro
  sl_unfold_run_names
  rw [readLast4 _ _ hz4, View.readCov_unit_zero _ hz4]
  simp only [View.readAt_eq_ld, hX.read_unread, hB.read_unread,
    View.ld_unit_zero (S := S5000x128) hz4, View.ld_unit_zero (S := S5000x1) hz4]

set_option maxHeartbeats 1000000 in
/-- A MIDDLE POINT (neither conditional taken): the scratch at `a` ends at `a` plus the point's contribution. -/
theorem sound_mid4 (c : Dev nD) (E : Set ℕ) (i : grid4.Coords)
    (aX : Memref sig .tc .vmem S5000x128 .f32) (hX : aX.IsWhole) (aB : Memref sig .tc .vmem S5000x1 .i32) (hB : aB.IsWhole)
    (aO : Memref sig .tc .vmem S256x128 .f32) (hO : aO.IsWhole) (aS : Memref sig .tc .vmem S256x128 .f32) (hS : aS.IsWhole)
    (hcR : ¬cond4_0 i) (hcC : ¬cond4_1 i)
    (x : Vec F S5000x128 .f32) (b : Vec F S5000x1 .i32) (a : Vec F S256x128 .f32) (K : PUnit → sProp 𝕄) :
    iprop(owns (c : Thread nD τ) aX fullShare x ∗ owns (c : Thread nD τ) aB fullShare b ∗ owns (c : Thread nD τ) aS fullShare a
        ∗ (iprop(owns (c : Thread nD τ) aX fullShare x ∗ owns (c : Thread nD τ) aB fullShare b
            ∗ owns (c : Thread nD τ) aS fullShare (k4_pay2 x b a)) -∗ K ⟨⟩))
      ⊢ wp frame (wpE (defs₀ (F := F)) Variants.none c none) E (cc4__segsum_kernel i aX hX aB hB aO hO aS hS) K := by
  simp only [cc4__segsum_kernel_eq_skeleton]; unfold cc4__segsum_kernel_skel
  unfold owns
  iintro ⟨⟨%fX, %hfX, HX⟩, ⟨%fB, %hfB, HB⟩, ⟨%fS, %hfS, HS⟩, Hk⟩
  obtain rfl := hX.eq_unread hfX; obtain rfl := hB.eq_unread hfB; obtain rfl := hS.eq_unread hfS
  sl_exec (disch := first | exact hcR | exact hcC)
  sl_step
  iapply Hk
  isplitl [HX]
  · iexists _; isplitr; · ipureintro; exact hX.read_unread _
    iexact HX
  isplitl [HB]
  · iexists _; isplitr; · ipureintro; exact hB.read_unread _
    iexact HB
  iexists _; isplitr
  swap; · iexact HS
  ipureintro
  rw [readLast4 _ _ hz4]
  simp only [View.readAt_eq_ld, hX.read_unread, hB.read_unread, hS.read_unread,
    View.ld_unit_zero (S := S5000x128) hz4, View.ld_unit_zero (S := S5000x1) hz4, View.ld_unit_zero (S := S256x128) hz4]

set_option maxHeartbeats 1000000 in
/-- THE LAST POINT (the copy taken, the reset not): the scratch at `a` ends at `a` plus the point's contribution, and
    the output window's memref, at anything, ends holding the same. -/
theorem sound_last4 (c : Dev nD) (E : Set ℕ) (i : grid4.Coords)
    (aX : Memref sig .tc .vmem S5000x128 .f32) (hX : aX.IsWhole) (aB : Memref sig .tc .vmem S5000x1 .i32) (hB : aB.IsWhole)
    (aO : Memref sig .tc .vmem S256x128 .f32) (hO : aO.IsWhole) (aS : Memref sig .tc .vmem S256x128 .f32) (hS : aS.IsWhole)
    (hcR : ¬cond4_0 i) (hcC : cond4_1 i)
    (x : Vec F S5000x128 .f32) (b : Vec F S5000x1 .i32) (a : Vec F S256x128 .f32) (K : PUnit → sProp 𝕄) :
    iprop(owns (c : Thread nD τ) aX fullShare x ∗ owns (c : Thread nD τ) aB fullShare b ∗ (∃ d, owns (c : Thread nD τ) aO fullShare d)
        ∗ owns (c : Thread nD τ) aS fullShare a
        ∗ (iprop(owns (c : Thread nD τ) aX fullShare x ∗ owns (c : Thread nD τ) aB fullShare b
            ∗ owns (c : Thread nD τ) aO fullShare (k4_pay2 x b a) ∗ owns (c : Thread nD τ) aS fullShare (k4_pay2 x b a)) -∗ K ⟨⟩))
      ⊢ wp frame (wpE (defs₀ (F := F)) Variants.none c none) E (cc4__segsum_kernel i aX hX aB hB aO hO aS hS) K := by
  simp only [cc4__segsum_kernel_eq_skeleton]; unfold cc4__segsum_kernel_skel
  unfold owns
  iintro ⟨⟨%fX, %hfX, HX⟩, ⟨%fB, %hfB, HB⟩, ⟨%dO, %fO, -, HO⟩, ⟨%fS, %hfS, HS⟩, Hk⟩
  obtain rfl := hX.eq_unread hfX; obtain rfl := hB.eq_unread hfB; obtain rfl := hS.eq_unread hfS
  sl_exec (disch := first | exact hcR | exact hcC)
  sl_step
  iapply Hk
  isplitl [HX]
  · iexists _; isplitr; · ipureintro; exact hX.read_unread _
    iexact HX
  isplitl [HB]
  · iexists _; isplitr; · ipureintro; exact hB.read_unread _
    iexact HB
  isplitl [HO]
  · iexists _; isplitr
    swap; · iexact HO
    ipureintro
    sl_unfold_run_names
    rw [readLast4 _ _ hz4, View.readCov_unit_zero _ hz4]
    simp only [View.readAt_eq_ld, hX.read_unread, hB.read_unread, hS.read_unread,
      View.ld_unit_zero (S := S5000x128) hz4, View.ld_unit_zero (S := S5000x1) hz4, View.ld_unit_zero (S := S256x128) hz4]
  iexists _; isplitr
  swap; · iexact HS
  ipureintro
  sl_unfold_run_names
  rw [readLast4 _ _ hz4]
  simp only [View.readAt_eq_ld, hX.read_unread, hB.read_unread, hS.read_unread,
    View.ld_unit_zero (S := S5000x128) hz4, View.ld_unit_zero (S := S5000x1) hz4, View.ld_unit_zero (S := S256x128) hz4]

/-- The region invariant before position `n`: before the first point the class's (every scratch at anything); afterwards
    the carried scratch at what the points so far accumulated, the other scoped buffers unopened, and the generator
    register at some state. -/
def Phi4 (c : Dev nD) (n : ℕ) (hn : n ≤ cfg4.N) : sProp 𝕄 :=
  if n = 0 then Pipeline.ΦA spec4 c
  else iprop(owns (c : Thread nD τ) scM4 fullShare (accAt4 V c n hn)
      ∗ Pipeline.scopedRestBut (Ix := Unit) (Name := ℕ) (U := UR sig nD τ) (Lvl := ℕ) (Val := Elt F) spec4 c [cc4_scratch0]
      ∗ (∃ r, prngReg c r))

theorem Phi4_zero (c : Dev nD) (n : ℕ) (h : n ≤ cfg4.N) (hz : n = 0) : Phi4 V c n h = Pipeline.ΦA spec4 c := by
  unfold Phi4; exact if_pos hz

theorem Phi4_pos (c : Dev nD) (n : ℕ) (h : n ≤ cfg4.N) (hz : n ≠ 0) :
    Phi4 V c n h = iprop(owns (c : Thread nD τ) scM4 fullShare (accAt4 V c n h)
      ∗ Pipeline.scopedRestBut (Ix := Unit) (Name := ℕ) (U := UR sig nD τ) (Lvl := ℕ) (Val := Elt F) spec4 c [cc4_scratch0]
      ∗ (∃ r, prngReg c r)) := by
  unfold Phi4; exact if_neg hz

/-- The class's invariant with the scratch operand split out of the scoped rest as a memref owned at some contents. -/
theorem PhiA4_eq (c : Dev nD) :
    (Pipeline.ΦA spec4 c : sProp 𝕄)
      = iprop(iprop(iprop((∃ d, owns (c : Thread nD τ) scM4 fullShare d))
          ∗ Pipeline.scopedRestBut (Ix := Unit) (Name := ℕ) (U := UR sig nD τ) (Lvl := ℕ) (Val := Elt F) spec4 c [cc4_scratch0])
        ∗ (∃ r, prngReg c r)) := by
  unfold Pipeline.ΦA; rw [scopedRest4_split]; simp only [scM4, owns_whole]; try rfl

/-! ## The pipeline's proof data -/

/-- The proof data of pipeline 4 on core `c`: the arrays as the region finds them (`V`); after the body at point `t` each
    input's buffer at its block and the output's at what the scratch then holds (consulted at the last point only: the
    window is idle elsewhere); the invariant `Phi4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => accAt4 V c (t.val + 1) t.isLt
  Φ t := Phi4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = accAt4 V c (t.val + 1) t.isLt := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-- The invariant at a point's start, restated at `t.val`. -/
theorem Phi4_castSucc (c : Dev nD) (t : Fin cfg4.N) :
    (dat4 V c).Φ t.castSucc = Phi4 V c t.val (Nat.le_of_lt t.isLt) := by
  dsimp only [dat4]; simp only [Fin.coe_castSucc]

/-- The invariant at a point's end: the carried scratch at what the points up to this one accumulated. -/
theorem Phi4_succ (c : Dev nD) (t : Fin cfg4.N) :
    (dat4 V c).Φ t.succ = iprop(owns (c : Thread nD τ) scM4 fullShare (accAt4 V c (t.val + 1) t.isLt)
      ∗ Pipeline.scopedRestBut (Ix := Unit) (Name := ℕ) (U := UR sig nD τ) (Lvl := ℕ) (Val := Elt F) spec4 c [cc4_scratch0]
      ∗ (∃ r, prngReg c r)) := by
  dsimp only [dat4]; simp only [Fin.val_succ]; exact Phi4_pos V c _ _ (Nat.succ_ne_zero _)

/-- Before any point has run the accumulation is the zero block. -/
theorem accAt4_of_zero (c : Dev nD) (n : ℕ) (h : n ≤ cfg4.N) (hz : n = 0) : accAt4 V c n h = k4_pay1 := by
  subst hz; rfl

/-! ## The body obligation, at a generic point -/

/-- What the body is called with at point `t` (the library's body obligation's precondition, the windows one by one), -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 4000000 in
/-- The body at any point. The inputs' memrefs hold their blocks; the closed forms of the two conditions say which of the
    three control cases the point is in, and that case's triple applies. The invariant hands the body the scratch — at
    anything at the first point, at what the points before accumulated afterwards — and takes it back at what the points
    up to this one accumulated; the other scoped buffers, the generator register and the core's `owes` pass through
    unread; the output window's memref is handed back as it was found except at the last point, where it holds the
    accumulation. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl, Phi4_succ V c t, Phi4_castSucc V c t]
  have hN : t.val < 10 := lt_of_lt_of_eq t.isLt (show cfg4.N = 10 from N_4)
  rw [show (dat4 V c).leavesExact 0 t = owns (c : Thread nD τ) (st4_0 t) fullShare ((dat4 V c).after 0 t) from by
    unfold Dat.leavesExact; rw [liveAt4_0 t], after4_0]
  rw [show (dat4 V c).leavesExact 1 t = owns (c : Thread nD τ) (st4_1 t) fullShare ((dat4 V c).after 1 t) from by
    unfold Dat.leavesExact; rw [liveAt4_1 t], after4_1]
  rw [accAt4_succ V c t]
  by_cases hL : t.val % 10 = 9
  · have hcC : cond4_1 (grid4.coords t) := (hcond4_1 t).mpr hL
    have hcR : ¬cond4_0 (grid4.coords t) := fun h => by have := (hcond4_0 t).mp h; omega
    have hz : t.val ≠ 0 := by omega
    rw [show (dat4 V c).leavesExact 2 t = owns (c : Thread nD τ) (st4_2 t) fullShare ((dat4 V c).after 2 t) from by
      unfold Dat.leavesExact; rw [liveAt4_2 t hcC], after4_2, accAt4_succ V c t]
    rw [Phi4_pos V c _ _ hz]
    iintro ⟨⟨HS, Hrest, Hg⟩, Ho, ⟨%dX, HX⟩, ⟨%dB, HB⟩, ⟨%dO, HO⟩⟩
    iapply (sound_last4 c Set.univ (grid4.coords t) _ _ _ _ _ _ _ _ hcR hcC (iblk4 V c 0 t) (iblk4 V c 1 t)
      (accAt4 V c t.val (Nat.le_of_lt t.isLt)) _)
    isplitl [HX]; · iexact HX
    isplitl [HB]; · iexact HB
    isplitl [HO]; · iexists _; iexact HO
    isplitl [HS]; · iexact HS
    iintro ⟨HX, HB, HO, HS⟩
    isplitl [HS Hrest Hg]
    · isplitl [HS]; · iexact HS
      isplitl [Hrest]; · iexact Hrest
      iexact Hg
    isplitl [Ho]; · iexact Ho
    isplitl [HX]; · iexact HX
    isplitl [HB]; · iexact HB
    iexact HO
  · have hcC : ¬cond4_1 (grid4.coords t) := fun h => hL ((hcond4_1 t).mp h)
    rw [Dat.leavesExact_idle (dat4 V c) 2 t (idleAt4_2 t hcC) (noFlush4_2 t hcC)]
    by_cases hF : t.val % 10 = 0
    · have hcR : cond4_0 (grid4.coords t) := (hcond4_0 t).mpr hF
      have hz : t.val = 0 := by omega
      rw [Phi4_zero V c _ _ hz, PhiA4_eq, accAt4_of_zero V c _ _ hz]
      iintro ⟨⟨⟨HS, Hrest⟩, Hg⟩, Ho, ⟨%dX, HX⟩, ⟨%dB, HB⟩, ⟨%dO, HO⟩⟩
      iapply (sound_first4 c Set.univ (grid4.coords t) _ _ _ _ _ _ _ _ hcR hcC (iblk4 V c 0 t) (iblk4 V c 1 t) _)
      isplitl [HX]; · iexact HX
      isplitl [HB]; · iexact HB
      isplitl [HS]; · iexact HS
      iintro ⟨HX, HB, HS⟩
      isplitl [HS Hrest Hg]
      · isplitl [HS]; · iexact HS
        isplitl [Hrest]; · iexact Hrest
        iexact Hg
      isplitl [Ho]; · iexact Ho
      isplitl [HX]; · iexact HX
      isplitl [HB]; · iexact HB
      iexists _; iexact HO
    · have hcR : ¬cond4_0 (grid4.coords t) := fun h => hF ((hcond4_0 t).mp h)
      have hz : t.val ≠ 0 := by omega
      rw [Phi4_pos V c _ _ hz]
      iintro ⟨⟨HS, Hrest, Hg⟩, Ho, ⟨%dX, HX⟩, ⟨%dB, HB⟩, ⟨%dO, HO⟩⟩
      iapply (sound_mid4 c Set.univ (grid4.coords t) _ _ _ _ _ _ _ _ hcR hcC (iblk4 V c 0 t) (iblk4 V c 1 t)
        (accAt4 V c t.val (Nat.le_of_lt t.isLt)) _)
      isplitl [HX]; · iexact HX
      isplitl [HB]; · iexact HB
      isplitl [HS]; · iexact HS
      iintro ⟨HX, HB, HS⟩
      isplitl [HS Hrest Hg]
      · isplitl [HS]; · iexact HS
        isplitl [Hrest]; · iexact Hrest
        iexact Hg
      isplitl [Ho]; · iexact Ho
      isplitl [HX]; · iexact HX
      isplitl [HB]; · iexact HB
      iexists _; iexact HO

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem PhiIn4 (c : Dev nD) : Pipeline.ΦA spec4 c ⊢ (dat4 V c).Φ 0 := by
  rw [show (dat4 V c).Φ 0 = Phi4 V c 0 (Nat.zero_le _) from rfl, Phi4_zero V c 0 _ rfl]

/-- After the last point the invariant gives the class's back: the scratch's named contents are forgotten. -/
theorem PhiOut4 (c : Dev nD) : (dat4 V c).Φ (Fin.last _) ⊢ Pipeline.ΦA spec4 c := by
  rw [show (dat4 V c).Φ (Fin.last _) = Phi4 V c cfg4.N (Nat.le_refl _) from rfl,
    Phi4_pos V c _ _ (by rw [show cfg4.N = 10 from N_4]; decide), PhiA4_eq]
  iintro ⟨HS, Hrest, Hg⟩
  isplitl [HS Hrest]
  · isplitl [HS]
    · iexists _; iexact HS
    iexact Hrest
  iexact Hg

end Cert.Kernel.Hand

end
-- ==== Proof.KVnRegion5.lean ====
/- Region 5 of @main, custom_call 5, the virtual node's two-layer perceptron `cc5__vn_mlp_kernel`: the frame half of its pipeline, at any float model `F` and at a PARAMETER `V`, the
   TensorCore's buffer contents when the region is entered. The grid is one point and every window's block is its whole
   array. Each input window's staging buffer holds its block; the output's, after the body, holds what the body's one store
   leaves, a function `out5_9` of the input blocks; the body's triple is run on whole staging memrefs; the pipeline's proof
   data carries the arrays at `V`, the untouched invariant, full shares and nothing owed; and the library's body obligation
   follows at the one point. -/
import proofs.«403491_j395136991532_1_alg».proof.Proof.Gen.Kernel.Launch
import proofs.«403491_j395136991532_1_alg».proof.Proof.Gen.Kernel.Skeleton
import proofs.«403491_j395136991532_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for any proof data
    whose array is `V`'s and whose body leaves the block in place: the window is uncut and never idle. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not, for any proof data
    whose array is `V`'s and whose body leaves the block in place: the window is uncut and never idle. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not, for any proof data
    whose array is `V`'s and whose body leaves the block in place: the window is uncut and never idle. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, fetched there or not, for any proof data
    whose array is `V`'s and whose body leaves the block in place: the window is uncut and never idle. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds its block at every point, fetched there or not, for any proof data
    whose array is `V`'s and whose body leaves the block in place: the window is uncut and never idle. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- Input window 5's current staging buffer holds its block at every point, fetched there or not, for any proof data
    whose array is `V`'s and whose body leaves the block in place: the window is uncut and never idle. -/
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)

/-- Input window 6's current staging buffer holds its block at every point, fetched there or not, for any proof data
    whose array is `V`'s and whose body leaves the block in place: the window is uncut and never idle. -/
theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)

/-- Input window 7's current staging buffer holds its block at every point, fetched there or not, for any proof data
    whose array is `V`'s and whose body leaves the block in place: the window is uncut and never idle. -/
theorem before5_7_of {c : Dev nD} (dat : Dat τ (Elt F) Unit ℕ (UR sig nD τ) ℕ cfg5 c) (hA : dat.A 7 = V c (Pipeline.arrRef spec5 7))
    (hafter : ∀ t, dat.after 7 t = iblk5 V c 7 t) (t : Fin cfg5.N) (d) : dat.before 7 t d = iblk5 V c 7 t :=
  (dat.before_in_eq_fetched 7 rfl (fun _ => rfl) (fun _ _ _ => rfl) (fun t => by rw [hafter]; unfold Dat.blockOf iblk5; rw [hA]; try rfl) t d).trans
    (by unfold Dat.fetched Dat.blockOf iblk5; rw [hA]; try rfl)

/-- Input window 8's current staging buffer holds its block at every point, fetched there or not, for any proof data
    whose array is `V`'s and whose body leaves the block in place: the window is uncut and never idle. -/
theorem before5_8_of {c : Dev nD} (dat : Dat τ (Elt F) Unit ℕ (UR sig nD τ) ℕ cfg5 c) (hA : dat.A 8 = V c (Pipeline.arrRef spec5 8))
    (hafter : ∀ t, dat.after 8 t = iblk5 V c 8 t) (t : Fin cfg5.N) (d) : dat.before 8 t d = iblk5 V c 8 t :=
  (dat.before_in_eq_fetched 8 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each is a whole buffer -/

abbrev r5_0 : Rect S256x128 := Rect.unit (s := S256x128) ![0, 0] S256x128.size inb_S256x128_S256x128_0_0
abbrev r5_1 : Rect S128x256 := Rect.unit (s := S128x256) ![0, 0] S128x256.size inb_S128x256_S128x256_0_0
abbrev r5_2 : Rect S1x256 := Rect.unit (s := S1x256) ![0, 0] S1x256.size inb_S1x256_S1x256_0_0
abbrev r5_3 : Rect S1x128 := Rect.unit (s := S1x128) ![0, 0] S1x128.size inb_S1x128_S1x128_0_0

/-! ## What the body leaves in the output window's buffer -/

/-- Window 9's staging buffer after the body, from the input windows' blocks: its one store as a piece (the payload is
    the skeleton's). -/
def out5_9 (x0 : Vec F S256x128 .f32) (x1 : Vec F S128x256 .bf16) (x2 : Vec F S1x256 .f32) (x3 : Vec F S1x256 .f32) (x4 : Vec F S1x256 .f32) (x5 : Vec F S256x128 .bf16) (x6 : Vec F S1x128 .f32) (x7 : Vec F S1x128 .f32) (x8 : Vec F S1x128 .f32) : Vec F S256x128 .f32 :=
  View.canon [⟨r5_0, k5_pay1 (k5_pay2 (View.ld x0 r5_0) (View.ld x1 r5_1) (View.ld x2 r5_2) (View.ld x3 r5_2) (View.ld x4 r5_2) (View.ld x5 r5_0) (View.ld x6 r5_3) (View.ld x7 r5_3) (View.ld x8 r5_3)) k5_pay3⟩]

/-- The one store is of the whole buffer, so it covers it. -/
theorem cover5_9 (p0 : Vec F S256x128 .f32) (y : S256x128.Idx) :
    ∃ pc ∈ ([⟨r5_0, p0⟩] : List (View.Piece (Elt F) S256x128 .f32)), y ∈ pc.1.set :=
  View.cover_of_tiled [⟨r5_0, p0⟩] S256x128.size (by rfl) y

/-! ## The body's triple -/

set_option maxHeartbeats 1000000 in
/-- The kernel body on whole staging memrefs, the inputs' at read contents `xW` and the output's at anything, runs to the
    continuation holding the inputs' as they were and the output's at `out5_9` of the inputs': the printed functions are
    their skeletons of memory operations over payloads, which are run operation by operation, through the part call. -/
theorem sound_kernel5 (c : Dev nD) (E : Set ℕ) (i : grid5.Coords) (arg1 : Memref sig .tc .vmem S256x128 .f32) (harg1 : arg1.IsWhole) (arg2 : Memref sig .tc .vmem S128x256 .bf16) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x128 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole)
    (x0 : Vec F S256x128 .f32) (x1 : Vec F S128x256 .bf16) (x2 : Vec F S1x256 .f32) (x3 : Vec F S1x256 .f32) (x4 : Vec F S1x256 .f32) (x5 : Vec F S256x128 .bf16) (x6 : Vec F S1x128 .f32) (x7 : Vec F S1x128 .f32) (x8 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out5_9 x0 x1 x2 x3 x4 x5 x6 x7 x8)) -∗ K ⟨⟩))
      ⊢ wp frame (wpE (defs₀ (F := F)) Variants.none c none) E (cc5__vn_mlp_kernel i arg1 harg1 arg2 harg2 arg3 harg3 arg4 harg4 arg5 harg5 arg6 harg6 arg7 harg7 arg8 harg8 arg9 harg9 arg10 harg10) K := by
  simp only [cc5__vn_mlp_kernel_eq_skeleton]; unfold cc5__vn_mlp_kernel_skel
  simp only [k5_part1_eq_skeleton]; unfold k5_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover5_9 _)

/-! ## The pipeline's proof data -/

/-- The proof data of pipeline 5 on core `c`: the arrays as the region finds them (`V`); after the body at point `t` each
    input's buffer at its block and the output's at `out5_9` of the input blocks; the invariant the scoped rest and the
    generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => iblk5 V c 7 t
    | ⟨8, _⟩ => iblk5 V c 8 t
    | ⟨9, _⟩ => out5_9 (iblk5 V c 0 t) (iblk5 V c 1 t) (iblk5 V c 2 t) (iblk5 V c 3 t) (iblk5 V c 4 t) (iblk5 V c 5 t) (iblk5 V c 6 t) (iblk5 V c 7 t) (iblk5 V c 8 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = iblk5 V c 7 t := by dsimp only [dat5]
theorem after5_8 (c : Dev nD) (t : Fin cfg5.N) : (dat5 V c).after 8 t = iblk5 V c 8 t := by dsimp only [dat5]
theorem after5_9 (c : Dev nD) (t : Fin cfg5.N) : (dat5 V c).after 9 t = out5_9 (iblk5 V c 0 t) (iblk5 V c 1 t) (iblk5 V c 2 t) (iblk5 V c 3 t) (iblk5 V c 4 t) (iblk5 V c 5 t) (iblk5 V c 6 t) (iblk5 V c 7 t) (iblk5 V c 8 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d
theorem before5_7 (c : Dev nD) (t : Fin cfg5.N) (d) : (dat5 V c).before 7 t d = iblk5 V c 7 t :=
  before5_7_of V (dat5 V c) (A_eq5 V c 7) (after5_7 V c) t d
theorem before5_8 (c : Dev nD) (t : Fin cfg5.N) (d) : (dat5 V c).before 8 t d = iblk5 V c 8 t :=
  before5_8_of V (dat5 V c) (A_eq5 V c 8) (after5_8 V c) t d

/-- The invariant at the region's entry is the class's, -/
theorem PhiIn5 (c : Dev nD) : Pipeline.ΦA spec5 c ⊢ (dat5 V c).Φ 0 := .rfl

/-- and at its exit. -/
theorem PhiOut5 (c : Dev nD) : (dat5 V c).Φ (Fin.last _) ⊢ Pipeline.ΦA spec5 c := .rfl

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d))
    ∗ (∃ d, owns (c : Thread nD τ) (st5_8 t) fullShare ((dat5 V c).before 8 t d))
    ∗ (∃ d, owns (c : Thread nD τ) (st5_9 t) fullShare ((dat5 V c).before 9 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t)
    ∗ owns (c : Thread nD τ) (st5_8 t) fullShare ((dat5 V c).after 8 t)
    ∗ owns (c : Thread nD τ) (st5_9 t) fullShare ((dat5 V c).after 9 t))

/-- The body at any point: the inputs' memrefs hold their blocks, so the body's triple applies; the invariant and the core's
    debts pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6, before5_7, before5_8]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7, after5_8, after5_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel5 c Set.univ _ _ _ _ _ _ _ _ _ _ _ _ _ _ _ _ _ _ _ _ _ (iblk5 V c 0 t) (iblk5 V c 1 t) (iblk5 V c 2 t) (iblk5 V c 3 t) (iblk5 V c 4 t) (iblk5 V c 5 t) (iblk5 V c 6 t) (iblk5 V c 7 t) (iblk5 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.KGinRegion6.lean ====
import proofs.«403491_j395136991532_1_alg».proof.Proof.Gen.Kernel.Launch
import proofs.«403491_j395136991532_1_alg».proof.Proof.Gen.Kernel.Skeleton
import proofs.«403491_j395136991532_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 6 (pipeline 6, the per-node two-layer perceptron on 5000-row tiles): the frame half

Stated at a parameter `V`, the TensorCore's buffer contents when the region is entered. Eleven input windows
(the two tiled operands and nine resident ones) and one tiled output window. The body reads every input buffer
whole, computes, and overwrites the output buffer whole; so after the body each input buffer still holds its
block, and the output buffer holds one closed function of the eleven input blocks. -/

-- membership in a rectangle of 5000 rows: the structural look recurses once per coordinate of the long axis
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not (not fetched:
    the block index has not moved), for any proof data whose array is `V`'s and whose body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current staging buffer holds its block at every point, fetched there or not (not fetched:
    the block index has not moved), for any proof data whose array is `V`'s and whose body leaves the block in place. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's current staging buffer holds its block at every point, fetched there or not (not fetched:
    the block index has not moved), for any proof data whose array is `V`'s and whose body leaves the block in place. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3's current staging buffer holds its block at every point, fetched there or not (not fetched:
    the block index has not moved), for any proof data whose array is `V`'s and whose body leaves the block in place. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- Input window 4's current staging buffer holds its block at every point, fetched there or not (not fetched:
    the block index has not moved), for any proof data whose array is `V`'s and whose body leaves the block in place. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-- Input window 5's current staging buffer holds its block at every point, fetched there or not (not fetched:
    the block index has not moved), for any proof data whose array is `V`'s and whose body leaves the block in place. -/
theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)

/-- Input window 6's current staging buffer holds its block at every point, fetched there or not (not fetched:
    the block index has not moved), for any proof data whose array is `V`'s and whose body leaves the block in place. -/
theorem before6_6_of {c : Dev nD} (dat : Dat τ (Elt F) Unit ℕ (UR sig nD τ) ℕ cfg6 c) (hA : dat.A 6 = V c (Pipeline.arrRef spec6 6))
    (hafter : ∀ t, dat.after 6 t = iblk6 V c 6 t) (t : Fin cfg6.N) (d) : dat.before 6 t d = iblk6 V c 6 t :=
  (dat.before_in_eq_fetched 6 rfl (fun _ => rfl) (fun _ _ _ => rfl) (fun t => by rw [hafter]; unfold Dat.blockOf iblk6; rw [hA]; try rfl) t d).trans
    (by unfold Dat.fetched Dat.blockOf iblk6; rw [hA]; try rfl)

/-- Input window 7's current staging buffer holds its block at every point, fetched there or not (not fetched:
    the block index has not moved), for any proof data whose array is `V`'s and whose body leaves the block in place. -/
theorem before6_7_of {c : Dev nD} (dat : Dat τ (Elt F) Unit ℕ (UR sig nD τ) ℕ cfg6 c) (hA : dat.A 7 = V c (Pipeline.arrRef spec6 7))
    (hafter : ∀ t, dat.after 7 t = iblk6 V c 7 t) (t : Fin cfg6.N) (d) : dat.before 7 t d = iblk6 V c 7 t :=
  (dat.before_in_eq_fetched 7 rfl (fun _ => rfl) (fun _ _ _ => rfl) (fun t => by rw [hafter]; unfold Dat.blockOf iblk6; rw [hA]; try rfl) t d).trans
    (by unfold Dat.fetched Dat.blockOf iblk6; rw [hA]; try rfl)

/-- Input window 8's current staging buffer holds its block at every point, fetched there or not (not fetched:
    the block index has not moved), for any proof data whose array is `V`'s and whose body leaves the block in place. -/
theorem before6_8_of {c : Dev nD} (dat : Dat τ (Elt F) Unit ℕ (UR sig nD τ) ℕ cfg6 c) (hA : dat.A 8 = V c (Pipeline.arrRef spec6 8))
    (hafter : ∀ t, dat.after 8 t = iblk6 V c 8 t) (t : Fin cfg6.N) (d) : dat.before 8 t d = iblk6 V c 8 t :=
  (dat.before_in_eq_fetched 8 rfl (fun _ => rfl) (fun _ _ _ => rfl) (fun t => by rw [hafter]; unfold Dat.blockOf iblk6; rw [hA]; try rfl) t d).trans
    (by unfold Dat.fetched Dat.blockOf iblk6; rw [hA]; try rfl)

/-- Input window 9's current staging buffer holds its block at every point, fetched there or not (not fetched:
    the block index has not moved), for any proof data whose array is `V`'s and whose body leaves the block in place. -/
theorem before6_9_of {c : Dev nD} (dat : Dat τ (Elt F) Unit ℕ (UR sig nD τ) ℕ cfg6 c) (hA : dat.A 9 = V c (Pipeline.arrRef spec6 9))
    (hafter : ∀ t, dat.after 9 t = iblk6 V c 9 t) (t : Fin cfg6.N) (d) : dat.before 9 t d = iblk6 V c 9 t :=
  (dat.before_in_eq_fetched 9 rfl (fun _ => rfl) (fun _ _ _ => rfl) (fun t => by rw [hafter]; unfold Dat.blockOf iblk6; rw [hA]; try rfl) t d).trans
    (by unfold Dat.fetched Dat.blockOf iblk6; rw [hA]; try rfl)

/-- Input window 10's current staging buffer holds its block at every point, fetched there or not (not fetched:
    the block index has not moved), for any proof data whose array is `V`'s and whose body leaves the block in place. -/
theorem before6_10_of {c : Dev nD} (dat : Dat τ (Elt F) Unit ℕ (UR sig nD τ) ℕ cfg6 c) (hA : dat.A 10 = V c (Pipeline.arrRef spec6 10))
    (hafter : ∀ t, dat.after 10 t = iblk6 V c 10 t) (t : Fin cfg6.N) (d) : dat.before 10 t d = iblk6 V c 10 t :=
  (dat.before_in_eq_fetched 10 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: every buffer whole -/

abbrev r6_a : Rect S5000x128 := Rect.unit (s := S5000x128) ![0, 0] S5000x128.size inb_S5000x128_S5000x128_0_0
abbrev r6_b : Rect S1x1 := Rect.unit (s := S1x1) ![0, 0] S1x1.size inb_S1x1_S1x1_0_0
abbrev r6_c : Rect S128x256 := Rect.unit (s := S128x256) ![0, 0] S128x256.size inb_S128x256_S128x256_0_0
abbrev r6_d : Rect S1x256 := Rect.unit (s := S1x256) ![0, 0] S1x256.size inb_S1x256_S1x256_0_0
abbrev r6_e : Rect S256x128 := Rect.unit (s := S256x128) ![0, 0] S256x128.size inb_S256x128_S256x128_0_0
abbrev r6_f : Rect S1x128 := Rect.unit (s := S1x128) ![0, 0] S1x128.size inb_S1x128_S1x128_0_0

/-! ## What the body leaves in the output window's buffer -/

/-- Window 11's staging buffer after the body, from the eleven input blocks: its one store, of the last payload
    (scale and shift, then the layer's final clamp at zero where it has one) over the first (the two matrix products
    with their affine maps and the clamp between). -/
def out6_11 (x0 : Vec F S5000x128 .f32) (x1 : Vec F S5000x128 .f32) (x2 : Vec F S1x1 .f32) (x3 : Vec F S128x256 .bf16) (x4 : Vec F S1x256 .f32) (x5 : Vec F S1x256 .f32) (x6 : Vec F S1x256 .f32) (x7 : Vec F S256x128 .bf16) (x8 : Vec F S1x128 .f32) (x9 : Vec F S1x128 .f32) (x10 : Vec F S1x128 .f32) : Vec F S5000x128 .f32 :=
  View.canon [⟨r6_a, k6_pay1 (k6_pay2 (View.ld x2 r6_b) (View.ld x0 r6_a) (View.ld x1 r6_a) (View.ld x3 r6_c) (View.ld x4 r6_d) (View.ld x5 r6_d) (View.ld x6 r6_d) (View.ld x7 r6_e) (View.ld x8 r6_f)) (View.ld x9 r6_f) (View.ld x10 r6_f)⟩]

/-- The one store is of the whole buffer, so it covers it. -/
theorem cover6_11 (p0 : Vec F S5000x128 .f32) (y : S5000x128.Idx) :
    ∃ pc ∈ ([⟨r6_a, p0⟩] : List (View.Piece (Elt F) S5000x128 .f32)), y ∈ pc.1.set :=
  View.cover_of_tiled [⟨r6_a, p0⟩] S5000x128.size (by rfl) y

/-! ## The body's triple -/

set_option maxHeartbeats 4000000 in
/-- The kernel body on whole staging memrefs, the inputs' at read contents `xW` and the output's at anything, runs to
    the continuation holding the inputs' as they were and the output's at `out6_11` of the inputs'. -/
theorem sound_kernel6 (c : Dev nD) (E : Set ℕ) (i : grid6.Coords) (arg1 : Memref sig .tc .vmem S5000x128 .f32) (harg1 : arg1.IsWhole) (arg2 : Memref sig .tc .vmem S5000x128 .f32) (harg2 : arg2.IsWhole) (arg3 : Memref sig .tc .vmem S1x1 .f32) (harg3 : arg3.IsWhole) (arg4 : Memref sig .tc .vmem S128x256 .bf16) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S256x128 .bf16) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S5000x128 .f32) (harg12 : arg12.IsWhole)
    (x0 : Vec F S5000x128 .f32) (x1 : Vec F S5000x128 .f32) (x2 : Vec F S1x1 .f32) (x3 : Vec F S128x256 .bf16) (x4 : Vec F S1x256 .f32) (x5 : Vec F S1x256 .f32) (x6 : Vec F S1x256 .f32) (x7 : Vec F S256x128 .bf16) (x8 : Vec F S1x128 .f32) (x9 : Vec F S1x128 .f32) (x10 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out6_11 x0 x1 x2 x3 x4 x5 x6 x7 x8 x9 x10)) -∗ K ⟨⟩))
      ⊢ wp frame (wpE (defs₀ (F := F)) Variants.none c none) E (cc6__gin_mlp_kernel i arg1 harg1 arg2 harg2 arg3 harg3 arg4 harg4 arg5 harg5 arg6 harg6 arg7 harg7 arg8 harg8 arg9 harg9 arg10 harg10 arg11 harg11 arg12 harg12) K := by
  simp only [cc6__gin_mlp_kernel_eq_skeleton]; unfold cc6__gin_mlp_kernel_skel
  simp only [k6_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  exact View.read_writes_eq_canon _ _ _ (cover6_11 _)

/-! ## The pipeline's proof data -/

/-- The proof data of pipeline 0 on core `c`: the arrays as the region finds them; after the body at point `t` each
    input's buffer at its block and the output's at `out6_11` of the input blocks; the invariant the untouched rest;
    nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => iblk6 V c 7 t
    | ⟨8, _⟩ => iblk6 V c 8 t
    | ⟨9, _⟩ => iblk6 V c 9 t
    | ⟨10, _⟩ => iblk6 V c 10 t
    | ⟨11, _⟩ => out6_11 (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) (iblk6 V c 10 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = iblk6 V c 6 t := by dsimp only [dat6]
theorem after6_7 (c : Dev nD) (t : Fin cfg6.N) : (dat6 V c).after 7 t = iblk6 V c 7 t := by dsimp only [dat6]
theorem after6_8 (c : Dev nD) (t : Fin cfg6.N) : (dat6 V c).after 8 t = iblk6 V c 8 t := by dsimp only [dat6]
theorem after6_9 (c : Dev nD) (t : Fin cfg6.N) : (dat6 V c).after 9 t = iblk6 V c 9 t := by dsimp only [dat6]
theorem after6_10 (c : Dev nD) (t : Fin cfg6.N) : (dat6 V c).after 10 t = iblk6 V c 10 t := by dsimp only [dat6]
theorem after6_11 (c : Dev nD) (t : Fin cfg6.N) : (dat6 V c).after 11 t = out6_11 (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) (iblk6 V c 10 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d
theorem before6_6 (c : Dev nD) (t : Fin cfg6.N) (d) : (dat6 V c).before 6 t d = iblk6 V c 6 t :=
  before6_6_of V (dat6 V c) (A_eq6 V c 6) (after6_6 V c) t d
theorem before6_7 (c : Dev nD) (t : Fin cfg6.N) (d) : (dat6 V c).before 7 t d = iblk6 V c 7 t :=
  before6_7_of V (dat6 V c) (A_eq6 V c 7) (after6_7 V c) t d
theorem before6_8 (c : Dev nD) (t : Fin cfg6.N) (d) : (dat6 V c).before 8 t d = iblk6 V c 8 t :=
  before6_8_of V (dat6 V c) (A_eq6 V c 8) (after6_8 V c) t d
theorem before6_9 (c : Dev nD) (t : Fin cfg6.N) (d) : (dat6 V c).before 9 t d = iblk6 V c 9 t :=
  before6_9_of V (dat6 V c) (A_eq6 V c 9) (after6_9 V c) t d
theorem before6_10 (c : Dev nD) (t : Fin cfg6.N) (d) : (dat6 V c).before 10 t d = iblk6 V c 10 t :=
  before6_10_of V (dat6 V c) (A_eq6 V c 10) (after6_10 V c) t d

/-- The invariant at the region's entry and exit is the untouched rest itself. -/
theorem PhiIn6 (c : Dev nD) : Pipeline.ΦA spec6 c ⊢ (dat6 V c).Φ 0 := .rfl
theorem PhiOut6 (c : Dev nD) : (dat6 V c).Φ (Fin.last _) ⊢ Pipeline.ΦA spec6 c := .rfl

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d))
    ∗ (∃ d, owns (c : Thread nD τ) (st6_7 t) fullShare ((dat6 V c).before 7 t d))
    ∗ (∃ d, owns (c : Thread nD τ) (st6_8 t) fullShare ((dat6 V c).before 8 t d))
    ∗ (∃ d, owns (c : Thread nD τ) (st6_9 t) fullShare ((dat6 V c).before 9 t d))
    ∗ (∃ d, owns (c : Thread nD τ) (st6_10 t) fullShare ((dat6 V c).before 10 t d))
    ∗ (∃ d, owns (c : Thread nD τ) (st6_11 t) fullShare ((dat6 V c).before 11 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t)
    ∗ owns (c : Thread nD τ) (st6_7 t) fullShare ((dat6 V c).after 7 t)
    ∗ owns (c : Thread nD τ) (st6_8 t) fullShare ((dat6 V c).after 8 t)
    ∗ owns (c : Thread nD τ) (st6_9 t) fullShare ((dat6 V c).after 9 t)
    ∗ owns (c : Thread nD τ) (st6_10 t) fullShare ((dat6 V c).after 10 t)
    ∗ owns (c : Thread nD τ) (st6_11 t) fullShare ((dat6 V c).after 11 t))

/-- The body at any point: the inputs' memrefs hold their blocks, so the body's triple applies; the invariant and
    the core's `owes` pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5, before6_6, before6_7, before6_8, before6_9, before6_10]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6, after6_7, after6_8, after6_9, after6_10, after6_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel6 c Set.univ _ _ _ _ _ _ _ _ _ _ _ _ _ _ _ _ _ _ _ _ _ _ _ _ _
    (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) (iblk6 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Hand
-- ==== Proof.KSegRegion7.lean ====
/- Region 7 of @main, custom_call 7, the batch-grouped segment sum `cc7__segsum_kernel`: the frame half of its pipeline,
   at any float model `F` and at a PARAMETER `V`, the TensorCore's buffer contents when the region is entered.
   The grid has ten points. A scratch accumulator (256x128, f32) is carried from point to point: the first point stores
   the zero block into it, every point then adds its 5000-row block's contribution (the transposed one-hot of the
   block's segment ids times the block), and the last point copies it into the output window's staging buffer, which
   the pipeline writes back once. So the invariant between points names what the scratch holds, by recursion on the
   point (`accAt7`); the output window is idle at every point but the last and is handed back there as it was found. -/
import proofs.«403491_j395136991532_1_alg».proof.Proof.Gen.Kernel.Launch
import proofs.«403491_j395136991532_1_alg».proof.Proof.Gen.Kernel.Skeleton
import proofs.«403491_j395136991532_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, fetched there or not, for any proof data
    whose array is `V`'s and whose body leaves the block in place: the window is uncut and never idle. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer holds its block at every point, likewise. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-! ## The body's branch conditions -/

/-- The first conditional's condition (the accumulator's reset), from the grid coordinate. -/
abbrev cond7_0 (i : grid7.Coords) : Prop := (Scalar.cmpi .ne (Scalar.extui (Scalar.cmpi .eq (BitVec.ofNat 32 (i 0).val) 0#32)) 0#32) = 1#1
/-- It holds at the first point only. -/
theorem hcond7_0 : ∀ t : Fin cfg7.N, cond7_0 (grid7.coords t) ↔ t.val % 10 = 0 :=
  (by decide +kernel : ∀ t : Fin grid7.N, cond7_0 (grid7.coords t) ↔ t.val % 10 = 0)

/-- The second conditional's condition (the copy into the output window). -/
abbrev cond7_1 (i : grid7.Coords) : Prop := k7_cond2 i = 1#1
/-- It holds at the last point only. -/
theorem hcond7_1 : ∀ t : Fin cfg7.N, cond7_1 (grid7.coords t) ↔ t.val % 10 = 9 :=
  (by decide +kernel : ∀ t : Fin grid7.N, cond7_1 (grid7.coords t) ↔ t.val % 10 = 9)

/-! ## Where the output window is idle -/

theorem liveAt7_0 : ∀ t : Fin cfg7.N, cfg7.idle 0 (grid7.coords t) = false := by decide +kernel
theorem liveAt7_1 : ∀ t : Fin cfg7.N, cfg7.idle 1 (grid7.coords t) = false := by decide +kernel
/-- Where the copy is not taken the output window is idle, -/
theorem idleAt7_2 : ∀ t : Fin cfg7.N, ¬cond7_1 (grid7.coords t) → cfg7.idle 2 (grid7.coords t) = true := by decide +kernel
/-- and not written back; -/
theorem noFlush7_2 : ∀ t : Fin cfg7.N, ¬cond7_1 (grid7.coords t) → (cfg7.win 2).flush t = false := by decide +kernel
/-- where it is taken the window is live. -/
theorem liveAt7_2 : ∀ t : Fin cfg7.N, cond7_1 (grid7.coords t) → cfg7.idle 2 (grid7.coords t) = false := by decide +kernel

/-! ## Whole-buffer accesses -/

/-- The zero offsets of a two-axis access. -/
theorem hz7 : (![0, 0] : Fin 2 → Nat) = fun _ => 0 := funext fun a => by fin_cases a <;> rfl

/-- A rectangle of the shape's own sizes at zero offsets holds every index. -/
theorem memUnit7 {S : Shape} {off : Fin S.rank → Nat} (h : off = fun _ => 0) (inb : ∀ a, off a + S.size a ≤ S.size a) (y : S.Idx) :
    y ∈ (Rect.unit off S.size inb).set := by
  subst h; show y ∈ (Rect.whole S).set; rw [Rect.set_whole]; exact Finset.mem_univ y

/-- A store through such a rectangle, made last, leaves its payload, whatever was stored before and whatever the
    buffer held. -/
theorem readLast7 {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f (⟨Rect.unit off S.size inb, w⟩ :: L)) = w := by
  rw [View.read_writes_eq_canon _ _ _ (fun y => ⟨_, List.mem_cons_self .., memUnit7 h inb y⟩), View.canon_cons_unit_zero h]

/-! ## The scratch accumulator -/

/-- The scratch operand: a whole scoped buffer of the kernel's own, passed beside the windows. -/
abbrev scM7 : Memref sig .tc .vmem S256x128 .f32 := Memref.whole cc7_scratch0

/-- THE ACCUMULATION. What the scratch holds after `n` points: the zero block the first point stores, then, point by
    point, the sum of what it held and the point's contribution (the payload of the body's second store, over the
    point's two input blocks and what the scratch held). -/
def accAt7 (c : Dev nD) : (n : ℕ) → n ≤ cfg7.N → Vec F S256x128 .f32
  | 0, _ => k7_pay1
  | n + 1, hn => k7_pay2 (iblk7 V c 0 ⟨n, hn⟩) (iblk7 V c 1 ⟨n, hn⟩) (accAt7 c n (Nat.le_of_lt hn))

theorem accAt7_zero (c : Dev nD) (h : 0 ≤ cfg7.N) : accAt7 V c 0 h = k7_pay1 := rfl
theorem accAt7_succ (c : Dev nD) (t : Fin cfg7.N) :
    accAt7 V c (t.val + 1) t.isLt = k7_pay2 (iblk7 V c 0 t) (iblk7 V c 1 t) (accAt7 V c t.val (Nat.le_of_lt t.isLt)) := rfl

/-! ## The body's triple, per control case -/

set_option maxHeartbeats 1000000 in
/-- THE FIRST POINT (the reset taken, the copy not): on whole memrefs, the inputs' at `x` and `b` and the scratch at
    anything, the body runs to the inputs' as they were and the scratch at the zero block plus the point's contribution.
    The output window's memref is not touched. -/
theorem sound_first7 (c : Dev nD) (E : Set ℕ) (i : grid7.Coords)
    (aX : Memref sig .tc .vmem S5000x128 .f32) (hX : aX.IsWhole) (aB : Memref sig .tc .vmem S5000x1 .i32) (hB : aB.IsWhole)
    (aO : Memref sig .tc .vmem S256x128 .f32) (hO : aO.IsWhole) (aS : Memref sig .tc .vmem S256x128 .f32) (hS : aS.IsWhole)
    (hcR : cond7_0 i) (hcC : ¬cond7_1 i)
    (x : Vec F S5000x128 .f32) (b : Vec F S5000x1 .i32) (K : PUnit → sProp 𝕄) :
    iprop(owns (c : Thread nD τ) aX fullShare x ∗ owns (c : Thread nD τ) aB fullShare b ∗ (∃ d, owns (c : Thread nD τ) aS fullShare d)
        ∗ (iprop(owns (c : Thread nD τ) aX fullShare x ∗ owns (c : Thread nD τ) aB fullShare b
            ∗ owns (c : Thread nD τ) aS fullShare (k7_pay2 x b k7_pay1)) -∗ K ⟨⟩))
      ⊢ wp frame (wpE (defs₀ (F := F)) Variants.none c none) E (cc7__segsum_kernel i aX hX aB hB aO hO aS hS) K := by
  simp only [cc7__segsum_kernel_eq_skeleton]; unfold cc7__segsum_kernel_skel
  unfold owns
  iintro ⟨⟨%fX, %hfX, HX⟩, ⟨%fB, %hfB, HB⟩, ⟨%dS, %fS, -, HS⟩, Hk⟩
  obtain rfl := hX.eq_unread hfX; obtain rfl := hB.eq_unread hfB
  sl_exec (disch := first | exact hcR | exact hcC)
  sl_step
  iapply Hk
  isplitl [HX]
  · iexists _; isplitr; · ipureintro; exact hX.read_unread _
    iexact HX
  isplitl [HB]
  · iexists _; isplitr; · ipureintro; exact hB.read_unread _
    iexact HB
  iexists _; isplitr
  swap; · iexact HS
  ipureintro
  sl_unfold_run_names
  rw [readLast7 _ _ hz7, View.readCov_unit_zero _ hz7]
  simp only [View.readAt_eq_ld, hX.read_unread, hB.read_unread,
    View.ld_unit_zero (S := S5000x128) hz7, View.ld_unit_zero (S := S5000x1) hz7]

set_option maxHeartbeats 1000000 in
/-- A MIDDLE POINT (neither conditional taken): the scratch at `a` ends at `a` plus the point's contribution. -/
theorem sound_mid7 (c : Dev nD) (E : Set ℕ) (i : grid7.Coords)
    (aX : Memref sig .tc .vmem S5000x128 .f32) (hX : aX.IsWhole) (aB : Memref sig .tc .vmem S5000x1 .i32) (hB : aB.IsWhole)
    (aO : Memref sig .tc .vmem S256x128 .f32) (hO : aO.IsWhole) (aS : Memref sig .tc .vmem S256x128 .f32) (hS : aS.IsWhole)
    (hcR : ¬cond7_0 i) (hcC : ¬cond7_1 i)
    (x : Vec F S5000x128 .f32) (b : Vec F S5000x1 .i32) (a : Vec F S256x128 .f32) (K : PUnit → sProp 𝕄) :
    iprop(owns (c : Thread nD τ) aX fullShare x ∗ owns (c : Thread nD τ) aB fullShare b ∗ owns (c : Thread nD τ) aS fullShare a
        ∗ (iprop(owns (c : Thread nD τ) aX fullShare x ∗ owns (c : Thread nD τ) aB fullShare b
            ∗ owns (c : Thread nD τ) aS fullShare (k7_pay2 x b a)) -∗ K ⟨⟩))
      ⊢ wp frame (wpE (defs₀ (F := F)) Variants.none c none) E (cc7__segsum_kernel i aX hX aB hB aO hO aS hS) K := by
  simp only [cc7__segsum_kernel_eq_skeleton]; unfold cc7__segsum_kernel_skel
  unfold owns
  iintro ⟨⟨%fX, %hfX, HX⟩, ⟨%fB, %hfB, HB⟩, ⟨%fS, %hfS, HS⟩, Hk⟩
  obtain rfl := hX.eq_unread hfX; obtain rfl := hB.eq_unread hfB; obtain rfl := hS.eq_unread hfS
  sl_exec (disch := first | exact hcR | exact hcC)
  sl_step
  iapply Hk
  isplitl [HX]
  · iexists _; isplitr; · ipureintro; exact hX.read_unread _
    iexact HX
  isplitl [HB]
  · iexists _; isplitr; · ipureintro; exact hB.read_unread _
    iexact HB
  iexists _; isplitr
  swap; · iexact HS
  ipureintro
  rw [readLast7 _ _ hz7]
  simp only [View.readAt_eq_ld, hX.read_unread, hB.read_unread, hS.read_unread,
    View.ld_unit_zero (S := S5000x128) hz7, View.ld_unit_zero (S := S5000x1) hz7, View.ld_unit_zero (S := S256x128) hz7]

set_option maxHeartbeats 1000000 in
/-- THE LAST POINT (the copy taken, the reset not): the scratch at `a` ends at `a` plus the point's contribution, and
    the output window's memref, at anything, ends holding the same. -/
theorem sound_last7 (c : Dev nD) (E : Set ℕ) (i : grid7.Coords)
    (aX : Memref sig .tc .vmem S5000x128 .f32) (hX : aX.IsWhole) (aB : Memref sig .tc .vmem S5000x1 .i32) (hB : aB.IsWhole)
    (aO : Memref sig .tc .vmem S256x128 .f32) (hO : aO.IsWhole) (aS : Memref sig .tc .vmem S256x128 .f32) (hS : aS.IsWhole)
    (hcR : ¬cond7_0 i) (hcC : cond7_1 i)
    (x : Vec F S5000x128 .f32) (b : Vec F S5000x1 .i32) (a : Vec F S256x128 .f32) (K : PUnit → sProp 𝕄) :
    iprop(owns (c : Thread nD τ) aX fullShare x ∗ owns (c : Thread nD τ) aB fullShare b ∗ (∃ d, owns (c : Thread nD τ) aO fullShare d)
        ∗ owns (c : Thread nD τ) aS fullShare a
        ∗ (iprop(owns (c : Thread nD τ) aX fullShare x ∗ owns (c : Thread nD τ) aB fullShare b
            ∗ owns (c : Thread nD τ) aO fullShare (k7_pay2 x b a) ∗ owns (c : Thread nD τ) aS fullShare (k7_pay2 x b a)) -∗ K ⟨⟩))
      ⊢ wp frame (wpE (defs₀ (F := F)) Variants.none c none) E (cc7__segsum_kernel i aX hX aB hB aO hO aS hS) K := by
  simp only [cc7__segsum_kernel_eq_skeleton]; unfold cc7__segsum_kernel_skel
  unfold owns
  iintro ⟨⟨%fX, %hfX, HX⟩, ⟨%fB, %hfB, HB⟩, ⟨%dO, %fO, -, HO⟩, ⟨%fS, %hfS, HS⟩, Hk⟩
  obtain rfl := hX.eq_unread hfX; obtain rfl := hB.eq_unread hfB; obtain rfl := hS.eq_unread hfS
  sl_exec (disch := first | exact hcR | exact hcC)
  sl_step
  iapply Hk
  isplitl [HX]
  · iexists _; isplitr; · ipureintro; exact hX.read_unread _
    iexact HX
  isplitl [HB]
  · iexists _; isplitr; · ipureintro; exact hB.read_unread _
    iexact HB
  isplitl [HO]
  · iexists _; isplitr
    swap; · iexact HO
    ipureintro
    sl_unfold_run_names
    rw [readLast7 _ _ hz7, View.readCov_unit_zero _ hz7]
    simp only [View.readAt_eq_ld, hX.read_unread, hB.read_unread, hS.read_unread,
      View.ld_unit_zero (S := S5000x128) hz7, View.ld_unit_zero (S := S5000x1) hz7, View.ld_unit_zero (S := S256x128) hz7]
  iexists _; isplitr
  swap; · iexact HS
  ipureintro
  sl_unfold_run_names
  rw [readLast7 _ _ hz7]
  simp only [View.readAt_eq_ld, hX.read_unread, hB.read_unread, hS.read_unread,
    View.ld_unit_zero (S := S5000x128) hz7, View.ld_unit_zero (S := S5000x1) hz7, View.ld_unit_zero (S := S256x128) hz7]

/-- The region invariant before position `n`: before the first point the class's (every scratch at anything); afterwards
    the carried scratch at what the points so far accumulated, the other scoped buffers unopened, and the generator
    register at some state. -/
def Phi7 (c : Dev nD) (n : ℕ) (hn : n ≤ cfg7.N) : sProp 𝕄 :=
  if n = 0 then Pipeline.ΦA spec7 c
  else iprop(owns (c : Thread nD τ) scM7 fullShare (accAt7 V c n hn)
      ∗ Pipeline.scopedRestBut (Ix := Unit) (Name := ℕ) (U := UR sig nD τ) (Lvl := ℕ) (Val := Elt F) spec7 c [cc7_scratch0]
      ∗ (∃ r, prngReg c r))

theorem Phi7_zero (c : Dev nD) (n : ℕ) (h : n ≤ cfg7.N) (hz : n = 0) : Phi7 V c n h = Pipeline.ΦA spec7 c := by
  unfold Phi7; exact if_pos hz

theorem Phi7_pos (c : Dev nD) (n : ℕ) (h : n ≤ cfg7.N) (hz : n ≠ 0) :
    Phi7 V c n h = iprop(owns (c : Thread nD τ) scM7 fullShare (accAt7 V c n h)
      ∗ Pipeline.scopedRestBut (Ix := Unit) (Name := ℕ) (U := UR sig nD τ) (Lvl := ℕ) (Val := Elt F) spec7 c [cc7_scratch0]
      ∗ (∃ r, prngReg c r)) := by
  unfold Phi7; exact if_neg hz

/-- The class's invariant with the scratch operand split out of the scoped rest as a memref owned at some contents. -/
theorem PhiA7_eq (c : Dev nD) :
    (Pipeline.ΦA spec7 c : sProp 𝕄)
      = iprop(iprop(iprop((∃ d, owns (c : Thread nD τ) scM7 fullShare d))
          ∗ Pipeline.scopedRestBut (Ix := Unit) (Name := ℕ) (U := UR sig nD τ) (Lvl := ℕ) (Val := Elt F) spec7 c [cc7_scratch0])
        ∗ (∃ r, prngReg c r)) := by
  unfold Pipeline.ΦA; rw [scopedRest7_split]; simp only [scM7, owns_whole]; try rfl

/-! ## The pipeline's proof data -/

/-- The proof data of pipeline 7 on core `c`: the arrays as the region finds them (`V`); after the body at point `t` each
    input's buffer at its block and the output's at what the scratch then holds (consulted at the last point only: the
    window is idle elsewhere); the invariant `Phi7`; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => accAt7 V c (t.val + 1) t.isLt
  Φ t := Phi7 V c t.val (Nat.le_of_lt_succ t.isLt)
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = accAt7 V c (t.val + 1) t.isLt := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d

/-- The invariant at a point's start, restated at `t.val`. -/
theorem Phi7_castSucc (c : Dev nD) (t : Fin cfg7.N) :
    (dat7 V c).Φ t.castSucc = Phi7 V c t.val (Nat.le_of_lt t.isLt) := by
  dsimp only [dat7]; simp only [Fin.coe_castSucc]

/-- The invariant at a point's end: the carried scratch at what the points up to this one accumulated. -/
theorem Phi7_succ (c : Dev nD) (t : Fin cfg7.N) :
    (dat7 V c).Φ t.succ = iprop(owns (c : Thread nD τ) scM7 fullShare (accAt7 V c (t.val + 1) t.isLt)
      ∗ Pipeline.scopedRestBut (Ix := Unit) (Name := ℕ) (U := UR sig nD τ) (Lvl := ℕ) (Val := Elt F) spec7 c [cc7_scratch0]
      ∗ (∃ r, prngReg c r)) := by
  dsimp only [dat7]; simp only [Fin.val_succ]; exact Phi7_pos V c _ _ (Nat.succ_ne_zero _)

/-- Before any point has run the accumulation is the zero block. -/
theorem accAt7_of_zero (c : Dev nD) (n : ℕ) (h : n ≤ cfg7.N) (hz : n = 0) : accAt7 V c n h = k7_pay1 := by
  subst hz; rfl

/-! ## The body obligation, at a generic point -/

/-- What the body is called with at point `t` (the library's body obligation's precondition, the windows one by one), -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d)))

/-- and what it returns. -/
def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t)

set_option maxHeartbeats 4000000 in
/-- The body at any point. The inputs' memrefs hold their blocks; the closed forms of the two conditions say which of the
    three control cases the point is in, and that case's triple applies. The invariant hands the body the scratch — at
    anything at the first point, at what the points before accumulated afterwards — and takes it back at what the points
    up to this one accumulated; the other scoped buffers, the generator register and the core's `owes` pass through
    unread; the output window's memref is handed back as it was found except at the last point, where it holds the
    accumulation. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1]
  rw [show (dat7 V c).owesAt () t.succ = (dat7 V c).owesAt () t.castSucc from rfl, Phi7_succ V c t, Phi7_castSucc V c t]
  have hN : t.val < 10 := lt_of_lt_of_eq t.isLt (show cfg7.N = 10 from N_7)
  rw [show (dat7 V c).leavesExact 0 t = owns (c : Thread nD τ) (st7_0 t) fullShare ((dat7 V c).after 0 t) from by
    unfold Dat.leavesExact; rw [liveAt7_0 t], after7_0]
  rw [show (dat7 V c).leavesExact 1 t = owns (c : Thread nD τ) (st7_1 t) fullShare ((dat7 V c).after 1 t) from by
    unfold Dat.leavesExact; rw [liveAt7_1 t], after7_1]
  rw [accAt7_succ V c t]
  by_cases hL : t.val % 10 = 9
  · have hcC : cond7_1 (grid7.coords t) := (hcond7_1 t).mpr hL
    have hcR : ¬cond7_0 (grid7.coords t) := fun h => by have := (hcond7_0 t).mp h; omega
    have hz : t.val ≠ 0 := by omega
    rw [show (dat7 V c).leavesExact 2 t = owns (c : Thread nD τ) (st7_2 t) fullShare ((dat7 V c).after 2 t) from by
      unfold Dat.leavesExact; rw [liveAt7_2 t hcC], after7_2, accAt7_succ V c t]
    rw [Phi7_pos V c _ _ hz]
    iintro ⟨⟨HS, Hrest, Hg⟩, Ho, ⟨%dX, HX⟩, ⟨%dB, HB⟩, ⟨%dO, HO⟩⟩
    iapply (sound_last7 c Set.univ (grid7.coords t) _ _ _ _ _ _ _ _ hcR hcC (iblk7 V c 0 t) (iblk7 V c 1 t)
      (accAt7 V c t.val (Nat.le_of_lt t.isLt)) _)
    isplitl [HX]; · iexact HX
    isplitl [HB]; · iexact HB
    isplitl [HO]; · iexists _; iexact HO
    isplitl [HS]; · iexact HS
    iintro ⟨HX, HB, HO, HS⟩
    isplitl [HS Hrest Hg]
    · isplitl [HS]; · iexact HS
      isplitl [Hrest]; · iexact Hrest
      iexact Hg
    isplitl [Ho]; · iexact Ho
    isplitl [HX]; · iexact HX
    isplitl [HB]; · iexact HB
    iexact HO
  · have hcC : ¬cond7_1 (grid7.coords t) := fun h => hL ((hcond7_1 t).mp h)
    rw [Dat.leavesExact_idle (dat7 V c) 2 t (idleAt7_2 t hcC) (noFlush7_2 t hcC)]
    by_cases hF : t.val % 10 = 0
    · have hcR : cond7_0 (grid7.coords t) := (hcond7_0 t).mpr hF
      have hz : t.val = 0 := by omega
      rw [Phi7_zero V c _ _ hz, PhiA7_eq, accAt7_of_zero V c _ _ hz]
      iintro ⟨⟨⟨HS, Hrest⟩, Hg⟩, Ho, ⟨%dX, HX⟩, ⟨%dB, HB⟩, ⟨%dO, HO⟩⟩
      iapply (sound_first7 c Set.univ (grid7.coords t) _ _ _ _ _ _ _ _ hcR hcC (iblk7 V c 0 t) (iblk7 V c 1 t) _)
      isplitl [HX]; · iexact HX
      isplitl [HB]; · iexact HB
      isplitl [HS]; · iexact HS
      iintro ⟨HX, HB, HS⟩
      isplitl [HS Hrest Hg]
      · isplitl [HS]; · iexact HS
        isplitl [Hrest]; · iexact Hrest
        iexact Hg
      isplitl [Ho]; · iexact Ho
      isplitl [HX]; · iexact HX
      isplitl [HB]; · iexact HB
      iexists _; iexact HO
    · have hcR : ¬cond7_0 (grid7.coords t) := fun h => hF ((hcond7_0 t).mp h)
      have hz : t.val ≠ 0 := by omega
      rw [Phi7_pos V c _ _ hz]
      iintro ⟨⟨HS, Hrest, Hg⟩, Ho, ⟨%dX, HX⟩, ⟨%dB, HB⟩, ⟨%dO, HO⟩⟩
      iapply (sound_mid7 c Set.univ (grid7.coords t) _ _ _ _ _ _ _ _ hcR hcC (iblk7 V c 0 t) (iblk7 V c 1 t)
        (accAt7 V c t.val (Nat.le_of_lt t.isLt)) _)
      isplitl [HX]; · iexact HX
      isplitl [HB]; · iexact HB
      isplitl [HS]; · iexact HS
      iintro ⟨HX, HB, HS⟩
      isplitl [HS Hrest Hg]
      · isplitl [HS]; · iexact HS
        isplitl [Hrest]; · iexact Hrest
        iexact Hg
      isplitl [Ho]; · iexact Ho
      isplitl [HX]; · iexact HX
      isplitl [HB]; · iexact HB
      iexists _; iexact HO

/-- The library's body obligation, at every point. -/
theorem body_obligation7 (c : Dev nD) : BodyObligation (dat7 (F := F) V c) (defs₀ (F := F)) Variants.none () Set.univ := fun t => by
  rw [bigSep_W7, bigSep_W7]
  exact sound_body7 V c t

/-- What the launch hands the region is the invariant before the first point. -/
theorem PhiIn7 (c : Dev nD) : Pipeline.ΦA spec7 c ⊢ (dat7 V c).Φ 0 := by
  rw [show (dat7 V c).Φ 0 = Phi7 V c 0 (Nat.zero_le _) from rfl, Phi7_zero V c 0 _ rfl]

/-- After the last point the invariant gives the class's back: the scratch's named contents are forgotten. -/
theorem PhiOut7 (c : Dev nD) : (dat7 V c).Φ (Fin.last _) ⊢ Pipeline.ΦA spec7 c := by
  rw [show (dat7 V c).Φ (Fin.last _) = Phi7 V c cfg7.N (Nat.le_refl _) from rfl,
    Phi7_pos V c _ _ (by rw [show cfg7.N = 10 from N_7]; decide), PhiA7_eq]
  iintro ⟨HS, Hrest, Hg⟩
  isplitl [HS Hrest]
  · isplitl [HS]
    · iexists _; iexact HS
    iexact Hrest
  iexact Hg

end Cert.Kernel.Hand

end
-- ==== Proof.KVnRegion8.lean ====
/- Region 8 of @main, custom_call 8, the virtual node's two-layer perceptron `cc8__vn_mlp_kernel`: the frame half of its pipeline, at any float model `F` and at a PARAMETER `V`, the
   TensorCore's buffer contents when the region is entered. The grid is one point and every window's block is its whole
   array. Each input window's staging buffer holds its block; the output's, after the body, holds what the body's one store
   leaves, a function `out8_9` of the input blocks; the body's triple is run on whole staging memrefs; the pipeline's proof
   data carries the arrays at `V`, the untouched invariant, full shares and nothing owed; and the library's body obligation
   follows at the one point. -/
import proofs.«403491_j395136991532_1_alg».proof.Proof.Gen.Kernel.Launch
import proofs.«403491_j395136991532_1_alg».proof.Proof.Gen.Kernel.Skeleton
import proofs.«403491_j395136991532_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current staging buffer holds its block at every point, fetched there or not, for any proof data
    whose array is `V`'s and whose body leaves the block in place: the window is uncut and never idle. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1's current staging buffer holds its block at every point, fetched there or not, for any proof data
    whose array is `V`'s and whose body leaves the block in place: the window is uncut and never idle. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Input window 2's current staging buffer holds its block at every point, fetched there or not, for any proof data
    whose array is `V`'s and whose body leaves the block in place: the window is uncut and never idle. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- Input window 3's current staging buffer holds its block at every point, fetched there or not, for any proof data
    whose array is `V`'s and whose body leaves the block in place: the window is uncut and never idle. -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

/-- Input window 4's current staging buffer holds its block at every point, fetched there or not, for any proof data
    whose array is `V`'s and whose body leaves the block in place: the window is uncut and never idle. -/
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

/-- Input window 5's current staging buffer holds its block at every point, fetched there or not, for any proof data
    whose array is `V`'s and whose body leaves the block in place: the window is uncut and never idle. -/
theorem before8_5_of {c : Dev nD} (dat : Dat τ (Elt F) Unit ℕ (UR sig nD τ) ℕ cfg8 c) (hA : dat.A 5 = V c (Pipeline.arrRef spec8 5))
    (hafter : ∀ t, dat.after 5 t = iblk8 V c 5 t) (t : Fin cfg8.N) (d) : dat.before 5 t d = iblk8 V c 5 t :=
  (dat.before_in_eq_fetched 5 rfl (fun _ => rfl) (fun _ _ _ => rfl) (fun t => by rw [hafter]; unfold Dat.blockOf iblk8; rw [hA]; try rfl) t d).trans
    (by unfold Dat.fetched Dat.blockOf iblk8; rw [hA]; try rfl)

/-- Input window 6's current staging buffer holds its block at every point, fetched there or not, for any proof data
    whose array is `V`'s and whose body leaves the block in place: the window is uncut and never idle. -/
theorem before8_6_of {c : Dev nD} (dat : Dat τ (Elt F) Unit ℕ (UR sig nD τ) ℕ cfg8 c) (hA : dat.A 6 = V c (Pipeline.arrRef spec8 6))
    (hafter : ∀ t, dat.after 6 t = iblk8 V c 6 t) (t : Fin cfg8.N) (d) : dat.before 6 t d = iblk8 V c 6 t :=
  (dat.before_in_eq_fetched 6 rfl (fun _ => rfl) (fun _ _ _ => rfl) (fun t => by rw [hafter]; unfold Dat.blockOf iblk8; rw [hA]; try rfl) t d).trans
    (by unfold Dat.fetched Dat.blockOf iblk8; rw [hA]; try rfl)

/-- Input window 7's current staging buffer holds its block at every point, fetched there or not, for any proof data
    whose array is `V`'s and whose body leaves the block in place: the window is uncut and never idle. -/
theorem before8_7_of {c : Dev nD} (dat : Dat τ (Elt F) Unit ℕ (UR sig nD τ) ℕ cfg8 c) (hA : dat.A 7 = V c (Pipeline.arrRef spec8 7))
    (hafter : ∀ t, dat.after 7 t = iblk8 V c 7 t) (t : Fin cfg8.N) (d) : dat.before 7 t d = iblk8 V c 7 t :=
  (dat.before_in_eq_fetched 7 rfl (fun _ => rfl) (fun _ _ _ => rfl) (fun t => by rw [hafter]; unfold Dat.blockOf iblk8; rw [hA]; try rfl) t d).trans
    (by unfold Dat.fetched Dat.blockOf iblk8; rw [hA]; try rfl)

/-- Input window 8's current staging buffer holds its block at every point, fetched there or not, for any proof data
    whose array is `V`'s and whose body leaves the block in place: the window is uncut and never idle. -/
theorem before8_8_of {c : Dev nD} (dat : Dat τ (Elt F) Unit ℕ (UR sig nD τ) ℕ cfg8 c) (hA : dat.A 8 = V c (Pipeline.arrRef spec8 8))
    (hafter : ∀ t, dat.after 8 t = iblk8 V c 8 t) (t : Fin cfg8.N) (d) : dat.before 8 t d = iblk8 V c 8 t :=
  (dat.before_in_eq_fetched 8 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses: each is a whole buffer -/

abbrev r8_0 : Rect S256x128 := Rect.unit (s := S256x128) ![0, 0] S256x128.size inb_S256x128_S256x128_0_0
abbrev r8_1 : Rect S128x256 := Rect.unit (s := S128x256) ![0, 0] S128x256.size inb_S128x256_S128x256_0_0
abbrev r8_2 : Rect S1x256 := Rect.unit (s := S1x256) ![0, 0] S1x256.size inb_S1x256_S1x256_0_0
abbrev r8_3 : Rect S1x128 := Rect.unit (s := S1x128) ![0, 0] S1x128.size inb_S1x128_S1x128_0_0

/-! ## What the body leaves in the output window's buffer -/

/-- Window 9's staging buffer after the body, from the input windows' blocks: its one store as a piece (the payload is
    the skeleton's). -/
def out8_9 (x0 : Vec F S256x128 .f32) (x1 : Vec F S128x256 .bf16) (x2 : Vec F S1x256 .f32) (x3 : Vec F S1x256 .f32) (x4 : Vec F S1x256 .f32) (x5 : Vec F S256x128 .bf16) (x6 : Vec F S1x128 .f32) (x7 : Vec F S1x128 .f32) (x8 : Vec F S1x128 .f32) : Vec F S256x128 .f32 :=
  View.canon [⟨r8_0, k8_pay1 (k8_pay2 (View.ld x0 r8_0) (View.ld x1 r8_1) (View.ld x2 r8_2) (View.ld x3 r8_2) (View.ld x4 r8_2) (View.ld x5 r8_0) (View.ld x6 r8_3) (View.ld x7 r8_3) (View.ld x8 r8_3)) k8_pay3⟩]

/-- The one store is of the whole buffer, so it covers it. -/
theorem cover8_9 (p0 : Vec F S256x128 .f32) (y : S256x128.Idx) :
    ∃ pc ∈ ([⟨r8_0, p0⟩] : List (View.Piece (Elt F) S256x128 .f32)), y ∈ pc.1.set :=
  View.cover_of_tiled [⟨r8_0, p0⟩] S256x128.size (by rfl) y

/-! ## The body's triple -/

set_option maxHeartbeats 1000000 in
/-- The kernel body on whole staging memrefs, the inputs' at read contents `xW` and the output's at anything, runs to the
    continuation holding the inputs' as they were and the output's at `out8_9` of the inputs': the printed functions are
    their skeletons of memory operations over payloads, which are run operation by operation, through the part call. -/
theorem sound_kernel8 (c : Dev nD) (E : Set ℕ) (i : grid8.Coords) (arg1 : Memref sig .tc .vmem S256x128 .f32) (harg1 : arg1.IsWhole) (arg2 : Memref sig .tc .vmem S128x256 .bf16) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x128 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole)
    (x0 : Vec F S256x128 .f32) (x1 : Vec F S128x256 .bf16) (x2 : Vec F S1x256 .f32) (x3 : Vec F S1x256 .f32) (x4 : Vec F S1x256 .f32) (x5 : Vec F S256x128 .bf16) (x6 : Vec F S1x128 .f32) (x7 : Vec F S1x128 .f32) (x8 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out8_9 x0 x1 x2 x3 x4 x5 x6 x7 x8)) -∗ K ⟨⟩))
      ⊢ wp frame (wpE (defs₀ (F := F)) Variants.none c none) E (cc8__vn_mlp_kernel i arg1 harg1 arg2 harg2 arg3 harg3 arg4 harg4 arg5 harg5 arg6 harg6 arg7 harg7 arg8 harg8 arg9 harg9 arg10 harg10) K := by
  simp only [cc8__vn_mlp_kernel_eq_skeleton]; unfold cc8__vn_mlp_kernel_skel
  simp only [k8_part1_eq_skeleton]; unfold k8_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover8_9 _)

/-! ## The pipeline's proof data -/

/-- The proof data of pipeline 8 on core `c`: the arrays as the region finds them (`V`); after the body at point `t` each
    input's buffer at its block and the output's at `out8_9` of the input blocks; the invariant the scoped rest and the
    generator register, untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => iblk8 V c 6 t
    | ⟨7, _⟩ => iblk8 V c 7 t
    | ⟨8, _⟩ => iblk8 V c 8 t
    | ⟨9, _⟩ => out8_9 (iblk8 V c 0 t) (iblk8 V c 1 t) (iblk8 V c 2 t) (iblk8 V c 3 t) (iblk8 V c 4 t) (iblk8 V c 5 t) (iblk8 V c 6 t) (iblk8 V c 7 t) (iblk8 V c 8 t)
  Φ _ := Pipeline.ΦA spec8 c
  q _ := fullShare
  owed _ := 0

/-- The proof data's arrays are the region-entry contents. -/
theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = iblk8 V c 5 t := by dsimp only [dat8]
theorem after8_6 (c : Dev nD) (t : Fin cfg8.N) : (dat8 V c).after 6 t = iblk8 V c 6 t := by dsimp only [dat8]
theorem after8_7 (c : Dev nD) (t : Fin cfg8.N) : (dat8 V c).after 7 t = iblk8 V c 7 t := by dsimp only [dat8]
theorem after8_8 (c : Dev nD) (t : Fin cfg8.N) : (dat8 V c).after 8 t = iblk8 V c 8 t := by dsimp only [dat8]
theorem after8_9 (c : Dev nD) (t : Fin cfg8.N) : (dat8 V c).after 9 t = out8_9 (iblk8 V c 0 t) (iblk8 V c 1 t) (iblk8 V c 2 t) (iblk8 V c 3 t) (iblk8 V c 4 t) (iblk8 V c 5 t) (iblk8 V c 6 t) (iblk8 V c 7 t) (iblk8 V c 8 t) := by dsimp only [dat8]

/-- Each input's current staging buffer holds its block at every point, fetched there or not. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d
theorem before8_5 (c : Dev nD) (t : Fin cfg8.N) (d) : (dat8 V c).before 5 t d = iblk8 V c 5 t :=
  before8_5_of V (dat8 V c) (A_eq8 V c 5) (after8_5 V c) t d
theorem before8_6 (c : Dev nD) (t : Fin cfg8.N) (d) : (dat8 V c).before 6 t d = iblk8 V c 6 t :=
  before8_6_of V (dat8 V c) (A_eq8 V c 6) (after8_6 V c) t d
theorem before8_7 (c : Dev nD) (t : Fin cfg8.N) (d) : (dat8 V c).before 7 t d = iblk8 V c 7 t :=
  before8_7_of V (dat8 V c) (A_eq8 V c 7) (after8_7 V c) t d
theorem before8_8 (c : Dev nD) (t : Fin cfg8.N) (d) : (dat8 V c).before 8 t d = iblk8 V c 8 t :=
  before8_8_of V (dat8 V c) (A_eq8 V c 8) (after8_8 V c) t d

/-- The invariant at the region's entry is the class's, -/
theorem PhiIn8 (c : Dev nD) : Pipeline.ΦA spec8 c ⊢ (dat8 V c).Φ 0 := .rfl

/-- and at its exit. -/
theorem PhiOut8 (c : Dev nD) : (dat8 V c).Φ (Fin.last _) ⊢ Pipeline.ΦA spec8 c := .rfl

/-! ## The body obligation, at a generic point -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d))
    ∗ (∃ d, owns (c : Thread nD τ) (st8_6 t) fullShare ((dat8 V c).before 6 t d))
    ∗ (∃ d, owns (c : Thread nD τ) (st8_7 t) fullShare ((dat8 V c).before 7 t d))
    ∗ (∃ d, owns (c : Thread nD τ) (st8_8 t) fullShare ((dat8 V c).before 8 t d))
    ∗ (∃ d, owns (c : Thread nD τ) (st8_9 t) fullShare ((dat8 V c).before 9 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t)
    ∗ owns (c : Thread nD τ) (st8_6 t) fullShare ((dat8 V c).after 6 t)
    ∗ owns (c : Thread nD τ) (st8_7 t) fullShare ((dat8 V c).after 7 t)
    ∗ owns (c : Thread nD τ) (st8_8 t) fullShare ((dat8 V c).after 8 t)
    ∗ owns (c : Thread nD τ) (st8_9 t) fullShare ((dat8 V c).after 9 t))

/-- The body at any point: the inputs' memrefs hold their blocks, so the body's triple applies; the invariant and the core's
    debts pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4, before8_5, before8_6, before8_7, before8_8]
  rw [show (dat8 V c).Φ t.succ = (dat8 V c).Φ t.castSucc from rfl,
    show (dat8 V c).owesAt () t.succ = (dat8 V c).owesAt () t.castSucc from rfl,
    after8_0, after8_1, after8_2, after8_3, after8_4, after8_5, after8_6, after8_7, after8_8, after8_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel8 c Set.univ _ _ _ _ _ _ _ _ _ _ _ _ _ _ _ _ _ _ _ _ _ (iblk8 V c 0 t) (iblk8 V c 1 t) (iblk8 V c 2 t) (iblk8 V c 3 t) (iblk8 V c 4 t) (iblk8 V c 5 t) (iblk8 V c 6 t) (iblk8 V c 7 t) (iblk8 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation8 (c : Dev nD) : BodyObligation (dat8 (F := F) V c) (defs₀ (F := F)) Variants.none () Set.univ := fun t => by
  rw [bigSep_W8, bigSep_W8]
  exact sound_body8 V c t

end Cert.Kernel.Hand

end
-- ==== Proof.KGinRegion9.lean ====
import proofs.«403491_j395136991532_1_alg».proof.Proof.Gen.Kernel.Launch
import proofs.«403491_j395136991532_1_alg».proof.Proof.Gen.Kernel.Skeleton
import proofs.«403491_j395136991532_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 9 (pipeline 9, the per-node two-layer perceptron on 5000-row tiles): the frame half

Stated at a parameter `V`, the TensorCore's buffer contents when the region is entered. Eleven input windows
(the two tiled operands and nine resident ones) and one tiled output window. The body reads every input buffer
whole, computes, and overwrites the output buffer whole; so after the body each input buffer still holds its
block, and the output buffer holds one closed function of the eleven input blocks. -/

-- membership in a rectangle of 5000 rows: the structural look recurses once per coordinate of the long axis
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0's current staging buffer holds its block at every point, fetched there or not (not fetched:
    the block index has not moved), for any proof data whose array is `V`'s and whose body leaves the block in place. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- Input window 1's current staging buffer holds its block at every point, fetched there or not (not fetched:
    the block index has not moved), for any proof data whose array is `V`'s and whose body leaves the block in place. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- Input window 2's current staging buffer holds its block at every point, fetched there or not (not fetched:
    the block index has not moved), for any proof data whose array is `V`'s and whose body leaves the block in place. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-- Input window 3's current staging buffer holds its block at every point, fetched there or not (not fetched:
    the block index has not moved), for any proof data whose array is `V`'s and whose body leaves the block in place. -/
theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)

/-- Input window 4's current staging buffer holds its block at every point, fetched there or not (not fetched:
    the block index has not moved), for any proof data whose array is `V`'s and whose body leaves the block in place. -/
theorem before9_4_of {c : Dev nD} (dat : Dat τ (Elt F) Unit ℕ (UR sig nD τ) ℕ cfg9 c) (hA : dat.A 4 = V c (Pipeline.arrRef spec9 4))
    (hafter : ∀ t, dat.after 4 t = iblk9 V c 4 t) (t : Fin cfg9.N) (d) : dat.before 4 t d = iblk9 V c 4 t :=
  (dat.before_in_eq_fetched 4 rfl (fun _ => rfl) (fun _ _ _ => rfl) (fun t => by rw [hafter]; unfold Dat.blockOf iblk9; rw [hA]; try rfl) t d).trans
    (by unfold Dat.fetched Dat.blockOf iblk9; rw [hA]; try rfl)

/-- Input window 5's current staging buffer holds its block at every point, fetched there or not (not fetched:
    the block index has not moved), for any proof data whose array is `V`'s and whose body leaves the block in place. -/
theorem before9_5_of {c : Dev nD} (dat : Dat τ (Elt F) Unit ℕ (UR sig nD τ) ℕ cfg9 c) (hA : dat.A 5 = V c (Pipeline.arrRef spec9 5))
    (hafter : ∀ t, dat.after 5 t = iblk9 V c 5 t) (t : Fin cfg9.N) (d) : dat.before 5 t d = iblk9 V c 5 t :=
  (dat.before_in_eq_fetched 5 rfl (fun _ => rfl) (fun _ _ _ => rfl) (fun t => by rw [hafter]; unfold Dat.blockOf iblk9; rw [hA]; try rfl) t d).trans
    (by unfold Dat.fetched Dat.blockOf iblk9; rw [hA]; try rfl)

/-- Input window 6's current staging buffer holds its block at every point, fetched there or not (not fetched:
    the block index has not moved), for any proof data whose array is `V`'s and whose body leaves the block in place. -/
theorem before9_6_of {c : Dev nD} (dat : Dat τ (Elt F) Unit ℕ (UR sig nD τ) ℕ cfg9 c) (hA : dat.A 6 = V c (Pipeline.arrRef spec9 6))
    (hafter : ∀ t, dat.after 6 t = iblk9 V c 6 t) (t : Fin cfg9.N) (d) : dat.before 6 t d = iblk9 V c 6 t :=
  (dat.before_in_eq_fetched 6 rfl (fun _ => rfl) (fun _ _ _ => rfl) (fun t => by rw [hafter]; unfold Dat.blockOf iblk9; rw [hA]; try rfl) t d).trans
    (by unfold Dat.fetched Dat.blockOf iblk9; rw [hA]; try rfl)

/-- Input window 7's current staging buffer holds its block at every point, fetched there or not (not fetched:
    the block index has not moved), for any proof data whose array is `V`'s and whose body leaves the block in place. -/
theorem before9_7_of {c : Dev nD} (dat : Dat τ (Elt F) Unit ℕ (UR sig nD τ) ℕ cfg9 c) (hA : dat.A 7 = V c (Pipeline.arrRef spec9 7))
    (hafter : ∀ t, dat.after 7 t = iblk9 V c 7 t) (t : Fin cfg9.N) (d) : dat.before 7 t d = iblk9 V c 7 t :=
  (dat.before_in_eq_fetched 7 rfl (fun _ => rfl) (fun _ _ _ => rfl) (fun t => by rw [hafter]; unfold Dat.blockOf iblk9; rw [hA]; try rfl) t d).trans
    (by unfold Dat.fetched Dat.blockOf iblk9; rw [hA]; try rfl)

/-- Input window 8's current staging buffer holds its block at every point, fetched there or not (not fetched:
    the block index has not moved), for any proof data whose array is `V`'s and whose body leaves the block in place. -/
theorem before9_8_of {c : Dev nD} (dat : Dat τ (Elt F) Unit ℕ (UR sig nD τ) ℕ cfg9 c) (hA : dat.A 8 = V c (Pipeline.arrRef spec9 8))
    (hafter : ∀ t, dat.after 8 t = iblk9 V c 8 t) (t : Fin cfg9.N) (d) : dat.before 8 t d = iblk9 V c 8 t :=
  (dat.before_in_eq_fetched 8 rfl (fun _ => rfl) (fun _ _ _ => rfl) (fun t => by rw [hafter]; unfold Dat.blockOf iblk9; rw [hA]; try rfl) t d).trans
    (by unfold Dat.fetched Dat.blockOf iblk9; rw [hA]; try rfl)

/-- Input window 9's current staging buffer holds its block at every point, fetched there or not (not fetched:
    the block index has not moved), for any proof data whose array is `V`'s and whose body leaves the block in place. -/
theorem before9_9_of {c : Dev nD} (dat : Dat τ (Elt F) Unit ℕ (UR sig nD τ) ℕ cfg9 c) (hA : dat.A 9 = V c (Pipeline.arrRef spec9 9))
    (hafter : ∀ t, dat.after 9 t = iblk9 V c 9 t) (t : Fin cfg9.N) (d) : dat.before 9 t d = iblk9 V c 9 t :=
  (dat.before_in_eq_fetched 9 rfl (fun _ => rfl) (fun _ _ _ => rfl) (fun t => by rw [hafter]; unfold Dat.blockOf iblk9; rw [hA]; try rfl) t d).trans
    (by unfold Dat.fetched Dat.blockOf iblk9; rw [hA]; try rfl)

/-- Input window 10's current staging buffer holds its block at every point, fetched there or not (not fetched:
    the block index has not moved), for any proof data whose array is `V`'s and whose body leaves the block in place. -/
theorem before9_10_of {c : Dev nD} (dat : Dat τ (Elt F) Unit ℕ (UR sig nD τ) ℕ cfg9 c) (hA : dat.A 10 = V c (Pipeline.arrRef spec9 10))
    (hafter : ∀ t, dat.after 10 t = iblk9 V c 10 t) (t : Fin cfg9.N) (d) : dat.before 10 t d = iblk9 V c 10 t :=
  (dat.before_in_eq_fetched 10 rfl (fun _ => rfl) (fun _ _ _ => rfl) (fun t => by rw [hafter]; unfold Dat.blockOf iblk9; rw [hA]; try rfl) t d).trans
    (by unfold Dat.fetched Dat.blockOf iblk9; rw [hA]; try rfl)

/-! ## The body's accesses: every buffer whole -/

abbrev r9_a : Rect S5000x128 := Rect.unit (s := S5000x128) ![0, 0] S5000x128.size inb_S5000x128_S5000x128_0_0
abbrev r9_b : Rect S1x1 := Rect.unit (s := S1x1) ![0, 0] S1x1.size inb_S1x1_S1x1_0_0
abbrev r9_c : Rect S128x256 := Rect.unit (s := S128x256) ![0, 0] S128x256.size inb_S128x256_S128x256_0_0
abbrev r9_d : Rect S1x256 := Rect.unit (s := S1x256) ![0, 0] S1x256.size inb_S1x256_S1x256_0_0
abbrev r9_e : Rect S256x128 := Rect.unit (s := S256x128) ![0, 0] S256x128.size inb_S256x128_S256x128_0_0
abbrev r9_f : Rect S1x128 := Rect.unit (s := S1x128) ![0, 0] S1x128.size inb_S1x128_S1x128_0_0

/-! ## What the body leaves in the output window's buffer -/

/-- Window 11's staging buffer after the body, from the eleven input blocks: its one store, of the last payload
    (scale and shift, then the layer's final clamp at zero where it has one) over the first (the two matrix products
    with their affine maps and the clamp between). -/
def out9_11 (x0 : Vec F S5000x128 .f32) (x1 : Vec F S5000x128 .f32) (x2 : Vec F S1x1 .f32) (x3 : Vec F S128x256 .bf16) (x4 : Vec F S1x256 .f32) (x5 : Vec F S1x256 .f32) (x6 : Vec F S1x256 .f32) (x7 : Vec F S256x128 .bf16) (x8 : Vec F S1x128 .f32) (x9 : Vec F S1x128 .f32) (x10 : Vec F S1x128 .f32) : Vec F S5000x128 .f32 :=
  View.canon [⟨r9_a, k9_pay1 (k9_pay2 (View.ld x2 r9_b) (View.ld x0 r9_a) (View.ld x1 r9_a) (View.ld x3 r9_c) (View.ld x4 r9_d) (View.ld x5 r9_d) (View.ld x6 r9_d) (View.ld x7 r9_e) (View.ld x8 r9_f)) (View.ld x9 r9_f) (View.ld x10 r9_f)⟩]

/-- The one store is of the whole buffer, so it covers it. -/
theorem cover9_11 (p0 : Vec F S5000x128 .f32) (y : S5000x128.Idx) :
    ∃ pc ∈ ([⟨r9_a, p0⟩] : List (View.Piece (Elt F) S5000x128 .f32)), y ∈ pc.1.set :=
  View.cover_of_tiled [⟨r9_a, p0⟩] S5000x128.size (by rfl) y

/-! ## The body's triple -/

set_option maxHeartbeats 4000000 in
/-- The kernel body on whole staging memrefs, the inputs' at read contents `xW` and the output's at anything, runs to
    the continuation holding the inputs' as they were and the output's at `out9_11` of the inputs'. -/
theorem sound_kernel9 (c : Dev nD) (E : Set ℕ) (i : grid9.Coords) (arg1 : Memref sig .tc .vmem S5000x128 .f32) (harg1 : arg1.IsWhole) (arg2 : Memref sig .tc .vmem S5000x128 .f32) (harg2 : arg2.IsWhole) (arg3 : Memref sig .tc .vmem S1x1 .f32) (harg3 : arg3.IsWhole) (arg4 : Memref sig .tc .vmem S128x256 .bf16) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S256x128 .bf16) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S5000x128 .f32) (harg12 : arg12.IsWhole)
    (x0 : Vec F S5000x128 .f32) (x1 : Vec F S5000x128 .f32) (x2 : Vec F S1x1 .f32) (x3 : Vec F S128x256 .bf16) (x4 : Vec F S1x256 .f32) (x5 : Vec F S1x256 .f32) (x6 : Vec F S1x256 .f32) (x7 : Vec F S256x128 .bf16) (x8 : Vec F S1x128 .f32) (x9 : Vec F S1x128 .f32) (x10 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out9_11 x0 x1 x2 x3 x4 x5 x6 x7 x8 x9 x10)) -∗ K ⟨⟩))
      ⊢ wp frame (wpE (defs₀ (F := F)) Variants.none c none) E (cc9__gin_mlp_kernel i arg1 harg1 arg2 harg2 arg3 harg3 arg4 harg4 arg5 harg5 arg6 harg6 arg7 harg7 arg8 harg8 arg9 harg9 arg10 harg10 arg11 harg11 arg12 harg12) K := by
  simp only [cc9__gin_mlp_kernel_eq_skeleton]; unfold cc9__gin_mlp_kernel_skel
  simp only [k9_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  exact View.read_writes_eq_canon _ _ _ (cover9_11 _)

/-! ## The pipeline's proof data -/

/-- The proof data of pipeline 0 on core `c`: the arrays as the region finds them; after the body at point `t` each
    input's buffer at its block and the output's at `out9_11` of the input blocks; the invariant the untouched rest;
    nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => iblk9 V c 5 t
    | ⟨6, _⟩ => iblk9 V c 6 t
    | ⟨7, _⟩ => iblk9 V c 7 t
    | ⟨8, _⟩ => iblk9 V c 8 t
    | ⟨9, _⟩ => iblk9 V c 9 t
    | ⟨10, _⟩ => iblk9 V c 10 t
    | ⟨11, _⟩ => out9_11 (iblk9 V c 0 t) (iblk9 V c 1 t) (iblk9 V c 2 t) (iblk9 V c 3 t) (iblk9 V c 4 t) (iblk9 V c 5 t) (iblk9 V c 6 t) (iblk9 V c 7 t) (iblk9 V c 8 t) (iblk9 V c 9 t) (iblk9 V c 10 t)
  Φ _ := Pipeline.ΦA spec9 c
  q _ := fullShare
  owed _ := 0

/-- The proof data's arrays are the region-entry contents. -/
theorem A_eq9 (c : Dev nD) (w : Fin cfg9.W) : (dat9 V c).A w = V c (Pipeline.arrRef spec9 w) := by
  dsimp only [dat9]

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) : (dat9 V c).after 5 t = iblk9 V c 5 t := by dsimp only [dat9]
theorem after9_6 (c : Dev nD) (t : Fin cfg9.N) : (dat9 V c).after 6 t = iblk9 V c 6 t := by dsimp only [dat9]
theorem after9_7 (c : Dev nD) (t : Fin cfg9.N) : (dat9 V c).after 7 t = iblk9 V c 7 t := by dsimp only [dat9]
theorem after9_8 (c : Dev nD) (t : Fin cfg9.N) : (dat9 V c).after 8 t = iblk9 V c 8 t := by dsimp only [dat9]
theorem after9_9 (c : Dev nD) (t : Fin cfg9.N) : (dat9 V c).after 9 t = iblk9 V c 9 t := by dsimp only [dat9]
theorem after9_10 (c : Dev nD) (t : Fin cfg9.N) : (dat9 V c).after 10 t = iblk9 V c 10 t := by dsimp only [dat9]
theorem after9_11 (c : Dev nD) (t : Fin cfg9.N) : (dat9 V c).after 11 t = out9_11 (iblk9 V c 0 t) (iblk9 V c 1 t) (iblk9 V c 2 t) (iblk9 V c 3 t) (iblk9 V c 4 t) (iblk9 V c 5 t) (iblk9 V c 6 t) (iblk9 V c 7 t) (iblk9 V c 8 t) (iblk9 V c 9 t) (iblk9 V c 10 t) := by dsimp only [dat9]

/-- Each input's current staging buffer holds its block at every point, fetched there or not. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d
theorem before9_4 (c : Dev nD) (t : Fin cfg9.N) (d) : (dat9 V c).before 4 t d = iblk9 V c 4 t :=
  before9_4_of V (dat9 V c) (A_eq9 V c 4) (after9_4 V c) t d
theorem before9_5 (c : Dev nD) (t : Fin cfg9.N) (d) : (dat9 V c).before 5 t d = iblk9 V c 5 t :=
  before9_5_of V (dat9 V c) (A_eq9 V c 5) (after9_5 V c) t d
theorem before9_6 (c : Dev nD) (t : Fin cfg9.N) (d) : (dat9 V c).before 6 t d = iblk9 V c 6 t :=
  before9_6_of V (dat9 V c) (A_eq9 V c 6) (after9_6 V c) t d
theorem before9_7 (c : Dev nD) (t : Fin cfg9.N) (d) : (dat9 V c).before 7 t d = iblk9 V c 7 t :=
  before9_7_of V (dat9 V c) (A_eq9 V c 7) (after9_7 V c) t d
theorem before9_8 (c : Dev nD) (t : Fin cfg9.N) (d) : (dat9 V c).before 8 t d = iblk9 V c 8 t :=
  before9_8_of V (dat9 V c) (A_eq9 V c 8) (after9_8 V c) t d
theorem before9_9 (c : Dev nD) (t : Fin cfg9.N) (d) : (dat9 V c).before 9 t d = iblk9 V c 9 t :=
  before9_9_of V (dat9 V c) (A_eq9 V c 9) (after9_9 V c) t d
theorem before9_10 (c : Dev nD) (t : Fin cfg9.N) (d) : (dat9 V c).before 10 t d = iblk9 V c 10 t :=
  before9_10_of V (dat9 V c) (A_eq9 V c 10) (after9_10 V c) t d

/-- The invariant at the region's entry and exit is the untouched rest itself. -/
theorem PhiIn9 (c : Dev nD) : Pipeline.ΦA spec9 c ⊢ (dat9 V c).Φ 0 := .rfl
theorem PhiOut9 (c : Dev nD) : (dat9 V c).Φ (Fin.last _) ⊢ Pipeline.ΦA spec9 c := .rfl

/-! ## The body obligation, at a generic point -/

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d))
    ∗ (∃ d, owns (c : Thread nD τ) (st9_6 t) fullShare ((dat9 V c).before 6 t d))
    ∗ (∃ d, owns (c : Thread nD τ) (st9_7 t) fullShare ((dat9 V c).before 7 t d))
    ∗ (∃ d, owns (c : Thread nD τ) (st9_8 t) fullShare ((dat9 V c).before 8 t d))
    ∗ (∃ d, owns (c : Thread nD τ) (st9_9 t) fullShare ((dat9 V c).before 9 t d))
    ∗ (∃ d, owns (c : Thread nD τ) (st9_10 t) fullShare ((dat9 V c).before 10 t d))
    ∗ (∃ d, owns (c : Thread nD τ) (st9_11 t) fullShare ((dat9 V c).before 11 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ owns (c : Thread nD τ) (st9_5 t) fullShare ((dat9 V c).after 5 t)
    ∗ owns (c : Thread nD τ) (st9_6 t) fullShare ((dat9 V c).after 6 t)
    ∗ owns (c : Thread nD τ) (st9_7 t) fullShare ((dat9 V c).after 7 t)
    ∗ owns (c : Thread nD τ) (st9_8 t) fullShare ((dat9 V c).after 8 t)
    ∗ owns (c : Thread nD τ) (st9_9 t) fullShare ((dat9 V c).after 9 t)
    ∗ owns (c : Thread nD τ) (st9_10 t) fullShare ((dat9 V c).after 10 t)
    ∗ owns (c : Thread nD τ) (st9_11 t) fullShare ((dat9 V c).after 11 t))

/-- The body at any point: the inputs' memrefs hold their blocks, so the body's triple applies; the invariant and
    the core's `owes` pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4, before9_5, before9_6, before9_7, before9_8, before9_9, before9_10]
  rw [show (dat9 V c).Φ t.succ = (dat9 V c).Φ t.castSucc from rfl,
    show (dat9 V c).owesAt () t.succ = (dat9 V c).owesAt () t.castSucc from rfl,
    after9_0, after9_1, after9_2, after9_3, after9_4, after9_5, after9_6, after9_7, after9_8, after9_9, after9_10, after9_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel9 c Set.univ _ _ _ _ _ _ _ _ _ _ _ _ _ _ _ _ _ _ _ _ _ _ _ _ _
    (iblk9 V c 0 t) (iblk9 V c 1 t) (iblk9 V c 2 t) (iblk9 V c 3 t) (iblk9 V c 4 t) (iblk9 V c 5 t) (iblk9 V c 6 t) (iblk9 V c 7 t) (iblk9 V c 8 t) (iblk9 V c 9 t) (iblk9 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation9 (c : Dev nD) : BodyObligation (dat9 (F := F) V c) (defs₀ (F := F)) Variants.none () Set.univ := fun t => by
  rw [bigSep_W9, bigSep_W9]
  exact sound_body9 V c t

end Cert.Kernel.Hand
-- ==== Proof.KSegRegion10.lean ====
/- Region 10 of @main, custom_call 10, the batch-grouped segment sum `cc10__segsum_kernel`: the frame half of its pipeline,
   at any float model `F` and at a PARAMETER `V`, the TensorCore's buffer contents when the region is entered.
   The grid has ten points. A scratch accumulator (256x128, f32) is carried from point to point: the first point stores
   the zero block into it, every point then adds its 5000-row block's contribution (the transposed one-hot of the
   block's segment ids times the block), and the last point copies it into the output window's staging buffer, which
   the pipeline writes back once. So the invariant between points names what the scratch holds, by recursion on the
   point (`accAt10`); the output window is idle at every point but the last and is handed back there as it was found. -/
import proofs.«403491_j395136991532_1_alg».proof.Proof.Gen.Kernel.Launch
import proofs.«403491_j395136991532_1_alg».proof.Proof.Gen.Kernel.Skeleton
import proofs.«403491_j395136991532_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- Input window 0's current staging buffer holds its block at every point, fetched there or not, for any proof data
    whose array is `V`'s and whose body leaves the block in place: the window is uncut and never idle. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- Input window 1's current staging buffer holds its block at every point, likewise. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-! ## The body's branch conditions -/

/-- The first conditional's condition (the accumulator's reset), from the grid coordinate. -/
abbrev cond10_0 (i : grid10.Coords) : Prop := (Scalar.cmpi .ne (Scalar.extui (Scalar.cmpi .eq (BitVec.ofNat 32 (i 0).val) 0#32)) 0#32) = 1#1
/-- It holds at the first point only. -/
theorem hcond10_0 : ∀ t : Fin cfg10.N, cond10_0 (grid10.coords t) ↔ t.val % 10 = 0 :=
  (by decide +kernel : ∀ t : Fin grid10.N, cond10_0 (grid10.coords t) ↔ t.val % 10 = 0)

/-- The second conditional's condition (the copy into the output window). -/
abbrev cond10_1 (i : grid10.Coords) : Prop := k10_cond2 i = 1#1
/-- It holds at the last point only. -/
theorem hcond10_1 : ∀ t : Fin cfg10.N, cond10_1 (grid10.coords t) ↔ t.val % 10 = 9 :=
  (by decide +kernel : ∀ t : Fin grid10.N, cond10_1 (grid10.coords t) ↔ t.val % 10 = 9)

/-! ## Where the output window is idle -/

theorem liveAt10_0 : ∀ t : Fin cfg10.N, cfg10.idle 0 (grid10.coords t) = false := by decide +kernel
theorem liveAt10_1 : ∀ t : Fin cfg10.N, cfg10.idle 1 (grid10.coords t) = false := by decide +kernel
/-- Where the copy is not taken the output window is idle, -/
theorem idleAt10_2 : ∀ t : Fin cfg10.N, ¬cond10_1 (grid10.coords t) → cfg10.idle 2 (grid10.coords t) = true := by decide +kernel
/-- and not written back; -/
theorem noFlush10_2 : ∀ t : Fin cfg10.N, ¬cond10_1 (grid10.coords t) → (cfg10.win 2).flush t = false := by decide +kernel
/-- where it is taken the window is live. -/
theorem liveAt10_2 : ∀ t : Fin cfg10.N, cond10_1 (grid10.coords t) → cfg10.idle 2 (grid10.coords t) = false := by decide +kernel

/-! ## Whole-buffer accesses -/

/-- The zero offsets of a two-axis access. -/
theorem hz10 : (![0, 0] : Fin 2 → Nat) = fun _ => 0 := funext fun a => by fin_cases a <;> rfl

/-- A rectangle of the shape's own sizes at zero offsets holds every index. -/
theorem memUnit10 {S : Shape} {off : Fin S.rank → Nat} (h : off = fun _ => 0) (inb : ∀ a, off a + S.size a ≤ S.size a) (y : S.Idx) :
    y ∈ (Rect.unit off S.size inb).set := by
  subst h; show y ∈ (Rect.whole S).set; rw [Rect.set_whole]; exact Finset.mem_univ y

/-- A store through such a rectangle, made last, leaves its payload, whatever was stored before and whatever the
    buffer held. -/
theorem readLast10 {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f (⟨Rect.unit off S.size inb, w⟩ :: L)) = w := by
  rw [View.read_writes_eq_canon _ _ _ (fun y => ⟨_, List.mem_cons_self .., memUnit10 h inb y⟩), View.canon_cons_unit_zero h]

/-! ## The scratch accumulator -/

/-- The scratch operand: a whole scoped buffer of the kernel's own, passed beside the windows. -/
abbrev scM10 : Memref sig .tc .vmem S256x128 .f32 := Memref.whole cc10_scratch0

/-- THE ACCUMULATION. What the scratch holds after `n` points: the zero block the first point stores, then, point by
    point, the sum of what it held and the point's contribution (the payload of the body's second store, over the
    point's two input blocks and what the scratch held). -/
def accAt10 (c : Dev nD) : (n : ℕ) → n ≤ cfg10.N → Vec F S256x128 .f32
  | 0, _ => k10_pay1
  | n + 1, hn => k10_pay2 (iblk10 V c 0 ⟨n, hn⟩) (iblk10 V c 1 ⟨n, hn⟩) (accAt10 c n (Nat.le_of_lt hn))

theorem accAt10_zero (c : Dev nD) (h : 0 ≤ cfg10.N) : accAt10 V c 0 h = k10_pay1 := rfl
theorem accAt10_succ (c : Dev nD) (t : Fin cfg10.N) :
    accAt10 V c (t.val + 1) t.isLt = k10_pay2 (iblk10 V c 0 t) (iblk10 V c 1 t) (accAt10 V c t.val (Nat.le_of_lt t.isLt)) := rfl

/-! ## The body's triple, per control case -/

set_option maxHeartbeats 1000000 in
/-- THE FIRST POINT (the reset taken, the copy not): on whole memrefs, the inputs' at `x` and `b` and the scratch at
    anything, the body runs to the inputs' as they were and the scratch at the zero block plus the point's contribution.
    The output window's memref is not touched. -/
theorem sound_first10 (c : Dev nD) (E : Set ℕ) (i : grid10.Coords)
    (aX : Memref sig .tc .vmem S5000x128 .f32) (hX : aX.IsWhole) (aB : Memref sig .tc .vmem S5000x1 .i32) (hB : aB.IsWhole)
    (aO : Memref sig .tc .vmem S256x128 .f32) (hO : aO.IsWhole) (aS : Memref sig .tc .vmem S256x128 .f32) (hS : aS.IsWhole)
    (hcR : cond10_0 i) (hcC : ¬cond10_1 i)
    (x : Vec F S5000x128 .f32) (b : Vec F S5000x1 .i32) (K : PUnit → sProp 𝕄) :
    iprop(owns (c : Thread nD τ) aX fullShare x ∗ owns (c : Thread nD τ) aB fullShare b ∗ (∃ d, owns (c : Thread nD τ) aS fullShare d)
        ∗ (iprop(owns (c : Thread nD τ) aX fullShare x ∗ owns (c : Thread nD τ) aB fullShare b
            ∗ owns (c : Thread nD τ) aS fullShare (k10_pay2 x b k10_pay1)) -∗ K ⟨⟩))
      ⊢ wp frame (wpE (defs₀ (F := F)) Variants.none c none) E (cc10__segsum_kernel i aX hX aB hB aO hO aS hS) K := by
  simp only [cc10__segsum_kernel_eq_skeleton]; unfold cc10__segsum_kernel_skel
  unfold owns
  iintro ⟨⟨%fX, %hfX, HX⟩, ⟨%fB, %hfB, HB⟩, ⟨%dS, %fS, -, HS⟩, Hk⟩
  obtain rfl := hX.eq_unread hfX; obtain rfl := hB.eq_unread hfB
  sl_exec (disch := first | exact hcR | exact hcC)
  sl_step
  iapply Hk
  isplitl [HX]
  · iexists _; isplitr; · ipureintro; exact hX.read_unread _
    iexact HX
  isplitl [HB]
  · iexists _; isplitr; · ipureintro; exact hB.read_unread _
    iexact HB
  iexists _; isplitr
  swap; · iexact HS
  ipureintro
  sl_unfold_run_names
  rw [readLast10 _ _ hz10, View.readCov_unit_zero _ hz10]
  simp only [View.readAt_eq_ld, hX.read_unread, hB.read_unread,
    View.ld_unit_zero (S := S5000x128) hz10, View.ld_unit_zero (S := S5000x1) hz10]

set_option maxHeartbeats 1000000 in
/-- A MIDDLE POINT (neither conditional taken): the scratch at `a` ends at `a` plus the point's contribution. -/
theorem sound_mid10 (c : Dev nD) (E : Set ℕ) (i : grid10.Coords)
    (aX : Memref sig .tc .vmem S5000x128 .f32) (hX : aX.IsWhole) (aB : Memref sig .tc .vmem S5000x1 .i32) (hB : aB.IsWhole)
    (aO : Memref sig .tc .vmem S256x128 .f32) (hO : aO.IsWhole) (aS : Memref sig .tc .vmem S256x128 .f32) (hS : aS.IsWhole)
    (hcR : ¬cond10_0 i) (hcC : ¬cond10_1 i)
    (x : Vec F S5000x128 .f32) (b : Vec F S5000x1 .i32) (a : Vec F S256x128 .f32) (K : PUnit → sProp 𝕄) :
    iprop(owns (c : Thread nD τ) aX fullShare x ∗ owns (c : Thread nD τ) aB fullShare b ∗ owns (c : Thread nD τ) aS fullShare a
        ∗ (iprop(owns (c : Thread nD τ) aX fullShare x ∗ owns (c : Thread nD τ) aB fullShare b
            ∗ owns (c : Thread nD τ) aS fullShare (k10_pay2 x b a)) -∗ K ⟨⟩))
      ⊢ wp frame (wpE (defs₀ (F := F)) Variants.none c none) E (cc10__segsum_kernel i aX hX aB hB aO hO aS hS) K := by
  simp only [cc10__segsum_kernel_eq_skeleton]; unfold cc10__segsum_kernel_skel
  unfold owns
  iintro ⟨⟨%fX, %hfX, HX⟩, ⟨%fB, %hfB, HB⟩, ⟨%fS, %hfS, HS⟩, Hk⟩
  obtain rfl := hX.eq_unread hfX; obtain rfl := hB.eq_unread hfB; obtain rfl := hS.eq_unread hfS
  sl_exec (disch := first | exact hcR | exact hcC)
  sl_step
  iapply Hk
  isplitl [HX]
  · iexists _; isplitr; · ipureintro; exact hX.read_unread _
    iexact HX
  isplitl [HB]
  · iexists _; isplitr; · ipureintro; exact hB.read_unread _
    iexact HB
  iexists _; isplitr
  swap; · iexact HS
  ipureintro
  rw [readLast10 _ _ hz10]
  simp only [View.readAt_eq_ld, hX.read_unread, hB.read_unread, hS.read_unread,
    View.ld_unit_zero (S := S5000x128) hz10, View.ld_unit_zero (S := S5000x1) hz10, View.ld_unit_zero (S := S256x128) hz10]

set_option maxHeartbeats 1000000 in
/-- THE LAST POINT (the copy taken, the reset not): the scratch at `a` ends at `a` plus the point's contribution, and
    the output window's memref, at anything, ends holding the same. -/
theorem sound_last10 (c : Dev nD) (E : Set ℕ) (i : grid10.Coords)
    (aX : Memref sig .tc .vmem S5000x128 .f32) (hX : aX.IsWhole) (aB : Memref sig .tc .vmem S5000x1 .i32) (hB : aB.IsWhole)
    (aO : Memref sig .tc .vmem S256x128 .f32) (hO : aO.IsWhole) (aS : Memref sig .tc .vmem S256x128 .f32) (hS : aS.IsWhole)
    (hcR : ¬cond10_0 i) (hcC : cond10_1 i)
    (x : Vec F S5000x128 .f32) (b : Vec F S5000x1 .i32) (a : Vec F S256x128 .f32) (K : PUnit → sProp 𝕄) :
    iprop(owns (c : Thread nD τ) aX fullShare x ∗ owns (c : Thread nD τ) aB fullShare b ∗ (∃ d, owns (c : Thread nD τ) aO fullShare d)
        ∗ owns (c : Thread nD τ) aS fullShare a
        ∗ (iprop(owns (c : Thread nD τ) aX fullShare x ∗ owns (c : Thread nD τ) aB fullShare b
            ∗ owns (c : Thread nD τ) aO fullShare (k10_pay2 x b a) ∗ owns (c : Thread nD τ) aS fullShare (k10_pay2 x b a)) -∗ K ⟨⟩))
      ⊢ wp frame (wpE (defs₀ (F := F)) Variants.none c none) E (cc10__segsum_kernel i aX hX aB hB aO hO aS hS) K := by
  simp only [cc10__segsum_kernel_eq_skeleton]; unfold cc10__segsum_kernel_skel
  unfold owns
  iintro ⟨⟨%fX, %hfX, HX⟩, ⟨%fB, %hfB, HB⟩, ⟨%dO, %fO, -, HO⟩, ⟨%fS, %hfS, HS⟩, Hk⟩
  obtain rfl := hX.eq_unread hfX; obtain rfl := hB.eq_unread hfB; obtain rfl := hS.eq_unread hfS
  sl_exec (disch := first | exact hcR | exact hcC)
  sl_step
  iapply Hk
  isplitl [HX]
  · iexists _; isplitr; · ipureintro; exact hX.read_unread _
    iexact HX
  isplitl [HB]
  · iexists _; isplitr; · ipureintro; exact hB.read_unread _
    iexact HB
  isplitl [HO]
  · iexists _; isplitr
    swap; · iexact HO
    ipureintro
    sl_unfold_run_names
    rw [readLast10 _ _ hz10, View.readCov_unit_zero _ hz10]
    simp only [View.readAt_eq_ld, hX.read_unread, hB.read_unread, hS.read_unread,
      View.ld_unit_zero (S := S5000x128) hz10, View.ld_unit_zero (S := S5000x1) hz10, View.ld_unit_zero (S := S256x128) hz10]
  iexists _; isplitr
  swap; · iexact HS
  ipureintro
  sl_unfold_run_names
  rw [readLast10 _ _ hz10]
  simp only [View.readAt_eq_ld, hX.read_unread, hB.read_unread, hS.read_unread,
    View.ld_unit_zero (S := S5000x128) hz10, View.ld_unit_zero (S := S5000x1) hz10, View.ld_unit_zero (S := S256x128) hz10]

/-- The region invariant before position `n`: before the first point the class's (every scratch at anything); afterwards
    the carried scratch at what the points so far accumulated, the other scoped buffers unopened, and the generator
    register at some state. -/
def Phi10 (c : Dev nD) (n : ℕ) (hn : n ≤ cfg10.N) : sProp 𝕄 :=
  if n = 0 then Pipeline.ΦA spec10 c
  else iprop(owns (c : Thread nD τ) scM10 fullShare (accAt10 V c n hn)
      ∗ Pipeline.scopedRestBut (Ix := Unit) (Name := ℕ) (U := UR sig nD τ) (Lvl := ℕ) (Val := Elt F) spec10 c [cc10_scratch0]
      ∗ (∃ r, prngReg c r))

theorem Phi10_zero (c : Dev nD) (n : ℕ) (h : n ≤ cfg10.N) (hz : n = 0) : Phi10 V c n h = Pipeline.ΦA spec10 c := by
  unfold Phi10; exact if_pos hz

theorem Phi10_pos (c : Dev nD) (n : ℕ) (h : n ≤ cfg10.N) (hz : n ≠ 0) :
    Phi10 V c n h = iprop(owns (c : Thread nD τ) scM10 fullShare (accAt10 V c n h)
      ∗ Pipeline.scopedRestBut (Ix := Unit) (Name := ℕ) (U := UR sig nD τ) (Lvl := ℕ) (Val := Elt F) spec10 c [cc10_scratch0]
      ∗ (∃ r, prngReg c r)) := by
  unfold Phi10; exact if_neg hz

/-- The class's invariant with the scratch operand split out of the scoped rest as a memref owned at some contents. -/
theorem PhiA10_eq (c : Dev nD) :
    (Pipeline.ΦA spec10 c : sProp 𝕄)
      = iprop(iprop(iprop((∃ d, owns (c : Thread nD τ) scM10 fullShare d))
          ∗ Pipeline.scopedRestBut (Ix := Unit) (Name := ℕ) (U := UR sig nD τ) (Lvl := ℕ) (Val := Elt F) spec10 c [cc10_scratch0])
        ∗ (∃ r, prngReg c r)) := by
  unfold Pipeline.ΦA; rw [scopedRest10_split]; simp only [scM10, owns_whole]; try rfl

/-! ## The pipeline's proof data -/

/-- The proof data of pipeline 10 on core `c`: the arrays as the region finds them (`V`); after the body at point `t` each
    input's buffer at its block and the output's at what the scratch then holds (consulted at the last point only: the
    window is idle elsewhere); the invariant `Phi10`; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => accAt10 V c (t.val + 1) t.isLt
  Φ t := Phi10 V c t.val (Nat.le_of_lt_succ t.isLt)
  q _ := fullShare
  owed _ := 0

theorem A_eq10 (c : Dev nD) (w : Fin cfg10.W) : (dat10 V c).A w = V c (Pipeline.arrRef spec10 w) := by
  dsimp only [dat10]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = accAt10 V c (t.val + 1) t.isLt := by dsimp only [dat10]

theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d

/-- The invariant at a point's start, restated at `t.val`. -/
theorem Phi10_castSucc (c : Dev nD) (t : Fin cfg10.N) :
    (dat10 V c).Φ t.castSucc = Phi10 V c t.val (Nat.le_of_lt t.isLt) := by
  dsimp only [dat10]; simp only [Fin.coe_castSucc]

/-- The invariant at a point's end: the carried scratch at what the points up to this one accumulated. -/
theorem Phi10_succ (c : Dev nD) (t : Fin cfg10.N) :
    (dat10 V c).Φ t.succ = iprop(owns (c : Thread nD τ) scM10 fullShare (accAt10 V c (t.val + 1) t.isLt)
      ∗ Pipeline.scopedRestBut (Ix := Unit) (Name := ℕ) (U := UR sig nD τ) (Lvl := ℕ) (Val := Elt F) spec10 c [cc10_scratch0]
      ∗ (∃ r, prngReg c r)) := by
  dsimp only [dat10]; simp only [Fin.val_succ]; exact Phi10_pos V c _ _ (Nat.succ_ne_zero _)

/-- Before any point has run the accumulation is the zero block. -/
theorem accAt10_of_zero (c : Dev nD) (n : ℕ) (h : n ≤ cfg10.N) (hz : n = 0) : accAt10 V c n h = k10_pay1 := by
  subst hz; rfl

/-! ## The body obligation, at a generic point -/

/-- What the body is called with at point `t` (the library's body obligation's precondition, the windows one by one), -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d)))

/-- and what it returns. -/
def bodyPost10 (c : Dev nD) (t : Fin cfg10.N) : sProp 𝕄 :=
  iprop((dat10 V c).Φ t.succ ∗ (dat10 V c).owesAt () t.succ
    ∗ (dat10 V c).leavesExact 0 t
    ∗ (dat10 V c).leavesExact 1 t
    ∗ (dat10 V c).leavesExact 2 t)

set_option maxHeartbeats 4000000 in
/-- The body at any point. The inputs' memrefs hold their blocks; the closed forms of the two conditions say which of the
    three control cases the point is in, and that case's triple applies. The invariant hands the body the scratch — at
    anything at the first point, at what the points before accumulated afterwards — and takes it back at what the points
    up to this one accumulated; the other scoped buffers, the generator register and the core's `owes` pass through
    unread; the output window's memref is handed back as it was found except at the last point, where it holds the
    accumulation. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1]
  rw [show (dat10 V c).owesAt () t.succ = (dat10 V c).owesAt () t.castSucc from rfl, Phi10_succ V c t, Phi10_castSucc V c t]
  have hN : t.val < 10 := lt_of_lt_of_eq t.isLt (show cfg10.N = 10 from N_10)
  rw [show (dat10 V c).leavesExact 0 t = owns (c : Thread nD τ) (st10_0 t) fullShare ((dat10 V c).after 0 t) from by
    unfold Dat.leavesExact; rw [liveAt10_0 t], after10_0]
  rw [show (dat10 V c).leavesExact 1 t = owns (c : Thread nD τ) (st10_1 t) fullShare ((dat10 V c).after 1 t) from by
    unfold Dat.leavesExact; rw [liveAt10_1 t], after10_1]
  rw [accAt10_succ V c t]
  by_cases hL : t.val % 10 = 9
  · have hcC : cond10_1 (grid10.coords t) := (hcond10_1 t).mpr hL
    have hcR : ¬cond10_0 (grid10.coords t) := fun h => by have := (hcond10_0 t).mp h; omega
    have hz : t.val ≠ 0 := by omega
    rw [show (dat10 V c).leavesExact 2 t = owns (c : Thread nD τ) (st10_2 t) fullShare ((dat10 V c).after 2 t) from by
      unfold Dat.leavesExact; rw [liveAt10_2 t hcC], after10_2, accAt10_succ V c t]
    rw [Phi10_pos V c _ _ hz]
    iintro ⟨⟨HS, Hrest, Hg⟩, Ho, ⟨%dX, HX⟩, ⟨%dB, HB⟩, ⟨%dO, HO⟩⟩
    iapply (sound_last10 c Set.univ (grid10.coords t) _ _ _ _ _ _ _ _ hcR hcC (iblk10 V c 0 t) (iblk10 V c 1 t)
      (accAt10 V c t.val (Nat.le_of_lt t.isLt)) _)
    isplitl [HX]; · iexact HX
    isplitl [HB]; · iexact HB
    isplitl [HO]; · iexists _; iexact HO
    isplitl [HS]; · iexact HS
    iintro ⟨HX, HB, HO, HS⟩
    isplitl [HS Hrest Hg]
    · isplitl [HS]; · iexact HS
      isplitl [Hrest]; · iexact Hrest
      iexact Hg
    isplitl [Ho]; · iexact Ho
    isplitl [HX]; · iexact HX
    isplitl [HB]; · iexact HB
    iexact HO
  · have hcC : ¬cond10_1 (grid10.coords t) := fun h => hL ((hcond10_1 t).mp h)
    rw [Dat.leavesExact_idle (dat10 V c) 2 t (idleAt10_2 t hcC) (noFlush10_2 t hcC)]
    by_cases hF : t.val % 10 = 0
    · have hcR : cond10_0 (grid10.coords t) := (hcond10_0 t).mpr hF
      have hz : t.val = 0 := by omega
      rw [Phi10_zero V c _ _ hz, PhiA10_eq, accAt10_of_zero V c _ _ hz]
      iintro ⟨⟨⟨HS, Hrest⟩, Hg⟩, Ho, ⟨%dX, HX⟩, ⟨%dB, HB⟩, ⟨%dO, HO⟩⟩
      iapply (sound_first10 c Set.univ (grid10.coords t) _ _ _ _ _ _ _ _ hcR hcC (iblk10 V c 0 t) (iblk10 V c 1 t) _)
      isplitl [HX]; · iexact HX
      isplitl [HB]; · iexact HB
      isplitl [HS]; · iexact HS
      iintro ⟨HX, HB, HS⟩
      isplitl [HS Hrest Hg]
      · isplitl [HS]; · iexact HS
        isplitl [Hrest]; · iexact Hrest
        iexact Hg
      isplitl [Ho]; · iexact Ho
      isplitl [HX]; · iexact HX
      isplitl [HB]; · iexact HB
      iexists _; iexact HO
    · have hcR : ¬cond10_0 (grid10.coords t) := fun h => hF ((hcond10_0 t).mp h)
      have hz : t.val ≠ 0 := by omega
      rw [Phi10_pos V c _ _ hz]
      iintro ⟨⟨HS, Hrest, Hg⟩, Ho, ⟨%dX, HX⟩, ⟨%dB, HB⟩, ⟨%dO, HO⟩⟩
      iapply (sound_mid10 c Set.univ (grid10.coords t) _ _ _ _ _ _ _ _ hcR hcC (iblk10 V c 0 t) (iblk10 V c 1 t)
        (accAt10 V c t.val (Nat.le_of_lt t.isLt)) _)
      isplitl [HX]; · iexact HX
      isplitl [HB]; · iexact HB
      isplitl [HS]; · iexact HS
      iintro ⟨HX, HB, HS⟩
      isplitl [HS Hrest Hg]
      · isplitl [HS]; · iexact HS
        isplitl [Hrest]; · iexact Hrest
        iexact Hg
      isplitl [Ho]; · iexact Ho
      isplitl [HX]; · iexact HX
      isplitl [HB]; · iexact HB
      iexists _; iexact HO

/-- The library's body obligation, at every point. -/
theorem body_obligation10 (c : Dev nD) : BodyObligation (dat10 (F := F) V c) (defs₀ (F := F)) Variants.none () Set.univ := fun t => by
  rw [bigSep_W10, bigSep_W10]
  exact sound_body10 V c t

/-- What the launch hands the region is the invariant before the first point. -/
theorem PhiIn10 (c : Dev nD) : Pipeline.ΦA spec10 c ⊢ (dat10 V c).Φ 0 := by
  rw [show (dat10 V c).Φ 0 = Phi10 V c 0 (Nat.zero_le _) from rfl, Phi10_zero V c 0 _ rfl]

/-- After the last point the invariant gives the class's back: the scratch's named contents are forgotten. -/
theorem PhiOut10 (c : Dev nD) : (dat10 V c).Φ (Fin.last _) ⊢ Pipeline.ΦA spec10 c := by
  rw [show (dat10 V c).Φ (Fin.last _) = Phi10 V c cfg10.N (Nat.le_refl _) from rfl,
    Phi10_pos V c _ _ (by rw [show cfg10.N = 10 from N_10]; decide), PhiA10_eq]
  iintro ⟨HS, Hrest, Hg⟩
  isplitl [HS Hrest]
  · isplitl [HS]
    · iexists _; iexact HS
    iexact Hrest
  iexact Hg

end Cert.Kernel.Hand

end
-- ==== Proof.KVnRegion11.lean ====
/- Region 11 of @main, custom_call 11, the virtual node's two-layer perceptron `cc11__vn_mlp_kernel`: the frame half of its pipeline, at any float model `F` and at a PARAMETER `V`, the
   TensorCore's buffer contents when the region is entered. The grid is one point and every window's block is its whole
   array. Each input window's staging buffer holds its block; the output's, after the body, holds what the body's one store
   leaves, a function `out11_9` of the input blocks; the body's triple is run on whole staging memrefs; the pipeline's proof
   data carries the arrays at `V`, the untouched invariant, full shares and nothing owed; and the library's body obligation
   follows at the one point. -/
import proofs.«403491_j395136991532_1_alg».proof.Proof.Gen.Kernel.Launch
import proofs.«403491_j395136991532_1_alg».proof.Proof.Gen.Kernel.Skeleton
import proofs.«403491_j395136991532_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- Input window 0's current staging buffer holds its block at every point, fetched there or not, for any proof data
    whose array is `V`'s and whose body leaves the block in place: the window is uncut and never idle. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

/-- Input window 1's current staging buffer holds its block at every point, fetched there or not, for any proof data
    whose array is `V`'s and whose body leaves the block in place: the window is uncut and never idle. -/
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

/-- Input window 2's current staging buffer holds its block at every point, fetched there or not, for any proof data
    whose array is `V`'s and whose body leaves the block in place: the window is uncut and never idle. -/
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)

/-- Input window 3's current staging buffer holds its block at every point, fetched there or not, for any proof data
    whose array is `V`'s and whose body leaves the block in place: the window is uncut and never idle. -/
theorem before11_3_of {c : Dev nD} (dat : Dat τ (Elt F) Unit ℕ (UR sig nD τ) ℕ cfg11 c) (hA : dat.A 3 = V c (Pipeline.arrRef spec11 3))
    (hafter : ∀ t, dat.after 3 t = iblk11 V c 3 t) (t : Fin cfg11.N) (d) : dat.before 3 t d = iblk11 V c 3 t :=
  (dat.before_in_eq_fetched 3 rfl (fun _ => rfl) (fun _ _ _ => rfl) (fun t => by rw [hafter]; unfold Dat.blockOf iblk11; rw [hA]; try rfl) t d).trans
    (by unfold Dat.fetched Dat.blockOf iblk11; rw [hA]; try rfl)

/-- Input window 4's current staging buffer holds its block at every point, fetched there or not, for any proof data
    whose array is `V`'s and whose body leaves the block in place: the window is uncut and never idle. -/
theorem before11_4_of {c : Dev nD} (dat : Dat τ (Elt F) Unit ℕ (UR sig nD τ) ℕ cfg11 c) (hA : dat.A 4 = V c (Pipeline.arrRef spec11 4))
    (hafter : ∀ t, dat.after 4 t = iblk11 V c 4 t) (t : Fin cfg11.N) (d) : dat.before 4 t d = iblk11 V c 4 t :=
  (dat.before_in_eq_fetched 4 rfl (fun _ => rfl) (fun _ _ _ => rfl) (fun t => by rw [hafter]; unfold Dat.blockOf iblk11; rw [hA]; try rfl) t d).trans
    (by unfold Dat.fetched Dat.blockOf iblk11; rw [hA]; try rfl)

/-- Input window 5's current staging buffer holds its block at every point, fetched there or not, for any proof data
    whose array is `V`'s and whose body leaves the block in place: the window is uncut and never idle. -/
theorem before11_5_of {c : Dev nD} (dat : Dat τ (Elt F) Unit ℕ (UR sig nD τ) ℕ cfg11 c) (hA : dat.A 5 = V c (Pipeline.arrRef spec11 5))
    (hafter : ∀ t, dat.after 5 t = iblk11 V c 5 t) (t : Fin cfg11.N) (d) : dat.before 5 t d = iblk11 V c 5 t :=
  (dat.before_in_eq_fetched 5 rfl (fun _ => rfl) (fun _ _ _ => rfl) (fun t => by rw [hafter]; unfold Dat.blockOf iblk11; rw [hA]; try rfl) t d).trans
    (by unfold Dat.fetched Dat.blockOf iblk11; rw [hA]; try rfl)

/-- Input window 6's current staging buffer holds its block at every point, fetched there or not, for any proof data
    whose array is `V`'s and whose body leaves the block in place: the window is uncut and never idle. -/
theorem before11_6_of {c : Dev nD} (dat : Dat τ (Elt F) Unit ℕ (UR sig nD τ) ℕ cfg11 c) (hA : dat.A 6 = V c (Pipeline.arrRef spec11 6))
    (hafter : ∀ t, dat.after 6 t = iblk11 V c 6 t) (t : Fin cfg11.N) (d) : dat.before 6 t d = iblk11 V c 6 t :=
  (dat.before_in_eq_fetched 6 rfl (fun _ => rfl) (fun _ _ _ => rfl) (fun t => by rw [hafter]; unfold Dat.blockOf iblk11; rw [hA]; try rfl) t d).trans
    (by unfold Dat.fetched Dat.blockOf iblk11; rw [hA]; try rfl)

/-- Input window 7's current staging buffer holds its block at every point, fetched there or not, for any proof data
    whose array is `V`'s and whose body leaves the block in place: the window is uncut and never idle. -/
theorem before11_7_of {c : Dev nD} (dat : Dat τ (Elt F) Unit ℕ (UR sig nD τ) ℕ cfg11 c) (hA : dat.A 7 = V c (Pipeline.arrRef spec11 7))
    (hafter : ∀ t, dat.after 7 t = iblk11 V c 7 t) (t : Fin cfg11.N) (d) : dat.before 7 t d = iblk11 V c 7 t :=
  (dat.before_in_eq_fetched 7 rfl (fun _ => rfl) (fun _ _ _ => rfl) (fun t => by rw [hafter]; unfold Dat.blockOf iblk11; rw [hA]; try rfl) t d).trans
    (by unfold Dat.fetched Dat.blockOf iblk11; rw [hA]; try rfl)

/-- Input window 8's current staging buffer holds its block at every point, fetched there or not, for any proof data
    whose array is `V`'s and whose body leaves the block in place: the window is uncut and never idle. -/
theorem before11_8_of {c : Dev nD} (dat : Dat τ (Elt F) Unit ℕ (UR sig nD τ) ℕ cfg11 c) (hA : dat.A 8 = V c (Pipeline.arrRef spec11 8))
    (hafter : ∀ t, dat.after 8 t = iblk11 V c 8 t) (t : Fin cfg11.N) (d) : dat.before 8 t d = iblk11 V c 8 t :=
  (dat.before_in_eq_fetched 8 rfl (fun _ => rfl) (fun _ _ _ => rfl) (fun t => by rw [hafter]; unfold Dat.blockOf iblk11; rw [hA]; try rfl) t d).trans
    (by unfold Dat.fetched Dat.blockOf iblk11; rw [hA]; try rfl)

/-! ## The body's accesses: each is a whole buffer -/

abbrev r11_0 : Rect S256x128 := Rect.unit (s := S256x128) ![0, 0] S256x128.size inb_S256x128_S256x128_0_0
abbrev r11_1 : Rect S128x256 := Rect.unit (s := S128x256) ![0, 0] S128x256.size inb_S128x256_S128x256_0_0
abbrev r11_2 : Rect S1x256 := Rect.unit (s := S1x256) ![0, 0] S1x256.size inb_S1x256_S1x256_0_0
abbrev r11_3 : Rect S1x128 := Rect.unit (s := S1x128) ![0, 0] S1x128.size inb_S1x128_S1x128_0_0

/-! ## What the body leaves in the output window's buffer -/

/-- Window 9's staging buffer after the body, from the input windows' blocks: its one store as a piece (the payload is
    the skeleton's). -/
def out11_9 (x0 : Vec F S256x128 .f32) (x1 : Vec F S128x256 .bf16) (x2 : Vec F S1x256 .f32) (x3 : Vec F S1x256 .f32) (x4 : Vec F S1x256 .f32) (x5 : Vec F S256x128 .bf16) (x6 : Vec F S1x128 .f32) (x7 : Vec F S1x128 .f32) (x8 : Vec F S1x128 .f32) : Vec F S256x128 .f32 :=
  View.canon [⟨r11_0, k11_pay1 (k11_pay2 (View.ld x0 r11_0) (View.ld x1 r11_1) (View.ld x2 r11_2) (View.ld x3 r11_2) (View.ld x4 r11_2) (View.ld x5 r11_0) (View.ld x6 r11_3) (View.ld x7 r11_3) (View.ld x8 r11_3)) k11_pay3⟩]

/-- The one store is of the whole buffer, so it covers it. -/
theorem cover11_9 (p0 : Vec F S256x128 .f32) (y : S256x128.Idx) :
    ∃ pc ∈ ([⟨r11_0, p0⟩] : List (View.Piece (Elt F) S256x128 .f32)), y ∈ pc.1.set :=
  View.cover_of_tiled [⟨r11_0, p0⟩] S256x128.size (by rfl) y

/-! ## The body's triple -/

set_option maxHeartbeats 1000000 in
/-- The kernel body on whole staging memrefs, the inputs' at read contents `xW` and the output's at anything, runs to the
    continuation holding the inputs' as they were and the output's at `out11_9` of the inputs': the printed functions are
    their skeletons of memory operations over payloads, which are run operation by operation, through the part call. -/
theorem sound_kernel11 (c : Dev nD) (E : Set ℕ) (i : grid11.Coords) (arg1 : Memref sig .tc .vmem S256x128 .f32) (harg1 : arg1.IsWhole) (arg2 : Memref sig .tc .vmem S128x256 .bf16) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x128 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S256x128 .f32) (harg10 : arg10.IsWhole)
    (x0 : Vec F S256x128 .f32) (x1 : Vec F S128x256 .bf16) (x2 : Vec F S1x256 .f32) (x3 : Vec F S1x256 .f32) (x4 : Vec F S1x256 .f32) (x5 : Vec F S256x128 .bf16) (x6 : Vec F S1x128 .f32) (x7 : Vec F S1x128 .f32) (x8 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out11_9 x0 x1 x2 x3 x4 x5 x6 x7 x8)) -∗ K ⟨⟩))
      ⊢ wp frame (wpE (defs₀ (F := F)) Variants.none c none) E (cc11__vn_mlp_kernel i arg1 harg1 arg2 harg2 arg3 harg3 arg4 harg4 arg5 harg5 arg6 harg6 arg7 harg7 arg8 harg8 arg9 harg9 arg10 harg10) K := by
  simp only [cc11__vn_mlp_kernel_eq_skeleton]; unfold cc11__vn_mlp_kernel_skel
  simp only [k11_part1_eq_skeleton]; unfold k11_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover11_9 _)

/-! ## The pipeline's proof data -/

/-- The proof data of pipeline 11 on core `c`: the arrays as the region finds them (`V`); after the body at point `t` each
    input's buffer at its block and the output's at `out11_9` of the input blocks; the invariant the scoped rest and the
    generator register, untouched; nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => iblk11 V c 4 t
    | ⟨5, _⟩ => iblk11 V c 5 t
    | ⟨6, _⟩ => iblk11 V c 6 t
    | ⟨7, _⟩ => iblk11 V c 7 t
    | ⟨8, _⟩ => iblk11 V c 8 t
    | ⟨9, _⟩ => out11_9 (iblk11 V c 0 t) (iblk11 V c 1 t) (iblk11 V c 2 t) (iblk11 V c 3 t) (iblk11 V c 4 t) (iblk11 V c 5 t) (iblk11 V c 6 t) (iblk11 V c 7 t) (iblk11 V c 8 t)
  Φ _ := Pipeline.ΦA spec11 c
  q _ := fullShare
  owed _ := 0

/-- The proof data's arrays are the region-entry contents. -/
theorem A_eq11 (c : Dev nD) (w : Fin cfg11.W) : (dat11 V c).A w = V c (Pipeline.arrRef spec11 w) := by
  dsimp only [dat11]

/-- What the body leaves, window by window. -/
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = iblk11 V c 3 t := by dsimp only [dat11]
theorem after11_4 (c : Dev nD) (t : Fin cfg11.N) : (dat11 V c).after 4 t = iblk11 V c 4 t := by dsimp only [dat11]
theorem after11_5 (c : Dev nD) (t : Fin cfg11.N) : (dat11 V c).after 5 t = iblk11 V c 5 t := by dsimp only [dat11]
theorem after11_6 (c : Dev nD) (t : Fin cfg11.N) : (dat11 V c).after 6 t = iblk11 V c 6 t := by dsimp only [dat11]
theorem after11_7 (c : Dev nD) (t : Fin cfg11.N) : (dat11 V c).after 7 t = iblk11 V c 7 t := by dsimp only [dat11]
theorem after11_8 (c : Dev nD) (t : Fin cfg11.N) : (dat11 V c).after 8 t = iblk11 V c 8 t := by dsimp only [dat11]
theorem after11_9 (c : Dev nD) (t : Fin cfg11.N) : (dat11 V c).after 9 t = out11_9 (iblk11 V c 0 t) (iblk11 V c 1 t) (iblk11 V c 2 t) (iblk11 V c 3 t) (iblk11 V c 4 t) (iblk11 V c 5 t) (iblk11 V c 6 t) (iblk11 V c 7 t) (iblk11 V c 8 t) := by dsimp only [dat11]

/-- Each input's current staging buffer holds its block at every point, fetched there or not. -/
theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d
theorem before11_3 (c : Dev nD) (t : Fin cfg11.N) (d) : (dat11 V c).before 3 t d = iblk11 V c 3 t :=
  before11_3_of V (dat11 V c) (A_eq11 V c 3) (after11_3 V c) t d
theorem before11_4 (c : Dev nD) (t : Fin cfg11.N) (d) : (dat11 V c).before 4 t d = iblk11 V c 4 t :=
  before11_4_of V (dat11 V c) (A_eq11 V c 4) (after11_4 V c) t d
theorem before11_5 (c : Dev nD) (t : Fin cfg11.N) (d) : (dat11 V c).before 5 t d = iblk11 V c 5 t :=
  before11_5_of V (dat11 V c) (A_eq11 V c 5) (after11_5 V c) t d
theorem before11_6 (c : Dev nD) (t : Fin cfg11.N) (d) : (dat11 V c).before 6 t d = iblk11 V c 6 t :=
  before11_6_of V (dat11 V c) (A_eq11 V c 6) (after11_6 V c) t d
theorem before11_7 (c : Dev nD) (t : Fin cfg11.N) (d) : (dat11 V c).before 7 t d = iblk11 V c 7 t :=
  before11_7_of V (dat11 V c) (A_eq11 V c 7) (after11_7 V c) t d
theorem before11_8 (c : Dev nD) (t : Fin cfg11.N) (d) : (dat11 V c).before 8 t d = iblk11 V c 8 t :=
  before11_8_of V (dat11 V c) (A_eq11 V c 8) (after11_8 V c) t d

/-- The invariant at the region's entry is the class's, -/
theorem PhiIn11 (c : Dev nD) : Pipeline.ΦA spec11 c ⊢ (dat11 V c).Φ 0 := .rfl

/-- and at its exit. -/
theorem PhiOut11 (c : Dev nD) : (dat11 V c).Φ (Fin.last _) ⊢ Pipeline.ΦA spec11 c := .rfl

/-! ## The body obligation, at a generic point -/

/-- What the body is called with at point `t`, the windows one by one, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d))
    ∗ (∃ d, owns (c : Thread nD τ) (st11_4 t) fullShare ((dat11 V c).before 4 t d))
    ∗ (∃ d, owns (c : Thread nD τ) (st11_5 t) fullShare ((dat11 V c).before 5 t d))
    ∗ (∃ d, owns (c : Thread nD τ) (st11_6 t) fullShare ((dat11 V c).before 6 t d))
    ∗ (∃ d, owns (c : Thread nD τ) (st11_7 t) fullShare ((dat11 V c).before 7 t d))
    ∗ (∃ d, owns (c : Thread nD τ) (st11_8 t) fullShare ((dat11 V c).before 8 t d))
    ∗ (∃ d, owns (c : Thread nD τ) (st11_9 t) fullShare ((dat11 V c).before 9 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t)
    ∗ owns (c : Thread nD τ) (st11_4 t) fullShare ((dat11 V c).after 4 t)
    ∗ owns (c : Thread nD τ) (st11_5 t) fullShare ((dat11 V c).after 5 t)
    ∗ owns (c : Thread nD τ) (st11_6 t) fullShare ((dat11 V c).after 6 t)
    ∗ owns (c : Thread nD τ) (st11_7 t) fullShare ((dat11 V c).after 7 t)
    ∗ owns (c : Thread nD τ) (st11_8 t) fullShare ((dat11 V c).after 8 t)
    ∗ owns (c : Thread nD τ) (st11_9 t) fullShare ((dat11 V c).after 9 t))

/-- The body at any point: the inputs' memrefs hold their blocks, so the body's triple applies; the invariant and the core's
    debts pass through unread. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2, before11_3, before11_4, before11_5, before11_6, before11_7, before11_8]
  rw [show (dat11 V c).Φ t.succ = (dat11 V c).Φ t.castSucc from rfl,
    show (dat11 V c).owesAt () t.succ = (dat11 V c).owesAt () t.castSucc from rfl,
    after11_0, after11_1, after11_2, after11_3, after11_4, after11_5, after11_6, after11_7, after11_8, after11_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel11 c Set.univ _ _ _ _ _ _ _ _ _ _ _ _ _ _ _ _ _ _ _ _ _ (iblk11 V c 0 t) (iblk11 V c 1 t) (iblk11 V c 2 t) (iblk11 V c 3 t) (iblk11 V c 4 t) (iblk11 V c 5 t) (iblk11 V c 6 t) (iblk11 V c 7 t) (iblk11 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation11 (c : Dev nD) : BodyObligation (dat11 (F := F) V c) (defs₀ (F := F)) Variants.none () Set.univ := fun t => by
  rw [bigSep_W11, bigSep_W11]
  exact sound_body11 V c t

end Cert.Kernel.Hand

end
-- ==== Proof.KGinRegion12.lean ====
import proofs.«403491_j395136991532_1_alg».proof.Proof.Gen.Kernel.Launch
import proofs.«403491_j395136991532_1_alg».proof.Proof.Gen.Kernel.Skeleton
import proofs.«403491_j395136991532_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 12 (pipeline 12, the per-node two-layer perceptron on 5000-row tiles): the frame half

Stated at a parameter `V`, the TensorCore's buffer contents when the region is entered. Eleven input windows
(the two tiled operands and nine resident ones) and one tiled output window. The body reads every input buffer
whole, computes, and overwrites the output buffer whole; so after the body each input buffer still holds its
block, and the output buffer holds one closed function of the eleven input blocks. -/

-- membership in a rectangle of 5000 rows: the structural look recurses once per coordinate of the long axis
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- Input window 0's current staging buffer holds its block at every point, fetched there or not (not fetched:
    the block index has not moved), for any proof data whose array is `V`'s and whose body leaves the block in place. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)

/-- Input window 1's current staging buffer holds its block at every point, fetched there or not (not fetched:
    the block index has not moved), for any proof data whose array is `V`'s and whose body leaves the block in place. -/
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

/-- Input window 2's current staging buffer holds its block at every point, fetched there or not (not fetched:
    the block index has not moved), for any proof data whose array is `V`'s and whose body leaves the block in place. -/
theorem before12_2_of {c : Dev nD} (dat : Dat τ (Elt F) Unit ℕ (UR sig nD τ) ℕ cfg12 c) (hA : dat.A 2 = V c (Pipeline.arrRef spec12 2))
    (hafter : ∀ t, dat.after 2 t = iblk12 V c 2 t) (t : Fin cfg12.N) (d) : dat.before 2 t d = iblk12 V c 2 t :=
  (dat.before_in_eq_fetched 2 rfl (fun _ => rfl) (fun _ _ _ => rfl) (fun t => by rw [hafter]; unfold Dat.blockOf iblk12; rw [hA]; try rfl) t d).trans
    (by unfold Dat.fetched Dat.blockOf iblk12; rw [hA]; try rfl)

/-- Input window 3's current staging buffer holds its block at every point, fetched there or not (not fetched:
    the block index has not moved), for any proof data whose array is `V`'s and whose body leaves the block in place. -/
theorem before12_3_of {c : Dev nD} (dat : Dat τ (Elt F) Unit ℕ (UR sig nD τ) ℕ cfg12 c) (hA : dat.A 3 = V c (Pipeline.arrRef spec12 3))
    (hafter : ∀ t, dat.after 3 t = iblk12 V c 3 t) (t : Fin cfg12.N) (d) : dat.before 3 t d = iblk12 V c 3 t :=
  (dat.before_in_eq_fetched 3 rfl (fun _ => rfl) (fun _ _ _ => rfl) (fun t => by rw [hafter]; unfold Dat.blockOf iblk12; rw [hA]; try rfl) t d).trans
    (by unfold Dat.fetched Dat.blockOf iblk12; rw [hA]; try rfl)

/-- Input window 4's current staging buffer holds its block at every point, fetched there or not (not fetched:
    the block index has not moved), for any proof data whose array is `V`'s and whose body leaves the block in place. -/
theorem before12_4_of {c : Dev nD} (dat : Dat τ (Elt F) Unit ℕ (UR sig nD τ) ℕ cfg12 c) (hA : dat.A 4 = V c (Pipeline.arrRef spec12 4))
    (hafter : ∀ t, dat.after 4 t = iblk12 V c 4 t) (t : Fin cfg12.N) (d) : dat.before 4 t d = iblk12 V c 4 t :=
  (dat.before_in_eq_fetched 4 rfl (fun _ => rfl) (fun _ _ _ => rfl) (fun t => by rw [hafter]; unfold Dat.blockOf iblk12; rw [hA]; try rfl) t d).trans
    (by unfold Dat.fetched Dat.blockOf iblk12; rw [hA]; try rfl)

/-- Input window 5's current staging buffer holds its block at every point, fetched there or not (not fetched:
    the block index has not moved), for any proof data whose array is `V`'s and whose body leaves the block in place. -/
theorem before12_5_of {c : Dev nD} (dat : Dat τ (Elt F) Unit ℕ (UR sig nD τ) ℕ cfg12 c) (hA : dat.A 5 = V c (Pipeline.arrRef spec12 5))
    (hafter : ∀ t, dat.after 5 t = iblk12 V c 5 t) (t : Fin cfg12.N) (d) : dat.before 5 t d = iblk12 V c 5 t :=
  (dat.before_in_eq_fetched 5 rfl (fun _ => rfl) (fun _ _ _ => rfl) (fun t => by rw [hafter]; unfold Dat.blockOf iblk12; rw [hA]; try rfl) t d).trans
    (by unfold Dat.fetched Dat.blockOf iblk12; rw [hA]; try rfl)

/-- Input window 6's current staging buffer holds its block at every point, fetched there or not (not fetched:
    the block index has not moved), for any proof data whose array is `V`'s and whose body leaves the block in place. -/
theorem before12_6_of {c : Dev nD} (dat : Dat τ (Elt F) Unit ℕ (UR sig nD τ) ℕ cfg12 c) (hA : dat.A 6 = V c (Pipeline.arrRef spec12 6))
    (hafter : ∀ t, dat.after 6 t = iblk12 V c 6 t) (t : Fin cfg12.N) (d) : dat.before 6 t d = iblk12 V c 6 t :=
  (dat.before_in_eq_fetched 6 rfl (fun _ => rfl) (fun _ _ _ => rfl) (fun t => by rw [hafter]; unfold Dat.blockOf iblk12; rw [hA]; try rfl) t d).trans
    (by unfold Dat.fetched Dat.blockOf iblk12; rw [hA]; try rfl)

/-- Input window 7's current staging buffer holds its block at every point, fetched there or not (not fetched:
    the block index has not moved), for any proof data whose array is `V`'s and whose body leaves the block in place. -/
theorem before12_7_of {c : Dev nD} (dat : Dat τ (Elt F) Unit ℕ (UR sig nD τ) ℕ cfg12 c) (hA : dat.A 7 = V c (Pipeline.arrRef spec12 7))
    (hafter : ∀ t, dat.after 7 t = iblk12 V c 7 t) (t : Fin cfg12.N) (d) : dat.before 7 t d = iblk12 V c 7 t :=
  (dat.before_in_eq_fetched 7 rfl (fun _ => rfl) (fun _ _ _ => rfl) (fun t => by rw [hafter]; unfold Dat.blockOf iblk12; rw [hA]; try rfl) t d).trans
    (by unfold Dat.fetched Dat.blockOf iblk12; rw [hA]; try rfl)

/-- Input window 8's current staging buffer holds its block at every point, fetched there or not (not fetched:
    the block index has not moved), for any proof data whose array is `V`'s and whose body leaves the block in place. -/
theorem before12_8_of {c : Dev nD} (dat : Dat τ (Elt F) Unit ℕ (UR sig nD τ) ℕ cfg12 c) (hA : dat.A 8 = V c (Pipeline.arrRef spec12 8))
    (hafter : ∀ t, dat.after 8 t = iblk12 V c 8 t) (t : Fin cfg12.N) (d) : dat.before 8 t d = iblk12 V c 8 t :=
  (dat.before_in_eq_fetched 8 rfl (fun _ => rfl) (fun _ _ _ => rfl) (fun t => by rw [hafter]; unfold Dat.blockOf iblk12; rw [hA]; try rfl) t d).trans
    (by unfold Dat.fetched Dat.blockOf iblk12; rw [hA]; try rfl)

/-- Input window 9's current staging buffer holds its block at every point, fetched there or not (not fetched:
    the block index has not moved), for any proof data whose array is `V`'s and whose body leaves the block in place. -/
theorem before12_9_of {c : Dev nD} (dat : Dat τ (Elt F) Unit ℕ (UR sig nD τ) ℕ cfg12 c) (hA : dat.A 9 = V c (Pipeline.arrRef spec12 9))
    (hafter : ∀ t, dat.after 9 t = iblk12 V c 9 t) (t : Fin cfg12.N) (d) : dat.before 9 t d = iblk12 V c 9 t :=
  (dat.before_in_eq_fetched 9 rfl (fun _ => rfl) (fun _ _ _ => rfl) (fun t => by rw [hafter]; unfold Dat.blockOf iblk12; rw [hA]; try rfl) t d).trans
    (by unfold Dat.fetched Dat.blockOf iblk12; rw [hA]; try rfl)

/-- Input window 10's current staging buffer holds its block at every point, fetched there or not (not fetched:
    the block index has not moved), for any proof data whose array is `V`'s and whose body leaves the block in place. -/
theorem before12_10_of {c : Dev nD} (dat : Dat τ (Elt F) Unit ℕ (UR sig nD τ) ℕ cfg12 c) (hA : dat.A 10 = V c (Pipeline.arrRef spec12 10))
    (hafter : ∀ t, dat.after 10 t = iblk12 V c 10 t) (t : Fin cfg12.N) (d) : dat.before 10 t d = iblk12 V c 10 t :=
  (dat.before_in_eq_fetched 10 rfl (fun _ => rfl) (fun _ _ _ => rfl) (fun t => by rw [hafter]; unfold Dat.blockOf iblk12; rw [hA]; try rfl) t d).trans
    (by unfold Dat.fetched Dat.blockOf iblk12; rw [hA]; try rfl)

/-! ## The body's accesses: every buffer whole -/

abbrev r12_a : Rect S5000x128 := Rect.unit (s := S5000x128) ![0, 0] S5000x128.size inb_S5000x128_S5000x128_0_0
abbrev r12_b : Rect S1x1 := Rect.unit (s := S1x1) ![0, 0] S1x1.size inb_S1x1_S1x1_0_0
abbrev r12_c : Rect S128x256 := Rect.unit (s := S128x256) ![0, 0] S128x256.size inb_S128x256_S128x256_0_0
abbrev r12_d : Rect S1x256 := Rect.unit (s := S1x256) ![0, 0] S1x256.size inb_S1x256_S1x256_0_0
abbrev r12_e : Rect S256x128 := Rect.unit (s := S256x128) ![0, 0] S256x128.size inb_S256x128_S256x128_0_0
abbrev r12_f : Rect S1x128 := Rect.unit (s := S1x128) ![0, 0] S1x128.size inb_S1x128_S1x128_0_0

/-! ## What the body leaves in the output window's buffer -/

/-- Window 11's staging buffer after the body, from the eleven input blocks: its one store, of the last payload
    (scale and shift, then the layer's final clamp at zero where it has one) over the first (the two matrix products
    with their affine maps and the clamp between). -/
def out12_11 (x0 : Vec F S5000x128 .f32) (x1 : Vec F S5000x128 .f32) (x2 : Vec F S1x1 .f32) (x3 : Vec F S128x256 .bf16) (x4 : Vec F S1x256 .f32) (x5 : Vec F S1x256 .f32) (x6 : Vec F S1x256 .f32) (x7 : Vec F S256x128 .bf16) (x8 : Vec F S1x128 .f32) (x9 : Vec F S1x128 .f32) (x10 : Vec F S1x128 .f32) : Vec F S5000x128 .f32 :=
  View.canon [⟨r12_a, k12_pay1 (k12_pay2 (View.ld x2 r12_b) (View.ld x0 r12_a) (View.ld x1 r12_a) (View.ld x3 r12_c) (View.ld x4 r12_d) (View.ld x5 r12_d) (View.ld x6 r12_d) (View.ld x7 r12_e) (View.ld x8 r12_f)) (View.ld x9 r12_f) (View.ld x10 r12_f)⟩]

/-- The one store is of the whole buffer, so it covers it. -/
theorem cover12_11 (p0 : Vec F S5000x128 .f32) (y : S5000x128.Idx) :
    ∃ pc ∈ ([⟨r12_a, p0⟩] : List (View.Piece (Elt F) S5000x128 .f32)), y ∈ pc.1.set :=
  View.cover_of_tiled [⟨r12_a, p0⟩] S5000x128.size (by rfl) y

/-! ## The body's triple -/

set_option maxHeartbeats 4000000 in
/-- The kernel body on whole staging memrefs, the inputs' at read contents `xW` and the output's at anything, runs to
    the continuation holding the inputs' as they were and the output's at `out12_11` of the inputs'. -/
theorem sound_kernel12 (c : Dev nD) (E : Set ℕ) (i : grid12.Coords) (arg1 : Memref sig .tc .vmem S5000x128 .f32) (harg1 : arg1.IsWhole) (arg2 : Memref sig .tc .vmem S5000x128 .f32) (harg2 : arg2.IsWhole) (arg3 : Memref sig .tc .vmem S1x1 .f32) (harg3 : arg3.IsWhole) (arg4 : Memref sig .tc .vmem S128x256 .bf16) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S256x128 .bf16) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S5000x128 .f32) (harg12 : arg12.IsWhole)
    (x0 : Vec F S5000x128 .f32) (x1 : Vec F S5000x128 .f32) (x2 : Vec F S1x1 .f32) (x3 : Vec F S128x256 .bf16) (x4 : Vec F S1x256 .f32) (x5 : Vec F S1x256 .f32) (x6 : Vec F S1x256 .f32) (x7 : Vec F S256x128 .bf16) (x8 : Vec F S1x128 .f32) (x9 : Vec F S1x128 .f32) (x10 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out12_11 x0 x1 x2 x3 x4 x5 x6 x7 x8 x9 x10)) -∗ K ⟨⟩))
      ⊢ wp frame (wpE (defs₀ (F := F)) Variants.none c none) E (cc12__gin_mlp_kernel i arg1 harg1 arg2 harg2 arg3 harg3 arg4 harg4 arg5 harg5 arg6 harg6 arg7 harg7 arg8 harg8 arg9 harg9 arg10 harg10 arg11 harg11 arg12 harg12) K := by
  simp only [cc12__gin_mlp_kernel_eq_skeleton]; unfold cc12__gin_mlp_kernel_skel
  simp only [k12_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  exact View.read_writes_eq_canon _ _ _ (cover12_11 _)

/-! ## The pipeline's proof data -/

/-- The proof data of pipeline 0 on core `c`: the arrays as the region finds them; after the body at point `t` each
    input's buffer at its block and the output's at `out12_11` of the input blocks; the invariant the untouched rest;
    nothing owed; full shares. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => iblk12 V c 3 t
    | ⟨4, _⟩ => iblk12 V c 4 t
    | ⟨5, _⟩ => iblk12 V c 5 t
    | ⟨6, _⟩ => iblk12 V c 6 t
    | ⟨7, _⟩ => iblk12 V c 7 t
    | ⟨8, _⟩ => iblk12 V c 8 t
    | ⟨9, _⟩ => iblk12 V c 9 t
    | ⟨10, _⟩ => iblk12 V c 10 t
    | ⟨11, _⟩ => out12_11 (iblk12 V c 0 t) (iblk12 V c 1 t) (iblk12 V c 2 t) (iblk12 V c 3 t) (iblk12 V c 4 t) (iblk12 V c 5 t) (iblk12 V c 6 t) (iblk12 V c 7 t) (iblk12 V c 8 t) (iblk12 V c 9 t) (iblk12 V c 10 t)
  Φ _ := Pipeline.ΦA spec12 c
  q _ := fullShare
  owed _ := 0

/-- The proof data's arrays are the region-entry contents. -/
theorem A_eq12 (c : Dev nD) (w : Fin cfg12.W) : (dat12 V c).A w = V c (Pipeline.arrRef spec12 w) := by
  dsimp only [dat12]

/-- What the body leaves, window by window. -/
theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) : (dat12 V c).after 3 t = iblk12 V c 3 t := by dsimp only [dat12]
theorem after12_4 (c : Dev nD) (t : Fin cfg12.N) : (dat12 V c).after 4 t = iblk12 V c 4 t := by dsimp only [dat12]
theorem after12_5 (c : Dev nD) (t : Fin cfg12.N) : (dat12 V c).after 5 t = iblk12 V c 5 t := by dsimp only [dat12]
theorem after12_6 (c : Dev nD) (t : Fin cfg12.N) : (dat12 V c).after 6 t = iblk12 V c 6 t := by dsimp only [dat12]
theorem after12_7 (c : Dev nD) (t : Fin cfg12.N) : (dat12 V c).after 7 t = iblk12 V c 7 t := by dsimp only [dat12]
theorem after12_8 (c : Dev nD) (t : Fin cfg12.N) : (dat12 V c).after 8 t = iblk12 V c 8 t := by dsimp only [dat12]
theorem after12_9 (c : Dev nD) (t : Fin cfg12.N) : (dat12 V c).after 9 t = iblk12 V c 9 t := by dsimp only [dat12]
theorem after12_10 (c : Dev nD) (t : Fin cfg12.N) : (dat12 V c).after 10 t = iblk12 V c 10 t := by dsimp only [dat12]
theorem after12_11 (c : Dev nD) (t : Fin cfg12.N) : (dat12 V c).after 11 t = out12_11 (iblk12 V c 0 t) (iblk12 V c 1 t) (iblk12 V c 2 t) (iblk12 V c 3 t) (iblk12 V c 4 t) (iblk12 V c 5 t) (iblk12 V c 6 t) (iblk12 V c 7 t) (iblk12 V c 8 t) (iblk12 V c 9 t) (iblk12 V c 10 t) := by dsimp only [dat12]

/-- Each input's current staging buffer holds its block at every point, fetched there or not. -/
theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d
theorem before12_2 (c : Dev nD) (t : Fin cfg12.N) (d) : (dat12 V c).before 2 t d = iblk12 V c 2 t :=
  before12_2_of V (dat12 V c) (A_eq12 V c 2) (after12_2 V c) t d
theorem before12_3 (c : Dev nD) (t : Fin cfg12.N) (d) : (dat12 V c).before 3 t d = iblk12 V c 3 t :=
  before12_3_of V (dat12 V c) (A_eq12 V c 3) (after12_3 V c) t d
theorem before12_4 (c : Dev nD) (t : Fin cfg12.N) (d) : (dat12 V c).before 4 t d = iblk12 V c 4 t :=
  before12_4_of V (dat12 V c) (A_eq12 V c 4) (after12_4 V c) t d
theorem before12_5 (c : Dev nD) (t : Fin cfg12.N) (d) : (dat12 V c).before 5 t d = iblk12 V c 5 t :=
  before12_5_of V (dat12 V c) (A_eq12 V c 5) (after12_5 V c) t d
theorem before12_6 (c : Dev nD) (t : Fin cfg12.N) (d) : (dat12 V c).before 6 t d = iblk12 V c 6 t :=
  before12_6_of V (dat12 V c) (A_eq12 V c 6) (after12_6 V c) t d
theorem before12_7 (c : Dev nD) (t : Fin cfg12.N) (d) : (dat12 V c).before 7 t d = iblk12 V c 7 t :=
  before12_7_of V (dat12 V c) (A_eq12 V c 7) (after12_7 V c) t d
theorem before12_8 (c : Dev nD) (t : Fin cfg12.N) (d) : (dat12 V c).before 8 t d = iblk12 V c 8 t :=
  before12_8_of V (dat12 V c) (A_eq12 V c 8) (after12_8 V c) t d
theorem before12_9 (c : Dev nD) (t : Fin cfg12.N) (d) : (dat12 V c).before 9 t d = iblk12 V c 9 t :=
  before12_9_of V (dat12 V c) (A_eq12 V c 9) (after12_9 V c) t d
theorem before12_10 (c : Dev nD) (t : Fin cfg12.N) (d) : (dat12 V c).before 10 t d = iblk12 V c 10 t :=
  before12_10_of V (dat12 V c) (A_eq12 V c 10) (after12_10 V c) t d

/-- The invariant at the region's entry and exit is the untouched rest itself. -/
theorem PhiIn12 (c : Dev nD) : Pipeline.ΦA spec12 c ⊢ (dat12 V c).Φ 0 := .rfl
theorem PhiOut12 (c : Dev nD) : (dat12 V c).Φ (Fin.last _) ⊢ Pipeline.ΦA spec12 c := .rfl

/-! ## The body obligation, at a generic point -/

/-- What the body is called with at point `t`, the windows one by one, -/
def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d))
    ∗ (∃ d, owns (c : Thread nD τ) (st12_3 t) fullShare ((dat12 V c).before 3 t d))
    ∗ (∃ d, owns (c : Thread nD τ) (st12_4 t) fullShare ((dat12 V c).before 4 t d))
    ∗ (∃ d, owns (c : Thread nD τ) (st12_5 t) fullShare ((dat12 V c).before 5 t d))
    ∗ (∃ d, owns (c : Thread nD τ) (st12_6 t) fullShare ((dat12 V c).before 6 t d))
    ∗ (∃ d, owns (c : Thread nD τ) (st12_7 t) fullShare ((dat12 V c).before 7 t d))
    ∗ (∃ d, owns (c : Thread nD τ) (st12_8 t) fullShare ((dat12 V c).before 8 t d))
    ∗ (∃ d, owns (c : Thread nD τ) (st12_9 t) fullShare ((dat12 V c).before 9 t d))
    ∗ (∃ d, owns (c : Thread nD τ) (st12_10 t) fullShare ((dat12 V c).before 10 t d))
    ∗ (∃ d, owns (c : Thread nD τ) (st12_11 t) fullShare ((dat12 V c).before 11 t d)))

/-- and what it returns. -/
def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t)
    ∗ owns (c : Thread nD τ) (st12_3 t) fullShare ((dat12 V c).after 3 t)
    ∗ owns (c : Thread nD τ) (st12_4 t) fullShare ((dat12 V c).after 4 t)
    ∗ owns (c : Thread nD τ) (st12_5 t) fullShare ((dat12 V c).after 5 t)
    ∗ owns (c : Thread nD τ) (st12_6 t) fullShare ((dat12 V c).after 6 t)
    ∗ owns (c : Thread nD τ) (st12_7 t) fullShare ((dat12 V c).after 7 t)
    ∗ owns (c : Thread nD τ) (st12_8 t) fullShare ((dat12 V c).after 8 t)
    ∗ owns (c : Thread nD τ) (st12_9 t) fullShare ((dat12 V c).after 9 t)
    ∗ owns (c : Thread nD τ) (st12_10 t) fullShare ((dat12 V c).after 10 t)
    ∗ owns (c : Thread nD τ) (st12_11 t) fullShare ((dat12 V c).after 11 t))

/-- The body at any point: the inputs' memrefs hold their blocks, so the body's triple applies; the invariant and
    the core's `owes` pass through unread. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1, before12_2, before12_3, before12_4, before12_5, before12_6, before12_7, before12_8, before12_9, before12_10]
  rw [show (dat12 V c).Φ t.succ = (dat12 V c).Φ t.castSucc from rfl,
    show (dat12 V c).owesAt () t.succ = (dat12 V c).owesAt () t.castSucc from rfl,
    after12_0, after12_1, after12_2, after12_3, after12_4, after12_5, after12_6, after12_7, after12_8, after12_9, after12_10, after12_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel12 c Set.univ _ _ _ _ _ _ _ _ _ _ _ _ _ _ _ _ _ _ _ _ _ _ _ _ _
    (iblk12 V c 0 t) (iblk12 V c 1 t) (iblk12 V c 2 t) (iblk12 V c 3 t) (iblk12 V c 4 t) (iblk12 V c 5 t) (iblk12 V c 6 t) (iblk12 V c 7 t) (iblk12 V c 8 t) (iblk12 V c 9 t) (iblk12 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation12 (c : Dev nD) : BodyObligation (dat12 (F := F) V c) (defs₀ (F := F)) Variants.none () Set.univ := fun t => by
  rw [bigSep_W12, bigSep_W12]
  exact sound_body12 V c t

end Cert.Kernel.Hand
-- ==== Proof.KSegRegion13.lean ====
/- Region 13 of @main, custom_call 13, the batch-grouped segment sum `cc13__segsum_kernel`: the frame half of its pipeline,
   at any float model `F` and at a PARAMETER `V`, the TensorCore's buffer contents when the region is entered.
   The grid has ten points. A scratch accumulator (256x128, f32) is carried from point to point: the first point stores
   the zero block into it, every point then adds its 5000-row block's contribution (the transposed one-hot of the
   block's segment ids times the block), and the last point copies it into the output window's staging buffer, which
   the pipeline writes back once. So the invariant between points names what the scratch holds, by recursion on the
   point (`accAt13`); the output window is idle at every point but the last and is handed back there as it was found. -/
import proofs.«403491_j395136991532_1_alg».proof.Proof.Gen.Kernel.Launch
import proofs.«403491_j395136991532_1_alg».proof.Proof.Gen.Kernel.Skeleton
import proofs.«403491_j395136991532_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-- Input window 0's current staging buffer holds its block at every point, fetched there or not, for any proof data
    whose array is `V`'s and whose body leaves the block in place: the window is uncut and never idle. -/
theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)

/-- Input window 1's current staging buffer holds its block at every point, likewise. -/
theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)

/-! ## The body's branch conditions -/

/-- The first conditional's condition (the accumulator's reset), from the grid coordinate. -/
abbrev cond13_0 (i : grid13.Coords) : Prop := (Scalar.cmpi .ne (Scalar.extui (Scalar.cmpi .eq (BitVec.ofNat 32 (i 0).val) 0#32)) 0#32) = 1#1
/-- It holds at the first point only. -/
theorem hcond13_0 : ∀ t : Fin cfg13.N, cond13_0 (grid13.coords t) ↔ t.val % 10 = 0 :=
  (by decide +kernel : ∀ t : Fin grid13.N, cond13_0 (grid13.coords t) ↔ t.val % 10 = 0)

/-- The second conditional's condition (the copy into the output window). -/
abbrev cond13_1 (i : grid13.Coords) : Prop := k13_cond2 i = 1#1
/-- It holds at the last point only. -/
theorem hcond13_1 : ∀ t : Fin cfg13.N, cond13_1 (grid13.coords t) ↔ t.val % 10 = 9 :=
  (by decide +kernel : ∀ t : Fin grid13.N, cond13_1 (grid13.coords t) ↔ t.val % 10 = 9)

/-! ## Where the output window is idle -/

theorem liveAt13_0 : ∀ t : Fin cfg13.N, cfg13.idle 0 (grid13.coords t) = false := by decide +kernel
theorem liveAt13_1 : ∀ t : Fin cfg13.N, cfg13.idle 1 (grid13.coords t) = false := by decide +kernel
/-- Where the copy is not taken the output window is idle, -/
theorem idleAt13_2 : ∀ t : Fin cfg13.N, ¬cond13_1 (grid13.coords t) → cfg13.idle 2 (grid13.coords t) = true := by decide +kernel
/-- and not written back; -/
theorem noFlush13_2 : ∀ t : Fin cfg13.N, ¬cond13_1 (grid13.coords t) → (cfg13.win 2).flush t = false := by decide +kernel
/-- where it is taken the window is live. -/
theorem liveAt13_2 : ∀ t : Fin cfg13.N, cond13_1 (grid13.coords t) → cfg13.idle 2 (grid13.coords t) = false := by decide +kernel

/-! ## Whole-buffer accesses -/

/-- The zero offsets of a two-axis access. -/
theorem hz13 : (![0, 0] : Fin 2 → Nat) = fun _ => 0 := funext fun a => by fin_cases a <;> rfl

/-- A rectangle of the shape's own sizes at zero offsets holds every index. -/
theorem memUnit13 {S : Shape} {off : Fin S.rank → Nat} (h : off = fun _ => 0) (inb : ∀ a, off a + S.size a ≤ S.size a) (y : S.Idx) :
    y ∈ (Rect.unit off S.size inb).set := by
  subst h; show y ∈ (Rect.whole S).set; rw [Rect.set_whole]; exact Finset.mem_univ y

/-- A store through such a rectangle, made last, leaves its payload, whatever was stored before and whatever the
    buffer held. -/
theorem readLast13 {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f (⟨Rect.unit off S.size inb, w⟩ :: L)) = w := by
  rw [View.read_writes_eq_canon _ _ _ (fun y => ⟨_, List.mem_cons_self .., memUnit13 h inb y⟩), View.canon_cons_unit_zero h]

/-! ## The scratch accumulator -/

/-- The scratch operand: a whole scoped buffer of the kernel's own, passed beside the windows. -/
abbrev scM13 : Memref sig .tc .vmem S256x128 .f32 := Memref.whole cc13_scratch0

/-- THE ACCUMULATION. What the scratch holds after `n` points: the zero block the first point stores, then, point by
    point, the sum of what it held and the point's contribution (the payload of the body's second store, over the
    point's two input blocks and what the scratch held). -/
def accAt13 (c : Dev nD) : (n : ℕ) → n ≤ cfg13.N → Vec F S256x128 .f32
  | 0, _ => k13_pay1
  | n + 1, hn => k13_pay2 (iblk13 V c 0 ⟨n, hn⟩) (iblk13 V c 1 ⟨n, hn⟩) (accAt13 c n (Nat.le_of_lt hn))

theorem accAt13_zero (c : Dev nD) (h : 0 ≤ cfg13.N) : accAt13 V c 0 h = k13_pay1 := rfl
theorem accAt13_succ (c : Dev nD) (t : Fin cfg13.N) :
    accAt13 V c (t.val + 1) t.isLt = k13_pay2 (iblk13 V c 0 t) (iblk13 V c 1 t) (accAt13 V c t.val (Nat.le_of_lt t.isLt)) := rfl

/-! ## The body's triple, per control case -/

set_option maxHeartbeats 1000000 in
/-- THE FIRST POINT (the reset taken, the copy not): on whole memrefs, the inputs' at `x` and `b` and the scratch at
    anything, the body runs to the inputs' as they were and the scratch at the zero block plus the point's contribution.
    The output window's memref is not touched. -/
theorem sound_first13 (c : Dev nD) (E : Set ℕ) (i : grid13.Coords)
    (aX : Memref sig .tc .vmem S5000x128 .f32) (hX : aX.IsWhole) (aB : Memref sig .tc .vmem S5000x1 .i32) (hB : aB.IsWhole)
    (aO : Memref sig .tc .vmem S256x128 .f32) (hO : aO.IsWhole) (aS : Memref sig .tc .vmem S256x128 .f32) (hS : aS.IsWhole)
    (hcR : cond13_0 i) (hcC : ¬cond13_1 i)
    (x : Vec F S5000x128 .f32) (b : Vec F S5000x1 .i32) (K : PUnit → sProp 𝕄) :
    iprop(owns (c : Thread nD τ) aX fullShare x ∗ owns (c : Thread nD τ) aB fullShare b ∗ (∃ d, owns (c : Thread nD τ) aS fullShare d)
        ∗ (iprop(owns (c : Thread nD τ) aX fullShare x ∗ owns (c : Thread nD τ) aB fullShare b
            ∗ owns (c : Thread nD τ) aS fullShare (k13_pay2 x b k13_pay1)) -∗ K ⟨⟩))
      ⊢ wp frame (wpE (defs₀ (F := F)) Variants.none c none) E (cc13__segsum_kernel i aX hX aB hB aO hO aS hS) K := by
  simp only [cc13__segsum_kernel_eq_skeleton]; unfold cc13__segsum_kernel_skel
  unfold owns
  iintro ⟨⟨%fX, %hfX, HX⟩, ⟨%fB, %hfB, HB⟩, ⟨%dS, %fS, -, HS⟩, Hk⟩
  obtain rfl := hX.eq_unread hfX; obtain rfl := hB.eq_unread hfB
  sl_exec (disch := first | exact hcR | exact hcC)
  sl_step
  iapply Hk
  isplitl [HX]
  · iexists _; isplitr; · ipureintro; exact hX.read_unread _
    iexact HX
  isplitl [HB]
  · iexists _; isplitr; · ipureintro; exact hB.read_unread _
    iexact HB
  iexists _; isplitr
  swap; · iexact HS
  ipureintro
  sl_unfold_run_names
  rw [readLast13 _ _ hz13, View.readCov_unit_zero _ hz13]
  simp only [View.readAt_eq_ld, hX.read_unread, hB.read_unread,
    View.ld_unit_zero (S := S5000x128) hz13, View.ld_unit_zero (S := S5000x1) hz13]

set_option maxHeartbeats 1000000 in
/-- A MIDDLE POINT (neither conditional taken): the scratch at `a` ends at `a` plus the point's contribution. -/
theorem sound_mid13 (c : Dev nD) (E : Set ℕ) (i : grid13.Coords)
    (aX : Memref sig .tc .vmem S5000x128 .f32) (hX : aX.IsWhole) (aB : Memref sig .tc .vmem S5000x1 .i32) (hB : aB.IsWhole)
    (aO : Memref sig .tc .vmem S256x128 .f32) (hO : aO.IsWhole) (aS : Memref sig .tc .vmem S256x128 .f32) (hS : aS.IsWhole)
    (hcR : ¬cond13_0 i) (hcC : ¬cond13_1 i)
    (x : Vec F S5000x128 .f32) (b : Vec F S5000x1 .i32) (a : Vec F S256x128 .f32) (K : PUnit → sProp 𝕄) :
    iprop(owns (c : Thread nD τ) aX fullShare x ∗ owns (c : Thread nD τ) aB fullShare b ∗ owns (c : Thread nD τ) aS fullShare a
        ∗ (iprop(owns (c : Thread nD τ) aX fullShare x ∗ owns (c : Thread nD τ) aB fullShare b
            ∗ owns (c : Thread nD τ) aS fullShare (k13_pay2 x b a)) -∗ K ⟨⟩))
      ⊢ wp frame (wpE (defs₀ (F := F)) Variants.none c none) E (cc13__segsum_kernel i aX hX aB hB aO hO aS hS) K := by
  simp only [cc13__segsum_kernel_eq_skeleton]; unfold cc13__segsum_kernel_skel
  unfold owns
  iintro ⟨⟨%fX, %hfX, HX⟩, ⟨%fB, %hfB, HB⟩, ⟨%fS, %hfS, HS⟩, Hk⟩
  obtain rfl := hX.eq_unread hfX; obtain rfl := hB.eq_unread hfB; obtain rfl := hS.eq_unread hfS
  sl_exec (disch := first | exact hcR | exact hcC)
  sl_step
  iapply Hk
  isplitl [HX]
  · iexists _; isplitr; · ipureintro; exact hX.read_unread _
    iexact HX
  isplitl [HB]
  · iexists _; isplitr; · ipureintro; exact hB.read_unread _
    iexact HB
  iexists _; isplitr
  swap; · iexact HS
  ipureintro
  rw [readLast13 _ _ hz13]
  simp only [View.readAt_eq_ld, hX.read_unread, hB.read_unread, hS.read_unread,
    View.ld_unit_zero (S := S5000x128) hz13, View.ld_unit_zero (S := S5000x1) hz13, View.ld_unit_zero (S := S256x128) hz13]

set_option maxHeartbeats 1000000 in
/-- THE LAST POINT (the copy taken, the reset not): the scratch at `a` ends at `a` plus the point's contribution, and
    the output window's memref, at anything, ends holding the same. -/
theorem sound_last13 (c : Dev nD) (E : Set ℕ) (i : grid13.Coords)
    (aX : Memref sig .tc .vmem S5000x128 .f32) (hX : aX.IsWhole) (aB : Memref sig .tc .vmem S5000x1 .i32) (hB : aB.IsWhole)
    (aO : Memref sig .tc .vmem S256x128 .f32) (hO : aO.IsWhole) (aS : Memref sig .tc .vmem S256x128 .f32) (hS : aS.IsWhole)
    (hcR : ¬cond13_0 i) (hcC : cond13_1 i)
    (x : Vec F S5000x128 .f32) (b : Vec F S5000x1 .i32) (a : Vec F S256x128 .f32) (K : PUnit → sProp 𝕄) :
    iprop(owns (c : Thread nD τ) aX fullShare x ∗ owns (c : Thread nD τ) aB fullShare b ∗ (∃ d, owns (c : Thread nD τ) aO fullShare d)
        ∗ owns (c : Thread nD τ) aS fullShare a
        ∗ (iprop(owns (c : Thread nD τ) aX fullShare x ∗ owns (c : Thread nD τ) aB fullShare b
            ∗ owns (c : Thread nD τ) aO fullShare (k13_pay2 x b a) ∗ owns (c : Thread nD τ) aS fullShare (k13_pay2 x b a)) -∗ K ⟨⟩))
      ⊢ wp frame (wpE (defs₀ (F := F)) Variants.none c none) E (cc13__segsum_kernel i aX hX aB hB aO hO aS hS) K := by
  simp only [cc13__segsum_kernel_eq_skeleton]; unfold cc13__segsum_kernel_skel
  unfold owns
  iintro ⟨⟨%fX, %hfX, HX⟩, ⟨%fB, %hfB, HB⟩, ⟨%dO, %fO, -, HO⟩, ⟨%fS, %hfS, HS⟩, Hk⟩
  obtain rfl := hX.eq_unread hfX; obtain rfl := hB.eq_unread hfB; obtain rfl := hS.eq_unread hfS
  sl_exec (disch := first | exact hcR | exact hcC)
  sl_step
  iapply Hk
  isplitl [HX]
  · iexists _; isplitr; · ipureintro; exact hX.read_unread _
    iexact HX
  isplitl [HB]
  · iexists _; isplitr; · ipureintro; exact hB.read_unread _
    iexact HB
  isplitl [HO]
  · iexists _; isplitr
    swap; · iexact HO
    ipureintro
    sl_unfold_run_names
    rw [readLast13 _ _ hz13, View.readCov_unit_zero _ hz13]
    simp only [View.readAt_eq_ld, hX.read_unread, hB.read_unread, hS.read_unread,
      View.ld_unit_zero (S := S5000x128) hz13, View.ld_unit_zero (S := S5000x1) hz13, View.ld_unit_zero (S := S256x128) hz13]
  iexists _; isplitr
  swap; · iexact HS
  ipureintro
  sl_unfold_run_names
  rw [readLast13 _ _ hz13]
  simp only [View.readAt_eq_ld, hX.read_unread, hB.read_unread, hS.read_unread,
    View.ld_unit_zero (S := S5000x128) hz13, View.ld_unit_zero (S := S5000x1) hz13, View.ld_unit_zero (S := S256x128) hz13]

/-- The region invariant before position `n`: before the first point the class's (every scratch at anything); afterwards
    the carried scratch at what the points so far accumulated, the other scoped buffers unopened, and the generator
    register at some state. -/
def Phi13 (c : Dev nD) (n : ℕ) (hn : n ≤ cfg13.N) : sProp 𝕄 :=
  if n = 0 then Pipeline.ΦA spec13 c
  else iprop(owns (c : Thread nD τ) scM13 fullShare (accAt13 V c n hn)
      ∗ Pipeline.scopedRestBut (Ix := Unit) (Name := ℕ) (U := UR sig nD τ) (Lvl := ℕ) (Val := Elt F) spec13 c [cc13_scratch0]
      ∗ (∃ r, prngReg c r))

theorem Phi13_zero (c : Dev nD) (n : ℕ) (h : n ≤ cfg13.N) (hz : n = 0) : Phi13 V c n h = Pipeline.ΦA spec13 c := by
  unfold Phi13; exact if_pos hz

theorem Phi13_pos (c : Dev nD) (n : ℕ) (h : n ≤ cfg13.N) (hz : n ≠ 0) :
    Phi13 V c n h = iprop(owns (c : Thread nD τ) scM13 fullShare (accAt13 V c n h)
      ∗ Pipeline.scopedRestBut (Ix := Unit) (Name := ℕ) (U := UR sig nD τ) (Lvl := ℕ) (Val := Elt F) spec13 c [cc13_scratch0]
      ∗ (∃ r, prngReg c r)) := by
  unfold Phi13; exact if_neg hz

/-- The class's invariant with the scratch operand split out of the scoped rest as a memref owned at some contents. -/
theorem PhiA13_eq (c : Dev nD) :
    (Pipeline.ΦA spec13 c : sProp 𝕄)
      = iprop(iprop(iprop((∃ d, owns (c : Thread nD τ) scM13 fullShare d))
          ∗ Pipeline.scopedRestBut (Ix := Unit) (Name := ℕ) (U := UR sig nD τ) (Lvl := ℕ) (Val := Elt F) spec13 c [cc13_scratch0])
        ∗ (∃ r, prngReg c r)) := by
  unfold Pipeline.ΦA; rw [scopedRest13_split]; simp only [scM13, owns_whole]; try rfl

/-! ## The pipeline's proof data -/

/-- The proof data of pipeline 13 on core `c`: the arrays as the region finds them (`V`); after the body at point `t` each
    input's buffer at its block and the output's at what the scratch then holds (consulted at the last point only: the
    window is idle elsewhere); the invariant `Phi13`; nothing owed; full shares. -/
def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => accAt13 V c (t.val + 1) t.isLt
  Φ t := Phi13 V c t.val (Nat.le_of_lt_succ t.isLt)
  q _ := fullShare
  owed _ := 0

theorem A_eq13 (c : Dev nD) (w : Fin cfg13.W) : (dat13 V c).A w = V c (Pipeline.arrRef spec13 w) := by
  dsimp only [dat13]

theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = accAt13 V c (t.val + 1) t.isLt := by dsimp only [dat13]

theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d

/-- The invariant at a point's start, restated at `t.val`. -/
theorem Phi13_castSucc (c : Dev nD) (t : Fin cfg13.N) :
    (dat13 V c).Φ t.castSucc = Phi13 V c t.val (Nat.le_of_lt t.isLt) := by
  dsimp only [dat13]; simp only [Fin.coe_castSucc]

/-- The invariant at a point's end: the carried scratch at what the points up to this one accumulated. -/
theorem Phi13_succ (c : Dev nD) (t : Fin cfg13.N) :
    (dat13 V c).Φ t.succ = iprop(owns (c : Thread nD τ) scM13 fullShare (accAt13 V c (t.val + 1) t.isLt)
      ∗ Pipeline.scopedRestBut (Ix := Unit) (Name := ℕ) (U := UR sig nD τ) (Lvl := ℕ) (Val := Elt F) spec13 c [cc13_scratch0]
      ∗ (∃ r, prngReg c r)) := by
  dsimp only [dat13]; simp only [Fin.val_succ]; exact Phi13_pos V c _ _ (Nat.succ_ne_zero _)

/-- Before any point has run the accumulation is the zero block. -/
theorem accAt13_of_zero (c : Dev nD) (n : ℕ) (h : n ≤ cfg13.N) (hz : n = 0) : accAt13 V c n h = k13_pay1 := by
  subst hz; rfl

/-! ## The body obligation, at a generic point -/

/-- What the body is called with at point `t` (the library's body obligation's precondition, the windows one by one), -/
def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d))
    ∗ (∃ d, owns (c : Thread nD τ) (st13_2 t) fullShare ((dat13 V c).before 2 t d)))

/-- and what it returns. -/
def bodyPost13 (c : Dev nD) (t : Fin cfg13.N) : sProp 𝕄 :=
  iprop((dat13 V c).Φ t.succ ∗ (dat13 V c).owesAt () t.succ
    ∗ (dat13 V c).leavesExact 0 t
    ∗ (dat13 V c).leavesExact 1 t
    ∗ (dat13 V c).leavesExact 2 t)

set_option maxHeartbeats 4000000 in
/-- The body at any point. The inputs' memrefs hold their blocks; the closed forms of the two conditions say which of the
    three control cases the point is in, and that case's triple applies. The invariant hands the body the scratch — at
    anything at the first point, at what the points before accumulated afterwards — and takes it back at what the points
    up to this one accumulated; the other scoped buffers, the generator register and the core's `owes` pass through
    unread; the output window's memref is handed back as it was found except at the last point, where it holds the
    accumulation. -/
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1]
  rw [show (dat13 V c).owesAt () t.succ = (dat13 V c).owesAt () t.castSucc from rfl, Phi13_succ V c t, Phi13_castSucc V c t]
  have hN : t.val < 10 := lt_of_lt_of_eq t.isLt (show cfg13.N = 10 from N_13)
  rw [show (dat13 V c).leavesExact 0 t = owns (c : Thread nD τ) (st13_0 t) fullShare ((dat13 V c).after 0 t) from by
    unfold Dat.leavesExact; rw [liveAt13_0 t], after13_0]
  rw [show (dat13 V c).leavesExact 1 t = owns (c : Thread nD τ) (st13_1 t) fullShare ((dat13 V c).after 1 t) from by
    unfold Dat.leavesExact; rw [liveAt13_1 t], after13_1]
  rw [accAt13_succ V c t]
  by_cases hL : t.val % 10 = 9
  · have hcC : cond13_1 (grid13.coords t) := (hcond13_1 t).mpr hL
    have hcR : ¬cond13_0 (grid13.coords t) := fun h => by have := (hcond13_0 t).mp h; omega
    have hz : t.val ≠ 0 := by omega
    rw [show (dat13 V c).leavesExact 2 t = owns (c : Thread nD τ) (st13_2 t) fullShare ((dat13 V c).after 2 t) from by
      unfold Dat.leavesExact; rw [liveAt13_2 t hcC], after13_2, accAt13_succ V c t]
    rw [Phi13_pos V c _ _ hz]
    iintro ⟨⟨HS, Hrest, Hg⟩, Ho, ⟨%dX, HX⟩, ⟨%dB, HB⟩, ⟨%dO, HO⟩⟩
    iapply (sound_last13 c Set.univ (grid13.coords t) _ _ _ _ _ _ _ _ hcR hcC (iblk13 V c 0 t) (iblk13 V c 1 t)
      (accAt13 V c t.val (Nat.le_of_lt t.isLt)) _)
    isplitl [HX]; · iexact HX
    isplitl [HB]; · iexact HB
    isplitl [HO]; · iexists _; iexact HO
    isplitl [HS]; · iexact HS
    iintro ⟨HX, HB, HO, HS⟩
    isplitl [HS Hrest Hg]
    · isplitl [HS]; · iexact HS
      isplitl [Hrest]; · iexact Hrest
      iexact Hg
    isplitl [Ho]; · iexact Ho
    isplitl [HX]; · iexact HX
    isplitl [HB]; · iexact HB
    iexact HO
  · have hcC : ¬cond13_1 (grid13.coords t) := fun h => hL ((hcond13_1 t).mp h)
    rw [Dat.leavesExact_idle (dat13 V c) 2 t (idleAt13_2 t hcC) (noFlush13_2 t hcC)]
    by_cases hF : t.val % 10 = 0
    · have hcR : cond13_0 (grid13.coords t) := (hcond13_0 t).mpr hF
      have hz : t.val = 0 := by omega
      rw [Phi13_zero V c _ _ hz, PhiA13_eq, accAt13_of_zero V c _ _ hz]
      iintro ⟨⟨⟨HS, Hrest⟩, Hg⟩, Ho, ⟨%dX, HX⟩, ⟨%dB, HB⟩, ⟨%dO, HO⟩⟩
      iapply (sound_first13 c Set.univ (grid13.coords t) _ _ _ _ _ _ _ _ hcR hcC (iblk13 V c 0 t) (iblk13 V c 1 t) _)
      isplitl [HX]; · iexact HX
      isplitl [HB]; · iexact HB
      isplitl [HS]; · iexact HS
      iintro ⟨HX, HB, HS⟩
      isplitl [HS Hrest Hg]
      · isplitl [HS]; · iexact HS
        isplitl [Hrest]; · iexact Hrest
        iexact Hg
      isplitl [Ho]; · iexact Ho
      isplitl [HX]; · iexact HX
      isplitl [HB]; · iexact HB
      iexists _; iexact HO
    · have hcR : ¬cond13_0 (grid13.coords t) := fun h => hF ((hcond13_0 t).mp h)
      have hz : t.val ≠ 0 := by omega
      rw [Phi13_pos V c _ _ hz]
      iintro ⟨⟨HS, Hrest, Hg⟩, Ho, ⟨%dX, HX⟩, ⟨%dB, HB⟩, ⟨%dO, HO⟩⟩
      iapply (sound_mid13 c Set.univ (grid13.coords t) _ _ _ _ _ _ _ _ hcR hcC (iblk13 V c 0 t) (iblk13 V c 1 t)
        (accAt13 V c t.val (Nat.le_of_lt t.isLt)) _)
      isplitl [HX]; · iexact HX
      isplitl [HB]; · iexact HB
      isplitl [HS]; · iexact HS
      iintro ⟨HX, HB, HS⟩
      isplitl [HS Hrest Hg]
      · isplitl [HS]; · iexact HS
        isplitl [Hrest]; · iexact Hrest
        iexact Hg
      isplitl [Ho]; · iexact Ho
      isplitl [HX]; · iexact HX
      isplitl [HB]; · iexact HB
      iexists _; iexact HO

/-- The library's body obligation, at every point. -/
theorem body_obligation13 (c : Dev nD) : BodyObligation (dat13 (F := F) V c) (defs₀ (F := F)) Variants.none () Set.univ := fun t => by
  rw [bigSep_W13, bigSep_W13]
  exact sound_body13 V c t

/-- What the launch hands the region is the invariant before the first point. -/
theorem PhiIn13 (c : Dev nD) : Pipeline.ΦA spec13 c ⊢ (dat13 V c).Φ 0 := by
  rw [show (dat13 V c).Φ 0 = Phi13 V c 0 (Nat.zero_le _) from rfl, Phi13_zero V c 0 _ rfl]

/-- After the last point the invariant gives the class's back: the scratch's named contents are forgotten. -/
theorem PhiOut13 (c : Dev nD) : (dat13 V c).Φ (Fin.last _) ⊢ Pipeline.ΦA spec13 c := by
  rw [show (dat13 V c).Φ (Fin.last _) = Phi13 V c cfg13.N (Nat.le_refl _) from rfl,
    Phi13_pos V c _ _ (by rw [show cfg13.N = 10 from N_13]; decide), PhiA13_eq]
  iintro ⟨HS, Hrest, Hg⟩
  isplitl [HS Hrest]
  · isplitl [HS]
    · iexists _; iexact HS
    iexact Hrest
  iexact Hg

end Cert.Kernel.Hand

end
-- ==== Proof.KFinRegion14.lean ====
/- Region 14 of @main, custom_call 14, the mean pool and predictor `cc14__finalize_kernel`: the frame half of its pipeline, at any float model `F` and at a PARAMETER `V`, the
   TensorCore's buffer contents when the region is entered. The grid is one point and every window's block is its whole
   array. Each input window's staging buffer holds its block; the output's, after the body, holds what the body's one store
   leaves, a function `out14_4` of the input blocks; the body's triple is run on whole staging memrefs; the pipeline's proof
   data carries the arrays at `V`, the untouched invariant, full shares and nothing owed; and the library's body obligation
   follows at the one point. -/
import proofs.«403491_j395136991532_1_alg».proof.Proof.Gen.Kernel.Launch
import proofs.«403491_j395136991532_1_alg».proof.Proof.Gen.Kernel.Skeleton
import proofs.«403491_j395136991532_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

/-- Input window 0's current staging buffer holds its block at every point, fetched there or not, for any proof data
    whose array is `V`'s and whose body leaves the block in place: the window is uncut and never idle. -/
theorem before14_0_of {c : Dev nD} (dat : Dat τ (Elt F) Unit ℕ (UR sig nD τ) ℕ cfg14 c) (hA : dat.A 0 = V c (Pipeline.arrRef spec14 0))
    (hafter : ∀ t, dat.after 0 t = iblk14 V c 0 t) (t : Fin cfg14.N) (d) : dat.before 0 t d = iblk14 V c 0 t :=
  (dat.before_in_eq_fetched 0 rfl (fun _ => rfl) (fun _ _ _ => rfl) (fun t => by rw [hafter]; unfold Dat.blockOf iblk14; rw [hA]; try rfl) t d).trans
    (by unfold Dat.fetched Dat.blockOf iblk14; rw [hA]; try rfl)

/-- Input window 1's current staging buffer holds its block at every point, fetched there or not, for any proof data
    whose array is `V`'s and whose body leaves the block in place: the window is uncut and never idle. -/
theorem before14_1_of {c : Dev nD} (dat : Dat τ (Elt F) Unit ℕ (UR sig nD τ) ℕ cfg14 c) (hA : dat.A 1 = V c (Pipeline.arrRef spec14 1))
    (hafter : ∀ t, dat.after 1 t = iblk14 V c 1 t) (t : Fin cfg14.N) (d) : dat.before 1 t d = iblk14 V c 1 t :=
  (dat.before_in_eq_fetched 1 rfl (fun _ => rfl) (fun _ _ _ => rfl) (fun t => by rw [hafter]; unfold Dat.blockOf iblk14; rw [hA]; try rfl) t d).trans
    (by unfold Dat.fetched Dat.blockOf iblk14; rw [hA]; try rfl)

/-- Input window 2's current staging buffer holds its block at every point, fetched there or not, for any proof data
    whose array is `V`'s and whose body leaves the block in place: the window is uncut and never idle. -/
theorem before14_2_of {c : Dev nD} (dat : Dat τ (Elt F) Unit ℕ (UR sig nD τ) ℕ cfg14 c) (hA : dat.A 2 = V c (Pipeline.arrRef spec14 2))
    (hafter : ∀ t, dat.after 2 t = iblk14 V c 2 t) (t : Fin cfg14.N) (d) : dat.before 2 t d = iblk14 V c 2 t :=
  (dat.before_in_eq_fetched 2 rfl (fun _ => rfl) (fun _ _ _ => rfl) (fun t => by rw [hafter]; unfold Dat.blockOf iblk14; rw [hA]; try rfl) t d).trans
    (by unfold Dat.fetched Dat.blockOf iblk14; rw [hA]; try rfl)

/-- Input window 3's current staging buffer holds its block at every point, fetched there or not, for any proof data
    whose array is `V`'s and whose body leaves the block in place: the window is uncut and never idle. -/
theorem before14_3_of {c : Dev nD} (dat : Dat τ (Elt F) Unit ℕ (UR sig nD τ) ℕ cfg14 c) (hA : dat.A 3 = V c (Pipeline.arrRef spec14 3))
    (hafter : ∀ t, dat.after 3 t = iblk14 V c 3 t) (t : Fin cfg14.N) (d) : dat.before 3 t d = iblk14 V c 3 t :=
  (dat.before_in_eq_fetched 3 rfl (fun _ => rfl) (fun _ _ _ => rfl) (fun t => by rw [hafter]; unfold Dat.blockOf iblk14; rw [hA]; try rfl) t d).trans
    (by unfold Dat.fetched Dat.blockOf iblk14; rw [hA]; try rfl)

/-! ## The body's accesses: each is a whole buffer -/

abbrev r14_0 : Rect S256x128 := Rect.unit (s := S256x128) ![0, 0] S256x128.size inb_S256x128_S256x128_0_0
abbrev r14_1 : Rect S256x1 := Rect.unit (s := S256x1) ![0, 0] S256x1.size inb_S256x1_S256x1_0_0
abbrev r14_2 : Rect S128x10 := Rect.unit (s := S128x10) ![0, 0] S128x10.size inb_S128x10_S128x10_0_0
abbrev r14_3 : Rect S1x10 := Rect.unit (s := S1x10) ![0, 0] S1x10.size inb_S1x10_S1x10_0_0
abbrev r14_4 : Rect S256x10 := Rect.unit (s := S256x10) ![0, 0] S256x10.size inb_S256x10_S256x10_0_0

/-! ## What the body leaves in the output window's buffer -/

/-- Window 4's staging buffer after the body, from the input windows' blocks: its one store as a piece (the payload is
    the skeleton's). -/
def out14_4 (x0 : Vec F S256x128 .f32) (x1 : Vec F S256x1 .f32) (x2 : Vec F S128x10 .bf16) (x3 : Vec F S1x10 .f32) : Vec F S256x10 .f32 :=
  View.canon [⟨r14_4, k14_pay1 (View.ld x0 r14_0) (View.ld x1 r14_1) (View.ld x2 r14_2) (View.ld x3 r14_3)⟩]

/-- The one store is of the whole buffer, so it covers it. -/
theorem cover14_4 (p0 : Vec F S256x10 .f32) (y : S256x10.Idx) :
    ∃ pc ∈ ([⟨r14_4, p0⟩] : List (View.Piece (Elt F) S256x10 .f32)), y ∈ pc.1.set :=
  View.cover_of_tiled [⟨r14_4, p0⟩] S256x10.size (by rfl) y

/-! ## The body's triple -/

set_option maxHeartbeats 1000000 in
/-- The kernel body on whole staging memrefs, the inputs' at read contents `xW` and the output's at anything, runs to the
    continuation holding the inputs' as they were and the output's at `out14_4` of the inputs': the printed functions are
    their skeletons of memory operations over payloads, which are run operation by operation. -/
theorem sound_kernel14 (c : Dev nD) (E : Set ℕ) (i : grid14.Coords) (arg1 : Memref sig .tc .vmem S256x128 .f32) (harg1 : arg1.IsWhole) (arg2 : Memref sig .tc .vmem S256x1 .f32) (harg2 : arg2.IsWhole) (arg3 : Memref sig .tc .vmem S128x10 .bf16) (harg3 : arg3.IsWhole) (arg4 : Memref sig .tc .vmem S1x10 .f32) (harg4 : arg4.IsWhole) (arg5 : Memref sig .tc .vmem S256x10 .f32) (harg5 : arg5.IsWhole)
    (x0 : Vec F S256x128 .f32) (x1 : Vec F S256x1 .f32) (x2 : Vec F S128x10 .bf16) (x3 : Vec F S1x10 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out14_4 x0 x1 x2 x3)) -∗ K ⟨⟩))
      ⊢ wp frame (wpE (defs₀ (F := F)) Variants.none c none) E (cc14__finalize_kernel i arg1 harg1 arg2 harg2 arg3 harg3 arg4 harg4 arg5 harg5) K := by
  simp only [cc14__finalize_kernel_eq_skeleton]; unfold cc14__finalize_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover14_4 _)

/-! ## The pipeline's proof data -/

/-- The proof data of pipeline 14 on core `c`: the arrays as the region finds them (`V`); after the body at point `t` each
    input's buffer at its block and the output's at `out14_4` of the input blocks; the invariant the scoped rest and the
    generator register, untouched; nothing owed; full shares. -/
def dat14 (c : Dev nD) : Dat τ (Elt F) Unit ℕ (UR sig nD τ) ℕ cfg14 c where
  A w := V c (Pipeline.arrRef spec14 w)
  after w t := match w with
    | ⟨0, _⟩ => iblk14 V c 0 t
    | ⟨1, _⟩ => iblk14 V c 1 t
    | ⟨2, _⟩ => iblk14 V c 2 t
    | ⟨3, _⟩ => iblk14 V c 3 t
    | ⟨4, _⟩ => out14_4 (iblk14 V c 0 t) (iblk14 V c 1 t) (iblk14 V c 2 t) (iblk14 V c 3 t)
  Φ _ := Pipeline.ΦA spec14 c
  q _ := fullShare
  owed _ := 0

/-- The proof data's arrays are the region-entry contents. -/
theorem A_eq14 (c : Dev nD) (w : Fin cfg14.W) : (dat14 V c).A w = V c (Pipeline.arrRef spec14 w) := by
  dsimp only [dat14]

/-- What the body leaves, window by window. -/
theorem after14_0 (c : Dev nD) (t : Fin cfg14.N) : (dat14 V c).after 0 t = iblk14 V c 0 t := by dsimp only [dat14]
theorem after14_1 (c : Dev nD) (t : Fin cfg14.N) : (dat14 V c).after 1 t = iblk14 V c 1 t := by dsimp only [dat14]
theorem after14_2 (c : Dev nD) (t : Fin cfg14.N) : (dat14 V c).after 2 t = iblk14 V c 2 t := by dsimp only [dat14]
theorem after14_3 (c : Dev nD) (t : Fin cfg14.N) : (dat14 V c).after 3 t = iblk14 V c 3 t := by dsimp only [dat14]
theorem after14_4 (c : Dev nD) (t : Fin cfg14.N) : (dat14 V c).after 4 t = out14_4 (iblk14 V c 0 t) (iblk14 V c 1 t) (iblk14 V c 2 t) (iblk14 V c 3 t) := by dsimp only [dat14]

/-- Each input's current staging buffer holds its block at every point, fetched there or not. -/
theorem before14_0 (c : Dev nD) (t : Fin cfg14.N) (d) : (dat14 V c).before 0 t d = iblk14 V c 0 t :=
  before14_0_of V (dat14 V c) (A_eq14 V c 0) (after14_0 V c) t d
theorem before14_1 (c : Dev nD) (t : Fin cfg14.N) (d) : (dat14 V c).before 1 t d = iblk14 V c 1 t :=
  before14_1_of V (dat14 V c) (A_eq14 V c 1) (after14_1 V c) t d
theorem before14_2 (c : Dev nD) (t : Fin cfg14.N) (d) : (dat14 V c).before 2 t d = iblk14 V c 2 t :=
  before14_2_of V (dat14 V c) (A_eq14 V c 2) (after14_2 V c) t d
theorem before14_3 (c : Dev nD) (t : Fin cfg14.N) (d) : (dat14 V c).before 3 t d = iblk14 V c 3 t :=
  before14_3_of V (dat14 V c) (A_eq14 V c 3) (after14_3 V c) t d

/-- The invariant at the region's entry is the class's, -/
theorem PhiIn14 (c : Dev nD) : Pipeline.ΦA spec14 c ⊢ (dat14 V c).Φ 0 := .rfl

/-- and at its exit. -/
theorem PhiOut14 (c : Dev nD) : (dat14 V c).Φ (Fin.last _) ⊢ Pipeline.ΦA spec14 c := .rfl

/-! ## The body obligation, at a generic point -/

/-- What the body is called with at point `t`, the windows one by one, -/
def bodyPre14 (c : Dev nD) (t : Fin cfg14.N) : sProp 𝕄 :=
  iprop((dat14 V c).Φ t.castSucc ∗ (dat14 V c).owesAt () t.castSucc
    ∗ (∃ d, owns (c : Thread nD τ) (st14_0 t) fullShare ((dat14 V c).before 0 t d))
    ∗ (∃ d, owns (c : Thread nD τ) (st14_1 t) fullShare ((dat14 V c).before 1 t d))
    ∗ (∃ d, owns (c : Thread nD τ) (st14_2 t) fullShare ((dat14 V c).before 2 t d))
    ∗ (∃ d, owns (c : Thread nD τ) (st14_3 t) fullShare ((dat14 V c).before 3 t d))
    ∗ (∃ d, owns (c : Thread nD τ) (st14_4 t) fullShare ((dat14 V c).before 4 t d)))

/-- and what it returns. -/
def bodyPost14 (c : Dev nD) (t : Fin cfg14.N) : sProp 𝕄 :=
  iprop((dat14 V c).Φ t.succ ∗ (dat14 V c).owesAt () t.succ
    ∗ owns (c : Thread nD τ) (st14_0 t) fullShare ((dat14 V c).after 0 t)
    ∗ owns (c : Thread nD τ) (st14_1 t) fullShare ((dat14 V c).after 1 t)
    ∗ owns (c : Thread nD τ) (st14_2 t) fullShare ((dat14 V c).after 2 t)
    ∗ owns (c : Thread nD τ) (st14_3 t) fullShare ((dat14 V c).after 3 t)
    ∗ owns (c : Thread nD τ) (st14_4 t) fullShare ((dat14 V c).after 4 t))

/-- The body at any point: the inputs' memrefs hold their blocks, so the body's triple applies; the invariant and the core's
    debts pass through unread. -/
theorem sound_body14 (c : Dev nD) (t : Fin cfg14.N) :
    bodyPre14 V c t ⊢ wp frame (wpE (defs₀ (F := F)) Variants.none c none) Set.univ (bodyAt14 t) (fun _ => bodyPost14 V c t) := by
  unfold bodyPre14 bodyPost14 bodyAt14
  simp only [before14_0, before14_1, before14_2, before14_3]
  rw [show (dat14 V c).Φ t.succ = (dat14 V c).Φ t.castSucc from rfl,
    show (dat14 V c).owesAt () t.succ = (dat14 V c).owesAt () t.castSucc from rfl,
    after14_0, after14_1, after14_2, after14_3, after14_4]
  iintro ⟨HΦ, Ho, ⟨%d0, H0⟩, ⟨%d1, H1⟩, ⟨%d2, H2⟩, ⟨%d3, H3⟩, ⟨%d4, H4⟩⟩
  iapply (sound_kernel14 c Set.univ _ _ _ _ _ _ _ _ _ _ _ (iblk14 V c 0 t) (iblk14 V c 1 t) (iblk14 V c 2 t) (iblk14 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation14 (c : Dev nD) : BodyObligation (dat14 (F := F) V c) (defs₀ (F := F)) Variants.none () Set.univ := fun t => by
  rw [bigSep_W14, bigSep_W14]
  exact sound_body14 V c t

end Cert.Kernel.Hand

end
-- ==== Proof.KFold.lean ====
/- The run of @main, first part: the TensorCore's buffer contents at each of the 27 boundaries of @main's 26 segments, as a
   fold from the launch memory (a stretch of host operations takes them to what the operations leave; a region takes its
   windows' arrays to what its pipeline leaves and leaves the rest), every pipeline's proof data at its region's entry
   contents, the thread state that rides through the segments, and the host stretches as segments. -/
import proofs.«403491_j395136991532_1_alg».proof.Proof.Gen.Kernel.Launch
import proofs.«403491_j395136991532_1_alg».proof.Proof.Gen.Kernel.Skeleton
import proofs.«403491_j395136991532_1_alg».proof.Proof.Gen.Kernel.Points
import proofs.«403491_j395136991532_1_alg».proof.Proof.KGinRegion0
import proofs.«403491_j395136991532_1_alg».proof.Proof.KSegRegion1
import proofs.«403491_j395136991532_1_alg».proof.Proof.KVnRegion2
import proofs.«403491_j395136991532_1_alg».proof.Proof.KGinRegion3
import proofs.«403491_j395136991532_1_alg».proof.Proof.KSegRegion4
import proofs.«403491_j395136991532_1_alg».proof.Proof.KVnRegion5
import proofs.«403491_j395136991532_1_alg».proof.Proof.KGinRegion6
import proofs.«403491_j395136991532_1_alg».proof.Proof.KSegRegion7
import proofs.«403491_j395136991532_1_alg».proof.Proof.KVnRegion8
import proofs.«403491_j395136991532_1_alg».proof.Proof.KGinRegion9
import proofs.«403491_j395136991532_1_alg».proof.Proof.KSegRegion10
import proofs.«403491_j395136991532_1_alg».proof.Proof.KVnRegion11
import proofs.«403491_j395136991532_1_alg».proof.Proof.KGinRegion12
import proofs.«403491_j395136991532_1_alg».proof.Proof.KSegRegion13
import proofs.«403491_j395136991532_1_alg».proof.Proof.KFinRegion14
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- the 97-operation host stretch's list and the membership facts over the production extents recurse past the default depth
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffer contents at each boundary of @main's 26 segments: a fold from the launch memory

A stretch of host operations takes the contents to `StableHlo.after` of them; a region takes its windows' arrays to what
its pipeline leaves (the inputs as entered, each output's write-backs folded: `Dat.arrAt … N`) and leaves every other
buffer as entered (`Pipeline.withArrays`). `W0` is the launch; segment `i` (counted from 0) takes `W i` to `W (i+1)`. -/

/-- Core `c`'s buffers at launch. -/
abbrev W0 : Dev nD → Valuation τ sig (Elt F) := fun c b => (s₀ m ρ).mem ((c : Dev nD), b)

/-- After `hostOps0`: region 0's entry. -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- At region 0's exit. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- Region 0's exit contents at the TensorCore's references: region 1 is entered from them (no host stretch between). -/
abbrev V2 : (c : Dev nD) → (b : Ref sig .tc) → Buf (Elt F) ((c : Thread nD τ).loc b) := fun c b => W2 m ρ c b
/-- At region 0's exit each of its arrays holds what the pipeline leaves and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After `hostOps2`: region 2's entry. -/
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b
/-- At region 2's exit. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-- After `hostOps3`: region 3's entry. -/
abbrev W6 : Dev nD → Valuation τ sig (Elt F) := fun c => StableHlo.after hostOps3 (W5 m ρ c)
abbrev V6 : (c : Dev nD) → (b : Ref sig .tc) → Buf (Elt F) ((c : Thread nD τ).loc b) := fun c b => W6 m ρ c b
/-- At region 3's exit. -/
def W7 (c : Dev nD) : Valuation τ sig (Elt F) :=
  Pipeline.withArrays spec3 c (W6 m ρ c) fun w => (dat3 (V6 m ρ) c).arrAt w cfg3.N
theorem W7_arr (c : Dev nD) (w : Fin cfg3.W) :
    W7 m ρ c (Proc.devRef .tc (Pipeline.arrRef spec3 w)) = (dat3 (V6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
/-- Region 3's exit contents: region 4 is entered from them (no host stretch between). -/
abbrev V7 : (c : Dev nD) → (b : Ref sig .tc) → Buf (Elt F) ((c : Thread nD τ).loc b) := fun c b => W7 m ρ c b
theorem hF3 (c : Dev nD) (w : Fin cfg3.W) : (dat3 (V6 m ρ) c).arrAt w cfg3.N = V7 m ρ c (Pipeline.arrRef spec3 w) :=
  (W7_arr m ρ c w).symm
theorem hrest3 (c : Dev nD) : ∀ b, b ∉ Finset.univ.image (Pipeline.arrRef spec3) → V7 m ρ c b = V6 m ρ c b :=
  fun b hb => W7_of_ne m ρ c b fun w e => hb (Finset.mem_image.mpr ⟨w, Finset.mem_univ _, e⟩)

/-- At region 4's exit. -/
def W8 (c : Dev nD) : Valuation τ sig (Elt F) :=
  Pipeline.withArrays spec4 c (W7 m ρ c) fun w => (dat4 (V7 m ρ) c).arrAt w cfg4.N
theorem W8_arr (c : Dev nD) (w : Fin cfg4.W) :
    W8 m ρ c (Proc.devRef .tc (Pipeline.arrRef spec4 w)) = (dat4 (V7 m ρ) c).arrAt w cfg4.N := by
  unfold W8; exact Pipeline.withArrays_arr spec4 launch4.win.arr_inj c _ _ w
theorem W8_of_ne (c : Dev nD) (b : Ref sig .tc) (hb : ∀ w, Pipeline.arrRef spec4 w ≠ b) :
    W8 m ρ c (Proc.devRef .tc b) = W7 m ρ c (Proc.devRef .tc b) := by
  unfold W8; exact Pipeline.withArrays_of_ne spec4 c _ _ b hb
abbrev V8 : (c : Dev nD) → (b : Ref sig .tc) → Buf (Elt F) ((c : Thread nD τ).loc b) := fun c b => W8 m ρ c b
theorem hF4 (c : Dev nD) (w : Fin cfg4.W) : (dat4 (V7 m ρ) c).arrAt w cfg4.N = V8 m ρ c (Pipeline.arrRef spec4 w) :=
  (W8_arr m ρ c w).symm
theorem hrest4 (c : Dev nD) : ∀ b, b ∉ Finset.univ.image (Pipeline.arrRef spec4) → V8 m ρ c b = V7 m ρ c b :=
  fun b hb => W8_of_ne m ρ c b fun w e => hb (Finset.mem_image.mpr ⟨w, Finset.mem_univ _, e⟩)

/-- After `hostOps5`: region 5's entry. -/
abbrev W9 : Dev nD → Valuation τ sig (Elt F) := fun c => StableHlo.after hostOps5 (W8 m ρ c)
abbrev V9 : (c : Dev nD) → (b : Ref sig .tc) → Buf (Elt F) ((c : Thread nD τ).loc b) := fun c b => W9 m ρ c b
/-- At region 5's exit. -/
def W10 (c : Dev nD) : Valuation τ sig (Elt F) :=
  Pipeline.withArrays spec5 c (W9 m ρ c) fun w => (dat5 (V9 m ρ) c).arrAt w cfg5.N
theorem W10_arr (c : Dev nD) (w : Fin cfg5.W) :
    W10 m ρ c (Proc.devRef .tc (Pipeline.arrRef spec5 w)) = (dat5 (V9 m ρ) c).arrAt w cfg5.N := by
  unfold W10; exact Pipeline.withArrays_arr spec5 launch5.win.arr_inj c _ _ w
theorem W10_of_ne (c : Dev nD) (b : Ref sig .tc) (hb : ∀ w, Pipeline.arrRef spec5 w ≠ b) :
    W10 m ρ c (Proc.devRef .tc b) = W9 m ρ c (Proc.devRef .tc b) := by
  unfold W10; exact Pipeline.withArrays_of_ne spec5 c _ _ b hb
abbrev V10 : (c : Dev nD) → (b : Ref sig .tc) → Buf (Elt F) ((c : Thread nD τ).loc b) := fun c b => W10 m ρ c b
theorem hF5 (c : Dev nD) (w : Fin cfg5.W) : (dat5 (V9 m ρ) c).arrAt w cfg5.N = V10 m ρ c (Pipeline.arrRef spec5 w) :=
  (W10_arr m ρ c w).symm
theorem hrest5 (c : Dev nD) : ∀ b, b ∉ Finset.univ.image (Pipeline.arrRef spec5) → V10 m ρ c b = V9 m ρ c b :=
  fun b hb => W10_of_ne m ρ c b fun w e => hb (Finset.mem_image.mpr ⟨w, Finset.mem_univ _, e⟩)

/-- After `hostOps6`: region 6's entry. -/
abbrev W11 : Dev nD → Valuation τ sig (Elt F) := fun c => StableHlo.after hostOps6 (W10 m ρ c)
abbrev V11 : (c : Dev nD) → (b : Ref sig .tc) → Buf (Elt F) ((c : Thread nD τ).loc b) := fun c b => W11 m ρ c b
/-- At region 6's exit. -/
def W12 (c : Dev nD) : Valuation τ sig (Elt F) :=
  Pipeline.withArrays spec6 c (W11 m ρ c) fun w => (dat6 (V11 m ρ) c).arrAt w cfg6.N
theorem W12_arr (c : Dev nD) (w : Fin cfg6.W) :
    W12 m ρ c (Proc.devRef .tc (Pipeline.arrRef spec6 w)) = (dat6 (V11 m ρ) c).arrAt w cfg6.N := by
  unfold W12; exact Pipeline.withArrays_arr spec6 launch6.win.arr_inj c _ _ w
theorem W12_of_ne (c : Dev nD) (b : Ref sig .tc) (hb : ∀ w, Pipeline.arrRef spec6 w ≠ b) :
    W12 m ρ c (Proc.devRef .tc b) = W11 m ρ c (Proc.devRef .tc b) := by
  unfold W12; exact Pipeline.withArrays_of_ne spec6 c _ _ b hb
/-- Region 6's exit contents: region 7 is entered from them (no host stretch between). -/
abbrev V12 : (c : Dev nD) → (b : Ref sig .tc) → Buf (Elt F) ((c : Thread nD τ).loc b) := fun c b => W12 m ρ c b
theorem hF6 (c : Dev nD) (w : Fin cfg6.W) : (dat6 (V11 m ρ) c).arrAt w cfg6.N = V12 m ρ c (Pipeline.arrRef spec6 w) :=
  (W12_arr m ρ c w).symm
theorem hrest6 (c : Dev nD) : ∀ b, b ∉ Finset.univ.image (Pipeline.arrRef spec6) → V12 m ρ c b = V11 m ρ c b :=
  fun b hb => W12_of_ne m ρ c b fun w e => hb (Finset.mem_image.mpr ⟨w, Finset.mem_univ _, e⟩)

/-- At region 7's exit. -/
def W13 (c : Dev nD) : Valuation τ sig (Elt F) :=
  Pipeline.withArrays spec7 c (W12 m ρ c) fun w => (dat7 (V12 m ρ) c).arrAt w cfg7.N
theorem W13_arr (c : Dev nD) (w : Fin cfg7.W) :
    W13 m ρ c (Proc.devRef .tc (Pipeline.arrRef spec7 w)) = (dat7 (V12 m ρ) c).arrAt w cfg7.N := by
  unfold W13; exact Pipeline.withArrays_arr spec7 launch7.win.arr_inj c _ _ w
theorem W13_of_ne (c : Dev nD) (b : Ref sig .tc) (hb : ∀ w, Pipeline.arrRef spec7 w ≠ b) :
    W13 m ρ c (Proc.devRef .tc b) = W12 m ρ c (Proc.devRef .tc b) := by
  unfold W13; exact Pipeline.withArrays_of_ne spec7 c _ _ b hb
abbrev V13 : (c : Dev nD) → (b : Ref sig .tc) → Buf (Elt F) ((c : Thread nD τ).loc b) := fun c b => W13 m ρ c b
theorem hF7 (c : Dev nD) (w : Fin cfg7.W) : (dat7 (V12 m ρ) c).arrAt w cfg7.N = V13 m ρ c (Pipeline.arrRef spec7 w) :=
  (W13_arr m ρ c w).symm
theorem hrest7 (c : Dev nD) : ∀ b, b ∉ Finset.univ.image (Pipeline.arrRef spec7) → V13 m ρ c b = V12 m ρ c b :=
  fun b hb => W13_of_ne m ρ c b fun w e => hb (Finset.mem_image.mpr ⟨w, Finset.mem_univ _, e⟩)

/-- After `hostOps8`: region 8's entry. -/
abbrev W14 : Dev nD → Valuation τ sig (Elt F) := fun c => StableHlo.after hostOps8 (W13 m ρ c)
abbrev V14 : (c : Dev nD) → (b : Ref sig .tc) → Buf (Elt F) ((c : Thread nD τ).loc b) := fun c b => W14 m ρ c b
/-- At region 8's exit. -/
def W15 (c : Dev nD) : Valuation τ sig (Elt F) :=
  Pipeline.withArrays spec8 c (W14 m ρ c) fun w => (dat8 (V14 m ρ) c).arrAt w cfg8.N
theorem W15_arr (c : Dev nD) (w : Fin cfg8.W) :
    W15 m ρ c (Proc.devRef .tc (Pipeline.arrRef spec8 w)) = (dat8 (V14 m ρ) c).arrAt w cfg8.N := by
  unfold W15; exact Pipeline.withArrays_arr spec8 launch8.win.arr_inj c _ _ w
theorem W15_of_ne (c : Dev nD) (b : Ref sig .tc) (hb : ∀ w, Pipeline.arrRef spec8 w ≠ b) :
    W15 m ρ c (Proc.devRef .tc b) = W14 m ρ c (Proc.devRef .tc b) := by
  unfold W15; exact Pipeline.withArrays_of_ne spec8 c _ _ b hb
abbrev V15 : (c : Dev nD) → (b : Ref sig .tc) → Buf (Elt F) ((c : Thread nD τ).loc b) := fun c b => W15 m ρ c b
theorem hF8 (c : Dev nD) (w : Fin cfg8.W) : (dat8 (V14 m ρ) c).arrAt w cfg8.N = V15 m ρ c (Pipeline.arrRef spec8 w) :=
  (W15_arr m ρ c w).symm
theorem hrest8 (c : Dev nD) : ∀ b, b ∉ Finset.univ.image (Pipeline.arrRef spec8) → V15 m ρ c b = V14 m ρ c b :=
  fun b hb => W15_of_ne m ρ c b fun w e => hb (Finset.mem_image.mpr ⟨w, Finset.mem_univ _, e⟩)

/-- After `hostOps9`: region 9's entry. -/
abbrev W16 : Dev nD → Valuation τ sig (Elt F) := fun c => StableHlo.after hostOps9 (W15 m ρ c)
abbrev V16 : (c : Dev nD) → (b : Ref sig .tc) → Buf (Elt F) ((c : Thread nD τ).loc b) := fun c b => W16 m ρ c b
/-- At region 9's exit. -/
def W17 (c : Dev nD) : Valuation τ sig (Elt F) :=
  Pipeline.withArrays spec9 c (W16 m ρ c) fun w => (dat9 (V16 m ρ) c).arrAt w cfg9.N
theorem W17_arr (c : Dev nD) (w : Fin cfg9.W) :
    W17 m ρ c (Proc.devRef .tc (Pipeline.arrRef spec9 w)) = (dat9 (V16 m ρ) c).arrAt w cfg9.N := by
  unfold W17; exact Pipeline.withArrays_arr spec9 launch9.win.arr_inj c _ _ w
theorem W17_of_ne (c : Dev nD) (b : Ref sig .tc) (hb : ∀ w, Pipeline.arrRef spec9 w ≠ b) :
    W17 m ρ c (Proc.devRef .tc b) = W16 m ρ c (Proc.devRef .tc b) := by
  unfold W17; exact Pipeline.withArrays_of_ne spec9 c _ _ b hb
/-- Region 9's exit contents: region 10 is entered from them (no host stretch between). -/
abbrev V17 : (c : Dev nD) → (b : Ref sig .tc) → Buf (Elt F) ((c : Thread nD τ).loc b) := fun c b => W17 m ρ c b
theorem hF9 (c : Dev nD) (w : Fin cfg9.W) : (dat9 (V16 m ρ) c).arrAt w cfg9.N = V17 m ρ c (Pipeline.arrRef spec9 w) :=
  (W17_arr m ρ c w).symm
theorem hrest9 (c : Dev nD) : ∀ b, b ∉ Finset.univ.image (Pipeline.arrRef spec9) → V17 m ρ c b = V16 m ρ c b :=
  fun b hb => W17_of_ne m ρ c b fun w e => hb (Finset.mem_image.mpr ⟨w, Finset.mem_univ _, e⟩)

/-- At region 10's exit. -/
def W18 (c : Dev nD) : Valuation τ sig (Elt F) :=
  Pipeline.withArrays spec10 c (W17 m ρ c) fun w => (dat10 (V17 m ρ) c).arrAt w cfg10.N
theorem W18_arr (c : Dev nD) (w : Fin cfg10.W) :
    W18 m ρ c (Proc.devRef .tc (Pipeline.arrRef spec10 w)) = (dat10 (V17 m ρ) c).arrAt w cfg10.N := by
  unfold W18; exact Pipeline.withArrays_arr spec10 launch10.win.arr_inj c _ _ w
theorem W18_of_ne (c : Dev nD) (b : Ref sig .tc) (hb : ∀ w, Pipeline.arrRef spec10 w ≠ b) :
    W18 m ρ c (Proc.devRef .tc b) = W17 m ρ c (Proc.devRef .tc b) := by
  unfold W18; exact Pipeline.withArrays_of_ne spec10 c _ _ b hb
abbrev V18 : (c : Dev nD) → (b : Ref sig .tc) → Buf (Elt F) ((c : Thread nD τ).loc b) := fun c b => W18 m ρ c b
theorem hF10 (c : Dev nD) (w : Fin cfg10.W) : (dat10 (V17 m ρ) c).arrAt w cfg10.N = V18 m ρ c (Pipeline.arrRef spec10 w) :=
  (W18_arr m ρ c w).symm
theorem hrest10 (c : Dev nD) : ∀ b, b ∉ Finset.univ.image (Pipeline.arrRef spec10) → V18 m ρ c b = V17 m ρ c b :=
  fun b hb => W18_of_ne m ρ c b fun w e => hb (Finset.mem_image.mpr ⟨w, Finset.mem_univ _, e⟩)

/-- After `hostOps11`: region 11's entry. -/
abbrev W19 : Dev nD → Valuation τ sig (Elt F) := fun c => StableHlo.after hostOps11 (W18 m ρ c)
abbrev V19 : (c : Dev nD) → (b : Ref sig .tc) → Buf (Elt F) ((c : Thread nD τ).loc b) := fun c b => W19 m ρ c b
/-- At region 11's exit. -/
def W20 (c : Dev nD) : Valuation τ sig (Elt F) :=
  Pipeline.withArrays spec11 c (W19 m ρ c) fun w => (dat11 (V19 m ρ) c).arrAt w cfg11.N
theorem W20_arr (c : Dev nD) (w : Fin cfg11.W) :
    W20 m ρ c (Proc.devRef .tc (Pipeline.arrRef spec11 w)) = (dat11 (V19 m ρ) c).arrAt w cfg11.N := by
  unfold W20; exact Pipeline.withArrays_arr spec11 launch11.win.arr_inj c _ _ w
theorem W20_of_ne (c : Dev nD) (b : Ref sig .tc) (hb : ∀ w, Pipeline.arrRef spec11 w ≠ b) :
    W20 m ρ c (Proc.devRef .tc b) = W19 m ρ c (Proc.devRef .tc b) := by
  unfold W20; exact Pipeline.withArrays_of_ne spec11 c _ _ b hb
abbrev V20 : (c : Dev nD) → (b : Ref sig .tc) → Buf (Elt F) ((c : Thread nD τ).loc b) := fun c b => W20 m ρ c b
theorem hF11 (c : Dev nD) (w : Fin cfg11.W) : (dat11 (V19 m ρ) c).arrAt w cfg11.N = V20 m ρ c (Pipeline.arrRef spec11 w) :=
  (W20_arr m ρ c w).symm
theorem hrest11 (c : Dev nD) : ∀ b, b ∉ Finset.univ.image (Pipeline.arrRef spec11) → V20 m ρ c b = V19 m ρ c b :=
  fun b hb => W20_of_ne m ρ c b fun w e => hb (Finset.mem_image.mpr ⟨w, Finset.mem_univ _, e⟩)

/-- After `hostOps12`: region 12's entry. -/
abbrev W21 : Dev nD → Valuation τ sig (Elt F) := fun c => StableHlo.after hostOps12 (W20 m ρ c)
abbrev V21 : (c : Dev nD) → (b : Ref sig .tc) → Buf (Elt F) ((c : Thread nD τ).loc b) := fun c b => W21 m ρ c b
/-- At region 12's exit. -/
def W22 (c : Dev nD) : Valuation τ sig (Elt F) :=
  Pipeline.withArrays spec12 c (W21 m ρ c) fun w => (dat12 (V21 m ρ) c).arrAt w cfg12.N
theorem W22_arr (c : Dev nD) (w : Fin cfg12.W) :
    W22 m ρ c (Proc.devRef .tc (Pipeline.arrRef spec12 w)) = (dat12 (V21 m ρ) c).arrAt w cfg12.N := by
  unfold W22; exact Pipeline.withArrays_arr spec12 launch12.win.arr_inj c _ _ w
theorem W22_of_ne (c : Dev nD) (b : Ref sig .tc) (hb : ∀ w, Pipeline.arrRef spec12 w ≠ b) :
    W22 m ρ c (Proc.devRef .tc b) = W21 m ρ c (Proc.devRef .tc b) := by
  unfold W22; exact Pipeline.withArrays_of_ne spec12 c _ _ b hb
abbrev V22 : (c : Dev nD) → (b : Ref sig .tc) → Buf (Elt F) ((c : Thread nD τ).loc b) := fun c b => W22 m ρ c b
theorem hF12 (c : Dev nD) (w : Fin cfg12.W) : (dat12 (V21 m ρ) c).arrAt w cfg12.N = V22 m ρ c (Pipeline.arrRef spec12 w) :=
  (W22_arr m ρ c w).symm
theorem hrest12 (c : Dev nD) : ∀ b, b ∉ Finset.univ.image (Pipeline.arrRef spec12) → V22 m ρ c b = V21 m ρ c b :=
  fun b hb => W22_of_ne m ρ c b fun w e => hb (Finset.mem_image.mpr ⟨w, Finset.mem_univ _, e⟩)

/-- After `hostOps13`: region 13's entry. -/
abbrev W23 : Dev nD → Valuation τ sig (Elt F) := fun c => StableHlo.after hostOps13 (W22 m ρ c)
abbrev V23 : (c : Dev nD) → (b : Ref sig .tc) → Buf (Elt F) ((c : Thread nD τ).loc b) := fun c b => W23 m ρ c b
/-- At region 13's exit. -/
def W24 (c : Dev nD) : Valuation τ sig (Elt F) :=
  Pipeline.withArrays spec13 c (W23 m ρ c) fun w => (dat13 (V23 m ρ) c).arrAt w cfg13.N
theorem W24_arr (c : Dev nD) (w : Fin cfg13.W) :
    W24 m ρ c (Proc.devRef .tc (Pipeline.arrRef spec13 w)) = (dat13 (V23 m ρ) c).arrAt w cfg13.N := by
  unfold W24; exact Pipeline.withArrays_arr spec13 launch13.win.arr_inj c _ _ w
theorem W24_of_ne (c : Dev nD) (b : Ref sig .tc) (hb : ∀ w, Pipeline.arrRef spec13 w ≠ b) :
    W24 m ρ c (Proc.devRef .tc b) = W23 m ρ c (Proc.devRef .tc b) := by
  unfold W24; exact Pipeline.withArrays_of_ne spec13 c _ _ b hb
abbrev V24 : (c : Dev nD) → (b : Ref sig .tc) → Buf (Elt F) ((c : Thread nD τ).loc b) := fun c b => W24 m ρ c b
theorem hF13 (c : Dev nD) (w : Fin cfg13.W) : (dat13 (V23 m ρ) c).arrAt w cfg13.N = V24 m ρ c (Pipeline.arrRef spec13 w) :=
  (W24_arr m ρ c w).symm
theorem hrest13 (c : Dev nD) : ∀ b, b ∉ Finset.univ.image (Pipeline.arrRef spec13) → V24 m ρ c b = V23 m ρ c b :=
  fun b hb => W24_of_ne m ρ c b fun w e => hb (Finset.mem_image.mpr ⟨w, Finset.mem_univ _, e⟩)

/-- After `hostOps14`: region 14's entry. -/
abbrev W25 : Dev nD → Valuation τ sig (Elt F) := fun c => StableHlo.after hostOps14 (W24 m ρ c)
abbrev V25 : (c : Dev nD) → (b : Ref sig .tc) → Buf (Elt F) ((c : Thread nD τ).loc b) := fun c b => W25 m ρ c b
/-- At region 14's exit: what the launch reads at the end. -/
def W26 (c : Dev nD) : Valuation τ sig (Elt F) :=
  Pipeline.withArrays spec14 c (W25 m ρ c) fun w => (dat14 (V25 m ρ) c).arrAt w cfg14.N
theorem W26_arr (c : Dev nD) (w : Fin cfg14.W) :
    W26 m ρ c (Proc.devRef .tc (Pipeline.arrRef spec14 w)) = (dat14 (V25 m ρ) c).arrAt w cfg14.N := by
  unfold W26; exact Pipeline.withArrays_arr spec14 launch14.win.arr_inj c _ _ w
theorem W26_of_ne (c : Dev nD) (b : Ref sig .tc) (hb : ∀ w, Pipeline.arrRef spec14 w ≠ b) :
    W26 m ρ c (Proc.devRef .tc b) = W25 m ρ c (Proc.devRef .tc b) := by
  unfold W26; exact Pipeline.withArrays_of_ne spec14 c _ _ b hb
abbrev V26 : (c : Dev nD) → (b : Ref sig .tc) → Buf (Elt F) ((c : Thread nD τ).loc b) := fun c b => W26 m ρ c b
theorem hF14 (c : Dev nD) (w : Fin cfg14.W) : (dat14 (V25 m ρ) c).arrAt w cfg14.N = V26 m ρ c (Pipeline.arrRef spec14 w) :=
  (W26_arr m ρ c w).symm
theorem hrest14 (c : Dev nD) : ∀ b, b ∉ Finset.univ.image (Pipeline.arrRef spec14) → V26 m ρ c b = V25 m ρ c b :=
  fun b hb => W26_of_ne m ρ c b fun w e => hb (Finset.mem_image.mpr ⟨w, Finset.mem_univ _, e⟩)

/-! ## No host operation allocates a buffer -/

set_option maxHeartbeats 4000000 in
/-- No operation of `hostOps0` allocates a buffer. -/
theorem hostOps0_fresh : (hostOps0 : List (HloOp τ sig (Elt F))).Forall fun op => op.fresh = ∅ := by
  simp only [List.Forall]; repeat' constructor

/-- No operation of `hostOps2` allocates a buffer. -/
theorem hostOps2_fresh : (hostOps2 : List (HloOp τ sig (Elt F))).Forall fun op => op.fresh = ∅ := by
  simp only [List.Forall]; repeat' constructor

/-- No operation of `hostOps3` allocates a buffer. -/
theorem hostOps3_fresh : (hostOps3 : List (HloOp τ sig (Elt F))).Forall fun op => op.fresh = ∅ := by
  simp only [List.Forall]; repeat' constructor

/-- No operation of `hostOps5` allocates a buffer. -/
theorem hostOps5_fresh : (hostOps5 : List (HloOp τ sig (Elt F))).Forall fun op => op.fresh = ∅ := by
  simp only [List.Forall]; repeat' constructor

/-- No operation of `hostOps6` allocates a buffer. -/
theorem hostOps6_fresh : (hostOps6 : List (HloOp τ sig (Elt F))).Forall fun op => op.fresh = ∅ := by
  simp only [List.Forall]; repeat' constructor

/-- No operation of `hostOps8` allocates a buffer. -/
theorem hostOps8_fresh : (hostOps8 : List (HloOp τ sig (Elt F))).Forall fun op => op.fresh = ∅ := by
  simp only [List.Forall]; repeat' constructor

/-- No operation of `hostOps9` allocates a buffer. -/
theorem hostOps9_fresh : (hostOps9 : List (HloOp τ sig (Elt F))).Forall fun op => op.fresh = ∅ := by
  simp only [List.Forall]; repeat' constructor

/-- No operation of `hostOps11` allocates a buffer. -/
theorem hostOps11_fresh : (hostOps11 : List (HloOp τ sig (Elt F))).Forall fun op => op.fresh = ∅ := by
  simp only [List.Forall]; repeat' constructor

/-- No operation of `hostOps12` allocates a buffer. -/
theorem hostOps12_fresh : (hostOps12 : List (HloOp τ sig (Elt F))).Forall fun op => op.fresh = ∅ := by
  simp only [List.Forall]; repeat' constructor

/-- No operation of `hostOps13` allocates a buffer. -/
theorem hostOps13_fresh : (hostOps13 : List (HloOp τ sig (Elt F))).Forall fun op => op.fresh = ∅ := by
  simp only [List.Forall]; repeat' constructor

/-- No operation of `hostOps14` allocates a buffer. -/
theorem hostOps14_fresh : (hostOps14 : List (HloOp τ sig (Elt F))).Forall fun op => op.fresh = ∅ := by
  simp only [List.Forall]; repeat' constructor

/-! ## The proof data family and the thread state -/

/-- The prefetched tables' admissible contents: no pipeline has a table. -/
abbrev adm : (p : Fin 15) → (pcfgs (F := F) p).Adm := fun p => (cfgs p).toPCfg_adm
/-- Every pipeline's proof data, each at its region's entry contents: a literal `match`, so that the pinned
    configuration at a numeral reduces to the printed one. -/
def pdats : (p : Fin 15) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V4 m ρ) c
  | ⟨3, _⟩ => fun c => dat3 (V6 m ρ) c
  | ⟨4, _⟩ => fun c => dat4 (V7 m ρ) c
  | ⟨5, _⟩ => fun c => dat5 (V9 m ρ) c
  | ⟨6, _⟩ => fun c => dat6 (V11 m ρ) c
  | ⟨7, _⟩ => fun c => dat7 (V12 m ρ) c
  | ⟨8, _⟩ => fun c => dat8 (V14 m ρ) c
  | ⟨9, _⟩ => fun c => dat9 (V16 m ρ) c
  | ⟨10, _⟩ => fun c => dat10 (V17 m ρ) c
  | ⟨11, _⟩ => fun c => dat11 (V19 m ρ) c
  | ⟨12, _⟩ => fun c => dat12 (V21 m ρ) c
  | ⟨13, _⟩ => fun c => dat13 (V23 m ρ) c
  | ⟨14, _⟩ => fun c => dat14 (V25 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`,
    at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: its `post` is
    those references at `StableHlo.after ops (W c)`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W26`, the generator
    register at some state. -/
abbrev Tₙ (c : Dev nD) : sProp 𝕄 := iprop(StableHlo.held (c : Thread nD τ) (Pipeline.ucRefs τ sig) (W26 m ρ c) ∗ ∃ r, prngReg c r)

end Cert.Kernel.Hand

end
-- ==== Proof.KReg0.lean ====
/- The run of @main: region 0 as a segment of the run, between the boundaries it is entered from and left at. -/
import proofs.«403491_j395136991532_1_alg».proof.Proof.Gen.Kernel.Launch
import proofs.«403491_j395136991532_1_alg».proof.Proof.Gen.Kernel.Skeleton
import proofs.«403491_j395136991532_1_alg».proof.Proof.Gen.Kernel.Points
import proofs.«403491_j395136991532_1_alg».proof.Proof.KFold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- the 97-operation host stretch's list and the membership facts over the production extents recurse past the default depth
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Region 0 of @main as a segment -/

-- a library lemma stated over the pinned configuration unifies with the printed one only when unification may unfold
-- plain definitions in a metavariable's type
set_option backward.isDefEq.respectTransparency.types false in
/-- REGION 0 over the thread state: entered from every unscoped buffer at `W1`, left at `W2`. Its arrays are split out
    of the unscoped buffers at entry and put back at the exit contents; the generator register goes into the region's
    invariant and comes back out of it; nothing is owed; the kernel has no semaphore of its own. -/
def reg0 : Pipeline.RegionSeg (pcfgs (F := F)) adm (pdats m ρ) () defs₀ 𝒱₀ L lv (0 : Fin 15) where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv (0 : Fin 15) fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := (0 : Fin 15)) (pcfgs (F := F)) adm (pdats m ρ) launch0.win launch0.arr_whole c
      ((pdats m ρ (0 : Fin 15) c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (PhiIn0 (V1 m ρ) c)
    unfold Pipeline.ΦA
    iintro ⟨Hp, -, Hr⟩
    isplitl [Hr]; · iexact Hr
    iexact Hp
  hout c := by
    rw [Pipeline.ownSems0_none]
    refine BIBase.Entails.trans (PhiOut0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := (0 : Fin 15)) (pcfgs (F := F)) adm (Ix := Unit) (Name := ℕ) (U := UR sig nD τ) (Lvl := ℕ)
      launch0.win launch0.arr_whole c (pdats m ρ) ((pdats m ρ (0 : Fin 15) c).share_full fun _ => rfl)
      (V1 m ρ c) (V2 m ρ c) ((pdats m ρ (0 : Fin 15) c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KReg1.lean ====
/- The run of @main: region 1 as a segment of the run, between the boundaries it is entered from and left at. -/
import proofs.«403491_j395136991532_1_alg».proof.Proof.Gen.Kernel.Launch
import proofs.«403491_j395136991532_1_alg».proof.Proof.Gen.Kernel.Skeleton
import proofs.«403491_j395136991532_1_alg».proof.Proof.Gen.Kernel.Points
import proofs.«403491_j395136991532_1_alg».proof.Proof.KFold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- the 97-operation host stretch's list and the membership facts over the production extents recurse past the default depth
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Region 1 of @main as a segment -/

-- a library lemma stated over the pinned configuration unifies with the printed one only when unification may unfold
-- plain definitions in a metavariable's type
set_option backward.isDefEq.respectTransparency.types false in
/-- REGION 1 over the thread state: entered from every unscoped buffer at `W2`, left at `W3`. Its arrays are split out
    of the unscoped buffers at entry and put back at the exit contents; the generator register goes into the region's
    invariant and comes back out of it; nothing is owed; the kernel has no semaphore of its own. -/
def reg1 : Pipeline.RegionSeg (pcfgs (F := F)) adm (pdats m ρ) () defs₀ 𝒱₀ L lv (1 : Fin 15) where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv (1 : Fin 15) fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := (1 : Fin 15)) (pcfgs (F := F)) adm (pdats m ρ) launch1.win launch1.arr_whole c
      ((pdats m ρ (1 : Fin 15) c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (PhiIn1 (V2 m ρ) c)
    unfold Pipeline.ΦA
    iintro ⟨Hp, -, Hr⟩
    isplitl [Hr]; · iexact Hr
    iexact Hp
  hout c := by
    rw [Pipeline.ownSems0_none]
    refine BIBase.Entails.trans (PhiOut1 (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := (1 : Fin 15)) (pcfgs (F := F)) adm (Ix := Unit) (Name := ℕ) (U := UR sig nD τ) (Lvl := ℕ)
      launch1.win launch1.arr_whole c (pdats m ρ) ((pdats m ρ (1 : Fin 15) c).share_full fun _ => rfl)
      (V2 m ρ c) (V3 m ρ c) ((pdats m ρ (1 : Fin 15) c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KReg2.lean ====
/- The run of @main: region 2 as a segment of the run, between the boundaries it is entered from and left at. -/
import proofs.«403491_j395136991532_1_alg».proof.Proof.Gen.Kernel.Launch
import proofs.«403491_j395136991532_1_alg».proof.Proof.Gen.Kernel.Skeleton
import proofs.«403491_j395136991532_1_alg».proof.Proof.Gen.Kernel.Points
import proofs.«403491_j395136991532_1_alg».proof.Proof.KFold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- the 97-operation host stretch's list and the membership facts over the production extents recurse past the default depth
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Region 2 of @main as a segment -/

-- a library lemma stated over the pinned configuration unifies with the printed one only when unification may unfold
-- plain definitions in a metavariable's type
set_option backward.isDefEq.respectTransparency.types false in
/-- REGION 2 over the thread state: entered from every unscoped buffer at `W4`, left at `W5`. Its arrays are split out
    of the unscoped buffers at entry and put back at the exit contents; the generator register goes into the region's
    invariant and comes back out of it; nothing is owed; the kernel has no semaphore of its own. -/
def reg2 : Pipeline.RegionSeg (pcfgs (F := F)) adm (pdats m ρ) () defs₀ 𝒱₀ L lv (2 : Fin 15) where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv (2 : Fin 15) fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := (2 : Fin 15)) (pcfgs (F := F)) adm (pdats m ρ) launch2.win launch2.arr_whole c
      ((pdats m ρ (2 : Fin 15) c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (PhiIn2 (V4 m ρ) c)
    unfold Pipeline.ΦA
    iintro ⟨Hp, -, Hr⟩
    isplitl [Hr]; · iexact Hr
    iexact Hp
  hout c := by
    rw [Pipeline.ownSems0_none]
    refine BIBase.Entails.trans (PhiOut2 (V4 m ρ) c) ?_
    unfold Pipeline.ΦA
    iintro ⟨Hr, Hp⟩
    isplitl [Hp]; · iexact Hp
    isplitr; · iempintro
    iexact Hr
  hexit c := by
    have hjoin := Pipeline.unscopedBufs_of_arrays (p := (2 : Fin 15)) (pcfgs (F := F)) adm (Ix := Unit) (Name := ℕ) (U := UR sig nD τ) (Lvl := ℕ)
      launch2.win launch2.arr_whole c (pdats m ρ) ((pdats m ρ (2 : Fin 15) c).share_full fun _ => rfl)
      (V4 m ρ c) (V5 m ρ c) ((pdats m ρ (2 : Fin 15) c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KReg3.lean ====
/- The run of @main: region 3 as a segment of the run, between the boundaries it is entered from and left at. -/
import proofs.«403491_j395136991532_1_alg».proof.Proof.Gen.Kernel.Launch
import proofs.«403491_j395136991532_1_alg».proof.Proof.Gen.Kernel.Skeleton
import proofs.«403491_j395136991532_1_alg».proof.Proof.Gen.Kernel.Points
import proofs.«403491_j395136991532_1_alg».proof.Proof.KFold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- the 97-operation host stretch's list and the membership facts over the production extents recurse past the default depth
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Region 3 of @main as a segment -/

-- a library lemma stated over the pinned configuration unifies with the printed one only when unification may unfold
-- plain definitions in a metavariable's type
set_option backward.isDefEq.respectTransparency.types false in
/-- REGION 3 over the thread state: entered from every unscoped buffer at `W6`, left at `W7`. Its arrays are split out
    of the unscoped buffers at entry and put back at the exit contents; the generator register goes into the region's
    invariant and comes back out of it; nothing is owed; the kernel has no semaphore of its own. -/
def reg3 : Pipeline.RegionSeg (pcfgs (F := F)) adm (pdats m ρ) () defs₀ 𝒱₀ L lv (3 : Fin 15) where
  win := launch3.win.to₀
  block_pos := launch3.block_pos
  stage_whole := launch3.stage_whole
  K := PEmpty
  osem k := k.elim
  ho := Pipeline.OwnSemFacts.none _
  hbody c := (body_obligation3 (V6 m ρ) c).loose
  hwaits := Pipeline.hwaits_of_owed_zero _ _ _ _ L lv (3 : Fin 15) fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec3 c (V6 m ρ c)
  hentry c := by
    rw [Pipeline.ownSems0_none]
    have hsplit := Pipeline.arrays_of_unscopedBufs (p := (3 : Fin 15)) (pcfgs (F := F)) adm (pdats m ρ) launch3.win launch3.arr_whole c
      ((pdats m ρ (3 : Fin 15) c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (PhiIn3 (V6 m ρ) c)
    unfold Pipeline.ΦA
    iintro ⟨Hp, -, Hr⟩
    isplitl [Hr]; · iexact Hr
    iexact Hp
  hout c := by
    rw [Pipeline.ownSems0_none]
    refine BIBase.Entails.trans (PhiOut3 (V6 m ρ) c) ?_
    unfold Pipeline.ΦA
    iintro ⟨Hr, Hp⟩
    isplitl [Hp]; · iexact Hp
    isplitr; · iempintro
    iexact Hr
  hexit c := by
    have hjoin := Pipeline.unscopedBufs_of_arrays (p := (3 : Fin 15)) (pcfgs (F := F)) adm (Ix := Unit) (Name := ℕ) (U := UR sig nD τ) (Lvl := ℕ)
      launch3.win launch3.arr_whole c (pdats m ρ) ((pdats m ρ (3 : Fin 15) c).share_full fun _ => rfl)
      (V6 m ρ c) (V7 m ρ c) ((pdats m ρ (3 : Fin 15) c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KReg4.lean ====
/- The run of @main: region 4 as a segment of the run, between the boundaries it is entered from and left at. -/
import proofs.«403491_j395136991532_1_alg».proof.Proof.Gen.Kernel.Launch
import proofs.«403491_j395136991532_1_alg».proof.Proof.Gen.Kernel.Skeleton
import proofs.«403491_j395136991532_1_alg».proof.Proof.Gen.Kernel.Points
import proofs.«403491_j395136991532_1_alg».proof.Proof.KFold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- the 97-operation host stretch's list and the membership facts over the production extents recurse past the default depth
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Region 4 of @main as a segment -/

-- a library lemma stated over the pinned configuration unifies with the printed one only when unification may unfold
-- plain definitions in a metavariable's type
set_option backward.isDefEq.respectTransparency.types false in
/-- REGION 4 over the thread state: entered from every unscoped buffer at `W7`, left at `W8`. Its arrays are split out
    of the unscoped buffers at entry and put back at the exit contents; the generator register goes into the region's
    invariant and comes back out of it; nothing is owed; the kernel has no semaphore of its own. -/
def reg4 : Pipeline.RegionSeg (pcfgs (F := F)) adm (pdats m ρ) () defs₀ 𝒱₀ L lv (4 : Fin 15) where
  win := launch4.win.to₀
  block_pos := launch4.block_pos
  stage_whole := launch4.stage_whole
  K := PEmpty
  osem k := k.elim
  ho := Pipeline.OwnSemFacts.none _
  hbody c := (body_obligation4 (V7 m ρ) c).loose
  hwaits := Pipeline.hwaits_of_owed_zero _ _ _ _ L lv (4 : Fin 15) fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec4 c (V7 m ρ c)
  hentry c := by
    rw [Pipeline.ownSems0_none]
    have hsplit := Pipeline.arrays_of_unscopedBufs (p := (4 : Fin 15)) (pcfgs (F := F)) adm (pdats m ρ) launch4.win launch4.arr_whole c
      ((pdats m ρ (4 : Fin 15) c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (PhiIn4 (V7 m ρ) c)
    unfold Pipeline.ΦA
    iintro ⟨Hp, -, Hr⟩
    isplitl [Hr]; · iexact Hr
    iexact Hp
  hout c := by
    rw [Pipeline.ownSems0_none]
    refine BIBase.Entails.trans (PhiOut4 (V7 m ρ) c) ?_
    unfold Pipeline.ΦA
    iintro ⟨Hr, Hp⟩
    isplitl [Hp]; · iexact Hp
    isplitr; · iempintro
    iexact Hr
  hexit c := by
    have hjoin := Pipeline.unscopedBufs_of_arrays (p := (4 : Fin 15)) (pcfgs (F := F)) adm (Ix := Unit) (Name := ℕ) (U := UR sig nD τ) (Lvl := ℕ)
      launch4.win launch4.arr_whole c (pdats m ρ) ((pdats m ρ (4 : Fin 15) c).share_full fun _ => rfl)
      (V7 m ρ c) (V8 m ρ c) ((pdats m ρ (4 : Fin 15) c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KReg5.lean ====
/- The run of @main: region 5 as a segment of the run, between the boundaries it is entered from and left at. -/
import proofs.«403491_j395136991532_1_alg».proof.Proof.Gen.Kernel.Launch
import proofs.«403491_j395136991532_1_alg».proof.Proof.Gen.Kernel.Skeleton
import proofs.«403491_j395136991532_1_alg».proof.Proof.Gen.Kernel.Points
import proofs.«403491_j395136991532_1_alg».proof.Proof.KFold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- the 97-operation host stretch's list and the membership facts over the production extents recurse past the default depth
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Region 5 of @main as a segment -/

-- a library lemma stated over the pinned configuration unifies with the printed one only when unification may unfold
-- plain definitions in a metavariable's type
set_option backward.isDefEq.respectTransparency.types false in
/-- REGION 5 over the thread state: entered from every unscoped buffer at `W9`, left at `W10`. Its arrays are split out
    of the unscoped buffers at entry and put back at the exit contents; the generator register goes into the region's
    invariant and comes back out of it; nothing is owed; the kernel has no semaphore of its own. -/
def reg5 : Pipeline.RegionSeg (pcfgs (F := F)) adm (pdats m ρ) () defs₀ 𝒱₀ L lv (5 : Fin 15) where
  win := launch5.win.to₀
  block_pos := launch5.block_pos
  stage_whole := launch5.stage_whole
  K := PEmpty
  osem k := k.elim
  ho := Pipeline.OwnSemFacts.none _
  hbody c := (body_obligation5 (V9 m ρ) c).loose
  hwaits := Pipeline.hwaits_of_owed_zero _ _ _ _ L lv (5 : Fin 15) fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec5 c (V9 m ρ c)
  hentry c := by
    rw [Pipeline.ownSems0_none]
    have hsplit := Pipeline.arrays_of_unscopedBufs (p := (5 : Fin 15)) (pcfgs (F := F)) adm (pdats m ρ) launch5.win launch5.arr_whole c
      ((pdats m ρ (5 : Fin 15) c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (PhiIn5 (V9 m ρ) c)
    unfold Pipeline.ΦA
    iintro ⟨Hp, -, Hr⟩
    isplitl [Hr]; · iexact Hr
    iexact Hp
  hout c := by
    rw [Pipeline.ownSems0_none]
    refine BIBase.Entails.trans (PhiOut5 (V9 m ρ) c) ?_
    unfold Pipeline.ΦA
    iintro ⟨Hr, Hp⟩
    isplitl [Hp]; · iexact Hp
    isplitr; · iempintro
    iexact Hr
  hexit c := by
    have hjoin := Pipeline.unscopedBufs_of_arrays (p := (5 : Fin 15)) (pcfgs (F := F)) adm (Ix := Unit) (Name := ℕ) (U := UR sig nD τ) (Lvl := ℕ)
      launch5.win launch5.arr_whole c (pdats m ρ) ((pdats m ρ (5 : Fin 15) c).share_full fun _ => rfl)
      (V9 m ρ c) (V10 m ρ c) ((pdats m ρ (5 : Fin 15) c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KReg6.lean ====
/- The run of @main: region 6 as a segment of the run, between the boundaries it is entered from and left at. -/
import proofs.«403491_j395136991532_1_alg».proof.Proof.Gen.Kernel.Launch
import proofs.«403491_j395136991532_1_alg».proof.Proof.Gen.Kernel.Skeleton
import proofs.«403491_j395136991532_1_alg».proof.Proof.Gen.Kernel.Points
import proofs.«403491_j395136991532_1_alg».proof.Proof.KFold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- the 97-operation host stretch's list and the membership facts over the production extents recurse past the default depth
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Region 6 of @main as a segment -/

-- a library lemma stated over the pinned configuration unifies with the printed one only when unification may unfold
-- plain definitions in a metavariable's type
set_option backward.isDefEq.respectTransparency.types false in
/-- REGION 6 over the thread state: entered from every unscoped buffer at `W11`, left at `W12`. Its arrays are split out
    of the unscoped buffers at entry and put back at the exit contents; the generator register goes into the region's
    invariant and comes back out of it; nothing is owed; the kernel has no semaphore of its own. -/
def reg6 : Pipeline.RegionSeg (pcfgs (F := F)) adm (pdats m ρ) () defs₀ 𝒱₀ L lv (6 : Fin 15) where
  win := launch6.win.to₀
  block_pos := launch6.block_pos
  stage_whole := launch6.stage_whole
  K := PEmpty
  osem k := k.elim
  ho := Pipeline.OwnSemFacts.none _
  hbody c := (body_obligation6 (V11 m ρ) c).loose
  hwaits := Pipeline.hwaits_of_owed_zero _ _ _ _ L lv (6 : Fin 15) fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec6 c (V11 m ρ c)
  hentry c := by
    rw [Pipeline.ownSems0_none]
    have hsplit := Pipeline.arrays_of_unscopedBufs (p := (6 : Fin 15)) (pcfgs (F := F)) adm (pdats m ρ) launch6.win launch6.arr_whole c
      ((pdats m ρ (6 : Fin 15) c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (PhiIn6 (V11 m ρ) c)
    unfold Pipeline.ΦA
    iintro ⟨Hp, -, Hr⟩
    isplitl [Hr]; · iexact Hr
    iexact Hp
  hout c := by
    rw [Pipeline.ownSems0_none]
    refine BIBase.Entails.trans (PhiOut6 (V11 m ρ) c) ?_
    unfold Pipeline.ΦA
    iintro ⟨Hr, Hp⟩
    isplitl [Hp]; · iexact Hp
    isplitr; · iempintro
    iexact Hr
  hexit c := by
    have hjoin := Pipeline.unscopedBufs_of_arrays (p := (6 : Fin 15)) (pcfgs (F := F)) adm (Ix := Unit) (Name := ℕ) (U := UR sig nD τ) (Lvl := ℕ)
      launch6.win launch6.arr_whole c (pdats m ρ) ((pdats m ρ (6 : Fin 15) c).share_full fun _ => rfl)
      (V11 m ρ c) (V12 m ρ c) ((pdats m ρ (6 : Fin 15) c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KReg7.lean ====
/- The run of @main: region 7 as a segment of the run, between the boundaries it is entered from and left at. -/
import proofs.«403491_j395136991532_1_alg».proof.Proof.Gen.Kernel.Launch
import proofs.«403491_j395136991532_1_alg».proof.Proof.Gen.Kernel.Skeleton
import proofs.«403491_j395136991532_1_alg».proof.Proof.Gen.Kernel.Points
import proofs.«403491_j395136991532_1_alg».proof.Proof.KFold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- the 97-operation host stretch's list and the membership facts over the production extents recurse past the default depth
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Region 7 of @main as a segment -/

-- a library lemma stated over the pinned configuration unifies with the printed one only when unification may unfold
-- plain definitions in a metavariable's type
set_option backward.isDefEq.respectTransparency.types false in
/-- REGION 7 over the thread state: entered from every unscoped buffer at `W12`, left at `W13`. Its arrays are split out
    of the unscoped buffers at entry and put back at the exit contents; the generator register goes into the region's
    invariant and comes back out of it; nothing is owed; the kernel has no semaphore of its own. -/
def reg7 : Pipeline.RegionSeg (pcfgs (F := F)) adm (pdats m ρ) () defs₀ 𝒱₀ L lv (7 : Fin 15) where
  win := launch7.win.to₀
  block_pos := launch7.block_pos
  stage_whole := launch7.stage_whole
  K := PEmpty
  osem k := k.elim
  ho := Pipeline.OwnSemFacts.none _
  hbody c := (body_obligation7 (V12 m ρ) c).loose
  hwaits := Pipeline.hwaits_of_owed_zero _ _ _ _ L lv (7 : Fin 15) fun _ _ => rfl
  pre c := iprop(StableHlo.held (c : Thread nD τ) (Pipeline.ucRefs τ sig) (W12 m ρ c) ∗ R c)
  post c := iprop(StableHlo.held (c : Thread nD τ) (Pipeline.ucRefs τ sig) (W13 m ρ c) ∗ R c)
  X c := iprop(∃ r, prngReg c r)
  Y c := iprop(∃ r, prngReg c r)
  Z c := Pipeline.unscopedRest (Ix := Unit) (Name := ℕ) (U := UR sig nD τ) (Lvl := ℕ) spec7 c (V12 m ρ c)
  hentry c := by
    rw [Pipeline.ownSems0_none]
    have hsplit := Pipeline.arrays_of_unscopedBufs (p := (7 : Fin 15)) (pcfgs (F := F)) adm (pdats m ρ) launch7.win launch7.arr_whole c
      ((pdats m ρ (7 : Fin 15) c).share_full fun _ => rfl) (V12 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (PhiIn7 (V12 m ρ) c)
    unfold Pipeline.ΦA
    iintro ⟨Hp, -, Hr⟩
    isplitl [Hr]; · iexact Hr
    iexact Hp
  hout c := by
    rw [Pipeline.ownSems0_none]
    refine BIBase.Entails.trans (PhiOut7 (V12 m ρ) c) ?_
    unfold Pipeline.ΦA
    iintro ⟨Hr, Hp⟩
    isplitl [Hp]; · iexact Hp
    isplitr; · iempintro
    iexact Hr
  hexit c := by
    have hjoin := Pipeline.unscopedBufs_of_arrays (p := (7 : Fin 15)) (pcfgs (F := F)) adm (Ix := Unit) (Name := ℕ) (U := UR sig nD τ) (Lvl := ℕ)
      launch7.win launch7.arr_whole c (pdats m ρ) ((pdats m ρ (7 : Fin 15) c).share_full fun _ => rfl)
      (V12 m ρ c) (V13 m ρ c) ((pdats m ρ (7 : Fin 15) c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KReg8.lean ====
/- The run of @main: region 8 as a segment of the run, between the boundaries it is entered from and left at. -/
import proofs.«403491_j395136991532_1_alg».proof.Proof.Gen.Kernel.Launch
import proofs.«403491_j395136991532_1_alg».proof.Proof.Gen.Kernel.Skeleton
import proofs.«403491_j395136991532_1_alg».proof.Proof.Gen.Kernel.Points
import proofs.«403491_j395136991532_1_alg».proof.Proof.KFold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- the 97-operation host stretch's list and the membership facts over the production extents recurse past the default depth
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Region 8 of @main as a segment -/

-- a library lemma stated over the pinned configuration unifies with the printed one only when unification may unfold
-- plain definitions in a metavariable's type
set_option backward.isDefEq.respectTransparency.types false in
/-- REGION 8 over the thread state: entered from every unscoped buffer at `W14`, left at `W15`. Its arrays are split out
    of the unscoped buffers at entry and put back at the exit contents; the generator register goes into the region's
    invariant and comes back out of it; nothing is owed; the kernel has no semaphore of its own. -/
def reg8 : Pipeline.RegionSeg (pcfgs (F := F)) adm (pdats m ρ) () defs₀ 𝒱₀ L lv (8 : Fin 15) where
  win := launch8.win.to₀
  block_pos := launch8.block_pos
  stage_whole := launch8.stage_whole
  K := PEmpty
  osem k := k.elim
  ho := Pipeline.OwnSemFacts.none _
  hbody c := (body_obligation8 (V14 m ρ) c).loose
  hwaits := Pipeline.hwaits_of_owed_zero _ _ _ _ L lv (8 : Fin 15) fun _ _ => rfl
  pre c := iprop(StableHlo.held (c : Thread nD τ) (Pipeline.ucRefs τ sig) (W14 m ρ c) ∗ R c)
  post c := iprop(StableHlo.held (c : Thread nD τ) (Pipeline.ucRefs τ sig) (W15 m ρ c) ∗ R c)
  X c := iprop(∃ r, prngReg c r)
  Y c := iprop(∃ r, prngReg c r)
  Z c := Pipeline.unscopedRest (Ix := Unit) (Name := ℕ) (U := UR sig nD τ) (Lvl := ℕ) spec8 c (V14 m ρ c)
  hentry c := by
    rw [Pipeline.ownSems0_none]
    have hsplit := Pipeline.arrays_of_unscopedBufs (p := (8 : Fin 15)) (pcfgs (F := F)) adm (pdats m ρ) launch8.win launch8.arr_whole c
      ((pdats m ρ (8 : Fin 15) c).share_full fun _ => rfl) (V14 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (PhiIn8 (V14 m ρ) c)
    unfold Pipeline.ΦA
    iintro ⟨Hp, -, Hr⟩
    isplitl [Hr]; · iexact Hr
    iexact Hp
  hout c := by
    rw [Pipeline.ownSems0_none]
    refine BIBase.Entails.trans (PhiOut8 (V14 m ρ) c) ?_
    unfold Pipeline.ΦA
    iintro ⟨Hr, Hp⟩
    isplitl [Hp]; · iexact Hp
    isplitr; · iempintro
    iexact Hr
  hexit c := by
    have hjoin := Pipeline.unscopedBufs_of_arrays (p := (8 : Fin 15)) (pcfgs (F := F)) adm (Ix := Unit) (Name := ℕ) (U := UR sig nD τ) (Lvl := ℕ)
      launch8.win launch8.arr_whole c (pdats m ρ) ((pdats m ρ (8 : Fin 15) c).share_full fun _ => rfl)
      (V14 m ρ c) (V15 m ρ c) ((pdats m ρ (8 : Fin 15) c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KReg9.lean ====
/- The run of @main: region 9 as a segment of the run, between the boundaries it is entered from and left at. -/
import proofs.«403491_j395136991532_1_alg».proof.Proof.Gen.Kernel.Launch
import proofs.«403491_j395136991532_1_alg».proof.Proof.Gen.Kernel.Skeleton
import proofs.«403491_j395136991532_1_alg».proof.Proof.Gen.Kernel.Points
import proofs.«403491_j395136991532_1_alg».proof.Proof.KFold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- the 97-operation host stretch's list and the membership facts over the production extents recurse past the default depth
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Region 9 of @main as a segment -/

-- a library lemma stated over the pinned configuration unifies with the printed one only when unification may unfold
-- plain definitions in a metavariable's type
set_option backward.isDefEq.respectTransparency.types false in
/-- REGION 9 over the thread state: entered from every unscoped buffer at `W16`, left at `W17`. Its arrays are split out
    of the unscoped buffers at entry and put back at the exit contents; the generator register goes into the region's
    invariant and comes back out of it; nothing is owed; the kernel has no semaphore of its own. -/
def reg9 : Pipeline.RegionSeg (pcfgs (F := F)) adm (pdats m ρ) () defs₀ 𝒱₀ L lv (9 : Fin 15) where
  win := launch9.win.to₀
  block_pos := launch9.block_pos
  stage_whole := launch9.stage_whole
  K := PEmpty
  osem k := k.elim
  ho := Pipeline.OwnSemFacts.none _
  hbody c := (body_obligation9 (V16 m ρ) c).loose
  hwaits := Pipeline.hwaits_of_owed_zero _ _ _ _ L lv (9 : Fin 15) fun _ _ => rfl
  pre c := iprop(StableHlo.held (c : Thread nD τ) (Pipeline.ucRefs τ sig) (W16 m ρ c) ∗ R c)
  post c := iprop(StableHlo.held (c : Thread nD τ) (Pipeline.ucRefs τ sig) (W17 m ρ c) ∗ R c)
  X c := iprop(∃ r, prngReg c r)
  Y c := iprop(∃ r, prngReg c r)
  Z c := Pipeline.unscopedRest (Ix := Unit) (Name := ℕ) (U := UR sig nD τ) (Lvl := ℕ) spec9 c (V16 m ρ c)
  hentry c := by
    rw [Pipeline.ownSems0_none]
    have hsplit := Pipeline.arrays_of_unscopedBufs (p := (9 : Fin 15)) (pcfgs (F := F)) adm (pdats m ρ) launch9.win launch9.arr_whole c
      ((pdats m ρ (9 : Fin 15) c).share_full fun _ => rfl) (V16 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (PhiIn9 (V16 m ρ) c)
    unfold Pipeline.ΦA
    iintro ⟨Hp, -, Hr⟩
    isplitl [Hr]; · iexact Hr
    iexact Hp
  hout c := by
    rw [Pipeline.ownSems0_none]
    refine BIBase.Entails.trans (PhiOut9 (V16 m ρ) c) ?_
    unfold Pipeline.ΦA
    iintro ⟨Hr, Hp⟩
    isplitl [Hp]; · iexact Hp
    isplitr; · iempintro
    iexact Hr
  hexit c := by
    have hjoin := Pipeline.unscopedBufs_of_arrays (p := (9 : Fin 15)) (pcfgs (F := F)) adm (Ix := Unit) (Name := ℕ) (U := UR sig nD τ) (Lvl := ℕ)
      launch9.win launch9.arr_whole c (pdats m ρ) ((pdats m ρ (9 : Fin 15) c).share_full fun _ => rfl)
      (V16 m ρ c) (V17 m ρ c) ((pdats m ρ (9 : Fin 15) c).arrAt · cfg9.N) (hF9 m ρ c) (hrest9 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KReg10.lean ====
/- The run of @main: region 10 as a segment of the run, between the boundaries it is entered from and left at. -/
import proofs.«403491_j395136991532_1_alg».proof.Proof.Gen.Kernel.Launch
import proofs.«403491_j395136991532_1_alg».proof.Proof.Gen.Kernel.Skeleton
import proofs.«403491_j395136991532_1_alg».proof.Proof.Gen.Kernel.Points
import proofs.«403491_j395136991532_1_alg».proof.Proof.KFold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- the 97-operation host stretch's list and the membership facts over the production extents recurse past the default depth
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Region 10 of @main as a segment -/

-- a library lemma stated over the pinned configuration unifies with the printed one only when unification may unfold
-- plain definitions in a metavariable's type
set_option backward.isDefEq.respectTransparency.types false in
/-- REGION 10 over the thread state: entered from every unscoped buffer at `W17`, left at `W18`. Its arrays are split out
    of the unscoped buffers at entry and put back at the exit contents; the generator register goes into the region's
    invariant and comes back out of it; nothing is owed; the kernel has no semaphore of its own. -/
def reg10 : Pipeline.RegionSeg (pcfgs (F := F)) adm (pdats m ρ) () defs₀ 𝒱₀ L lv (10 : Fin 15) where
  win := launch10.win.to₀
  block_pos := launch10.block_pos
  stage_whole := launch10.stage_whole
  K := PEmpty
  osem k := k.elim
  ho := Pipeline.OwnSemFacts.none _
  hbody c := (body_obligation10 (V17 m ρ) c).loose
  hwaits := Pipeline.hwaits_of_owed_zero _ _ _ _ L lv (10 : Fin 15) fun _ _ => rfl
  pre c := iprop(StableHlo.held (c : Thread nD τ) (Pipeline.ucRefs τ sig) (W17 m ρ c) ∗ R c)
  post c := iprop(StableHlo.held (c : Thread nD τ) (Pipeline.ucRefs τ sig) (W18 m ρ c) ∗ R c)
  X c := iprop(∃ r, prngReg c r)
  Y c := iprop(∃ r, prngReg c r)
  Z c := Pipeline.unscopedRest (Ix := Unit) (Name := ℕ) (U := UR sig nD τ) (Lvl := ℕ) spec10 c (V17 m ρ c)
  hentry c := by
    rw [Pipeline.ownSems0_none]
    have hsplit := Pipeline.arrays_of_unscopedBufs (p := (10 : Fin 15)) (pcfgs (F := F)) adm (pdats m ρ) launch10.win launch10.arr_whole c
      ((pdats m ρ (10 : Fin 15) c).share_full fun _ => rfl) (V17 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (PhiIn10 (V17 m ρ) c)
    unfold Pipeline.ΦA
    iintro ⟨Hp, -, Hr⟩
    isplitl [Hr]; · iexact Hr
    iexact Hp
  hout c := by
    rw [Pipeline.ownSems0_none]
    refine BIBase.Entails.trans (PhiOut10 (V17 m ρ) c) ?_
    unfold Pipeline.ΦA
    iintro ⟨Hr, Hp⟩
    isplitl [Hp]; · iexact Hp
    isplitr; · iempintro
    iexact Hr
  hexit c := by
    have hjoin := Pipeline.unscopedBufs_of_arrays (p := (10 : Fin 15)) (pcfgs (F := F)) adm (Ix := Unit) (Name := ℕ) (U := UR sig nD τ) (Lvl := ℕ)
      launch10.win launch10.arr_whole c (pdats m ρ) ((pdats m ρ (10 : Fin 15) c).share_full fun _ => rfl)
      (V17 m ρ c) (V18 m ρ c) ((pdats m ρ (10 : Fin 15) c).arrAt · cfg10.N) (hF10 m ρ c) (hrest10 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KReg11.lean ====
/- The run of @main: region 11 as a segment of the run, between the boundaries it is entered from and left at. -/
import proofs.«403491_j395136991532_1_alg».proof.Proof.Gen.Kernel.Launch
import proofs.«403491_j395136991532_1_alg».proof.Proof.Gen.Kernel.Skeleton
import proofs.«403491_j395136991532_1_alg».proof.Proof.Gen.Kernel.Points
import proofs.«403491_j395136991532_1_alg».proof.Proof.KFold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- the 97-operation host stretch's list and the membership facts over the production extents recurse past the default depth
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Region 11 of @main as a segment -/

-- a library lemma stated over the pinned configuration unifies with the printed one only when unification may unfold
-- plain definitions in a metavariable's type
set_option backward.isDefEq.respectTransparency.types false in
/-- REGION 11 over the thread state: entered from every unscoped buffer at `W19`, left at `W20`. Its arrays are split out
    of the unscoped buffers at entry and put back at the exit contents; the generator register goes into the region's
    invariant and comes back out of it; nothing is owed; the kernel has no semaphore of its own. -/
def reg11 : Pipeline.RegionSeg (pcfgs (F := F)) adm (pdats m ρ) () defs₀ 𝒱₀ L lv (11 : Fin 15) where
  win := launch11.win.to₀
  block_pos := launch11.block_pos
  stage_whole := launch11.stage_whole
  K := PEmpty
  osem k := k.elim
  ho := Pipeline.OwnSemFacts.none _
  hbody c := (body_obligation11 (V19 m ρ) c).loose
  hwaits := Pipeline.hwaits_of_owed_zero _ _ _ _ L lv (11 : Fin 15) fun _ _ => rfl
  pre c := iprop(StableHlo.held (c : Thread nD τ) (Pipeline.ucRefs τ sig) (W19 m ρ c) ∗ R c)
  post c := iprop(StableHlo.held (c : Thread nD τ) (Pipeline.ucRefs τ sig) (W20 m ρ c) ∗ R c)
  X c := iprop(∃ r, prngReg c r)
  Y c := iprop(∃ r, prngReg c r)
  Z c := Pipeline.unscopedRest (Ix := Unit) (Name := ℕ) (U := UR sig nD τ) (Lvl := ℕ) spec11 c (V19 m ρ c)
  hentry c := by
    rw [Pipeline.ownSems0_none]
    have hsplit := Pipeline.arrays_of_unscopedBufs (p := (11 : Fin 15)) (pcfgs (F := F)) adm (pdats m ρ) launch11.win launch11.arr_whole c
      ((pdats m ρ (11 : Fin 15) c).share_full fun _ => rfl) (V19 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (PhiIn11 (V19 m ρ) c)
    unfold Pipeline.ΦA
    iintro ⟨Hp, -, Hr⟩
    isplitl [Hr]; · iexact Hr
    iexact Hp
  hout c := by
    rw [Pipeline.ownSems0_none]
    refine BIBase.Entails.trans (PhiOut11 (V19 m ρ) c) ?_
    unfold Pipeline.ΦA
    iintro ⟨Hr, Hp⟩
    isplitl [Hp]; · iexact Hp
    isplitr; · iempintro
    iexact Hr
  hexit c := by
    have hjoin := Pipeline.unscopedBufs_of_arrays (p := (11 : Fin 15)) (pcfgs (F := F)) adm (Ix := Unit) (Name := ℕ) (U := UR sig nD τ) (Lvl := ℕ)
      launch11.win launch11.arr_whole c (pdats m ρ) ((pdats m ρ (11 : Fin 15) c).share_full fun _ => rfl)
      (V19 m ρ c) (V20 m ρ c) ((pdats m ρ (11 : Fin 15) c).arrAt · cfg11.N) (hF11 m ρ c) (hrest11 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KReg12.lean ====
/- The run of @main: region 12 as a segment of the run, between the boundaries it is entered from and left at. -/
import proofs.«403491_j395136991532_1_alg».proof.Proof.Gen.Kernel.Launch
import proofs.«403491_j395136991532_1_alg».proof.Proof.Gen.Kernel.Skeleton
import proofs.«403491_j395136991532_1_alg».proof.Proof.Gen.Kernel.Points
import proofs.«403491_j395136991532_1_alg».proof.Proof.KFold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- the 97-operation host stretch's list and the membership facts over the production extents recurse past the default depth
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Region 12 of @main as a segment -/

-- a library lemma stated over the pinned configuration unifies with the printed one only when unification may unfold
-- plain definitions in a metavariable's type
set_option backward.isDefEq.respectTransparency.types false in
/-- REGION 12 over the thread state: entered from every unscoped buffer at `W21`, left at `W22`. Its arrays are split out
    of the unscoped buffers at entry and put back at the exit contents; the generator register goes into the region's
    invariant and comes back out of it; nothing is owed; the kernel has no semaphore of its own. -/
def reg12 : Pipeline.RegionSeg (pcfgs (F := F)) adm (pdats m ρ) () defs₀ 𝒱₀ L lv (12 : Fin 15) where
  win := launch12.win.to₀
  block_pos := launch12.block_pos
  stage_whole := launch12.stage_whole
  K := PEmpty
  osem k := k.elim
  ho := Pipeline.OwnSemFacts.none _
  hbody c := (body_obligation12 (V21 m ρ) c).loose
  hwaits := Pipeline.hwaits_of_owed_zero _ _ _ _ L lv (12 : Fin 15) fun _ _ => rfl
  pre c := iprop(StableHlo.held (c : Thread nD τ) (Pipeline.ucRefs τ sig) (W21 m ρ c) ∗ R c)
  post c := iprop(StableHlo.held (c : Thread nD τ) (Pipeline.ucRefs τ sig) (W22 m ρ c) ∗ R c)
  X c := iprop(∃ r, prngReg c r)
  Y c := iprop(∃ r, prngReg c r)
  Z c := Pipeline.unscopedRest (Ix := Unit) (Name := ℕ) (U := UR sig nD τ) (Lvl := ℕ) spec12 c (V21 m ρ c)
  hentry c := by
    rw [Pipeline.ownSems0_none]
    have hsplit := Pipeline.arrays_of_unscopedBufs (p := (12 : Fin 15)) (pcfgs (F := F)) adm (pdats m ρ) launch12.win launch12.arr_whole c
      ((pdats m ρ (12 : Fin 15) c).share_full fun _ => rfl) (V21 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (PhiIn12 (V21 m ρ) c)
    unfold Pipeline.ΦA
    iintro ⟨Hp, -, Hr⟩
    isplitl [Hr]; · iexact Hr
    iexact Hp
  hout c := by
    rw [Pipeline.ownSems0_none]
    refine BIBase.Entails.trans (PhiOut12 (V21 m ρ) c) ?_
    unfold Pipeline.ΦA
    iintro ⟨Hr, Hp⟩
    isplitl [Hp]; · iexact Hp
    isplitr; · iempintro
    iexact Hr
  hexit c := by
    have hjoin := Pipeline.unscopedBufs_of_arrays (p := (12 : Fin 15)) (pcfgs (F := F)) adm (Ix := Unit) (Name := ℕ) (U := UR sig nD τ) (Lvl := ℕ)
      launch12.win launch12.arr_whole c (pdats m ρ) ((pdats m ρ (12 : Fin 15) c).share_full fun _ => rfl)
      (V21 m ρ c) (V22 m ρ c) ((pdats m ρ (12 : Fin 15) c).arrAt · cfg12.N) (hF12 m ρ c) (hrest12 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KReg13.lean ====
/- The run of @main: region 13 as a segment of the run, between the boundaries it is entered from and left at. -/
import proofs.«403491_j395136991532_1_alg».proof.Proof.Gen.Kernel.Launch
import proofs.«403491_j395136991532_1_alg».proof.Proof.Gen.Kernel.Skeleton
import proofs.«403491_j395136991532_1_alg».proof.Proof.Gen.Kernel.Points
import proofs.«403491_j395136991532_1_alg».proof.Proof.KFold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- the 97-operation host stretch's list and the membership facts over the production extents recurse past the default depth
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Region 13 of @main as a segment -/

-- a library lemma stated over the pinned configuration unifies with the printed one only when unification may unfold
-- plain definitions in a metavariable's type
set_option backward.isDefEq.respectTransparency.types false in
/-- REGION 13 over the thread state: entered from every unscoped buffer at `W23`, left at `W24`. Its arrays are split out
    of the unscoped buffers at entry and put back at the exit contents; the generator register goes into the region's
    invariant and comes back out of it; nothing is owed; the kernel has no semaphore of its own. -/
def reg13 : Pipeline.RegionSeg (pcfgs (F := F)) adm (pdats m ρ) () defs₀ 𝒱₀ L lv (13 : Fin 15) where
  win := launch13.win.to₀
  block_pos := launch13.block_pos
  stage_whole := launch13.stage_whole
  K := PEmpty
  osem k := k.elim
  ho := Pipeline.OwnSemFacts.none _
  hbody c := (body_obligation13 (V23 m ρ) c).loose
  hwaits := Pipeline.hwaits_of_owed_zero _ _ _ _ L lv (13 : Fin 15) fun _ _ => rfl
  pre c := iprop(StableHlo.held (c : Thread nD τ) (Pipeline.ucRefs τ sig) (W23 m ρ c) ∗ R c)
  post c := iprop(StableHlo.held (c : Thread nD τ) (Pipeline.ucRefs τ sig) (W24 m ρ c) ∗ R c)
  X c := iprop(∃ r, prngReg c r)
  Y c := iprop(∃ r, prngReg c r)
  Z c := Pipeline.unscopedRest (Ix := Unit) (Name := ℕ) (U := UR sig nD τ) (Lvl := ℕ) spec13 c (V23 m ρ c)
  hentry c := by
    rw [Pipeline.ownSems0_none]
    have hsplit := Pipeline.arrays_of_unscopedBufs (p := (13 : Fin 15)) (pcfgs (F := F)) adm (pdats m ρ) launch13.win launch13.arr_whole c
      ((pdats m ρ (13 : Fin 15) c).share_full fun _ => rfl) (V23 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (PhiIn13 (V23 m ρ) c)
    unfold Pipeline.ΦA
    iintro ⟨Hp, -, Hr⟩
    isplitl [Hr]; · iexact Hr
    iexact Hp
  hout c := by
    rw [Pipeline.ownSems0_none]
    refine BIBase.Entails.trans (PhiOut13 (V23 m ρ) c) ?_
    unfold Pipeline.ΦA
    iintro ⟨Hr, Hp⟩
    isplitl [Hp]; · iexact Hp
    isplitr; · iempintro
    iexact Hr
  hexit c := by
    have hjoin := Pipeline.unscopedBufs_of_arrays (p := (13 : Fin 15)) (pcfgs (F := F)) adm (Ix := Unit) (Name := ℕ) (U := UR sig nD τ) (Lvl := ℕ)
      launch13.win launch13.arr_whole c (pdats m ρ) ((pdats m ρ (13 : Fin 15) c).share_full fun _ => rfl)
      (V23 m ρ c) (V24 m ρ c) ((pdats m ρ (13 : Fin 15) c).arrAt · cfg13.N) (hF13 m ρ c) (hrest13 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KReg14.lean ====
/- The run of @main: region 14 as a segment of the run, between the boundaries it is entered from and left at. -/
import proofs.«403491_j395136991532_1_alg».proof.Proof.Gen.Kernel.Launch
import proofs.«403491_j395136991532_1_alg».proof.Proof.Gen.Kernel.Skeleton
import proofs.«403491_j395136991532_1_alg».proof.Proof.Gen.Kernel.Points
import proofs.«403491_j395136991532_1_alg».proof.Proof.KFold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- the 97-operation host stretch's list and the membership facts over the production extents recurse past the default depth
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Region 14 of @main as a segment -/

-- a library lemma stated over the pinned configuration unifies with the printed one only when unification may unfold
-- plain definitions in a metavariable's type
set_option backward.isDefEq.respectTransparency.types false in
/-- REGION 14 over the thread state: entered from every unscoped buffer at `W25`, left at `W26`. Its arrays are split out
    of the unscoped buffers at entry and put back at the exit contents; the generator register goes into the region's
    invariant and comes back out of it; nothing is owed; the kernel has no semaphore of its own. -/
def reg14 : Pipeline.RegionSeg (pcfgs (F := F)) adm (pdats m ρ) () defs₀ 𝒱₀ L lv (14 : Fin 15) where
  win := launch14.win.to₀
  block_pos := launch14.block_pos
  stage_whole := launch14.stage_whole
  K := PEmpty
  osem k := k.elim
  ho := Pipeline.OwnSemFacts.none _
  hbody c := (body_obligation14 (V25 m ρ) c).loose
  hwaits := Pipeline.hwaits_of_owed_zero _ _ _ _ L lv (14 : Fin 15) fun _ _ => rfl
  pre c := iprop(StableHlo.held (c : Thread nD τ) (Pipeline.ucRefs τ sig) (W25 m ρ c) ∗ R c)
  post c := iprop(StableHlo.held (c : Thread nD τ) (Pipeline.ucRefs τ sig) (W26 m ρ c) ∗ R c)
  X c := iprop(∃ r, prngReg c r)
  Y c := iprop(∃ r, prngReg c r)
  Z c := Pipeline.unscopedRest (Ix := Unit) (Name := ℕ) (U := UR sig nD τ) (Lvl := ℕ) spec14 c (V25 m ρ c)
  hentry c := by
    rw [Pipeline.ownSems0_none]
    have hsplit := Pipeline.arrays_of_unscopedBufs (p := (14 : Fin 15)) (pcfgs (F := F)) adm (pdats m ρ) launch14.win launch14.arr_whole c
      ((pdats m ρ (14 : Fin 15) c).share_full fun _ => rfl) (V25 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (PhiIn14 (V25 m ρ) c)
    unfold Pipeline.ΦA
    iintro ⟨Hp, -, Hr⟩
    isplitl [Hr]; · iexact Hr
    iexact Hp
  hout c := by
    rw [Pipeline.ownSems0_none]
    refine BIBase.Entails.trans (PhiOut14 (V25 m ρ) c) ?_
    unfold Pipeline.ΦA
    iintro ⟨Hr, Hp⟩
    isplitl [Hp]; · iexact Hp
    isplitr; · iempintro
    iexact Hr
  hexit c := by
    have hjoin := Pipeline.unscopedBufs_of_arrays (p := (14 : Fin 15)) (pcfgs (F := F)) adm (Ix := Unit) (Name := ℕ) (U := UR sig nD τ) (Lvl := ℕ)
      launch14.win launch14.arr_whole c (pdats m ρ) ((pdats m ρ (14 : Fin 15) c).share_full fun _ => rfl)
      (V25 m ρ c) (V26 m ρ c) ((pdats m ρ (14 : Fin 15) c).arrAt · cfg14.N) (hF14 m ρ c) (hrest14 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KArgs.lean ====
/- The run of @main: the 32 argument arrays hold at the last boundary what they held at launch. -/
import proofs.«403491_j395136991532_1_alg».proof.Proof.Gen.Kernel.Launch
import proofs.«403491_j395136991532_1_alg».proof.Proof.Gen.Kernel.Skeleton
import proofs.«403491_j395136991532_1_alg».proof.Proof.Gen.Kernel.Points
import proofs.«403491_j395136991532_1_alg».proof.Proof.KFold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- the 97-operation host stretch's list and the membership facts over the production extents recurse past the default depth
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The arguments end as launched

No host operation writes an argument array and no region stages one through a window, so the fold read at an
argument's buffer walks back, boundary by boundary, to the launch memory. The 32 arguments are taken together, as
the members of one list of references. -/

/-- @main's 32 argument arrays. -/
abbrev argRefs : List (Ref sig .tc) :=
  [main_arg0, main_arg1, main_arg2, main_arg3, main_arg4, main_arg5, main_arg6, main_arg7, main_arg8, main_arg9, main_arg10,
   main_arg11, main_arg12, main_arg13, main_arg14, main_arg15, main_arg16, main_arg17, main_arg18, main_arg19, main_arg20,
   main_arg21, main_arg22, main_arg23, main_arg24, main_arg25, main_arg26, main_arg27, main_arg28, main_arg29, main_arg30,
   main_arg31]

/-! ## No window of any region has an argument for its array -/

theorem arr0_ne (b : Ref sig .tc) (hb : b ∈ argRefs) : ∀ w, Pipeline.arrRef spec0 w ≠ b :=
  fun w e => (by decide : ∀ w, Pipeline.arrRef spec0 w ∉ argRefs) w (e ▸ hb)
theorem arr1_ne (b : Ref sig .tc) (hb : b ∈ argRefs) : ∀ w, Pipeline.arrRef spec1 w ≠ b :=
  fun w e => (by decide : ∀ w, Pipeline.arrRef spec1 w ∉ argRefs) w (e ▸ hb)
theorem arr2_ne (b : Ref sig .tc) (hb : b ∈ argRefs) : ∀ w, Pipeline.arrRef spec2 w ≠ b :=
  fun w e => (by decide : ∀ w, Pipeline.arrRef spec2 w ∉ argRefs) w (e ▸ hb)
theorem arr3_ne (b : Ref sig .tc) (hb : b ∈ argRefs) : ∀ w, Pipeline.arrRef spec3 w ≠ b :=
  fun w e => (by decide : ∀ w, Pipeline.arrRef spec3 w ∉ argRefs) w (e ▸ hb)
theorem arr4_ne (b : Ref sig .tc) (hb : b ∈ argRefs) : ∀ w, Pipeline.arrRef spec4 w ≠ b :=
  fun w e => (by decide : ∀ w, Pipeline.arrRef spec4 w ∉ argRefs) w (e ▸ hb)
theorem arr5_ne (b : Ref sig .tc) (hb : b ∈ argRefs) : ∀ w, Pipeline.arrRef spec5 w ≠ b :=
  fun w e => (by decide : ∀ w, Pipeline.arrRef spec5 w ∉ argRefs) w (e ▸ hb)
theorem arr6_ne (b : Ref sig .tc) (hb : b ∈ argRefs) : ∀ w, Pipeline.arrRef spec6 w ≠ b :=
  fun w e => (by decide : ∀ w, Pipeline.arrRef spec6 w ∉ argRefs) w (e ▸ hb)
theorem arr7_ne (b : Ref sig .tc) (hb : b ∈ argRefs) : ∀ w, Pipeline.arrRef spec7 w ≠ b :=
  fun w e => (by decide : ∀ w, Pipeline.arrRef spec7 w ∉ argRefs) w (e ▸ hb)
theorem arr8_ne (b : Ref sig .tc) (hb : b ∈ argRefs) : ∀ w, Pipeline.arrRef spec8 w ≠ b :=
  fun w e => (by decide : ∀ w, Pipeline.arrRef spec8 w ∉ argRefs) w (e ▸ hb)
theorem arr9_ne (b : Ref sig .tc) (hb : b ∈ argRefs) : ∀ w, Pipeline.arrRef spec9 w ≠ b :=
  fun w e => (by decide : ∀ w, Pipeline.arrRef spec9 w ∉ argRefs) w (e ▸ hb)
theorem arr10_ne (b : Ref sig .tc) (hb : b ∈ argRefs) : ∀ w, Pipeline.arrRef spec10 w ≠ b :=
  fun w e => (by decide : ∀ w, Pipeline.arrRef spec10 w ∉ argRefs) w (e ▸ hb)
theorem arr11_ne (b : Ref sig .tc) (hb : b ∈ argRefs) : ∀ w, Pipeline.arrRef spec11 w ≠ b :=
  fun w e => (by decide : ∀ w, Pipeline.arrRef spec11 w ∉ argRefs) w (e ▸ hb)
theorem arr12_ne (b : Ref sig .tc) (hb : b ∈ argRefs) : ∀ w, Pipeline.arrRef spec12 w ≠ b :=
  fun w e => (by decide : ∀ w, Pipeline.arrRef spec12 w ∉ argRefs) w (e ▸ hb)
theorem arr13_ne (b : Ref sig .tc) (hb : b ∈ argRefs) : ∀ w, Pipeline.arrRef spec13 w ≠ b :=
  fun w e => (by decide : ∀ w, Pipeline.arrRef spec13 w ∉ argRefs) w (e ▸ hb)
theorem arr14_ne (b : Ref sig .tc) (hb : b ∈ argRefs) : ∀ w, Pipeline.arrRef spec14 w ≠ b :=
  fun w e => (by decide : ∀ w, Pipeline.arrRef spec14 w ∉ argRefs) w (e ▸ hb)

/-! ## No host operation writes an argument: each stretch's operations write one buffer each, none of them an argument -/

set_option maxHeartbeats 4000000 in
theorem hostOps0_keeps (b : Ref sig .tc) (hb : b ∈ argRefs) :
    ∀ op ∈ (hostOps0 : List (HloOp τ sig (Elt F))), (Proc.devRef .tc b : DevRef τ sig) ∉ op.writes :=
  List.forall_iff_forall_mem.mp (by
    simp only [hostOps0, List.flatten_cons, List.flatten_nil, List.append_nil, List.cons_append, List.nil_append, List.Forall,
      StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (ne_of_mem_of_not_mem hb (by decide)))

set_option maxHeartbeats 1000000 in
theorem hostOps2_keeps (b : Ref sig .tc) (hb : b ∈ argRefs) :
    ∀ op ∈ (hostOps2 : List (HloOp τ sig (Elt F))), (Proc.devRef .tc b : DevRef τ sig) ∉ op.writes :=
  List.forall_iff_forall_mem.mp (by
    simp only [hostOps2, List.flatten_cons, List.flatten_nil, List.append_nil, List.cons_append, List.nil_append, List.Forall,
      StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (ne_of_mem_of_not_mem hb (by decide)))

set_option maxHeartbeats 1000000 in
theorem hostOps3_keeps (b : Ref sig .tc) (hb : b ∈ argRefs) :
    ∀ op ∈ (hostOps3 : List (HloOp τ sig (Elt F))), (Proc.devRef .tc b : DevRef τ sig) ∉ op.writes :=
  List.forall_iff_forall_mem.mp (by
    simp only [hostOps3, List.flatten_cons, List.flatten_nil, List.append_nil, List.cons_append, List.nil_append, List.Forall,
      StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (ne_of_mem_of_not_mem hb (by decide)))

set_option maxHeartbeats 1000000 in
theorem hostOps5_keeps (b : Ref sig .tc) (hb : b ∈ argRefs) :
    ∀ op ∈ (hostOps5 : List (HloOp τ sig (Elt F))), (Proc.devRef .tc b : DevRef τ sig) ∉ op.writes :=
  List.forall_iff_forall_mem.mp (by
    simp only [hostOps5, List.flatten_cons, List.flatten_nil, List.append_nil, List.cons_append, List.nil_append, List.Forall,
      StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (ne_of_mem_of_not_mem hb (by decide)))

set_option maxHeartbeats 1000000 in
theorem hostOps6_keeps (b : Ref sig .tc) (hb : b ∈ argRefs) :
    ∀ op ∈ (hostOps6 : List (HloOp τ sig (Elt F))), (Proc.devRef .tc b : DevRef τ sig) ∉ op.writes :=
  List.forall_iff_forall_mem.mp (by
    simp only [hostOps6, List.flatten_cons, List.flatten_nil, List.append_nil, List.cons_append, List.nil_append, List.Forall,
      StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (ne_of_mem_of_not_mem hb (by decide)))

set_option maxHeartbeats 1000000 in
theorem hostOps8_keeps (b : Ref sig .tc) (hb : b ∈ argRefs) :
    ∀ op ∈ (hostOps8 : List (HloOp τ sig (Elt F))), (Proc.devRef .tc b : DevRef τ sig) ∉ op.writes :=
  List.forall_iff_forall_mem.mp (by
    simp only [hostOps8, List.flatten_cons, List.flatten_nil, List.append_nil, List.cons_append, List.nil_append, List.Forall,
      StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (ne_of_mem_of_not_mem hb (by decide)))

set_option maxHeartbeats 1000000 in
theorem hostOps9_keeps (b : Ref sig .tc) (hb : b ∈ argRefs) :
    ∀ op ∈ (hostOps9 : List (HloOp τ sig (Elt F))), (Proc.devRef .tc b : DevRef τ sig) ∉ op.writes :=
  List.forall_iff_forall_mem.mp (by
    simp only [hostOps9, List.flatten_cons, List.flatten_nil, List.append_nil, List.cons_append, List.nil_append, List.Forall,
      StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (ne_of_mem_of_not_mem hb (by decide)))

set_option maxHeartbeats 1000000 in
theorem hostOps11_keeps (b : Ref sig .tc) (hb : b ∈ argRefs) :
    ∀ op ∈ (hostOps11 : List (HloOp τ sig (Elt F))), (Proc.devRef .tc b : DevRef τ sig) ∉ op.writes :=
  List.forall_iff_forall_mem.mp (by
    simp only [hostOps11, List.flatten_cons, List.flatten_nil, List.append_nil, List.cons_append, List.nil_append, List.Forall,
      StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (ne_of_mem_of_not_mem hb (by decide)))

set_option maxHeartbeats 1000000 in
theorem hostOps12_keeps (b : Ref sig .tc) (hb : b ∈ argRefs) :
    ∀ op ∈ (hostOps12 : List (HloOp τ sig (Elt F))), (Proc.devRef .tc b : DevRef τ sig) ∉ op.writes :=
  List.forall_iff_forall_mem.mp (by
    simp only [hostOps12, List.flatten_cons, List.flatten_nil, List.append_nil, List.cons_append, List.nil_append, List.Forall,
      StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (ne_of_mem_of_not_mem hb (by decide)))

set_option maxHeartbeats 1000000 in
theorem hostOps13_keeps (b : Ref sig .tc) (hb : b ∈ argRefs) :
    ∀ op ∈ (hostOps13 : List (HloOp τ sig (Elt F))), (Proc.devRef .tc b : DevRef τ sig) ∉ op.writes :=
  List.forall_iff_forall_mem.mp (by
    simp only [hostOps13, List.flatten_cons, List.flatten_nil, List.append_nil, List.cons_append, List.nil_append, List.Forall,
      StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (ne_of_mem_of_not_mem hb (by decide)))

set_option maxHeartbeats 1000000 in
theorem hostOps14_keeps (b : Ref sig .tc) (hb : b ∈ argRefs) :
    ∀ op ∈ (hostOps14 : List (HloOp τ sig (Elt F))), (Proc.devRef .tc b : DevRef τ sig) ∉ op.writes :=
  List.forall_iff_forall_mem.mp (by
    simp only [hostOps14, List.flatten_cons, List.flatten_nil, List.append_nil, List.cons_append, List.nil_append, List.Forall,
      StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (ne_of_mem_of_not_mem hb (by decide)))

/-- At the last boundary an argument's buffer holds what it held at launch. -/
theorem W26_arg (c : Dev nD) (b : Ref sig .tc) (hb : b ∈ argRefs) :
    W26 m ρ c (Proc.devRef .tc b) = m ((c : Thread nD τ).loc b) :=
  calc W26 m ρ c (Proc.devRef .tc b)
    _ = W25 m ρ c (Proc.devRef .tc b) := W26_of_ne m ρ c b (arr14_ne b hb)
    _ = W24 m ρ c (Proc.devRef .tc b) := StableHlo.after_of_forall_not_mem _ _ (hostOps14_keeps b hb)
    _ = W23 m ρ c (Proc.devRef .tc b) := W24_of_ne m ρ c b (arr13_ne b hb)
    _ = W22 m ρ c (Proc.devRef .tc b) := StableHlo.after_of_forall_not_mem _ _ (hostOps13_keeps b hb)
    _ = W21 m ρ c (Proc.devRef .tc b) := W22_of_ne m ρ c b (arr12_ne b hb)
    _ = W20 m ρ c (Proc.devRef .tc b) := StableHlo.after_of_forall_not_mem _ _ (hostOps12_keeps b hb)
    _ = W19 m ρ c (Proc.devRef .tc b) := W20_of_ne m ρ c b (arr11_ne b hb)
    _ = W18 m ρ c (Proc.devRef .tc b) := StableHlo.after_of_forall_not_mem _ _ (hostOps11_keeps b hb)
    _ = W17 m ρ c (Proc.devRef .tc b) := W18_of_ne m ρ c b (arr10_ne b hb)
    _ = W16 m ρ c (Proc.devRef .tc b) := W17_of_ne m ρ c b (arr9_ne b hb)
    _ = W15 m ρ c (Proc.devRef .tc b) := StableHlo.after_of_forall_not_mem _ _ (hostOps9_keeps b hb)
    _ = W14 m ρ c (Proc.devRef .tc b) := W15_of_ne m ρ c b (arr8_ne b hb)
    _ = W13 m ρ c (Proc.devRef .tc b) := StableHlo.after_of_forall_not_mem _ _ (hostOps8_keeps b hb)
    _ = W12 m ρ c (Proc.devRef .tc b) := W13_of_ne m ρ c b (arr7_ne b hb)
    _ = W11 m ρ c (Proc.devRef .tc b) := W12_of_ne m ρ c b (arr6_ne b hb)
    _ = W10 m ρ c (Proc.devRef .tc b) := StableHlo.after_of_forall_not_mem _ _ (hostOps6_keeps b hb)
    _ = W9 m ρ c (Proc.devRef .tc b) := W10_of_ne m ρ c b (arr5_ne b hb)
    _ = W8 m ρ c (Proc.devRef .tc b) := StableHlo.after_of_forall_not_mem _ _ (hostOps5_keeps b hb)
    _ = W7 m ρ c (Proc.devRef .tc b) := W8_of_ne m ρ c b (arr4_ne b hb)
    _ = W6 m ρ c (Proc.devRef .tc b) := W7_of_ne m ρ c b (arr3_ne b hb)
    _ = W5 m ρ c (Proc.devRef .tc b) := StableHlo.after_of_forall_not_mem _ _ (hostOps3_keeps b hb)
    _ = W4 m ρ c (Proc.devRef .tc b) := W5_of_ne m ρ c b (arr2_ne b hb)
    _ = W3 m ρ c (Proc.devRef .tc b) := StableHlo.after_of_forall_not_mem _ _ (hostOps2_keeps b hb)
    _ = W2 m ρ c (Proc.devRef .tc b) := W3_of_ne m ρ c b (arr1_ne b hb)
    _ = W1 m ρ c (Proc.devRef .tc b) := W2_of_ne m ρ c b (arr0_ne b hb)
    _ = W0 m ρ c (Proc.devRef .tc b) := StableHlo.after_of_forall_not_mem _ _ (hostOps0_keeps b hb)
    _ = m ((c : Thread nD τ).loc b) := rfl

end Cert.Kernel.Hand

end
-- ==== Proof.KRun.lean ====
/- The run of @main: its 26 segments in order, @main as their run, the launch over them, and the frame read off the run. -/
import proofs.«403491_j395136991532_1_alg».proof.Proof.Gen.Kernel.Launch
import proofs.«403491_j395136991532_1_alg».proof.Proof.Gen.Kernel.Skeleton
import proofs.«403491_j395136991532_1_alg».proof.Proof.Gen.Kernel.Points
import proofs.«403491_j395136991532_1_alg».proof.Proof.KReg0
import proofs.«403491_j395136991532_1_alg».proof.Proof.KReg1
import proofs.«403491_j395136991532_1_alg».proof.Proof.KReg2
import proofs.«403491_j395136991532_1_alg».proof.Proof.KReg3
import proofs.«403491_j395136991532_1_alg».proof.Proof.KReg4
import proofs.«403491_j395136991532_1_alg».proof.Proof.KReg5
import proofs.«403491_j395136991532_1_alg».proof.Proof.KReg6
import proofs.«403491_j395136991532_1_alg».proof.Proof.KReg7
import proofs.«403491_j395136991532_1_alg».proof.Proof.KReg8
import proofs.«403491_j395136991532_1_alg».proof.Proof.KReg9
import proofs.«403491_j395136991532_1_alg».proof.Proof.KReg10
import proofs.«403491_j395136991532_1_alg».proof.Proof.KReg11
import proofs.«403491_j395136991532_1_alg».proof.Proof.KReg12
import proofs.«403491_j395136991532_1_alg».proof.Proof.KReg13
import proofs.«403491_j395136991532_1_alg».proof.Proof.KReg14
import proofs.«403491_j395136991532_1_alg».proof.Proof.KArgs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- the 97-operation host stretch's list and the membership facts over the production extents recurse past the default depth
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # @main as segments, and the launch -/

/-- @main's 26 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)),
    .region (reg2 m ρ),
    .host (hseg hostOps3 hostOps3_sub hostOps3_fresh (W5 m ρ)),
    .region (reg3 m ρ),
    .region (reg4 m ρ),
    .host (hseg hostOps5 hostOps5_sub hostOps5_fresh (W8 m ρ)),
    .region (reg5 m ρ),
    .host (hseg hostOps6 hostOps6_sub hostOps6_fresh (W10 m ρ)),
    .region (reg6 m ρ),
    .region (reg7 m ρ),
    .host (hseg hostOps8 hostOps8_sub hostOps8_fresh (W13 m ρ)),
    .region (reg8 m ρ),
    .host (hseg hostOps9 hostOps9_sub hostOps9_fresh (W15 m ρ)),
    .region (reg9 m ρ),
    .region (reg10 m ρ),
    .host (hseg hostOps11 hostOps11_sub hostOps11_fresh (W18 m ρ)),
    .region (reg11 m ρ),
    .host (hseg hostOps12 hostOps12_sub hostOps12_fresh (W20 m ρ)),
    .region (reg12 m ρ),
    .host (hseg hostOps13 hostOps13_sub hostOps13_fresh (W22 m ρ)),
    .region (reg13 m ρ),
    .host (hseg hostOps14 hostOps14_sub hostOps14_fresh (W24 m ρ)),
    .region (reg14 m ρ) ]

/-- @main IS the run of the segments: its chain of items, then the segments' run against that chain by the kernel's
    definitional check. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- THE RUN: at the compiled mesh, from any memory with zero counters, every weakly fair execution of @main on the
    TensorCores terminates, nothing faulting, and in every final state each unscoped buffer of each core holds the last
    boundary's contents `W26`: the launch over the 26 segments, the last thread state read against the final state. Both
    the frame and the value of the result are read off it. -/
theorem run_main : θ_run defs (onTc (τ := τ) (main (F := F))) ⟨m, fun _ => 0, ρ⟩
    (fun r => ∀ c : Dev nD, ∀ b ∈ Pipeline.ucRefs τ sig, r.2.mem ((c : Thread nD τ).1, b) = W26 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl,
      fun _ => .rfl, fun _ => .rfl, fun _ => .rfl, fun _ => .rfl, fun _ => .rfl,
      fun c => by
        -- the last region leaves the buffers beside the register and the `owes`; the chain ends at the buffers and the
        -- register BESIDE the `owes`: the same three, bracketed the other way
        show iprop(StableHlo.held (c : Thread nD τ) (Pipeline.ucRefs τ sig) (W26 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W26 m ρ c b)
    (hfin := fun c s' => by
      iintro ⟨⟨Hh, -⟩, HSI⟩
      unfold StableHlo.held
      imodintro
      iapply (pointsTo_read_all (Pipeline.ucRefs τ sig) (fun b => (((c : Thread nD τ)).1, b)) (W26 m ρ c) s')
      isplitl [Hh] <;> iassumption)
    (hQ := fun s h => h)

/-- An argument array in a final state of the run: the last boundary's contents there, which are the launch's. -/
theorem arg_kept {r : PUnit × MemSt nD τ sig (Elt F)}
    (h : ∀ c : Dev nD, ∀ b ∈ Pipeline.ucRefs τ sig, r.2.mem ((c : Thread nD τ).1, b) = W26 m ρ c b)
    (c : Dev nD) (b : Ref sig .tc) (hb : b ∈ argRefs) (hs : ¬ (Proc.devRef .tc b : DevRef τ sig).isScoped) :
    r.2.mem ((c.tc : Thread nD τ).loc b) = m ((c.tc : Thread nD τ).loc b) :=
  (h c _ (mem_uc b hs)).trans (W26_arg m ρ c b hb)

/-- THE FRAME, at any `F`: every weakly fair execution of @main terminates, nothing faulting, and every final state has
    each of the 32 argument arrays as launched: the run, each argument read off its post. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)) :=
  (θ_run defs _ _).mono (fun r h c =>
    ⟨arg_kept m ρ h c main_arg0 (by decide) (by decide),
     arg_kept m ρ h c main_arg1 (by decide) (by decide),
     arg_kept m ρ h c main_arg2 (by decide) (by decide),
     arg_kept m ρ h c main_arg3 (by decide) (by decide),
     arg_kept m ρ h c main_arg4 (by decide) (by decide),
     arg_kept m ρ h c main_arg5 (by decide) (by decide),
     arg_kept m ρ h c main_arg6 (by decide) (by decide),
     arg_kept m ρ h c main_arg7 (by decide) (by decide),
     arg_kept m ρ h c main_arg8 (by decide) (by decide),
     arg_kept m ρ h c main_arg9 (by decide) (by decide),
     arg_kept m ρ h c main_arg10 (by decide) (by decide),
     arg_kept m ρ h c main_arg11 (by decide) (by decide),
     arg_kept m ρ h c main_arg12 (by decide) (by decide),
     arg_kept m ρ h c main_arg13 (by decide) (by decide),
     arg_kept m ρ h c main_arg14 (by decide) (by decide),
     arg_kept m ρ h c main_arg15 (by decide) (by decide),
     arg_kept m ρ h c main_arg16 (by decide) (by decide),
     arg_kept m ρ h c main_arg17 (by decide) (by decide),
     arg_kept m ρ h c main_arg18 (by decide) (by decide),
     arg_kept m ρ h c main_arg19 (by decide) (by decide),
     arg_kept m ρ h c main_arg20 (by decide) (by decide),
     arg_kept m ρ h c main_arg21 (by decide) (by decide),
     arg_kept m ρ h c main_arg22 (by decide) (by decide),
     arg_kept m ρ h c main_arg23 (by decide) (by decide),
     arg_kept m ρ h c main_arg24 (by decide) (by decide),
     arg_kept m ρ h c main_arg25 (by decide) (by decide),
     arg_kept m ρ h c main_arg26 (by decide) (by decide),
     arg_kept m ρ h c main_arg27 (by decide) (by decide),
     arg_kept m ρ h c main_arg28 (by decide) (by decide),
     arg_kept m ρ h c main_arg29 (by decide) (by decide),
     arg_kept m ρ h c main_arg30 (by decide) (by decide),
     arg_kept m ρ h c main_arg31 (by decide) (by decide)⟩)
    (run_main m ρ)

end Cert.Kernel.Hand

end
-- ==== Proof.KiRegKeep.lean ====
/-
  A region of the kernel program leaves every buffer but its output array as it found it: an input window's array ends
  as entered (nothing is written back to it), and a buffer that is no window's array is not the region's at all.
-/
import proofs.«403491_j395136991532_1_alg».proof.Proof.KiFold
set_option maxRecDepth 16384

noncomputable section

namespace Cert.KernelIdeal.Hand

open Idealize.ShloMosaic Idealize.ShloMosaic.TcCoe Idealize.SL.Sem
open Idealize.ShloMosaic.Pipeline (Dat)
open Cert.KernelIdeal.Gen

variable {F : FTy → Type} [FloatOps F]
variable (m : (ℓ : Loc nD τ sig) → Buf (Elt F) ℓ) (ρ : Dev nD → PrngReg)

/-- Region 0 leaves every buffer but its output array. -/
theorem keep_reg0 (c : Dev nD) (b : Ref sig .tc) (hb : b ≠ main_v86) :
    W2 m ρ c (Proc.devRef .tc b) = W1 m ρ c (Proc.devRef .tc b) := by
  by_cases h : ∃ w, Pipeline.arrRef spec0 w = b
  · obtain ⟨w, rfl⟩ := h
    have hin : (cfg0.win w).isOut = false :=
      (by decide : ∀ w : Fin cfg0.W, Pipeline.arrRef spec0 w ≠ main_v86 → (cfg0.win w).isOut = false) w hb
    rw [W2_arr, (dat0 (V1 m ρ) c).arrAt_in w hin, A_eq0]
  · exact W2_of_ne m ρ c b fun w e => h ⟨w, e⟩

/-- Region 1 leaves every buffer but its output array. -/
theorem keep_reg1 (c : Dev nD) (b : Ref sig .tc) (hb : b ≠ main_v87) :
    W3 m ρ c (Proc.devRef .tc b) = W2 m ρ c (Proc.devRef .tc b) := by
  by_cases h : ∃ w, Pipeline.arrRef spec1 w = b
  · obtain ⟨w, rfl⟩ := h
    have hin : (cfg1.win w).isOut = false :=
      (by decide : ∀ w : Fin cfg1.W, Pipeline.arrRef spec1 w ≠ main_v87 → (cfg1.win w).isOut = false) w hb
    rw [W3_arr, (dat1 (V2 m ρ) c).arrAt_in w hin, A_eq1]
  · exact W3_of_ne m ρ c b fun w e => h ⟨w, e⟩

/-- Region 2 leaves every buffer but its output array. -/
theorem keep_reg2 (c : Dev nD) (b : Ref sig .tc) (hb : b ≠ main_v111) :
    W5 m ρ c (Proc.devRef .tc b) = W4 m ρ c (Proc.devRef .tc b) := by
  by_cases h : ∃ w, Pipeline.arrRef spec2 w = b
  · obtain ⟨w, rfl⟩ := h
    have hin : (cfg2.win w).isOut = false :=
      (by decide : ∀ w : Fin cfg2.W, Pipeline.arrRef spec2 w ≠ main_v111 → (cfg2.win w).isOut = false) w hb
    rw [W5_arr, (dat2 (V4 m ρ) c).arrAt_in w hin, A_eq2]
  · exact W5_of_ne m ρ c b fun w e => h ⟨w, e⟩

/-- Region 3 leaves every buffer but its output array. -/
theorem keep_reg3 (c : Dev nD) (b : Ref sig .tc) (hb : b ≠ main_v155) :
    W7 m ρ c (Proc.devRef .tc b) = W6 m ρ c (Proc.devRef .tc b) := by
  by_cases h : ∃ w, Pipeline.arrRef spec3 w = b
  · obtain ⟨w, rfl⟩ := h
    have hin : (cfg3.win w).isOut = false :=
      (by decide : ∀ w : Fin cfg3.W, Pipeline.arrRef spec3 w ≠ main_v155 → (cfg3.win w).isOut = false) w hb
    rw [W7_arr, (dat3 (V6 m ρ) c).arrAt_in w hin, A_eq3]
  · exact W7_of_ne m ρ c b fun w e => h ⟨w, e⟩

/-- Region 4 leaves every buffer but its output array. -/
theorem keep_reg4 (c : Dev nD) (b : Ref sig .tc) (hb : b ≠ main_v156) :
    W8 m ρ c (Proc.devRef .tc b) = W7 m ρ c (Proc.devRef .tc b) := by
  by_cases h : ∃ w, Pipeline.arrRef spec4 w = b
  · obtain ⟨w, rfl⟩ := h
    have hin : (cfg4.win w).isOut = false :=
      (by decide : ∀ w : Fin cfg4.W, Pipeline.arrRef spec4 w ≠ main_v156 → (cfg4.win w).isOut = false) w hb
    rw [W8_arr, (dat4 (V7 m ρ) c).arrAt_in w hin, A_eq4]
  · exact W8_of_ne m ρ c b fun w e => h ⟨w, e⟩

/-- Region 5 leaves every buffer but its output array. -/
theorem keep_reg5 (c : Dev nD) (b : Ref sig .tc) (hb : b ≠ main_v180) :
    W10 m ρ c (Proc.devRef .tc b) = W9 m ρ c (Proc.devRef .tc b) := by
  by_cases h : ∃ w, Pipeline.arrRef spec5 w = b
  · obtain ⟨w, rfl⟩ := h
    have hin : (cfg5.win w).isOut = false :=
      (by decide : ∀ w : Fin cfg5.W, Pipeline.arrRef spec5 w ≠ main_v180 → (cfg5.win w).isOut = false) w hb
    rw [W10_arr, (dat5 (V9 m ρ) c).arrAt_in w hin, A_eq5]
  · exact W10_of_ne m ρ c b fun w e => h ⟨w, e⟩

/-- Region 6 leaves every buffer but its output array. -/
theorem keep_reg6 (c : Dev nD) (b : Ref sig .tc) (hb : b ≠ main_v224) :
    W12 m ρ c (Proc.devRef .tc b) = W11 m ρ c (Proc.devRef .tc b) := by
  by_cases h : ∃ w, Pipeline.arrRef spec6 w = b
  · obtain ⟨w, rfl⟩ := h
    have hin : (cfg6.win w).isOut = false :=
      (by decide : ∀ w : Fin cfg6.W, Pipeline.arrRef spec6 w ≠ main_v224 → (cfg6.win w).isOut = false) w hb
    rw [W12_arr, (dat6 (V11 m ρ) c).arrAt_in w hin, A_eq6]
  · exact W12_of_ne m ρ c b fun w e => h ⟨w, e⟩

/-- Region 7 leaves every buffer but its output array. -/
theorem keep_reg7 (c : Dev nD) (b : Ref sig .tc) (hb : b ≠ main_v225) :
    W13 m ρ c (Proc.devRef .tc b) = W12 m ρ c (Proc.devRef .tc b) := by
  by_cases h : ∃ w, Pipeline.arrRef spec7 w = b
  · obtain ⟨w, rfl⟩ := h
    have hin : (cfg7.win w).isOut = false :=
      (by decide : ∀ w : Fin cfg7.W, Pipeline.arrRef spec7 w ≠ main_v225 → (cfg7.win w).isOut = false) w hb
    rw [W13_arr, (dat7 (V12 m ρ) c).arrAt_in w hin, A_eq7]
  · exact W13_of_ne m ρ c b fun w e => h ⟨w, e⟩

/-- Region 8 leaves every buffer but its output array. -/
theorem keep_reg8 (c : Dev nD) (b : Ref sig .tc) (hb : b ≠ main_v249) :
    W15 m ρ c (Proc.devRef .tc b) = W14 m ρ c (Proc.devRef .tc b) := by
  by_cases h : ∃ w, Pipeline.arrRef spec8 w = b
  · obtain ⟨w, rfl⟩ := h
    have hin : (cfg8.win w).isOut = false :=
      (by decide : ∀ w : Fin cfg8.W, Pipeline.arrRef spec8 w ≠ main_v249 → (cfg8.win w).isOut = false) w hb
    rw [W15_arr, (dat8 (V14 m ρ) c).arrAt_in w hin, A_eq8]
  · exact W15_of_ne m ρ c b fun w e => h ⟨w, e⟩

/-- Region 9 leaves every buffer but its output array. -/
theorem keep_reg9 (c : Dev nD) (b : Ref sig .tc) (hb : b ≠ main_v293) :
    W17 m ρ c (Proc.devRef .tc b) = W16 m ρ c (Proc.devRef .tc b) := by
  by_cases h : ∃ w, Pipeline.arrRef spec9 w = b
  · obtain ⟨w, rfl⟩ := h
    have hin : (cfg9.win w).isOut = false :=
      (by decide : ∀ w : Fin cfg9.W, Pipeline.arrRef spec9 w ≠ main_v293 → (cfg9.win w).isOut = false) w hb
    rw [W17_arr, (dat9 (V16 m ρ) c).arrAt_in w hin, A_eq9]
  · exact W17_of_ne m ρ c b fun w e => h ⟨w, e⟩

/-- Region 10 leaves every buffer but its output array. -/
theorem keep_reg10 (c : Dev nD) (b : Ref sig .tc) (hb : b ≠ main_v294) :
    W18 m ρ c (Proc.devRef .tc b) = W17 m ρ c (Proc.devRef .tc b) := by
  by_cases h : ∃ w, Pipeline.arrRef spec10 w = b
  · obtain ⟨w, rfl⟩ := h
    have hin : (cfg10.win w).isOut = false :=
      (by decide : ∀ w : Fin cfg10.W, Pipeline.arrRef spec10 w ≠ main_v294 → (cfg10.win w).isOut = false) w hb
    rw [W18_arr, (dat10 (V17 m ρ) c).arrAt_in w hin, A_eq10]
  · exact W18_of_ne m ρ c b fun w e => h ⟨w, e⟩

/-- Region 11 leaves every buffer but its output array. -/
theorem keep_reg11 (c : Dev nD) (b : Ref sig .tc) (hb : b ≠ main_v318) :
    W20 m ρ c (Proc.devRef .tc b) = W19 m ρ c (Proc.devRef .tc b) := by
  by_cases h : ∃ w, Pipeline.arrRef spec11 w = b
  · obtain ⟨w, rfl⟩ := h
    have hin : (cfg11.win w).isOut = false :=
      (by decide : ∀ w : Fin cfg11.W, Pipeline.arrRef spec11 w ≠ main_v318 → (cfg11.win w).isOut = false) w hb
    rw [W20_arr, (dat11 (V19 m ρ) c).arrAt_in w hin, A_eq11]
  · exact W20_of_ne m ρ c b fun w e => h ⟨w, e⟩

/-- Region 12 leaves every buffer but its output array. -/
theorem keep_reg12 (c : Dev nD) (b : Ref sig .tc) (hb : b ≠ main_v362) :
    W22 m ρ c (Proc.devRef .tc b) = W21 m ρ c (Proc.devRef .tc b) := by
  by_cases h : ∃ w, Pipeline.arrRef spec12 w = b
  · obtain ⟨w, rfl⟩ := h
    have hin : (cfg12.win w).isOut = false :=
      (by decide : ∀ w : Fin cfg12.W, Pipeline.arrRef spec12 w ≠ main_v362 → (cfg12.win w).isOut = false) w hb
    rw [W22_arr, (dat12 (V21 m ρ) c).arrAt_in w hin, A_eq12]
  · exact W22_of_ne m ρ c b fun w e => h ⟨w, e⟩

/-- Region 13 leaves every buffer but its output array. -/
theorem keep_reg13 (c : Dev nD) (b : Ref sig .tc) (hb : b ≠ main_v367) :
    W24 m ρ c (Proc.devRef .tc b) = W23 m ρ c (Proc.devRef .tc b) := by
  by_cases h : ∃ w, Pipeline.arrRef spec13 w = b
  · obtain ⟨w, rfl⟩ := h
    have hin : (cfg13.win w).isOut = false :=
      (by decide : ∀ w : Fin cfg13.W, Pipeline.arrRef spec13 w ≠ main_v367 → (cfg13.win w).isOut = false) w hb
    rw [W24_arr, (dat13 (V23 m ρ) c).arrAt_in w hin, A_eq13]
  · exact W24_of_ne m ρ c b fun w e => h ⟨w, e⟩

/-- Region 14 leaves every buffer but its output array. -/
theorem keep_reg14 (c : Dev nD) (b : Ref sig .tc) (hb : b ≠ main_v369) :
    W26 m ρ c (Proc.devRef .tc b) = W25 m ρ c (Proc.devRef .tc b) := by
  by_cases h : ∃ w, Pipeline.arrRef spec14 w = b
  · obtain ⟨w, rfl⟩ := h
    have hin : (cfg14.win w).isOut = false :=
      (by decide : ∀ w : Fin cfg14.W, Pipeline.arrRef spec14 w ≠ main_v369 → (cfg14.win w).isOut = false) w hb
    rw [W26_arr, (dat14 (V25 m ρ) c).arrAt_in w hin, A_eq14]
  · exact W26_of_ne m ρ c b fun w e => h ⟨w, e⟩

end Cert.KernelIdeal.Hand
-- ==== Proof.SharedHost.lean ====
/-
  The host-side pieces that the kernel program and the reference program compute by the SAME operations, as
  functions of values (no program is imported): the embedding lookup, the virtual node's broadcast to the nodes,
  the edge aggregation (a gather of the source rows followed by a scatter-add at the destination rows), the
  per-graph pooling sum and the per-graph node counts. Each is the composition of the operations the two
  programs print for it, so that either side's buffer is one of these by unfolding.

  Then the pieces only the kernel program computes on the host: the folded batch-norm scale g / sqrt (v + 1e-5)
  and shift b - m * scale, the weights' change of format, and the per-layer rows and matrices cut out of the
  stacked parameters.

  Shapes: N = 50000 nodes, E = 600000 edges, G = 256 graphs, D = 128 features, 2D = 256, five layers, ten classes.
-/
import Idealize.ShloMosaic.PureOps

noncomputable section

namespace Cert.Spec

open Idealize.ShloMosaic

/-! ## Shapes -/

abbrev s0 : Shape := ⟨0, ![]⟩
abbrev s1 : Shape := ⟨1, ![1]⟩
abbrev s5 : Shape := ⟨1, ![5]⟩
abbrev s10 : Shape := ⟨1, ![10]⟩
abbrev s1x1 : Shape := ⟨2, ![1, 1]⟩
abbrev s1x10 : Shape := ⟨2, ![1, 10]⟩
abbrev sD : Shape := ⟨1, ![128]⟩
abbrev sD2 : Shape := ⟨1, ![256]⟩
abbrev s1xD : Shape := ⟨2, ![1, 128]⟩
abbrev s1xD2 : Shape := ⟨2, ![1, 256]⟩
abbrev s5xD : Shape := ⟨2, ![5, 128]⟩
abbrev s5xD2 : Shape := ⟨2, ![5, 256]⟩
abbrev sDxD2 : Shape := ⟨2, ![128, 256]⟩
abbrev sD2xD : Shape := ⟨2, ![256, 128]⟩
abbrev s1xDxD2 : Shape := ⟨3, ![1, 128, 256]⟩
abbrev s1xD2xD : Shape := ⟨3, ![1, 256, 128]⟩
abbrev s5xDxD2 : Shape := ⟨3, ![5, 128, 256]⟩
abbrev s5xD2xD : Shape := ⟨3, ![5, 256, 128]⟩
abbrev sDx10 : Shape := ⟨2, ![128, 10]⟩
abbrev sN : Shape := ⟨1, ![50000]⟩
abbrev sNx1 : Shape := ⟨2, ![50000, 1]⟩
abbrev sNxD : Shape := ⟨2, ![50000, 128]⟩
abbrev sG : Shape := ⟨1, ![256]⟩
abbrev sGx1 : Shape := ⟨2, ![256, 1]⟩
abbrev sGxD : Shape := ⟨2, ![256, 128]⟩
abbrev s2xE : Shape := ⟨2, ![2, 600000]⟩
abbrev s1xE : Shape := ⟨2, ![1, 600000]⟩
abbrev sE : Shape := ⟨1, ![600000]⟩
abbrev sEx1 : Shape := ⟨2, ![600000, 1]⟩
abbrev sExD : Shape := ⟨2, ![600000, 128]⟩

/-! ## The dimension numbers of the gathers and scatters -/

/-- Rows of the one-row embedding table, one per node. -/
def gEmbed : GatherDims s1xD sNx1 sNxD where
  offsetDims := [1]
  collapsedSliceDims := [0]
  operandBatchingDims := []
  startIndicesBatchingDims := []
  startIndexMap := [0]
  indexVectorDim := 1
  sliceSizes := ![1, 128]
/-- Rows of a per-graph table, one per node. -/
def gGraph : GatherDims sGxD sNx1 sNxD where
  offsetDims := [1]
  collapsedSliceDims := [0]
  operandBatchingDims := []
  startIndicesBatchingDims := []
  startIndexMap := [0]
  indexVectorDim := 1
  sliceSizes := ![1, 128]
/-- Rows of a per-node table, one per edge. -/
def gEdge : GatherDims sNxD sEx1 sExD where
  offsetDims := [1]
  collapsedSliceDims := [0]
  operandBatchingDims := []
  startIndicesBatchingDims := []
  startIndexMap := [0]
  indexVectorDim := 1
  sliceSizes := ![1, 128]
/-- Per-edge rows added into per-node rows. -/
def scEdge : ScatterDims sNxD sEx1 sExD where
  updateWindowDims := [1]
  insertedWindowDims := [0]
  scatterDimsToOperandDims := [0]
  indexVectorDim := 1
/-- Per-node rows added into per-graph rows. -/
def scPool : ScatterDims sGxD sNx1 sNxD where
  updateWindowDims := [1]
  insertedWindowDims := [0]
  scatterDimsToOperandDims := [0]
  indexVectorDim := 1
/-- Per-node ones added into per-graph counts. -/
def scCount : ScatterDims sGx1 sNx1 sNx1 where
  updateWindowDims := [1]
  insertedWindowDims := [0]
  scatterDimsToOperandDims := [0]
  indexVectorDim := 1

variable {F : FTy → Type} [FloatOps F]

/-! ## The shared pieces -/

/-- A negative node-level index counts from the end of a table of `n` rows: `i + n` where `i < 0`, else `i`. -/
def wrapN (n : BitVec 32) (i : IVec sN 32) : IVec sN 32 :=
  select (cmpi .slt i (broadcastInDim sN ![] (by decide) (constantI s0 32 0#32)))
    (addi i (broadcastInDim sN ![] (by decide) (constantI s0 32 n))) i

/-- The same for an edge-level index. -/
def wrapE (n : BitVec 32) (i : IVec sE 32) : IVec sE 32 :=
  select (cmpi .slt i (broadcastInDim sE ![] (by decide) (constantI s0 32 0#32)))
    (addi i (broadcastInDim sE ![] (by decide) (constantI s0 32 n))) i

/-- `atom_emb[x]`: each node's row of the one-row embedding table. -/
def embed (atomEmb : FVec F s1xD .f32) (x : IVec sN 32) : FVec F sNxD .f32 :=
  Host.gather gEmbed atomEmb (broadcastInDim sNx1 ![0] (by decide) (wrapN 1#32 x))

/-- The virtual node before the first layer: the embedding's one row, for every graph. -/
def vnInit (vnEmb : FVec F s1xD .f32) : FVec F sGxD .f32 :=
  broadcastInDim sGxD ![1] (by decide) (shapeCast sD vnEmb (by decide))

/-- `vn[batch]`: each node's graph's virtual-node row. -/
def vnGather (vn : FVec F sGxD .f32) (batch : IVec sN 32) : FVec F sNxD .f32 :=
  Host.gather gGraph vn (broadcastInDim sNx1 ![0] (by decide) (wrapN 256#32 batch))

/-- A layer's input: the node states plus each node's graph's virtual node. -/
def hIn (h : FVec F sNxD .f32) (vn : FVec F sGxD .f32) (batch : IVec sN 32) : FVec F sNxD .f32 :=
  addf h (vnGather vn batch)

/-- The edges' source nodes: row 0 of the edge list. -/
def srcOf (edges : IVec s2xE 32) : IVec sE 32 :=
  shapeCast sE (extractStridedSlice s1xE ![0, 0] edges (by decide)) (by decide)

/-- The edges' destination nodes: row 1 of the edge list. -/
def dstOf (edges : IVec s2xE 32) : IVec sE 32 :=
  shapeCast sE (extractStridedSlice s1xE ![1, 0] edges (by decide)) (by decide)

/-- The neighbourhood sum: every edge's source row, added into its destination row (an out-of-range destination
    is dropped; a negative source counts from the end). -/
def aggOf (hin : FVec F sNxD .f32) (src dst : IVec sE 32) : FVec F sNxD .f32 :=
  Host.scatterAdd scEdge (broadcastInDim sNxD ![] (by decide) (constant (F := F) s0 .f32 0x00000000#32))
    (broadcastInDim sEx1 ![0] (by decide) dst)
    (Host.gather gEdge hin (broadcastInDim sEx1 ![0] (by decide) (wrapE 50000#32 src)))

/-- The per-graph sum of node rows as the host computes it: every node's row added into its graph's row. -/
def poolOfHost (h : FVec F sNxD .f32) (batch : IVec sN 32) : FVec F sGxD .f32 :=
  Host.scatterAdd scPool (broadcastInDim sGxD ![] (by decide) (constant (F := F) s0 .f32 0x00000000#32))
    (broadcastInDim sNx1 ![0] (by decide) batch) h

/-- The number of nodes of each graph: a one per node, added into its graph's count. -/
def countsOf (batch : IVec sN 32) : FVec F sGx1 .f32 :=
  Host.scatterAdd scCount (broadcastInDim sGx1 ![] (by decide) (constant (F := F) s0 .f32 0x00000000#32))
    (broadcastInDim sNx1 ![0] (by decide) batch)
    (broadcastInDim sNx1 ![] (by decide) (constant (F := F) s0 .f32 0x3F800000#32))

/-! ## The pieces only the kernel program computes on the host -/

/-- The graph ids as a column. -/
def batchCol (batch : IVec sN 32) : IVec sNx1 32 := shapeCast sNx1 batch (by decide)

/-- The folded batch-norm scale of a stack of 2D-wide layers: `g / sqrt (v + 1e-5)`. -/
def bnScale2 (g v : FVec F s5xD2 .f32) : FVec F s5xD2 .f32 :=
  Host.divf g (Host.sqrt (addf v (broadcastInDim s5xD2 ![] (by decide) (constant (F := F) s0 .f32 0x3727C5AC#32))))

/-- The folded batch-norm shift of a stack of 2D-wide layers: `b - m * scale`. -/
def bnShift2 (b m sc : FVec F s5xD2 .f32) : FVec F s5xD2 .f32 := subf b (mulf m sc)

/-- The folded batch-norm scale of a stack of D-wide layers. -/
def bnScale1 (g v : FVec F s5xD .f32) : FVec F s5xD .f32 :=
  Host.divf g (Host.sqrt (addf v (broadcastInDim s5xD ![] (by decide) (constant (F := F) s0 .f32 0x3727C5AC#32))))

/-- The folded batch-norm shift of a stack of D-wide layers. -/
def bnShift1 (b m sc : FVec F s5xD .f32) : FVec F s5xD .f32 := subf b (mulf m sc)

variable {α : Type}

/-- Layer `l`'s row of a stack of 2D-wide rows, as a 1 x 2D block. -/
def row2 (l : Nat) (x : s5xD2.Idx → α) (h : s5xD2.Slices ![l, 0] s1xD2 := by decide) : s1xD2.Idx → α :=
  shapeCast s1xD2 (shapeCast sD2 (extractStridedSlice s1xD2 ![l, 0] x h) (by decide)) (by decide)

/-- Layer `l`'s row of a stack of D-wide rows, as a 1 x D block. -/
def row1 (l : Nat) (x : s5xD.Idx → α) (h : s5xD.Slices ![l, 0] s1xD := by decide) : s1xD.Idx → α :=
  shapeCast s1xD (shapeCast sD (extractStridedSlice s1xD ![l, 0] x h) (by decide)) (by decide)

/-- Layer `l`'s D x 2D matrix of a stack. -/
def matDxD2 (l : Nat) (x : s5xDxD2.Idx → α) (h : s5xDxD2.Slices ![l, 0, 0] s1xDxD2 := by decide) : sDxD2.Idx → α :=
  shapeCast sDxD2 (extractStridedSlice s1xDxD2 ![l, 0, 0] x h) (by decide)

/-- Layer `l`'s 2D x D matrix of a stack. -/
def matD2xD (l : Nat) (x : s5xD2xD.Idx → α) (h : s5xD2xD.Slices ![l, 0, 0] s1xD2xD := by decide) : sD2xD.Idx → α :=
  shapeCast sD2xD (extractStridedSlice s1xD2xD ![l, 0, 0] x h) (by decide)

/-- Layer `l`'s epsilon, as a 1 x 1 block. -/
def epsOf (l : Nat) (x : s5.Idx → α) (h : s5.Slices ![l] s1 := by decide) : s1x1.Idx → α :=
  shapeCast s1x1 (shapeCast s0 (extractStridedSlice s1 ![l] x h) (by decide)) (by decide)

/-- A stack of matrices in the matrix unit's input format. -/
def toBf16 {s : Shape} (x : FVec F s .f32) : FVec F s .bf16 := truncf .bf16 x (by decide)

/-- Layer `l`'s folded scale and shift rows. -/
def scaleOf2 (l : Nat) (g v : FVec F s5xD2 .f32) (h : s5xD2.Slices ![l, 0] s1xD2 := by decide) : FVec F s1xD2 .f32 :=
  row2 l (bnScale2 g v) h
def shiftOf2 (l : Nat) (b m g v : FVec F s5xD2 .f32) (h : s5xD2.Slices ![l, 0] s1xD2 := by decide) : FVec F s1xD2 .f32 :=
  row2 l (bnShift2 b m (bnScale2 g v)) h
def scaleOf1 (l : Nat) (g v : FVec F s5xD .f32) (h : s5xD.Slices ![l, 0] s1xD := by decide) : FVec F s1xD .f32 :=
  row1 l (bnScale1 g v) h
def shiftOf1 (l : Nat) (b m g v : FVec F s5xD .f32) (h : s5xD.Slices ![l, 0] s1xD := by decide) : FVec F s1xD .f32 :=
  row1 l (bnShift1 b m (bnScale1 g v)) h

/-- The predictor's bias as a 1 x 10 block. -/
def biasRow (x : s10.Idx → α) : s1x10.Idx → α := shapeCast s1x10 x (by decide)

end Cert.Spec
-- ==== Proof.KiHost0a.lean ====
/-
  What the kernel program's host operations leave in the buffers that later regions and later host stretches read, as named
  functions of the contents before the stretch (an arbitrary valuation W): the first stretch (before the first node-level perceptron), part 1: the initial virtual node, the edge endpoints, the graph-id column, and the first folded batch-norm scales and shifts of the stacked layers.
  Each statement is the stretch's operations composed, folded into the named pieces of the shared host specification.
-/
import proofs.«403491_j395136991532_1_alg».proof.Proof.Gen.KernelIdeal.Launch
import proofs.«403491_j395136991532_1_alg».proof.Proof.SharedHost
set_option maxRecDepth 4000

noncomputable section

namespace Cert.KernelIdeal.HandValue

open Idealize.ShloMosaic Cert.KernelIdeal Cert.KernelIdeal.Gen

variable {F : FTy → Type} [FloatOps F]

set_option maxHeartbeats 4000000

/-- The virtual node before the first layer. -/
theorem host0_v8 (W : Valuation τ sig (Elt F)) :
    StableHlo.after (hostOps0 (F := F)) W (Proc.devRef .tc main_v8)
      = Spec.vnInit (W (Proc.devRef .tc main_arg1)) := by
  dsimp only [hostOps0]; after_results_simp; rfl

/-- The edges' source nodes. -/
theorem host0_v10 (W : Valuation τ sig (Elt F)) :
    StableHlo.after (hostOps0 (F := F)) W (Proc.devRef .tc main_v10)
      = Spec.srcOf (W (Proc.devRef .tc main_arg30)) := by
  dsimp only [hostOps0]; after_results_simp; rfl

/-- The edges' destination nodes. -/
theorem host0_v12 (W : Valuation τ sig (Elt F)) :
    StableHlo.after (hostOps0 (F := F)) W (Proc.devRef .tc main_v12)
      = Spec.dstOf (W (Proc.devRef .tc main_arg30)) := by
  dsimp only [hostOps0]; after_results_simp; rfl

/-- The graph ids as a column. -/
theorem host0_v13 (W : Valuation τ sig (Elt F)) :
    StableHlo.after (hostOps0 (F := F)) W (Proc.devRef .tc main_v13)
      = Spec.batchCol (W (Proc.devRef .tc main_arg31)) := by
  dsimp only [hostOps0]; after_results_simp; rfl

/-- The node-level hidden batch norm's folded scales, all layers. -/
theorem host0_v17 (W : Valuation τ sig (Elt F)) :
    StableHlo.after (hostOps0 (F := F)) W (Proc.devRef .tc main_v17)
      = Spec.bnScale2 (W (Proc.devRef .tc main_arg5)) (W (Proc.devRef .tc main_arg8)) := by
  dsimp only [hostOps0]; after_results_simp; rfl

/-- The node-level hidden batch norm's folded shifts, all layers. -/
theorem host0_v19 (W : Valuation τ sig (Elt F)) :
    StableHlo.after (hostOps0 (F := F)) W (Proc.devRef .tc main_v19)
      = Spec.bnShift2 (W (Proc.devRef .tc main_arg6)) (W (Proc.devRef .tc main_arg7)) (Spec.bnScale2 (W (Proc.devRef .tc main_arg5)) (W (Proc.devRef .tc main_arg8))) := by
  dsimp only [hostOps0]; after_results_simp; rfl

/-- The node-level output batch norm's folded scales, all layers. -/
theorem host0_v23 (W : Valuation τ sig (Elt F)) :
    StableHlo.after (hostOps0 (F := F)) W (Proc.devRef .tc main_v23)
      = Spec.bnScale1 (W (Proc.devRef .tc main_arg11)) (W (Proc.devRef .tc main_arg14)) := by
  dsimp only [hostOps0]; after_results_simp; rfl

end Cert.KernelIdeal.HandValue
-- ==== Proof.KiHost0b.lean ====
/-
  What the kernel program's host operations leave in the buffers that later regions and later host stretches read, as named
  functions of the contents before the stretch (an arbitrary valuation W): the first stretch, part 2: the remaining folded scales and shifts and the first weights in the matrix unit's format.
  Each statement is the stretch's operations composed, folded into the named pieces of the shared host specification.
-/
import proofs.«403491_j395136991532_1_alg».proof.Proof.Gen.KernelIdeal.Launch
import proofs.«403491_j395136991532_1_alg».proof.Proof.SharedHost
set_option maxRecDepth 4000

noncomputable section

namespace Cert.KernelIdeal.HandValue

open Idealize.ShloMosaic Cert.KernelIdeal Cert.KernelIdeal.Gen

variable {F : FTy → Type} [FloatOps F]

set_option maxHeartbeats 4000000

/-- The node-level output batch norm's folded shifts, all layers. -/
theorem host0_v25 (W : Valuation τ sig (Elt F)) :
    StableHlo.after (hostOps0 (F := F)) W (Proc.devRef .tc main_v25)
      = Spec.bnShift1 (W (Proc.devRef .tc main_arg12)) (W (Proc.devRef .tc main_arg13)) (Spec.bnScale1 (W (Proc.devRef .tc main_arg11)) (W (Proc.devRef .tc main_arg14))) := by
  dsimp only [hostOps0]; after_results_simp; rfl

/-- The graph-level hidden batch norm's folded scales, all layers. -/
theorem host0_v29 (W : Valuation τ sig (Elt F)) :
    StableHlo.after (hostOps0 (F := F)) W (Proc.devRef .tc main_v29)
      = Spec.bnScale2 (W (Proc.devRef .tc main_arg17)) (W (Proc.devRef .tc main_arg20)) := by
  dsimp only [hostOps0]; after_results_simp; rfl

/-- The graph-level hidden batch norm's folded shifts, all layers. -/
theorem host0_v31 (W : Valuation τ sig (Elt F)) :
    StableHlo.after (hostOps0 (F := F)) W (Proc.devRef .tc main_v31)
      = Spec.bnShift2 (W (Proc.devRef .tc main_arg18)) (W (Proc.devRef .tc main_arg19)) (Spec.bnScale2 (W (Proc.devRef .tc main_arg17)) (W (Proc.devRef .tc main_arg20))) := by
  dsimp only [hostOps0]; after_results_simp; rfl

/-- The graph-level output batch norm's folded scales, all layers. -/
theorem host0_v35 (W : Valuation τ sig (Elt F)) :
    StableHlo.after (hostOps0 (F := F)) W (Proc.devRef .tc main_v35)
      = Spec.bnScale1 (W (Proc.devRef .tc main_arg23)) (W (Proc.devRef .tc main_arg26)) := by
  dsimp only [hostOps0]; after_results_simp; rfl

/-- The graph-level output batch norm's folded shifts, all layers. -/
theorem host0_v37 (W : Valuation τ sig (Elt F)) :
    StableHlo.after (hostOps0 (F := F)) W (Proc.devRef .tc main_v37)
      = Spec.bnShift1 (W (Proc.devRef .tc main_arg24)) (W (Proc.devRef .tc main_arg25)) (Spec.bnScale1 (W (Proc.devRef .tc main_arg23)) (W (Proc.devRef .tc main_arg26))) := by
  dsimp only [hostOps0]; after_results_simp; rfl

/-- The node-level first weights in the matrix unit's format, all layers. -/
theorem host0_v38 (W : Valuation τ sig (Elt F)) :
    StableHlo.after (hostOps0 (F := F)) W (Proc.devRef .tc main_v38)
      = Spec.toBf16 (W (Proc.devRef .tc main_arg3)) := by
  dsimp only [hostOps0]; after_results_simp; rfl

/-- The node-level second weights in the matrix unit's format, all layers. -/
theorem host0_v39 (W : Valuation τ sig (Elt F)) :
    StableHlo.after (hostOps0 (F := F)) W (Proc.devRef .tc main_v39)
      = Spec.toBf16 (W (Proc.devRef .tc main_arg9)) := by
  dsimp only [hostOps0]; after_results_simp; rfl

end Cert.KernelIdeal.HandValue
-- ==== Proof.KiHost0c.lean ====
/-
  What the kernel program's host operations leave in the buffers that later regions and later host stretches read, as named
  functions of the contents before the stretch (an arbitrary valuation W): the first stretch, part 3: the remaining weights in the matrix unit's format, the first layer's input, its neighbourhood sum, and the first layer's first parameter blocks.
  Each statement is the stretch's operations composed, folded into the named pieces of the shared host specification.
-/
import proofs.«403491_j395136991532_1_alg».proof.Proof.Gen.KernelIdeal.Launch
import proofs.«403491_j395136991532_1_alg».proof.Proof.SharedHost
set_option maxRecDepth 4000

noncomputable section

namespace Cert.KernelIdeal.HandValue

open Idealize.ShloMosaic Cert.KernelIdeal Cert.KernelIdeal.Gen

variable {F : FTy → Type} [FloatOps F]

set_option maxHeartbeats 4000000

/-- The graph-level first weights in the matrix unit's format, all layers. -/
theorem host0_v40 (W : Valuation τ sig (Elt F)) :
    StableHlo.after (hostOps0 (F := F)) W (Proc.devRef .tc main_v40)
      = Spec.toBf16 (W (Proc.devRef .tc main_arg15)) := by
  dsimp only [hostOps0]; after_results_simp; rfl

/-- The graph-level second weights in the matrix unit's format, all layers. -/
theorem host0_v41 (W : Valuation τ sig (Elt F)) :
    StableHlo.after (hostOps0 (F := F)) W (Proc.devRef .tc main_v41)
      = Spec.toBf16 (W (Proc.devRef .tc main_arg21)) := by
  dsimp only [hostOps0]; after_results_simp; rfl

/-- The predictor's weights in the matrix unit's format. -/
theorem host0_v42 (W : Valuation τ sig (Elt F)) :
    StableHlo.after (hostOps0 (F := F)) W (Proc.devRef .tc main_v42)
      = Spec.toBf16 (W (Proc.devRef .tc main_arg27)) := by
  dsimp only [hostOps0]; after_results_simp; rfl

/-- The first layer's input: the embedded nodes plus the gathered initial virtual node. -/
theorem host0_v50 (W : Valuation τ sig (Elt F)) :
    StableHlo.after (hostOps0 (F := F)) W (Proc.devRef .tc main_v50)
      = Spec.hIn (Spec.embed (W (Proc.devRef .tc main_arg0)) (W (Proc.devRef .tc main_arg29))) (Spec.vnInit (W (Proc.devRef .tc main_arg1))) (W (Proc.devRef .tc main_arg31)) := by
  dsimp only [hostOps0]; after_results_simp; rfl

/-- The first layer's neighbourhood sum. -/
theorem host0_v60 (W : Valuation τ sig (Elt F)) :
    StableHlo.after (hostOps0 (F := F)) W (Proc.devRef .tc main_v60)
      = Spec.aggOf (Spec.hIn (Spec.embed (W (Proc.devRef .tc main_arg0)) (W (Proc.devRef .tc main_arg29))) (Spec.vnInit (W (Proc.devRef .tc main_arg1))) (W (Proc.devRef .tc main_arg31))) (Spec.srcOf (W (Proc.devRef .tc main_arg30))) (Spec.dstOf (W (Proc.devRef .tc main_arg30))) := by
  dsimp only [hostOps0]; after_results_simp; rfl

/-- Layer 0's epsilon. -/
theorem host0_v63 (W : Valuation τ sig (Elt F)) :
    StableHlo.after (hostOps0 (F := F)) W (Proc.devRef .tc main_v63)
      = Spec.epsOf 0 (W (Proc.devRef .tc main_arg2)) := by
  dsimp only [hostOps0]; after_results_simp; rfl

/-- Layer 0's first weight matrix. -/
theorem host0_v65 (W : Valuation τ sig (Elt F)) :
    StableHlo.after (hostOps0 (F := F)) W (Proc.devRef .tc main_v65)
      = Spec.matDxD2 0 (Spec.toBf16 (W (Proc.devRef .tc main_arg3))) := by
  dsimp only [hostOps0]; after_results_simp; rfl

end Cert.KernelIdeal.HandValue
-- ==== Proof.KiHost0d.lean ====
/-
  What the kernel program's host operations leave in the buffers that later regions and later host stretches read, as named
  functions of the contents before the stretch (an arbitrary valuation W): the first stretch, part 4: the first layer's remaining parameter blocks.
  Each statement is the stretch's operations composed, folded into the named pieces of the shared host specification.
-/
import proofs.«403491_j395136991532_1_alg».proof.Proof.Gen.KernelIdeal.Launch
import proofs.«403491_j395136991532_1_alg».proof.Proof.SharedHost
set_option maxRecDepth 4000

noncomputable section

namespace Cert.KernelIdeal.HandValue

open Idealize.ShloMosaic Cert.KernelIdeal Cert.KernelIdeal.Gen

variable {F : FTy → Type} [FloatOps F]

set_option maxHeartbeats 4000000

/-- Layer 0's first bias. -/
theorem host0_v68 (W : Valuation τ sig (Elt F)) :
    StableHlo.after (hostOps0 (F := F)) W (Proc.devRef .tc main_v68)
      = Spec.row2 0 (W (Proc.devRef .tc main_arg4)) := by
  dsimp only [hostOps0]; after_results_simp; rfl

/-- Layer 0's hidden folded scale. -/
theorem host0_v71 (W : Valuation τ sig (Elt F)) :
    StableHlo.after (hostOps0 (F := F)) W (Proc.devRef .tc main_v71)
      = Spec.scaleOf2 0 (W (Proc.devRef .tc main_arg5)) (W (Proc.devRef .tc main_arg8)) := by
  dsimp only [hostOps0]; after_results_simp; rfl

/-- Layer 0's hidden folded shift. -/
theorem host0_v74 (W : Valuation τ sig (Elt F)) :
    StableHlo.after (hostOps0 (F := F)) W (Proc.devRef .tc main_v74)
      = Spec.shiftOf2 0 (W (Proc.devRef .tc main_arg6)) (W (Proc.devRef .tc main_arg7)) (W (Proc.devRef .tc main_arg5)) (W (Proc.devRef .tc main_arg8)) := by
  dsimp only [hostOps0]; after_results_simp; rfl

/-- Layer 0's second weight matrix. -/
theorem host0_v76 (W : Valuation τ sig (Elt F)) :
    StableHlo.after (hostOps0 (F := F)) W (Proc.devRef .tc main_v76)
      = Spec.matD2xD 0 (Spec.toBf16 (W (Proc.devRef .tc main_arg9))) := by
  dsimp only [hostOps0]; after_results_simp; rfl

/-- Layer 0's second bias. -/
theorem host0_v79 (W : Valuation τ sig (Elt F)) :
    StableHlo.after (hostOps0 (F := F)) W (Proc.devRef .tc main_v79)
      = Spec.row1 0 (W (Proc.devRef .tc main_arg10)) := by
  dsimp only [hostOps0]; after_results_simp; rfl

/-- Layer 0's output folded scale. -/
theorem host0_v82 (W : Valuation τ sig (Elt F)) :
    StableHlo.after (hostOps0 (F := F)) W (Proc.devRef .tc main_v82)
      = Spec.scaleOf1 0 (W (Proc.devRef .tc main_arg11)) (W (Proc.devRef .tc main_arg14)) := by
  dsimp only [hostOps0]; after_results_simp; rfl

/-- Layer 0's output folded shift. -/
theorem host0_v85 (W : Valuation τ sig (Elt F)) :
    StableHlo.after (hostOps0 (F := F)) W (Proc.devRef .tc main_v85)
      = Spec.shiftOf1 0 (W (Proc.devRef .tc main_arg12)) (W (Proc.devRef .tc main_arg13)) (W (Proc.devRef .tc main_arg11)) (W (Proc.devRef .tc main_arg14)) := by
  dsimp only [hostOps0]; after_results_simp; rfl

end Cert.KernelIdeal.HandValue
-- ==== Proof.KiHostGin.lean ====
/-
  What the kernel program's host operations leave in the buffers that later regions and later host stretches read, as named
  functions of the contents before the stretch (an arbitrary valuation W): the stretches before the node-level perceptrons of layers 1 to 4: the layer's input (node states plus the gathered virtual node), its neighbourhood sum, and the layer's parameter blocks.
  Each statement is the stretch's operations composed, folded into the named pieces of the shared host specification.
-/
import proofs.«403491_j395136991532_1_alg».proof.Proof.Gen.KernelIdeal.Launch
import proofs.«403491_j395136991532_1_alg».proof.Proof.SharedHost
set_option maxRecDepth 4000

noncomputable section

namespace Cert.KernelIdeal.HandValue

open Idealize.ShloMosaic Cert.KernelIdeal Cert.KernelIdeal.Gen

variable {F : FTy → Type} [FloatOps F]

set_option maxHeartbeats 4000000

/-- Layer 1's input: the node states plus the gathered virtual node. -/
theorem host3_v119 (W : Valuation τ sig (Elt F)) :
    StableHlo.after (hostOps3 (F := F)) W (Proc.devRef .tc main_v119)
      = Spec.hIn (W (Proc.devRef .tc main_v86)) (W (Proc.devRef .tc main_v111)) (W (Proc.devRef .tc main_arg31)) := by
  dsimp only [hostOps3]; after_results_simp; rfl

/-- Layer 1's neighbourhood sum. -/
theorem host3_v129 (W : Valuation τ sig (Elt F)) :
    StableHlo.after (hostOps3 (F := F)) W (Proc.devRef .tc main_v129)
      = Spec.aggOf (Spec.hIn (W (Proc.devRef .tc main_v86)) (W (Proc.devRef .tc main_v111)) (W (Proc.devRef .tc main_arg31))) (W (Proc.devRef .tc main_v10)) (W (Proc.devRef .tc main_v12)) := by
  dsimp only [hostOps3]; after_results_simp; rfl

/-- Layer 1's epsilon. -/
theorem host3_v132 (W : Valuation τ sig (Elt F)) :
    StableHlo.after (hostOps3 (F := F)) W (Proc.devRef .tc main_v132)
      = Spec.epsOf 1 (W (Proc.devRef .tc main_arg2)) := by
  dsimp only [hostOps3]; after_results_simp; rfl

/-- Layer 1's first weight matrix. -/
theorem host3_v134 (W : Valuation τ sig (Elt F)) :
    StableHlo.after (hostOps3 (F := F)) W (Proc.devRef .tc main_v134)
      = Spec.matDxD2 1 (W (Proc.devRef .tc main_v38)) := by
  dsimp only [hostOps3]; after_results_simp; rfl

/-- Layer 1's first bias. -/
theorem host3_v137 (W : Valuation τ sig (Elt F)) :
    StableHlo.after (hostOps3 (F := F)) W (Proc.devRef .tc main_v137)
      = Spec.row2 1 (W (Proc.devRef .tc main_arg4)) := by
  dsimp only [hostOps3]; after_results_simp; rfl

/-- Layer 1's hidden folded scale. -/
theorem host3_v140 (W : Valuation τ sig (Elt F)) :
    StableHlo.after (hostOps3 (F := F)) W (Proc.devRef .tc main_v140)
      = Spec.row2 1 (W (Proc.devRef .tc main_v17)) := by
  dsimp only [hostOps3]; after_results_simp; rfl

/-- Layer 1's hidden folded shift. -/
theorem host3_v143 (W : Valuation τ sig (Elt F)) :
    StableHlo.after (hostOps3 (F := F)) W (Proc.devRef .tc main_v143)
      = Spec.row2 1 (W (Proc.devRef .tc main_v19)) := by
  dsimp only [hostOps3]; after_results_simp; rfl

/-- Layer 1's second weight matrix. -/
theorem host3_v145 (W : Valuation τ sig (Elt F)) :
    StableHlo.after (hostOps3 (F := F)) W (Proc.devRef .tc main_v145)
      = Spec.matD2xD 1 (W (Proc.devRef .tc main_v39)) := by
  dsimp only [hostOps3]; after_results_simp; rfl

/-- Layer 1's second bias. -/
theorem host3_v148 (W : Valuation τ sig (Elt F)) :
    StableHlo.after (hostOps3 (F := F)) W (Proc.devRef .tc main_v148)
      = Spec.row1 1 (W (Proc.devRef .tc main_arg10)) := by
  dsimp only [hostOps3]; after_results_simp; rfl

/-- Layer 1's output folded scale. -/
theorem host3_v151 (W : Valuation τ sig (Elt F)) :
    StableHlo.after (hostOps3 (F := F)) W (Proc.devRef .tc main_v151)
      = Spec.row1 1 (W (Proc.devRef .tc main_v23)) := by
  dsimp only [hostOps3]; after_results_simp; rfl

/-- Layer 1's output folded shift. -/
theorem host3_v154 (W : Valuation τ sig (Elt F)) :
    StableHlo.after (hostOps3 (F := F)) W (Proc.devRef .tc main_v154)
      = Spec.row1 1 (W (Proc.devRef .tc main_v25)) := by
  dsimp only [hostOps3]; after_results_simp; rfl

/-- Layer 2's input: the node states plus the gathered virtual node. -/
theorem host6_v188 (W : Valuation τ sig (Elt F)) :
    StableHlo.after (hostOps6 (F := F)) W (Proc.devRef .tc main_v188)
      = Spec.hIn (W (Proc.devRef .tc main_v155)) (W (Proc.devRef .tc main_v180)) (W (Proc.devRef .tc main_arg31)) := by
  dsimp only [hostOps6]; after_results_simp; rfl

/-- Layer 2's neighbourhood sum. -/
theorem host6_v198 (W : Valuation τ sig (Elt F)) :
    StableHlo.after (hostOps6 (F := F)) W (Proc.devRef .tc main_v198)
      = Spec.aggOf (Spec.hIn (W (Proc.devRef .tc main_v155)) (W (Proc.devRef .tc main_v180)) (W (Proc.devRef .tc main_arg31))) (W (Proc.devRef .tc main_v10)) (W (Proc.devRef .tc main_v12)) := by
  dsimp only [hostOps6]; after_results_simp; rfl

/-- Layer 2's epsilon. -/
theorem host6_v201 (W : Valuation τ sig (Elt F)) :
    StableHlo.after (hostOps6 (F := F)) W (Proc.devRef .tc main_v201)
      = Spec.epsOf 2 (W (Proc.devRef .tc main_arg2)) := by
  dsimp only [hostOps6]; after_results_simp; rfl

/-- Layer 2's first weight matrix. -/
theorem host6_v203 (W : Valuation τ sig (Elt F)) :
    StableHlo.after (hostOps6 (F := F)) W (Proc.devRef .tc main_v203)
      = Spec.matDxD2 2 (W (Proc.devRef .tc main_v38)) := by
  dsimp only [hostOps6]; after_results_simp; rfl

/-- Layer 2's first bias. -/
theorem host6_v206 (W : Valuation τ sig (Elt F)) :
    StableHlo.after (hostOps6 (F := F)) W (Proc.devRef .tc main_v206)
      = Spec.row2 2 (W (Proc.devRef .tc main_arg4)) := by
  dsimp only [hostOps6]; after_results_simp; rfl

/-- Layer 2's hidden folded scale. -/
theorem host6_v209 (W : Valuation τ sig (Elt F)) :
    StableHlo.after (hostOps6 (F := F)) W (Proc.devRef .tc main_v209)
      = Spec.row2 2 (W (Proc.devRef .tc main_v17)) := by
  dsimp only [hostOps6]; after_results_simp; rfl

/-- Layer 2's hidden folded shift. -/
theorem host6_v212 (W : Valuation τ sig (Elt F)) :
    StableHlo.after (hostOps6 (F := F)) W (Proc.devRef .tc main_v212)
      = Spec.row2 2 (W (Proc.devRef .tc main_v19)) := by
  dsimp only [hostOps6]; after_results_simp; rfl

/-- Layer 2's second weight matrix. -/
theorem host6_v214 (W : Valuation τ sig (Elt F)) :
    StableHlo.after (hostOps6 (F := F)) W (Proc.devRef .tc main_v214)
      = Spec.matD2xD 2 (W (Proc.devRef .tc main_v39)) := by
  dsimp only [hostOps6]; after_results_simp; rfl

/-- Layer 2's second bias. -/
theorem host6_v217 (W : Valuation τ sig (Elt F)) :
    StableHlo.after (hostOps6 (F := F)) W (Proc.devRef .tc main_v217)
      = Spec.row1 2 (W (Proc.devRef .tc main_arg10)) := by
  dsimp only [hostOps6]; after_results_simp; rfl

/-- Layer 2's output folded scale. -/
theorem host6_v220 (W : Valuation τ sig (Elt F)) :
    StableHlo.after (hostOps6 (F := F)) W (Proc.devRef .tc main_v220)
      = Spec.row1 2 (W (Proc.devRef .tc main_v23)) := by
  dsimp only [hostOps6]; after_results_simp; rfl

/-- Layer 2's output folded shift. -/
theorem host6_v223 (W : Valuation τ sig (Elt F)) :
    StableHlo.after (hostOps6 (F := F)) W (Proc.devRef .tc main_v223)
      = Spec.row1 2 (W (Proc.devRef .tc main_v25)) := by
  dsimp only [hostOps6]; after_results_simp; rfl

/-- Layer 3's input: the node states plus the gathered virtual node. -/
theorem host9_v257 (W : Valuation τ sig (Elt F)) :
    StableHlo.after (hostOps9 (F := F)) W (Proc.devRef .tc main_v257)
      = Spec.hIn (W (Proc.devRef .tc main_v224)) (W (Proc.devRef .tc main_v249)) (W (Proc.devRef .tc main_arg31)) := by
  dsimp only [hostOps9]; after_results_simp; rfl

/-- Layer 3's neighbourhood sum. -/
theorem host9_v267 (W : Valuation τ sig (Elt F)) :
    StableHlo.after (hostOps9 (F := F)) W (Proc.devRef .tc main_v267)
      = Spec.aggOf (Spec.hIn (W (Proc.devRef .tc main_v224)) (W (Proc.devRef .tc main_v249)) (W (Proc.devRef .tc main_arg31))) (W (Proc.devRef .tc main_v10)) (W (Proc.devRef .tc main_v12)) := by
  dsimp only [hostOps9]; after_results_simp; rfl

/-- Layer 3's epsilon. -/
theorem host9_v270 (W : Valuation τ sig (Elt F)) :
    StableHlo.after (hostOps9 (F := F)) W (Proc.devRef .tc main_v270)
      = Spec.epsOf 3 (W (Proc.devRef .tc main_arg2)) := by
  dsimp only [hostOps9]; after_results_simp; rfl

/-- Layer 3's first weight matrix. -/
theorem host9_v272 (W : Valuation τ sig (Elt F)) :
    StableHlo.after (hostOps9 (F := F)) W (Proc.devRef .tc main_v272)
      = Spec.matDxD2 3 (W (Proc.devRef .tc main_v38)) := by
  dsimp only [hostOps9]; after_results_simp; rfl

/-- Layer 3's first bias. -/
theorem host9_v275 (W : Valuation τ sig (Elt F)) :
    StableHlo.after (hostOps9 (F := F)) W (Proc.devRef .tc main_v275)
      = Spec.row2 3 (W (Proc.devRef .tc main_arg4)) := by
  dsimp only [hostOps9]; after_results_simp; rfl

/-- Layer 3's hidden folded scale. -/
theorem host9_v278 (W : Valuation τ sig (Elt F)) :
    StableHlo.after (hostOps9 (F := F)) W (Proc.devRef .tc main_v278)
      = Spec.row2 3 (W (Proc.devRef .tc main_v17)) := by
  dsimp only [hostOps9]; after_results_simp; rfl

/-- Layer 3's hidden folded shift. -/
theorem host9_v281 (W : Valuation τ sig (Elt F)) :
    StableHlo.after (hostOps9 (F := F)) W (Proc.devRef .tc main_v281)
      = Spec.row2 3 (W (Proc.devRef .tc main_v19)) := by
  dsimp only [hostOps9]; after_results_simp; rfl

/-- Layer 3's second weight matrix. -/
theorem host9_v283 (W : Valuation τ sig (Elt F)) :
    StableHlo.after (hostOps9 (F := F)) W (Proc.devRef .tc main_v283)
      = Spec.matD2xD 3 (W (Proc.devRef .tc main_v39)) := by
  dsimp only [hostOps9]; after_results_simp; rfl

/-- Layer 3's second bias. -/
theorem host9_v286 (W : Valuation τ sig (Elt F)) :
    StableHlo.after (hostOps9 (F := F)) W (Proc.devRef .tc main_v286)
      = Spec.row1 3 (W (Proc.devRef .tc main_arg10)) := by
  dsimp only [hostOps9]; after_results_simp; rfl

/-- Layer 3's output folded scale. -/
theorem host9_v289 (W : Valuation τ sig (Elt F)) :
    StableHlo.after (hostOps9 (F := F)) W (Proc.devRef .tc main_v289)
      = Spec.row1 3 (W (Proc.devRef .tc main_v23)) := by
  dsimp only [hostOps9]; after_results_simp; rfl

/-- Layer 3's output folded shift. -/
theorem host9_v292 (W : Valuation τ sig (Elt F)) :
    StableHlo.after (hostOps9 (F := F)) W (Proc.devRef .tc main_v292)
      = Spec.row1 3 (W (Proc.devRef .tc main_v25)) := by
  dsimp only [hostOps9]; after_results_simp; rfl

/-- Layer 4's input: the node states plus the gathered virtual node. -/
theorem host12_v326 (W : Valuation τ sig (Elt F)) :
    StableHlo.after (hostOps12 (F := F)) W (Proc.devRef .tc main_v326)
      = Spec.hIn (W (Proc.devRef .tc main_v293)) (W (Proc.devRef .tc main_v318)) (W (Proc.devRef .tc main_arg31)) := by
  dsimp only [hostOps12]; after_results_simp; rfl

/-- Layer 4's neighbourhood sum. -/
theorem host12_v336 (W : Valuation τ sig (Elt F)) :
    StableHlo.after (hostOps12 (F := F)) W (Proc.devRef .tc main_v336)
      = Spec.aggOf (Spec.hIn (W (Proc.devRef .tc main_v293)) (W (Proc.devRef .tc main_v318)) (W (Proc.devRef .tc main_arg31))) (W (Proc.devRef .tc main_v10)) (W (Proc.devRef .tc main_v12)) := by
  dsimp only [hostOps12]; after_results_simp; rfl

/-- Layer 4's epsilon. -/
theorem host12_v339 (W : Valuation τ sig (Elt F)) :
    StableHlo.after (hostOps12 (F := F)) W (Proc.devRef .tc main_v339)
      = Spec.epsOf 4 (W (Proc.devRef .tc main_arg2)) := by
  dsimp only [hostOps12]; after_results_simp; rfl

/-- Layer 4's first weight matrix. -/
theorem host12_v341 (W : Valuation τ sig (Elt F)) :
    StableHlo.after (hostOps12 (F := F)) W (Proc.devRef .tc main_v341)
      = Spec.matDxD2 4 (W (Proc.devRef .tc main_v38)) := by
  dsimp only [hostOps12]; after_results_simp; rfl

/-- Layer 4's first bias. -/
theorem host12_v344 (W : Valuation τ sig (Elt F)) :
    StableHlo.after (hostOps12 (F := F)) W (Proc.devRef .tc main_v344)
      = Spec.row2 4 (W (Proc.devRef .tc main_arg4)) := by
  dsimp only [hostOps12]; after_results_simp; rfl

/-- Layer 4's hidden folded scale. -/
theorem host12_v347 (W : Valuation τ sig (Elt F)) :
    StableHlo.after (hostOps12 (F := F)) W (Proc.devRef .tc main_v347)
      = Spec.row2 4 (W (Proc.devRef .tc main_v17)) := by
  dsimp only [hostOps12]; after_results_simp; rfl

/-- Layer 4's hidden folded shift. -/
theorem host12_v350 (W : Valuation τ sig (Elt F)) :
    StableHlo.after (hostOps12 (F := F)) W (Proc.devRef .tc main_v350)
      = Spec.row2 4 (W (Proc.devRef .tc main_v19)) := by
  dsimp only [hostOps12]; after_results_simp; rfl

/-- Layer 4's second weight matrix. -/
theorem host12_v352 (W : Valuation τ sig (Elt F)) :
    StableHlo.after (hostOps12 (F := F)) W (Proc.devRef .tc main_v352)
      = Spec.matD2xD 4 (W (Proc.devRef .tc main_v39)) := by
  dsimp only [hostOps12]; after_results_simp; rfl

/-- Layer 4's second bias. -/
theorem host12_v355 (W : Valuation τ sig (Elt F)) :
    StableHlo.after (hostOps12 (F := F)) W (Proc.devRef .tc main_v355)
      = Spec.row1 4 (W (Proc.devRef .tc main_arg10)) := by
  dsimp only [hostOps12]; after_results_simp; rfl

/-- Layer 4's output folded scale. -/
theorem host12_v358 (W : Valuation τ sig (Elt F)) :
    StableHlo.after (hostOps12 (F := F)) W (Proc.devRef .tc main_v358)
      = Spec.row1 4 (W (Proc.devRef .tc main_v23)) := by
  dsimp only [hostOps12]; after_results_simp; rfl

/-- Layer 4's output folded shift. -/
theorem host12_v361 (W : Valuation τ sig (Elt F)) :
    StableHlo.after (hostOps12 (F := F)) W (Proc.devRef .tc main_v361)
      = Spec.row1 4 (W (Proc.devRef .tc main_v25)) := by
  dsimp only [hostOps12]; after_results_simp; rfl

end Cert.KernelIdeal.HandValue
-- ==== Proof.KiHostVn.lean ====
/-
  What the kernel program's host operations leave in the buffers that later regions and later host stretches read, as named
  functions of the contents before the stretch (an arbitrary valuation W): the stretches before the graph-level perceptrons (the pooled rows plus the previous virtual node, and the layer's parameter blocks), the per-graph node counts, and the predictor's bias row.
  Each statement is the stretch's operations composed, folded into the named pieces of the shared host specification.
-/
import proofs.«403491_j395136991532_1_alg».proof.Proof.Gen.KernelIdeal.Launch
import proofs.«403491_j395136991532_1_alg».proof.Proof.SharedHost
set_option maxRecDepth 4000

noncomputable section

namespace Cert.KernelIdeal.HandValue

open Idealize.ShloMosaic Cert.KernelIdeal Cert.KernelIdeal.Gen

variable {F : FTy → Type} [FloatOps F]

set_option maxHeartbeats 4000000

/-- Graph-level layer 0's input: the pooled rows plus the previous virtual node. -/
theorem host2_v88 (W : Valuation τ sig (Elt F)) :
    StableHlo.after (hostOps2 (F := F)) W (Proc.devRef .tc main_v88)
      = addf (W (Proc.devRef .tc main_v87)) (W (Proc.devRef .tc main_v8)) := by
  dsimp only [hostOps2]; after_results_simp

/-- Graph-level layer 0's first weight matrix. -/
theorem host2_v90 (W : Valuation τ sig (Elt F)) :
    StableHlo.after (hostOps2 (F := F)) W (Proc.devRef .tc main_v90)
      = Spec.matDxD2 0 (W (Proc.devRef .tc main_v40)) := by
  dsimp only [hostOps2]; after_results_simp; rfl

/-- Graph-level layer 0's first bias. -/
theorem host2_v93 (W : Valuation τ sig (Elt F)) :
    StableHlo.after (hostOps2 (F := F)) W (Proc.devRef .tc main_v93)
      = Spec.row2 0 (W (Proc.devRef .tc main_arg16)) := by
  dsimp only [hostOps2]; after_results_simp; rfl

/-- Graph-level layer 0's hidden folded scale. -/
theorem host2_v96 (W : Valuation τ sig (Elt F)) :
    StableHlo.after (hostOps2 (F := F)) W (Proc.devRef .tc main_v96)
      = Spec.row2 0 (W (Proc.devRef .tc main_v29)) := by
  dsimp only [hostOps2]; after_results_simp; rfl

/-- Graph-level layer 0's hidden folded shift. -/
theorem host2_v99 (W : Valuation τ sig (Elt F)) :
    StableHlo.after (hostOps2 (F := F)) W (Proc.devRef .tc main_v99)
      = Spec.row2 0 (W (Proc.devRef .tc main_v31)) := by
  dsimp only [hostOps2]; after_results_simp; rfl

/-- Graph-level layer 0's second weight matrix. -/
theorem host2_v101 (W : Valuation τ sig (Elt F)) :
    StableHlo.after (hostOps2 (F := F)) W (Proc.devRef .tc main_v101)
      = Spec.matD2xD 0 (W (Proc.devRef .tc main_v41)) := by
  dsimp only [hostOps2]; after_results_simp; rfl

/-- Graph-level layer 0's second bias. -/
theorem host2_v104 (W : Valuation τ sig (Elt F)) :
    StableHlo.after (hostOps2 (F := F)) W (Proc.devRef .tc main_v104)
      = Spec.row1 0 (W (Proc.devRef .tc main_arg22)) := by
  dsimp only [hostOps2]; after_results_simp; rfl

/-- Graph-level layer 0's output folded scale. -/
theorem host2_v107 (W : Valuation τ sig (Elt F)) :
    StableHlo.after (hostOps2 (F := F)) W (Proc.devRef .tc main_v107)
      = Spec.row1 0 (W (Proc.devRef .tc main_v35)) := by
  dsimp only [hostOps2]; after_results_simp; rfl

/-- Graph-level layer 0's output folded shift. -/
theorem host2_v110 (W : Valuation τ sig (Elt F)) :
    StableHlo.after (hostOps2 (F := F)) W (Proc.devRef .tc main_v110)
      = Spec.row1 0 (W (Proc.devRef .tc main_v37)) := by
  dsimp only [hostOps2]; after_results_simp; rfl

/-- Graph-level layer 1's input: the pooled rows plus the previous virtual node. -/
theorem host5_v157 (W : Valuation τ sig (Elt F)) :
    StableHlo.after (hostOps5 (F := F)) W (Proc.devRef .tc main_v157)
      = addf (W (Proc.devRef .tc main_v156)) (W (Proc.devRef .tc main_v111)) := by
  dsimp only [hostOps5]; after_results_simp

/-- Graph-level layer 1's first weight matrix. -/
theorem host5_v159 (W : Valuation τ sig (Elt F)) :
    StableHlo.after (hostOps5 (F := F)) W (Proc.devRef .tc main_v159)
      = Spec.matDxD2 1 (W (Proc.devRef .tc main_v40)) := by
  dsimp only [hostOps5]; after_results_simp; rfl

/-- Graph-level layer 1's first bias. -/
theorem host5_v162 (W : Valuation τ sig (Elt F)) :
    StableHlo.after (hostOps5 (F := F)) W (Proc.devRef .tc main_v162)
      = Spec.row2 1 (W (Proc.devRef .tc main_arg16)) := by
  dsimp only [hostOps5]; after_results_simp; rfl

/-- Graph-level layer 1's hidden folded scale. -/
theorem host5_v165 (W : Valuation τ sig (Elt F)) :
    StableHlo.after (hostOps5 (F := F)) W (Proc.devRef .tc main_v165)
      = Spec.row2 1 (W (Proc.devRef .tc main_v29)) := by
  dsimp only [hostOps5]; after_results_simp; rfl

/-- Graph-level layer 1's hidden folded shift. -/
theorem host5_v168 (W : Valuation τ sig (Elt F)) :
    StableHlo.after (hostOps5 (F := F)) W (Proc.devRef .tc main_v168)
      = Spec.row2 1 (W (Proc.devRef .tc main_v31)) := by
  dsimp only [hostOps5]; after_results_simp; rfl

/-- Graph-level layer 1's second weight matrix. -/
theorem host5_v170 (W : Valuation τ sig (Elt F)) :
    StableHlo.after (hostOps5 (F := F)) W (Proc.devRef .tc main_v170)
      = Spec.matD2xD 1 (W (Proc.devRef .tc main_v41)) := by
  dsimp only [hostOps5]; after_results_simp; rfl

/-- Graph-level layer 1's second bias. -/
theorem host5_v173 (W : Valuation τ sig (Elt F)) :
    StableHlo.after (hostOps5 (F := F)) W (Proc.devRef .tc main_v173)
      = Spec.row1 1 (W (Proc.devRef .tc main_arg22)) := by
  dsimp only [hostOps5]; after_results_simp; rfl

/-- Graph-level layer 1's output folded scale. -/
theorem host5_v176 (W : Valuation τ sig (Elt F)) :
    StableHlo.after (hostOps5 (F := F)) W (Proc.devRef .tc main_v176)
      = Spec.row1 1 (W (Proc.devRef .tc main_v35)) := by
  dsimp only [hostOps5]; after_results_simp; rfl

/-- Graph-level layer 1's output folded shift. -/
theorem host5_v179 (W : Valuation τ sig (Elt F)) :
    StableHlo.after (hostOps5 (F := F)) W (Proc.devRef .tc main_v179)
      = Spec.row1 1 (W (Proc.devRef .tc main_v37)) := by
  dsimp only [hostOps5]; after_results_simp; rfl

/-- Graph-level layer 2's input: the pooled rows plus the previous virtual node. -/
theorem host8_v226 (W : Valuation τ sig (Elt F)) :
    StableHlo.after (hostOps8 (F := F)) W (Proc.devRef .tc main_v226)
      = addf (W (Proc.devRef .tc main_v225)) (W (Proc.devRef .tc main_v180)) := by
  dsimp only [hostOps8]; after_results_simp

/-- Graph-level layer 2's first weight matrix. -/
theorem host8_v228 (W : Valuation τ sig (Elt F)) :
    StableHlo.after (hostOps8 (F := F)) W (Proc.devRef .tc main_v228)
      = Spec.matDxD2 2 (W (Proc.devRef .tc main_v40)) := by
  dsimp only [hostOps8]; after_results_simp; rfl

/-- Graph-level layer 2's first bias. -/
theorem host8_v231 (W : Valuation τ sig (Elt F)) :
    StableHlo.after (hostOps8 (F := F)) W (Proc.devRef .tc main_v231)
      = Spec.row2 2 (W (Proc.devRef .tc main_arg16)) := by
  dsimp only [hostOps8]; after_results_simp; rfl

/-- Graph-level layer 2's hidden folded scale. -/
theorem host8_v234 (W : Valuation τ sig (Elt F)) :
    StableHlo.after (hostOps8 (F := F)) W (Proc.devRef .tc main_v234)
      = Spec.row2 2 (W (Proc.devRef .tc main_v29)) := by
  dsimp only [hostOps8]; after_results_simp; rfl

/-- Graph-level layer 2's hidden folded shift. -/
theorem host8_v237 (W : Valuation τ sig (Elt F)) :
    StableHlo.after (hostOps8 (F := F)) W (Proc.devRef .tc main_v237)
      = Spec.row2 2 (W (Proc.devRef .tc main_v31)) := by
  dsimp only [hostOps8]; after_results_simp; rfl

/-- Graph-level layer 2's second weight matrix. -/
theorem host8_v239 (W : Valuation τ sig (Elt F)) :
    StableHlo.after (hostOps8 (F := F)) W (Proc.devRef .tc main_v239)
      = Spec.matD2xD 2 (W (Proc.devRef .tc main_v41)) := by
  dsimp only [hostOps8]; after_results_simp; rfl

/-- Graph-level layer 2's second bias. -/
theorem host8_v242 (W : Valuation τ sig (Elt F)) :
    StableHlo.after (hostOps8 (F := F)) W (Proc.devRef .tc main_v242)
      = Spec.row1 2 (W (Proc.devRef .tc main_arg22)) := by
  dsimp only [hostOps8]; after_results_simp; rfl

/-- Graph-level layer 2's output folded scale. -/
theorem host8_v245 (W : Valuation τ sig (Elt F)) :
    StableHlo.after (hostOps8 (F := F)) W (Proc.devRef .tc main_v245)
      = Spec.row1 2 (W (Proc.devRef .tc main_v35)) := by
  dsimp only [hostOps8]; after_results_simp; rfl

/-- Graph-level layer 2's output folded shift. -/
theorem host8_v248 (W : Valuation τ sig (Elt F)) :
    StableHlo.after (hostOps8 (F := F)) W (Proc.devRef .tc main_v248)
      = Spec.row1 2 (W (Proc.devRef .tc main_v37)) := by
  dsimp only [hostOps8]; after_results_simp; rfl

/-- Graph-level layer 3's input: the pooled rows plus the previous virtual node. -/
theorem host11_v295 (W : Valuation τ sig (Elt F)) :
    StableHlo.after (hostOps11 (F := F)) W (Proc.devRef .tc main_v295)
      = addf (W (Proc.devRef .tc main_v294)) (W (Proc.devRef .tc main_v249)) := by
  dsimp only [hostOps11]; after_results_simp

/-- Graph-level layer 3's first weight matrix. -/
theorem host11_v297 (W : Valuation τ sig (Elt F)) :
    StableHlo.after (hostOps11 (F := F)) W (Proc.devRef .tc main_v297)
      = Spec.matDxD2 3 (W (Proc.devRef .tc main_v40)) := by
  dsimp only [hostOps11]; after_results_simp; rfl

/-- Graph-level layer 3's first bias. -/
theorem host11_v300 (W : Valuation τ sig (Elt F)) :
    StableHlo.after (hostOps11 (F := F)) W (Proc.devRef .tc main_v300)
      = Spec.row2 3 (W (Proc.devRef .tc main_arg16)) := by
  dsimp only [hostOps11]; after_results_simp; rfl

/-- Graph-level layer 3's hidden folded scale. -/
theorem host11_v303 (W : Valuation τ sig (Elt F)) :
    StableHlo.after (hostOps11 (F := F)) W (Proc.devRef .tc main_v303)
      = Spec.row2 3 (W (Proc.devRef .tc main_v29)) := by
  dsimp only [hostOps11]; after_results_simp; rfl

/-- Graph-level layer 3's hidden folded shift. -/
theorem host11_v306 (W : Valuation τ sig (Elt F)) :
    StableHlo.after (hostOps11 (F := F)) W (Proc.devRef .tc main_v306)
      = Spec.row2 3 (W (Proc.devRef .tc main_v31)) := by
  dsimp only [hostOps11]; after_results_simp; rfl

/-- Graph-level layer 3's second weight matrix. -/
theorem host11_v308 (W : Valuation τ sig (Elt F)) :
    StableHlo.after (hostOps11 (F := F)) W (Proc.devRef .tc main_v308)
      = Spec.matD2xD 3 (W (Proc.devRef .tc main_v41)) := by
  dsimp only [hostOps11]; after_results_simp; rfl

/-- Graph-level layer 3's second bias. -/
theorem host11_v311 (W : Valuation τ sig (Elt F)) :
    StableHlo.after (hostOps11 (F := F)) W (Proc.devRef .tc main_v311)
      = Spec.row1 3 (W (Proc.devRef .tc main_arg22)) := by
  dsimp only [hostOps11]; after_results_simp; rfl

/-- Graph-level layer 3's output folded scale. -/
theorem host11_v314 (W : Valuation τ sig (Elt F)) :
    StableHlo.after (hostOps11 (F := F)) W (Proc.devRef .tc main_v314)
      = Spec.row1 3 (W (Proc.devRef .tc main_v35)) := by
  dsimp only [hostOps11]; after_results_simp; rfl

/-- Graph-level layer 3's output folded shift. -/
theorem host11_v317 (W : Valuation τ sig (Elt F)) :
    StableHlo.after (hostOps11 (F := F)) W (Proc.devRef .tc main_v317)
      = Spec.row1 3 (W (Proc.devRef .tc main_v37)) := by
  dsimp only [hostOps11]; after_results_simp; rfl

/-- The number of nodes of each graph. -/
theorem host13_v366 (W : Valuation τ sig (Elt F)) :
    StableHlo.after (hostOps13 (F := F)) W (Proc.devRef .tc main_v366)
      = Spec.countsOf (W (Proc.devRef .tc main_arg31)) := by
  dsimp only [hostOps13]; after_results_simp; rfl

/-- The predictor's bias as a row. -/
theorem host14_v368 (W : Valuation τ sig (Elt F)) :
    StableHlo.after (hostOps14 (F := F)) W (Proc.devRef .tc main_v368)
      = Spec.biasRow (W (Proc.devRef .tc main_arg28)) := by
  dsimp only [hostOps14]; after_results_simp; rfl

end Cert.KernelIdeal.HandValue
-- ==== Proof.KiHostKeep.lean ====
/-
  Which buffers each host stretch of the kernel program writes, and that every other buffer keeps its contents across the stretch.
-/
import proofs.«403491_j395136991532_1_alg».proof.Proof.Gen.KernelIdeal.Launch
set_option maxRecDepth 4000

noncomputable section

namespace Cert.KernelIdeal.Hand

open Idealize.ShloMosaic Cert.KernelIdeal Cert.KernelIdeal.Gen

variable {F : FTy → Type} [FloatOps F]

/-- The buffers stretch 0 writes, in order. -/
abbrev hostOps0_W : List (Ref sig .tc) := [main_c, main_v0, main_v1, main_c_0, main_v2, main_v3, main_v4, main_v5, main_v6, main_v7, main_v8, main_v9, main_v10, main_v11, main_v12, main_v13, main_cst, main_v14, main_v15, main_v16, main_v17, main_v18, main_v19, main_cst_1, main_v20, main_v21, main_v22, main_v23, main_v24, main_v25, main_cst_2, main_v26, main_v27, main_v28, main_v29, main_v30, main_v31, main_cst_3, main_v32, main_v33, main_v34, main_v35, main_v36, main_v37, main_v38, main_v39, main_v40, main_v41, main_v42, main_c_4, main_v43, main_v44, main_c_5, main_v45, main_v46, main_v47, main_v48, main_v49, main_v50, main_c_6, main_v51, main_v52, main_c_7, main_v53, main_v54, main_v55, main_v56, main_v57, main_cst_8, main_v58, main_v59, main_v60, main_v61, main_v62, main_v63, main_v64, main_v65, main_v66, main_v67, main_v68, main_v69, main_v70, main_v71, main_v72, main_v73, main_v74, main_v75, main_v76, main_v77, main_v78, main_v79, main_v80, main_v81, main_v82, main_v83, main_v84, main_v85]
set_option maxHeartbeats 4000000 in
/-- Every operation of stretch 0 writes one of them. -/
theorem hostOps0_writes : (hostOps0 : List (HloOp τ sig (Elt F))).Forall fun op => op.writes ⊆ (hostOps0_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  and_intros <;> exact List.mem_map_of_mem (by decide)
/-- A buffer stretch 0 does not write keeps its contents. -/
theorem host0_keep (W : Valuation τ sig (Elt F)) (r : Ref sig .tc) (hr : r ∉ hostOps0_W) :
    StableHlo.after (hostOps0 (F := F)) W (Proc.devRef .tc r) = W (Proc.devRef .tc r) :=
  StableHlo.after_of_writes_sub hostOps0 W hostOps0_writes hr

/-- The buffers stretch 2 writes, in order. -/
abbrev hostOps2_W : List (Ref sig .tc) := [main_v88, main_v89, main_v90, main_v91, main_v92, main_v93, main_v94, main_v95, main_v96, main_v97, main_v98, main_v99, main_v100, main_v101, main_v102, main_v103, main_v104, main_v105, main_v106, main_v107, main_v108, main_v109, main_v110]
set_option maxHeartbeats 4000000 in
/-- Every operation of stretch 2 writes one of them. -/
theorem hostOps2_writes : (hostOps2 : List (HloOp τ sig (Elt F))).Forall fun op => op.writes ⊆ (hostOps2_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  and_intros <;> exact List.mem_map_of_mem (by decide)
/-- A buffer stretch 2 does not write keeps its contents. -/
theorem host2_keep (W : Valuation τ sig (Elt F)) (r : Ref sig .tc) (hr : r ∉ hostOps2_W) :
    StableHlo.after (hostOps2 (F := F)) W (Proc.devRef .tc r) = W (Proc.devRef .tc r) :=
  StableHlo.after_of_writes_sub hostOps2 W hostOps2_writes hr

/-- The buffers stretch 3 writes, in order. -/
abbrev hostOps3_W : List (Ref sig .tc) := [main_c_9, main_v112, main_v113, main_c_10, main_v114, main_v115, main_v116, main_v117, main_v118, main_v119, main_c_11, main_v120, main_v121, main_c_12, main_v122, main_v123, main_v124, main_v125, main_v126, main_cst_13, main_v127, main_v128, main_v129, main_v130, main_v131, main_v132, main_v133, main_v134, main_v135, main_v136, main_v137, main_v138, main_v139, main_v140, main_v141, main_v142, main_v143, main_v144, main_v145, main_v146, main_v147, main_v148, main_v149, main_v150, main_v151, main_v152, main_v153, main_v154]
set_option maxHeartbeats 4000000 in
/-- Every operation of stretch 3 writes one of them. -/
theorem hostOps3_writes : (hostOps3 : List (HloOp τ sig (Elt F))).Forall fun op => op.writes ⊆ (hostOps3_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  and_intros <;> exact List.mem_map_of_mem (by decide)
/-- A buffer stretch 3 does not write keeps its contents. -/
theorem host3_keep (W : Valuation τ sig (Elt F)) (r : Ref sig .tc) (hr : r ∉ hostOps3_W) :
    StableHlo.after (hostOps3 (F := F)) W (Proc.devRef .tc r) = W (Proc.devRef .tc r) :=
  StableHlo.after_of_writes_sub hostOps3 W hostOps3_writes hr

/-- The buffers stretch 5 writes, in order. -/
abbrev hostOps5_W : List (Ref sig .tc) := [main_v157, main_v158, main_v159, main_v160, main_v161, main_v162, main_v163, main_v164, main_v165, main_v166, main_v167, main_v168, main_v169, main_v170, main_v171, main_v172, main_v173, main_v174, main_v175, main_v176, main_v177, main_v178, main_v179]
set_option maxHeartbeats 4000000 in
/-- Every operation of stretch 5 writes one of them. -/
theorem hostOps5_writes : (hostOps5 : List (HloOp τ sig (Elt F))).Forall fun op => op.writes ⊆ (hostOps5_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  and_intros <;> exact List.mem_map_of_mem (by decide)
/-- A buffer stretch 5 does not write keeps its contents. -/
theorem host5_keep (W : Valuation τ sig (Elt F)) (r : Ref sig .tc) (hr : r ∉ hostOps5_W) :
    StableHlo.after (hostOps5 (F := F)) W (Proc.devRef .tc r) = W (Proc.devRef .tc r) :=
  StableHlo.after_of_writes_sub hostOps5 W hostOps5_writes hr

/-- The buffers stretch 6 writes, in order. -/
abbrev hostOps6_W : List (Ref sig .tc) := [main_c_14, main_v181, main_v182, main_c_15, main_v183, main_v184, main_v185, main_v186, main_v187, main_v188, main_c_16, main_v189, main_v190, main_c_17, main_v191, main_v192, main_v193, main_v194, main_v195, main_cst_18, main_v196, main_v197, main_v198, main_v199, main_v200, main_v201, main_v202, main_v203, main_v204, main_v205, main_v206, main_v207, main_v208, main_v209, main_v210, main_v211, main_v212, main_v213, main_v214, main_v215, main_v216, main_v217, main_v218, main_v219, main_v220, main_v221, main_v222, main_v223]
set_option maxHeartbeats 4000000 in
/-- Every operation of stretch 6 writes one of them. -/
theorem hostOps6_writes : (hostOps6 : List (HloOp τ sig (Elt F))).Forall fun op => op.writes ⊆ (hostOps6_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  and_intros <;> exact List.mem_map_of_mem (by decide)
/-- A buffer stretch 6 does not write keeps its contents. -/
theorem host6_keep (W : Valuation τ sig (Elt F)) (r : Ref sig .tc) (hr : r ∉ hostOps6_W) :
    StableHlo.after (hostOps6 (F := F)) W (Proc.devRef .tc r) = W (Proc.devRef .tc r) :=
  StableHlo.after_of_writes_sub hostOps6 W hostOps6_writes hr

/-- The buffers stretch 8 writes, in order. -/
abbrev hostOps8_W : List (Ref sig .tc) := [main_v226, main_v227, main_v228, main_v229, main_v230, main_v231, main_v232, main_v233, main_v234, main_v235, main_v236, main_v237, main_v238, main_v239, main_v240, main_v241, main_v242, main_v243, main_v244, main_v245, main_v246, main_v247, main_v248]
set_option maxHeartbeats 4000000 in
/-- Every operation of stretch 8 writes one of them. -/
theorem hostOps8_writes : (hostOps8 : List (HloOp τ sig (Elt F))).Forall fun op => op.writes ⊆ (hostOps8_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  and_intros <;> exact List.mem_map_of_mem (by decide)
/-- A buffer stretch 8 does not write keeps its contents. -/
theorem host8_keep (W : Valuation τ sig (Elt F)) (r : Ref sig .tc) (hr : r ∉ hostOps8_W) :
    StableHlo.after (hostOps8 (F := F)) W (Proc.devRef .tc r) = W (Proc.devRef .tc r) :=
  StableHlo.after_of_writes_sub hostOps8 W hostOps8_writes hr

/-- The buffers stretch 9 writes, in order. -/
abbrev hostOps9_W : List (Ref sig .tc) := [main_c_19, main_v250, main_v251, main_c_20, main_v252, main_v253, main_v254, main_v255, main_v256, main_v257, main_c_21, main_v258, main_v259, main_c_22, main_v260, main_v261, main_v262, main_v263, main_v264, main_cst_23, main_v265, main_v266, main_v267, main_v268, main_v269, main_v270, main_v271, main_v272, main_v273, main_v274, main_v275, main_v276, main_v277, main_v278, main_v279, main_v280, main_v281, main_v282, main_v283, main_v284, main_v285, main_v286, main_v287, main_v288, main_v289, main_v290, main_v291, main_v292]
set_option maxHeartbeats 4000000 in
/-- Every operation of stretch 9 writes one of them. -/
theorem hostOps9_writes : (hostOps9 : List (HloOp τ sig (Elt F))).Forall fun op => op.writes ⊆ (hostOps9_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  and_intros <;> exact List.mem_map_of_mem (by decide)
/-- A buffer stretch 9 does not write keeps its contents. -/
theorem host9_keep (W : Valuation τ sig (Elt F)) (r : Ref sig .tc) (hr : r ∉ hostOps9_W) :
    StableHlo.after (hostOps9 (F := F)) W (Proc.devRef .tc r) = W (Proc.devRef .tc r) :=
  StableHlo.after_of_writes_sub hostOps9 W hostOps9_writes hr

/-- The buffers stretch 11 writes, in order. -/
abbrev hostOps11_W : List (Ref sig .tc) := [main_v295, main_v296, main_v297, main_v298, main_v299, main_v300, main_v301, main_v302, main_v303, main_v304, main_v305, main_v306, main_v307, main_v308, main_v309, main_v310, main_v311, main_v312, main_v313, main_v314, main_v315, main_v316, main_v317]
set_option maxHeartbeats 4000000 in
/-- Every operation of stretch 11 writes one of them. -/
theorem hostOps11_writes : (hostOps11 : List (HloOp τ sig (Elt F))).Forall fun op => op.writes ⊆ (hostOps11_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  and_intros <;> exact List.mem_map_of_mem (by decide)
/-- A buffer stretch 11 does not write keeps its contents. -/
theorem host11_keep (W : Valuation τ sig (Elt F)) (r : Ref sig .tc) (hr : r ∉ hostOps11_W) :
    StableHlo.after (hostOps11 (F := F)) W (Proc.devRef .tc r) = W (Proc.devRef .tc r) :=
  StableHlo.after_of_writes_sub hostOps11 W hostOps11_writes hr

/-- The buffers stretch 12 writes, in order. -/
abbrev hostOps12_W : List (Ref sig .tc) := [main_c_24, main_v319, main_v320, main_c_25, main_v321, main_v322, main_v323, main_v324, main_v325, main_v326, main_c_26, main_v327, main_v328, main_c_27, main_v329, main_v330, main_v331, main_v332, main_v333, main_cst_28, main_v334, main_v335, main_v336, main_v337, main_v338, main_v339, main_v340, main_v341, main_v342, main_v343, main_v344, main_v345, main_v346, main_v347, main_v348, main_v349, main_v350, main_v351, main_v352, main_v353, main_v354, main_v355, main_v356, main_v357, main_v358, main_v359, main_v360, main_v361]
set_option maxHeartbeats 4000000 in
/-- Every operation of stretch 12 writes one of them. -/
theorem hostOps12_writes : (hostOps12 : List (HloOp τ sig (Elt F))).Forall fun op => op.writes ⊆ (hostOps12_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  and_intros <;> exact List.mem_map_of_mem (by decide)
/-- A buffer stretch 12 does not write keeps its contents. -/
theorem host12_keep (W : Valuation τ sig (Elt F)) (r : Ref sig .tc) (hr : r ∉ hostOps12_W) :
    StableHlo.after (hostOps12 (F := F)) W (Proc.devRef .tc r) = W (Proc.devRef .tc r) :=
  StableHlo.after_of_writes_sub hostOps12 W hostOps12_writes hr

/-- The buffers stretch 13 writes, in order. -/
abbrev hostOps13_W : List (Ref sig .tc) := [main_cst_29, main_v363, main_cst_30, main_v364, main_v365, main_v366]
set_option maxHeartbeats 4000000 in
/-- Every operation of stretch 13 writes one of them. -/
theorem hostOps13_writes : (hostOps13 : List (HloOp τ sig (Elt F))).Forall fun op => op.writes ⊆ (hostOps13_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  and_intros <;> exact List.mem_map_of_mem (by decide)
/-- A buffer stretch 13 does not write keeps its contents. -/
theorem host13_keep (W : Valuation τ sig (Elt F)) (r : Ref sig .tc) (hr : r ∉ hostOps13_W) :
    StableHlo.after (hostOps13 (F := F)) W (Proc.devRef .tc r) = W (Proc.devRef .tc r) :=
  StableHlo.after_of_writes_sub hostOps13 W hostOps13_writes hr

/-- The buffers stretch 14 writes, in order. -/
abbrev hostOps14_W : List (Ref sig .tc) := [main_v368]
set_option maxHeartbeats 4000000 in
/-- Every operation of stretch 14 writes one of them. -/
theorem hostOps14_writes : (hostOps14 : List (HloOp τ sig (Elt F))).Forall fun op => op.writes ⊆ (hostOps14_W.map (Proc.devRef (τ := τ) .tc)).toFinset := by
  simp only [List.Forall, StableHlo.nullary_writes, StableHlo.unary_writes, StableHlo.binary_writes, StableHlo.ternary_writes, StableHlo.reshape_writes, Finset.singleton_subset_iff, List.mem_toFinset]
  and_intros <;> exact List.mem_map_of_mem (by decide)
/-- A buffer stretch 14 does not write keeps its contents. -/
theorem host14_keep (W : Valuation τ sig (Elt F)) (r : Ref sig .tc) (hr : r ∉ hostOps14_W) :
    StableHlo.after (hostOps14 (F := F)) W (Proc.devRef .tc r) = W (Proc.devRef .tc r) :=
  StableHlo.after_of_writes_sub hostOps14 W hostOps14_writes hr

end Cert.KernelIdeal.Hand
-- ==== Proof.SpecReal.lean ====
/-
  Realness on the extended reals.

  At the ideal instance a float is an extended real, and the ring laws a batch normalisation is
  rearranged by (distributivity, the cancellation of a common factor) hold among the REAL values only:
  at an infinity "x * (y + z) = x * y + x * z" fails. This module names the real values ("IsReal"), shows that
  every operation a feed-forward network is made of keeps them (sums, products, differences, maxima, square
  roots of nonnegatives, quotients by a nonzero real, finite sums and hence contractions, accumulating
  scatters and host sums, every re-indexing of an array, the reading of a finite bit pattern and of an integer),
  and states the batch-normalisation law itself: for real h, m, g, b and a positive real s,
  ((h - m) * g) / s + b = h * (g / s) + (b - m * (g / s)).
-/
import Idealize.ShloMosaic.PureOps.Ideal
import Idealize.ShloMosaic.PureOps.Ideal.Laws
import Idealize.ShloMosaic.Lib.ValueIdx
import Mathlib.Data.EReal.Basic
import Mathlib.Data.EReal.Operations
import Mathlib.Data.EReal.Inv
import Mathlib.Analysis.SpecialFunctions.Sqrt

noncomputable section

namespace Cert.Spec

open Idealize.ShloMosaic
open scoped BigOperators

/-! ## Real values -/

/-- An extended real that is a real number: neither infinity. -/
def IsReal (x : EReal) : Prop := ∃ r : ℝ, x = (r : EReal)

/-- Every entry of an array of extended reals is a real number. -/
def AllReal {ι : Type} (x : ι → EReal) : Prop := ∀ i, IsReal (x i)

theorem isReal_coe (r : ℝ) : IsReal (r : EReal) := ⟨r, rfl⟩

theorem isReal_iff {x : EReal} : IsReal x ↔ x ≠ ⊤ ∧ x ≠ ⊥ := by
  constructor
  · rintro ⟨r, rfl⟩; exact ⟨EReal.coe_ne_top r, EReal.coe_ne_bot r⟩
  · rintro ⟨ht, hb⟩
    induction x using EReal.rec with
    | bot => exact absurd rfl hb
    | top => exact absurd rfl ht
    | coe r => exact ⟨r, rfl⟩

theorem IsReal.ne_top {x : EReal} (h : IsReal x) : x ≠ ⊤ := (isReal_iff.1 h).1
theorem IsReal.ne_bot {x : EReal} (h : IsReal x) : x ≠ ⊥ := (isReal_iff.1 h).2

theorem isReal_zero : IsReal (0 : EReal) := ⟨0, EReal.coe_zero.symm⟩
theorem isReal_one : IsReal (1 : EReal) := ⟨1, EReal.coe_one.symm⟩

section Closure
variable {x y : EReal}

theorem IsReal.add (hx : IsReal x) (hy : IsReal y) : IsReal (x + y) := by
  obtain ⟨a, rfl⟩ := hx; obtain ⟨b, rfl⟩ := hy; exact ⟨a + b, (EReal.coe_add a b).symm⟩

theorem IsReal.sub (hx : IsReal x) (hy : IsReal y) : IsReal (x - y) := by
  obtain ⟨a, rfl⟩ := hx; obtain ⟨b, rfl⟩ := hy; exact ⟨a - b, (EReal.coe_sub a b).symm⟩

theorem IsReal.mul (hx : IsReal x) (hy : IsReal y) : IsReal (x * y) := by
  obtain ⟨a, rfl⟩ := hx; obtain ⟨b, rfl⟩ := hy; exact ⟨a * b, (EReal.coe_mul a b).symm⟩

theorem IsReal.neg (hx : IsReal x) : IsReal (-x) := by
  obtain ⟨a, rfl⟩ := hx; exact ⟨-a, (EReal.coe_neg a).symm⟩

theorem IsReal.max (hx : IsReal x) (hy : IsReal y) : IsReal (max x y) := by
  rcases le_total x y with h | h
  · rw [max_eq_right h]; exact hy
  · rw [max_eq_left h]; exact hx

theorem IsReal.min (hx : IsReal x) (hy : IsReal y) : IsReal (min x y) := by
  rcases le_total x y with h | h
  · rw [min_eq_left h]; exact hx
  · rw [min_eq_right h]; exact hy

/-- The quotient of two reals by the ideal division is real when the divisor is not zero. -/
theorem IsReal.div (hx : IsReal x) (hy : IsReal y) (h0 : y ≠ 0) : IsReal (Ideal.div x y) := by
  obtain ⟨a, rfl⟩ := hx; obtain ⟨b, rfl⟩ := hy
  have hb : b ≠ 0 := fun e => h0 (by rw [e, EReal.coe_zero])
  rw [Ideal.div_coe hb]
  exact ⟨a * (1 / b), (EReal.coe_mul _ _).symm⟩

/-- The ideal square root of a nonnegative real is real. -/
theorem IsReal.sqrt (hx : IsReal x) (h0 : 0 ≤ x) : IsReal (Ideal.sqrt x) := by
  obtain ⟨a, rfl⟩ := hx
  have ha : 0 ≤ a := EReal.coe_nonneg.mp h0
  rw [Ideal.sqrt_coe, if_neg (not_lt.mpr ha)]
  exact ⟨_, rfl⟩

/-- The ideal square root of a positive real is positive. -/
theorem sqrt_pos_of_pos (hx : IsReal x) (h0 : 0 < x) : 0 < Ideal.sqrt x := by
  obtain ⟨a, rfl⟩ := hx
  have ha : 0 < a := EReal.coe_pos.mp h0
  rw [Ideal.sqrt_coe, if_neg (not_lt.mpr ha.le)]
  exact EReal.coe_pos.mpr (Real.sqrt_pos.mpr ha)

/-- A maximum with one is never zero: the divisor of a mean over a possibly empty segment. -/
theorem max_one_ne_zero (c : EReal) : max c 1 ≠ 0 :=
  (lt_of_lt_of_le zero_lt_one (le_max_right c 1)).ne'

end Closure

/-- A finite sum of reals is real. -/
theorem isReal_sum {ι : Type} (s : Finset ι) (f : ι → EReal) (h : ∀ i ∈ s, IsReal (f i)) : IsReal (∑ i ∈ s, f i) :=
  Finset.sum_induction f IsReal (fun _ _ => IsReal.add) isReal_zero h

/-- A selection between two reals is real. -/
theorem isReal_select (c : BitVec 1) {a b : EReal} (ha : IsReal a) (hb : IsReal b) : IsReal (Scalar.select c a b) := by
  unfold Scalar.select; split <;> assumption

/-! ## The operations of the ideal instance, by their names -/

section Fields
variable {φ : FTy} {x y : Ideal φ}

theorem isReal_addf (hx : IsReal x) (hy : IsReal y) : IsReal (FloatOps.addf x y) := hx.add hy
theorem isReal_subf (hx : IsReal x) (hy : IsReal y) : IsReal (FloatOps.subf x y) := hx.sub hy
theorem isReal_mulf (hx : IsReal x) (hy : IsReal y) : IsReal (FloatOps.mulf x y) := hx.mul hy
theorem isReal_maximumf (hx : IsReal x) (hy : IsReal y) : IsReal (FloatOps.maximumf x y) := hx.max hy
theorem isReal_divf (hx : IsReal x) (hy : IsReal y) (h0 : y ≠ 0) : IsReal (FloatOps.divf x y) := hx.div hy h0
theorem isReal_hostDivf (hx : IsReal x) (hy : IsReal y) (h0 : y ≠ 0) : IsReal (FloatOps.hostDivf x y) := hx.div hy h0
theorem isReal_sqrt (hx : IsReal x) (h0 : 0 ≤ x) : IsReal (FloatOps.sqrt x) := hx.sqrt h0
theorem isReal_hostSqrt (hx : IsReal x) (h0 : 0 ≤ x) : IsReal (FloatOps.hostUnary .sqrt x) := hx.sqrt h0
theorem isReal_extf (ψ : FTy) (h : φ.bits < ψ.bits) (hx : IsReal x) : IsReal (FloatOps.extf (F := Ideal) ψ h x) := hx
theorem isReal_truncf (ψ : FTy) (h : ψ.bits < φ.bits) (hx : IsReal x) : IsReal (FloatOps.truncf (F := Ideal) ψ h x) := hx
/-- An integer read as a float is real, signed or unsigned. -/
theorem isReal_sitofp {w : Nat} (b : BitVec w) : IsReal (FloatOps.sitofp (F := Ideal) φ b) := ⟨_, rfl⟩
theorem isReal_uitofp {w : Nat} (b : BitVec w) : IsReal (FloatOps.uitofp (F := Ideal) φ b) := ⟨_, rfl⟩

end Fields

/-! ## Bit patterns -/

/-- A binary32 pattern whose exponent field is not all ones denotes a real number. -/
theorem isReal_ofBits_f32 (b : BitVec 32) (h : (b.extractLsb' 23 8).toNat ≠ 255) : IsReal (Ideal.ofBits .f32 b) := by
  show IsReal (Ideal.ieee 8 23 b)
  unfold Ideal.ieee
  dsimp only
  rw [if_neg (by simpa using h)]
  split_ifs <;> exact ⟨_, rfl⟩

theorem ofBits_zero : Ideal.ofBits .f32 0x00000000#32 = 0 := Ideal.ofBits_zero_f32
theorem ofBits_one : Ideal.ofBits .f32 0x3F800000#32 = 1 := by
  simp [Ideal.ofBits, Ideal.ieee, -EReal.coe_mul]; norm_num

/-- The stabiliser of a batch normalisation's variance: the binary32 number nearest 1e-5. -/
def eps : EReal := Ideal.ofBits .f32 0x3727C5AC#32

/-- It is a positive real. -/
theorem eps_real_pos : ∃ e : ℝ, 0 < e ∧ eps = (e : EReal) := by
  refine ⟨(10995116 : ℝ) * (2 : ℝ) ^ (-40 : ℤ), by positivity, ?_⟩
  simp [eps, Ideal.ofBits, Ideal.ieee, -EReal.coe_mul]

theorem isReal_eps : IsReal eps := by obtain ⟨e, _, h⟩ := eps_real_pos; exact ⟨e, h⟩
theorem eps_pos : 0 < eps := by obtain ⟨e, he, h⟩ := eps_real_pos; rw [h]; exact EReal.coe_pos.mpr he

/-- A nonnegative real variance plus the stabiliser has a real, positive square root. -/
theorem sqrt_add_eps {v : EReal} (hv : IsReal v) (h0 : 0 ≤ v) :
    IsReal (Ideal.sqrt (v + eps)) ∧ 0 < Ideal.sqrt (v + eps) := by
  have hr : IsReal (v + eps) := hv.add isReal_eps
  have hp : 0 < v + eps := by
    calc (0 : EReal) = 0 + 0 := (add_zero 0).symm
      _ < v + eps := by
        obtain ⟨a, rfl⟩ := hv; obtain ⟨e, he, h⟩ := eps_real_pos
        have ha : 0 ≤ a := EReal.coe_nonneg.mp h0
        rw [h, add_zero, ← EReal.coe_add]; exact EReal.coe_pos.mpr (by linarith)
  exact ⟨hr.sqrt hp.le, sqrt_pos_of_pos hr hp⟩

/-! ## The batch-normalisation law -/

/-- For real h, m, g, b and a positive real s: normalising then scaling and shifting is one
    multiplication by g / s and one addition of b - m * (g / s). -/
theorem bn_law {h m g b s : EReal} (hh : IsReal h) (hm : IsReal m) (hg : IsReal g) (hb : IsReal b) (hs : IsReal s)
    (hpos : 0 < s) :
    Ideal.div ((h - m) * g) s + b = h * Ideal.div g s + (b - m * Ideal.div g s) := by
  obtain ⟨h, rfl⟩ := hh; obtain ⟨m, rfl⟩ := hm; obtain ⟨g, rfl⟩ := hg; obtain ⟨b, rfl⟩ := hb; obtain ⟨s, rfl⟩ := hs
  have hs0 : s ≠ 0 := (EReal.coe_pos.mp hpos).ne'
  rw [Ideal.div_coe hs0, Ideal.div_coe hs0]
  simp only [← EReal.coe_sub, ← EReal.coe_mul, ← EReal.coe_add]
  exact congrArg _ (by ring)

/-- Both sides of the law are real. -/
theorem bn_real {h m g b s : EReal} (hh : IsReal h) (hm : IsReal m) (hg : IsReal g) (hb : IsReal b) (hs : IsReal s)
    (hpos : 0 < s) : IsReal (Ideal.div ((h - m) * g) s + b) :=
  (((hh.sub hm).mul hg).div hs hpos.ne').add hb

/-- The folded scale g / s and shift b - m * (g / s) are real. -/
theorem bn_scale_real {g s : EReal} (hg : IsReal g) (hs : IsReal s) (hpos : 0 < s) : IsReal (Ideal.div g s) :=
  hg.div hs hpos.ne'
theorem bn_shift_real {m g b s : EReal} (hm : IsReal m) (hg : IsReal g) (hb : IsReal b) (hs : IsReal s) (hpos : 0 < s) :
    IsReal (b - m * Ideal.div g s) :=
  hb.sub (hm.mul (hg.div hs hpos.ne'))

/-! ## Arrays -/

section Arrays
variable {ι κ : Type}

/-- Re-indexing an array (a broadcast, a slice, a reshape, a gather, a transpose) keeps every entry real. -/
theorem AllReal.comp {x : ι → EReal} (hx : AllReal x) (f : κ → ι) : AllReal (fun j => x (f j)) := fun j => hx (f j)

theorem allReal_const {r : EReal} (hr : IsReal r) : AllReal (fun _ : ι => r) := fun _ => hr

variable {s : Shape} {φ : FTy}

theorem AllReal.addf {x y : FVec Ideal s φ} (hx : AllReal x) (hy : AllReal y) : AllReal (addf x y) := fun i => (hx i).add (hy i)
theorem AllReal.subf {x y : FVec Ideal s φ} (hx : AllReal x) (hy : AllReal y) : AllReal (subf x y) := fun i => (hx i).sub (hy i)
theorem AllReal.mulf {x y : FVec Ideal s φ} (hx : AllReal x) (hy : AllReal y) : AllReal (mulf x y) := fun i => (hx i).mul (hy i)
theorem AllReal.maximumf {x y : FVec Ideal s φ} (hx : AllReal x) (hy : AllReal y) : AllReal (maximumf x y) :=
  fun i => (hx i).max (hy i)
theorem AllReal.hostDivf {x y : FVec Ideal s φ} (hx : AllReal x) (hy : AllReal y) (h0 : ∀ i, y i ≠ 0) :
    AllReal (Host.divf x y) := fun i => (hx i).div (hy i) (h0 i)
theorem AllReal.hostSqrt {x : FVec Ideal s φ} (hx : AllReal x) (h0 : ∀ i, 0 ≤ x i) : AllReal (Host.sqrt x) :=
  fun i => (hx i).sqrt (h0 i)
theorem AllReal.select (c : IVec s 1) {a b : s.Idx → EReal} (ha : AllReal a) (hb : AllReal b) : AllReal (select c a b) :=
  fun i => isReal_select (c i) (ha i) (hb i)
theorem allReal_constant_f32 (b : BitVec 32) (h : (b.extractLsb' 23 8).toNat ≠ 255) :
    AllReal (constant (F := Ideal) s .f32 b) := fun _ => isReal_ofBits_f32 b h
theorem allReal_sitofp {w : Nat} (x : IVec s w) : AllReal (sitofp (F := Ideal) φ x) := fun i => isReal_sitofp (x i)
theorem allReal_uitofp {w : Nat} (x : IVec s w) : AllReal (uitofp (F := Ideal) φ x) := fun i => isReal_uitofp (x i)

theorem AllReal.broadcastInDim {t : Shape} {dims : Fin s.rank → Fin t.rank} (h : s.BroadcastsInDim t dims)
    {x : s.Idx → EReal} (hx : AllReal x) : AllReal (broadcastInDim t dims h x) := fun _ => hx _
theorem AllReal.shapeCast {t : Shape} {x : s.Idx → EReal} (hx : AllReal x) (h : s.ShapeCasts t) :
    AllReal (shapeCast t x h) := fun _ => hx _
theorem AllReal.gather {t si : Shape} {w : Nat} (d : GatherDims s si t) {x : s.Idx → EReal} (hx : AllReal x)
    (idx : IVec si w) : AllReal (Host.gather d x idx) := fun _ => hx _

/-- A contraction of real operands onto a real accumulator is real: a finite sum of products. -/
theorem AllReal.matmul {sl sr so : Shape} (d : DotDims sl sr so) {lhs : sl.Idx → EReal} {rhs : sr.Idx → EReal}
    {acc : so.Idx → EReal} (hl : AllReal lhs) (hr : AllReal rhs) (ha : AllReal acc) : AllReal (Ideal.matmul d lhs rhs acc) :=
  fun j => (ha j).add (isReal_sum _ _ fun k _ => (hl _).mul (hr _))

theorem AllReal.matmulOp {sl sr so : Shape} {φ₁ φ₂ : FTy} (d : DotDims sl sr so) (prec : Option ContractPrecision)
    {lhs : FVec Ideal sl φ₁} {rhs : FVec Ideal sr φ₂} {acc : FVec Ideal so .f32}
    (hl : AllReal lhs) (hr : AllReal rhs) (ha : AllReal acc) : AllReal (FloatOps.matmul d prec lhs rhs acc) :=
  AllReal.matmul d hl hr ha

/-- The host's product of real operands is real. -/
theorem AllReal.dotGeneral {sl sr so : Shape} {φ₁ φ₂ : FTy} (d : DotDims sl sr so) (prec : Option ContractPrecision)
    (sched : HostSchedule) {lhs : FVec Ideal sl φ₁} {rhs : FVec Ideal sr φ₂} (hl : AllReal lhs) (hr : AllReal rhs) :
    AllReal (FloatOps.dotGeneral d prec sched lhs rhs) :=
  AllReal.matmul d hl hr (fun _ => isReal_zero)

/-- The host's accumulating scatter of real updates into a real operand is real, whatever the indices:
    an entry plus a finite sum of updates. -/
theorem AllReal.scatterAdd {si su : Shape} {w : Nat} (d : ScatterDims s si su) {x : FVec Ideal s φ} (idx : IVec si w)
    {upd : FVec Ideal su φ} (hx : AllReal x) (hu : AllReal upd) : AllReal (Host.scatterAdd d x idx upd) :=
  fun i => (hx i).add (isReal_sum _ _ fun j _ => hu j)

/-- The host's sum of a real array from a real initial value is real. -/
theorem AllReal.reduceAdd {axes : List (Fin s.rank)} {t u : Shape} {x : FVec Ideal s φ} {init : u.Idx → Ideal φ}
    (hx : AllReal x) (hi : AllReal init) (h : s.ReducesTo axes t) (hu : 0 < u.numel) :
    AllReal (Host.reduceAdd x init h hu) :=
  fun _ => (hi _).add (isReal_sum _ _ fun i _ => hx i)

end Arrays

end Cert.Spec

end
-- ==== Proof.SpecNet.lean ====
/-
  The network's layers as functions of arrays over the extended reals, index by index.

  A node's row passes through a two-layer perceptron: with z = (1 + eps) * h_in + agg (one row of 128 entries),
  the hidden row is max 0 of an affine image of z @ W1 + b1 (256 entries) and the output row an affine image of
  hidden @ W2 + b2 (128 entries), followed or not by max 0. The kernel applies each affine image in the folded form
  x * scale + shift; the reference in the batch-norm form ((x - m) * g) / sqrt (v + 1e-5) + b. With
  scale = g / sqrt (v + 1e-5) and shift = b - m * scale the two agree on real numbers when v >= 0 (the denominator
  is then a positive real), by the field laws; they do not agree at infinities, where multiplication does not
  distribute over subtraction, so every comparison below carries the hypothesis that its operands are real.

  A graph's pooled row is the sum of its nodes' rows; the virtual node passes the pooled rows (plus the previous
  virtual node) through the same perceptron shape; the head divides each graph's summed row by max (count, 1) and
  applies one more affine map.
-/
import Idealize.ShloMosaic.PureOps.Ideal
import Idealize.ShloMosaic.Lib.ValueIdx
import proofs.«403491_j395136991532_1_alg».proof.Proof.SharedHost
import proofs.«403491_j395136991532_1_alg».proof.Proof.SpecReal

noncomputable section

namespace Cert.Spec

open Idealize.ShloMosaic Idealize.ShloMosaic.ValueIdx

/-- An array of extended reals over a literal shape. -/
abbrev RArr (s : Shape) : Type := s.Idx → EReal

/-- The float literals 0.0 and 1.0 as the printed programs carry them (never evaluated: both sides hold the same words). -/
def zeroF : EReal := Ideal.ofBits .f32 0x00000000#32
def oneF : EReal := Ideal.ofBits .f32 0x3F800000#32

/-! ## One perceptron, row by row -/

/-- The perceptron's input row of node `p`: (1 + eps) * h_in + agg. -/
def ginZ (hin agg : RArr sNxD) (e : RArr s1x1) (p : Fin 50000) (k : Fin 128) : EReal :=
  (oneF + e (ix2 0 0)) * hin (ix2 p k) + agg (ix2 p k)

/-- The hidden row, in the folded form: max 0 ((z @ W1 + b1) * scale + shift). -/
def hiddenK (z : Fin 128 → EReal) (w1 : RArr sDxD2) (b1 sc1 sh1 : RArr s1xD2) (j : Fin 256) : EReal :=
  max (((∑ k : Fin 128, z k * w1 (ix2 k j)) + b1 (ix2 0 j)) * sc1 (ix2 0 j) + sh1 (ix2 0 j)) zeroF

/-- The output entry, in the folded form: (hidden @ W2 + b2) * scale + shift. -/
def outK (r : Fin 256 → EReal) (w2 : RArr sD2xD) (b2 sc2 sh2 : RArr s1xD) (q : Fin 128) : EReal :=
  ((∑ j : Fin 256, r j * w2 (ix2 j q)) + b2 (ix2 0 q)) * sc2 (ix2 0 q) + sh2 (ix2 0 q)

/-- The batch-norm form of an affine image: ((x - m) * g) / sqrt (v + 1e-5) + b. -/
def bnR (x m g v b : EReal) : EReal := Ideal.div ((x - m) * g) (Ideal.sqrt (v + eps)) + b

/-- The hidden row, in the batch-norm form. -/
def hiddenR (z : Fin 128 → EReal) (w1 : RArr sDxD2) (b1 g1 be1 m1 v1 : RArr s1xD2) (j : Fin 256) : EReal :=
  max (bnR ((∑ k : Fin 128, z k * w1 (ix2 k j)) + b1 (ix2 0 j)) (m1 (ix2 0 j)) (g1 (ix2 0 j)) (v1 (ix2 0 j)) (be1 (ix2 0 j))) zeroF

/-- The output entry, in the batch-norm form. -/
def outR (r : Fin 256 → EReal) (w2 : RArr sD2xD) (b2 g2 be2 m2 v2 : RArr s1xD) (q : Fin 128) : EReal :=
  bnR ((∑ j : Fin 256, r j * w2 (ix2 j q)) + b2 (ix2 0 q)) (m2 (ix2 0 q)) (g2 (ix2 0 q)) (v2 (ix2 0 q)) (be2 (ix2 0 q))

/-! ## What each kernel region computes, as one whole-array function -/

/-- A node-level perceptron region: every node's row through the folded perceptron, with a final max 0 iff `relu`. -/
def ginG (relu : Bool) (hin agg : RArr sNxD) (e : RArr s1x1) (w1 : RArr sDxD2) (b1 sc1 sh1 : RArr s1xD2)
    (w2 : RArr sD2xD) (b2 sc2 sh2 : RArr s1xD) : RArr sNxD := fun i =>
  let o := outK (hiddenK (ginZ hin agg e (i 0)) w1 b1 sc1 sh1) w2 b2 sc2 sh2 (i 1)
  if relu then max o zeroF else o

/-- A pooling region: graph `g`'s row is the sum of the rows of the nodes whose id word is `g`. -/
def segG (x : RArr sNxD) (bcol : sNx1.Idx → BitVec 32) : RArr sGxD := fun i =>
  ∑ t : Fin 50000, if bcol (ix2 t 0) = BitVec.ofNat 32 (i 0).val then x (ix2 t (i 1)) else 0

/-- A graph-level perceptron region: every graph's pooled row through the folded perceptron, then max 0. -/
def vnG (pooled : RArr sGxD) (w1 : RArr sDxD2) (b1 sc1 sh1 : RArr s1xD2) (w2 : RArr sD2xD) (b2 sc2 sh2 : RArr s1xD) :
    RArr sGxD := fun i =>
  max (outK (hiddenK (fun k => pooled (ix2 (i 0) k)) w1 b1 sc1 sh1) w2 b2 sc2 sh2 (i 1)) zeroF

/-- The head: each graph's summed row divided by max (count, 1), then an affine map onto the ten classes. -/
def finG (hg : RArr sGxD) (counts : RArr sGx1) (pw : RArr sDx10) (pb : RArr s1x10) : RArr (⟨2, ![256, 10]⟩ : Shape) := fun i =>
  (∑ k : Fin 128, Ideal.div (hg (ix2 (i 0) k)) (max (counts (ix2 (i 0) 0)) oneF) * pw (ix2 k (i 1))) + pb (ix2 0 (i 1))

/-! ## The same layers as the reference computes them -/

/-- A node-level layer of the reference. -/
def ginR (relu : Bool) (hin agg : RArr sNxD) (e : RArr s1x1) (w1 : RArr sDxD2) (b1 g1 be1 m1 v1 : RArr s1xD2)
    (w2 : RArr sD2xD) (b2 g2 be2 m2 v2 : RArr s1xD) : RArr sNxD := fun i =>
  let o := outR (hiddenR (ginZ hin agg e (i 0)) w1 b1 g1 be1 m1 v1) w2 b2 g2 be2 m2 v2 (i 1)
  if relu then max o zeroF else o

/-- A graph-level layer of the reference. -/
def vnR (pooled : RArr sGxD) (w1 : RArr sDxD2) (b1 g1 be1 m1 v1 : RArr s1xD2) (w2 : RArr sD2xD) (b2 g2 be2 m2 v2 : RArr s1xD) :
    RArr sGxD := fun i =>
  max (outR (hiddenR (fun k => pooled (ix2 (i 0) k)) w1 b1 g1 be1 m1 v1) w2 b2 g2 be2 m2 v2 (i 1)) zeroF

/-- The folded scale and shift of a batch-norm row. -/
def scaleRow {s : Shape} (g v : RArr s) : RArr s := fun i => Ideal.div (g i) (Ideal.sqrt (v i + eps))
def shiftRow {s : Shape} (b m g v : RArr s) : RArr s := fun i => b i - m i * scaleRow g v i

end Cert.Spec
-- ==== Proof.SpecLaws.lean ====
/-
  The folded form of a perceptron layer equals its batch-norm form on real operands with nonnegative variances,
  and a layer's output is again real.

  For one affine image: with s = sqrt (v + 1e-5), a positive real when v is a nonnegative real,
  ((x - m) * g) / s + b = x * (g / s) + (b - m * (g / s)) by the field laws of the reals. The sums inside a row are
  finite sums of products of reals, so every quantity the law is applied to is real; max with the literal zero keeps
  realness. The layer equalities follow entry by entry.
-/
import proofs.«403491_j395136991532_1_alg».proof.Proof.SpecNet

noncomputable section

namespace Cert.Spec

open Idealize.ShloMosaic Idealize.ShloMosaic.ValueIdx

theorem isReal_zeroF : IsReal zeroF := by unfold zeroF; rw [ofBits_zero]; exact isReal_zero
theorem isReal_oneF : IsReal oneF := by unfold oneF; rw [ofBits_one]; exact isReal_one

/-- An affine image in the folded form is the batch-norm form, on real operands with a nonnegative variance. -/
theorem fold_eq_bnR {x m g v b : EReal} (hx : IsReal x) (hm : IsReal m) (hg : IsReal g) (hv : IsReal v) (hb : IsReal b)
    (h0 : 0 ≤ v) :
    x * Ideal.div g (Ideal.sqrt (v + eps)) + (b - m * Ideal.div g (Ideal.sqrt (v + eps))) = bnR x m g v b := by
  obtain ⟨hs, hpos⟩ := sqrt_add_eps hv h0
  exact (bn_law hx hm hg hb hs hpos).symm

/-- and it is real. -/
theorem bnR_real {x m g v b : EReal} (hx : IsReal x) (hm : IsReal m) (hg : IsReal g) (hv : IsReal v) (hb : IsReal b)
    (h0 : 0 ≤ v) : IsReal (bnR x m g v b) := by
  obtain ⟨hs, hpos⟩ := sqrt_add_eps hv h0
  exact bn_real hx hm hg hb hs hpos

/-- A row times a matrix column plus a bias entry is real. -/
theorem affine_real {n : ℕ} {z w : Fin n → EReal} {b : EReal} (hz : ∀ k, IsReal (z k)) (hw : ∀ k, IsReal (w k))
    (hb : IsReal b) : IsReal ((∑ k : Fin n, z k * w k) + b) :=
  (isReal_sum Finset.univ _ fun k _ => (hz k).mul (hw k)).add hb

section Hidden

variable {z : Fin 128 → EReal} {w1 : RArr sDxD2} {b1 g1 be1 m1 v1 : RArr s1xD2}

theorem hiddenK_eq_hiddenR (hz : ∀ k, IsReal (z k)) (hw1 : AllReal w1) (hb1 : AllReal b1) (hg1 : AllReal g1)
    (hbe1 : AllReal be1) (hm1 : AllReal m1) (hv1 : AllReal v1) (h0 : ∀ i, 0 ≤ v1 i) (j : Fin 256) :
    hiddenK z w1 b1 (scaleRow g1 v1) (shiftRow be1 m1 g1 v1) j = hiddenR z w1 b1 g1 be1 m1 v1 j := by
  unfold hiddenK hiddenR shiftRow scaleRow
  rw [fold_eq_bnR (affine_real hz (fun k => hw1 _) (hb1 _)) (hm1 _) (hg1 _) (hv1 _) (hbe1 _) (h0 _)]

theorem hiddenR_real (hz : ∀ k, IsReal (z k)) (hw1 : AllReal w1) (hb1 : AllReal b1) (hg1 : AllReal g1)
    (hbe1 : AllReal be1) (hm1 : AllReal m1) (hv1 : AllReal v1) (h0 : ∀ i, 0 ≤ v1 i) (j : Fin 256) :
    IsReal (hiddenR z w1 b1 g1 be1 m1 v1 j) := by
  unfold hiddenR
  exact (bnR_real (affine_real hz (fun k => hw1 _) (hb1 _)) (hm1 _) (hg1 _) (hv1 _) (hbe1 _) (h0 _)).max isReal_zeroF

end Hidden

section Out

variable {r : Fin 256 → EReal} {w2 : RArr sD2xD} {b2 g2 be2 m2 v2 : RArr s1xD}

theorem outK_eq_outR (hr : ∀ j, IsReal (r j)) (hw2 : AllReal w2) (hb2 : AllReal b2) (hg2 : AllReal g2)
    (hbe2 : AllReal be2) (hm2 : AllReal m2) (hv2 : AllReal v2) (h0 : ∀ i, 0 ≤ v2 i) (q : Fin 128) :
    outK r w2 b2 (scaleRow g2 v2) (shiftRow be2 m2 g2 v2) q = outR r w2 b2 g2 be2 m2 v2 q := by
  unfold outK outR shiftRow scaleRow
  rw [fold_eq_bnR (affine_real hr (fun j => hw2 _) (hb2 _)) (hm2 _) (hg2 _) (hv2 _) (hbe2 _) (h0 _)]

theorem outR_real (hr : ∀ j, IsReal (r j)) (hw2 : AllReal w2) (hb2 : AllReal b2) (hg2 : AllReal g2)
    (hbe2 : AllReal be2) (hm2 : AllReal m2) (hv2 : AllReal v2) (h0 : ∀ i, 0 ≤ v2 i) (q : Fin 128) :
    IsReal (outR r w2 b2 g2 be2 m2 v2 q) := by
  unfold outR
  exact bnR_real (affine_real hr (fun j => hw2 _) (hb2 _)) (hm2 _) (hg2 _) (hv2 _) (hbe2 _) (h0 _)

end Out

/-- The perceptron's input row is real when the node states, the aggregate and the layer's epsilon are. -/
theorem ginZ_real {hin agg : RArr sNxD} {e : RArr s1x1} (hh : AllReal hin) (ha : AllReal agg) (he : AllReal e)
    (p : Fin 50000) (k : Fin 128) : IsReal (ginZ hin agg e p k) := by
  unfold ginZ
  exact ((isReal_oneF.add (he _)).mul (hh _)).add (ha _)

section Layers

variable {hin agg : RArr sNxD} {e : RArr s1x1} {pooled : RArr sGxD}
variable {w1 : RArr sDxD2} {b1 g1 be1 m1 v1 : RArr s1xD2} {w2 : RArr sD2xD} {b2 g2 be2 m2 v2 : RArr s1xD}

/-- A node-level layer: the kernel's folded form is the reference's batch-norm form. -/
theorem ginG_eq_ginR (relu : Bool) (hh : AllReal hin) (ha : AllReal agg) (he : AllReal e)
    (hw1 : AllReal w1) (hb1 : AllReal b1) (hg1 : AllReal g1) (hbe1 : AllReal be1) (hm1 : AllReal m1) (hv1 : AllReal v1)
    (h01 : ∀ i, 0 ≤ v1 i)
    (hw2 : AllReal w2) (hb2 : AllReal b2) (hg2 : AllReal g2) (hbe2 : AllReal be2) (hm2 : AllReal m2) (hv2 : AllReal v2)
    (h02 : ∀ i, 0 ≤ v2 i) :
    ginG relu hin agg e w1 b1 (scaleRow g1 v1) (shiftRow be1 m1 g1 v1) w2 b2 (scaleRow g2 v2) (shiftRow be2 m2 g2 v2)
      = ginR relu hin agg e w1 b1 g1 be1 m1 v1 w2 b2 g2 be2 m2 v2 := by
  funext i
  have hz := ginZ_real hh ha he (i 0)
  have hhid : hiddenK (ginZ hin agg e (i 0)) w1 b1 (scaleRow g1 v1) (shiftRow be1 m1 g1 v1)
      = hiddenR (ginZ hin agg e (i 0)) w1 b1 g1 be1 m1 v1 :=
    funext fun j => hiddenK_eq_hiddenR hz hw1 hb1 hg1 hbe1 hm1 hv1 h01 j
  have ho := outK_eq_outR (fun j => hiddenR_real hz hw1 hb1 hg1 hbe1 hm1 hv1 h01 j) hw2 hb2 hg2 hbe2 hm2 hv2 h02 (i 1)
  unfold ginG ginR
  rw [hhid]
  exact congrArg (fun o => if relu = true then max o zeroF else o) ho

/-- and its output is real. -/
theorem ginR_real (relu : Bool) (hh : AllReal hin) (ha : AllReal agg) (he : AllReal e)
    (hw1 : AllReal w1) (hb1 : AllReal b1) (hg1 : AllReal g1) (hbe1 : AllReal be1) (hm1 : AllReal m1) (hv1 : AllReal v1)
    (h01 : ∀ i, 0 ≤ v1 i)
    (hw2 : AllReal w2) (hb2 : AllReal b2) (hg2 : AllReal g2) (hbe2 : AllReal be2) (hm2 : AllReal m2) (hv2 : AllReal v2)
    (h02 : ∀ i, 0 ≤ v2 i) :
    AllReal (ginR relu hin agg e w1 b1 g1 be1 m1 v1 w2 b2 g2 be2 m2 v2) := by
  intro i
  have hz := ginZ_real hh ha he (i 0)
  have ho := outR_real (fun j => hiddenR_real hz hw1 hb1 hg1 hbe1 hm1 hv1 h01 j) hw2 hb2 hg2 hbe2 hm2 hv2 h02 (i 1)
  unfold ginR
  cases relu
  · simpa using ho
  · simpa using ho.max isReal_zeroF

/-- A graph-level layer: folded form against batch-norm form. -/
theorem vnG_eq_vnR (hp : AllReal pooled)
    (hw1 : AllReal w1) (hb1 : AllReal b1) (hg1 : AllReal g1) (hbe1 : AllReal be1) (hm1 : AllReal m1) (hv1 : AllReal v1)
    (h01 : ∀ i, 0 ≤ v1 i)
    (hw2 : AllReal w2) (hb2 : AllReal b2) (hg2 : AllReal g2) (hbe2 : AllReal be2) (hm2 : AllReal m2) (hv2 : AllReal v2)
    (h02 : ∀ i, 0 ≤ v2 i) :
    vnG pooled w1 b1 (scaleRow g1 v1) (shiftRow be1 m1 g1 v1) w2 b2 (scaleRow g2 v2) (shiftRow be2 m2 g2 v2)
      = vnR pooled w1 b1 g1 be1 m1 v1 w2 b2 g2 be2 m2 v2 := by
  funext i
  have hz : ∀ k : Fin 128, IsReal (pooled (ix2 (i 0) k)) := fun k => hp _
  have hhid : hiddenK (fun k => pooled (ix2 (i 0) k)) w1 b1 (scaleRow g1 v1) (shiftRow be1 m1 g1 v1)
      = hiddenR (fun k => pooled (ix2 (i 0) k)) w1 b1 g1 be1 m1 v1 :=
    funext fun j => hiddenK_eq_hiddenR hz hw1 hb1 hg1 hbe1 hm1 hv1 h01 j
  have ho := outK_eq_outR (fun j => hiddenR_real hz hw1 hb1 hg1 hbe1 hm1 hv1 h01 j) hw2 hb2 hg2 hbe2 hm2 hv2 h02 (i 1)
  unfold vnG vnR
  rw [hhid]
  exact congrArg (fun o => max o zeroF) ho

theorem vnR_real (hp : AllReal pooled)
    (hw1 : AllReal w1) (hb1 : AllReal b1) (hg1 : AllReal g1) (hbe1 : AllReal be1) (hm1 : AllReal m1) (hv1 : AllReal v1)
    (h01 : ∀ i, 0 ≤ v1 i)
    (hw2 : AllReal w2) (hb2 : AllReal b2) (hg2 : AllReal g2) (hbe2 : AllReal be2) (hm2 : AllReal m2) (hv2 : AllReal v2)
    (h02 : ∀ i, 0 ≤ v2 i) :
    AllReal (vnR pooled w1 b1 g1 be1 m1 v1 w2 b2 g2 be2 m2 v2) := by
  intro i
  have hz : ∀ k : Fin 128, IsReal (pooled (ix2 (i 0) k)) := fun k => hp _
  unfold vnR
  exact (outR_real (fun j => hiddenR_real hz hw1 hb1 hg1 hbe1 hm1 hv1 h01 j) hw2 hb2 hg2 hbe2 hm2 hv2 h02 (i 1)).max isReal_zeroF

/-- A pooled row is a finite sum of real entries. -/
theorem segG_real {x : RArr sNxD} (hx : AllReal x) (bcol : sNx1.Idx → BitVec 32) : AllReal (segG x bcol) := by
  intro i
  unfold segG
  refine isReal_sum Finset.univ _ fun t _ => ?_
  split
  · exact hx _
  · exact isReal_zero

end Layers

end Cert.Spec
-- ==== Proof.KiHostLaws.lean ====
/-
  The kernel program's host pieces against the layer specification, at the extended reals: cutting a layer's row out
  of a stack commutes with the entry-by-entry scale g / sqrt (v + 1e-5) and shift b - m * scale, so a sliced folded
  scale (shift) is the folded scale (shift) of the sliced rows; and a change of float format is the identity there.
-/
import Idealize.ShloMosaic.PureOps.Ideal
import proofs.«403491_j395136991532_1_alg».proof.Proof.SharedHost
import proofs.«403491_j395136991532_1_alg».proof.Proof.SpecNet

noncomputable section

namespace Cert.Spec

open Idealize.ShloMosaic

/-- A 2D-wide layer's folded scale row is the scale of the layer's rows of g and v. -/
theorem scaleOf2_eq (l : Nat) (g v : FVec Ideal s5xD2 .f32) (h : s5xD2.Slices ![l, 0] s1xD2) :
    scaleOf2 (F := Ideal) l g v h = scaleRow (row2 l g h) (row2 l v h) := rfl

/-- A 2D-wide layer's folded shift row is the shift of the layer's rows of b, m, g and v. -/
theorem shiftOf2_eq (l : Nat) (b m g v : FVec Ideal s5xD2 .f32) (h : s5xD2.Slices ![l, 0] s1xD2) :
    shiftOf2 (F := Ideal) l b m g v h = shiftRow (row2 l b h) (row2 l m h) (row2 l g h) (row2 l v h) := rfl

/-- A D-wide layer's folded scale row. -/
theorem scaleOf1_eq (l : Nat) (g v : FVec Ideal s5xD .f32) (h : s5xD.Slices ![l, 0] s1xD) :
    scaleOf1 (F := Ideal) l g v h = scaleRow (row1 l g h) (row1 l v h) := rfl

/-- A D-wide layer's folded shift row. -/
theorem shiftOf1_eq (l : Nat) (b m g v : FVec Ideal s5xD .f32) (h : s5xD.Slices ![l, 0] s1xD) :
    shiftOf1 (F := Ideal) l b m g v h = shiftRow (row1 l b h) (row1 l m h) (row1 l g h) (row1 l v h) := rfl

/-- The rows of the stacked scale, for the later layers (whose stretch slices the stacked scale). -/
theorem row2_bnScale2 (l : Nat) (g v : FVec Ideal s5xD2 .f32) (h : s5xD2.Slices ![l, 0] s1xD2) :
    row2 l (bnScale2 (F := Ideal) g v) h = scaleRow (row2 l g h) (row2 l v h) := rfl
theorem row2_bnShift2 (l : Nat) (b m g v : FVec Ideal s5xD2 .f32) (h : s5xD2.Slices ![l, 0] s1xD2) :
    row2 l (bnShift2 (F := Ideal) b m (bnScale2 (F := Ideal) g v)) h = shiftRow (row2 l b h) (row2 l m h) (row2 l g h) (row2 l v h) := rfl
theorem row1_bnScale1 (l : Nat) (g v : FVec Ideal s5xD .f32) (h : s5xD.Slices ![l, 0] s1xD) :
    row1 l (bnScale1 (F := Ideal) g v) h = scaleRow (row1 l g h) (row1 l v h) := rfl
theorem row1_bnShift1 (l : Nat) (b m g v : FVec Ideal s5xD .f32) (h : s5xD.Slices ![l, 0] s1xD) :
    row1 l (bnShift1 (F := Ideal) b m (bnScale1 (F := Ideal) g v)) h = shiftRow (row1 l b h) (row1 l m h) (row1 l g h) (row1 l v h) := rfl

/-- At the extended reals a change of float format changes nothing. -/
theorem toBf16_eq {s : Shape} (x : FVec Ideal s .f32) : (toBf16 (F := Ideal) x : s.Idx → EReal) = x := rfl

end Cert.Spec
-- ==== Proof.SharedReal.lean ====
/-
  The host-side pieces keep real values real.

  Each of the pieces both programs compute on the host (the embedding lookup, the virtual node's broadcast and
  gather, a layer's input, the neighbourhood sum, the per-graph sum and count) and each of the pieces only the
  kernel program computes there (a layer's row or matrix cut out of a stack, a change of format, the folded
  batch-norm scale and shift) is made of re-indexings, sums and finite sums of its operands' entries, so from
  real operands it gives real results, whatever the integer indices are; a cut-out row of a nonnegative stack is
  nonnegative; and the folded scale and shift of real parameters with a nonnegative variance are real.
-/
import proofs.«403491_j395136991532_1_alg».proof.Proof.SharedHost
import proofs.«403491_j395136991532_1_alg».proof.Proof.SpecReal

noncomputable section

namespace Cert.Spec

open Idealize.ShloMosaic

/-! ## The shared pieces -/

theorem allReal_zeros (s : Shape) (hb : s0.BroadcastsInDim s (![] : Fin 0 → Fin s.rank)) :
    AllReal (broadcastInDim s ![] hb (constant (F := Ideal) s0 .f32 0x00000000#32)) :=
  AllReal.broadcastInDim hb (allReal_constant_f32 _ (by decide))

theorem allReal_ones (s : Shape) (hb : s0.BroadcastsInDim s (![] : Fin 0 → Fin s.rank)) :
    AllReal (broadcastInDim s ![] hb (constant (F := Ideal) s0 .f32 0x3F800000#32)) :=
  AllReal.broadcastInDim hb (allReal_constant_f32 _ (by decide))

theorem allReal_embed {atomEmb : FVec Ideal s1xD .f32} (ha : AllReal atomEmb) (x : IVec sN 32) :
    AllReal (embed (F := Ideal) atomEmb x) :=
  AllReal.gather gEmbed ha _

theorem allReal_vnInit {vnEmb : FVec Ideal s1xD .f32} (h : AllReal vnEmb) : AllReal (vnInit (F := Ideal) vnEmb) :=
  AllReal.broadcastInDim _ (AllReal.shapeCast h _)

theorem allReal_vnGather {vn : FVec Ideal sGxD .f32} (hv : AllReal vn) (batch : IVec sN 32) :
    AllReal (vnGather (F := Ideal) vn batch) :=
  AllReal.gather gGraph hv _

theorem allReal_hIn {h : FVec Ideal sNxD .f32} {vn : FVec Ideal sGxD .f32} (hh : AllReal h) (hv : AllReal vn)
    (batch : IVec sN 32) : AllReal (hIn (F := Ideal) h vn batch) :=
  AllReal.addf hh (allReal_vnGather hv batch)

theorem allReal_aggOf {hin : FVec Ideal sNxD .f32} (hh : AllReal hin) (src dst : IVec sE 32) :
    AllReal (aggOf (F := Ideal) hin src dst) :=
  AllReal.scatterAdd scEdge _ (allReal_zeros _ _) (AllReal.gather gEdge hh _)

theorem allReal_poolOfHost {h : FVec Ideal sNxD .f32} (hh : AllReal h) (batch : IVec sN 32) :
    AllReal (poolOfHost (F := Ideal) h batch) :=
  AllReal.scatterAdd scPool _ (allReal_zeros _ _) hh

theorem allReal_countsOf (batch : IVec sN 32) : AllReal (countsOf (F := Ideal) batch) :=
  AllReal.scatterAdd scCount _ (allReal_zeros _ _) (allReal_ones _ _)

/-! ## The pieces only the kernel program computes on the host -/

section Cuts

theorem allReal_row2 (l : Nat) {x : s5xD2.Idx → EReal} (hx : AllReal x) (h : s5xD2.Slices ![l, 0] s1xD2) :
    AllReal (row2 l x h) := fun _ => hx _
theorem allReal_row1 (l : Nat) {x : s5xD.Idx → EReal} (hx : AllReal x) (h : s5xD.Slices ![l, 0] s1xD) :
    AllReal (row1 l x h) := fun _ => hx _
theorem allReal_matDxD2 (l : Nat) {x : s5xDxD2.Idx → EReal} (hx : AllReal x) (h : s5xDxD2.Slices ![l, 0, 0] s1xDxD2) :
    AllReal (matDxD2 l x h) := fun _ => hx _
theorem allReal_matD2xD (l : Nat) {x : s5xD2xD.Idx → EReal} (hx : AllReal x) (h : s5xD2xD.Slices ![l, 0, 0] s1xD2xD) :
    AllReal (matD2xD l x h) := fun _ => hx _
theorem allReal_epsOf (l : Nat) {x : s5.Idx → EReal} (hx : AllReal x) (h : s5.Slices ![l] s1) :
    AllReal (epsOf l x h) := fun _ => hx _
theorem allReal_biasRow {x : s10.Idx → EReal} (hx : AllReal x) : AllReal (biasRow x) := fun _ => hx _
theorem allReal_toBf16 {s : Shape} {x : FVec Ideal s .f32} (hx : AllReal x) : AllReal (toBf16 (F := Ideal) x) :=
  fun i => hx i

/-- A cut-out row of a nonnegative stack is nonnegative. -/
theorem nonneg_row2 (l : Nat) {x : s5xD2.Idx → EReal} (h0 : ∀ i, 0 ≤ x i) (h : s5xD2.Slices ![l, 0] s1xD2) :
    ∀ i, 0 ≤ row2 l x h i := fun _ => h0 _
theorem nonneg_row1 (l : Nat) {x : s5xD.Idx → EReal} (h0 : ∀ i, 0 ≤ x i) (h : s5xD.Slices ![l, 0] s1xD) :
    ∀ i, 0 ≤ row1 l x h i := fun _ => h0 _

end Cuts

/-! ## The folded scale and shift -/

/-- An entry of the folded scale is g / sqrt (v + eps) of the same entries. -/
theorem bnScale2_apply (g v : FVec Ideal s5xD2 .f32) (i : s5xD2.Idx) :
    bnScale2 (F := Ideal) g v i = Ideal.div (g i) (Ideal.sqrt (v i + eps)) := rfl
theorem bnScale1_apply (g v : FVec Ideal s5xD .f32) (i : s5xD.Idx) :
    bnScale1 (F := Ideal) g v i = Ideal.div (g i) (Ideal.sqrt (v i + eps)) := rfl
/-- An entry of the folded shift is b - m * scale of the same entries. -/
theorem bnShift2_apply (b m sc : FVec Ideal s5xD2 .f32) (i : s5xD2.Idx) :
    bnShift2 (F := Ideal) b m sc i = b i - m i * sc i := rfl
theorem bnShift1_apply (b m sc : FVec Ideal s5xD .f32) (i : s5xD.Idx) :
    bnShift1 (F := Ideal) b m sc i = b i - m i * sc i := rfl

theorem allReal_bnScale2 {g v : FVec Ideal s5xD2 .f32} (hg : AllReal g) (hv : AllReal v) (h0 : ∀ i, 0 ≤ v i) :
    AllReal (bnScale2 (F := Ideal) g v) := fun i => by
  rw [bnScale2_apply]
  exact (hg i).div (sqrt_add_eps (hv i) (h0 i)).1 (sqrt_add_eps (hv i) (h0 i)).2.ne'
theorem allReal_bnScale1 {g v : FVec Ideal s5xD .f32} (hg : AllReal g) (hv : AllReal v) (h0 : ∀ i, 0 ≤ v i) :
    AllReal (bnScale1 (F := Ideal) g v) := fun i => by
  rw [bnScale1_apply]
  exact (hg i).div (sqrt_add_eps (hv i) (h0 i)).1 (sqrt_add_eps (hv i) (h0 i)).2.ne'
theorem allReal_bnShift2 {b m sc : FVec Ideal s5xD2 .f32} (hb : AllReal b) (hm : AllReal m) (hs : AllReal sc) :
    AllReal (bnShift2 (F := Ideal) b m sc) := AllReal.subf hb (AllReal.mulf hm hs)
theorem allReal_bnShift1 {b m sc : FVec Ideal s5xD .f32} (hb : AllReal b) (hm : AllReal m) (hs : AllReal sc) :
    AllReal (bnShift1 (F := Ideal) b m sc) := AllReal.subf hb (AllReal.mulf hm hs)

end Cert.Spec

end
-- ==== Proof.SegPool.lean ====
/- The one-hot form of the per-graph pooling sum is the host's scatter-add form: summing, for graph `g`, the rows whose
   segment id is the word `g` gives what adding every row into the row its id names gives, started from zeros. An id
   that names no graph (negative as a signed word, or 256 and above) is dropped by both. No row needs to be a real
   number: zero is the sum's unit and a dropped row is simply not a term. -/
import proofs.«403491_j395136991532_1_alg».proof.Proof.SpecNet

noncomputable section

namespace Cert.Spec

open Idealize.ShloMosaic Idealize.ShloMosaic.ValueIdx

/-! ## The id column, read at a row -/

/-- The column the host scatters by holds, at row `t`, the id of row `t`. -/
theorem idxCol_apply (batch : IVec sN 32) (t : Fin 50000) :
    (broadcastInDim sNx1 ![0] (by decide) batch : IVec sNx1 32) (ix2 t 0) = batch (ix1 t) := by
  unfold broadcastInDim
  refine congrArg batch (funext fun a => ?_)
  match a with
  | ⟨0, _⟩ => rfl

/-- So does the column the kernel's one-hot compares against. -/
theorem batchCol_apply (batch : IVec sN 32) (t : Fin 50000) : batchCol batch (ix2 t 0) = batch (ix1 t) := by
  unfold batchCol shapeCast
  refine congrArg batch (Shape.reshapeEquiv_eq_of_rowMajor _ ?_)
  rw [Shape.rowMajor_val_one, Shape.rowMajor_val_two]
  show t.val = t.val * 1 + 0
  omega

/-- A 32-bit word is the word of a number below 256 exactly when, read signed, it is that number. -/
theorem word_eq_iff (b : BitVec 32) (g : Nat) (hg : g < 256) : b = BitVec.ofNat 32 g ↔ b.toInt = (g : Int) := by
  have hb := b.isLt
  rw [BitVec.toInt_eq_toNat_cond]
  constructor
  · rintro rfl
    rw [BitVec.toNat_ofNat, Nat.mod_eq_of_lt (by omega)]
    split <;> omega
  · intro h
    apply BitVec.eq_of_toNat_eq
    rw [BitVec.toNat_ofNat, Nat.mod_eq_of_lt (by omega)]
    split at h <;> omega

/-! ## Where the pooling scatter puts a row -/

/-- On the graph axis the window starts at the row's id, read signed; -/
theorem scPool_start0 (j : sNxD.Idx) (idx : IVec sNx1 32) : scPool.start j idx 0 = (idx (ix2 (j 0) 0)).toInt := by
  unfold ScatterDims.start
  rw [dif_pos (show (0 : Fin 2) ∈ scPool.scatterDimsToOperandDims from List.mem_singleton.mpr rfl)]
  refine congrArg (fun k => (idx k).toInt) (funext fun b => ?_)
  match b with
  | ⟨0, _⟩ => rfl
  | ⟨1, _⟩ => rfl

/-- on the feature axis at zero. -/
theorem scPool_start1 (j : sNxD.Idx) (idx : IVec sNx1 32) : scPool.start j idx 1 = 0 := by
  unfold ScatterDims.start
  rw [dif_neg (show (1 : Fin 2) ∉ scPool.scatterDimsToOperandDims from by decide)]

/-- The window has no extent on the graph axis, -/
theorem scPool_window0 (j : sNxD.Idx) : scPool.window j 0 = 0 := by
  unfold ScatterDims.window
  rw [dif_neg (show (0 : Fin 2) ∉ scPool.sKept from by decide)]

/-- and the row's feature coordinate on the feature axis. -/
theorem scPool_window1 (j : sNxD.Idx) : scPool.window j 1 = (j 1).val := by
  unfold ScatterDims.window
  rw [dif_pos (show (1 : Fin 2) ∈ scPool.sKept from by decide)]
  rfl

/-- So a row's entry lands at entry `i` exactly when its id, read signed, is `i`'s graph and its feature is `i`'s. -/
theorem scPool_result (j : sNxD.Idx) (idx : IVec sNx1 32) (i : sGxD.Idx) :
    scPool.resultIdx? j idx = some i ↔ (idx (ix2 (j 0) 0)).toInt = ((i 0).val : Int) ∧ (j 1).val = (i 1).val := by
  have hi0 : (i 0).val < 256 := idx2_lt0 i
  have hi1 : (i 1).val < 128 := idx2_lt1 i
  have hj1 : (j 1).val < 128 := idx2_lt1 j
  unfold ScatterDims.resultIdx?
  constructor
  · intro e
    split at e
    · rename_i h
      have e' := Option.some.inj e
      have e0 : (scPool.start j idx 0 + scPool.window j 0).toNat = (i 0).val := congrArg (fun f => (f 0).val) e'
      have e1 : (scPool.start j idx 1 + scPool.window j 1).toNat = (i 1).val := congrArg (fun f => (f 1).val) e'
      have h0 := (h 0).1
      rw [scPool_start0, scPool_window0] at e0 h0
      rw [scPool_start1, scPool_window1] at e1
      constructor <;> omega
    · exact absurd e (by simp)
  · rintro ⟨e0, e1⟩
    have h : ∀ a, 0 ≤ scPool.start j idx a + scPool.window j a ∧ scPool.start j idx a + scPool.window j a < sGxD.size a := by
      intro a
      match a with
      | ⟨0, _⟩ =>
        show 0 ≤ scPool.start j idx 0 + scPool.window j 0 ∧ scPool.start j idx 0 + scPool.window j 0 < ((256 : Nat) : Int)
        rw [scPool_start0, scPool_window0]; omega
      | ⟨1, _⟩ =>
        show 0 ≤ scPool.start j idx 1 + scPool.window j 1 ∧ scPool.start j idx 1 + scPool.window j 1 < ((128 : Nat) : Int)
        rw [scPool_start1, scPool_window1]; omega
    rw [dif_pos h]
    refine congrArg some (funext fun a => Fin.ext ?_)
    match a with
    | ⟨0, _⟩ =>
      show (scPool.start j idx 0 + scPool.window j 0).toNat = (i 0).val
      rw [scPool_start0, scPool_window0]; omega
    | ⟨1, _⟩ =>
      show (scPool.start j idx 1 + scPool.window j 1).toNat = (i 1).val
      rw [scPool_start1, scPool_window1]; omega

/-! ## The two forms agree -/

/-- The one-hot sum over the id column is the host's scatter-add of the rows into zeros. -/
theorem segG_eq_pool (x : RArr sNxD) (batch : IVec sN 32) :
    segG x (batchCol batch) = poolOfHost (F := Ideal) x batch := by
  funext i
  obtain ⟨g, d, rfl⟩ : ∃ g d, i = ix2 g d := ⟨i 0, i 1, eq_ix2 i⟩
  have hg : g.val < 256 := g.isLt
  have hzero : Ideal.ofBits .f32 0x00000000#32 = 0 := by simp [Ideal.ofBits, Ideal.ieee]
  show (∑ t : Fin 50000, if batchCol batch (ix2 t 0) = BitVec.ofNat 32 g.val then x (ix2 t d) else 0)
    = Ideal.ofBits .f32 0x00000000#32
      + ∑ j ∈ Finset.univ.filter (fun j => scPool.resultIdx? j (broadcastInDim sNx1 ![0] (by decide) batch : IVec sNx1 32) = some (ix2 g d)), x j
  rw [hzero, zero_add, Finset.sum_filter, sum_idx2]
  refine Finset.sum_congr rfl fun t _ => ?_
  simp only [scPool_result]
  show (if batchCol batch (ix2 t 0) = BitVec.ofNat 32 g.val then x (ix2 t d) else 0)
    = ∑ d' : Fin 128, if ((broadcastInDim sNx1 ![0] (by decide) batch : IVec sNx1 32) (ix2 t 0)).toInt = (g.val : Int) ∧ d'.val = d.val
        then x (ix2 t d') else 0
  rw [idxCol_apply, batchCol_apply]
  by_cases hA : batch (ix1 t) = BitVec.ofNat 32 g.val
  · have hA' : (batch (ix1 t)).toInt = (g.val : Int) := (word_eq_iff _ _ hg).mp hA
    rw [if_pos hA]
    have hrow : ∀ d' : Fin 128, (if (batch (ix1 t)).toInt = (g.val : Int) ∧ d'.val = d.val then x (ix2 t d') else 0)
        = if d' = d then x (ix2 t d') else 0 := fun d' => by
      by_cases hd : d' = d
      · rw [if_pos hd, if_pos ⟨hA', congrArg Fin.val hd⟩]
      · rw [if_neg hd, if_neg (fun h => hd (Fin.ext h.2))]
    simp only [hrow, Finset.sum_ite_eq', Finset.mem_univ, if_true]
  · have hA' : ¬ (batch (ix1 t)).toInt = (g.val : Int) := fun h => hA ((word_eq_iff _ _ hg).mpr h)
    rw [if_neg hA]
    have hrow : ∀ d' : Fin 128, (if (batch (ix1 t)).toInt = (g.val : Int) ∧ d'.val = d.val then x (ix2 t d') else (0 : EReal)) = 0 :=
      fun d' => if_neg (fun h => hA' h.1)
    simp only [hrow, Finset.sum_const_zero]

end Cert.Spec

end
-- ==== Proof.SpecNets.lean ====
/-
  The two networks as compositions of the same pieces, and their equality.

  The state after a layer is the pair (node rows, virtual-node rows). A layer adds each node's graph's virtual node
  to its row, sums the neighbours' rows into each node, passes every node's row through the layer's perceptron, and
  (all layers but the last) replaces the virtual node by the perceptron image of the pooled node rows plus the old
  virtual node. The kernel's network uses the folded perceptrons and pools by comparing each node's graph id with
  every graph index; the reference's uses the batch-norm perceptrons and pools by a scatter-add. The pooling sums
  are the same sums; the perceptrons agree on real rows with nonnegative variances; and every layer maps real
  states to real states, so the agreement propagates through the five layers to the head, which both networks
  compute by the same formula.
-/
import proofs.«403491_j395136991532_1_alg».proof.Proof.SpecLaws
import proofs.«403491_j395136991532_1_alg».proof.Proof.KiHostLaws
import proofs.«403491_j395136991532_1_alg».proof.Proof.SharedReal
import proofs.«403491_j395136991532_1_alg».proof.Proof.SegPool

noncomputable section

namespace Cert.Spec

open Idealize.ShloMosaic Idealize.ShloMosaic.ValueIdx

/-- The 32 arguments: the 29 float arrays as arrays of extended reals, and the three index arrays. -/
structure Args where
  atomEmb : RArr s1xD
  vnEmb : RArr s1xD
  epsA : RArr s5
  W1 : RArr s5xDxD2
  b1 : RArr s5xD2
  g1 : RArr s5xD2
  be1 : RArr s5xD2
  m1 : RArr s5xD2
  v1 : RArr s5xD2
  W2 : RArr s5xD2xD
  b2 : RArr s5xD
  gc : RArr s5xD
  bc : RArr s5xD
  mc : RArr s5xD
  vc : RArr s5xD
  vW1 : RArr s5xDxD2
  vb1 : RArr s5xD2
  vg1 : RArr s5xD2
  vbe1 : RArr s5xD2
  vm1 : RArr s5xD2
  vv1 : RArr s5xD2
  vW2 : RArr s5xD2xD
  vb2 : RArr s5xD
  vg2 : RArr s5xD
  vbe2 : RArr s5xD
  vm2 : RArr s5xD
  vv2 : RArr s5xD
  predW : RArr sDx10
  predb : RArr s10
  x : IVec sN 32
  edges : IVec s2xE 32
  batch : IVec sN 32

/-- What the precondition says of them: every float entry a real number, the four variance stacks nonnegative. -/
structure Args.Ok (A : Args) : Prop where
  atomEmb : AllReal A.atomEmb
  vnEmb : AllReal A.vnEmb
  epsA : AllReal A.epsA
  W1 : AllReal A.W1
  b1 : AllReal A.b1
  g1 : AllReal A.g1
  be1 : AllReal A.be1
  m1 : AllReal A.m1
  v1 : AllReal A.v1
  W2 : AllReal A.W2
  b2 : AllReal A.b2
  gc : AllReal A.gc
  bc : AllReal A.bc
  mc : AllReal A.mc
  vc : AllReal A.vc
  vW1 : AllReal A.vW1
  vb1 : AllReal A.vb1
  vg1 : AllReal A.vg1
  vbe1 : AllReal A.vbe1
  vm1 : AllReal A.vm1
  vv1 : AllReal A.vv1
  vW2 : AllReal A.vW2
  vb2 : AllReal A.vb2
  vg2 : AllReal A.vg2
  vbe2 : AllReal A.vbe2
  vm2 : AllReal A.vm2
  vv2 : AllReal A.vv2
  predW : AllReal A.predW
  predb : AllReal A.predb
  v1_nonneg : ∀ i, 0 ≤ A.v1 i
  vc_nonneg : ∀ i, 0 ≤ A.vc i
  vv1_nonneg : ∀ i, 0 ≤ A.vv1 i
  vv2_nonneg : ∀ i, 0 ≤ A.vv2 i

/-- Layer `l`'s rows and matrices can be cut out of the five-layer stacks. -/
structure Cuts (l : Nat) : Prop where
  r2 : s5xD2.Slices ![l, 0] s1xD2
  r1 : s5xD.Slices ![l, 0] s1xD
  mA : s5xDxD2.Slices ![l, 0, 0] s1xDxD2
  mB : s5xD2xD.Slices ![l, 0, 0] s1xD2xD
  e : s5.Slices ![l] s1

theorem cuts0 : Cuts 0 := ⟨by decide, by decide, by decide, by decide, by decide⟩
theorem cuts1 : Cuts 1 := ⟨by decide, by decide, by decide, by decide, by decide⟩
theorem cuts2 : Cuts 2 := ⟨by decide, by decide, by decide, by decide, by decide⟩
theorem cuts3 : Cuts 3 := ⟨by decide, by decide, by decide, by decide, by decide⟩
theorem cuts4 : Cuts 4 := ⟨by decide, by decide, by decide, by decide, by decide⟩

variable (A : Args)

/-! ## One node-level perceptron of each program, at layer `l` -/

/-- The kernel's: weights in the matrix unit's format, batch norms folded on the host. -/
def ginK (l : Nat) (C : Cuts l) (relu : Bool) (hin agg : RArr sNxD) : RArr sNxD :=
  ginG relu hin agg (epsOf l A.epsA C.e)
    (matDxD2 l (toBf16 (F := Ideal) A.W1) C.mA) (row2 l A.b1 C.r2)
    (scaleOf2 (F := Ideal) l A.g1 A.v1 C.r2) (shiftOf2 (F := Ideal) l A.be1 A.m1 A.g1 A.v1 C.r2)
    (matD2xD l (toBf16 (F := Ideal) A.W2) C.mB) (row1 l A.b2 C.r1)
    (scaleOf1 (F := Ideal) l A.gc A.vc C.r1) (shiftOf1 (F := Ideal) l A.bc A.mc A.gc A.vc C.r1)

/-- The reference's. -/
def ginRl (l : Nat) (C : Cuts l) (relu : Bool) (hin agg : RArr sNxD) : RArr sNxD :=
  ginR relu hin agg (epsOf l A.epsA C.e)
    (matDxD2 l A.W1 C.mA) (row2 l A.b1 C.r2) (row2 l A.g1 C.r2) (row2 l A.be1 C.r2) (row2 l A.m1 C.r2) (row2 l A.v1 C.r2)
    (matD2xD l A.W2 C.mB) (row1 l A.b2 C.r1) (row1 l A.gc C.r1) (row1 l A.bc C.r1) (row1 l A.mc C.r1) (row1 l A.vc C.r1)

/-- The kernel's graph-level perceptron. -/
def vnK (l : Nat) (C : Cuts l) (pooled : RArr sGxD) : RArr sGxD :=
  vnG pooled
    (matDxD2 l (toBf16 (F := Ideal) A.vW1) C.mA) (row2 l A.vb1 C.r2)
    (scaleOf2 (F := Ideal) l A.vg1 A.vv1 C.r2) (shiftOf2 (F := Ideal) l A.vbe1 A.vm1 A.vg1 A.vv1 C.r2)
    (matD2xD l (toBf16 (F := Ideal) A.vW2) C.mB) (row1 l A.vb2 C.r1)
    (scaleOf1 (F := Ideal) l A.vg2 A.vv2 C.r1) (shiftOf1 (F := Ideal) l A.vbe2 A.vm2 A.vg2 A.vv2 C.r1)

/-- The reference's. -/
def vnRl (l : Nat) (C : Cuts l) (pooled : RArr sGxD) : RArr sGxD :=
  vnR pooled
    (matDxD2 l A.vW1 C.mA) (row2 l A.vb1 C.r2) (row2 l A.vg1 C.r2) (row2 l A.vbe1 C.r2) (row2 l A.vm1 C.r2) (row2 l A.vv1 C.r2)
    (matD2xD l A.vW2 C.mB) (row1 l A.vb2 C.r1) (row1 l A.vg2 C.r1) (row1 l A.vbe2 C.r1) (row1 l A.vm2 C.r1) (row1 l A.vv2 C.r1)

variable {A}

theorem ginK_eq_ginRl (hA : A.Ok) (l : Nat) (C : Cuts l) (relu : Bool) {hin agg : RArr sNxD} (hh : AllReal hin)
    (ha : AllReal agg) : ginK A l C relu hin agg = ginRl A l C relu hin agg := by
  unfold ginK ginRl
  rw [scaleOf2_eq, shiftOf2_eq, scaleOf1_eq, shiftOf1_eq, toBf16_eq, toBf16_eq]
  exact ginG_eq_ginR relu hh ha (allReal_epsOf l hA.epsA _) (allReal_matDxD2 l hA.W1 _) (allReal_row2 l hA.b1 _)
    (allReal_row2 l hA.g1 _) (allReal_row2 l hA.be1 _) (allReal_row2 l hA.m1 _) (allReal_row2 l hA.v1 _)
    (nonneg_row2 l hA.v1_nonneg _) (allReal_matD2xD l hA.W2 _) (allReal_row1 l hA.b2 _) (allReal_row1 l hA.gc _)
    (allReal_row1 l hA.bc _) (allReal_row1 l hA.mc _) (allReal_row1 l hA.vc _) (nonneg_row1 l hA.vc_nonneg _)

theorem ginRl_real (hA : A.Ok) (l : Nat) (C : Cuts l) (relu : Bool) {hin agg : RArr sNxD} (hh : AllReal hin)
    (ha : AllReal agg) : AllReal (ginRl A l C relu hin agg) := by
  unfold ginRl
  exact ginR_real relu hh ha (allReal_epsOf l hA.epsA _) (allReal_matDxD2 l hA.W1 _) (allReal_row2 l hA.b1 _)
    (allReal_row2 l hA.g1 _) (allReal_row2 l hA.be1 _) (allReal_row2 l hA.m1 _) (allReal_row2 l hA.v1 _)
    (nonneg_row2 l hA.v1_nonneg _) (allReal_matD2xD l hA.W2 _) (allReal_row1 l hA.b2 _) (allReal_row1 l hA.gc _)
    (allReal_row1 l hA.bc _) (allReal_row1 l hA.mc _) (allReal_row1 l hA.vc _) (nonneg_row1 l hA.vc_nonneg _)

theorem vnK_eq_vnRl (hA : A.Ok) (l : Nat) (C : Cuts l) {pooled : RArr sGxD} (hp : AllReal pooled) :
    vnK A l C pooled = vnRl A l C pooled := by
  unfold vnK vnRl
  rw [scaleOf2_eq, shiftOf2_eq, scaleOf1_eq, shiftOf1_eq, toBf16_eq, toBf16_eq]
  exact vnG_eq_vnR hp (allReal_matDxD2 l hA.vW1 _) (allReal_row2 l hA.vb1 _)
    (allReal_row2 l hA.vg1 _) (allReal_row2 l hA.vbe1 _) (allReal_row2 l hA.vm1 _) (allReal_row2 l hA.vv1 _)
    (nonneg_row2 l hA.vv1_nonneg _) (allReal_matD2xD l hA.vW2 _) (allReal_row1 l hA.vb2 _) (allReal_row1 l hA.vg2 _)
    (allReal_row1 l hA.vbe2 _) (allReal_row1 l hA.vm2 _) (allReal_row1 l hA.vv2 _) (nonneg_row1 l hA.vv2_nonneg _)

theorem vnRl_real (hA : A.Ok) (l : Nat) (C : Cuts l) {pooled : RArr sGxD} (hp : AllReal pooled) :
    AllReal (vnRl A l C pooled) := by
  unfold vnRl
  exact vnR_real hp (allReal_matDxD2 l hA.vW1 _) (allReal_row2 l hA.vb1 _)
    (allReal_row2 l hA.vg1 _) (allReal_row2 l hA.vbe1 _) (allReal_row2 l hA.vm1 _) (allReal_row2 l hA.vv1 _)
    (nonneg_row2 l hA.vv1_nonneg _) (allReal_matD2xD l hA.vW2 _) (allReal_row1 l hA.vb2 _) (allReal_row1 l hA.vg2 _)
    (allReal_row1 l hA.vbe2 _) (allReal_row1 l hA.vm2 _) (allReal_row1 l hA.vv2 _) (nonneg_row1 l hA.vv2_nonneg _)

variable (A)

/-! ## A layer as a step on the state (node rows, virtual-node rows) -/

/-- A layer's input rows and their neighbourhood sums, shared by both programs. -/
def layerIn (s : RArr sNxD × RArr sGxD) : RArr sNxD := hIn (F := Ideal) s.1 s.2 A.batch
def layerAgg (s : RArr sNxD × RArr sGxD) : RArr sNxD :=
  aggOf (F := Ideal) (layerIn A s) (srcOf A.edges) (dstOf A.edges)

/-- The kernel's layer `l` (not the last). -/
def stepK (l : Nat) (C : Cuts l) (s : RArr sNxD × RArr sGxD) : RArr sNxD × RArr sGxD :=
  (ginK A l C true (layerIn A s) (layerAgg A s),
   vnK A l C fun i => segG (layerIn A s) (batchCol A.batch) i + s.2 i)

/-- The reference's layer `l` (not the last). -/
def stepR (l : Nat) (C : Cuts l) (s : RArr sNxD × RArr sGxD) : RArr sNxD × RArr sGxD :=
  (ginRl A l C true (layerIn A s) (layerAgg A s),
   vnRl A l C fun i => poolOfHost (F := Ideal) (layerIn A s) A.batch i + s.2 i)

/-- The state before the first layer. -/
def state0 : RArr sNxD × RArr sGxD := (embed (F := Ideal) A.atomEmb A.x, vnInit (F := Ideal) A.vnEmb)

/-- The kernel's network. -/
def kerNet : RArr (⟨2, ![256, 10]⟩ : Shape) :=
  let s4 := stepK A 3 cuts3 (stepK A 2 cuts2 (stepK A 1 cuts1 (stepK A 0 cuts0 (state0 A))))
  let h5 := ginK A 4 cuts4 false (layerIn A s4) (layerAgg A s4)
  finG (segG h5 (batchCol A.batch)) (countsOf (F := Ideal) A.batch) (toBf16 (F := Ideal) A.predW) (biasRow A.predb)

/-- The reference's network. -/
def refNet : RArr (⟨2, ![256, 10]⟩ : Shape) :=
  let s4 := stepR A 3 cuts3 (stepR A 2 cuts2 (stepR A 1 cuts1 (stepR A 0 cuts0 (state0 A))))
  let h5 := ginRl A 4 cuts4 false (layerIn A s4) (layerAgg A s4)
  finG (poolOfHost (F := Ideal) h5 A.batch) (countsOf (F := Ideal) A.batch) A.predW (biasRow A.predb)

variable {A}

/-- Both components of a state are real. -/
def RealState (s : RArr sNxD × RArr sGxD) : Prop := AllReal s.1 ∧ AllReal s.2

theorem state0_real (hA : A.Ok) : RealState (state0 A) :=
  ⟨allReal_embed hA.atomEmb A.x, allReal_vnInit hA.vnEmb⟩

theorem layerIn_real {s : RArr sNxD × RArr sGxD} (hs : RealState s) : AllReal (layerIn A s) :=
  allReal_hIn hs.1 hs.2 A.batch

theorem layerAgg_real {s : RArr sNxD × RArr sGxD} (hs : RealState s) : AllReal (layerAgg A s) :=
  allReal_aggOf (layerIn_real hs) (srcOf A.edges) (dstOf A.edges)

/-- On a real state the two programs' layers agree, and the new state is real. -/
theorem stepK_eq_stepR (hA : A.Ok) (l : Nat) (C : Cuts l) {s : RArr sNxD × RArr sGxD} (hs : RealState s) :
    stepK A l C s = stepR A l C s ∧ RealState (stepR A l C s) := by
  have hin := layerIn_real (A := A) hs
  have hag := layerAgg_real (A := A) hs
  have hpool : (fun i => segG (layerIn A s) (batchCol A.batch) i + s.2 i)
      = fun i => poolOfHost (F := Ideal) (layerIn A s) A.batch i + s.2 i :=
    funext fun i => congrArg (· + s.2 i) (congrFun (segG_eq_pool (layerIn A s) A.batch) i)
  have hpr : AllReal fun i => poolOfHost (F := Ideal) (layerIn A s) A.batch i + s.2 i :=
    fun i => (allReal_poolOfHost hin A.batch i).add (hs.2 i)
  refine ⟨?_, ?_⟩
  · unfold stepK stepR
    rw [ginK_eq_ginRl hA l C true hin hag, hpool, vnK_eq_vnRl hA l C hpr]
  · unfold RealState stepR
    dsimp only
    exact ⟨ginRl_real hA l C true hin hag, vnRl_real hA l C hpr⟩

/-- The two networks compute the same ten numbers for every graph. -/
theorem kerNet_eq_refNet (hA : A.Ok) : kerNet A = refNet A := by
  obtain ⟨e0, r0⟩ := stepK_eq_stepR hA 0 cuts0 (state0_real hA)
  obtain ⟨e1, r1⟩ := stepK_eq_stepR hA 1 cuts1 r0
  obtain ⟨e2, r2⟩ := stepK_eq_stepR hA 2 cuts2 r1
  obtain ⟨e3, r3⟩ := stepK_eq_stepR hA 3 cuts3 r2
  have e4 := ginK_eq_ginRl hA 4 cuts4 false (layerIn_real (A := A) r3) (layerAgg_real (A := A) r3)
  have hs : stepK A 3 cuts3 (stepK A 2 cuts2 (stepK A 1 cuts1 (stepK A 0 cuts0 (state0 A))))
      = stepR A 3 cuts3 (stepR A 2 cuts2 (stepR A 1 cuts1 (stepR A 0 cuts0 (state0 A)))) := by
    rw [e0, e1, e2, e3]
  unfold kerNet refNet
  dsimp only
  rw [hs, e4]
  exact congrArg₂ (fun a w => finG a (countsOf (F := Ideal) A.batch) w (biasRow A.predb))
    (segG_eq_pool _ A.batch) (toBf16_eq A.predW)

end Cert.Spec
-- ==== Proof.KiChainAbs.lean ====
/-
  The kernel program's result from a fold of buffer contents, boundary by boundary.

  @main is 26 segments: a stretch of host operations takes the contents W i to what the operations leave, a region takes
  its output array to its layer function of its input arrays and leaves every other buffer. From these facts alone (the
  structure Fold below: one equation per host stretch, one value equation and one frame fact per region) the last
  region's output is the kernel's network of the 32 argument arrays: each layer's pair (node rows, virtual-node rows)
  is one step of the network from the previous pair, because every buffer a region reads is either written by the host
  stretch just before it, or survives from where it was written (no later stretch and no later region writes it).
-/
import proofs.«403491_j395136991532_1_alg».proof.Proof.KiHost0a
import proofs.«403491_j395136991532_1_alg».proof.Proof.KiHost0b
import proofs.«403491_j395136991532_1_alg».proof.Proof.KiHost0c
import proofs.«403491_j395136991532_1_alg».proof.Proof.KiHost0d
import proofs.«403491_j395136991532_1_alg».proof.Proof.KiHostGin
import proofs.«403491_j395136991532_1_alg».proof.Proof.KiHostVn
import proofs.«403491_j395136991532_1_alg».proof.Proof.KiHostKeep
import proofs.«403491_j395136991532_1_alg».proof.Proof.SpecNets
set_option maxRecDepth 8000

noncomputable section

namespace Cert.KernelIdeal.HandValue

open Idealize.ShloMosaic Cert.KernelIdeal Cert.KernelIdeal.Gen

/-- The 32 argument arrays of a valuation, as the specification's record. -/
def argsOfW (W0 : Valuation τ sig (Elt Ideal)) : Cert.Spec.Args where
  atomEmb := W0 (Proc.devRef .tc main_arg0)
  vnEmb := W0 (Proc.devRef .tc main_arg1)
  epsA := W0 (Proc.devRef .tc main_arg2)
  W1 := W0 (Proc.devRef .tc main_arg3)
  b1 := W0 (Proc.devRef .tc main_arg4)
  g1 := W0 (Proc.devRef .tc main_arg5)
  be1 := W0 (Proc.devRef .tc main_arg6)
  m1 := W0 (Proc.devRef .tc main_arg7)
  v1 := W0 (Proc.devRef .tc main_arg8)
  W2 := W0 (Proc.devRef .tc main_arg9)
  b2 := W0 (Proc.devRef .tc main_arg10)
  gc := W0 (Proc.devRef .tc main_arg11)
  bc := W0 (Proc.devRef .tc main_arg12)
  mc := W0 (Proc.devRef .tc main_arg13)
  vc := W0 (Proc.devRef .tc main_arg14)
  vW1 := W0 (Proc.devRef .tc main_arg15)
  vb1 := W0 (Proc.devRef .tc main_arg16)
  vg1 := W0 (Proc.devRef .tc main_arg17)
  vbe1 := W0 (Proc.devRef .tc main_arg18)
  vm1 := W0 (Proc.devRef .tc main_arg19)
  vv1 := W0 (Proc.devRef .tc main_arg20)
  vW2 := W0 (Proc.devRef .tc main_arg21)
  vb2 := W0 (Proc.devRef .tc main_arg22)
  vg2 := W0 (Proc.devRef .tc main_arg23)
  vbe2 := W0 (Proc.devRef .tc main_arg24)
  vm2 := W0 (Proc.devRef .tc main_arg25)
  vv2 := W0 (Proc.devRef .tc main_arg26)
  predW := W0 (Proc.devRef .tc main_arg27)
  predb := W0 (Proc.devRef .tc main_arg28)
  x := W0 (Proc.devRef .tc main_arg29)
  edges := W0 (Proc.devRef .tc main_arg30)
  batch := W0 (Proc.devRef .tc main_arg31)

variable (W : ℕ → Valuation τ sig (Elt Ideal))

/-- The contents at the 27 boundaries of @main's 26 segments: a host stretch computes, a region sets its output array
    to its layer function of its input arrays as entered and leaves every other buffer. -/
structure Fold : Prop where
  h0 : W 1 = StableHlo.after (hostOps0 (F := Ideal)) (W 0)
  o0 : W 2 (Proc.devRef .tc main_v86) = Cert.Spec.ginG true (W 1 (Proc.devRef .tc main_v50)) (W 1 (Proc.devRef .tc main_v60)) (W 1 (Proc.devRef .tc main_v63)) (W 1 (Proc.devRef .tc main_v65)) (W 1 (Proc.devRef .tc main_v68)) (W 1 (Proc.devRef .tc main_v71)) (W 1 (Proc.devRef .tc main_v74)) (W 1 (Proc.devRef .tc main_v76)) (W 1 (Proc.devRef .tc main_v79)) (W 1 (Proc.devRef .tc main_v82)) (W 1 (Proc.devRef .tc main_v85))
  k0 : ∀ b : Ref sig .tc, b ≠ main_v86 → W 2 (Proc.devRef .tc b) = W 1 (Proc.devRef .tc b)
  o1 : W 3 (Proc.devRef .tc main_v87) = Cert.Spec.segG (W 2 (Proc.devRef .tc main_v50)) (W 2 (Proc.devRef .tc main_v13))
  k1 : ∀ b : Ref sig .tc, b ≠ main_v87 → W 3 (Proc.devRef .tc b) = W 2 (Proc.devRef .tc b)
  h2 : W 4 = StableHlo.after (hostOps2 (F := Ideal)) (W 3)
  o2 : W 5 (Proc.devRef .tc main_v111) = Cert.Spec.vnG (W 4 (Proc.devRef .tc main_v88)) (W 4 (Proc.devRef .tc main_v90)) (W 4 (Proc.devRef .tc main_v93)) (W 4 (Proc.devRef .tc main_v96)) (W 4 (Proc.devRef .tc main_v99)) (W 4 (Proc.devRef .tc main_v101)) (W 4 (Proc.devRef .tc main_v104)) (W 4 (Proc.devRef .tc main_v107)) (W 4 (Proc.devRef .tc main_v110))
  k2 : ∀ b : Ref sig .tc, b ≠ main_v111 → W 5 (Proc.devRef .tc b) = W 4 (Proc.devRef .tc b)
  h3 : W 6 = StableHlo.after (hostOps3 (F := Ideal)) (W 5)
  o3 : W 7 (Proc.devRef .tc main_v155) = Cert.Spec.ginG true (W 6 (Proc.devRef .tc main_v119)) (W 6 (Proc.devRef .tc main_v129)) (W 6 (Proc.devRef .tc main_v132)) (W 6 (Proc.devRef .tc main_v134)) (W 6 (Proc.devRef .tc main_v137)) (W 6 (Proc.devRef .tc main_v140)) (W 6 (Proc.devRef .tc main_v143)) (W 6 (Proc.devRef .tc main_v145)) (W 6 (Proc.devRef .tc main_v148)) (W 6 (Proc.devRef .tc main_v151)) (W 6 (Proc.devRef .tc main_v154))
  k3 : ∀ b : Ref sig .tc, b ≠ main_v155 → W 7 (Proc.devRef .tc b) = W 6 (Proc.devRef .tc b)
  o4 : W 8 (Proc.devRef .tc main_v156) = Cert.Spec.segG (W 7 (Proc.devRef .tc main_v119)) (W 7 (Proc.devRef .tc main_v13))
  k4 : ∀ b : Ref sig .tc, b ≠ main_v156 → W 8 (Proc.devRef .tc b) = W 7 (Proc.devRef .tc b)
  h5 : W 9 = StableHlo.after (hostOps5 (F := Ideal)) (W 8)
  o5 : W 10 (Proc.devRef .tc main_v180) = Cert.Spec.vnG (W 9 (Proc.devRef .tc main_v157)) (W 9 (Proc.devRef .tc main_v159)) (W 9 (Proc.devRef .tc main_v162)) (W 9 (Proc.devRef .tc main_v165)) (W 9 (Proc.devRef .tc main_v168)) (W 9 (Proc.devRef .tc main_v170)) (W 9 (Proc.devRef .tc main_v173)) (W 9 (Proc.devRef .tc main_v176)) (W 9 (Proc.devRef .tc main_v179))
  k5 : ∀ b : Ref sig .tc, b ≠ main_v180 → W 10 (Proc.devRef .tc b) = W 9 (Proc.devRef .tc b)
  h6 : W 11 = StableHlo.after (hostOps6 (F := Ideal)) (W 10)
  o6 : W 12 (Proc.devRef .tc main_v224) = Cert.Spec.ginG true (W 11 (Proc.devRef .tc main_v188)) (W 11 (Proc.devRef .tc main_v198)) (W 11 (Proc.devRef .tc main_v201)) (W 11 (Proc.devRef .tc main_v203)) (W 11 (Proc.devRef .tc main_v206)) (W 11 (Proc.devRef .tc main_v209)) (W 11 (Proc.devRef .tc main_v212)) (W 11 (Proc.devRef .tc main_v214)) (W 11 (Proc.devRef .tc main_v217)) (W 11 (Proc.devRef .tc main_v220)) (W 11 (Proc.devRef .tc main_v223))
  k6 : ∀ b : Ref sig .tc, b ≠ main_v224 → W 12 (Proc.devRef .tc b) = W 11 (Proc.devRef .tc b)
  o7 : W 13 (Proc.devRef .tc main_v225) = Cert.Spec.segG (W 12 (Proc.devRef .tc main_v188)) (W 12 (Proc.devRef .tc main_v13))
  k7 : ∀ b : Ref sig .tc, b ≠ main_v225 → W 13 (Proc.devRef .tc b) = W 12 (Proc.devRef .tc b)
  h8 : W 14 = StableHlo.after (hostOps8 (F := Ideal)) (W 13)
  o8 : W 15 (Proc.devRef .tc main_v249) = Cert.Spec.vnG (W 14 (Proc.devRef .tc main_v226)) (W 14 (Proc.devRef .tc main_v228)) (W 14 (Proc.devRef .tc main_v231)) (W 14 (Proc.devRef .tc main_v234)) (W 14 (Proc.devRef .tc main_v237)) (W 14 (Proc.devRef .tc main_v239)) (W 14 (Proc.devRef .tc main_v242)) (W 14 (Proc.devRef .tc main_v245)) (W 14 (Proc.devRef .tc main_v248))
  k8 : ∀ b : Ref sig .tc, b ≠ main_v249 → W 15 (Proc.devRef .tc b) = W 14 (Proc.devRef .tc b)
  h9 : W 16 = StableHlo.after (hostOps9 (F := Ideal)) (W 15)
  o9 : W 17 (Proc.devRef .tc main_v293) = Cert.Spec.ginG true (W 16 (Proc.devRef .tc main_v257)) (W 16 (Proc.devRef .tc main_v267)) (W 16 (Proc.devRef .tc main_v270)) (W 16 (Proc.devRef .tc main_v272)) (W 16 (Proc.devRef .tc main_v275)) (W 16 (Proc.devRef .tc main_v278)) (W 16 (Proc.devRef .tc main_v281)) (W 16 (Proc.devRef .tc main_v283)) (W 16 (Proc.devRef .tc main_v286)) (W 16 (Proc.devRef .tc main_v289)) (W 16 (Proc.devRef .tc main_v292))
  k9 : ∀ b : Ref sig .tc, b ≠ main_v293 → W 17 (Proc.devRef .tc b) = W 16 (Proc.devRef .tc b)
  o10 : W 18 (Proc.devRef .tc main_v294) = Cert.Spec.segG (W 17 (Proc.devRef .tc main_v257)) (W 17 (Proc.devRef .tc main_v13))
  k10 : ∀ b : Ref sig .tc, b ≠ main_v294 → W 18 (Proc.devRef .tc b) = W 17 (Proc.devRef .tc b)
  h11 : W 19 = StableHlo.after (hostOps11 (F := Ideal)) (W 18)
  o11 : W 20 (Proc.devRef .tc main_v318) = Cert.Spec.vnG (W 19 (Proc.devRef .tc main_v295)) (W 19 (Proc.devRef .tc main_v297)) (W 19 (Proc.devRef .tc main_v300)) (W 19 (Proc.devRef .tc main_v303)) (W 19 (Proc.devRef .tc main_v306)) (W 19 (Proc.devRef .tc main_v308)) (W 19 (Proc.devRef .tc main_v311)) (W 19 (Proc.devRef .tc main_v314)) (W 19 (Proc.devRef .tc main_v317))
  k11 : ∀ b : Ref sig .tc, b ≠ main_v318 → W 20 (Proc.devRef .tc b) = W 19 (Proc.devRef .tc b)
  h12 : W 21 = StableHlo.after (hostOps12 (F := Ideal)) (W 20)
  o12 : W 22 (Proc.devRef .tc main_v362) = Cert.Spec.ginG false (W 21 (Proc.devRef .tc main_v326)) (W 21 (Proc.devRef .tc main_v336)) (W 21 (Proc.devRef .tc main_v339)) (W 21 (Proc.devRef .tc main_v341)) (W 21 (Proc.devRef .tc main_v344)) (W 21 (Proc.devRef .tc main_v347)) (W 21 (Proc.devRef .tc main_v350)) (W 21 (Proc.devRef .tc main_v352)) (W 21 (Proc.devRef .tc main_v355)) (W 21 (Proc.devRef .tc main_v358)) (W 21 (Proc.devRef .tc main_v361))
  k12 : ∀ b : Ref sig .tc, b ≠ main_v362 → W 22 (Proc.devRef .tc b) = W 21 (Proc.devRef .tc b)
  h13 : W 23 = StableHlo.after (hostOps13 (F := Ideal)) (W 22)
  o13 : W 24 (Proc.devRef .tc main_v367) = Cert.Spec.segG (W 23 (Proc.devRef .tc main_v362)) (W 23 (Proc.devRef .tc main_v13))
  k13 : ∀ b : Ref sig .tc, b ≠ main_v367 → W 24 (Proc.devRef .tc b) = W 23 (Proc.devRef .tc b)
  h14 : W 25 = StableHlo.after (hostOps14 (F := Ideal)) (W 24)
  o14 : W 26 (Proc.devRef .tc main_v369) = Cert.Spec.finG (W 25 (Proc.devRef .tc main_v367)) (W 25 (Proc.devRef .tc main_v366)) (W 25 (Proc.devRef .tc main_v42)) (W 25 (Proc.devRef .tc main_v368))
  k14 : ∀ b : Ref sig .tc, b ≠ main_v369 → W 26 (Proc.devRef .tc b) = W 25 (Proc.devRef .tc b)

variable {W} (F : Fold W)
include F

/-! ## One boundary back: a buffer the segment does not write -/

theorem back1 (b : Ref sig .tc) (hb : b ∉ Hand.hostOps0_W) : W 1 (Proc.devRef .tc b) = W 0 (Proc.devRef .tc b) := by
  rw [F.h0]; exact Hand.host0_keep _ b hb
theorem back2 (b : Ref sig .tc) (hb : b ≠ main_v86) : W 2 (Proc.devRef .tc b) = W 1 (Proc.devRef .tc b) := F.k0 b hb
theorem back3 (b : Ref sig .tc) (hb : b ≠ main_v87) : W 3 (Proc.devRef .tc b) = W 2 (Proc.devRef .tc b) := F.k1 b hb
theorem back4 (b : Ref sig .tc) (hb : b ∉ Hand.hostOps2_W) : W 4 (Proc.devRef .tc b) = W 3 (Proc.devRef .tc b) := by
  rw [F.h2]; exact Hand.host2_keep _ b hb
theorem back5 (b : Ref sig .tc) (hb : b ≠ main_v111) : W 5 (Proc.devRef .tc b) = W 4 (Proc.devRef .tc b) := F.k2 b hb
theorem back6 (b : Ref sig .tc) (hb : b ∉ Hand.hostOps3_W) : W 6 (Proc.devRef .tc b) = W 5 (Proc.devRef .tc b) := by
  rw [F.h3]; exact Hand.host3_keep _ b hb
theorem back7 (b : Ref sig .tc) (hb : b ≠ main_v155) : W 7 (Proc.devRef .tc b) = W 6 (Proc.devRef .tc b) := F.k3 b hb
theorem back8 (b : Ref sig .tc) (hb : b ≠ main_v156) : W 8 (Proc.devRef .tc b) = W 7 (Proc.devRef .tc b) := F.k4 b hb
theorem back9 (b : Ref sig .tc) (hb : b ∉ Hand.hostOps5_W) : W 9 (Proc.devRef .tc b) = W 8 (Proc.devRef .tc b) := by
  rw [F.h5]; exact Hand.host5_keep _ b hb
theorem back10 (b : Ref sig .tc) (hb : b ≠ main_v180) : W 10 (Proc.devRef .tc b) = W 9 (Proc.devRef .tc b) := F.k5 b hb
theorem back11 (b : Ref sig .tc) (hb : b ∉ Hand.hostOps6_W) : W 11 (Proc.devRef .tc b) = W 10 (Proc.devRef .tc b) := by
  rw [F.h6]; exact Hand.host6_keep _ b hb
theorem back12 (b : Ref sig .tc) (hb : b ≠ main_v224) : W 12 (Proc.devRef .tc b) = W 11 (Proc.devRef .tc b) := F.k6 b hb
theorem back13 (b : Ref sig .tc) (hb : b ≠ main_v225) : W 13 (Proc.devRef .tc b) = W 12 (Proc.devRef .tc b) := F.k7 b hb
theorem back14 (b : Ref sig .tc) (hb : b ∉ Hand.hostOps8_W) : W 14 (Proc.devRef .tc b) = W 13 (Proc.devRef .tc b) := by
  rw [F.h8]; exact Hand.host8_keep _ b hb
theorem back15 (b : Ref sig .tc) (hb : b ≠ main_v249) : W 15 (Proc.devRef .tc b) = W 14 (Proc.devRef .tc b) := F.k8 b hb
theorem back16 (b : Ref sig .tc) (hb : b ∉ Hand.hostOps9_W) : W 16 (Proc.devRef .tc b) = W 15 (Proc.devRef .tc b) := by
  rw [F.h9]; exact Hand.host9_keep _ b hb
theorem back17 (b : Ref sig .tc) (hb : b ≠ main_v293) : W 17 (Proc.devRef .tc b) = W 16 (Proc.devRef .tc b) := F.k9 b hb
theorem back18 (b : Ref sig .tc) (hb : b ≠ main_v294) : W 18 (Proc.devRef .tc b) = W 17 (Proc.devRef .tc b) := F.k10 b hb
theorem back19 (b : Ref sig .tc) (hb : b ∉ Hand.hostOps11_W) : W 19 (Proc.devRef .tc b) = W 18 (Proc.devRef .tc b) := by
  rw [F.h11]; exact Hand.host11_keep _ b hb
theorem back20 (b : Ref sig .tc) (hb : b ≠ main_v318) : W 20 (Proc.devRef .tc b) = W 19 (Proc.devRef .tc b) := F.k11 b hb
theorem back21 (b : Ref sig .tc) (hb : b ∉ Hand.hostOps12_W) : W 21 (Proc.devRef .tc b) = W 20 (Proc.devRef .tc b) := by
  rw [F.h12]; exact Hand.host12_keep _ b hb
theorem back22 (b : Ref sig .tc) (hb : b ≠ main_v362) : W 22 (Proc.devRef .tc b) = W 21 (Proc.devRef .tc b) := F.k12 b hb
theorem back23 (b : Ref sig .tc) (hb : b ∉ Hand.hostOps13_W) : W 23 (Proc.devRef .tc b) = W 22 (Proc.devRef .tc b) := by
  rw [F.h13]; exact Hand.host13_keep _ b hb
theorem back24 (b : Ref sig .tc) (hb : b ≠ main_v367) : W 24 (Proc.devRef .tc b) = W 23 (Proc.devRef .tc b) := F.k13 b hb
theorem back25 (b : Ref sig .tc) (hb : b ∉ Hand.hostOps14_W) : W 25 (Proc.devRef .tc b) = W 24 (Proc.devRef .tc b) := by
  rw [F.h14]; exact Hand.host14_keep _ b hb
theorem back26 (b : Ref sig .tc) (hb : b ≠ main_v369) : W 26 (Proc.devRef .tc b) = W 25 (Proc.devRef .tc b) := F.k14 b hb

/-! ## What a host stretch leaves, at its boundary -/

theorem at1_v8 : W 1 (Proc.devRef .tc main_v8)
    = Spec.vnInit (F := Ideal) (W 0 (Proc.devRef .tc main_arg1)) := by
  rw [F.h0]; exact host0_v8 _
theorem at1_v10 : W 1 (Proc.devRef .tc main_v10)
    = Spec.srcOf (W 0 (Proc.devRef .tc main_arg30)) := by
  rw [F.h0]; exact host0_v10 _
theorem at1_v12 : W 1 (Proc.devRef .tc main_v12)
    = Spec.dstOf (W 0 (Proc.devRef .tc main_arg30)) := by
  rw [F.h0]; exact host0_v12 _
theorem at1_v13 : W 1 (Proc.devRef .tc main_v13)
    = Spec.batchCol (W 0 (Proc.devRef .tc main_arg31)) := by
  rw [F.h0]; exact host0_v13 _
theorem at1_v17 : W 1 (Proc.devRef .tc main_v17)
    = Spec.bnScale2 (F := Ideal) (W 0 (Proc.devRef .tc main_arg5)) (W 0 (Proc.devRef .tc main_arg8)) := by
  rw [F.h0]; exact host0_v17 _
theorem at1_v19 : W 1 (Proc.devRef .tc main_v19)
    = Spec.bnShift2 (F := Ideal) (W 0 (Proc.devRef .tc main_arg6)) (W 0 (Proc.devRef .tc main_arg7)) (Spec.bnScale2 (F := Ideal) (W 0 (Proc.devRef .tc main_arg5)) (W 0 (Proc.devRef .tc main_arg8))) := by
  rw [F.h0]; exact host0_v19 _
theorem at1_v23 : W 1 (Proc.devRef .tc main_v23)
    = Spec.bnScale1 (F := Ideal) (W 0 (Proc.devRef .tc main_arg11)) (W 0 (Proc.devRef .tc main_arg14)) := by
  rw [F.h0]; exact host0_v23 _
theorem at1_v25 : W 1 (Proc.devRef .tc main_v25)
    = Spec.bnShift1 (F := Ideal) (W 0 (Proc.devRef .tc main_arg12)) (W 0 (Proc.devRef .tc main_arg13)) (Spec.bnScale1 (F := Ideal) (W 0 (Proc.devRef .tc main_arg11)) (W 0 (Proc.devRef .tc main_arg14))) := by
  rw [F.h0]; exact host0_v25 _
theorem at1_v29 : W 1 (Proc.devRef .tc main_v29)
    = Spec.bnScale2 (F := Ideal) (W 0 (Proc.devRef .tc main_arg17)) (W 0 (Proc.devRef .tc main_arg20)) := by
  rw [F.h0]; exact host0_v29 _
theorem at1_v31 : W 1 (Proc.devRef .tc main_v31)
    = Spec.bnShift2 (F := Ideal) (W 0 (Proc.devRef .tc main_arg18)) (W 0 (Proc.devRef .tc main_arg19)) (Spec.bnScale2 (F := Ideal) (W 0 (Proc.devRef .tc main_arg17)) (W 0 (Proc.devRef .tc main_arg20))) := by
  rw [F.h0]; exact host0_v31 _
theorem at1_v35 : W 1 (Proc.devRef .tc main_v35)
    = Spec.bnScale1 (F := Ideal) (W 0 (Proc.devRef .tc main_arg23)) (W 0 (Proc.devRef .tc main_arg26)) := by
  rw [F.h0]; exact host0_v35 _
theorem at1_v37 : W 1 (Proc.devRef .tc main_v37)
    = Spec.bnShift1 (F := Ideal) (W 0 (Proc.devRef .tc main_arg24)) (W 0 (Proc.devRef .tc main_arg25)) (Spec.bnScale1 (F := Ideal) (W 0 (Proc.devRef .tc main_arg23)) (W 0 (Proc.devRef .tc main_arg26))) := by
  rw [F.h0]; exact host0_v37 _
theorem at1_v38 : W 1 (Proc.devRef .tc main_v38)
    = Spec.toBf16 (F := Ideal) (W 0 (Proc.devRef .tc main_arg3)) := by
  rw [F.h0]; exact host0_v38 _
theorem at1_v39 : W 1 (Proc.devRef .tc main_v39)
    = Spec.toBf16 (F := Ideal) (W 0 (Proc.devRef .tc main_arg9)) := by
  rw [F.h0]; exact host0_v39 _
theorem at1_v40 : W 1 (Proc.devRef .tc main_v40)
    = Spec.toBf16 (F := Ideal) (W 0 (Proc.devRef .tc main_arg15)) := by
  rw [F.h0]; exact host0_v40 _
theorem at1_v41 : W 1 (Proc.devRef .tc main_v41)
    = Spec.toBf16 (F := Ideal) (W 0 (Proc.devRef .tc main_arg21)) := by
  rw [F.h0]; exact host0_v41 _
theorem at1_v42 : W 1 (Proc.devRef .tc main_v42)
    = Spec.toBf16 (F := Ideal) (W 0 (Proc.devRef .tc main_arg27)) := by
  rw [F.h0]; exact host0_v42 _
theorem at1_v50 : W 1 (Proc.devRef .tc main_v50)
    = Spec.hIn (F := Ideal) (Spec.embed (F := Ideal) (W 0 (Proc.devRef .tc main_arg0)) (W 0 (Proc.devRef .tc main_arg29))) (Spec.vnInit (F := Ideal) (W 0 (Proc.devRef .tc main_arg1))) (W 0 (Proc.devRef .tc main_arg31)) := by
  rw [F.h0]; exact host0_v50 _
theorem at1_v60 : W 1 (Proc.devRef .tc main_v60)
    = Spec.aggOf (F := Ideal) (Spec.hIn (F := Ideal) (Spec.embed (F := Ideal) (W 0 (Proc.devRef .tc main_arg0)) (W 0 (Proc.devRef .tc main_arg29))) (Spec.vnInit (F := Ideal) (W 0 (Proc.devRef .tc main_arg1))) (W 0 (Proc.devRef .tc main_arg31))) (Spec.srcOf (W 0 (Proc.devRef .tc main_arg30))) (Spec.dstOf (W 0 (Proc.devRef .tc main_arg30))) := by
  rw [F.h0]; exact host0_v60 _
theorem at1_v63 : W 1 (Proc.devRef .tc main_v63)
    = Spec.epsOf 0 (W 0 (Proc.devRef .tc main_arg2)) := by
  rw [F.h0]; exact host0_v63 _
theorem at1_v65 : W 1 (Proc.devRef .tc main_v65)
    = Spec.matDxD2 0 (Spec.toBf16 (F := Ideal) (W 0 (Proc.devRef .tc main_arg3))) := by
  rw [F.h0]; exact host0_v65 _
theorem at1_v68 : W 1 (Proc.devRef .tc main_v68)
    = Spec.row2 0 (W 0 (Proc.devRef .tc main_arg4)) := by
  rw [F.h0]; exact host0_v68 _
theorem at1_v71 : W 1 (Proc.devRef .tc main_v71)
    = Spec.scaleOf2 (F := Ideal) 0 (W 0 (Proc.devRef .tc main_arg5)) (W 0 (Proc.devRef .tc main_arg8)) := by
  rw [F.h0]; exact host0_v71 _
theorem at1_v74 : W 1 (Proc.devRef .tc main_v74)
    = Spec.shiftOf2 (F := Ideal) 0 (W 0 (Proc.devRef .tc main_arg6)) (W 0 (Proc.devRef .tc main_arg7)) (W 0 (Proc.devRef .tc main_arg5)) (W 0 (Proc.devRef .tc main_arg8)) := by
  rw [F.h0]; exact host0_v74 _
theorem at1_v76 : W 1 (Proc.devRef .tc main_v76)
    = Spec.matD2xD 0 (Spec.toBf16 (F := Ideal) (W 0 (Proc.devRef .tc main_arg9))) := by
  rw [F.h0]; exact host0_v76 _
theorem at1_v79 : W 1 (Proc.devRef .tc main_v79)
    = Spec.row1 0 (W 0 (Proc.devRef .tc main_arg10)) := by
  rw [F.h0]; exact host0_v79 _
theorem at1_v82 : W 1 (Proc.devRef .tc main_v82)
    = Spec.scaleOf1 (F := Ideal) 0 (W 0 (Proc.devRef .tc main_arg11)) (W 0 (Proc.devRef .tc main_arg14)) := by
  rw [F.h0]; exact host0_v82 _
theorem at1_v85 : W 1 (Proc.devRef .tc main_v85)
    = Spec.shiftOf1 (F := Ideal) 0 (W 0 (Proc.devRef .tc main_arg12)) (W 0 (Proc.devRef .tc main_arg13)) (W 0 (Proc.devRef .tc main_arg11)) (W 0 (Proc.devRef .tc main_arg14)) := by
  rw [F.h0]; exact host0_v85 _
theorem at6_v119 : W 6 (Proc.devRef .tc main_v119)
    = Spec.hIn (F := Ideal) (W 5 (Proc.devRef .tc main_v86)) (W 5 (Proc.devRef .tc main_v111)) (W 5 (Proc.devRef .tc main_arg31)) := by
  rw [F.h3]; exact host3_v119 _
theorem at6_v129 : W 6 (Proc.devRef .tc main_v129)
    = Spec.aggOf (F := Ideal) (Spec.hIn (F := Ideal) (W 5 (Proc.devRef .tc main_v86)) (W 5 (Proc.devRef .tc main_v111)) (W 5 (Proc.devRef .tc main_arg31))) (W 5 (Proc.devRef .tc main_v10)) (W 5 (Proc.devRef .tc main_v12)) := by
  rw [F.h3]; exact host3_v129 _
theorem at6_v132 : W 6 (Proc.devRef .tc main_v132)
    = Spec.epsOf 1 (W 5 (Proc.devRef .tc main_arg2)) := by
  rw [F.h3]; exact host3_v132 _
theorem at6_v134 : W 6 (Proc.devRef .tc main_v134)
    = Spec.matDxD2 1 (W 5 (Proc.devRef .tc main_v38)) := by
  rw [F.h3]; exact host3_v134 _
theorem at6_v137 : W 6 (Proc.devRef .tc main_v137)
    = Spec.row2 1 (W 5 (Proc.devRef .tc main_arg4)) := by
  rw [F.h3]; exact host3_v137 _
theorem at6_v140 : W 6 (Proc.devRef .tc main_v140)
    = Spec.row2 1 (W 5 (Proc.devRef .tc main_v17)) := by
  rw [F.h3]; exact host3_v140 _
theorem at6_v143 : W 6 (Proc.devRef .tc main_v143)
    = Spec.row2 1 (W 5 (Proc.devRef .tc main_v19)) := by
  rw [F.h3]; exact host3_v143 _
theorem at6_v145 : W 6 (Proc.devRef .tc main_v145)
    = Spec.matD2xD 1 (W 5 (Proc.devRef .tc main_v39)) := by
  rw [F.h3]; exact host3_v145 _
theorem at6_v148 : W 6 (Proc.devRef .tc main_v148)
    = Spec.row1 1 (W 5 (Proc.devRef .tc main_arg10)) := by
  rw [F.h3]; exact host3_v148 _
theorem at6_v151 : W 6 (Proc.devRef .tc main_v151)
    = Spec.row1 1 (W 5 (Proc.devRef .tc main_v23)) := by
  rw [F.h3]; exact host3_v151 _
theorem at6_v154 : W 6 (Proc.devRef .tc main_v154)
    = Spec.row1 1 (W 5 (Proc.devRef .tc main_v25)) := by
  rw [F.h3]; exact host3_v154 _
theorem at11_v188 : W 11 (Proc.devRef .tc main_v188)
    = Spec.hIn (F := Ideal) (W 10 (Proc.devRef .tc main_v155)) (W 10 (Proc.devRef .tc main_v180)) (W 10 (Proc.devRef .tc main_arg31)) := by
  rw [F.h6]; exact host6_v188 _
theorem at11_v198 : W 11 (Proc.devRef .tc main_v198)
    = Spec.aggOf (F := Ideal) (Spec.hIn (F := Ideal) (W 10 (Proc.devRef .tc main_v155)) (W 10 (Proc.devRef .tc main_v180)) (W 10 (Proc.devRef .tc main_arg31))) (W 10 (Proc.devRef .tc main_v10)) (W 10 (Proc.devRef .tc main_v12)) := by
  rw [F.h6]; exact host6_v198 _
theorem at11_v201 : W 11 (Proc.devRef .tc main_v201)
    = Spec.epsOf 2 (W 10 (Proc.devRef .tc main_arg2)) := by
  rw [F.h6]; exact host6_v201 _
theorem at11_v203 : W 11 (Proc.devRef .tc main_v203)
    = Spec.matDxD2 2 (W 10 (Proc.devRef .tc main_v38)) := by
  rw [F.h6]; exact host6_v203 _
theorem at11_v206 : W 11 (Proc.devRef .tc main_v206)
    = Spec.row2 2 (W 10 (Proc.devRef .tc main_arg4)) := by
  rw [F.h6]; exact host6_v206 _
theorem at11_v209 : W 11 (Proc.devRef .tc main_v209)
    = Spec.row2 2 (W 10 (Proc.devRef .tc main_v17)) := by
  rw [F.h6]; exact host6_v209 _
theorem at11_v212 : W 11 (Proc.devRef .tc main_v212)
    = Spec.row2 2 (W 10 (Proc.devRef .tc main_v19)) := by
  rw [F.h6]; exact host6_v212 _
theorem at11_v214 : W 11 (Proc.devRef .tc main_v214)
    = Spec.matD2xD 2 (W 10 (Proc.devRef .tc main_v39)) := by
  rw [F.h6]; exact host6_v214 _
theorem at11_v217 : W 11 (Proc.devRef .tc main_v217)
    = Spec.row1 2 (W 10 (Proc.devRef .tc main_arg10)) := by
  rw [F.h6]; exact host6_v217 _
theorem at11_v220 : W 11 (Proc.devRef .tc main_v220)
    = Spec.row1 2 (W 10 (Proc.devRef .tc main_v23)) := by
  rw [F.h6]; exact host6_v220 _
theorem at11_v223 : W 11 (Proc.devRef .tc main_v223)
    = Spec.row1 2 (W 10 (Proc.devRef .tc main_v25)) := by
  rw [F.h6]; exact host6_v223 _
theorem at16_v257 : W 16 (Proc.devRef .tc main_v257)
    = Spec.hIn (F := Ideal) (W 15 (Proc.devRef .tc main_v224)) (W 15 (Proc.devRef .tc main_v249)) (W 15 (Proc.devRef .tc main_arg31)) := by
  rw [F.h9]; exact host9_v257 _
theorem at16_v267 : W 16 (Proc.devRef .tc main_v267)
    = Spec.aggOf (F := Ideal) (Spec.hIn (F := Ideal) (W 15 (Proc.devRef .tc main_v224)) (W 15 (Proc.devRef .tc main_v249)) (W 15 (Proc.devRef .tc main_arg31))) (W 15 (Proc.devRef .tc main_v10)) (W 15 (Proc.devRef .tc main_v12)) := by
  rw [F.h9]; exact host9_v267 _
theorem at16_v270 : W 16 (Proc.devRef .tc main_v270)
    = Spec.epsOf 3 (W 15 (Proc.devRef .tc main_arg2)) := by
  rw [F.h9]; exact host9_v270 _
theorem at16_v272 : W 16 (Proc.devRef .tc main_v272)
    = Spec.matDxD2 3 (W 15 (Proc.devRef .tc main_v38)) := by
  rw [F.h9]; exact host9_v272 _
theorem at16_v275 : W 16 (Proc.devRef .tc main_v275)
    = Spec.row2 3 (W 15 (Proc.devRef .tc main_arg4)) := by
  rw [F.h9]; exact host9_v275 _
theorem at16_v278 : W 16 (Proc.devRef .tc main_v278)
    = Spec.row2 3 (W 15 (Proc.devRef .tc main_v17)) := by
  rw [F.h9]; exact host9_v278 _
theorem at16_v281 : W 16 (Proc.devRef .tc main_v281)
    = Spec.row2 3 (W 15 (Proc.devRef .tc main_v19)) := by
  rw [F.h9]; exact host9_v281 _
theorem at16_v283 : W 16 (Proc.devRef .tc main_v283)
    = Spec.matD2xD 3 (W 15 (Proc.devRef .tc main_v39)) := by
  rw [F.h9]; exact host9_v283 _
theorem at16_v286 : W 16 (Proc.devRef .tc main_v286)
    = Spec.row1 3 (W 15 (Proc.devRef .tc main_arg10)) := by
  rw [F.h9]; exact host9_v286 _
theorem at16_v289 : W 16 (Proc.devRef .tc main_v289)
    = Spec.row1 3 (W 15 (Proc.devRef .tc main_v23)) := by
  rw [F.h9]; exact host9_v289 _
theorem at16_v292 : W 16 (Proc.devRef .tc main_v292)
    = Spec.row1 3 (W 15 (Proc.devRef .tc main_v25)) := by
  rw [F.h9]; exact host9_v292 _
theorem at21_v326 : W 21 (Proc.devRef .tc main_v326)
    = Spec.hIn (F := Ideal) (W 20 (Proc.devRef .tc main_v293)) (W 20 (Proc.devRef .tc main_v318)) (W 20 (Proc.devRef .tc main_arg31)) := by
  rw [F.h12]; exact host12_v326 _
theorem at21_v336 : W 21 (Proc.devRef .tc main_v336)
    = Spec.aggOf (F := Ideal) (Spec.hIn (F := Ideal) (W 20 (Proc.devRef .tc main_v293)) (W 20 (Proc.devRef .tc main_v318)) (W 20 (Proc.devRef .tc main_arg31))) (W 20 (Proc.devRef .tc main_v10)) (W 20 (Proc.devRef .tc main_v12)) := by
  rw [F.h12]; exact host12_v336 _
theorem at21_v339 : W 21 (Proc.devRef .tc main_v339)
    = Spec.epsOf 4 (W 20 (Proc.devRef .tc main_arg2)) := by
  rw [F.h12]; exact host12_v339 _
theorem at21_v341 : W 21 (Proc.devRef .tc main_v341)
    = Spec.matDxD2 4 (W 20 (Proc.devRef .tc main_v38)) := by
  rw [F.h12]; exact host12_v341 _
theorem at21_v344 : W 21 (Proc.devRef .tc main_v344)
    = Spec.row2 4 (W 20 (Proc.devRef .tc main_arg4)) := by
  rw [F.h12]; exact host12_v344 _
theorem at21_v347 : W 21 (Proc.devRef .tc main_v347)
    = Spec.row2 4 (W 20 (Proc.devRef .tc main_v17)) := by
  rw [F.h12]; exact host12_v347 _
theorem at21_v350 : W 21 (Proc.devRef .tc main_v350)
    = Spec.row2 4 (W 20 (Proc.devRef .tc main_v19)) := by
  rw [F.h12]; exact host12_v350 _
theorem at21_v352 : W 21 (Proc.devRef .tc main_v352)
    = Spec.matD2xD 4 (W 20 (Proc.devRef .tc main_v39)) := by
  rw [F.h12]; exact host12_v352 _
theorem at21_v355 : W 21 (Proc.devRef .tc main_v355)
    = Spec.row1 4 (W 20 (Proc.devRef .tc main_arg10)) := by
  rw [F.h12]; exact host12_v355 _
theorem at21_v358 : W 21 (Proc.devRef .tc main_v358)
    = Spec.row1 4 (W 20 (Proc.devRef .tc main_v23)) := by
  rw [F.h12]; exact host12_v358 _
theorem at21_v361 : W 21 (Proc.devRef .tc main_v361)
    = Spec.row1 4 (W 20 (Proc.devRef .tc main_v25)) := by
  rw [F.h12]; exact host12_v361 _
theorem at4_v88 : W 4 (Proc.devRef .tc main_v88)
    = addf (F := Ideal) (φ := .f32) (W 3 (Proc.devRef .tc main_v87)) (W 3 (Proc.devRef .tc main_v8)) := by
  rw [F.h2]; exact host2_v88 _
theorem at4_v90 : W 4 (Proc.devRef .tc main_v90)
    = Spec.matDxD2 0 (W 3 (Proc.devRef .tc main_v40)) := by
  rw [F.h2]; exact host2_v90 _
theorem at4_v93 : W 4 (Proc.devRef .tc main_v93)
    = Spec.row2 0 (W 3 (Proc.devRef .tc main_arg16)) := by
  rw [F.h2]; exact host2_v93 _
theorem at4_v96 : W 4 (Proc.devRef .tc main_v96)
    = Spec.row2 0 (W 3 (Proc.devRef .tc main_v29)) := by
  rw [F.h2]; exact host2_v96 _
theorem at4_v99 : W 4 (Proc.devRef .tc main_v99)
    = Spec.row2 0 (W 3 (Proc.devRef .tc main_v31)) := by
  rw [F.h2]; exact host2_v99 _
theorem at4_v101 : W 4 (Proc.devRef .tc main_v101)
    = Spec.matD2xD 0 (W 3 (Proc.devRef .tc main_v41)) := by
  rw [F.h2]; exact host2_v101 _
theorem at4_v104 : W 4 (Proc.devRef .tc main_v104)
    = Spec.row1 0 (W 3 (Proc.devRef .tc main_arg22)) := by
  rw [F.h2]; exact host2_v104 _
theorem at4_v107 : W 4 (Proc.devRef .tc main_v107)
    = Spec.row1 0 (W 3 (Proc.devRef .tc main_v35)) := by
  rw [F.h2]; exact host2_v107 _
theorem at4_v110 : W 4 (Proc.devRef .tc main_v110)
    = Spec.row1 0 (W 3 (Proc.devRef .tc main_v37)) := by
  rw [F.h2]; exact host2_v110 _
theorem at9_v157 : W 9 (Proc.devRef .tc main_v157)
    = addf (F := Ideal) (φ := .f32) (W 8 (Proc.devRef .tc main_v156)) (W 8 (Proc.devRef .tc main_v111)) := by
  rw [F.h5]; exact host5_v157 _
theorem at9_v159 : W 9 (Proc.devRef .tc main_v159)
    = Spec.matDxD2 1 (W 8 (Proc.devRef .tc main_v40)) := by
  rw [F.h5]; exact host5_v159 _
theorem at9_v162 : W 9 (Proc.devRef .tc main_v162)
    = Spec.row2 1 (W 8 (Proc.devRef .tc main_arg16)) := by
  rw [F.h5]; exact host5_v162 _
theorem at9_v165 : W 9 (Proc.devRef .tc main_v165)
    = Spec.row2 1 (W 8 (Proc.devRef .tc main_v29)) := by
  rw [F.h5]; exact host5_v165 _
theorem at9_v168 : W 9 (Proc.devRef .tc main_v168)
    = Spec.row2 1 (W 8 (Proc.devRef .tc main_v31)) := by
  rw [F.h5]; exact host5_v168 _
theorem at9_v170 : W 9 (Proc.devRef .tc main_v170)
    = Spec.matD2xD 1 (W 8 (Proc.devRef .tc main_v41)) := by
  rw [F.h5]; exact host5_v170 _
theorem at9_v173 : W 9 (Proc.devRef .tc main_v173)
    = Spec.row1 1 (W 8 (Proc.devRef .tc main_arg22)) := by
  rw [F.h5]; exact host5_v173 _
theorem at9_v176 : W 9 (Proc.devRef .tc main_v176)
    = Spec.row1 1 (W 8 (Proc.devRef .tc main_v35)) := by
  rw [F.h5]; exact host5_v176 _
theorem at9_v179 : W 9 (Proc.devRef .tc main_v179)
    = Spec.row1 1 (W 8 (Proc.devRef .tc main_v37)) := by
  rw [F.h5]; exact host5_v179 _
theorem at14_v226 : W 14 (Proc.devRef .tc main_v226)
    = addf (F := Ideal) (φ := .f32) (W 13 (Proc.devRef .tc main_v225)) (W 13 (Proc.devRef .tc main_v180)) := by
  rw [F.h8]; exact host8_v226 _
theorem at14_v228 : W 14 (Proc.devRef .tc main_v228)
    = Spec.matDxD2 2 (W 13 (Proc.devRef .tc main_v40)) := by
  rw [F.h8]; exact host8_v228 _
theorem at14_v231 : W 14 (Proc.devRef .tc main_v231)
    = Spec.row2 2 (W 13 (Proc.devRef .tc main_arg16)) := by
  rw [F.h8]; exact host8_v231 _
theorem at14_v234 : W 14 (Proc.devRef .tc main_v234)
    = Spec.row2 2 (W 13 (Proc.devRef .tc main_v29)) := by
  rw [F.h8]; exact host8_v234 _
theorem at14_v237 : W 14 (Proc.devRef .tc main_v237)
    = Spec.row2 2 (W 13 (Proc.devRef .tc main_v31)) := by
  rw [F.h8]; exact host8_v237 _
theorem at14_v239 : W 14 (Proc.devRef .tc main_v239)
    = Spec.matD2xD 2 (W 13 (Proc.devRef .tc main_v41)) := by
  rw [F.h8]; exact host8_v239 _
theorem at14_v242 : W 14 (Proc.devRef .tc main_v242)
    = Spec.row1 2 (W 13 (Proc.devRef .tc main_arg22)) := by
  rw [F.h8]; exact host8_v242 _
theorem at14_v245 : W 14 (Proc.devRef .tc main_v245)
    = Spec.row1 2 (W 13 (Proc.devRef .tc main_v35)) := by
  rw [F.h8]; exact host8_v245 _
theorem at14_v248 : W 14 (Proc.devRef .tc main_v248)
    = Spec.row1 2 (W 13 (Proc.devRef .tc main_v37)) := by
  rw [F.h8]; exact host8_v248 _
theorem at19_v295 : W 19 (Proc.devRef .tc main_v295)
    = addf (F := Ideal) (φ := .f32) (W 18 (Proc.devRef .tc main_v294)) (W 18 (Proc.devRef .tc main_v249)) := by
  rw [F.h11]; exact host11_v295 _
theorem at19_v297 : W 19 (Proc.devRef .tc main_v297)
    = Spec.matDxD2 3 (W 18 (Proc.devRef .tc main_v40)) := by
  rw [F.h11]; exact host11_v297 _
theorem at19_v300 : W 19 (Proc.devRef .tc main_v300)
    = Spec.row2 3 (W 18 (Proc.devRef .tc main_arg16)) := by
  rw [F.h11]; exact host11_v300 _
theorem at19_v303 : W 19 (Proc.devRef .tc main_v303)
    = Spec.row2 3 (W 18 (Proc.devRef .tc main_v29)) := by
  rw [F.h11]; exact host11_v303 _
theorem at19_v306 : W 19 (Proc.devRef .tc main_v306)
    = Spec.row2 3 (W 18 (Proc.devRef .tc main_v31)) := by
  rw [F.h11]; exact host11_v306 _
theorem at19_v308 : W 19 (Proc.devRef .tc main_v308)
    = Spec.matD2xD 3 (W 18 (Proc.devRef .tc main_v41)) := by
  rw [F.h11]; exact host11_v308 _
theorem at19_v311 : W 19 (Proc.devRef .tc main_v311)
    = Spec.row1 3 (W 18 (Proc.devRef .tc main_arg22)) := by
  rw [F.h11]; exact host11_v311 _
theorem at19_v314 : W 19 (Proc.devRef .tc main_v314)
    = Spec.row1 3 (W 18 (Proc.devRef .tc main_v35)) := by
  rw [F.h11]; exact host11_v314 _
theorem at19_v317 : W 19 (Proc.devRef .tc main_v317)
    = Spec.row1 3 (W 18 (Proc.devRef .tc main_v37)) := by
  rw [F.h11]; exact host11_v317 _
theorem at23_v366 : W 23 (Proc.devRef .tc main_v366)
    = Spec.countsOf (F := Ideal) (W 22 (Proc.devRef .tc main_arg31)) := by
  rw [F.h13]; exact host13_v366 _
theorem at25_v368 : W 25 (Proc.devRef .tc main_v368)
    = Spec.biasRow (W 24 (Proc.devRef .tc main_arg28)) := by
  rw [F.h14]; exact host14_v368 _

/-! ## The layers -/

local notation "𝔸" => argsOfW (W 0)

set_option maxHeartbeats 4000000 in
/-- Layer 0: the node rows region 0 leaves and the virtual-node rows region 2 leaves are one step of the
    kernel's network from the initial state. -/
theorem layer0 : ((W 2 (Proc.devRef .tc main_v86)), (W 5 (Proc.devRef .tc main_v111)))
    = Cert.Spec.stepK 𝔸 0 Cert.Spec.cuts0 (Cert.Spec.state0 𝔸) := by
  simp (disch := decide) only [F.o0, F.o1, F.o2, back1 F, back2 F, back3 F, back4 F, back5 F, back6 F, back7 F, back8 F, back9 F, back10 F, back11 F, back12 F, back13 F, back14 F, back15 F, back16 F, back17 F, back18 F, back19 F, back20 F, back21 F, back22 F, back23 F, back24 F, back25 F, back26 F, at1_v8 F, at1_v10 F, at1_v12 F, at1_v13 F, at1_v17 F, at1_v19 F, at1_v23 F, at1_v25 F, at1_v29 F, at1_v31 F, at1_v35 F, at1_v37 F, at1_v38 F, at1_v39 F, at1_v40 F, at1_v41 F, at1_v42 F, at1_v50 F, at1_v60 F, at1_v63 F, at1_v65 F, at1_v68 F, at1_v71 F, at1_v74 F, at1_v76 F, at1_v79 F, at1_v82 F, at1_v85 F, at4_v88 F, at4_v90 F, at4_v93 F, at4_v96 F, at4_v99 F, at4_v101 F, at4_v104 F, at4_v107 F, at4_v110 F, at6_v119 F, at6_v129 F, at6_v132 F, at6_v134 F, at6_v137 F, at6_v140 F, at6_v143 F, at6_v145 F, at6_v148 F, at6_v151 F, at6_v154 F, at9_v157 F, at9_v159 F, at9_v162 F, at9_v165 F, at9_v168 F, at9_v170 F, at9_v173 F, at9_v176 F, at9_v179 F, at11_v188 F, at11_v198 F, at11_v201 F, at11_v203 F, at11_v206 F, at11_v209 F, at11_v212 F, at11_v214 F, at11_v217 F, at11_v220 F, at11_v223 F, at14_v226 F, at14_v228 F, at14_v231 F, at14_v234 F, at14_v237 F, at14_v239 F, at14_v242 F, at14_v245 F, at14_v248 F, at16_v257 F, at16_v267 F, at16_v270 F, at16_v272 F, at16_v275 F, at16_v278 F, at16_v281 F, at16_v283 F, at16_v286 F, at16_v289 F, at16_v292 F, at19_v295 F, at19_v297 F, at19_v300 F, at19_v303 F, at19_v306 F, at19_v308 F, at19_v311 F, at19_v314 F, at19_v317 F, at21_v326 F, at21_v336 F, at21_v339 F, at21_v341 F, at21_v344 F, at21_v347 F, at21_v350 F, at21_v352 F, at21_v355 F, at21_v358 F, at21_v361 F, at23_v366 F, at25_v368 F]
  rfl

set_option maxHeartbeats 4000000 in
/-- Layer 1: the node rows region 3 leaves and the virtual-node rows region 5 leaves are one step of the
    kernel's network from the previous layer's pair. -/
theorem layer1 : ((W 7 (Proc.devRef .tc main_v155)), (W 10 (Proc.devRef .tc main_v180)))
    = Cert.Spec.stepK 𝔸 1 Cert.Spec.cuts1 ((W 2 (Proc.devRef .tc main_v86)), (W 5 (Proc.devRef .tc main_v111))) := by
  simp (disch := decide) only [F.o3, F.o4, F.o5, back1 F, back2 F, back3 F, back4 F, back5 F, back6 F, back7 F, back8 F, back9 F, back10 F, back11 F, back12 F, back13 F, back14 F, back15 F, back16 F, back17 F, back18 F, back19 F, back20 F, back21 F, back22 F, back23 F, back24 F, back25 F, back26 F, at1_v8 F, at1_v10 F, at1_v12 F, at1_v13 F, at1_v17 F, at1_v19 F, at1_v23 F, at1_v25 F, at1_v29 F, at1_v31 F, at1_v35 F, at1_v37 F, at1_v38 F, at1_v39 F, at1_v40 F, at1_v41 F, at1_v42 F, at1_v50 F, at1_v60 F, at1_v63 F, at1_v65 F, at1_v68 F, at1_v71 F, at1_v74 F, at1_v76 F, at1_v79 F, at1_v82 F, at1_v85 F, at4_v88 F, at4_v90 F, at4_v93 F, at4_v96 F, at4_v99 F, at4_v101 F, at4_v104 F, at4_v107 F, at4_v110 F, at6_v119 F, at6_v129 F, at6_v132 F, at6_v134 F, at6_v137 F, at6_v140 F, at6_v143 F, at6_v145 F, at6_v148 F, at6_v151 F, at6_v154 F, at9_v157 F, at9_v159 F, at9_v162 F, at9_v165 F, at9_v168 F, at9_v170 F, at9_v173 F, at9_v176 F, at9_v179 F, at11_v188 F, at11_v198 F, at11_v201 F, at11_v203 F, at11_v206 F, at11_v209 F, at11_v212 F, at11_v214 F, at11_v217 F, at11_v220 F, at11_v223 F, at14_v226 F, at14_v228 F, at14_v231 F, at14_v234 F, at14_v237 F, at14_v239 F, at14_v242 F, at14_v245 F, at14_v248 F, at16_v257 F, at16_v267 F, at16_v270 F, at16_v272 F, at16_v275 F, at16_v278 F, at16_v281 F, at16_v283 F, at16_v286 F, at16_v289 F, at16_v292 F, at19_v295 F, at19_v297 F, at19_v300 F, at19_v303 F, at19_v306 F, at19_v308 F, at19_v311 F, at19_v314 F, at19_v317 F, at21_v326 F, at21_v336 F, at21_v339 F, at21_v341 F, at21_v344 F, at21_v347 F, at21_v350 F, at21_v352 F, at21_v355 F, at21_v358 F, at21_v361 F, at23_v366 F, at25_v368 F]
  rfl

set_option maxHeartbeats 4000000 in
/-- Layer 2: the node rows region 6 leaves and the virtual-node rows region 8 leaves are one step of the
    kernel's network from the previous layer's pair. -/
theorem layer2 : ((W 12 (Proc.devRef .tc main_v224)), (W 15 (Proc.devRef .tc main_v249)))
    = Cert.Spec.stepK 𝔸 2 Cert.Spec.cuts2 ((W 7 (Proc.devRef .tc main_v155)), (W 10 (Proc.devRef .tc main_v180))) := by
  simp (disch := decide) only [F.o6, F.o7, F.o8, back1 F, back2 F, back3 F, back4 F, back5 F, back6 F, back7 F, back8 F, back9 F, back10 F, back11 F, back12 F, back13 F, back14 F, back15 F, back16 F, back17 F, back18 F, back19 F, back20 F, back21 F, back22 F, back23 F, back24 F, back25 F, back26 F, at1_v8 F, at1_v10 F, at1_v12 F, at1_v13 F, at1_v17 F, at1_v19 F, at1_v23 F, at1_v25 F, at1_v29 F, at1_v31 F, at1_v35 F, at1_v37 F, at1_v38 F, at1_v39 F, at1_v40 F, at1_v41 F, at1_v42 F, at1_v50 F, at1_v60 F, at1_v63 F, at1_v65 F, at1_v68 F, at1_v71 F, at1_v74 F, at1_v76 F, at1_v79 F, at1_v82 F, at1_v85 F, at4_v88 F, at4_v90 F, at4_v93 F, at4_v96 F, at4_v99 F, at4_v101 F, at4_v104 F, at4_v107 F, at4_v110 F, at6_v119 F, at6_v129 F, at6_v132 F, at6_v134 F, at6_v137 F, at6_v140 F, at6_v143 F, at6_v145 F, at6_v148 F, at6_v151 F, at6_v154 F, at9_v157 F, at9_v159 F, at9_v162 F, at9_v165 F, at9_v168 F, at9_v170 F, at9_v173 F, at9_v176 F, at9_v179 F, at11_v188 F, at11_v198 F, at11_v201 F, at11_v203 F, at11_v206 F, at11_v209 F, at11_v212 F, at11_v214 F, at11_v217 F, at11_v220 F, at11_v223 F, at14_v226 F, at14_v228 F, at14_v231 F, at14_v234 F, at14_v237 F, at14_v239 F, at14_v242 F, at14_v245 F, at14_v248 F, at16_v257 F, at16_v267 F, at16_v270 F, at16_v272 F, at16_v275 F, at16_v278 F, at16_v281 F, at16_v283 F, at16_v286 F, at16_v289 F, at16_v292 F, at19_v295 F, at19_v297 F, at19_v300 F, at19_v303 F, at19_v306 F, at19_v308 F, at19_v311 F, at19_v314 F, at19_v317 F, at21_v326 F, at21_v336 F, at21_v339 F, at21_v341 F, at21_v344 F, at21_v347 F, at21_v350 F, at21_v352 F, at21_v355 F, at21_v358 F, at21_v361 F, at23_v366 F, at25_v368 F]
  rfl

set_option maxHeartbeats 4000000 in
/-- Layer 3: the node rows region 9 leaves and the virtual-node rows region 11 leaves are one step of the
    kernel's network from the previous layer's pair. -/
theorem layer3 : ((W 17 (Proc.devRef .tc main_v293)), (W 20 (Proc.devRef .tc main_v318)))
    = Cert.Spec.stepK 𝔸 3 Cert.Spec.cuts3 ((W 12 (Proc.devRef .tc main_v224)), (W 15 (Proc.devRef .tc main_v249))) := by
  simp (disch := decide) only [F.o9, F.o10, F.o11, back1 F, back2 F, back3 F, back4 F, back5 F, back6 F, back7 F, back8 F, back9 F, back10 F, back11 F, back12 F, back13 F, back14 F, back15 F, back16 F, back17 F, back18 F, back19 F, back20 F, back21 F, back22 F, back23 F, back24 F, back25 F, back26 F, at1_v8 F, at1_v10 F, at1_v12 F, at1_v13 F, at1_v17 F, at1_v19 F, at1_v23 F, at1_v25 F, at1_v29 F, at1_v31 F, at1_v35 F, at1_v37 F, at1_v38 F, at1_v39 F, at1_v40 F, at1_v41 F, at1_v42 F, at1_v50 F, at1_v60 F, at1_v63 F, at1_v65 F, at1_v68 F, at1_v71 F, at1_v74 F, at1_v76 F, at1_v79 F, at1_v82 F, at1_v85 F, at4_v88 F, at4_v90 F, at4_v93 F, at4_v96 F, at4_v99 F, at4_v101 F, at4_v104 F, at4_v107 F, at4_v110 F, at6_v119 F, at6_v129 F, at6_v132 F, at6_v134 F, at6_v137 F, at6_v140 F, at6_v143 F, at6_v145 F, at6_v148 F, at6_v151 F, at6_v154 F, at9_v157 F, at9_v159 F, at9_v162 F, at9_v165 F, at9_v168 F, at9_v170 F, at9_v173 F, at9_v176 F, at9_v179 F, at11_v188 F, at11_v198 F, at11_v201 F, at11_v203 F, at11_v206 F, at11_v209 F, at11_v212 F, at11_v214 F, at11_v217 F, at11_v220 F, at11_v223 F, at14_v226 F, at14_v228 F, at14_v231 F, at14_v234 F, at14_v237 F, at14_v239 F, at14_v242 F, at14_v245 F, at14_v248 F, at16_v257 F, at16_v267 F, at16_v270 F, at16_v272 F, at16_v275 F, at16_v278 F, at16_v281 F, at16_v283 F, at16_v286 F, at16_v289 F, at16_v292 F, at19_v295 F, at19_v297 F, at19_v300 F, at19_v303 F, at19_v306 F, at19_v308 F, at19_v311 F, at19_v314 F, at19_v317 F, at21_v326 F, at21_v336 F, at21_v339 F, at21_v341 F, at21_v344 F, at21_v347 F, at21_v350 F, at21_v352 F, at21_v355 F, at21_v358 F, at21_v361 F, at23_v366 F, at25_v368 F]
  rfl

set_option maxHeartbeats 4000000 in
/-- The last node-level layer (no final max 0, no virtual-node update). -/
theorem layer4 : (W 22 (Proc.devRef .tc main_v362))
    = Cert.Spec.ginK 𝔸 4 Cert.Spec.cuts4 false (Cert.Spec.layerIn 𝔸 ((W 17 (Proc.devRef .tc main_v293)), (W 20 (Proc.devRef .tc main_v318)))) (Cert.Spec.layerAgg 𝔸 ((W 17 (Proc.devRef .tc main_v293)), (W 20 (Proc.devRef .tc main_v318)))) := by
  simp (disch := decide) only [F.o12, back1 F, back2 F, back3 F, back4 F, back5 F, back6 F, back7 F, back8 F, back9 F, back10 F, back11 F, back12 F, back13 F, back14 F, back15 F, back16 F, back17 F, back18 F, back19 F, back20 F, back21 F, back22 F, back23 F, back24 F, back25 F, back26 F, at1_v8 F, at1_v10 F, at1_v12 F, at1_v13 F, at1_v17 F, at1_v19 F, at1_v23 F, at1_v25 F, at1_v29 F, at1_v31 F, at1_v35 F, at1_v37 F, at1_v38 F, at1_v39 F, at1_v40 F, at1_v41 F, at1_v42 F, at1_v50 F, at1_v60 F, at1_v63 F, at1_v65 F, at1_v68 F, at1_v71 F, at1_v74 F, at1_v76 F, at1_v79 F, at1_v82 F, at1_v85 F, at4_v88 F, at4_v90 F, at4_v93 F, at4_v96 F, at4_v99 F, at4_v101 F, at4_v104 F, at4_v107 F, at4_v110 F, at6_v119 F, at6_v129 F, at6_v132 F, at6_v134 F, at6_v137 F, at6_v140 F, at6_v143 F, at6_v145 F, at6_v148 F, at6_v151 F, at6_v154 F, at9_v157 F, at9_v159 F, at9_v162 F, at9_v165 F, at9_v168 F, at9_v170 F, at9_v173 F, at9_v176 F, at9_v179 F, at11_v188 F, at11_v198 F, at11_v201 F, at11_v203 F, at11_v206 F, at11_v209 F, at11_v212 F, at11_v214 F, at11_v217 F, at11_v220 F, at11_v223 F, at14_v226 F, at14_v228 F, at14_v231 F, at14_v234 F, at14_v237 F, at14_v239 F, at14_v242 F, at14_v245 F, at14_v248 F, at16_v257 F, at16_v267 F, at16_v270 F, at16_v272 F, at16_v275 F, at16_v278 F, at16_v281 F, at16_v283 F, at16_v286 F, at16_v289 F, at16_v292 F, at19_v295 F, at19_v297 F, at19_v300 F, at19_v303 F, at19_v306 F, at19_v308 F, at19_v311 F, at19_v314 F, at19_v317 F, at21_v326 F, at21_v336 F, at21_v339 F, at21_v341 F, at21_v344 F, at21_v347 F, at21_v350 F, at21_v352 F, at21_v355 F, at21_v358 F, at21_v361 F, at23_v366 F, at25_v368 F]
  rfl

set_option maxHeartbeats 4000000 in
/-- The head: the pooled last node rows over the node counts, through the predictor. -/
theorem head : (W 26 (Proc.devRef .tc main_v369))
    = Cert.Spec.finG (Cert.Spec.segG (W 22 (Proc.devRef .tc main_v362)) (Cert.Spec.batchCol (argsOfW (W 0)).batch)) (Cert.Spec.countsOf (F := Ideal) (argsOfW (W 0)).batch)
        (Cert.Spec.toBf16 (F := Ideal) (argsOfW (W 0)).predW) (Cert.Spec.biasRow (argsOfW (W 0)).predb) := by
  simp (disch := decide) only [F.o13, F.o14, back1 F, back2 F, back3 F, back4 F, back5 F, back6 F, back7 F, back8 F, back9 F, back10 F, back11 F, back12 F, back13 F, back14 F, back15 F, back16 F, back17 F, back18 F, back19 F, back20 F, back21 F, back22 F, back23 F, back24 F, back25 F, back26 F, at1_v8 F, at1_v10 F, at1_v12 F, at1_v13 F, at1_v17 F, at1_v19 F, at1_v23 F, at1_v25 F, at1_v29 F, at1_v31 F, at1_v35 F, at1_v37 F, at1_v38 F, at1_v39 F, at1_v40 F, at1_v41 F, at1_v42 F, at1_v50 F, at1_v60 F, at1_v63 F, at1_v65 F, at1_v68 F, at1_v71 F, at1_v74 F, at1_v76 F, at1_v79 F, at1_v82 F, at1_v85 F, at4_v88 F, at4_v90 F, at4_v93 F, at4_v96 F, at4_v99 F, at4_v101 F, at4_v104 F, at4_v107 F, at4_v110 F, at6_v119 F, at6_v129 F, at6_v132 F, at6_v134 F, at6_v137 F, at6_v140 F, at6_v143 F, at6_v145 F, at6_v148 F, at6_v151 F, at6_v154 F, at9_v157 F, at9_v159 F, at9_v162 F, at9_v165 F, at9_v168 F, at9_v170 F, at9_v173 F, at9_v176 F, at9_v179 F, at11_v188 F, at11_v198 F, at11_v201 F, at11_v203 F, at11_v206 F, at11_v209 F, at11_v212 F, at11_v214 F, at11_v217 F, at11_v220 F, at11_v223 F, at14_v226 F, at14_v228 F, at14_v231 F, at14_v234 F, at14_v237 F, at14_v239 F, at14_v242 F, at14_v245 F, at14_v248 F, at16_v257 F, at16_v267 F, at16_v270 F, at16_v272 F, at16_v275 F, at16_v278 F, at16_v281 F, at16_v283 F, at16_v286 F, at16_v289 F, at16_v292 F, at19_v295 F, at19_v297 F, at19_v300 F, at19_v303 F, at19_v306 F, at19_v308 F, at19_v311 F, at19_v314 F, at19_v317 F, at21_v326 F, at21_v336 F, at21_v339 F, at21_v341 F, at21_v344 F, at21_v347 F, at21_v350 F, at21_v352 F, at21_v355 F, at21_v358 F, at21_v361 F, at23_v366 F, at25_v368 F]
  rfl

/-- The kernel program's result is the kernel's network of the argument arrays. -/
theorem ker_result_of_fold : (W 26 (Proc.devRef .tc main_v369)) = Cert.Spec.kerNet 𝔸 := by
  have l0 := layer0 F
  have l1 := layer1 F
  have l2 := layer2 F
  have l3 := layer3 F
  have l4 := layer4 F
  rw [l0] at l1; rw [l1] at l2; rw [l2] at l3; rw [l3] at l4
  rw [head F, l4]
  rfl

end Cert.KernelIdeal.HandValue
-- ==== Proof.GinPay0.lean ====
import proofs.«403491_j395136991532_1_alg».proof.Proof.Gen.KernelIdeal.Skeleton
import proofs.«403491_j395136991532_1_alg».proof.Proof.SpecNet
import Idealize.ShloMosaic.Lib.Pipeline.Value
import Idealize.ShloMosaic.Lib.ValueLayout
import Idealize.ShloMosaic.PureOps.Ideal.Laws

/-! # Region 0's payloads read at one index, at the extended reals

The body stores one value per node row `p` and feature `q`. Reading the two payloads at `(p, q)`: every pointwise
operation is the extended reals' operation on the elements, a row broadcast reads its one row, a change of format is
the identity, and each matrix product is the sum over its contracted axis. What comes out is the specification's
folded perceptron of the row's input `(1 + eps) * h_in + agg`. -/

noncomputable section

namespace Cert.KernelIdeal.HandValue

open Cert.KernelIdeal Cert.KernelIdeal.Gen Cert.Spec
open Idealize.ShloMosaic Idealize.ShloMosaic.ValueIdx

/-! ## The two matrix products at an index -/

theorem k0_mm1_lhs_0 (i : S5000x256.Idx) (q : dot_S5000x128_S128x256_S5000x256_1_0_0_1_n_n.contr.Idx) :
    (dot_S5000x128_S128x256_S5000x256_1_0_0_1_n_n.lhsIdx i q 0).val = (i 0).val := by
  unfold DotDims.lhsIdx
  rw [dif_neg (show ¬(0 : Fin S5000x128.rank) ∈ dot_S5000x128_S128x256_S5000x256_1_0_0_1_n_n.lhsBatch by decide), dif_pos (show (0 : Fin S5000x128.rank) ∈ dot_S5000x128_S128x256_S5000x256_1_0_0_1_n_n.lhsNonContracting by decide)]
  rfl
theorem k0_mm1_lhs_1 (i : S5000x256.Idx) (q : dot_S5000x128_S128x256_S5000x256_1_0_0_1_n_n.contr.Idx) :
    (dot_S5000x128_S128x256_S5000x256_1_0_0_1_n_n.lhsIdx i q 1).val = (q ⟨0, by decide⟩).val :=
  dot_S5000x128_S128x256_S5000x256_1_0_0_1_n_n.lhsIdx_val_of_single rfl i q
theorem k0_mm1_rhs_0 (i : S5000x256.Idx) (q : dot_S5000x128_S128x256_S5000x256_1_0_0_1_n_n.contr.Idx) :
    (dot_S5000x128_S128x256_S5000x256_1_0_0_1_n_n.rhsIdx i q 0).val = (q ⟨0, by decide⟩).val :=
  dot_S5000x128_S128x256_S5000x256_1_0_0_1_n_n.rhsIdx_val_of_single rfl i q
theorem k0_mm1_rhs_1 (i : S5000x256.Idx) (q : dot_S5000x128_S128x256_S5000x256_1_0_0_1_n_n.contr.Idx) :
    (dot_S5000x128_S128x256_S5000x256_1_0_0_1_n_n.rhsIdx i q 1).val = (i 1).val := by
  unfold DotDims.rhsIdx
  rw [dif_neg (show ¬(1 : Fin S128x256.rank) ∈ dot_S5000x128_S128x256_S5000x256_1_0_0_1_n_n.rhsBatch by decide), dif_pos (show (1 : Fin S128x256.rank) ∈ dot_S5000x128_S128x256_S5000x256_1_0_0_1_n_n.rhsNonContracting by decide)]
  rfl

/-- The product read at row `p`, column `j`: the sum over the 128 contracted positions. -/
theorem k0_mm1_apply (a : FVec Ideal S5000x128 .bf16) (b : FVec Ideal S128x256 .bf16) (p : Fin 5000) (j : Fin 256) :
    matmul dot_S5000x128_S128x256_S5000x256_1_0_0_1_n_n none a b (constant (F := Ideal) S5000x256 .f32 0x00000000#32) (ix2 p j)
      = ∑ k : Fin 128, a (ix2 p k) * b (ix2 k j) := by
  simp only [matmul]
  rw [Ideal.matmul_constant_zero_apply, ← Equiv.sum_comp (contrEquiv1 dot_S5000x128_S128x256_S5000x256_1_0_0_1_n_n 128 rfl rfl).symm]
  refine Finset.sum_congr rfl fun k _ => ?_
  have hk := contrEquiv1_symm_val dot_S5000x128_S128x256_S5000x256_1_0_0_1_n_n 128 rfl rfl k
  have el : dot_S5000x128_S128x256_S5000x256_1_0_0_1_n_n.lhsIdx (ix2 p j) ((contrEquiv1 dot_S5000x128_S128x256_S5000x256_1_0_0_1_n_n 128 rfl rfl).symm k) = ix2 p k := funext fun ax => Fin.ext (by
    match ax with
    | ⟨0, _⟩ => exact k0_mm1_lhs_0 _ _
    | ⟨1, _⟩ => exact (k0_mm1_lhs_1 _ _).trans hk)
  have er : dot_S5000x128_S128x256_S5000x256_1_0_0_1_n_n.rhsIdx (ix2 p j) ((contrEquiv1 dot_S5000x128_S128x256_S5000x256_1_0_0_1_n_n 128 rfl rfl).symm k) = ix2 k j := funext fun ax => Fin.ext (by
    match ax with
    | ⟨0, _⟩ => exact (k0_mm1_rhs_0 _ _).trans hk
    | ⟨1, _⟩ => exact k0_mm1_rhs_1 _ _)
  rw [el, er]

theorem k0_mm2_lhs_0 (i : S5000x128.Idx) (q : dot_S5000x256_S256x128_S5000x128_1_0_0_1_n_n.contr.Idx) :
    (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
theorem k0_mm2_lhs_1 (i : S5000x128.Idx) (q : dot_S5000x256_S256x128_S5000x128_1_0_0_1_n_n.contr.Idx) :
    (dot_S5000x256_S256x128_S5000x128_1_0_0_1_n_n.lhsIdx i q 1).val = (q ⟨0, by decide⟩).val :=
  dot_S5000x256_S256x128_S5000x128_1_0_0_1_n_n.lhsIdx_val_of_single rfl i q
theorem k0_mm2_rhs_0 (i : S5000x128.Idx) (q : dot_S5000x256_S256x128_S5000x128_1_0_0_1_n_n.contr.Idx) :
    (dot_S5000x256_S256x128_S5000x128_1_0_0_1_n_n.rhsIdx i q 0).val = (q ⟨0, by decide⟩).val :=
  dot_S5000x256_S256x128_S5000x128_1_0_0_1_n_n.rhsIdx_val_of_single rfl i q
theorem k0_mm2_rhs_1 (i : S5000x128.Idx) (q : dot_S5000x256_S256x128_S5000x128_1_0_0_1_n_n.contr.Idx) :
    (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- The product read at row `p`, column `j`: the sum over the 256 contracted positions. -/
theorem k0_mm2_apply (a : FVec Ideal S5000x256 .bf16) (b : FVec Ideal S256x128 .bf16) (p : Fin 5000) (j : Fin 128) :
    matmul dot_S5000x256_S256x128_S5000x128_1_0_0_1_n_n none a b (constant (F := Ideal) S5000x128 .f32 0x00000000#32) (ix2 p j)
      = ∑ k : Fin 256, a (ix2 p k) * b (ix2 k j) := by
  simp only [matmul]
  rw [Ideal.matmul_constant_zero_apply, ← Equiv.sum_comp (contrEquiv1 dot_S5000x256_S256x128_S5000x128_1_0_0_1_n_n 256 rfl rfl).symm]
  refine Finset.sum_congr rfl fun k _ => ?_
  have hk := contrEquiv1_symm_val dot_S5000x256_S256x128_S5000x128_1_0_0_1_n_n 256 rfl rfl k
  have el : dot_S5000x256_S256x128_S5000x128_1_0_0_1_n_n.lhsIdx (ix2 p j) ((contrEquiv1 dot_S5000x256_S256x128_S5000x128_1_0_0_1_n_n 256 rfl rfl).symm k) = ix2 p k := funext fun ax => Fin.ext (by
    match ax with
    | ⟨0, _⟩ => exact k0_mm2_lhs_0 _ _
    | ⟨1, _⟩ => exact (k0_mm2_lhs_1 _ _).trans hk)
  have er : dot_S5000x256_S256x128_S5000x128_1_0_0_1_n_n.rhsIdx (ix2 p j) ((contrEquiv1 dot_S5000x256_S256x128_S5000x128_1_0_0_1_n_n 256 rfl rfl).symm k) = ix2 k j := funext fun ax => Fin.ext (by
    match ax with
    | ⟨0, _⟩ => exact (k0_mm2_rhs_0 _ _).trans hk
    | ⟨1, _⟩ => exact k0_mm2_rhs_1 _ _)
  rw [el, er]

/-! ## The one-element broadcast -/

/-- A `[1, 1]` array broadcast over the block reads its one element everywhere. -/
theorem k0_bcast11_apply {α : Type} (v : S1x1.Idx → α) (h : S1x1.Broadcasts S5000x128) (p : Fin 5000) (k : Fin 128) :
    broadcastTo S5000x128 v h (ix2 p k) = v (ix2 (0 : Fin 1) (0 : Fin 1)) := by
  refine broadcastTo_apply v h (ix2 p k) (ix2 (0 : Fin 1) (0 : Fin 1)) fun ax => ?_
  match ax with
  | ⟨0, _⟩ => rfl
  | ⟨1, _⟩ => rfl

/-! ## The payloads at an index -/

/-- Whether this layer ends with a clamp at zero. -/
abbrev k0_relu : Bool := true

/-- The first payload at `(p, q)`: the second product's sum over the 256 hidden entries of row `p`, plus the bias. -/
theorem k0_pay2_apply (e : Vec Ideal S1x1 .f32) (hin agg : Vec Ideal S5000x128 .f32) (w1 : Vec Ideal S128x256 .bf16)
    (b1 s1 sh1 : Vec Ideal S1x256 .f32) (w2 : Vec Ideal S256x128 .bf16) (b2 : Vec Ideal S1x128 .f32) (p : Fin 5000) (q : Fin 128) :
    k0_pay2 (F := Ideal) e hin agg w1 b1 s1 sh1 w2 b2 (ix2 p q)
      = (∑ j : Fin 256, hiddenK (fun k => (oneF + e (ix2 0 0)) * hin (ix2 p k) + agg (ix2 p k)) w1 b1 s1 sh1 j * w2 (ix2 j q))
          + b2 (ix2 0 q) := by
  unfold k0_pay2
  simp only [shapeCast_self, addf_apply, k0_mm2_apply, broadcastTo_1b_ab_apply, truncf_apply, maximumf_apply, broadcast_apply,
    mulf_apply, k0_mm1_apply, k0_bcast11_apply]
  rfl

/-- The last payload at `(p, q)`: scale and shift of the entry, then the clamp at zero if the layer has one. -/
theorem k0_pay1_apply (v : FVec Ideal S5000x128 .f32) (s2 sh2 : Vec Ideal S1x128 .f32) (p : Fin 5000) (q : Fin 128) :
    k0_pay1 (F := Ideal) v s2 sh2 (ix2 p q)
      = (if k0_relu then max (v (ix2 p q) * s2 (ix2 0 q) + sh2 (ix2 0 q)) zeroF else v (ix2 p q) * s2 (ix2 0 q) + sh2 (ix2 0 q)) := by
  unfold k0_pay1
  simp only [shapeCast_self, addf_apply, broadcastTo_1b_ab_apply, maximumf_apply, broadcast_apply, mulf_apply]
  rfl

/-- What the body stores at `(p, q)`, from the eleven input blocks: the folded perceptron of row `p`'s input
    `(1 + eps) * h_in + agg`, read at feature `q`. -/
theorem k0_out_apply (x0 x1 : Vec Ideal S5000x128 .f32) (x2 : Vec Ideal S1x1 .f32) (x3 : Vec Ideal S128x256 .bf16)
    (x4 x5 x6 : Vec Ideal S1x256 .f32) (x7 : Vec Ideal S256x128 .bf16) (x8 x9 x10 : Vec Ideal S1x128 .f32) (p : Fin 5000) (q : Fin 128) :
    k0_pay1 (F := Ideal) (k0_pay2 (F := Ideal) x2 x0 x1 x3 x4 x5 x6 x7 x8) x9 x10 (ix2 p q)
      = (let o := outK (hiddenK (fun k => (oneF + x2 (ix2 0 0)) * x0 (ix2 p k) + x1 (ix2 p k)) x3 x4 x5 x6) x7 x8 x9 x10 q
         if k0_relu then max o zeroF else o) := by
  rw [k0_pay1_apply, k0_pay2_apply]
  rfl

end Cert.KernelIdeal.HandValue
-- ==== Proof.GinValue0.lean ====
import proofs.«403491_j395136991532_1_alg».proof.Proof.GinRegion0
import proofs.«403491_j395136991532_1_alg».proof.Proof.GinPay0
import Idealize.ShloMosaic.Lib.Pipeline.Value

/-! # Region 0 read at the extended reals: the value half

Point `t` of the ten writes back block `t` of the output array: rows `5000 t` to `5000 t + 4999`. Its two tiled inputs
are the same rows of their arrays, its nine resident inputs their whole arrays, so what it writes at row `p` of the
block is the specification's folded perceptron of array row `5000 t + p`. The ten blocks tile the 50000 rows, so after
the region the output array is the specification's whole-array function of the eleven argument arrays. -/

set_option maxRecDepth 16384

noncomputable section

namespace Cert.KernelIdeal.HandValue

open Cert.KernelIdeal Cert.KernelIdeal.Gen Cert.KernelIdeal.Hand Cert.Spec
open Idealize.ShloMosaic Idealize.ShloMosaic.TcCoe Idealize.SL.Sem Idealize.ShloMosaic.ValueIdx
open Idealize.ShloMosaic.Pipeline (Dat)

-- the TensorCore's buffer contents when the region is entered, at the extended reals
variable (V : (c : Dev nD) → (b : Ref sig .tc) → Buf (Elt Ideal) ((c : Thread nD τ).loc b))

theorem k0_hz : (![0, 0] : Fin 2 → Nat) = fun _ => 0 := funext fun a => by fin_cases a <;> rfl

/-! ## The printed index maps, decided over the ten points -/

/-- The output and the two tiled inputs sit at block row `t`, block column 0. -/
theorem k0_idx_11 : ∀ t : Fin cfg0.N, win0_11.index t (0 : Fin 2) = t.val ∧ win0_11.index t (1 : Fin 2) = 0 :=
  (by decide +kernel : ∀ t : Fin grid0.N, _)
theorem k0_idx_0 : ∀ t : Fin cfg0.N, win0_0.index t (0 : Fin 2) = t.val ∧ win0_0.index t (1 : Fin 2) = 0 :=
  (by decide +kernel : ∀ t : Fin grid0.N, _)
theorem k0_idx_1 : ∀ t : Fin cfg0.N, win0_1.index t (0 : Fin 2) = t.val ∧ win0_1.index t (1 : Fin 2) = 0 :=
  (by decide +kernel : ∀ t : Fin grid0.N, _)
/-- The nine resident inputs stay at block (0, 0). -/
theorem k0_idx_2 : ∀ t : Fin cfg0.N, win0_2.index t (0 : Fin 2) = 0 ∧ win0_2.index t (1 : Fin 2) = 0 :=
  (by decide +kernel : ∀ t : Fin grid0.N, _)
theorem k0_idx_3 : ∀ t : Fin cfg0.N, win0_3.index t (0 : Fin 2) = 0 ∧ win0_3.index t (1 : Fin 2) = 0 :=
  (by decide +kernel : ∀ t : Fin grid0.N, _)
theorem k0_idx_4 : ∀ t : Fin cfg0.N, win0_4.index t (0 : Fin 2) = 0 ∧ win0_4.index t (1 : Fin 2) = 0 :=
  (by decide +kernel : ∀ t : Fin grid0.N, _)
theorem k0_idx_5 : ∀ t : Fin cfg0.N, win0_5.index t (0 : Fin 2) = 0 ∧ win0_5.index t (1 : Fin 2) = 0 :=
  (by decide +kernel : ∀ t : Fin grid0.N, _)
theorem k0_idx_6 : ∀ t : Fin cfg0.N, win0_6.index t (0 : Fin 2) = 0 ∧ win0_6.index t (1 : Fin 2) = 0 :=
  (by decide +kernel : ∀ t : Fin grid0.N, _)
theorem k0_idx_7 : ∀ t : Fin cfg0.N, win0_7.index t (0 : Fin 2) = 0 ∧ win0_7.index t (1 : Fin 2) = 0 :=
  (by decide +kernel : ∀ t : Fin grid0.N, _)
theorem k0_idx_8 : ∀ t : Fin cfg0.N, win0_8.index t (0 : Fin 2) = 0 ∧ win0_8.index t (1 : Fin 2) = 0 :=
  (by decide +kernel : ∀ t : Fin grid0.N, _)
theorem k0_idx_9 : ∀ t : Fin cfg0.N, win0_9.index t (0 : Fin 2) = 0 ∧ win0_9.index t (1 : Fin 2) = 0 :=
  (by decide +kernel : ∀ t : Fin grid0.N, _)
theorem k0_idx_10 : ∀ t : Fin cfg0.N, win0_10.index t (0 : Fin 2) = 0 ∧ win0_10.index t (1 : Fin 2) = 0 :=
  (by decide +kernel : ∀ t : Fin grid0.N, _)

/-! ## The input blocks at a point, read off the arrays -/

/-- The array row that row `p` of block `t` is. -/
def k0_rowOf (t : Fin cfg0.N) (p : Fin 5000) : Fin 50000 :=
  ⟨t.val * 5000 + p.val, by have ht : t.val < grid0.N := t.isLt; rw [N_0] at ht; have hp := p.isLt; omega⟩

/-- Element `(p, k)` of a tiled window's block `t` sits at array row `5000 t + p`, column `k`. -/
theorem k0_emb_11 (t : Fin cfg0.N) (p : Fin 5000) (k : Fin 128) :
    ((cfg0.win 11).blk t).view.emb (ix2 p k) = ix2 (k0_rowOf t p) k := by
  obtain ⟨e0, e1⟩ := k0_idx_11 t
  funext a; apply Fin.ext
  match a with
  | ⟨0, _⟩ => show win0_11.index t (0 : Fin 2) * 5000 + 1 * p.val = t.val * 5000 + p.val; omega
  | ⟨1, _⟩ => show win0_11.index t (1 : Fin 2) * 128 + 1 * k.val = k.val; omega
theorem k0_emb_0 (t : Fin cfg0.N) (p : Fin 5000) (k : Fin 128) :
    ((cfg0.win 0).blk t).view.emb (ix2 p k) = ix2 (k0_rowOf t p) k := by
  obtain ⟨e0, e1⟩ := k0_idx_0 t
  funext a; apply Fin.ext
  match a with
  | ⟨0, _⟩ => show win0_0.index t (0 : Fin 2) * 5000 + 1 * p.val = t.val * 5000 + p.val; omega
  | ⟨1, _⟩ => show win0_0.index t (1 : Fin 2) * 128 + 1 * k.val = k.val; omega
theorem k0_emb_1 (t : Fin cfg0.N) (p : Fin 5000) (k : Fin 128) :
    ((cfg0.win 1).blk t).view.emb (ix2 p k) = ix2 (k0_rowOf t p) k := by
  obtain ⟨e0, e1⟩ := k0_idx_1 t
  funext a; apply Fin.ext
  match a with
  | ⟨0, _⟩ => show win0_1.index t (0 : Fin 2) * 5000 + 1 * p.val = t.val * 5000 + p.val; omega
  | ⟨1, _⟩ => show win0_1.index t (1 : Fin 2) * 128 + 1 * k.val = k.val; omega

/-- So a tiled input's block `t` at `(p, k)` is its array at row `5000 t + p`, column `k`. -/
theorem k0_row_0 (c : Dev nD) (t : Fin cfg0.N) (p : Fin 5000) (k : Fin 128) :
    iblk0 V c 0 t (ix2 p k) = V c (Pipeline.arrRef spec0 0) (ix2 (k0_rowOf t p) k) := by
  show V c (Pipeline.arrRef spec0 0) (((cfg0.win 0).blk t).view.emb (ix2 p k)) = _
  rw [k0_emb_0]
theorem k0_row_1 (c : Dev nD) (t : Fin cfg0.N) (p : Fin 5000) (k : Fin 128) :
    iblk0 V c 1 t (ix2 p k) = V c (Pipeline.arrRef spec0 1) (ix2 (k0_rowOf t p) k) := by
  show V c (Pipeline.arrRef spec0 1) (((cfg0.win 1).blk t).view.emb (ix2 p k)) = _
  rw [k0_emb_1]

/-- A resident input's block at every point is its whole array. -/
theorem k0_blk_2 (c : Dev nD) (t : Fin cfg0.N) : iblk0 V c 2 t = V c (Pipeline.arrRef spec0 2) := by
  obtain ⟨e0, e1⟩ := k0_idx_2 t
  funext y
  show V c (Pipeline.arrRef spec0 2) (((cfg0.win 2).blk t).view.emb y) = V c (Pipeline.arrRef spec0 2) y
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 1 + 1 * (y 1).val = (y 1).val; omega
theorem k0_blk_3 (c : Dev nD) (t : Fin cfg0.N) : iblk0 V c 3 t = V c (Pipeline.arrRef spec0 3) := by
  obtain ⟨e0, e1⟩ := k0_idx_3 t
  funext y
  show V c (Pipeline.arrRef spec0 3) (((cfg0.win 3).blk t).view.emb y) = V c (Pipeline.arrRef spec0 3) y
  refine congrArg _ (funext fun a => Fin.ext ?_)
  match a with
  | ⟨0, _⟩ => show win0_3.index t (0 : Fin 2) * 128 + 1 * (y 0).val = (y 0).val; omega
  | ⟨1, _⟩ => show win0_3.index t (1 : Fin 2) * 256 + 1 * (y 1).val = (y 1).val; omega
theorem k0_blk_4 (c : Dev nD) (t : Fin cfg0.N) : iblk0 V c 4 t = V c (Pipeline.arrRef spec0 4) := by
  obtain ⟨e0, e1⟩ := k0_idx_4 t
  funext y
  show V c (Pipeline.arrRef spec0 4) (((cfg0.win 4).blk t).view.emb y) = V c (Pipeline.arrRef spec0 4) y
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 256 + 1 * (y 1).val = (y 1).val; omega
theorem k0_blk_5 (c : Dev nD) (t : Fin cfg0.N) : iblk0 V c 5 t = V c (Pipeline.arrRef spec0 5) := by
  obtain ⟨e0, e1⟩ := k0_idx_5 t
  funext y
  show V c (Pipeline.arrRef spec0 5) (((cfg0.win 5).blk t).view.emb y) = V c (Pipeline.arrRef spec0 5) y
  refine congrArg _ (funext fun a => Fin.ext ?_)
  match a with
  | ⟨0, _⟩ => show win0_5.index t (0 : Fin 2) * 1 + 1 * (y 0).val = (y 0).val; omega
  | ⟨1, _⟩ => show win0_5.index t (1 : Fin 2) * 256 + 1 * (y 1).val = (y 1).val; omega
theorem k0_blk_6 (c : Dev nD) (t : Fin cfg0.N) : iblk0 V c 6 t = V c (Pipeline.arrRef spec0 6) := by
  obtain ⟨e0, e1⟩ := k0_idx_6 t
  funext y
  show V c (Pipeline.arrRef spec0 6) (((cfg0.win 6).blk t).view.emb y) = V c (Pipeline.arrRef spec0 6) y
  refine congrArg _ (funext fun a => Fin.ext ?_)
  match a with
  | ⟨0, _⟩ => show win0_6.index t (0 : Fin 2) * 1 + 1 * (y 0).val = (y 0).val; omega
  | ⟨1, _⟩ => show win0_6.index t (1 : Fin 2) * 256 + 1 * (y 1).val = (y 1).val; omega
theorem k0_blk_7 (c : Dev nD) (t : Fin cfg0.N) : iblk0 V c 7 t = V c (Pipeline.arrRef spec0 7) := by
  obtain ⟨e0, e1⟩ := k0_idx_7 t
  funext y
  show V c (Pipeline.arrRef spec0 7) (((cfg0.win 7).blk t).view.emb y) = V c (Pipeline.arrRef spec0 7) y
  refine congrArg _ (funext fun a => Fin.ext ?_)
  match a with
  | ⟨0, _⟩ => show win0_7.index t (0 : Fin 2) * 256 + 1 * (y 0).val = (y 0).val; omega
  | ⟨1, _⟩ => show win0_7.index t (1 : Fin 2) * 128 + 1 * (y 1).val = (y 1).val; omega
theorem k0_blk_8 (c : Dev nD) (t : Fin cfg0.N) : iblk0 V c 8 t = V c (Pipeline.arrRef spec0 8) := by
  obtain ⟨e0, e1⟩ := k0_idx_8 t
  funext y
  show V c (Pipeline.arrRef spec0 8) (((cfg0.win 8).blk t).view.emb y) = V c (Pipeline.arrRef spec0 8) y
  refine congrArg _ (funext fun a => Fin.ext ?_)
  match a with
  | ⟨0, _⟩ => show win0_8.index t (0 : Fin 2) * 1 + 1 * (y 0).val = (y 0).val; omega
  | ⟨1, _⟩ => show win0_8.index t (1 : Fin 2) * 128 + 1 * (y 1).val = (y 1).val; omega
theorem k0_blk_9 (c : Dev nD) (t : Fin cfg0.N) : iblk0 V c 9 t = V c (Pipeline.arrRef spec0 9) := by
  obtain ⟨e0, e1⟩ := k0_idx_9 t
  funext y
  show V c (Pipeline.arrRef spec0 9) (((cfg0.win 9).blk t).view.emb y) = V c (Pipeline.arrRef spec0 9) y
  refine congrArg _ (funext fun a => Fin.ext ?_)
  match a with
  | ⟨0, _⟩ => show win0_9.index t (0 : Fin 2) * 1 + 1 * (y 0).val = (y 0).val; omega
  | ⟨1, _⟩ => show win0_9.index t (1 : Fin 2) * 128 + 1 * (y 1).val = (y 1).val; omega
theorem k0_blk_10 (c : Dev nD) (t : Fin cfg0.N) : iblk0 V c 10 t = V c (Pipeline.arrRef spec0 10) := by
  obtain ⟨e0, e1⟩ := k0_idx_10 t
  funext y
  show V c (Pipeline.arrRef spec0 10) (((cfg0.win 10).blk t).view.emb y) = V c (Pipeline.arrRef spec0 10) y
  refine congrArg _ (funext fun a => Fin.ext ?_)
  match a with
  | ⟨0, _⟩ => show win0_10.index t (0 : Fin 2) * 1 + 1 * (y 0).val = (y 0).val; omega
  | ⟨1, _⟩ => show win0_10.index t (1 : Fin 2) * 128 + 1 * (y 1).val = (y 1).val; omega

/-! ## What a point writes back -/

/-- Reading the output window's block `t` of any array at `(p, q)` reads the array at row `5000 t + p`, column `q`. -/
theorem k0_read_11 (t : Fin cfg0.N) (G : RArr sNxD) (p : Fin 5000) (q : Fin 128) :
    ((cfg0.win 11).blk t).view.read (Elt Ideal) G (ix2 p q) = G (ix2 (k0_rowOf t p) q) := by
  show G (((cfg0.win 11).blk t).view.emb (ix2 p q)) = _
  rw [k0_emb_11]

/-- The output window is never cut: what a point writes back is the whole staging buffer. -/
theorem k0_cut_11 (t : Fin cfg0.N) (X : FVec Ideal S5000x128 .f32) (p : Fin 5000) (q : Fin 128) :
    (cfg0.win 11).cut (grid0.coords t) X (ix2 p q) = X (ix2 p q) := rfl

/-- What the body leaves in the output buffer at point `t`: the last payload over the first, of the eleven input blocks. -/
theorem k0_after_eq (c : Dev nD) (t : Fin cfg0.N) :
    (dat0 (F := Ideal) V c).after 11 t
      = k0_pay1 (F := Ideal) (k0_pay2 (F := Ideal) (iblk0 V c 2 t) (iblk0 V c 0 t) (iblk0 V c 1 t) (iblk0 V c 3 t) (iblk0 V c 4 t) (iblk0 V c 5 t)
          (iblk0 V c 6 t) (iblk0 V c 7 t) (iblk0 V c 8 t)) (iblk0 V c 9 t) (iblk0 V c 10 t) := by
  rw [after0_11]
  unfold out0_11
  rw [View.canon_unit_zero k0_hz]
  simp only [View.ld_unit_zero (S := S5000x128) k0_hz, View.ld_unit_zero (S := S1x1) k0_hz, View.ld_unit_zero (S := S128x256) k0_hz,
    View.ld_unit_zero (S := S1x256) k0_hz, View.ld_unit_zero (S := S256x128) k0_hz, View.ld_unit_zero (S := S1x128) k0_hz]

/-- The stored value as the specification's: if the two tiled blocks' row `p` is the arrays' row `P` and the nine
    resident blocks are their arrays, what the body stores at `(p, q)` is the specification's layer at `(P, q)`. -/
theorem k0_out_eq_spec (A0 A1 : RArr sNxD) (A2 : RArr s1x1) (A3 : RArr sDxD2) (A4 A5 A6 : RArr s1xD2) (A7 : RArr sD2xD) (A8 A9 A10 : RArr s1xD)
    (x0 x1 : Vec Ideal S5000x128 .f32) (x2 : Vec Ideal S1x1 .f32) (x3 : Vec Ideal S128x256 .bf16)
    (x4 x5 x6 : Vec Ideal S1x256 .f32) (x7 : Vec Ideal S256x128 .bf16) (x8 x9 x10 : Vec Ideal S1x128 .f32)
    (P : Fin 50000) (p : Fin 5000) (q : Fin 128)
    (h0 : ∀ k : Fin 128, x0 (ix2 p k) = A0 (ix2 P k)) (h1 : ∀ k : Fin 128, x1 (ix2 p k) = A1 (ix2 P k))
    (h2 : x2 = A2) (h3 : x3 = A3) (h4 : x4 = A4) (h5 : x5 = A5) (h6 : x6 = A6) (h7 : x7 = A7) (h8 : x8 = A8) (h9 : x9 = A9) (h10 : x10 = A10) :
    k0_pay1 (F := Ideal) (k0_pay2 (F := Ideal) x2 x0 x1 x3 x4 x5 x6 x7 x8) x9 x10 (ix2 p q)
      = ginG k0_relu A0 A1 A2 A3 A4 A5 A6 A7 A8 A9 A10 (ix2 P q) := by
  subst h2 h3 h4 h5 h6 h7 h8 h9 h10
  rw [k0_out_apply]
  have hz : (fun k : Fin 128 => (oneF + x2 (ix2 0 0)) * x0 (ix2 p k) + x1 (ix2 p k)) = ginZ A0 A1 x2 P := funext fun k => by
    rw [h0, h1]; rfl
  rw [hz]
  rfl

-- the eleven argument arrays are each checked against their literal shapes twice here, once in the statement and once in the proof
set_option maxHeartbeats 1000000 in
/-- Point `t` writes back block `t` of the specification's whole-array function of the eleven argument arrays. -/
theorem k0_flushed_eq (c : Dev nD) (t : Fin cfg0.N) :
    (dat0 (F := Ideal) V c).flushed 11 t
      = ((cfg0.win 11).blk t).view.read (Elt Ideal) (ginG k0_relu (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) (V c (Pipeline.arrRef spec0 7)) (V c (Pipeline.arrRef spec0 8)) (V c (Pipeline.arrRef spec0 9)) (V c (Pipeline.arrRef spec0 10))) := by
  funext j
  obtain ⟨p, q, rfl⟩ : ∃ (p : Fin 5000) (q : Fin 128), j = ix2 p q := ⟨j 0, j 1, eq_ix2 j⟩
  rw [k0_read_11]
  show (cfg0.win 11).cut (grid0.coords t) ((dat0 V c).after 11 t) (ix2 p q) = _
  rw [k0_after_eq, k0_cut_11]
  exact k0_out_eq_spec (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) (V c (Pipeline.arrRef spec0 7)) (V c (Pipeline.arrRef spec0 8)) (V c (Pipeline.arrRef spec0 9)) (V c (Pipeline.arrRef spec0 10))
    (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t)
    (k0_rowOf t p) p q (fun k => k0_row_0 V c t p k) (fun k => k0_row_1 V c t p k)
    (k0_blk_2 V c t) (k0_blk_3 V c t) (k0_blk_4 V c t) (k0_blk_5 V c t) (k0_blk_6 V c t) (k0_blk_7 V c t) (k0_blk_8 V c t) (k0_blk_9 V c t) (k0_blk_10 V c t)

/-! ## The ten blocks tile the array -/

/-- An index of the array is in point `t`'s block iff each coordinate is in the block's range on its axis. -/
theorem k0_mem_blk (t : Fin cfg0.N) (i : S50000x128.Idx) :
    i ∈ ((cfg0.win 11).blk t).view.set ↔ ∀ a : Fin 2, win0_11.index t a * S5000x128.size a ≤ (i a).val ∧ (i a).val < win0_11.index t a * S5000x128.size a + S5000x128.size a := by
  show i ∈ ((View.whole (Pipeline.arrRef spec0 11)).slice (win0_11.rect t)).set ↔ _
  rw [View.set_slice_whole, Rect.mem_set_unit]
  exact Iff.rfl

/-- Row `r` is in the block of point `r / 5000`. -/
theorem k0_cover (i : S50000x128.Idx) : ∃ t : Fin cfg0.N, (cfg0.win 11).flush t = true ∧ i ∈ ((cfg0.win 11).blk t).view.set := by
  have hi0 : (i 0).val < 50000 := (i 0).isLt
  have hi1 : (i 1).val < 128 := (i 1).isLt
  have hlt : (i 0).val / 5000 < cfg0.N := by show (i 0).val / 5000 < grid0.N; rw [N_0]; omega
  obtain ⟨e0, e1⟩ := k0_idx_11 ⟨(i 0).val / 5000, hlt⟩
  refine ⟨⟨(i 0).val / 5000, hlt⟩, flush0_11 _, ?_⟩
  rw [k0_mem_blk]
  intro a
  match a with
  | ⟨0, _⟩ =>
    show win0_11.index ⟨(i 0).val / 5000, hlt⟩ (0 : Fin 2) * 5000 ≤ (i 0).val ∧ (i 0).val < win0_11.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win0_11.index ⟨(i 0).val / 5000, hlt⟩ (1 : Fin 2) * 128 ≤ (i 1).val ∧ (i 1).val < win0_11.index ⟨(i 0).val / 5000, hlt⟩ (1 : Fin 2) * 128 + 128
    omega

/-! ## The region's value -/

/-- After its ten points the output array holds the specification's node-level perceptron layer of the eleven argument
    arrays as the region found them. -/
theorem final0 (c : Dev nD) :
    (dat0 (F := Ideal) V c).arrAt 11 cfg0.N = ginG true (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) (V c (Pipeline.arrRef spec0 7)) (V c (Pipeline.arrRef spec0 8)) (V c (Pipeline.arrRef spec0 9)) (V c (Pipeline.arrRef spec0 10)) :=
  (dat0 (F := Ideal) V c).arrAt_eq_of_cover 11 _ (fun t _ => k0_flushed_eq V c t) k0_cover

end Cert.KernelIdeal.HandValue
-- ==== Proof.SegLaws.lean ====
/- The segment-sum kernel's one grid point, read at the extended reals and at one entry: the payload its second store
   carries — what the scratch held, plus the transposed one-hot of the block's segment ids times the block — is, at entry
   (g, d), what the scratch held there plus the sum over the block's 5000 rows of the feature d of the rows whose id is the
   word g. The one-hot's entries are the words 1 and 0 read as numbers, the format changes are the identity on extended
   reals, and the product's contraction runs over the one row axis. The same payload text serves every pooling call of
   the program, so these facts name no call. -/
import proofs.«403491_j395136991532_1_alg».proof.Proof.Gen.KernelIdeal.Skeleton
import Idealize.ShloMosaic.Lib.ValueIdx
import Idealize.ShloMosaic.Lib.Pipeline.Value
import Idealize.ShloMosaic.PureOps.Ideal.Laws

set_option maxRecDepth 16384

noncomputable section

namespace Cert.KernelIdeal.HandValue

open Cert.KernelIdeal Cert.KernelIdeal.Gen
open Idealize.ShloMosaic Idealize.ShloMosaic.ValueIdx

/-- The equality test of two words, widened and read as a signed number, is 1 where they agree and 0 elsewhere. -/
theorem onehotWord (a b : BitVec 32) :
    ((((IntOp.cmpi .eq a b).setWidth 32).toInt : ℝ) : EReal) = if a = b then 1 else 0 := by
  by_cases h : a = b
  · subst h; rw [if_pos rfl]
    have : (IntOp.cmpi .eq a a).setWidth 32 = 1#32 := by simp [IntOp.cmpi]
    rw [this]; norm_num
  · rw [if_neg h]
    have hb : (a == b) = false := beq_false_of_ne h
    have : (IntOp.cmpi .eq a b).setWidth 32 = 0#32 := by simp [IntOp.cmpi, hb]
    rw [this]; norm_num

/-- The product's dimension numbers: both operands contracted on their row axis. -/
abbrev segDot : DotDims S5000x256 S5000x128 S256x128 := dot_S5000x256_S5000x128_S256x128_0_0_1_1_n_n

theorem segDot_rank : segDot.contr.rank = 1 := rfl
theorem segDot_size : segDot.contr.size ⟨0, by rw [segDot_rank]; exact Nat.one_pos⟩ = 5000 := rfl

/-- The contraction index as the row it names. -/
abbrev segRow : segDot.contr.Idx ≃ Fin 5000 := contrEquiv1 segDot 5000 segDot_rank segDot_size

/-- An entry's graph and its feature, as numbers below the table's two extents. -/
abbrev gOf (j : S256x128.Idx) : Fin 256 := j 0
abbrev dOf (j : S256x128.Idx) : Fin 128 := j 1

/-- At result entry `j` and row `k` the left operand (the one-hot) is read at (k, graph of j), -/
theorem segDot_lhs (j : S256x128.Idx) (k : Fin 5000) : segDot.lhsIdx j (segRow.symm k) = ix2 k (gOf j) :=
  Shape.idx_ext₂ (contrEquiv1_symm_val segDot 5000 segDot_rank segDot_size k) rfl

/-- and the right operand (the block) at (k, feature of j). -/
theorem segDot_rhs (j : S256x128.Idx) (k : Fin 5000) : segDot.rhsIdx j (segRow.symm k) = ix2 k (dOf j) :=
  Shape.idx_ext₂ (contrEquiv1_symm_val segDot 5000 segDot_rank segDot_size k) rfl

/-! ## One point's contribution -/

/-- The transposed-to-be one-hot of a block's id column: entry (k, g) says whether row k's id is the word g. -/
abbrev segOnehot (bb : Vec Ideal S5000x1 .i32) : FVec Ideal S5000x256 .bf16 :=
  truncf .bf16 (sitofp (F := Ideal) .f32 (extui 32 (cmpi .eq
    (broadcastTo S5000x256 (shapeCast S5000x1 bb shapeCasts_S5000x1_S5000x1) broadcasts_S5000x1_S5000x256)
    (iota .tc S5000x256 32 [1] iota_S5000x256_d1_w32)) natLt_1_32)) bitsLt_bf16_f32

/-- It is 1 where row k's id is the word g and 0 elsewhere. -/
theorem segOnehot_apply (bb : Vec Ideal S5000x1 .i32) (k : Fin 5000) (g : Fin 256) :
    segOnehot bb (ix2 k g) = if bb (ix2 k 0) = BitVec.ofNat 32 g.val then 1 else 0 := by
  unfold segOnehot
  rw [shapeCast_self]
  show ((((IntOp.cmpi .eq (broadcastTo S5000x256 bb broadcasts_S5000x1_S5000x256 (ix2 k g))
      (iota .tc S5000x256 32 [1] iota_S5000x256_d1_w32 (ix2 k g))).setWidth 32).toInt : ℝ) : EReal) = _
  rw [iota_single_apply, broadcastTo_apply bb _ (ix2 k g) (ix2 k 0) (fun a => by
    match a with
    | ⟨0, _⟩ => rfl
    | ⟨1, _⟩ => rfl), onehotWord]

/-- THE STEP at one entry: what the scratch held there, plus the sum over the block's rows whose id is the entry's graph
    of the entry's feature. -/
theorem segStep (xb : Vec Ideal S5000x128 .f32) (bb : Vec Ideal S5000x1 .i32) (a : Vec Ideal S256x128 .f32) (j : S256x128.Idx) :
    (addf a (matmul segDot none (segOnehot bb)
        (truncf .bf16 (shapeCast S5000x128 xb shapeCasts_S5000x128_S5000x128) bitsLt_bf16_f32)
        (constant S256x128 .f32 0x00000000#32)) : FVec Ideal S256x128 .f32) j
      = a j + ∑ k : Fin 5000, if bb (ix2 k 0) = BitVec.ofNat 32 (gOf j).val then xb (ix2 k (dOf j)) else 0 := by
  show a j + FloatOps.matmul segDot none (segOnehot bb)
      (truncf .bf16 (shapeCast S5000x128 xb shapeCasts_S5000x128_S5000x128) bitsLt_bf16_f32)
      (constant S256x128 .f32 0x00000000#32) j = _
  rw [Ideal.matmul_constant_zero_apply, ← Equiv.sum_comp segRow.symm]
  congr 1
  refine Finset.sum_congr rfl fun k _ => ?_
  rw [segDot_lhs, segDot_rhs, segOnehot_apply, shapeCast_self]
  show (if bb (ix2 k 0) = BitVec.ofNat 32 (gOf j).val then (1 : EReal) else 0) * xb (ix2 k (dOf j)) = _
  split
  · exact one_mul _
  · exact zero_mul _

end Cert.KernelIdeal.HandValue

end
-- ==== Proof.SegValue1.lean ====
/- Region 1 of @main, the batch-grouped segment sum, read at the extended reals: the value half. What the scratch
   accumulator holds after `n` points is, entry by entry, the segment sum restricted to the first `5000 n` rows (by
   induction on the point: each point adds, at entry (g, d), feature d of the rows of its block whose id is the word g);
   after the tenth point that is the whole segment sum, which the one write-back puts into the result array, whose one
   block is the whole array. -/
import proofs.«403491_j395136991532_1_alg».proof.Proof.SegRegion1
import proofs.«403491_j395136991532_1_alg».proof.Proof.SegLaws
import proofs.«403491_j395136991532_1_alg».proof.Proof.SpecNet
import Idealize.ShloMosaic.Lib.Pipeline.Value
import Idealize.ShloMosaic.PureOps.Ideal.Laws

set_option maxRecDepth 16384

noncomputable section

namespace Cert.KernelIdeal.HandValue

open Cert.KernelIdeal Cert.KernelIdeal.Gen Cert.KernelIdeal.Hand Cert.Spec
open Idealize.ShloMosaic Idealize.ShloMosaic.TcCoe Idealize.ShloMosaic.ValueIdx Idealize.SL.Sem
open Idealize.ShloMosaic.Pipeline (Dat)

-- the TensorCore's buffer contents when the region is entered, at the extended reals
variable (V : (c : Dev nD) → (b : Ref sig .tc) → Buf (Elt Ideal) ((c : Thread nD τ).loc b))

/-! ## The two payloads at an entry -/

/-- The block the first point stores is zero everywhere. -/
theorem pay1_apply1 (j : S256x128.Idx) : (k1_pay1 (F := Ideal)) j = 0 := by
  show (shapeCast S256x128 (broadcast S256x128 (Scalar.ofBits (F := Ideal) .f32 0x00000000#32)) shapeCasts_S256x128_S256x128) j = 0
  rw [shapeCast_self]
  exact Ideal.ofBits_zero_f32

/-- The block every point stores: what the scratch held plus the point's contribution. -/
theorem pay2_apply1 (xb : Vec Ideal S5000x128 .f32) (bb : Vec Ideal S5000x1 .i32) (a : Vec Ideal S256x128 .f32) (j : S256x128.Idx) :
    k1_pay2 xb bb a j = a j + ∑ k : Fin 5000, if bb (ix2 k 0) = BitVec.ofNat 32 (gOf j).val then xb (ix2 k (dOf j)) else 0 := by
  show (shapeCast S256x128 (addf a (matmul segDot none (segOnehot bb)
      (truncf .bf16 (shapeCast S5000x128 xb shapeCasts_S5000x128_S5000x128) bitsLt_bf16_f32)
      (constant S256x128 .f32 0x00000000#32))) shapeCasts_S256x128_S256x128) j = _
  rw [shapeCast_self]
  exact segStep xb bb a j

/-! ## The windows' blocks, read at a row -/

/-- The two input windows step along the row axis with the point; the output window does not move. -/
theorem index1_0 : ∀ t : Fin cfg1.N, win1_0.index t 0 = t.val ∧ win1_0.index t 1 = 0 :=
  (by decide +kernel : ∀ t : Fin grid1.N, win1_0.index t 0 = t.val ∧ win1_0.index t 1 = 0)
theorem index1_1 : ∀ t : Fin cfg1.N, win1_1.index t 0 = t.val ∧ win1_1.index t 1 = 0 :=
  (by decide +kernel : ∀ t : Fin grid1.N, win1_1.index t 0 = t.val ∧ win1_1.index t 1 = 0)

/-- Row `k` of the feature block at point `n` is row `5000 n + k` of the feature array. -/
theorem iblk1_0_apply (c : Dev nD) (n : Fin cfg1.N) (k : Fin 5000) (d : Fin 128) (h : 5000 * n.val + k.val < 50000) :
    (iblk1 V c 0 n : Vec Ideal S5000x128 .f32) (ix2 k d)
      = (V c (Pipeline.arrRef spec1 0) : Vec Ideal S50000x128 .f32) (ix2 ⟨5000 * n.val + k.val, h⟩ d) := by
  unfold iblk1
  rw [View.read_apply]
  show V c (Pipeline.arrRef spec1 0) _ = V c (Pipeline.arrRef spec1 0) _
  congr 1
  funext a
  apply Fin.ext
  match a with
  | ⟨0, _⟩ =>
    show win1_0.index n 0 * 5000 + 1 * k.val = 5000 * n.val + k.val
    rw [(index1_0 n).1]; omega
  | ⟨1, _⟩ =>
    show win1_0.index n 1 * 128 + 1 * d.val = d.val
    rw [(index1_0 n).2]; omega

/-- Row `k` of the id block at point `n` is row `5000 n + k` of the id column. -/
theorem iblk1_1_apply (c : Dev nD) (n : Fin cfg1.N) (k : Fin 5000) (h : 5000 * n.val + k.val < 50000) :
    (iblk1 V c 1 n : Vec Ideal S5000x1 .i32) (ix2 k 0)
      = (V c (Pipeline.arrRef spec1 1) : Vec Ideal S50000x1 .i32) (ix2 ⟨5000 * n.val + k.val, h⟩ 0) := by
  unfold iblk1
  rw [View.read_apply]
  show V c (Pipeline.arrRef spec1 1) _ = V c (Pipeline.arrRef spec1 1) _
  congr 1
  funext a
  apply Fin.ext
  match a with
  | ⟨0, _⟩ =>
    show win1_1.index n 0 * 5000 + 1 * k.val = 5000 * n.val + k.val
    rw [(index1_1 n).1]; omega
  | ⟨1, _⟩ =>
    show win1_1.index n 1 * 1 + 1 * 0 = 0
    rw [(index1_1 n).2]

/-! ## The accumulation is the segment sum of the rows so far -/

/-- Row `t`'s term of entry `j`: its feature if its id is the entry's graph, else nothing (nothing past the last row). -/
def term1 (c : Dev nD) (j : S256x128.Idx) (t : ℕ) : EReal :=
  if h : t < 50000 then
    (if (V c (Pipeline.arrRef spec1 1) : Vec Ideal S50000x1 .i32) (ix2 ⟨t, h⟩ 0) = BitVec.ofNat 32 (gOf j).val
      then (V c (Pipeline.arrRef spec1 0) : Vec Ideal S50000x128 .f32) (ix2 ⟨t, h⟩ (dOf j)) else 0)
  else 0

/-- Row `k` of point `n`'s blocks contributes row `5000 n + k`'s term. -/
theorem blockTerm1 (c : Dev nD) (j : S256x128.Idx) (n : Fin cfg1.N) (k : Fin 5000) :
    ((if (iblk1 V c 1 n : Vec Ideal S5000x1 .i32) (ix2 k 0) = BitVec.ofNat 32 (gOf j).val
        then (iblk1 V c 0 n : Vec Ideal S5000x128 .f32) (ix2 k (dOf j)) else 0 : EReal))
      = term1 V c j (5000 * n.val + k.val) := by
  have hN : n.val < 10 := lt_of_lt_of_eq n.isLt (show cfg1.N = 10 from N_1)
  have hlt : 5000 * n.val + k.val < 50000 := by have := k.isLt; omega
  unfold term1
  rw [dif_pos hlt, iblk1_0_apply V c n k (dOf j) hlt, iblk1_1_apply V c n k hlt]

set_option maxHeartbeats 1000000 in
/-- After `n` points the scratch holds, at each entry, the sum of the terms of the first `5000 n` rows: by induction on
    the point, each point adding its block's rows. -/
theorem accAt1_eq (c : Dev nD) (j : S256x128.Idx) (n : ℕ) :
    ∀ (hn : n ≤ cfg1.N), accAt1 V c n hn j = ∑ t ∈ Finset.range (5000 * n), term1 V c j t := by
  induction n with
  | zero =>
    intro hn
    rw [accAt1_zero V c hn, pay1_apply1]
    simp
  | succ n ih =>
    intro hn
    rw [show accAt1 V c (n + 1) hn = k1_pay2 (iblk1 V c 0 ⟨n, hn⟩) (iblk1 V c 1 ⟨n, hn⟩) (accAt1 V c n (Nat.le_of_lt hn))
        from accAt1_succ V c ⟨n, hn⟩,
      pay2_apply1, ih (Nat.le_of_lt hn), show 5000 * (n + 1) = 5000 * n + 5000 from by ring, Finset.sum_range_add,
      Finset.sum_range (fun x => term1 V c j (5000 * n + x))]
    exact congrArg (fun s : EReal => (∑ t ∈ Finset.range (5000 * n), term1 V c j t) + s)
      (Finset.sum_congr rfl fun k _ => blockTerm1 V c j ⟨n, hn⟩ k)

/-- After the tenth point that is the whole segment sum. -/
theorem accAt1_last (c : Dev nD) (h : 10 ≤ cfg1.N) :
    accAt1 V c 10 h = segG (V c (Pipeline.arrRef spec1 0)) (V c (Pipeline.arrRef spec1 1)) := by
  funext j
  rw [accAt1_eq V c j 10 h, show 5000 * 10 = 50000 from rfl, Finset.sum_range]
  unfold segG term1
  refine Finset.sum_congr rfl fun t _ => ?_
  exact (dif_pos t.isLt).trans rfl

/-! ## The one write-back -/

/-- The write-back at the last point writes the segment sum: the output's one block, read through zero offsets, is the
    whole array. -/
theorem flushed1 (c : Dev nD) (t : Fin cfg1.N) (hf : (cfg1.win 2).flush t = true) :
    (dat1 V c).flushed 2 t = ((cfg1.win 2).blk t).view.read (Elt Ideal)
      (segG (V c (Pipeline.arrRef spec1 0)) (V c (Pipeline.arrRef spec1 1))) := by
  have hN : cfg1.N = 10 := N_1
  have hL : t.val = 9 := by have := (flush1_2 t).mp hf; have := t.isLt; omega
  obtain rfl : t = t1_9 := Fin.ext hL
  show (cfg1.win 2).cut (grid1.coords t1_9) ((dat1 V c).after 2 t1_9) = _
  rw [after1_2]
  show (cfg1.win 2).cut (grid1.coords t1_9) (accAt1 V c 10 t1_9.isLt) = _
  rw [accAt1_last V c t1_9.isLt]
  have hz' : (fun a => win1_2.index t1_9 a * (Pipeline.arrRef spec1 2).ty.shape.size a) = fun _ => 0 :=
    funext fun a => by fin_cases a <;> decide
  exact (Memref.read_access_unit_zero (Elt Ideal) (Pipeline.arrRef spec1 2) hz' (fun a => by rw [congrFun hz' a]; simp) _).symm

/-- THE REGION'S VALUE: after its ten points the result array holds the segment sum of the two argument arrays as the
    region found them. -/
theorem final1 (c : Dev nD) :
    (dat1 (F := Ideal) V c).arrAt 2 cfg1.N = segG (V c (Pipeline.arrRef spec1 0)) (V c (Pipeline.arrRef spec1 1)) :=
  (dat1 V c).arrAt_eq_of_cover 2 _ (flushed1 V c) fun i =>
    ⟨t1_9, (flush1_2 t1_9).mpr rfl, by
      show i ∈ ((View.whole (Pipeline.arrRef spec1 2)).slice (win1_2.rect t1_9)).set
      rw [View.set_slice_whole, Rect.mem_set_unit]
      intro a
      have hi0 : (i 0 : Nat) < 256 := (i 0).isLt
      have hi1 : (i 1 : Nat) < 128 := (i 1).isLt
      match a with
      | ⟨0, _⟩ =>
        show win1_2.index t1_9 0 * win1_2.size 0 ≤ (i 0 : Nat)
          ∧ (i 0 : Nat) < win1_2.index t1_9 0 * win1_2.size 0 + win1_2.xsize (grid1.coords t1_9) 0
        rw [show win1_2.index t1_9 0 * win1_2.size 0 = 0 from by decide +kernel,
          show win1_2.xsize (grid1.coords t1_9) 0 = 256 from by decide +kernel]
        omega
      | ⟨1, _⟩ =>
        show win1_2.index t1_9 1 * win1_2.size 1 ≤ (i 1 : Nat)
          ∧ (i 1 : Nat) < win1_2.index t1_9 1 * win1_2.size 1 + win1_2.xsize (grid1.coords t1_9) 1
        rw [show win1_2.index t1_9 1 * win1_2.size 1 = 0 from by decide +kernel,
          show win1_2.xsize (grid1.coords t1_9) 1 = 128 from by decide +kernel]
        omega⟩

end Cert.KernelIdeal.HandValue

end
-- ==== Proof.VnFinDots.lean ====
/- The three matrix products of the graph-level regions, and their row and column broadcasts, READ AT AN INDEX over the
   extended reals. Each product contracts the left operand's axis 1 with the right operand's axis 0 and accumulates into
   zero, so its entry at (p, q) is the sum over k of left (p, k) * right (k, q); a row [1, n] broadcast down the rows reads
   its entry of the same column, a column [m, 1] broadcast along the columns its entry of the same row. Nothing here depends
   on which region a product occurs in. -/
import proofs.«403491_j395136991532_1_alg».proof.Proof.Gen.KernelIdeal
import Idealize.ShloMosaic.Lib.ValueIdx
import Idealize.ShloMosaic.Lib.Pipeline.Value
import Idealize.ShloMosaic.PureOps.Ideal.Laws

noncomputable section

namespace Cert.KernelIdeal.HandValue

open Cert.KernelIdeal Idealize.ShloMosaic Idealize.ShloMosaic.ValueIdx
open scoped BigOperators

/-! ## The products' operand indices, axis by axis -/

/-- The left operand's row is the output's row, -/
theorem lhsFirst_0 (i : S256x256.Idx) (q : dot_S256x128_S128x256_S256x256_1_0_0_1_n_n.contr.Idx) :
    (dot_S256x128_S128x256_S256x256_1_0_0_1_n_n.lhsIdx i q 0).val = (i 0).val := by
  unfold DotDims.lhsIdx
  rw [dif_neg (show ¬(0 : Fin S256x128.rank) ∈ dot_S256x128_S128x256_S256x256_1_0_0_1_n_n.lhsBatch by decide), dif_pos (show (0 : Fin S256x128.rank) ∈ dot_S256x128_S128x256_S256x256_1_0_0_1_n_n.lhsNonContracting by decide)]
  rfl
/-- its column the contraction's coordinate; -/
theorem lhsFirst_1 (i : S256x256.Idx) (q : dot_S256x128_S128x256_S256x256_1_0_0_1_n_n.contr.Idx) :
    (dot_S256x128_S128x256_S256x256_1_0_0_1_n_n.lhsIdx i q 1).val = (q ⟨0, by decide⟩).val :=
  dot_S256x128_S128x256_S256x256_1_0_0_1_n_n.lhsIdx_val_of_single rfl i q
/-- the right operand's row is the contraction's coordinate, -/
theorem rhsFirst_0 (i : S256x256.Idx) (q : dot_S256x128_S128x256_S256x256_1_0_0_1_n_n.contr.Idx) :
    (dot_S256x128_S128x256_S256x256_1_0_0_1_n_n.rhsIdx i q 0).val = (q ⟨0, by decide⟩).val :=
  dot_S256x128_S128x256_S256x256_1_0_0_1_n_n.rhsIdx_val_of_single rfl i q
/-- its column the output's column. -/
theorem rhsFirst_1 (i : S256x256.Idx) (q : dot_S256x128_S128x256_S256x256_1_0_0_1_n_n.contr.Idx) :
    (dot_S256x128_S128x256_S256x256_1_0_0_1_n_n.rhsIdx i q 1).val = (i 1).val := by
  unfold DotDims.rhsIdx
  rw [dif_neg (show ¬(1 : Fin S128x256.rank) ∈ dot_S256x128_S128x256_S256x256_1_0_0_1_n_n.rhsBatch by decide), dif_pos (show (1 : Fin S128x256.rank) ∈ dot_S256x128_S128x256_S256x256_1_0_0_1_n_n.rhsNonContracting by decide)]
  rfl

/-- So the first layer's product, a row of 128 entries against a column of the 128 by 256 weight, accumulated into zero, is the sum of the 128 products. -/
theorem matmulFirst_apply {φ₁ φ₂ : FTy} (x : FVec Ideal S256x128 φ₁) (w : FVec Ideal S128x256 φ₂) (i : S256x256.Idx) :
    matmul dot_S256x128_S128x256_S256x256_1_0_0_1_n_n none x w (constant (F := Ideal) S256x256 .f32 0x00000000#32) i
      = ∑ k : Fin 128, x (ix2 (n0 := 256) (n1 := 128) (i 0) k) * w (ix2 (n0 := 128) (n1 := 256) k (i 1)) := by
  simp only [matmul]
  rw [Ideal.matmul_constant_zero_apply, ← Equiv.sum_comp (contrEquiv1 dot_S256x128_S128x256_S256x256_1_0_0_1_n_n 128 rfl rfl).symm]
  refine Finset.sum_congr rfl fun k _ => ?_
  have hk := contrEquiv1_symm_val dot_S256x128_S128x256_S256x256_1_0_0_1_n_n 128 rfl rfl k
  have el : dot_S256x128_S128x256_S256x256_1_0_0_1_n_n.lhsIdx i ((contrEquiv1 dot_S256x128_S128x256_S256x256_1_0_0_1_n_n 128 rfl rfl).symm k) = ix2 (n0 := 256) (n1 := 128) (i 0) k := funext fun a => Fin.ext (by
    match a with
    | ⟨0, _⟩ => exact lhsFirst_0 _ _
    | ⟨1, _⟩ => exact (lhsFirst_1 _ _).trans hk)
  have er : dot_S256x128_S128x256_S256x256_1_0_0_1_n_n.rhsIdx i ((contrEquiv1 dot_S256x128_S128x256_S256x256_1_0_0_1_n_n 128 rfl rfl).symm k) = ix2 (n0 := 128) (n1 := 256) k (i 1) := funext fun a => Fin.ext (by
    match a with
    | ⟨0, _⟩ => exact (rhsFirst_0 _ _).trans hk
    | ⟨1, _⟩ => exact rhsFirst_1 _ _)
  rw [el, er]

/-- The left operand's row is the output's row, -/
theorem lhsSecond_0 (i : S256x128.Idx) (q : dot_S256x256_S256x128_S256x128_1_0_0_1_n_n.contr.Idx) :
    (dot_S256x256_S256x128_S256x128_1_0_0_1_n_n.lhsIdx i q 0).val = (i 0).val := by
  unfold DotDims.lhsIdx
  rw [dif_neg (show ¬(0 : Fin S256x256.rank) ∈ dot_S256x256_S256x128_S256x128_1_0_0_1_n_n.lhsBatch by decide), dif_pos (show (0 : Fin S256x256.rank) ∈ dot_S256x256_S256x128_S256x128_1_0_0_1_n_n.lhsNonContracting by decide)]
  rfl
/-- its column the contraction's coordinate; -/
theorem lhsSecond_1 (i : S256x128.Idx) (q : dot_S256x256_S256x128_S256x128_1_0_0_1_n_n.contr.Idx) :
    (dot_S256x256_S256x128_S256x128_1_0_0_1_n_n.lhsIdx i q 1).val = (q ⟨0, by decide⟩).val :=
  dot_S256x256_S256x128_S256x128_1_0_0_1_n_n.lhsIdx_val_of_single rfl i q
/-- the right operand's row is the contraction's coordinate, -/
theorem rhsSecond_0 (i : S256x128.Idx) (q : dot_S256x256_S256x128_S256x128_1_0_0_1_n_n.contr.Idx) :
    (dot_S256x256_S256x128_S256x128_1_0_0_1_n_n.rhsIdx i q 0).val = (q ⟨0, by decide⟩).val :=
  dot_S256x256_S256x128_S256x128_1_0_0_1_n_n.rhsIdx_val_of_single rfl i q
/-- its column the output's column. -/
theorem rhsSecond_1 (i : S256x128.Idx) (q : dot_S256x256_S256x128_S256x128_1_0_0_1_n_n.contr.Idx) :
    (dot_S256x256_S256x128_S256x128_1_0_0_1_n_n.rhsIdx i q 1).val = (i 1).val := by
  unfold DotDims.rhsIdx
  rw [dif_neg (show ¬(1 : Fin S256x128.rank) ∈ dot_S256x256_S256x128_S256x128_1_0_0_1_n_n.rhsBatch by decide), dif_pos (show (1 : Fin S256x128.rank) ∈ dot_S256x256_S256x128_S256x128_1_0_0_1_n_n.rhsNonContracting by decide)]
  rfl

/-- So the second layer's product, a row of 256 entries against a column of the 256 by 128 weight, accumulated into zero, is the sum of the 256 products. -/
theorem matmulSecond_apply {φ₁ φ₂ : FTy} (x : FVec Ideal S256x256 φ₁) (w : FVec Ideal S256x128 φ₂) (i : S256x128.Idx) :
    matmul dot_S256x256_S256x128_S256x128_1_0_0_1_n_n none x w (constant (F := Ideal) S256x128 .f32 0x00000000#32) i
      = ∑ k : Fin 256, x (ix2 (n0 := 256) (n1 := 256) (i 0) k) * w (ix2 (n0 := 256) (n1 := 128) k (i 1)) := by
  simp only [matmul]
  rw [Ideal.matmul_constant_zero_apply, ← Equiv.sum_comp (contrEquiv1 dot_S256x256_S256x128_S256x128_1_0_0_1_n_n 256 rfl rfl).symm]
  refine Finset.sum_congr rfl fun k _ => ?_
  have hk := contrEquiv1_symm_val dot_S256x256_S256x128_S256x128_1_0_0_1_n_n 256 rfl rfl k
  have el : dot_S256x256_S256x128_S256x128_1_0_0_1_n_n.lhsIdx i ((contrEquiv1 dot_S256x256_S256x128_S256x128_1_0_0_1_n_n 256 rfl rfl).symm k) = ix2 (n0 := 256) (n1 := 256) (i 0) k := funext fun a => Fin.ext (by
    match a with
    | ⟨0, _⟩ => exact lhsSecond_0 _ _
    | ⟨1, _⟩ => exact (lhsSecond_1 _ _).trans hk)
  have er : dot_S256x256_S256x128_S256x128_1_0_0_1_n_n.rhsIdx i ((contrEquiv1 dot_S256x256_S256x128_S256x128_1_0_0_1_n_n 256 rfl rfl).symm k) = ix2 (n0 := 256) (n1 := 128) k (i 1) := funext fun a => Fin.ext (by
    match a with
    | ⟨0, _⟩ => exact (rhsSecond_0 _ _).trans hk
    | ⟨1, _⟩ => exact rhsSecond_1 _ _)
  rw [el, er]

/-- The left operand's row is the output's row, -/
theorem lhsHead_0 (i : S256x10.Idx) (q : dot_S256x128_S128x10_S256x10_1_0_0_1_n_n.contr.Idx) :
    (dot_S256x128_S128x10_S256x10_1_0_0_1_n_n.lhsIdx i q 0).val = (i 0).val := by
  unfold DotDims.lhsIdx
  rw [dif_neg (show ¬(0 : Fin S256x128.rank) ∈ dot_S256x128_S128x10_S256x10_1_0_0_1_n_n.lhsBatch by decide), dif_pos (show (0 : Fin S256x128.rank) ∈ dot_S256x128_S128x10_S256x10_1_0_0_1_n_n.lhsNonContracting by decide)]
  rfl
/-- its column the contraction's coordinate; -/
theorem lhsHead_1 (i : S256x10.Idx) (q : dot_S256x128_S128x10_S256x10_1_0_0_1_n_n.contr.Idx) :
    (dot_S256x128_S128x10_S256x10_1_0_0_1_n_n.lhsIdx i q 1).val = (q ⟨0, by decide⟩).val :=
  dot_S256x128_S128x10_S256x10_1_0_0_1_n_n.lhsIdx_val_of_single rfl i q
/-- the right operand's row is the contraction's coordinate, -/
theorem rhsHead_0 (i : S256x10.Idx) (q : dot_S256x128_S128x10_S256x10_1_0_0_1_n_n.contr.Idx) :
    (dot_S256x128_S128x10_S256x10_1_0_0_1_n_n.rhsIdx i q 0).val = (q ⟨0, by decide⟩).val :=
  dot_S256x128_S128x10_S256x10_1_0_0_1_n_n.rhsIdx_val_of_single rfl i q
/-- its column the output's column. -/
theorem rhsHead_1 (i : S256x10.Idx) (q : dot_S256x128_S128x10_S256x10_1_0_0_1_n_n.contr.Idx) :
    (dot_S256x128_S128x10_S256x10_1_0_0_1_n_n.rhsIdx i q 1).val = (i 1).val := by
  unfold DotDims.rhsIdx
  rw [dif_neg (show ¬(1 : Fin S128x10.rank) ∈ dot_S256x128_S128x10_S256x10_1_0_0_1_n_n.rhsBatch by decide), dif_pos (show (1 : Fin S128x10.rank) ∈ dot_S256x128_S128x10_S256x10_1_0_0_1_n_n.rhsNonContracting by decide)]
  rfl

/-- So the head's product, a row of 128 entries against a column of the 128 by 10 weight, accumulated into zero, is the sum of the 128 products. -/
theorem matmulHead_apply {φ₁ φ₂ : FTy} (x : FVec Ideal S256x128 φ₁) (w : FVec Ideal S128x10 φ₂) (i : S256x10.Idx) :
    matmul dot_S256x128_S128x10_S256x10_1_0_0_1_n_n none x w (constant (F := Ideal) S256x10 .f32 0x00000000#32) i
      = ∑ k : Fin 128, x (ix2 (n0 := 256) (n1 := 128) (i 0) k) * w (ix2 (n0 := 128) (n1 := 10) k (i 1)) := by
  simp only [matmul]
  rw [Ideal.matmul_constant_zero_apply, ← Equiv.sum_comp (contrEquiv1 dot_S256x128_S128x10_S256x10_1_0_0_1_n_n 128 rfl rfl).symm]
  refine Finset.sum_congr rfl fun k _ => ?_
  have hk := contrEquiv1_symm_val dot_S256x128_S128x10_S256x10_1_0_0_1_n_n 128 rfl rfl k
  have el : dot_S256x128_S128x10_S256x10_1_0_0_1_n_n.lhsIdx i ((contrEquiv1 dot_S256x128_S128x10_S256x10_1_0_0_1_n_n 128 rfl rfl).symm k) = ix2 (n0 := 256) (n1 := 128) (i 0) k := funext fun a => Fin.ext (by
    match a with
    | ⟨0, _⟩ => exact lhsHead_0 _ _
    | ⟨1, _⟩ => exact (lhsHead_1 _ _).trans hk)
  have er : dot_S256x128_S128x10_S256x10_1_0_0_1_n_n.rhsIdx i ((contrEquiv1 dot_S256x128_S128x10_S256x10_1_0_0_1_n_n 128 rfl rfl).symm k) = ix2 (n0 := 128) (n1 := 10) k (i 1) := funext fun a => Fin.ext (by
    match a with
    | ⟨0, _⟩ => exact (rhsHead_0 _ _).trans hk
    | ⟨1, _⟩ => exact rhsHead_1 _ _)
  rw [el, er]

/-! ## The broadcasts read at an index (whatever proof of the broadcast's side condition the program carries) -/

/-- A row of 256 entries broadcast down 256 rows reads its entry of the same column. -/
theorem rowTo256x256_apply {α : Type} (x : S1x256.Idx → α) (h : S1x256.Broadcasts S256x256) (p : Fin 256) (q : Fin 256) :
    broadcastTo S256x256 x h (ix2 p q) = x (ix2 (n0 := 1) (n1 := 256) 0 q) :=
  broadcastTo_apply x h (ix2 p q) (ix2 (n0 := 1) (n1 := 256) 0 q) fun a => by
    match a with
    | ⟨0, _⟩ => rfl
    | ⟨1, _⟩ => rfl

/-- A row of 128 entries broadcast down 256 rows reads its entry of the same column. -/
theorem rowTo256x128_apply {α : Type} (x : S1x128.Idx → α) (h : S1x128.Broadcasts S256x128) (p : Fin 256) (q : Fin 128) :
    broadcastTo S256x128 x h (ix2 p q) = x (ix2 (n0 := 1) (n1 := 128) 0 q) :=
  broadcastTo_apply x h (ix2 p q) (ix2 (n0 := 1) (n1 := 128) 0 q) fun a => by
    match a with
    | ⟨0, _⟩ => rfl
    | ⟨1, _⟩ => rfl

/-- A row of 10 entries broadcast down 256 rows reads its entry of the same column. -/
theorem rowTo256x10_apply {α : Type} (x : S1x10.Idx → α) (h : S1x10.Broadcasts S256x10) (p : Fin 256) (q : Fin 10) :
    broadcastTo S256x10 x h (ix2 p q) = x (ix2 (n0 := 1) (n1 := 10) 0 q) :=
  broadcastTo_apply x h (ix2 p q) (ix2 (n0 := 1) (n1 := 10) 0 q) fun a => by
    match a with
    | ⟨0, _⟩ => rfl
    | ⟨1, _⟩ => rfl

/-- A column of 256 entries broadcast along 128 columns reads its entry of the same row. -/
theorem colTo256x128_apply {α : Type} (x : S256x1.Idx → α) (h : S256x1.Broadcasts S256x128) (p : Fin 256) (q : Fin 128) :
    broadcastTo S256x128 x h (ix2 p q) = x (ix2 (n0 := 256) (n1 := 1) p 0) :=
  broadcastTo_apply x h (ix2 p q) (ix2 (n0 := 256) (n1 := 1) p 0) fun a => by
    match a with
    | ⟨0, _⟩ => rfl
    | ⟨1, _⟩ => rfl

end Cert.KernelIdeal.HandValue

end
-- ==== Proof.VnValue2.lean ====
/- Region 2 of @main, the virtual node's two-layer perceptron: the VALUE its output array ends holding, over the extended reals. The body's payload, read
   index by index, is the network's function `Cert.Spec.vnG` of the blocks the body loads; the grid is one point whose block, for
   every window, is the whole array at offset zero; so what the point writes back is `Cert.Spec.vnG` of the input arrays as the
   region finds them, its block covers the output array, and the array ends holding exactly that. -/
import proofs.«403491_j395136991532_1_alg».proof.Proof.VnRegion2
import proofs.«403491_j395136991532_1_alg».proof.Proof.VnFinDots
import proofs.«403491_j395136991532_1_alg».proof.Proof.SpecNet
import Idealize.ShloMosaic.Lib.Pipeline.Value

noncomputable section

namespace Cert.KernelIdeal.HandValue

open Cert.KernelIdeal Cert.KernelIdeal.Gen Cert.KernelIdeal.Hand Idealize.ShloMosaic Idealize.ShloMosaic.TcCoe Idealize.SL.Sem
open Idealize.ShloMosaic.ValueIdx
open Idealize.ShloMosaic.Pipeline (Dat)
open scoped BigOperators

/-! ## The body's payload, index by index -/

/-- The payload of the body's one store is `Cert.Spec.vnG` of the loaded blocks: at row `p`, column `q` both are the same
    sums, products and maxima of the same entries. -/
theorem pay2_eq (x0 : Vec Ideal S256x128 .f32) (x1 : Vec Ideal S128x256 .bf16) (x2 : Vec Ideal S1x256 .f32) (x3 : Vec Ideal S1x256 .f32) (x4 : Vec Ideal S1x256 .f32) (x5 : Vec Ideal S256x128 .bf16) (x6 : Vec Ideal S1x128 .f32) (x7 : Vec Ideal S1x128 .f32) (x8 : Vec Ideal S1x128 .f32) :
    k2_pay1 (k2_pay2 x0 x1 x2 x3 x4 x5 x6 x7 x8) (k2_pay3 (F := Ideal)) = Cert.Spec.vnG x0 x1 x2 x3 x4 x5 x6 x7 x8 := by
  funext j
  obtain ⟨p, q, rfl⟩ : ∃ (p : Fin 256) (q : Fin 128), j = ix2 p q := ⟨j 0, j 1, eq_ix2 j⟩
  unfold k2_pay1 k2_pay2 k2_pay3 Cert.Spec.vnG Cert.Spec.outK Cert.Spec.hiddenK Cert.Spec.zeroF
  simp only [maximumf_apply, addf_apply, mulf_apply, broadcast_apply, shapeCast_self, truncf_apply, Ideal.ofBits_def, rowTo256x128_apply, rowTo256x256_apply, matmulSecond_apply, matmulFirst_apply]

/-! ## One grid point: every window's block is its whole array -/

theorem hz2 : (![0, 0] : Fin 2 → Nat) = fun _ => 0 := funext fun a => by fin_cases a <;> rfl

/-- The printed index maps, decided over the one grid point: every window's block index is zero on both axes. -/
theorem idx_facts2 : ∀ t : Fin cfg2.N, win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = 0 ∧ win2_9.index t (1 : Fin 2) = 0 :=
  (by decide +kernel : ∀ t : Fin grid2.N, _)

section AnyF
variable {F : FTy → Type} [FloatOps F]
variable (V : (c : Dev nD) → (b : Ref sig .tc) → Buf (Elt F) ((c : Thread nD τ).loc b))

/-- Input window 0's block at the point is its array. -/
theorem iblk2_0_eq (c : Dev nD) (t : Fin cfg2.N) : (iblk2 V c 0 t : Vec F S256x128 .f32) = V c (Pipeline.arrRef spec2 0) := by
  obtain ⟨e0_0, e0_1, e1_0, e1_1, e2_0, e2_1, e3_0, e3_1, e4_0, e4_1, e5_0, e5_1, e6_0, e6_1, e7_0, e7_1, e8_0, e8_1, e9_0, e9_1⟩ := idx_facts2 t
  funext y
  show V c (Pipeline.arrRef spec2 0) (((cfg2.win 0).blk t).view.emb y) = V c (Pipeline.arrRef spec2 0) y
  refine congrArg _ (funext fun a => Fin.ext ?_)
  match a with
  | ⟨0, _⟩ => show win2_0.index t (0 : Fin 2) * 256 + 1 * (y 0).val = (y 0).val; omega
  | ⟨1, _⟩ => show win2_0.index t (1 : Fin 2) * 128 + 1 * (y 1).val = (y 1).val; omega

/-- Input window 1's block at the point is its array. -/
theorem iblk2_1_eq (c : Dev nD) (t : Fin cfg2.N) : (iblk2 V c 1 t : Vec F S128x256 .bf16) = V c (Pipeline.arrRef spec2 1) := by
  obtain ⟨e0_0, e0_1, e1_0, e1_1, e2_0, e2_1, e3_0, e3_1, e4_0, e4_1, e5_0, e5_1, e6_0, e6_1, e7_0, e7_1, e8_0, e8_1, e9_0, e9_1⟩ := idx_facts2 t
  funext y
  show V c (Pipeline.arrRef spec2 1) (((cfg2.win 1).blk t).view.emb y) = V c (Pipeline.arrRef spec2 1) y
  refine congrArg _ (funext fun a => Fin.ext ?_)
  match a with
  | ⟨0, _⟩ => show win2_1.index t (0 : Fin 2) * 128 + 1 * (y 0).val = (y 0).val; omega
  | ⟨1, _⟩ => show win2_1.index t (1 : Fin 2) * 256 + 1 * (y 1).val = (y 1).val; omega

/-- Input window 2's block at the point is its array. -/
theorem iblk2_2_eq (c : Dev nD) (t : Fin cfg2.N) : (iblk2 V c 2 t : Vec F S1x256 .f32) = V c (Pipeline.arrRef spec2 2) := by
  obtain ⟨e0_0, e0_1, e1_0, e1_1, e2_0, e2_1, e3_0, e3_1, e4_0, e4_1, e5_0, e5_1, e6_0, e6_1, e7_0, e7_1, e8_0, e8_1, e9_0, e9_1⟩ := idx_facts2 t
  funext y
  show V c (Pipeline.arrRef spec2 2) (((cfg2.win 2).blk t).view.emb y) = V c (Pipeline.arrRef spec2 2) y
  refine congrArg _ (funext fun a => Fin.ext ?_)
  match a with
  | ⟨0, _⟩ => show win2_2.index t (0 : Fin 2) * 1 + 1 * (y 0).val = (y 0).val; omega
  | ⟨1, _⟩ => show win2_2.index t (1 : Fin 2) * 256 + 1 * (y 1).val = (y 1).val; omega

/-- Input window 3's block at the point is its array. -/
theorem iblk2_3_eq (c : Dev nD) (t : Fin cfg2.N) : (iblk2 V c 3 t : Vec F S1x256 .f32) = V c (Pipeline.arrRef spec2 3) := by
  obtain ⟨e0_0, e0_1, e1_0, e1_1, e2_0, e2_1, e3_0, e3_1, e4_0, e4_1, e5_0, e5_1, e6_0, e6_1, e7_0, e7_1, e8_0, e8_1, e9_0, e9_1⟩ := idx_facts2 t
  funext y
  show V c (Pipeline.arrRef spec2 3) (((cfg2.win 3).blk t).view.emb y) = V c (Pipeline.arrRef spec2 3) y
  refine congrArg _ (funext fun a => Fin.ext ?_)
  match a with
  | ⟨0, _⟩ => show win2_3.index t (0 : Fin 2) * 1 + 1 * (y 0).val = (y 0).val; omega
  | ⟨1, _⟩ => show win2_3.index t (1 : Fin 2) * 256 + 1 * (y 1).val = (y 1).val; omega

/-- Input window 4's block at the point is its array. -/
theorem iblk2_4_eq (c : Dev nD) (t : Fin cfg2.N) : (iblk2 V c 4 t : Vec F S1x256 .f32) = V c (Pipeline.arrRef spec2 4) := by
  obtain ⟨e0_0, e0_1, e1_0, e1_1, e2_0, e2_1, e3_0, e3_1, e4_0, e4_1, e5_0, e5_1, e6_0, e6_1, e7_0, e7_1, e8_0, e8_1, e9_0, e9_1⟩ := idx_facts2 t
  funext y
  show V c (Pipeline.arrRef spec2 4) (((cfg2.win 4).blk t).view.emb y) = V c (Pipeline.arrRef spec2 4) y
  refine congrArg _ (funext fun a => Fin.ext ?_)
  match a with
  | ⟨0, _⟩ => show win2_4.index t (0 : Fin 2) * 1 + 1 * (y 0).val = (y 0).val; omega
  | ⟨1, _⟩ => show win2_4.index t (1 : Fin 2) * 256 + 1 * (y 1).val = (y 1).val; omega

/-- Input window 5's block at the point is its array. -/
theorem iblk2_5_eq (c : Dev nD) (t : Fin cfg2.N) : (iblk2 V c 5 t : Vec F S256x128 .bf16) = V c (Pipeline.arrRef spec2 5) := by
  obtain ⟨e0_0, e0_1, e1_0, e1_1, e2_0, e2_1, e3_0, e3_1, e4_0, e4_1, e5_0, e5_1, e6_0, e6_1, e7_0, e7_1, e8_0, e8_1, e9_0, e9_1⟩ := idx_facts2 t
  funext y
  show V c (Pipeline.arrRef spec2 5) (((cfg2.win 5).blk t).view.emb y) = V c (Pipeline.arrRef spec2 5) y
  refine congrArg _ (funext fun a => Fin.ext ?_)
  match a with
  | ⟨0, _⟩ => show win2_5.index t (0 : Fin 2) * 256 + 1 * (y 0).val = (y 0).val; omega
  | ⟨1, _⟩ => show win2_5.index t (1 : Fin 2) * 128 + 1 * (y 1).val = (y 1).val; omega

/-- Input window 6's block at the point is its array. -/
theorem iblk2_6_eq (c : Dev nD) (t : Fin cfg2.N) : (iblk2 V c 6 t : Vec F S1x128 .f32) = V c (Pipeline.arrRef spec2 6) := by
  obtain ⟨e0_0, e0_1, e1_0, e1_1, e2_0, e2_1, e3_0, e3_1, e4_0, e4_1, e5_0, e5_1, e6_0, e6_1, e7_0, e7_1, e8_0, e8_1, e9_0, e9_1⟩ := idx_facts2 t
  funext y
  show V c (Pipeline.arrRef spec2 6) (((cfg2.win 6).blk t).view.emb y) = V c (Pipeline.arrRef spec2 6) y
  refine congrArg _ (funext fun a => Fin.ext ?_)
  match a with
  | ⟨0, _⟩ => show win2_6.index t (0 : Fin 2) * 1 + 1 * (y 0).val = (y 0).val; omega
  | ⟨1, _⟩ => show win2_6.index t (1 : Fin 2) * 128 + 1 * (y 1).val = (y 1).val; omega

/-- Input window 7's block at the point is its array. -/
theorem iblk2_7_eq (c : Dev nD) (t : Fin cfg2.N) : (iblk2 V c 7 t : Vec F S1x128 .f32) = V c (Pipeline.arrRef spec2 7) := by
  obtain ⟨e0_0, e0_1, e1_0, e1_1, e2_0, e2_1, e3_0, e3_1, e4_0, e4_1, e5_0, e5_1, e6_0, e6_1, e7_0, e7_1, e8_0, e8_1, e9_0, e9_1⟩ := idx_facts2 t
  funext y
  show V c (Pipeline.arrRef spec2 7) (((cfg2.win 7).blk t).view.emb y) = V c (Pipeline.arrRef spec2 7) y
  refine congrArg _ (funext fun a => Fin.ext ?_)
  match a with
  | ⟨0, _⟩ => show win2_7.index t (0 : Fin 2) * 1 + 1 * (y 0).val = (y 0).val; omega
  | ⟨1, _⟩ => show win2_7.index t (1 : Fin 2) * 128 + 1 * (y 1).val = (y 1).val; omega

/-- Input window 8's block at the point is its array. -/
theorem iblk2_8_eq (c : Dev nD) (t : Fin cfg2.N) : (iblk2 V c 8 t : Vec F S1x128 .f32) = V c (Pipeline.arrRef spec2 8) := by
  obtain ⟨e0_0, e0_1, e1_0, e1_1, e2_0, e2_1, e3_0, e3_1, e4_0, e4_1, e5_0, e5_1, e6_0, e6_1, e7_0, e7_1, e8_0, e8_1, e9_0, e9_1⟩ := idx_facts2 t
  funext y
  show V c (Pipeline.arrRef spec2 8) (((cfg2.win 8).blk t).view.emb y) = V c (Pipeline.arrRef spec2 8) y
  refine congrArg _ (funext fun a => Fin.ext ?_)
  match a with
  | ⟨0, _⟩ => show win2_8.index t (0 : Fin 2) * 1 + 1 * (y 0).val = (y 0).val; omega
  | ⟨1, _⟩ => show win2_8.index t (1 : Fin 2) * 128 + 1 * (y 1).val = (y 1).val; omega

end AnyF

/-- An index of the output window's block is that index of its array. -/
theorem emb2_9 (t : Fin cfg2.N) (j : S256x128.Idx) : ((cfg2.win 9).blk t).view.emb j = j := by
  obtain ⟨e0_0, e0_1, e1_0, e1_1, e2_0, e2_1, e3_0, e3_1, e4_0, e4_1, e5_0, e5_1, e6_0, e6_1, e7_0, e7_1, e8_0, e8_1, e9_0, e9_1⟩ := idx_facts2 t
  funext a; apply Fin.ext
  match a with
  | ⟨0, _⟩ => show win2_9.index t (0 : Fin 2) * 256 + 1 * (j 0).val = (j 0).val; omega
  | ⟨1, _⟩ => show win2_9.index t (1 : Fin 2) * 128 + 1 * (j 1).val = (j 1).val; omega

/-! ## What the point writes back, and the array after the region -/

variable (V : (c : Dev nD) → (b : Ref sig .tc) → Buf (Elt Ideal) ((c : Thread nD τ).loc b))

set_option maxHeartbeats 1000000 in
/-- What the point writes back to the output window's array is its block of `Cert.Spec.vnG` of the input arrays as the region finds them. -/
theorem flushed2_9_eq (c : Dev nD) (t : Fin cfg2.N) :
    (dat2 (F := Ideal) V c).flushed 9 t
      = ((cfg2.win 9).blk t).view.read (Elt Ideal) (Cert.Spec.vnG (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (V c (Pipeline.arrRef spec2 7)) (V c (Pipeline.arrRef spec2 8))) := by
  show (cfg2.win 9).cut (grid2.coords t) ((dat2 V c).after 9 t) = _
  rw [after2_9]
  unfold out2_9
  rw [View.canon_unit_zero hz2]
  simp only [View.ld_unit_zero (S := S256x128) hz2, View.ld_unit_zero (S := S128x256) hz2, View.ld_unit_zero (S := S1x256) hz2, View.ld_unit_zero (S := S1x128) hz2]
  rw [iblk2_0_eq, iblk2_1_eq, iblk2_2_eq, iblk2_3_eq, iblk2_4_eq, iblk2_5_eq, iblk2_6_eq, iblk2_7_eq, iblk2_8_eq, pay2_eq]
  funext j
  show Cert.Spec.vnG (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (V c (Pipeline.arrRef spec2 7)) (V c (Pipeline.arrRef spec2 8)) j
    = Cert.Spec.vnG (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (V c (Pipeline.arrRef spec2 7)) (V c (Pipeline.arrRef spec2 8)) (((cfg2.win 9).blk t).view.emb j)
  rw [emb2_9]

/-- An index of the array is in the point's block iff each coordinate is in the block's range on its axis. -/
theorem mem_blk2_9 (t : Fin cfg2.N) (i : S256x128.Idx) :
    i ∈ ((cfg2.win 9).blk t).view.set ↔ ∀ a : Fin 2, win2_9.index t a * S256x128.size a ≤ (i a).val ∧ (i a).val < win2_9.index t a * S256x128.size a + S256x128.size a := by
  show i ∈ ((View.whole (Pipeline.arrRef spec2 9)).slice (win2_9.rect t)).set ↔ _
  rw [View.set_slice_whole, Rect.mem_set_unit]
  exact Iff.rfl

/-- The one point's block covers the output array. -/
theorem covered2_9 (i : S256x128.Idx) : ∃ t : Fin cfg2.N, (cfg2.win 9).flush t = true ∧ i ∈ ((cfg2.win 9).blk t).view.set := by
  refine ⟨⟨0, by decide⟩, flush2_9 _, ?_⟩
  rw [mem_blk2_9]
  obtain ⟨e0_0, e0_1, e1_0, e1_1, e2_0, e2_1, e3_0, e3_1, e4_0, e4_1, e5_0, e5_1, e6_0, e6_1, e7_0, e7_1, e8_0, e8_1, e9_0, e9_1⟩ := idx_facts2 ⟨0, by decide⟩
  have h0 : (i 0).val < 256 := idx2_lt0 i
  have h1 : (i 1).val < 128 := idx2_lt1 i
  intro a
  match a with
  | ⟨0, _⟩ => show win2_9.index ⟨0, by decide⟩ (0 : Fin 2) * 256 ≤ (i 0).val ∧ (i 0).val < win2_9.index ⟨0, by decide⟩ (0 : Fin 2) * 256 + 256; omega
  | ⟨1, _⟩ => show win2_9.index ⟨0, by decide⟩ (1 : Fin 2) * 128 ≤ (i 1).val ∧ (i 1).val < win2_9.index ⟨0, by decide⟩ (1 : Fin 2) * 128 + 128; omega

/-- THE ARRAY after the region: `Cert.Spec.vnG` of the input arrays as the region finds them. -/
theorem final2 (c : Dev nD) :
    (dat2 (F := Ideal) V c).arrAt 9 cfg2.N = Cert.Spec.vnG (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (V c (Pipeline.arrRef spec2 7)) (V c (Pipeline.arrRef spec2 8)) :=
  (dat2 (F := Ideal) V c).arrAt_eq_of_cover 9 _ (fun t _ => flushed2_9_eq V c t) covered2_9

end Cert.KernelIdeal.HandValue

end
-- ==== Proof.GinPay3.lean ====
import proofs.«403491_j395136991532_1_alg».proof.Proof.Gen.KernelIdeal.Skeleton
import proofs.«403491_j395136991532_1_alg».proof.Proof.SpecNet
import Idealize.ShloMosaic.Lib.Pipeline.Value
import Idealize.ShloMosaic.Lib.ValueLayout
import Idealize.ShloMosaic.PureOps.Ideal.Laws

/-! # Region 3's payloads read at one index, at the extended reals

The body stores one value per node row `p` and feature `q`. Reading the two payloads at `(p, q)`: every pointwise
operation is the extended reals' operation on the elements, a row broadcast reads its one row, a change of format is
the identity, and each matrix product is the sum over its contracted axis. What comes out is the specification's
folded perceptron of the row's input `(1 + eps) * h_in + agg`. -/

noncomputable section

namespace Cert.KernelIdeal.HandValue

open Cert.KernelIdeal Cert.KernelIdeal.Gen Cert.Spec
open Idealize.ShloMosaic Idealize.ShloMosaic.ValueIdx

/-! ## The two matrix products at an index -/

theorem k3_mm1_lhs_0 (i : S5000x256.Idx) (q : dot_S5000x128_S128x256_S5000x256_1_0_0_1_n_n.contr.Idx) :
    (dot_S5000x128_S128x256_S5000x256_1_0_0_1_n_n.lhsIdx i q 0).val = (i 0).val := by
  unfold DotDims.lhsIdx
  rw [dif_neg (show ¬(0 : Fin S5000x128.rank) ∈ dot_S5000x128_S128x256_S5000x256_1_0_0_1_n_n.lhsBatch by decide), dif_pos (show (0 : Fin S5000x128.rank) ∈ dot_S5000x128_S128x256_S5000x256_1_0_0_1_n_n.lhsNonContracting by decide)]
  rfl
theorem k3_mm1_lhs_1 (i : S5000x256.Idx) (q : dot_S5000x128_S128x256_S5000x256_1_0_0_1_n_n.contr.Idx) :
    (dot_S5000x128_S128x256_S5000x256_1_0_0_1_n_n.lhsIdx i q 1).val = (q ⟨0, by decide⟩).val :=
  dot_S5000x128_S128x256_S5000x256_1_0_0_1_n_n.lhsIdx_val_of_single rfl i q
theorem k3_mm1_rhs_0 (i : S5000x256.Idx) (q : dot_S5000x128_S128x256_S5000x256_1_0_0_1_n_n.contr.Idx) :
    (dot_S5000x128_S128x256_S5000x256_1_0_0_1_n_n.rhsIdx i q 0).val = (q ⟨0, by decide⟩).val :=
  dot_S5000x128_S128x256_S5000x256_1_0_0_1_n_n.rhsIdx_val_of_single rfl i q
theorem k3_mm1_rhs_1 (i : S5000x256.Idx) (q : dot_S5000x128_S128x256_S5000x256_1_0_0_1_n_n.contr.Idx) :
    (dot_S5000x128_S128x256_S5000x256_1_0_0_1_n_n.rhsIdx i q 1).val = (i 1).val := by
  unfold DotDims.rhsIdx
  rw [dif_neg (show ¬(1 : Fin S128x256.rank) ∈ dot_S5000x128_S128x256_S5000x256_1_0_0_1_n_n.rhsBatch by decide), dif_pos (show (1 : Fin S128x256.rank) ∈ dot_S5000x128_S128x256_S5000x256_1_0_0_1_n_n.rhsNonContracting by decide)]
  rfl

/-- The product read at row `p`, column `j`: the sum over the 128 contracted positions. -/
theorem k3_mm1_apply (a : FVec Ideal S5000x128 .bf16) (b : FVec Ideal S128x256 .bf16) (p : Fin 5000) (j : Fin 256) :
    matmul dot_S5000x128_S128x256_S5000x256_1_0_0_1_n_n none a b (constant (F := Ideal) S5000x256 .f32 0x00000000#32) (ix2 p j)
      = ∑ k : Fin 128, a (ix2 p k) * b (ix2 k j) := by
  simp only [matmul]
  rw [Ideal.matmul_constant_zero_apply, ← Equiv.sum_comp (contrEquiv1 dot_S5000x128_S128x256_S5000x256_1_0_0_1_n_n 128 rfl rfl).symm]
  refine Finset.sum_congr rfl fun k _ => ?_
  have hk := contrEquiv1_symm_val dot_S5000x128_S128x256_S5000x256_1_0_0_1_n_n 128 rfl rfl k
  have el : dot_S5000x128_S128x256_S5000x256_1_0_0_1_n_n.lhsIdx (ix2 p j) ((contrEquiv1 dot_S5000x128_S128x256_S5000x256_1_0_0_1_n_n 128 rfl rfl).symm k) = ix2 p k := funext fun ax => Fin.ext (by
    match ax with
    | ⟨0, _⟩ => exact k3_mm1_lhs_0 _ _
    | ⟨1, _⟩ => exact (k3_mm1_lhs_1 _ _).trans hk)
  have er : dot_S5000x128_S128x256_S5000x256_1_0_0_1_n_n.rhsIdx (ix2 p j) ((contrEquiv1 dot_S5000x128_S128x256_S5000x256_1_0_0_1_n_n 128 rfl rfl).symm k) = ix2 k j := funext fun ax => Fin.ext (by
    match ax with
    | ⟨0, _⟩ => exact (k3_mm1_rhs_0 _ _).trans hk
    | ⟨1, _⟩ => exact k3_mm1_rhs_1 _ _)
  rw [el, er]

theorem k3_mm2_lhs_0 (i : S5000x128.Idx) (q : dot_S5000x256_S256x128_S5000x128_1_0_0_1_n_n.contr.Idx) :
    (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
theorem k3_mm2_lhs_1 (i : S5000x128.Idx) (q : dot_S5000x256_S256x128_S5000x128_1_0_0_1_n_n.contr.Idx) :
    (dot_S5000x256_S256x128_S5000x128_1_0_0_1_n_n.lhsIdx i q 1).val = (q ⟨0, by decide⟩).val :=
  dot_S5000x256_S256x128_S5000x128_1_0_0_1_n_n.lhsIdx_val_of_single rfl i q
theorem k3_mm2_rhs_0 (i : S5000x128.Idx) (q : dot_S5000x256_S256x128_S5000x128_1_0_0_1_n_n.contr.Idx) :
    (dot_S5000x256_S256x128_S5000x128_1_0_0_1_n_n.rhsIdx i q 0).val = (q ⟨0, by decide⟩).val :=
  dot_S5000x256_S256x128_S5000x128_1_0_0_1_n_n.rhsIdx_val_of_single rfl i q
theorem k3_mm2_rhs_1 (i : S5000x128.Idx) (q : dot_S5000x256_S256x128_S5000x128_1_0_0_1_n_n.contr.Idx) :
    (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- The product read at row `p`, column `j`: the sum over the 256 contracted positions. -/
theorem k3_mm2_apply (a : FVec Ideal S5000x256 .bf16) (b : FVec Ideal S256x128 .bf16) (p : Fin 5000) (j : Fin 128) :
    matmul dot_S5000x256_S256x128_S5000x128_1_0_0_1_n_n none a b (constant (F := Ideal) S5000x128 .f32 0x00000000#32) (ix2 p j)
      = ∑ k : Fin 256, a (ix2 p k) * b (ix2 k j) := by
  simp only [matmul]
  rw [Ideal.matmul_constant_zero_apply, ← Equiv.sum_comp (contrEquiv1 dot_S5000x256_S256x128_S5000x128_1_0_0_1_n_n 256 rfl rfl).symm]
  refine Finset.sum_congr rfl fun k _ => ?_
  have hk := contrEquiv1_symm_val dot_S5000x256_S256x128_S5000x128_1_0_0_1_n_n 256 rfl rfl k
  have el : dot_S5000x256_S256x128_S5000x128_1_0_0_1_n_n.lhsIdx (ix2 p j) ((contrEquiv1 dot_S5000x256_S256x128_S5000x128_1_0_0_1_n_n 256 rfl rfl).symm k) = ix2 p k := funext fun ax => Fin.ext (by
    match ax with
    | ⟨0, _⟩ => exact k3_mm2_lhs_0 _ _
    | ⟨1, _⟩ => exact (k3_mm2_lhs_1 _ _).trans hk)
  have er : dot_S5000x256_S256x128_S5000x128_1_0_0_1_n_n.rhsIdx (ix2 p j) ((contrEquiv1 dot_S5000x256_S256x128_S5000x128_1_0_0_1_n_n 256 rfl rfl).symm k) = ix2 k j := funext fun ax => Fin.ext (by
    match ax with
    | ⟨0, _⟩ => exact (k3_mm2_rhs_0 _ _).trans hk
    | ⟨1, _⟩ => exact k3_mm2_rhs_1 _ _)
  rw [el, er]

/-! ## The one-element broadcast -/

/-- A `[1, 1]` array broadcast over the block reads its one element everywhere. -/
theorem k3_bcast11_apply {α : Type} (v : S1x1.Idx → α) (h : S1x1.Broadcasts S5000x128) (p : Fin 5000) (k : Fin 128) :
    broadcastTo S5000x128 v h (ix2 p k) = v (ix2 (0 : Fin 1) (0 : Fin 1)) := by
  refine broadcastTo_apply v h (ix2 p k) (ix2 (0 : Fin 1) (0 : Fin 1)) fun ax => ?_
  match ax with
  | ⟨0, _⟩ => rfl
  | ⟨1, _⟩ => rfl

/-! ## The payloads at an index -/

/-- Whether this layer ends with a clamp at zero. -/
abbrev k3_relu : Bool := true

/-- The first payload at `(p, q)`: the second product's sum over the 256 hidden entries of row `p`, plus the bias. -/
theorem k3_pay2_apply (e : Vec Ideal S1x1 .f32) (hin agg : Vec Ideal S5000x128 .f32) (w1 : Vec Ideal S128x256 .bf16)
    (b1 s1 sh1 : Vec Ideal S1x256 .f32) (w2 : Vec Ideal S256x128 .bf16) (b2 : Vec Ideal S1x128 .f32) (p : Fin 5000) (q : Fin 128) :
    k3_pay2 (F := Ideal) e hin agg w1 b1 s1 sh1 w2 b2 (ix2 p q)
      = (∑ j : Fin 256, hiddenK (fun k => (oneF + e (ix2 0 0)) * hin (ix2 p k) + agg (ix2 p k)) w1 b1 s1 sh1 j * w2 (ix2 j q))
          + b2 (ix2 0 q) := by
  unfold k3_pay2
  simp only [shapeCast_self, addf_apply, k3_mm2_apply, broadcastTo_1b_ab_apply, truncf_apply, maximumf_apply, broadcast_apply,
    mulf_apply, k3_mm1_apply, k3_bcast11_apply]
  rfl

/-- The last payload at `(p, q)`: scale and shift of the entry, then the clamp at zero if the layer has one. -/
theorem k3_pay1_apply (v : FVec Ideal S5000x128 .f32) (s2 sh2 : Vec Ideal S1x128 .f32) (p : Fin 5000) (q : Fin 128) :
    k3_pay1 (F := Ideal) v s2 sh2 (ix2 p q)
      = (if k3_relu then max (v (ix2 p q) * s2 (ix2 0 q) + sh2 (ix2 0 q)) zeroF else v (ix2 p q) * s2 (ix2 0 q) + sh2 (ix2 0 q)) := by
  unfold k3_pay1
  simp only [shapeCast_self, addf_apply, broadcastTo_1b_ab_apply, maximumf_apply, broadcast_apply, mulf_apply]
  rfl

/-- What the body stores at `(p, q)`, from the eleven input blocks: the folded perceptron of row `p`'s input
    `(1 + eps) * h_in + agg`, read at feature `q`. -/
theorem k3_out_apply (x0 x1 : Vec Ideal S5000x128 .f32) (x2 : Vec Ideal S1x1 .f32) (x3 : Vec Ideal S128x256 .bf16)
    (x4 x5 x6 : Vec Ideal S1x256 .f32) (x7 : Vec Ideal S256x128 .bf16) (x8 x9 x10 : Vec Ideal S1x128 .f32) (p : Fin 5000) (q : Fin 128) :
    k3_pay1 (F := Ideal) (k3_pay2 (F := Ideal) x2 x0 x1 x3 x4 x5 x6 x7 x8) x9 x10 (ix2 p q)
      = (let o := outK (hiddenK (fun k => (oneF + x2 (ix2 0 0)) * x0 (ix2 p k) + x1 (ix2 p k)) x3 x4 x5 x6) x7 x8 x9 x10 q
         if k3_relu then max o zeroF else o) := by
  rw [k3_pay1_apply, k3_pay2_apply]
  rfl

end Cert.KernelIdeal.HandValue
-- ==== Proof.GinValue3.lean ====
import proofs.«403491_j395136991532_1_alg».proof.Proof.GinRegion3
import proofs.«403491_j395136991532_1_alg».proof.Proof.GinPay3
import Idealize.ShloMosaic.Lib.Pipeline.Value

/-! # Region 3 read at the extended reals: the value half

Point `t` of the ten writes back block `t` of the output array: rows `5000 t` to `5000 t + 4999`. Its two tiled inputs
are the same rows of their arrays, its nine resident inputs their whole arrays, so what it writes at row `p` of the
block is the specification's folded perceptron of array row `5000 t + p`. The ten blocks tile the 50000 rows, so after
the region the output array is the specification's whole-array function of the eleven argument arrays. -/

set_option maxRecDepth 16384

noncomputable section

namespace Cert.KernelIdeal.HandValue

open Cert.KernelIdeal Cert.KernelIdeal.Gen Cert.KernelIdeal.Hand Cert.Spec
open Idealize.ShloMosaic Idealize.ShloMosaic.TcCoe Idealize.SL.Sem Idealize.ShloMosaic.ValueIdx
open Idealize.ShloMosaic.Pipeline (Dat)

-- the TensorCore's buffer contents when the region is entered, at the extended reals
variable (V : (c : Dev nD) → (b : Ref sig .tc) → Buf (Elt Ideal) ((c : Thread nD τ).loc b))

theorem k3_hz : (![0, 0] : Fin 2 → Nat) = fun _ => 0 := funext fun a => by fin_cases a <;> rfl

/-! ## The printed index maps, decided over the ten points -/

/-- The output and the two tiled inputs sit at block row `t`, block column 0. -/
theorem k3_idx_11 : ∀ t : Fin cfg3.N, win3_11.index t (0 : Fin 2) = t.val ∧ win3_11.index t (1 : Fin 2) = 0 :=
  (by decide +kernel : ∀ t : Fin grid3.N, _)
theorem k3_idx_0 : ∀ t : Fin cfg3.N, win3_0.index t (0 : Fin 2) = t.val ∧ win3_0.index t (1 : Fin 2) = 0 :=
  (by decide +kernel : ∀ t : Fin grid3.N, _)
theorem k3_idx_1 : ∀ t : Fin cfg3.N, win3_1.index t (0 : Fin 2) = t.val ∧ win3_1.index t (1 : Fin 2) = 0 :=
  (by decide +kernel : ∀ t : Fin grid3.N, _)
/-- The nine resident inputs stay at block (0, 0). -/
theorem k3_idx_2 : ∀ t : Fin cfg3.N, win3_2.index t (0 : Fin 2) = 0 ∧ win3_2.index t (1 : Fin 2) = 0 :=
  (by decide +kernel : ∀ t : Fin grid3.N, _)
theorem k3_idx_3 : ∀ t : Fin cfg3.N, win3_3.index t (0 : Fin 2) = 0 ∧ win3_3.index t (1 : Fin 2) = 0 :=
  (by decide +kernel : ∀ t : Fin grid3.N, _)
theorem k3_idx_4 : ∀ t : Fin cfg3.N, win3_4.index t (0 : Fin 2) = 0 ∧ win3_4.index t (1 : Fin 2) = 0 :=
  (by decide +kernel : ∀ t : Fin grid3.N, _)
theorem k3_idx_5 : ∀ t : Fin cfg3.N, win3_5.index t (0 : Fin 2) = 0 ∧ win3_5.index t (1 : Fin 2) = 0 :=
  (by decide +kernel : ∀ t : Fin grid3.N, _)
theorem k3_idx_6 : ∀ t : Fin cfg3.N, win3_6.index t (0 : Fin 2) = 0 ∧ win3_6.index t (1 : Fin 2) = 0 :=
  (by decide +kernel : ∀ t : Fin grid3.N, _)
theorem k3_idx_7 : ∀ t : Fin cfg3.N, win3_7.index t (0 : Fin 2) = 0 ∧ win3_7.index t (1 : Fin 2) = 0 :=
  (by decide +kernel : ∀ t : Fin grid3.N, _)
theorem k3_idx_8 : ∀ t : Fin cfg3.N, win3_8.index t (0 : Fin 2) = 0 ∧ win3_8.index t (1 : Fin 2) = 0 :=
  (by decide +kernel : ∀ t : Fin grid3.N, _)
theorem k3_idx_9 : ∀ t : Fin cfg3.N, win3_9.index t (0 : Fin 2) = 0 ∧ win3_9.index t (1 : Fin 2) = 0 :=
  (by decide +kernel : ∀ t : Fin grid3.N, _)
theorem k3_idx_10 : ∀ t : Fin cfg3.N, win3_10.index t (0 : Fin 2) = 0 ∧ win3_10.index t (1 : Fin 2) = 0 :=
  (by decide +kernel : ∀ t : Fin grid3.N, _)

/-! ## The input blocks at a point, read off the arrays -/

/-- The array row that row `p` of block `t` is. -/
def k3_rowOf (t : Fin cfg3.N) (p : Fin 5000) : Fin 50000 :=
  ⟨t.val * 5000 + p.val, by have ht : t.val < grid3.N := t.isLt; rw [N_3] at ht; have hp := p.isLt; omega⟩

/-- Element `(p, k)` of a tiled window's block `t` sits at array row `5000 t + p`, column `k`. -/
theorem k3_emb_11 (t : Fin cfg3.N) (p : Fin 5000) (k : Fin 128) :
    ((cfg3.win 11).blk t).view.emb (ix2 p k) = ix2 (k3_rowOf t p) k := by
  obtain ⟨e0, e1⟩ := k3_idx_11 t
  funext a; apply Fin.ext
  match a with
  | ⟨0, _⟩ => show win3_11.index t (0 : Fin 2) * 5000 + 1 * p.val = t.val * 5000 + p.val; omega
  | ⟨1, _⟩ => show win3_11.index t (1 : Fin 2) * 128 + 1 * k.val = k.val; omega
theorem k3_emb_0 (t : Fin cfg3.N) (p : Fin 5000) (k : Fin 128) :
    ((cfg3.win 0).blk t).view.emb (ix2 p k) = ix2 (k3_rowOf t p) k := by
  obtain ⟨e0, e1⟩ := k3_idx_0 t
  funext a; apply Fin.ext
  match a with
  | ⟨0, _⟩ => show win3_0.index t (0 : Fin 2) * 5000 + 1 * p.val = t.val * 5000 + p.val; omega
  | ⟨1, _⟩ => show win3_0.index t (1 : Fin 2) * 128 + 1 * k.val = k.val; omega
theorem k3_emb_1 (t : Fin cfg3.N) (p : Fin 5000) (k : Fin 128) :
    ((cfg3.win 1).blk t).view.emb (ix2 p k) = ix2 (k3_rowOf t p) k := by
  obtain ⟨e0, e1⟩ := k3_idx_1 t
  funext a; apply Fin.ext
  match a with
  | ⟨0, _⟩ => show win3_1.index t (0 : Fin 2) * 5000 + 1 * p.val = t.val * 5000 + p.val; omega
  | ⟨1, _⟩ => show win3_1.index t (1 : Fin 2) * 128 + 1 * k.val = k.val; omega

/-- So a tiled input's block `t` at `(p, k)` is its array at row `5000 t + p`, column `k`. -/
theorem k3_row_0 (c : Dev nD) (t : Fin cfg3.N) (p : Fin 5000) (k : Fin 128) :
    iblk3 V c 0 t (ix2 p k) = V c (Pipeline.arrRef spec3 0) (ix2 (k3_rowOf t p) k) := by
  show V c (Pipeline.arrRef spec3 0) (((cfg3.win 0).blk t).view.emb (ix2 p k)) = _
  rw [k3_emb_0]
theorem k3_row_1 (c : Dev nD) (t : Fin cfg3.N) (p : Fin 5000) (k : Fin 128) :
    iblk3 V c 1 t (ix2 p k) = V c (Pipeline.arrRef spec3 1) (ix2 (k3_rowOf t p) k) := by
  show V c (Pipeline.arrRef spec3 1) (((cfg3.win 1).blk t).view.emb (ix2 p k)) = _
  rw [k3_emb_1]

/-- A resident input's block at every point is its whole array. -/
theorem k3_blk_2 (c : Dev nD) (t : Fin cfg3.N) : iblk3 V c 2 t = V c (Pipeline.arrRef spec3 2) := by
  obtain ⟨e0, e1⟩ := k3_idx_2 t
  funext y
  show V c (Pipeline.arrRef spec3 2) (((cfg3.win 2).blk t).view.emb y) = V c (Pipeline.arrRef spec3 2) y
  refine congrArg _ (funext fun a => Fin.ext ?_)
  match a with
  | ⟨0, _⟩ => show win3_2.index t (0 : Fin 2) * 1 + 1 * (y 0).val = (y 0).val; omega
  | ⟨1, _⟩ => show win3_2.index t (1 : Fin 2) * 1 + 1 * (y 1).val = (y 1).val; omega
theorem k3_blk_3 (c : Dev nD) (t : Fin cfg3.N) : iblk3 V c 3 t = V c (Pipeline.arrRef spec3 3) := by
  obtain ⟨e0, e1⟩ := k3_idx_3 t
  funext y
  show V c (Pipeline.arrRef spec3 3) (((cfg3.win 3).blk t).view.emb y) = V c (Pipeline.arrRef spec3 3) y
  refine congrArg _ (funext fun a => Fin.ext ?_)
  match a with
  | ⟨0, _⟩ => show win3_3.index t (0 : Fin 2) * 128 + 1 * (y 0).val = (y 0).val; omega
  | ⟨1, _⟩ => show win3_3.index t (1 : Fin 2) * 256 + 1 * (y 1).val = (y 1).val; omega
theorem k3_blk_4 (c : Dev nD) (t : Fin cfg3.N) : iblk3 V c 4 t = V c (Pipeline.arrRef spec3 4) := by
  obtain ⟨e0, e1⟩ := k3_idx_4 t
  funext y
  show V c (Pipeline.arrRef spec3 4) (((cfg3.win 4).blk t).view.emb y) = V c (Pipeline.arrRef spec3 4) y
  refine congrArg _ (funext fun a => Fin.ext ?_)
  match a with
  | ⟨0, _⟩ => show win3_4.index t (0 : Fin 2) * 1 + 1 * (y 0).val = (y 0).val; omega
  | ⟨1, _⟩ => show win3_4.index t (1 : Fin 2) * 256 + 1 * (y 1).val = (y 1).val; omega
theorem k3_blk_5 (c : Dev nD) (t : Fin cfg3.N) : iblk3 V c 5 t = V c (Pipeline.arrRef spec3 5) := by
  obtain ⟨e0, e1⟩ := k3_idx_5 t
  funext y
  show V c (Pipeline.arrRef spec3 5) (((cfg3.win 5).blk t).view.emb y) = V c (Pipeline.arrRef spec3 5) y
  refine congrArg _ (funext fun a => Fin.ext ?_)
  match a with
  | ⟨0, _⟩ => show win3_5.index t (0 : Fin 2) * 1 + 1 * (y 0).val = (y 0).val; omega
  | ⟨1, _⟩ => show win3_5.index t (1 : Fin 2) * 256 + 1 * (y 1).val = (y 1).val; omega
theorem k3_blk_6 (c : Dev nD) (t : Fin cfg3.N) : iblk3 V c 6 t = V c (Pipeline.arrRef spec3 6) := by
  obtain ⟨e0, e1⟩ := k3_idx_6 t
  funext y
  show V c (Pipeline.arrRef spec3 6) (((cfg3.win 6).blk t).view.emb y) = V c (Pipeline.arrRef spec3 6) y
  refine congrArg _ (funext fun a => Fin.ext ?_)
  match a with
  | ⟨0, _⟩ => show win3_6.index t (0 : Fin 2) * 1 + 1 * (y 0).val = (y 0).val; omega
  | ⟨1, _⟩ => show win3_6.index t (1 : Fin 2) * 256 + 1 * (y 1).val = (y 1).val; omega
theorem k3_blk_7 (c : Dev nD) (t : Fin cfg3.N) : iblk3 V c 7 t = V c (Pipeline.arrRef spec3 7) := by
  obtain ⟨e0, e1⟩ := k3_idx_7 t
  funext y
  show V c (Pipeline.arrRef spec3 7) (((cfg3.win 7).blk t).view.emb y) = V c (Pipeline.arrRef spec3 7) y
  refine congrArg _ (funext fun a => Fin.ext ?_)
  match a with
  | ⟨0, _⟩ => show win3_7.index t (0 : Fin 2) * 256 + 1 * (y 0).val = (y 0).val; omega
  | ⟨1, _⟩ => show win3_7.index t (1 : Fin 2) * 128 + 1 * (y 1).val = (y 1).val; omega
theorem k3_blk_8 (c : Dev nD) (t : Fin cfg3.N) : iblk3 V c 8 t = V c (Pipeline.arrRef spec3 8) := by
  obtain ⟨e0, e1⟩ := k3_idx_8 t
  funext y
  show V c (Pipeline.arrRef spec3 8) (((cfg3.win 8).blk t).view.emb y) = V c (Pipeline.arrRef spec3 8) y
  refine congrArg _ (funext fun a => Fin.ext ?_)
  match a with
  | ⟨0, _⟩ => show win3_8.index t (0 : Fin 2) * 1 + 1 * (y 0).val = (y 0).val; omega
  | ⟨1, _⟩ => show win3_8.index t (1 : Fin 2) * 128 + 1 * (y 1).val = (y 1).val; omega
theorem k3_blk_9 (c : Dev nD) (t : Fin cfg3.N) : iblk3 V c 9 t = V c (Pipeline.arrRef spec3 9) := by
  obtain ⟨e0, e1⟩ := k3_idx_9 t
  funext y
  show V c (Pipeline.arrRef spec3 9) (((cfg3.win 9).blk t).view.emb y) = V c (Pipeline.arrRef spec3 9) y
  refine congrArg _ (funext fun a => Fin.ext ?_)
  match a with
  | ⟨0, _⟩ => show win3_9.index t (0 : Fin 2) * 1 + 1 * (y 0).val = (y 0).val; omega
  | ⟨1, _⟩ => show win3_9.index t (1 : Fin 2) * 128 + 1 * (y 1).val = (y 1).val; omega
theorem k3_blk_10 (c : Dev nD) (t : Fin cfg3.N) : iblk3 V c 10 t = V c (Pipeline.arrRef spec3 10) := by
  obtain ⟨e0, e1⟩ := k3_idx_10 t
  funext y
  show V c (Pipeline.arrRef spec3 10) (((cfg3.win 10).blk t).view.emb y) = V c (Pipeline.arrRef spec3 10) y
  refine congrArg _ (funext fun a => Fin.ext ?_)
  match a with
  | ⟨0, _⟩ => show win3_10.index t (0 : Fin 2) * 1 + 1 * (y 0).val = (y 0).val; omega
  | ⟨1, _⟩ => show win3_10.index t (1 : Fin 2) * 128 + 1 * (y 1).val = (y 1).val; omega

/-! ## What a point writes back -/

/-- Reading the output window's block `t` of any array at `(p, q)` reads the array at row `5000 t + p`, column `q`. -/
theorem k3_read_11 (t : Fin cfg3.N) (G : RArr sNxD) (p : Fin 5000) (q : Fin 128) :
    ((cfg3.win 11).blk t).view.read (Elt Ideal) G (ix2 p q) = G (ix2 (k3_rowOf t p) q) := by
  show G (((cfg3.win 11).blk t).view.emb (ix2 p q)) = _
  rw [k3_emb_11]

/-- The output window is never cut: what a point writes back is the whole staging buffer. -/
theorem k3_cut_11 (t : Fin cfg3.N) (X : FVec Ideal S5000x128 .f32) (p : Fin 5000) (q : Fin 128) :
    (cfg3.win 11).cut (grid3.coords t) X (ix2 p q) = X (ix2 p q) := rfl

/-- What the body leaves in the output buffer at point `t`: the last payload over the first, of the eleven input blocks. -/
theorem k3_after_eq (c : Dev nD) (t : Fin cfg3.N) :
    (dat3 (F := Ideal) V c).after 11 t
      = k3_pay1 (F := Ideal) (k3_pay2 (F := Ideal) (iblk3 V c 2 t) (iblk3 V c 0 t) (iblk3 V c 1 t) (iblk3 V c 3 t) (iblk3 V c 4 t) (iblk3 V c 5 t)
          (iblk3 V c 6 t) (iblk3 V c 7 t) (iblk3 V c 8 t)) (iblk3 V c 9 t) (iblk3 V c 10 t) := by
  rw [after3_11]
  unfold out3_11
  rw [View.canon_unit_zero k3_hz]
  simp only [View.ld_unit_zero (S := S5000x128) k3_hz, View.ld_unit_zero (S := S1x1) k3_hz, View.ld_unit_zero (S := S128x256) k3_hz,
    View.ld_unit_zero (S := S1x256) k3_hz, View.ld_unit_zero (S := S256x128) k3_hz, View.ld_unit_zero (S := S1x128) k3_hz]

/-- The stored value as the specification's: if the two tiled blocks' row `p` is the arrays' row `P` and the nine
    resident blocks are their arrays, what the body stores at `(p, q)` is the specification's layer at `(P, q)`. -/
theorem k3_out_eq_spec (A0 A1 : RArr sNxD) (A2 : RArr s1x1) (A3 : RArr sDxD2) (A4 A5 A6 : RArr s1xD2) (A7 : RArr sD2xD) (A8 A9 A10 : RArr s1xD)
    (x0 x1 : Vec Ideal S5000x128 .f32) (x2 : Vec Ideal S1x1 .f32) (x3 : Vec Ideal S128x256 .bf16)
    (x4 x5 x6 : Vec Ideal S1x256 .f32) (x7 : Vec Ideal S256x128 .bf16) (x8 x9 x10 : Vec Ideal S1x128 .f32)
    (P : Fin 50000) (p : Fin 5000) (q : Fin 128)
    (h0 : ∀ k : Fin 128, x0 (ix2 p k) = A0 (ix2 P k)) (h1 : ∀ k : Fin 128, x1 (ix2 p k) = A1 (ix2 P k))
    (h2 : x2 = A2) (h3 : x3 = A3) (h4 : x4 = A4) (h5 : x5 = A5) (h6 : x6 = A6) (h7 : x7 = A7) (h8 : x8 = A8) (h9 : x9 = A9) (h10 : x10 = A10) :
    k3_pay1 (F := Ideal) (k3_pay2 (F := Ideal) x2 x0 x1 x3 x4 x5 x6 x7 x8) x9 x10 (ix2 p q)
      = ginG k3_relu A0 A1 A2 A3 A4 A5 A6 A7 A8 A9 A10 (ix2 P q) := by
  subst h2 h3 h4 h5 h6 h7 h8 h9 h10
  rw [k3_out_apply]
  have hz : (fun k : Fin 128 => (oneF + x2 (ix2 0 0)) * x0 (ix2 p k) + x1 (ix2 p k)) = ginZ A0 A1 x2 P := funext fun k => by
    rw [h0, h1]; rfl
  rw [hz]
  rfl

-- the eleven argument arrays are each checked against their literal shapes twice here, once in the statement and once in the proof
set_option maxHeartbeats 1000000 in
/-- Point `t` writes back block `t` of the specification's whole-array function of the eleven argument arrays. -/
theorem k3_flushed_eq (c : Dev nD) (t : Fin cfg3.N) :
    (dat3 (F := Ideal) V c).flushed 11 t
      = ((cfg3.win 11).blk t).view.read (Elt Ideal) (ginG k3_relu (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7)) (V c (Pipeline.arrRef spec3 8)) (V c (Pipeline.arrRef spec3 9)) (V c (Pipeline.arrRef spec3 10))) := by
  funext j
  obtain ⟨p, q, rfl⟩ : ∃ (p : Fin 5000) (q : Fin 128), j = ix2 p q := ⟨j 0, j 1, eq_ix2 j⟩
  rw [k3_read_11]
  show (cfg3.win 11).cut (grid3.coords t) ((dat3 V c).after 11 t) (ix2 p q) = _
  rw [k3_after_eq, k3_cut_11]
  exact k3_out_eq_spec (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7)) (V c (Pipeline.arrRef spec3 8)) (V c (Pipeline.arrRef spec3 9)) (V c (Pipeline.arrRef spec3 10))
    (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t)
    (k3_rowOf t p) p q (fun k => k3_row_0 V c t p k) (fun k => k3_row_1 V c t p k)
    (k3_blk_2 V c t) (k3_blk_3 V c t) (k3_blk_4 V c t) (k3_blk_5 V c t) (k3_blk_6 V c t) (k3_blk_7 V c t) (k3_blk_8 V c t) (k3_blk_9 V c t) (k3_blk_10 V c t)

/-! ## The ten blocks tile the array -/

/-- An index of the array is in point `t`'s block iff each coordinate is in the block's range on its axis. -/
theorem k3_mem_blk (t : Fin cfg3.N) (i : S50000x128.Idx) :
    i ∈ ((cfg3.win 11).blk t).view.set ↔ ∀ a : Fin 2, win3_11.index t a * S5000x128.size a ≤ (i a).val ∧ (i a).val < win3_11.index t a * S5000x128.size a + S5000x128.size a := by
  show i ∈ ((View.whole (Pipeline.arrRef spec3 11)).slice (win3_11.rect t)).set ↔ _
  rw [View.set_slice_whole, Rect.mem_set_unit]
  exact Iff.rfl

/-- Row `r` is in the block of point `r / 5000`. -/
theorem k3_cover (i : S50000x128.Idx) : ∃ t : Fin cfg3.N, (cfg3.win 11).flush t = true ∧ i ∈ ((cfg3.win 11).blk t).view.set := by
  have hi0 : (i 0).val < 50000 := (i 0).isLt
  have hi1 : (i 1).val < 128 := (i 1).isLt
  have hlt : (i 0).val / 5000 < cfg3.N := by show (i 0).val / 5000 < grid3.N; rw [N_3]; omega
  obtain ⟨e0, e1⟩ := k3_idx_11 ⟨(i 0).val / 5000, hlt⟩
  refine ⟨⟨(i 0).val / 5000, hlt⟩, flush3_11 _, ?_⟩
  rw [k3_mem_blk]
  intro a
  match a with
  | ⟨0, _⟩ =>
    show win3_11.index ⟨(i 0).val / 5000, hlt⟩ (0 : Fin 2) * 5000 ≤ (i 0).val ∧ (i 0).val < win3_11.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win3_11.index ⟨(i 0).val / 5000, hlt⟩ (1 : Fin 2) * 128 ≤ (i 1).val ∧ (i 1).val < win3_11.index ⟨(i 0).val / 5000, hlt⟩ (1 : Fin 2) * 128 + 128
    omega

/-! ## The region's value -/

/-- After its ten points the output array holds the specification's node-level perceptron layer of the eleven argument
    arrays as the region found them. -/
theorem final3 (c : Dev nD) :
    (dat3 (F := Ideal) V c).arrAt 11 cfg3.N = ginG true (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7)) (V c (Pipeline.arrRef spec3 8)) (V c (Pipeline.arrRef spec3 9)) (V c (Pipeline.arrRef spec3 10)) :=
  (dat3 (F := Ideal) V c).arrAt_eq_of_cover 11 _ (fun t _ => k3_flushed_eq V c t) k3_cover

end Cert.KernelIdeal.HandValue
-- ==== Proof.SegValue4.lean ====
/- Region 1 of @main, the batch-grouped segment sum, read at the extended reals: the value half. What the scratch
   accumulator holds after `n` points is, entry by entry, the segment sum restricted to the first `5000 n` rows (by
   induction on the point: each point adds, at entry (g, d), feature d of the rows of its block whose id is the word g);
   after the tenth point that is the whole segment sum, which the one write-back puts into the result array, whose one
   block is the whole array. -/
import proofs.«403491_j395136991532_1_alg».proof.Proof.SegRegion4
import proofs.«403491_j395136991532_1_alg».proof.Proof.SegLaws
import proofs.«403491_j395136991532_1_alg».proof.Proof.SpecNet
import Idealize.ShloMosaic.Lib.Pipeline.Value
import Idealize.ShloMosaic.PureOps.Ideal.Laws

set_option maxRecDepth 16384

noncomputable section

namespace Cert.KernelIdeal.HandValue

open Cert.KernelIdeal Cert.KernelIdeal.Gen Cert.KernelIdeal.Hand Cert.Spec
open Idealize.ShloMosaic Idealize.ShloMosaic.TcCoe Idealize.ShloMosaic.ValueIdx Idealize.SL.Sem
open Idealize.ShloMosaic.Pipeline (Dat)

-- the TensorCore's buffer contents when the region is entered, at the extended reals
variable (V : (c : Dev nD) → (b : Ref sig .tc) → Buf (Elt Ideal) ((c : Thread nD τ).loc b))

/-! ## The two payloads at an entry -/

/-- The block the first point stores is zero everywhere. -/
theorem pay1_apply4 (j : S256x128.Idx) : (k4_pay1 (F := Ideal)) j = 0 := by
  show (shapeCast S256x128 (broadcast S256x128 (Scalar.ofBits (F := Ideal) .f32 0x00000000#32)) shapeCasts_S256x128_S256x128) j = 0
  rw [shapeCast_self]
  exact Ideal.ofBits_zero_f32

/-- The block every point stores: what the scratch held plus the point's contribution. -/
theorem pay2_apply4 (xb : Vec Ideal S5000x128 .f32) (bb : Vec Ideal S5000x1 .i32) (a : Vec Ideal S256x128 .f32) (j : S256x128.Idx) :
    k4_pay2 xb bb a j = a j + ∑ k : Fin 5000, if bb (ix2 k 0) = BitVec.ofNat 32 (gOf j).val then xb (ix2 k (dOf j)) else 0 := by
  show (shapeCast S256x128 (addf a (matmul segDot none (segOnehot bb)
      (truncf .bf16 (shapeCast S5000x128 xb shapeCasts_S5000x128_S5000x128) bitsLt_bf16_f32)
      (constant S256x128 .f32 0x00000000#32))) shapeCasts_S256x128_S256x128) j = _
  rw [shapeCast_self]
  exact segStep xb bb a j

/-! ## The windows' blocks, read at a row -/

/-- The two input windows step along the row axis with the point; the output window does not move. -/
theorem index4_0 : ∀ t : Fin cfg4.N, win4_0.index t 0 = t.val ∧ win4_0.index t 1 = 0 :=
  (by decide +kernel : ∀ t : Fin grid4.N, win4_0.index t 0 = t.val ∧ win4_0.index t 1 = 0)
theorem index4_1 : ∀ t : Fin cfg4.N, win4_1.index t 0 = t.val ∧ win4_1.index t 1 = 0 :=
  (by decide +kernel : ∀ t : Fin grid4.N, win4_1.index t 0 = t.val ∧ win4_1.index t 1 = 0)

/-- Row `k` of the feature block at point `n` is row `5000 n + k` of the feature array. -/
theorem iblk4_0_apply (c : Dev nD) (n : Fin cfg4.N) (k : Fin 5000) (d : Fin 128) (h : 5000 * n.val + k.val < 50000) :
    (iblk4 V c 0 n : Vec Ideal S5000x128 .f32) (ix2 k d)
      = (V c (Pipeline.arrRef spec4 0) : Vec Ideal S50000x128 .f32) (ix2 ⟨5000 * n.val + k.val, h⟩ d) := by
  unfold iblk4
  rw [View.read_apply]
  show V c (Pipeline.arrRef spec4 0) _ = V c (Pipeline.arrRef spec4 0) _
  congr 1
  funext a
  apply Fin.ext
  match a with
  | ⟨0, _⟩ =>
    show win4_0.index n 0 * 5000 + 1 * k.val = 5000 * n.val + k.val
    rw [(index4_0 n).1]; omega
  | ⟨1, _⟩ =>
    show win4_0.index n 1 * 128 + 1 * d.val = d.val
    rw [(index4_0 n).2]; omega

/-- Row `k` of the id block at point `n` is row `5000 n + k` of the id column. -/
theorem iblk4_1_apply (c : Dev nD) (n : Fin cfg4.N) (k : Fin 5000) (h : 5000 * n.val + k.val < 50000) :
    (iblk4 V c 1 n : Vec Ideal S5000x1 .i32) (ix2 k 0)
      = (V c (Pipeline.arrRef spec4 1) : Vec Ideal S50000x1 .i32) (ix2 ⟨5000 * n.val + k.val, h⟩ 0) := by
  unfold iblk4
  rw [View.read_apply]
  show V c (Pipeline.arrRef spec4 1) _ = V c (Pipeline.arrRef spec4 1) _
  congr 1
  funext a
  apply Fin.ext
  match a with
  | ⟨0, _⟩ =>
    show win4_1.index n 0 * 5000 + 1 * k.val = 5000 * n.val + k.val
    rw [(index4_1 n).1]; omega
  | ⟨1, _⟩ =>
    show win4_1.index n 1 * 1 + 1 * 0 = 0
    rw [(index4_1 n).2]

/-! ## The accumulation is the segment sum of the rows so far -/

/-- Row `t`'s term of entry `j`: its feature if its id is the entry's graph, else nothing (nothing past the last row). -/
def term4 (c : Dev nD) (j : S256x128.Idx) (t : ℕ) : EReal :=
  if h : t < 50000 then
    (if (V c (Pipeline.arrRef spec4 1) : Vec Ideal S50000x1 .i32) (ix2 ⟨t, h⟩ 0) = BitVec.ofNat 32 (gOf j).val
      then (V c (Pipeline.arrRef spec4 0) : Vec Ideal S50000x128 .f32) (ix2 ⟨t, h⟩ (dOf j)) else 0)
  else 0

/-- Row `k` of point `n`'s blocks contributes row `5000 n + k`'s term. -/
theorem blockTerm4 (c : Dev nD) (j : S256x128.Idx) (n : Fin cfg4.N) (k : Fin 5000) :
    ((if (iblk4 V c 1 n : Vec Ideal S5000x1 .i32) (ix2 k 0) = BitVec.ofNat 32 (gOf j).val
        then (iblk4 V c 0 n : Vec Ideal S5000x128 .f32) (ix2 k (dOf j)) else 0 : EReal))
      = term4 V c j (5000 * n.val + k.val) := by
  have hN : n.val < 10 := lt_of_lt_of_eq n.isLt (show cfg4.N = 10 from N_4)
  have hlt : 5000 * n.val + k.val < 50000 := by have := k.isLt; omega
  unfold term4
  rw [dif_pos hlt, iblk4_0_apply V c n k (dOf j) hlt, iblk4_1_apply V c n k hlt]

set_option maxHeartbeats 1000000 in
/-- After `n` points the scratch holds, at each entry, the sum of the terms of the first `5000 n` rows: by induction on
    the point, each point adding its block's rows. -/
theorem accAt4_eq (c : Dev nD) (j : S256x128.Idx) (n : ℕ) :
    ∀ (hn : n ≤ cfg4.N), accAt4 V c n hn j = ∑ t ∈ Finset.range (5000 * n), term4 V c j t := by
  induction n with
  | zero =>
    intro hn
    rw [accAt4_zero V c hn, pay1_apply4]
    simp
  | succ n ih =>
    intro hn
    rw [show accAt4 V c (n + 1) hn = k4_pay2 (iblk4 V c 0 ⟨n, hn⟩) (iblk4 V c 1 ⟨n, hn⟩) (accAt4 V c n (Nat.le_of_lt hn))
        from accAt4_succ V c ⟨n, hn⟩,
      pay2_apply4, ih (Nat.le_of_lt hn), show 5000 * (n + 1) = 5000 * n + 5000 from by ring, Finset.sum_range_add,
      Finset.sum_range (fun x => term4 V c j (5000 * n + x))]
    exact congrArg (fun s : EReal => (∑ t ∈ Finset.range (5000 * n), term4 V c j t) + s)
      (Finset.sum_congr rfl fun k _ => blockTerm4 V c j ⟨n, hn⟩ k)

/-- After the tenth point that is the whole segment sum. -/
theorem accAt4_last (c : Dev nD) (h : 10 ≤ cfg4.N) :
    accAt4 V c 10 h = segG (V c (Pipeline.arrRef spec4 0)) (V c (Pipeline.arrRef spec4 1)) := by
  funext j
  rw [accAt4_eq V c j 10 h, show 5000 * 10 = 50000 from rfl, Finset.sum_range]
  unfold segG term4
  refine Finset.sum_congr rfl fun t _ => ?_
  exact (dif_pos t.isLt).trans rfl

/-! ## The one write-back -/

/-- The write-back at the last point writes the segment sum: the output's one block, read through zero offsets, is the
    whole array. -/
theorem flushed4 (c : Dev nD) (t : Fin cfg4.N) (hf : (cfg4.win 2).flush t = true) :
    (dat4 V c).flushed 2 t = ((cfg4.win 2).blk t).view.read (Elt Ideal)
      (segG (V c (Pipeline.arrRef spec4 0)) (V c (Pipeline.arrRef spec4 1))) := by
  have hN : cfg4.N = 10 := N_4
  have hL : t.val = 9 := by have := (flush4_2 t).mp hf; have := t.isLt; omega
  obtain rfl : t = t4_9 := Fin.ext hL
  show (cfg4.win 2).cut (grid4.coords t4_9) ((dat4 V c).after 2 t4_9) = _
  rw [after4_2]
  show (cfg4.win 2).cut (grid4.coords t4_9) (accAt4 V c 10 t4_9.isLt) = _
  rw [accAt4_last V c t4_9.isLt]
  have hz' : (fun a => win4_2.index t4_9 a * (Pipeline.arrRef spec4 2).ty.shape.size a) = fun _ => 0 :=
    funext fun a => by fin_cases a <;> decide
  exact (Memref.read_access_unit_zero (Elt Ideal) (Pipeline.arrRef spec4 2) hz' (fun a => by rw [congrFun hz' a]; simp) _).symm

/-- THE REGION'S VALUE: after its ten points the result array holds the segment sum of the two argument arrays as the
    region found them. -/
theorem final4 (c : Dev nD) :
    (dat4 (F := Ideal) V c).arrAt 2 cfg4.N = segG (V c (Pipeline.arrRef spec4 0)) (V c (Pipeline.arrRef spec4 1)) :=
  (dat4 V c).arrAt_eq_of_cover 2 _ (flushed4 V c) fun i =>
    ⟨t4_9, (flush4_2 t4_9).mpr rfl, by
      show i ∈ ((View.whole (Pipeline.arrRef spec4 2)).slice (win4_2.rect t4_9)).set
      rw [View.set_slice_whole, Rect.mem_set_unit]
      intro a
      have hi0 : (i 0 : Nat) < 256 := (i 0).isLt
      have hi4 : (i 1 : Nat) < 128 := (i 1).isLt
      match a with
      | ⟨0, _⟩ =>
        show win4_2.index t4_9 0 * win4_2.size 0 ≤ (i 0 : Nat)
          ∧ (i 0 : Nat) < win4_2.index t4_9 0 * win4_2.size 0 + win4_2.xsize (grid4.coords t4_9) 0
        rw [show win4_2.index t4_9 0 * win4_2.size 0 = 0 from by decide +kernel,
          show win4_2.xsize (grid4.coords t4_9) 0 = 256 from by decide +kernel]
        omega
      | ⟨1, _⟩ =>
        show win4_2.index t4_9 1 * win4_2.size 1 ≤ (i 1 : Nat)
          ∧ (i 1 : Nat) < win4_2.index t4_9 1 * win4_2.size 1 + win4_2.xsize (grid4.coords t4_9) 1
        rw [show win4_2.index t4_9 1 * win4_2.size 1 = 0 from by decide +kernel,
          show win4_2.xsize (grid4.coords t4_9) 1 = 128 from by decide +kernel]
        omega⟩

end Cert.KernelIdeal.HandValue

end
-- ==== Proof.VnValue5.lean ====
/- Region 5 of @main, the virtual node's two-layer perceptron: the VALUE its output array ends holding, over the extended reals. The body's payload, read
   index by index, is the network's function `Cert.Spec.vnG` of the blocks the body loads; the grid is one point whose block, for
   every window, is the whole array at offset zero; so what the point writes back is `Cert.Spec.vnG` of the input arrays as the
   region finds them, its block covers the output array, and the array ends holding exactly that. -/
import proofs.«403491_j395136991532_1_alg».proof.Proof.VnRegion5
import proofs.«403491_j395136991532_1_alg».proof.Proof.VnFinDots
import proofs.«403491_j395136991532_1_alg».proof.Proof.SpecNet
import Idealize.ShloMosaic.Lib.Pipeline.Value

noncomputable section

namespace Cert.KernelIdeal.HandValue

open Cert.KernelIdeal Cert.KernelIdeal.Gen Cert.KernelIdeal.Hand Idealize.ShloMosaic Idealize.ShloMosaic.TcCoe Idealize.SL.Sem
open Idealize.ShloMosaic.ValueIdx
open Idealize.ShloMosaic.Pipeline (Dat)
open scoped BigOperators

/-! ## The body's payload, index by index -/

/-- The payload of the body's one store is `Cert.Spec.vnG` of the loaded blocks: at row `p`, column `q` both are the same
    sums, products and maxima of the same entries. -/
theorem pay5_eq (x0 : Vec Ideal S256x128 .f32) (x1 : Vec Ideal S128x256 .bf16) (x2 : Vec Ideal S1x256 .f32) (x3 : Vec Ideal S1x256 .f32) (x4 : Vec Ideal S1x256 .f32) (x5 : Vec Ideal S256x128 .bf16) (x6 : Vec Ideal S1x128 .f32) (x7 : Vec Ideal S1x128 .f32) (x8 : Vec Ideal S1x128 .f32) :
    k5_pay1 (k5_pay2 x0 x1 x2 x3 x4 x5 x6 x7 x8) (k5_pay3 (F := Ideal)) = Cert.Spec.vnG x0 x1 x2 x3 x4 x5 x6 x7 x8 := by
  funext j
  obtain ⟨p, q, rfl⟩ : ∃ (p : Fin 256) (q : Fin 128), j = ix2 p q := ⟨j 0, j 1, eq_ix2 j⟩
  unfold k5_pay1 k5_pay2 k5_pay3 Cert.Spec.vnG Cert.Spec.outK Cert.Spec.hiddenK Cert.Spec.zeroF
  simp only [maximumf_apply, addf_apply, mulf_apply, broadcast_apply, shapeCast_self, truncf_apply, Ideal.ofBits_def, rowTo256x128_apply, rowTo256x256_apply, matmulSecond_apply, matmulFirst_apply]

/-! ## One grid point: every window's block is its whole array -/

theorem hz5 : (![0, 0] : Fin 2 → Nat) = fun _ => 0 := funext fun a => by fin_cases a <;> rfl

/-- The printed index maps, decided over the one grid point: every window's block index is zero on both axes. -/
theorem idx_facts5 : ∀ t : Fin cfg5.N, win5_0.index t (0 : Fin 2) = 0 ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = 0 ∧ win5_6.index t (1 : Fin 2) = 0
    ∧ win5_7.index t (0 : Fin 2) = 0 ∧ win5_7.index t (1 : Fin 2) = 0
    ∧ win5_8.index t (0 : Fin 2) = 0 ∧ win5_8.index t (1 : Fin 2) = 0
    ∧ win5_9.index t (0 : Fin 2) = 0 ∧ win5_9.index t (1 : Fin 2) = 0 :=
  (by decide +kernel : ∀ t : Fin grid5.N, _)

section AnyF
variable {F : FTy → Type} [FloatOps F]
variable (V : (c : Dev nD) → (b : Ref sig .tc) → Buf (Elt F) ((c : Thread nD τ).loc b))

/-- Input window 0's block at the point is its array. -/
theorem iblk5_0_eq (c : Dev nD) (t : Fin cfg5.N) : (iblk5 V c 0 t : Vec F S256x128 .f32) = V c (Pipeline.arrRef spec5 0) := by
  obtain ⟨e0_0, e0_1, e1_0, e1_1, e2_0, e2_1, e3_0, e3_1, e4_0, e4_1, e5_0, e5_1, e6_0, e6_1, e7_0, e7_1, e8_0, e8_1, e9_0, e9_1⟩ := idx_facts5 t
  funext y
  show V c (Pipeline.arrRef spec5 0) (((cfg5.win 0).blk t).view.emb y) = V c (Pipeline.arrRef spec5 0) y
  refine congrArg _ (funext fun a => Fin.ext ?_)
  match a with
  | ⟨0, _⟩ => show win5_0.index t (0 : Fin 2) * 256 + 1 * (y 0).val = (y 0).val; omega
  | ⟨1, _⟩ => show win5_0.index t (1 : Fin 2) * 128 + 1 * (y 1).val = (y 1).val; omega

/-- Input window 1's block at the point is its array. -/
theorem iblk5_1_eq (c : Dev nD) (t : Fin cfg5.N) : (iblk5 V c 1 t : Vec F S128x256 .bf16) = V c (Pipeline.arrRef spec5 1) := by
  obtain ⟨e0_0, e0_1, e1_0, e1_1, e2_0, e2_1, e3_0, e3_1, e4_0, e4_1, e5_0, e5_1, e6_0, e6_1, e7_0, e7_1, e8_0, e8_1, e9_0, e9_1⟩ := idx_facts5 t
  funext y
  show V c (Pipeline.arrRef spec5 1) (((cfg5.win 1).blk t).view.emb y) = V c (Pipeline.arrRef spec5 1) y
  refine congrArg _ (funext fun a => Fin.ext ?_)
  match a with
  | ⟨0, _⟩ => show win5_1.index t (0 : Fin 2) * 128 + 1 * (y 0).val = (y 0).val; omega
  | ⟨1, _⟩ => show win5_1.index t (1 : Fin 2) * 256 + 1 * (y 1).val = (y 1).val; omega

/-- Input window 2's block at the point is its array. -/
theorem iblk5_2_eq (c : Dev nD) (t : Fin cfg5.N) : (iblk5 V c 2 t : Vec F S1x256 .f32) = V c (Pipeline.arrRef spec5 2) := by
  obtain ⟨e0_0, e0_1, e1_0, e1_1, e2_0, e2_1, e3_0, e3_1, e4_0, e4_1, e5_0, e5_1, e6_0, e6_1, e7_0, e7_1, e8_0, e8_1, e9_0, e9_1⟩ := idx_facts5 t
  funext y
  show V c (Pipeline.arrRef spec5 2) (((cfg5.win 2).blk t).view.emb y) = V c (Pipeline.arrRef spec5 2) y
  refine congrArg _ (funext fun a => Fin.ext ?_)
  match a with
  | ⟨0, _⟩ => show win5_2.index t (0 : Fin 2) * 1 + 1 * (y 0).val = (y 0).val; omega
  | ⟨1, _⟩ => show win5_2.index t (1 : Fin 2) * 256 + 1 * (y 1).val = (y 1).val; omega

/-- Input window 3's block at the point is its array. -/
theorem iblk5_3_eq (c : Dev nD) (t : Fin cfg5.N) : (iblk5 V c 3 t : Vec F S1x256 .f32) = V c (Pipeline.arrRef spec5 3) := by
  obtain ⟨e0_0, e0_1, e1_0, e1_1, e2_0, e2_1, e3_0, e3_1, e4_0, e4_1, e5_0, e5_1, e6_0, e6_1, e7_0, e7_1, e8_0, e8_1, e9_0, e9_1⟩ := idx_facts5 t
  funext y
  show V c (Pipeline.arrRef spec5 3) (((cfg5.win 3).blk t).view.emb y) = V c (Pipeline.arrRef spec5 3) y
  refine congrArg _ (funext fun a => Fin.ext ?_)
  match a with
  | ⟨0, _⟩ => show win5_3.index t (0 : Fin 2) * 1 + 1 * (y 0).val = (y 0).val; omega
  | ⟨1, _⟩ => show win5_3.index t (1 : Fin 2) * 256 + 1 * (y 1).val = (y 1).val; omega

/-- Input window 4's block at the point is its array. -/
theorem iblk5_4_eq (c : Dev nD) (t : Fin cfg5.N) : (iblk5 V c 4 t : Vec F S1x256 .f32) = V c (Pipeline.arrRef spec5 4) := by
  obtain ⟨e0_0, e0_1, e1_0, e1_1, e2_0, e2_1, e3_0, e3_1, e4_0, e4_1, e5_0, e5_1, e6_0, e6_1, e7_0, e7_1, e8_0, e8_1, e9_0, e9_1⟩ := idx_facts5 t
  funext y
  show V c (Pipeline.arrRef spec5 4) (((cfg5.win 4).blk t).view.emb y) = V c (Pipeline.arrRef spec5 4) y
  refine congrArg _ (funext fun a => Fin.ext ?_)
  match a with
  | ⟨0, _⟩ => show win5_4.index t (0 : Fin 2) * 1 + 1 * (y 0).val = (y 0).val; omega
  | ⟨1, _⟩ => show win5_4.index t (1 : Fin 2) * 256 + 1 * (y 1).val = (y 1).val; omega

/-- Input window 5's block at the point is its array. -/
theorem iblk5_5_eq (c : Dev nD) (t : Fin cfg5.N) : (iblk5 V c 5 t : Vec F S256x128 .bf16) = V c (Pipeline.arrRef spec5 5) := by
  obtain ⟨e0_0, e0_1, e1_0, e1_1, e2_0, e2_1, e3_0, e3_1, e4_0, e4_1, e5_0, e5_1, e6_0, e6_1, e7_0, e7_1, e8_0, e8_1, e9_0, e9_1⟩ := idx_facts5 t
  funext y
  show V c (Pipeline.arrRef spec5 5) (((cfg5.win 5).blk t).view.emb y) = V c (Pipeline.arrRef spec5 5) y
  refine congrArg _ (funext fun a => Fin.ext ?_)
  match a with
  | ⟨0, _⟩ => show win5_5.index t (0 : Fin 2) * 256 + 1 * (y 0).val = (y 0).val; omega
  | ⟨1, _⟩ => show win5_5.index t (1 : Fin 2) * 128 + 1 * (y 1).val = (y 1).val; omega

/-- Input window 6's block at the point is its array. -/
theorem iblk5_6_eq (c : Dev nD) (t : Fin cfg5.N) : (iblk5 V c 6 t : Vec F S1x128 .f32) = V c (Pipeline.arrRef spec5 6) := by
  obtain ⟨e0_0, e0_1, e1_0, e1_1, e2_0, e2_1, e3_0, e3_1, e4_0, e4_1, e5_0, e5_1, e6_0, e6_1, e7_0, e7_1, e8_0, e8_1, e9_0, e9_1⟩ := idx_facts5 t
  funext y
  show V c (Pipeline.arrRef spec5 6) (((cfg5.win 6).blk t).view.emb y) = V c (Pipeline.arrRef spec5 6) y
  refine congrArg _ (funext fun a => Fin.ext ?_)
  match a with
  | ⟨0, _⟩ => show win5_6.index t (0 : Fin 2) * 1 + 1 * (y 0).val = (y 0).val; omega
  | ⟨1, _⟩ => show win5_6.index t (1 : Fin 2) * 128 + 1 * (y 1).val = (y 1).val; omega

/-- Input window 7's block at the point is its array. -/
theorem iblk5_7_eq (c : Dev nD) (t : Fin cfg5.N) : (iblk5 V c 7 t : Vec F S1x128 .f32) = V c (Pipeline.arrRef spec5 7) := by
  obtain ⟨e0_0, e0_1, e1_0, e1_1, e2_0, e2_1, e3_0, e3_1, e4_0, e4_1, e5_0, e5_1, e6_0, e6_1, e7_0, e7_1, e8_0, e8_1, e9_0, e9_1⟩ := idx_facts5 t
  funext y
  show V c (Pipeline.arrRef spec5 7) (((cfg5.win 7).blk t).view.emb y) = V c (Pipeline.arrRef spec5 7) y
  refine congrArg _ (funext fun a => Fin.ext ?_)
  match a with
  | ⟨0, _⟩ => show win5_7.index t (0 : Fin 2) * 1 + 1 * (y 0).val = (y 0).val; omega
  | ⟨1, _⟩ => show win5_7.index t (1 : Fin 2) * 128 + 1 * (y 1).val = (y 1).val; omega

/-- Input window 8's block at the point is its array. -/
theorem iblk5_8_eq (c : Dev nD) (t : Fin cfg5.N) : (iblk5 V c 8 t : Vec F S1x128 .f32) = V c (Pipeline.arrRef spec5 8) := by
  obtain ⟨e0_0, e0_1, e1_0, e1_1, e2_0, e2_1, e3_0, e3_1, e4_0, e4_1, e5_0, e5_1, e6_0, e6_1, e7_0, e7_1, e8_0, e8_1, e9_0, e9_1⟩ := idx_facts5 t
  funext y
  show V c (Pipeline.arrRef spec5 8) (((cfg5.win 8).blk t).view.emb y) = V c (Pipeline.arrRef spec5 8) y
  refine congrArg _ (funext fun a => Fin.ext ?_)
  match a with
  | ⟨0, _⟩ => show win5_8.index t (0 : Fin 2) * 1 + 1 * (y 0).val = (y 0).val; omega
  | ⟨1, _⟩ => show win5_8.index t (1 : Fin 2) * 128 + 1 * (y 1).val = (y 1).val; omega

end AnyF

/-- An index of the output window's block is that index of its array. -/
theorem emb5_9 (t : Fin cfg5.N) (j : S256x128.Idx) : ((cfg5.win 9).blk t).view.emb j = j := by
  obtain ⟨e0_0, e0_1, e1_0, e1_1, e2_0, e2_1, e3_0, e3_1, e4_0, e4_1, e5_0, e5_1, e6_0, e6_1, e7_0, e7_1, e8_0, e8_1, e9_0, e9_1⟩ := idx_facts5 t
  funext a; apply Fin.ext
  match a with
  | ⟨0, _⟩ => show win5_9.index t (0 : Fin 2) * 256 + 1 * (j 0).val = (j 0).val; omega
  | ⟨1, _⟩ => show win5_9.index t (1 : Fin 2) * 128 + 1 * (j 1).val = (j 1).val; omega

/-! ## What the point writes back, and the array after the region -/

variable (V : (c : Dev nD) → (b : Ref sig .tc) → Buf (Elt Ideal) ((c : Thread nD τ).loc b))

set_option maxHeartbeats 1000000 in
/-- What the point writes back to the output window's array is its block of `Cert.Spec.vnG` of the input arrays as the region finds them. -/
theorem flushed5_9_eq (c : Dev nD) (t : Fin cfg5.N) :
    (dat5 (F := Ideal) V c).flushed 9 t
      = ((cfg5.win 9).blk t).view.read (Elt Ideal) (Cert.Spec.vnG (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) (V c (Pipeline.arrRef spec5 6)) (V c (Pipeline.arrRef spec5 7)) (V c (Pipeline.arrRef spec5 8))) := by
  show (cfg5.win 9).cut (grid5.coords t) ((dat5 V c).after 9 t) = _
  rw [after5_9]
  unfold out5_9
  rw [View.canon_unit_zero hz5]
  simp only [View.ld_unit_zero (S := S256x128) hz5, View.ld_unit_zero (S := S128x256) hz5, View.ld_unit_zero (S := S1x256) hz5, View.ld_unit_zero (S := S1x128) hz5]
  rw [iblk5_0_eq, iblk5_1_eq, iblk5_2_eq, iblk5_3_eq, iblk5_4_eq, iblk5_5_eq, iblk5_6_eq, iblk5_7_eq, iblk5_8_eq, pay5_eq]
  funext j
  show Cert.Spec.vnG (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) (V c (Pipeline.arrRef spec5 6)) (V c (Pipeline.arrRef spec5 7)) (V c (Pipeline.arrRef spec5 8)) j
    = Cert.Spec.vnG (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) (V c (Pipeline.arrRef spec5 6)) (V c (Pipeline.arrRef spec5 7)) (V c (Pipeline.arrRef spec5 8)) (((cfg5.win 9).blk t).view.emb j)
  rw [emb5_9]

/-- An index of the array is in the point's block iff each coordinate is in the block's range on its axis. -/
theorem mem_blk5_9 (t : Fin cfg5.N) (i : S256x128.Idx) :
    i ∈ ((cfg5.win 9).blk t).view.set ↔ ∀ a : Fin 2, win5_9.index t a * S256x128.size a ≤ (i a).val ∧ (i a).val < win5_9.index t a * S256x128.size a + S256x128.size a := by
  show i ∈ ((View.whole (Pipeline.arrRef spec5 9)).slice (win5_9.rect t)).set ↔ _
  rw [View.set_slice_whole, Rect.mem_set_unit]
  exact Iff.rfl

/-- The one point's block covers the output array. -/
theorem covered5_9 (i : S256x128.Idx) : ∃ t : Fin cfg5.N, (cfg5.win 9).flush t = true ∧ i ∈ ((cfg5.win 9).blk t).view.set := by
  refine ⟨⟨0, by decide⟩, flush5_9 _, ?_⟩
  rw [mem_blk5_9]
  obtain ⟨e0_0, e0_1, e1_0, e1_1, e2_0, e2_1, e3_0, e3_1, e4_0, e4_1, e5_0, e5_1, e6_0, e6_1, e7_0, e7_1, e8_0, e8_1, e9_0, e9_1⟩ := idx_facts5 ⟨0, by decide⟩
  have h0 : (i 0).val < 256 := idx2_lt0 i
  have h1 : (i 1).val < 128 := idx2_lt1 i
  intro a
  match a with
  | ⟨0, _⟩ => show win5_9.index ⟨0, by decide⟩ (0 : Fin 2) * 256 ≤ (i 0).val ∧ (i 0).val < win5_9.index ⟨0, by decide⟩ (0 : Fin 2) * 256 + 256; omega
  | ⟨1, _⟩ => show win5_9.index ⟨0, by decide⟩ (1 : Fin 2) * 128 ≤ (i 1).val ∧ (i 1).val < win5_9.index ⟨0, by decide⟩ (1 : Fin 2) * 128 + 128; omega

/-- THE ARRAY after the region: `Cert.Spec.vnG` of the input arrays as the region finds them. -/
theorem final5 (c : Dev nD) :
    (dat5 (F := Ideal) V c).arrAt 9 cfg5.N = Cert.Spec.vnG (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) (V c (Pipeline.arrRef spec5 6)) (V c (Pipeline.arrRef spec5 7)) (V c (Pipeline.arrRef spec5 8)) :=
  (dat5 (F := Ideal) V c).arrAt_eq_of_cover 9 _ (fun t _ => flushed5_9_eq V c t) covered5_9

end Cert.KernelIdeal.HandValue

end
-- ==== Proof.GinPay6.lean ====
import proofs.«403491_j395136991532_1_alg».proof.Proof.Gen.KernelIdeal.Skeleton
import proofs.«403491_j395136991532_1_alg».proof.Proof.SpecNet
import Idealize.ShloMosaic.Lib.Pipeline.Value
import Idealize.ShloMosaic.Lib.ValueLayout
import Idealize.ShloMosaic.PureOps.Ideal.Laws

/-! # Region 6's payloads read at one index, at the extended reals

The body stores one value per node row `p` and feature `q`. Reading the two payloads at `(p, q)`: every pointwise
operation is the extended reals' operation on the elements, a row broadcast reads its one row, a change of format is
the identity, and each matrix product is the sum over its contracted axis. What comes out is the specification's
folded perceptron of the row's input `(1 + eps) * h_in + agg`. -/

noncomputable section

namespace Cert.KernelIdeal.HandValue

open Cert.KernelIdeal Cert.KernelIdeal.Gen Cert.Spec
open Idealize.ShloMosaic Idealize.ShloMosaic.ValueIdx

/-! ## The two matrix products at an index -/

theorem k6_mm1_lhs_0 (i : S5000x256.Idx) (q : dot_S5000x128_S128x256_S5000x256_1_0_0_1_n_n.contr.Idx) :
    (dot_S5000x128_S128x256_S5000x256_1_0_0_1_n_n.lhsIdx i q 0).val = (i 0).val := by
  unfold DotDims.lhsIdx
  rw [dif_neg (show ¬(0 : Fin S5000x128.rank) ∈ dot_S5000x128_S128x256_S5000x256_1_0_0_1_n_n.lhsBatch by decide), dif_pos (show (0 : Fin S5000x128.rank) ∈ dot_S5000x128_S128x256_S5000x256_1_0_0_1_n_n.lhsNonContracting by decide)]
  rfl
theorem k6_mm1_lhs_1 (i : S5000x256.Idx) (q : dot_S5000x128_S128x256_S5000x256_1_0_0_1_n_n.contr.Idx) :
    (dot_S5000x128_S128x256_S5000x256_1_0_0_1_n_n.lhsIdx i q 1).val = (q ⟨0, by decide⟩).val :=
  dot_S5000x128_S128x256_S5000x256_1_0_0_1_n_n.lhsIdx_val_of_single rfl i q
theorem k6_mm1_rhs_0 (i : S5000x256.Idx) (q : dot_S5000x128_S128x256_S5000x256_1_0_0_1_n_n.contr.Idx) :
    (dot_S5000x128_S128x256_S5000x256_1_0_0_1_n_n.rhsIdx i q 0).val = (q ⟨0, by decide⟩).val :=
  dot_S5000x128_S128x256_S5000x256_1_0_0_1_n_n.rhsIdx_val_of_single rfl i q
theorem k6_mm1_rhs_1 (i : S5000x256.Idx) (q : dot_S5000x128_S128x256_S5000x256_1_0_0_1_n_n.contr.Idx) :
    (dot_S5000x128_S128x256_S5000x256_1_0_0_1_n_n.rhsIdx i q 1).val = (i 1).val := by
  unfold DotDims.rhsIdx
  rw [dif_neg (show ¬(1 : Fin S128x256.rank) ∈ dot_S5000x128_S128x256_S5000x256_1_0_0_1_n_n.rhsBatch by decide), dif_pos (show (1 : Fin S128x256.rank) ∈ dot_S5000x128_S128x256_S5000x256_1_0_0_1_n_n.rhsNonContracting by decide)]
  rfl

/-- The product read at row `p`, column `j`: the sum over the 128 contracted positions. -/
theorem k6_mm1_apply (a : FVec Ideal S5000x128 .bf16) (b : FVec Ideal S128x256 .bf16) (p : Fin 5000) (j : Fin 256) :
    matmul dot_S5000x128_S128x256_S5000x256_1_0_0_1_n_n none a b (constant (F := Ideal) S5000x256 .f32 0x00000000#32) (ix2 p j)
      = ∑ k : Fin 128, a (ix2 p k) * b (ix2 k j) := by
  simp only [matmul]
  rw [Ideal.matmul_constant_zero_apply, ← Equiv.sum_comp (contrEquiv1 dot_S5000x128_S128x256_S5000x256_1_0_0_1_n_n 128 rfl rfl).symm]
  refine Finset.sum_congr rfl fun k _ => ?_
  have hk := contrEquiv1_symm_val dot_S5000x128_S128x256_S5000x256_1_0_0_1_n_n 128 rfl rfl k
  have el : dot_S5000x128_S128x256_S5000x256_1_0_0_1_n_n.lhsIdx (ix2 p j) ((contrEquiv1 dot_S5000x128_S128x256_S5000x256_1_0_0_1_n_n 128 rfl rfl).symm k) = ix2 p k := funext fun ax => Fin.ext (by
    match ax with
    | ⟨0, _⟩ => exact k6_mm1_lhs_0 _ _
    | ⟨1, _⟩ => exact (k6_mm1_lhs_1 _ _).trans hk)
  have er : dot_S5000x128_S128x256_S5000x256_1_0_0_1_n_n.rhsIdx (ix2 p j) ((contrEquiv1 dot_S5000x128_S128x256_S5000x256_1_0_0_1_n_n 128 rfl rfl).symm k) = ix2 k j := funext fun ax => Fin.ext (by
    match ax with
    | ⟨0, _⟩ => exact (k6_mm1_rhs_0 _ _).trans hk
    | ⟨1, _⟩ => exact k6_mm1_rhs_1 _ _)
  rw [el, er]

theorem k6_mm2_lhs_0 (i : S5000x128.Idx) (q : dot_S5000x256_S256x128_S5000x128_1_0_0_1_n_n.contr.Idx) :
    (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
theorem k6_mm2_lhs_1 (i : S5000x128.Idx) (q : dot_S5000x256_S256x128_S5000x128_1_0_0_1_n_n.contr.Idx) :
    (dot_S5000x256_S256x128_S5000x128_1_0_0_1_n_n.lhsIdx i q 1).val = (q ⟨0, by decide⟩).val :=
  dot_S5000x256_S256x128_S5000x128_1_0_0_1_n_n.lhsIdx_val_of_single rfl i q
theorem k6_mm2_rhs_0 (i : S5000x128.Idx) (q : dot_S5000x256_S256x128_S5000x128_1_0_0_1_n_n.contr.Idx) :
    (dot_S5000x256_S256x128_S5000x128_1_0_0_1_n_n.rhsIdx i q 0).val = (q ⟨0, by decide⟩).val :=
  dot_S5000x256_S256x128_S5000x128_1_0_0_1_n_n.rhsIdx_val_of_single rfl i q
theorem k6_mm2_rhs_1 (i : S5000x128.Idx) (q : dot_S5000x256_S256x128_S5000x128_1_0_0_1_n_n.contr.Idx) :
    (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- The product read at row `p`, column `j`: the sum over the 256 contracted positions. -/
theorem k6_mm2_apply (a : FVec Ideal S5000x256 .bf16) (b : FVec Ideal S256x128 .bf16) (p : Fin 5000) (j : Fin 128) :
    matmul dot_S5000x256_S256x128_S5000x128_1_0_0_1_n_n none a b (constant (F := Ideal) S5000x128 .f32 0x00000000#32) (ix2 p j)
      = ∑ k : Fin 256, a (ix2 p k) * b (ix2 k j) := by
  simp only [matmul]
  rw [Ideal.matmul_constant_zero_apply, ← Equiv.sum_comp (contrEquiv1 dot_S5000x256_S256x128_S5000x128_1_0_0_1_n_n 256 rfl rfl).symm]
  refine Finset.sum_congr rfl fun k _ => ?_
  have hk := contrEquiv1_symm_val dot_S5000x256_S256x128_S5000x128_1_0_0_1_n_n 256 rfl rfl k
  have el : dot_S5000x256_S256x128_S5000x128_1_0_0_1_n_n.lhsIdx (ix2 p j) ((contrEquiv1 dot_S5000x256_S256x128_S5000x128_1_0_0_1_n_n 256 rfl rfl).symm k) = ix2 p k := funext fun ax => Fin.ext (by
    match ax with
    | ⟨0, _⟩ => exact k6_mm2_lhs_0 _ _
    | ⟨1, _⟩ => exact (k6_mm2_lhs_1 _ _).trans hk)
  have er : dot_S5000x256_S256x128_S5000x128_1_0_0_1_n_n.rhsIdx (ix2 p j) ((contrEquiv1 dot_S5000x256_S256x128_S5000x128_1_0_0_1_n_n 256 rfl rfl).symm k) = ix2 k j := funext fun ax => Fin.ext (by
    match ax with
    | ⟨0, _⟩ => exact (k6_mm2_rhs_0 _ _).trans hk
    | ⟨1, _⟩ => exact k6_mm2_rhs_1 _ _)
  rw [el, er]

/-! ## The one-element broadcast -/

/-- A `[1, 1]` array broadcast over the block reads its one element everywhere. -/
theorem k6_bcast11_apply {α : Type} (v : S1x1.Idx → α) (h : S1x1.Broadcasts S5000x128) (p : Fin 5000) (k : Fin 128) :
    broadcastTo S5000x128 v h (ix2 p k) = v (ix2 (0 : Fin 1) (0 : Fin 1)) := by
  refine broadcastTo_apply v h (ix2 p k) (ix2 (0 : Fin 1) (0 : Fin 1)) fun ax => ?_
  match ax with
  | ⟨0, _⟩ => rfl
  | ⟨1, _⟩ => rfl

/-! ## The payloads at an index -/

/-- Whether this layer ends with a clamp at zero. -/
abbrev k6_relu : Bool := true

/-- The first payload at `(p, q)`: the second product's sum over the 256 hidden entries of row `p`, plus the bias. -/
theorem k6_pay2_apply (e : Vec Ideal S1x1 .f32) (hin agg : Vec Ideal S5000x128 .f32) (w1 : Vec Ideal S128x256 .bf16)
    (b1 s1 sh1 : Vec Ideal S1x256 .f32) (w2 : Vec Ideal S256x128 .bf16) (b2 : Vec Ideal S1x128 .f32) (p : Fin 5000) (q : Fin 128) :
    k6_pay2 (F := Ideal) e hin agg w1 b1 s1 sh1 w2 b2 (ix2 p q)
      = (∑ j : Fin 256, hiddenK (fun k => (oneF + e (ix2 0 0)) * hin (ix2 p k) + agg (ix2 p k)) w1 b1 s1 sh1 j * w2 (ix2 j q))
          + b2 (ix2 0 q) := by
  unfold k6_pay2
  simp only [shapeCast_self, addf_apply, k6_mm2_apply, broadcastTo_1b_ab_apply, truncf_apply, maximumf_apply, broadcast_apply,
    mulf_apply, k6_mm1_apply, k6_bcast11_apply]
  rfl

/-- The last payload at `(p, q)`: scale and shift of the entry, then the clamp at zero if the layer has one. -/
theorem k6_pay1_apply (v : FVec Ideal S5000x128 .f32) (s2 sh2 : Vec Ideal S1x128 .f32) (p : Fin 5000) (q : Fin 128) :
    k6_pay1 (F := Ideal) v s2 sh2 (ix2 p q)
      = (if k6_relu then max (v (ix2 p q) * s2 (ix2 0 q) + sh2 (ix2 0 q)) zeroF else v (ix2 p q) * s2 (ix2 0 q) + sh2 (ix2 0 q)) := by
  unfold k6_pay1
  simp only [shapeCast_self, addf_apply, broadcastTo_1b_ab_apply, maximumf_apply, broadcast_apply, mulf_apply]
  rfl

/-- What the body stores at `(p, q)`, from the eleven input blocks: the folded perceptron of row `p`'s input
    `(1 + eps) * h_in + agg`, read at feature `q`. -/
theorem k6_out_apply (x0 x1 : Vec Ideal S5000x128 .f32) (x2 : Vec Ideal S1x1 .f32) (x3 : Vec Ideal S128x256 .bf16)
    (x4 x5 x6 : Vec Ideal S1x256 .f32) (x7 : Vec Ideal S256x128 .bf16) (x8 x9 x10 : Vec Ideal S1x128 .f32) (p : Fin 5000) (q : Fin 128) :
    k6_pay1 (F := Ideal) (k6_pay2 (F := Ideal) x2 x0 x1 x3 x4 x5 x6 x7 x8) x9 x10 (ix2 p q)
      = (let o := outK (hiddenK (fun k => (oneF + x2 (ix2 0 0)) * x0 (ix2 p k) + x1 (ix2 p k)) x3 x4 x5 x6) x7 x8 x9 x10 q
         if k6_relu then max o zeroF else o) := by
  rw [k6_pay1_apply, k6_pay2_apply]
  rfl

end Cert.KernelIdeal.HandValue
-- ==== Proof.GinValue6.lean ====
import proofs.«403491_j395136991532_1_alg».proof.Proof.GinRegion6
import proofs.«403491_j395136991532_1_alg».proof.Proof.GinPay6
import Idealize.ShloMosaic.Lib.Pipeline.Value

/-! # Region 6 read at the extended reals: the value half

Point `t` of the ten writes back block `t` of the output array: rows `5000 t` to `5000 t + 4999`. Its two tiled inputs
are the same rows of their arrays, its nine resident inputs their whole arrays, so what it writes at row `p` of the
block is the specification's folded perceptron of array row `5000 t + p`. The ten blocks tile the 50000 rows, so after
the region the output array is the specification's whole-array function of the eleven argument arrays. -/

set_option maxRecDepth 16384

noncomputable section

namespace Cert.KernelIdeal.HandValue

open Cert.KernelIdeal Cert.KernelIdeal.Gen Cert.KernelIdeal.Hand Cert.Spec
open Idealize.ShloMosaic Idealize.ShloMosaic.TcCoe Idealize.SL.Sem Idealize.ShloMosaic.ValueIdx
open Idealize.ShloMosaic.Pipeline (Dat)

-- the TensorCore's buffer contents when the region is entered, at the extended reals
variable (V : (c : Dev nD) → (b : Ref sig .tc) → Buf (Elt Ideal) ((c : Thread nD τ).loc b))

theorem k6_hz : (![0, 0] : Fin 2 → Nat) = fun _ => 0 := funext fun a => by fin_cases a <;> rfl

/-! ## The printed index maps, decided over the ten points -/

/-- The output and the two tiled inputs sit at block row `t`, block column 0. -/
theorem k6_idx_11 : ∀ t : Fin cfg6.N, win6_11.index t (0 : Fin 2) = t.val ∧ win6_11.index t (1 : Fin 2) = 0 :=
  (by decide +kernel : ∀ t : Fin grid6.N, _)
theorem k6_idx_0 : ∀ t : Fin cfg6.N, win6_0.index t (0 : Fin 2) = t.val ∧ win6_0.index t (1 : Fin 2) = 0 :=
  (by decide +kernel : ∀ t : Fin grid6.N, _)
theorem k6_idx_1 : ∀ t : Fin cfg6.N, win6_1.index t (0 : Fin 2) = t.val ∧ win6_1.index t (1 : Fin 2) = 0 :=
  (by decide +kernel : ∀ t : Fin grid6.N, _)
/-- The nine resident inputs stay at block (0, 0). -/
theorem k6_idx_2 : ∀ t : Fin cfg6.N, win6_2.index t (0 : Fin 2) = 0 ∧ win6_2.index t (1 : Fin 2) = 0 :=
  (by decide +kernel : ∀ t : Fin grid6.N, _)
theorem k6_idx_3 : ∀ t : Fin cfg6.N, win6_3.index t (0 : Fin 2) = 0 ∧ win6_3.index t (1 : Fin 2) = 0 :=
  (by decide +kernel : ∀ t : Fin grid6.N, _)
theorem k6_idx_4 : ∀ t : Fin cfg6.N, win6_4.index t (0 : Fin 2) = 0 ∧ win6_4.index t (1 : Fin 2) = 0 :=
  (by decide +kernel : ∀ t : Fin grid6.N, _)
theorem k6_idx_5 : ∀ t : Fin cfg6.N, win6_5.index t (0 : Fin 2) = 0 ∧ win6_5.index t (1 : Fin 2) = 0 :=
  (by decide +kernel : ∀ t : Fin grid6.N, _)
theorem k6_idx_6 : ∀ t : Fin cfg6.N, win6_6.index t (0 : Fin 2) = 0 ∧ win6_6.index t (1 : Fin 2) = 0 :=
  (by decide +kernel : ∀ t : Fin grid6.N, _)
theorem k6_idx_7 : ∀ t : Fin cfg6.N, win6_7.index t (0 : Fin 2) = 0 ∧ win6_7.index t (1 : Fin 2) = 0 :=
  (by decide +kernel : ∀ t : Fin grid6.N, _)
theorem k6_idx_8 : ∀ t : Fin cfg6.N, win6_8.index t (0 : Fin 2) = 0 ∧ win6_8.index t (1 : Fin 2) = 0 :=
  (by decide +kernel : ∀ t : Fin grid6.N, _)
theorem k6_idx_9 : ∀ t : Fin cfg6.N, win6_9.index t (0 : Fin 2) = 0 ∧ win6_9.index t (1 : Fin 2) = 0 :=
  (by decide +kernel : ∀ t : Fin grid6.N, _)
theorem k6_idx_10 : ∀ t : Fin cfg6.N, win6_10.index t (0 : Fin 2) = 0 ∧ win6_10.index t (1 : Fin 2) = 0 :=
  (by decide +kernel : ∀ t : Fin grid6.N, _)

/-! ## The input blocks at a point, read off the arrays -/

/-- The array row that row `p` of block `t` is. -/
def k6_rowOf (t : Fin cfg6.N) (p : Fin 5000) : Fin 50000 :=
  ⟨t.val * 5000 + p.val, by have ht : t.val < grid6.N := t.isLt; rw [N_6] at ht; have hp := p.isLt; omega⟩

/-- Element `(p, k)` of a tiled window's block `t` sits at array row `5000 t + p`, column `k`. -/
theorem k6_emb_11 (t : Fin cfg6.N) (p : Fin 5000) (k : Fin 128) :
    ((cfg6.win 11).blk t).view.emb (ix2 p k) = ix2 (k6_rowOf t p) k := by
  obtain ⟨e0, e1⟩ := k6_idx_11 t
  funext a; apply Fin.ext
  match a with
  | ⟨0, _⟩ => show win6_11.index t (0 : Fin 2) * 5000 + 1 * p.val = t.val * 5000 + p.val; omega
  | ⟨1, _⟩ => show win6_11.index t (1 : Fin 2) * 128 + 1 * k.val = k.val; omega
theorem k6_emb_0 (t : Fin cfg6.N) (p : Fin 5000) (k : Fin 128) :
    ((cfg6.win 0).blk t).view.emb (ix2 p k) = ix2 (k6_rowOf t p) k := by
  obtain ⟨e0, e1⟩ := k6_idx_0 t
  funext a; apply Fin.ext
  match a with
  | ⟨0, _⟩ => show win6_0.index t (0 : Fin 2) * 5000 + 1 * p.val = t.val * 5000 + p.val; omega
  | ⟨1, _⟩ => show win6_0.index t (1 : Fin 2) * 128 + 1 * k.val = k.val; omega
theorem k6_emb_1 (t : Fin cfg6.N) (p : Fin 5000) (k : Fin 128) :
    ((cfg6.win 1).blk t).view.emb (ix2 p k) = ix2 (k6_rowOf t p) k := by
  obtain ⟨e0, e1⟩ := k6_idx_1 t
  funext a; apply Fin.ext
  match a with
  | ⟨0, _⟩ => show win6_1.index t (0 : Fin 2) * 5000 + 1 * p.val = t.val * 5000 + p.val; omega
  | ⟨1, _⟩ => show win6_1.index t (1 : Fin 2) * 128 + 1 * k.val = k.val; omega

/-- So a tiled input's block `t` at `(p, k)` is its array at row `5000 t + p`, column `k`. -/
theorem k6_row_0 (c : Dev nD) (t : Fin cfg6.N) (p : Fin 5000) (k : Fin 128) :
    iblk6 V c 0 t (ix2 p k) = V c (Pipeline.arrRef spec6 0) (ix2 (k6_rowOf t p) k) := by
  show V c (Pipeline.arrRef spec6 0) (((cfg6.win 0).blk t).view.emb (ix2 p k)) = _
  rw [k6_emb_0]
theorem k6_row_1 (c : Dev nD) (t : Fin cfg6.N) (p : Fin 5000) (k : Fin 128) :
    iblk6 V c 1 t (ix2 p k) = V c (Pipeline.arrRef spec6 1) (ix2 (k6_rowOf t p) k) := by
  show V c (Pipeline.arrRef spec6 1) (((cfg6.win 1).blk t).view.emb (ix2 p k)) = _
  rw [k6_emb_1]

/-- A resident input's block at every point is its whole array. -/
theorem k6_blk_2 (c : Dev nD) (t : Fin cfg6.N) : iblk6 V c 2 t = V c (Pipeline.arrRef spec6 2) := by
  obtain ⟨e0, e1⟩ := k6_idx_2 t
  funext y
  show V c (Pipeline.arrRef spec6 2) (((cfg6.win 2).blk t).view.emb y) = V c (Pipeline.arrRef spec6 2) y
  refine congrArg _ (funext fun a => Fin.ext ?_)
  match a with
  | ⟨0, _⟩ => show win6_2.index t (0 : Fin 2) * 1 + 1 * (y 0).val = (y 0).val; omega
  | ⟨1, _⟩ => show win6_2.index t (1 : Fin 2) * 1 + 1 * (y 1).val = (y 1).val; omega
theorem k6_blk_3 (c : Dev nD) (t : Fin cfg6.N) : iblk6 V c 3 t = V c (Pipeline.arrRef spec6 3) := by
  obtain ⟨e0, e1⟩ := k6_idx_3 t
  funext y
  show V c (Pipeline.arrRef spec6 3) (((cfg6.win 3).blk t).view.emb y) = V c (Pipeline.arrRef spec6 3) y
  refine congrArg _ (funext fun a => Fin.ext ?_)
  match a with
  | ⟨0, _⟩ => show win6_3.index t (0 : Fin 2) * 128 + 1 * (y 0).val = (y 0).val; omega
  | ⟨1, _⟩ => show win6_3.index t (1 : Fin 2) * 256 + 1 * (y 1).val = (y 1).val; omega
theorem k6_blk_4 (c : Dev nD) (t : Fin cfg6.N) : iblk6 V c 4 t = V c (Pipeline.arrRef spec6 4) := by
  obtain ⟨e0, e1⟩ := k6_idx_4 t
  funext y
  show V c (Pipeline.arrRef spec6 4) (((cfg6.win 4).blk t).view.emb y) = V c (Pipeline.arrRef spec6 4) y
  refine congrArg _ (funext fun a => Fin.ext ?_)
  match a with
  | ⟨0, _⟩ => show win6_4.index t (0 : Fin 2) * 1 + 1 * (y 0).val = (y 0).val; omega
  | ⟨1, _⟩ => show win6_4.index t (1 : Fin 2) * 256 + 1 * (y 1).val = (y 1).val; omega
theorem k6_blk_5 (c : Dev nD) (t : Fin cfg6.N) : iblk6 V c 5 t = V c (Pipeline.arrRef spec6 5) := by
  obtain ⟨e0, e1⟩ := k6_idx_5 t
  funext y
  show V c (Pipeline.arrRef spec6 5) (((cfg6.win 5).blk t).view.emb y) = V c (Pipeline.arrRef spec6 5) y
  refine congrArg _ (funext fun a => Fin.ext ?_)
  match a with
  | ⟨0, _⟩ => show win6_5.index t (0 : Fin 2) * 1 + 1 * (y 0).val = (y 0).val; omega
  | ⟨1, _⟩ => show win6_5.index t (1 : Fin 2) * 256 + 1 * (y 1).val = (y 1).val; omega
theorem k6_blk_6 (c : Dev nD) (t : Fin cfg6.N) : iblk6 V c 6 t = V c (Pipeline.arrRef spec6 6) := by
  obtain ⟨e0, e1⟩ := k6_idx_6 t
  funext y
  show V c (Pipeline.arrRef spec6 6) (((cfg6.win 6).blk t).view.emb y) = V c (Pipeline.arrRef spec6 6) y
  refine congrArg _ (funext fun a => Fin.ext ?_)
  match a with
  | ⟨0, _⟩ => show win6_6.index t (0 : Fin 2) * 1 + 1 * (y 0).val = (y 0).val; omega
  | ⟨1, _⟩ => show win6_6.index t (1 : Fin 2) * 256 + 1 * (y 1).val = (y 1).val; omega
theorem k6_blk_7 (c : Dev nD) (t : Fin cfg6.N) : iblk6 V c 7 t = V c (Pipeline.arrRef spec6 7) := by
  obtain ⟨e0, e1⟩ := k6_idx_7 t
  funext y
  show V c (Pipeline.arrRef spec6 7) (((cfg6.win 7).blk t).view.emb y) = V c (Pipeline.arrRef spec6 7) y
  refine congrArg _ (funext fun a => Fin.ext ?_)
  match a with
  | ⟨0, _⟩ => show win6_7.index t (0 : Fin 2) * 256 + 1 * (y 0).val = (y 0).val; omega
  | ⟨1, _⟩ => show win6_7.index t (1 : Fin 2) * 128 + 1 * (y 1).val = (y 1).val; omega
theorem k6_blk_8 (c : Dev nD) (t : Fin cfg6.N) : iblk6 V c 8 t = V c (Pipeline.arrRef spec6 8) := by
  obtain ⟨e0, e1⟩ := k6_idx_8 t
  funext y
  show V c (Pipeline.arrRef spec6 8) (((cfg6.win 8).blk t).view.emb y) = V c (Pipeline.arrRef spec6 8) y
  refine congrArg _ (funext fun a => Fin.ext ?_)
  match a with
  | ⟨0, _⟩ => show win6_8.index t (0 : Fin 2) * 1 + 1 * (y 0).val = (y 0).val; omega
  | ⟨1, _⟩ => show win6_8.index t (1 : Fin 2) * 128 + 1 * (y 1).val = (y 1).val; omega
theorem k6_blk_9 (c : Dev nD) (t : Fin cfg6.N) : iblk6 V c 9 t = V c (Pipeline.arrRef spec6 9) := by
  obtain ⟨e0, e1⟩ := k6_idx_9 t
  funext y
  show V c (Pipeline.arrRef spec6 9) (((cfg6.win 9).blk t).view.emb y) = V c (Pipeline.arrRef spec6 9) y
  refine congrArg _ (funext fun a => Fin.ext ?_)
  match a with
  | ⟨0, _⟩ => show win6_9.index t (0 : Fin 2) * 1 + 1 * (y 0).val = (y 0).val; omega
  | ⟨1, _⟩ => show win6_9.index t (1 : Fin 2) * 128 + 1 * (y 1).val = (y 1).val; omega
theorem k6_blk_10 (c : Dev nD) (t : Fin cfg6.N) : iblk6 V c 10 t = V c (Pipeline.arrRef spec6 10) := by
  obtain ⟨e0, e1⟩ := k6_idx_10 t
  funext y
  show V c (Pipeline.arrRef spec6 10) (((cfg6.win 10).blk t).view.emb y) = V c (Pipeline.arrRef spec6 10) y
  refine congrArg _ (funext fun a => Fin.ext ?_)
  match a with
  | ⟨0, _⟩ => show win6_10.index t (0 : Fin 2) * 1 + 1 * (y 0).val = (y 0).val; omega
  | ⟨1, _⟩ => show win6_10.index t (1 : Fin 2) * 128 + 1 * (y 1).val = (y 1).val; omega

/-! ## What a point writes back -/

/-- Reading the output window's block `t` of any array at `(p, q)` reads the array at row `5000 t + p`, column `q`. -/
theorem k6_read_11 (t : Fin cfg6.N) (G : RArr sNxD) (p : Fin 5000) (q : Fin 128) :
    ((cfg6.win 11).blk t).view.read (Elt Ideal) G (ix2 p q) = G (ix2 (k6_rowOf t p) q) := by
  show G (((cfg6.win 11).blk t).view.emb (ix2 p q)) = _
  rw [k6_emb_11]

/-- The output window is never cut: what a point writes back is the whole staging buffer. -/
theorem k6_cut_11 (t : Fin cfg6.N) (X : FVec Ideal S5000x128 .f32) (p : Fin 5000) (q : Fin 128) :
    (cfg6.win 11).cut (grid6.coords t) X (ix2 p q) = X (ix2 p q) := rfl

/-- What the body leaves in the output buffer at point `t`: the last payload over the first, of the eleven input blocks. -/
theorem k6_after_eq (c : Dev nD) (t : Fin cfg6.N) :
    (dat6 (F := Ideal) V c).after 11 t
      = k6_pay1 (F := Ideal) (k6_pay2 (F := Ideal) (iblk6 V c 2 t) (iblk6 V c 0 t) (iblk6 V c 1 t) (iblk6 V c 3 t) (iblk6 V c 4 t) (iblk6 V c 5 t)
          (iblk6 V c 6 t) (iblk6 V c 7 t) (iblk6 V c 8 t)) (iblk6 V c 9 t) (iblk6 V c 10 t) := by
  rw [after6_11]
  unfold out6_11
  rw [View.canon_unit_zero k6_hz]
  simp only [View.ld_unit_zero (S := S5000x128) k6_hz, View.ld_unit_zero (S := S1x1) k6_hz, View.ld_unit_zero (S := S128x256) k6_hz,
    View.ld_unit_zero (S := S1x256) k6_hz, View.ld_unit_zero (S := S256x128) k6_hz, View.ld_unit_zero (S := S1x128) k6_hz]

/-- The stored value as the specification's: if the two tiled blocks' row `p` is the arrays' row `P` and the nine
    resident blocks are their arrays, what the body stores at `(p, q)` is the specification's layer at `(P, q)`. -/
theorem k6_out_eq_spec (A0 A1 : RArr sNxD) (A2 : RArr s1x1) (A3 : RArr sDxD2) (A4 A5 A6 : RArr s1xD2) (A7 : RArr sD2xD) (A8 A9 A10 : RArr s1xD)
    (x0 x1 : Vec Ideal S5000x128 .f32) (x2 : Vec Ideal S1x1 .f32) (x3 : Vec Ideal S128x256 .bf16)
    (x4 x5 x6 : Vec Ideal S1x256 .f32) (x7 : Vec Ideal S256x128 .bf16) (x8 x9 x10 : Vec Ideal S1x128 .f32)
    (P : Fin 50000) (p : Fin 5000) (q : Fin 128)
    (h0 : ∀ k : Fin 128, x0 (ix2 p k) = A0 (ix2 P k)) (h1 : ∀ k : Fin 128, x1 (ix2 p k) = A1 (ix2 P k))
    (h2 : x2 = A2) (h3 : x3 = A3) (h4 : x4 = A4) (h5 : x5 = A5) (h6 : x6 = A6) (h7 : x7 = A7) (h8 : x8 = A8) (h9 : x9 = A9) (h10 : x10 = A10) :
    k6_pay1 (F := Ideal) (k6_pay2 (F := Ideal) x2 x0 x1 x3 x4 x5 x6 x7 x8) x9 x10 (ix2 p q)
      = ginG k6_relu A0 A1 A2 A3 A4 A5 A6 A7 A8 A9 A10 (ix2 P q) := by
  subst h2 h3 h4 h5 h6 h7 h8 h9 h10
  rw [k6_out_apply]
  have hz : (fun k : Fin 128 => (oneF + x2 (ix2 0 0)) * x0 (ix2 p k) + x1 (ix2 p k)) = ginZ A0 A1 x2 P := funext fun k => by
    rw [h0, h1]; rfl
  rw [hz]
  rfl

-- the eleven argument arrays are each checked against their literal shapes twice here, once in the statement and once in the proof
set_option maxHeartbeats 1000000 in
/-- Point `t` writes back block `t` of the specification's whole-array function of the eleven argument arrays. -/
theorem k6_flushed_eq (c : Dev nD) (t : Fin cfg6.N) :
    (dat6 (F := Ideal) V c).flushed 11 t
      = ((cfg6.win 11).blk t).view.read (Elt Ideal) (ginG k6_relu (V c (Pipeline.arrRef spec6 0)) (V c (Pipeline.arrRef spec6 1)) (V c (Pipeline.arrRef spec6 2)) (V c (Pipeline.arrRef spec6 3)) (V c (Pipeline.arrRef spec6 4)) (V c (Pipeline.arrRef spec6 5)) (V c (Pipeline.arrRef spec6 6)) (V c (Pipeline.arrRef spec6 7)) (V c (Pipeline.arrRef spec6 8)) (V c (Pipeline.arrRef spec6 9)) (V c (Pipeline.arrRef spec6 10))) := by
  funext j
  obtain ⟨p, q, rfl⟩ : ∃ (p : Fin 5000) (q : Fin 128), j = ix2 p q := ⟨j 0, j 1, eq_ix2 j⟩
  rw [k6_read_11]
  show (cfg6.win 11).cut (grid6.coords t) ((dat6 V c).after 11 t) (ix2 p q) = _
  rw [k6_after_eq, k6_cut_11]
  exact k6_out_eq_spec (V c (Pipeline.arrRef spec6 0)) (V c (Pipeline.arrRef spec6 1)) (V c (Pipeline.arrRef spec6 2)) (V c (Pipeline.arrRef spec6 3)) (V c (Pipeline.arrRef spec6 4)) (V c (Pipeline.arrRef spec6 5)) (V c (Pipeline.arrRef spec6 6)) (V c (Pipeline.arrRef spec6 7)) (V c (Pipeline.arrRef spec6 8)) (V c (Pipeline.arrRef spec6 9)) (V c (Pipeline.arrRef spec6 10))
    (iblk6 V c 0 t) (iblk6 V c 1 t) (iblk6 V c 2 t) (iblk6 V c 3 t) (iblk6 V c 4 t) (iblk6 V c 5 t) (iblk6 V c 6 t) (iblk6 V c 7 t) (iblk6 V c 8 t) (iblk6 V c 9 t) (iblk6 V c 10 t)
    (k6_rowOf t p) p q (fun k => k6_row_0 V c t p k) (fun k => k6_row_1 V c t p k)
    (k6_blk_2 V c t) (k6_blk_3 V c t) (k6_blk_4 V c t) (k6_blk_5 V c t) (k6_blk_6 V c t) (k6_blk_7 V c t) (k6_blk_8 V c t) (k6_blk_9 V c t) (k6_blk_10 V c t)

/-! ## The ten blocks tile the array -/

/-- An index of the array is in point `t`'s block iff each coordinate is in the block's range on its axis. -/
theorem k6_mem_blk (t : Fin cfg6.N) (i : S50000x128.Idx) :
    i ∈ ((cfg6.win 11).blk t).view.set ↔ ∀ a : Fin 2, win6_11.index t a * S5000x128.size a ≤ (i a).val ∧ (i a).val < win6_11.index t a * S5000x128.size a + S5000x128.size a := by
  show i ∈ ((View.whole (Pipeline.arrRef spec6 11)).slice (win6_11.rect t)).set ↔ _
  rw [View.set_slice_whole, Rect.mem_set_unit]
  exact Iff.rfl

/-- Row `r` is in the block of point `r / 5000`. -/
theorem k6_cover (i : S50000x128.Idx) : ∃ t : Fin cfg6.N, (cfg6.win 11).flush t = true ∧ i ∈ ((cfg6.win 11).blk t).view.set := by
  have hi0 : (i 0).val < 50000 := (i 0).isLt
  have hi1 : (i 1).val < 128 := (i 1).isLt
  have hlt : (i 0).val / 5000 < cfg6.N := by show (i 0).val / 5000 < grid6.N; rw [N_6]; omega
  obtain ⟨e0, e1⟩ := k6_idx_11 ⟨(i 0).val / 5000, hlt⟩
  refine ⟨⟨(i 0).val / 5000, hlt⟩, flush6_11 _, ?_⟩
  rw [k6_mem_blk]
  intro a
  match a with
  | ⟨0, _⟩ =>
    show win6_11.index ⟨(i 0).val / 5000, hlt⟩ (0 : Fin 2) * 5000 ≤ (i 0).val ∧ (i 0).val < win6_11.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win6_11.index ⟨(i 0).val / 5000, hlt⟩ (1 : Fin 2) * 128 ≤ (i 1).val ∧ (i 1).val < win6_11.index ⟨(i 0).val / 5000, hlt⟩ (1 : Fin 2) * 128 + 128
    omega

/-! ## The region's value -/

/-- After its ten points the output array holds the specification's node-level perceptron layer of the eleven argument
    arrays as the region found them. -/
theorem final6 (c : Dev nD) :
    (dat6 (F := Ideal) V c).arrAt 11 cfg6.N = ginG true (V c (Pipeline.arrRef spec6 0)) (V c (Pipeline.arrRef spec6 1)) (V c (Pipeline.arrRef spec6 2)) (V c (Pipeline.arrRef spec6 3)) (V c (Pipeline.arrRef spec6 4)) (V c (Pipeline.arrRef spec6 5)) (V c (Pipeline.arrRef spec6 6)) (V c (Pipeline.arrRef spec6 7)) (V c (Pipeline.arrRef spec6 8)) (V c (Pipeline.arrRef spec6 9)) (V c (Pipeline.arrRef spec6 10)) :=
  (dat6 (F := Ideal) V c).arrAt_eq_of_cover 11 _ (fun t _ => k6_flushed_eq V c t) k6_cover

end Cert.KernelIdeal.HandValue
-- ==== Proof.SegValue7.lean ====
/- Region 1 of @main, the batch-grouped segment sum, read at the extended reals: the value half. What the scratch
   accumulator holds after `n` points is, entry by entry, the segment sum restricted to the first `5000 n` rows (by
   induction on the point: each point adds, at entry (g, d), feature d of the rows of its block whose id is the word g);
   after the tenth point that is the whole segment sum, which the one write-back puts into the result array, whose one
   block is the whole array. -/
import proofs.«403491_j395136991532_1_alg».proof.Proof.SegRegion7
import proofs.«403491_j395136991532_1_alg».proof.Proof.SegLaws
import proofs.«403491_j395136991532_1_alg».proof.Proof.SpecNet
import Idealize.ShloMosaic.Lib.Pipeline.Value
import Idealize.ShloMosaic.PureOps.Ideal.Laws

set_option maxRecDepth 16384

noncomputable section

namespace Cert.KernelIdeal.HandValue

open Cert.KernelIdeal Cert.KernelIdeal.Gen Cert.KernelIdeal.Hand Cert.Spec
open Idealize.ShloMosaic Idealize.ShloMosaic.TcCoe Idealize.ShloMosaic.ValueIdx Idealize.SL.Sem
open Idealize.ShloMosaic.Pipeline (Dat)

-- the TensorCore's buffer contents when the region is entered, at the extended reals
variable (V : (c : Dev nD) → (b : Ref sig .tc) → Buf (Elt Ideal) ((c : Thread nD τ).loc b))

/-! ## The two payloads at an entry -/

/-- The block the first point stores is zero everywhere. -/
theorem pay1_apply7 (j : S256x128.Idx) : (k7_pay1 (F := Ideal)) j = 0 := by
  show (shapeCast S256x128 (broadcast S256x128 (Scalar.ofBits (F := Ideal) .f32 0x00000000#32)) shapeCasts_S256x128_S256x128) j = 0
  rw [shapeCast_self]
  exact Ideal.ofBits_zero_f32

/-- The block every point stores: what the scratch held plus the point's contribution. -/
theorem pay2_apply7 (xb : Vec Ideal S5000x128 .f32) (bb : Vec Ideal S5000x1 .i32) (a : Vec Ideal S256x128 .f32) (j : S256x128.Idx) :
    k7_pay2 xb bb a j = a j + ∑ k : Fin 5000, if bb (ix2 k 0) = BitVec.ofNat 32 (gOf j).val then xb (ix2 k (dOf j)) else 0 := by
  show (shapeCast S256x128 (addf a (matmul segDot none (segOnehot bb)
      (truncf .bf16 (shapeCast S5000x128 xb shapeCasts_S5000x128_S5000x128) bitsLt_bf16_f32)
      (constant S256x128 .f32 0x00000000#32))) shapeCasts_S256x128_S256x128) j = _
  rw [shapeCast_self]
  exact segStep xb bb a j

/-! ## The windows' blocks, read at a row -/

/-- The two input windows step along the row axis with the point; the output window does not move. -/
theorem index7_0 : ∀ t : Fin cfg7.N, win7_0.index t 0 = t.val ∧ win7_0.index t 1 = 0 :=
  (by decide +kernel : ∀ t : Fin grid7.N, win7_0.index t 0 = t.val ∧ win7_0.index t 1 = 0)
theorem index7_1 : ∀ t : Fin cfg7.N, win7_1.index t 0 = t.val ∧ win7_1.index t 1 = 0 :=
  (by decide +kernel : ∀ t : Fin grid7.N, win7_1.index t 0 = t.val ∧ win7_1.index t 1 = 0)

/-- Row `k` of the feature block at point `n` is row `5000 n + k` of the feature array. -/
theorem iblk7_0_apply (c : Dev nD) (n : Fin cfg7.N) (k : Fin 5000) (d : Fin 128) (h : 5000 * n.val + k.val < 50000) :
    (iblk7 V c 0 n : Vec Ideal S5000x128 .f32) (ix2 k d)
      = (V c (Pipeline.arrRef spec7 0) : Vec Ideal S50000x128 .f32) (ix2 ⟨5000 * n.val + k.val, h⟩ d) := by
  unfold iblk7
  rw [View.read_apply]
  show V c (Pipeline.arrRef spec7 0) _ = V c (Pipeline.arrRef spec7 0) _
  congr 1
  funext a
  apply Fin.ext
  match a with
  | ⟨0, _⟩ =>
    show win7_0.index n 0 * 5000 + 1 * k.val = 5000 * n.val + k.val
    rw [(index7_0 n).1]; omega
  | ⟨1, _⟩ =>
    show win7_0.index n 1 * 128 + 1 * d.val = d.val
    rw [(index7_0 n).2]; omega

/-- Row `k` of the id block at point `n` is row `5000 n + k` of the id column. -/
theorem iblk7_1_apply (c : Dev nD) (n : Fin cfg7.N) (k : Fin 5000) (h : 5000 * n.val + k.val < 50000) :
    (iblk7 V c 1 n : Vec Ideal S5000x1 .i32) (ix2 k 0)
      = (V c (Pipeline.arrRef spec7 1) : Vec Ideal S50000x1 .i32) (ix2 ⟨5000 * n.val + k.val, h⟩ 0) := by
  unfold iblk7
  rw [View.read_apply]
  show V c (Pipeline.arrRef spec7 1) _ = V c (Pipeline.arrRef spec7 1) _
  congr 1
  funext a
  apply Fin.ext
  match a with
  | ⟨0, _⟩ =>
    show win7_1.index n 0 * 5000 + 1 * k.val = 5000 * n.val + k.val
    rw [(index7_1 n).1]; omega
  | ⟨1, _⟩ =>
    show win7_1.index n 1 * 1 + 1 * 0 = 0
    rw [(index7_1 n).2]

/-! ## The accumulation is the segment sum of the rows so far -/

/-- Row `t`'s term of entry `j`: its feature if its id is the entry's graph, else nothing (nothing past the last row). -/
def term7 (c : Dev nD) (j : S256x128.Idx) (t : ℕ) : EReal :=
  if h : t < 50000 then
    (if (V c (Pipeline.arrRef spec7 1) : Vec Ideal S50000x1 .i32) (ix2 ⟨t, h⟩ 0) = BitVec.ofNat 32 (gOf j).val
      then (V c (Pipeline.arrRef spec7 0) : Vec Ideal S50000x128 .f32) (ix2 ⟨t, h⟩ (dOf j)) else 0)
  else 0

/-- Row `k` of point `n`'s blocks contributes row `5000 n + k`'s term. -/
theorem blockTerm7 (c : Dev nD) (j : S256x128.Idx) (n : Fin cfg7.N) (k : Fin 5000) :
    ((if (iblk7 V c 1 n : Vec Ideal S5000x1 .i32) (ix2 k 0) = BitVec.ofNat 32 (gOf j).val
        then (iblk7 V c 0 n : Vec Ideal S5000x128 .f32) (ix2 k (dOf j)) else 0 : EReal))
      = term7 V c j (5000 * n.val + k.val) := by
  have hN : n.val < 10 := lt_of_lt_of_eq n.isLt (show cfg7.N = 10 from N_7)
  have hlt : 5000 * n.val + k.val < 50000 := by have := k.isLt; omega
  unfold term7
  rw [dif_pos hlt, iblk7_0_apply V c n k (dOf j) hlt, iblk7_1_apply V c n k hlt]

set_option maxHeartbeats 1000000 in
/-- After `n` points the scratch holds, at each entry, the sum of the terms of the first `5000 n` rows: by induction on
    the point, each point adding its block's rows. -/
theorem accAt7_eq (c : Dev nD) (j : S256x128.Idx) (n : ℕ) :
    ∀ (hn : n ≤ cfg7.N), accAt7 V c n hn j = ∑ t ∈ Finset.range (5000 * n), term7 V c j t := by
  induction n with
  | zero =>
    intro hn
    rw [accAt7_zero V c hn, pay1_apply7]
    simp
  | succ n ih =>
    intro hn
    rw [show accAt7 V c (n + 1) hn = k7_pay2 (iblk7 V c 0 ⟨n, hn⟩) (iblk7 V c 1 ⟨n, hn⟩) (accAt7 V c n (Nat.le_of_lt hn))
        from accAt7_succ V c ⟨n, hn⟩,
      pay2_apply7, ih (Nat.le_of_lt hn), show 5000 * (n + 1) = 5000 * n + 5000 from by ring, Finset.sum_range_add,
      Finset.sum_range (fun x => term7 V c j (5000 * n + x))]
    exact congrArg (fun s : EReal => (∑ t ∈ Finset.range (5000 * n), term7 V c j t) + s)
      (Finset.sum_congr rfl fun k _ => blockTerm7 V c j ⟨n, hn⟩ k)

/-- After the tenth point that is the whole segment sum. -/
theorem accAt7_last (c : Dev nD) (h : 10 ≤ cfg7.N) :
    accAt7 V c 10 h = segG (V c (Pipeline.arrRef spec7 0)) (V c (Pipeline.arrRef spec7 1)) := by
  funext j
  rw [accAt7_eq V c j 10 h, show 5000 * 10 = 50000 from rfl, Finset.sum_range]
  unfold segG term7
  refine Finset.sum_congr rfl fun t _ => ?_
  exact (dif_pos t.isLt).trans rfl

/-! ## The one write-back -/

/-- The write-back at the last point writes the segment sum: the output's one block, read through zero offsets, is the
    whole array. -/
theorem flushed7 (c : Dev nD) (t : Fin cfg7.N) (hf : (cfg7.win 2).flush t = true) :
    (dat7 V c).flushed 2 t = ((cfg7.win 2).blk t).view.read (Elt Ideal)
      (segG (V c (Pipeline.arrRef spec7 0)) (V c (Pipeline.arrRef spec7 1))) := by
  have hN : cfg7.N = 10 := N_7
  have hL : t.val = 9 := by have := (flush7_2 t).mp hf; have := t.isLt; omega
  obtain rfl : t = t7_9 := Fin.ext hL
  show (cfg7.win 2).cut (grid7.coords t7_9) ((dat7 V c).after 2 t7_9) = _
  rw [after7_2]
  show (cfg7.win 2).cut (grid7.coords t7_9) (accAt7 V c 10 t7_9.isLt) = _
  rw [accAt7_last V c t7_9.isLt]
  have hz' : (fun a => win7_2.index t7_9 a * (Pipeline.arrRef spec7 2).ty.shape.size a) = fun _ => 0 :=
    funext fun a => by fin_cases a <;> decide
  exact (Memref.read_access_unit_zero (Elt Ideal) (Pipeline.arrRef spec7 2) hz' (fun a => by rw [congrFun hz' a]; simp) _).symm

/-- THE REGION'S VALUE: after its ten points the result array holds the segment sum of the two argument arrays as the
    region found them. -/
theorem final7 (c : Dev nD) :
    (dat7 (F := Ideal) V c).arrAt 2 cfg7.N = segG (V c (Pipeline.arrRef spec7 0)) (V c (Pipeline.arrRef spec7 1)) :=
  (dat7 V c).arrAt_eq_of_cover 2 _ (flushed7 V c) fun i =>
    ⟨t7_9, (flush7_2 t7_9).mpr rfl, by
      show i ∈ ((View.whole (Pipeline.arrRef spec7 2)).slice (win7_2.rect t7_9)).set
      rw [View.set_slice_whole, Rect.mem_set_unit]
      intro a
      have hi0 : (i 0 : Nat) < 256 := (i 0).isLt
      have hi7 : (i 1 : Nat) < 128 := (i 1).isLt
      match a with
      | ⟨0, _⟩ =>
        show win7_2.index t7_9 0 * win7_2.size 0 ≤ (i 0 : Nat)
          ∧ (i 0 : Nat) < win7_2.index t7_9 0 * win7_2.size 0 + win7_2.xsize (grid7.coords t7_9) 0
        rw [show win7_2.index t7_9 0 * win7_2.size 0 = 0 from by decide +kernel,
          show win7_2.xsize (grid7.coords t7_9) 0 = 256 from by decide +kernel]
        omega
      | ⟨1, _⟩ =>
        show win7_2.index t7_9 1 * win7_2.size 1 ≤ (i 1 : Nat)
          ∧ (i 1 : Nat) < win7_2.index t7_9 1 * win7_2.size 1 + win7_2.xsize (grid7.coords t7_9) 1
        rw [show win7_2.index t7_9 1 * win7_2.size 1 = 0 from by decide +kernel,
          show win7_2.xsize (grid7.coords t7_9) 1 = 128 from by decide +kernel]
        omega⟩

end Cert.KernelIdeal.HandValue

end
-- ==== Proof.VnValue8.lean ====
/- Region 8 of @main, the virtual node's two-layer perceptron: the VALUE its output array ends holding, over the extended reals. The body's payload, read
   index by index, is the network's function `Cert.Spec.vnG` of the blocks the body loads; the grid is one point whose block, for
   every window, is the whole array at offset zero; so what the point writes back is `Cert.Spec.vnG` of the input arrays as the
   region finds them, its block covers the output array, and the array ends holding exactly that. -/
import proofs.«403491_j395136991532_1_alg».proof.Proof.VnRegion8
import proofs.«403491_j395136991532_1_alg».proof.Proof.VnFinDots
import proofs.«403491_j395136991532_1_alg».proof.Proof.SpecNet
import Idealize.ShloMosaic.Lib.Pipeline.Value

noncomputable section

namespace Cert.KernelIdeal.HandValue

open Cert.KernelIdeal Cert.KernelIdeal.Gen Cert.KernelIdeal.Hand Idealize.ShloMosaic Idealize.ShloMosaic.TcCoe Idealize.SL.Sem
open Idealize.ShloMosaic.ValueIdx
open Idealize.ShloMosaic.Pipeline (Dat)
open scoped BigOperators

/-! ## The body's payload, index by index -/

/-- The payload of the body's one store is `Cert.Spec.vnG` of the loaded blocks: at row `p`, column `q` both are the same
    sums, products and maxima of the same entries. -/
theorem pay8_eq (x0 : Vec Ideal S256x128 .f32) (x1 : Vec Ideal S128x256 .bf16) (x2 : Vec Ideal S1x256 .f32) (x3 : Vec Ideal S1x256 .f32) (x4 : Vec Ideal S1x256 .f32) (x5 : Vec Ideal S256x128 .bf16) (x6 : Vec Ideal S1x128 .f32) (x7 : Vec Ideal S1x128 .f32) (x8 : Vec Ideal S1x128 .f32) :
    k8_pay1 (k8_pay2 x0 x1 x2 x3 x4 x5 x6 x7 x8) (k8_pay3 (F := Ideal)) = Cert.Spec.vnG x0 x1 x2 x3 x4 x5 x6 x7 x8 := by
  funext j
  obtain ⟨p, q, rfl⟩ : ∃ (p : Fin 256) (q : Fin 128), j = ix2 p q := ⟨j 0, j 1, eq_ix2 j⟩
  unfold k8_pay1 k8_pay2 k8_pay3 Cert.Spec.vnG Cert.Spec.outK Cert.Spec.hiddenK Cert.Spec.zeroF
  simp only [maximumf_apply, addf_apply, mulf_apply, broadcast_apply, shapeCast_self, truncf_apply, Ideal.ofBits_def, rowTo256x128_apply, rowTo256x256_apply, matmulSecond_apply, matmulFirst_apply]

/-! ## One grid point: every window's block is its whole array -/

theorem hz8 : (![0, 0] : Fin 2 → Nat) = fun _ => 0 := funext fun a => by fin_cases a <;> rfl

/-- The printed index maps, decided over the one grid point: every window's block index is zero on both axes. -/
theorem idx_facts8 : ∀ t : Fin cfg8.N, win8_0.index t (0 : Fin 2) = 0 ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = 0 ∧ win8_5.index t (1 : Fin 2) = 0
    ∧ win8_6.index t (0 : Fin 2) = 0 ∧ win8_6.index t (1 : Fin 2) = 0
    ∧ win8_7.index t (0 : Fin 2) = 0 ∧ win8_7.index t (1 : Fin 2) = 0
    ∧ win8_8.index t (0 : Fin 2) = 0 ∧ win8_8.index t (1 : Fin 2) = 0
    ∧ win8_9.index t (0 : Fin 2) = 0 ∧ win8_9.index t (1 : Fin 2) = 0 :=
  (by decide +kernel : ∀ t : Fin grid8.N, _)

section AnyF
variable {F : FTy → Type} [FloatOps F]
variable (V : (c : Dev nD) → (b : Ref sig .tc) → Buf (Elt F) ((c : Thread nD τ).loc b))

/-- Input window 0's block at the point is its array. -/
theorem iblk8_0_eq (c : Dev nD) (t : Fin cfg8.N) : (iblk8 V c 0 t : Vec F S256x128 .f32) = V c (Pipeline.arrRef spec8 0) := by
  obtain ⟨e0_0, e0_1, e1_0, e1_1, e2_0, e2_1, e3_0, e3_1, e4_0, e4_1, e5_0, e5_1, e6_0, e6_1, e7_0, e7_1, e8_0, e8_1, e9_0, e9_1⟩ := idx_facts8 t
  funext y
  show V c (Pipeline.arrRef spec8 0) (((cfg8.win 0).blk t).view.emb y) = V c (Pipeline.arrRef spec8 0) y
  refine congrArg _ (funext fun a => Fin.ext ?_)
  match a with
  | ⟨0, _⟩ => show win8_0.index t (0 : Fin 2) * 256 + 1 * (y 0).val = (y 0).val; omega
  | ⟨1, _⟩ => show win8_0.index t (1 : Fin 2) * 128 + 1 * (y 1).val = (y 1).val; omega

/-- Input window 1's block at the point is its array. -/
theorem iblk8_1_eq (c : Dev nD) (t : Fin cfg8.N) : (iblk8 V c 1 t : Vec F S128x256 .bf16) = V c (Pipeline.arrRef spec8 1) := by
  obtain ⟨e0_0, e0_1, e1_0, e1_1, e2_0, e2_1, e3_0, e3_1, e4_0, e4_1, e5_0, e5_1, e6_0, e6_1, e7_0, e7_1, e8_0, e8_1, e9_0, e9_1⟩ := idx_facts8 t
  funext y
  show V c (Pipeline.arrRef spec8 1) (((cfg8.win 1).blk t).view.emb y) = V c (Pipeline.arrRef spec8 1) y
  refine congrArg _ (funext fun a => Fin.ext ?_)
  match a with
  | ⟨0, _⟩ => show win8_1.index t (0 : Fin 2) * 128 + 1 * (y 0).val = (y 0).val; omega
  | ⟨1, _⟩ => show win8_1.index t (1 : Fin 2) * 256 + 1 * (y 1).val = (y 1).val; omega

/-- Input window 2's block at the point is its array. -/
theorem iblk8_2_eq (c : Dev nD) (t : Fin cfg8.N) : (iblk8 V c 2 t : Vec F S1x256 .f32) = V c (Pipeline.arrRef spec8 2) := by
  obtain ⟨e0_0, e0_1, e1_0, e1_1, e2_0, e2_1, e3_0, e3_1, e4_0, e4_1, e5_0, e5_1, e6_0, e6_1, e7_0, e7_1, e8_0, e8_1, e9_0, e9_1⟩ := idx_facts8 t
  funext y
  show V c (Pipeline.arrRef spec8 2) (((cfg8.win 2).blk t).view.emb y) = V c (Pipeline.arrRef spec8 2) y
  refine congrArg _ (funext fun a => Fin.ext ?_)
  match a with
  | ⟨0, _⟩ => show win8_2.index t (0 : Fin 2) * 1 + 1 * (y 0).val = (y 0).val; omega
  | ⟨1, _⟩ => show win8_2.index t (1 : Fin 2) * 256 + 1 * (y 1).val = (y 1).val; omega

/-- Input window 3's block at the point is its array. -/
theorem iblk8_3_eq (c : Dev nD) (t : Fin cfg8.N) : (iblk8 V c 3 t : Vec F S1x256 .f32) = V c (Pipeline.arrRef spec8 3) := by
  obtain ⟨e0_0, e0_1, e1_0, e1_1, e2_0, e2_1, e3_0, e3_1, e4_0, e4_1, e5_0, e5_1, e6_0, e6_1, e7_0, e7_1, e8_0, e8_1, e9_0, e9_1⟩ := idx_facts8 t
  funext y
  show V c (Pipeline.arrRef spec8 3) (((cfg8.win 3).blk t).view.emb y) = V c (Pipeline.arrRef spec8 3) y
  refine congrArg _ (funext fun a => Fin.ext ?_)
  match a with
  | ⟨0, _⟩ => show win8_3.index t (0 : Fin 2) * 1 + 1 * (y 0).val = (y 0).val; omega
  | ⟨1, _⟩ => show win8_3.index t (1 : Fin 2) * 256 + 1 * (y 1).val = (y 1).val; omega

/-- Input window 4's block at the point is its array. -/
theorem iblk8_4_eq (c : Dev nD) (t : Fin cfg8.N) : (iblk8 V c 4 t : Vec F S1x256 .f32) = V c (Pipeline.arrRef spec8 4) := by
  obtain ⟨e0_0, e0_1, e1_0, e1_1, e2_0, e2_1, e3_0, e3_1, e4_0, e4_1, e5_0, e5_1, e6_0, e6_1, e7_0, e7_1, e8_0, e8_1, e9_0, e9_1⟩ := idx_facts8 t
  funext y
  show V c (Pipeline.arrRef spec8 4) (((cfg8.win 4).blk t).view.emb y) = V c (Pipeline.arrRef spec8 4) y
  refine congrArg _ (funext fun a => Fin.ext ?_)
  match a with
  | ⟨0, _⟩ => show win8_4.index t (0 : Fin 2) * 1 + 1 * (y 0).val = (y 0).val; omega
  | ⟨1, _⟩ => show win8_4.index t (1 : Fin 2) * 256 + 1 * (y 1).val = (y 1).val; omega

/-- Input window 5's block at the point is its array. -/
theorem iblk8_5_eq (c : Dev nD) (t : Fin cfg8.N) : (iblk8 V c 5 t : Vec F S256x128 .bf16) = V c (Pipeline.arrRef spec8 5) := by
  obtain ⟨e0_0, e0_1, e1_0, e1_1, e2_0, e2_1, e3_0, e3_1, e4_0, e4_1, e5_0, e5_1, e6_0, e6_1, e7_0, e7_1, e8_0, e8_1, e9_0, e9_1⟩ := idx_facts8 t
  funext y
  show V c (Pipeline.arrRef spec8 5) (((cfg8.win 5).blk t).view.emb y) = V c (Pipeline.arrRef spec8 5) y
  refine congrArg _ (funext fun a => Fin.ext ?_)
  match a with
  | ⟨0, _⟩ => show win8_5.index t (0 : Fin 2) * 256 + 1 * (y 0).val = (y 0).val; omega
  | ⟨1, _⟩ => show win8_5.index t (1 : Fin 2) * 128 + 1 * (y 1).val = (y 1).val; omega

/-- Input window 6's block at the point is its array. -/
theorem iblk8_6_eq (c : Dev nD) (t : Fin cfg8.N) : (iblk8 V c 6 t : Vec F S1x128 .f32) = V c (Pipeline.arrRef spec8 6) := by
  obtain ⟨e0_0, e0_1, e1_0, e1_1, e2_0, e2_1, e3_0, e3_1, e4_0, e4_1, e5_0, e5_1, e6_0, e6_1, e7_0, e7_1, e8_0, e8_1, e9_0, e9_1⟩ := idx_facts8 t
  funext y
  show V c (Pipeline.arrRef spec8 6) (((cfg8.win 6).blk t).view.emb y) = V c (Pipeline.arrRef spec8 6) y
  refine congrArg _ (funext fun a => Fin.ext ?_)
  match a with
  | ⟨0, _⟩ => show win8_6.index t (0 : Fin 2) * 1 + 1 * (y 0).val = (y 0).val; omega
  | ⟨1, _⟩ => show win8_6.index t (1 : Fin 2) * 128 + 1 * (y 1).val = (y 1).val; omega

/-- Input window 7's block at the point is its array. -/
theorem iblk8_7_eq (c : Dev nD) (t : Fin cfg8.N) : (iblk8 V c 7 t : Vec F S1x128 .f32) = V c (Pipeline.arrRef spec8 7) := by
  obtain ⟨e0_0, e0_1, e1_0, e1_1, e2_0, e2_1, e3_0, e3_1, e4_0, e4_1, e5_0, e5_1, e6_0, e6_1, e7_0, e7_1, e8_0, e8_1, e9_0, e9_1⟩ := idx_facts8 t
  funext y
  show V c (Pipeline.arrRef spec8 7) (((cfg8.win 7).blk t).view.emb y) = V c (Pipeline.arrRef spec8 7) y
  refine congrArg _ (funext fun a => Fin.ext ?_)
  match a with
  | ⟨0, _⟩ => show win8_7.index t (0 : Fin 2) * 1 + 1 * (y 0).val = (y 0).val; omega
  | ⟨1, _⟩ => show win8_7.index t (1 : Fin 2) * 128 + 1 * (y 1).val = (y 1).val; omega

/-- Input window 8's block at the point is its array. -/
theorem iblk8_8_eq (c : Dev nD) (t : Fin cfg8.N) : (iblk8 V c 8 t : Vec F S1x128 .f32) = V c (Pipeline.arrRef spec8 8) := by
  obtain ⟨e0_0, e0_1, e1_0, e1_1, e2_0, e2_1, e3_0, e3_1, e4_0, e4_1, e5_0, e5_1, e6_0, e6_1, e7_0, e7_1, e8_0, e8_1, e9_0, e9_1⟩ := idx_facts8 t
  funext y
  show V c (Pipeline.arrRef spec8 8) (((cfg8.win 8).blk t).view.emb y) = V c (Pipeline.arrRef spec8 8) y
  refine congrArg _ (funext fun a => Fin.ext ?_)
  match a with
  | ⟨0, _⟩ => show win8_8.index t (0 : Fin 2) * 1 + 1 * (y 0).val = (y 0).val; omega
  | ⟨1, _⟩ => show win8_8.index t (1 : Fin 2) * 128 + 1 * (y 1).val = (y 1).val; omega

end AnyF

/-- An index of the output window's block is that index of its array. -/
theorem emb8_9 (t : Fin cfg8.N) (j : S256x128.Idx) : ((cfg8.win 9).blk t).view.emb j = j := by
  obtain ⟨e0_0, e0_1, e1_0, e1_1, e2_0, e2_1, e3_0, e3_1, e4_0, e4_1, e5_0, e5_1, e6_0, e6_1, e7_0, e7_1, e8_0, e8_1, e9_0, e9_1⟩ := idx_facts8 t
  funext a; apply Fin.ext
  match a with
  | ⟨0, _⟩ => show win8_9.index t (0 : Fin 2) * 256 + 1 * (j 0).val = (j 0).val; omega
  | ⟨1, _⟩ => show win8_9.index t (1 : Fin 2) * 128 + 1 * (j 1).val = (j 1).val; omega

/-! ## What the point writes back, and the array after the region -/

variable (V : (c : Dev nD) → (b : Ref sig .tc) → Buf (Elt Ideal) ((c : Thread nD τ).loc b))

set_option maxHeartbeats 1000000 in
/-- What the point writes back to the output window's array is its block of `Cert.Spec.vnG` of the input arrays as the region finds them. -/
theorem flushed8_9_eq (c : Dev nD) (t : Fin cfg8.N) :
    (dat8 (F := Ideal) V c).flushed 9 t
      = ((cfg8.win 9).blk t).view.read (Elt Ideal) (Cert.Spec.vnG (V c (Pipeline.arrRef spec8 0)) (V c (Pipeline.arrRef spec8 1)) (V c (Pipeline.arrRef spec8 2)) (V c (Pipeline.arrRef spec8 3)) (V c (Pipeline.arrRef spec8 4)) (V c (Pipeline.arrRef spec8 5)) (V c (Pipeline.arrRef spec8 6)) (V c (Pipeline.arrRef spec8 7)) (V c (Pipeline.arrRef spec8 8))) := by
  show (cfg8.win 9).cut (grid8.coords t) ((dat8 V c).after 9 t) = _
  rw [after8_9]
  unfold out8_9
  rw [View.canon_unit_zero hz8]
  simp only [View.ld_unit_zero (S := S256x128) hz8, View.ld_unit_zero (S := S128x256) hz8, View.ld_unit_zero (S := S1x256) hz8, View.ld_unit_zero (S := S1x128) hz8]
  rw [iblk8_0_eq, iblk8_1_eq, iblk8_2_eq, iblk8_3_eq, iblk8_4_eq, iblk8_5_eq, iblk8_6_eq, iblk8_7_eq, iblk8_8_eq, pay8_eq]
  funext j
  show Cert.Spec.vnG (V c (Pipeline.arrRef spec8 0)) (V c (Pipeline.arrRef spec8 1)) (V c (Pipeline.arrRef spec8 2)) (V c (Pipeline.arrRef spec8 3)) (V c (Pipeline.arrRef spec8 4)) (V c (Pipeline.arrRef spec8 5)) (V c (Pipeline.arrRef spec8 6)) (V c (Pipeline.arrRef spec8 7)) (V c (Pipeline.arrRef spec8 8)) j
    = Cert.Spec.vnG (V c (Pipeline.arrRef spec8 0)) (V c (Pipeline.arrRef spec8 1)) (V c (Pipeline.arrRef spec8 2)) (V c (Pipeline.arrRef spec8 3)) (V c (Pipeline.arrRef spec8 4)) (V c (Pipeline.arrRef spec8 5)) (V c (Pipeline.arrRef spec8 6)) (V c (Pipeline.arrRef spec8 7)) (V c (Pipeline.arrRef spec8 8)) (((cfg8.win 9).blk t).view.emb j)
  rw [emb8_9]

/-- An index of the array is in the point's block iff each coordinate is in the block's range on its axis. -/
theorem mem_blk8_9 (t : Fin cfg8.N) (i : S256x128.Idx) :
    i ∈ ((cfg8.win 9).blk t).view.set ↔ ∀ a : Fin 2, win8_9.index t a * S256x128.size a ≤ (i a).val ∧ (i a).val < win8_9.index t a * S256x128.size a + S256x128.size a := by
  show i ∈ ((View.whole (Pipeline.arrRef spec8 9)).slice (win8_9.rect t)).set ↔ _
  rw [View.set_slice_whole, Rect.mem_set_unit]
  exact Iff.rfl

/-- The one point's block covers the output array. -/
theorem covered8_9 (i : S256x128.Idx) : ∃ t : Fin cfg8.N, (cfg8.win 9).flush t = true ∧ i ∈ ((cfg8.win 9).blk t).view.set := by
  refine ⟨⟨0, by decide⟩, flush8_9 _, ?_⟩
  rw [mem_blk8_9]
  obtain ⟨e0_0, e0_1, e1_0, e1_1, e2_0, e2_1, e3_0, e3_1, e4_0, e4_1, e5_0, e5_1, e6_0, e6_1, e7_0, e7_1, e8_0, e8_1, e9_0, e9_1⟩ := idx_facts8 ⟨0, by decide⟩
  have h0 : (i 0).val < 256 := idx2_lt0 i
  have h1 : (i 1).val < 128 := idx2_lt1 i
  intro a
  match a with
  | ⟨0, _⟩ => show win8_9.index ⟨0, by decide⟩ (0 : Fin 2) * 256 ≤ (i 0).val ∧ (i 0).val < win8_9.index ⟨0, by decide⟩ (0 : Fin 2) * 256 + 256; omega
  | ⟨1, _⟩ => show win8_9.index ⟨0, by decide⟩ (1 : Fin 2) * 128 ≤ (i 1).val ∧ (i 1).val < win8_9.index ⟨0, by decide⟩ (1 : Fin 2) * 128 + 128; omega

/-- THE ARRAY after the region: `Cert.Spec.vnG` of the input arrays as the region finds them. -/
theorem final8 (c : Dev nD) :
    (dat8 (F := Ideal) V c).arrAt 9 cfg8.N = Cert.Spec.vnG (V c (Pipeline.arrRef spec8 0)) (V c (Pipeline.arrRef spec8 1)) (V c (Pipeline.arrRef spec8 2)) (V c (Pipeline.arrRef spec8 3)) (V c (Pipeline.arrRef spec8 4)) (V c (Pipeline.arrRef spec8 5)) (V c (Pipeline.arrRef spec8 6)) (V c (Pipeline.arrRef spec8 7)) (V c (Pipeline.arrRef spec8 8)) :=
  (dat8 (F := Ideal) V c).arrAt_eq_of_cover 9 _ (fun t _ => flushed8_9_eq V c t) covered8_9

end Cert.KernelIdeal.HandValue

end
-- ==== Proof.GinPay9.lean ====
import proofs.«403491_j395136991532_1_alg».proof.Proof.Gen.KernelIdeal.Skeleton
import proofs.«403491_j395136991532_1_alg».proof.Proof.SpecNet
import Idealize.ShloMosaic.Lib.Pipeline.Value
import Idealize.ShloMosaic.Lib.ValueLayout
import Idealize.ShloMosaic.PureOps.Ideal.Laws

/-! # Region 9's payloads read at one index, at the extended reals

The body stores one value per node row `p` and feature `q`. Reading the two payloads at `(p, q)`: every pointwise
operation is the extended reals' operation on the elements, a row broadcast reads its one row, a change of format is
the identity, and each matrix product is the sum over its contracted axis. What comes out is the specification's
folded perceptron of the row's input `(1 + eps) * h_in + agg`. -/

noncomputable section

namespace Cert.KernelIdeal.HandValue

open Cert.KernelIdeal Cert.KernelIdeal.Gen Cert.Spec
open Idealize.ShloMosaic Idealize.ShloMosaic.ValueIdx

/-! ## The two matrix products at an index -/

theorem k9_mm1_lhs_0 (i : S5000x256.Idx) (q : dot_S5000x128_S128x256_S5000x256_1_0_0_1_n_n.contr.Idx) :
    (dot_S5000x128_S128x256_S5000x256_1_0_0_1_n_n.lhsIdx i q 0).val = (i 0).val := by
  unfold DotDims.lhsIdx
  rw [dif_neg (show ¬(0 : Fin S5000x128.rank) ∈ dot_S5000x128_S128x256_S5000x256_1_0_0_1_n_n.lhsBatch by decide), dif_pos (show (0 : Fin S5000x128.rank) ∈ dot_S5000x128_S128x256_S5000x256_1_0_0_1_n_n.lhsNonContracting by decide)]
  rfl
theorem k9_mm1_lhs_1 (i : S5000x256.Idx) (q : dot_S5000x128_S128x256_S5000x256_1_0_0_1_n_n.contr.Idx) :
    (dot_S5000x128_S128x256_S5000x256_1_0_0_1_n_n.lhsIdx i q 1).val = (q ⟨0, by decide⟩).val :=
  dot_S5000x128_S128x256_S5000x256_1_0_0_1_n_n.lhsIdx_val_of_single rfl i q
theorem k9_mm1_rhs_0 (i : S5000x256.Idx) (q : dot_S5000x128_S128x256_S5000x256_1_0_0_1_n_n.contr.Idx) :
    (dot_S5000x128_S128x256_S5000x256_1_0_0_1_n_n.rhsIdx i q 0).val = (q ⟨0, by decide⟩).val :=
  dot_S5000x128_S128x256_S5000x256_1_0_0_1_n_n.rhsIdx_val_of_single rfl i q
theorem k9_mm1_rhs_1 (i : S5000x256.Idx) (q : dot_S5000x128_S128x256_S5000x256_1_0_0_1_n_n.contr.Idx) :
    (dot_S5000x128_S128x256_S5000x256_1_0_0_1_n_n.rhsIdx i q 1).val = (i 1).val := by
  unfold DotDims.rhsIdx
  rw [dif_neg (show ¬(1 : Fin S128x256.rank) ∈ dot_S5000x128_S128x256_S5000x256_1_0_0_1_n_n.rhsBatch by decide), dif_pos (show (1 : Fin S128x256.rank) ∈ dot_S5000x128_S128x256_S5000x256_1_0_0_1_n_n.rhsNonContracting by decide)]
  rfl

/-- The product read at row `p`, column `j`: the sum over the 128 contracted positions. -/
theorem k9_mm1_apply (a : FVec Ideal S5000x128 .bf16) (b : FVec Ideal S128x256 .bf16) (p : Fin 5000) (j : Fin 256) :
    matmul dot_S5000x128_S128x256_S5000x256_1_0_0_1_n_n none a b (constant (F := Ideal) S5000x256 .f32 0x00000000#32) (ix2 p j)
      = ∑ k : Fin 128, a (ix2 p k) * b (ix2 k j) := by
  simp only [matmul]
  rw [Ideal.matmul_constant_zero_apply, ← Equiv.sum_comp (contrEquiv1 dot_S5000x128_S128x256_S5000x256_1_0_0_1_n_n 128 rfl rfl).symm]
  refine Finset.sum_congr rfl fun k _ => ?_
  have hk := contrEquiv1_symm_val dot_S5000x128_S128x256_S5000x256_1_0_0_1_n_n 128 rfl rfl k
  have el : dot_S5000x128_S128x256_S5000x256_1_0_0_1_n_n.lhsIdx (ix2 p j) ((contrEquiv1 dot_S5000x128_S128x256_S5000x256_1_0_0_1_n_n 128 rfl rfl).symm k) = ix2 p k := funext fun ax => Fin.ext (by
    match ax with
    | ⟨0, _⟩ => exact k9_mm1_lhs_0 _ _
    | ⟨1, _⟩ => exact (k9_mm1_lhs_1 _ _).trans hk)
  have er : dot_S5000x128_S128x256_S5000x256_1_0_0_1_n_n.rhsIdx (ix2 p j) ((contrEquiv1 dot_S5000x128_S128x256_S5000x256_1_0_0_1_n_n 128 rfl rfl).symm k) = ix2 k j := funext fun ax => Fin.ext (by
    match ax with
    | ⟨0, _⟩ => exact (k9_mm1_rhs_0 _ _).trans hk
    | ⟨1, _⟩ => exact k9_mm1_rhs_1 _ _)
  rw [el, er]

theorem k9_mm2_lhs_0 (i : S5000x128.Idx) (q : dot_S5000x256_S256x128_S5000x128_1_0_0_1_n_n.contr.Idx) :
    (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
theorem k9_mm2_lhs_1 (i : S5000x128.Idx) (q : dot_S5000x256_S256x128_S5000x128_1_0_0_1_n_n.contr.Idx) :
    (dot_S5000x256_S256x128_S5000x128_1_0_0_1_n_n.lhsIdx i q 1).val = (q ⟨0, by decide⟩).val :=
  dot_S5000x256_S256x128_S5000x128_1_0_0_1_n_n.lhsIdx_val_of_single rfl i q
theorem k9_mm2_rhs_0 (i : S5000x128.Idx) (q : dot_S5000x256_S256x128_S5000x128_1_0_0_1_n_n.contr.Idx) :
    (dot_S5000x256_S256x128_S5000x128_1_0_0_1_n_n.rhsIdx i q 0).val = (q ⟨0, by decide⟩).val :=
  dot_S5000x256_S256x128_S5000x128_1_0_0_1_n_n.rhsIdx_val_of_single rfl i q
theorem k9_mm2_rhs_1 (i : S5000x128.Idx) (q : dot_S5000x256_S256x128_S5000x128_1_0_0_1_n_n.contr.Idx) :
    (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- The product read at row `p`, column `j`: the sum over the 256 contracted positions. -/
theorem k9_mm2_apply (a : FVec Ideal S5000x256 .bf16) (b : FVec Ideal S256x128 .bf16) (p : Fin 5000) (j : Fin 128) :
    matmul dot_S5000x256_S256x128_S5000x128_1_0_0_1_n_n none a b (constant (F := Ideal) S5000x128 .f32 0x00000000#32) (ix2 p j)
      = ∑ k : Fin 256, a (ix2 p k) * b (ix2 k j) := by
  simp only [matmul]
  rw [Ideal.matmul_constant_zero_apply, ← Equiv.sum_comp (contrEquiv1 dot_S5000x256_S256x128_S5000x128_1_0_0_1_n_n 256 rfl rfl).symm]
  refine Finset.sum_congr rfl fun k _ => ?_
  have hk := contrEquiv1_symm_val dot_S5000x256_S256x128_S5000x128_1_0_0_1_n_n 256 rfl rfl k
  have el : dot_S5000x256_S256x128_S5000x128_1_0_0_1_n_n.lhsIdx (ix2 p j) ((contrEquiv1 dot_S5000x256_S256x128_S5000x128_1_0_0_1_n_n 256 rfl rfl).symm k) = ix2 p k := funext fun ax => Fin.ext (by
    match ax with
    | ⟨0, _⟩ => exact k9_mm2_lhs_0 _ _
    | ⟨1, _⟩ => exact (k9_mm2_lhs_1 _ _).trans hk)
  have er : dot_S5000x256_S256x128_S5000x128_1_0_0_1_n_n.rhsIdx (ix2 p j) ((contrEquiv1 dot_S5000x256_S256x128_S5000x128_1_0_0_1_n_n 256 rfl rfl).symm k) = ix2 k j := funext fun ax => Fin.ext (by
    match ax with
    | ⟨0, _⟩ => exact (k9_mm2_rhs_0 _ _).trans hk
    | ⟨1, _⟩ => exact k9_mm2_rhs_1 _ _)
  rw [el, er]

/-! ## The one-element broadcast -/

/-- A `[1, 1]` array broadcast over the block reads its one element everywhere. -/
theorem k9_bcast11_apply {α : Type} (v : S1x1.Idx → α) (h : S1x1.Broadcasts S5000x128) (p : Fin 5000) (k : Fin 128) :
    broadcastTo S5000x128 v h (ix2 p k) = v (ix2 (0 : Fin 1) (0 : Fin 1)) := by
  refine broadcastTo_apply v h (ix2 p k) (ix2 (0 : Fin 1) (0 : Fin 1)) fun ax => ?_
  match ax with
  | ⟨0, _⟩ => rfl
  | ⟨1, _⟩ => rfl

/-! ## The payloads at an index -/

/-- Whether this layer ends with a clamp at zero. -/
abbrev k9_relu : Bool := true

/-- The first payload at `(p, q)`: the second product's sum over the 256 hidden entries of row `p`, plus the bias. -/
theorem k9_pay2_apply (e : Vec Ideal S1x1 .f32) (hin agg : Vec Ideal S5000x128 .f32) (w1 : Vec Ideal S128x256 .bf16)
    (b1 s1 sh1 : Vec Ideal S1x256 .f32) (w2 : Vec Ideal S256x128 .bf16) (b2 : Vec Ideal S1x128 .f32) (p : Fin 5000) (q : Fin 128) :
    k9_pay2 (F := Ideal) e hin agg w1 b1 s1 sh1 w2 b2 (ix2 p q)
      = (∑ j : Fin 256, hiddenK (fun k => (oneF + e (ix2 0 0)) * hin (ix2 p k) + agg (ix2 p k)) w1 b1 s1 sh1 j * w2 (ix2 j q))
          + b2 (ix2 0 q) := by
  unfold k9_pay2
  simp only [shapeCast_self, addf_apply, k9_mm2_apply, broadcastTo_1b_ab_apply, truncf_apply, maximumf_apply, broadcast_apply,
    mulf_apply, k9_mm1_apply, k9_bcast11_apply]
  rfl

/-- The last payload at `(p, q)`: scale and shift of the entry, then the clamp at zero if the layer has one. -/
theorem k9_pay1_apply (v : FVec Ideal S5000x128 .f32) (s2 sh2 : Vec Ideal S1x128 .f32) (p : Fin 5000) (q : Fin 128) :
    k9_pay1 (F := Ideal) v s2 sh2 (ix2 p q)
      = (if k9_relu then max (v (ix2 p q) * s2 (ix2 0 q) + sh2 (ix2 0 q)) zeroF else v (ix2 p q) * s2 (ix2 0 q) + sh2 (ix2 0 q)) := by
  unfold k9_pay1
  simp only [shapeCast_self, addf_apply, broadcastTo_1b_ab_apply, maximumf_apply, broadcast_apply, mulf_apply]
  rfl

/-- What the body stores at `(p, q)`, from the eleven input blocks: the folded perceptron of row `p`'s input
    `(1 + eps) * h_in + agg`, read at feature `q`. -/
theorem k9_out_apply (x0 x1 : Vec Ideal S5000x128 .f32) (x2 : Vec Ideal S1x1 .f32) (x3 : Vec Ideal S128x256 .bf16)
    (x4 x5 x6 : Vec Ideal S1x256 .f32) (x7 : Vec Ideal S256x128 .bf16) (x8 x9 x10 : Vec Ideal S1x128 .f32) (p : Fin 5000) (q : Fin 128) :
    k9_pay1 (F := Ideal) (k9_pay2 (F := Ideal) x2 x0 x1 x3 x4 x5 x6 x7 x8) x9 x10 (ix2 p q)
      = (let o := outK (hiddenK (fun k => (oneF + x2 (ix2 0 0)) * x0 (ix2 p k) + x1 (ix2 p k)) x3 x4 x5 x6) x7 x8 x9 x10 q
         if k9_relu then max o zeroF else o) := by
  rw [k9_pay1_apply, k9_pay2_apply]
  rfl

end Cert.KernelIdeal.HandValue
-- ==== Proof.GinValue9.lean ====
import proofs.«403491_j395136991532_1_alg».proof.Proof.GinRegion9
import proofs.«403491_j395136991532_1_alg».proof.Proof.GinPay9
import Idealize.ShloMosaic.Lib.Pipeline.Value

/-! # Region 9 read at the extended reals: the value half

Point `t` of the ten writes back block `t` of the output array: rows `5000 t` to `5000 t + 4999`. Its two tiled inputs
are the same rows of their arrays, its nine resident inputs their whole arrays, so what it writes at row `p` of the
block is the specification's folded perceptron of array row `5000 t + p`. The ten blocks tile the 50000 rows, so after
the region the output array is the specification's whole-array function of the eleven argument arrays. -/

set_option maxRecDepth 16384

noncomputable section

namespace Cert.KernelIdeal.HandValue

open Cert.KernelIdeal Cert.KernelIdeal.Gen Cert.KernelIdeal.Hand Cert.Spec
open Idealize.ShloMosaic Idealize.ShloMosaic.TcCoe Idealize.SL.Sem Idealize.ShloMosaic.ValueIdx
open Idealize.ShloMosaic.Pipeline (Dat)

-- the TensorCore's buffer contents when the region is entered, at the extended reals
variable (V : (c : Dev nD) → (b : Ref sig .tc) → Buf (Elt Ideal) ((c : Thread nD τ).loc b))

theorem k9_hz : (![0, 0] : Fin 2 → Nat) = fun _ => 0 := funext fun a => by fin_cases a <;> rfl

/-! ## The printed index maps, decided over the ten points -/

/-- The output and the two tiled inputs sit at block row `t`, block column 0. -/
theorem k9_idx_11 : ∀ t : Fin cfg9.N, win9_11.index t (0 : Fin 2) = t.val ∧ win9_11.index t (1 : Fin 2) = 0 :=
  (by decide +kernel : ∀ t : Fin grid9.N, _)
theorem k9_idx_0 : ∀ t : Fin cfg9.N, win9_0.index t (0 : Fin 2) = t.val ∧ win9_0.index t (1 : Fin 2) = 0 :=
  (by decide +kernel : ∀ t : Fin grid9.N, _)
theorem k9_idx_1 : ∀ t : Fin cfg9.N, win9_1.index t (0 : Fin 2) = t.val ∧ win9_1.index t (1 : Fin 2) = 0 :=
  (by decide +kernel : ∀ t : Fin grid9.N, _)
/-- The nine resident inputs stay at block (0, 0). -/
theorem k9_idx_2 : ∀ t : Fin cfg9.N, win9_2.index t (0 : Fin 2) = 0 ∧ win9_2.index t (1 : Fin 2) = 0 :=
  (by decide +kernel : ∀ t : Fin grid9.N, _)
theorem k9_idx_3 : ∀ t : Fin cfg9.N, win9_3.index t (0 : Fin 2) = 0 ∧ win9_3.index t (1 : Fin 2) = 0 :=
  (by decide +kernel : ∀ t : Fin grid9.N, _)
theorem k9_idx_4 : ∀ t : Fin cfg9.N, win9_4.index t (0 : Fin 2) = 0 ∧ win9_4.index t (1 : Fin 2) = 0 :=
  (by decide +kernel : ∀ t : Fin grid9.N, _)
theorem k9_idx_5 : ∀ t : Fin cfg9.N, win9_5.index t (0 : Fin 2) = 0 ∧ win9_5.index t (1 : Fin 2) = 0 :=
  (by decide +kernel : ∀ t : Fin grid9.N, _)
theorem k9_idx_6 : ∀ t : Fin cfg9.N, win9_6.index t (0 : Fin 2) = 0 ∧ win9_6.index t (1 : Fin 2) = 0 :=
  (by decide +kernel : ∀ t : Fin grid9.N, _)
theorem k9_idx_7 : ∀ t : Fin cfg9.N, win9_7.index t (0 : Fin 2) = 0 ∧ win9_7.index t (1 : Fin 2) = 0 :=
  (by decide +kernel : ∀ t : Fin grid9.N, _)
theorem k9_idx_8 : ∀ t : Fin cfg9.N, win9_8.index t (0 : Fin 2) = 0 ∧ win9_8.index t (1 : Fin 2) = 0 :=
  (by decide +kernel : ∀ t : Fin grid9.N, _)
theorem k9_idx_9 : ∀ t : Fin cfg9.N, win9_9.index t (0 : Fin 2) = 0 ∧ win9_9.index t (1 : Fin 2) = 0 :=
  (by decide +kernel : ∀ t : Fin grid9.N, _)
theorem k9_idx_10 : ∀ t : Fin cfg9.N, win9_10.index t (0 : Fin 2) = 0 ∧ win9_10.index t (1 : Fin 2) = 0 :=
  (by decide +kernel : ∀ t : Fin grid9.N, _)

/-! ## The input blocks at a point, read off the arrays -/

/-- The array row that row `p` of block `t` is. -/
def k9_rowOf (t : Fin cfg9.N) (p : Fin 5000) : Fin 50000 :=
  ⟨t.val * 5000 + p.val, by have ht : t.val < grid9.N := t.isLt; rw [N_9] at ht; have hp := p.isLt; omega⟩

/-- Element `(p, k)` of a tiled window's block `t` sits at array row `5000 t + p`, column `k`. -/
theorem k9_emb_11 (t : Fin cfg9.N) (p : Fin 5000) (k : Fin 128) :
    ((cfg9.win 11).blk t).view.emb (ix2 p k) = ix2 (k9_rowOf t p) k := by
  obtain ⟨e0, e1⟩ := k9_idx_11 t
  funext a; apply Fin.ext
  match a with
  | ⟨0, _⟩ => show win9_11.index t (0 : Fin 2) * 5000 + 1 * p.val = t.val * 5000 + p.val; omega
  | ⟨1, _⟩ => show win9_11.index t (1 : Fin 2) * 128 + 1 * k.val = k.val; omega
theorem k9_emb_0 (t : Fin cfg9.N) (p : Fin 5000) (k : Fin 128) :
    ((cfg9.win 0).blk t).view.emb (ix2 p k) = ix2 (k9_rowOf t p) k := by
  obtain ⟨e0, e1⟩ := k9_idx_0 t
  funext a; apply Fin.ext
  match a with
  | ⟨0, _⟩ => show win9_0.index t (0 : Fin 2) * 5000 + 1 * p.val = t.val * 5000 + p.val; omega
  | ⟨1, _⟩ => show win9_0.index t (1 : Fin 2) * 128 + 1 * k.val = k.val; omega
theorem k9_emb_1 (t : Fin cfg9.N) (p : Fin 5000) (k : Fin 128) :
    ((cfg9.win 1).blk t).view.emb (ix2 p k) = ix2 (k9_rowOf t p) k := by
  obtain ⟨e0, e1⟩ := k9_idx_1 t
  funext a; apply Fin.ext
  match a with
  | ⟨0, _⟩ => show win9_1.index t (0 : Fin 2) * 5000 + 1 * p.val = t.val * 5000 + p.val; omega
  | ⟨1, _⟩ => show win9_1.index t (1 : Fin 2) * 128 + 1 * k.val = k.val; omega

/-- So a tiled input's block `t` at `(p, k)` is its array at row `5000 t + p`, column `k`. -/
theorem k9_row_0 (c : Dev nD) (t : Fin cfg9.N) (p : Fin 5000) (k : Fin 128) :
    iblk9 V c 0 t (ix2 p k) = V c (Pipeline.arrRef spec9 0) (ix2 (k9_rowOf t p) k) := by
  show V c (Pipeline.arrRef spec9 0) (((cfg9.win 0).blk t).view.emb (ix2 p k)) = _
  rw [k9_emb_0]
theorem k9_row_1 (c : Dev nD) (t : Fin cfg9.N) (p : Fin 5000) (k : Fin 128) :
    iblk9 V c 1 t (ix2 p k) = V c (Pipeline.arrRef spec9 1) (ix2 (k9_rowOf t p) k) := by
  show V c (Pipeline.arrRef spec9 1) (((cfg9.win 1).blk t).view.emb (ix2 p k)) = _
  rw [k9_emb_1]

/-- A resident input's block at every point is its whole array. -/
theorem k9_blk_2 (c : Dev nD) (t : Fin cfg9.N) : iblk9 V c 2 t = V c (Pipeline.arrRef spec9 2) := by
  obtain ⟨e0, e1⟩ := k9_idx_2 t
  funext y
  show V c (Pipeline.arrRef spec9 2) (((cfg9.win 2).blk t).view.emb y) = V c (Pipeline.arrRef spec9 2) y
  refine congrArg _ (funext fun a => Fin.ext ?_)
  match a with
  | ⟨0, _⟩ => show win9_2.index t (0 : Fin 2) * 1 + 1 * (y 0).val = (y 0).val; omega
  | ⟨1, _⟩ => show win9_2.index t (1 : Fin 2) * 1 + 1 * (y 1).val = (y 1).val; omega
theorem k9_blk_3 (c : Dev nD) (t : Fin cfg9.N) : iblk9 V c 3 t = V c (Pipeline.arrRef spec9 3) := by
  obtain ⟨e0, e1⟩ := k9_idx_3 t
  funext y
  show V c (Pipeline.arrRef spec9 3) (((cfg9.win 3).blk t).view.emb y) = V c (Pipeline.arrRef spec9 3) y
  refine congrArg _ (funext fun a => Fin.ext ?_)
  match a with
  | ⟨0, _⟩ => show win9_3.index t (0 : Fin 2) * 128 + 1 * (y 0).val = (y 0).val; omega
  | ⟨1, _⟩ => show win9_3.index t (1 : Fin 2) * 256 + 1 * (y 1).val = (y 1).val; omega
theorem k9_blk_4 (c : Dev nD) (t : Fin cfg9.N) : iblk9 V c 4 t = V c (Pipeline.arrRef spec9 4) := by
  obtain ⟨e0, e1⟩ := k9_idx_4 t
  funext y
  show V c (Pipeline.arrRef spec9 4) (((cfg9.win 4).blk t).view.emb y) = V c (Pipeline.arrRef spec9 4) y
  refine congrArg _ (funext fun a => Fin.ext ?_)
  match a with
  | ⟨0, _⟩ => show win9_4.index t (0 : Fin 2) * 1 + 1 * (y 0).val = (y 0).val; omega
  | ⟨1, _⟩ => show win9_4.index t (1 : Fin 2) * 256 + 1 * (y 1).val = (y 1).val; omega
theorem k9_blk_5 (c : Dev nD) (t : Fin cfg9.N) : iblk9 V c 5 t = V c (Pipeline.arrRef spec9 5) := by
  obtain ⟨e0, e1⟩ := k9_idx_5 t
  funext y
  show V c (Pipeline.arrRef spec9 5) (((cfg9.win 5).blk t).view.emb y) = V c (Pipeline.arrRef spec9 5) y
  refine congrArg _ (funext fun a => Fin.ext ?_)
  match a with
  | ⟨0, _⟩ => show win9_5.index t (0 : Fin 2) * 1 + 1 * (y 0).val = (y 0).val; omega
  | ⟨1, _⟩ => show win9_5.index t (1 : Fin 2) * 256 + 1 * (y 1).val = (y 1).val; omega
theorem k9_blk_6 (c : Dev nD) (t : Fin cfg9.N) : iblk9 V c 6 t = V c (Pipeline.arrRef spec9 6) := by
  obtain ⟨e0, e1⟩ := k9_idx_6 t
  funext y
  show V c (Pipeline.arrRef spec9 6) (((cfg9.win 6).blk t).view.emb y) = V c (Pipeline.arrRef spec9 6) y
  refine congrArg _ (funext fun a => Fin.ext ?_)
  match a with
  | ⟨0, _⟩ => show win9_6.index t (0 : Fin 2) * 1 + 1 * (y 0).val = (y 0).val; omega
  | ⟨1, _⟩ => show win9_6.index t (1 : Fin 2) * 256 + 1 * (y 1).val = (y 1).val; omega
theorem k9_blk_7 (c : Dev nD) (t : Fin cfg9.N) : iblk9 V c 7 t = V c (Pipeline.arrRef spec9 7) := by
  obtain ⟨e0, e1⟩ := k9_idx_7 t
  funext y
  show V c (Pipeline.arrRef spec9 7) (((cfg9.win 7).blk t).view.emb y) = V c (Pipeline.arrRef spec9 7) y
  refine congrArg _ (funext fun a => Fin.ext ?_)
  match a with
  | ⟨0, _⟩ => show win9_7.index t (0 : Fin 2) * 256 + 1 * (y 0).val = (y 0).val; omega
  | ⟨1, _⟩ => show win9_7.index t (1 : Fin 2) * 128 + 1 * (y 1).val = (y 1).val; omega
theorem k9_blk_8 (c : Dev nD) (t : Fin cfg9.N) : iblk9 V c 8 t = V c (Pipeline.arrRef spec9 8) := by
  obtain ⟨e0, e1⟩ := k9_idx_8 t
  funext y
  show V c (Pipeline.arrRef spec9 8) (((cfg9.win 8).blk t).view.emb y) = V c (Pipeline.arrRef spec9 8) y
  refine congrArg _ (funext fun a => Fin.ext ?_)
  match a with
  | ⟨0, _⟩ => show win9_8.index t (0 : Fin 2) * 1 + 1 * (y 0).val = (y 0).val; omega
  | ⟨1, _⟩ => show win9_8.index t (1 : Fin 2) * 128 + 1 * (y 1).val = (y 1).val; omega
theorem k9_blk_9 (c : Dev nD) (t : Fin cfg9.N) : iblk9 V c 9 t = V c (Pipeline.arrRef spec9 9) := by
  obtain ⟨e0, e1⟩ := k9_idx_9 t
  funext y
  show V c (Pipeline.arrRef spec9 9) (((cfg9.win 9).blk t).view.emb y) = V c (Pipeline.arrRef spec9 9) y
  refine congrArg _ (funext fun a => Fin.ext ?_)
  match a with
  | ⟨0, _⟩ => show win9_9.index t (0 : Fin 2) * 1 + 1 * (y 0).val = (y 0).val; omega
  | ⟨1, _⟩ => show win9_9.index t (1 : Fin 2) * 128 + 1 * (y 1).val = (y 1).val; omega
theorem k9_blk_10 (c : Dev nD) (t : Fin cfg9.N) : iblk9 V c 10 t = V c (Pipeline.arrRef spec9 10) := by
  obtain ⟨e0, e1⟩ := k9_idx_10 t
  funext y
  show V c (Pipeline.arrRef spec9 10) (((cfg9.win 10).blk t).view.emb y) = V c (Pipeline.arrRef spec9 10) y
  refine congrArg _ (funext fun a => Fin.ext ?_)
  match a with
  | ⟨0, _⟩ => show win9_10.index t (0 : Fin 2) * 1 + 1 * (y 0).val = (y 0).val; omega
  | ⟨1, _⟩ => show win9_10.index t (1 : Fin 2) * 128 + 1 * (y 1).val = (y 1).val; omega

/-! ## What a point writes back -/

/-- Reading the output window's block `t` of any array at `(p, q)` reads the array at row `5000 t + p`, column `q`. -/
theorem k9_read_11 (t : Fin cfg9.N) (G : RArr sNxD) (p : Fin 5000) (q : Fin 128) :
    ((cfg9.win 11).blk t).view.read (Elt Ideal) G (ix2 p q) = G (ix2 (k9_rowOf t p) q) := by
  show G (((cfg9.win 11).blk t).view.emb (ix2 p q)) = _
  rw [k9_emb_11]

/-- The output window is never cut: what a point writes back is the whole staging buffer. -/
theorem k9_cut_11 (t : Fin cfg9.N) (X : FVec Ideal S5000x128 .f32) (p : Fin 5000) (q : Fin 128) :
    (cfg9.win 11).cut (grid9.coords t) X (ix2 p q) = X (ix2 p q) := rfl

/-- What the body leaves in the output buffer at point `t`: the last payload over the first, of the eleven input blocks. -/
theorem k9_after_eq (c : Dev nD) (t : Fin cfg9.N) :
    (dat9 (F := Ideal) V c).after 11 t
      = k9_pay1 (F := Ideal) (k9_pay2 (F := Ideal) (iblk9 V c 2 t) (iblk9 V c 0 t) (iblk9 V c 1 t) (iblk9 V c 3 t) (iblk9 V c 4 t) (iblk9 V c 5 t)
          (iblk9 V c 6 t) (iblk9 V c 7 t) (iblk9 V c 8 t)) (iblk9 V c 9 t) (iblk9 V c 10 t) := by
  rw [after9_11]
  unfold out9_11
  rw [View.canon_unit_zero k9_hz]
  simp only [View.ld_unit_zero (S := S5000x128) k9_hz, View.ld_unit_zero (S := S1x1) k9_hz, View.ld_unit_zero (S := S128x256) k9_hz,
    View.ld_unit_zero (S := S1x256) k9_hz, View.ld_unit_zero (S := S256x128) k9_hz, View.ld_unit_zero (S := S1x128) k9_hz]

/-- The stored value as the specification's: if the two tiled blocks' row `p` is the arrays' row `P` and the nine
    resident blocks are their arrays, what the body stores at `(p, q)` is the specification's layer at `(P, q)`. -/
theorem k9_out_eq_spec (A0 A1 : RArr sNxD) (A2 : RArr s1x1) (A3 : RArr sDxD2) (A4 A5 A6 : RArr s1xD2) (A7 : RArr sD2xD) (A8 A9 A10 : RArr s1xD)
    (x0 x1 : Vec Ideal S5000x128 .f32) (x2 : Vec Ideal S1x1 .f32) (x3 : Vec Ideal S128x256 .bf16)
    (x4 x5 x6 : Vec Ideal S1x256 .f32) (x7 : Vec Ideal S256x128 .bf16) (x8 x9 x10 : Vec Ideal S1x128 .f32)
    (P : Fin 50000) (p : Fin 5000) (q : Fin 128)
    (h0 : ∀ k : Fin 128, x0 (ix2 p k) = A0 (ix2 P k)) (h1 : ∀ k : Fin 128, x1 (ix2 p k) = A1 (ix2 P k))
    (h2 : x2 = A2) (h3 : x3 = A3) (h4 : x4 = A4) (h5 : x5 = A5) (h6 : x6 = A6) (h7 : x7 = A7) (h8 : x8 = A8) (h9 : x9 = A9) (h10 : x10 = A10) :
    k9_pay1 (F := Ideal) (k9_pay2 (F := Ideal) x2 x0 x1 x3 x4 x5 x6 x7 x8) x9 x10 (ix2 p q)
      = ginG k9_relu A0 A1 A2 A3 A4 A5 A6 A7 A8 A9 A10 (ix2 P q) := by
  subst h2 h3 h4 h5 h6 h7 h8 h9 h10
  rw [k9_out_apply]
  have hz : (fun k : Fin 128 => (oneF + x2 (ix2 0 0)) * x0 (ix2 p k) + x1 (ix2 p k)) = ginZ A0 A1 x2 P := funext fun k => by
    rw [h0, h1]; rfl
  rw [hz]
  rfl

-- the eleven argument arrays are each checked against their literal shapes twice here, once in the statement and once in the proof
set_option maxHeartbeats 1000000 in
/-- Point `t` writes back block `t` of the specification's whole-array function of the eleven argument arrays. -/
theorem k9_flushed_eq (c : Dev nD) (t : Fin cfg9.N) :
    (dat9 (F := Ideal) V c).flushed 11 t
      = ((cfg9.win 11).blk t).view.read (Elt Ideal) (ginG k9_relu (V c (Pipeline.arrRef spec9 0)) (V c (Pipeline.arrRef spec9 1)) (V c (Pipeline.arrRef spec9 2)) (V c (Pipeline.arrRef spec9 3)) (V c (Pipeline.arrRef spec9 4)) (V c (Pipeline.arrRef spec9 5)) (V c (Pipeline.arrRef spec9 6)) (V c (Pipeline.arrRef spec9 7)) (V c (Pipeline.arrRef spec9 8)) (V c (Pipeline.arrRef spec9 9)) (V c (Pipeline.arrRef spec9 10))) := by
  funext j
  obtain ⟨p, q, rfl⟩ : ∃ (p : Fin 5000) (q : Fin 128), j = ix2 p q := ⟨j 0, j 1, eq_ix2 j⟩
  rw [k9_read_11]
  show (cfg9.win 11).cut (grid9.coords t) ((dat9 V c).after 11 t) (ix2 p q) = _
  rw [k9_after_eq, k9_cut_11]
  exact k9_out_eq_spec (V c (Pipeline.arrRef spec9 0)) (V c (Pipeline.arrRef spec9 1)) (V c (Pipeline.arrRef spec9 2)) (V c (Pipeline.arrRef spec9 3)) (V c (Pipeline.arrRef spec9 4)) (V c (Pipeline.arrRef spec9 5)) (V c (Pipeline.arrRef spec9 6)) (V c (Pipeline.arrRef spec9 7)) (V c (Pipeline.arrRef spec9 8)) (V c (Pipeline.arrRef spec9 9)) (V c (Pipeline.arrRef spec9 10))
    (iblk9 V c 0 t) (iblk9 V c 1 t) (iblk9 V c 2 t) (iblk9 V c 3 t) (iblk9 V c 4 t) (iblk9 V c 5 t) (iblk9 V c 6 t) (iblk9 V c 7 t) (iblk9 V c 8 t) (iblk9 V c 9 t) (iblk9 V c 10 t)
    (k9_rowOf t p) p q (fun k => k9_row_0 V c t p k) (fun k => k9_row_1 V c t p k)
    (k9_blk_2 V c t) (k9_blk_3 V c t) (k9_blk_4 V c t) (k9_blk_5 V c t) (k9_blk_6 V c t) (k9_blk_7 V c t) (k9_blk_8 V c t) (k9_blk_9 V c t) (k9_blk_10 V c t)

/-! ## The ten blocks tile the array -/

/-- An index of the array is in point `t`'s block iff each coordinate is in the block's range on its axis. -/
theorem k9_mem_blk (t : Fin cfg9.N) (i : S50000x128.Idx) :
    i ∈ ((cfg9.win 11).blk t).view.set ↔ ∀ a : Fin 2, win9_11.index t a * S5000x128.size a ≤ (i a).val ∧ (i a).val < win9_11.index t a * S5000x128.size a + S5000x128.size a := by
  show i ∈ ((View.whole (Pipeline.arrRef spec9 11)).slice (win9_11.rect t)).set ↔ _
  rw [View.set_slice_whole, Rect.mem_set_unit]
  exact Iff.rfl

/-- Row `r` is in the block of point `r / 5000`. -/
theorem k9_cover (i : S50000x128.Idx) : ∃ t : Fin cfg9.N, (cfg9.win 11).flush t = true ∧ i ∈ ((cfg9.win 11).blk t).view.set := by
  have hi0 : (i 0).val < 50000 := (i 0).isLt
  have hi1 : (i 1).val < 128 := (i 1).isLt
  have hlt : (i 0).val / 5000 < cfg9.N := by show (i 0).val / 5000 < grid9.N; rw [N_9]; omega
  obtain ⟨e0, e1⟩ := k9_idx_11 ⟨(i 0).val / 5000, hlt⟩
  refine ⟨⟨(i 0).val / 5000, hlt⟩, flush9_11 _, ?_⟩
  rw [k9_mem_blk]
  intro a
  match a with
  | ⟨0, _⟩ =>
    show win9_11.index ⟨(i 0).val / 5000, hlt⟩ (0 : Fin 2) * 5000 ≤ (i 0).val ∧ (i 0).val < win9_11.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win9_11.index ⟨(i 0).val / 5000, hlt⟩ (1 : Fin 2) * 128 ≤ (i 1).val ∧ (i 1).val < win9_11.index ⟨(i 0).val / 5000, hlt⟩ (1 : Fin 2) * 128 + 128
    omega

/-! ## The region's value -/

/-- After its ten points the output array holds the specification's node-level perceptron layer of the eleven argument
    arrays as the region found them. -/
theorem final9 (c : Dev nD) :
    (dat9 (F := Ideal) V c).arrAt 11 cfg9.N = ginG true (V c (Pipeline.arrRef spec9 0)) (V c (Pipeline.arrRef spec9 1)) (V c (Pipeline.arrRef spec9 2)) (V c (Pipeline.arrRef spec9 3)) (V c (Pipeline.arrRef spec9 4)) (V c (Pipeline.arrRef spec9 5)) (V c (Pipeline.arrRef spec9 6)) (V c (Pipeline.arrRef spec9 7)) (V c (Pipeline.arrRef spec9 8)) (V c (Pipeline.arrRef spec9 9)) (V c (Pipeline.arrRef spec9 10)) :=
  (dat9 (F := Ideal) V c).arrAt_eq_of_cover 11 _ (fun t _ => k9_flushed_eq V c t) k9_cover

end Cert.KernelIdeal.HandValue
-- ==== Proof.SegValue10.lean ====
/- Region 1 of @main, the batch-grouped segment sum, read at the extended reals: the value half. What the scratch
   accumulator holds after `n` points is, entry by entry, the segment sum restricted to the first `5000 n` rows (by
   induction on the point: each point adds, at entry (g, d), feature d of the rows of its block whose id is the word g);
   after the tenth point that is the whole segment sum, which the one write-back puts into the result array, whose one
   block is the whole array. -/
import proofs.«403491_j395136991532_1_alg».proof.Proof.SegRegion10
import proofs.«403491_j395136991532_1_alg».proof.Proof.SegLaws
import proofs.«403491_j395136991532_1_alg».proof.Proof.SpecNet
import Idealize.ShloMosaic.Lib.Pipeline.Value
import Idealize.ShloMosaic.PureOps.Ideal.Laws

set_option maxRecDepth 16384

noncomputable section

namespace Cert.KernelIdeal.HandValue

open Cert.KernelIdeal Cert.KernelIdeal.Gen Cert.KernelIdeal.Hand Cert.Spec
open Idealize.ShloMosaic Idealize.ShloMosaic.TcCoe Idealize.ShloMosaic.ValueIdx Idealize.SL.Sem
open Idealize.ShloMosaic.Pipeline (Dat)

-- the TensorCore's buffer contents when the region is entered, at the extended reals
variable (V : (c : Dev nD) → (b : Ref sig .tc) → Buf (Elt Ideal) ((c : Thread nD τ).loc b))

/-! ## The two payloads at an entry -/

/-- The block the first point stores is zero everywhere. -/
theorem pay1_apply10 (j : S256x128.Idx) : (k10_pay1 (F := Ideal)) j = 0 := by
  show (shapeCast S256x128 (broadcast S256x128 (Scalar.ofBits (F := Ideal) .f32 0x00000000#32)) shapeCasts_S256x128_S256x128) j = 0
  rw [shapeCast_self]
  exact Ideal.ofBits_zero_f32

/-- The block every point stores: what the scratch held plus the point's contribution. -/
theorem pay2_apply10 (xb : Vec Ideal S5000x128 .f32) (bb : Vec Ideal S5000x1 .i32) (a : Vec Ideal S256x128 .f32) (j : S256x128.Idx) :
    k10_pay2 xb bb a j = a j + ∑ k : Fin 5000, if bb (ix2 k 0) = BitVec.ofNat 32 (gOf j).val then xb (ix2 k (dOf j)) else 0 := by
  show (shapeCast S256x128 (addf a (matmul segDot none (segOnehot bb)
      (truncf .bf16 (shapeCast S5000x128 xb shapeCasts_S5000x128_S5000x128) bitsLt_bf16_f32)
      (constant S256x128 .f32 0x00000000#32))) shapeCasts_S256x128_S256x128) j = _
  rw [shapeCast_self]
  exact segStep xb bb a j

/-! ## The windows' blocks, read at a row -/

/-- The two input windows step along the row axis with the point; the output window does not move. -/
theorem index10_0 : ∀ t : Fin cfg10.N, win10_0.index t 0 = t.val ∧ win10_0.index t 1 = 0 :=
  (by decide +kernel : ∀ t : Fin grid10.N, win10_0.index t 0 = t.val ∧ win10_0.index t 1 = 0)
theorem index10_1 : ∀ t : Fin cfg10.N, win10_1.index t 0 = t.val ∧ win10_1.index t 1 = 0 :=
  (by decide +kernel : ∀ t : Fin grid10.N, win10_1.index t 0 = t.val ∧ win10_1.index t 1 = 0)

/-- Row `k` of the feature block at point `n` is row `5000 n + k` of the feature array. -/
theorem iblk10_0_apply (c : Dev nD) (n : Fin cfg10.N) (k : Fin 5000) (d : Fin 128) (h : 5000 * n.val + k.val < 50000) :
    (iblk10 V c 0 n : Vec Ideal S5000x128 .f32) (ix2 k d)
      = (V c (Pipeline.arrRef spec10 0) : Vec Ideal S50000x128 .f32) (ix2 ⟨5000 * n.val + k.val, h⟩ d) := by
  unfold iblk10
  rw [View.read_apply]
  show V c (Pipeline.arrRef spec10 0) _ = V c (Pipeline.arrRef spec10 0) _
  congr 1
  funext a
  apply Fin.ext
  match a with
  | ⟨0, _⟩ =>
    show win10_0.index n 0 * 5000 + 1 * k.val = 5000 * n.val + k.val
    rw [(index10_0 n).1]; omega
  | ⟨1, _⟩ =>
    show win10_0.index n 1 * 128 + 1 * d.val = d.val
    rw [(index10_0 n).2]; omega

/-- Row `k` of the id block at point `n` is row `5000 n + k` of the id column. -/
theorem iblk10_1_apply (c : Dev nD) (n : Fin cfg10.N) (k : Fin 5000) (h : 5000 * n.val + k.val < 50000) :
    (iblk10 V c 1 n : Vec Ideal S5000x1 .i32) (ix2 k 0)
      = (V c (Pipeline.arrRef spec10 1) : Vec Ideal S50000x1 .i32) (ix2 ⟨5000 * n.val + k.val, h⟩ 0) := by
  unfold iblk10
  rw [View.read_apply]
  show V c (Pipeline.arrRef spec10 1) _ = V c (Pipeline.arrRef spec10 1) _
  congr 1
  funext a
  apply Fin.ext
  match a with
  | ⟨0, _⟩ =>
    show win10_1.index n 0 * 5000 + 1 * k.val = 5000 * n.val + k.val
    rw [(index10_1 n).1]; omega
  | ⟨1, _⟩ =>
    show win10_1.index n 1 * 1 + 1 * 0 = 0
    rw [(index10_1 n).2]

/-! ## The accumulation is the segment sum of the rows so far -/

/-- Row `t`'s term of entry `j`: its feature if its id is the entry's graph, else nothing (nothing past the last row). -/
def term10 (c : Dev nD) (j : S256x128.Idx) (t : ℕ) : EReal :=
  if h : t < 50000 then
    (if (V c (Pipeline.arrRef spec10 1) : Vec Ideal S50000x1 .i32) (ix2 ⟨t, h⟩ 0) = BitVec.ofNat 32 (gOf j).val
      then (V c (Pipeline.arrRef spec10 0) : Vec Ideal S50000x128 .f32) (ix2 ⟨t, h⟩ (dOf j)) else 0)
  else 0

/-- Row `k` of point `n`'s blocks contributes row `5000 n + k`'s term. -/
theorem blockTerm10 (c : Dev nD) (j : S256x128.Idx) (n : Fin cfg10.N) (k : Fin 5000) :
    ((if (iblk10 V c 1 n : Vec Ideal S5000x1 .i32) (ix2 k 0) = BitVec.ofNat 32 (gOf j).val
        then (iblk10 V c 0 n : Vec Ideal S5000x128 .f32) (ix2 k (dOf j)) else 0 : EReal))
      = term10 V c j (5000 * n.val + k.val) := by
  have hN : n.val < 10 := lt_of_lt_of_eq n.isLt (show cfg10.N = 10 from N_10)
  have hlt : 5000 * n.val + k.val < 50000 := by have := k.isLt; omega
  unfold term10
  rw [dif_pos hlt, iblk10_0_apply V c n k (dOf j) hlt, iblk10_1_apply V c n k hlt]

set_option maxHeartbeats 1000000 in
/-- After `n` points the scratch holds, at each entry, the sum of the terms of the first `5000 n` rows: by induction on
    the point, each point adding its block's rows. -/
theorem accAt10_eq (c : Dev nD) (j : S256x128.Idx) (n : ℕ) :
    ∀ (hn : n ≤ cfg10.N), accAt10 V c n hn j = ∑ t ∈ Finset.range (5000 * n), term10 V c j t := by
  induction n with
  | zero =>
    intro hn
    rw [accAt10_zero V c hn, pay1_apply10]
    simp
  | succ n ih =>
    intro hn
    rw [show accAt10 V c (n + 1) hn = k10_pay2 (iblk10 V c 0 ⟨n, hn⟩) (iblk10 V c 1 ⟨n, hn⟩) (accAt10 V c n (Nat.le_of_lt hn))
        from accAt10_succ V c ⟨n, hn⟩,
      pay2_apply10, ih (Nat.le_of_lt hn), show 5000 * (n + 1) = 5000 * n + 5000 from by ring, Finset.sum_range_add,
      Finset.sum_range (fun x => term10 V c j (5000 * n + x))]
    exact congrArg (fun s : EReal => (∑ t ∈ Finset.range (5000 * n), term10 V c j t) + s)
      (Finset.sum_congr rfl fun k _ => blockTerm10 V c j ⟨n, hn⟩ k)

/-- After the tenth point that is the whole segment sum. -/
theorem accAt10_last (c : Dev nD) (h : 10 ≤ cfg10.N) :
    accAt10 V c 10 h = segG (V c (Pipeline.arrRef spec10 0)) (V c (Pipeline.arrRef spec10 1)) := by
  funext j
  rw [accAt10_eq V c j 10 h, show 5000 * 10 = 50000 from rfl, Finset.sum_range]
  unfold segG term10
  refine Finset.sum_congr rfl fun t _ => ?_
  exact (dif_pos t.isLt).trans rfl

/-! ## The one write-back -/

/-- The write-back at the last point writes the segment sum: the output's one block, read through zero offsets, is the
    whole array. -/
theorem flushed10 (c : Dev nD) (t : Fin cfg10.N) (hf : (cfg10.win 2).flush t = true) :
    (dat10 V c).flushed 2 t = ((cfg10.win 2).blk t).view.read (Elt Ideal)
      (segG (V c (Pipeline.arrRef spec10 0)) (V c (Pipeline.arrRef spec10 1))) := by
  have hN : cfg10.N = 10 := N_10
  have hL : t.val = 9 := by have := (flush10_2 t).mp hf; have := t.isLt; omega
  obtain rfl : t = t10_9 := Fin.ext hL
  show (cfg10.win 2).cut (grid10.coords t10_9) ((dat10 V c).after 2 t10_9) = _
  rw [after10_2]
  show (cfg10.win 2).cut (grid10.coords t10_9) (accAt10 V c 10 t10_9.isLt) = _
  rw [accAt10_last V c t10_9.isLt]
  have hz' : (fun a => win10_2.index t10_9 a * (Pipeline.arrRef spec10 2).ty.shape.size a) = fun _ => 0 :=
    funext fun a => by fin_cases a <;> decide
  exact (Memref.read_access_unit_zero (Elt Ideal) (Pipeline.arrRef spec10 2) hz' (fun a => by rw [congrFun hz' a]; simp) _).symm

/-- THE REGION'S VALUE: after its ten points the result array holds the segment sum of the two argument arrays as the
    region found them. -/
theorem final10 (c : Dev nD) :
    (dat10 (F := Ideal) V c).arrAt 2 cfg10.N = segG (V c (Pipeline.arrRef spec10 0)) (V c (Pipeline.arrRef spec10 1)) :=
  (dat10 V c).arrAt_eq_of_cover 2 _ (flushed10 V c) fun i =>
    ⟨t10_9, (flush10_2 t10_9).mpr rfl, by
      show i ∈ ((View.whole (Pipeline.arrRef spec10 2)).slice (win10_2.rect t10_9)).set
      rw [View.set_slice_whole, Rect.mem_set_unit]
      intro a
      have hi0 : (i 0 : Nat) < 256 := (i 0).isLt
      have hi10 : (i 1 : Nat) < 128 := (i 1).isLt
      match a with
      | ⟨0, _⟩ =>
        show win10_2.index t10_9 0 * win10_2.size 0 ≤ (i 0 : Nat)
          ∧ (i 0 : Nat) < win10_2.index t10_9 0 * win10_2.size 0 + win10_2.xsize (grid10.coords t10_9) 0
        rw [show win10_2.index t10_9 0 * win10_2.size 0 = 0 from by decide +kernel,
          show win10_2.xsize (grid10.coords t10_9) 0 = 256 from by decide +kernel]
        omega
      | ⟨1, _⟩ =>
        show win10_2.index t10_9 1 * win10_2.size 1 ≤ (i 1 : Nat)
          ∧ (i 1 : Nat) < win10_2.index t10_9 1 * win10_2.size 1 + win10_2.xsize (grid10.coords t10_9) 1
        rw [show win10_2.index t10_9 1 * win10_2.size 1 = 0 from by decide +kernel,
          show win10_2.xsize (grid10.coords t10_9) 1 = 128 from by decide +kernel]
        omega⟩

end Cert.KernelIdeal.HandValue

end
-- ==== Proof.VnValue11.lean ====
/- Region 11 of @main, the virtual node's two-layer perceptron: the VALUE its output array ends holding, over the extended reals. The body's payload, read
   index by index, is the network's function `Cert.Spec.vnG` of the blocks the body loads; the grid is one point whose block, for
   every window, is the whole array at offset zero; so what the point writes back is `Cert.Spec.vnG` of the input arrays as the
   region finds them, its block covers the output array, and the array ends holding exactly that. -/
import proofs.«403491_j395136991532_1_alg».proof.Proof.VnRegion11
import proofs.«403491_j395136991532_1_alg».proof.Proof.VnFinDots
import proofs.«403491_j395136991532_1_alg».proof.Proof.SpecNet
import Idealize.ShloMosaic.Lib.Pipeline.Value

noncomputable section

namespace Cert.KernelIdeal.HandValue

open Cert.KernelIdeal Cert.KernelIdeal.Gen Cert.KernelIdeal.Hand Idealize.ShloMosaic Idealize.ShloMosaic.TcCoe Idealize.SL.Sem
open Idealize.ShloMosaic.ValueIdx
open Idealize.ShloMosaic.Pipeline (Dat)
open scoped BigOperators

/-! ## The body's payload, index by index -/

/-- The payload of the body's one store is `Cert.Spec.vnG` of the loaded blocks: at row `p`, column `q` both are the same
    sums, products and maxima of the same entries. -/
theorem pay11_eq (x0 : Vec Ideal S256x128 .f32) (x1 : Vec Ideal S128x256 .bf16) (x2 : Vec Ideal S1x256 .f32) (x3 : Vec Ideal S1x256 .f32) (x4 : Vec Ideal S1x256 .f32) (x5 : Vec Ideal S256x128 .bf16) (x6 : Vec Ideal S1x128 .f32) (x7 : Vec Ideal S1x128 .f32) (x8 : Vec Ideal S1x128 .f32) :
    k11_pay1 (k11_pay2 x0 x1 x2 x3 x4 x5 x6 x7 x8) (k11_pay3 (F := Ideal)) = Cert.Spec.vnG x0 x1 x2 x3 x4 x5 x6 x7 x8 := by
  funext j
  obtain ⟨p, q, rfl⟩ : ∃ (p : Fin 256) (q : Fin 128), j = ix2 p q := ⟨j 0, j 1, eq_ix2 j⟩
  unfold k11_pay1 k11_pay2 k11_pay3 Cert.Spec.vnG Cert.Spec.outK Cert.Spec.hiddenK Cert.Spec.zeroF
  simp only [maximumf_apply, addf_apply, mulf_apply, broadcast_apply, shapeCast_self, truncf_apply, Ideal.ofBits_def, rowTo256x128_apply, rowTo256x256_apply, matmulSecond_apply, matmulFirst_apply]

/-! ## One grid point: every window's block is its whole array -/

theorem hz11 : (![0, 0] : Fin 2 → Nat) = fun _ => 0 := funext fun a => by fin_cases a <;> rfl

/-- The printed index maps, decided over the one grid point: every window's block index is zero on both axes. -/
theorem idx_facts11 : ∀ t : Fin cfg11.N, win11_0.index t (0 : Fin 2) = 0 ∧ win11_0.index t (1 : Fin 2) = 0
    ∧ win11_1.index t (0 : Fin 2) = 0 ∧ win11_1.index t (1 : Fin 2) = 0
    ∧ win11_2.index t (0 : Fin 2) = 0 ∧ win11_2.index t (1 : Fin 2) = 0
    ∧ win11_3.index t (0 : Fin 2) = 0 ∧ win11_3.index t (1 : Fin 2) = 0
    ∧ win11_4.index t (0 : Fin 2) = 0 ∧ win11_4.index t (1 : Fin 2) = 0
    ∧ win11_5.index t (0 : Fin 2) = 0 ∧ win11_5.index t (1 : Fin 2) = 0
    ∧ win11_6.index t (0 : Fin 2) = 0 ∧ win11_6.index t (1 : Fin 2) = 0
    ∧ win11_7.index t (0 : Fin 2) = 0 ∧ win11_7.index t (1 : Fin 2) = 0
    ∧ win11_8.index t (0 : Fin 2) = 0 ∧ win11_8.index t (1 : Fin 2) = 0
    ∧ win11_9.index t (0 : Fin 2) = 0 ∧ win11_9.index t (1 : Fin 2) = 0 :=
  (by decide +kernel : ∀ t : Fin grid11.N, _)

section AnyF
variable {F : FTy → Type} [FloatOps F]
variable (V : (c : Dev nD) → (b : Ref sig .tc) → Buf (Elt F) ((c : Thread nD τ).loc b))

/-- Input window 0's block at the point is its array. -/
theorem iblk11_0_eq (c : Dev nD) (t : Fin cfg11.N) : (iblk11 V c 0 t : Vec F S256x128 .f32) = V c (Pipeline.arrRef spec11 0) := by
  obtain ⟨e0_0, e0_1, e1_0, e1_1, e2_0, e2_1, e3_0, e3_1, e4_0, e4_1, e5_0, e5_1, e6_0, e6_1, e7_0, e7_1, e8_0, e8_1, e9_0, e9_1⟩ := idx_facts11 t
  funext y
  show V c (Pipeline.arrRef spec11 0) (((cfg11.win 0).blk t).view.emb y) = V c (Pipeline.arrRef spec11 0) y
  refine congrArg _ (funext fun a => Fin.ext ?_)
  match a with
  | ⟨0, _⟩ => show win11_0.index t (0 : Fin 2) * 256 + 1 * (y 0).val = (y 0).val; omega
  | ⟨1, _⟩ => show win11_0.index t (1 : Fin 2) * 128 + 1 * (y 1).val = (y 1).val; omega

/-- Input window 1's block at the point is its array. -/
theorem iblk11_1_eq (c : Dev nD) (t : Fin cfg11.N) : (iblk11 V c 1 t : Vec F S128x256 .bf16) = V c (Pipeline.arrRef spec11 1) := by
  obtain ⟨e0_0, e0_1, e1_0, e1_1, e2_0, e2_1, e3_0, e3_1, e4_0, e4_1, e5_0, e5_1, e6_0, e6_1, e7_0, e7_1, e8_0, e8_1, e9_0, e9_1⟩ := idx_facts11 t
  funext y
  show V c (Pipeline.arrRef spec11 1) (((cfg11.win 1).blk t).view.emb y) = V c (Pipeline.arrRef spec11 1) y
  refine congrArg _ (funext fun a => Fin.ext ?_)
  match a with
  | ⟨0, _⟩ => show win11_1.index t (0 : Fin 2) * 128 + 1 * (y 0).val = (y 0).val; omega
  | ⟨1, _⟩ => show win11_1.index t (1 : Fin 2) * 256 + 1 * (y 1).val = (y 1).val; omega

/-- Input window 2's block at the point is its array. -/
theorem iblk11_2_eq (c : Dev nD) (t : Fin cfg11.N) : (iblk11 V c 2 t : Vec F S1x256 .f32) = V c (Pipeline.arrRef spec11 2) := by
  obtain ⟨e0_0, e0_1, e1_0, e1_1, e2_0, e2_1, e3_0, e3_1, e4_0, e4_1, e5_0, e5_1, e6_0, e6_1, e7_0, e7_1, e8_0, e8_1, e9_0, e9_1⟩ := idx_facts11 t
  funext y
  show V c (Pipeline.arrRef spec11 2) (((cfg11.win 2).blk t).view.emb y) = V c (Pipeline.arrRef spec11 2) y
  refine congrArg _ (funext fun a => Fin.ext ?_)
  match a with
  | ⟨0, _⟩ => show win11_2.index t (0 : Fin 2) * 1 + 1 * (y 0).val = (y 0).val; omega
  | ⟨1, _⟩ => show win11_2.index t (1 : Fin 2) * 256 + 1 * (y 1).val = (y 1).val; omega

/-- Input window 3's block at the point is its array. -/
theorem iblk11_3_eq (c : Dev nD) (t : Fin cfg11.N) : (iblk11 V c 3 t : Vec F S1x256 .f32) = V c (Pipeline.arrRef spec11 3) := by
  obtain ⟨e0_0, e0_1, e1_0, e1_1, e2_0, e2_1, e3_0, e3_1, e4_0, e4_1, e5_0, e5_1, e6_0, e6_1, e7_0, e7_1, e8_0, e8_1, e9_0, e9_1⟩ := idx_facts11 t
  funext y
  show V c (Pipeline.arrRef spec11 3) (((cfg11.win 3).blk t).view.emb y) = V c (Pipeline.arrRef spec11 3) y
  refine congrArg _ (funext fun a => Fin.ext ?_)
  match a with
  | ⟨0, _⟩ => show win11_3.index t (0 : Fin 2) * 1 + 1 * (y 0).val = (y 0).val; omega
  | ⟨1, _⟩ => show win11_3.index t (1 : Fin 2) * 256 + 1 * (y 1).val = (y 1).val; omega

/-- Input window 4's block at the point is its array. -/
theorem iblk11_4_eq (c : Dev nD) (t : Fin cfg11.N) : (iblk11 V c 4 t : Vec F S1x256 .f32) = V c (Pipeline.arrRef spec11 4) := by
  obtain ⟨e0_0, e0_1, e1_0, e1_1, e2_0, e2_1, e3_0, e3_1, e4_0, e4_1, e5_0, e5_1, e6_0, e6_1, e7_0, e7_1, e8_0, e8_1, e9_0, e9_1⟩ := idx_facts11 t
  funext y
  show V c (Pipeline.arrRef spec11 4) (((cfg11.win 4).blk t).view.emb y) = V c (Pipeline.arrRef spec11 4) y
  refine congrArg _ (funext fun a => Fin.ext ?_)
  match a with
  | ⟨0, _⟩ => show win11_4.index t (0 : Fin 2) * 1 + 1 * (y 0).val = (y 0).val; omega
  | ⟨1, _⟩ => show win11_4.index t (1 : Fin 2) * 256 + 1 * (y 1).val = (y 1).val; omega

/-- Input window 5's block at the point is its array. -/
theorem iblk11_5_eq (c : Dev nD) (t : Fin cfg11.N) : (iblk11 V c 5 t : Vec F S256x128 .bf16) = V c (Pipeline.arrRef spec11 5) := by
  obtain ⟨e0_0, e0_1, e1_0, e1_1, e2_0, e2_1, e3_0, e3_1, e4_0, e4_1, e5_0, e5_1, e6_0, e6_1, e7_0, e7_1, e8_0, e8_1, e9_0, e9_1⟩ := idx_facts11 t
  funext y
  show V c (Pipeline.arrRef spec11 5) (((cfg11.win 5).blk t).view.emb y) = V c (Pipeline.arrRef spec11 5) y
  refine congrArg _ (funext fun a => Fin.ext ?_)
  match a with
  | ⟨0, _⟩ => show win11_5.index t (0 : Fin 2) * 256 + 1 * (y 0).val = (y 0).val; omega
  | ⟨1, _⟩ => show win11_5.index t (1 : Fin 2) * 128 + 1 * (y 1).val = (y 1).val; omega

/-- Input window 6's block at the point is its array. -/
theorem iblk11_6_eq (c : Dev nD) (t : Fin cfg11.N) : (iblk11 V c 6 t : Vec F S1x128 .f32) = V c (Pipeline.arrRef spec11 6) := by
  obtain ⟨e0_0, e0_1, e1_0, e1_1, e2_0, e2_1, e3_0, e3_1, e4_0, e4_1, e5_0, e5_1, e6_0, e6_1, e7_0, e7_1, e8_0, e8_1, e9_0, e9_1⟩ := idx_facts11 t
  funext y
  show V c (Pipeline.arrRef spec11 6) (((cfg11.win 6).blk t).view.emb y) = V c (Pipeline.arrRef spec11 6) y
  refine congrArg _ (funext fun a => Fin.ext ?_)
  match a with
  | ⟨0, _⟩ => show win11_6.index t (0 : Fin 2) * 1 + 1 * (y 0).val = (y 0).val; omega
  | ⟨1, _⟩ => show win11_6.index t (1 : Fin 2) * 128 + 1 * (y 1).val = (y 1).val; omega

/-- Input window 7's block at the point is its array. -/
theorem iblk11_7_eq (c : Dev nD) (t : Fin cfg11.N) : (iblk11 V c 7 t : Vec F S1x128 .f32) = V c (Pipeline.arrRef spec11 7) := by
  obtain ⟨e0_0, e0_1, e1_0, e1_1, e2_0, e2_1, e3_0, e3_1, e4_0, e4_1, e5_0, e5_1, e6_0, e6_1, e7_0, e7_1, e8_0, e8_1, e9_0, e9_1⟩ := idx_facts11 t
  funext y
  show V c (Pipeline.arrRef spec11 7) (((cfg11.win 7).blk t).view.emb y) = V c (Pipeline.arrRef spec11 7) y
  refine congrArg _ (funext fun a => Fin.ext ?_)
  match a with
  | ⟨0, _⟩ => show win11_7.index t (0 : Fin 2) * 1 + 1 * (y 0).val = (y 0).val; omega
  | ⟨1, _⟩ => show win11_7.index t (1 : Fin 2) * 128 + 1 * (y 1).val = (y 1).val; omega

/-- Input window 8's block at the point is its array. -/
theorem iblk11_8_eq (c : Dev nD) (t : Fin cfg11.N) : (iblk11 V c 8 t : Vec F S1x128 .f32) = V c (Pipeline.arrRef spec11 8) := by
  obtain ⟨e0_0, e0_1, e1_0, e1_1, e2_0, e2_1, e3_0, e3_1, e4_0, e4_1, e5_0, e5_1, e6_0, e6_1, e7_0, e7_1, e8_0, e8_1, e9_0, e9_1⟩ := idx_facts11 t
  funext y
  show V c (Pipeline.arrRef spec11 8) (((cfg11.win 8).blk t).view.emb y) = V c (Pipeline.arrRef spec11 8) y
  refine congrArg _ (funext fun a => Fin.ext ?_)
  match a with
  | ⟨0, _⟩ => show win11_8.index t (0 : Fin 2) * 1 + 1 * (y 0).val = (y 0).val; omega
  | ⟨1, _⟩ => show win11_8.index t (1 : Fin 2) * 128 + 1 * (y 1).val = (y 1).val; omega

end AnyF

/-- An index of the output window's block is that index of its array. -/
theorem emb11_9 (t : Fin cfg11.N) (j : S256x128.Idx) : ((cfg11.win 9).blk t).view.emb j = j := by
  obtain ⟨e0_0, e0_1, e1_0, e1_1, e2_0, e2_1, e3_0, e3_1, e4_0, e4_1, e5_0, e5_1, e6_0, e6_1, e7_0, e7_1, e8_0, e8_1, e9_0, e9_1⟩ := idx_facts11 t
  funext a; apply Fin.ext
  match a with
  | ⟨0, _⟩ => show win11_9.index t (0 : Fin 2) * 256 + 1 * (j 0).val = (j 0).val; omega
  | ⟨1, _⟩ => show win11_9.index t (1 : Fin 2) * 128 + 1 * (j 1).val = (j 1).val; omega

/-! ## What the point writes back, and the array after the region -/

variable (V : (c : Dev nD) → (b : Ref sig .tc) → Buf (Elt Ideal) ((c : Thread nD τ).loc b))

set_option maxHeartbeats 1000000 in
/-- What the point writes back to the output window's array is its block of `Cert.Spec.vnG` of the input arrays as the region finds them. -/
theorem flushed11_9_eq (c : Dev nD) (t : Fin cfg11.N) :
    (dat11 (F := Ideal) V c).flushed 9 t
      = ((cfg11.win 9).blk t).view.read (Elt Ideal) (Cert.Spec.vnG (V c (Pipeline.arrRef spec11 0)) (V c (Pipeline.arrRef spec11 1)) (V c (Pipeline.arrRef spec11 2)) (V c (Pipeline.arrRef spec11 3)) (V c (Pipeline.arrRef spec11 4)) (V c (Pipeline.arrRef spec11 5)) (V c (Pipeline.arrRef spec11 6)) (V c (Pipeline.arrRef spec11 7)) (V c (Pipeline.arrRef spec11 8))) := by
  show (cfg11.win 9).cut (grid11.coords t) ((dat11 V c).after 9 t) = _
  rw [after11_9]
  unfold out11_9
  rw [View.canon_unit_zero hz11]
  simp only [View.ld_unit_zero (S := S256x128) hz11, View.ld_unit_zero (S := S128x256) hz11, View.ld_unit_zero (S := S1x256) hz11, View.ld_unit_zero (S := S1x128) hz11]
  rw [iblk11_0_eq, iblk11_1_eq, iblk11_2_eq, iblk11_3_eq, iblk11_4_eq, iblk11_5_eq, iblk11_6_eq, iblk11_7_eq, iblk11_8_eq, pay11_eq]
  funext j
  show Cert.Spec.vnG (V c (Pipeline.arrRef spec11 0)) (V c (Pipeline.arrRef spec11 1)) (V c (Pipeline.arrRef spec11 2)) (V c (Pipeline.arrRef spec11 3)) (V c (Pipeline.arrRef spec11 4)) (V c (Pipeline.arrRef spec11 5)) (V c (Pipeline.arrRef spec11 6)) (V c (Pipeline.arrRef spec11 7)) (V c (Pipeline.arrRef spec11 8)) j
    = Cert.Spec.vnG (V c (Pipeline.arrRef spec11 0)) (V c (Pipeline.arrRef spec11 1)) (V c (Pipeline.arrRef spec11 2)) (V c (Pipeline.arrRef spec11 3)) (V c (Pipeline.arrRef spec11 4)) (V c (Pipeline.arrRef spec11 5)) (V c (Pipeline.arrRef spec11 6)) (V c (Pipeline.arrRef spec11 7)) (V c (Pipeline.arrRef spec11 8)) (((cfg11.win 9).blk t).view.emb j)
  rw [emb11_9]

/-- An index of the array is in the point's block iff each coordinate is in the block's range on its axis. -/
theorem mem_blk11_9 (t : Fin cfg11.N) (i : S256x128.Idx) :
    i ∈ ((cfg11.win 9).blk t).view.set ↔ ∀ a : Fin 2, win11_9.index t a * S256x128.size a ≤ (i a).val ∧ (i a).val < win11_9.index t a * S256x128.size a + S256x128.size a := by
  show i ∈ ((View.whole (Pipeline.arrRef spec11 9)).slice (win11_9.rect t)).set ↔ _
  rw [View.set_slice_whole, Rect.mem_set_unit]
  exact Iff.rfl

/-- The one point's block covers the output array. -/
theorem covered11_9 (i : S256x128.Idx) : ∃ t : Fin cfg11.N, (cfg11.win 9).flush t = true ∧ i ∈ ((cfg11.win 9).blk t).view.set := by
  refine ⟨⟨0, by decide⟩, flush11_9 _, ?_⟩
  rw [mem_blk11_9]
  obtain ⟨e0_0, e0_1, e1_0, e1_1, e2_0, e2_1, e3_0, e3_1, e4_0, e4_1, e5_0, e5_1, e6_0, e6_1, e7_0, e7_1, e8_0, e8_1, e9_0, e9_1⟩ := idx_facts11 ⟨0, by decide⟩
  have h0 : (i 0).val < 256 := idx2_lt0 i
  have h1 : (i 1).val < 128 := idx2_lt1 i
  intro a
  match a with
  | ⟨0, _⟩ => show win11_9.index ⟨0, by decide⟩ (0 : Fin 2) * 256 ≤ (i 0).val ∧ (i 0).val < win11_9.index ⟨0, by decide⟩ (0 : Fin 2) * 256 + 256; omega
  | ⟨1, _⟩ => show win11_9.index ⟨0, by decide⟩ (1 : Fin 2) * 128 ≤ (i 1).val ∧ (i 1).val < win11_9.index ⟨0, by decide⟩ (1 : Fin 2) * 128 + 128; omega

/-- THE ARRAY after the region: `Cert.Spec.vnG` of the input arrays as the region finds them. -/
theorem final11 (c : Dev nD) :
    (dat11 (F := Ideal) V c).arrAt 9 cfg11.N = Cert.Spec.vnG (V c (Pipeline.arrRef spec11 0)) (V c (Pipeline.arrRef spec11 1)) (V c (Pipeline.arrRef spec11 2)) (V c (Pipeline.arrRef spec11 3)) (V c (Pipeline.arrRef spec11 4)) (V c (Pipeline.arrRef spec11 5)) (V c (Pipeline.arrRef spec11 6)) (V c (Pipeline.arrRef spec11 7)) (V c (Pipeline.arrRef spec11 8)) :=
  (dat11 (F := Ideal) V c).arrAt_eq_of_cover 9 _ (fun t _ => flushed11_9_eq V c t) covered11_9

end Cert.KernelIdeal.HandValue

end
-- ==== Proof.GinPay12.lean ====
import proofs.«403491_j395136991532_1_alg».proof.Proof.Gen.KernelIdeal.Skeleton
import proofs.«403491_j395136991532_1_alg».proof.Proof.SpecNet
import Idealize.ShloMosaic.Lib.Pipeline.Value
import Idealize.ShloMosaic.Lib.ValueLayout
import Idealize.ShloMosaic.PureOps.Ideal.Laws

/-! # Region 12's payloads read at one index, at the extended reals

The body stores one value per node row `p` and feature `q`. Reading the two payloads at `(p, q)`: every pointwise
operation is the extended reals' operation on the elements, a row broadcast reads its one row, a change of format is
the identity, and each matrix product is the sum over its contracted axis. What comes out is the specification's
folded perceptron of the row's input `(1 + eps) * h_in + agg`. -/

noncomputable section

namespace Cert.KernelIdeal.HandValue

open Cert.KernelIdeal Cert.KernelIdeal.Gen Cert.Spec
open Idealize.ShloMosaic Idealize.ShloMosaic.ValueIdx

/-! ## The two matrix products at an index -/

theorem k12_mm1_lhs_0 (i : S5000x256.Idx) (q : dot_S5000x128_S128x256_S5000x256_1_0_0_1_n_n.contr.Idx) :
    (dot_S5000x128_S128x256_S5000x256_1_0_0_1_n_n.lhsIdx i q 0).val = (i 0).val := by
  unfold DotDims.lhsIdx
  rw [dif_neg (show ¬(0 : Fin S5000x128.rank) ∈ dot_S5000x128_S128x256_S5000x256_1_0_0_1_n_n.lhsBatch by decide), dif_pos (show (0 : Fin S5000x128.rank) ∈ dot_S5000x128_S128x256_S5000x256_1_0_0_1_n_n.lhsNonContracting by decide)]
  rfl
theorem k12_mm1_lhs_1 (i : S5000x256.Idx) (q : dot_S5000x128_S128x256_S5000x256_1_0_0_1_n_n.contr.Idx) :
    (dot_S5000x128_S128x256_S5000x256_1_0_0_1_n_n.lhsIdx i q 1).val = (q ⟨0, by decide⟩).val :=
  dot_S5000x128_S128x256_S5000x256_1_0_0_1_n_n.lhsIdx_val_of_single rfl i q
theorem k12_mm1_rhs_0 (i : S5000x256.Idx) (q : dot_S5000x128_S128x256_S5000x256_1_0_0_1_n_n.contr.Idx) :
    (dot_S5000x128_S128x256_S5000x256_1_0_0_1_n_n.rhsIdx i q 0).val = (q ⟨0, by decide⟩).val :=
  dot_S5000x128_S128x256_S5000x256_1_0_0_1_n_n.rhsIdx_val_of_single rfl i q
theorem k12_mm1_rhs_1 (i : S5000x256.Idx) (q : dot_S5000x128_S128x256_S5000x256_1_0_0_1_n_n.contr.Idx) :
    (dot_S5000x128_S128x256_S5000x256_1_0_0_1_n_n.rhsIdx i q 1).val = (i 1).val := by
  unfold DotDims.rhsIdx
  rw [dif_neg (show ¬(1 : Fin S128x256.rank) ∈ dot_S5000x128_S128x256_S5000x256_1_0_0_1_n_n.rhsBatch by decide), dif_pos (show (1 : Fin S128x256.rank) ∈ dot_S5000x128_S128x256_S5000x256_1_0_0_1_n_n.rhsNonContracting by decide)]
  rfl

/-- The product read at row `p`, column `j`: the sum over the 128 contracted positions. -/
theorem k12_mm1_apply (a : FVec Ideal S5000x128 .bf16) (b : FVec Ideal S128x256 .bf16) (p : Fin 5000) (j : Fin 256) :
    matmul dot_S5000x128_S128x256_S5000x256_1_0_0_1_n_n none a b (constant (F := Ideal) S5000x256 .f32 0x00000000#32) (ix2 p j)
      = ∑ k : Fin 128, a (ix2 p k) * b (ix2 k j) := by
  simp only [matmul]
  rw [Ideal.matmul_constant_zero_apply, ← Equiv.sum_comp (contrEquiv1 dot_S5000x128_S128x256_S5000x256_1_0_0_1_n_n 128 rfl rfl).symm]
  refine Finset.sum_congr rfl fun k _ => ?_
  have hk := contrEquiv1_symm_val dot_S5000x128_S128x256_S5000x256_1_0_0_1_n_n 128 rfl rfl k
  have el : dot_S5000x128_S128x256_S5000x256_1_0_0_1_n_n.lhsIdx (ix2 p j) ((contrEquiv1 dot_S5000x128_S128x256_S5000x256_1_0_0_1_n_n 128 rfl rfl).symm k) = ix2 p k := funext fun ax => Fin.ext (by
    match ax with
    | ⟨0, _⟩ => exact k12_mm1_lhs_0 _ _
    | ⟨1, _⟩ => exact (k12_mm1_lhs_1 _ _).trans hk)
  have er : dot_S5000x128_S128x256_S5000x256_1_0_0_1_n_n.rhsIdx (ix2 p j) ((contrEquiv1 dot_S5000x128_S128x256_S5000x256_1_0_0_1_n_n 128 rfl rfl).symm k) = ix2 k j := funext fun ax => Fin.ext (by
    match ax with
    | ⟨0, _⟩ => exact (k12_mm1_rhs_0 _ _).trans hk
    | ⟨1, _⟩ => exact k12_mm1_rhs_1 _ _)
  rw [el, er]

theorem k12_mm2_lhs_0 (i : S5000x128.Idx) (q : dot_S5000x256_S256x128_S5000x128_1_0_0_1_n_n.contr.Idx) :
    (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
theorem k12_mm2_lhs_1 (i : S5000x128.Idx) (q : dot_S5000x256_S256x128_S5000x128_1_0_0_1_n_n.contr.Idx) :
    (dot_S5000x256_S256x128_S5000x128_1_0_0_1_n_n.lhsIdx i q 1).val = (q ⟨0, by decide⟩).val :=
  dot_S5000x256_S256x128_S5000x128_1_0_0_1_n_n.lhsIdx_val_of_single rfl i q
theorem k12_mm2_rhs_0 (i : S5000x128.Idx) (q : dot_S5000x256_S256x128_S5000x128_1_0_0_1_n_n.contr.Idx) :
    (dot_S5000x256_S256x128_S5000x128_1_0_0_1_n_n.rhsIdx i q 0).val = (q ⟨0, by decide⟩).val :=
  dot_S5000x256_S256x128_S5000x128_1_0_0_1_n_n.rhsIdx_val_of_single rfl i q
theorem k12_mm2_rhs_1 (i : S5000x128.Idx) (q : dot_S5000x256_S256x128_S5000x128_1_0_0_1_n_n.contr.Idx) :
    (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- The product read at row `p`, column `j`: the sum over the 256 contracted positions. -/
theorem k12_mm2_apply (a : FVec Ideal S5000x256 .bf16) (b : FVec Ideal S256x128 .bf16) (p : Fin 5000) (j : Fin 128) :
    matmul dot_S5000x256_S256x128_S5000x128_1_0_0_1_n_n none a b (constant (F := Ideal) S5000x128 .f32 0x00000000#32) (ix2 p j)
      = ∑ k : Fin 256, a (ix2 p k) * b (ix2 k j) := by
  simp only [matmul]
  rw [Ideal.matmul_constant_zero_apply, ← Equiv.sum_comp (contrEquiv1 dot_S5000x256_S256x128_S5000x128_1_0_0_1_n_n 256 rfl rfl).symm]
  refine Finset.sum_congr rfl fun k _ => ?_
  have hk := contrEquiv1_symm_val dot_S5000x256_S256x128_S5000x128_1_0_0_1_n_n 256 rfl rfl k
  have el : dot_S5000x256_S256x128_S5000x128_1_0_0_1_n_n.lhsIdx (ix2 p j) ((contrEquiv1 dot_S5000x256_S256x128_S5000x128_1_0_0_1_n_n 256 rfl rfl).symm k) = ix2 p k := funext fun ax => Fin.ext (by
    match ax with
    | ⟨0, _⟩ => exact k12_mm2_lhs_0 _ _
    | ⟨1, _⟩ => exact (k12_mm2_lhs_1 _ _).trans hk)
  have er : dot_S5000x256_S256x128_S5000x128_1_0_0_1_n_n.rhsIdx (ix2 p j) ((contrEquiv1 dot_S5000x256_S256x128_S5000x128_1_0_0_1_n_n 256 rfl rfl).symm k) = ix2 k j := funext fun ax => Fin.ext (by
    match ax with
    | ⟨0, _⟩ => exact (k12_mm2_rhs_0 _ _).trans hk
    | ⟨1, _⟩ => exact k12_mm2_rhs_1 _ _)
  rw [el, er]

/-! ## The one-element broadcast -/

/-- A `[1, 1]` array broadcast over the block reads its one element everywhere. -/
theorem k12_bcast11_apply {α : Type} (v : S1x1.Idx → α) (h : S1x1.Broadcasts S5000x128) (p : Fin 5000) (k : Fin 128) :
    broadcastTo S5000x128 v h (ix2 p k) = v (ix2 (0 : Fin 1) (0 : Fin 1)) := by
  refine broadcastTo_apply v h (ix2 p k) (ix2 (0 : Fin 1) (0 : Fin 1)) fun ax => ?_
  match ax with
  | ⟨0, _⟩ => rfl
  | ⟨1, _⟩ => rfl

/-! ## The payloads at an index -/

/-- Whether this layer ends with a clamp at zero. -/
abbrev k12_relu : Bool := false

/-- The first payload at `(p, q)`: the second product's sum over the 256 hidden entries of row `p`, plus the bias. -/
theorem k12_pay2_apply (e : Vec Ideal S1x1 .f32) (hin agg : Vec Ideal S5000x128 .f32) (w1 : Vec Ideal S128x256 .bf16)
    (b1 s1 sh1 : Vec Ideal S1x256 .f32) (w2 : Vec Ideal S256x128 .bf16) (b2 : Vec Ideal S1x128 .f32) (p : Fin 5000) (q : Fin 128) :
    k12_pay2 (F := Ideal) e hin agg w1 b1 s1 sh1 w2 b2 (ix2 p q)
      = (∑ j : Fin 256, hiddenK (fun k => (oneF + e (ix2 0 0)) * hin (ix2 p k) + agg (ix2 p k)) w1 b1 s1 sh1 j * w2 (ix2 j q))
          + b2 (ix2 0 q) := by
  unfold k12_pay2
  simp only [shapeCast_self, addf_apply, k12_mm2_apply, broadcastTo_1b_ab_apply, truncf_apply, maximumf_apply, broadcast_apply,
    mulf_apply, k12_mm1_apply, k12_bcast11_apply]
  rfl

/-- The last payload at `(p, q)`: scale and shift of the entry, then the clamp at zero if the layer has one. -/
theorem k12_pay1_apply (v : FVec Ideal S5000x128 .f32) (s2 sh2 : Vec Ideal S1x128 .f32) (p : Fin 5000) (q : Fin 128) :
    k12_pay1 (F := Ideal) v s2 sh2 (ix2 p q)
      = (if k12_relu then max (v (ix2 p q) * s2 (ix2 0 q) + sh2 (ix2 0 q)) zeroF else v (ix2 p q) * s2 (ix2 0 q) + sh2 (ix2 0 q)) := by
  unfold k12_pay1
  simp only [shapeCast_self, addf_apply, broadcastTo_1b_ab_apply, maximumf_apply, broadcast_apply, mulf_apply]
  rfl

/-- What the body stores at `(p, q)`, from the eleven input blocks: the folded perceptron of row `p`'s input
    `(1 + eps) * h_in + agg`, read at feature `q`. -/
theorem k12_out_apply (x0 x1 : Vec Ideal S5000x128 .f32) (x2 : Vec Ideal S1x1 .f32) (x3 : Vec Ideal S128x256 .bf16)
    (x4 x5 x6 : Vec Ideal S1x256 .f32) (x7 : Vec Ideal S256x128 .bf16) (x8 x9 x10 : Vec Ideal S1x128 .f32) (p : Fin 5000) (q : Fin 128) :
    k12_pay1 (F := Ideal) (k12_pay2 (F := Ideal) x2 x0 x1 x3 x4 x5 x6 x7 x8) x9 x10 (ix2 p q)
      = (let o := outK (hiddenK (fun k => (oneF + x2 (ix2 0 0)) * x0 (ix2 p k) + x1 (ix2 p k)) x3 x4 x5 x6) x7 x8 x9 x10 q
         if k12_relu then max o zeroF else o) := by
  rw [k12_pay1_apply, k12_pay2_apply]
  rfl

end Cert.KernelIdeal.HandValue
-- ==== Proof.GinValue12.lean ====
import proofs.«403491_j395136991532_1_alg».proof.Proof.GinRegion12
import proofs.«403491_j395136991532_1_alg».proof.Proof.GinPay12
import Idealize.ShloMosaic.Lib.Pipeline.Value

/-! # Region 12 read at the extended reals: the value half

Point `t` of the ten writes back block `t` of the output array: rows `5000 t` to `5000 t + 4999`. Its two tiled inputs
are the same rows of their arrays, its nine resident inputs their whole arrays, so what it writes at row `p` of the
block is the specification's folded perceptron of array row `5000 t + p`. The ten blocks tile the 50000 rows, so after
the region the output array is the specification's whole-array function of the eleven argument arrays. -/

set_option maxRecDepth 16384

noncomputable section

namespace Cert.KernelIdeal.HandValue

open Cert.KernelIdeal Cert.KernelIdeal.Gen Cert.KernelIdeal.Hand Cert.Spec
open Idealize.ShloMosaic Idealize.ShloMosaic.TcCoe Idealize.SL.Sem Idealize.ShloMosaic.ValueIdx
open Idealize.ShloMosaic.Pipeline (Dat)

-- the TensorCore's buffer contents when the region is entered, at the extended reals
variable (V : (c : Dev nD) → (b : Ref sig .tc) → Buf (Elt Ideal) ((c : Thread nD τ).loc b))

theorem k12_hz : (![0, 0] : Fin 2 → Nat) = fun _ => 0 := funext fun a => by fin_cases a <;> rfl

/-! ## The printed index maps, decided over the ten points -/

/-- The output and the two tiled inputs sit at block row `t`, block column 0. -/
theorem k12_idx_11 : ∀ t : Fin cfg12.N, win12_11.index t (0 : Fin 2) = t.val ∧ win12_11.index t (1 : Fin 2) = 0 :=
  (by decide +kernel : ∀ t : Fin grid12.N, _)
theorem k12_idx_0 : ∀ t : Fin cfg12.N, win12_0.index t (0 : Fin 2) = t.val ∧ win12_0.index t (1 : Fin 2) = 0 :=
  (by decide +kernel : ∀ t : Fin grid12.N, _)
theorem k12_idx_1 : ∀ t : Fin cfg12.N, win12_1.index t (0 : Fin 2) = t.val ∧ win12_1.index t (1 : Fin 2) = 0 :=
  (by decide +kernel : ∀ t : Fin grid12.N, _)
/-- The nine resident inputs stay at block (0, 0). -/
theorem k12_idx_2 : ∀ t : Fin cfg12.N, win12_2.index t (0 : Fin 2) = 0 ∧ win12_2.index t (1 : Fin 2) = 0 :=
  (by decide +kernel : ∀ t : Fin grid12.N, _)
theorem k12_idx_3 : ∀ t : Fin cfg12.N, win12_3.index t (0 : Fin 2) = 0 ∧ win12_3.index t (1 : Fin 2) = 0 :=
  (by decide +kernel : ∀ t : Fin grid12.N, _)
theorem k12_idx_4 : ∀ t : Fin cfg12.N, win12_4.index t (0 : Fin 2) = 0 ∧ win12_4.index t (1 : Fin 2) = 0 :=
  (by decide +kernel : ∀ t : Fin grid12.N, _)
theorem k12_idx_5 : ∀ t : Fin cfg12.N, win12_5.index t (0 : Fin 2) = 0 ∧ win12_5.index t (1 : Fin 2) = 0 :=
  (by decide +kernel : ∀ t : Fin grid12.N, _)
theorem k12_idx_6 : ∀ t : Fin cfg12.N, win12_6.index t (0 : Fin 2) = 0 ∧ win12_6.index t (1 : Fin 2) = 0 :=
  (by decide +kernel : ∀ t : Fin grid12.N, _)
theorem k12_idx_7 : ∀ t : Fin cfg12.N, win12_7.index t (0 : Fin 2) = 0 ∧ win12_7.index t (1 : Fin 2) = 0 :=
  (by decide +kernel : ∀ t : Fin grid12.N, _)
theorem k12_idx_8 : ∀ t : Fin cfg12.N, win12_8.index t (0 : Fin 2) = 0 ∧ win12_8.index t (1 : Fin 2) = 0 :=
  (by decide +kernel : ∀ t : Fin grid12.N, _)
theorem k12_idx_9 : ∀ t : Fin cfg12.N, win12_9.index t (0 : Fin 2) = 0 ∧ win12_9.index t (1 : Fin 2) = 0 :=
  (by decide +kernel : ∀ t : Fin grid12.N, _)
theorem k12_idx_10 : ∀ t : Fin cfg12.N, win12_10.index t (0 : Fin 2) = 0 ∧ win12_10.index t (1 : Fin 2) = 0 :=
  (by decide +kernel : ∀ t : Fin grid12.N, _)

/-! ## The input blocks at a point, read off the arrays -/

/-- The array row that row `p` of block `t` is. -/
def k12_rowOf (t : Fin cfg12.N) (p : Fin 5000) : Fin 50000 :=
  ⟨t.val * 5000 + p.val, by have ht : t.val < grid12.N := t.isLt; rw [N_12] at ht; have hp := p.isLt; omega⟩

/-- Element `(p, k)` of a tiled window's block `t` sits at array row `5000 t + p`, column `k`. -/
theorem k12_emb_11 (t : Fin cfg12.N) (p : Fin 5000) (k : Fin 128) :
    ((cfg12.win 11).blk t).view.emb (ix2 p k) = ix2 (k12_rowOf t p) k := by
  obtain ⟨e0, e1⟩ := k12_idx_11 t
  funext a; apply Fin.ext
  match a with
  | ⟨0, _⟩ => show win12_11.index t (0 : Fin 2) * 5000 + 1 * p.val = t.val * 5000 + p.val; omega
  | ⟨1, _⟩ => show win12_11.index t (1 : Fin 2) * 128 + 1 * k.val = k.val; omega
theorem k12_emb_0 (t : Fin cfg12.N) (p : Fin 5000) (k : Fin 128) :
    ((cfg12.win 0).blk t).view.emb (ix2 p k) = ix2 (k12_rowOf t p) k := by
  obtain ⟨e0, e1⟩ := k12_idx_0 t
  funext a; apply Fin.ext
  match a with
  | ⟨0, _⟩ => show win12_0.index t (0 : Fin 2) * 5000 + 1 * p.val = t.val * 5000 + p.val; omega
  | ⟨1, _⟩ => show win12_0.index t (1 : Fin 2) * 128 + 1 * k.val = k.val; omega
theorem k12_emb_1 (t : Fin cfg12.N) (p : Fin 5000) (k : Fin 128) :
    ((cfg12.win 1).blk t).view.emb (ix2 p k) = ix2 (k12_rowOf t p) k := by
  obtain ⟨e0, e1⟩ := k12_idx_1 t
  funext a; apply Fin.ext
  match a with
  | ⟨0, _⟩ => show win12_1.index t (0 : Fin 2) * 5000 + 1 * p.val = t.val * 5000 + p.val; omega
  | ⟨1, _⟩ => show win12_1.index t (1 : Fin 2) * 128 + 1 * k.val = k.val; omega

/-- So a tiled input's block `t` at `(p, k)` is its array at row `5000 t + p`, column `k`. -/
theorem k12_row_0 (c : Dev nD) (t : Fin cfg12.N) (p : Fin 5000) (k : Fin 128) :
    iblk12 V c 0 t (ix2 p k) = V c (Pipeline.arrRef spec12 0) (ix2 (k12_rowOf t p) k) := by
  show V c (Pipeline.arrRef spec12 0) (((cfg12.win 0).blk t).view.emb (ix2 p k)) = _
  rw [k12_emb_0]
theorem k12_row_1 (c : Dev nD) (t : Fin cfg12.N) (p : Fin 5000) (k : Fin 128) :
    iblk12 V c 1 t (ix2 p k) = V c (Pipeline.arrRef spec12 1) (ix2 (k12_rowOf t p) k) := by
  show V c (Pipeline.arrRef spec12 1) (((cfg12.win 1).blk t).view.emb (ix2 p k)) = _
  rw [k12_emb_1]

/-- A resident input's block at every point is its whole array. -/
theorem k12_blk_2 (c : Dev nD) (t : Fin cfg12.N) : iblk12 V c 2 t = V c (Pipeline.arrRef spec12 2) := by
  obtain ⟨e0, e1⟩ := k12_idx_2 t
  funext y
  show V c (Pipeline.arrRef spec12 2) (((cfg12.win 2).blk t).view.emb y) = V c (Pipeline.arrRef spec12 2) y
  refine congrArg _ (funext fun a => Fin.ext ?_)
  match a with
  | ⟨0, _⟩ => show win12_2.index t (0 : Fin 2) * 1 + 1 * (y 0).val = (y 0).val; omega
  | ⟨1, _⟩ => show win12_2.index t (1 : Fin 2) * 1 + 1 * (y 1).val = (y 1).val; omega
theorem k12_blk_3 (c : Dev nD) (t : Fin cfg12.N) : iblk12 V c 3 t = V c (Pipeline.arrRef spec12 3) := by
  obtain ⟨e0, e1⟩ := k12_idx_3 t
  funext y
  show V c (Pipeline.arrRef spec12 3) (((cfg12.win 3).blk t).view.emb y) = V c (Pipeline.arrRef spec12 3) y
  refine congrArg _ (funext fun a => Fin.ext ?_)
  match a with
  | ⟨0, _⟩ => show win12_3.index t (0 : Fin 2) * 128 + 1 * (y 0).val = (y 0).val; omega
  | ⟨1, _⟩ => show win12_3.index t (1 : Fin 2) * 256 + 1 * (y 1).val = (y 1).val; omega
theorem k12_blk_4 (c : Dev nD) (t : Fin cfg12.N) : iblk12 V c 4 t = V c (Pipeline.arrRef spec12 4) := by
  obtain ⟨e0, e1⟩ := k12_idx_4 t
  funext y
  show V c (Pipeline.arrRef spec12 4) (((cfg12.win 4).blk t).view.emb y) = V c (Pipeline.arrRef spec12 4) y
  refine congrArg _ (funext fun a => Fin.ext ?_)
  match a with
  | ⟨0, _⟩ => show win12_4.index t (0 : Fin 2) * 1 + 1 * (y 0).val = (y 0).val; omega
  | ⟨1, _⟩ => show win12_4.index t (1 : Fin 2) * 256 + 1 * (y 1).val = (y 1).val; omega
theorem k12_blk_5 (c : Dev nD) (t : Fin cfg12.N) : iblk12 V c 5 t = V c (Pipeline.arrRef spec12 5) := by
  obtain ⟨e0, e1⟩ := k12_idx_5 t
  funext y
  show V c (Pipeline.arrRef spec12 5) (((cfg12.win 5).blk t).view.emb y) = V c (Pipeline.arrRef spec12 5) y
  refine congrArg _ (funext fun a => Fin.ext ?_)
  match a with
  | ⟨0, _⟩ => show win12_5.index t (0 : Fin 2) * 1 + 1 * (y 0).val = (y 0).val; omega
  | ⟨1, _⟩ => show win12_5.index t (1 : Fin 2) * 256 + 1 * (y 1).val = (y 1).val; omega
theorem k12_blk_6 (c : Dev nD) (t : Fin cfg12.N) : iblk12 V c 6 t = V c (Pipeline.arrRef spec12 6) := by
  obtain ⟨e0, e1⟩ := k12_idx_6 t
  funext y
  show V c (Pipeline.arrRef spec12 6) (((cfg12.win 6).blk t).view.emb y) = V c (Pipeline.arrRef spec12 6) y
  refine congrArg _ (funext fun a => Fin.ext ?_)
  match a with
  | ⟨0, _⟩ => show win12_6.index t (0 : Fin 2) * 1 + 1 * (y 0).val = (y 0).val; omega
  | ⟨1, _⟩ => show win12_6.index t (1 : Fin 2) * 256 + 1 * (y 1).val = (y 1).val; omega
theorem k12_blk_7 (c : Dev nD) (t : Fin cfg12.N) : iblk12 V c 7 t = V c (Pipeline.arrRef spec12 7) := by
  obtain ⟨e0, e1⟩ := k12_idx_7 t
  funext y
  show V c (Pipeline.arrRef spec12 7) (((cfg12.win 7).blk t).view.emb y) = V c (Pipeline.arrRef spec12 7) y
  refine congrArg _ (funext fun a => Fin.ext ?_)
  match a with
  | ⟨0, _⟩ => show win12_7.index t (0 : Fin 2) * 256 + 1 * (y 0).val = (y 0).val; omega
  | ⟨1, _⟩ => show win12_7.index t (1 : Fin 2) * 128 + 1 * (y 1).val = (y 1).val; omega
theorem k12_blk_8 (c : Dev nD) (t : Fin cfg12.N) : iblk12 V c 8 t = V c (Pipeline.arrRef spec12 8) := by
  obtain ⟨e0, e1⟩ := k12_idx_8 t
  funext y
  show V c (Pipeline.arrRef spec12 8) (((cfg12.win 8).blk t).view.emb y) = V c (Pipeline.arrRef spec12 8) y
  refine congrArg _ (funext fun a => Fin.ext ?_)
  match a with
  | ⟨0, _⟩ => show win12_8.index t (0 : Fin 2) * 1 + 1 * (y 0).val = (y 0).val; omega
  | ⟨1, _⟩ => show win12_8.index t (1 : Fin 2) * 128 + 1 * (y 1).val = (y 1).val; omega
theorem k12_blk_9 (c : Dev nD) (t : Fin cfg12.N) : iblk12 V c 9 t = V c (Pipeline.arrRef spec12 9) := by
  obtain ⟨e0, e1⟩ := k12_idx_9 t
  funext y
  show V c (Pipeline.arrRef spec12 9) (((cfg12.win 9).blk t).view.emb y) = V c (Pipeline.arrRef spec12 9) y
  refine congrArg _ (funext fun a => Fin.ext ?_)
  match a with
  | ⟨0, _⟩ => show win12_9.index t (0 : Fin 2) * 1 + 1 * (y 0).val = (y 0).val; omega
  | ⟨1, _⟩ => show win12_9.index t (1 : Fin 2) * 128 + 1 * (y 1).val = (y 1).val; omega
theorem k12_blk_10 (c : Dev nD) (t : Fin cfg12.N) : iblk12 V c 10 t = V c (Pipeline.arrRef spec12 10) := by
  obtain ⟨e0, e1⟩ := k12_idx_10 t
  funext y
  show V c (Pipeline.arrRef spec12 10) (((cfg12.win 10).blk t).view.emb y) = V c (Pipeline.arrRef spec12 10) y
  refine congrArg _ (funext fun a => Fin.ext ?_)
  match a with
  | ⟨0, _⟩ => show win12_10.index t (0 : Fin 2) * 1 + 1 * (y 0).val = (y 0).val; omega
  | ⟨1, _⟩ => show win12_10.index t (1 : Fin 2) * 128 + 1 * (y 1).val = (y 1).val; omega

/-! ## What a point writes back -/

/-- Reading the output window's block `t` of any array at `(p, q)` reads the array at row `5000 t + p`, column `q`. -/
theorem k12_read_11 (t : Fin cfg12.N) (G : RArr sNxD) (p : Fin 5000) (q : Fin 128) :
    ((cfg12.win 11).blk t).view.read (Elt Ideal) G (ix2 p q) = G (ix2 (k12_rowOf t p) q) := by
  show G (((cfg12.win 11).blk t).view.emb (ix2 p q)) = _
  rw [k12_emb_11]

/-- The output window is never cut: what a point writes back is the whole staging buffer. -/
theorem k12_cut_11 (t : Fin cfg12.N) (X : FVec Ideal S5000x128 .f32) (p : Fin 5000) (q : Fin 128) :
    (cfg12.win 11).cut (grid12.coords t) X (ix2 p q) = X (ix2 p q) := rfl

/-- What the body leaves in the output buffer at point `t`: the last payload over the first, of the eleven input blocks. -/
theorem k12_after_eq (c : Dev nD) (t : Fin cfg12.N) :
    (dat12 (F := Ideal) V c).after 11 t
      = k12_pay1 (F := Ideal) (k12_pay2 (F := Ideal) (iblk12 V c 2 t) (iblk12 V c 0 t) (iblk12 V c 1 t) (iblk12 V c 3 t) (iblk12 V c 4 t) (iblk12 V c 5 t)
          (iblk12 V c 6 t) (iblk12 V c 7 t) (iblk12 V c 8 t)) (iblk12 V c 9 t) (iblk12 V c 10 t) := by
  rw [after12_11]
  unfold out12_11
  rw [View.canon_unit_zero k12_hz]
  simp only [View.ld_unit_zero (S := S5000x128) k12_hz, View.ld_unit_zero (S := S1x1) k12_hz, View.ld_unit_zero (S := S128x256) k12_hz,
    View.ld_unit_zero (S := S1x256) k12_hz, View.ld_unit_zero (S := S256x128) k12_hz, View.ld_unit_zero (S := S1x128) k12_hz]

/-- The stored value as the specification's: if the two tiled blocks' row `p` is the arrays' row `P` and the nine
    resident blocks are their arrays, what the body stores at `(p, q)` is the specification's layer at `(P, q)`. -/
theorem k12_out_eq_spec (A0 A1 : RArr sNxD) (A2 : RArr s1x1) (A3 : RArr sDxD2) (A4 A5 A6 : RArr s1xD2) (A7 : RArr sD2xD) (A8 A9 A10 : RArr s1xD)
    (x0 x1 : Vec Ideal S5000x128 .f32) (x2 : Vec Ideal S1x1 .f32) (x3 : Vec Ideal S128x256 .bf16)
    (x4 x5 x6 : Vec Ideal S1x256 .f32) (x7 : Vec Ideal S256x128 .bf16) (x8 x9 x10 : Vec Ideal S1x128 .f32)
    (P : Fin 50000) (p : Fin 5000) (q : Fin 128)
    (h0 : ∀ k : Fin 128, x0 (ix2 p k) = A0 (ix2 P k)) (h1 : ∀ k : Fin 128, x1 (ix2 p k) = A1 (ix2 P k))
    (h2 : x2 = A2) (h3 : x3 = A3) (h4 : x4 = A4) (h5 : x5 = A5) (h6 : x6 = A6) (h7 : x7 = A7) (h8 : x8 = A8) (h9 : x9 = A9) (h10 : x10 = A10) :
    k12_pay1 (F := Ideal) (k12_pay2 (F := Ideal) x2 x0 x1 x3 x4 x5 x6 x7 x8) x9 x10 (ix2 p q)
      = ginG k12_relu A0 A1 A2 A3 A4 A5 A6 A7 A8 A9 A10 (ix2 P q) := by
  subst h2 h3 h4 h5 h6 h7 h8 h9 h10
  rw [k12_out_apply]
  have hz : (fun k : Fin 128 => (oneF + x2 (ix2 0 0)) * x0 (ix2 p k) + x1 (ix2 p k)) = ginZ A0 A1 x2 P := funext fun k => by
    rw [h0, h1]; rfl
  rw [hz]
  rfl

-- the eleven argument arrays are each checked against their literal shapes twice here, once in the statement and once in the proof
set_option maxHeartbeats 1000000 in
/-- Point `t` writes back block `t` of the specification's whole-array function of the eleven argument arrays. -/
theorem k12_flushed_eq (c : Dev nD) (t : Fin cfg12.N) :
    (dat12 (F := Ideal) V c).flushed 11 t
      = ((cfg12.win 11).blk t).view.read (Elt Ideal) (ginG k12_relu (V c (Pipeline.arrRef spec12 0)) (V c (Pipeline.arrRef spec12 1)) (V c (Pipeline.arrRef spec12 2)) (V c (Pipeline.arrRef spec12 3)) (V c (Pipeline.arrRef spec12 4)) (V c (Pipeline.arrRef spec12 5)) (V c (Pipeline.arrRef spec12 6)) (V c (Pipeline.arrRef spec12 7)) (V c (Pipeline.arrRef spec12 8)) (V c (Pipeline.arrRef spec12 9)) (V c (Pipeline.arrRef spec12 10))) := by
  funext j
  obtain ⟨p, q, rfl⟩ : ∃ (p : Fin 5000) (q : Fin 128), j = ix2 p q := ⟨j 0, j 1, eq_ix2 j⟩
  rw [k12_read_11]
  show (cfg12.win 11).cut (grid12.coords t) ((dat12 V c).after 11 t) (ix2 p q) = _
  rw [k12_after_eq, k12_cut_11]
  exact k12_out_eq_spec (V c (Pipeline.arrRef spec12 0)) (V c (Pipeline.arrRef spec12 1)) (V c (Pipeline.arrRef spec12 2)) (V c (Pipeline.arrRef spec12 3)) (V c (Pipeline.arrRef spec12 4)) (V c (Pipeline.arrRef spec12 5)) (V c (Pipeline.arrRef spec12 6)) (V c (Pipeline.arrRef spec12 7)) (V c (Pipeline.arrRef spec12 8)) (V c (Pipeline.arrRef spec12 9)) (V c (Pipeline.arrRef spec12 10))
    (iblk12 V c 0 t) (iblk12 V c 1 t) (iblk12 V c 2 t) (iblk12 V c 3 t) (iblk12 V c 4 t) (iblk12 V c 5 t) (iblk12 V c 6 t) (iblk12 V c 7 t) (iblk12 V c 8 t) (iblk12 V c 9 t) (iblk12 V c 10 t)
    (k12_rowOf t p) p q (fun k => k12_row_0 V c t p k) (fun k => k12_row_1 V c t p k)
    (k12_blk_2 V c t) (k12_blk_3 V c t) (k12_blk_4 V c t) (k12_blk_5 V c t) (k12_blk_6 V c t) (k12_blk_7 V c t) (k12_blk_8 V c t) (k12_blk_9 V c t) (k12_blk_10 V c t)

/-! ## The ten blocks tile the array -/

/-- An index of the array is in point `t`'s block iff each coordinate is in the block's range on its axis. -/
theorem k12_mem_blk (t : Fin cfg12.N) (i : S50000x128.Idx) :
    i ∈ ((cfg12.win 11).blk t).view.set ↔ ∀ a : Fin 2, win12_11.index t a * S5000x128.size a ≤ (i a).val ∧ (i a).val < win12_11.index t a * S5000x128.size a + S5000x128.size a := by
  show i ∈ ((View.whole (Pipeline.arrRef spec12 11)).slice (win12_11.rect t)).set ↔ _
  rw [View.set_slice_whole, Rect.mem_set_unit]
  exact Iff.rfl

/-- Row `r` is in the block of point `r / 5000`. -/
theorem k12_cover (i : S50000x128.Idx) : ∃ t : Fin cfg12.N, (cfg12.win 11).flush t = true ∧ i ∈ ((cfg12.win 11).blk t).view.set := by
  have hi0 : (i 0).val < 50000 := (i 0).isLt
  have hi1 : (i 1).val < 128 := (i 1).isLt
  have hlt : (i 0).val / 5000 < cfg12.N := by show (i 0).val / 5000 < grid12.N; rw [N_12]; omega
  obtain ⟨e0, e1⟩ := k12_idx_11 ⟨(i 0).val / 5000, hlt⟩
  refine ⟨⟨(i 0).val / 5000, hlt⟩, flush12_11 _, ?_⟩
  rw [k12_mem_blk]
  intro a
  match a with
  | ⟨0, _⟩ =>
    show win12_11.index ⟨(i 0).val / 5000, hlt⟩ (0 : Fin 2) * 5000 ≤ (i 0).val ∧ (i 0).val < win12_11.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win12_11.index ⟨(i 0).val / 5000, hlt⟩ (1 : Fin 2) * 128 ≤ (i 1).val ∧ (i 1).val < win12_11.index ⟨(i 0).val / 5000, hlt⟩ (1 : Fin 2) * 128 + 128
    omega

/-! ## The region's value -/

/-- After its ten points the output array holds the specification's node-level perceptron layer of the eleven argument
    arrays as the region found them. -/
theorem final12 (c : Dev nD) :
    (dat12 (F := Ideal) V c).arrAt 11 cfg12.N = ginG false (V c (Pipeline.arrRef spec12 0)) (V c (Pipeline.arrRef spec12 1)) (V c (Pipeline.arrRef spec12 2)) (V c (Pipeline.arrRef spec12 3)) (V c (Pipeline.arrRef spec12 4)) (V c (Pipeline.arrRef spec12 5)) (V c (Pipeline.arrRef spec12 6)) (V c (Pipeline.arrRef spec12 7)) (V c (Pipeline.arrRef spec12 8)) (V c (Pipeline.arrRef spec12 9)) (V c (Pipeline.arrRef spec12 10)) :=
  (dat12 (F := Ideal) V c).arrAt_eq_of_cover 11 _ (fun t _ => k12_flushed_eq V c t) k12_cover

end Cert.KernelIdeal.HandValue
-- ==== Proof.SegValue13.lean ====
/- Region 1 of @main, the batch-grouped segment sum, read at the extended reals: the value half. What the scratch
   accumulator holds after `n` points is, entry by entry, the segment sum restricted to the first `5000 n` rows (by
   induction on the point: each point adds, at entry (g, d), feature d of the rows of its block whose id is the word g);
   after the tenth point that is the whole segment sum, which the one write-back puts into the result array, whose one
   block is the whole array. -/
import proofs.«403491_j395136991532_1_alg».proof.Proof.SegRegion13
import proofs.«403491_j395136991532_1_alg».proof.Proof.SegLaws
import proofs.«403491_j395136991532_1_alg».proof.Proof.SpecNet
import Idealize.ShloMosaic.Lib.Pipeline.Value
import Idealize.ShloMosaic.PureOps.Ideal.Laws

set_option maxRecDepth 16384

noncomputable section

namespace Cert.KernelIdeal.HandValue

open Cert.KernelIdeal Cert.KernelIdeal.Gen Cert.KernelIdeal.Hand Cert.Spec
open Idealize.ShloMosaic Idealize.ShloMosaic.TcCoe Idealize.ShloMosaic.ValueIdx Idealize.SL.Sem
open Idealize.ShloMosaic.Pipeline (Dat)

-- the TensorCore's buffer contents when the region is entered, at the extended reals
variable (V : (c : Dev nD) → (b : Ref sig .tc) → Buf (Elt Ideal) ((c : Thread nD τ).loc b))

/-! ## The two payloads at an entry -/

/-- The block the first point stores is zero everywhere. -/
theorem pay1_apply13 (j : S256x128.Idx) : (k13_pay1 (F := Ideal)) j = 0 := by
  show (shapeCast S256x128 (broadcast S256x128 (Scalar.ofBits (F := Ideal) .f32 0x00000000#32)) shapeCasts_S256x128_S256x128) j = 0
  rw [shapeCast_self]
  exact Ideal.ofBits_zero_f32

/-- The block every point stores: what the scratch held plus the point's contribution. -/
theorem pay2_apply13 (xb : Vec Ideal S5000x128 .f32) (bb : Vec Ideal S5000x1 .i32) (a : Vec Ideal S256x128 .f32) (j : S256x128.Idx) :
    k13_pay2 xb bb a j = a j + ∑ k : Fin 5000, if bb (ix2 k 0) = BitVec.ofNat 32 (gOf j).val then xb (ix2 k (dOf j)) else 0 := by
  show (shapeCast S256x128 (addf a (matmul segDot none (segOnehot bb)
      (truncf .bf16 (shapeCast S5000x128 xb shapeCasts_S5000x128_S5000x128) bitsLt_bf16_f32)
      (constant S256x128 .f32 0x00000000#32))) shapeCasts_S256x128_S256x128) j = _
  rw [shapeCast_self]
  exact segStep xb bb a j

/-! ## The windows' blocks, read at a row -/

/-- The two input windows step along the row axis with the point; the output window does not move. -/
theorem index13_0 : ∀ t : Fin cfg13.N, win13_0.index t 0 = t.val ∧ win13_0.index t 1 = 0 :=
  (by decide +kernel : ∀ t : Fin grid13.N, win13_0.index t 0 = t.val ∧ win13_0.index t 1 = 0)
theorem index13_1 : ∀ t : Fin cfg13.N, win13_1.index t 0 = t.val ∧ win13_1.index t 1 = 0 :=
  (by decide +kernel : ∀ t : Fin grid13.N, win13_1.index t 0 = t.val ∧ win13_1.index t 1 = 0)

/-- Row `k` of the feature block at point `n` is row `5000 n + k` of the feature array. -/
theorem iblk13_0_apply (c : Dev nD) (n : Fin cfg13.N) (k : Fin 5000) (d : Fin 128) (h : 5000 * n.val + k.val < 50000) :
    (iblk13 V c 0 n : Vec Ideal S5000x128 .f32) (ix2 k d)
      = (V c (Pipeline.arrRef spec13 0) : Vec Ideal S50000x128 .f32) (ix2 ⟨5000 * n.val + k.val, h⟩ d) := by
  unfold iblk13
  rw [View.read_apply]
  show V c (Pipeline.arrRef spec13 0) _ = V c (Pipeline.arrRef spec13 0) _
  congr 1
  funext a
  apply Fin.ext
  match a with
  | ⟨0, _⟩ =>
    show win13_0.index n 0 * 5000 + 1 * k.val = 5000 * n.val + k.val
    rw [(index13_0 n).1]; omega
  | ⟨1, _⟩ =>
    show win13_0.index n 1 * 128 + 1 * d.val = d.val
    rw [(index13_0 n).2]; omega

/-- Row `k` of the id block at point `n` is row `5000 n + k` of the id column. -/
theorem iblk13_1_apply (c : Dev nD) (n : Fin cfg13.N) (k : Fin 5000) (h : 5000 * n.val + k.val < 50000) :
    (iblk13 V c 1 n : Vec Ideal S5000x1 .i32) (ix2 k 0)
      = (V c (Pipeline.arrRef spec13 1) : Vec Ideal S50000x1 .i32) (ix2 ⟨5000 * n.val + k.val, h⟩ 0) := by
  unfold iblk13
  rw [View.read_apply]
  show V c (Pipeline.arrRef spec13 1) _ = V c (Pipeline.arrRef spec13 1) _
  congr 1
  funext a
  apply Fin.ext
  match a with
  | ⟨0, _⟩ =>
    show win13_1.index n 0 * 5000 + 1 * k.val = 5000 * n.val + k.val
    rw [(index13_1 n).1]; omega
  | ⟨1, _⟩ =>
    show win13_1.index n 1 * 1 + 1 * 0 = 0
    rw [(index13_1 n).2]

/-! ## The accumulation is the segment sum of the rows so far -/

/-- Row `t`'s term of entry `j`: its feature if its id is the entry's graph, else nothing (nothing past the last row). -/
def term13 (c : Dev nD) (j : S256x128.Idx) (t : ℕ) : EReal :=
  if h : t < 50000 then
    (if (V c (Pipeline.arrRef spec13 1) : Vec Ideal S50000x1 .i32) (ix2 ⟨t, h⟩ 0) = BitVec.ofNat 32 (gOf j).val
      then (V c (Pipeline.arrRef spec13 0) : Vec Ideal S50000x128 .f32) (ix2 ⟨t, h⟩ (dOf j)) else 0)
  else 0

/-- Row `k` of point `n`'s blocks contributes row `5000 n + k`'s term. -/
theorem blockTerm13 (c : Dev nD) (j : S256x128.Idx) (n : Fin cfg13.N) (k : Fin 5000) :
    ((if (iblk13 V c 1 n : Vec Ideal S5000x1 .i32) (ix2 k 0) = BitVec.ofNat 32 (gOf j).val
        then (iblk13 V c 0 n : Vec Ideal S5000x128 .f32) (ix2 k (dOf j)) else 0 : EReal))
      = term13 V c j (5000 * n.val + k.val) := by
  have hN : n.val < 10 := lt_of_lt_of_eq n.isLt (show cfg13.N = 10 from N_13)
  have hlt : 5000 * n.val + k.val < 50000 := by have := k.isLt; omega
  unfold term13
  rw [dif_pos hlt, iblk13_0_apply V c n k (dOf j) hlt, iblk13_1_apply V c n k hlt]

set_option maxHeartbeats 1000000 in
/-- After `n` points the scratch holds, at each entry, the sum of the terms of the first `5000 n` rows: by induction on
    the point, each point adding its block's rows. -/
theorem accAt13_eq (c : Dev nD) (j : S256x128.Idx) (n : ℕ) :
    ∀ (hn : n ≤ cfg13.N), accAt13 V c n hn j = ∑ t ∈ Finset.range (5000 * n), term13 V c j t := by
  induction n with
  | zero =>
    intro hn
    rw [accAt13_zero V c hn, pay1_apply13]
    simp
  | succ n ih =>
    intro hn
    rw [show accAt13 V c (n + 1) hn = k13_pay2 (iblk13 V c 0 ⟨n, hn⟩) (iblk13 V c 1 ⟨n, hn⟩) (accAt13 V c n (Nat.le_of_lt hn))
        from accAt13_succ V c ⟨n, hn⟩,
      pay2_apply13, ih (Nat.le_of_lt hn), show 5000 * (n + 1) = 5000 * n + 5000 from by ring, Finset.sum_range_add,
      Finset.sum_range (fun x => term13 V c j (5000 * n + x))]
    exact congrArg (fun s : EReal => (∑ t ∈ Finset.range (5000 * n), term13 V c j t) + s)
      (Finset.sum_congr rfl fun k _ => blockTerm13 V c j ⟨n, hn⟩ k)

/-- After the tenth point that is the whole segment sum. -/
theorem accAt13_last (c : Dev nD) (h : 10 ≤ cfg13.N) :
    accAt13 V c 10 h = segG (V c (Pipeline.arrRef spec13 0)) (V c (Pipeline.arrRef spec13 1)) := by
  funext j
  rw [accAt13_eq V c j 10 h, show 5000 * 10 = 50000 from rfl, Finset.sum_range]
  unfold segG term13
  refine Finset.sum_congr rfl fun t _ => ?_
  exact (dif_pos t.isLt).trans rfl

/-! ## The one write-back -/

/-- The write-back at the last point writes the segment sum: the output's one block, read through zero offsets, is the
    whole array. -/
theorem flushed13 (c : Dev nD) (t : Fin cfg13.N) (hf : (cfg13.win 2).flush t = true) :
    (dat13 V c).flushed 2 t = ((cfg13.win 2).blk t).view.read (Elt Ideal)
      (segG (V c (Pipeline.arrRef spec13 0)) (V c (Pipeline.arrRef spec13 1))) := by
  have hN : cfg13.N = 10 := N_13
  have hL : t.val = 9 := by have := (flush13_2 t).mp hf; have := t.isLt; omega
  obtain rfl : t = t13_9 := Fin.ext hL
  show (cfg13.win 2).cut (grid13.coords t13_9) ((dat13 V c).after 2 t13_9) = _
  rw [after13_2]
  show (cfg13.win 2).cut (grid13.coords t13_9) (accAt13 V c 10 t13_9.isLt) = _
  rw [accAt13_last V c t13_9.isLt]
  have hz' : (fun a => win13_2.index t13_9 a * (Pipeline.arrRef spec13 2).ty.shape.size a) = fun _ => 0 :=
    funext fun a => by fin_cases a <;> decide
  exact (Memref.read_access_unit_zero (Elt Ideal) (Pipeline.arrRef spec13 2) hz' (fun a => by rw [congrFun hz' a]; simp) _).symm

/-- THE REGION'S VALUE: after its ten points the result array holds the segment sum of the two argument arrays as the
    region found them. -/
theorem final13 (c : Dev nD) :
    (dat13 (F := Ideal) V c).arrAt 2 cfg13.N = segG (V c (Pipeline.arrRef spec13 0)) (V c (Pipeline.arrRef spec13 1)) :=
  (dat13 V c).arrAt_eq_of_cover 2 _ (flushed13 V c) fun i =>
    ⟨t13_9, (flush13_2 t13_9).mpr rfl, by
      show i ∈ ((View.whole (Pipeline.arrRef spec13 2)).slice (win13_2.rect t13_9)).set
      rw [View.set_slice_whole, Rect.mem_set_unit]
      intro a
      have hi0 : (i 0 : Nat) < 256 := (i 0).isLt
      have hi13 : (i 1 : Nat) < 128 := (i 1).isLt
      match a with
      | ⟨0, _⟩ =>
        show win13_2.index t13_9 0 * win13_2.size 0 ≤ (i 0 : Nat)
          ∧ (i 0 : Nat) < win13_2.index t13_9 0 * win13_2.size 0 + win13_2.xsize (grid13.coords t13_9) 0
        rw [show win13_2.index t13_9 0 * win13_2.size 0 = 0 from by decide +kernel,
          show win13_2.xsize (grid13.coords t13_9) 0 = 256 from by decide +kernel]
        omega
      | ⟨1, _⟩ =>
        show win13_2.index t13_9 1 * win13_2.size 1 ≤ (i 1 : Nat)
          ∧ (i 1 : Nat) < win13_2.index t13_9 1 * win13_2.size 1 + win13_2.xsize (grid13.coords t13_9) 1
        rw [show win13_2.index t13_9 1 * win13_2.size 1 = 0 from by decide +kernel,
          show win13_2.xsize (grid13.coords t13_9) 1 = 128 from by decide +kernel]
        omega⟩

end Cert.KernelIdeal.HandValue

end
-- ==== Proof.FinValue14.lean ====
/- Region 14 of @main, the mean pool and predictor: the VALUE its output array ends holding, over the extended reals. The body's payload, read
   index by index, is the network's function `Cert.Spec.finG` of the blocks the body loads; the grid is one point whose block, for
   every window, is the whole array at offset zero; so what the point writes back is `Cert.Spec.finG` of the input arrays as the
   region finds them, its block covers the output array, and the array ends holding exactly that. -/
import proofs.«403491_j395136991532_1_alg».proof.Proof.FinRegion14
import proofs.«403491_j395136991532_1_alg».proof.Proof.VnFinDots
import proofs.«403491_j395136991532_1_alg».proof.Proof.SpecNet
import Idealize.ShloMosaic.Lib.Pipeline.Value

noncomputable section

namespace Cert.KernelIdeal.HandValue

open Cert.KernelIdeal Cert.KernelIdeal.Gen Cert.KernelIdeal.Hand Idealize.ShloMosaic Idealize.ShloMosaic.TcCoe Idealize.SL.Sem
open Idealize.ShloMosaic.ValueIdx
open Idealize.ShloMosaic.Pipeline (Dat)
open scoped BigOperators

/-! ## The body's payload, index by index -/

/-- The payload of the body's one store is `Cert.Spec.finG` of the loaded blocks: at row `p`, column `q` both are the same
    sums, products and maxima of the same entries. -/
theorem pay14_eq (x0 : Vec Ideal S256x128 .f32) (x1 : Vec Ideal S256x1 .f32) (x2 : Vec Ideal S128x10 .bf16) (x3 : Vec Ideal S1x10 .f32) :
    k14_pay1 x0 x1 x2 x3 = Cert.Spec.finG x0 x1 x2 x3 := by
  funext j
  obtain ⟨p, q, rfl⟩ : ∃ (p : Fin 256) (q : Fin 10), j = ix2 p q := ⟨j 0, j 1, eq_ix2 j⟩
  unfold k14_pay1 Cert.Spec.finG Cert.Spec.oneF
  simp only [maximumf_apply, addf_apply, divf_apply, broadcast_apply, shapeCast_self, truncf_apply, Ideal.ofBits_def, rowTo256x10_apply, colTo256x128_apply, matmulHead_apply]

/-! ## One grid point: every window's block is its whole array -/

theorem hz14 : (![0, 0] : Fin 2 → Nat) = fun _ => 0 := funext fun a => by fin_cases a <;> rfl

/-- The printed index maps, decided over the one grid point: every window's block index is zero on both axes. -/
theorem idx_facts14 : ∀ t : Fin cfg14.N, win14_0.index t (0 : Fin 2) = 0 ∧ win14_0.index t (1 : Fin 2) = 0
    ∧ win14_1.index t (0 : Fin 2) = 0 ∧ win14_1.index t (1 : Fin 2) = 0
    ∧ win14_2.index t (0 : Fin 2) = 0 ∧ win14_2.index t (1 : Fin 2) = 0
    ∧ win14_3.index t (0 : Fin 2) = 0 ∧ win14_3.index t (1 : Fin 2) = 0
    ∧ win14_4.index t (0 : Fin 2) = 0 ∧ win14_4.index t (1 : Fin 2) = 0 :=
  (by decide +kernel : ∀ t : Fin grid14.N, _)

section AnyF
variable {F : FTy → Type} [FloatOps F]
variable (V : (c : Dev nD) → (b : Ref sig .tc) → Buf (Elt F) ((c : Thread nD τ).loc b))

/-- Input window 0's block at the point is its array. -/
theorem iblk14_0_eq (c : Dev nD) (t : Fin cfg14.N) : (iblk14 V c 0 t : Vec F S256x128 .f32) = V c (Pipeline.arrRef spec14 0) := by
  obtain ⟨e0_0, e0_1, e1_0, e1_1, e2_0, e2_1, e3_0, e3_1, e4_0, e4_1⟩ := idx_facts14 t
  funext y
  show V c (Pipeline.arrRef spec14 0) (((cfg14.win 0).blk t).view.emb y) = V c (Pipeline.arrRef spec14 0) y
  refine congrArg _ (funext fun a => Fin.ext ?_)
  match a with
  | ⟨0, _⟩ => show win14_0.index t (0 : Fin 2) * 256 + 1 * (y 0).val = (y 0).val; omega
  | ⟨1, _⟩ => show win14_0.index t (1 : Fin 2) * 128 + 1 * (y 1).val = (y 1).val; omega

/-- Input window 1's block at the point is its array. -/
theorem iblk14_1_eq (c : Dev nD) (t : Fin cfg14.N) : (iblk14 V c 1 t : Vec F S256x1 .f32) = V c (Pipeline.arrRef spec14 1) := by
  obtain ⟨e0_0, e0_1, e1_0, e1_1, e2_0, e2_1, e3_0, e3_1, e4_0, e4_1⟩ := idx_facts14 t
  funext y
  show V c (Pipeline.arrRef spec14 1) (((cfg14.win 1).blk t).view.emb y) = V c (Pipeline.arrRef spec14 1) y
  refine congrArg _ (funext fun a => Fin.ext ?_)
  match a with
  | ⟨0, _⟩ => show win14_1.index t (0 : Fin 2) * 256 + 1 * (y 0).val = (y 0).val; omega
  | ⟨1, _⟩ => show win14_1.index t (1 : Fin 2) * 1 + 1 * (y 1).val = (y 1).val; omega

/-- Input window 2's block at the point is its array. -/
theorem iblk14_2_eq (c : Dev nD) (t : Fin cfg14.N) : (iblk14 V c 2 t : Vec F S128x10 .bf16) = V c (Pipeline.arrRef spec14 2) := by
  obtain ⟨e0_0, e0_1, e1_0, e1_1, e2_0, e2_1, e3_0, e3_1, e4_0, e4_1⟩ := idx_facts14 t
  funext y
  show V c (Pipeline.arrRef spec14 2) (((cfg14.win 2).blk t).view.emb y) = V c (Pipeline.arrRef spec14 2) y
  refine congrArg _ (funext fun a => Fin.ext ?_)
  match a with
  | ⟨0, _⟩ => show win14_2.index t (0 : Fin 2) * 128 + 1 * (y 0).val = (y 0).val; omega
  | ⟨1, _⟩ => show win14_2.index t (1 : Fin 2) * 10 + 1 * (y 1).val = (y 1).val; omega

/-- Input window 3's block at the point is its array. -/
theorem iblk14_3_eq (c : Dev nD) (t : Fin cfg14.N) : (iblk14 V c 3 t : Vec F S1x10 .f32) = V c (Pipeline.arrRef spec14 3) := by
  obtain ⟨e0_0, e0_1, e1_0, e1_1, e2_0, e2_1, e3_0, e3_1, e4_0, e4_1⟩ := idx_facts14 t
  funext y
  show V c (Pipeline.arrRef spec14 3) (((cfg14.win 3).blk t).view.emb y) = V c (Pipeline.arrRef spec14 3) y
  refine congrArg _ (funext fun a => Fin.ext ?_)
  match a with
  | ⟨0, _⟩ => show win14_3.index t (0 : Fin 2) * 1 + 1 * (y 0).val = (y 0).val; omega
  | ⟨1, _⟩ => show win14_3.index t (1 : Fin 2) * 10 + 1 * (y 1).val = (y 1).val; omega

end AnyF

/-- An index of the output window's block is that index of its array. -/
theorem emb14_4 (t : Fin cfg14.N) (j : S256x10.Idx) : ((cfg14.win 4).blk t).view.emb j = j := by
  obtain ⟨e0_0, e0_1, e1_0, e1_1, e2_0, e2_1, e3_0, e3_1, e4_0, e4_1⟩ := idx_facts14 t
  funext a; apply Fin.ext
  match a with
  | ⟨0, _⟩ => show win14_4.index t (0 : Fin 2) * 256 + 1 * (j 0).val = (j 0).val; omega
  | ⟨1, _⟩ => show win14_4.index t (1 : Fin 2) * 10 + 1 * (j 1).val = (j 1).val; omega

/-! ## What the point writes back, and the array after the region -/

variable (V : (c : Dev nD) → (b : Ref sig .tc) → Buf (Elt Ideal) ((c : Thread nD τ).loc b))

set_option maxHeartbeats 1000000 in
/-- What the point writes back to the output window's array is its block of `Cert.Spec.finG` of the input arrays as the region finds them. -/
theorem flushed14_4_eq (c : Dev nD) (t : Fin cfg14.N) :
    (dat14 (F := Ideal) V c).flushed 4 t
      = ((cfg14.win 4).blk t).view.read (Elt Ideal) (Cert.Spec.finG (V c (Pipeline.arrRef spec14 0)) (V c (Pipeline.arrRef spec14 1)) (V c (Pipeline.arrRef spec14 2)) (V c (Pipeline.arrRef spec14 3))) := by
  show (cfg14.win 4).cut (grid14.coords t) ((dat14 V c).after 4 t) = _
  rw [after14_4]
  unfold out14_4
  rw [View.canon_unit_zero hz14]
  simp only [View.ld_unit_zero (S := S256x128) hz14, View.ld_unit_zero (S := S256x1) hz14, View.ld_unit_zero (S := S128x10) hz14, View.ld_unit_zero (S := S1x10) hz14]
  rw [iblk14_0_eq, iblk14_1_eq, iblk14_2_eq, iblk14_3_eq, pay14_eq]
  funext j
  show Cert.Spec.finG (V c (Pipeline.arrRef spec14 0)) (V c (Pipeline.arrRef spec14 1)) (V c (Pipeline.arrRef spec14 2)) (V c (Pipeline.arrRef spec14 3)) j
    = Cert.Spec.finG (V c (Pipeline.arrRef spec14 0)) (V c (Pipeline.arrRef spec14 1)) (V c (Pipeline.arrRef spec14 2)) (V c (Pipeline.arrRef spec14 3)) (((cfg14.win 4).blk t).view.emb j)
  rw [emb14_4]

/-- An index of the array is in the point's block iff each coordinate is in the block's range on its axis. -/
theorem mem_blk14_4 (t : Fin cfg14.N) (i : S256x10.Idx) :
    i ∈ ((cfg14.win 4).blk t).view.set ↔ ∀ a : Fin 2, win14_4.index t a * S256x10.size a ≤ (i a).val ∧ (i a).val < win14_4.index t a * S256x10.size a + S256x10.size a := by
  show i ∈ ((View.whole (Pipeline.arrRef spec14 4)).slice (win14_4.rect t)).set ↔ _
  rw [View.set_slice_whole, Rect.mem_set_unit]
  exact Iff.rfl

/-- The one point's block covers the output array. -/
theorem covered14_4 (i : S256x10.Idx) : ∃ t : Fin cfg14.N, (cfg14.win 4).flush t = true ∧ i ∈ ((cfg14.win 4).blk t).view.set := by
  refine ⟨⟨0, by decide⟩, flush14_4 _, ?_⟩
  rw [mem_blk14_4]
  obtain ⟨e0_0, e0_1, e1_0, e1_1, e2_0, e2_1, e3_0, e3_1, e4_0, e4_1⟩ := idx_facts14 ⟨0, by decide⟩
  have h0 : (i 0).val < 256 := idx2_lt0 i
  have h1 : (i 1).val < 10 := idx2_lt1 i
  intro a
  match a with
  | ⟨0, _⟩ => show win14_4.index ⟨0, by decide⟩ (0 : Fin 2) * 256 ≤ (i 0).val ∧ (i 0).val < win14_4.index ⟨0, by decide⟩ (0 : Fin 2) * 256 + 256; omega
  | ⟨1, _⟩ => show win14_4.index ⟨0, by decide⟩ (1 : Fin 2) * 10 ≤ (i 1).val ∧ (i 1).val < win14_4.index ⟨0, by decide⟩ (1 : Fin 2) * 10 + 10; omega

/-- THE ARRAY after the region: `Cert.Spec.finG` of the input arrays as the region finds them. -/
theorem final14 (c : Dev nD) :
    (dat14 (F := Ideal) V c).arrAt 4 cfg14.N = Cert.Spec.finG (V c (Pipeline.arrRef spec14 0)) (V c (Pipeline.arrRef spec14 1)) (V c (Pipeline.arrRef spec14 2)) (V c (Pipeline.arrRef spec14 3)) :=
  (dat14 (F := Ideal) V c).arrAt_eq_of_cover 4 _ (fun t _ => flushed14_4_eq V c t) covered14_4

end Cert.KernelIdeal.HandValue

end
-- ==== Proof.KiChain.lean ====
/-
  The kernel program's result: the contents at the 27 boundaries of @main's run are a fold in the sense of the abstract
  chain (each host stretch by definition, each region by its value lemma and its frame), so the last region's output
  array is the kernel's network of the 32 argument arrays at launch.
-/
import proofs.«403491_j395136991532_1_alg».proof.Proof.KiFold
import proofs.«403491_j395136991532_1_alg».proof.Proof.KiRegKeep
import proofs.«403491_j395136991532_1_alg».proof.Proof.KiChainAbs
import proofs.«403491_j395136991532_1_alg».proof.Proof.GinValue0
import proofs.«403491_j395136991532_1_alg».proof.Proof.SegValue1
import proofs.«403491_j395136991532_1_alg».proof.Proof.VnValue2
import proofs.«403491_j395136991532_1_alg».proof.Proof.GinValue3
import proofs.«403491_j395136991532_1_alg».proof.Proof.SegValue4
import proofs.«403491_j395136991532_1_alg».proof.Proof.VnValue5
import proofs.«403491_j395136991532_1_alg».proof.Proof.GinValue6
import proofs.«403491_j395136991532_1_alg».proof.Proof.SegValue7
import proofs.«403491_j395136991532_1_alg».proof.Proof.VnValue8
import proofs.«403491_j395136991532_1_alg».proof.Proof.GinValue9
import proofs.«403491_j395136991532_1_alg».proof.Proof.SegValue10
import proofs.«403491_j395136991532_1_alg».proof.Proof.VnValue11
import proofs.«403491_j395136991532_1_alg».proof.Proof.GinValue12
import proofs.«403491_j395136991532_1_alg».proof.Proof.SegValue13
import proofs.«403491_j395136991532_1_alg».proof.Proof.FinValue14
set_option maxRecDepth 16384

noncomputable section

namespace Cert.KernelIdeal.HandValue

open Idealize.ShloMosaic Idealize.ShloMosaic.TcCoe Idealize.SL.Sem
open Cert.KernelIdeal.Gen Cert.KernelIdeal.Hand

variable (m : (ℓ : Loc nD τ sig) → Buf (Elt Ideal) ℓ) (ρ : Dev nD → PrngReg)

/-- One core's contents at the 27 boundaries, as one sequence. -/
def Wseq (c : Dev nD) : ℕ → Valuation τ sig (Elt Ideal)
  | 0 => W0 m ρ c
  | 1 => W1 m ρ c
  | 2 => W2 m ρ c
  | 3 => W3 m ρ c
  | 4 => W4 m ρ c
  | 5 => W5 m ρ c
  | 6 => W6 m ρ c
  | 7 => W7 m ρ c
  | 8 => W8 m ρ c
  | 9 => W9 m ρ c
  | 10 => W10 m ρ c
  | 11 => W11 m ρ c
  | 12 => W12 m ρ c
  | 13 => W13 m ρ c
  | 14 => W14 m ρ c
  | 15 => W15 m ρ c
  | 16 => W16 m ρ c
  | 17 => W17 m ρ c
  | 18 => W18 m ρ c
  | 19 => W19 m ρ c
  | 20 => W20 m ρ c
  | 21 => W21 m ρ c
  | 22 => W22 m ρ c
  | 23 => W23 m ρ c
  | 24 => W24 m ρ c
  | 25 => W25 m ρ c
  | _ => W26 m ρ c

/-- They are a fold: a host stretch by definition, a region by its value and its frame. -/
theorem fold (c : Dev nD) : Fold (Wseq m ρ c) where
  h0 := rfl
  o0 := (W2_arr m ρ c 11).trans (final0 (V1 m ρ) c)
  k0 := keep_reg0 m ρ c
  o1 := (W3_arr m ρ c 2).trans (final1 (V2 m ρ) c)
  k1 := keep_reg1 m ρ c
  h2 := rfl
  o2 := (W5_arr m ρ c 9).trans (final2 (V4 m ρ) c)
  k2 := keep_reg2 m ρ c
  h3 := rfl
  o3 := (W7_arr m ρ c 11).trans (final3 (V6 m ρ) c)
  k3 := keep_reg3 m ρ c
  o4 := (W8_arr m ρ c 2).trans (final4 (V7 m ρ) c)
  k4 := keep_reg4 m ρ c
  h5 := rfl
  o5 := (W10_arr m ρ c 9).trans (final5 (V9 m ρ) c)
  k5 := keep_reg5 m ρ c
  h6 := rfl
  o6 := (W12_arr m ρ c 11).trans (final6 (V11 m ρ) c)
  k6 := keep_reg6 m ρ c
  o7 := (W13_arr m ρ c 2).trans (final7 (V12 m ρ) c)
  k7 := keep_reg7 m ρ c
  h8 := rfl
  o8 := (W15_arr m ρ c 9).trans (final8 (V14 m ρ) c)
  k8 := keep_reg8 m ρ c
  h9 := rfl
  o9 := (W17_arr m ρ c 11).trans (final9 (V16 m ρ) c)
  k9 := keep_reg9 m ρ c
  o10 := (W18_arr m ρ c 2).trans (final10 (V17 m ρ) c)
  k10 := keep_reg10 m ρ c
  h11 := rfl
  o11 := (W20_arr m ρ c 9).trans (final11 (V19 m ρ) c)
  k11 := keep_reg11 m ρ c
  h12 := rfl
  o12 := (W22_arr m ρ c 11).trans (final12 (V21 m ρ) c)
  k12 := keep_reg12 m ρ c
  h13 := rfl
  o13 := (W24_arr m ρ c 2).trans (final13 (V23 m ρ) c)
  k13 := keep_reg13 m ρ c
  h14 := rfl
  o14 := (W26_arr m ρ c 4).trans (final14 (V25 m ρ) c)
  k14 := keep_reg14 m ρ c

/-- The 32 argument arrays at launch, as the specification's record. -/
def argsOf (c : Dev nD) : Cert.Spec.Args := argsOfW fun b => m ((c : Dev nD), b)

/-- THE KERNEL'S VALUE: at the last boundary the result array holds the kernel's network of the arguments at launch. -/
theorem ker_result (c : Dev nD) : W26 m ρ c (Proc.devRef .tc main_v369) = Cert.Spec.kerNet (argsOf m c) :=
  ker_result_of_fold (fold m ρ c)

end Cert.KernelIdeal.HandValue
-- ==== Proof.RefRunPart0.lean ====
/-
  Window 0 of the reference program's @main, as a line of host operations. The window is that line run in order;
  no operation of it allocates, so each determines the contents it writes; and the line writes only the references
  listed for it, so every other reference keeps its contents through the window.
-/
import proofs.«403491_j395136991532_1_alg».proof.Proof.RefOps

noncomputable section

namespace Cert.ReferenceIdeal.HandRef

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- The printed window is its operations run in order: with a called function's body and the call's buffer record
    opened, both sides are the same chain of host steps, by computation. -/
theorem main_part0_eq (c : Dev nD) : main_part0 (F := F) c = seq ops0 := rfl

/-- No operation of the window allocates a buffer: the set of references an operation leaves undetermined is empty
    for every builder that occurs, by computation. -/
theorem ops0_fresh : ∀ op ∈ (ops0 : List (HloOp τ sig (Elt F))), op.fresh = ∅ :=
  List.forall_iff_forall_mem.mp (by simp only [List.Forall]; repeat' constructor)

/-- Each operation of the window writes one reference, and it is in the window's list: a builder writes exactly its
    result reference, distinct references are distinct device buffers, and membership in the literal list is decided. -/
theorem ops0_writes : (ops0 : List (HloOp τ sig (Elt F))).Forall fun op =>
    op.writes ⊆ (wr0.map (Proc.devRef (τ := τ) .tc)).toFinset := by
  simp only [List.Forall, nullary_writes, unary_writes, binary_writes, ternary_writes, reshape_writes,
    Finset.singleton_subset_iff, List.mem_toFinset, List.mem_map_of_injective (Proc.devRef_injective (sig := sig) (.tc : Proc τ))]
  repeat' apply And.intro
  all_goals decide

/-- A reference outside the window's list keeps its contents through the window. -/
theorem ops0_kept {r : Ref sig .tc} (h : r ∉ wr0) (V : Valuation τ sig (Elt F)) :
    after ops0 V (Proc.devRef .tc r) = V (Proc.devRef .tc r) :=
  after_of_writes_sub ops0 V ops0_writes h

end Cert.ReferenceIdeal.HandRef

end
-- ==== Proof.RefRun.lean ====
/-
  The reference program's run. @main is fourteen printed windows run in order, and each window is a line of host
  operations; so @main is the one line 'ops', the windows' lines appended. A line of host operations on a signature
  that scopes nothing terminates on every weakly fair execution, and every final state holds each TensorCore buffer
  at the fold of the operations' results over its launch contents. No operation writes an argument of @main, so the
  fold leaves every argument at its launch contents.
-/
import proofs.«403491_j395136991532_1_alg».proof.Proof.RefRunPart0
import proofs.«403491_j395136991532_1_alg».proof.Proof.RefRunPart1
import proofs.«403491_j395136991532_1_alg».proof.Proof.RefRunPart2
import proofs.«403491_j395136991532_1_alg».proof.Proof.RefRunPart3
import proofs.«403491_j395136991532_1_alg».proof.Proof.RefRunPart4
import proofs.«403491_j395136991532_1_alg».proof.Proof.RefRunPart5
import proofs.«403491_j395136991532_1_alg».proof.Proof.RefRunPart6
import proofs.«403491_j395136991532_1_alg».proof.Proof.RefRunPart7
import proofs.«403491_j395136991532_1_alg».proof.Proof.RefRunPart8
import proofs.«403491_j395136991532_1_alg».proof.Proof.RefRunPart9
import proofs.«403491_j395136991532_1_alg».proof.Proof.RefRunPart10
import proofs.«403491_j395136991532_1_alg».proof.Proof.RefRunPart11
import proofs.«403491_j395136991532_1_alg».proof.Proof.RefRunPart12
import proofs.«403491_j395136991532_1_alg».proof.Proof.RefRunPart13
import Idealize.ShloMosaic.Lib.Pipeline.Frame

noncomputable section

namespace Cert.ReferenceIdeal.HandRef

open Cert.ReferenceIdeal Cert.ReferenceIdeal.Gen Idealize.ShloMosaic Idealize.ShloMosaic.TcCoe Idealize.SL.Sem Idealize.ShloMosaic.StableHlo

variable {F : FTy → Type} [FloatOps F]

/-- @main's 831 host operations, in order: the fourteen windows' lines, appended. -/
abbrev ops : List (HloOp τ sig (Elt F)) :=
  ops0 ++ ops1 ++ ops2 ++ ops3 ++ ops4 ++ ops5 ++ ops6 ++ ops7 ++ ops8 ++ ops9 ++ ops10 ++ ops11 ++ ops12 ++ ops13

/-- @main is that line: it runs its windows in order, each window is its own line, and lines run one after the other
    are their concatenation run as one; what remains is the reassociation of the sequencing. -/
theorem main_eq (c : Dev nD) : main (F := F) c = seq ops := by
  simp only [main, main_part0_eq, main_part1_eq, main_part2_eq, main_part3_eq, main_part4_eq, main_part5_eq, main_part6_eq, main_part7_eq, main_part8_eq, main_part9_eq, main_part10_eq, main_part11_eq, main_part12_eq, main_part13_eq,
    ops, seq_append, bind_assoc]

/-- The signature scopes no TensorCore reference. -/
theorem scopedRefs_eq : (Finset.univ.filter fun b : Ref sig .tc => b.isScoped) = ∅ := by decide
/-- The signature scopes no semaphore on the TensorCore. -/
theorem scopedSems_eq : (Finset.univ.filter fun sm : SemLoc sig => sm.isScoped .tc) = ∅ := by decide

/-- Every operation of the line touches TensorCore references only: window by window. -/
theorem ops_sub : (ops : List (HloOp τ sig (Elt F))).Forall fun op => op.bufs ⊆ tcRefs τ sig := by
  simp only [ops, List.forall_append]
  exact ⟨⟨⟨⟨⟨⟨⟨⟨⟨⟨⟨⟨⟨ops0_sub, ops1_sub⟩, ops2_sub⟩, ops3_sub⟩, ops4_sub⟩, ops5_sub⟩, ops6_sub⟩, ops7_sub⟩, ops8_sub⟩, ops9_sub⟩, ops10_sub⟩, ops11_sub⟩, ops12_sub⟩, ops13_sub⟩

/-- No operation of the line allocates: window by window. -/
theorem ops_fresh : ∀ op ∈ (ops : List (HloOp τ sig (Elt F))), op.fresh = ∅ := by
  simp only [ops, List.forall_mem_append]
  exact ⟨⟨⟨⟨⟨⟨⟨⟨⟨⟨⟨⟨⟨ops0_fresh, ops1_fresh⟩, ops2_fresh⟩, ops3_fresh⟩, ops4_fresh⟩, ops5_fresh⟩, ops6_fresh⟩, ops7_fresh⟩, ops8_fresh⟩, ops9_fresh⟩, ops10_fresh⟩, ops11_fresh⟩, ops12_fresh⟩, ops13_fresh⟩

/-- On every device, for any float values, from any memory with zero counters: every weakly fair execution of @main
    terminates, and every final state has each TensorCore buffer at the fold of the 831 operations' results over the
    device's launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ (fun _ => ops_fresh)

/-- A buffer that neither of two lines changes is unchanged by the two run one after the other. -/
theorem kept_append {l₁ l₂ : List (HloOp τ sig (Elt F))} {b : DevRef τ sig}
    (h₁ : ∀ V : Valuation τ sig (Elt F), after l₁ V b = V b) (h₂ : ∀ V : Valuation τ sig (Elt F), after l₂ V b = V b)
    (V : Valuation τ sig (Elt F)) : after (l₁ ++ l₂) V b = V b := by
  rw [after_append, h₂, h₁]

/-- A reference that no window's list of written references holds keeps its contents through the whole line. -/
theorem ops_kept {r : Ref sig .tc}
    (h0 : r ∉ wr0) (h1 : r ∉ wr1) (h2 : r ∉ wr2) (h3 : r ∉ wr3) (h4 : r ∉ wr4) (h5 : r ∉ wr5) (h6 : r ∉ wr6) (h7 : r ∉ wr7) (h8 : r ∉ wr8) (h9 : r ∉ wr9) (h10 : r ∉ wr10) (h11 : r ∉ wr11) (h12 : r ∉ wr12) (h13 : r ∉ wr13)
    (V : Valuation τ sig (Elt F)) : after ops V (Proc.devRef .tc r) = V (Proc.devRef .tc r) :=
  kept_append (kept_append (kept_append (kept_append (kept_append (kept_append (kept_append (kept_append (kept_append (kept_append (kept_append (kept_append (kept_append (ops0_kept h0) (ops1_kept h1)) (ops2_kept h2)) (ops3_kept h3)) (ops4_kept h4)) (ops5_kept h5)) (ops6_kept h6)) (ops7_kept h7)) (ops8_kept h8)) (ops9_kept h9)) (ops10_kept h10)) (ops11_kept h11)) (ops12_kept h12)) (ops13_kept h13) V

/-! No operation writes an argument of @main: each argument is outside every window's list of written references
    (membership in a literal list of references is decided), so the line leaves it at the contents it started from. -/

theorem arg0_kept (W : Valuation τ sig (Elt F)) : after ops W (main_arg0 : DevRef τ sig) = W (main_arg0 : DevRef τ sig) :=
  ops_kept (by decide) (by decide) (by decide) (by decide) (by decide) (by decide) (by decide) (by decide) (by decide) (by decide) (by decide) (by decide) (by decide) (by decide) W
theorem arg1_kept (W : Valuation τ sig (Elt F)) : after ops W (main_arg1 : DevRef τ sig) = W (main_arg1 : DevRef τ sig) :=
  ops_kept (by decide) (by decide) (by decide) (by decide) (by decide) (by decide) (by decide) (by decide) (by decide) (by decide) (by decide) (by decide) (by decide) (by decide) W
theorem arg2_kept (W : Valuation τ sig (Elt F)) : after ops W (main_arg2 : DevRef τ sig) = W (main_arg2 : DevRef τ sig) :=
  ops_kept (by decide) (by decide) (by decide) (by decide) (by decide) (by decide) (by decide) (by decide) (by decide) (by decide) (by decide) (by decide) (by decide) (by decide) W
theorem arg3_kept (W : Valuation τ sig (Elt F)) : after ops W (main_arg3 : DevRef τ sig) = W (main_arg3 : DevRef τ sig) :=
  ops_kept (by decide) (by decide) (by decide) (by decide) (by decide) (by decide) (by decide) (by decide) (by decide) (by decide) (by decide) (by decide) (by decide) (by decide) W
theorem arg4_kept (W : Valuation τ sig (Elt F)) : after ops W (main_arg4 : DevRef τ sig) = W (main_arg4 : DevRef τ sig) :=
  ops_kept (by decide) (by decide) (by decide) (by decide) (by decide) (by decide) (by decide) (by decide) (by decide) (by decide) (by decide) (by decide) (by decide) (by decide) W
theorem arg5_kept (W : Valuation τ sig (Elt F)) : after ops W (main_arg5 : DevRef τ sig) = W (main_arg5 : DevRef τ sig) :=
  ops_kept (by decide) (by decide) (by decide) (by decide) (by decide) (by decide) (by decide) (by decide) (by decide) (by decide) (by decide) (by decide) (by decide) (by decide) W
theorem arg6_kept (W : Valuation τ sig (Elt F)) : after ops W (main_arg6 : DevRef τ sig) = W (main_arg6 : DevRef τ sig) :=
  ops_kept (by decide) (by decide) (by decide) (by decide) (by decide) (by decide) (by decide) (by decide) (by decide) (by decide) (by decide) (by decide) (by decide) (by decide) W
theorem arg7_kept (W : Valuation τ sig (Elt F)) : after ops W (main_arg7 : DevRef τ sig) = W (main_arg7 : DevRef τ sig) :=
  ops_kept (by decide) (by decide) (by decide) (by decide) (by decide) (by decide) (by decide) (by decide) (by decide) (by decide) (by decide) (by decide) (by decide) (by decide) W
theorem arg8_kept (W : Valuation τ sig (Elt F)) : after ops W (main_arg8 : DevRef τ sig) = W (main_arg8 : DevRef τ sig) :=
  ops_kept (by decide) (by decide) (by decide) (by decide) (by decide) (by decide) (by decide) (by decide) (by decide) (by decide) (by decide) (by decide) (by decide) (by decide) W
theorem arg9_kept (W : Valuation τ sig (Elt F)) : after ops W (main_arg9 : DevRef τ sig) = W (main_arg9 : DevRef τ sig) :=
  ops_kept (by decide) (by decide) (by decide) (by decide) (by decide) (by decide) (by decide) (by decide) (by decide) (by decide) (by decide) (by decide) (by decide) (by decide) W
theorem arg10_kept (W : Valuation τ sig (Elt F)) : after ops W (main_arg10 : DevRef τ sig) = W (main_arg10 : DevRef τ sig) :=
  ops_kept (by decide) (by decide) (by decide) (by decide) (by decide) (by decide) (by decide) (by decide) (by decide) (by decide) (by decide) (by decide) (by decide) (by decide) W
theorem arg11_kept (W : Valuation τ sig (Elt F)) : after ops W (main_arg11 : DevRef τ sig) = W (main_arg11 : DevRef τ sig) :=
  ops_kept (by decide) (by decide) (by decide) (by decide) (by decide) (by decide) (by decide) (by decide) (by decide) (by decide) (by decide) (by decide) (by decide) (by decide) W
theorem arg12_kept (W : Valuation τ sig (Elt F)) : after ops W (main_arg12 : DevRef τ sig) = W (main_arg12 : DevRef τ sig) :=
  ops_kept (by decide) (by decide) (by decide) (by decide) (by decide) (by decide) (by decide) (by decide) (by decide) (by decide) (by decide) (by decide) (by decide) (by decide) W
theorem arg13_kept (W : Valuation τ sig (Elt F)) : after ops W (main_arg13 : DevRef τ sig) = W (main_arg13 : DevRef τ sig) :=
  ops_kept (by decide) (by decide) (by decide) (by decide) (by decide) (by decide) (by decide) (by decide) (by decide) (by decide) (by decide) (by decide) (by decide) (by decide) W
theorem arg14_kept (W : Valuation τ sig (Elt F)) : after ops W (main_arg14 : DevRef τ sig) = W (main_arg14 : DevRef τ sig) :=
  ops_kept (by decide) (by decide) (by decide) (by decide) (by decide) (by decide) (by decide) (by decide) (by decide) (by decide) (by decide) (by decide) (by decide) (by decide) W
theorem arg15_kept (W : Valuation τ sig (Elt F)) : after ops W (main_arg15 : DevRef τ sig) = W (main_arg15 : DevRef τ sig) :=
  ops_kept (by decide) (by decide) (by decide) (by decide) (by decide) (by decide) (by decide) (by decide) (by decide) (by decide) (by decide) (by decide) (by decide) (by decide) W
theorem arg16_kept (W : Valuation τ sig (Elt F)) : after ops W (main_arg16 : DevRef τ sig) = W (main_arg16 : DevRef τ sig) :=
  ops_kept (by decide) (by decide) (by decide) (by decide) (by decide) (by decide) (by decide) (by decide) (by decide) (by decide) (by decide) (by decide) (by decide) (by decide) W
theorem arg17_kept (W : Valuation τ sig (Elt F)) : after ops W (main_arg17 : DevRef τ sig) = W (main_arg17 : DevRef τ sig) :=
  ops_kept (by decide) (by decide) (by decide) (by decide) (by decide) (by decide) (by decide) (by decide) (by decide) (by decide) (by decide) (by decide) (by decide) (by decide) W
theorem arg18_kept (W : Valuation τ sig (Elt F)) : after ops W (main_arg18 : DevRef τ sig) = W (main_arg18 : DevRef τ sig) :=
  ops_kept (by decide) (by decide) (by decide) (by decide) (by decide) (by decide) (by decide) (by decide) (by decide) (by decide) (by decide) (by decide) (by decide) (by decide) W
theorem arg19_kept (W : Valuation τ sig (Elt F)) : after ops W (main_arg19 : DevRef τ sig) = W (main_arg19 : DevRef τ sig) :=
  ops_kept (by decide) (by decide) (by decide) (by decide) (by decide) (by decide) (by decide) (by decide) (by decide) (by decide) (by decide) (by decide) (by decide) (by decide) W
theorem arg20_kept (W : Valuation τ sig (Elt F)) : after ops W (main_arg20 : DevRef τ sig) = W (main_arg20 : DevRef τ sig) :=
  ops_kept (by decide) (by decide) (by decide) (by decide) (by decide) (by decide) (by decide) (by decide) (by decide) (by decide) (by decide) (by decide) (by decide) (by decide) W
theorem arg21_kept (W : Valuation τ sig (Elt F)) : after ops W (main_arg21 : DevRef τ sig) = W (main_arg21 : DevRef τ sig) :=
  ops_kept (by decide) (by decide) (by decide) (by decide) (by decide) (by decide) (by decide) (by decide) (by decide) (by decide) (by decide) (by decide) (by decide) (by decide) W
theorem arg22_kept (W : Valuation τ sig (Elt F)) : after ops W (main_arg22 : DevRef τ sig) = W (main_arg22 : DevRef τ sig) :=
  ops_kept (by decide) (by decide) (by decide) (by decide) (by decide) (by decide) (by decide) (by decide) (by decide) (by decide) (by decide) (by decide) (by decide) (by decide) W
theorem arg23_kept (W : Valuation τ sig (Elt F)) : after ops W (main_arg23 : DevRef τ sig) = W (main_arg23 : DevRef τ sig) :=
  ops_kept (by decide) (by decide) (by decide) (by decide) (by decide) (by decide) (by decide) (by decide) (by decide) (by decide) (by decide) (by decide) (by decide) (by decide) W
theorem arg24_kept (W : Valuation τ sig (Elt F)) : after ops W (main_arg24 : DevRef τ sig) = W (main_arg24 : DevRef τ sig) :=
  ops_kept (by decide) (by decide) (by decide) (by decide) (by decide) (by decide) (by decide) (by decide) (by decide) (by decide) (by decide) (by decide) (by decide) (by decide) W
theorem arg25_kept (W : Valuation τ sig (Elt F)) : after ops W (main_arg25 : DevRef τ sig) = W (main_arg25 : DevRef τ sig) :=
  ops_kept (by decide) (by decide) (by decide) (by decide) (by decide) (by decide) (by decide) (by decide) (by decide) (by decide) (by decide) (by decide) (by decide) (by decide) W
theorem arg26_kept (W : Valuation τ sig (Elt F)) : after ops W (main_arg26 : DevRef τ sig) = W (main_arg26 : DevRef τ sig) :=
  ops_kept (by decide) (by decide) (by decide) (by decide) (by decide) (by decide) (by decide) (by decide) (by decide) (by decide) (by decide) (by decide) (by decide) (by decide) W
theorem arg27_kept (W : Valuation τ sig (Elt F)) : after ops W (main_arg27 : DevRef τ sig) = W (main_arg27 : DevRef τ sig) :=
  ops_kept (by decide) (by decide) (by decide) (by decide) (by decide) (by decide) (by decide) (by decide) (by decide) (by decide) (by decide) (by decide) (by decide) (by decide) W
theorem arg28_kept (W : Valuation τ sig (Elt F)) : after ops W (main_arg28 : DevRef τ sig) = W (main_arg28 : DevRef τ sig) :=
  ops_kept (by decide) (by decide) (by decide) (by decide) (by decide) (by decide) (by decide) (by decide) (by decide) (by decide) (by decide) (by decide) (by decide) (by decide) W
theorem arg29_kept (W : Valuation τ sig (Elt F)) : after ops W (main_arg29 : DevRef τ sig) = W (main_arg29 : DevRef τ sig) :=
  ops_kept (by decide) (by decide) (by decide) (by decide) (by decide) (by decide) (by decide) (by decide) (by decide) (by decide) (by decide) (by decide) (by decide) (by decide) W
theorem arg30_kept (W : Valuation τ sig (Elt F)) : after ops W (main_arg30 : DevRef τ sig) = W (main_arg30 : DevRef τ sig) :=
  ops_kept (by decide) (by decide) (by decide) (by decide) (by decide) (by decide) (by decide) (by decide) (by decide) (by decide) (by decide) (by decide) (by decide) (by decide) W
theorem arg31_kept (W : Valuation τ sig (Elt F)) : after ops W (main_arg31 : DevRef τ sig) = W (main_arg31 : DevRef τ sig) :=
  ops_kept (by decide) (by decide) (by decide) (by decide) (by decide) (by decide) (by decide) (by decide) (by decide) (by decide) (by decide) (by decide) (by decide) (by decide) W

end Cert.ReferenceIdeal.HandRef

end
-- ==== Proof.RefFrame.lean ====
/-
  The reference program is a straight line of host operations: it launches no kernel, so every weakly fair
  execution performs the operations in order and ends. Its run leaves every buffer at the operations' composed
  value; no operation writes an argument array, so each argument ends holding what it held at launch. The frame
  claim is that run, read at the thirty-two arguments.
-/
import proofs.«403491_j395136991532_1_alg».proof.Defs
import proofs.«403491_j395136991532_1_alg».proof.Proof.RefRun
import proofs.«403491_j395136991532_1_alg».proof.Proof.Gen.Pre_finite_inputs

noncomputable section

open Idealize.ShloMosaic Idealize.ShloMosaic.TcCoe Idealize.SL.Sem Idealize.ShloMosaic.StableHlo

namespace Cert.ReferenceIdeal.HandRef

open Cert.ReferenceIdeal Cert.ReferenceIdeal.Gen

/-- The reference terminates on every weakly fair execution, faults nowhere and leaves its argument arrays as
    they were. -/
theorem frame_ri : Cert.frame_ReferenceIdeal := fun m ρ _ =>
  (θ_run Cert.ReferenceIdeal.defs _ _).mono (fun _ h c =>
    ⟨(h c main_arg0).trans (arg0_kept _),
      (h c main_arg1).trans (arg1_kept _),
      (h c main_arg2).trans (arg2_kept _),
      (h c main_arg3).trans (arg3_kept _),
      (h c main_arg4).trans (arg4_kept _),
      (h c main_arg5).trans (arg5_kept _),
      (h c main_arg6).trans (arg6_kept _),
      (h c main_arg7).trans (arg7_kept _),
      (h c main_arg8).trans (arg8_kept _),
      (h c main_arg9).trans (arg9_kept _),
      (h c main_arg10).trans (arg10_kept _),
      (h c main_arg11).trans (arg11_kept _),
      (h c main_arg12).trans (arg12_kept _),
      (h c main_arg13).trans (arg13_kept _),
      (h c main_arg14).trans (arg14_kept _),
      (h c main_arg15).trans (arg15_kept _),
      (h c main_arg16).trans (arg16_kept _),
      (h c main_arg17).trans (arg17_kept _),
      (h c main_arg18).trans (arg18_kept _),
      (h c main_arg19).trans (arg19_kept _),
      (h c main_arg20).trans (arg20_kept _),
      (h c main_arg21).trans (arg21_kept _),
      (h c main_arg22).trans (arg22_kept _),
      (h c main_arg23).trans (arg23_kept _),
      (h c main_arg24).trans (arg24_kept _),
      (h c main_arg25).trans (arg25_kept _),
      (h c main_arg26).trans (arg26_kept _),
      (h c main_arg27).trans (arg27_kept _),
      (h c main_arg28).trans (arg28_kept _),
      (h c main_arg29).trans (arg29_kept _),
      (h c main_arg30).trans (arg30_kept _),
      (h c main_arg31).trans (arg31_kept _)⟩)
    (run (F := Ideal) m ρ)

end Cert.ReferenceIdeal.HandRef

end
-- ==== Proof.RefLinkBase.lean ====
/-
  Reading the reference program's result off its run, window by window: the common part.

  The run leaves every buffer at the fold of the 831 operations over the launch contents. The stage functions
  (one per operation: the value it writes, as a function of the arguments of @main it depends on) name the same
  values one operation at a time. The two are tied at the CUTS between the printed windows: after window K every
  buffer that a later window reads holds its stage function of the arguments. A cut needs the arguments themselves
  (`Args`: no window writes one) and, to pass a window, the fold of that window alone computed at a buffer it writes
  (`window_value`).
-/
import proofs.«403491_j395136991532_1_alg».proof.Proof.RefReadP

noncomputable section

namespace Cert.ReferenceIdeal.HandRef

open Cert.ReferenceIdeal Cert.ReferenceIdeal.Gen Idealize.ShloMosaic Idealize.ShloMosaic.TcCoe Idealize.SL.Sem Idealize.ShloMosaic.StableHlo

variable {F : FTy → Type} [FloatOps F]

/-- The valuation `V` holds every argument of @main at what `W` holds there. -/
structure Args (W V : Valuation τ sig (Elt F)) : Prop where
  arg0 : V (Proc.devRef .tc main_arg0) = W (Proc.devRef .tc main_arg0)
  arg1 : V (Proc.devRef .tc main_arg1) = W (Proc.devRef .tc main_arg1)
  arg2 : V (Proc.devRef .tc main_arg2) = W (Proc.devRef .tc main_arg2)
  arg3 : V (Proc.devRef .tc main_arg3) = W (Proc.devRef .tc main_arg3)
  arg4 : V (Proc.devRef .tc main_arg4) = W (Proc.devRef .tc main_arg4)
  arg5 : V (Proc.devRef .tc main_arg5) = W (Proc.devRef .tc main_arg5)
  arg6 : V (Proc.devRef .tc main_arg6) = W (Proc.devRef .tc main_arg6)
  arg7 : V (Proc.devRef .tc main_arg7) = W (Proc.devRef .tc main_arg7)
  arg8 : V (Proc.devRef .tc main_arg8) = W (Proc.devRef .tc main_arg8)
  arg9 : V (Proc.devRef .tc main_arg9) = W (Proc.devRef .tc main_arg9)
  arg10 : V (Proc.devRef .tc main_arg10) = W (Proc.devRef .tc main_arg10)
  arg11 : V (Proc.devRef .tc main_arg11) = W (Proc.devRef .tc main_arg11)
  arg12 : V (Proc.devRef .tc main_arg12) = W (Proc.devRef .tc main_arg12)
  arg13 : V (Proc.devRef .tc main_arg13) = W (Proc.devRef .tc main_arg13)
  arg14 : V (Proc.devRef .tc main_arg14) = W (Proc.devRef .tc main_arg14)
  arg15 : V (Proc.devRef .tc main_arg15) = W (Proc.devRef .tc main_arg15)
  arg16 : V (Proc.devRef .tc main_arg16) = W (Proc.devRef .tc main_arg16)
  arg17 : V (Proc.devRef .tc main_arg17) = W (Proc.devRef .tc main_arg17)
  arg18 : V (Proc.devRef .tc main_arg18) = W (Proc.devRef .tc main_arg18)
  arg19 : V (Proc.devRef .tc main_arg19) = W (Proc.devRef .tc main_arg19)
  arg20 : V (Proc.devRef .tc main_arg20) = W (Proc.devRef .tc main_arg20)
  arg21 : V (Proc.devRef .tc main_arg21) = W (Proc.devRef .tc main_arg21)
  arg22 : V (Proc.devRef .tc main_arg22) = W (Proc.devRef .tc main_arg22)
  arg23 : V (Proc.devRef .tc main_arg23) = W (Proc.devRef .tc main_arg23)
  arg24 : V (Proc.devRef .tc main_arg24) = W (Proc.devRef .tc main_arg24)
  arg25 : V (Proc.devRef .tc main_arg25) = W (Proc.devRef .tc main_arg25)
  arg26 : V (Proc.devRef .tc main_arg26) = W (Proc.devRef .tc main_arg26)
  arg27 : V (Proc.devRef .tc main_arg27) = W (Proc.devRef .tc main_arg27)
  arg28 : V (Proc.devRef .tc main_arg28) = W (Proc.devRef .tc main_arg28)
  arg29 : V (Proc.devRef .tc main_arg29) = W (Proc.devRef .tc main_arg29)
  arg30 : V (Proc.devRef .tc main_arg30) = W (Proc.devRef .tc main_arg30)
  arg31 : V (Proc.devRef .tc main_arg31) = W (Proc.devRef .tc main_arg31)

/-- A valuation holds the arguments at what it holds there. -/
theorem Args.refl (W : Valuation τ sig (Elt F)) : Args W W :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Closes `after opsK V ↑b = the stage function of b at the arguments` for a buffer `b` that window K writes. The window's
    fold is computed at `b`: each operation's result at its own buffer is its function of the contents it reads, and
    at any other buffer the contents before it; this ends at `V` at the buffers the window reads from before it. Those
    are rewritten by the given facts (the cut before the window: the arguments, and the earlier buffers' stage
    functions); a constant's value reads nothing and has nothing to rewrite. What is left has the window's own stage functions on the right, each one operation over earlier ones:
    unfolded, the two sides are the same term. -/
syntax "window_value " ident " [" Lean.Parser.Tactic.simpLemma,* "]" : tactic
macro_rules
  | `(tactic| window_value $ops:ident [$hs,*]) =>
    `(tactic| (dsimp only [$ops:ident]; after_results_simp; (try simp only [$hs,*]); rfl))

end Cert.ReferenceIdeal.HandRef

end
-- ==== Proof.RefLink.lean ====
/-
  The reference program's result, read off its run. The fold of the 831 operations is the fold of the fourteen windows,
  one after the other. Before the first window the valuation holds the arguments, trivially; each window carries the
  cut before it to the cut after it; the cut after the last window says that the result buffer holds its stage
  function of the arguments.
-/
import proofs.«403491_j395136991532_1_alg».proof.Proof.RefRun
import proofs.«403491_j395136991532_1_alg».proof.Proof.RefLink0
import proofs.«403491_j395136991532_1_alg».proof.Proof.RefLink1
import proofs.«403491_j395136991532_1_alg».proof.Proof.RefLink2
import proofs.«403491_j395136991532_1_alg».proof.Proof.RefLink3
import proofs.«403491_j395136991532_1_alg».proof.Proof.RefLink4
import proofs.«403491_j395136991532_1_alg».proof.Proof.RefLink5
import proofs.«403491_j395136991532_1_alg».proof.Proof.RefLink6
import proofs.«403491_j395136991532_1_alg».proof.Proof.RefLink7
import proofs.«403491_j395136991532_1_alg».proof.Proof.RefLink8
import proofs.«403491_j395136991532_1_alg».proof.Proof.RefLink9
import proofs.«403491_j395136991532_1_alg».proof.Proof.RefLink10
import proofs.«403491_j395136991532_1_alg».proof.Proof.RefLink11
import proofs.«403491_j395136991532_1_alg».proof.Proof.RefLink12
import proofs.«403491_j395136991532_1_alg».proof.Proof.RefLink13

noncomputable section

namespace Cert.ReferenceIdeal.HandRef

open Cert.ReferenceIdeal Cert.ReferenceIdeal.Gen Idealize.ShloMosaic Idealize.ShloMosaic.TcCoe Idealize.SL.Sem Idealize.ShloMosaic.StableHlo

variable {F : FTy → Type} [FloatOps F]

/-- The cut after the last window, at the whole line's fold: the windows' folds composed are the line's fold. -/
theorem cut_ops (W : Valuation τ sig (Elt F)) : Cut13 W (after ops W) := by
  simp only [ops, after_append]
  exact link13 W _ (link12 W _ (link11 W _ (link10 W _ (link9 W _ (link8 W _ (link7 W _ (link6 W _ (link5 W _ (link4 W _ (link3 W _ (link2 W _ (link1 W _ (link0 W W (Args.refl W))))))))))))))

/-- From any contents `W`, the line of @main's operations leaves the result buffer at the last stage function of
    `W`'s contents of the arguments. -/
theorem result_eq (W : Valuation τ sig (Elt F)) :
    after ops W (Proc.devRef .tc main_v738) = ReadP.val_main_v738 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15)) (W (Proc.devRef .tc main_arg16)) (W (Proc.devRef .tc main_arg17)) (W (Proc.devRef .tc main_arg18)) (W (Proc.devRef .tc main_arg19)) (W (Proc.devRef .tc main_arg20)) (W (Proc.devRef .tc main_arg21)) (W (Proc.devRef .tc main_arg22)) (W (Proc.devRef .tc main_arg23)) (W (Proc.devRef .tc main_arg24)) (W (Proc.devRef .tc main_arg25)) (W (Proc.devRef .tc main_arg26)) (W (Proc.devRef .tc main_arg27)) (W (Proc.devRef .tc main_arg28)) (W (Proc.devRef .tc main_arg29)) (W (Proc.devRef .tc main_arg30)) (W (Proc.devRef .tc main_arg31)) :=
  (cut_ops W).main_v738

end Cert.ReferenceIdeal.HandRef

end
-- ==== Proof.RefStage.lean ====
/-
  The reference's stages as compositions of array operations, and what they compute index by index.

  One node-level layer, one virtual-node update and the head, each written as the reference prints it: a matrix
  product, a bias row repeated over the leading axis, a batch normalisation ((h - m) * g) / sqrt (v + 1e-5) + b
  with its four rows repeated the same way, a maximum with zero. The per-layer rows enter as vectors (the
  reference reshapes a 1 x n slice to n entries and broadcasts it back). Read at an index, each composition is
  the shared layer function of the same name: a row repeated over the leading axis reads the row at the trailing
  coordinate, and a matrix product reads as the sum over the contracted coordinate.
-/
import Idealize.ShloMosaic.Lib.Pipeline.Value
import proofs.«403491_j395136991532_1_alg».proof.Proof.SpecNet

noncomputable section

namespace Cert.ReferenceIdeal.HandRef

open Idealize.ShloMosaic Idealize.ShloMosaic.ValueIdx Cert.Spec
open scoped BigOperators

/-! ## Shapes not named with the shared pieces -/

abbrev sNxD2 : Shape := ⟨2, ![50000, 256]⟩
abbrev sGxD2 : Shape := ⟨2, ![256, 256]⟩
abbrev sGx10 : Shape := ⟨2, ![256, 10]⟩

section Ops
variable {F : FTy → Type} [FloatOps F] {α : Type}

/-! ## One layer's parameters, cut out of the stacked arrays as the reference cuts them -/

/-- Layer l's epsilon, as a scalar. -/
def refEps (l : Nat) (x : s5.Idx → α) (h : s5.Slices ![l] s1) : s0.Idx → α :=
  shapeCast s0 (extractStridedSlice s1 ![l] x h) (by decide)

/-- Layer l's row of a stack of 2D-wide rows, as a vector. -/
def refRow2 (l : Nat) (x : s5xD2.Idx → α) (h : s5xD2.Slices ![l, 0] s1xD2) : sD2.Idx → α :=
  shapeCast sD2 (extractStridedSlice s1xD2 ![l, 0] x h) (by decide)

/-- Layer l's row of a stack of D-wide rows, as a vector. -/
def refRow1 (l : Nat) (x : s5xD.Idx → α) (h : s5xD.Slices ![l, 0] s1xD) : sD.Idx → α :=
  shapeCast sD (extractStridedSlice s1xD ![l, 0] x h) (by decide)

/-! ## Rows repeated over the leading axis -/

def overN2 (r : sD2.Idx → α) : sNxD2.Idx → α :=
  broadcastInDim sNxD2 ![0, 1] (by decide) (broadcastInDim s1xD2 ![1] (by decide) r)
def overN1 (r : sD.Idx → α) : sNxD.Idx → α :=
  broadcastInDim sNxD ![0, 1] (by decide) (broadcastInDim s1xD ![1] (by decide) r)
def overG2 (r : sD2.Idx → α) : sGxD2.Idx → α :=
  broadcastInDim sGxD2 ![0, 1] (by decide) (broadcastInDim s1xD2 ![1] (by decide) r)
def overG1 (r : sD.Idx → α) : sGxD.Idx → α :=
  broadcastInDim sGxD ![0, 1] (by decide) (broadcastInDim s1xD ![1] (by decide) r)

/-! ## Batch normalisation with running statistics -/

/-- sqrt (v + 1e-5) of a row of variances. -/
def sd2 (v : FVec F sD2 .f32) : FVec F sD2 .f32 :=
  Host.sqrt (addf v (broadcastInDim sD2 ![] (by decide) (constant (F := F) s0 .f32 0x3727C5AC#32)))
def sd1 (v : FVec F sD .f32) : FVec F sD .f32 :=
  Host.sqrt (addf v (broadcastInDim sD ![] (by decide) (constant (F := F) s0 .f32 0x3727C5AC#32)))

/-- ((h - m) * g) / sqrt (v + 1e-5) + b, on node rows of width 2D and D and on graph rows of width 2D and D. -/
def refBN_N2 (h : FVec F sNxD2 .f32) (g b m v : FVec F sD2 .f32) : FVec F sNxD2 .f32 :=
  addf (Host.divf (mulf (subf h (overN2 m)) (overN2 g)) (overN2 (sd2 v))) (overN2 b)
def refBN_N1 (h : FVec F sNxD .f32) (g b m v : FVec F sD .f32) : FVec F sNxD .f32 :=
  addf (Host.divf (mulf (subf h (overN1 m)) (overN1 g)) (overN1 (sd1 v))) (overN1 b)
def refBN_G2 (h : FVec F sGxD2 .f32) (g b m v : FVec F sD2 .f32) : FVec F sGxD2 .f32 :=
  addf (Host.divf (mulf (subf h (overG2 m)) (overG2 g)) (overG2 (sd2 v))) (overG2 b)
def refBN_G1 (h : FVec F sGxD .f32) (g b m v : FVec F sD .f32) : FVec F sGxD .f32 :=
  addf (Host.divf (mulf (subf h (overG1 m)) (overG1 g)) (overG1 (sd1 v))) (overG1 b)

/-! ## The maximum with zero -/

def reluN2 (z : FVec F sNxD2 .f32) : FVec F sNxD2 .f32 :=
  maximumf z (broadcastInDim sNxD2 ![] (by decide) (constant (F := F) s0 .f32 0x00000000#32))
def reluN1 (z : FVec F sNxD .f32) : FVec F sNxD .f32 :=
  maximumf z (broadcastInDim sNxD ![] (by decide) (constant (F := F) s0 .f32 0x00000000#32))
def reluG2 (z : FVec F sGxD2 .f32) : FVec F sGxD2 .f32 :=
  maximumf z (broadcastInDim sGxD2 ![] (by decide) (constant (F := F) s0 .f32 0x00000000#32))
def reluG1 (z : FVec F sGxD .f32) : FVec F sGxD .f32 :=
  maximumf z (broadcastInDim sGxD ![] (by decide) (constant (F := F) s0 .f32 0x00000000#32))

/-! ## The three stages -/

/-- (1 + eps) * hin + agg. -/
def ginMix (eps : FVec F s0 .f32) (hin agg : FVec F sNxD .f32) : FVec F sNxD .f32 :=
  addf (mulf (broadcastInDim sNxD ![] (by decide) (addf (constant (F := F) s0 .f32 0x3F800000#32) eps)) hin) agg

/-- A node-level layer up to its closing relu: bn ((relu (bn (((1 + eps) * hin + agg) W1 + b1))) W2 + b2). -/
def refGinCore (eps : FVec F s0 .f32) (W1 : FVec F sDxD2 .f32) (b1 g1 be1 m1 v1 : FVec F sD2 .f32)
    (W2 : FVec F sD2xD .f32) (b2 gc bc mc vc : FVec F sD .f32) (hin agg : FVec F sNxD .f32) : FVec F sNxD .f32 :=
  refBN_N1
    (addf (Host.dotGeneral (DotDims.plain 50000 256 128) none
        (reluN2 (refBN_N2
          (addf (Host.dotGeneral (DotDims.plain 50000 128 256) none (ginMix eps hin agg) W1) (overN2 b1))
          g1 be1 m1 v1))
        W2) (overN1 b2))
    gc bc mc vc

/-- The virtual node's update from pooled = pool hin + vn: relu (bn ((relu (bn (pooled W1 + b1))) W2 + b2)). -/
def refVnCore (W1 : FVec F sDxD2 .f32) (b1 g1 be1 m1 v1 : FVec F sD2 .f32) (W2 : FVec F sD2xD .f32)
    (b2 g2 be2 m2 v2 : FVec F sD .f32) (pooled : FVec F sGxD .f32) : FVec F sGxD .f32 :=
  reluG1 (refBN_G1
    (addf (Host.dotGeneral (DotDims.plain 256 256 128) none
        (reluG2 (refBN_G2
          (addf (Host.dotGeneral (DotDims.plain 256 128 256) none pooled W1) (overG2 b1))
          g1 be1 m1 v1))
        W2) (overG1 b2))
    g2 be2 m2 v2)

/-- The head from the per-graph sums and counts: the mean (an empty graph divides by one), then the linear map. -/
def refHeadCore (predW : FVec F sDx10 .f32) (predb : FVec F s10 .f32) (hg : FVec F sGxD .f32) (counts : FVec F sGx1 .f32) :
    FVec F sGx10 .f32 :=
  addf (Host.dotGeneral (DotDims.plain 256 128 10) none
      (Host.divf hg
        (broadcastInDim sGxD ![0, 1] (by decide)
          (maximumf counts (broadcastInDim sGx1 ![] (by decide) (constant (F := F) s0 .f32 0x3F800000#32)))))
      predW)
    (broadcastInDim sGx10 ![0, 1] (by decide) (broadcastInDim s1x10 ![1] (by decide) predb))

end Ops

/-! ## Reads at an index -/

section Reads
variable {α : Type}

/-- A row repeated over the leading axis (through a one-row block) reads, at any index, the row at the index's
    trailing coordinate. -/
theorem overRows_apply {R C : Nat} (hC : C ≠ 1) (r : (⟨1, ![C]⟩ : Shape).Idx → α)
    (h1 : (⟨1, ![C]⟩ : Shape).BroadcastsInDim ⟨2, ![1, C]⟩ ![1])
    (h2 : (⟨2, ![1, C]⟩ : Shape).BroadcastsInDim ⟨2, ![R, C]⟩ ![0, 1]) (i : (⟨2, ![R, C]⟩ : Shape).Idx) :
    broadcastInDim ⟨2, ![R, C]⟩ ![0, 1] h2 (broadcastInDim ⟨2, ![1, C]⟩ ![1] h1 r) i = r (ix1 (i 1)) :=
  (broadcastInDim_apply ![0, 1] h2 _ i (ix2 0 (i 1)) (fun a => match a with
    | ⟨0, _⟩ => by show (0 : Nat) = if (1 : Nat) = 1 then 0 else (i 0).val; rw [if_pos rfl]
    | ⟨1, _⟩ => by show (i 1).val = if C = 1 then 0 else (i 1).val; rw [if_neg hC])).trans
    (broadcastInDim_apply ![1] h1 r (ix2 0 (i 1)) (ix1 (i 1)) (fun a => match a with
    | ⟨0, _⟩ => by show (i 1).val = if C = 1 then 0 else (i 1).val; rw [if_neg hC]))

theorem overN2_apply (r : sD2.Idx → α) (i : sNxD2.Idx) : overN2 r i = r (ix1 (i 1)) := overRows_apply (by decide) r _ _ i
theorem overN1_apply (r : sD.Idx → α) (i : sNxD.Idx) : overN1 r i = r (ix1 (i 1)) := overRows_apply (by decide) r _ _ i
theorem overG2_apply (r : sD2.Idx → α) (i : sGxD2.Idx) : overG2 r i = r (ix1 (i 1)) := overRows_apply (by decide) r _ _ i
theorem overG1_apply (r : sD.Idx → α) (i : sGxD.Idx) : overG1 r i = r (ix1 (i 1)) := overRows_apply (by decide) r _ _ i

/-- A vector recast as a one-row block reads, in its row, the vector. -/
theorem asRow_apply {C : Nat} (r : (⟨1, ![C]⟩ : Shape).Idx → α) (h : (⟨1, ![C]⟩ : Shape).ShapeCasts ⟨2, ![1, C]⟩) (j : Fin C) :
    shapeCast ⟨2, ![1, C]⟩ r h (ix2 0 j) = r (ix1 j) :=
  shapeCast_apply r h (ix2 0 j) (ix1 j) (by
    rw [Shape.rowMajor_val_one, Shape.rowMajor_val_two]; show j.val = 0 * C + j.val; omega)

/-- A scalar recast as a one-by-one block reads the scalar. -/
theorem asCell_apply (x : s0.Idx → α) (h : s0.ShapeCasts s1x1) : shapeCast s1x1 x h (ix2 0 0) = x ix0 :=
  shapeCast_apply x h (ix2 0 0) ix0 (by
    rw [Shape.rowMajor_val_two]; show _ = 0 * 1 + 0; exact Fin.val_eq_zero _)

/-- A scalar repeated over every axis reads the scalar. -/
theorem splat_apply {t : Shape} (x : s0.Idx → α) (h : s0.BroadcastsInDim t ![]) (i : t.Idx) :
    broadcastInDim t ![] h x i = x ix0 :=
  broadcastInDim_apply ![] h x i ix0 (fun a => a.elim0)

/-- A per-graph column repeated over the features reads the graph's entry. -/
theorem overCols_apply (c : sGx1.Idx → α) (h : sGx1.BroadcastsInDim sGxD ![0, 1]) (i : sGxD.Idx) :
    broadcastInDim sGxD ![0, 1] h c i = c (ix2 (i 0) 0) :=
  broadcastInDim_apply ![0, 1] h c i (ix2 (i 0) 0) (fun a => match a with
    | ⟨0, _⟩ => by show (i 0).val = if (256 : Nat) = 1 then 0 else (i 0).val; rw [if_neg (by decide)]
    | ⟨1, _⟩ => by show (0 : Nat) = if (1 : Nat) = 1 then 0 else (i 1).val; rw [if_pos rfl])

end Reads

section AtIdeal

/-- The host's quotient and square root at the extended reals, at an index. -/
theorem hostDivf_apply {s : Shape} (a b : FVec Ideal s .f32) (i : s.Idx) : Host.divf a b i = Ideal.div (a i) (b i) := rfl
theorem hostSqrt_apply {s : Shape} (a : FVec Ideal s .f32) (i : s.Idx) : Host.sqrt a i = Ideal.sqrt (a i) := rfl

/-- A plain matrix product at the extended reals, at an index: the sum over the contracted coordinate. -/
theorem plainDot_apply (M K N : Nat) (a : FVec Ideal ⟨2, ![M, K]⟩ .f32) (b : FVec Ideal ⟨2, ![K, N]⟩ .f32)
    (i : (⟨2, ![M, N]⟩ : Shape).Idx) :
    Host.dotGeneral (DotDims.plain M K N) none a b i = ∑ k : Fin K, a (ix2 (i 0) k) * b (ix2 k (i 1)) := by
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun c => Fin.ext (by
      match c with
      | ⟨0, _⟩ => rfl
      | ⟨1, _⟩ => exact hk)
  have er : (DotDims.plain M K N).rhsIdx i ((contrEquiv1 (DotDims.plain M K N) K rfl rfl).symm k) = ix2 k (i 1) :=
    funext fun c => Fin.ext (by
      match c with
      | ⟨0, _⟩ => exact hk
      | ⟨1, _⟩ => rfl)
  rw [el, er]
  rfl

/-! ## The blocks at an index -/

theorem sd2_apply (v : FVec Ideal sD2 .f32) (j : sD2.Idx) : sd2 v j = Ideal.sqrt (v j + eps) := by
  unfold sd2; rw [hostSqrt_apply, addf_apply, splat_apply, constant_apply]; rfl
theorem sd1_apply (v : FVec Ideal sD .f32) (j : sD.Idx) : sd1 v j = Ideal.sqrt (v j + eps) := by
  unfold sd1; rw [hostSqrt_apply, addf_apply, splat_apply, constant_apply]; rfl

theorem refBN_N2_apply (h : FVec Ideal sNxD2 .f32) (g b m v : FVec Ideal sD2 .f32) (i : sNxD2.Idx) :
    refBN_N2 h g b m v i = bnR (h i) (m (ix1 (i 1))) (g (ix1 (i 1))) (v (ix1 (i 1))) (b (ix1 (i 1))) := by
  unfold refBN_N2 bnR
  simp only [addf_apply, hostDivf_apply, mulf_apply, subf_apply, overN2_apply, sd2_apply]
theorem refBN_N1_apply (h : FVec Ideal sNxD .f32) (g b m v : FVec Ideal sD .f32) (i : sNxD.Idx) :
    refBN_N1 h g b m v i = bnR (h i) (m (ix1 (i 1))) (g (ix1 (i 1))) (v (ix1 (i 1))) (b (ix1 (i 1))) := by
  unfold refBN_N1 bnR
  simp only [addf_apply, hostDivf_apply, mulf_apply, subf_apply, overN1_apply, sd1_apply]
theorem refBN_G2_apply (h : FVec Ideal sGxD2 .f32) (g b m v : FVec Ideal sD2 .f32) (i : sGxD2.Idx) :
    refBN_G2 h g b m v i = bnR (h i) (m (ix1 (i 1))) (g (ix1 (i 1))) (v (ix1 (i 1))) (b (ix1 (i 1))) := by
  unfold refBN_G2 bnR
  simp only [addf_apply, hostDivf_apply, mulf_apply, subf_apply, overG2_apply, sd2_apply]
theorem refBN_G1_apply (h : FVec Ideal sGxD .f32) (g b m v : FVec Ideal sD .f32) (i : sGxD.Idx) :
    refBN_G1 h g b m v i = bnR (h i) (m (ix1 (i 1))) (g (ix1 (i 1))) (v (ix1 (i 1))) (b (ix1 (i 1))) := by
  unfold refBN_G1 bnR
  simp only [addf_apply, hostDivf_apply, mulf_apply, subf_apply, overG1_apply, sd1_apply]

theorem reluN2_apply (z : FVec Ideal sNxD2 .f32) (i : sNxD2.Idx) : reluN2 z i = max (z i) zeroF := by
  unfold reluN2; rw [maximumf_apply, splat_apply, constant_apply]; rfl
theorem reluN1_apply (z : FVec Ideal sNxD .f32) (i : sNxD.Idx) : reluN1 z i = max (z i) zeroF := by
  unfold reluN1; rw [maximumf_apply, splat_apply, constant_apply]; rfl
theorem reluG2_apply (z : FVec Ideal sGxD2 .f32) (i : sGxD2.Idx) : reluG2 z i = max (z i) zeroF := by
  unfold reluG2; rw [maximumf_apply, splat_apply, constant_apply]; rfl
theorem reluG1_apply (z : FVec Ideal sGxD .f32) (i : sGxD.Idx) : reluG1 z i = max (z i) zeroF := by
  unfold reluG1; rw [maximumf_apply, splat_apply, constant_apply]; rfl

theorem ginMix_apply (e : FVec Ideal s0 .f32) (hin agg : FVec Ideal sNxD .f32) (i : sNxD.Idx) :
    ginMix e hin agg i = (oneF + e ix0) * hin i + agg i := by
  unfold ginMix; rw [addf_apply, mulf_apply, splat_apply, addf_apply, constant_apply]; rfl

/-! ## The three stages are the shared layer functions -/

/-- A node-level layer without its closing relu. -/
theorem refGinCore_eq (e : FVec Ideal s0 .f32) (W1 : FVec Ideal sDxD2 .f32) (b1 g1 be1 m1 v1 : FVec Ideal sD2 .f32)
    (W2 : FVec Ideal sD2xD .f32) (b2 gc bc mc vc : FVec Ideal sD .f32) (hin agg : FVec Ideal sNxD .f32) :
    refGinCore e W1 b1 g1 be1 m1 v1 W2 b2 gc bc mc vc hin agg
      = ginR false hin agg (shapeCast s1x1 e (by decide)) W1
          (shapeCast s1xD2 b1 (by decide)) (shapeCast s1xD2 g1 (by decide)) (shapeCast s1xD2 be1 (by decide))
          (shapeCast s1xD2 m1 (by decide)) (shapeCast s1xD2 v1 (by decide)) W2
          (shapeCast s1xD b2 (by decide)) (shapeCast s1xD gc (by decide)) (shapeCast s1xD bc (by decide))
          (shapeCast s1xD mc (by decide)) (shapeCast s1xD vc (by decide)) := by
  funext i
  unfold refGinCore ginR outR hiddenR ginZ
  simp only [refBN_N1_apply, refBN_N2_apply, reluN2_apply, ginMix_apply, addf_apply, plainDot_apply, overN1_apply,
    overN2_apply, asRow_apply, asCell_apply, Bool.false_eq_true, if_false]
  rw [asRow_apply b2 _ (i 1), asRow_apply gc _ (i 1), asRow_apply bc _ (i 1), asRow_apply mc _ (i 1),
    asRow_apply vc _ (i 1)]

/-- With its closing relu. -/
theorem reluN1_refGinCore_eq (e : FVec Ideal s0 .f32) (W1 : FVec Ideal sDxD2 .f32) (b1 g1 be1 m1 v1 : FVec Ideal sD2 .f32)
    (W2 : FVec Ideal sD2xD .f32) (b2 gc bc mc vc : FVec Ideal sD .f32) (hin agg : FVec Ideal sNxD .f32) :
    reluN1 (refGinCore e W1 b1 g1 be1 m1 v1 W2 b2 gc bc mc vc hin agg)
      = ginR true hin agg (shapeCast s1x1 e (by decide)) W1
          (shapeCast s1xD2 b1 (by decide)) (shapeCast s1xD2 g1 (by decide)) (shapeCast s1xD2 be1 (by decide))
          (shapeCast s1xD2 m1 (by decide)) (shapeCast s1xD2 v1 (by decide)) W2
          (shapeCast s1xD b2 (by decide)) (shapeCast s1xD gc (by decide)) (shapeCast s1xD bc (by decide))
          (shapeCast s1xD mc (by decide)) (shapeCast s1xD vc (by decide)) := by
  funext i
  rw [reluN1_apply, refGinCore_eq]
  rfl

/-- The virtual node's update. -/
theorem refVnCore_eq (W1 : FVec Ideal sDxD2 .f32) (b1 g1 be1 m1 v1 : FVec Ideal sD2 .f32) (W2 : FVec Ideal sD2xD .f32)
    (b2 g2 be2 m2 v2 : FVec Ideal sD .f32) (pooled : FVec Ideal sGxD .f32) :
    refVnCore W1 b1 g1 be1 m1 v1 W2 b2 g2 be2 m2 v2 pooled
      = vnR pooled W1
          (shapeCast s1xD2 b1 (by decide)) (shapeCast s1xD2 g1 (by decide)) (shapeCast s1xD2 be1 (by decide))
          (shapeCast s1xD2 m1 (by decide)) (shapeCast s1xD2 v1 (by decide)) W2
          (shapeCast s1xD b2 (by decide)) (shapeCast s1xD g2 (by decide)) (shapeCast s1xD be2 (by decide))
          (shapeCast s1xD m2 (by decide)) (shapeCast s1xD v2 (by decide)) := by
  funext i
  unfold refVnCore vnR outR hiddenR
  simp only [reluG1_apply, refBN_G1_apply, refBN_G2_apply, reluG2_apply, addf_apply, plainDot_apply, overG1_apply,
    overG2_apply, asRow_apply]
  rw [asRow_apply b2 _ (i 1), asRow_apply g2 _ (i 1), asRow_apply be2 _ (i 1), asRow_apply m2 _ (i 1),
    asRow_apply v2 _ (i 1)]

/-- The head. -/
theorem refHeadCore_eq (predW : FVec Ideal sDx10 .f32) (predb : FVec Ideal s10 .f32) (hg : FVec Ideal sGxD .f32)
    (counts : FVec Ideal sGx1 .f32) :
    refHeadCore predW predb hg counts = finG hg counts predW (biasRow predb) := by
  funext i
  unfold refHeadCore finG biasRow
  simp only [addf_apply, plainDot_apply, hostDivf_apply, overRows_apply (R := 256) (C := 10) (by decide)]
  rw [asRow_apply predb _ (i 1)]
  refine congrArg (· + predb (ix1 (i 1))) (Finset.sum_congr rfl fun k _ => ?_)
  rw [overCols_apply, maximumf_apply, splat_apply, constant_apply]
  rfl

end AtIdeal

end Cert.ReferenceIdeal.HandRef

end
-- ==== Proof.RefNet.lean ====
/-
  The reference's result as a composition of the shared layer functions.

  The reference program is a straight line of 831 array operations. Read stage by stage it is: an embedding
  lookup and the virtual node's first state; five layers, each taking hin = h + vn[batch], the neighbourhood sum
  agg of hin over the edges, and a two-stage perceptron with a batch normalisation after each stage; between
  layers the virtual node's update from the per-graph sum of hin; and a head that averages the last node states
  over each graph and maps them to ten classes. Each stage's value is named here by the operation that writes it,
  and each is shown to be the shared function of that stage applied to the previous stages' values: the gathers
  and segment sums are the shared host functions (the same operations, by unfolding); a perceptron stage is the
  reference's composition of array operations (again by unfolding), which read index by index is the shared
  layer function. Chained, the stages are the shared reference network.
-/
import proofs.«403491_j395136991532_1_alg».proof.Proof.RefReadP
import proofs.«403491_j395136991532_1_alg».proof.Proof.RefStage
import proofs.«403491_j395136991532_1_alg».proof.Proof.SpecNets

noncomputable section

namespace Cert.ReferenceIdeal.HandRef

open Cert.ReferenceIdeal Cert.ReferenceIdeal.Gen Cert.ReferenceIdeal.ReadP Idealize.ShloMosaic Cert.Spec

/-- The reference's thirty-two argument arrays, under the names its source gives them. -/
structure RefArgs where
  atomEmb : (⟨S1x128, .f32⟩ : BufTy).Contents (Elt Ideal)
  vnEmb : (⟨S1x128, .f32⟩ : BufTy).Contents (Elt Ideal)
  eps : (⟨S5, .f32⟩ : BufTy).Contents (Elt Ideal)
  W1 : (⟨S5x128x256, .f32⟩ : BufTy).Contents (Elt Ideal)
  b1 : (⟨S5x256, .f32⟩ : BufTy).Contents (Elt Ideal)
  g1 : (⟨S5x256, .f32⟩ : BufTy).Contents (Elt Ideal)
  be1 : (⟨S5x256, .f32⟩ : BufTy).Contents (Elt Ideal)
  m1 : (⟨S5x256, .f32⟩ : BufTy).Contents (Elt Ideal)
  v1 : (⟨S5x256, .f32⟩ : BufTy).Contents (Elt Ideal)
  W2 : (⟨S5x256x128, .f32⟩ : BufTy).Contents (Elt Ideal)
  b2 : (⟨S5x128, .f32⟩ : BufTy).Contents (Elt Ideal)
  gc : (⟨S5x128, .f32⟩ : BufTy).Contents (Elt Ideal)
  bc : (⟨S5x128, .f32⟩ : BufTy).Contents (Elt Ideal)
  mc : (⟨S5x128, .f32⟩ : BufTy).Contents (Elt Ideal)
  vc : (⟨S5x128, .f32⟩ : BufTy).Contents (Elt Ideal)
  vW1 : (⟨S5x128x256, .f32⟩ : BufTy).Contents (Elt Ideal)
  vb1 : (⟨S5x256, .f32⟩ : BufTy).Contents (Elt Ideal)
  vg1 : (⟨S5x256, .f32⟩ : BufTy).Contents (Elt Ideal)
  vbe1 : (⟨S5x256, .f32⟩ : BufTy).Contents (Elt Ideal)
  vm1 : (⟨S5x256, .f32⟩ : BufTy).Contents (Elt Ideal)
  vv1 : (⟨S5x256, .f32⟩ : BufTy).Contents (Elt Ideal)
  vW2 : (⟨S5x256x128, .f32⟩ : BufTy).Contents (Elt Ideal)
  vb2 : (⟨S5x128, .f32⟩ : BufTy).Contents (Elt Ideal)
  vg2 : (⟨S5x128, .f32⟩ : BufTy).Contents (Elt Ideal)
  vbe2 : (⟨S5x128, .f32⟩ : BufTy).Contents (Elt Ideal)
  vm2 : (⟨S5x128, .f32⟩ : BufTy).Contents (Elt Ideal)
  vv2 : (⟨S5x128, .f32⟩ : BufTy).Contents (Elt Ideal)
  predW : (⟨S128x10, .f32⟩ : BufTy).Contents (Elt Ideal)
  predb : (⟨S10, .f32⟩ : BufTy).Contents (Elt Ideal)
  x : (⟨S50000, .i32⟩ : BufTy).Contents (Elt Ideal)
  edges : (⟨S2x600000, .i32⟩ : BufTy).Contents (Elt Ideal)
  batch : (⟨S50000, .i32⟩ : BufTy).Contents (Elt Ideal)

namespace RefArgs
variable (A : RefArgs)

/-! ## The stages' values, by the operation that writes them -/

/-- The embedded nodes, the virtual node's first state and the first layer's input. -/
def emb : RArr sNxD := val_main_v10 (F := Ideal) A.atomEmb A.x
def vn0 : RArr sGxD := val_main_v12 (F := Ideal) A.vnEmb
def hin0 : RArr sNxD := val_main_v20 (F := Ideal) A.atomEmb A.vnEmb A.x A.batch

/-- Layer 0: the neighbourhood sum, the node states after it, the pooled input, the pooled input plus the
    virtual node, the next virtual node, the next layer's input. -/
def agg0 : RArr sNxD := val_main_v30 (F := Ideal) A.atomEmb A.vnEmb A.x A.edges A.batch
def h1 : RArr sNxD := val_main_v100 (F := Ideal) A.atomEmb A.vnEmb A.eps A.W1 A.b1 A.g1 A.be1 A.m1 A.v1 A.W2 A.b2 A.gc A.bc A.mc A.vc A.x A.edges A.batch
def pool0 : RArr sGxD := val_main_v103 (F := Ideal) A.atomEmb A.vnEmb A.x A.batch
def pooled0 : RArr sGxD := val_main_v104 (F := Ideal) A.atomEmb A.vnEmb A.x A.batch
def vn1 : RArr sGxD := val_main_v168 (F := Ideal) A.atomEmb A.vnEmb A.vW1 A.vb1 A.vg1 A.vbe1 A.vm1 A.vv1 A.vW2 A.vb2 A.vg2 A.vbe2 A.vm2 A.vv2 A.x A.batch
def hin1 : RArr sNxD := val_main_v176 (F := Ideal) A.atomEmb A.vnEmb A.eps A.W1 A.b1 A.g1 A.be1 A.m1 A.v1 A.W2 A.b2 A.gc A.bc A.mc A.vc A.vW1 A.vb1 A.vg1 A.vbe1 A.vm1 A.vv1 A.vW2 A.vb2 A.vg2 A.vbe2 A.vm2 A.vv2 A.x A.edges A.batch

/-- Layer 1. -/
def agg1 : RArr sNxD := val_main_v186 (F := Ideal) A.atomEmb A.vnEmb A.eps A.W1 A.b1 A.g1 A.be1 A.m1 A.v1 A.W2 A.b2 A.gc A.bc A.mc A.vc A.vW1 A.vb1 A.vg1 A.vbe1 A.vm1 A.vv1 A.vW2 A.vb2 A.vg2 A.vbe2 A.vm2 A.vv2 A.x A.edges A.batch
def h2 : RArr sNxD := val_main_v256 (F := Ideal) A.atomEmb A.vnEmb A.eps A.W1 A.b1 A.g1 A.be1 A.m1 A.v1 A.W2 A.b2 A.gc A.bc A.mc A.vc A.vW1 A.vb1 A.vg1 A.vbe1 A.vm1 A.vv1 A.vW2 A.vb2 A.vg2 A.vbe2 A.vm2 A.vv2 A.x A.edges A.batch
def pool1 : RArr sGxD := val_main_v259 (F := Ideal) A.atomEmb A.vnEmb A.eps A.W1 A.b1 A.g1 A.be1 A.m1 A.v1 A.W2 A.b2 A.gc A.bc A.mc A.vc A.vW1 A.vb1 A.vg1 A.vbe1 A.vm1 A.vv1 A.vW2 A.vb2 A.vg2 A.vbe2 A.vm2 A.vv2 A.x A.edges A.batch
def pooled1 : RArr sGxD := val_main_v260 (F := Ideal) A.atomEmb A.vnEmb A.eps A.W1 A.b1 A.g1 A.be1 A.m1 A.v1 A.W2 A.b2 A.gc A.bc A.mc A.vc A.vW1 A.vb1 A.vg1 A.vbe1 A.vm1 A.vv1 A.vW2 A.vb2 A.vg2 A.vbe2 A.vm2 A.vv2 A.x A.edges A.batch
def vn2 : RArr sGxD := val_main_v324 (F := Ideal) A.atomEmb A.vnEmb A.eps A.W1 A.b1 A.g1 A.be1 A.m1 A.v1 A.W2 A.b2 A.gc A.bc A.mc A.vc A.vW1 A.vb1 A.vg1 A.vbe1 A.vm1 A.vv1 A.vW2 A.vb2 A.vg2 A.vbe2 A.vm2 A.vv2 A.x A.edges A.batch
def hin2 : RArr sNxD := val_main_v332 (F := Ideal) A.atomEmb A.vnEmb A.eps A.W1 A.b1 A.g1 A.be1 A.m1 A.v1 A.W2 A.b2 A.gc A.bc A.mc A.vc A.vW1 A.vb1 A.vg1 A.vbe1 A.vm1 A.vv1 A.vW2 A.vb2 A.vg2 A.vbe2 A.vm2 A.vv2 A.x A.edges A.batch

/-- Layer 2. -/
def agg2 : RArr sNxD := val_main_v342 (F := Ideal) A.atomEmb A.vnEmb A.eps A.W1 A.b1 A.g1 A.be1 A.m1 A.v1 A.W2 A.b2 A.gc A.bc A.mc A.vc A.vW1 A.vb1 A.vg1 A.vbe1 A.vm1 A.vv1 A.vW2 A.vb2 A.vg2 A.vbe2 A.vm2 A.vv2 A.x A.edges A.batch
def h3 : RArr sNxD := val_main_v412 (F := Ideal) A.atomEmb A.vnEmb A.eps A.W1 A.b1 A.g1 A.be1 A.m1 A.v1 A.W2 A.b2 A.gc A.bc A.mc A.vc A.vW1 A.vb1 A.vg1 A.vbe1 A.vm1 A.vv1 A.vW2 A.vb2 A.vg2 A.vbe2 A.vm2 A.vv2 A.x A.edges A.batch
def pool2 : RArr sGxD := val_main_v415 (F := Ideal) A.atomEmb A.vnEmb A.eps A.W1 A.b1 A.g1 A.be1 A.m1 A.v1 A.W2 A.b2 A.gc A.bc A.mc A.vc A.vW1 A.vb1 A.vg1 A.vbe1 A.vm1 A.vv1 A.vW2 A.vb2 A.vg2 A.vbe2 A.vm2 A.vv2 A.x A.edges A.batch
def pooled2 : RArr sGxD := val_main_v416 (F := Ideal) A.atomEmb A.vnEmb A.eps A.W1 A.b1 A.g1 A.be1 A.m1 A.v1 A.W2 A.b2 A.gc A.bc A.mc A.vc A.vW1 A.vb1 A.vg1 A.vbe1 A.vm1 A.vv1 A.vW2 A.vb2 A.vg2 A.vbe2 A.vm2 A.vv2 A.x A.edges A.batch
def vn3 : RArr sGxD := val_main_v480 (F := Ideal) A.atomEmb A.vnEmb A.eps A.W1 A.b1 A.g1 A.be1 A.m1 A.v1 A.W2 A.b2 A.gc A.bc A.mc A.vc A.vW1 A.vb1 A.vg1 A.vbe1 A.vm1 A.vv1 A.vW2 A.vb2 A.vg2 A.vbe2 A.vm2 A.vv2 A.x A.edges A.batch
def hin3 : RArr sNxD := val_main_v488 (F := Ideal) A.atomEmb A.vnEmb A.eps A.W1 A.b1 A.g1 A.be1 A.m1 A.v1 A.W2 A.b2 A.gc A.bc A.mc A.vc A.vW1 A.vb1 A.vg1 A.vbe1 A.vm1 A.vv1 A.vW2 A.vb2 A.vg2 A.vbe2 A.vm2 A.vv2 A.x A.edges A.batch

/-- Layer 3. -/
def agg3 : RArr sNxD := val_main_v498 (F := Ideal) A.atomEmb A.vnEmb A.eps A.W1 A.b1 A.g1 A.be1 A.m1 A.v1 A.W2 A.b2 A.gc A.bc A.mc A.vc A.vW1 A.vb1 A.vg1 A.vbe1 A.vm1 A.vv1 A.vW2 A.vb2 A.vg2 A.vbe2 A.vm2 A.vv2 A.x A.edges A.batch
def h4 : RArr sNxD := val_main_v568 (F := Ideal) A.atomEmb A.vnEmb A.eps A.W1 A.b1 A.g1 A.be1 A.m1 A.v1 A.W2 A.b2 A.gc A.bc A.mc A.vc A.vW1 A.vb1 A.vg1 A.vbe1 A.vm1 A.vv1 A.vW2 A.vb2 A.vg2 A.vbe2 A.vm2 A.vv2 A.x A.edges A.batch
def pool3 : RArr sGxD := val_main_v571 (F := Ideal) A.atomEmb A.vnEmb A.eps A.W1 A.b1 A.g1 A.be1 A.m1 A.v1 A.W2 A.b2 A.gc A.bc A.mc A.vc A.vW1 A.vb1 A.vg1 A.vbe1 A.vm1 A.vv1 A.vW2 A.vb2 A.vg2 A.vbe2 A.vm2 A.vv2 A.x A.edges A.batch
def pooled3 : RArr sGxD := val_main_v572 (F := Ideal) A.atomEmb A.vnEmb A.eps A.W1 A.b1 A.g1 A.be1 A.m1 A.v1 A.W2 A.b2 A.gc A.bc A.mc A.vc A.vW1 A.vb1 A.vg1 A.vbe1 A.vm1 A.vv1 A.vW2 A.vb2 A.vg2 A.vbe2 A.vm2 A.vv2 A.x A.edges A.batch
def vn4 : RArr sGxD := val_main_v636 (F := Ideal) A.atomEmb A.vnEmb A.eps A.W1 A.b1 A.g1 A.be1 A.m1 A.v1 A.W2 A.b2 A.gc A.bc A.mc A.vc A.vW1 A.vb1 A.vg1 A.vbe1 A.vm1 A.vv1 A.vW2 A.vb2 A.vg2 A.vbe2 A.vm2 A.vv2 A.x A.edges A.batch
def hin4 : RArr sNxD := val_main_v644 (F := Ideal) A.atomEmb A.vnEmb A.eps A.W1 A.b1 A.g1 A.be1 A.m1 A.v1 A.W2 A.b2 A.gc A.bc A.mc A.vc A.vW1 A.vb1 A.vg1 A.vbe1 A.vm1 A.vv1 A.vW2 A.vb2 A.vg2 A.vbe2 A.vm2 A.vv2 A.x A.edges A.batch

/-- Layer 4 (no relu after it), and the head. -/
def agg4 : RArr sNxD := val_main_v654 (F := Ideal) A.atomEmb A.vnEmb A.eps A.W1 A.b1 A.g1 A.be1 A.m1 A.v1 A.W2 A.b2 A.gc A.bc A.mc A.vc A.vW1 A.vb1 A.vg1 A.vbe1 A.vm1 A.vv1 A.vW2 A.vb2 A.vg2 A.vbe2 A.vm2 A.vv2 A.x A.edges A.batch
def h5 : RArr sNxD := val_main_v723 (F := Ideal) A.atomEmb A.vnEmb A.eps A.W1 A.b1 A.g1 A.be1 A.m1 A.v1 A.W2 A.b2 A.gc A.bc A.mc A.vc A.vW1 A.vb1 A.vg1 A.vbe1 A.vm1 A.vv1 A.vW2 A.vb2 A.vg2 A.vbe2 A.vm2 A.vv2 A.x A.edges A.batch
def counts : RArr sGx1 := val_main_v727 (F := Ideal) A.batch
def hg : RArr sGxD := val_main_v730 (F := Ideal) A.atomEmb A.vnEmb A.eps A.W1 A.b1 A.g1 A.be1 A.m1 A.v1 A.W2 A.b2 A.gc A.bc A.mc A.vc A.vW1 A.vb1 A.vg1 A.vbe1 A.vm1 A.vv1 A.vW2 A.vb2 A.vg2 A.vbe2 A.vm2 A.vv2 A.x A.edges A.batch
def out : RArr (⟨2, ![256, 10]⟩ : Shape) := val_main_v738 (F := Ideal) A.atomEmb A.vnEmb A.eps A.W1 A.b1 A.g1 A.be1 A.m1 A.v1 A.W2 A.b2 A.gc A.bc A.mc A.vc A.vW1 A.vb1 A.vg1 A.vbe1 A.vm1 A.vv1 A.vW2 A.vb2 A.vg2 A.vbe2 A.vm2 A.vv2 A.predW A.predb A.x A.edges A.batch

/-! ## The same arguments as arrays of extended reals -/

/-- The arguments in the shared record (the types agree: a float array at the ideal values is an array of
    extended reals over the same literal shape). -/
def toSpec : Cert.Spec.Args :=
  ⟨A.atomEmb, A.vnEmb, A.eps, A.W1, A.b1, A.g1, A.be1, A.m1, A.v1, A.W2, A.b2, A.gc, A.bc, A.mc, A.vc, A.vW1, A.vb1, A.vg1,
    A.vbe1, A.vm1, A.vv1, A.vW2, A.vb2, A.vg2, A.vbe2, A.vm2, A.vv2, A.predW, A.predb, A.x, A.edges, A.batch⟩

/-! ## The gathers and the segment sums are the shared host functions -/

theorem emb_eq : A.emb = embed (F := Ideal) A.atomEmb A.x := rfl
theorem vn0_eq : A.vn0 = vnInit (F := Ideal) A.vnEmb := rfl
theorem hin0_eq : A.hin0 = hIn (F := Ideal) A.emb A.vn0 A.batch := rfl
theorem hin1_eq : A.hin1 = hIn (F := Ideal) A.h1 A.vn1 A.batch := rfl
theorem hin2_eq : A.hin2 = hIn (F := Ideal) A.h2 A.vn2 A.batch := rfl
theorem hin3_eq : A.hin3 = hIn (F := Ideal) A.h3 A.vn3 A.batch := rfl
theorem hin4_eq : A.hin4 = hIn (F := Ideal) A.h4 A.vn4 A.batch := rfl
theorem agg0_eq : A.agg0 = aggOf (F := Ideal) A.hin0 (srcOf A.edges) (dstOf A.edges) := rfl
theorem agg1_eq : A.agg1 = aggOf (F := Ideal) A.hin1 (srcOf A.edges) (dstOf A.edges) := rfl
theorem agg2_eq : A.agg2 = aggOf (F := Ideal) A.hin2 (srcOf A.edges) (dstOf A.edges) := rfl
theorem agg3_eq : A.agg3 = aggOf (F := Ideal) A.hin3 (srcOf A.edges) (dstOf A.edges) := rfl
theorem agg4_eq : A.agg4 = aggOf (F := Ideal) A.hin4 (srcOf A.edges) (dstOf A.edges) := rfl
theorem pool0_eq : A.pool0 = poolOfHost (F := Ideal) A.hin0 A.batch := rfl
theorem pool1_eq : A.pool1 = poolOfHost (F := Ideal) A.hin1 A.batch := rfl
theorem pool2_eq : A.pool2 = poolOfHost (F := Ideal) A.hin2 A.batch := rfl
theorem pool3_eq : A.pool3 = poolOfHost (F := Ideal) A.hin3 A.batch := rfl
theorem pooled0_eq : A.pooled0 = fun i => A.pool0 i + A.vn0 i := rfl
theorem pooled1_eq : A.pooled1 = fun i => A.pool1 i + A.vn1 i := rfl
theorem pooled2_eq : A.pooled2 = fun i => A.pool2 i + A.vn2 i := rfl
theorem pooled3_eq : A.pooled3 = fun i => A.pool3 i + A.vn3 i := rfl
theorem counts_eq : A.counts = countsOf (F := Ideal) A.batch := rfl
theorem hg_eq : A.hg = poolOfHost (F := Ideal) A.h5 A.batch := rfl

/-! ## A perceptron stage is the reference's composition of array operations, hence the shared layer function -/

theorem h1_eq : A.h1 = ginRl A.toSpec 0 cuts0 true A.hin0 A.agg0 := by
  have e : A.h1 = reluN1 (refGinCore (F := Ideal) (refEps 0 A.eps cuts0.e) (matDxD2 0 A.W1 cuts0.mA)
      (refRow2 0 A.b1 cuts0.r2) (refRow2 0 A.g1 cuts0.r2) (refRow2 0 A.be1 cuts0.r2) (refRow2 0 A.m1 cuts0.r2)
      (refRow2 0 A.v1 cuts0.r2) (matD2xD 0 A.W2 cuts0.mB) (refRow1 0 A.b2 cuts0.r1) (refRow1 0 A.gc cuts0.r1)
      (refRow1 0 A.bc cuts0.r1) (refRow1 0 A.mc cuts0.r1) (refRow1 0 A.vc cuts0.r1) A.hin0 A.agg0) := rfl
  rw [e, reluN1_refGinCore_eq]; rfl

theorem h2_eq : A.h2 = ginRl A.toSpec 1 cuts1 true A.hin1 A.agg1 := by
  have e : A.h2 = reluN1 (refGinCore (F := Ideal) (refEps 1 A.eps cuts1.e) (matDxD2 1 A.W1 cuts1.mA)
      (refRow2 1 A.b1 cuts1.r2) (refRow2 1 A.g1 cuts1.r2) (refRow2 1 A.be1 cuts1.r2) (refRow2 1 A.m1 cuts1.r2)
      (refRow2 1 A.v1 cuts1.r2) (matD2xD 1 A.W2 cuts1.mB) (refRow1 1 A.b2 cuts1.r1) (refRow1 1 A.gc cuts1.r1)
      (refRow1 1 A.bc cuts1.r1) (refRow1 1 A.mc cuts1.r1) (refRow1 1 A.vc cuts1.r1) A.hin1 A.agg1) := rfl
  rw [e, reluN1_refGinCore_eq]; rfl

theorem h3_eq : A.h3 = ginRl A.toSpec 2 cuts2 true A.hin2 A.agg2 := by
  have e : A.h3 = reluN1 (refGinCore (F := Ideal) (refEps 2 A.eps cuts2.e) (matDxD2 2 A.W1 cuts2.mA)
      (refRow2 2 A.b1 cuts2.r2) (refRow2 2 A.g1 cuts2.r2) (refRow2 2 A.be1 cuts2.r2) (refRow2 2 A.m1 cuts2.r2)
      (refRow2 2 A.v1 cuts2.r2) (matD2xD 2 A.W2 cuts2.mB) (refRow1 2 A.b2 cuts2.r1) (refRow1 2 A.gc cuts2.r1)
      (refRow1 2 A.bc cuts2.r1) (refRow1 2 A.mc cuts2.r1) (refRow1 2 A.vc cuts2.r1) A.hin2 A.agg2) := rfl
  rw [e, reluN1_refGinCore_eq]; rfl

theorem h4_eq : A.h4 = ginRl A.toSpec 3 cuts3 true A.hin3 A.agg3 := by
  have e : A.h4 = reluN1 (refGinCore (F := Ideal) (refEps 3 A.eps cuts3.e) (matDxD2 3 A.W1 cuts3.mA)
      (refRow2 3 A.b1 cuts3.r2) (refRow2 3 A.g1 cuts3.r2) (refRow2 3 A.be1 cuts3.r2) (refRow2 3 A.m1 cuts3.r2)
      (refRow2 3 A.v1 cuts3.r2) (matD2xD 3 A.W2 cuts3.mB) (refRow1 3 A.b2 cuts3.r1) (refRow1 3 A.gc cuts3.r1)
      (refRow1 3 A.bc cuts3.r1) (refRow1 3 A.mc cuts3.r1) (refRow1 3 A.vc cuts3.r1) A.hin3 A.agg3) := rfl
  rw [e, reluN1_refGinCore_eq]; rfl

theorem h5_eq : A.h5 = ginRl A.toSpec 4 cuts4 false A.hin4 A.agg4 := by
  have e : A.h5 = refGinCore (F := Ideal) (refEps 4 A.eps cuts4.e) (matDxD2 4 A.W1 cuts4.mA)
      (refRow2 4 A.b1 cuts4.r2) (refRow2 4 A.g1 cuts4.r2) (refRow2 4 A.be1 cuts4.r2) (refRow2 4 A.m1 cuts4.r2)
      (refRow2 4 A.v1 cuts4.r2) (matD2xD 4 A.W2 cuts4.mB) (refRow1 4 A.b2 cuts4.r1) (refRow1 4 A.gc cuts4.r1)
      (refRow1 4 A.bc cuts4.r1) (refRow1 4 A.mc cuts4.r1) (refRow1 4 A.vc cuts4.r1) A.hin4 A.agg4 := rfl
  rw [e, refGinCore_eq]; rfl

theorem vn1_eq : A.vn1 = vnRl A.toSpec 0 cuts0 A.pooled0 := by
  have e : A.vn1 = refVnCore (F := Ideal) (matDxD2 0 A.vW1 cuts0.mA) (refRow2 0 A.vb1 cuts0.r2)
      (refRow2 0 A.vg1 cuts0.r2) (refRow2 0 A.vbe1 cuts0.r2) (refRow2 0 A.vm1 cuts0.r2) (refRow2 0 A.vv1 cuts0.r2)
      (matD2xD 0 A.vW2 cuts0.mB) (refRow1 0 A.vb2 cuts0.r1) (refRow1 0 A.vg2 cuts0.r1) (refRow1 0 A.vbe2 cuts0.r1)
      (refRow1 0 A.vm2 cuts0.r1) (refRow1 0 A.vv2 cuts0.r1) A.pooled0 := rfl
  rw [e, refVnCore_eq]; rfl

theorem vn2_eq : A.vn2 = vnRl A.toSpec 1 cuts1 A.pooled1 := by
  have e : A.vn2 = refVnCore (F := Ideal) (matDxD2 1 A.vW1 cuts1.mA) (refRow2 1 A.vb1 cuts1.r2)
      (refRow2 1 A.vg1 cuts1.r2) (refRow2 1 A.vbe1 cuts1.r2) (refRow2 1 A.vm1 cuts1.r2) (refRow2 1 A.vv1 cuts1.r2)
      (matD2xD 1 A.vW2 cuts1.mB) (refRow1 1 A.vb2 cuts1.r1) (refRow1 1 A.vg2 cuts1.r1) (refRow1 1 A.vbe2 cuts1.r1)
      (refRow1 1 A.vm2 cuts1.r1) (refRow1 1 A.vv2 cuts1.r1) A.pooled1 := rfl
  rw [e, refVnCore_eq]; rfl

theorem vn3_eq : A.vn3 = vnRl A.toSpec 2 cuts2 A.pooled2 := by
  have e : A.vn3 = refVnCore (F := Ideal) (matDxD2 2 A.vW1 cuts2.mA) (refRow2 2 A.vb1 cuts2.r2)
      (refRow2 2 A.vg1 cuts2.r2) (refRow2 2 A.vbe1 cuts2.r2) (refRow2 2 A.vm1 cuts2.r2) (refRow2 2 A.vv1 cuts2.r2)
      (matD2xD 2 A.vW2 cuts2.mB) (refRow1 2 A.vb2 cuts2.r1) (refRow1 2 A.vg2 cuts2.r1) (refRow1 2 A.vbe2 cuts2.r1)
      (refRow1 2 A.vm2 cuts2.r1) (refRow1 2 A.vv2 cuts2.r1) A.pooled2 := rfl
  rw [e, refVnCore_eq]; rfl

theorem vn4_eq : A.vn4 = vnRl A.toSpec 3 cuts3 A.pooled3 := by
  have e : A.vn4 = refVnCore (F := Ideal) (matDxD2 3 A.vW1 cuts3.mA) (refRow2 3 A.vb1 cuts3.r2)
      (refRow2 3 A.vg1 cuts3.r2) (refRow2 3 A.vbe1 cuts3.r2) (refRow2 3 A.vm1 cuts3.r2) (refRow2 3 A.vv1 cuts3.r2)
      (matD2xD 3 A.vW2 cuts3.mB) (refRow1 3 A.vb2 cuts3.r1) (refRow1 3 A.vg2 cuts3.r1) (refRow1 3 A.vbe2 cuts3.r1)
      (refRow1 3 A.vm2 cuts3.r1) (refRow1 3 A.vv2 cuts3.r1) A.pooled3 := rfl
  rw [e, refVnCore_eq]; rfl

theorem out_eq : A.out = finG A.hg A.counts A.predW (biasRow A.predb) := by
  have e : A.out = refHeadCore (F := Ideal) A.predW A.predb A.hg A.counts := rfl
  rw [e, refHeadCore_eq]

/-! ## The stages chain as the shared reference network -/

theorem state0_eq : state0 A.toSpec = (A.emb, A.vn0) := rfl

theorem step0_eq : stepR A.toSpec 0 cuts0 (A.emb, A.vn0) = (A.h1, A.vn1) := by
  rw [A.h1_eq, A.vn1_eq]; rfl
theorem step1_eq : stepR A.toSpec 1 cuts1 (A.h1, A.vn1) = (A.h2, A.vn2) := by
  rw [A.h2_eq, A.vn2_eq]; rfl
theorem step2_eq : stepR A.toSpec 2 cuts2 (A.h2, A.vn2) = (A.h3, A.vn3) := by
  rw [A.h3_eq, A.vn3_eq]; rfl
theorem step3_eq : stepR A.toSpec 3 cuts3 (A.h3, A.vn3) = (A.h4, A.vn4) := by
  rw [A.h4_eq, A.vn4_eq]; rfl

/-- The reference's result is the shared reference network of its arguments. -/
theorem ref_result : A.out = refNet A.toSpec := by
  unfold refNet
  rw [A.state0_eq, A.step0_eq, A.step1_eq, A.step2_eq, A.step3_eq, A.out_eq, A.hg_eq, A.h5_eq]
  rfl

end RefArgs

end Cert.ReferenceIdeal.HandRef

end
-- ==== Proof.SpecPre.lean ====
/-
  A printed "every entry is finite" / "every entry is nonnegative" test, read back.

  A precondition "jnp.all(jnp.isfinite(x))" is printed as |x| < +inf at every entry, reduced by "and" from the
  constant one into a scalar; "jnp.all(x >= 0)" as x >= 0 at every entry, reduced the same way. That the
  scalar is one says that every entry passed its test: at the ideal instance, that every entry of x is a real
  number (an extended real below +inf in absolute value is neither infinity), respectively that it is
  nonnegative. Both are stated once, for an array of any shape.
-/
import Idealize.ShloMosaic.PureOps.Ideal
import Idealize.ShloMosaic.PureOps.Ideal.Laws
import Idealize.ShloMosaic.Lib.ValueIdx
import Idealize.ShloMosaic.Lib.ReduceAll
import Idealize.ShloMosaic.Lib.StableHlo.Predicate
import proofs.«403491_j395136991532_1_alg».proof.Proof.SpecReal

noncomputable section

namespace Cert.Spec

open Idealize.ShloMosaic

/-- The scalar shape has one index. -/
instance subsingleton_scalar_idx : Subsingleton (⟨0, ![]⟩ : Shape).Idx := ⟨fun a b => funext fun d => d.elim0⟩

/-- The binary32 pattern of +inf denotes the top of the extended reals. -/
theorem ofBits_inf : Ideal.ofBits .f32 0x7F800000#32 = ⊤ := by simp [Ideal.ofBits, Ideal.ieee]

/-- An extended real whose absolute value is below +inf is a real number. -/
theorem isReal_of_abs_lt_top {x : EReal} (h : max x (-x) < ⊤) : IsReal x := by
  induction x using EReal.rec with
  | bot => simp at h
  | top => simp at h
  | coe r => exact ⟨r, rfl⟩

/-- One entry's finiteness test, read back. -/
theorem isReal_of_cmp_abs {x : Ideal .f32}
    (h : FloatOps.cmpf .olt (FloatOps.hostAbsf x) (FloatOps.ofBits (F := Ideal) .f32 0x7F800000#32) = 1#1) : IsReal x := by
  have h' : Ideal.cmp .olt (max x (-x)) (Ideal.ofBits .f32 0x7F800000#32) = 1#1 := h
  rw [ofBits_inf] at h'
  simp only [Ideal.cmp] at h'
  exact isReal_of_abs_lt_top (of_decide_eq_true ((StableHlo.Predicate.ofBool_eq_one_iff _).1 h'))

/-- One entry's sign test, read back. -/
theorem nonneg_of_cmp_ge {x : Ideal .f32}
    (h : FloatOps.cmpf .oge x (FloatOps.ofBits (F := Ideal) .f32 0x00000000#32) = 1#1) : 0 ≤ x := by
  have h' : Ideal.cmp .oge x (Ideal.ofBits .f32 0x00000000#32) = 1#1 := h
  rw [Ideal.ofBits_zero_f32] at h'
  simp only [Ideal.cmp] at h'
  exact of_decide_eq_true ((StableHlo.Predicate.ofBool_eq_one_iff _).1 h')

variable {s : Shape} {axes : List (Fin s.rank)}

/-- "all(isfinite(x))" as printed, equal to one: every entry of x is a real number. -/
theorem allReal_of_all_finite (x : FVec Ideal s .f32)
    (hb : (⟨0, ![]⟩ : Shape).BroadcastsInDim s (![] : Fin 0 → Fin s.rank)) (hr : s.ReducesTo axes ⟨0, ![]⟩)
    (h0 : 0 < (⟨0, ![]⟩ : Shape).numel)
    (h : Host.reduce IntOp.andi
          (cmpf .olt (Host.absf x) (broadcastInDim s ![] hb (constant (F := Ideal) ⟨0, ![]⟩ .f32 0x7F800000#32)))
          (constantI ⟨0, ![]⟩ 1 1#1) hr h0 ValueIdx.ix0 = 1#1) :
    AllReal x := fun i =>
  isReal_of_cmp_abs (Host.reduce_andi_all _ _ hr h0 ValueIdx.ix0 h i)

/-- "all(x >= 0)" as printed, equal to one: every entry of x is nonnegative. -/
theorem nonneg_of_all_ge (x : FVec Ideal s .f32)
    (hb : (⟨0, ![]⟩ : Shape).BroadcastsInDim s (![] : Fin 0 → Fin s.rank)) (hr : s.ReducesTo axes ⟨0, ![]⟩)
    (h0 : 0 < (⟨0, ![]⟩ : Shape).numel)
    (h : Host.reduce IntOp.andi
          (cmpf .oge x (broadcastInDim s ![] hb (constant (F := Ideal) ⟨0, ![]⟩ .f32 0x00000000#32)))
          (constantI ⟨0, ![]⟩ 1 1#1) hr h0 ValueIdx.ix0 = 1#1) :
    ∀ i, 0 ≤ x i := fun i =>
  nonneg_of_cmp_ge (Host.reduce_andi_all _ _ hr h0 ValueIdx.ix0 h i)

end Cert.Spec

end
-- ==== Proof.PreFacts.lean ====
/-
  What the precondition says of the inputs.

  The printed precondition is the conjunction of thirty-three tests, each an "and"-reduction of an entrywise
  comparison into a scalar: for each of the twenty-nine float arrays, that every entry is finite; for the four
  running variances, that every entry is nonnegative. Equal to one, it says that every entry of every float
  input is a real number and that every variance entry is nonnegative: the facts under which a batch
  normalisation may be folded into one scale and one shift.
-/
import proofs.«403491_j395136991532_1_alg».proof.Pre_finite_inputs
import proofs.«403491_j395136991532_1_alg».proof.Proof.SpecPre

noncomputable section

namespace Cert.Spec

open Idealize.ShloMosaic Cert.Pre_finite_inputs

/-- Every float input is an array of real numbers, and the four variance arrays are nonnegative. Arrays in the
    program's argument order: a0 = atom_emb, a1 = vn_emb, a2 = eps, a3 = W1, a4 = b1, a5 = g1, a6 = be1, a7 = m1, a8 = v1, a9 = W2, a10 = b2, a11 = gc, a12 = bc, a13 = mc, a14 = vc, a15 = vW1, a16 = vb1, a17 = vg1, a18 = vbe1, a19 = vm1, a20 = vv1, a21 = vW2, a22 = vb2, a23 = vg2, a24 = vbe2, a25 = vm2, a26 = vv2, a27 = predW, a28 = predb. -/
structure InputFacts (a0 : FVec Ideal S1x128 .f32) (a1 : FVec Ideal S1x128 .f32) (a2 : FVec Ideal S5 .f32) (a3 : FVec Ideal S5x128x256 .f32) (a4 : FVec Ideal S5x256 .f32) (a5 : FVec Ideal S5x256 .f32) (a6 : FVec Ideal S5x256 .f32) (a7 : FVec Ideal S5x256 .f32) (a8 : FVec Ideal S5x256 .f32) (a9 : FVec Ideal S5x256x128 .f32) (a10 : FVec Ideal S5x128 .f32) (a11 : FVec Ideal S5x128 .f32) (a12 : FVec Ideal S5x128 .f32) (a13 : FVec Ideal S5x128 .f32) (a14 : FVec Ideal S5x128 .f32) (a15 : FVec Ideal S5x128x256 .f32) (a16 : FVec Ideal S5x256 .f32) (a17 : FVec Ideal S5x256 .f32) (a18 : FVec Ideal S5x256 .f32) (a19 : FVec Ideal S5x256 .f32) (a20 : FVec Ideal S5x256 .f32) (a21 : FVec Ideal S5x256x128 .f32) (a22 : FVec Ideal S5x128 .f32) (a23 : FVec Ideal S5x128 .f32) (a24 : FVec Ideal S5x128 .f32) (a25 : FVec Ideal S5x128 .f32) (a26 : FVec Ideal S5x128 .f32) (a27 : FVec Ideal S128x10 .f32) (a28 : FVec Ideal S10 .f32) : Prop where
  real0 : AllReal a0
  real1 : AllReal a1
  real2 : AllReal a2
  real3 : AllReal a3
  real4 : AllReal a4
  real5 : AllReal a5
  real6 : AllReal a6
  real7 : AllReal a7
  real8 : AllReal a8
  real9 : AllReal a9
  real10 : AllReal a10
  real11 : AllReal a11
  real12 : AllReal a12
  real13 : AllReal a13
  real14 : AllReal a14
  real15 : AllReal a15
  real16 : AllReal a16
  real17 : AllReal a17
  real18 : AllReal a18
  real19 : AllReal a19
  real20 : AllReal a20
  real21 : AllReal a21
  real22 : AllReal a22
  real23 : AllReal a23
  real24 : AllReal a24
  real25 : AllReal a25
  real26 : AllReal a26
  real27 : AllReal a27
  real28 : AllReal a28
  nonneg8 : ∀ i, 0 ≤ a8 i
  nonneg14 : ∀ i, 0 ≤ a14 i
  nonneg20 : ∀ i, 0 ≤ a20 i
  nonneg26 : ∀ i, 0 ≤ a26 i

variable [Cert.Pre_finite_inputs.Facts]

/-- The printed precondition, all ones, gives the facts. -/
theorem inputFacts_of_pre (a0 : FVec Ideal S1x128 .f32) (a1 : FVec Ideal S1x128 .f32) (a2 : FVec Ideal S5 .f32) (a3 : FVec Ideal S5x128x256 .f32) (a4 : FVec Ideal S5x256 .f32) (a5 : FVec Ideal S5x256 .f32) (a6 : FVec Ideal S5x256 .f32) (a7 : FVec Ideal S5x256 .f32) (a8 : FVec Ideal S5x256 .f32) (a9 : FVec Ideal S5x256x128 .f32) (a10 : FVec Ideal S5x128 .f32) (a11 : FVec Ideal S5x128 .f32) (a12 : FVec Ideal S5x128 .f32) (a13 : FVec Ideal S5x128 .f32) (a14 : FVec Ideal S5x128 .f32) (a15 : FVec Ideal S5x128x256 .f32) (a16 : FVec Ideal S5x256 .f32) (a17 : FVec Ideal S5x256 .f32) (a18 : FVec Ideal S5x256 .f32) (a19 : FVec Ideal S5x256 .f32) (a20 : FVec Ideal S5x256 .f32) (a21 : FVec Ideal S5x256x128 .f32) (a22 : FVec Ideal S5x128 .f32) (a23 : FVec Ideal S5x128 .f32) (a24 : FVec Ideal S5x128 .f32) (a25 : FVec Ideal S5x128 .f32) (a26 : FVec Ideal S5x128 .f32) (a27 : FVec Ideal S128x10 .f32) (a28 : FVec Ideal S10 .f32) (a29 : IVec S50000 32) (a30 : IVec S2x600000 32) (a31 : IVec S50000 32)
    (h : Cert.Pre_finite_inputs.fn (F := Ideal) a0 a1 a2 a3 a4 a5 a6 a7 a8 a9 a10 a11 a12 a13 a14 a15 a16 a17 a18 a19 a20 a21 a22 a23 a24 a25 a26 a27 a28 a29 a30 a31 = fun _ => 1#1) :
    InputFacts a0 a1 a2 a3 a4 a5 a6 a7 a8 a9 a10 a11 a12 a13 a14 a15 a16 a17 a18 a19 a20 a21 a22 a23 a24 a25 a26 a27 a28 := by
  have h0 := congrFun h ValueIdx.ix0
  dsimp only [fn, fn_part1, fn_part2, fn_part3, fn_part4, fn_part5, fn_part6, fn_part7, fn_part8, fn_part9,
    Idealize.ShloMosaic.andi] at h0
  obtain ⟨h0, n26⟩ := IntOp.andi_eq_one.1 h0
  obtain ⟨h0, n20⟩ := IntOp.andi_eq_one.1 h0
  obtain ⟨h0, n14⟩ := IntOp.andi_eq_one.1 h0
  obtain ⟨h0, n8⟩ := IntOp.andi_eq_one.1 h0
  obtain ⟨h0, r28⟩ := IntOp.andi_eq_one.1 h0
  obtain ⟨h0, r27⟩ := IntOp.andi_eq_one.1 h0
  obtain ⟨h0, r26⟩ := IntOp.andi_eq_one.1 h0
  obtain ⟨h0, r25⟩ := IntOp.andi_eq_one.1 h0
  obtain ⟨h0, r24⟩ := IntOp.andi_eq_one.1 h0
  obtain ⟨h0, r23⟩ := IntOp.andi_eq_one.1 h0
  obtain ⟨h0, r22⟩ := IntOp.andi_eq_one.1 h0
  obtain ⟨h0, r21⟩ := IntOp.andi_eq_one.1 h0
  obtain ⟨h0, r20⟩ := IntOp.andi_eq_one.1 h0
  obtain ⟨h0, r19⟩ := IntOp.andi_eq_one.1 h0
  obtain ⟨h0, r18⟩ := IntOp.andi_eq_one.1 h0
  obtain ⟨h0, r17⟩ := IntOp.andi_eq_one.1 h0
  obtain ⟨h0, r16⟩ := IntOp.andi_eq_one.1 h0
  obtain ⟨h0, r15⟩ := IntOp.andi_eq_one.1 h0
  obtain ⟨h0, r14⟩ := IntOp.andi_eq_one.1 h0
  obtain ⟨h0, r13⟩ := IntOp.andi_eq_one.1 h0
  obtain ⟨h0, r12⟩ := IntOp.andi_eq_one.1 h0
  obtain ⟨h0, r11⟩ := IntOp.andi_eq_one.1 h0
  obtain ⟨h0, r10⟩ := IntOp.andi_eq_one.1 h0
  obtain ⟨h0, r9⟩ := IntOp.andi_eq_one.1 h0
  obtain ⟨h0, r8⟩ := IntOp.andi_eq_one.1 h0
  obtain ⟨h0, r7⟩ := IntOp.andi_eq_one.1 h0
  obtain ⟨h0, r6⟩ := IntOp.andi_eq_one.1 h0
  obtain ⟨h0, r5⟩ := IntOp.andi_eq_one.1 h0
  obtain ⟨h0, r4⟩ := IntOp.andi_eq_one.1 h0
  obtain ⟨h0, r3⟩ := IntOp.andi_eq_one.1 h0
  obtain ⟨h0, r2⟩ := IntOp.andi_eq_one.1 h0
  obtain ⟨r0, r1⟩ := IntOp.andi_eq_one.1 h0
  exact
    { real0 := allReal_of_all_finite a0 _ _ _ r0
      real1 := allReal_of_all_finite a1 _ _ _ r1
      real2 := allReal_of_all_finite a2 _ _ _ r2
      real3 := allReal_of_all_finite a3 _ _ _ r3
      real4 := allReal_of_all_finite a4 _ _ _ r4
      real5 := allReal_of_all_finite a5 _ _ _ r5
      real6 := allReal_of_all_finite a6 _ _ _ r6
      real7 := allReal_of_all_finite a7 _ _ _ r7
      real8 := allReal_of_all_finite a8 _ _ _ r8
      real9 := allReal_of_all_finite a9 _ _ _ r9
      real10 := allReal_of_all_finite a10 _ _ _ r10
      real11 := allReal_of_all_finite a11 _ _ _ r11
      real12 := allReal_of_all_finite a12 _ _ _ r12
      real13 := allReal_of_all_finite a13 _ _ _ r13
      real14 := allReal_of_all_finite a14 _ _ _ r14
      real15 := allReal_of_all_finite a15 _ _ _ r15
      real16 := allReal_of_all_finite a16 _ _ _ r16
      real17 := allReal_of_all_finite a17 _ _ _ r17
      real18 := allReal_of_all_finite a18 _ _ _ r18
      real19 := allReal_of_all_finite a19 _ _ _ r19
      real20 := allReal_of_all_finite a20 _ _ _ r20
      real21 := allReal_of_all_finite a21 _ _ _ r21
      real22 := allReal_of_all_finite a22 _ _ _ r22
      real23 := allReal_of_all_finite a23 _ _ _ r23
      real24 := allReal_of_all_finite a24 _ _ _ r24
      real25 := allReal_of_all_finite a25 _ _ _ r25
      real26 := allReal_of_all_finite a26 _ _ _ r26
      real27 := allReal_of_all_finite a27 _ _ _ r27
      real28 := allReal_of_all_finite a28 _ _ _ r28
      nonneg8 := nonneg_of_all_ge a8 _ _ _ n8
      nonneg14 := nonneg_of_all_ge a14 _ _ _ n14
      nonneg20 := nonneg_of_all_ge a20 _ _ _ n20
      nonneg26 := nonneg_of_all_ge a26 _ _ _ n26 }

end Cert.Spec

end
-- ==== Proof.ArgsOk.lean ====
/-
  The precondition's facts, said of the thirty-two arguments as one record: every float array of the record is an
  array of real numbers and its four variance stacks are nonnegative.
-/
import proofs.«403491_j395136991532_1_alg».proof.Proof.PreFacts
import proofs.«403491_j395136991532_1_alg».proof.Proof.SpecNets

noncomputable section

namespace Cert.Spec

open Idealize.ShloMosaic Cert.Pre_finite_inputs

/-- The arrays in argument order are the record's fields in order; each fact is the field's. -/
theorem argsOk_of_inputFacts {a0 : FVec Ideal S1x128 .f32} {a1 : FVec Ideal S1x128 .f32} {a2 : FVec Ideal S5 .f32} {a3 : FVec Ideal S5x128x256 .f32} {a4 : FVec Ideal S5x256 .f32} {a5 : FVec Ideal S5x256 .f32} {a6 : FVec Ideal S5x256 .f32} {a7 : FVec Ideal S5x256 .f32} {a8 : FVec Ideal S5x256 .f32} {a9 : FVec Ideal S5x256x128 .f32} {a10 : FVec Ideal S5x128 .f32} {a11 : FVec Ideal S5x128 .f32} {a12 : FVec Ideal S5x128 .f32} {a13 : FVec Ideal S5x128 .f32} {a14 : FVec Ideal S5x128 .f32} {a15 : FVec Ideal S5x128x256 .f32} {a16 : FVec Ideal S5x256 .f32} {a17 : FVec Ideal S5x256 .f32} {a18 : FVec Ideal S5x256 .f32} {a19 : FVec Ideal S5x256 .f32} {a20 : FVec Ideal S5x256 .f32} {a21 : FVec Ideal S5x256x128 .f32} {a22 : FVec Ideal S5x128 .f32} {a23 : FVec Ideal S5x128 .f32} {a24 : FVec Ideal S5x128 .f32} {a25 : FVec Ideal S5x128 .f32} {a26 : FVec Ideal S5x128 .f32} {a27 : FVec Ideal S128x10 .f32} {a28 : FVec Ideal S10 .f32}
    (a29 : IVec S50000 32) (a30 : IVec S2x600000 32) (a31 : IVec S50000 32)
    (h : InputFacts a0 a1 a2 a3 a4 a5 a6 a7 a8 a9 a10 a11 a12 a13 a14 a15 a16 a17 a18 a19 a20 a21 a22 a23 a24 a25 a26 a27 a28) :
    Args.Ok (⟨a0, a1, a2, a3, a4, a5, a6, a7, a8, a9, a10, a11, a12, a13, a14, a15, a16, a17, a18, a19, a20, a21, a22, a23, a24, a25, a26, a27, a28, a29, a30, a31⟩ : Args) where
  atomEmb := h.real0
  vnEmb := h.real1
  epsA := h.real2
  W1 := h.real3
  b1 := h.real4
  g1 := h.real5
  be1 := h.real6
  m1 := h.real7
  v1 := h.real8
  W2 := h.real9
  b2 := h.real10
  gc := h.real11
  bc := h.real12
  mc := h.real13
  vc := h.real14
  vW1 := h.real15
  vb1 := h.real16
  vg1 := h.real17
  vbe1 := h.real18
  vm1 := h.real19
  vv1 := h.real20
  vW2 := h.real21
  vb2 := h.real22
  vg2 := h.real23
  vbe2 := h.real24
  vm2 := h.real25
  vv2 := h.real26
  predW := h.real27
  predb := h.real28
  v1_nonneg := h.nonneg8
  vc_nonneg := h.nonneg14
  vv1_nonneg := h.nonneg20
  vv2_nonneg := h.nonneg26

end Cert.Spec

end
-- ==== Proof.Assemble.lean ====
/-
  The five claims, from their parts.

  The two kernel programs' frames are the run of @main over its fifteen launches and eleven host stretches, read at
  the arguments: no host operation writes an argument and no launch stages one, so each ends as launched. The
  reference's frame is its straight-line run read the same way. The ideal pass rewrote nothing, so there is nothing
  to preserve. For the algebraic claim both runs are read at their result: the kernel's is the kernel's network of
  its arguments at launch, the reference's is the reference's network of its own; the arguments agree by hypothesis,
  and on arguments satisfying the precondition (every float entry real, the four variance stacks nonnegative) the two
  networks are equal.
-/
import proofs.«403491_j395136991532_1_alg».proof.Defs
import proofs.«403491_j395136991532_1_alg».proof.Proof.Gen.Pre_finite_inputs
import proofs.«403491_j395136991532_1_alg».proof.Proof.KiResult
import proofs.«403491_j395136991532_1_alg».proof.Proof.KRun
import proofs.«403491_j395136991532_1_alg».proof.Proof.KiChain
import proofs.«403491_j395136991532_1_alg».proof.Proof.RefFrame
import proofs.«403491_j395136991532_1_alg».proof.Proof.RefLink
import proofs.«403491_j395136991532_1_alg».proof.Proof.RefNet
import proofs.«403491_j395136991532_1_alg».proof.Proof.ArgsOk

noncomputable section

open Idealize.ShloMosaic Idealize.ShloMosaic.TcCoe Idealize.SL.Sem Idealize.ShloMosaic.StableHlo

namespace Cert.Proof.Parts

/-- The word-level kernel program runs to the end and leaves its arguments as launched. -/
theorem frame_p : Cert.frame_Kernel := fun m ρ _ => Cert.Kernel.Hand.frame (F := Bits) m ρ

/-- So does its reading over the extended reals. -/
theorem frame_pi : Cert.frame_KernelIdeal := fun m ρ _ => Cert.KernelIdeal.Hand.frame (F := Ideal) m ρ

/-- So does the reference. -/
theorem frame_ri : Cert.frame_ReferenceIdeal := Cert.ReferenceIdeal.HandRef.frame_ri

/-- The ideal pass rewrote no operation. -/
theorem preserves : Cert.preserves_Kernel_KernelIdeal := trivial

/-- Under the precondition the kernel's arguments at launch are real, with nonnegative variance stacks. -/
theorem args_ok (m : (ℓ : Loc Cert.KernelIdeal.nD Cert.KernelIdeal.τ Cert.KernelIdeal.sig) → Buf (Elt Ideal) ℓ)
    (hpre : Cert.Pre_KernelIdeal m) (c : Dev Cert.KernelIdeal.nD) :
    (Cert.KernelIdeal.HandValue.argsOf m c).Ok := by
  unfold Cert.KernelIdeal.HandValue.argsOf Cert.KernelIdeal.HandValue.argsOfW
  exact Cert.Spec.argsOk_of_inputFacts _ _ _ (Cert.Spec.inputFacts_of_pre _ _ _ _ _ _ _ _ _ _ _ _ _ _ _ _ _ _ _ _ _ _ _ _ _ _ _ _ _ _ _ _ (hpre c))

/-- The reference's result buffer after its operations, from a valuation `W`, is the reference's network of `W`'s
    arguments. -/
theorem ref_value (W : Valuation Cert.ReferenceIdeal.τ Cert.ReferenceIdeal.sig (Elt Ideal)) :
    after (Cert.ReferenceIdeal.HandRef.ops (F := Ideal)) W (Proc.devRef .tc Cert.ReferenceIdeal.main_v738)
      = Cert.Spec.refNet (Cert.ReferenceIdeal.HandRef.RefArgs.toSpec ⟨W (Proc.devRef .tc Cert.ReferenceIdeal.main_arg0), W (Proc.devRef .tc Cert.ReferenceIdeal.main_arg1), W (Proc.devRef .tc Cert.ReferenceIdeal.main_arg2), W (Proc.devRef .tc Cert.ReferenceIdeal.main_arg3), W (Proc.devRef .tc Cert.ReferenceIdeal.main_arg4), W (Proc.devRef .tc Cert.ReferenceIdeal.main_arg5), W (Proc.devRef .tc Cert.ReferenceIdeal.main_arg6), W (Proc.devRef .tc Cert.ReferenceIdeal.main_arg7), W (Proc.devRef .tc Cert.ReferenceIdeal.main_arg8), W (Proc.devRef .tc Cert.ReferenceIdeal.main_arg9), W (Proc.devRef .tc Cert.ReferenceIdeal.main_arg10), W (Proc.devRef .tc Cert.ReferenceIdeal.main_arg11), W (Proc.devRef .tc Cert.ReferenceIdeal.main_arg12), W (Proc.devRef .tc Cert.ReferenceIdeal.main_arg13), W (Proc.devRef .tc Cert.ReferenceIdeal.main_arg14), W (Proc.devRef .tc Cert.ReferenceIdeal.main_arg15), W (Proc.devRef .tc Cert.ReferenceIdeal.main_arg16), W (Proc.devRef .tc Cert.ReferenceIdeal.main_arg17), W (Proc.devRef .tc Cert.ReferenceIdeal.main_arg18), W (Proc.devRef .tc Cert.ReferenceIdeal.main_arg19), W (Proc.devRef .tc Cert.ReferenceIdeal.main_arg20), W (Proc.devRef .tc Cert.ReferenceIdeal.main_arg21), W (Proc.devRef .tc Cert.ReferenceIdeal.main_arg22), W (Proc.devRef .tc Cert.ReferenceIdeal.main_arg23), W (Proc.devRef .tc Cert.ReferenceIdeal.main_arg24), W (Proc.devRef .tc Cert.ReferenceIdeal.main_arg25), W (Proc.devRef .tc Cert.ReferenceIdeal.main_arg26), W (Proc.devRef .tc Cert.ReferenceIdeal.main_arg27), W (Proc.devRef .tc Cert.ReferenceIdeal.main_arg28), W (Proc.devRef .tc Cert.ReferenceIdeal.main_arg29), W (Proc.devRef .tc Cert.ReferenceIdeal.main_arg30), W (Proc.devRef .tc Cert.ReferenceIdeal.main_arg31)⟩) :=
  (Cert.ReferenceIdeal.HandRef.result_eq (F := Ideal) W).trans
    (Cert.ReferenceIdeal.HandRef.RefArgs.ref_result ⟨W (Proc.devRef .tc Cert.ReferenceIdeal.main_arg0), W (Proc.devRef .tc Cert.ReferenceIdeal.main_arg1), W (Proc.devRef .tc Cert.ReferenceIdeal.main_arg2), W (Proc.devRef .tc Cert.ReferenceIdeal.main_arg3), W (Proc.devRef .tc Cert.ReferenceIdeal.main_arg4), W (Proc.devRef .tc Cert.ReferenceIdeal.main_arg5), W (Proc.devRef .tc Cert.ReferenceIdeal.main_arg6), W (Proc.devRef .tc Cert.ReferenceIdeal.main_arg7), W (Proc.devRef .tc Cert.ReferenceIdeal.main_arg8), W (Proc.devRef .tc Cert.ReferenceIdeal.main_arg9), W (Proc.devRef .tc Cert.ReferenceIdeal.main_arg10), W (Proc.devRef .tc Cert.ReferenceIdeal.main_arg11), W (Proc.devRef .tc Cert.ReferenceIdeal.main_arg12), W (Proc.devRef .tc Cert.ReferenceIdeal.main_arg13), W (Proc.devRef .tc Cert.ReferenceIdeal.main_arg14), W (Proc.devRef .tc Cert.ReferenceIdeal.main_arg15), W (Proc.devRef .tc Cert.ReferenceIdeal.main_arg16), W (Proc.devRef .tc Cert.ReferenceIdeal.main_arg17), W (Proc.devRef .tc Cert.ReferenceIdeal.main_arg18), W (Proc.devRef .tc Cert.ReferenceIdeal.main_arg19), W (Proc.devRef .tc Cert.ReferenceIdeal.main_arg20), W (Proc.devRef .tc Cert.ReferenceIdeal.main_arg21), W (Proc.devRef .tc Cert.ReferenceIdeal.main_arg22), W (Proc.devRef .tc Cert.ReferenceIdeal.main_arg23), W (Proc.devRef .tc Cert.ReferenceIdeal.main_arg24), W (Proc.devRef .tc Cert.ReferenceIdeal.main_arg25), W (Proc.devRef .tc Cert.ReferenceIdeal.main_arg26), W (Proc.devRef .tc Cert.ReferenceIdeal.main_arg27), W (Proc.devRef .tc Cert.ReferenceIdeal.main_arg28), W (Proc.devRef .tc Cert.ReferenceIdeal.main_arg29), W (Proc.devRef .tc Cert.ReferenceIdeal.main_arg30), W (Proc.devRef .tc Cert.ReferenceIdeal.main_arg31)⟩)

/-- From memories agreeing on the arguments, under the precondition, both programs end with the same result. -/
theorem algebraic : Cert.algebraic_KernelIdeal_ReferenceIdeal := by
  intro m g m' g' hpre hagree
  refine ⟨fun c => Cert.Spec.kerNet (Cert.KernelIdeal.HandValue.argsOf m c), ?_, ?_⟩
  · exact (θ_run (Cert.KernelIdeal.defs (F := Ideal)) _ _).mono
      (fun r h c => ⟨(h c).1.trans (Cert.KernelIdeal.HandValue.ker_result m g c), (h c).2⟩)
      (Cert.KernelIdeal.Hand.run_result (F := Ideal) m g)
  · refine (θ_run (Cert.ReferenceIdeal.defs (F := Ideal)) _ _).mono (fun r h c => ⟨?_,
        (h c Cert.ReferenceIdeal.main_arg0).trans (Cert.ReferenceIdeal.HandRef.arg0_kept _),
        (h c Cert.ReferenceIdeal.main_arg1).trans (Cert.ReferenceIdeal.HandRef.arg1_kept _),
        (h c Cert.ReferenceIdeal.main_arg2).trans (Cert.ReferenceIdeal.HandRef.arg2_kept _),
        (h c Cert.ReferenceIdeal.main_arg3).trans (Cert.ReferenceIdeal.HandRef.arg3_kept _),
        (h c Cert.ReferenceIdeal.main_arg4).trans (Cert.ReferenceIdeal.HandRef.arg4_kept _),
        (h c Cert.ReferenceIdeal.main_arg5).trans (Cert.ReferenceIdeal.HandRef.arg5_kept _),
        (h c Cert.ReferenceIdeal.main_arg6).trans (Cert.ReferenceIdeal.HandRef.arg6_kept _),
        (h c Cert.ReferenceIdeal.main_arg7).trans (Cert.ReferenceIdeal.HandRef.arg7_kept _),
        (h c Cert.ReferenceIdeal.main_arg8).trans (Cert.ReferenceIdeal.HandRef.arg8_kept _),
        (h c Cert.ReferenceIdeal.main_arg9).trans (Cert.ReferenceIdeal.HandRef.arg9_kept _),
        (h c Cert.ReferenceIdeal.main_arg10).trans (Cert.ReferenceIdeal.HandRef.arg10_kept _),
        (h c Cert.ReferenceIdeal.main_arg11).trans (Cert.ReferenceIdeal.HandRef.arg11_kept _),
        (h c Cert.ReferenceIdeal.main_arg12).trans (Cert.ReferenceIdeal.HandRef.arg12_kept _),
        (h c Cert.ReferenceIdeal.main_arg13).trans (Cert.ReferenceIdeal.HandRef.arg13_kept _),
        (h c Cert.ReferenceIdeal.main_arg14).trans (Cert.ReferenceIdeal.HandRef.arg14_kept _),
        (h c Cert.ReferenceIdeal.main_arg15).trans (Cert.ReferenceIdeal.HandRef.arg15_kept _),
        (h c Cert.ReferenceIdeal.main_arg16).trans (Cert.ReferenceIdeal.HandRef.arg16_kept _),
        (h c Cert.ReferenceIdeal.main_arg17).trans (Cert.ReferenceIdeal.HandRef.arg17_kept _),
        (h c Cert.ReferenceIdeal.main_arg18).trans (Cert.ReferenceIdeal.HandRef.arg18_kept _),
        (h c Cert.ReferenceIdeal.main_arg19).trans (Cert.ReferenceIdeal.HandRef.arg19_kept _),
        (h c Cert.ReferenceIdeal.main_arg20).trans (Cert.ReferenceIdeal.HandRef.arg20_kept _),
        (h c Cert.ReferenceIdeal.main_arg21).trans (Cert.ReferenceIdeal.HandRef.arg21_kept _),
        (h c Cert.ReferenceIdeal.main_arg22).trans (Cert.ReferenceIdeal.HandRef.arg22_kept _),
        (h c Cert.ReferenceIdeal.main_arg23).trans (Cert.ReferenceIdeal.HandRef.arg23_kept _),
        (h c Cert.ReferenceIdeal.main_arg24).trans (Cert.ReferenceIdeal.HandRef.arg24_kept _),
        (h c Cert.ReferenceIdeal.main_arg25).trans (Cert.ReferenceIdeal.HandRef.arg25_kept _),
        (h c Cert.ReferenceIdeal.main_arg26).trans (Cert.ReferenceIdeal.HandRef.arg26_kept _),
        (h c Cert.ReferenceIdeal.main_arg27).trans (Cert.ReferenceIdeal.HandRef.arg27_kept _),
        (h c Cert.ReferenceIdeal.main_arg28).trans (Cert.ReferenceIdeal.HandRef.arg28_kept _),
        (h c Cert.ReferenceIdeal.main_arg29).trans (Cert.ReferenceIdeal.HandRef.arg29_kept _),
        (h c Cert.ReferenceIdeal.main_arg30).trans (Cert.ReferenceIdeal.HandRef.arg30_kept _),
        (h c Cert.ReferenceIdeal.main_arg31).trans (Cert.ReferenceIdeal.HandRef.arg31_kept _)⟩)
      (Cert.ReferenceIdeal.HandRef.run (F := Ideal) m' g')
    have hargs : Cert.ReferenceIdeal.HandRef.RefArgs.toSpec
          ⟨launchContents m' c (Proc.devRef .tc Cert.ReferenceIdeal.main_arg0), launchContents m' c (Proc.devRef .tc Cert.ReferenceIdeal.main_arg1), launchContents m' c (Proc.devRef .tc Cert.ReferenceIdeal.main_arg2), launchContents m' c (Proc.devRef .tc Cert.ReferenceIdeal.main_arg3), launchContents m' c (Proc.devRef .tc Cert.ReferenceIdeal.main_arg4), launchContents m' c (Proc.devRef .tc Cert.ReferenceIdeal.main_arg5), launchContents m' c (Proc.devRef .tc Cert.ReferenceIdeal.main_arg6), launchContents m' c (Proc.devRef .tc Cert.ReferenceIdeal.main_arg7), launchContents m' c (Proc.devRef .tc Cert.ReferenceIdeal.main_arg8), launchContents m' c (Proc.devRef .tc Cert.ReferenceIdeal.main_arg9), launchContents m' c (Proc.devRef .tc Cert.ReferenceIdeal.main_arg10), launchContents m' c (Proc.devRef .tc Cert.ReferenceIdeal.main_arg11), launchContents m' c (Proc.devRef .tc Cert.ReferenceIdeal.main_arg12), launchContents m' c (Proc.devRef .tc Cert.ReferenceIdeal.main_arg13), launchContents m' c (Proc.devRef .tc Cert.ReferenceIdeal.main_arg14), launchContents m' c (Proc.devRef .tc Cert.ReferenceIdeal.main_arg15), launchContents m' c (Proc.devRef .tc Cert.ReferenceIdeal.main_arg16), launchContents m' c (Proc.devRef .tc Cert.ReferenceIdeal.main_arg17), launchContents m' c (Proc.devRef .tc Cert.ReferenceIdeal.main_arg18), launchContents m' c (Proc.devRef .tc Cert.ReferenceIdeal.main_arg19), launchContents m' c (Proc.devRef .tc Cert.ReferenceIdeal.main_arg20), launchContents m' c (Proc.devRef .tc Cert.ReferenceIdeal.main_arg21), launchContents m' c (Proc.devRef .tc Cert.ReferenceIdeal.main_arg22), launchContents m' c (Proc.devRef .tc Cert.ReferenceIdeal.main_arg23), launchContents m' c (Proc.devRef .tc Cert.ReferenceIdeal.main_arg24), launchContents m' c (Proc.devRef .tc Cert.ReferenceIdeal.main_arg25), launchContents m' c (Proc.devRef .tc Cert.ReferenceIdeal.main_arg26), launchContents m' c (Proc.devRef .tc Cert.ReferenceIdeal.main_arg27), launchContents m' c (Proc.devRef .tc Cert.ReferenceIdeal.main_arg28), launchContents m' c (Proc.devRef .tc Cert.ReferenceIdeal.main_arg29), launchContents m' c (Proc.devRef .tc Cert.ReferenceIdeal.main_arg30), launchContents m' c (Proc.devRef .tc Cert.ReferenceIdeal.main_arg31)⟩
        = Cert.KernelIdeal.HandValue.argsOf m c := by
      obtain ⟨h0, h1, h2, h3, h4, h5, h6, h7, h8, h9, h10, h11, h12, h13, h14, h15, h16, h17, h18, h19, h20, h21, h22, h23, h24, h25, h26, h27, h28, h29, h30, h31⟩ := hagree c
      unfold Cert.KernelIdeal.HandValue.argsOf Cert.KernelIdeal.HandValue.argsOfW Cert.ReferenceIdeal.HandRef.RefArgs.toSpec
      congr 1 <;> assumption
    rw [h c Cert.ReferenceIdeal.main_v738, ref_value (launchContents m' c), hargs]
    exact (Cert.Spec.kerNet_eq_refNet (args_ok m hpre c)).symm

end Cert.Proof.Parts

end
-- ==== Proof.lean ====
/-
  A five-layer graph network with a virtual node, run on fifty thousand nodes, six hundred thousand edges and 256
  graphs: the kernel program (fifteen tiled launches: a node-level two-layer perceptron per layer, a per-graph sum of
  node rows by comparing graph ids with graph indices, a graph-level perceptron for the virtual node, and a head) against
  its plain reference.

  Every layer's two affine images are a batch norm. The reference computes ((x - m) * g) / sqrt (v + 1e-5) + b; the
  kernel folds scale = g / sqrt (v + 1e-5) and shift = b - m * scale on the host and applies x * scale + shift. On real
  numbers with v >= 0 the two are equal by the field laws; at an infinity they are not (multiplication does not
  distribute over subtraction there), and at v + 1e-5 <= 0 the reference itself divides by zero or takes the square
  root of a negative. So the claim is read under the precondition that every float input is finite and the four
  variance stacks are nonnegative; every intermediate value is then a real number, layer after layer, and the two
  networks compute the same ten numbers for every graph. The gathers and scatter-adds are the same host operations in
  both programs and are never opened; the kernel's pooling by comparison and the reference's by scatter-add are the
  same finite sums, an id outside the 256 graphs contributing to neither.

  The frames: the kernel's @main is eleven stretches of host operations around fifteen launches; each launch's body is
  run once per grid point against the staged blocks (the pooling launches carry an accumulator across their ten
  points), no host operation writes an argument and no launch stages one, so the arguments end as launched. The
  reference is a straight line of host operations. The ideal pass rewrote nothing.
-/
import proofs.«403491_j395136991532_1_alg».proof.Defs
import proofs.«403491_j395136991532_1_alg».proof.Proof.Gen.Kernel
import proofs.«403491_j395136991532_1_alg».proof.Proof.Gen.Kernel.Skeleton
import proofs.«403491_j395136991532_1_alg».proof.Proof.Gen.Kernel.Launch
import proofs.«403491_j395136991532_1_alg».proof.Proof.Gen.Kernel.Regions
import proofs.«403491_j395136991532_1_alg».proof.Proof.Gen.Kernel.Points
import proofs.«403491_j395136991532_1_alg».proof.Proof.Gen.KernelIdeal
import proofs.«403491_j395136991532_1_alg».proof.Proof.Gen.KernelIdeal.Skeleton
import proofs.«403491_j395136991532_1_alg».proof.Proof.Gen.KernelIdeal.Launch
import proofs.«403491_j395136991532_1_alg».proof.Proof.Gen.KernelIdeal.Regions
import proofs.«403491_j395136991532_1_alg».proof.Proof.Gen.KernelIdeal.Points
import proofs.«403491_j395136991532_1_alg».proof.Proof.Gen.ReferenceIdeal
import proofs.«403491_j395136991532_1_alg».proof.Proof.Gen.Pre_finite_inputs
import Idealize.ShloMosaic.Adequacy
import Idealize.ShloMosaic.Init
import proofs.«403491_j395136991532_1_alg».proof.Proof.Assemble

noncomputable section

namespace Cert.Proof

open Idealize.ShloMosaic Idealize.SL.Sem

/-- The certificate: the programs' stated side conditions, the three frames, the (empty) idealization ledger and the
    equality of the two results over the extended reals. -/
theorem claim : Cert.Claim :=
  ⟨Cert.Kernel.Gen.facts, Cert.KernelIdeal.Gen.facts, Cert.ReferenceIdeal.Gen.facts, Cert.Pre_finite_inputs.Gen.facts,
    Parts.frame_p, Parts.frame_pi, Parts.frame_ri, Parts.preserves, Parts.algebraic⟩

end Cert.Proof

end
